-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v491)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v491) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v584) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S50000x384 : Shape := ⟨2, ![50000, 384]⟩
abbrev S50x64 : Shape := ⟨2, ![50, 64]⟩
abbrev S20000x64 : Shape := ⟨2, ![20000, 64]⟩
abbrev S10x64 : Shape := ⟨2, ![10, 64]⟩
abbrev S64x384 : Shape := ⟨2, ![64, 384]⟩
abbrev S64 : Shape := ⟨1, ![64]⟩
abbrev S8x64x64 : Shape := ⟨3, ![8, 64, 64]⟩
abbrev S8x64 : Shape := ⟨2, ![8, 64]⟩
abbrev S2x1000000 : Shape := ⟨2, ![2, 1000000]⟩
abbrev S2x150000 : Shape := ⟨2, ![2, 150000]⟩
abbrev S2x50000 : Shape := ⟨2, ![2, 50000]⟩
abbrev S2x200000 : Shape := ⟨2, ![2, 200000]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S50000x384 : S_.BroadcastsInDim S50000x384 (![] : Fin 0 → Fin S50000x384.rank)
  reducesTo_S50000x384_S_d0_1 : S50000x384.ReducesTo [0, 1] S_
  bcast_S_S50x64 : S_.BroadcastsInDim S50x64 (![] : Fin 0 → Fin S50x64.rank)
  reducesTo_S50x64_S_d0_1 : S50x64.ReducesTo [0, 1] S_
  bcast_S_S20000x64 : S_.BroadcastsInDim S20000x64 (![] : Fin 0 → Fin S20000x64.rank)
  reducesTo_S20000x64_S_d0_1 : S20000x64.ReducesTo [0, 1] S_
  bcast_S_S10x64 : S_.BroadcastsInDim S10x64 (![] : Fin 0 → Fin S10x64.rank)
  reducesTo_S10x64_S_d0_1 : S10x64.ReducesTo [0, 1] S_
  bcast_S_S64x384 : S_.BroadcastsInDim S64x384 (![] : Fin 0 → Fin S64x384.rank)
  reducesTo_S64x384_S_d0_1 : S64x384.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part4 {F : FTy → Type} [FloatOps F] (main_arg14 : FVec F S8x64x64 .f32) (main_v63 : IVec S_ 1) (main_v67 : IVec S_ 1) : IVec S_ 1 :=
  let main_v68 : IVec S_ 1 := andi main_v63 main_v67
  let main_v69 : FVec F S8x64x64 .f32 := Host.absf main_arg14
  let main_cst_26 : FVec F S_ .f32 := constant S_ .f32 0x7F800000#32
  let main_v70 : FVec F S8x64x64 .f32 := broadcastInDim S8x64x64 ![] bcast_S_S8x64x64 main_cst_26
  let main_v71 : IVec S8x64x64 1 := cmpf .olt main_v69 main_v70
  let main_c_27 : IVec S_ 1 := constantI S_ 1 1#1
  let main_v72 : IVec S_ 1 := (fun x v => Host.reduce IntOp.andi x v reducesTo_S8x64x64_S_d0_1_2 h_S_) main_v71 main_c_27
  let main_v73 : IVec S_ 1 := andi main_v68 main_v72
  main_v73

def fn_part3 {F : FTy → Type} [FloatOps F] (main_arg11 : FVec F S8x64x64 .f32) (main_arg12 : FVec F S8x64x64 .f32) (main_arg13 : FVec F S8x64 .f32) (main_arg14 : FVec F S8x64x64 .f32) (main_v48 : IVec S_ 1) (main_v49 : FVec F S8x64 .f32) (main_v50 : FVec F S8x64 .f32) : IVec S_ 1 :=
  let main_v51 : IVec S8x64 1 := cmpf .olt main_v49 main_v50
  let main_c_19 : IVec S_ 1 := constantI S_ 1 1#1
  let main_v52 : IVec S_ 1 := (fun x v => Host.reduce IntOp.andi x v reducesTo_S8x64_S_d0_1 h_S_) main_v51 main_c_19
  let main_v53 : IVec S_ 1 := andi main_v48 main_v52
  let main_v54 : FVec F S8x64x64 .f32 := Host.absf main_arg11
  let main_cst_20 : FVec F S_ .f32 := constant S_ .f32 0x7F800000#32
  let main_v55 : FVec F S8x64x64 .f32 := broadcastInDim S8x64x64 ![] bcast_S_S8x64x64 main_cst_20
  let main_v56 : IVec S8x64x64 1 := cmpf .olt main_v54 main_v55
  let main_c_21 : IVec S_ 1 := constantI S_ 1 1#1
  let main_v57 : IVec S_ 1 := (fun x v => Host.reduce IntOp.andi x v reducesTo_S8x64x64_S_d0_1_2 h_S_) main_v56 main_c_21
  let main_v58 : IVec S_ 1 := andi main_v53 main_v57
  let main_v59 : FVec F S8x64x64 .f32 := Host.absf main_arg12
  let main_cst_22 : FVec F S_ .f32 := constant S_ .f32 0x7F800000#32
  let main_v60 : FVec F S8x64x64 .f32 := broadcastInDim S8x64x64 ![] bcast_S_S8x64x64 main_cst_22
  let main_v61 : IVec S8x64x64 1 := cmpf .olt main_v59 main_v60
  let main_c_23 : IVec S_ 1 := constantI S_ 1 1#1
  let main_v62 : IVec S_ 1 := (fun x v => Host.reduce IntOp.andi x v reducesTo_S8x64x64_S_d0_1_2 h_S_) main_v61 main_c_23
  let main_v63 : IVec S_ 1 := andi main_v58 main_v62
  let main_v64 : FVec F S8x64 .f32 := Host.absf main_arg13
  let main_cst_24 : FVec F S_ .f32 := constant S_ .f32 0x7F800000#32
  let main_v65 : FVec F S8x64 .f32 := broadcastInDim S8x64 ![] bcast_S_S8x64 main_cst_24
  let main_v66 : IVec S8x64 1 := cmpf .olt main_v64 main_v65
  let main_c_25 : IVec S_ 1 := constantI S_ 1 1#1
  let main_v67 : IVec S_ 1 := (fun x v => Host.reduce IntOp.andi x v reducesTo_S8x64_S_d0_1 h_S_) main_v66 main_c_25
  fn_part4 (F := F) main_arg14 main_v63 main_v67

def fn_part2 {F : FTy → Type} [FloatOps F] (main_arg7 : FVec F S64x384 .f32) (main_arg8 : FVec F S64 .f32) (main_arg9 : FVec F S8x64x64 .f32) (main_arg10 : FVec F S8x64 .f32) (main_arg11 : FVec F S8x64x64 .f32) (main_arg12 : FVec F S8x64x64 .f32) (main_arg13 : FVec F S8x64 .f32) (main_arg14 : FVec F S8x64x64 .f32) (main_v33 : IVec S_ 1) : IVec S_ 1 :=
  let main_v34 : FVec F S64x384 .f32 := Host.absf main_arg7
  let main_cst_12 : FVec F S_ .f32 := constant S_ .f32 0x7F800000#32
  let main_v35 : FVec F S64x384 .f32 := broadcastInDim S64x384 ![] bcast_S_S64x384 main_cst_12
  let main_v36 : IVec S64x384 1 := cmpf .olt main_v34 main_v35
  let main_c_13 : IVec S_ 1 := constantI S_ 1 1#1
  let main_v37 : IVec S_ 1 := (fun x v => Host.reduce IntOp.andi x v reducesTo_S64x384_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S8x64x64 .f32 := Host.absf main_arg9
  let main_cst_16 : FVec F S_ .f32 := constant S_ .f32 0x7F800000#32
  let main_v45 : FVec F S8x64x64 .f32 := broadcastInDim S8x64x64 ![] bcast_S_S8x64x64 main_cst_16
  let main_v46 : IVec S8x64x64 1 := cmpf .olt main_v44 main_v45
  let main_c_17 : IVec S_ 1 := constantI S_ 1 1#1
  let main_v47 : IVec S_ 1 := (fun x v => Host.reduce IntOp.andi x v reducesTo_S8x64x64_S_d0_1_2 h_S_) main_v46 main_c_17
  let main_v48 : IVec S_ 1 := andi main_v43 main_v47
  let main_v49 : FVec F S8x64 .f32 := Host.absf main_arg10
  let main_cst_18 : FVec F S_ .f32 := constant S_ .f32 0x7F800000#32
  let main_v50 : FVec F S8x64 .f32 := broadcastInDim S8x64 ![] bcast_S_S8x64 main_cst_18
  fn_part3 (F := F) main_arg11 main_arg12 main_arg13 main_arg14 main_v48 main_v49 main_v50

def fn_part1 {F : FTy → Type} [FloatOps F] (main_arg4 : FVec F S10x64 .f32) (main_arg5 : FVec F S64x384 .f32) (main_arg6 : FVec F S64 .f32) (main_arg7 : FVec F S64x384 .f32) (main_arg8 : FVec F S64 .f32) (main_arg9 : FVec F S8x64x64 .f32) (main_arg10 : FVec F S8x64 .f32) (main_arg11 : FVec F S8x64x64 .f32) (main_arg12 : FVec F S8x64x64 .f32) (main_arg13 : FVec F S8x64 .f32) (main_arg14 : FVec F S8x64x64 .f32) (main_v13 : IVec S_ 1) (main_v16 : IVec S20000x64 1) : IVec S_ 1 :=
  let main_c_5 : IVec S_ 1 := constantI S_ 1 1#1
  let main_v17 : IVec S_ 1 := (fun x v => Host.reduce IntOp.andi x v reducesTo_S20000x64_S_d0_1 h_S_) main_v16 main_c_5
  let main_v18 : IVec S_ 1 := andi main_v13 main_v17
  let main_v19 : FVec F S10x64 .f32 := Host.absf main_arg4
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S64x384 .f32 := Host.absf main_arg5
  let main_cst_8 : FVec F S_ .f32 := constant S_ .f32 0x7F800000#32
  let main_v25 : FVec F S64x384 .f32 := broadcastInDim S64x384 ![] bcast_S_S64x384 main_cst_8
  let main_v26 : IVec S64x384 1 := cmpf .olt main_v24 main_v25
  let main_c_9 : IVec S_ 1 := constantI S_ 1 1#1
  let main_v27 : IVec S_ 1 := (fun x v => Host.reduce IntOp.andi x v reducesTo_S64x384_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x384 .f32) (main_arg1 : FVec F S50000x384 .f32) (main_arg2 : FVec F S50x64 .f32) (main_arg3 : FVec F S20000x64 .f32) (main_arg4 : FVec F S10x64 .f32) (main_arg5 : FVec F S64x384 .f32) (main_arg6 : FVec F S64 .f32) (main_arg7 : FVec F S64x384 .f32) (main_arg8 : FVec F S64 .f32) (main_arg9 : FVec F S8x64x64 .f32) (main_arg10 : FVec F S8x64 .f32) (main_arg11 : FVec F S8x64x64 .f32) (main_arg12 : FVec F S8x64x64 .f32) (main_arg13 : FVec F S8x64 .f32) (main_arg14 : FVec F S8x64x64 .f32) (main_arg15 : IVec S2x1000000 32) (main_arg16 : IVec S2x150000 32) (main_arg17 : IVec S2x50000 32) (main_arg18 : IVec S2x50000 32) (main_arg19 : IVec S2x200000 32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S50000x384 .f32 := Host.absf main_arg1
  let main_cst_0 : FVec F S_ .f32 := constant S_ .f32 0x7F800000#32
  let main_v5 : FVec F S50000x384 .f32 := broadcastInDim S50000x384 ![] bcast_S_S50000x384 main_cst_0
  let main_v6 : IVec S50000x384 1 := cmpf .olt main_v4 main_v5
  let main_c_1 : IVec S_ 1 := constantI S_ 1 1#1
  let main_v7 : IVec S_ 1 := (fun x v => Host.reduce IntOp.andi x v reducesTo_S50000x384_S_d0_1 h_S_) main_v6 main_c_1
  let main_v8 : IVec S_ 1 := andi main_v3 main_v7
  let main_v9 : FVec F S50x64 .f32 := Host.absf main_arg2
  let main_cst_2 : FVec F S_ .f32 := constant S_ .f32 0x7F800000#32
  let main_v10 : FVec F S50x64 .f32 := broadcastInDim S50x64 ![] bcast_S_S50x64 main_cst_2
  let main_v11 : IVec S50x64 1 := cmpf .olt main_v9 main_v10
  let main_c_3 : IVec S_ 1 := constantI S_ 1 1#1
  let main_v12 : IVec S_ 1 := (fun x v => Host.reduce IntOp.andi x v reducesTo_S50x64_S_d0_1 h_S_) main_v11 main_c_3
  let main_v13 : IVec S_ 1 := andi main_v8 main_v12
  let main_v14 : FVec F S20000x64 .f32 := Host.absf main_arg3
  let main_cst_4 : FVec F S_ .f32 := constant S_ .f32 0x7F800000#32
  let main_v15 : FVec F S20000x64 .f32 := broadcastInDim S20000x64 ![] bcast_S_S20000x64 main_cst_4
  let main_v16 : IVec S20000x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x384 : Shape := ⟨2, ![100000, 384]⟩
abbrev S50000x384 : Shape := ⟨2, ![50000, 384]⟩
abbrev S50x64 : Shape := ⟨2, ![50, 64]⟩
abbrev S20000x64 : Shape := ⟨2, ![20000, 64]⟩
abbrev S10x64 : Shape := ⟨2, ![10, 64]⟩
abbrev S64x384 : Shape := ⟨2, ![64, 384]⟩
abbrev S64 : Shape := ⟨1, ![64]⟩
abbrev S8x64x64 : Shape := ⟨3, ![8, 64, 64]⟩
abbrev S8x64 : Shape := ⟨2, ![8, 64]⟩
abbrev S2x1000000 : Shape := ⟨2, ![2, 1000000]⟩
abbrev S2x150000 : Shape := ⟨2, ![2, 150000]⟩
abbrev S2x50000 : Shape := ⟨2, ![2, 50000]⟩
abbrev S2x200000 : Shape := ⟨2, ![2, 200000]⟩
abbrev S384x64 : Shape := ⟨2, ![384, 64]⟩
abbrev S1x64 : Shape := ⟨2, ![1, 64]⟩
abbrev S100000x64 : Shape := ⟨2, ![100000, 64]⟩
abbrev S10000x384 : Shape := ⟨2, ![10000, 384]⟩
abbrev S10000x64 : Shape := ⟨2, ![10000, 64]⟩
abbrev S50000x64 : Shape := ⟨2, ![50000, 64]⟩
abbrev S1x1000000 : Shape := ⟨2, ![1, 1000000]⟩
abbrev S1000000 : Shape := ⟨1, ![1000000]⟩
abbrev S1x150000 : Shape := ⟨2, ![1, 150000]⟩
abbrev S150000 : Shape := ⟨1, ![150000]⟩
abbrev S1x50000 : Shape := ⟨2, ![1, 50000]⟩
abbrev S50000 : Shape := ⟨1, ![50000]⟩
abbrev S_ : Shape := ⟨0, ![]⟩
abbrev S1000000x1 : Shape := ⟨2, ![1000000, 1]⟩
abbrev S50000x1 : Shape := ⟨2, ![50000, 1]⟩
abbrev S100000x1 : Shape := ⟨2, ![100000, 1]⟩
abbrev S150000x1 : Shape := ⟨2, ![150000, 1]⟩
abbrev S50x1 : Shape := ⟨2, ![50, 1]⟩
abbrev S20000x1 : Shape := ⟨2, ![20000, 1]⟩
abbrev S10x1 : Shape := ⟨2, ![10, 1]⟩
abbrev S1000000x64 : Shape := ⟨2, ![1000000, 64]⟩
abbrev S1x64x64 : Shape := ⟨3, ![1, 64, 64]⟩
abbrev S64x64 : Shape := ⟨2, ![64, 64]⟩
abbrev S150000x64 : Shape := ⟨2, ![150000, 64]⟩
abbrev S4x64 : Shape := ⟨2, ![4, 64]⟩
abbrev S4x64x64 : Shape := ⟨3, ![4, 64, 64]⟩
abbrev S51576x64 : Shape := ⟨2, ![51576, 64]⟩
abbrev S51576x1 : Shape := ⟨2, ![51576, 1]⟩
abbrev S2456x64 : Shape := ⟨2, ![2456, 64]⟩
abbrev S2456x1 : Shape := ⟨2, ![2456, 1]⟩
abbrev S104448x64 : Shape := ⟨2, ![104448, 64]⟩
abbrev S104448x1 : Shape := ⟨2, ![104448, 1]⟩
abbrev S6144x64 : Shape := ⟨2, ![6144, 64]⟩
abbrev S6144x1 : Shape := ⟨2, ![6144, 1]⟩
abbrev S24576x64 : Shape := ⟨2, ![24576, 64]⟩
abbrev S24576x1 : Shape := ⟨2, ![24576, 1]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200704x64 : Shape := ⟨2, ![200704, 64]⟩
abbrev S200704 : Shape := ⟨1, ![200704]⟩
abbrev S4096x64 : Shape := ⟨2, ![4096, 64]⟩
abbrev S4096 : Shape := ⟨1, ![4096]⟩

abbrev nBuf : Space → Nat
  | .hbm => 664
  | .vmem => 142
  | .smem => 0
  | _ => 0

abbrev hbmTy0_0 (i : Nat) : BufTy := match i % 128 with
  | 0 => ⟨S100000x384, .f32⟩
  | 1 => ⟨S50000x384, .f32⟩
  | 2 => ⟨S50x64, .f32⟩
  | 3 => ⟨S20000x64, .f32⟩
  | 4 => ⟨S10x64, .f32⟩
  | 5 => ⟨S64x384, .f32⟩
  | 6 => ⟨S64, .f32⟩
  | 7 => ⟨S64x384, .f32⟩
  | 8 => ⟨S64, .f32⟩
  | 9 => ⟨S8x64x64, .f32⟩
  | 10 => ⟨S8x64, .f32⟩
  | 11 => ⟨S8x64x64, .f32⟩
  | 12 => ⟨S8x64x64, .f32⟩
  | 13 => ⟨S8x64, .f32⟩
  | 14 => ⟨S8x64x64, .f32⟩
  | 15 => ⟨S2x1000000, .i32⟩
  | 16 => ⟨S2x150000, .i32⟩
  | 17 => ⟨S2x50000, .i32⟩
  | 18 => ⟨S2x50000, .i32⟩
  | 19 => ⟨S2x200000, .i32⟩
  | 20 => ⟨S384x64, .f32⟩
  | 21 => ⟨S1x64, .f32⟩
  | 22 => ⟨S100000x64, .f32⟩
  | 23 => ⟨S384x64, .f32⟩
  | 24 => ⟨S1x64, .f32⟩
  | 25 => ⟨S50000x64, .f32⟩
  | 26 => ⟨S1x1000000, .i32⟩
  | 27 => ⟨S1000000, .i32⟩
  | 28 => ⟨S1x1000000, .i32⟩
  | 29 => ⟨S1000000, .i32⟩
  | 30 => ⟨S1x1000000, .i32⟩
  | 31 => ⟨S1000000, .i32⟩
  | 32 => ⟨S1x1000000, .i32⟩
  | 33 => ⟨S1000000, .i32⟩
  | 34 => ⟨S1x150000, .i32⟩
  | 35 => ⟨S150000, .i32⟩
  | 36 => ⟨S1x150000, .i32⟩
  | 37 => ⟨S150000, .i32⟩
  | 38 => ⟨S1x150000, .i32⟩
  | 39 => ⟨S150000, .i32⟩
  | 40 => ⟨S1x150000, .i32⟩
  | 41 => ⟨S150000, .i32⟩
  | 42 => ⟨S1x50000, .i32⟩
  | 43 => ⟨S50000, .i32⟩
  | 44 => ⟨S1x50000, .i32⟩
  | 45 => ⟨S50000, .i32⟩
  | 46 => ⟨S1x50000, .i32⟩
  | 47 => ⟨S50000, .i32⟩
  | 48 => ⟨S1x50000, .i32⟩
  | 49 => ⟨S50000, .i32⟩
  | 50 => ⟨S1x50000, .i32⟩
  | 51 => ⟨S50000, .i32⟩
  | 52 => ⟨S1x50000, .i32⟩
  | 53 => ⟨S50000, .i32⟩
  | 54 => ⟨S1x50000, .i32⟩
  | 55 => ⟨S50000, .i32⟩
  | 56 => ⟨S1x50000, .i32⟩
  | 57 => ⟨S50000, .i32⟩
  | 58 => ⟨S_, .f32⟩
  | 59 => ⟨S1000000x1, .f32⟩
  | 60 => ⟨S_, .f32⟩
  | 61 => ⟨S50000x1, .f32⟩
  | 62 => ⟨S1000000x1, .i32⟩
  | 63 => ⟨S50000x1, .f32⟩
  | 64 => ⟨S_, .f32⟩
  | 65 => ⟨S1000000x1, .f32⟩
  | 66 => ⟨S_, .f32⟩
  | 67 => ⟨S100000x1, .f32⟩
  | 68 => ⟨S1000000x1, .i32⟩
  | 69 => ⟨S100000x1, .f32⟩
  | 70 => ⟨S_, .f32⟩
  | 71 => ⟨S150000x1, .f32⟩
  | 72 => ⟨S_, .f32⟩
  | 73 => ⟨S50000x1, .f32⟩
  | 74 => ⟨S150000x1, .i32⟩
  | 75 => ⟨S50000x1, .f32⟩
  | 76 => ⟨S_, .f32⟩
  | 77 => ⟨S150000x1, .f32⟩
  | 78 => ⟨S_, .f32⟩
  | 79 => ⟨S50x1, .f32⟩
  | 80 => ⟨S150000x1, .i32⟩
  | 81 => ⟨S50x1, .f32⟩
  | 82 => ⟨S_, .f32⟩
  | 83 => ⟨S50000x1, .f32⟩
  | 84 => ⟨S_, .f32⟩
  | 85 => ⟨S50000x1, .f32⟩
  | 86 => ⟨S50000x1, .i32⟩
  | 87 => ⟨S50000x1, .f32⟩
  | 88 => ⟨S_, .f32⟩
  | 89 => ⟨S50000x1, .f32⟩
  | 90 => ⟨S_, .f32⟩
  | 91 => ⟨S20000x1, .f32⟩
  | 92 => ⟨S50000x1, .i32⟩
  | 93 => ⟨S20000x1, .f32⟩
  | 94 => ⟨S_, .f32⟩
  | 95 => ⟨S50000x1, .f32⟩
  | 96 => ⟨S_, .f32⟩
  | 97 => ⟨S50000x1, .f32⟩
  | 98 => ⟨S50000x1, .i32⟩
  | 99 => ⟨S50000x1, .f32⟩
  | 100 => ⟨S_, .f32⟩
  | 101 => ⟨S50000x1, .f32⟩
  | 102 => ⟨S_, .f32⟩
  | 103 => ⟨S10x1, .f32⟩
  | 104 => ⟨S50000x1, .i32⟩
  | 105 => ⟨S10x1, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S_, .f32⟩
  | 116 => ⟨S50000x64, .f32⟩
  | 117 => ⟨S1000000x1, .i32⟩
  | 118 => ⟨S50000x64, .f32⟩
  | 119 => ⟨S1x64x64, .f32⟩
  | 120 => ⟨S64x64, .f32⟩
  | 121 => ⟨S64x64, .f32⟩
  | 122 => ⟨S1x64, .f32⟩
  | 123 => ⟨S64, .f32⟩
  | 124 => ⟨S1x64x64, .f32⟩
  | 125 => ⟨S64x64, .f32⟩
  | 126 => ⟨S64x64, .f32⟩
  | 127 => ⟨S_, .i32⟩
  | _ => ⟨S100000x384, .f32⟩

abbrev hbmTy0_1 (i : Nat) : BufTy := match i % 128 with
  | 0 => ⟨S150000, .i32⟩
  | 1 => ⟨S150000, .i1⟩
  | 2 => ⟨S_, .i32⟩
  | 3 => ⟨S150000, .i32⟩
  | 4 => ⟨S150000, .i32⟩
  | 5 => ⟨S150000, .i32⟩
  | 6 => ⟨S150000x1, .i32⟩
  | 7 => ⟨S150000x64, .f32⟩
  | 8 => ⟨S_, .f32⟩
  | 9 => ⟨S50000x64, .f32⟩
  | 10 => ⟨S150000x1, .i32⟩
  | 11 => ⟨S50000x64, .f32⟩
  | 12 => ⟨S1x64x64, .f32⟩
  | 13 => ⟨S64x64, .f32⟩
  | 14 => ⟨S64x64, .f32⟩
  | 15 => ⟨S1x64, .f32⟩
  | 16 => ⟨S64, .f32⟩
  | 17 => ⟨S1x64x64, .f32⟩
  | 18 => ⟨S64x64, .f32⟩
  | 19 => ⟨S64x64, .f32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x64, .f32⟩
  | 29 => ⟨S_, .f32⟩
  | 30 => ⟨S50000x64, .f32⟩
  | 31 => ⟨S50000x1, .i32⟩
  | 32 => ⟨S50000x64, .f32⟩
  | 33 => ⟨S1x64x64, .f32⟩
  | 34 => ⟨S64x64, .f32⟩
  | 35 => ⟨S64x64, .f32⟩
  | 36 => ⟨S1x64, .f32⟩
  | 37 => ⟨S64, .f32⟩
  | 38 => ⟨S1x64x64, .f32⟩
  | 39 => ⟨S64x64, .f32⟩
  | 40 => ⟨S64x64, .f32⟩
  | 41 => ⟨S_, .i32⟩
  | 42 => ⟨S50000, .i32⟩
  | 43 => ⟨S50000, .i1⟩
  | 44 => ⟨S_, .i32⟩
  | 45 => ⟨S50000, .i32⟩
  | 46 => ⟨S50000, .i32⟩
  | 47 => ⟨S50000, .i32⟩
  | 48 => ⟨S50000x1, .i32⟩
  | 49 => ⟨S50000x64, .f32⟩
  | 50 => ⟨S_, .f32⟩
  | 51 => ⟨S50000x64, .f32⟩
  | 52 => ⟨S50000x1, .i32⟩
  | 53 => ⟨S50000x64, .f32⟩
  | 54 => ⟨S1x64x64, .f32⟩
  | 55 => ⟨S64x64, .f32⟩
  | 56 => ⟨S64x64, .f32⟩
  | 57 => ⟨S1x64, .f32⟩
  | 58 => ⟨S64, .f32⟩
  | 59 => ⟨S1x64x64, .f32⟩
  | 60 => ⟨S64x64, .f32⟩
  | 61 => ⟨S64x64, .f32⟩
  | 62 => ⟨S1x64, .f32⟩
  | 63 => ⟨S1x64, .f32⟩
  | 64 => ⟨S1x64, .f32⟩
  | 65 => ⟨S1x64, .f32⟩
  | 66 => ⟨S4x64, .f32⟩
  | 67 => ⟨S_, .f32⟩
  | 68 => ⟨S64, .f32⟩
  | 69 => ⟨S1x64, .f32⟩
  | 70 => ⟨S1x64x64, .f32⟩
  | 71 => ⟨S1x64x64, .f32⟩
  | 72 => ⟨S1x64x64, .f32⟩
  | 73 => ⟨S1x64x64, .f32⟩
  | 74 => ⟨S4x64x64, .f32⟩
  | 75 => ⟨S_, .f32⟩
  | 76 => ⟨S64x64, .f32⟩
  | 77 => ⟨S_, .f32⟩
  | 78 => ⟨S_, .f32⟩
  | 79 => ⟨S51576x64, .f32⟩
  | 80 => ⟨S_, .f32⟩
  | 81 => ⟨S_, .f32⟩
  | 82 => ⟨S51576x64, .f32⟩
  | 83 => ⟨S_, .f32⟩
  | 84 => ⟨S_, .f32⟩
  | 85 => ⟨S51576x64, .f32⟩
  | 86 => ⟨S_, .f32⟩
  | 87 => ⟨S_, .f32⟩
  | 88 => ⟨S51576x64, .f32⟩
  | 89 => ⟨S_, .f32⟩
  | 90 => ⟨S_, .f32⟩
  | 91 => ⟨S51576x1, .f32⟩
  | 92 => ⟨S_, .f32⟩
  | 93 => ⟨S_, .f32⟩
  | 94 => ⟨S51576x1, .f32⟩
  | 95 => ⟨S_, .f32⟩
  | 96 => ⟨S_, .f32⟩
  | 97 => ⟨S51576x1, .f32⟩
  | 98 => ⟨S_, .f32⟩
  | 99 => ⟨S_, .f32⟩
  | 100 => ⟨S51576x1, .f32⟩
  | 101 => ⟨S_, .f32⟩
  | 102 => ⟨S_, .f32⟩
  | 103 => ⟨S51576x64, .f32⟩
  | 104 => ⟨S51576x64, .f32⟩
  | 105 => ⟨S50000x64, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S_, .f32⟩
  | 116 => ⟨S100000x64, .f32⟩
  | 117 => ⟨S1000000x1, .i32⟩
  | 118 => ⟨S100000x64, .f32⟩
  | 119 => ⟨S1x64x64, .f32⟩
  | 120 => ⟨S64x64, .f32⟩
  | 121 => ⟨S64x64, .f32⟩
  | 122 => ⟨S1x64, .f32⟩
  | 123 => ⟨S64, .f32⟩
  | 124 => ⟨S1x64x64, .f32⟩
  | 125 => ⟨S64x64, .f32⟩
  | 126 => ⟨S64x64, .f32⟩
  | 127 => ⟨S1x64, .f32⟩
  | _ => ⟨S100000x384, .f32⟩

abbrev hbmTy0_2 (i : Nat) : BufTy := match i % 128 with
  | 0 => ⟨S_, .f32⟩
  | 1 => ⟨S64, .f32⟩
  | 2 => ⟨S1x64, .f32⟩
  | 3 => ⟨S1x64x64, .f32⟩
  | 4 => ⟨S_, .f32⟩
  | 5 => ⟨S64x64, .f32⟩
  | 6 => ⟨S_, .f32⟩
  | 7 => ⟨S_, .f32⟩
  | 8 => ⟨S104448x64, .f32⟩
  | 9 => ⟨S_, .f32⟩
  | 10 => ⟨S_, .f32⟩
  | 11 => ⟨S104448x1, .f32⟩
  | 12 => ⟨S_, .f32⟩
  | 13 => ⟨S_, .f32⟩
  | 14 => ⟨S104448x64, .f32⟩
  | 15 => ⟨S104448x64, .f32⟩
  | 16 => ⟨S100000x64, .f32⟩
  | 17 => ⟨S_, .i32⟩
  | 18 => ⟨S150000, .i32⟩
  | 19 => ⟨S150000, .i1⟩
  | 20 => ⟨S_, .i32⟩
  | 21 => ⟨S150000, .i32⟩
  | 22 => ⟨S150000, .i32⟩
  | 23 => ⟨S150000, .i32⟩
  | 24 => ⟨S150000x1, .i32⟩
  | 25 => ⟨S150000x64, .f32⟩
  | 26 => ⟨S_, .f32⟩
  | 27 => ⟨S50x64, .f32⟩
  | 28 => ⟨S150000x1, .i32⟩
  | 29 => ⟨S50x64, .f32⟩
  | 30 => ⟨S1x64x64, .f32⟩
  | 31 => ⟨S64x64, .f32⟩
  | 32 => ⟨S64x64, .f32⟩
  | 33 => ⟨S1x64, .f32⟩
  | 34 => ⟨S64, .f32⟩
  | 35 => ⟨S1x64x64, .f32⟩
  | 36 => ⟨S64x64, .f32⟩
  | 37 => ⟨S64x64, .f32⟩
  | 38 => ⟨S1x64, .f32⟩
  | 39 => ⟨S_, .f32⟩
  | 40 => ⟨S64, .f32⟩
  | 41 => ⟨S1x64, .f32⟩
  | 42 => ⟨S1x64x64, .f32⟩
  | 43 => ⟨S_, .f32⟩
  | 44 => ⟨S64x64, .f32⟩
  | 45 => ⟨S50x64, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x64, .f32⟩
  | 55 => ⟨S_, .f32⟩
  | 56 => ⟨S20000x64, .f32⟩
  | 57 => ⟨S50000x1, .i32⟩
  | 58 => ⟨S20000x64, .f32⟩
  | 59 => ⟨S1x64x64, .f32⟩
  | 60 => ⟨S64x64, .f32⟩
  | 61 => ⟨S64x64, .f32⟩
  | 62 => ⟨S1x64, .f32⟩
  | 63 => ⟨S64, .f32⟩
  | 64 => ⟨S1x64x64, .f32⟩
  | 65 => ⟨S64x64, .f32⟩
  | 66 => ⟨S64x64, .f32⟩
  | 67 => ⟨S1x64, .f32⟩
  | 68 => ⟨S_, .f32⟩
  | 69 => ⟨S64, .f32⟩
  | 70 => ⟨S1x64, .f32⟩
  | 71 => ⟨S1x64x64, .f32⟩
  | 72 => ⟨S_, .f32⟩
  | 73 => ⟨S64x64, .f32⟩
  | 74 => ⟨S_, .f32⟩
  | 75 => ⟨S_, .f32⟩
  | 76 => ⟨S24576x64, .f32⟩
  | 77 => ⟨S_, .f32⟩
  | 78 => ⟨S_, .f32⟩
  | 79 => ⟨S24576x1, .f32⟩
  | 80 => ⟨S_, .f32⟩
  | 81 => ⟨S_, .f32⟩
  | 82 => ⟨S24576x64, .f32⟩
  | 83 => ⟨S24576x64, .f32⟩
  | 84 => ⟨S20000x64, .f32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x64, .f32⟩
  | 94 => ⟨S_, .f32⟩
  | 95 => ⟨S10x64, .f32⟩
  | 96 => ⟨S50000x1, .i32⟩
  | 97 => ⟨S10x64, .f32⟩
  | 98 => ⟨S1x64x64, .f32⟩
  | 99 => ⟨S64x64, .f32⟩
  | 100 => ⟨S64x64, .f32⟩
  | 101 => ⟨S1x64, .f32⟩
  | 102 => ⟨S64, .f32⟩
  | 103 => ⟨S1x64x64, .f32⟩
  | 104 => ⟨S64x64, .f32⟩
  | 105 => ⟨S64x64, .f32⟩
  | 106 => ⟨S1x64, .f32⟩
  | 107 => ⟨S_, .f32⟩
  | 108 => ⟨S64, .f32⟩
  | 109 => ⟨S1x64, .f32⟩
  | 110 => ⟨S1x64x64, .f32⟩
  | 111 => ⟨S_, .f32⟩
  | 112 => ⟨S64x64, .f32⟩
  | 113 => ⟨S10x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S_, .f32⟩
  | 124 => ⟨S50000x64, .f32⟩
  | 125 => ⟨S1000000x1, .i32⟩
  | 126 => ⟨S50000x64, .f32⟩
  | 127 => ⟨S1x64x64, .f32⟩
  | _ => ⟨S100000x384, .f32⟩

abbrev hbmTy0_3 (i : Nat) : BufTy := match i % 128 with
  | 0 => ⟨S64x64, .f32⟩
  | 1 => ⟨S64x64, .f32⟩
  | 2 => ⟨S1x64, .f32⟩
  | 3 => ⟨S64, .f32⟩
  | 4 => ⟨S1x64x64, .f32⟩
  | 5 => ⟨S64x64, .f32⟩
  | 6 => ⟨S64x64, .f32⟩
  | 7 => ⟨S_, .i32⟩
  | 8 => ⟨S150000, .i32⟩
  | 9 => ⟨S150000, .i1⟩
  | 10 => ⟨S_, .i32⟩
  | 11 => ⟨S150000, .i32⟩
  | 12 => ⟨S150000, .i32⟩
  | 13 => ⟨S150000, .i32⟩
  | 14 => ⟨S150000x1, .i32⟩
  | 15 => ⟨S150000x64, .f32⟩
  | 16 => ⟨S_, .f32⟩
  | 17 => ⟨S50000x64, .f32⟩
  | 18 => ⟨S150000x1, .i32⟩
  | 19 => ⟨S50000x64, .f32⟩
  | 20 => ⟨S1x64x64, .f32⟩
  | 21 => ⟨S64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S64x64, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x64, .f32⟩
  | 37 => ⟨S_, .f32⟩
  | 38 => ⟨S50000x64, .f32⟩
  | 39 => ⟨S50000x1, .i32⟩
  | 40 => ⟨S50000x64, .f32⟩
  | 41 => ⟨S1x64x64, .f32⟩
  | 42 => ⟨S64x64, .f32⟩
  | 43 => ⟨S64x64, .f32⟩
  | 44 => ⟨S1x64, .f32⟩
  | 45 => ⟨S64, .f32⟩
  | 46 => ⟨S1x64x64, .f32⟩
  | 47 => ⟨S64x64, .f32⟩
  | 48 => ⟨S64x64, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x64, .f32⟩
  | 58 => ⟨S_, .f32⟩
  | 59 => ⟨S50000x64, .f32⟩
  | 60 => ⟨S50000x1, .i32⟩
  | 61 => ⟨S50000x64, .f32⟩
  | 62 => ⟨S1x64x64, .f32⟩
  | 63 => ⟨S64x64, .f32⟩
  | 64 => ⟨S64x64, .f32⟩
  | 65 => ⟨S1x64, .f32⟩
  | 66 => ⟨S64, .f32⟩
  | 67 => ⟨S1x64x64, .f32⟩
  | 68 => ⟨S64x64, .f32⟩
  | 69 => ⟨S64x64, .f32⟩
  | 70 => ⟨S1x64, .f32⟩
  | 71 => ⟨S1x64, .f32⟩
  | 72 => ⟨S1x64, .f32⟩
  | 73 => ⟨S1x64, .f32⟩
  | 74 => ⟨S4x64, .f32⟩
  | 75 => ⟨S_, .f32⟩
  | 76 => ⟨S64, .f32⟩
  | 77 => ⟨S1x64, .f32⟩
  | 78 => ⟨S1x64x64, .f32⟩
  | 79 => ⟨S1x64x64, .f32⟩
  | 80 => ⟨S1x64x64, .f32⟩
  | 81 => ⟨S1x64x64, .f32⟩
  | 82 => ⟨S4x64x64, .f32⟩
  | 83 => ⟨S_, .f32⟩
  | 84 => ⟨S64x64, .f32⟩
  | 85 => ⟨S_, .f32⟩
  | 86 => ⟨S_, .f32⟩
  | 87 => ⟨S51576x64, .f32⟩
  | 88 => ⟨S_, .f32⟩
  | 89 => ⟨S_, .f32⟩
  | 90 => ⟨S51576x64, .f32⟩
  | 91 => ⟨S_, .f32⟩
  | 92 => ⟨S_, .f32⟩
  | 93 => ⟨S51576x64, .f32⟩
  | 94 => ⟨S_, .f32⟩
  | 95 => ⟨S_, .f32⟩
  | 96 => ⟨S51576x64, .f32⟩
  | 97 => ⟨S_, .f32⟩
  | 98 => ⟨S_, .f32⟩
  | 99 => ⟨S51576x1, .f32⟩
  | 100 => ⟨S_, .f32⟩
  | 101 => ⟨S_, .f32⟩
  | 102 => ⟨S51576x1, .f32⟩
  | 103 => ⟨S_, .f32⟩
  | 104 => ⟨S_, .f32⟩
  | 105 => ⟨S51576x1, .f32⟩
  | 106 => ⟨S_, .f32⟩
  | 107 => ⟨S_, .f32⟩
  | 108 => ⟨S51576x1, .f32⟩
  | 109 => ⟨S_, .f32⟩
  | 110 => ⟨S_, .f32⟩
  | 111 => ⟨S51576x64, .f32⟩
  | 112 => ⟨S51576x64, .f32⟩
  | 113 => ⟨S50000x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S_, .f32⟩
  | 124 => ⟨S100000x64, .f32⟩
  | 125 => ⟨S1000000x1, .i32⟩
  | 126 => ⟨S100000x64, .f32⟩
  | 127 => ⟨S1x64x64, .f32⟩
  | _ => ⟨S100000x384, .f32⟩

abbrev hbmTy0_4 (i : Nat) : BufTy := match i % 128 with
  | 0 => ⟨S64x64, .f32⟩
  | 1 => ⟨S64x64, .f32⟩
  | 2 => ⟨S1x64, .f32⟩
  | 3 => ⟨S64, .f32⟩
  | 4 => ⟨S1x64x64, .f32⟩
  | 5 => ⟨S64x64, .f32⟩
  | 6 => ⟨S64x64, .f32⟩
  | 7 => ⟨S1x64, .f32⟩
  | 8 => ⟨S_, .f32⟩
  | 9 => ⟨S64, .f32⟩
  | 10 => ⟨S1x64, .f32⟩
  | 11 => ⟨S1x64x64, .f32⟩
  | 12 => ⟨S_, .f32⟩
  | 13 => ⟨S64x64, .f32⟩
  | 14 => ⟨S_, .f32⟩
  | 15 => ⟨S_, .f32⟩
  | 16 => ⟨S104448x64, .f32⟩
  | 17 => ⟨S_, .f32⟩
  | 18 => ⟨S_, .f32⟩
  | 19 => ⟨S104448x1, .f32⟩
  | 20 => ⟨S_, .f32⟩
  | 21 => ⟨S_, .f32⟩
  | 22 => ⟨S104448x64, .f32⟩
  | 23 => ⟨S104448x64, .f32⟩
  | 24 => ⟨S100000x64, .f32⟩
  | 25 => ⟨S_, .i32⟩
  | 26 => ⟨S150000, .i32⟩
  | 27 => ⟨S150000, .i1⟩
  | 28 => ⟨S_, .i32⟩
  | 29 => ⟨S150000, .i32⟩
  | 30 => ⟨S150000, .i32⟩
  | 31 => ⟨S150000, .i32⟩
  | 32 => ⟨S150000x1, .i32⟩
  | 33 => ⟨S150000x64, .f32⟩
  | 34 => ⟨S_, .f32⟩
  | 35 => ⟨S50x64, .f32⟩
  | 36 => ⟨S150000x1, .i32⟩
  | 37 => ⟨S50x64, .f32⟩
  | 38 => ⟨S1x64x64, .f32⟩
  | 39 => ⟨S64x64, .f32⟩
  | 40 => ⟨S64x64, .f32⟩
  | 41 => ⟨S1x64, .f32⟩
  | 42 => ⟨S64, .f32⟩
  | 43 => ⟨S1x64x64, .f32⟩
  | 44 => ⟨S64x64, .f32⟩
  | 45 => ⟨S64x64, .f32⟩
  | 46 => ⟨S1x64, .f32⟩
  | 47 => ⟨S_, .f32⟩
  | 48 => ⟨S64, .f32⟩
  | 49 => ⟨S1x64, .f32⟩
  | 50 => ⟨S1x64x64, .f32⟩
  | 51 => ⟨S_, .f32⟩
  | 52 => ⟨S64x64, .f32⟩
  | 53 => ⟨S50x64, .f32⟩
  | 54 => ⟨S_, .i32⟩
  | 55 => ⟨S50000, .i32⟩
  | 56 => ⟨S50000, .i1⟩
  | 57 => ⟨S_, .i32⟩
  | 58 => ⟨S50000, .i32⟩
  | 59 => ⟨S50000, .i32⟩
  | 60 => ⟨S50000, .i32⟩
  | 61 => ⟨S50000x1, .i32⟩
  | 62 => ⟨S50000x64, .f32⟩
  | 63 => ⟨S_, .f32⟩
  | 64 => ⟨S20000x64, .f32⟩
  | 65 => ⟨S50000x1, .i32⟩
  | 66 => ⟨S20000x64, .f32⟩
  | 67 => ⟨S1x64x64, .f32⟩
  | 68 => ⟨S64x64, .f32⟩
  | 69 => ⟨S64x64, .f32⟩
  | 70 => ⟨S1x64, .f32⟩
  | 71 => ⟨S64, .f32⟩
  | 72 => ⟨S1x64x64, .f32⟩
  | 73 => ⟨S64x64, .f32⟩
  | 74 => ⟨S64x64, .f32⟩
  | 75 => ⟨S1x64, .f32⟩
  | 76 => ⟨S_, .f32⟩
  | 77 => ⟨S64, .f32⟩
  | 78 => ⟨S1x64, .f32⟩
  | 79 => ⟨S1x64x64, .f32⟩
  | 80 => ⟨S_, .f32⟩
  | 81 => ⟨S64x64, .f32⟩
  | 82 => ⟨S_, .f32⟩
  | 83 => ⟨S_, .f32⟩
  | 84 => ⟨S24576x64, .f32⟩
  | 85 => ⟨S_, .f32⟩
  | 86 => ⟨S_, .f32⟩
  | 87 => ⟨S24576x1, .f32⟩
  | 88 => ⟨S_, .f32⟩
  | 89 => ⟨S_, .f32⟩
  | 90 => ⟨S24576x64, .f32⟩
  | 91 => ⟨S24576x64, .f32⟩
  | 92 => ⟨S20000x64, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x64, .f32⟩
  | 102 => ⟨S_, .f32⟩
  | 103 => ⟨S10x64, .f32⟩
  | 104 => ⟨S50000x1, .i32⟩
  | 105 => ⟨S10x64, .f32⟩
  | 106 => ⟨S1x64x64, .f32⟩
  | 107 => ⟨S64x64, .f32⟩
  | 108 => ⟨S64x64, .f32⟩
  | 109 => ⟨S1x64, .f32⟩
  | 110 => ⟨S64, .f32⟩
  | 111 => ⟨S1x64x64, .f32⟩
  | 112 => ⟨S64x64, .f32⟩
  | 113 => ⟨S64x64, .f32⟩
  | 114 => ⟨S1x64, .f32⟩
  | 115 => ⟨S_, .f32⟩
  | 116 => ⟨S64, .f32⟩
  | 117 => ⟨S1x64, .f32⟩
  | 118 => ⟨S1x64x64, .f32⟩
  | 119 => ⟨S_, .f32⟩
  | 120 => ⟨S64x64, .f32⟩
  | 121 => ⟨S10x64, .f32⟩
  | 122 => ⟨S1x200000, .i32⟩
  | 123 => ⟨S200000, .i32⟩
  | 124 => ⟨S_, .i32⟩
  | 125 => ⟨S200000, .i32⟩
  | 126 => ⟨S200000, .i1⟩
  | 127 => ⟨S_, .i32⟩
  | _ => ⟨S100000x384, .f32⟩

abbrev hbmTy0_5 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S1x200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x64, .f32⟩
  | 16 => ⟨S_, .f32⟩
  | 17 => ⟨S_, .f32⟩
  | 18 => ⟨S200704x64, .f32⟩
  | 19 => ⟨S_, .f32⟩
  | 20 => ⟨S_, .f32⟩
  | 21 => ⟨S200704x64, .f32⟩
  | 22 => ⟨S200704, .f32⟩
  | 23 => ⟨S200000, .f32⟩
  | _ => ⟨S100000x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x384, .f32⟩

abbrev vmemTy0_0 (i : Nat) : BufTy := match i % 128 with
  | 0 => ⟨S10000x384, .f32⟩
  | 1 => ⟨S10000x384, .f32⟩
  | 2 => ⟨S384x64, .f32⟩
  | 3 => ⟨S1x64, .f32⟩
  | 4 => ⟨S10000x64, .f32⟩
  | 5 => ⟨S10000x64, .f32⟩
  | 6 => ⟨S10000x384, .f32⟩
  | 7 => ⟨S10000x384, .f32⟩
  | 8 => ⟨S384x64, .f32⟩
  | 9 => ⟨S1x64, .f32⟩
  | 10 => ⟨S10000x64, .f32⟩
  | 11 => ⟨S10000x64, .f32⟩
  | 12 => ⟨S2456x64, .f32⟩
  | 13 => ⟨S2456x64, .f32⟩
  | 14 => ⟨S2456x1, .f32⟩
  | 15 => ⟨S2456x1, .f32⟩
  | 16 => ⟨S2456x64, .f32⟩
  | 17 => ⟨S2456x64, .f32⟩
  | 18 => ⟨S2456x1, .f32⟩
  | 19 => ⟨S2456x1, .f32⟩
  | 20 => ⟨S2456x64, .f32⟩
  | 21 => ⟨S2456x64, .f32⟩
  | 22 => ⟨S2456x1, .f32⟩
  | 23 => ⟨S2456x1, .f32⟩
  | 24 => ⟨S2456x64, .f32⟩
  | 25 => ⟨S2456x64, .f32⟩
  | 26 => ⟨S2456x1, .f32⟩
  | 27 => ⟨S2456x1, .f32⟩
  | 28 => ⟨S2456x64, .f32⟩
  | 29 => ⟨S2456x64, .f32⟩
  | 30 => ⟨S64x64, .f32⟩
  | 31 => ⟨S64x64, .f32⟩
  | 32 => ⟨S64x64, .f32⟩
  | 33 => ⟨S64x64, .f32⟩
  | 34 => ⟨S1x64, .f32⟩
  | 35 => ⟨S64x64, .f32⟩
  | 36 => ⟨S2456x64, .f32⟩
  | 37 => ⟨S2456x64, .f32⟩
  | 38 => ⟨S6144x64, .f32⟩
  | 39 => ⟨S6144x64, .f32⟩
  | 40 => ⟨S6144x1, .f32⟩
  | 41 => ⟨S6144x1, .f32⟩
  | 42 => ⟨S6144x64, .f32⟩
  | 43 => ⟨S6144x64, .f32⟩
  | 44 => ⟨S64x64, .f32⟩
  | 45 => ⟨S1x64, .f32⟩
  | 46 => ⟨S64x64, .f32⟩
  | 47 => ⟨S6144x64, .f32⟩
  | 48 => ⟨S6144x64, .f32⟩
  | 49 => ⟨S50x64, .f32⟩
  | 50 => ⟨S50x1, .f32⟩
  | 51 => ⟨S50x64, .f32⟩
  | 52 => ⟨S64x64, .f32⟩
  | 53 => ⟨S1x64, .f32⟩
  | 54 => ⟨S64x64, .f32⟩
  | 55 => ⟨S50x64, .f32⟩
  | 56 => ⟨S6144x64, .f32⟩
  | 57 => ⟨S6144x64, .f32⟩
  | 58 => ⟨S6144x1, .f32⟩
  | 59 => ⟨S6144x1, .f32⟩
  | 60 => ⟨S6144x64, .f32⟩
  | 61 => ⟨S6144x64, .f32⟩
  | 62 => ⟨S64x64, .f32⟩
  | 63 => ⟨S1x64, .f32⟩
  | 64 => ⟨S64x64, .f32⟩
  | 65 => ⟨S6144x64, .f32⟩
  | 66 => ⟨S6144x64, .f32⟩
  | 67 => ⟨S10x64, .f32⟩
  | 68 => ⟨S10x1, .f32⟩
  | 69 => ⟨S10x64, .f32⟩
  | 70 => ⟨S64x64, .f32⟩
  | 71 => ⟨S1x64, .f32⟩
  | 72 => ⟨S64x64, .f32⟩
  | 73 => ⟨S10x64, .f32⟩
  | 74 => ⟨S2456x64, .f32⟩
  | 75 => ⟨S2456x64, .f32⟩
  | 76 => ⟨S2456x1, .f32⟩
  | 77 => ⟨S2456x1, .f32⟩
  | 78 => ⟨S2456x64, .f32⟩
  | 79 => ⟨S2456x64, .f32⟩
  | 80 => ⟨S2456x1, .f32⟩
  | 81 => ⟨S2456x1, .f32⟩
  | 82 => ⟨S2456x64, .f32⟩
  | 83 => ⟨S2456x64, .f32⟩
  | 84 => ⟨S2456x1, .f32⟩
  | 85 => ⟨S2456x1, .f32⟩
  | 86 => ⟨S2456x64, .f32⟩
  | 87 => ⟨S2456x64, .f32⟩
  | 88 => ⟨S2456x1, .f32⟩
  | 89 => ⟨S2456x1, .f32⟩
  | 90 => ⟨S2456x64, .f32⟩
  | 91 => ⟨S2456x64, .f32⟩
  | 92 => ⟨S64x64, .f32⟩
  | 93 => ⟨S64x64, .f32⟩
  | 94 => ⟨S64x64, .f32⟩
  | 95 => ⟨S64x64, .f32⟩
  | 96 => ⟨S1x64, .f32⟩
  | 97 => ⟨S64x64, .f32⟩
  | 98 => ⟨S2456x64, .f32⟩
  | 99 => ⟨S2456x64, .f32⟩
  | 100 => ⟨S6144x64, .f32⟩
  | 101 => ⟨S6144x64, .f32⟩
  | 102 => ⟨S6144x1, .f32⟩
  | 103 => ⟨S6144x1, .f32⟩
  | 104 => ⟨S6144x64, .f32⟩
  | 105 => ⟨S6144x64, .f32⟩
  | 106 => ⟨S64x64, .f32⟩
  | 107 => ⟨S1x64, .f32⟩
  | 108 => ⟨S64x64, .f32⟩
  | 109 => ⟨S6144x64, .f32⟩
  | 110 => ⟨S6144x64, .f32⟩
  | 111 => ⟨S50x64, .f32⟩
  | 112 => ⟨S50x1, .f32⟩
  | 113 => ⟨S50x64, .f32⟩
  | 114 => ⟨S64x64, .f32⟩
  | 115 => ⟨S1x64, .f32⟩
  | 116 => ⟨S64x64, .f32⟩
  | 117 => ⟨S50x64, .f32⟩
  | 118 => ⟨S6144x64, .f32⟩
  | 119 => ⟨S6144x64, .f32⟩
  | 120 => ⟨S6144x1, .f32⟩
  | 121 => ⟨S6144x1, .f32⟩
  | 122 => ⟨S6144x64, .f32⟩
  | 123 => ⟨S6144x64, .f32⟩
  | 124 => ⟨S64x64, .f32⟩
  | 125 => ⟨S1x64, .f32⟩
  | 126 => ⟨S64x64, .f32⟩
  | 127 => ⟨S6144x64, .f32⟩
  | _ => ⟨S100000x384, .f32⟩

abbrev vmemTy0_1 (i : Nat) : BufTy := match i % 128 with
  | 0 => ⟨S6144x64, .f32⟩
  | 1 => ⟨S10x64, .f32⟩
  | 2 => ⟨S10x1, .f32⟩
  | 3 => ⟨S10x64, .f32⟩
  | 4 => ⟨S64x64, .f32⟩
  | 5 => ⟨S1x64, .f32⟩
  | 6 => ⟨S64x64, .f32⟩
  | 7 => ⟨S10x64, .f32⟩
  | 8 => ⟨S4096x64, .f32⟩
  | 9 => ⟨S4096x64, .f32⟩
  | 10 => ⟨S4096x64, .f32⟩
  | 11 => ⟨S4096x64, .f32⟩
  | 12 => ⟨S4096, .f32⟩
  | 13 => ⟨S4096, .f32⟩
  | _ => ⟨S100000x384, .f32⟩

abbrev vmemTy (i : Nat) : BufTy := match i / 128 with
  | 0 => vmemTy0_0 i
  | 1 => vmemTy0_1 i
  | _ => ⟨S100000x384, .f32⟩

abbrev bufTy : (tb : Table) → Fin (tcTables nBuf tb) → BufTy
  | .hbm, ⟨i, _⟩ => hbmTy i
  | .local _ .vmem, ⟨i, _⟩ => vmemTy i
  | _, _ => ⟨S100000x384, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 142 → Bool
  | ⟨i, _⟩ => dmaSemScopedAt i

abbrev sig : RefSig :=
  ofTc nBuf bufTy 0 142 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_v38 : Ref sig .tc := ⟨.hbm, 59, rfl⟩
abbrev main_cst_0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_c_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_20 : Ref sig .tc := ⟨.hbm, 148, rfl⟩
abbrev main_v106 : Ref sig .tc := ⟨.hbm, 149, rfl⟩
abbrev main_v107 : Ref sig .tc := ⟨.hbm, 150, rfl⟩
abbrev main_c_21 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_22 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_23 : Ref sig .tc := ⟨.hbm, 169, rfl⟩
abbrev main_v124 : Ref sig .tc := ⟨.hbm, 170, rfl⟩
abbrev main_v125 : Ref sig .tc := ⟨.hbm, 171, rfl⟩
abbrev main_c_24 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_25 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_26 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_27 : Ref sig .tc := ⟨.hbm, 203, rfl⟩
abbrev main_v154 : Ref sig .tc := ⟨.hbm, 204, rfl⟩
abbrev main_cst_28 : Ref sig .tc := ⟨.hbm, 205, rfl⟩
abbrev main_call0_v0 : Ref sig .tc := ⟨.hbm, 206, rfl⟩
abbrev main_v155 : Ref sig .tc := ⟨.hbm, 207, rfl⟩
abbrev main_cst_29 : Ref sig .tc := ⟨.hbm, 208, rfl⟩
abbrev main_call1_v0 : Ref sig .tc := ⟨.hbm, 209, rfl⟩
abbrev main_v156 : Ref sig .tc := ⟨.hbm, 210, rfl⟩
abbrev main_cst_30 : Ref sig .tc := ⟨.hbm, 211, rfl⟩
abbrev main_call2_v0 : Ref sig .tc := ⟨.hbm, 212, rfl⟩
abbrev main_v157 : Ref sig .tc := ⟨.hbm, 213, rfl⟩
abbrev main_cst_31 : Ref sig .tc := ⟨.hbm, 214, rfl⟩
abbrev main_call3_v0 : Ref sig .tc := ⟨.hbm, 215, rfl⟩
abbrev main_v158 : Ref sig .tc := ⟨.hbm, 216, rfl⟩
abbrev main_cst_32 : Ref sig .tc := ⟨.hbm, 217, rfl⟩
abbrev main_call4_v0 : Ref sig .tc := ⟨.hbm, 218, rfl⟩
abbrev main_v159 : Ref sig .tc := ⟨.hbm, 219, rfl⟩
abbrev main_cst_33 : Ref sig .tc := ⟨.hbm, 220, rfl⟩
abbrev main_call5_v0 : Ref sig .tc := ⟨.hbm, 221, rfl⟩
abbrev main_v160 : Ref sig .tc := ⟨.hbm, 222, rfl⟩
abbrev main_cst_34 : Ref sig .tc := ⟨.hbm, 223, rfl⟩
abbrev main_call6_v0 : Ref sig .tc := ⟨.hbm, 224, rfl⟩
abbrev main_v161 : Ref sig .tc := ⟨.hbm, 225, rfl⟩
abbrev main_cst_35 : Ref sig .tc := ⟨.hbm, 226, rfl⟩
abbrev main_call7_v0 : Ref sig .tc := ⟨.hbm, 227, rfl⟩
abbrev main_v162 : Ref sig .tc := ⟨.hbm, 228, rfl⟩
abbrev main_cst_36 : Ref sig .tc := ⟨.hbm, 229, rfl⟩
abbrev main_call8_v0 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_c_37 : Ref sig .tc := ⟨.hbm, 234, rfl⟩
abbrev main_v166 : Ref sig .tc := ⟨.hbm, 235, rfl⟩
abbrev main_v167 : Ref sig .tc := ⟨.hbm, 236, rfl⟩
abbrev main_c_38 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_cst_39 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_cst_40 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_cst_41 : Ref sig .tc := ⟨.hbm, 260, rfl⟩
abbrev main_v188 : Ref sig .tc := ⟨.hbm, 261, rfl⟩
abbrev main_cst_42 : Ref sig .tc := ⟨.hbm, 262, rfl⟩
abbrev main_call9_v0 : Ref sig .tc := ⟨.hbm, 263, rfl⟩
abbrev main_v189 : Ref sig .tc := ⟨.hbm, 264, rfl⟩
abbrev main_cst_43 : Ref sig .tc := ⟨.hbm, 265, rfl⟩
abbrev main_call10_v0 : Ref sig .tc := ⟨.hbm, 266, rfl⟩
abbrev main_v190 : Ref sig .tc := ⟨.hbm, 267, rfl⟩
abbrev main_cst_44 : Ref sig .tc := ⟨.hbm, 268, rfl⟩
abbrev main_call11_v0 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_c_45 : Ref sig .tc := ⟨.hbm, 273, rfl⟩
abbrev main_v194 : Ref sig .tc := ⟨.hbm, 274, rfl⟩
abbrev main_v195 : Ref sig .tc := ⟨.hbm, 275, rfl⟩
abbrev main_c_46 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_cst_47 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_cst_48 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_cst_49 : Ref sig .tc := ⟨.hbm, 299, rfl⟩
abbrev main_v216 : Ref sig .tc := ⟨.hbm, 300, rfl⟩
abbrev main_v217 : Ref sig .tc := ⟨.hbm, 301, rfl⟩
abbrev main_c_50 : Ref sig .tc := ⟨.hbm, 302, rfl⟩
abbrev main_v218 : Ref sig .tc := ⟨.hbm, 303, rfl⟩
abbrev main_v219 : Ref sig .tc := ⟨.hbm, 304, rfl⟩
abbrev main_c_51 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_cst_52 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_cst_53 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_cst_54 : Ref sig .tc := ⟨.hbm, 328, rfl⟩
abbrev main_v240 : Ref sig .tc := ⟨.hbm, 329, rfl⟩
abbrev main_cst_55 : Ref sig .tc := ⟨.hbm, 330, rfl⟩
abbrev main_call12_v0 : Ref sig .tc := ⟨.hbm, 331, rfl⟩
abbrev main_v241 : Ref sig .tc := ⟨.hbm, 332, rfl⟩
abbrev main_cst_56 : Ref sig .tc := ⟨.hbm, 333, rfl⟩
abbrev main_call13_v0 : Ref sig .tc := ⟨.hbm, 334, rfl⟩
abbrev main_v242 : Ref sig .tc := ⟨.hbm, 335, rfl⟩
abbrev main_cst_57 : Ref sig .tc := ⟨.hbm, 336, rfl⟩
abbrev main_call14_v0 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_c_58 : Ref sig .tc := ⟨.hbm, 341, rfl⟩
abbrev main_v246 : Ref sig .tc := ⟨.hbm, 342, rfl⟩
abbrev main_v247 : Ref sig .tc := ⟨.hbm, 343, rfl⟩
abbrev main_c_59 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_cst_60 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_cst_61 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_cst_62 : Ref sig .tc := ⟨.hbm, 367, rfl⟩
abbrev main_v268 : Ref sig .tc := ⟨.hbm, 368, rfl⟩
abbrev main_v269 : Ref sig .tc := ⟨.hbm, 369, rfl⟩
abbrev main_c_63 : Ref sig .tc := ⟨.hbm, 370, rfl⟩
abbrev main_v270 : Ref sig .tc := ⟨.hbm, 371, rfl⟩
abbrev main_v271 : Ref sig .tc := ⟨.hbm, 372, rfl⟩
abbrev main_c_64 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_cst_65 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_c_66 : Ref sig .tc := ⟨.hbm, 391, rfl⟩
abbrev main_v288 : Ref sig .tc := ⟨.hbm, 392, rfl⟩
abbrev main_v289 : Ref sig .tc := ⟨.hbm, 393, rfl⟩
abbrev main_c_67 : Ref sig .tc := ⟨.hbm, 394, rfl⟩
abbrev main_v290 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_cst_68 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_v303 : Ref sig .tc := ⟨.hbm, 409, rfl⟩
abbrev main_v304 : Ref sig .tc := ⟨.hbm, 410, rfl⟩
abbrev main_v305 : Ref sig .tc := ⟨.hbm, 411, rfl⟩
abbrev main_c_69 : Ref sig .tc := ⟨.hbm, 412, rfl⟩
abbrev main_v306 : Ref sig .tc := ⟨.hbm, 413, rfl⟩
abbrev main_v307 : Ref sig .tc := ⟨.hbm, 414, rfl⟩
abbrev main_c_70 : Ref sig .tc := ⟨.hbm, 415, rfl⟩
abbrev main_v308 : Ref sig .tc := ⟨.hbm, 416, rfl⟩
abbrev main_v309 : Ref sig .tc := ⟨.hbm, 417, rfl⟩
abbrev main_v310 : Ref sig .tc := ⟨.hbm, 418, rfl⟩
abbrev main_v311 : Ref sig .tc := ⟨.hbm, 419, rfl⟩
abbrev main_v312 : Ref sig .tc := ⟨.hbm, 420, rfl⟩
abbrev main_cst_71 : Ref sig .tc := ⟨.hbm, 421, rfl⟩
abbrev main_v313 : Ref sig .tc := ⟨.hbm, 422, rfl⟩
abbrev main_v314 : Ref sig .tc := ⟨.hbm, 423, rfl⟩
abbrev main_v315 : Ref sig .tc := ⟨.hbm, 424, rfl⟩
abbrev main_v316 : Ref sig .tc := ⟨.hbm, 425, rfl⟩
abbrev main_v317 : Ref sig .tc := ⟨.hbm, 426, rfl⟩
abbrev main_v318 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_c_72 : Ref sig .tc := ⟨.hbm, 433, rfl⟩
abbrev main_v324 : Ref sig .tc := ⟨.hbm, 434, rfl⟩
abbrev main_v325 : Ref sig .tc := ⟨.hbm, 435, rfl⟩
abbrev main_c_73 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_cst_74 : Ref sig .tc := ⟨.hbm, 442, rfl⟩
abbrev main_v331 : Ref sig .tc := ⟨.hbm, 443, rfl⟩
abbrev main_v332 : Ref sig .tc := ⟨.hbm, 444, rfl⟩
abbrev main_v333 : Ref sig .tc := ⟨.hbm, 445, rfl⟩
abbrev main_v334 : Ref sig .tc := ⟨.hbm, 446, rfl⟩
abbrev main_v335 : Ref sig .tc := ⟨.hbm, 447, rfl⟩
abbrev main_v336 : Ref sig .tc := ⟨.hbm, 448, rfl⟩
abbrev main_v337 : Ref sig .tc := ⟨.hbm, 449, rfl⟩
abbrev main_v338 : Ref sig .tc := ⟨.hbm, 450, rfl⟩
abbrev main_v339 : Ref sig .tc := ⟨.hbm, 451, rfl⟩
abbrev main_v340 : Ref sig .tc := ⟨.hbm, 452, rfl⟩
abbrev main_v341 : Ref sig .tc := ⟨.hbm, 453, rfl⟩
abbrev main_v342 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_cst_75 : Ref sig .tc := ⟨.hbm, 459, rfl⟩
abbrev main_v347 : Ref sig .tc := ⟨.hbm, 460, rfl⟩
abbrev main_v348 : Ref sig .tc := ⟨.hbm, 461, rfl⟩
abbrev main_v349 : Ref sig .tc := ⟨.hbm, 462, rfl⟩
abbrev main_v350 : Ref sig .tc := ⟨.hbm, 463, rfl⟩
abbrev main_v351 : Ref sig .tc := ⟨.hbm, 464, rfl⟩
abbrev main_v352 : Ref sig .tc := ⟨.hbm, 465, rfl⟩
abbrev main_v353 : Ref sig .tc := ⟨.hbm, 466, rfl⟩
abbrev main_cst_76 : Ref sig .tc := ⟨.hbm, 467, rfl⟩
abbrev main_v354 : Ref sig .tc := ⟨.hbm, 468, rfl⟩
abbrev main_cst_77 : Ref sig .tc := ⟨.hbm, 469, rfl⟩
abbrev main_call15_v0 : Ref sig .tc := ⟨.hbm, 470, rfl⟩
abbrev main_v355 : Ref sig .tc := ⟨.hbm, 471, rfl⟩
abbrev main_cst_78 : Ref sig .tc := ⟨.hbm, 472, rfl⟩
abbrev main_call16_v0 : Ref sig .tc := ⟨.hbm, 473, rfl⟩
abbrev main_v356 : Ref sig .tc := ⟨.hbm, 474, rfl⟩
abbrev main_cst_79 : Ref sig .tc := ⟨.hbm, 475, rfl⟩
abbrev main_call17_v0 : Ref sig .tc := ⟨.hbm, 476, rfl⟩
abbrev main_v357 : Ref sig .tc := ⟨.hbm, 477, rfl⟩
abbrev main_cst_80 : Ref sig .tc := ⟨.hbm, 478, rfl⟩
abbrev main_call18_v0 : Ref sig .tc := ⟨.hbm, 479, rfl⟩
abbrev main_v358 : Ref sig .tc := ⟨.hbm, 480, rfl⟩
abbrev main_cst_81 : Ref sig .tc := ⟨.hbm, 481, rfl⟩
abbrev main_call19_v0 : Ref sig .tc := ⟨.hbm, 482, rfl⟩
abbrev main_v359 : Ref sig .tc := ⟨.hbm, 483, rfl⟩
abbrev main_cst_82 : Ref sig .tc := ⟨.hbm, 484, rfl⟩
abbrev main_call20_v0 : Ref sig .tc := ⟨.hbm, 485, rfl⟩
abbrev main_v360 : Ref sig .tc := ⟨.hbm, 486, rfl⟩
abbrev main_cst_83 : Ref sig .tc := ⟨.hbm, 487, rfl⟩
abbrev main_call21_v0 : Ref sig .tc := ⟨.hbm, 488, rfl⟩
abbrev main_v361 : Ref sig .tc := ⟨.hbm, 489, rfl⟩
abbrev main_cst_84 : Ref sig .tc := ⟨.hbm, 490, rfl⟩
abbrev main_call22_v0 : Ref sig .tc := ⟨.hbm, 491, rfl⟩
abbrev main_v362 : Ref sig .tc := ⟨.hbm, 492, rfl⟩
abbrev main_cst_85 : Ref sig .tc := ⟨.hbm, 493, rfl⟩
abbrev main_call23_v0 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_c_86 : Ref sig .tc := ⟨.hbm, 498, rfl⟩
abbrev main_v366 : Ref sig .tc := ⟨.hbm, 499, rfl⟩
abbrev main_v367 : Ref sig .tc := ⟨.hbm, 500, rfl⟩
abbrev main_c_87 : Ref sig .tc := ⟨.hbm, 501, rfl⟩
abbrev main_v368 : Ref sig .tc := ⟨.hbm, 502, rfl⟩
abbrev main_v369 : Ref sig .tc := ⟨.hbm, 503, rfl⟩
abbrev main_v370 : Ref sig .tc := ⟨.hbm, 504, rfl⟩
abbrev main_v371 : Ref sig .tc := ⟨.hbm, 505, rfl⟩
abbrev main_v372 : Ref sig .tc := ⟨.hbm, 506, rfl⟩
abbrev main_cst_88 : Ref sig .tc := ⟨.hbm, 507, rfl⟩
abbrev main_v373 : Ref sig .tc := ⟨.hbm, 508, rfl⟩
abbrev main_v374 : Ref sig .tc := ⟨.hbm, 509, rfl⟩
abbrev main_v375 : Ref sig .tc := ⟨.hbm, 510, rfl⟩
abbrev main_v376 : Ref sig .tc := ⟨.hbm, 511, rfl⟩
abbrev main_v377 : Ref sig .tc := ⟨.hbm, 512, rfl⟩
abbrev main_v378 : Ref sig .tc := ⟨.hbm, 513, rfl⟩
abbrev main_v379 : Ref sig .tc := ⟨.hbm, 514, rfl⟩
abbrev main_v380 : Ref sig .tc := ⟨.hbm, 515, rfl⟩
abbrev main_v381 : Ref sig .tc := ⟨.hbm, 516, rfl⟩
abbrev main_v382 : Ref sig .tc := ⟨.hbm, 517, rfl⟩
abbrev main_v383 : Ref sig .tc := ⟨.hbm, 518, rfl⟩
abbrev main_v384 : Ref sig .tc := ⟨.hbm, 519, rfl⟩
abbrev main_cst_89 : Ref sig .tc := ⟨.hbm, 520, rfl⟩
abbrev main_v385 : Ref sig .tc := ⟨.hbm, 521, rfl⟩
abbrev main_v386 : Ref sig .tc := ⟨.hbm, 522, rfl⟩
abbrev main_v387 : Ref sig .tc := ⟨.hbm, 523, rfl⟩
abbrev main_cst_90 : Ref sig .tc := ⟨.hbm, 524, rfl⟩
abbrev main_v388 : Ref sig .tc := ⟨.hbm, 525, rfl⟩
abbrev main_cst_91 : Ref sig .tc := ⟨.hbm, 526, rfl⟩
abbrev main_call24_v0 : Ref sig .tc := ⟨.hbm, 527, rfl⟩
abbrev main_v389 : Ref sig .tc := ⟨.hbm, 528, rfl⟩
abbrev main_cst_92 : Ref sig .tc := ⟨.hbm, 529, rfl⟩
abbrev main_call25_v0 : Ref sig .tc := ⟨.hbm, 530, rfl⟩
abbrev main_v390 : Ref sig .tc := ⟨.hbm, 531, rfl⟩
abbrev main_cst_93 : Ref sig .tc := ⟨.hbm, 532, rfl⟩
abbrev main_call26_v0 : Ref sig .tc := ⟨.hbm, 533, rfl⟩
abbrev main_v391 : Ref sig .tc := ⟨.hbm, 534, rfl⟩
abbrev main_v392 : Ref sig .tc := ⟨.hbm, 535, rfl⟩
abbrev main_v393 : Ref sig .tc := ⟨.hbm, 536, rfl⟩
abbrev main_c_94 : Ref sig .tc := ⟨.hbm, 537, rfl⟩
abbrev main_v394 : Ref sig .tc := ⟨.hbm, 538, rfl⟩
abbrev main_v395 : Ref sig .tc := ⟨.hbm, 539, rfl⟩
abbrev main_c_95 : Ref sig .tc := ⟨.hbm, 540, rfl⟩
abbrev main_v396 : Ref sig .tc := ⟨.hbm, 541, rfl⟩
abbrev main_v397 : Ref sig .tc := ⟨.hbm, 542, rfl⟩
abbrev main_v398 : Ref sig .tc := ⟨.hbm, 543, rfl⟩
abbrev main_v399 : Ref sig .tc := ⟨.hbm, 544, rfl⟩
abbrev main_v400 : Ref sig .tc := ⟨.hbm, 545, rfl⟩
abbrev main_cst_96 : Ref sig .tc := ⟨.hbm, 546, rfl⟩
abbrev main_v401 : Ref sig .tc := ⟨.hbm, 547, rfl⟩
abbrev main_v402 : Ref sig .tc := ⟨.hbm, 548, rfl⟩
abbrev main_v403 : Ref sig .tc := ⟨.hbm, 549, rfl⟩
abbrev main_v404 : Ref sig .tc := ⟨.hbm, 550, rfl⟩
abbrev main_v405 : Ref sig .tc := ⟨.hbm, 551, rfl⟩
abbrev main_v406 : Ref sig .tc := ⟨.hbm, 552, rfl⟩
abbrev main_v407 : Ref sig .tc := ⟨.hbm, 553, rfl⟩
abbrev main_v408 : Ref sig .tc := ⟨.hbm, 554, rfl⟩
abbrev main_v409 : Ref sig .tc := ⟨.hbm, 555, rfl⟩
abbrev main_v410 : Ref sig .tc := ⟨.hbm, 556, rfl⟩
abbrev main_v411 : Ref sig .tc := ⟨.hbm, 557, rfl⟩
abbrev main_v412 : Ref sig .tc := ⟨.hbm, 558, rfl⟩
abbrev main_cst_97 : Ref sig .tc := ⟨.hbm, 559, rfl⟩
abbrev main_v413 : Ref sig .tc := ⟨.hbm, 560, rfl⟩
abbrev main_v414 : Ref sig .tc := ⟨.hbm, 561, rfl⟩
abbrev main_v415 : Ref sig .tc := ⟨.hbm, 562, rfl⟩
abbrev main_cst_98 : Ref sig .tc := ⟨.hbm, 563, rfl⟩
abbrev main_v416 : Ref sig .tc := ⟨.hbm, 564, rfl⟩
abbrev main_v417 : Ref sig .tc := ⟨.hbm, 565, rfl⟩
abbrev main_c_99 : Ref sig .tc := ⟨.hbm, 566, rfl⟩
abbrev main_v418 : Ref sig .tc := ⟨.hbm, 567, rfl⟩
abbrev main_v419 : Ref sig .tc := ⟨.hbm, 568, rfl⟩
abbrev main_c_100 : Ref sig .tc := ⟨.hbm, 569, rfl⟩
abbrev main_v420 : Ref sig .tc := ⟨.hbm, 570, rfl⟩
abbrev main_v421 : Ref sig .tc := ⟨.hbm, 571, rfl⟩
abbrev main_v422 : Ref sig .tc := ⟨.hbm, 572, rfl⟩
abbrev main_v423 : Ref sig .tc := ⟨.hbm, 573, rfl⟩
abbrev main_v424 : Ref sig .tc := ⟨.hbm, 574, rfl⟩
abbrev main_cst_101 : Ref sig .tc := ⟨.hbm, 575, rfl⟩
abbrev main_v425 : Ref sig .tc := ⟨.hbm, 576, rfl⟩
abbrev main_v426 : Ref sig .tc := ⟨.hbm, 577, rfl⟩
abbrev main_v427 : Ref sig .tc := ⟨.hbm, 578, rfl⟩
abbrev main_v428 : Ref sig .tc := ⟨.hbm, 579, rfl⟩
abbrev main_v429 : Ref sig .tc := ⟨.hbm, 580, rfl⟩
abbrev main_v430 : Ref sig .tc := ⟨.hbm, 581, rfl⟩
abbrev main_v431 : Ref sig .tc := ⟨.hbm, 582, rfl⟩
abbrev main_v432 : Ref sig .tc := ⟨.hbm, 583, rfl⟩
abbrev main_v433 : Ref sig .tc := ⟨.hbm, 584, rfl⟩
abbrev main_v434 : Ref sig .tc := ⟨.hbm, 585, rfl⟩
abbrev main_v435 : Ref sig .tc := ⟨.hbm, 586, rfl⟩
abbrev main_v436 : Ref sig .tc := ⟨.hbm, 587, rfl⟩
abbrev main_cst_102 : Ref sig .tc := ⟨.hbm, 588, rfl⟩
abbrev main_v437 : Ref sig .tc := ⟨.hbm, 589, rfl⟩
abbrev main_v438 : Ref sig .tc := ⟨.hbm, 590, rfl⟩
abbrev main_v439 : Ref sig .tc := ⟨.hbm, 591, rfl⟩
abbrev main_cst_103 : Ref sig .tc := ⟨.hbm, 592, rfl⟩
abbrev main_v440 : Ref sig .tc := ⟨.hbm, 593, rfl⟩
abbrev main_cst_104 : Ref sig .tc := ⟨.hbm, 594, rfl⟩
abbrev main_call27_v0 : Ref sig .tc := ⟨.hbm, 595, rfl⟩
abbrev main_v441 : Ref sig .tc := ⟨.hbm, 596, rfl⟩
abbrev main_cst_105 : Ref sig .tc := ⟨.hbm, 597, rfl⟩
abbrev main_call28_v0 : Ref sig .tc := ⟨.hbm, 598, rfl⟩
abbrev main_v442 : Ref sig .tc := ⟨.hbm, 599, rfl⟩
abbrev main_cst_106 : Ref sig .tc := ⟨.hbm, 600, rfl⟩
abbrev main_call29_v0 : Ref sig .tc := ⟨.hbm, 601, rfl⟩
abbrev main_v443 : Ref sig .tc := ⟨.hbm, 602, rfl⟩
abbrev main_v444 : Ref sig .tc := ⟨.hbm, 603, rfl⟩
abbrev main_v445 : Ref sig .tc := ⟨.hbm, 604, rfl⟩
abbrev main_c_107 : Ref sig .tc := ⟨.hbm, 605, rfl⟩
abbrev main_v446 : Ref sig .tc := ⟨.hbm, 606, rfl⟩
abbrev main_v447 : Ref sig .tc := ⟨.hbm, 607, rfl⟩
abbrev main_c_108 : Ref sig .tc := ⟨.hbm, 608, rfl⟩
abbrev main_v448 : Ref sig .tc := ⟨.hbm, 609, rfl⟩
abbrev main_v449 : Ref sig .tc := ⟨.hbm, 610, rfl⟩
abbrev main_v450 : Ref sig .tc := ⟨.hbm, 611, rfl⟩
abbrev main_v451 : Ref sig .tc := ⟨.hbm, 612, rfl⟩
abbrev main_v452 : Ref sig .tc := ⟨.hbm, 613, rfl⟩
abbrev main_cst_109 : Ref sig .tc := ⟨.hbm, 614, rfl⟩
abbrev main_v453 : Ref sig .tc := ⟨.hbm, 615, rfl⟩
abbrev main_v454 : Ref sig .tc := ⟨.hbm, 616, rfl⟩
abbrev main_v455 : Ref sig .tc := ⟨.hbm, 617, rfl⟩
abbrev main_v456 : Ref sig .tc := ⟨.hbm, 618, rfl⟩
abbrev main_v457 : Ref sig .tc := ⟨.hbm, 619, rfl⟩
abbrev main_v458 : Ref sig .tc := ⟨.hbm, 620, rfl⟩
abbrev main_v459 : Ref sig .tc := ⟨.hbm, 621, rfl⟩
abbrev main_v460 : Ref sig .tc := ⟨.hbm, 622, rfl⟩
abbrev main_v461 : Ref sig .tc := ⟨.hbm, 623, rfl⟩
abbrev main_v462 : Ref sig .tc := ⟨.hbm, 624, rfl⟩
abbrev main_v463 : Ref sig .tc := ⟨.hbm, 625, rfl⟩
abbrev main_v464 : Ref sig .tc := ⟨.hbm, 626, rfl⟩
abbrev main_cst_110 : Ref sig .tc := ⟨.hbm, 627, rfl⟩
abbrev main_v465 : Ref sig .tc := ⟨.hbm, 628, rfl⟩
abbrev main_v466 : Ref sig .tc := ⟨.hbm, 629, rfl⟩
abbrev main_v467 : Ref sig .tc := ⟨.hbm, 630, rfl⟩
abbrev main_cst_111 : Ref sig .tc := ⟨.hbm, 631, rfl⟩
abbrev main_v468 : Ref sig .tc := ⟨.hbm, 632, rfl⟩
abbrev main_v469 : Ref sig .tc := ⟨.hbm, 633, rfl⟩
abbrev main_v470 : Ref sig .tc := ⟨.hbm, 634, rfl⟩
abbrev main_v471 : Ref sig .tc := ⟨.hbm, 635, rfl⟩
abbrev main_c_112 : Ref sig .tc := ⟨.hbm, 636, rfl⟩
abbrev main_v472 : Ref sig .tc := ⟨.hbm, 637, rfl⟩
abbrev main_v473 : Ref sig .tc := ⟨.hbm, 638, rfl⟩
abbrev main_c_113 : Ref sig .tc := ⟨.hbm, 639, rfl⟩
abbrev main_v474 : Ref sig .tc := ⟨.hbm, 640, rfl⟩
abbrev main_v475 : Ref sig .tc := ⟨.hbm, 641, rfl⟩
abbrev main_v476 : Ref sig .tc := ⟨.hbm, 642, rfl⟩
abbrev main_v477 : Ref sig .tc := ⟨.hbm, 643, rfl⟩
abbrev main_v478 : Ref sig .tc := ⟨.hbm, 644, rfl⟩
abbrev main_v479 : Ref sig .tc := ⟨.hbm, 645, rfl⟩
abbrev main_v480 : Ref sig .tc := ⟨.hbm, 646, rfl⟩
abbrev main_c_114 : Ref sig .tc := ⟨.hbm, 647, rfl⟩
abbrev main_v481 : Ref sig .tc := ⟨.hbm, 648, rfl⟩
abbrev main_v482 : Ref sig .tc := ⟨.hbm, 649, rfl⟩
abbrev main_c_115 : Ref sig .tc := ⟨.hbm, 650, rfl⟩
abbrev main_v483 : Ref sig .tc := ⟨.hbm, 651, rfl⟩
abbrev main_v484 : Ref sig .tc := ⟨.hbm, 652, rfl⟩
abbrev main_v485 : Ref sig .tc := ⟨.hbm, 653, rfl⟩
abbrev main_v486 : Ref sig .tc := ⟨.hbm, 654, rfl⟩
abbrev main_v487 : Ref sig .tc := ⟨.hbm, 655, rfl⟩
abbrev main_cst_116 : Ref sig .tc := ⟨.hbm, 656, rfl⟩
abbrev main_call30_v0 : Ref sig .tc := ⟨.hbm, 657, rfl⟩
abbrev main_v488 : Ref sig .tc := ⟨.hbm, 658, rfl⟩
abbrev main_cst_117 : Ref sig .tc := ⟨.hbm, 659, rfl⟩
abbrev main_call31_v0 : Ref sig .tc := ⟨.hbm, 660, rfl⟩
abbrev main_v489 : Ref sig .tc := ⟨.hbm, 661, rfl⟩
abbrev main_v490 : Ref sig .tc := ⟨.hbm, 662, rfl⟩
abbrev main_v491 : Ref sig .tc := ⟨.hbm, 663, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg15_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg6_1 : Ref sig .tc := ⟨.vmem, 66, rfl⟩
abbrev cc6_stg0_0 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg2_1 : Ref sig .tc := ⟨.vmem, 79, rfl⟩
abbrev cc7_stg3_0 : Ref sig .tc := ⟨.vmem, 80, rfl⟩
abbrev cc7_stg3_1 : Ref sig .tc := ⟨.vmem, 81, rfl⟩
abbrev cc7_stg4_0 : Ref sig .tc := ⟨.vmem, 82, rfl⟩
abbrev cc7_stg4_1 : Ref sig .tc := ⟨.vmem, 83, rfl⟩
abbrev cc7_stg5_0 : Ref sig .tc := ⟨.vmem, 84, rfl⟩
abbrev cc7_stg5_1 : Ref sig .tc := ⟨.vmem, 85, rfl⟩
abbrev cc7_stg6_0 : Ref sig .tc := ⟨.vmem, 86, rfl⟩
abbrev cc7_stg6_1 : Ref sig .tc := ⟨.vmem, 87, rfl⟩
abbrev cc7_stg7_0 : Ref sig .tc := ⟨.vmem, 88, rfl⟩
abbrev cc7_stg7_1 : Ref sig .tc := ⟨.vmem, 89, rfl⟩
abbrev cc7_stg8_0 : Ref sig .tc := ⟨.vmem, 90, rfl⟩
abbrev cc7_stg8_1 : Ref sig .tc := ⟨.vmem, 91, rfl⟩
abbrev cc7_stg9_0 : Ref sig .tc := ⟨.vmem, 92, rfl⟩
abbrev cc7_stg10_0 : Ref sig .tc := ⟨.vmem, 93, rfl⟩
abbrev cc7_stg11_0 : Ref sig .tc := ⟨.vmem, 94, rfl⟩
abbrev cc7_stg12_0 : Ref sig .tc := ⟨.vmem, 95, rfl⟩
abbrev cc7_stg13_0 : Ref sig .tc := ⟨.vmem, 96, rfl⟩
abbrev cc7_stg14_0 : Ref sig .tc := ⟨.vmem, 97, rfl⟩
abbrev cc7_stg15_0 : Ref sig .tc := ⟨.vmem, 98, rfl⟩
abbrev cc7_stg15_1 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg1_1 : Ref sig .tc := ⟨.vmem, 103, rfl⟩
abbrev cc8_stg2_0 : Ref sig .tc := ⟨.vmem, 104, rfl⟩
abbrev cc8_stg2_1 : Ref sig .tc := ⟨.vmem, 105, rfl⟩
abbrev cc8_stg3_0 : Ref sig .tc := ⟨.vmem, 106, rfl⟩
abbrev cc8_stg4_0 : Ref sig .tc := ⟨.vmem, 107, rfl⟩
abbrev cc8_stg5_0 : Ref sig .tc := ⟨.vmem, 108, rfl⟩
abbrev cc8_stg6_0 : Ref sig .tc := ⟨.vmem, 109, rfl⟩
abbrev cc8_stg6_1 : Ref sig .tc := ⟨.vmem, 110, rfl⟩
abbrev cc9_stg0_0 : Ref sig .tc := ⟨.vmem, 111, rfl⟩
abbrev cc9_stg1_0 : Ref sig .tc := ⟨.vmem, 112, rfl⟩
abbrev cc9_stg2_0 : Ref sig .tc := ⟨.vmem, 113, rfl⟩
abbrev cc9_stg3_0 : Ref sig .tc := ⟨.vmem, 114, rfl⟩
abbrev cc9_stg4_0 : Ref sig .tc := ⟨.vmem, 115, rfl⟩
abbrev cc9_stg5_0 : Ref sig .tc := ⟨.vmem, 116, rfl⟩
abbrev cc9_stg6_0 : Ref sig .tc := ⟨.vmem, 117, rfl⟩
abbrev cc10_stg0_0 : Ref sig .tc := ⟨.vmem, 118, rfl⟩
abbrev cc10_stg0_1 : Ref sig .tc := ⟨.vmem, 119, rfl⟩
abbrev cc10_stg1_0 : Ref sig .tc := ⟨.vmem, 120, rfl⟩
abbrev cc10_stg1_1 : Ref sig .tc := ⟨.vmem, 121, rfl⟩
abbrev cc10_stg2_0 : Ref sig .tc := ⟨.vmem, 122, rfl⟩
abbrev cc10_stg2_1 : Ref sig .tc := ⟨.vmem, 123, rfl⟩
abbrev cc10_stg3_0 : Ref sig .tc := ⟨.vmem, 124, rfl⟩
abbrev cc10_stg4_0 : Ref sig .tc := ⟨.vmem, 125, rfl⟩
abbrev cc10_stg5_0 : Ref sig .tc := ⟨.vmem, 126, rfl⟩
abbrev cc10_stg6_0 : Ref sig .tc := ⟨.vmem, 127, rfl⟩
abbrev cc10_stg6_1 : Ref sig .tc := ⟨.vmem, 128, rfl⟩
abbrev cc11_stg0_0 : Ref sig .tc := ⟨.vmem, 129, rfl⟩
abbrev cc11_stg1_0 : Ref sig .tc := ⟨.vmem, 130, rfl⟩
abbrev cc11_stg2_0 : Ref sig .tc := ⟨.vmem, 131, rfl⟩
abbrev cc11_stg3_0 : Ref sig .tc := ⟨.vmem, 132, rfl⟩
abbrev cc11_stg4_0 : Ref sig .tc := ⟨.vmem, 133, rfl⟩
abbrev cc11_stg5_0 : Ref sig .tc := ⟨.vmem, 134, rfl⟩
abbrev cc11_stg6_0 : Ref sig .tc := ⟨.vmem, 135, rfl⟩
abbrev cc12_stg0_0 : Ref sig .tc := ⟨.vmem, 136, rfl⟩
abbrev cc12_stg0_1 : Ref sig .tc := ⟨.vmem, 137, rfl⟩
abbrev cc12_stg1_0 : Ref sig .tc := ⟨.vmem, 138, rfl⟩
abbrev cc12_stg1_1 : Ref sig .tc := ⟨.vmem, 139, rfl⟩
abbrev cc12_stg2_0 : Ref sig .tc := ⟨.vmem, 140, rfl⟩
abbrev cc12_stg2_1 : Ref sig .tc := ⟨.vmem, 141, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem15_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem6_1 : DmaSem sig := 48
abbrev cc4_sem0_0 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem4_0 : DmaSem sig := 63
abbrev cc5_sem5_0 : DmaSem sig := 64
abbrev cc5_sem6_0 : DmaSem sig := 65
abbrev cc5_sem6_1 : DmaSem sig := 66
abbrev cc6_sem0_0 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc7_sem3_1 : DmaSem sig := 81
abbrev cc7_sem4_0 : DmaSem sig := 82
abbrev cc7_sem4_1 : DmaSem sig := 83
abbrev cc7_sem5_0 : DmaSem sig := 84
abbrev cc7_sem5_1 : DmaSem sig := 85
abbrev cc7_sem6_0 : DmaSem sig := 86
abbrev cc7_sem6_1 : DmaSem sig := 87
abbrev cc7_sem7_0 : DmaSem sig := 88
abbrev cc7_sem7_1 : DmaSem sig := 89
abbrev cc7_sem8_0 : DmaSem sig := 90
abbrev cc7_sem8_1 : DmaSem sig := 91
abbrev cc7_sem9_0 : DmaSem sig := 92
abbrev cc7_sem10_0 : DmaSem sig := 93
abbrev cc7_sem11_0 : DmaSem sig := 94
abbrev cc7_sem12_0 : DmaSem sig := 95
abbrev cc7_sem13_0 : DmaSem sig := 96
abbrev cc7_sem14_0 : DmaSem sig := 97
abbrev cc7_sem15_0 : DmaSem sig := 98
abbrev cc7_sem15_1 : DmaSem sig := 99
abbrev cc8_sem0_0 : DmaSem sig := 100
abbrev cc8_sem0_1 : DmaSem sig := 101
abbrev cc8_sem1_0 : DmaSem sig := 102
abbrev cc8_sem1_1 : DmaSem sig := 103
abbrev cc8_sem2_0 : DmaSem sig := 104
abbrev cc8_sem2_1 : DmaSem sig := 105
abbrev cc8_sem3_0 : DmaSem sig := 106
abbrev cc8_sem4_0 : DmaSem sig := 107
abbrev cc8_sem5_0 : DmaSem sig := 108
abbrev cc8_sem6_0 : DmaSem sig := 109
abbrev cc8_sem6_1 : DmaSem sig := 110
abbrev cc9_sem0_0 : DmaSem sig := 111
abbrev cc9_sem1_0 : DmaSem sig := 112
abbrev cc9_sem2_0 : DmaSem sig := 113
abbrev cc9_sem3_0 : DmaSem sig := 114
abbrev cc9_sem4_0 : DmaSem sig := 115
abbrev cc9_sem5_0 : DmaSem sig := 116
abbrev cc9_sem6_0 : DmaSem sig := 117
abbrev cc10_sem0_0 : DmaSem sig := 118
abbrev cc10_sem0_1 : DmaSem sig := 119
abbrev cc10_sem1_0 : DmaSem sig := 120
abbrev cc10_sem1_1 : DmaSem sig := 121
abbrev cc10_sem2_0 : DmaSem sig := 122
abbrev cc10_sem2_1 : DmaSem sig := 123
abbrev cc10_sem3_0 : DmaSem sig := 124
abbrev cc10_sem4_0 : DmaSem sig := 125
abbrev cc10_sem5_0 : DmaSem sig := 126
abbrev cc10_sem6_0 : DmaSem sig := 127
abbrev cc10_sem6_1 : DmaSem sig := 128
abbrev cc11_sem0_0 : DmaSem sig := 129
abbrev cc11_sem1_0 : DmaSem sig := 130
abbrev cc11_sem2_0 : DmaSem sig := 131
abbrev cc11_sem3_0 : DmaSem sig := 132
abbrev cc11_sem4_0 : DmaSem sig := 133
abbrev cc11_sem5_0 : DmaSem sig := 134
abbrev cc11_sem6_0 : DmaSem sig := 135
abbrev cc12_sem0_0 : DmaSem sig := 136
abbrev cc12_sem0_1 : DmaSem sig := 137
abbrev cc12_sem1_0 : DmaSem sig := 138
abbrev cc12_sem1_1 : DmaSem sig := 139
abbrev cc12_sem2_0 : DmaSem sig := 140
abbrev cc12_sem2_1 : DmaSem sig := 141

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![21], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2456x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2456x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2456x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2456x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2456x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2456x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2456x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2456x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2456x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2456x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![17], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6144x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6144x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6144x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S6144x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S50x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S50x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S50x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S50x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6144x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6144x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6144x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S6144x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S10x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S10x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S10x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S10x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![21], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_15 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2456x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2456x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2456x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2456x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2456x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2456x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2456x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S2456x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S2456x64 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 1 → Memref sig .tc .vmem S64x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S64x64 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S64x64 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S64x64 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S1x64 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S64x64 .f32 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 2 → Memref sig .tc .vmem S2456x64 .f32 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![true]

abbrev grid8 : Pipeline.Grid := ⟨1, ![17], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6144x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S6144x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S6144x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S6144x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S50x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S50x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S50x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S50x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6144x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6144x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S6144x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S6144x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S10x64 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S10x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S10x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S10x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![true]

abbrev grid12 : Pipeline.Grid := ⟨1, ![49], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 1 → Nat :=
  let arg0 : BitVec 32 := BitVec.ofNat 32 (i 0).val
  let c0_i32 : BitVec 32 := 0#32
  ![arg0.toNat]

abbrev stage12_0 : Fin 2 → Memref sig .tc .vmem S4096x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4096 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

class Facts₀ : Prop where
  transposes_S64x384_S384x64_1_0 : S64x384.Transposes [1, 0] S384x64
  shapeCasts_S64_S1x64 : S64.ShapeCasts S1x64
  inb_S10000x384_S10000x384_0_0 : ∀ a, (![0, 0] : Fin 2 → Nat) a + S10000x384.size a ≤ S10000x384.size a
  h_S10000x384 : 0 < S10000x384.numel
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S2x150000_S1x150000_0_0 : S2x150000.Slices ![0, 0] S1x150000
  shapeCasts_S1x150000_S150000 : S1x150000.ShapeCasts S150000
  slices_S2x150000_S1x150000_1_0 : S2x150000.Slices ![1, 0] S1x150000
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S1000000x1 : S_.BroadcastsInDim S1000000x1 (![] : Fin 0 → Fin S1000000x1.rank)
  bcast_S_S50000x1 : S_.BroadcastsInDim S50000x1 (![] : Fin 0 → Fin S50000x1.rank)
  bcast_S1000000_S1000000x1_0 : S1000000.BroadcastsInDim S1000000x1 (![0] : Fin 1 → Fin S1000000x1.rank)
  bcast_S_S100000x1 : S_.BroadcastsInDim S100000x1 (![] : Fin 0 → Fin S100000x1.rank)
  bcast_S_S150000x1 : S_.BroadcastsInDim S150000x1 (![] : Fin 0 → Fin S150000x1.rank)
  bcast_S150000_S150000x1_0 : S150000.BroadcastsInDim S150000x1 (![0] : Fin 1 → Fin S150000x1.rank)
  bcast_S_S50x1 : S_.BroadcastsInDim S50x1 (![] : Fin 0 → Fin S50x1.rank)
  bcast_S50000_S50000x1_0 : S50000.BroadcastsInDim S50000x1 (![0] : Fin 1 → Fin S50000x1.rank)
  bcast_S_S20000x1 : S_.BroadcastsInDim S20000x1 (![] : Fin 0 → Fin S20000x1.rank)
  bcast_S_S10x1 : S_.BroadcastsInDim S10x1 (![] : Fin 0 → Fin S10x1.rank)
  bcast_S_S1000000 : S_.BroadcastsInDim S1000000 (![] : Fin 0 → Fin S1000000.rank)
  bcast_S_S50000x64 : S_.BroadcastsInDim S50000x64 (![] : Fin 0 → Fin S50000x64.rank)
  slices_S8x64x64_S1x64x64_0_0_0 : S8x64x64.Slices ![0, 0, 0] S1x64x64
  shapeCasts_S1x64x64_S64x64 : S1x64x64.ShapeCasts S64x64
  transposes_S64x64_S64x64_1_0 : S64x64.Transposes [1, 0] S64x64
  slices_S8x64_S1x64_0_0 : S8x64.Slices ![0, 0] S1x64
  shapeCasts_S1x64_S64 : S1x64.ShapeCasts S64
  bcast_S_S150000 : S_.BroadcastsInDim S150000 (![] : Fin 0 → Fin S150000.rank)
  slices_S8x64x64_S1x64x64_2_0_0 : S8x64x64.Slices ![2, 0, 0] S1x64x64
  slices_S8x64_S1x64_2_0 : S8x64.Slices ![2, 0] S1x64
  bcast_S_S50000 : S_.BroadcastsInDim S50000 (![] : Fin 0 → Fin S50000.rank)
  slices_S8x64x64_S1x64x64_4_0_0 : S8x64x64.Slices ![4, 0, 0] S1x64x64
  slices_S8x64_S1x64_4_0 : S8x64.Slices ![4, 0] S1x64
  slices_S8x64x64_S1x64x64_6_0_0 : S8x64x64.Slices ![6, 0, 0] S1x64x64
  slices_S8x64_S1x64_6_0 : S8x64.Slices ![6, 0] S1x64
  bcast_S64_S1x64_1 : S64.BroadcastsInDim S1x64 (![1] : Fin 1 → Fin S1x64.rank)
  concatenates_S1x64_S1x64_S1x64_S1x64_S4x64_d0 : Shape.Concatenates [S1x64, S1x64, S1x64, S1x64] S4x64 0
  reducesTo_S4x64_S64_d0 : S4x64.ReducesTo [0] S64
  h_S_ : 0 < S_.numel
  bcast_S64x64_S1x64x64_1_2 : S64x64.BroadcastsInDim S1x64x64 (![1, 2] : Fin 2 → Fin S1x64x64.rank)
  concatenates_S1x64x64_S1x64x64_S1x64x64_S1x64x64_S4x64x64_d0 : Shape.Concatenates [S1x64x64, S1x64x64, S1x64x64, S1x64x64] S4x64x64 0
  reducesTo_S4x64x64_S64x64_d0 : S4x64x64.ReducesTo [0] S64x64
  pads_S50000x64_S51576x64_015760_000 : S50000x64.Pads (![0, 0] : Fin 2 → Nat) ![1576, 0] ![0, 0] S51576x64
  pads_S50000x1_S51576x1_015760_000 : S50000x1.Pads (![0, 0] : Fin 2 → Nat) ![1576, 0] ![0, 0] S51576x1
  inb_S2456x64_S2456x64_0_0 : ∀ a, (![0, 0] : Fin 2 → Nat) a + S2456x64.size a ≤ S2456x64.size a
  h_S2456x64 : 0 < S2456x64.numel
  shapeCasts_S2456x64_S2456x64 : S2456x64.ShapeCasts S2456x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2456x64 : S1x64.Broadcasts S2456x64
  inb_S2456x1_S2456x1_0_0 : ∀ a, (![0, 0] : Fin 2 → Nat) a + S2456x1.size a ≤ S2456x1.size a
  h_S2456x1 : 0 < S2456x1.numel
  shapeCasts_S2456x1_S2456x1 : S2456x1.ShapeCasts S2456x1
  broadcasts_S2456x1_S2456x64 : S2456x1.Broadcasts S2456x64
  slices_S51576x64_S50000x64_0_0 : S51576x64.Slices ![0, 0] S50000x64
  bcast_S_S100000x64 : S_.BroadcastsInDim S100000x64 (![] : Fin 0 → Fin S100000x64.rank)
  slices_S8x64x64_S1x64x64_1_0_0 : S8x64x64.Slices ![1, 0, 0] S1x64x64
  slices_S8x64_S1x64_1_0 : S8x64.Slices ![1, 0] S1x64
  reducesTo_S1x64_S64_d0 : S1x64.ReducesTo [0] S64
  reducesTo_S1x64x64_S64x64_d0 : S1x64x64.ReducesTo [0] S64x64
  pads_S100000x64_S104448x64_044480_000 : S100000x64.Pads (![0, 0] : Fin 2 → Nat) ![4448, 0] ![0, 0] S104448x64
  pads_S100000x1_S104448x1_044480_000 : S100000x1.Pads (![0, 0] : Fin 2 → Nat) ![4448, 0] ![0, 0] S104448x1
  inb_S6144x64_S6144x64_0_0 : ∀ a, (![0, 0] : Fin 2 → Nat) a + S6144x64.size a ≤ S6144x64.size a
  h_S6144x64 : 0 < S6144x64.numel
  shapeCasts_S6144x64_S6144x64 : S6144x64.ShapeCasts S6144x64
  broadcasts_S1x64_S6144x64 : S1x64.Broadcasts S6144x64
  inb_S6144x1_S6144x1_0_0 : ∀ a, (![0, 0] : Fin 2 → Nat) a + S6144x1.size a ≤ S6144x1.size a
  h_S6144x1 : 0 < S6144x1.numel
  shapeCasts_S6144x1_S6144x1 : S6144x1.ShapeCasts S6144x1
  broadcasts_S6144x1_S6144x64 : S6144x1.Broadcasts S6144x64
  slices_S104448x64_S100000x64_0_0 : S104448x64.Slices ![0, 0] S100000x64
  bcast_S_S50x64 : S_.BroadcastsInDim S50x64 (![] : Fin 0 → Fin S50x64.rank)
  slices_S8x64x64_S1x64x64_3_0_0 : S8x64x64.Slices ![3, 0, 0] S1x64x64
  slices_S8x64_S1x64_3_0 : S8x64.Slices ![3, 0] S1x64
  inb_S50x64_S50x64_0_0 : ∀ a, (![0, 0] : Fin 2 → Nat) a + S50x64.size a ≤ S50x64.size a
  h_S50x64 : 0 < S50x64.numel
  broadcasts_S1x64_S50x64 : S1x64.Broadcasts S50x64
  shapeCasts_S50x64_S50x64 : S50x64.ShapeCasts S50x64
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x64 : S50x1.Broadcasts S50x64
  bcast_S_S20000x64 : S_.BroadcastsInDim S20000x64 (![] : Fin 0 → Fin S20000x64.rank)
  slices_S8x64x64_S1x64x64_5_0_0 : S8x64x64.Slices ![5, 0, 0] S1x64x64
  slices_S8x64_S1x64_5_0 : S8x64.Slices ![5, 0] S1x64
  pads_S20000x64_S24576x64_045760_000 : S20000x64.Pads (![0, 0] : Fin 2 → Nat) ![4576, 0] ![0, 0] S24576x64
  pads_S20000x1_S24576x1_045760_000 : S20000x1.Pads (![0, 0] : Fin 2 → Nat) ![4576, 0] ![0, 0] S24576x1
  slices_S24576x64_S20000x64_0_0 : S24576x64.Slices ![0, 0] S20000x64
  bcast_S_S10x64 : S_.BroadcastsInDim S10x64 (![] : Fin 0 → Fin S10x64.rank)
  slices_S8x64x64_S1x64x64_7_0_0 : S8x64x64.Slices ![7, 0, 0] S1x64x64
  slices_S8x64_S1x64_7_0 : S8x64.Slices ![7, 0] S1x64
  inb_S10x64_S10x64_0_0 : ∀ a, (![0, 0] : Fin 2 → Nat) a + S10x64.size a ≤ S10x64.size a
  h_S10x64 : 0 < S10x64.numel
  broadcasts_S1x64_S10x64 : S1x64.Broadcasts S10x64
  shapeCasts_S10x64_S10x64 : S10x64.ShapeCasts S10x64
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x64 : S10x1.Broadcasts S10x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  pads_S200000x64_S200704x64_07040_000 : S200000x64.Pads (![0, 0] : Fin 2 → Nat) ![704, 0] ![0, 0] S200704x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  slices_S200704_S200000_0 : S200704.Slices ![0] S200000
  dot_S10000x384_S384x64_S10000x64_1_0_0_1_n_n_wf : DotDims.WF S10000x384 S384x64 S10000x64 [1] [0] [0] [1] [] []
  scatter_S50000x1_S1000000x1_S1000000x1_1_0_0_1_wf : ScatterDims.WF S50000x1 S1000000x1 S1000000x1 [1] [0] [0] 1
  scatter_S100000x1_S1000000x1_S1000000x1_1_0_0_1_wf : ScatterDims.WF S100000x1 S1000000x1 S1000000x1 [1] [0] [0] 1
  scatter_S50000x1_S150000x1_S150000x1_1_0_0_1_wf : ScatterDims.WF S50000x1 S150000x1 S150000x1 [1] [0] [0] 1
  scatter_S50x1_S150000x1_S150000x1_1_0_0_1_wf : ScatterDims.WF S50x1 S150000x1 S150000x1 [1] [0] [0] 1
  scatter_S50000x1_S50000x1_S50000x1_1_0_0_1_wf : ScatterDims.WF S50000x1 S50000x1 S50000x1 [1] [0] [0] 1
  scatter_S20000x1_S50000x1_S50000x1_1_0_0_1_wf : ScatterDims.WF S20000x1 S50000x1 S50000x1 [1] [0] [0] 1
  scatter_S10x1_S50000x1_S50000x1_1_0_0_1_wf : ScatterDims.WF S10x1 S50000x1 S50000x1 [1] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  gather_S50x64_S150000x1_S150000x64_1_0_n_n_0_1_164_wf : GatherDims.WF S50x64 S150000x1 S150000x64 [1] [0] [] [0] [] 1 ![1, 64]
  scatter_S50000x64_S150000x1_S150000x64_1_0_0_1_wf : ScatterDims.WF S50000x64 S150000x1 S150000x64 [1] [0] [0] 1
  gather_S20000x64_S50000x1_S50000x64_1_0_n_n_0_1_164_wf : GatherDims.WF S20000x64 S50000x1 S50000x64 [1] [0] [] [0] [] 1 ![1, 64]
  scatter_S50000x64_S50000x1_S50000x64_1_0_0_1_wf : ScatterDims.WF S50000x64 S50000x1 S50000x64 [1] [0] [0] 1
  gather_S10x64_S50000x1_S50000x64_1_0_n_n_0_1_164_wf : GatherDims.WF S10x64 S50000x1 S50000x64 [1] [0] [] [0] [] 1 ![1, 64]
  dot_S2456x64_S64x64_S2456x64_1_0_0_1_n_n_wf : DotDims.WF S2456x64 S64x64 S2456x64 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  dot_S6144x64_S64x64_S6144x64_1_0_0_1_n_n_wf : DotDims.WF S6144x64 S64x64 S6144x64 [1] [0] [0] [1] [] []
  gather_S50000x64_S150000x1_S150000x64_1_0_n_n_0_1_164_wf : GatherDims.WF S50000x64 S150000x1 S150000x64 [1] [0] [] [0] [] 1 ![1, 64]
  scatter_S50x64_S150000x1_S150000x64_1_0_0_1_wf : ScatterDims.WF S50x64 S150000x1 S150000x64 [1] [0] [0] 1
  dot_S50x64_S64x64_S50x64_1_0_0_1_n_n_wf : DotDims.WF S50x64 S64x64 S50x64 [1] [0] [0] [1] [] []
  gather_S50000x64_S50000x1_S50000x64_1_0_n_n_0_1_164_wf : GatherDims.WF S50000x64 S50000x1 S50000x64 [1] [0] [] [0] [] 1 ![1, 64]
  scatter_S20000x64_S50000x1_S50000x64_1_0_0_1_wf : ScatterDims.WF S20000x64 S50000x1 S50000x64 [1] [0] [0] 1
  scatter_S10x64_S50000x1_S50000x64_1_0_0_1_wf : ScatterDims.WF S10x64 S50000x1 S50000x64 [1] [0] [0] 1
  dot_S10x64_S64x64_S10x64_1_0_0_1_n_n_wf : DotDims.WF S10x64 S64x64 S10x64 [1] [0] [0] [1] [] []
  gather_S100000x64_S200000x1_S200000x64_1_0_n_n_0_1_164_wf : GatherDims.WF S100000x64 S200000x1 S200000x64 [1] [0] [] [0] [] 1 ![1, 64]
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x384.size a ≤ S100000x384.size a
  hwx0_0 : ∀ i : grid0.Coords, EltTy.bits .f32 = 32 ∨ (Rect.block (s := S100000x384) S10000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x384.size a ≤ S50000x384.size a
  hwx1_0 : ∀ i : grid1.Coords, EltTy.bits .f32 = 32 ∨ (Rect.block (s := S50000x384) S10000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x64.size a ≤ S384x64.size a
  hwx1_1 : ∀ i : grid1.Coords, EltTy.bits .f32 = 32 ∨ (Rect.block (s := S384x64) S384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2456x64.size a ≤ S51576x64.size a
  hwx2_0 : ∀ i : grid2.Coords, EltTy.bits .f32 = 32 ∨ (Rect.block (s := S51576x64) S2456x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2456x1.size a ≤ S51576x1.size a
  hwx2_1 : ∀ i : grid2.Coords, EltTy.bits .f32 = 32 ∨ (Rect.block (s := S51576x1) S2456x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2456x64.size a ≤ S51576x64.size a
  hwx2_2 : ∀ i : grid2.Coords, EltTy.bits .f32 = 32 ∨ (Rect.block (s := S51576x64) S2456x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2456x1.size a ≤ S51576x1.size a
  hwx2_3 : ∀ i : grid2.Coords, EltTy.bits .f32 = 32 ∨ (Rect.block (s := S51576x1) S2456x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2456x64.size a ≤ S51576x64.size a
  hwx2_4 : ∀ i : grid2.Coords, EltTy.bits .f32 = 32 ∨ (Rect.block (s := S51576x64) S2456x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2456x1.size a ≤ S51576x1.size a
  hwx2_5 : ∀ i : grid2.Coords, EltTy.bits .f32 = 32 ∨ (Rect.block (s := S51576x1) S2456x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2456x64.size a ≤ S51576x64.size a
  hwx2_6 : ∀ i : grid2.Coords, EltTy.bits .f32 = 32 ∨ (Rect.block (s := S51576x64) S2456x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2456x1.size a ≤ S51576x1.size a
  hwx2_7 : ∀ i : grid2.Coords, EltTy.bits .f32 = 32 ∨ (Rect.block (s := S51576x1) S2456x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2456x64.size a ≤ S51576x64.size a
  hwx2_8 : ∀ i : grid2.Coords, EltTy.bits .f32 = 32 ∨ (Rect.block (s := S51576x64) S2456x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x64.size a ≤ S64x64.size a
  hwx2_10 : ∀ i : grid2.Coords, EltTy.bits .f32 = 32 ∨ (Rect.block (s := S64x64) S64x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x64.size a ≤ S64x64.size a
  hwx2_11 : ∀ i : grid2.Coords, EltTy.bits .f32 = 32 ∨ (Rect.block (s := S64x64) S64x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x64.size a ≤ S64x64.size a
  hwx2_12 : ∀ i : grid2.Coords, EltTy.bits .f32 = 32 ∨ (Rect.block (s := S64x64) S64x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x64.size a ≤ S64x64.size a
  hwx2_14 : ∀ i : grid2.Coords, EltTy.bits .f32 = 32 ∨ (Rect.block (s := S64x64) S64x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2456x64.size a ≤ S51576x64.size a
  hwx2_15 : ∀ i : grid2.Coords, EltTy.bits .f32 = 32 ∨ (Rect.block (s := S51576x64) S2456x64.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6144x64.size a ≤ S104448x64.size a
  hwx3_0 : ∀ i : grid3.Coords, EltTy.bits .f32 = 32 ∨ (Rect.block (s := S104448x64) S6144x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6144x1.size a ≤ S104448x1.size a
  hwx3_1 : ∀ i : grid3.Coords, EltTy.bits .f32 = 32 ∨ (Rect.block (s := S104448x1) S6144x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6144x64.size a ≤ S104448x64.size a
  hwx3_2 : ∀ i : grid3.Coords, EltTy.bits .f32 = 32 ∨ (Rect.block (s := S104448x64) S6144x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S6144x64.size a ≤ S104448x64.size a
  hwx3_6 : ∀ i : grid3.Coords, EltTy.bits .f32 = 32 ∨ (Rect.block (s := S104448x64) S6144x64.size (cc3_transform_6 i) (hinb3_6 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S50x64.size a ≤ S50x64.size a
  hwx4_0 : ∀ i : grid4.Coords, EltTy.bits .f32 = 32 ∨ (Rect.block (s := S50x64) S50x64.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S50x1.size a ≤ S50x1.size a
  hwx4_1 : ∀ i : grid4.Coords, EltTy.bits .f32 = 32 ∨ (Rect.block (s := S50x1) S50x1.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S50x64.size a ≤ S50x64.size a
  hwx4_2 : ∀ i : grid4.Coords, EltTy.bits .f32 = 32 ∨ (Rect.block (s := S50x64) S50x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 1
  hreads4_6 : ∀ i i' : grid4.Coords, (∀ a, reads4_6 a = true → i a = i' a) → cc4_transform_6 i = cc4_transform_6 i'
  hinb4_6 : ∀ (i : grid4.Coords) a, (cc4_transform_6 i a + 1) * S50x64.size a ≤ S50x64.size a
  hwx4_6 : ∀ i : grid4.Coords, EltTy.bits .f32 = 32 ∨ (Rect.block (s := S50x64) S50x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6144x64.size a ≤ S24576x64.size a
  hwx5_0 : ∀ i : grid5.Coords, EltTy.bits .f32 = 32 ∨ (Rect.block (s := S24576x64) S6144x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6144x1.size a ≤ S24576x1.size a
  hwx5_1 : ∀ i : grid5.Coords, EltTy.bits .f32 = 32 ∨ (Rect.block (s := S24576x1) S6144x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6144x64.size a ≤ S24576x64.size a
  hwx5_2 : ∀ i : grid5.Coords, EltTy.bits .f32 = 32 ∨ (Rect.block (s := S24576x64) S6144x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S6144x64.size a ≤ S24576x64.size a
  hwx5_6 : ∀ i : grid5.Coords, EltTy.bits .f32 = 32 ∨ (Rect.block (s := S24576x64) S6144x64.size (cc5_transform_6 i) (hinb5_6 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S10x64.size a ≤ S10x64.size a
  hwx6_0 : ∀ i : grid6.Coords, EltTy.bits .f32 = 32 ∨ (Rect.block (s := S10x64) S10x64.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S10x1.size a ≤ S10x1.size a
  hwx6_1 : ∀ i : grid6.Coords, EltTy.bits .f32 = 32 ∨ (Rect.block (s := S10x1) S10x1.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S10x64.size a ≤ S10x64.size a
  hwx6_2 : ∀ i : grid6.Coords, EltTy.bits .f32 = 32 ∨ (Rect.block (s := S10x64) S10x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 false = 1
  hreads6_6 : ∀ i i' : grid6.Coords, (∀ a, reads6_6 a = true → i a = i' a) → cc6_transform_6 i = cc6_transform_6 i'
  hinb6_6 : ∀ (i : grid6.Coords) a, (cc6_transform_6 i a + 1) * S10x64.size a ≤ S10x64.size a
  hwx6_6 : ∀ i : grid6.Coords, EltTy.bits .f32 = 32 ∨ (Rect.block (s := S10x64) S10x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2456x64.size a ≤ S51576x64.size a
  hwx7_0 : ∀ i : grid7.Coords, EltTy.bits .f32 = 32 ∨ (Rect.block (s := S51576x64) S2456x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2456x1.size a ≤ S51576x1.size a
  hwx7_1 : ∀ i : grid7.Coords, EltTy.bits .f32 = 32 ∨ (Rect.block (s := S51576x1) S2456x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2456x64.size a ≤ S51576x64.size a
  hwx7_2 : ∀ i : grid7.Coords, EltTy.bits .f32 = 32 ∨ (Rect.block (s := S51576x64) S2456x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2456x1.size a ≤ S51576x1.size a
  hwx7_3 : ∀ i : grid7.Coords, EltTy.bits .f32 = 32 ∨ (Rect.block (s := S51576x1) S2456x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2456x64.size a ≤ S51576x64.size a
  hwx7_4 : ∀ i : grid7.Coords, EltTy.bits .f32 = 32 ∨ (Rect.block (s := S51576x64) S2456x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2456x1.size a ≤ S51576x1.size a
  hwx7_5 : ∀ i : grid7.Coords, EltTy.bits .f32 = 32 ∨ (Rect.block (s := S51576x1) S2456x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2456x64.size a ≤ S51576x64.size a
  hwx7_6 : ∀ i : grid7.Coords, EltTy.bits .f32 = 32 ∨ (Rect.block (s := S51576x64) S2456x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2456x1.size a ≤ S51576x1.size a
  hwx7_7 : ∀ i : grid7.Coords, EltTy.bits .f32 = 32 ∨ (Rect.block (s := S51576x1) S2456x1.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2456x64.size a ≤ S51576x64.size a
  hwx7_8 : ∀ i : grid7.Coords, EltTy.bits .f32 = 32 ∨ (Rect.block (s := S51576x64) S2456x64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S64x64.size a ≤ S64x64.size a
  hwx7_9 : ∀ i : grid7.Coords, EltTy.bits .f32 = 32 ∨ (Rect.block (s := S64x64) S64x64.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S64x64.size a ≤ S64x64.size a
  hwx7_10 : ∀ i : grid7.Coords, EltTy.bits .f32 = 32 ∨ (Rect.block (s := S64x64) S64x64.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S64x64.size a ≤ S64x64.size a
  hwx7_11 : ∀ i : grid7.Coords, EltTy.bits .f32 = 32 ∨ (Rect.block (s := S64x64) S64x64.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S64x64.size a ≤ S64x64.size a
  hwx7_12 : ∀ i : grid7.Coords, EltTy.bits .f32 = 32 ∨ (Rect.block (s := S64x64) S64x64.size (cc7_transform_12 i) (hinb7_12 i)).WholeWords (EltTy.packing .f32)
  hstage7_13 : ∀ j, (stage7_13 j).IsWhole
  nbuf7_13 : grid7.bufCount reads7_13 true = 1
  hreads7_13 : ∀ i i' : grid7.Coords, (∀ a, reads7_13 a = true → i a = i' a) → cc7_transform_13 i = cc7_transform_13 i'
  hinb7_13 : ∀ (i : grid7.Coords) a, (cc7_transform_13 i a + 1) * S1x64.size a ≤ S1x64.size a
  hwx7_13 : ∀ i : grid7.Coords, EltTy.bits .f32 = 32 ∨ (Rect.block (s := S1x64) S1x64.size (cc7_transform_13 i) (hinb7_13 i)).WholeWords (EltTy.packing .f32)
  hstage7_14 : ∀ j, (stage7_14 j).IsWhole
  nbuf7_14 : grid7.bufCount reads7_14 true = 1
  hreads7_14 : ∀ i i' : grid7.Coords, (∀ a, reads7_14 a = true → i a = i' a) → cc7_transform_14 i = cc7_transform_14 i'
  hinb7_14 : ∀ (i : grid7.Coords) a, (cc7_transform_14 i a + 1) * S64x64.size a ≤ S64x64.size a
  hwx7_14 : ∀ i : grid7.Coords, EltTy.bits .f32 = 32 ∨ (Rect.block (s := S64x64) S64x64.size (cc7_transform_14 i) (hinb7_14 i)).WholeWords (EltTy.packing .f32)
  hstage7_15 : ∀ j, (stage7_15 j).IsWhole
  nbuf7_15 : grid7.bufCount reads7_15 false = 2
  hreads7_15 : ∀ i i' : grid7.Coords, (∀ a, reads7_15 a = true → i a = i' a) → cc7_transform_15 i = cc7_transform_15 i'
  hinb7_15 : ∀ (i : grid7.Coords) a, (cc7_transform_15 i a + 1) * S2456x64.size a ≤ S51576x64.size a
  hwx7_15 : ∀ i : grid7.Coords, EltTy.bits .f32 = 32 ∨ (Rect.block (s := S51576x64) S2456x64.size (cc7_transform_15 i) (hinb7_15 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6144x64.size a ≤ S104448x64.size a
  hwx8_0 : ∀ i : grid8.Coords, EltTy.bits .f32 = 32 ∨ (Rect.block (s := S104448x64) S6144x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S6144x1.size a ≤ S104448x1.size a
  hwx8_1 : ∀ i : grid8.Coords, EltTy.bits .f32 = 32 ∨ (Rect.block (s := S104448x1) S6144x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S6144x64.size a ≤ S104448x64.size a
  hwx8_2 : ∀ i : grid8.Coords, EltTy.bits .f32 = 32 ∨ (Rect.block (s := S104448x64) S6144x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S6144x64.size a ≤ S104448x64.size a
  hwx8_6 : ∀ i : grid8.Coords, EltTy.bits .f32 = 32 ∨ (Rect.block (s := S104448x64) S6144x64.size (cc8_transform_6 i) (hinb8_6 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S50x64.size a ≤ S50x64.size a
  hwx9_0 : ∀ i : grid9.Coords, EltTy.bits .f32 = 32 ∨ (Rect.block (s := S50x64) S50x64.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S50x1.size a ≤ S50x1.size a
  hwx9_1 : ∀ i : grid9.Coords, EltTy.bits .f32 = 32 ∨ (Rect.block (s := S50x1) S50x1.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S50x64.size a ≤ S50x64.size a
  hwx9_2 : ∀ i : grid9.Coords, EltTy.bits .f32 = 32 ∨ (Rect.block (s := S50x64) S50x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 false = 1
  hreads9_6 : ∀ i i' : grid9.Coords, (∀ a, reads9_6 a = true → i a = i' a) → cc9_transform_6 i = cc9_transform_6 i'
  hinb9_6 : ∀ (i : grid9.Coords) a, (cc9_transform_6 i a + 1) * S50x64.size a ≤ S50x64.size a
  hwx9_6 : ∀ i : grid9.Coords, EltTy.bits .f32 = 32 ∨ (Rect.block (s := S50x64) S50x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6144x64.size a ≤ S24576x64.size a
  hwx10_0 : ∀ i : grid10.Coords, EltTy.bits .f32 = 32 ∨ (Rect.block (s := S24576x64) S6144x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S6144x1.size a ≤ S24576x1.size a
  hwx10_1 : ∀ i : grid10.Coords, EltTy.bits .f32 = 32 ∨ (Rect.block (s := S24576x1) S6144x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S6144x64.size a ≤ S24576x64.size a
  hwx10_2 : ∀ i : grid10.Coords, EltTy.bits .f32 = 32 ∨ (Rect.block (s := S24576x64) S6144x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S6144x64.size a ≤ S24576x64.size a
  hwx10_6 : ∀ i : grid10.Coords, EltTy.bits .f32 = 32 ∨ (Rect.block (s := S24576x64) S6144x64.size (cc10_transform_6 i) (hinb10_6 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S10x64.size a ≤ S10x64.size a
  hwx11_0 : ∀ i : grid11.Coords, EltTy.bits .f32 = 32 ∨ (Rect.block (s := S10x64) S10x64.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S10x1.size a ≤ S10x1.size a
  hwx11_1 : ∀ i : grid11.Coords, EltTy.bits .f32 = 32 ∨ (Rect.block (s := S10x1) S10x1.size (cc11_transform_1 i) (hinb11_1 i)).WholeWords (EltTy.packing .f32)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S10x64.size a ≤ S10x64.size a
  hwx11_2 : ∀ i : grid11.Coords, EltTy.bits .f32 = 32 ∨ (Rect.block (s := S10x64) S10x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hstage11_6 : ∀ j, (stage11_6 j).IsWhole
  nbuf11_6 : grid11.bufCount reads11_6 false = 1
  hreads11_6 : ∀ i i' : grid11.Coords, (∀ a, reads11_6 a = true → i a = i' a) → cc11_transform_6 i = cc11_transform_6 i'
  hinb11_6 : ∀ (i : grid11.Coords) a, (cc11_transform_6 i a + 1) * S10x64.size a ≤ S10x64.size a
  hwx11_6 : ∀ i : grid11.Coords, EltTy.bits .f32 = 32 ∨ (Rect.block (s := S10x64) S10x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x64.size a ≤ S200704x64.size a
  hwx12_0 : ∀ i : grid12.Coords, EltTy.bits .f32 = 32 ∨ (Rect.block (s := S200704x64) S4096x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x64.size a ≤ S200704x64.size a
  hwx12_1 : ∀ i : grid12.Coords, EltTy.bits .f32 = 32 ∨ (Rect.block (s := S200704x64) S4096x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4096.size a ≤ S200704.size a
  hwx12_2 : ∀ i : grid12.Coords, EltTy.bits .f32 = 32 ∨ (Rect.block (s := S200704) S4096.size (cc12_transform_2 i) (hinb12_2 i)).WholeWords (EltTy.packing .f32)

variable [Facts₀]

def dot_S10000x384_S384x64_S10000x64_1_0_0_1_n_n : DotDims S10000x384 S384x64 S10000x64 where
  lhsContracting := [1]
  rhsContracting := [0]
  lhsNonContracting := [0]
  rhsNonContracting := [1]
  lhsBatch := []
  rhsBatch := []
  wf := dot_S10000x384_S384x64_S10000x64_1_0_0_1_n_n_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def scatter_S50x1_S150000x1_S150000x1_1_0_0_1 : ScatterDims S50x1 S150000x1 S150000x1 where
  updateWindowDims := [1]
  insertedWindowDims := [0]
  scatterDimsToOperandDims := [0]
  indexVectorDim := 1
  wf := scatter_S50x1_S150000x1_S150000x1_1_0_0_1_wf
def scatter_S50000x1_S50000x1_S50000x1_1_0_0_1 : ScatterDims S50000x1 S50000x1 S50000x1 where
  updateWindowDims := [1]
  insertedWindowDims := [0]
  scatterDimsToOperandDims := [0]
  indexVectorDim := 1
  wf := scatter_S50000x1_S50000x1_S50000x1_1_0_0_1_wf
def scatter_S20000x1_S50000x1_S50000x1_1_0_0_1 : ScatterDims S20000x1 S50000x1 S50000x1 where
  updateWindowDims := [1]
  insertedWindowDims := [0]
  scatterDimsToOperandDims := [0]
  indexVectorDim := 1
  wf := scatter_S20000x1_S50000x1_S50000x1_1_0_0_1_wf
def scatter_S10x1_S50000x1_S50000x1_1_0_0_1 : ScatterDims S10x1 S50000x1 S50000x1 where
  updateWindowDims := [1]
  insertedWindowDims := [0]
  scatterDimsToOperandDims := [0]
  indexVectorDim := 1
  wf := scatter_S10x1_S50000x1_S50000x1_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S50x64_S150000x1_S150000x64_1_0_n_n_0_1_164 : GatherDims S50x64 S150000x1 S150000x64 where
  offsetDims := [1]
  collapsedSliceDims := [0]
  operandBatchingDims := []
  startIndicesBatchingDims := []
  startIndexMap := [0]
  indexVectorDim := 1
  sliceSizes := ![1, 64]
  wf := gather_S50x64_S150000x1_S150000x64_1_0_n_n_0_1_164_wf
def scatter_S50000x64_S150000x1_S150000x64_1_0_0_1 : ScatterDims S50000x64 S150000x1 S150000x64 where
  updateWindowDims := [1]
  insertedWindowDims := [0]
  scatterDimsToOperandDims := [0]
  indexVectorDim := 1
  wf := scatter_S50000x64_S150000x1_S150000x64_1_0_0_1_wf
def gather_S20000x64_S50000x1_S50000x64_1_0_n_n_0_1_164 : GatherDims S20000x64 S50000x1 S50000x64 where
  offsetDims := [1]
  collapsedSliceDims := [0]
  operandBatchingDims := []
  startIndicesBatchingDims := []
  startIndexMap := [0]
  indexVectorDim := 1
  sliceSizes := ![1, 64]
  wf := gather_S20000x64_S50000x1_S50000x64_1_0_n_n_0_1_164_wf
def scatter_S50000x64_S50000x1_S50000x64_1_0_0_1 : ScatterDims S50000x64 S50000x1 S50000x64 where
  updateWindowDims := [1]
  insertedWindowDims := [0]
  scatterDimsToOperandDims := [0]
  indexVectorDim := 1
  wf := scatter_S50000x64_S50000x1_S50000x64_1_0_0_1_wf
def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def dot_S2456x64_S64x64_S2456x64_1_0_0_1_n_n : DotDims S2456x64 S64x64 S2456x64 where
  lhsContracting := [1]
  rhsContracting := [0]
  lhsNonContracting := [0]
  rhsNonContracting := [1]
  lhsBatch := []
  rhsBatch := []
  wf := dot_S2456x64_S64x64_S2456x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S6144x64_S64x64_S6144x64_1_0_0_1_n_n : DotDims S6144x64 S64x64 S6144x64 where
  lhsContracting := [1]
  rhsContracting := [0]
  lhsNonContracting := [0]
  rhsNonContracting := [1]
  lhsBatch := []
  rhsBatch := []
  wf := dot_S6144x64_S64x64_S6144x64_1_0_0_1_n_n_wf
def gather_S50000x64_S150000x1_S150000x64_1_0_n_n_0_1_164 : GatherDims S50000x64 S150000x1 S150000x64 where
  offsetDims := [1]
  collapsedSliceDims := [0]
  operandBatchingDims := []
  startIndicesBatchingDims := []
  startIndexMap := [0]
  indexVectorDim := 1
  sliceSizes := ![1, 64]
  wf := gather_S50000x64_S150000x1_S150000x64_1_0_n_n_0_1_164_wf
def scatter_S50x64_S150000x1_S150000x64_1_0_0_1 : ScatterDims S50x64 S150000x1 S150000x64 where
  updateWindowDims := [1]
  insertedWindowDims := [0]
  scatterDimsToOperandDims := [0]
  indexVectorDim := 1
  wf := scatter_S50x64_S150000x1_S150000x64_1_0_0_1_wf
def dot_S50x64_S64x64_S50x64_1_0_0_1_n_n : DotDims S50x64 S64x64 S50x64 where
  lhsContracting := [1]
  rhsContracting := [0]
  lhsNonContracting := [0]
  rhsNonContracting := [1]
  lhsBatch := []
  rhsBatch := []
  wf := dot_S50x64_S64x64_S50x64_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S20000x64_S50000x1_S50000x64_1_0_0_1 : ScatterDims S20000x64 S50000x1 S50000x64 where
  updateWindowDims := [1]
  insertedWindowDims := [0]
  scatterDimsToOperandDims := [0]
  indexVectorDim := 1
  wf := scatter_S20000x64_S50000x1_S50000x64_1_0_0_1_wf
def scatter_S10x64_S50000x1_S50000x64_1_0_0_1 : ScatterDims S10x64 S50000x1 S50000x64 where
  updateWindowDims := [1]
  insertedWindowDims := [0]
  scatterDimsToOperandDims := [0]
  indexVectorDim := 1
  wf := scatter_S10x64_S50000x1_S50000x64_1_0_0_1_wf
def dot_S10x64_S64x64_S10x64_1_0_0_1_n_n : DotDims S10x64 S64x64 S10x64 where
  lhsContracting := [1]
  rhsContracting := [0]
  lhsNonContracting := [0]
  rhsNonContracting := [1]
  lhsBatch := []
  rhsBatch := []
  wf := dot_S10x64_S64x64_S10x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S10000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v155) S2456x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v159) S2456x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v156) S2456x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v160) S2456x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v157) S2456x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v161) S2456x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v158) S2456x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v162) S2456x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v163) S2456x64.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v82) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v100) S64x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v118) S64x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v136) S64x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v148) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v154) S64x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v164) S2456x64.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v189) S6144x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v190) S6144x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v191) S6144x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v178) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v186) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v188) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v192) S6144x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v203) S50x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v53) S50x1.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S50x64.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v206) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v214) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v216) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v217) S50x64.size cc4_transform_6 reads4_6 true false 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v241) S6144x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v242) S6144x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v243) S6144x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v230) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v238) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v240) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v244) S6144x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v255) S10x64.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v69) S10x1.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_arg4) S10x64.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v258) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v266) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v268) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v269) S10x64.size cc6_transform_6 reads6_6 true false 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v355) S2456x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v359) S2456x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v356) S2456x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v360) S2456x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v357) S2456x64.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v361) S2456x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v358) S2456x64.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v362) S2456x1.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v363) S2456x64.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v282) S64x64.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v300) S64x64.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v318) S64x64.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v336) S64x64.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v348) S1x64.size cc7_transform_13 reads7_13 false true 1 stage7_13 sem7_13
    hrank7 hreads7_13 hinb7_13 nbuf7_13 (Memref.isWhole_whole _) hwx7_13 hstage7_13

abbrev win7_14 : Pipeline.Window sig grid7 :=
  Pipeline.Window.ofSpec (Memref.whole main_v354) S64x64.size cc7_transform_14 reads7_14 false true 1 stage7_14 sem7_14
    hrank7 hreads7_14 hinb7_14 nbuf7_14 (Memref.isWhole_whole _) hwx7_14 hstage7_14

abbrev win7_15 : Pipeline.Window sig grid7 :=
  Pipeline.Window.ofSpec (Memref.whole main_v364) S2456x64.size cc7_transform_15 reads7_15 true false 2 stage7_15 sem7_15
    hrank7 hreads7_15 hinb7_15 nbuf7_15 (Memref.isWhole_whole _) hwx7_15 hstage7_15

abbrev win7 : Fin 16 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | ⟨_ + 16, h⟩ => absurd h (Nat.not_lt.2 (Nat.le_add_left _ _))
abbrev spec7 : Fin 16 → Pipeline.WinSpec sig grid7.rank := fun w => (win7 w).toWinSpec

abbrev win8_0 : Pipeline.Window sig grid8 :=
  Pipeline.Window.ofSpec (Memref.whole main_v389) S6144x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v390) S6144x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v391) S6144x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v378) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v386) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v388) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v392) S6144x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v403) S50x64.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v53) S50x1.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v217) S50x64.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v406) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v414) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v416) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v417) S50x64.size cc9_transform_6 reads9_6 true false 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v441) S6144x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v442) S6144x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v443) S6144x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v430) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v438) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v440) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v444) S6144x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v455) S10x64.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v69) S10x1.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v269) S10x64.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v458) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v466) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v468) S64x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v469) S10x64.size cc11_transform_6 reads11_6 true false 1 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v488) S4096x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v489) S4096x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v490) S4096.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S100000x384 : Shape := ⟨2, ![100000, 384]⟩
abbrev S50000x384 : Shape := ⟨2, ![50000, 384]⟩
abbrev S50x64 : Shape := ⟨2, ![50, 64]⟩
abbrev S20000x64 : Shape := ⟨2, ![20000, 64]⟩
abbrev S10x64 : Shape := ⟨2, ![10, 64]⟩
abbrev S64x384 : Shape := ⟨2, ![64, 384]⟩
abbrev S64 : Shape := ⟨1, ![64]⟩
abbrev S8x64x64 : Shape := ⟨3, ![8, 64, 64]⟩
abbrev S8x64 : Shape := ⟨2, ![8, 64]⟩
abbrev S2x1000000 : Shape := ⟨2, ![2, 1000000]⟩
abbrev S2x150000 : Shape := ⟨2, ![2, 150000]⟩
abbrev S2x50000 : Shape := ⟨2, ![2, 50000]⟩
abbrev S2x200000 : Shape := ⟨2, ![2, 200000]⟩
abbrev S384x64 : Shape := ⟨2, ![384, 64]⟩
abbrev S100000x64 : Shape := ⟨2, ![100000, 64]⟩
abbrev S1x64 : Shape := ⟨2, ![1, 64]⟩
abbrev S50000x64 : Shape := ⟨2, ![50000, 64]⟩
abbrev S1x1000000 : Shape := ⟨2, ![1, 1000000]⟩
abbrev S1000000 : Shape := ⟨1, ![1000000]⟩
abbrev S1x150000 : Shape := ⟨2, ![1, 150000]⟩
abbrev S150000 : Shape := ⟨1, ![150000]⟩
abbrev S1x50000 : Shape := ⟨2, ![1, 50000]⟩
abbrev S50000 : Shape := ⟨1, ![50000]⟩
abbrev S1x64x64 : Shape := ⟨3, ![1, 64, 64]⟩
abbrev S64x64 : Shape := ⟨2, ![64, 64]⟩
abbrev S_ : Shape := ⟨0, ![]⟩
abbrev S1000000x1 : Shape := ⟨2, ![1000000, 1]⟩
abbrev S1000000x64 : Shape := ⟨2, ![1000000, 64]⟩
abbrev S50000x1 : Shape := ⟨2, ![50000, 1]⟩
abbrev S100000x1 : Shape := ⟨2, ![100000, 1]⟩
abbrev S150000x1 : Shape := ⟨2, ![150000, 1]⟩
abbrev S150000x64 : Shape := ⟨2, ![150000, 64]⟩
abbrev S50x1 : Shape := ⟨2, ![50, 1]⟩
abbrev S20000x1 : Shape := ⟨2, ![20000, 1]⟩
abbrev S10x1 : Shape := ⟨2, ![10, 1]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 716
  | .vmem => 0
  | .smem => 0
  | _ => 0

abbrev hbmTy0_0 (i : Nat) : BufTy := match i % 128 with
  | 0 => ⟨S100000x384, .f32⟩
  | 1 => ⟨S50000x384, .f32⟩
  | 2 => ⟨S50x64, .f32⟩
  | 3 => ⟨S20000x64, .f32⟩
  | 4 => ⟨S10x64, .f32⟩
  | 5 => ⟨S64x384, .f32⟩
  | 6 => ⟨S64, .f32⟩
  | 7 => ⟨S64x384, .f32⟩
  | 8 => ⟨S64, .f32⟩
  | 9 => ⟨S8x64x64, .f32⟩
  | 10 => ⟨S8x64, .f32⟩
  | 11 => ⟨S8x64x64, .f32⟩
  | 12 => ⟨S8x64x64, .f32⟩
  | 13 => ⟨S8x64, .f32⟩
  | 14 => ⟨S8x64x64, .f32⟩
  | 15 => ⟨S2x1000000, .i32⟩
  | 16 => ⟨S2x150000, .i32⟩
  | 17 => ⟨S2x50000, .i32⟩
  | 18 => ⟨S2x50000, .i32⟩
  | 19 => ⟨S2x200000, .i32⟩
  | 20 => ⟨S384x64, .f32⟩
  | 21 => ⟨S100000x64, .f32⟩
  | 22 => ⟨S1x64, .f32⟩
  | 23 => ⟨S100000x64, .f32⟩
  | 24 => ⟨S100000x64, .f32⟩
  | 25 => ⟨S384x64, .f32⟩
  | 26 => ⟨S50000x64, .f32⟩
  | 27 => ⟨S1x64, .f32⟩
  | 28 => ⟨S50000x64, .f32⟩
  | 29 => ⟨S50000x64, .f32⟩
  | 30 => ⟨S1x1000000, .i32⟩
  | 31 => ⟨S1000000, .i32⟩
  | 32 => ⟨S1x1000000, .i32⟩
  | 33 => ⟨S1000000, .i32⟩
  | 34 => ⟨S1x1000000, .i32⟩
  | 35 => ⟨S1000000, .i32⟩
  | 36 => ⟨S1x1000000, .i32⟩
  | 37 => ⟨S1000000, .i32⟩
  | 38 => ⟨S1x150000, .i32⟩
  | 39 => ⟨S150000, .i32⟩
  | 40 => ⟨S1x150000, .i32⟩
  | 41 => ⟨S150000, .i32⟩
  | 42 => ⟨S1x150000, .i32⟩
  | 43 => ⟨S150000, .i32⟩
  | 44 => ⟨S1x150000, .i32⟩
  | 45 => ⟨S150000, .i32⟩
  | 46 => ⟨S1x50000, .i32⟩
  | 47 => ⟨S50000, .i32⟩
  | 48 => ⟨S1x50000, .i32⟩
  | 49 => ⟨S50000, .i32⟩
  | 50 => ⟨S1x50000, .i32⟩
  | 51 => ⟨S50000, .i32⟩
  | 52 => ⟨S1x50000, .i32⟩
  | 53 => ⟨S50000, .i32⟩
  | 54 => ⟨S1x50000, .i32⟩
  | 55 => ⟨S50000, .i32⟩
  | 56 => ⟨S1x50000, .i32⟩
  | 57 => ⟨S50000, .i32⟩
  | 58 => ⟨S1x50000, .i32⟩
  | 59 => ⟨S50000, .i32⟩
  | 60 => ⟨S1x50000, .i32⟩
  | 61 => ⟨S50000, .i32⟩
  | 62 => ⟨S1x64x64, .f32⟩
  | 63 => ⟨S64x64, .f32⟩
  | 64 => ⟨S1x64, .f32⟩
  | 65 => ⟨S64, .f32⟩
  | 66 => ⟨S1x64x64, .f32⟩
  | 67 => ⟨S64x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S_, .f32⟩
  | 78 => ⟨S50000x64, .f32⟩
  | 79 => ⟨S1000000x1, .i32⟩
  | 80 => ⟨S50000x64, .f32⟩
  | 81 => ⟨S_, .f32⟩
  | 82 => ⟨S1000000x1, .f32⟩
  | 83 => ⟨S_, .f32⟩
  | 84 => ⟨S50000x1, .f32⟩
  | 85 => ⟨S1000000x1, .i32⟩
  | 86 => ⟨S50000x1, .f32⟩
  | 87 => ⟨S_, .f32⟩
  | 88 => ⟨S50000x1, .f32⟩
  | 89 => ⟨S50000x1, .f32⟩
  | 90 => ⟨S50000x64, .f32⟩
  | 91 => ⟨S50000x64, .f32⟩
  | 92 => ⟨S64x64, .f32⟩
  | 93 => ⟨S50000x64, .f32⟩
  | 94 => ⟨S1x64, .f32⟩
  | 95 => ⟨S50000x64, .f32⟩
  | 96 => ⟨S50000x64, .f32⟩
  | 97 => ⟨S64x64, .f32⟩
  | 98 => ⟨S50000x64, .f32⟩
  | 99 => ⟨S50000x64, .f32⟩
  | 100 => ⟨S1x64x64, .f32⟩
  | 101 => ⟨S64x64, .f32⟩
  | 102 => ⟨S1x64, .f32⟩
  | 103 => ⟨S64, .f32⟩
  | 104 => ⟨S1x64x64, .f32⟩
  | 105 => ⟨S64x64, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S_, .f32⟩
  | 116 => ⟨S100000x64, .f32⟩
  | 117 => ⟨S1000000x1, .i32⟩
  | 118 => ⟨S100000x64, .f32⟩
  | 119 => ⟨S_, .f32⟩
  | 120 => ⟨S1000000x1, .f32⟩
  | 121 => ⟨S_, .f32⟩
  | 122 => ⟨S100000x1, .f32⟩
  | 123 => ⟨S1000000x1, .i32⟩
  | 124 => ⟨S100000x1, .f32⟩
  | 125 => ⟨S_, .f32⟩
  | 126 => ⟨S100000x1, .f32⟩
  | 127 => ⟨S100000x1, .f32⟩
  | _ => ⟨S100000x384, .f32⟩

abbrev hbmTy0_1 (i : Nat) : BufTy := match i % 128 with
  | 0 => ⟨S100000x64, .f32⟩
  | 1 => ⟨S100000x64, .f32⟩
  | 2 => ⟨S64x64, .f32⟩
  | 3 => ⟨S100000x64, .f32⟩
  | 4 => ⟨S1x64, .f32⟩
  | 5 => ⟨S100000x64, .f32⟩
  | 6 => ⟨S100000x64, .f32⟩
  | 7 => ⟨S64x64, .f32⟩
  | 8 => ⟨S100000x64, .f32⟩
  | 9 => ⟨S100000x64, .f32⟩
  | 10 => ⟨S1x64x64, .f32⟩
  | 11 => ⟨S64x64, .f32⟩
  | 12 => ⟨S1x64, .f32⟩
  | 13 => ⟨S64, .f32⟩
  | 14 => ⟨S1x64x64, .f32⟩
  | 15 => ⟨S64x64, .f32⟩
  | 16 => ⟨S_, .i32⟩
  | 17 => ⟨S150000, .i32⟩
  | 18 => ⟨S150000, .i1⟩
  | 19 => ⟨S_, .i32⟩
  | 20 => ⟨S150000, .i32⟩
  | 21 => ⟨S150000, .i32⟩
  | 22 => ⟨S150000, .i32⟩
  | 23 => ⟨S150000x1, .i32⟩
  | 24 => ⟨S150000x64, .f32⟩
  | 25 => ⟨S_, .f32⟩
  | 26 => ⟨S50000x64, .f32⟩
  | 27 => ⟨S150000x1, .i32⟩
  | 28 => ⟨S50000x64, .f32⟩
  | 29 => ⟨S_, .f32⟩
  | 30 => ⟨S150000x1, .f32⟩
  | 31 => ⟨S_, .f32⟩
  | 32 => ⟨S50000x1, .f32⟩
  | 33 => ⟨S150000x1, .i32⟩
  | 34 => ⟨S50000x1, .f32⟩
  | 35 => ⟨S_, .f32⟩
  | 36 => ⟨S50000x1, .f32⟩
  | 37 => ⟨S50000x1, .f32⟩
  | 38 => ⟨S50000x64, .f32⟩
  | 39 => ⟨S50000x64, .f32⟩
  | 40 => ⟨S64x64, .f32⟩
  | 41 => ⟨S50000x64, .f32⟩
  | 42 => ⟨S1x64, .f32⟩
  | 43 => ⟨S50000x64, .f32⟩
  | 44 => ⟨S50000x64, .f32⟩
  | 45 => ⟨S64x64, .f32⟩
  | 46 => ⟨S50000x64, .f32⟩
  | 47 => ⟨S50000x64, .f32⟩
  | 48 => ⟨S50000x64, .f32⟩
  | 49 => ⟨S1x64x64, .f32⟩
  | 50 => ⟨S64x64, .f32⟩
  | 51 => ⟨S1x64, .f32⟩
  | 52 => ⟨S64, .f32⟩
  | 53 => ⟨S1x64x64, .f32⟩
  | 54 => ⟨S64x64, .f32⟩
  | 55 => ⟨S_, .i32⟩
  | 56 => ⟨S150000, .i32⟩
  | 57 => ⟨S150000, .i1⟩
  | 58 => ⟨S_, .i32⟩
  | 59 => ⟨S150000, .i32⟩
  | 60 => ⟨S150000, .i32⟩
  | 61 => ⟨S150000, .i32⟩
  | 62 => ⟨S150000x1, .i32⟩
  | 63 => ⟨S150000x64, .f32⟩
  | 64 => ⟨S_, .f32⟩
  | 65 => ⟨S50x64, .f32⟩
  | 66 => ⟨S150000x1, .i32⟩
  | 67 => ⟨S50x64, .f32⟩
  | 68 => ⟨S_, .f32⟩
  | 69 => ⟨S150000x1, .f32⟩
  | 70 => ⟨S_, .f32⟩
  | 71 => ⟨S50x1, .f32⟩
  | 72 => ⟨S150000x1, .i32⟩
  | 73 => ⟨S50x1, .f32⟩
  | 74 => ⟨S_, .f32⟩
  | 75 => ⟨S50x1, .f32⟩
  | 76 => ⟨S50x1, .f32⟩
  | 77 => ⟨S50x64, .f32⟩
  | 78 => ⟨S50x64, .f32⟩
  | 79 => ⟨S64x64, .f32⟩
  | 80 => ⟨S50x64, .f32⟩
  | 81 => ⟨S1x64, .f32⟩
  | 82 => ⟨S50x64, .f32⟩
  | 83 => ⟨S50x64, .f32⟩
  | 84 => ⟨S64x64, .f32⟩
  | 85 => ⟨S50x64, .f32⟩
  | 86 => ⟨S50x64, .f32⟩
  | 87 => ⟨S1x64x64, .f32⟩
  | 88 => ⟨S64x64, .f32⟩
  | 89 => ⟨S1x64, .f32⟩
  | 90 => ⟨S64, .f32⟩
  | 91 => ⟨S1x64x64, .f32⟩
  | 92 => ⟨S64x64, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x64, .f32⟩
  | 102 => ⟨S_, .f32⟩
  | 103 => ⟨S50000x64, .f32⟩
  | 104 => ⟨S50000x1, .i32⟩
  | 105 => ⟨S50000x64, .f32⟩
  | 106 => ⟨S_, .f32⟩
  | 107 => ⟨S50000x1, .f32⟩
  | 108 => ⟨S_, .f32⟩
  | 109 => ⟨S50000x1, .f32⟩
  | 110 => ⟨S50000x1, .i32⟩
  | 111 => ⟨S50000x1, .f32⟩
  | 112 => ⟨S_, .f32⟩
  | 113 => ⟨S50000x1, .f32⟩
  | 114 => ⟨S50000x1, .f32⟩
  | 115 => ⟨S50000x64, .f32⟩
  | 116 => ⟨S50000x64, .f32⟩
  | 117 => ⟨S64x64, .f32⟩
  | 118 => ⟨S50000x64, .f32⟩
  | 119 => ⟨S1x64, .f32⟩
  | 120 => ⟨S50000x64, .f32⟩
  | 121 => ⟨S50000x64, .f32⟩
  | 122 => ⟨S64x64, .f32⟩
  | 123 => ⟨S50000x64, .f32⟩
  | 124 => ⟨S50000x64, .f32⟩
  | 125 => ⟨S50000x64, .f32⟩
  | 126 => ⟨S1x64x64, .f32⟩
  | 127 => ⟨S64x64, .f32⟩
  | _ => ⟨S100000x384, .f32⟩

abbrev hbmTy0_2 (i : Nat) : BufTy := match i % 128 with
  | 0 => ⟨S1x64, .f32⟩
  | 1 => ⟨S64, .f32⟩
  | 2 => ⟨S1x64x64, .f32⟩
  | 3 => ⟨S64x64, .f32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x64, .f32⟩
  | 13 => ⟨S_, .f32⟩
  | 14 => ⟨S20000x64, .f32⟩
  | 15 => ⟨S50000x1, .i32⟩
  | 16 => ⟨S20000x64, .f32⟩
  | 17 => ⟨S_, .f32⟩
  | 18 => ⟨S50000x1, .f32⟩
  | 19 => ⟨S_, .f32⟩
  | 20 => ⟨S20000x1, .f32⟩
  | 21 => ⟨S50000x1, .i32⟩
  | 22 => ⟨S20000x1, .f32⟩
  | 23 => ⟨S_, .f32⟩
  | 24 => ⟨S20000x1, .f32⟩
  | 25 => ⟨S20000x1, .f32⟩
  | 26 => ⟨S20000x64, .f32⟩
  | 27 => ⟨S20000x64, .f32⟩
  | 28 => ⟨S64x64, .f32⟩
  | 29 => ⟨S20000x64, .f32⟩
  | 30 => ⟨S1x64, .f32⟩
  | 31 => ⟨S20000x64, .f32⟩
  | 32 => ⟨S20000x64, .f32⟩
  | 33 => ⟨S64x64, .f32⟩
  | 34 => ⟨S20000x64, .f32⟩
  | 35 => ⟨S20000x64, .f32⟩
  | 36 => ⟨S1x64x64, .f32⟩
  | 37 => ⟨S64x64, .f32⟩
  | 38 => ⟨S1x64, .f32⟩
  | 39 => ⟨S64, .f32⟩
  | 40 => ⟨S1x64x64, .f32⟩
  | 41 => ⟨S64x64, .f32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x64, .f32⟩
  | 51 => ⟨S_, .f32⟩
  | 52 => ⟨S50000x64, .f32⟩
  | 53 => ⟨S50000x1, .i32⟩
  | 54 => ⟨S50000x64, .f32⟩
  | 55 => ⟨S_, .f32⟩
  | 56 => ⟨S50000x1, .f32⟩
  | 57 => ⟨S_, .f32⟩
  | 58 => ⟨S50000x1, .f32⟩
  | 59 => ⟨S50000x1, .i32⟩
  | 60 => ⟨S50000x1, .f32⟩
  | 61 => ⟨S_, .f32⟩
  | 62 => ⟨S50000x1, .f32⟩
  | 63 => ⟨S50000x1, .f32⟩
  | 64 => ⟨S50000x64, .f32⟩
  | 65 => ⟨S50000x64, .f32⟩
  | 66 => ⟨S64x64, .f32⟩
  | 67 => ⟨S50000x64, .f32⟩
  | 68 => ⟨S1x64, .f32⟩
  | 69 => ⟨S50000x64, .f32⟩
  | 70 => ⟨S50000x64, .f32⟩
  | 71 => ⟨S64x64, .f32⟩
  | 72 => ⟨S50000x64, .f32⟩
  | 73 => ⟨S50000x64, .f32⟩
  | 74 => ⟨S50000x64, .f32⟩
  | 75 => ⟨S1x64x64, .f32⟩
  | 76 => ⟨S64x64, .f32⟩
  | 77 => ⟨S1x64, .f32⟩
  | 78 => ⟨S64, .f32⟩
  | 79 => ⟨S1x64x64, .f32⟩
  | 80 => ⟨S64x64, .f32⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000x64, .f32⟩
  | 90 => ⟨S_, .f32⟩
  | 91 => ⟨S10x64, .f32⟩
  | 92 => ⟨S50000x1, .i32⟩
  | 93 => ⟨S10x64, .f32⟩
  | 94 => ⟨S_, .f32⟩
  | 95 => ⟨S50000x1, .f32⟩
  | 96 => ⟨S_, .f32⟩
  | 97 => ⟨S10x1, .f32⟩
  | 98 => ⟨S50000x1, .i32⟩
  | 99 => ⟨S10x1, .f32⟩
  | 100 => ⟨S_, .f32⟩
  | 101 => ⟨S10x1, .f32⟩
  | 102 => ⟨S10x1, .f32⟩
  | 103 => ⟨S10x64, .f32⟩
  | 104 => ⟨S10x64, .f32⟩
  | 105 => ⟨S64x64, .f32⟩
  | 106 => ⟨S10x64, .f32⟩
  | 107 => ⟨S1x64, .f32⟩
  | 108 => ⟨S10x64, .f32⟩
  | 109 => ⟨S10x64, .f32⟩
  | 110 => ⟨S64x64, .f32⟩
  | 111 => ⟨S10x64, .f32⟩
  | 112 => ⟨S10x64, .f32⟩
  | 113 => ⟨S_, .f32⟩
  | 114 => ⟨S100000x64, .f32⟩
  | 115 => ⟨S100000x64, .f32⟩
  | 116 => ⟨S_, .f32⟩
  | 117 => ⟨S50000x64, .f32⟩
  | 118 => ⟨S50000x64, .f32⟩
  | 119 => ⟨S_, .f32⟩
  | 120 => ⟨S50x64, .f32⟩
  | 121 => ⟨S50x64, .f32⟩
  | 122 => ⟨S_, .f32⟩
  | 123 => ⟨S20000x64, .f32⟩
  | 124 => ⟨S20000x64, .f32⟩
  | 125 => ⟨S_, .f32⟩
  | 126 => ⟨S10x64, .f32⟩
  | 127 => ⟨S10x64, .f32⟩
  | _ => ⟨S100000x384, .f32⟩

abbrev hbmTy0_3 (i : Nat) : BufTy := match i % 128 with
  | 0 => ⟨S1x64x64, .f32⟩
  | 1 => ⟨S64x64, .f32⟩
  | 2 => ⟨S1x64, .f32⟩
  | 3 => ⟨S64, .f32⟩
  | 4 => ⟨S1x64x64, .f32⟩
  | 5 => ⟨S64x64, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S_, .f32⟩
  | 16 => ⟨S50000x64, .f32⟩
  | 17 => ⟨S1000000x1, .i32⟩
  | 18 => ⟨S50000x64, .f32⟩
  | 19 => ⟨S_, .f32⟩
  | 20 => ⟨S1000000x1, .f32⟩
  | 21 => ⟨S_, .f32⟩
  | 22 => ⟨S50000x1, .f32⟩
  | 23 => ⟨S1000000x1, .i32⟩
  | 24 => ⟨S50000x1, .f32⟩
  | 25 => ⟨S_, .f32⟩
  | 26 => ⟨S50000x1, .f32⟩
  | 27 => ⟨S50000x1, .f32⟩
  | 28 => ⟨S50000x64, .f32⟩
  | 29 => ⟨S50000x64, .f32⟩
  | 30 => ⟨S64x64, .f32⟩
  | 31 => ⟨S50000x64, .f32⟩
  | 32 => ⟨S1x64, .f32⟩
  | 33 => ⟨S50000x64, .f32⟩
  | 34 => ⟨S50000x64, .f32⟩
  | 35 => ⟨S64x64, .f32⟩
  | 36 => ⟨S50000x64, .f32⟩
  | 37 => ⟨S50000x64, .f32⟩
  | 38 => ⟨S1x64x64, .f32⟩
  | 39 => ⟨S64x64, .f32⟩
  | 40 => ⟨S1x64, .f32⟩
  | 41 => ⟨S64, .f32⟩
  | 42 => ⟨S1x64x64, .f32⟩
  | 43 => ⟨S64x64, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S_, .f32⟩
  | 54 => ⟨S100000x64, .f32⟩
  | 55 => ⟨S1000000x1, .i32⟩
  | 56 => ⟨S100000x64, .f32⟩
  | 57 => ⟨S_, .f32⟩
  | 58 => ⟨S1000000x1, .f32⟩
  | 59 => ⟨S_, .f32⟩
  | 60 => ⟨S100000x1, .f32⟩
  | 61 => ⟨S1000000x1, .i32⟩
  | 62 => ⟨S100000x1, .f32⟩
  | 63 => ⟨S_, .f32⟩
  | 64 => ⟨S100000x1, .f32⟩
  | 65 => ⟨S100000x1, .f32⟩
  | 66 => ⟨S100000x64, .f32⟩
  | 67 => ⟨S100000x64, .f32⟩
  | 68 => ⟨S64x64, .f32⟩
  | 69 => ⟨S100000x64, .f32⟩
  | 70 => ⟨S1x64, .f32⟩
  | 71 => ⟨S100000x64, .f32⟩
  | 72 => ⟨S100000x64, .f32⟩
  | 73 => ⟨S64x64, .f32⟩
  | 74 => ⟨S100000x64, .f32⟩
  | 75 => ⟨S100000x64, .f32⟩
  | 76 => ⟨S1x64x64, .f32⟩
  | 77 => ⟨S64x64, .f32⟩
  | 78 => ⟨S1x64, .f32⟩
  | 79 => ⟨S64, .f32⟩
  | 80 => ⟨S1x64x64, .f32⟩
  | 81 => ⟨S64x64, .f32⟩
  | 82 => ⟨S_, .i32⟩
  | 83 => ⟨S150000, .i32⟩
  | 84 => ⟨S150000, .i1⟩
  | 85 => ⟨S_, .i32⟩
  | 86 => ⟨S150000, .i32⟩
  | 87 => ⟨S150000, .i32⟩
  | 88 => ⟨S150000, .i32⟩
  | 89 => ⟨S150000x1, .i32⟩
  | 90 => ⟨S150000x64, .f32⟩
  | 91 => ⟨S_, .f32⟩
  | 92 => ⟨S50000x64, .f32⟩
  | 93 => ⟨S150000x1, .i32⟩
  | 94 => ⟨S50000x64, .f32⟩
  | 95 => ⟨S_, .f32⟩
  | 96 => ⟨S150000x1, .f32⟩
  | 97 => ⟨S_, .f32⟩
  | 98 => ⟨S50000x1, .f32⟩
  | 99 => ⟨S150000x1, .i32⟩
  | 100 => ⟨S50000x1, .f32⟩
  | 101 => ⟨S_, .f32⟩
  | 102 => ⟨S50000x1, .f32⟩
  | 103 => ⟨S50000x1, .f32⟩
  | 104 => ⟨S50000x64, .f32⟩
  | 105 => ⟨S50000x64, .f32⟩
  | 106 => ⟨S64x64, .f32⟩
  | 107 => ⟨S50000x64, .f32⟩
  | 108 => ⟨S1x64, .f32⟩
  | 109 => ⟨S50000x64, .f32⟩
  | 110 => ⟨S50000x64, .f32⟩
  | 111 => ⟨S64x64, .f32⟩
  | 112 => ⟨S50000x64, .f32⟩
  | 113 => ⟨S50000x64, .f32⟩
  | 114 => ⟨S50000x64, .f32⟩
  | 115 => ⟨S1x64x64, .f32⟩
  | 116 => ⟨S64x64, .f32⟩
  | 117 => ⟨S1x64, .f32⟩
  | 118 => ⟨S64, .f32⟩
  | 119 => ⟨S1x64x64, .f32⟩
  | 120 => ⟨S64x64, .f32⟩
  | 121 => ⟨S_, .i32⟩
  | 122 => ⟨S150000, .i32⟩
  | 123 => ⟨S150000, .i1⟩
  | 124 => ⟨S_, .i32⟩
  | 125 => ⟨S150000, .i32⟩
  | 126 => ⟨S150000, .i32⟩
  | 127 => ⟨S150000, .i32⟩
  | _ => ⟨S100000x384, .f32⟩

abbrev hbmTy0_4 (i : Nat) : BufTy := match i % 128 with
  | 0 => ⟨S150000x1, .i32⟩
  | 1 => ⟨S150000x64, .f32⟩
  | 2 => ⟨S_, .f32⟩
  | 3 => ⟨S50x64, .f32⟩
  | 4 => ⟨S150000x1, .i32⟩
  | 5 => ⟨S50x64, .f32⟩
  | 6 => ⟨S_, .f32⟩
  | 7 => ⟨S150000x1, .f32⟩
  | 8 => ⟨S_, .f32⟩
  | 9 => ⟨S50x1, .f32⟩
  | 10 => ⟨S150000x1, .i32⟩
  | 11 => ⟨S50x1, .f32⟩
  | 12 => ⟨S_, .f32⟩
  | 13 => ⟨S50x1, .f32⟩
  | 14 => ⟨S50x1, .f32⟩
  | 15 => ⟨S50x64, .f32⟩
  | 16 => ⟨S50x64, .f32⟩
  | 17 => ⟨S64x64, .f32⟩
  | 18 => ⟨S50x64, .f32⟩
  | 19 => ⟨S1x64, .f32⟩
  | 20 => ⟨S50x64, .f32⟩
  | 21 => ⟨S50x64, .f32⟩
  | 22 => ⟨S64x64, .f32⟩
  | 23 => ⟨S50x64, .f32⟩
  | 24 => ⟨S50x64, .f32⟩
  | 25 => ⟨S1x64x64, .f32⟩
  | 26 => ⟨S64x64, .f32⟩
  | 27 => ⟨S1x64, .f32⟩
  | 28 => ⟨S64, .f32⟩
  | 29 => ⟨S1x64x64, .f32⟩
  | 30 => ⟨S64x64, .f32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S50000x64, .f32⟩
  | 40 => ⟨S_, .f32⟩
  | 41 => ⟨S50000x64, .f32⟩
  | 42 => ⟨S50000x1, .i32⟩
  | 43 => ⟨S50000x64, .f32⟩
  | 44 => ⟨S_, .f32⟩
  | 45 => ⟨S50000x1, .f32⟩
  | 46 => ⟨S_, .f32⟩
  | 47 => ⟨S50000x1, .f32⟩
  | 48 => ⟨S50000x1, .i32⟩
  | 49 => ⟨S50000x1, .f32⟩
  | 50 => ⟨S_, .f32⟩
  | 51 => ⟨S50000x1, .f32⟩
  | 52 => ⟨S50000x1, .f32⟩
  | 53 => ⟨S50000x64, .f32⟩
  | 54 => ⟨S50000x64, .f32⟩
  | 55 => ⟨S64x64, .f32⟩
  | 56 => ⟨S50000x64, .f32⟩
  | 57 => ⟨S1x64, .f32⟩
  | 58 => ⟨S50000x64, .f32⟩
  | 59 => ⟨S50000x64, .f32⟩
  | 60 => ⟨S64x64, .f32⟩
  | 61 => ⟨S50000x64, .f32⟩
  | 62 => ⟨S50000x64, .f32⟩
  | 63 => ⟨S50000x64, .f32⟩
  | 64 => ⟨S1x64x64, .f32⟩
  | 65 => ⟨S64x64, .f32⟩
  | 66 => ⟨S1x64, .f32⟩
  | 67 => ⟨S64, .f32⟩
  | 68 => ⟨S1x64x64, .f32⟩
  | 69 => ⟨S64x64, .f32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x64, .f32⟩
  | 79 => ⟨S_, .f32⟩
  | 80 => ⟨S20000x64, .f32⟩
  | 81 => ⟨S50000x1, .i32⟩
  | 82 => ⟨S20000x64, .f32⟩
  | 83 => ⟨S_, .f32⟩
  | 84 => ⟨S50000x1, .f32⟩
  | 85 => ⟨S_, .f32⟩
  | 86 => ⟨S20000x1, .f32⟩
  | 87 => ⟨S50000x1, .i32⟩
  | 88 => ⟨S20000x1, .f32⟩
  | 89 => ⟨S_, .f32⟩
  | 90 => ⟨S20000x1, .f32⟩
  | 91 => ⟨S20000x1, .f32⟩
  | 92 => ⟨S20000x64, .f32⟩
  | 93 => ⟨S20000x64, .f32⟩
  | 94 => ⟨S64x64, .f32⟩
  | 95 => ⟨S20000x64, .f32⟩
  | 96 => ⟨S1x64, .f32⟩
  | 97 => ⟨S20000x64, .f32⟩
  | 98 => ⟨S20000x64, .f32⟩
  | 99 => ⟨S64x64, .f32⟩
  | 100 => ⟨S20000x64, .f32⟩
  | 101 => ⟨S20000x64, .f32⟩
  | 102 => ⟨S1x64x64, .f32⟩
  | 103 => ⟨S64x64, .f32⟩
  | 104 => ⟨S1x64, .f32⟩
  | 105 => ⟨S64, .f32⟩
  | 106 => ⟨S1x64x64, .f32⟩
  | 107 => ⟨S64x64, .f32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x64, .f32⟩
  | 117 => ⟨S_, .f32⟩
  | 118 => ⟨S50000x64, .f32⟩
  | 119 => ⟨S50000x1, .i32⟩
  | 120 => ⟨S50000x64, .f32⟩
  | 121 => ⟨S_, .f32⟩
  | 122 => ⟨S50000x1, .f32⟩
  | 123 => ⟨S_, .f32⟩
  | 124 => ⟨S50000x1, .f32⟩
  | 125 => ⟨S50000x1, .i32⟩
  | 126 => ⟨S50000x1, .f32⟩
  | 127 => ⟨S_, .f32⟩
  | _ => ⟨S100000x384, .f32⟩

abbrev hbmTy0_5 (i : Nat) : BufTy := match i % 128 with
  | 0 => ⟨S50000x1, .f32⟩
  | 1 => ⟨S50000x1, .f32⟩
  | 2 => ⟨S50000x64, .f32⟩
  | 3 => ⟨S50000x64, .f32⟩
  | 4 => ⟨S64x64, .f32⟩
  | 5 => ⟨S50000x64, .f32⟩
  | 6 => ⟨S1x64, .f32⟩
  | 7 => ⟨S50000x64, .f32⟩
  | 8 => ⟨S50000x64, .f32⟩
  | 9 => ⟨S64x64, .f32⟩
  | 10 => ⟨S50000x64, .f32⟩
  | 11 => ⟨S50000x64, .f32⟩
  | 12 => ⟨S50000x64, .f32⟩
  | 13 => ⟨S1x64x64, .f32⟩
  | 14 => ⟨S64x64, .f32⟩
  | 15 => ⟨S1x64, .f32⟩
  | 16 => ⟨S64, .f32⟩
  | 17 => ⟨S1x64x64, .f32⟩
  | 18 => ⟨S64x64, .f32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x64, .f32⟩
  | 28 => ⟨S_, .f32⟩
  | 29 => ⟨S10x64, .f32⟩
  | 30 => ⟨S50000x1, .i32⟩
  | 31 => ⟨S10x64, .f32⟩
  | 32 => ⟨S_, .f32⟩
  | 33 => ⟨S50000x1, .f32⟩
  | 34 => ⟨S_, .f32⟩
  | 35 => ⟨S10x1, .f32⟩
  | 36 => ⟨S50000x1, .i32⟩
  | 37 => ⟨S10x1, .f32⟩
  | 38 => ⟨S_, .f32⟩
  | 39 => ⟨S10x1, .f32⟩
  | 40 => ⟨S10x1, .f32⟩
  | 41 => ⟨S10x64, .f32⟩
  | 42 => ⟨S10x64, .f32⟩
  | 43 => ⟨S64x64, .f32⟩
  | 44 => ⟨S10x64, .f32⟩
  | 45 => ⟨S1x64, .f32⟩
  | 46 => ⟨S10x64, .f32⟩
  | 47 => ⟨S10x64, .f32⟩
  | 48 => ⟨S64x64, .f32⟩
  | 49 => ⟨S10x64, .f32⟩
  | 50 => ⟨S10x64, .f32⟩
  | 51 => ⟨S1x200000, .i32⟩
  | 52 => ⟨S200000, .i32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x64, .f32⟩
  | 62 => ⟨S1x200000, .i32⟩
  | 63 => ⟨S200000, .i32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000x64, .f32⟩
  | 73 => ⟨S200000x64, .f32⟩
  | 74 => ⟨S_, .f32⟩
  | 75 => ⟨S200000, .f32⟩
  | _ => ⟨S100000x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_v48 : Ref sig .tc := ⟨.hbm, 69, rfl⟩
abbrev main_v49 : Ref sig .tc := ⟨.hbm, 70, rfl⟩
abbrev main_c_0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_1 : Ref sig .tc := ⟨.hbm, 81, rfl⟩
abbrev main_v58 : Ref sig .tc := ⟨.hbm, 82, rfl⟩
abbrev main_cst_2 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_3 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_4 : Ref sig .tc := ⟨.hbm, 106, rfl⟩
abbrev main_v80 : Ref sig .tc := ⟨.hbm, 107, rfl⟩
abbrev main_v81 : Ref sig .tc := ⟨.hbm, 108, rfl⟩
abbrev main_c_5 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_6 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_7 : Ref sig .tc := ⟨.hbm, 119, rfl⟩
abbrev main_v90 : Ref sig .tc := ⟨.hbm, 120, rfl⟩
abbrev main_cst_8 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_9 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_10 : Ref sig .tc := ⟨.hbm, 144, rfl⟩
abbrev main_v112 : Ref sig .tc := ⟨.hbm, 145, rfl⟩
abbrev main_v113 : Ref sig .tc := ⟨.hbm, 146, rfl⟩
abbrev main_c_11 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_12 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_13 : Ref sig .tc := ⟨.hbm, 157, rfl⟩
abbrev main_v122 : Ref sig .tc := ⟨.hbm, 158, rfl⟩
abbrev main_cst_14 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_15 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_c_16 : Ref sig .tc := ⟨.hbm, 183, rfl⟩
abbrev main_v145 : Ref sig .tc := ⟨.hbm, 184, rfl⟩
abbrev main_v146 : Ref sig .tc := ⟨.hbm, 185, rfl⟩
abbrev main_c_17 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_18 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_19 : Ref sig .tc := ⟨.hbm, 196, rfl⟩
abbrev main_v155 : Ref sig .tc := ⟨.hbm, 197, rfl⟩
abbrev main_cst_20 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_21 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_c_22 : Ref sig .tc := ⟨.hbm, 221, rfl⟩
abbrev main_v177 : Ref sig .tc := ⟨.hbm, 222, rfl⟩
abbrev main_v178 : Ref sig .tc := ⟨.hbm, 223, rfl⟩
abbrev main_c_23 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_cst_24 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_25 : Ref sig .tc := ⟨.hbm, 234, rfl⟩
abbrev main_v187 : Ref sig .tc := ⟨.hbm, 235, rfl⟩
abbrev main_cst_26 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_27 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_c_28 : Ref sig .tc := ⟨.hbm, 260, rfl⟩
abbrev main_v210 : Ref sig .tc := ⟨.hbm, 261, rfl⟩
abbrev main_v211 : Ref sig .tc := ⟨.hbm, 262, rfl⟩
abbrev main_c_29 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_cst_30 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_31 : Ref sig .tc := ⟨.hbm, 273, rfl⟩
abbrev main_v220 : Ref sig .tc := ⟨.hbm, 274, rfl⟩
abbrev main_cst_32 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_cst_33 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_c_34 : Ref sig .tc := ⟨.hbm, 298, rfl⟩
abbrev main_v242 : Ref sig .tc := ⟨.hbm, 299, rfl⟩
abbrev main_v243 : Ref sig .tc := ⟨.hbm, 300, rfl⟩
abbrev main_c_35 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_cst_36 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_cst_37 : Ref sig .tc := ⟨.hbm, 311, rfl⟩
abbrev main_v252 : Ref sig .tc := ⟨.hbm, 312, rfl⟩
abbrev main_cst_38 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_cst_39 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_c_40 : Ref sig .tc := ⟨.hbm, 337, rfl⟩
abbrev main_v275 : Ref sig .tc := ⟨.hbm, 338, rfl⟩
abbrev main_v276 : Ref sig .tc := ⟨.hbm, 339, rfl⟩
abbrev main_c_41 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_cst_42 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_cst_43 : Ref sig .tc := ⟨.hbm, 350, rfl⟩
abbrev main_v285 : Ref sig .tc := ⟨.hbm, 351, rfl⟩
abbrev main_cst_44 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_cst_45 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_call0_cst : Ref sig .tc := ⟨.hbm, 369, rfl⟩
abbrev main_call0_v0 : Ref sig .tc := ⟨.hbm, 370, rfl⟩
abbrev main_v301 : Ref sig .tc := ⟨.hbm, 371, rfl⟩
abbrev main_call1_cst : Ref sig .tc := ⟨.hbm, 372, rfl⟩
abbrev main_call1_v0 : Ref sig .tc := ⟨.hbm, 373, rfl⟩
abbrev main_v302 : Ref sig .tc := ⟨.hbm, 374, rfl⟩
abbrev main_call2_cst : Ref sig .tc := ⟨.hbm, 375, rfl⟩
abbrev main_call2_v0 : Ref sig .tc := ⟨.hbm, 376, rfl⟩
abbrev main_v303 : Ref sig .tc := ⟨.hbm, 377, rfl⟩
abbrev main_call3_cst : Ref sig .tc := ⟨.hbm, 378, rfl⟩
abbrev main_call3_v0 : Ref sig .tc := ⟨.hbm, 379, rfl⟩
abbrev main_v304 : Ref sig .tc := ⟨.hbm, 380, rfl⟩
abbrev main_call4_cst : Ref sig .tc := ⟨.hbm, 381, rfl⟩
abbrev main_call4_v0 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_c_46 : Ref sig .tc := ⟨.hbm, 390, rfl⟩
abbrev main_v312 : Ref sig .tc := ⟨.hbm, 391, rfl⟩
abbrev main_v313 : Ref sig .tc := ⟨.hbm, 392, rfl⟩
abbrev main_c_47 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_cst_48 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_cst_49 : Ref sig .tc := ⟨.hbm, 403, rfl⟩
abbrev main_v322 : Ref sig .tc := ⟨.hbm, 404, rfl⟩
abbrev main_cst_50 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_cst_51 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_c_52 : Ref sig .tc := ⟨.hbm, 428, rfl⟩
abbrev main_v344 : Ref sig .tc := ⟨.hbm, 429, rfl⟩
abbrev main_v345 : Ref sig .tc := ⟨.hbm, 430, rfl⟩
abbrev main_c_53 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_cst_54 : Ref sig .tc := ⟨.hbm, 437, rfl⟩
abbrev main_v351 : Ref sig .tc := ⟨.hbm, 438, rfl⟩
abbrev main_v352 : Ref sig .tc := ⟨.hbm, 439, rfl⟩
abbrev main_v353 : Ref sig .tc := ⟨.hbm, 440, rfl⟩
abbrev main_cst_55 : Ref sig .tc := ⟨.hbm, 441, rfl⟩
abbrev main_v354 : Ref sig .tc := ⟨.hbm, 442, rfl⟩
abbrev main_cst_56 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_cst_57 : Ref sig .tc := ⟨.hbm, 447, rfl⟩
abbrev main_v358 : Ref sig .tc := ⟨.hbm, 448, rfl⟩
abbrev main_v359 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_v367 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_c_58 : Ref sig .tc := ⟨.hbm, 466, rfl⟩
abbrev main_v376 : Ref sig .tc := ⟨.hbm, 467, rfl⟩
abbrev main_v377 : Ref sig .tc := ⟨.hbm, 468, rfl⟩
abbrev main_c_59 : Ref sig .tc := ⟨.hbm, 469, rfl⟩
abbrev main_v378 : Ref sig .tc := ⟨.hbm, 470, rfl⟩
abbrev main_v379 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_cst_60 : Ref sig .tc := ⟨.hbm, 475, rfl⟩
abbrev main_v383 : Ref sig .tc := ⟨.hbm, 476, rfl⟩
abbrev main_v384 : Ref sig .tc := ⟨.hbm, 477, rfl⟩
abbrev main_v385 : Ref sig .tc := ⟨.hbm, 478, rfl⟩
abbrev main_cst_61 : Ref sig .tc := ⟨.hbm, 479, rfl⟩
abbrev main_v386 : Ref sig .tc := ⟨.hbm, 480, rfl⟩
abbrev main_cst_62 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_cst_63 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_v393 : Ref sig .tc := ⟨.hbm, 489, rfl⟩
abbrev main_v394 : Ref sig .tc := ⟨.hbm, 490, rfl⟩
abbrev main_v395 : Ref sig .tc := ⟨.hbm, 491, rfl⟩
abbrev main_v396 : Ref sig .tc := ⟨.hbm, 492, rfl⟩
abbrev main_v397 : Ref sig .tc := ⟨.hbm, 493, rfl⟩
abbrev main_v398 : Ref sig .tc := ⟨.hbm, 494, rfl⟩
abbrev main_v399 : Ref sig .tc := ⟨.hbm, 495, rfl⟩
abbrev main_v400 : Ref sig .tc := ⟨.hbm, 496, rfl⟩
abbrev main_v401 : Ref sig .tc := ⟨.hbm, 497, rfl⟩
abbrev main_v402 : Ref sig .tc := ⟨.hbm, 498, rfl⟩
abbrev main_v403 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_c_64 : Ref sig .tc := ⟨.hbm, 505, rfl⟩
abbrev main_v409 : Ref sig .tc := ⟨.hbm, 506, rfl⟩
abbrev main_v410 : Ref sig .tc := ⟨.hbm, 507, rfl⟩
abbrev main_c_65 : Ref sig .tc := ⟨.hbm, 508, rfl⟩
abbrev main_v411 : Ref sig .tc := ⟨.hbm, 509, rfl⟩
abbrev main_v412 : Ref sig .tc := ⟨.hbm, 510, rfl⟩
abbrev main_v413 : Ref sig .tc := ⟨.hbm, 511, rfl⟩
abbrev main_v414 : Ref sig .tc := ⟨.hbm, 512, rfl⟩
abbrev main_v415 : Ref sig .tc := ⟨.hbm, 513, rfl⟩
abbrev main_cst_66 : Ref sig .tc := ⟨.hbm, 514, rfl⟩
abbrev main_v416 : Ref sig .tc := ⟨.hbm, 515, rfl⟩
abbrev main_v417 : Ref sig .tc := ⟨.hbm, 516, rfl⟩
abbrev main_v418 : Ref sig .tc := ⟨.hbm, 517, rfl⟩
abbrev main_cst_67 : Ref sig .tc := ⟨.hbm, 518, rfl⟩
abbrev main_v419 : Ref sig .tc := ⟨.hbm, 519, rfl⟩
abbrev main_cst_68 : Ref sig .tc := ⟨.hbm, 520, rfl⟩
abbrev main_v420 : Ref sig .tc := ⟨.hbm, 521, rfl⟩
abbrev main_v421 : Ref sig .tc := ⟨.hbm, 522, rfl⟩
abbrev main_v422 : Ref sig .tc := ⟨.hbm, 523, rfl⟩
abbrev main_cst_69 : Ref sig .tc := ⟨.hbm, 524, rfl⟩
abbrev main_v423 : Ref sig .tc := ⟨.hbm, 525, rfl⟩
abbrev main_v424 : Ref sig .tc := ⟨.hbm, 526, rfl⟩
abbrev main_v425 : Ref sig .tc := ⟨.hbm, 527, rfl⟩
abbrev main_v426 : Ref sig .tc := ⟨.hbm, 528, rfl⟩
abbrev main_v427 : Ref sig .tc := ⟨.hbm, 529, rfl⟩
abbrev main_v428 : Ref sig .tc := ⟨.hbm, 530, rfl⟩
abbrev main_v429 : Ref sig .tc := ⟨.hbm, 531, rfl⟩
abbrev main_v430 : Ref sig .tc := ⟨.hbm, 532, rfl⟩
abbrev main_v431 : Ref sig .tc := ⟨.hbm, 533, rfl⟩
abbrev main_v432 : Ref sig .tc := ⟨.hbm, 534, rfl⟩
abbrev main_v433 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_v438 : Ref sig .tc := ⟨.hbm, 540, rfl⟩
abbrev main_v439 : Ref sig .tc := ⟨.hbm, 541, rfl⟩
abbrev main_v440 : Ref sig .tc := ⟨.hbm, 542, rfl⟩
abbrev main_c_70 : Ref sig .tc := ⟨.hbm, 543, rfl⟩
abbrev main_v441 : Ref sig .tc := ⟨.hbm, 544, rfl⟩
abbrev main_v442 : Ref sig .tc := ⟨.hbm, 545, rfl⟩
abbrev main_c_71 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_v446 : Ref sig .tc := ⟨.hbm, 550, rfl⟩
abbrev main_v447 : Ref sig .tc := ⟨.hbm, 551, rfl⟩
abbrev main_cst_72 : Ref sig .tc := ⟨.hbm, 552, rfl⟩
abbrev main_v448 : Ref sig .tc := ⟨.hbm, 553, rfl⟩
abbrev main_v449 : Ref sig .tc := ⟨.hbm, 554, rfl⟩
abbrev main_v450 : Ref sig .tc := ⟨.hbm, 555, rfl⟩
abbrev main_cst_73 : Ref sig .tc := ⟨.hbm, 556, rfl⟩
abbrev main_v451 : Ref sig .tc := ⟨.hbm, 557, rfl⟩
abbrev main_cst_74 : Ref sig .tc := ⟨.hbm, 558, rfl⟩
abbrev main_v452 : Ref sig .tc := ⟨.hbm, 559, rfl⟩
abbrev main_v453 : Ref sig .tc := ⟨.hbm, 560, rfl⟩
abbrev main_v454 : Ref sig .tc := ⟨.hbm, 561, rfl⟩
abbrev main_cst_75 : Ref sig .tc := ⟨.hbm, 562, rfl⟩
abbrev main_v455 : Ref sig .tc := ⟨.hbm, 563, rfl⟩
abbrev main_v456 : Ref sig .tc := ⟨.hbm, 564, rfl⟩
abbrev main_v457 : Ref sig .tc := ⟨.hbm, 565, rfl⟩
abbrev main_v458 : Ref sig .tc := ⟨.hbm, 566, rfl⟩
abbrev main_v459 : Ref sig .tc := ⟨.hbm, 567, rfl⟩
abbrev main_v460 : Ref sig .tc := ⟨.hbm, 568, rfl⟩
abbrev main_v461 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_v471 : Ref sig .tc := ⟨.hbm, 579, rfl⟩
abbrev main_v472 : Ref sig .tc := ⟨.hbm, 580, rfl⟩
abbrev main_v473 : Ref sig .tc := ⟨.hbm, 581, rfl⟩
abbrev main_c_76 : Ref sig .tc := ⟨.hbm, 582, rfl⟩
abbrev main_v474 : Ref sig .tc := ⟨.hbm, 583, rfl⟩
abbrev main_v475 : Ref sig .tc := ⟨.hbm, 584, rfl⟩
abbrev main_c_77 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_v480 : Ref sig .tc := ⟨.hbm, 590, rfl⟩
abbrev main_cst_78 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_cst_79 : Ref sig .tc := ⟨.hbm, 595, rfl⟩
abbrev main_v484 : Ref sig .tc := ⟨.hbm, 596, rfl⟩
abbrev main_cst_80 : Ref sig .tc := ⟨.hbm, 597, rfl⟩
abbrev main_v485 : Ref sig .tc := ⟨.hbm, 598, rfl⟩
abbrev main_v486 : Ref sig .tc := ⟨.hbm, 599, rfl⟩
abbrev main_v487 : Ref sig .tc := ⟨.hbm, 600, rfl⟩
abbrev main_cst_81 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_v491 : Ref sig .tc := ⟨.hbm, 605, rfl⟩
abbrev main_v492 : Ref sig .tc := ⟨.hbm, 606, rfl⟩
abbrev main_v493 : Ref sig .tc := ⟨.hbm, 607, rfl⟩
abbrev main_v494 : Ref sig .tc := ⟨.hbm, 608, rfl⟩
abbrev main_v495 : Ref sig .tc := ⟨.hbm, 609, rfl⟩
abbrev main_v496 : Ref sig .tc := ⟨.hbm, 610, rfl⟩
abbrev main_v497 : Ref sig .tc := ⟨.hbm, 611, rfl⟩
abbrev main_v498 : Ref sig .tc := ⟨.hbm, 612, rfl⟩
abbrev main_v499 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_v503 : Ref sig .tc := ⟨.hbm, 617, rfl⟩
abbrev main_v504 : Ref sig .tc := ⟨.hbm, 618, rfl⟩
abbrev main_v505 : Ref sig .tc := ⟨.hbm, 619, rfl⟩
abbrev main_c_82 : Ref sig .tc := ⟨.hbm, 620, rfl⟩
abbrev main_v506 : Ref sig .tc := ⟨.hbm, 621, rfl⟩
abbrev main_v507 : Ref sig .tc := ⟨.hbm, 622, rfl⟩
abbrev main_c_83 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_cst_84 : Ref sig .tc := ⟨.hbm, 629, rfl⟩
abbrev main_v513 : Ref sig .tc := ⟨.hbm, 630, rfl⟩
abbrev main_v514 : Ref sig .tc := ⟨.hbm, 631, rfl⟩
abbrev main_v515 : Ref sig .tc := ⟨.hbm, 632, rfl⟩
abbrev main_cst_85 : Ref sig .tc := ⟨.hbm, 633, rfl⟩
abbrev main_v516 : Ref sig .tc := ⟨.hbm, 634, rfl⟩
abbrev main_cst_86 : Ref sig .tc := ⟨.hbm, 635, rfl⟩
abbrev main_v517 : Ref sig .tc := ⟨.hbm, 636, rfl⟩
abbrev main_v518 : Ref sig .tc := ⟨.hbm, 637, rfl⟩
abbrev main_v519 : Ref sig .tc := ⟨.hbm, 638, rfl⟩
abbrev main_cst_87 : Ref sig .tc := ⟨.hbm, 639, rfl⟩
abbrev main_v520 : Ref sig .tc := ⟨.hbm, 640, rfl⟩
abbrev main_v521 : Ref sig .tc := ⟨.hbm, 641, rfl⟩
abbrev main_v522 : Ref sig .tc := ⟨.hbm, 642, rfl⟩
abbrev main_v523 : Ref sig .tc := ⟨.hbm, 643, rfl⟩
abbrev main_v524 : Ref sig .tc := ⟨.hbm, 644, rfl⟩
abbrev main_v525 : Ref sig .tc := ⟨.hbm, 645, rfl⟩
abbrev main_v526 : Ref sig .tc := ⟨.hbm, 646, rfl⟩
abbrev main_v527 : Ref sig .tc := ⟨.hbm, 647, rfl⟩
abbrev main_v528 : Ref sig .tc := ⟨.hbm, 648, rfl⟩
abbrev main_v529 : Ref sig .tc := ⟨.hbm, 649, rfl⟩
abbrev main_v530 : Ref sig .tc := ⟨.hbm, 650, rfl⟩
abbrev main_v531 : Ref sig .tc := ⟨.hbm, 651, rfl⟩
abbrev main_v532 : Ref sig .tc := ⟨.hbm, 652, rfl⟩
abbrev main_v533 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_c_88 : Ref sig .tc := ⟨.hbm, 659, rfl⟩
abbrev main_v539 : Ref sig .tc := ⟨.hbm, 660, rfl⟩
abbrev main_v540 : Ref sig .tc := ⟨.hbm, 661, rfl⟩
abbrev main_c_89 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_v544 : Ref sig .tc := ⟨.hbm, 666, rfl⟩
abbrev main_v545 : Ref sig .tc := ⟨.hbm, 667, rfl⟩
abbrev main_cst_90 : Ref sig .tc := ⟨.hbm, 668, rfl⟩
abbrev main_v546 : Ref sig .tc := ⟨.hbm, 669, rfl⟩
abbrev main_v547 : Ref sig .tc := ⟨.hbm, 670, rfl⟩
abbrev main_v548 : Ref sig .tc := ⟨.hbm, 671, rfl⟩
abbrev main_cst_91 : Ref sig .tc := ⟨.hbm, 672, rfl⟩
abbrev main_v549 : Ref sig .tc := ⟨.hbm, 673, rfl⟩
abbrev main_cst_92 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_cst_93 : Ref sig .tc := ⟨.hbm, 678, rfl⟩
abbrev main_v553 : Ref sig .tc := ⟨.hbm, 679, rfl⟩
abbrev main_v554 : Ref sig .tc := ⟨.hbm, 680, rfl⟩
abbrev main_v555 : Ref sig .tc := ⟨.hbm, 681, rfl⟩
abbrev main_v556 : Ref sig .tc := ⟨.hbm, 682, rfl⟩
abbrev main_v557 : Ref sig .tc := ⟨.hbm, 683, rfl⟩
abbrev main_v558 : Ref sig .tc := ⟨.hbm, 684, rfl⟩
abbrev main_v559 : Ref sig .tc := ⟨.hbm, 685, rfl⟩
abbrev main_v560 : Ref sig .tc := ⟨.hbm, 686, rfl⟩
abbrev main_v561 : Ref sig .tc := ⟨.hbm, 687, rfl⟩
abbrev main_v562 : Ref sig .tc := ⟨.hbm, 688, rfl⟩
abbrev main_v563 : Ref sig .tc := ⟨.hbm, 689, rfl⟩
abbrev main_v564 : Ref sig .tc := ⟨.hbm, 690, rfl⟩
abbrev main_v565 : Ref sig .tc := ⟨.hbm, 691, rfl⟩
abbrev main_v566 : Ref sig .tc := ⟨.hbm, 692, rfl⟩
abbrev main_c_94 : Ref sig .tc := ⟨.hbm, 693, rfl⟩
abbrev main_v567 : Ref sig .tc := ⟨.hbm, 694, rfl⟩
abbrev main_v568 : Ref sig .tc := ⟨.hbm, 695, rfl⟩
abbrev main_c_95 : Ref sig .tc := ⟨.hbm, 696, rfl⟩
abbrev main_v569 : Ref sig .tc := ⟨.hbm, 697, rfl⟩
abbrev main_v570 : Ref sig .tc := ⟨.hbm, 698, rfl⟩
abbrev main_v571 : Ref sig .tc := ⟨.hbm, 699, rfl⟩
abbrev main_v572 : Ref sig .tc := ⟨.hbm, 700, rfl⟩
abbrev main_v573 : Ref sig .tc := ⟨.hbm, 701, rfl⟩
abbrev main_v574 : Ref sig .tc := ⟨.hbm, 702, rfl⟩
abbrev main_v575 : Ref sig .tc := ⟨.hbm, 703, rfl⟩
abbrev main_c_96 : Ref sig .tc := ⟨.hbm, 704, rfl⟩
abbrev main_v576 : Ref sig .tc := ⟨.hbm, 705, rfl⟩
abbrev main_v577 : Ref sig .tc := ⟨.hbm, 706, rfl⟩
abbrev main_c_97 : Ref sig .tc := ⟨.hbm, 707, rfl⟩
abbrev main_v578 : Ref sig .tc := ⟨.hbm, 708, rfl⟩
abbrev main_v579 : Ref sig .tc := ⟨.hbm, 709, rfl⟩
abbrev main_v580 : Ref sig .tc := ⟨.hbm, 710, rfl⟩
abbrev main_v581 : Ref sig .tc := ⟨.hbm, 711, rfl⟩
abbrev main_v582 : Ref sig .tc := ⟨.hbm, 712, rfl⟩
abbrev main_v583 : Ref sig .tc := ⟨.hbm, 713, rfl⟩
abbrev main_cst_98 : Ref sig .tc := ⟨.hbm, 714, rfl⟩
abbrev main_v584 : Ref sig .tc := ⟨.hbm, 715, rfl⟩

abbrev nD : Nat := 1
abbrev τ : Topo := Topo.v7x

variable {F : FTy → Type} [FloatOps F]

class Facts₀ : Prop where
  transposes_S64x384_S384x64_1_0 : S64x384.Transposes [1, 0] S384x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S50000x64_0_1 : S1x64.BroadcastsInDim S50000x64 (![0, 1] : Fin 2 → Fin S50000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S2x150000_S1x150000_0_0 : S2x150000.Slices ![0, 0] S1x150000
  shapeCasts_S1x150000_S150000 : S1x150000.ShapeCasts S150000
  slices_S2x150000_S1x150000_1_0 : S2x150000.Slices ![1, 0] S1x150000
  slices_S2x50000_S1x50000_0_0 : S2x50000.Slices ![0, 0] S1x50000
  shapeCasts_S1x50000_S50000 : S1x50000.ShapeCasts S50000
  slices_S2x50000_S1x50000_1_0 : S2x50000.Slices ![1, 0] S1x50000
  slices_S8x64x64_S1x64x64_0_0_0 : S8x64x64.Slices ![0, 0, 0] S1x64x64
  shapeCasts_S1x64x64_S64x64 : S1x64x64.ShapeCasts S64x64
  slices_S8x64_S1x64_0_0 : S8x64.Slices ![0, 0] S1x64
  shapeCasts_S1x64_S64 : S1x64.ShapeCasts S64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  slices_S8x64x64_S1x64x64_1_0_0 : S8x64x64.Slices ![1, 0, 0] S1x64x64
  slices_S8x64_S1x64_1_0 : S8x64.Slices ![1, 0] S1x64
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S8x64x64_S1x64x64_2_0_0 : S8x64x64.Slices ![2, 0, 0] S1x64x64
  slices_S8x64_S1x64_2_0 : S8x64.Slices ![2, 0] S1x64
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  slices_S8x64x64_S1x64x64_3_0_0 : S8x64x64.Slices ![3, 0, 0] S1x64x64
  slices_S8x64_S1x64_3_0 : S8x64.Slices ![3, 0] S1x64
  bcast_S_S50x64 : S_.BroadcastsInDim S50x64 (![] : Fin 0 → Fin S50x64.rank)
  bcast_S_S50x1 : S_.BroadcastsInDim S50x1 (![] : Fin 0 → Fin S50x1.rank)
  bcast_S50x1_S50x64_0_1 : S50x1.BroadcastsInDim S50x64 (![0, 1] : Fin 2 → Fin S50x64.rank)
  bcast_S1x64_S50x64_0_1 : S1x64.BroadcastsInDim S50x64 (![0, 1] : Fin 2 → Fin S50x64.rank)
  slices_S8x64x64_S1x64x64_4_0_0 : S8x64x64.Slices ![4, 0, 0] S1x64x64
  slices_S8x64_S1x64_4_0 : S8x64.Slices ![4, 0] S1x64
  bcast_S_S50000 : S_.BroadcastsInDim S50000 (![] : Fin 0 → Fin S50000.rank)
  bcast_S50000_S50000x1_0 : S50000.BroadcastsInDim S50000x1 (![0] : Fin 1 → Fin S50000x1.rank)
  slices_S8x64x64_S1x64x64_5_0_0 : S8x64x64.Slices ![5, 0, 0] S1x64x64
  slices_S8x64_S1x64_5_0 : S8x64.Slices ![5, 0] S1x64
  bcast_S_S20000x64 : S_.BroadcastsInDim S20000x64 (![] : Fin 0 → Fin S20000x64.rank)
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S1x64_S20000x64_0_1 : S1x64.BroadcastsInDim S20000x64 (![0, 1] : Fin 2 → Fin S20000x64.rank)
  slices_S8x64x64_S1x64x64_6_0_0 : S8x64x64.Slices ![6, 0, 0] S1x64x64
  slices_S8x64_S1x64_6_0 : S8x64.Slices ![6, 0] S1x64
  slices_S8x64x64_S1x64x64_7_0_0 : S8x64x64.Slices ![7, 0, 0] S1x64x64
  slices_S8x64_S1x64_7_0 : S8x64.Slices ![7, 0] S1x64
  bcast_S_S10x64 : S_.BroadcastsInDim S10x64 (![] : Fin 0 → Fin S10x64.rank)
  bcast_S_S10x1 : S_.BroadcastsInDim S10x1 (![] : Fin 0 → Fin S10x1.rank)
  bcast_S10x1_S10x64_0_1 : S10x1.BroadcastsInDim S10x64 (![0, 1] : Fin 2 → Fin S10x64.rank)
  bcast_S1x64_S10x64_0_1 : S1x64.BroadcastsInDim S10x64 (![0, 1] : Fin 2 → Fin S10x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S100000x384_S384x64_S100000x64_1_0_0_1_n_n_wf : DotDims.WF S100000x384 S384x64 S100000x64 [1] [0] [0] [1] [] []
  dot_S50000x384_S384x64_S50000x64_1_0_0_1_n_n_wf : DotDims.WF S50000x384 S384x64 S50000x64 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x64_S64x64_S100000x64_1_0_0_1_n_n_wf : DotDims.WF S100000x64 S64x64 S100000x64 [1] [0] [0] [1] [] []
  gather_S50x64_S150000x1_S150000x64_1_0_n_n_0_1_164_wf : GatherDims.WF S50x64 S150000x1 S150000x64 [1] [0] [] [0] [] 1 ![1, 64]
  scatter_S50000x64_S150000x1_S150000x64_1_0_0_1_wf : ScatterDims.WF S50000x64 S150000x1 S150000x64 [1] [0] [0] 1
  scatter_S50000x1_S150000x1_S150000x1_1_0_0_1_wf : ScatterDims.WF S50000x1 S150000x1 S150000x1 [1] [0] [0] 1
  gather_S50000x64_S150000x1_S150000x64_1_0_n_n_0_1_164_wf : GatherDims.WF S50000x64 S150000x1 S150000x64 [1] [0] [] [0] [] 1 ![1, 64]
  scatter_S50x64_S150000x1_S150000x64_1_0_0_1_wf : ScatterDims.WF S50x64 S150000x1 S150000x64 [1] [0] [0] 1
  scatter_S50x1_S150000x1_S150000x1_1_0_0_1_wf : ScatterDims.WF S50x1 S150000x1 S150000x1 [1] [0] [0] 1
  dot_S50x64_S64x64_S50x64_1_0_0_1_n_n_wf : DotDims.WF S50x64 S64x64 S50x64 [1] [0] [0] [1] [] []
  gather_S20000x64_S50000x1_S50000x64_1_0_n_n_0_1_164_wf : GatherDims.WF S20000x64 S50000x1 S50000x64 [1] [0] [] [0] [] 1 ![1, 64]
  scatter_S50000x64_S50000x1_S50000x64_1_0_0_1_wf : ScatterDims.WF S50000x64 S50000x1 S50000x64 [1] [0] [0] 1
  scatter_S50000x1_S50000x1_S50000x1_1_0_0_1_wf : ScatterDims.WF S50000x1 S50000x1 S50000x1 [1] [0] [0] 1
  gather_S50000x64_S50000x1_S50000x64_1_0_n_n_0_1_164_wf : GatherDims.WF S50000x64 S50000x1 S50000x64 [1] [0] [] [0] [] 1 ![1, 64]
  scatter_S20000x64_S50000x1_S50000x64_1_0_0_1_wf : ScatterDims.WF S20000x64 S50000x1 S50000x64 [1] [0] [0] 1
  scatter_S20000x1_S50000x1_S50000x1_1_0_0_1_wf : ScatterDims.WF S20000x1 S50000x1 S50000x1 [1] [0] [0] 1
  dot_S20000x64_S64x64_S20000x64_1_0_0_1_n_n_wf : DotDims.WF S20000x64 S64x64 S20000x64 [1] [0] [0] [1] [] []
  gather_S10x64_S50000x1_S50000x64_1_0_n_n_0_1_164_wf : GatherDims.WF S10x64 S50000x1 S50000x64 [1] [0] [] [0] [] 1 ![1, 64]
  scatter_S10x64_S50000x1_S50000x64_1_0_0_1_wf : ScatterDims.WF S10x64 S50000x1 S50000x64 [1] [0] [0] 1
  scatter_S10x1_S50000x1_S50000x1_1_0_0_1_wf : ScatterDims.WF S10x1 S50000x1 S50000x1 [1] [0] [0] 1
  dot_S10x64_S64x64_S10x64_1_0_0_1_n_n_wf : DotDims.WF S10x64 S64x64 S10x64 [1] [0] [0] [1] [] []
  gather_S100000x64_S200000x1_S200000x64_1_0_n_n_0_1_164_wf : GatherDims.WF S100000x64 S200000x1 S200000x64 [1] [0] [] [0] [] 1 ![1, 64]
  gather_S50000x64_S200000x1_S200000x64_1_0_n_n_0_1_164_wf : GatherDims.WF S50000x64 S200000x1 S200000x64 [1] [0] [] [0] [] 1 ![1, 64]

variable [Facts₀]

def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S50x64_S150000x1_S150000x64_1_0_n_n_0_1_164 : GatherDims S50x64 S150000x1 S150000x64 where
  offsetDims := [1]
  collapsedSliceDims := [0]
  operandBatchingDims := []
  startIndicesBatchingDims := []
  startIndexMap := [0]
  indexVectorDim := 1
  sliceSizes := ![1, 64]
  wf := gather_S50x64_S150000x1_S150000x64_1_0_n_n_0_1_164_wf
def scatter_S50000x64_S150000x1_S150000x64_1_0_0_1 : ScatterDims S50000x64 S150000x1 S150000x64 where
  updateWindowDims := [1]
  insertedWindowDims := [0]
  scatterDimsToOperandDims := [0]
  indexVectorDim := 1
  wf := scatter_S50000x64_S150000x1_S150000x64_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S50000x64_S150000x1_S150000x64_1_0_n_n_0_1_164 : GatherDims S50000x64 S150000x1 S150000x64 where
  offsetDims := [1]
  collapsedSliceDims := [0]
  operandBatchingDims := []
  startIndicesBatchingDims := []
  startIndexMap := [0]
  indexVectorDim := 1
  sliceSizes := ![1, 64]
  wf := gather_S50000x64_S150000x1_S150000x64_1_0_n_n_0_1_164_wf
def scatter_S50x64_S150000x1_S150000x64_1_0_0_1 : ScatterDims S50x64 S150000x1 S150000x64 where
  updateWindowDims := [1]
  insertedWindowDims := [0]
  scatterDimsToOperandDims := [0]
  indexVectorDim := 1
  wf := scatter_S50x64_S150000x1_S150000x64_1_0_0_1_wf
def scatter_S50x1_S150000x1_S150000x1_1_0_0_1 : ScatterDims S50x1 S150000x1 S150000x1 where
  updateWindowDims := [1]
  insertedWindowDims := [0]
  scatterDimsToOperandDims := [0]
  indexVectorDim := 1
  wf := scatter_S50x1_S150000x1_S150000x1_1_0_0_1_wf
def dot_S50x64_S64x64_S50x64_1_0_0_1_n_n : DotDims S50x64 S64x64 S50x64 where
  lhsContracting := [1]
  rhsContracting := [0]
  lhsNonContracting := [0]
  rhsNonContracting := [1]
  lhsBatch := []
  rhsBatch := []
  wf := dot_S50x64_S64x64_S50x64_1_0_0_1_n_n_wf
def gather_S20000x64_S50000x1_S50000x64_1_0_n_n_0_1_164 : GatherDims S20000x64 S50000x1 S50000x64 where
  offsetDims := [1]
  collapsedSliceDims := [0]
  operandBatchingDims := []
  startIndicesBatchingDims := []
  startIndexMap := [0]
  indexVectorDim := 1
  sliceSizes := ![1, 64]
  wf := gather_S20000x64_S50000x1_S50000x64_1_0_n_n_0_1_164_wf
def scatter_S50000x64_S50000x1_S50000x64_1_0_0_1 : ScatterDims S50000x64 S50000x1 S50000x64 where
  updateWindowDims := [1]
  insertedWindowDims := [0]
  scatterDimsToOperandDims := [0]
  indexVectorDim := 1
  wf := scatter_S50000x64_S50000x1_S50000x64_1_0_0_1_wf
def scatter_S50000x1_S50000x1_S50000x1_1_0_0_1 : ScatterDims S50000x1 S50000x1 S50000x1 where
  updateWindowDims := [1]
  insertedWindowDims := [0]
  scatterDimsToOperandDims := [0]
  indexVectorDim := 1
  wf := scatter_S50000x1_S50000x1_S50000x1_1_0_0_1_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S20000x64_S50000x1_S50000x64_1_0_0_1 : ScatterDims S20000x64 S50000x1 S50000x64 where
  updateWindowDims := [1]
  insertedWindowDims := [0]
  scatterDimsToOperandDims := [0]
  indexVectorDim := 1
  wf := scatter_S20000x64_S50000x1_S50000x64_1_0_0_1_wf
def scatter_S20000x1_S50000x1_S50000x1_1_0_0_1 : ScatterDims S20000x1 S50000x1 S50000x1 where
  updateWindowDims := [1]
  insertedWindowDims := [0]
  scatterDimsToOperandDims := [0]
  indexVectorDim := 1
  wf := scatter_S20000x1_S50000x1_S50000x1_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def scatter_S10x64_S50000x1_S50000x64_1_0_0_1 : ScatterDims S10x64 S50000x1 S50000x64 where
  updateWindowDims := [1]
  insertedWindowDims := [0]
  scatterDimsToOperandDims := [0]
  indexVectorDim := 1
  wf := scatter_S10x64_S50000x1_S50000x64_1_0_0_1_wf
def scatter_S10x1_S50000x1_S50000x1_1_0_0_1 : ScatterDims S10x1 S50000x1 S50000x1 where
  updateWindowDims := [1]
  insertedWindowDims := [0]
  scatterDimsToOperandDims := [0]
  indexVectorDim := 1
  wf := scatter_S10x1_S50000x1_S50000x1_1_0_0_1_wf
def dot_S10x64_S64x64_S10x64_1_0_0_1_n_n : DotDims S10x64 S64x64 S10x64 where
  lhsContracting := [1]
  rhsContracting := [0]
  lhsNonContracting := [0]
  rhsNonContracting := [1]
  lhsBatch := []
  rhsBatch := []
  wf := dot_S10x64_S64x64_S10x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.K.R0.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection `x · W + b` over 10 row blocks of 10000 rows, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`): its current staging buffer holds its block at every point, for any proof data
    whose array is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight `W`, one block, the same at every point): its staging buffer holds that block at every
    point, fetched there or not — where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias `b`, one block, the same at every point): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output's written, through its whole rectangle -/

abbrev r0_0 : Rect S10000x384 := Rect.unit (s := S10000x384) ![0, 0] S10000x384.size inb_S10000x384_S10000x384_0_0
abbrev r0_1 : Rect S384x64 := Rect.unit (s := S384x64) ![0, 0] S384x64.size inb_S384x64_S384x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output window's buffer -/

/-- Window 3's staging buffer after the body, from the input windows' blocks: its one store, of
    `x · W + b` (the bias row broadcast down the rows), over the whole buffer. -/
def out0_3 (x0 : Vec F S10000x384 .f32) (x1 : Vec F S384x64 .f32) (x2 : Vec F S1x64 .f32) : Vec F S10000x64 .f32 :=
  View.canon [⟨r0_3, k0_pay1 (View.ld x0 r0_0) (View.ld x1 r0_1) (View.ld x2 r0_2)⟩]

/-- The one store tiles the buffer, so it covers it. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out0_3` of the inputs'. The body
    also loads the output's buffer before the store; that value is not used. -/
theorem sound_kernel0 (c : Dev nD) (E : Set ℕ) (i : grid0.Coords) (arg1 : Memref sig .tc .vmem S10000x384 .f32) (harg1 : arg1.IsWhole) (arg2 : Memref sig .tc .vmem S384x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x384 .f32) (x1 : Vec F S384x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.R1.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the projection `x · W + b` over 5 row blocks of 10000 rows, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows of `x`): its current staging buffer holds its block at every point, for any proof data
    whose array is `V`'s (`hA`) and whose body leaves the block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight `W`, one block, the same at every point): its staging buffer holds that block at every
    point, fetched there or not — where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias `b`, one block, the same at every point): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output's written, through its whole rectangle -/

abbrev r1_0 : Rect S10000x384 := Rect.unit (s := S10000x384) ![0, 0] S10000x384.size inb_S10000x384_S10000x384_0_0
abbrev r1_1 : Rect S384x64 := Rect.unit (s := S384x64) ![0, 0] S384x64.size inb_S384x64_S384x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in the output window's buffer -/

/-- Window 3's staging buffer after the body, from the input windows' blocks: its one store, of
    `x · W + b` (the bias row broadcast down the rows), over the whole buffer. -/
def out1_3 (x0 : Vec F S10000x384 .f32) (x1 : Vec F S384x64 .f32) (x2 : Vec F S1x64 .f32) : Vec F S10000x64 .f32 :=
  View.canon [⟨r1_3, k1_pay1 (View.ld x0 r1_0) (View.ld x1 r1_1) (View.ld x2 r1_2)⟩]

/-- The one store tiles the buffer, so it covers it. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out1_3` of the inputs'. The body
    also loads the output's buffer before the store; that value is not used. -/
theorem sound_kernel1 (c : Dev nD) (E : Set ℕ) (i : grid1.Coords) (arg1 : Memref sig .tc .vmem S10000x384 .f32) (harg1 : arg1.IsWhole) (arg2 : Memref sig .tc .vmem S384x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x384 .f32) (x1 : Vec F S384x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.R2.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2_kernel` (pipeline 2), at the entry contents `V`

On blocks of 2456 rows the body stores max(0, x8 · x14 + x13 + Σ_{k<4} (x_{2k} / max(x_{2k+1}, 1)) · x_{9+k}) into window 15:
windows 0..7 are four (row block, column of divisors) pairs, 8 a row block, 9..12 and 14 square 64x64 matrices and 13 a
1x64 row, these six at a block index constant over the grid. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the block index of an
    unfetched input has not moved, the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The same for input window 3. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The same for input window 4. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The same for input window 5. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- The same for input window 6. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- The same for input window 7. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- The same for input window 8. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- The same for input window 9, whose block index is constant over the grid (it is fetched at the first point only). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- The same for input window 10 (constant block index). -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- The same for input window 11 (constant block index). -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- The same for input window 12 (constant block index). -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- The same for input window 13 (constant block index). -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- The same for input window 14 (constant block index). -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2456x64 := Rect.unit (s := S2456x64) ![0, 0] S2456x64.size inb_S2456x64_S2456x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S2456x1 := Rect.unit (s := S2456x1) ![0, 0] S2456x1.size inb_S2456x1_S2456x1_0_0

/-! ## What the body leaves in the output window's buffer -/

/-- Window 15's staging buffer after the body, from the input windows' blocks: its one store as a piece over the
    whole buffer, the payload the body's second half's applied to its first half's.
    First half: x8 · x14 + x13 + (x0 / max(x1, 1)) · x9 + (x2 / max(x3, 1)) · x10.
    Second half: that + (x4 / max(x5, 1)) · x11 + (x6 / max(x7, 1)) · x12, then the maximum with 0. -/
def out2_15 (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) : Vec F S2456x64 .f32 :=
  View.canon [⟨r2_0, k2_pay1
    (k2_pay2 (View.ld x8 r2_0) (View.ld x14 r2_1) (View.ld x13 r2_2) (View.ld x0 r2_0) (View.ld x1 r2_3) (View.ld x9 r2_1)
      (View.ld x2 r2_0) (View.ld x3 r2_3) (View.ld x10 r2_1))
    (View.ld x4 r2_0) (View.ld x5 r2_3) (View.ld x11 r2_1) (View.ld x6 r2_0) (View.ld x7 r2_3) (View.ld x12 r2_1)⟩]

/-- Its store tiles the buffer (one block of the buffer's own size), so it covers it. -/
theorem cover2_15 (p0 : Vec F S2456x64 .f32) (y : S2456x64.Idx) :
    ∃ pc ∈ ([⟨r2_0, p0⟩] : List (View.Piece (Elt F) S2456x64 .f32)), y ∈ pc.1.set :=
  View.cover_of_tiled [⟨r2_0, p0⟩] S2456x64.size (by rfl) y

/-! ## The body's triple -/

set_option maxHeartbeats 1000000 in
/-- The kernel body on whole staging memrefs, the inputs' at read contents `xW` and the output's at anything, runs to
    the continuation holding the inputs' as they were and the output's at `out2_15` of the inputs': the printed
    functions are their skeletons, run operation by operation through the part call; the output's load is dead. -/
theorem sound_kernel2 (c : Dev nD) (E : Set ℕ) (i : grid2.Coords)
    (arg1 : Memref sig .tc .vmem S2456x64 .f32) (harg1 : arg1.IsWhole) (arg2 : Memref sig .tc .vmem S2456x1 .f32) (harg2 : arg2.IsWhole)
    (arg3 : Memref sig .tc .vmem S2456x64 .f32) (harg3 : arg3.IsWhole) (arg4 : Memref sig .tc .vmem S2456x1 .f32) (harg4 : arg4.IsWhole)
    (arg5 : Memref sig .tc .vmem S2456x64 .f32) (harg5 : arg5.IsWhole) (arg6 : Memref sig .tc .vmem S2456x1 .f32) (harg6 : arg6.IsWhole)
    (arg7 : Memref sig .tc .vmem S2456x64 .f32) (harg7 : arg7.IsWhole) (arg8 : Memref sig .tc .vmem S2456x1 .f32) (harg8 : arg8.IsWhole)
    (arg9 : Memref sig .tc .vmem S2456x64 .f32) (harg9 : arg9.IsWhole) (arg10 : Memref sig .tc .vmem S64x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x64 .f32) (harg13 : arg13.IsWhole) (arg14 : Memref sig .tc .vmem S1x64 .f32) (harg14 : arg14.IsWhole)
    (arg15 : Memref sig .tc .vmem S64x64 .f32) (harg15 : arg15.IsWhole) (arg16 : Memref sig .tc .vmem S2456x64 .f32) (harg16 : arg16.IsWhole)
    (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out2_15 x0 x1 x2 x3 x4 x5 x6 x7 x8 x9 x10 x11 x12 x13 x14)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover2_15 _)

/-! ## The pipeline's proof data -/

/-- The proof data of pipeline 2 on core `c`: the arrays as the region finds them (`V`); after the body at
    point `t` each input's buffer at its block and the output's at `out2_15` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (iblk2 V c 13 t) (iblk2 V c 14 t)
    | ⟨_ + 16, h⟩ => absurd h (Nat.not_lt.2 (Nat.le_add_left _ _))
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t =
    out2_15 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t)
      (iblk2 V c 13 t) (iblk2 V c 14 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11,
    after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.R3.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3: the one-edge-type SAGE epilogue at 6144 rows, 17 grid points, at the entry contents `V`

Windows: 0 the neighbour sums (6144x64), 1 the neighbour counts (6144x1), 2 the destination features (6144x64), 3 the
left weight (64x64), 4 the bias (1x64), 5 the right weight (64x64); 6 the result (6144x64):
`max (xdst · wr + bias + (agg / max cnt 1) · wl) 0`. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same of input window 3. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- The same of input window 4. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- The same of input window 5. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S6144x64 := Rect.unit (s := S6144x64) ![0, 0] S6144x64.size inb_S6144x64_S6144x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S6144x1 := Rect.unit (s := S6144x1) ![0, 0] S6144x1.size inb_S6144x1_S6144x1_0_0

/-! ## What the body leaves in the output window's buffer -/

/-- Window 6's staging buffer after the body, from the input windows' blocks: its one store as a piece, the payload
    the skeleton's over the whole-buffer loads of the destination features, the right weight, the bias, the sums,
    the counts and the left weight. -/
def out3_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r3_0, k3_pay1 (View.ld x2 r3_0) (View.ld x5 r3_1) (View.ld x4 r3_2) (View.ld x0 r3_0) (View.ld x1 r3_3) (View.ld x3 r3_1)⟩]

/-- Its one store is over the whole buffer, so it covers it. -/
theorem cover3_6 (p0 : Vec F S6144x64 .f32) (y : S6144x64.Idx) :
    ∃ pc ∈ ([⟨r3_0, p0⟩] : List (View.Piece (Elt F) S6144x64 .f32)), y ∈ pc.1.set :=
  View.cover_of_tiled [⟨r3_0, p0⟩] S6144x64.size (by rfl) y

/-! ## The body's triple -/

set_option maxHeartbeats 1000000 in
/-- The kernel body on whole staging memrefs, the inputs' at read contents `xW` and the output's at anything, runs to
    the continuation holding the inputs' as they were and the output's at `out3_6` of the inputs'. -/
theorem sound_kernel3 (c : Dev nD) (E : Set ℕ) (i : grid3.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at point
    `t` each input's buffer at its block and the output's at `out3_6` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.R4.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4: the one-edge-type SAGE epilogue at 50 rows, one grid point, at the entry contents `V`

Windows: 0 the neighbour sums (50x64), 1 the neighbour counts (50x1), 2 the destination features (50x64), 3 the
left weight (64x64), 4 the bias (1x64), 5 the right weight (64x64); 6 the result (50x64):
`max (xdst · wr + bias + (agg / max cnt 1) · wl) 0`. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- The same of input window 3. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- The same of input window 4. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- The same of input window 5. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S50x64 := Rect.unit (s := S50x64) ![0, 0] S50x64.size inb_S50x64_S50x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S50x1 := Rect.unit (s := S50x1) ![0, 0] S50x1.size inb_S50x1_S50x1_0_0

/-! ## What the body leaves in the output window's buffer -/

/-- Window 6's staging buffer after the body, from the input windows' blocks: its one store as a piece, the payload
    the skeleton's over the whole-buffer loads of the destination features, the right weight, the bias, the sums,
    the counts and the left weight. -/
def out4_6 (x0 : Vec F S50x64 .f32) (x1 : Vec F S50x1 .f32) (x2 : Vec F S50x64 .f32) (x3 : Vec F S64x64 .f32) (x4 : Vec F S1x64 .f32) (x5 : Vec F S64x64 .f32) : Vec F S50x64 .f32 :=
  View.canon [⟨r4_0, k4_pay1 (View.ld x2 r4_0) (View.ld x5 r4_1) (View.ld x4 r4_2) (View.ld x0 r4_0) (View.ld x1 r4_3) (View.ld x3 r4_1)⟩]

/-- Its one store is over the whole buffer, so it covers it. -/
theorem cover4_6 (p0 : Vec F S50x64 .f32) (y : S50x64.Idx) :
    ∃ pc ∈ ([⟨r4_0, p0⟩] : List (View.Piece (Elt F) S50x64 .f32)), y ∈ pc.1.set :=
  View.cover_of_tiled [⟨r4_0, p0⟩] S50x64.size (by rfl) y

/-! ## The body's triple -/

set_option maxHeartbeats 1000000 in
/-- The kernel body on whole staging memrefs, the inputs' at read contents `xW` and the output's at anything, runs to
    the continuation holding the inputs' as they were and the output's at `out4_6` of the inputs'. -/
theorem sound_kernel4 (c : Dev nD) (E : Set ℕ) (i : grid4.Coords) (arg1 : Memref sig .tc .vmem S50x64 .f32) (harg1 : arg1.IsWhole) (arg2 : Memref sig .tc .vmem S50x1 .f32) (harg2 : arg2.IsWhole) (arg3 : Memref sig .tc .vmem S50x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S50x64 .f32) (harg7 : arg7.IsWhole)
    (x0 : Vec F S50x64 .f32) (x1 : Vec F S50x1 .f32) (x2 : Vec F S50x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them (`V`); after the body at point
    `t` each input's buffer at its block and the output's at `out4_6` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.R5.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 5: the one-edge-type SAGE epilogue at 6144 rows, 4 grid points, at the entry contents `V`

Windows: 0 the neighbour sums (6144x64), 1 the neighbour counts (6144x1), 2 the destination features (6144x64), 3 the
left weight (64x64), 4 the bias (1x64), 5 the right weight (64x64); 6 the result (6144x64):
`max (xdst · wr + bias + (agg / max cnt 1) · wl) 0`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The same of input window 3. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- The same of input window 4. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- The same of input window 5. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S6144x64 := Rect.unit (s := S6144x64) ![0, 0] S6144x64.size inb_S6144x64_S6144x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S6144x1 := Rect.unit (s := S6144x1) ![0, 0] S6144x1.size inb_S6144x1_S6144x1_0_0

/-! ## What the body leaves in the output window's buffer -/

/-- Window 6's staging buffer after the body, from the input windows' blocks: its one store as a piece, the payload
    the skeleton's over the whole-buffer loads of the destination features, the right weight, the bias, the sums,
    the counts and the left weight. -/
def out5_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r5_0, k5_pay1 (View.ld x2 r5_0) (View.ld x5 r5_1) (View.ld x4 r5_2) (View.ld x0 r5_0) (View.ld x1 r5_3) (View.ld x3 r5_1)⟩]

/-- Its one store is over the whole buffer, so it covers it. -/
theorem cover5_6 (p0 : Vec F S6144x64 .f32) (y : S6144x64.Idx) :
    ∃ pc ∈ ([⟨r5_0, p0⟩] : List (View.Piece (Elt F) S6144x64 .f32)), y ∈ pc.1.set :=
  View.cover_of_tiled [⟨r5_0, p0⟩] S6144x64.size (by rfl) y

/-! ## The body's triple -/

set_option maxHeartbeats 1000000 in
/-- The kernel body on whole staging memrefs, the inputs' at read contents `xW` and the output's at anything, runs to
    the continuation holding the inputs' as they were and the output's at `out5_6` of the inputs'. -/
theorem sound_kernel5 (c : Dev nD) (E : Set ℕ) (i : grid5.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at point
    `t` each input's buffer at its block and the output's at `out5_6` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.K.R6.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6: the one-edge-type SAGE epilogue at 10 rows, one grid point, at the entry contents `V`

Windows: 0 the neighbour sums (10x64), 1 the neighbour counts (10x1), 2 the destination features (10x64), 3 the
left weight (64x64), 4 the bias (1x64), 5 the right weight (64x64); 6 the result (10x64):
`max (xdst · wr + bias + (agg / max cnt 1) · wl) 0`. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same of input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same of input window 2. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- The same of input window 3. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- The same of input window 4. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- The same of input window 5. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S10x64 := Rect.unit (s := S10x64) ![0, 0] S10x64.size inb_S10x64_S10x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S10x1 := Rect.unit (s := S10x1) ![0, 0] S10x1.size inb_S10x1_S10x1_0_0

/-! ## What the body leaves in the output window's buffer -/

/-- Window 6's staging buffer after the body, from the input windows' blocks: its one store as a piece, the payload
    the skeleton's over the whole-buffer loads of the destination features, the right weight, the bias, the sums,
    the counts and the left weight. -/
def out6_6 (x0 : Vec F S10x64 .f32) (x1 : Vec F S10x1 .f32) (x2 : Vec F S10x64 .f32) (x3 : Vec F S64x64 .f32) (x4 : Vec F S1x64 .f32) (x5 : Vec F S64x64 .f32) : Vec F S10x64 .f32 :=
  View.canon [⟨r6_0, k6_pay1 (View.ld x2 r6_0) (View.ld x5 r6_1) (View.ld x4 r6_2) (View.ld x0 r6_0) (View.ld x1 r6_3) (View.ld x3 r6_1)⟩]

/-- Its one store is over the whole buffer, so it covers it. -/
theorem cover6_6 (p0 : Vec F S10x64 .f32) (y : S10x64.Idx) :
    ∃ pc ∈ ([⟨r6_0, p0⟩] : List (View.Piece (Elt F) S10x64 .f32)), y ∈ pc.1.set :=
  View.cover_of_tiled [⟨r6_0, p0⟩] S10x64.size (by rfl) y

/-! ## The body's triple -/

set_option maxHeartbeats 1000000 in
/-- The kernel body on whole staging memrefs, the inputs' at read contents `xW` and the output's at anything, runs to
    the continuation holding the inputs' as they were and the output's at `out6_6` of the inputs'. -/
theorem sound_kernel6 (c : Dev nD) (E : Set ℕ) (i : grid6.Coords) (arg1 : Memref sig .tc .vmem S10x64 .f32) (harg1 : arg1.IsWhole) (arg2 : Memref sig .tc .vmem S10x1 .f32) (harg2 : arg2.IsWhole) (arg3 : Memref sig .tc .vmem S10x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10x64 .f32) (harg7 : arg7.IsWhole)
    (x0 : Vec F S10x64 .f32) (x1 : Vec F S10x1 .f32) (x2 : Vec F S10x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them (`V`); after the body at point
    `t` each input's buffer at its block and the output's at `out6_6` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.K.R7.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 7 of @main: custom_call 7, `cc7_kernel` (pipeline 7), at the entry contents `V`

On blocks of 2456 rows the body stores x8 · x14 + x13 + Σ_{k<4} (x_{2k} / max(x_{2k+1}, 1)) · x_{9+k} into window 15:
windows 0..7 are four (row block, column of divisors) pairs, 8 a row block, 9..12 and 14 square 64x64 matrices and 13 a
1x64 row, these six at a block index constant over the grid. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): the block index of an
    unfetched input has not moved, the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same for input window 2. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- The same for input window 3. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- The same for input window 4. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- The same for input window 5. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- The same for input window 6. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- The same for input window 7. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
/-- The same for input window 8. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
/-- The same for input window 9, whose block index is constant over the grid (it is fetched at the first point only). -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)
/-- The same for input window 10 (constant block index). -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)
/-- The same for input window 11 (constant block index). -/
theorem before7_11_of {c : Dev nD} (dat : Dat τ (Elt F) Unit ℕ (UR sig nD τ) ℕ cfg7 c) (hA : dat.A 11 = V c (Pipeline.arrRef spec7 11))
    (hafter : ∀ t, dat.after 11 t = iblk7 V c 11 t) (t : Fin cfg7.N) (d) : dat.before 11 t d = iblk7 V c 11 t :=
  (dat.before_in_eq_fetched 11 rfl (fun _ => rfl) (fun _ _ _ => rfl) (fun t => by rw [hafter]; unfold Dat.blockOf iblk7; rw [hA]; try rfl) t d).trans
    (by unfold Dat.fetched Dat.blockOf iblk7; rw [hA]; try rfl)
/-- The same for input window 12 (constant block index). -/
theorem before7_12_of {c : Dev nD} (dat : Dat τ (Elt F) Unit ℕ (UR sig nD τ) ℕ cfg7 c) (hA : dat.A 12 = V c (Pipeline.arrRef spec7 12))
    (hafter : ∀ t, dat.after 12 t = iblk7 V c 12 t) (t : Fin cfg7.N) (d) : dat.before 12 t d = iblk7 V c 12 t :=
  (dat.before_in_eq_fetched 12 rfl (fun _ => rfl) (fun _ _ _ => rfl) (fun t => by rw [hafter]; unfold Dat.blockOf iblk7; rw [hA]; try rfl) t d).trans
    (by unfold Dat.fetched Dat.blockOf iblk7; rw [hA]; try rfl)
/-- The same for input window 13 (constant block index). -/
theorem before7_13_of {c : Dev nD} (dat : Dat τ (Elt F) Unit ℕ (UR sig nD τ) ℕ cfg7 c) (hA : dat.A 13 = V c (Pipeline.arrRef spec7 13))
    (hafter : ∀ t, dat.after 13 t = iblk7 V c 13 t) (t : Fin cfg7.N) (d) : dat.before 13 t d = iblk7 V c 13 t :=
  (dat.before_in_eq_fetched 13 rfl (fun _ => rfl) (fun _ _ _ => rfl) (fun t => by rw [hafter]; unfold Dat.blockOf iblk7; rw [hA]; try rfl) t d).trans
    (by unfold Dat.fetched Dat.blockOf iblk7; rw [hA]; try rfl)
/-- The same for input window 14 (constant block index). -/
theorem before7_14_of {c : Dev nD} (dat : Dat τ (Elt F) Unit ℕ (UR sig nD τ) ℕ cfg7 c) (hA : dat.A 14 = V c (Pipeline.arrRef spec7 14))
    (hafter : ∀ t, dat.after 14 t = iblk7 V c 14 t) (t : Fin cfg7.N) (d) : dat.before 14 t d = iblk7 V c 14 t :=
  (dat.before_in_eq_fetched 14 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S2456x64 := Rect.unit (s := S2456x64) ![0, 0] S2456x64.size inb_S2456x64_S2456x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0
abbrev r7_3 : Rect S2456x1 := Rect.unit (s := S2456x1) ![0, 0] S2456x1.size inb_S2456x1_S2456x1_0_0

/-! ## What the body leaves in the output window's buffer -/

/-- Window 15's staging buffer after the body, from the input windows' blocks: its one store as a piece over the
    whole buffer, the payload the body's second half's applied to its first half's.
    First half: x8 · x14 + x13 + (x0 / max(x1, 1)) · x9 + (x2 / max(x3, 1)) · x10.
    Second half: that + (x4 / max(x5, 1)) · x11 + (x6 / max(x7, 1)) · x12. -/
def out7_15 (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) : Vec F S2456x64 .f32 :=
  View.canon [⟨r7_0, k7_pay1
    (k7_pay2 (View.ld x8 r7_0) (View.ld x14 r7_1) (View.ld x13 r7_2) (View.ld x0 r7_0) (View.ld x1 r7_3) (View.ld x9 r7_1)
      (View.ld x2 r7_0) (View.ld x3 r7_3) (View.ld x10 r7_1))
    (View.ld x4 r7_0) (View.ld x5 r7_3) (View.ld x11 r7_1) (View.ld x6 r7_0) (View.ld x7 r7_3) (View.ld x12 r7_1)⟩]

/-- Its store tiles the buffer (one block of the buffer's own size), so it covers it. -/
theorem cover7_15 (p0 : Vec F S2456x64 .f32) (y : S2456x64.Idx) :
    ∃ pc ∈ ([⟨r7_0, p0⟩] : List (View.Piece (Elt F) S2456x64 .f32)), y ∈ pc.1.set :=
  View.cover_of_tiled [⟨r7_0, p0⟩] S2456x64.size (by rfl) y

/-! ## The body's triple -/

set_option maxHeartbeats 1000000 in
/-- The kernel body on whole staging memrefs, the inputs' at read contents `xW` and the output's at anything, runs to
    the continuation holding the inputs' as they were and the output's at `out7_15` of the inputs': the printed
    functions are their skeletons, run operation by operation through the part call; the output's load is dead. -/
theorem sound_kernel7 (c : Dev nD) (E : Set ℕ) (i : grid7.Coords)
    (arg1 : Memref sig .tc .vmem S2456x64 .f32) (harg1 : arg1.IsWhole) (arg2 : Memref sig .tc .vmem S2456x1 .f32) (harg2 : arg2.IsWhole)
    (arg3 : Memref sig .tc .vmem S2456x64 .f32) (harg3 : arg3.IsWhole) (arg4 : Memref sig .tc .vmem S2456x1 .f32) (harg4 : arg4.IsWhole)
    (arg5 : Memref sig .tc .vmem S2456x64 .f32) (harg5 : arg5.IsWhole) (arg6 : Memref sig .tc .vmem S2456x1 .f32) (harg6 : arg6.IsWhole)
    (arg7 : Memref sig .tc .vmem S2456x64 .f32) (harg7 : arg7.IsWhole) (arg8 : Memref sig .tc .vmem S2456x1 .f32) (harg8 : arg8.IsWhole)
    (arg9 : Memref sig .tc .vmem S2456x64 .f32) (harg9 : arg9.IsWhole) (arg10 : Memref sig .tc .vmem S64x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x64 .f32) (harg13 : arg13.IsWhole) (arg14 : Memref sig .tc .vmem S1x64 .f32) (harg14 : arg14.IsWhole)
    (arg15 : Memref sig .tc .vmem S64x64 .f32) (harg15 : arg15.IsWhole) (arg16 : Memref sig .tc .vmem S2456x64 .f32) (harg16 : arg16.IsWhole)
    (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out7_15 x0 x1 x2 x3 x4 x5 x6 x7 x8 x9 x10 x11 x12 x13 x14)) -∗ K ⟨⟩))
      ⊢ wp frame (wpE (defs₀ (F := F)) Variants.none c none) E
          (cc7_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover7_15 _)

/-! ## The pipeline's proof data -/

/-- The proof data of pipeline 7 on core `c`: the arrays as the region finds them (`V`); after the body at
    point `t` each input's buffer at its block and the output's at `out7_15` of the input blocks; the invariant the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => out7_15 (iblk7 V c 0 t) (iblk7 V c 1 t) (iblk7 V c 2 t) (iblk7 V c 3 t) (iblk7 V c 4 t) (iblk7 V c 5 t)
        (iblk7 V c 6 t) (iblk7 V c 7 t) (iblk7 V c 8 t) (iblk7 V c 9 t) (iblk7 V c 10 t) (iblk7 V c 11 t) (iblk7 V c 12 t)
        (iblk7 V c 13 t) (iblk7 V c 14 t)
    | ⟨_ + 16, h⟩ => absurd h (Nat.not_lt.2 (Nat.le_add_left _ _))
  Φ _ := Pipeline.ΦA spec7 c
  q _ := fullShare
  owed _ := 0

/-- The proof data's arrays are the region-entry contents (the proof data's definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = iblk7 V c 14 t := by dsimp only [dat7]
theorem after7_15 (c : Dev nD) (t : Fin cfg7.N) : (dat7 V c).after 15 t =
    out7_15 (iblk7 V c 0 t) (iblk7 V c 1 t) (iblk7 V c 2 t) (iblk7 V c 3 t) (iblk7 V c 4 t) (iblk7 V c 5 t)
      (iblk7 V c 6 t) (iblk7 V c 7 t) (iblk7 V c 8 t) (iblk7 V c 9 t) (iblk7 V c 10 t) (iblk7 V c 11 t) (iblk7 V c 12 t)
      (iblk7 V c 13 t) (iblk7 V c 14 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d
theorem before7_11 (c : Dev nD) (t : Fin cfg7.N) (d) : (dat7 V c).before 11 t d = iblk7 V c 11 t :=
  before7_11_of V (dat7 V c) (A_eq7 V c 11) (after7_11 V c) t d
theorem before7_12 (c : Dev nD) (t : Fin cfg7.N) (d) : (dat7 V c).before 12 t d = iblk7 V c 12 t :=
  before7_12_of V (dat7 V c) (A_eq7 V c 12) (after7_12 V c) t d
theorem before7_13 (c : Dev nD) (t : Fin cfg7.N) (d) : (dat7 V c).before 13 t d = iblk7 V c 13 t :=
  before7_13_of V (dat7 V c) (A_eq7 V c 13) (after7_13 V c) t d
theorem before7_14 (c : Dev nD) (t : Fin cfg7.N) (d) : (dat7 V c).before 14 t d = iblk7 V c 14 t :=
  before7_14_of V (dat7 V c) (A_eq7 V c 14) (after7_14 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d))
    ∗ (∃ d, owns (c : Thread nD τ) (st7_15 t) fullShare ((dat7 V c).before 15 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t)
    ∗ owns (c : Thread nD τ) (st7_15 t) fullShare ((dat7 V c).after 15 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9,
    before7_10, before7_11, before7_12, before7_13, before7_14]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11,
    after7_12, after7_13, after7_14, after7_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩⟩
  iapply (sound_kernel7 c Set.univ (grid7.coords t) _ _ _ _ _ _ _ _ _ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t)
    (iblk7 V c 7 t) (iblk7 V c 8 t) (iblk7 V c 9 t) (iblk7 V c 10 t) (iblk7 V c 11 t) (iblk7 V c 12 t) (iblk7 V c 13 t)
    (iblk7 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.K.R8.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 8 of @main: custom_call 8, `cc8_kernel` (pipeline 8), at the entry contents `V`

Seven windows: 0 the neighbour sum (6144x64), 1 the neighbour count (6144x1), 2 the destination rows (6144x64),
3 the neighbour weight (64x64), 4 the bias (1x64), 5 the self weight (64x64); 6 the result (6144x64). -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block
    index has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same of input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same of input window 2. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- The same of input window 3 (one block for the whole grid: fetched once, found at every point). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- The same of input window 4 (one block for the whole grid). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- The same of input window 5 (one block for the whole grid). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S6144x64 := Rect.unit (s := S6144x64) ![0, 0] S6144x64.size inb_S6144x64_S6144x64_0_0
abbrev r8_1 : Rect S64x64 := Rect.unit (s := S64x64) ![0, 0] S64x64.size inb_S64x64_S64x64_0_0
abbrev r8_2 : Rect S1x64 := Rect.unit (s := S1x64) ![0, 0] S1x64.size inb_S1x64_S1x64_0_0
abbrev r8_3 : Rect S6144x1 := Rect.unit (s := S6144x1) ![0, 0] S6144x1.size inb_S6144x1_S6144x1_0_0

/-! ## What the body leaves in the output window's buffer -/

/-- Window 6's staging buffer after the body, from the input windows' blocks: its one store as a piece over the
    whole buffer, the payload `(xdst · wr + bias) + (agg / max(cnt, 1)) · wl` of the whole blocks. -/
def out8_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r8_0, k8_pay1 (View.ld x2 r8_0) (View.ld x5 r8_1) (View.ld x4 r8_2) (View.ld x0 r8_0) (View.ld x1 r8_3) (View.ld x3 r8_1)⟩]

/-- Its store tiles the buffer, so it covers it. -/
theorem cover8_6 (p0 : Vec F S6144x64 .f32) (y : S6144x64.Idx) :
    ∃ pc ∈ ([⟨r8_0, p0⟩] : List (View.Piece (Elt F) S6144x64 .f32)), y ∈ pc.1.set :=
  View.cover_of_tiled [⟨r8_0, p0⟩] S6144x64.size (by rfl) y

/-! ## The body's triple -/

set_option maxHeartbeats 1000000 in
/-- The kernel body on whole staging memrefs, the inputs' at read contents `xW` and the output's at anything, runs to
    the continuation holding the inputs' as they were and the output's at `out8_6` of the inputs': the six loads read
    the whole blocks, the load of the output's buffer reads a value nothing uses, the store overwrites that buffer whole. -/
theorem sound_kernel8 (c : Dev nD) (E : Set ℕ) (i : grid8.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8_kernel i arg1 harg1 arg2 harg2 arg3 harg3 arg4 harg4 arg5 harg5 arg6 harg6 arg7 harg7) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them (`V`); after the body at
    point `t` each input's buffer at its block and the output's at `out8_6` of the input blocks; the invariant the
    class's (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Gen

end
-- ==== Proof.K.R9.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 9 of @main: custom_call 9, `cc9_kernel` (pipeline 9), at the entry contents `V`

Seven windows: 0 the neighbour sum (50x64), 1 the neighbour count (50x1), 2 the destination rows (50x64),
3 the neighbour weight (64x64), 4 the bias (1x64), 5 the self weight (64x64); 6 the result (50x64). -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same of input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same of input window 2. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same of input window 3 (one block for the whole grid: fetched once, found at every point). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- The same of input window 4 (one block for the whole grid). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- The same of input window 5 (one block for the whole grid). -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S50x64 := Rect.unit (s := S50x64) ![0, 0] S50x64.size inb_S50x64_S50x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S50x1 := Rect.unit (s := S50x1) ![0, 0] S50x1.size inb_S50x1_S50x1_0_0

/-! ## What the body leaves in the output window's buffer -/

/-- Window 6's staging buffer after the body, from the input windows' blocks: its one store as a piece over the
    whole buffer, the payload `(xdst · wr + bias) + (agg / max(cnt, 1)) · wl` of the whole blocks. -/
def out9_6 (x0 : Vec F S50x64 .f32) (x1 : Vec F S50x1 .f32) (x2 : Vec F S50x64 .f32) (x3 : Vec F S64x64 .f32) (x4 : Vec F S1x64 .f32) (x5 : Vec F S64x64 .f32) : Vec F S50x64 .f32 :=
  View.canon [⟨r9_0, k9_pay1 (View.ld x2 r9_0) (View.ld x5 r9_1) (View.ld x4 r9_2) (View.ld x0 r9_0) (View.ld x1 r9_3) (View.ld x3 r9_1)⟩]

/-- Its store tiles the buffer, so it covers it. -/
theorem cover9_6 (p0 : Vec F S50x64 .f32) (y : S50x64.Idx) :
    ∃ pc ∈ ([⟨r9_0, p0⟩] : List (View.Piece (Elt F) S50x64 .f32)), y ∈ pc.1.set :=
  View.cover_of_tiled [⟨r9_0, p0⟩] S50x64.size (by rfl) y

/-! ## The body's triple -/

set_option maxHeartbeats 1000000 in
/-- The kernel body on whole staging memrefs, the inputs' at read contents `xW` and the output's at anything, runs to
    the continuation holding the inputs' as they were and the output's at `out9_6` of the inputs': the six loads read
    the whole blocks, the load of the output's buffer reads a value nothing uses, the store overwrites that buffer whole. -/
theorem sound_kernel9 (c : Dev nD) (E : Set ℕ) (i : grid9.Coords) (arg1 : Memref sig .tc .vmem S50x64 .f32) (harg1 : arg1.IsWhole) (arg2 : Memref sig .tc .vmem S50x1 .f32) (harg2 : arg2.IsWhole) (arg3 : Memref sig .tc .vmem S50x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S50x64 .f32) (harg7 : arg7.IsWhole)
    (x0 : Vec F S50x64 .f32) (x1 : Vec F S50x1 .f32) (x2 : Vec F S50x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9_kernel i arg1 harg1 arg2 harg2 arg3 harg3 arg4 harg4 arg5 harg5 arg6 harg6 arg7 harg7) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core `c`: the arrays as the region finds them (`V`); after the body at
    point `t` each input's buffer at its block and the output's at `out9_6` of the input blocks; the invariant the
    class's (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Gen

end
-- ==== Proof.K.R10.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 10 of @main: custom_call 10, `cc10_kernel` (pipeline 10), at the entry contents `V`

Seven windows: 0 the neighbour sum (6144x64), 1 the neighbour count (6144x1), 2 the destination rows (6144x64),
3 the neighbour weight (64x64), 4 the bias (1x64), 5 the self weight (64x64); 6 the result (6144x64). -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block
    index has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same of input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same of input window 2. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- The same of input window 3 (one block for the whole grid: fetched once, found at every point). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- The same of input window 4 (one block for the whole grid). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- The same of input window 5 (one block for the whole grid). -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S6144x64 := Rect.unit (s := S6144x64) ![0, 0] S6144x64.size inb_S6144x64_S6144x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0
abbrev r10_3 : Rect S6144x1 := Rect.unit (s := S6144x1) ![0, 0] S6144x1.size inb_S6144x1_S6144x1_0_0

/-! ## What the body leaves in the output window's buffer -/

/-- Window 6's staging buffer after the body, from the input windows' blocks: its one store as a piece over the
    whole buffer, the payload `(xdst · wr + bias) + (agg / max(cnt, 1)) · wl` of the whole blocks. -/
def out10_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r10_0, k10_pay1 (View.ld x2 r10_0) (View.ld x5 r10_1) (View.ld x4 r10_2) (View.ld x0 r10_0) (View.ld x1 r10_3) (View.ld x3 r10_1)⟩]

/-- Its store tiles the buffer, so it covers it. -/
theorem cover10_6 (p0 : Vec F S6144x64 .f32) (y : S6144x64.Idx) :
    ∃ pc ∈ ([⟨r10_0, p0⟩] : List (View.Piece (Elt F) S6144x64 .f32)), y ∈ pc.1.set :=
  View.cover_of_tiled [⟨r10_0, p0⟩] S6144x64.size (by rfl) y

/-! ## The body's triple -/

set_option maxHeartbeats 1000000 in
/-- The kernel body on whole staging memrefs, the inputs' at read contents `xW` and the output's at anything, runs to
    the continuation holding the inputs' as they were and the output's at `out10_6` of the inputs': the six loads read
    the whole blocks, the load of the output's buffer reads a value nothing uses, the store overwrites that buffer whole. -/
theorem sound_kernel10 (c : Dev nD) (E : Set ℕ) (i : grid10.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10_kernel i arg1 harg1 arg2 harg2 arg3 harg3 arg4 harg4 arg5 harg5 arg6 harg6 arg7 harg7) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-! ## The pipeline's proof data -/

/-- The proof data of pipeline 10 on core `c`: the arrays as the region finds them (`V`); after the body at
    point `t` each input's buffer at its block and the output's at `out10_6` of the input blocks; the invariant the
    class's (the scoped rest and the generator register, untouched); nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Gen

end
-- ==== Proof.K.R11.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 11 of @main: custom_call 11, `cc11_kernel` (pipeline 11), at the entry contents `V`

Seven windows: 0 the neighbour sum (10x64), 1 the neighbour count (10x1), 2 the destination rows (10x64),
3 the neighbour weight (64x64), 4 the bias (1x64), 5 the self weight (64x64); 6 the result (10x64). -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same of input window 1. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The same of input window 2. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- The same of input window 3 (one block for the whole grid: fetched once, found at every point). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- The same of input window 4 (one block for the whole grid). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- The same of input window 5 (one block for the whole grid). -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S10x64 := Rect.unit (s := S10x64) ![0, 0] S10x64.size inb_S10x64_S10x64_0_0
abbrev r11_1 : Rect S64x64 := Rect.unit (s := S64x64) ![0, 0] S64x64.size inb_S64x64_S64x64_0_0
abbrev r11_2 : Rect S1x64 := Rect.unit (s := S1x64) ![0, 0] S1x64.size inb_S1x64_S1x64_0_0
abbrev r11_3 : Rect S10x1 := Rect.unit (s := S10x1) ![0, 0] S10x1.size inb_S10x1_S10x1_0_0

/-! ## What the body leaves in the output window's buffer -/

/-- Window 6's staging buffer after the body, from the input windows' blocks: its one store as a piece over the
    whole buffer, the payload `(xdst · wr + bias) + (agg / max(cnt, 1)) · wl` of the whole blocks. -/
def out11_6 (x0 : Vec F S10x64 .f32) (x1 : Vec F S10x1 .f32) (x2 : Vec F S10x64 .f32) (x3 : Vec F S64x64 .f32) (x4 : Vec F S1x64 .f32) (x5 : Vec F S64x64 .f32) : Vec F S10x64 .f32 :=
  View.canon [⟨r11_0, k11_pay1 (View.ld x2 r11_0) (View.ld x5 r11_1) (View.ld x4 r11_2) (View.ld x0 r11_0) (View.ld x1 r11_3) (View.ld x3 r11_1)⟩]

/-- Its store tiles the buffer, so it covers it. -/
theorem cover11_6 (p0 : Vec F S10x64 .f32) (y : S10x64.Idx) :
    ∃ pc ∈ ([⟨r11_0, p0⟩] : List (View.Piece (Elt F) S10x64 .f32)), y ∈ pc.1.set :=
  View.cover_of_tiled [⟨r11_0, p0⟩] S10x64.size (by rfl) y

/-! ## The body's triple -/

set_option maxHeartbeats 1000000 in
/-- The kernel body on whole staging memrefs, the inputs' at read contents `xW` and the output's at anything, runs to
    the continuation holding the inputs' as they were and the output's at `out11_6` of the inputs': the six loads read
    the whole blocks, the load of the output's buffer reads a value nothing uses, the store overwrites that buffer whole. -/
theorem sound_kernel11 (c : Dev nD) (E : Set ℕ) (i : grid11.Coords) (arg1 : Memref sig .tc .vmem S10x64 .f32) (harg1 : arg1.IsWhole) (arg2 : Memref sig .tc .vmem S10x1 .f32) (harg2 : arg2.IsWhole) (arg3 : Memref sig .tc .vmem S10x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10x64 .f32) (harg7 : arg7.IsWhole)
    (x0 : Vec F S10x64 .f32) (x1 : Vec F S10x1 .f32) (x2 : Vec F S10x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11_kernel i arg1 harg1 arg2 harg2 arg3 harg3 arg4 harg4 arg5 harg5 arg6 harg6 arg7 harg7) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant the
    class's (the scoped rest and the generator register, untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Gen

end
-- ==== Proof.K.R12.lean ====
import proofs.«417513_j58866821759238_4_alg».proof.Proof.Gen.Kernel.Launch
import proofs.«417513_j58866821759238_4_alg».proof.Proof.Gen.Kernel.Skeleton
import proofs.«417513_j58866821759238_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 12 of @main: the edge score, the sum over the 64 lanes of the product of two 4096x64 blocks, at the
    entry contents `V` -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): the window is uncut and
    never idle, and where it is not fetched its index has not moved. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, under the same
    two hypotheses at window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S4096x64 := Rect.unit (s := S4096x64) ![0, 0] S4096x64.size inb_S4096x64_S4096x64_0_0
abbrev r12_1 : Rect S4096 := Rect.unit (s := S4096) ![0] S4096.size inb_S4096_S4096_0

/-! ## What the body leaves in each output window's buffer -/

/-- Window 2's staging buffer after the body, from the input windows' blocks: its 1 store as a piece, the whole
    buffer at the lane sums of the product of the two blocks read whole. -/
def out12_2 (x0 : Vec F S4096x64 .f32) (x1 : Vec F S4096x64 .f32) : Vec F S4096 .f32 :=
  View.canon [⟨r12_1, k12_pay1 (View.ld x0 r12_0) (View.ld x1 r12_0)⟩]

/-- Its store is the whole buffer, so it covers it. -/
theorem cover12_2 (p0 : Vec F S4096 .f32) (y : S4096.Idx) :
    ∃ pc ∈ ([⟨r12_1, p0⟩] : List (View.Piece (Elt F) S4096 .f32)), y ∈ pc.1.set :=
  View.cover_of_tiled [⟨r12_1, p0⟩] S4096.size (by rfl) y

/-! ## The body's triple -/

set_option maxHeartbeats 1000000 in
/-- The kernel body on whole staging memrefs, the inputs' at read contents `xW` and the output's at anything, runs to
    the continuation holding the inputs' as they were and the output's at `out12_2` of the inputs': the body reads
    both inputs whole, reads the output (a value it never uses) and stores the lane sums over the whole output. -/
theorem sound_kernel12 (c : Dev nD) (E : Set ℕ) (i : grid12.Coords) (arg1 : Memref sig .tc .vmem S4096x64 .f32) (harg1 : arg1.IsWhole) (arg2 : Memref sig .tc .vmem S4096x64 .f32) (harg2 : arg2.IsWhole) (arg3 : Memref sig .tc .vmem S4096 .f32) (harg3 : arg3.IsWhole)
    (x0 : Vec F S4096x64 .f32) (x1 : Vec F S4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12_kernel i arg1 harg1 arg2 harg2 arg3 harg3) K := by
  simp only [cc12_kernel_eq_skeleton]; unfold cc12_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays as the region finds them (`V`); after the body at
    point `t` each input's buffer at its block and the output's at `out12_2` of the input blocks; the invariant
    the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks (`before12_W`), so `sound_kernel12` applies; the
    invariant and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Gen

end
-- ==== Proof.K.Fold.lean ====
import proofs.«417513_j58866821759238_4_alg».proof.Proof.K.R0
import proofs.«417513_j58866821759238_4_alg».proof.Proof.K.R1
import proofs.«417513_j58866821759238_4_alg».proof.Proof.K.R2
import proofs.«417513_j58866821759238_4_alg».proof.Proof.K.R3
import proofs.«417513_j58866821759238_4_alg».proof.Proof.K.R4
import proofs.«417513_j58866821759238_4_alg».proof.Proof.K.R5
import proofs.«417513_j58866821759238_4_alg».proof.Proof.K.R6
import proofs.«417513_j58866821759238_4_alg».proof.Proof.K.R7
import proofs.«417513_j58866821759238_4_alg».proof.Proof.K.R8
import proofs.«417513_j58866821759238_4_alg».proof.Proof.K.R9
import proofs.«417513_j58866821759238_4_alg».proof.Proof.K.R10
import proofs.«417513_j58866821759238_4_alg».proof.Proof.K.R11
import proofs.«417513_j58866821759238_4_alg».proof.Proof.K.R12
import Idealize.ShloMosaic.Lib.StableHlo.Run
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of @main: a fold from the launch memory -/

/-- Core `c`'s buffers at launch. -/
abbrev W0 : Dev nD → Valuation τ sig (Elt F) := fun c b => (s₀ m ρ).mem ((c : Dev nD), b)
/-- After item 0, the host operations `hostOps0`. -/
abbrev W1 : Dev nD → Valuation τ sig (Elt F) := fun c => StableHlo.after hostOps0 (W0 m ρ c)
/-- The contents region 0 (item 1) is entered from, read at the TensorCore's references. -/
abbrev V1 : (c : Dev nD) → (b : Ref sig .tc) → Buf (Elt F) ((c : Thread nD τ).loc b) := fun c b => W1 m ρ c b
/-- After item 1, region 0: its windows' arrays at what the pipeline leaves (an input as entered, the output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, the host operations `hostOps1`. -/
abbrev W3 : Dev nD → Valuation τ sig (Elt F) := fun c => StableHlo.after hostOps1 (W2 m ρ c)
/-- The contents region 1 (item 3) is entered from, read at the TensorCore's references. -/
abbrev V3 : (c : Dev nD) → (b : Ref sig .tc) → Buf (Elt F) ((c : Thread nD τ).loc b) := fun c b => W3 m ρ c b
/-- After item 3, region 1: its windows' arrays at what the pipeline leaves (an input as entered, the output's write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After item 4, the host operations `hostOps2`. -/
abbrev W5 : Dev nD → Valuation τ sig (Elt F) := fun c => StableHlo.after hostOps2 (W4 m ρ c)
/-- After item 5, the host operations `hostOps2_1`. -/
abbrev W6 : Dev nD → Valuation τ sig (Elt F) := fun c => StableHlo.after hostOps2_1 (W5 m ρ c)
/-- After item 6, the host operations `hostOps2_2`. -/
abbrev W7 : Dev nD → Valuation τ sig (Elt F) := fun c => StableHlo.after hostOps2_2 (W6 m ρ c)
/-- After item 7, the host operations `hostOps2_3`. -/
abbrev W8 : Dev nD → Valuation τ sig (Elt F) := fun c => StableHlo.after hostOps2_3 (W7 m ρ c)
/-- After item 8, the host operations `hostOps2_4`. -/
abbrev W9 : Dev nD → Valuation τ sig (Elt F) := fun c => StableHlo.after hostOps2_4 (W8 m ρ c)
/-- After item 9, the host operations `hostOps2_5`. -/
abbrev W10 : Dev nD → Valuation τ sig (Elt F) := fun c => StableHlo.after hostOps2_5 (W9 m ρ c)
/-- After item 10, the host operations `hostOps2_6`. -/
abbrev W11 : Dev nD → Valuation τ sig (Elt F) := fun c => StableHlo.after hostOps2_6 (W10 m ρ c)
/-- After item 11, the host operations `hostOps2_7`. -/
abbrev W12 : Dev nD → Valuation τ sig (Elt F) := fun c => StableHlo.after hostOps2_7 (W11 m ρ c)
/-- After item 12, the host operations `hostOps2_8`. -/
abbrev W13 : Dev nD → Valuation τ sig (Elt F) := fun c => StableHlo.after hostOps2_8 (W12 m ρ c)
/-- After item 13, the host operations `hostOps2_9`. -/
abbrev W14 : Dev nD → Valuation τ sig (Elt F) := fun c => StableHlo.after hostOps2_9 (W13 m ρ c)
/-- After item 14, the host operations `hostOps2_10`. -/
abbrev W15 : Dev nD → Valuation τ sig (Elt F) := fun c => StableHlo.after hostOps2_10 (W14 m ρ c)
/-- After item 15, the host operations `hostOps2_11`. -/
abbrev W16 : Dev nD → Valuation τ sig (Elt F) := fun c => StableHlo.after hostOps2_11 (W15 m ρ c)
/-- After item 16, the host operations `hostOps2_12`. -/
abbrev W17 : Dev nD → Valuation τ sig (Elt F) := fun c => StableHlo.after hostOps2_12 (W16 m ρ c)
/-- After item 17, the host operations `hostOps2_13`. -/
abbrev W18 : Dev nD → Valuation τ sig (Elt F) := fun c => StableHlo.after hostOps2_13 (W17 m ρ c)
/-- After item 18, the host operations `hostOps2_14`. -/
abbrev W19 : Dev nD → Valuation τ sig (Elt F) := fun c => StableHlo.after hostOps2_14 (W18 m ρ c)
/-- After item 19, the host operations `hostOps2_15`. -/
abbrev W20 : Dev nD → Valuation τ sig (Elt F) := fun c => StableHlo.after hostOps2_15 (W19 m ρ c)
/-- After item 20, the host operations `hostOps2_16`. -/
abbrev W21 : Dev nD → Valuation τ sig (Elt F) := fun c => StableHlo.after hostOps2_16 (W20 m ρ c)
/-- After item 21, the host operations `hostOps2_17`. -/
abbrev W22 : Dev nD → Valuation τ sig (Elt F) := fun c => StableHlo.after hostOps2_17 (W21 m ρ c)
/-- The contents region 2 (item 22) is entered from, read at the TensorCore's references. -/
abbrev V22 : (c : Dev nD) → (b : Ref sig .tc) → Buf (Elt F) ((c : Thread nD τ).loc b) := fun c b => W22 m ρ c b
/-- After item 22, region 2: its windows' arrays at what the pipeline leaves (an input as entered, the output's write-backs folded), every other buffer as entered. -/
def W23 (c : Dev nD) : Valuation τ sig (Elt F) :=
  Pipeline.withArrays spec2 c (W22 m ρ c) fun w => (dat2 (V22 m ρ) c).arrAt w cfg2.N
theorem W23_arr (c : Dev nD) (w : Fin cfg2.W) :
    W23 m ρ c (Proc.devRef .tc (Pipeline.arrRef spec2 w)) = (dat2 (V22 m ρ) c).arrAt w cfg2.N := by
  unfold W23; exact Pipeline.withArrays_arr spec2 launch2.win.arr_inj c _ _ w
theorem W23_of_ne (c : Dev nD) (b : Ref sig .tc) (hb : ∀ w, Pipeline.arrRef spec2 w ≠ b) :
    W23 m ρ c (Proc.devRef .tc b) = W22 m ρ c (Proc.devRef .tc b) := by
  unfold W23; exact Pipeline.withArrays_of_ne spec2 c _ _ b hb
abbrev V23 : (c : Dev nD) → (b : Ref sig .tc) → Buf (Elt F) ((c : Thread nD τ).loc b) := fun c b => W23 m ρ c b
theorem hF2 (c : Dev nD) (w : Fin cfg2.W) : (dat2 (V22 m ρ) c).arrAt w cfg2.N = V23 m ρ c (Pipeline.arrRef spec2 w) :=
  (W23_arr m ρ c w).symm
theorem hrest2 (c : Dev nD) : ∀ b, b ∉ Finset.univ.image (Pipeline.arrRef spec2) → V23 m ρ c b = V22 m ρ c b :=
  fun b hb => W23_of_ne m ρ c b fun w e => hb (Finset.mem_image.mpr ⟨w, Finset.mem_univ _, e⟩)
/-- After item 23, the host operations `hostOps3`. -/
abbrev W24 : Dev nD → Valuation τ sig (Elt F) := fun c => StableHlo.after hostOps3 (W23 m ρ c)
/-- After item 24, the host operations `hostOps3_1`. -/
abbrev W25 : Dev nD → Valuation τ sig (Elt F) := fun c => StableHlo.after hostOps3_1 (W24 m ρ c)
/-- After item 25, the host operations `hostOps3_2`. -/
abbrev W26 : Dev nD → Valuation τ sig (Elt F) := fun c => StableHlo.after hostOps3_2 (W25 m ρ c)
/-- After item 26, the host operations `hostOps3_3`. -/
abbrev W27 : Dev nD → Valuation τ sig (Elt F) := fun c => StableHlo.after hostOps3_3 (W26 m ρ c)
/-- After item 27, the host operations `hostOps3_4`. -/
abbrev W28 : Dev nD → Valuation τ sig (Elt F) := fun c => StableHlo.after hostOps3_4 (W27 m ρ c)
/-- After item 28, the host operations `hostOps3_5`. -/
abbrev W29 : Dev nD → Valuation τ sig (Elt F) := fun c => StableHlo.after hostOps3_5 (W28 m ρ c)
/-- The contents region 3 (item 29) is entered from, read at the TensorCore's references. -/
abbrev V29 : (c : Dev nD) → (b : Ref sig .tc) → Buf (Elt F) ((c : Thread nD τ).loc b) := fun c b => W29 m ρ c b
/-- After item 29, region 3: its windows' arrays at what the pipeline leaves (an input as entered, the output's write-backs folded), every other buffer as entered. -/
def W30 (c : Dev nD) : Valuation τ sig (Elt F) :=
  Pipeline.withArrays spec3 c (W29 m ρ c) fun w => (dat3 (V29 m ρ) c).arrAt w cfg3.N
theorem W30_arr (c : Dev nD) (w : Fin cfg3.W) :
    W30 m ρ c (Proc.devRef .tc (Pipeline.arrRef spec3 w)) = (dat3 (V29 m ρ) c).arrAt w cfg3.N := by
  unfold W30; exact Pipeline.withArrays_arr spec3 launch3.win.arr_inj c _ _ w
theorem W30_of_ne (c : Dev nD) (b : Ref sig .tc) (hb : ∀ w, Pipeline.arrRef spec3 w ≠ b) :
    W30 m ρ c (Proc.devRef .tc b) = W29 m ρ c (Proc.devRef .tc b) := by
  unfold W30; exact Pipeline.withArrays_of_ne spec3 c _ _ b hb
abbrev V30 : (c : Dev nD) → (b : Ref sig .tc) → Buf (Elt F) ((c : Thread nD τ).loc b) := fun c b => W30 m ρ c b
theorem hF3 (c : Dev nD) (w : Fin cfg3.W) : (dat3 (V29 m ρ) c).arrAt w cfg3.N = V30 m ρ c (Pipeline.arrRef spec3 w) :=
  (W30_arr m ρ c w).symm
theorem hrest3 (c : Dev nD) : ∀ b, b ∉ Finset.univ.image (Pipeline.arrRef spec3) → V30 m ρ c b = V29 m ρ c b :=
  fun b hb => W30_of_ne m ρ c b fun w e => hb (Finset.mem_image.mpr ⟨w, Finset.mem_univ _, e⟩)
/-- After item 30, the host operations `hostOps4`. -/
abbrev W31 : Dev nD → Valuation τ sig (Elt F) := fun c => StableHlo.after hostOps4 (W30 m ρ c)
/-- The contents region 4 (item 31) is entered from, read at the TensorCore's references. -/
abbrev V31 : (c : Dev nD) → (b : Ref sig .tc) → Buf (Elt F) ((c : Thread nD τ).loc b) := fun c b => W31 m ρ c b
/-- After item 31, region 4: its windows' arrays at what the pipeline leaves (an input as entered, the output's write-backs folded), every other buffer as entered. -/
def W32 (c : Dev nD) : Valuation τ sig (Elt F) :=
  Pipeline.withArrays spec4 c (W31 m ρ c) fun w => (dat4 (V31 m ρ) c).arrAt w cfg4.N
theorem W32_arr (c : Dev nD) (w : Fin cfg4.W) :
    W32 m ρ c (Proc.devRef .tc (Pipeline.arrRef spec4 w)) = (dat4 (V31 m ρ) c).arrAt w cfg4.N := by
  unfold W32; exact Pipeline.withArrays_arr spec4 launch4.win.arr_inj c _ _ w
theorem W32_of_ne (c : Dev nD) (b : Ref sig .tc) (hb : ∀ w, Pipeline.arrRef spec4 w ≠ b) :
    W32 m ρ c (Proc.devRef .tc b) = W31 m ρ c (Proc.devRef .tc b) := by
  unfold W32; exact Pipeline.withArrays_of_ne spec4 c _ _ b hb
abbrev V32 : (c : Dev nD) → (b : Ref sig .tc) → Buf (Elt F) ((c : Thread nD τ).loc b) := fun c b => W32 m ρ c b
theorem hF4 (c : Dev nD) (w : Fin cfg4.W) : (dat4 (V31 m ρ) c).arrAt w cfg4.N = V32 m ρ c (Pipeline.arrRef spec4 w) :=
  (W32_arr m ρ c w).symm
theorem hrest4 (c : Dev nD) : ∀ b, b ∉ Finset.univ.image (Pipeline.arrRef spec4) → V32 m ρ c b = V31 m ρ c b :=
  fun b hb => W32_of_ne m ρ c b fun w e => hb (Finset.mem_image.mpr ⟨w, Finset.mem_univ _, e⟩)
/-- After item 32, the host operations `hostOps5`. -/
abbrev W33 : Dev nD → Valuation τ sig (Elt F) := fun c => StableHlo.after hostOps5 (W32 m ρ c)
/-- After item 33, the host operations `hostOps5_1`. -/
abbrev W34 : Dev nD → Valuation τ sig (Elt F) := fun c => StableHlo.after hostOps5_1 (W33 m ρ c)
/-- After item 34, the host operations `hostOps5_2`. -/
abbrev W35 : Dev nD → Valuation τ sig (Elt F) := fun c => StableHlo.after hostOps5_2 (W34 m ρ c)
/-- After item 35, the host operations `hostOps5_3`. -/
abbrev W36 : Dev nD → Valuation τ sig (Elt F) := fun c => StableHlo.after hostOps5_3 (W35 m ρ c)
/-- After item 36, the host operations `hostOps5_4`. -/
abbrev W37 : Dev nD → Valuation τ sig (Elt F) := fun c => StableHlo.after hostOps5_4 (W36 m ρ c)
/-- After item 37, the host operations `hostOps5_5`. -/
abbrev W38 : Dev nD → Valuation τ sig (Elt F) := fun c => StableHlo.after hostOps5_5 (W37 m ρ c)
/-- The contents region 5 (item 38) is entered from, read at the TensorCore's references. -/
abbrev V38 : (c : Dev nD) → (b : Ref sig .tc) → Buf (Elt F) ((c : Thread nD τ).loc b) := fun c b => W38 m ρ c b
/-- After item 38, region 5: its windows' arrays at what the pipeline leaves (an input as entered, the output's write-backs folded), every other buffer as entered. -/
def W39 (c : Dev nD) : Valuation τ sig (Elt F) :=
  Pipeline.withArrays spec5 c (W38 m ρ c) fun w => (dat5 (V38 m ρ) c).arrAt w cfg5.N
theorem W39_arr (c : Dev nD) (w : Fin cfg5.W) :
    W39 m ρ c (Proc.devRef .tc (Pipeline.arrRef spec5 w)) = (dat5 (V38 m ρ) c).arrAt w cfg5.N := by
  unfold W39; exact Pipeline.withArrays_arr spec5 launch5.win.arr_inj c _ _ w
theorem W39_of_ne (c : Dev nD) (b : Ref sig .tc) (hb : ∀ w, Pipeline.arrRef spec5 w ≠ b) :
    W39 m ρ c (Proc.devRef .tc b) = W38 m ρ c (Proc.devRef .tc b) := by
  unfold W39; exact Pipeline.withArrays_of_ne spec5 c _ _ b hb
abbrev V39 : (c : Dev nD) → (b : Ref sig .tc) → Buf (Elt F) ((c : Thread nD τ).loc b) := fun c b => W39 m ρ c b
theorem hF5 (c : Dev nD) (w : Fin cfg5.W) : (dat5 (V38 m ρ) c).arrAt w cfg5.N = V39 m ρ c (Pipeline.arrRef spec5 w) :=
  (W39_arr m ρ c w).symm
theorem hrest5 (c : Dev nD) : ∀ b, b ∉ Finset.univ.image (Pipeline.arrRef spec5) → V39 m ρ c b = V38 m ρ c b :=
  fun b hb => W39_of_ne m ρ c b fun w e => hb (Finset.mem_image.mpr ⟨w, Finset.mem_univ _, e⟩)
/-- After item 39, the host operations `hostOps6`. -/
abbrev W40 : Dev nD → Valuation τ sig (Elt F) := fun c => StableHlo.after hostOps6 (W39 m ρ c)
/-- The contents region 6 (item 40) is entered from, read at the TensorCore's references. -/
abbrev V40 : (c : Dev nD) → (b : Ref sig .tc) → Buf (Elt F) ((c : Thread nD τ).loc b) := fun c b => W40 m ρ c b
/-- After item 40, region 6: its windows' arrays at what the pipeline leaves (an input as entered, the output's write-backs folded), every other buffer as entered. -/
def W41 (c : Dev nD) : Valuation τ sig (Elt F) :=
  Pipeline.withArrays spec6 c (W40 m ρ c) fun w => (dat6 (V40 m ρ) c).arrAt w cfg6.N
theorem W41_arr (c : Dev nD) (w : Fin cfg6.W) :
    W41 m ρ c (Proc.devRef .tc (Pipeline.arrRef spec6 w)) = (dat6 (V40 m ρ) c).arrAt w cfg6.N := by
  unfold W41; exact Pipeline.withArrays_arr spec6 launch6.win.arr_inj c _ _ w
theorem W41_of_ne (c : Dev nD) (b : Ref sig .tc) (hb : ∀ w, Pipeline.arrRef spec6 w ≠ b) :
    W41 m ρ c (Proc.devRef .tc b) = W40 m ρ c (Proc.devRef .tc b) := by
  unfold W41; exact Pipeline.withArrays_of_ne spec6 c _ _ b hb
abbrev V41 : (c : Dev nD) → (b : Ref sig .tc) → Buf (Elt F) ((c : Thread nD τ).loc b) := fun c b => W41 m ρ c b
theorem hF6 (c : Dev nD) (w : Fin cfg6.W) : (dat6 (V40 m ρ) c).arrAt w cfg6.N = V41 m ρ c (Pipeline.arrRef spec6 w) :=
  (W41_arr m ρ c w).symm
theorem hrest6 (c : Dev nD) : ∀ b, b ∉ Finset.univ.image (Pipeline.arrRef spec6) → V41 m ρ c b = V40 m ρ c b :=
  fun b hb => W41_of_ne m ρ c b fun w e => hb (Finset.mem_image.mpr ⟨w, Finset.mem_univ _, e⟩)
/-- After item 41, the host operations `hostOps7`. -/
abbrev W42 : Dev nD → Valuation τ sig (Elt F) := fun c => StableHlo.after hostOps7 (W41 m ρ c)
/-- After item 42, the host operations `hostOps7_1`. -/
abbrev W43 : Dev nD → Valuation τ sig (Elt F) := fun c => StableHlo.after hostOps7_1 (W42 m ρ c)
/-- After item 43, the host operations `hostOps7_2`. -/
abbrev W44 : Dev nD → Valuation τ sig (Elt F) := fun c => StableHlo.after hostOps7_2 (W43 m ρ c)
/-- After item 44, the host operations `hostOps7_3`. -/
abbrev W45 : Dev nD → Valuation τ sig (Elt F) := fun c => StableHlo.after hostOps7_3 (W44 m ρ c)
/-- After item 45, the host operations `hostOps7_4`. -/
abbrev W46 : Dev nD → Valuation τ sig (Elt F) := fun c => StableHlo.after hostOps7_4 (W45 m ρ c)
/-- After item 46, the host operations `hostOps7_5`. -/
abbrev W47 : Dev nD → Valuation τ sig (Elt F) := fun c => StableHlo.after hostOps7_5 (W46 m ρ c)
/-- After item 47, the host operations `hostOps7_6`. -/
abbrev W48 : Dev nD → Valuation τ sig (Elt F) := fun c => StableHlo.after hostOps7_6 (W47 m ρ c)
/-- After item 48, the host operations `hostOps7_7`. -/
abbrev W49 : Dev nD → Valuation τ sig (Elt F) := fun c => StableHlo.after hostOps7_7 (W48 m ρ c)
/-- After item 49, the host operations `hostOps7_8`. -/
abbrev W50 : Dev nD → Valuation τ sig (Elt F) := fun c => StableHlo.after hostOps7_8 (W49 m ρ c)
/-- After item 50, the host operations `hostOps7_9`. -/
abbrev W51 : Dev nD → Valuation τ sig (Elt F) := fun c => StableHlo.after hostOps7_9 (W50 m ρ c)
/-- After item 51, the host operations `hostOps7_10`. -/
abbrev W52 : Dev nD → Valuation τ sig (Elt F) := fun c => StableHlo.after hostOps7_10 (W51 m ρ c)
/-- After item 52, the host operations `hostOps7_11`. -/
abbrev W53 : Dev nD → Valuation τ sig (Elt F) := fun c => StableHlo.after hostOps7_11 (W52 m ρ c)
/-- After item 53, the host operations `hostOps7_12`. -/
abbrev W54 : Dev nD → Valuation τ sig (Elt F) := fun c => StableHlo.after hostOps7_12 (W53 m ρ c)
/-- After item 54, the host operations `hostOps7_13`. -/
abbrev W55 : Dev nD → Valuation τ sig (Elt F) := fun c => StableHlo.after hostOps7_13 (W54 m ρ c)
/-- After item 55, the host operations `hostOps7_14`. -/
abbrev W56 : Dev nD → Valuation τ sig (Elt F) := fun c => StableHlo.after hostOps7_14 (W55 m ρ c)
/-- After item 56, the host operations `hostOps7_15`. -/
abbrev W57 : Dev nD → Valuation τ sig (Elt F) := fun c => StableHlo.after hostOps7_15 (W56 m ρ c)
/-- After item 57, the host operations `hostOps7_16`. -/
abbrev W58 : Dev nD → Valuation τ sig (Elt F) := fun c => StableHlo.after hostOps7_16 (W57 m ρ c)
/-- After item 58, the host operations `hostOps7_17`. -/
abbrev W59 : Dev nD → Valuation τ sig (Elt F) := fun c => StableHlo.after hostOps7_17 (W58 m ρ c)
/-- The contents region 7 (item 59) is entered from, read at the TensorCore's references. -/
abbrev V59 : (c : Dev nD) → (b : Ref sig .tc) → Buf (Elt F) ((c : Thread nD τ).loc b) := fun c b => W59 m ρ c b
/-- After item 59, region 7: its windows' arrays at what the pipeline leaves (an input as entered, the output's write-backs folded), every other buffer as entered. -/
def W60 (c : Dev nD) : Valuation τ sig (Elt F) :=
  Pipeline.withArrays spec7 c (W59 m ρ c) fun w => (dat7 (V59 m ρ) c).arrAt w cfg7.N
theorem W60_arr (c : Dev nD) (w : Fin cfg7.W) :
    W60 m ρ c (Proc.devRef .tc (Pipeline.arrRef spec7 w)) = (dat7 (V59 m ρ) c).arrAt w cfg7.N := by
  unfold W60; exact Pipeline.withArrays_arr spec7 launch7.win.arr_inj c _ _ w
theorem W60_of_ne (c : Dev nD) (b : Ref sig .tc) (hb : ∀ w, Pipeline.arrRef spec7 w ≠ b) :
    W60 m ρ c (Proc.devRef .tc b) = W59 m ρ c (Proc.devRef .tc b) := by
  unfold W60; exact Pipeline.withArrays_of_ne spec7 c _ _ b hb
abbrev V60 : (c : Dev nD) → (b : Ref sig .tc) → Buf (Elt F) ((c : Thread nD τ).loc b) := fun c b => W60 m ρ c b
theorem hF7 (c : Dev nD) (w : Fin cfg7.W) : (dat7 (V59 m ρ) c).arrAt w cfg7.N = V60 m ρ c (Pipeline.arrRef spec7 w) :=
  (W60_arr m ρ c w).symm
theorem hrest7 (c : Dev nD) : ∀ b, b ∉ Finset.univ.image (Pipeline.arrRef spec7) → V60 m ρ c b = V59 m ρ c b :=
  fun b hb => W60_of_ne m ρ c b fun w e => hb (Finset.mem_image.mpr ⟨w, Finset.mem_univ _, e⟩)
/-- After item 60, the host operations `hostOps8`. -/
abbrev W61 : Dev nD → Valuation τ sig (Elt F) := fun c => StableHlo.after hostOps8 (W60 m ρ c)
/-- After item 61, the host operations `hostOps8_1`. -/
abbrev W62 : Dev nD → Valuation τ sig (Elt F) := fun c => StableHlo.after hostOps8_1 (W61 m ρ c)
/-- After item 62, the host operations `hostOps8_2`. -/
abbrev W63 : Dev nD → Valuation τ sig (Elt F) := fun c => StableHlo.after hostOps8_2 (W62 m ρ c)
/-- After item 63, the host operations `hostOps8_3`. -/
abbrev W64 : Dev nD → Valuation τ sig (Elt F) := fun c => StableHlo.after hostOps8_3 (W63 m ρ c)
/-- After item 64, the host operations `hostOps8_4`. -/
abbrev W65 : Dev nD → Valuation τ sig (Elt F) := fun c => StableHlo.after hostOps8_4 (W64 m ρ c)
/-- After item 65, the host operations `hostOps8_5`. -/
abbrev W66 : Dev nD → Valuation τ sig (Elt F) := fun c => StableHlo.after hostOps8_5 (W65 m ρ c)
/-- The contents region 8 (item 66) is entered from, read at the TensorCore's references. -/
abbrev V66 : (c : Dev nD) → (b : Ref sig .tc) → Buf (Elt F) ((c : Thread nD τ).loc b) := fun c b => W66 m ρ c b
/-- After item 66, region 8: its windows' arrays at what the pipeline leaves (an input as entered, the output's write-backs folded), every other buffer as entered. -/
def W67 (c : Dev nD) : Valuation τ sig (Elt F) :=
  Pipeline.withArrays spec8 c (W66 m ρ c) fun w => (dat8 (V66 m ρ) c).arrAt w cfg8.N
theorem W67_arr (c : Dev nD) (w : Fin cfg8.W) :
    W67 m ρ c (Proc.devRef .tc (Pipeline.arrRef spec8 w)) = (dat8 (V66 m ρ) c).arrAt w cfg8.N := by
  unfold W67; exact Pipeline.withArrays_arr spec8 launch8.win.arr_inj c _ _ w
theorem W67_of_ne (c : Dev nD) (b : Ref sig .tc) (hb : ∀ w, Pipeline.arrRef spec8 w ≠ b) :
    W67 m ρ c (Proc.devRef .tc b) = W66 m ρ c (Proc.devRef .tc b) := by
  unfold W67; exact Pipeline.withArrays_of_ne spec8 c _ _ b hb
abbrev V67 : (c : Dev nD) → (b : Ref sig .tc) → Buf (Elt F) ((c : Thread nD τ).loc b) := fun c b => W67 m ρ c b
theorem hF8 (c : Dev nD) (w : Fin cfg8.W) : (dat8 (V66 m ρ) c).arrAt w cfg8.N = V67 m ρ c (Pipeline.arrRef spec8 w) :=
  (W67_arr m ρ c w).symm
theorem hrest8 (c : Dev nD) : ∀ b, b ∉ Finset.univ.image (Pipeline.arrRef spec8) → V67 m ρ c b = V66 m ρ c b :=
  fun b hb => W67_of_ne m ρ c b fun w e => hb (Finset.mem_image.mpr ⟨w, Finset.mem_univ _, e⟩)
/-- After item 67, the host operations `hostOps9`. -/
abbrev W68 : Dev nD → Valuation τ sig (Elt F) := fun c => StableHlo.after hostOps9 (W67 m ρ c)
/-- The contents region 9 (item 68) is entered from, read at the TensorCore's references. -/
abbrev V68 : (c : Dev nD) → (b : Ref sig .tc) → Buf (Elt F) ((c : Thread nD τ).loc b) := fun c b => W68 m ρ c b
/-- After item 68, region 9: its windows' arrays at what the pipeline leaves (an input as entered, the output's write-backs folded), every other buffer as entered. -/
def W69 (c : Dev nD) : Valuation τ sig (Elt F) :=
  Pipeline.withArrays spec9 c (W68 m ρ c) fun w => (dat9 (V68 m ρ) c).arrAt w cfg9.N
theorem W69_arr (c : Dev nD) (w : Fin cfg9.W) :
    W69 m ρ c (Proc.devRef .tc (Pipeline.arrRef spec9 w)) = (dat9 (V68 m ρ) c).arrAt w cfg9.N := by
  unfold W69; exact Pipeline.withArrays_arr spec9 launch9.win.arr_inj c _ _ w
theorem W69_of_ne (c : Dev nD) (b : Ref sig .tc) (hb : ∀ w, Pipeline.arrRef spec9 w ≠ b) :
    W69 m ρ c (Proc.devRef .tc b) = W68 m ρ c (Proc.devRef .tc b) := by
  unfold W69; exact Pipeline.withArrays_of_ne spec9 c _ _ b hb
abbrev V69 : (c : Dev nD) → (b : Ref sig .tc) → Buf (Elt F) ((c : Thread nD τ).loc b) := fun c b => W69 m ρ c b
theorem hF9 (c : Dev nD) (w : Fin cfg9.W) : (dat9 (V68 m ρ) c).arrAt w cfg9.N = V69 m ρ c (Pipeline.arrRef spec9 w) :=
  (W69_arr m ρ c w).symm
theorem hrest9 (c : Dev nD) : ∀ b, b ∉ Finset.univ.image (Pipeline.arrRef spec9) → V69 m ρ c b = V68 m ρ c b :=
  fun b hb => W69_of_ne m ρ c b fun w e => hb (Finset.mem_image.mpr ⟨w, Finset.mem_univ _, e⟩)
/-- After item 69, the host operations `hostOps10`. -/
abbrev W70 : Dev nD → Valuation τ sig (Elt F) := fun c => StableHlo.after hostOps10 (W69 m ρ c)
/-- After item 70, the host operations `hostOps10_1`. -/
abbrev W71 : Dev nD → Valuation τ sig (Elt F) := fun c => StableHlo.after hostOps10_1 (W70 m ρ c)
/-- After item 71, the host operations `hostOps10_2`. -/
abbrev W72 : Dev nD → Valuation τ sig (Elt F) := fun c => StableHlo.after hostOps10_2 (W71 m ρ c)
/-- After item 72, the host operations `hostOps10_3`. -/
abbrev W73 : Dev nD → Valuation τ sig (Elt F) := fun c => StableHlo.after hostOps10_3 (W72 m ρ c)
/-- After item 73, the host operations `hostOps10_4`. -/
abbrev W74 : Dev nD → Valuation τ sig (Elt F) := fun c => StableHlo.after hostOps10_4 (W73 m ρ c)
/-- After item 74, the host operations `hostOps10_5`. -/
abbrev W75 : Dev nD → Valuation τ sig (Elt F) := fun c => StableHlo.after hostOps10_5 (W74 m ρ c)
/-- The contents region 10 (item 75) is entered from, read at the TensorCore's references. -/
abbrev V75 : (c : Dev nD) → (b : Ref sig .tc) → Buf (Elt F) ((c : Thread nD τ).loc b) := fun c b => W75 m ρ c b
/-- After item 75, region 10: its windows' arrays at what the pipeline leaves (an input as entered, the output's write-backs folded), every other buffer as entered. -/
def W76 (c : Dev nD) : Valuation τ sig (Elt F) :=
  Pipeline.withArrays spec10 c (W75 m ρ c) fun w => (dat10 (V75 m ρ) c).arrAt w cfg10.N
theorem W76_arr (c : Dev nD) (w : Fin cfg10.W) :
    W76 m ρ c (Proc.devRef .tc (Pipeline.arrRef spec10 w)) = (dat10 (V75 m ρ) c).arrAt w cfg10.N := by
  unfold W76; exact Pipeline.withArrays_arr spec10 launch10.win.arr_inj c _ _ w
theorem W76_of_ne (c : Dev nD) (b : Ref sig .tc) (hb : ∀ w, Pipeline.arrRef spec10 w ≠ b) :
    W76 m ρ c (Proc.devRef .tc b) = W75 m ρ c (Proc.devRef .tc b) := by
  unfold W76; exact Pipeline.withArrays_of_ne spec10 c _ _ b hb
abbrev V76 : (c : Dev nD) → (b : Ref sig .tc) → Buf (Elt F) ((c : Thread nD τ).loc b) := fun c b => W76 m ρ c b
theorem hF10 (c : Dev nD) (w : Fin cfg10.W) : (dat10 (V75 m ρ) c).arrAt w cfg10.N = V76 m ρ c (Pipeline.arrRef spec10 w) :=
  (W76_arr m ρ c w).symm
theorem hrest10 (c : Dev nD) : ∀ b, b ∉ Finset.univ.image (Pipeline.arrRef spec10) → V76 m ρ c b = V75 m ρ c b :=
  fun b hb => W76_of_ne m ρ c b fun w e => hb (Finset.mem_image.mpr ⟨w, Finset.mem_univ _, e⟩)
/-- After item 76, the host operations `hostOps11`. -/
abbrev W77 : Dev nD → Valuation τ sig (Elt F) := fun c => StableHlo.after hostOps11 (W76 m ρ c)
/-- The contents region 11 (item 77) is entered from, read at the TensorCore's references. -/
abbrev V77 : (c : Dev nD) → (b : Ref sig .tc) → Buf (Elt F) ((c : Thread nD τ).loc b) := fun c b => W77 m ρ c b
/-- After item 77, region 11: its windows' arrays at what the pipeline leaves (an input as entered, the output's write-backs folded), every other buffer as entered. -/
def W78 (c : Dev nD) : Valuation τ sig (Elt F) :=
  Pipeline.withArrays spec11 c (W77 m ρ c) fun w => (dat11 (V77 m ρ) c).arrAt w cfg11.N
theorem W78_arr (c : Dev nD) (w : Fin cfg11.W) :
    W78 m ρ c (Proc.devRef .tc (Pipeline.arrRef spec11 w)) = (dat11 (V77 m ρ) c).arrAt w cfg11.N := by
  unfold W78; exact Pipeline.withArrays_arr spec11 launch11.win.arr_inj c _ _ w
theorem W78_of_ne (c : Dev nD) (b : Ref sig .tc) (hb : ∀ w, Pipeline.arrRef spec11 w ≠ b) :
    W78 m ρ c (Proc.devRef .tc b) = W77 m ρ c (Proc.devRef .tc b) := by
  unfold W78; exact Pipeline.withArrays_of_ne spec11 c _ _ b hb
abbrev V78 : (c : Dev nD) → (b : Ref sig .tc) → Buf (Elt F) ((c : Thread nD τ).loc b) := fun c b => W78 m ρ c b
theorem hF11 (c : Dev nD) (w : Fin cfg11.W) : (dat11 (V77 m ρ) c).arrAt w cfg11.N = V78 m ρ c (Pipeline.arrRef spec11 w) :=
  (W78_arr m ρ c w).symm
theorem hrest11 (c : Dev nD) : ∀ b, b ∉ Finset.univ.image (Pipeline.arrRef spec11) → V78 m ρ c b = V77 m ρ c b :=
  fun b hb => W78_of_ne m ρ c b fun w e => hb (Finset.mem_image.mpr ⟨w, Finset.mem_univ _, e⟩)
/-- After item 78, the host operations `hostOps12`. -/
abbrev W79 : Dev nD → Valuation τ sig (Elt F) := fun c => StableHlo.after hostOps12 (W78 m ρ c)
/-- After item 79, the host operations `hostOps12_1`. -/
abbrev W80 : Dev nD → Valuation τ sig (Elt F) := fun c => StableHlo.after hostOps12_1 (W79 m ρ c)
/-- After item 80, the host operations `hostOps12_2`. -/
abbrev W81 : Dev nD → Valuation τ sig (Elt F) := fun c => StableHlo.after hostOps12_2 (W80 m ρ c)
/-- After item 81, the host operations `hostOps12_3`. -/
abbrev W82 : Dev nD → Valuation τ sig (Elt F) := fun c => StableHlo.after hostOps12_3 (W81 m ρ c)
/-- The contents region 12 (item 82) is entered from, read at the TensorCore's references. -/
abbrev V82 : (c : Dev nD) → (b : Ref sig .tc) → Buf (Elt F) ((c : Thread nD τ).loc b) := fun c b => W82 m ρ c b
/-- After item 82, region 12: its windows' arrays at what the pipeline leaves (an input as entered, the output's write-backs folded), every other buffer as entered. -/
def W83 (c : Dev nD) : Valuation τ sig (Elt F) :=
  Pipeline.withArrays spec12 c (W82 m ρ c) fun w => (dat12 (V82 m ρ) c).arrAt w cfg12.N
theorem W83_arr (c : Dev nD) (w : Fin cfg12.W) :
    W83 m ρ c (Proc.devRef .tc (Pipeline.arrRef spec12 w)) = (dat12 (V82 m ρ) c).arrAt w cfg12.N := by
  unfold W83; exact Pipeline.withArrays_arr spec12 launch12.win.arr_inj c _ _ w
theorem W83_of_ne (c : Dev nD) (b : Ref sig .tc) (hb : ∀ w, Pipeline.arrRef spec12 w ≠ b) :
    W83 m ρ c (Proc.devRef .tc b) = W82 m ρ c (Proc.devRef .tc b) := by
  unfold W83; exact Pipeline.withArrays_of_ne spec12 c _ _ b hb
abbrev V83 : (c : Dev nD) → (b : Ref sig .tc) → Buf (Elt F) ((c : Thread nD τ).loc b) := fun c b => W83 m ρ c b
theorem hF12 (c : Dev nD) (w : Fin cfg12.W) : (dat12 (V82 m ρ) c).arrAt w cfg12.N = V83 m ρ c (Pipeline.arrRef spec12 w) :=
  (W83_arr m ρ c w).symm
theorem hrest12 (c : Dev nD) : ∀ b, b ∉ Finset.univ.image (Pipeline.arrRef spec12) → V83 m ρ c b = V82 m ρ c b :=
  fun b hb => W83_of_ne m ρ c b fun w e => hb (Finset.mem_image.mpr ⟨w, Finset.mem_univ _, e⟩)
/-- After item 83, the host operations `hostOps13`. -/
abbrev W84 : Dev nD → Valuation τ sig (Elt F) := fun c => StableHlo.after hostOps13 (W83 m ρ c)

/-! ## What the host operations write, and that none allocates -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_cst, main_v38, main_cst_0, main_v39, main_v40, main_v41, main_cst_1, main_v42, main_cst_2, main_v43, main_v44, main_v45, main_cst_3, main_v46, main_cst_4, main_v47, main_v48, main_v49, main_cst_5, main_v50, main_cst_6, main_v51, main_v52, main_v53, main_cst_7, main_v54, main_cst_8, main_v55, main_v56, main_v57, main_cst_9, main_v58, main_cst_10, main_v59, main_v60, main_v61, main_cst_11, main_v62, main_cst_12, main_v63, main_v64, main_v65, main_cst_13, main_v66, main_cst_14, main_v67, main_v68, main_v69, main_c, main_v70, main_v71, main_c_15, main_v72, main_v73, main_v74, main_v75, main_v76, main_cst_16, main_v77, main_v78, main_v79, main_v80, main_v81, main_v82, main_v83, main_v84, main_v85, main_v86, main_v87, main_c_17, main_v88, main_v89, main_c_18, main_v90, main_v91, main_v92, main_v93, main_v94, main_cst_19, main_v95, main_v96, main_v97, main_v98, main_v99, main_v100, main_v101, main_v102, main_v103, main_v104, main_v105, main_c_20, main_v106, main_v107, main_c_21, main_v108, main_v109, main_v110, main_v111, main_v112, main_cst_22, main_v113, main_v114, main_v115, main_v116, main_v117, main_v118, main_v119, main_v120, main_v121, main_v122, main_v123, main_c_23, main_v124, main_v125, main_c_24, main_v126, main_v127, main_v128, main_v129, main_v130, main_cst_25, main_v131, main_v132, main_v133, main_v134, main_v135, main_v136, main_v137, main_v138, main_v139, main_v140, main_v141, main_v142, main_v143, main_v144, main_v145, main_v146, main_cst_26, main_v147, main_v148, main_v149, main_v150, main_v151, main_v152, main_v153, main_cst_27, main_v154, main_cst_28]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_1_fresh : (hostOps2_1 : List (HloOp τ sig (Elt F))).Forall fun op => op.fresh = ∅ := by
  simp only [List.Forall]; repeat' constructor
/-- The references `hostOps2_1`'s operations write. -/
abbrev hostOps2_1_W : List (Ref sig .tc) := [main_call0_v0, main_v155]
theorem hostOps2_1_writes : (hostOps2_1 : List (HloOp τ sig (Elt F))).Forall fun op => op.writes ⊆ (hostOps2_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_2_fresh : (hostOps2_2 : List (HloOp τ sig (Elt F))).Forall fun op => op.fresh = ∅ := by
  simp only [List.Forall]; repeat' constructor
/-- The references `hostOps2_2`'s operations write. -/
abbrev hostOps2_2_W : List (Ref sig .tc) := [main_cst_29]
theorem hostOps2_2_writes : (hostOps2_2 : List (HloOp τ sig (Elt F))).Forall fun op => op.writes ⊆ (hostOps2_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_3_fresh : (hostOps2_3 : List (HloOp τ sig (Elt F))).Forall fun op => op.fresh = ∅ := by
  simp only [List.Forall]; repeat' constructor
/-- The references `hostOps2_3`'s operations write. -/
abbrev hostOps2_3_W : List (Ref sig .tc) := [main_call1_v0, main_v156]
theorem hostOps2_3_writes : (hostOps2_3 : List (HloOp τ sig (Elt F))).Forall fun op => op.writes ⊆ (hostOps2_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_4_fresh : (hostOps2_4 : List (HloOp τ sig (Elt F))).Forall fun op => op.fresh = ∅ := by
  simp only [List.Forall]; repeat' constructor
/-- The references `hostOps2_4`'s operations write. -/
abbrev hostOps2_4_W : List (Ref sig .tc) := [main_cst_30]
theorem hostOps2_4_writes : (hostOps2_4 : List (HloOp τ sig (Elt F))).Forall fun op => op.writes ⊆ (hostOps2_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_5_fresh : (hostOps2_5 : List (HloOp τ sig (Elt F))).Forall fun op => op.fresh = ∅ := by
  simp only [List.Forall]; repeat' constructor
/-- The references `hostOps2_5`'s operations write. -/
abbrev hostOps2_5_W : List (Ref sig .tc) := [main_call2_v0, main_v157]
theorem hostOps2_5_writes : (hostOps2_5 : List (HloOp τ sig (Elt F))).Forall fun op => op.writes ⊆ (hostOps2_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_6_fresh : (hostOps2_6 : List (HloOp τ sig (Elt F))).Forall fun op => op.fresh = ∅ := by
  simp only [List.Forall]; repeat' constructor
/-- The references `hostOps2_6`'s operations write. -/
abbrev hostOps2_6_W : List (Ref sig .tc) := [main_cst_31]
theorem hostOps2_6_writes : (hostOps2_6 : List (HloOp τ sig (Elt F))).Forall fun op => op.writes ⊆ (hostOps2_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_7_fresh : (hostOps2_7 : List (HloOp τ sig (Elt F))).Forall fun op => op.fresh = ∅ := by
  simp only [List.Forall]; repeat' constructor
/-- The references `hostOps2_7`'s operations write. -/
abbrev hostOps2_7_W : List (Ref sig .tc) := [main_call3_v0, main_v158]
theorem hostOps2_7_writes : (hostOps2_7 : List (HloOp τ sig (Elt F))).Forall fun op => op.writes ⊆ (hostOps2_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_8_fresh : (hostOps2_8 : List (HloOp τ sig (Elt F))).Forall fun op => op.fresh = ∅ := by
  simp only [List.Forall]; repeat' constructor
/-- The references `hostOps2_8`'s operations write. -/
abbrev hostOps2_8_W : List (Ref sig .tc) := [main_cst_32]
theorem hostOps2_8_writes : (hostOps2_8 : List (HloOp τ sig (Elt F))).Forall fun op => op.writes ⊆ (hostOps2_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_9_fresh : (hostOps2_9 : List (HloOp τ sig (Elt F))).Forall fun op => op.fresh = ∅ := by
  simp only [List.Forall]; repeat' constructor
/-- The references `hostOps2_9`'s operations write. -/
abbrev hostOps2_9_W : List (Ref sig .tc) := [main_call4_v0, main_v159]
theorem hostOps2_9_writes : (hostOps2_9 : List (HloOp τ sig (Elt F))).Forall fun op => op.writes ⊆ (hostOps2_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_10_fresh : (hostOps2_10 : List (HloOp τ sig (Elt F))).Forall fun op => op.fresh = ∅ := by
  simp only [List.Forall]; repeat' constructor
/-- The references `hostOps2_10`'s operations write. -/
abbrev hostOps2_10_W : List (Ref sig .tc) := [main_cst_33]
theorem hostOps2_10_writes : (hostOps2_10 : List (HloOp τ sig (Elt F))).Forall fun op => op.writes ⊆ (hostOps2_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_11_fresh : (hostOps2_11 : List (HloOp τ sig (Elt F))).Forall fun op => op.fresh = ∅ := by
  simp only [List.Forall]; repeat' constructor
/-- The references `hostOps2_11`'s operations write. -/
abbrev hostOps2_11_W : List (Ref sig .tc) := [main_call5_v0, main_v160]
theorem hostOps2_11_writes : (hostOps2_11 : List (HloOp τ sig (Elt F))).Forall fun op => op.writes ⊆ (hostOps2_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_12_fresh : (hostOps2_12 : List (HloOp τ sig (Elt F))).Forall fun op => op.fresh = ∅ := by
  simp only [List.Forall]; repeat' constructor
/-- The references `hostOps2_12`'s operations write. -/
abbrev hostOps2_12_W : List (Ref sig .tc) := [main_cst_34]
theorem hostOps2_12_writes : (hostOps2_12 : List (HloOp τ sig (Elt F))).Forall fun op => op.writes ⊆ (hostOps2_12_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_13_fresh : (hostOps2_13 : List (HloOp τ sig (Elt F))).Forall fun op => op.fresh = ∅ := by
  simp only [List.Forall]; repeat' constructor
/-- The references `hostOps2_13`'s operations write. -/
abbrev hostOps2_13_W : List (Ref sig .tc) := [main_call6_v0, main_v161]
theorem hostOps2_13_writes : (hostOps2_13 : List (HloOp τ sig (Elt F))).Forall fun op => op.writes ⊆ (hostOps2_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_14_fresh : (hostOps2_14 : List (HloOp τ sig (Elt F))).Forall fun op => op.fresh = ∅ := by
  simp only [List.Forall]; repeat' constructor
/-- The references `hostOps2_14`'s operations write. -/
abbrev hostOps2_14_W : List (Ref sig .tc) := [main_cst_35]
theorem hostOps2_14_writes : (hostOps2_14 : List (HloOp τ sig (Elt F))).Forall fun op => op.writes ⊆ (hostOps2_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_15_fresh : (hostOps2_15 : List (HloOp τ sig (Elt F))).Forall fun op => op.fresh = ∅ := by
  simp only [List.Forall]; repeat' constructor
/-- The references `hostOps2_15`'s operations write. -/
abbrev hostOps2_15_W : List (Ref sig .tc) := [main_call7_v0, main_v162]
theorem hostOps2_15_writes : (hostOps2_15 : List (HloOp τ sig (Elt F))).Forall fun op => op.writes ⊆ (hostOps2_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_16_fresh : (hostOps2_16 : List (HloOp τ sig (Elt F))).Forall fun op => op.fresh = ∅ := by
  simp only [List.Forall]; repeat' constructor
/-- The references `hostOps2_16`'s operations write. -/
abbrev hostOps2_16_W : List (Ref sig .tc) := [main_cst_36]
theorem hostOps2_16_writes : (hostOps2_16 : List (HloOp τ sig (Elt F))).Forall fun op => op.writes ⊆ (hostOps2_16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_17_fresh : (hostOps2_17 : List (HloOp τ sig (Elt F))).Forall fun op => op.fresh = ∅ := by
  simp only [List.Forall]; repeat' constructor
/-- The references `hostOps2_17`'s operations write. -/
abbrev hostOps2_17_W : List (Ref sig .tc) := [main_call8_v0, main_v163]
theorem hostOps2_17_writes : (hostOps2_17 : List (HloOp τ sig (Elt F))).Forall fun op => op.writes ⊆ (hostOps2_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v165, main_c_37, main_v166, main_v167, main_c_38, main_v168, main_v169, main_v170, main_v171, main_v172, main_cst_39, main_v173, main_v174, main_v175, main_v176, main_v177, main_v178, main_v179, main_v180, main_v181, main_v182, main_v183, main_v184, main_cst_40, main_v185, main_v186, main_v187, main_cst_41, main_v188, main_cst_42]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_1_fresh : (hostOps3_1 : List (HloOp τ sig (Elt F))).Forall fun op => op.fresh = ∅ := by
  simp only [List.Forall]; repeat' constructor
/-- The references `hostOps3_1`'s operations write. -/
abbrev hostOps3_1_W : List (Ref sig .tc) := [main_call9_v0, main_v189]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_2_fresh : (hostOps3_2 : List (HloOp τ sig (Elt F))).Forall fun op => op.fresh = ∅ := by
  simp only [List.Forall]; repeat' constructor
/-- The references `hostOps3_2`'s operations write. -/
abbrev hostOps3_2_W : List (Ref sig .tc) := [main_cst_43]
theorem hostOps3_2_writes : (hostOps3_2 : List (HloOp τ sig (Elt F))).Forall fun op => op.writes ⊆ (hostOps3_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor
/-- The references `hostOps3_3`'s operations write. -/
abbrev hostOps3_3_W : List (Ref sig .tc) := [main_call10_v0, main_v190]
theorem hostOps3_3_writes : (hostOps3_3 : List (HloOp τ sig (Elt F))).Forall fun op => op.writes ⊆ (hostOps3_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_4_fresh : (hostOps3_4 : List (HloOp τ sig (Elt F))).Forall fun op => op.fresh = ∅ := by
  simp only [List.Forall]; repeat' constructor
/-- The references `hostOps3_4`'s operations write. -/
abbrev hostOps3_4_W : List (Ref sig .tc) := [main_cst_44]
theorem hostOps3_4_writes : (hostOps3_4 : List (HloOp τ sig (Elt F))).Forall fun op => op.writes ⊆ (hostOps3_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_5_fresh : (hostOps3_5 : List (HloOp τ sig (Elt F))).Forall fun op => op.fresh = ∅ := by
  simp only [List.Forall]; repeat' constructor
/-- The references `hostOps3_5`'s operations write. -/
abbrev hostOps3_5_W : List (Ref sig .tc) := [main_call11_v0, main_v191]
theorem hostOps3_5_writes : (hostOps3_5 : List (HloOp τ sig (Elt F))).Forall fun op => op.writes ⊆ (hostOps3_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v193, main_c_45, main_v194, main_v195, main_c_46, main_v196, main_v197, main_v198, main_v199, main_v200, main_cst_47, main_v201, main_v202, main_v203, main_v204, main_v205, main_v206, main_v207, main_v208, main_v209, main_v210, main_v211, main_v212, main_cst_48, main_v213, main_v214, main_v215, main_cst_49, main_v216]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_c_50, main_v218, main_v219, main_c_51, main_v220, main_v221, main_v222, main_v223, main_v224, main_cst_52, main_v225, main_v226, main_v227, main_v228, main_v229, main_v230, main_v231, main_v232, main_v233, main_v234, main_v235, main_v236, main_cst_53, main_v237, main_v238, main_v239, main_cst_54, main_v240, main_cst_55]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_1_fresh : (hostOps5_1 : List (HloOp τ sig (Elt F))).Forall fun op => op.fresh = ∅ := by
  simp only [List.Forall]; repeat' constructor
/-- The references `hostOps5_1`'s operations write. -/
abbrev hostOps5_1_W : List (Ref sig .tc) := [main_call12_v0, main_v241]
theorem hostOps5_1_writes : (hostOps5_1 : List (HloOp τ sig (Elt F))).Forall fun op => op.writes ⊆ (hostOps5_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_2_fresh : (hostOps5_2 : List (HloOp τ sig (Elt F))).Forall fun op => op.fresh = ∅ := by
  simp only [List.Forall]; repeat' constructor
/-- The references `hostOps5_2`'s operations write. -/
abbrev hostOps5_2_W : List (Ref sig .tc) := [main_cst_56]
theorem hostOps5_2_writes : (hostOps5_2 : List (HloOp τ sig (Elt F))).Forall fun op => op.writes ⊆ (hostOps5_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_3_fresh : (hostOps5_3 : List (HloOp τ sig (Elt F))).Forall fun op => op.fresh = ∅ := by
  simp only [List.Forall]; repeat' constructor
/-- The references `hostOps5_3`'s operations write. -/
abbrev hostOps5_3_W : List (Ref sig .tc) := [main_call13_v0, main_v242]
theorem hostOps5_3_writes : (hostOps5_3 : List (HloOp τ sig (Elt F))).Forall fun op => op.writes ⊆ (hostOps5_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_4_fresh : (hostOps5_4 : List (HloOp τ sig (Elt F))).Forall fun op => op.fresh = ∅ := by
  simp only [List.Forall]; repeat' constructor
/-- The references `hostOps5_4`'s operations write. -/
abbrev hostOps5_4_W : List (Ref sig .tc) := [main_cst_57]
theorem hostOps5_4_writes : (hostOps5_4 : List (HloOp τ sig (Elt F))).Forall fun op => op.writes ⊆ (hostOps5_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_5_fresh : (hostOps5_5 : List (HloOp τ sig (Elt F))).Forall fun op => op.fresh = ∅ := by
  simp only [List.Forall]; repeat' constructor
/-- The references `hostOps5_5`'s operations write. -/
abbrev hostOps5_5_W : List (Ref sig .tc) := [main_call14_v0, main_v243]
theorem hostOps5_5_writes : (hostOps5_5 : List (HloOp τ sig (Elt F))).Forall fun op => op.writes ⊆ (hostOps5_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v245, main_c_58, main_v246, main_v247, main_c_59, main_v248, main_v249, main_v250, main_v251, main_v252, main_cst_60, main_v253, main_v254, main_v255, main_v256, main_v257, main_v258, main_v259, main_v260, main_v261, main_v262, main_v263, main_v264, main_cst_61, main_v265, main_v266, main_v267, main_cst_62, main_v268]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_c_63, main_v270, main_v271, main_c_64, main_v272, main_v273, main_v274, main_v275, main_v276, main_cst_65, main_v277, main_v278, main_v279, main_v280, main_v281, main_v282, main_v283, main_v284, main_v285, main_v286, main_v287, main_c_66, main_v288, main_v289, main_c_67, main_v290, main_v291, main_v292, main_v293, main_v294, main_cst_68, main_v295, main_v296, main_v297, main_v298, main_v299, main_v300, main_v301, main_v302, main_v303, main_v304, main_v305, main_c_69, main_v306, main_v307, main_c_70, main_v308, main_v309, main_v310, main_v311, main_v312, main_cst_71, main_v313, main_v314, main_v315, main_v316, main_v317, main_v318, main_v319, main_v320, main_v321, main_v322, main_v323, main_c_72, main_v324, main_v325, main_c_73, main_v326, main_v327, main_v328, main_v329, main_v330, main_cst_74, main_v331, main_v332, main_v333, main_v334, main_v335, main_v336, main_v337, main_v338, main_v339, main_v340, main_v341, main_v342, main_v343, main_v344, main_v345, main_v346, main_cst_75, main_v347, main_v348, main_v349, main_v350, main_v351, main_v352, main_v353, main_cst_76, main_v354, main_cst_77]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_1_fresh : (hostOps7_1 : List (HloOp τ sig (Elt F))).Forall fun op => op.fresh = ∅ := by
  simp only [List.Forall]; repeat' constructor
/-- The references `hostOps7_1`'s operations write. -/
abbrev hostOps7_1_W : List (Ref sig .tc) := [main_call15_v0, main_v355]
theorem hostOps7_1_writes : (hostOps7_1 : List (HloOp τ sig (Elt F))).Forall fun op => op.writes ⊆ (hostOps7_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_2_fresh : (hostOps7_2 : List (HloOp τ sig (Elt F))).Forall fun op => op.fresh = ∅ := by
  simp only [List.Forall]; repeat' constructor
/-- The references `hostOps7_2`'s operations write. -/
abbrev hostOps7_2_W : List (Ref sig .tc) := [main_cst_78]
theorem hostOps7_2_writes : (hostOps7_2 : List (HloOp τ sig (Elt F))).Forall fun op => op.writes ⊆ (hostOps7_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_3_fresh : (hostOps7_3 : List (HloOp τ sig (Elt F))).Forall fun op => op.fresh = ∅ := by
  simp only [List.Forall]; repeat' constructor
/-- The references `hostOps7_3`'s operations write. -/
abbrev hostOps7_3_W : List (Ref sig .tc) := [main_call16_v0, main_v356]
theorem hostOps7_3_writes : (hostOps7_3 : List (HloOp τ sig (Elt F))).Forall fun op => op.writes ⊆ (hostOps7_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_4_fresh : (hostOps7_4 : List (HloOp τ sig (Elt F))).Forall fun op => op.fresh = ∅ := by
  simp only [List.Forall]; repeat' constructor
/-- The references `hostOps7_4`'s operations write. -/
abbrev hostOps7_4_W : List (Ref sig .tc) := [main_cst_79]
theorem hostOps7_4_writes : (hostOps7_4 : List (HloOp τ sig (Elt F))).Forall fun op => op.writes ⊆ (hostOps7_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_5_fresh : (hostOps7_5 : List (HloOp τ sig (Elt F))).Forall fun op => op.fresh = ∅ := by
  simp only [List.Forall]; repeat' constructor
/-- The references `hostOps7_5`'s operations write. -/
abbrev hostOps7_5_W : List (Ref sig .tc) := [main_call17_v0, main_v357]
theorem hostOps7_5_writes : (hostOps7_5 : List (HloOp τ sig (Elt F))).Forall fun op => op.writes ⊆ (hostOps7_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_6_fresh : (hostOps7_6 : List (HloOp τ sig (Elt F))).Forall fun op => op.fresh = ∅ := by
  simp only [List.Forall]; repeat' constructor
/-- The references `hostOps7_6`'s operations write. -/
abbrev hostOps7_6_W : List (Ref sig .tc) := [main_cst_80]
theorem hostOps7_6_writes : (hostOps7_6 : List (HloOp τ sig (Elt F))).Forall fun op => op.writes ⊆ (hostOps7_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_7_fresh : (hostOps7_7 : List (HloOp τ sig (Elt F))).Forall fun op => op.fresh = ∅ := by
  simp only [List.Forall]; repeat' constructor
/-- The references `hostOps7_7`'s operations write. -/
abbrev hostOps7_7_W : List (Ref sig .tc) := [main_call18_v0, main_v358]
theorem hostOps7_7_writes : (hostOps7_7 : List (HloOp τ sig (Elt F))).Forall fun op => op.writes ⊆ (hostOps7_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_8_fresh : (hostOps7_8 : List (HloOp τ sig (Elt F))).Forall fun op => op.fresh = ∅ := by
  simp only [List.Forall]; repeat' constructor
/-- The references `hostOps7_8`'s operations write. -/
abbrev hostOps7_8_W : List (Ref sig .tc) := [main_cst_81]
theorem hostOps7_8_writes : (hostOps7_8 : List (HloOp τ sig (Elt F))).Forall fun op => op.writes ⊆ (hostOps7_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_9_fresh : (hostOps7_9 : List (HloOp τ sig (Elt F))).Forall fun op => op.fresh = ∅ := by
  simp only [List.Forall]; repeat' constructor
/-- The references `hostOps7_9`'s operations write. -/
abbrev hostOps7_9_W : List (Ref sig .tc) := [main_call19_v0, main_v359]
theorem hostOps7_9_writes : (hostOps7_9 : List (HloOp τ sig (Elt F))).Forall fun op => op.writes ⊆ (hostOps7_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_10_fresh : (hostOps7_10 : List (HloOp τ sig (Elt F))).Forall fun op => op.fresh = ∅ := by
  simp only [List.Forall]; repeat' constructor
/-- The references `hostOps7_10`'s operations write. -/
abbrev hostOps7_10_W : List (Ref sig .tc) := [main_cst_82]
theorem hostOps7_10_writes : (hostOps7_10 : List (HloOp τ sig (Elt F))).Forall fun op => op.writes ⊆ (hostOps7_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_11_fresh : (hostOps7_11 : List (HloOp τ sig (Elt F))).Forall fun op => op.fresh = ∅ := by
  simp only [List.Forall]; repeat' constructor
/-- The references `hostOps7_11`'s operations write. -/
abbrev hostOps7_11_W : List (Ref sig .tc) := [main_call20_v0, main_v360]
theorem hostOps7_11_writes : (hostOps7_11 : List (HloOp τ sig (Elt F))).Forall fun op => op.writes ⊆ (hostOps7_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_12_fresh : (hostOps7_12 : List (HloOp τ sig (Elt F))).Forall fun op => op.fresh = ∅ := by
  simp only [List.Forall]; repeat' constructor
/-- The references `hostOps7_12`'s operations write. -/
abbrev hostOps7_12_W : List (Ref sig .tc) := [main_cst_83]
theorem hostOps7_12_writes : (hostOps7_12 : List (HloOp τ sig (Elt F))).Forall fun op => op.writes ⊆ (hostOps7_12_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_13_fresh : (hostOps7_13 : List (HloOp τ sig (Elt F))).Forall fun op => op.fresh = ∅ := by
  simp only [List.Forall]; repeat' constructor
/-- The references `hostOps7_13`'s operations write. -/
abbrev hostOps7_13_W : List (Ref sig .tc) := [main_call21_v0, main_v361]
theorem hostOps7_13_writes : (hostOps7_13 : List (HloOp τ sig (Elt F))).Forall fun op => op.writes ⊆ (hostOps7_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_14_fresh : (hostOps7_14 : List (HloOp τ sig (Elt F))).Forall fun op => op.fresh = ∅ := by
  simp only [List.Forall]; repeat' constructor
/-- The references `hostOps7_14`'s operations write. -/
abbrev hostOps7_14_W : List (Ref sig .tc) := [main_cst_84]
theorem hostOps7_14_writes : (hostOps7_14 : List (HloOp τ sig (Elt F))).Forall fun op => op.writes ⊆ (hostOps7_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_15_fresh : (hostOps7_15 : List (HloOp τ sig (Elt F))).Forall fun op => op.fresh = ∅ := by
  simp only [List.Forall]; repeat' constructor
/-- The references `hostOps7_15`'s operations write. -/
abbrev hostOps7_15_W : List (Ref sig .tc) := [main_call22_v0, main_v362]
theorem hostOps7_15_writes : (hostOps7_15 : List (HloOp τ sig (Elt F))).Forall fun op => op.writes ⊆ (hostOps7_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_16_fresh : (hostOps7_16 : List (HloOp τ sig (Elt F))).Forall fun op => op.fresh = ∅ := by
  simp only [List.Forall]; repeat' constructor
/-- The references `hostOps7_16`'s operations write. -/
abbrev hostOps7_16_W : List (Ref sig .tc) := [main_cst_85]
theorem hostOps7_16_writes : (hostOps7_16 : List (HloOp τ sig (Elt F))).Forall fun op => op.writes ⊆ (hostOps7_16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_17_fresh : (hostOps7_17 : List (HloOp τ sig (Elt F))).Forall fun op => op.fresh = ∅ := by
  simp only [List.Forall]; repeat' constructor
/-- The references `hostOps7_17`'s operations write. -/
abbrev hostOps7_17_W : List (Ref sig .tc) := [main_call23_v0, main_v363]
theorem hostOps7_17_writes : (hostOps7_17 : List (HloOp τ sig (Elt F))).Forall fun op => op.writes ⊆ (hostOps7_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_v365, main_c_86, main_v366, main_v367, main_c_87, main_v368, main_v369, main_v370, main_v371, main_v372, main_cst_88, main_v373, main_v374, main_v375, main_v376, main_v377, main_v378, main_v379, main_v380, main_v381, main_v382, main_v383, main_v384, main_cst_89, main_v385, main_v386, main_v387, main_cst_90, main_v388, main_cst_91]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_1_fresh : (hostOps8_1 : List (HloOp τ sig (Elt F))).Forall fun op => op.fresh = ∅ := by
  simp only [List.Forall]; repeat' constructor
/-- The references `hostOps8_1`'s operations write. -/
abbrev hostOps8_1_W : List (Ref sig .tc) := [main_call24_v0, main_v389]
theorem hostOps8_1_writes : (hostOps8_1 : List (HloOp τ sig (Elt F))).Forall fun op => op.writes ⊆ (hostOps8_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_2_fresh : (hostOps8_2 : List (HloOp τ sig (Elt F))).Forall fun op => op.fresh = ∅ := by
  simp only [List.Forall]; repeat' constructor
/-- The references `hostOps8_2`'s operations write. -/
abbrev hostOps8_2_W : List (Ref sig .tc) := [main_cst_92]
theorem hostOps8_2_writes : (hostOps8_2 : List (HloOp τ sig (Elt F))).Forall fun op => op.writes ⊆ (hostOps8_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_3_fresh : (hostOps8_3 : List (HloOp τ sig (Elt F))).Forall fun op => op.fresh = ∅ := by
  simp only [List.Forall]; repeat' constructor
/-- The references `hostOps8_3`'s operations write. -/
abbrev hostOps8_3_W : List (Ref sig .tc) := [main_call25_v0, main_v390]
theorem hostOps8_3_writes : (hostOps8_3 : List (HloOp τ sig (Elt F))).Forall fun op => op.writes ⊆ (hostOps8_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_4_fresh : (hostOps8_4 : List (HloOp τ sig (Elt F))).Forall fun op => op.fresh = ∅ := by
  simp only [List.Forall]; repeat' constructor
/-- The references `hostOps8_4`'s operations write. -/
abbrev hostOps8_4_W : List (Ref sig .tc) := [main_cst_93]
theorem hostOps8_4_writes : (hostOps8_4 : List (HloOp τ sig (Elt F))).Forall fun op => op.writes ⊆ (hostOps8_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_5_fresh : (hostOps8_5 : List (HloOp τ sig (Elt F))).Forall fun op => op.fresh = ∅ := by
  simp only [List.Forall]; repeat' constructor
/-- The references `hostOps8_5`'s operations write. -/
abbrev hostOps8_5_W : List (Ref sig .tc) := [main_call26_v0, main_v391]
theorem hostOps8_5_writes : (hostOps8_5 : List (HloOp τ sig (Elt F))).Forall fun op => op.writes ⊆ (hostOps8_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v393, main_c_94, main_v394, main_v395, main_c_95, main_v396, main_v397, main_v398, main_v399, main_v400, main_cst_96, main_v401, main_v402, main_v403, main_v404, main_v405, main_v406, main_v407, main_v408, main_v409, main_v410, main_v411, main_v412, main_cst_97, main_v413, main_v414, main_v415, main_cst_98, main_v416]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_fresh : (hostOps10 : List (HloOp τ sig (Elt F))).Forall fun op => op.fresh = ∅ := by
  simp only [List.Forall]; repeat' constructor
/-- The references `hostOps10`'s operations write. -/
abbrev hostOps10_W : List (Ref sig .tc) := [main_c_99, main_v418, main_v419, main_c_100, main_v420, main_v421, main_v422, main_v423, main_v424, main_cst_101, main_v425, main_v426, main_v427, main_v428, main_v429, main_v430, main_v431, main_v432, main_v433, main_v434, main_v435, main_v436, main_cst_102, main_v437, main_v438, main_v439, main_cst_103, main_v440, main_cst_104]
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_1_fresh : (hostOps10_1 : List (HloOp τ sig (Elt F))).Forall fun op => op.fresh = ∅ := by
  simp only [List.Forall]; repeat' constructor
/-- The references `hostOps10_1`'s operations write. -/
abbrev hostOps10_1_W : List (Ref sig .tc) := [main_call27_v0, main_v441]
theorem hostOps10_1_writes : (hostOps10_1 : List (HloOp τ sig (Elt F))).Forall fun op => op.writes ⊆ (hostOps10_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_2_fresh : (hostOps10_2 : List (HloOp τ sig (Elt F))).Forall fun op => op.fresh = ∅ := by
  simp only [List.Forall]; repeat' constructor
/-- The references `hostOps10_2`'s operations write. -/
abbrev hostOps10_2_W : List (Ref sig .tc) := [main_cst_105]
theorem hostOps10_2_writes : (hostOps10_2 : List (HloOp τ sig (Elt F))).Forall fun op => op.writes ⊆ (hostOps10_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_3_fresh : (hostOps10_3 : List (HloOp τ sig (Elt F))).Forall fun op => op.fresh = ∅ := by
  simp only [List.Forall]; repeat' constructor
/-- The references `hostOps10_3`'s operations write. -/
abbrev hostOps10_3_W : List (Ref sig .tc) := [main_call28_v0, main_v442]
theorem hostOps10_3_writes : (hostOps10_3 : List (HloOp τ sig (Elt F))).Forall fun op => op.writes ⊆ (hostOps10_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_4_fresh : (hostOps10_4 : List (HloOp τ sig (Elt F))).Forall fun op => op.fresh = ∅ := by
  simp only [List.Forall]; repeat' constructor
/-- The references `hostOps10_4`'s operations write. -/
abbrev hostOps10_4_W : List (Ref sig .tc) := [main_cst_106]
theorem hostOps10_4_writes : (hostOps10_4 : List (HloOp τ sig (Elt F))).Forall fun op => op.writes ⊆ (hostOps10_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_5_fresh : (hostOps10_5 : List (HloOp τ sig (Elt F))).Forall fun op => op.fresh = ∅ := by
  simp only [List.Forall]; repeat' constructor
/-- The references `hostOps10_5`'s operations write. -/
abbrev hostOps10_5_W : List (Ref sig .tc) := [main_call29_v0, main_v443]
theorem hostOps10_5_writes : (hostOps10_5 : List (HloOp τ sig (Elt F))).Forall fun op => op.writes ⊆ (hostOps10_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps11_fresh : (hostOps11 : List (HloOp τ sig (Elt F))).Forall fun op => op.fresh = ∅ := by
  simp only [List.Forall]; repeat' constructor
/-- The references `hostOps11`'s operations write. -/
abbrev hostOps11_W : List (Ref sig .tc) := [main_v445, main_c_107, main_v446, main_v447, main_c_108, main_v448, main_v449, main_v450, main_v451, main_v452, main_cst_109, main_v453, main_v454, main_v455, main_v456, main_v457, main_v458, main_v459, main_v460, main_v461, main_v462, main_v463, main_v464, main_cst_110, main_v465, main_v466, main_v467, main_cst_111, main_v468]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps12_fresh : (hostOps12 : List (HloOp τ sig (Elt F))).Forall fun op => op.fresh = ∅ := by
  simp only [List.Forall]; repeat' constructor
/-- The references `hostOps12`'s operations write. -/
abbrev hostOps12_W : List (Ref sig .tc) := [main_v470, main_v471, main_c_112, main_v472, main_v473, main_c_113, main_v474, main_v475, main_v476, main_v477, main_v478, main_v479, main_v480, main_c_114, main_v481, main_v482, main_c_115, main_v483, main_v484, main_v485, main_v486, main_v487, main_cst_116]
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps12_1_fresh : (hostOps12_1 : List (HloOp τ sig (Elt F))).Forall fun op => op.fresh = ∅ := by
  simp only [List.Forall]; repeat' constructor
/-- The references `hostOps12_1`'s operations write. -/
abbrev hostOps12_1_W : List (Ref sig .tc) := [main_call30_v0, main_v488]
theorem hostOps12_1_writes : (hostOps12_1 : List (HloOp τ sig (Elt F))).Forall fun op => op.writes ⊆ (hostOps12_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps12_2_fresh : (hostOps12_2 : List (HloOp τ sig (Elt F))).Forall fun op => op.fresh = ∅ := by
  simp only [List.Forall]; repeat' constructor
/-- The references `hostOps12_2`'s operations write. -/
abbrev hostOps12_2_W : List (Ref sig .tc) := [main_cst_117]
theorem hostOps12_2_writes : (hostOps12_2 : List (HloOp τ sig (Elt F))).Forall fun op => op.writes ⊆ (hostOps12_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_3_fresh : (hostOps12_3 : List (HloOp τ sig (Elt F))).Forall fun op => op.fresh = ∅ := by
  simp only [List.Forall]; repeat' constructor
/-- The references `hostOps12_3`'s operations write. -/
abbrev hostOps12_3_W : List (Ref sig .tc) := [main_call31_v0, main_v489]
theorem hostOps12_3_writes : (hostOps12_3 : List (HloOp τ sig (Elt F))).Forall fun op => op.writes ⊆ (hostOps12_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps13_fresh : (hostOps13 : List (HloOp τ sig (Elt F))).Forall fun op => op.fresh = ∅ := by
  simp only [List.Forall]; repeat' constructor
/-- The references `hostOps13`'s operations write. -/
abbrev hostOps13_W : List (Ref sig .tc) := [main_v491]
theorem hostOps13_writes : (hostOps13 : List (HloOp τ sig (Elt F))).Forall fun op => op.writes ⊆ (hostOps13_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each item leaves unchanged: a reference it does not write keeps its contents -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Region 0 changes its output array only: an input window's array is left as entered, and so is every buffer that is no window's array. -/
theorem W2_of (c : Dev nD) (r : Ref sig .tc) (h : r ∉ ([main_v2] : List (Ref sig .tc))) : W2 m ρ c (Proc.devRef .tc r) = W1 m ρ c (Proc.devRef .tc r) := by
  by_cases hr : ∃ w, Pipeline.arrRef spec0 w = r
  · obtain ⟨w, rfl⟩ := hr
    have hin : (cfg0.win w).isOut = false :=
      (by decide : ∀ w : Fin cfg0.W, Pipeline.arrRef spec0 w ∉ ([main_v2] : List (Ref sig .tc)) → (cfg0.win w).isOut = false) w h
    exact (W2_arr m ρ c w).trans (((dat0 (V1 m ρ) c).arrAt_in w hin _).trans (A_eq0 (V1 m ρ) c w))
  · exact W2_of_ne m ρ c r fun w e => hr ⟨w, e⟩
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Region 1 changes its output array only: an input window's array is left as entered, and so is every buffer that is no window's array. -/
theorem W4_of (c : Dev nD) (r : Ref sig .tc) (h : r ∉ ([main_v5] : List (Ref sig .tc))) : W4 m ρ c (Proc.devRef .tc r) = W3 m ρ c (Proc.devRef .tc r) := by
  by_cases hr : ∃ w, Pipeline.arrRef spec1 w = r
  · obtain ⟨w, rfl⟩ := hr
    have hin : (cfg1.win w).isOut = false :=
      (by decide : ∀ w : Fin cfg1.W, Pipeline.arrRef spec1 w ∉ ([main_v5] : List (Ref sig .tc)) → (cfg1.win w).isOut = false) w h
    exact (W4_arr m ρ c w).trans (((dat1 (V3 m ρ) c).arrAt_in w hin _).trans (A_eq1 (V3 m ρ) c w))
  · exact W4_of_ne m ρ c r fun w e => hr ⟨w, e⟩
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W8_of (c : Dev nD) (r : Ref sig .tc) (h : r ∉ hostOps2_3_W) : W8 m ρ c (Proc.devRef .tc r) = W7 m ρ c (Proc.devRef .tc r) :=
  StableHlo.after_of_writes_sub hostOps2_3 _ hostOps2_3_writes h
theorem W9_of (c : Dev nD) (r : Ref sig .tc) (h : r ∉ hostOps2_4_W) : W9 m ρ c (Proc.devRef .tc r) = W8 m ρ c (Proc.devRef .tc r) :=
  StableHlo.after_of_writes_sub hostOps2_4 _ hostOps2_4_writes h
theorem W10_of (c : Dev nD) (r : Ref sig .tc) (h : r ∉ hostOps2_5_W) : W10 m ρ c (Proc.devRef .tc r) = W9 m ρ c (Proc.devRef .tc r) :=
  StableHlo.after_of_writes_sub hostOps2_5 _ hostOps2_5_writes h
theorem W11_of (c : Dev nD) (r : Ref sig .tc) (h : r ∉ hostOps2_6_W) : W11 m ρ c (Proc.devRef .tc r) = W10 m ρ c (Proc.devRef .tc r) :=
  StableHlo.after_of_writes_sub hostOps2_6 _ hostOps2_6_writes h
theorem W12_of (c : Dev nD) (r : Ref sig .tc) (h : r ∉ hostOps2_7_W) : W12 m ρ c (Proc.devRef .tc r) = W11 m ρ c (Proc.devRef .tc r) :=
  StableHlo.after_of_writes_sub hostOps2_7 _ hostOps2_7_writes h
theorem W13_of (c : Dev nD) (r : Ref sig .tc) (h : r ∉ hostOps2_8_W) : W13 m ρ c (Proc.devRef .tc r) = W12 m ρ c (Proc.devRef .tc r) :=
  StableHlo.after_of_writes_sub hostOps2_8 _ hostOps2_8_writes h
theorem W14_of (c : Dev nD) (r : Ref sig .tc) (h : r ∉ hostOps2_9_W) : W14 m ρ c (Proc.devRef .tc r) = W13 m ρ c (Proc.devRef .tc r) :=
  StableHlo.after_of_writes_sub hostOps2_9 _ hostOps2_9_writes h
theorem W15_of (c : Dev nD) (r : Ref sig .tc) (h : r ∉ hostOps2_10_W) : W15 m ρ c (Proc.devRef .tc r) = W14 m ρ c (Proc.devRef .tc r) :=
  StableHlo.after_of_writes_sub hostOps2_10 _ hostOps2_10_writes h
theorem W16_of (c : Dev nD) (r : Ref sig .tc) (h : r ∉ hostOps2_11_W) : W16 m ρ c (Proc.devRef .tc r) = W15 m ρ c (Proc.devRef .tc r) :=
  StableHlo.after_of_writes_sub hostOps2_11 _ hostOps2_11_writes h
theorem W17_of (c : Dev nD) (r : Ref sig .tc) (h : r ∉ hostOps2_12_W) : W17 m ρ c (Proc.devRef .tc r) = W16 m ρ c (Proc.devRef .tc r) :=
  StableHlo.after_of_writes_sub hostOps2_12 _ hostOps2_12_writes h
theorem W18_of (c : Dev nD) (r : Ref sig .tc) (h : r ∉ hostOps2_13_W) : W18 m ρ c (Proc.devRef .tc r) = W17 m ρ c (Proc.devRef .tc r) :=
  StableHlo.after_of_writes_sub hostOps2_13 _ hostOps2_13_writes h
theorem W19_of (c : Dev nD) (r : Ref sig .tc) (h : r ∉ hostOps2_14_W) : W19 m ρ c (Proc.devRef .tc r) = W18 m ρ c (Proc.devRef .tc r) :=
  StableHlo.after_of_writes_sub hostOps2_14 _ hostOps2_14_writes h
theorem W20_of (c : Dev nD) (r : Ref sig .tc) (h : r ∉ hostOps2_15_W) : W20 m ρ c (Proc.devRef .tc r) = W19 m ρ c (Proc.devRef .tc r) :=
  StableHlo.after_of_writes_sub hostOps2_15 _ hostOps2_15_writes h
theorem W21_of (c : Dev nD) (r : Ref sig .tc) (h : r ∉ hostOps2_16_W) : W21 m ρ c (Proc.devRef .tc r) = W20 m ρ c (Proc.devRef .tc r) :=
  StableHlo.after_of_writes_sub hostOps2_16 _ hostOps2_16_writes h
theorem W22_of (c : Dev nD) (r : Ref sig .tc) (h : r ∉ hostOps2_17_W) : W22 m ρ c (Proc.devRef .tc r) = W21 m ρ c (Proc.devRef .tc r) :=
  StableHlo.after_of_writes_sub hostOps2_17 _ hostOps2_17_writes h
/-- Region 2 changes its output array only: an input window's array is left as entered, and so is every buffer that is no window's array. -/
theorem W23_of (c : Dev nD) (r : Ref sig .tc) (h : r ∉ ([main_v164] : List (Ref sig .tc))) : W23 m ρ c (Proc.devRef .tc r) = W22 m ρ c (Proc.devRef .tc r) := by
  by_cases hr : ∃ w, Pipeline.arrRef spec2 w = r
  · obtain ⟨w, rfl⟩ := hr
    have hin : (cfg2.win w).isOut = false :=
      (by decide : ∀ w : Fin cfg2.W, Pipeline.arrRef spec2 w ∉ ([main_v164] : List (Ref sig .tc)) → (cfg2.win w).isOut = false) w h
    exact (W23_arr m ρ c w).trans (((dat2 (V22 m ρ) c).arrAt_in w hin _).trans (A_eq2 (V22 m ρ) c w))
  · exact W23_of_ne m ρ c r fun w e => hr ⟨w, e⟩
theorem W24_of (c : Dev nD) (r : Ref sig .tc) (h : r ∉ hostOps3_W) : W24 m ρ c (Proc.devRef .tc r) = W23 m ρ c (Proc.devRef .tc r) :=
  StableHlo.after_of_writes_sub hostOps3 _ hostOps3_writes h
theorem W25_of (c : Dev nD) (r : Ref sig .tc) (h : r ∉ hostOps3_1_W) : W25 m ρ c (Proc.devRef .tc r) = W24 m ρ c (Proc.devRef .tc r) :=
  StableHlo.after_of_writes_sub hostOps3_1 _ hostOps3_1_writes h
theorem W26_of (c : Dev nD) (r : Ref sig .tc) (h : r ∉ hostOps3_2_W) : W26 m ρ c (Proc.devRef .tc r) = W25 m ρ c (Proc.devRef .tc r) :=
  StableHlo.after_of_writes_sub hostOps3_2 _ hostOps3_2_writes h
theorem W27_of (c : Dev nD) (r : Ref sig .tc) (h : r ∉ hostOps3_3_W) : W27 m ρ c (Proc.devRef .tc r) = W26 m ρ c (Proc.devRef .tc r) :=
  StableHlo.after_of_writes_sub hostOps3_3 _ hostOps3_3_writes h
theorem W28_of (c : Dev nD) (r : Ref sig .tc) (h : r ∉ hostOps3_4_W) : W28 m ρ c (Proc.devRef .tc r) = W27 m ρ c (Proc.devRef .tc r) :=
  StableHlo.after_of_writes_sub hostOps3_4 _ hostOps3_4_writes h
theorem W29_of (c : Dev nD) (r : Ref sig .tc) (h : r ∉ hostOps3_5_W) : W29 m ρ c (Proc.devRef .tc r) = W28 m ρ c (Proc.devRef .tc r) :=
  StableHlo.after_of_writes_sub hostOps3_5 _ hostOps3_5_writes h
/-- Region 3 changes its output array only: an input window's array is left as entered, and so is every buffer that is no window's array. -/
theorem W30_of (c : Dev nD) (r : Ref sig .tc) (h : r ∉ ([main_v192] : List (Ref sig .tc))) : W30 m ρ c (Proc.devRef .tc r) = W29 m ρ c (Proc.devRef .tc r) := by
  by_cases hr : ∃ w, Pipeline.arrRef spec3 w = r
  · obtain ⟨w, rfl⟩ := hr
    have hin : (cfg3.win w).isOut = false :=
      (by decide : ∀ w : Fin cfg3.W, Pipeline.arrRef spec3 w ∉ ([main_v192] : List (Ref sig .tc)) → (cfg3.win w).isOut = false) w h
    exact (W30_arr m ρ c w).trans (((dat3 (V29 m ρ) c).arrAt_in w hin _).trans (A_eq3 (V29 m ρ) c w))
  · exact W30_of_ne m ρ c r fun w e => hr ⟨w, e⟩
theorem W31_of (c : Dev nD) (r : Ref sig .tc) (h : r ∉ hostOps4_W) : W31 m ρ c (Proc.devRef .tc r) = W30 m ρ c (Proc.devRef .tc r) :=
  StableHlo.after_of_writes_sub hostOps4 _ hostOps4_writes h
/-- Region 4 changes its output array only: an input window's array is left as entered, and so is every buffer that is no window's array. -/
theorem W32_of (c : Dev nD) (r : Ref sig .tc) (h : r ∉ ([main_v217] : List (Ref sig .tc))) : W32 m ρ c (Proc.devRef .tc r) = W31 m ρ c (Proc.devRef .tc r) := by
  by_cases hr : ∃ w, Pipeline.arrRef spec4 w = r
  · obtain ⟨w, rfl⟩ := hr
    have hin : (cfg4.win w).isOut = false :=
      (by decide : ∀ w : Fin cfg4.W, Pipeline.arrRef spec4 w ∉ ([main_v217] : List (Ref sig .tc)) → (cfg4.win w).isOut = false) w h
    exact (W32_arr m ρ c w).trans (((dat4 (V31 m ρ) c).arrAt_in w hin _).trans (A_eq4 (V31 m ρ) c w))
  · exact W32_of_ne m ρ c r fun w e => hr ⟨w, e⟩
theorem W33_of (c : Dev nD) (r : Ref sig .tc) (h : r ∉ hostOps5_W) : W33 m ρ c (Proc.devRef .tc r) = W32 m ρ c (Proc.devRef .tc r) :=
  StableHlo.after_of_writes_sub hostOps5 _ hostOps5_writes h
theorem W34_of (c : Dev nD) (r : Ref sig .tc) (h : r ∉ hostOps5_1_W) : W34 m ρ c (Proc.devRef .tc r) = W33 m ρ c (Proc.devRef .tc r) :=
  StableHlo.after_of_writes_sub hostOps5_1 _ hostOps5_1_writes h
theorem W35_of (c : Dev nD) (r : Ref sig .tc) (h : r ∉ hostOps5_2_W) : W35 m ρ c (Proc.devRef .tc r) = W34 m ρ c (Proc.devRef .tc r) :=
  StableHlo.after_of_writes_sub hostOps5_2 _ hostOps5_2_writes h
theorem W36_of (c : Dev nD) (r : Ref sig .tc) (h : r ∉ hostOps5_3_W) : W36 m ρ c (Proc.devRef .tc r) = W35 m ρ c (Proc.devRef .tc r) :=
  StableHlo.after_of_writes_sub hostOps5_3 _ hostOps5_3_writes h
theorem W37_of (c : Dev nD) (r : Ref sig .tc) (h : r ∉ hostOps5_4_W) : W37 m ρ c (Proc.devRef .tc r) = W36 m ρ c (Proc.devRef .tc r) :=
  StableHlo.after_of_writes_sub hostOps5_4 _ hostOps5_4_writes h
theorem W38_of (c : Dev nD) (r : Ref sig .tc) (h : r ∉ hostOps5_5_W) : W38 m ρ c (Proc.devRef .tc r) = W37 m ρ c (Proc.devRef .tc r) :=
  StableHlo.after_of_writes_sub hostOps5_5 _ hostOps5_5_writes h
/-- Region 5 changes its output array only: an input window's array is left as entered, and so is every buffer that is no window's array. -/
theorem W39_of (c : Dev nD) (r : Ref sig .tc) (h : r ∉ ([main_v244] : List (Ref sig .tc))) : W39 m ρ c (Proc.devRef .tc r) = W38 m ρ c (Proc.devRef .tc r) := by
  by_cases hr : ∃ w, Pipeline.arrRef spec5 w = r
  · obtain ⟨w, rfl⟩ := hr
    have hin : (cfg5.win w).isOut = false :=
      (by decide : ∀ w : Fin cfg5.W, Pipeline.arrRef spec5 w ∉ ([main_v244] : List (Ref sig .tc)) → (cfg5.win w).isOut = false) w h
    exact (W39_arr m ρ c w).trans (((dat5 (V38 m ρ) c).arrAt_in w hin _).trans (A_eq5 (V38 m ρ) c w))
  · exact W39_of_ne m ρ c r fun w e => hr ⟨w, e⟩
theorem W40_of (c : Dev nD) (r : Ref sig .tc) (h : r ∉ hostOps6_W) : W40 m ρ c (Proc.devRef .tc r) = W39 m ρ c (Proc.devRef .tc r) :=
  StableHlo.after_of_writes_sub hostOps6 _ hostOps6_writes h
/-- Region 6 changes its output array only: an input window's array is left as entered, and so is every buffer that is no window's array. -/
theorem W41_of (c : Dev nD) (r : Ref sig .tc) (h : r ∉ ([main_v269] : List (Ref sig .tc))) : W41 m ρ c (Proc.devRef .tc r) = W40 m ρ c (Proc.devRef .tc r) := by
  by_cases hr : ∃ w, Pipeline.arrRef spec6 w = r
  · obtain ⟨w, rfl⟩ := hr
    have hin : (cfg6.win w).isOut = false :=
      (by decide : ∀ w : Fin cfg6.W, Pipeline.arrRef spec6 w ∉ ([main_v269] : List (Ref sig .tc)) → (cfg6.win w).isOut = false) w h
    exact (W41_arr m ρ c w).trans (((dat6 (V40 m ρ) c).arrAt_in w hin _).trans (A_eq6 (V40 m ρ) c w))
  · exact W41_of_ne m ρ c r fun w e => hr ⟨w, e⟩
theorem W42_of (c : Dev nD) (r : Ref sig .tc) (h : r ∉ hostOps7_W) : W42 m ρ c (Proc.devRef .tc r) = W41 m ρ c (Proc.devRef .tc r) :=
  StableHlo.after_of_writes_sub hostOps7 _ hostOps7_writes h
theorem W43_of (c : Dev nD) (r : Ref sig .tc) (h : r ∉ hostOps7_1_W) : W43 m ρ c (Proc.devRef .tc r) = W42 m ρ c (Proc.devRef .tc r) :=
  StableHlo.after_of_writes_sub hostOps7_1 _ hostOps7_1_writes h
theorem W44_of (c : Dev nD) (r : Ref sig .tc) (h : r ∉ hostOps7_2_W) : W44 m ρ c (Proc.devRef .tc r) = W43 m ρ c (Proc.devRef .tc r) :=
  StableHlo.after_of_writes_sub hostOps7_2 _ hostOps7_2_writes h
theorem W45_of (c : Dev nD) (r : Ref sig .tc) (h : r ∉ hostOps7_3_W) : W45 m ρ c (Proc.devRef .tc r) = W44 m ρ c (Proc.devRef .tc r) :=
  StableHlo.after_of_writes_sub hostOps7_3 _ hostOps7_3_writes h
theorem W46_of (c : Dev nD) (r : Ref sig .tc) (h : r ∉ hostOps7_4_W) : W46 m ρ c (Proc.devRef .tc r) = W45 m ρ c (Proc.devRef .tc r) :=
  StableHlo.after_of_writes_sub hostOps7_4 _ hostOps7_4_writes h
theorem W47_of (c : Dev nD) (r : Ref sig .tc) (h : r ∉ hostOps7_5_W) : W47 m ρ c (Proc.devRef .tc r) = W46 m ρ c (Proc.devRef .tc r) :=
  StableHlo.after_of_writes_sub hostOps7_5 _ hostOps7_5_writes h
theorem W48_of (c : Dev nD) (r : Ref sig .tc) (h : r ∉ hostOps7_6_W) : W48 m ρ c (Proc.devRef .tc r) = W47 m ρ c (Proc.devRef .tc r) :=
  StableHlo.after_of_writes_sub hostOps7_6 _ hostOps7_6_writes h
theorem W49_of (c : Dev nD) (r : Ref sig .tc) (h : r ∉ hostOps7_7_W) : W49 m ρ c (Proc.devRef .tc r) = W48 m ρ c (Proc.devRef .tc r) :=
  StableHlo.after_of_writes_sub hostOps7_7 _ hostOps7_7_writes h
theorem W50_of (c : Dev nD) (r : Ref sig .tc) (h : r ∉ hostOps7_8_W) : W50 m ρ c (Proc.devRef .tc r) = W49 m ρ c (Proc.devRef .tc r) :=
  StableHlo.after_of_writes_sub hostOps7_8 _ hostOps7_8_writes h
theorem W51_of (c : Dev nD) (r : Ref sig .tc) (h : r ∉ hostOps7_9_W) : W51 m ρ c (Proc.devRef .tc r) = W50 m ρ c (Proc.devRef .tc r) :=
  StableHlo.after_of_writes_sub hostOps7_9 _ hostOps7_9_writes h
theorem W52_of (c : Dev nD) (r : Ref sig .tc) (h : r ∉ hostOps7_10_W) : W52 m ρ c (Proc.devRef .tc r) = W51 m ρ c (Proc.devRef .tc r) :=
  StableHlo.after_of_writes_sub hostOps7_10 _ hostOps7_10_writes h
theorem W53_of (c : Dev nD) (r : Ref sig .tc) (h : r ∉ hostOps7_11_W) : W53 m ρ c (Proc.devRef .tc r) = W52 m ρ c (Proc.devRef .tc r) :=
  StableHlo.after_of_writes_sub hostOps7_11 _ hostOps7_11_writes h
theorem W54_of (c : Dev nD) (r : Ref sig .tc) (h : r ∉ hostOps7_12_W) : W54 m ρ c (Proc.devRef .tc r) = W53 m ρ c (Proc.devRef .tc r) :=
  StableHlo.after_of_writes_sub hostOps7_12 _ hostOps7_12_writes h
theorem W55_of (c : Dev nD) (r : Ref sig .tc) (h : r ∉ hostOps7_13_W) : W55 m ρ c (Proc.devRef .tc r) = W54 m ρ c (Proc.devRef .tc r) :=
  StableHlo.after_of_writes_sub hostOps7_13 _ hostOps7_13_writes h
theorem W56_of (c : Dev nD) (r : Ref sig .tc) (h : r ∉ hostOps7_14_W) : W56 m ρ c (Proc.devRef .tc r) = W55 m ρ c (Proc.devRef .tc r) :=
  StableHlo.after_of_writes_sub hostOps7_14 _ hostOps7_14_writes h
theorem W57_of (c : Dev nD) (r : Ref sig .tc) (h : r ∉ hostOps7_15_W) : W57 m ρ c (Proc.devRef .tc r) = W56 m ρ c (Proc.devRef .tc r) :=
  StableHlo.after_of_writes_sub hostOps7_15 _ hostOps7_15_writes h
theorem W58_of (c : Dev nD) (r : Ref sig .tc) (h : r ∉ hostOps7_16_W) : W58 m ρ c (Proc.devRef .tc r) = W57 m ρ c (Proc.devRef .tc r) :=
  StableHlo.after_of_writes_sub hostOps7_16 _ hostOps7_16_writes h
theorem W59_of (c : Dev nD) (r : Ref sig .tc) (h : r ∉ hostOps7_17_W) : W59 m ρ c (Proc.devRef .tc r) = W58 m ρ c (Proc.devRef .tc r) :=
  StableHlo.after_of_writes_sub hostOps7_17 _ hostOps7_17_writes h
/-- Region 7 changes its output array only: an input window's array is left as entered, and so is every buffer that is no window's array. -/
theorem W60_of (c : Dev nD) (r : Ref sig .tc) (h : r ∉ ([main_v364] : List (Ref sig .tc))) : W60 m ρ c (Proc.devRef .tc r) = W59 m ρ c (Proc.devRef .tc r) := by
  by_cases hr : ∃ w, Pipeline.arrRef spec7 w = r
  · obtain ⟨w, rfl⟩ := hr
    have hin : (cfg7.win w).isOut = false :=
      (by decide : ∀ w : Fin cfg7.W, Pipeline.arrRef spec7 w ∉ ([main_v364] : List (Ref sig .tc)) → (cfg7.win w).isOut = false) w h
    exact (W60_arr m ρ c w).trans (((dat7 (V59 m ρ) c).arrAt_in w hin _).trans (A_eq7 (V59 m ρ) c w))
  · exact W60_of_ne m ρ c r fun w e => hr ⟨w, e⟩
theorem W61_of (c : Dev nD) (r : Ref sig .tc) (h : r ∉ hostOps8_W) : W61 m ρ c (Proc.devRef .tc r) = W60 m ρ c (Proc.devRef .tc r) :=
  StableHlo.after_of_writes_sub hostOps8 _ hostOps8_writes h
theorem W62_of (c : Dev nD) (r : Ref sig .tc) (h : r ∉ hostOps8_1_W) : W62 m ρ c (Proc.devRef .tc r) = W61 m ρ c (Proc.devRef .tc r) :=
  StableHlo.after_of_writes_sub hostOps8_1 _ hostOps8_1_writes h
theorem W63_of (c : Dev nD) (r : Ref sig .tc) (h : r ∉ hostOps8_2_W) : W63 m ρ c (Proc.devRef .tc r) = W62 m ρ c (Proc.devRef .tc r) :=
  StableHlo.after_of_writes_sub hostOps8_2 _ hostOps8_2_writes h
theorem W64_of (c : Dev nD) (r : Ref sig .tc) (h : r ∉ hostOps8_3_W) : W64 m ρ c (Proc.devRef .tc r) = W63 m ρ c (Proc.devRef .tc r) :=
  StableHlo.after_of_writes_sub hostOps8_3 _ hostOps8_3_writes h
theorem W65_of (c : Dev nD) (r : Ref sig .tc) (h : r ∉ hostOps8_4_W) : W65 m ρ c (Proc.devRef .tc r) = W64 m ρ c (Proc.devRef .tc r) :=
  StableHlo.after_of_writes_sub hostOps8_4 _ hostOps8_4_writes h
theorem W66_of (c : Dev nD) (r : Ref sig .tc) (h : r ∉ hostOps8_5_W) : W66 m ρ c (Proc.devRef .tc r) = W65 m ρ c (Proc.devRef .tc r) :=
  StableHlo.after_of_writes_sub hostOps8_5 _ hostOps8_5_writes h
/-- Region 8 changes its output array only: an input window's array is left as entered, and so is every buffer that is no window's array. -/
theorem W67_of (c : Dev nD) (r : Ref sig .tc) (h : r ∉ ([main_v392] : List (Ref sig .tc))) : W67 m ρ c (Proc.devRef .tc r) = W66 m ρ c (Proc.devRef .tc r) := by
  by_cases hr : ∃ w, Pipeline.arrRef spec8 w = r
  · obtain ⟨w, rfl⟩ := hr
    have hin : (cfg8.win w).isOut = false :=
      (by decide : ∀ w : Fin cfg8.W, Pipeline.arrRef spec8 w ∉ ([main_v392] : List (Ref sig .tc)) → (cfg8.win w).isOut = false) w h
    exact (W67_arr m ρ c w).trans (((dat8 (V66 m ρ) c).arrAt_in w hin _).trans (A_eq8 (V66 m ρ) c w))
  · exact W67_of_ne m ρ c r fun w e => hr ⟨w, e⟩
theorem W68_of (c : Dev nD) (r : Ref sig .tc) (h : r ∉ hostOps9_W) : W68 m ρ c (Proc.devRef .tc r) = W67 m ρ c (Proc.devRef .tc r) :=
  StableHlo.after_of_writes_sub hostOps9 _ hostOps9_writes h
/-- Region 9 changes its output array only: an input window's array is left as entered, and so is every buffer that is no window's array. -/
theorem W69_of (c : Dev nD) (r : Ref sig .tc) (h : r ∉ ([main_v417] : List (Ref sig .tc))) : W69 m ρ c (Proc.devRef .tc r) = W68 m ρ c (Proc.devRef .tc r) := by
  by_cases hr : ∃ w, Pipeline.arrRef spec9 w = r
  · obtain ⟨w, rfl⟩ := hr
    have hin : (cfg9.win w).isOut = false :=
      (by decide : ∀ w : Fin cfg9.W, Pipeline.arrRef spec9 w ∉ ([main_v417] : List (Ref sig .tc)) → (cfg9.win w).isOut = false) w h
    exact (W69_arr m ρ c w).trans (((dat9 (V68 m ρ) c).arrAt_in w hin _).trans (A_eq9 (V68 m ρ) c w))
  · exact W69_of_ne m ρ c r fun w e => hr ⟨w, e⟩
theorem W70_of (c : Dev nD) (r : Ref sig .tc) (h : r ∉ hostOps10_W) : W70 m ρ c (Proc.devRef .tc r) = W69 m ρ c (Proc.devRef .tc r) :=
  StableHlo.after_of_writes_sub hostOps10 _ hostOps10_writes h
theorem W71_of (c : Dev nD) (r : Ref sig .tc) (h : r ∉ hostOps10_1_W) : W71 m ρ c (Proc.devRef .tc r) = W70 m ρ c (Proc.devRef .tc r) :=
  StableHlo.after_of_writes_sub hostOps10_1 _ hostOps10_1_writes h
theorem W72_of (c : Dev nD) (r : Ref sig .tc) (h : r ∉ hostOps10_2_W) : W72 m ρ c (Proc.devRef .tc r) = W71 m ρ c (Proc.devRef .tc r) :=
  StableHlo.after_of_writes_sub hostOps10_2 _ hostOps10_2_writes h
theorem W73_of (c : Dev nD) (r : Ref sig .tc) (h : r ∉ hostOps10_3_W) : W73 m ρ c (Proc.devRef .tc r) = W72 m ρ c (Proc.devRef .tc r) :=
  StableHlo.after_of_writes_sub hostOps10_3 _ hostOps10_3_writes h
theorem W74_of (c : Dev nD) (r : Ref sig .tc) (h : r ∉ hostOps10_4_W) : W74 m ρ c (Proc.devRef .tc r) = W73 m ρ c (Proc.devRef .tc r) :=
  StableHlo.after_of_writes_sub hostOps10_4 _ hostOps10_4_writes h
theorem W75_of (c : Dev nD) (r : Ref sig .tc) (h : r ∉ hostOps10_5_W) : W75 m ρ c (Proc.devRef .tc r) = W74 m ρ c (Proc.devRef .tc r) :=
  StableHlo.after_of_writes_sub hostOps10_5 _ hostOps10_5_writes h
/-- Region 10 changes its output array only: an input window's array is left as entered, and so is every buffer that is no window's array. -/
theorem W76_of (c : Dev nD) (r : Ref sig .tc) (h : r ∉ ([main_v444] : List (Ref sig .tc))) : W76 m ρ c (Proc.devRef .tc r) = W75 m ρ c (Proc.devRef .tc r) := by
  by_cases hr : ∃ w, Pipeline.arrRef spec10 w = r
  · obtain ⟨w, rfl⟩ := hr
    have hin : (cfg10.win w).isOut = false :=
      (by decide : ∀ w : Fin cfg10.W, Pipeline.arrRef spec10 w ∉ ([main_v444] : List (Ref sig .tc)) → (cfg10.win w).isOut = false) w h
    exact (W76_arr m ρ c w).trans (((dat10 (V75 m ρ) c).arrAt_in w hin _).trans (A_eq10 (V75 m ρ) c w))
  · exact W76_of_ne m ρ c r fun w e => hr ⟨w, e⟩
theorem W77_of (c : Dev nD) (r : Ref sig .tc) (h : r ∉ hostOps11_W) : W77 m ρ c (Proc.devRef .tc r) = W76 m ρ c (Proc.devRef .tc r) :=
  StableHlo.after_of_writes_sub hostOps11 _ hostOps11_writes h
/-- Region 11 changes its output array only: an input window's array is left as entered, and so is every buffer that is no window's array. -/
theorem W78_of (c : Dev nD) (r : Ref sig .tc) (h : r ∉ ([main_v469] : List (Ref sig .tc))) : W78 m ρ c (Proc.devRef .tc r) = W77 m ρ c (Proc.devRef .tc r) := by
  by_cases hr : ∃ w, Pipeline.arrRef spec11 w = r
  · obtain ⟨w, rfl⟩ := hr
    have hin : (cfg11.win w).isOut = false :=
      (by decide : ∀ w : Fin cfg11.W, Pipeline.arrRef spec11 w ∉ ([main_v469] : List (Ref sig .tc)) → (cfg11.win w).isOut = false) w h
    exact (W78_arr m ρ c w).trans (((dat11 (V77 m ρ) c).arrAt_in w hin _).trans (A_eq11 (V77 m ρ) c w))
  · exact W78_of_ne m ρ c r fun w e => hr ⟨w, e⟩
theorem W79_of (c : Dev nD) (r : Ref sig .tc) (h : r ∉ hostOps12_W) : W79 m ρ c (Proc.devRef .tc r) = W78 m ρ c (Proc.devRef .tc r) :=
  StableHlo.after_of_writes_sub hostOps12 _ hostOps12_writes h
theorem W80_of (c : Dev nD) (r : Ref sig .tc) (h : r ∉ hostOps12_1_W) : W80 m ρ c (Proc.devRef .tc r) = W79 m ρ c (Proc.devRef .tc r) :=
  StableHlo.after_of_writes_sub hostOps12_1 _ hostOps12_1_writes h
theorem W81_of (c : Dev nD) (r : Ref sig .tc) (h : r ∉ hostOps12_2_W) : W81 m ρ c (Proc.devRef .tc r) = W80 m ρ c (Proc.devRef .tc r) :=
  StableHlo.after_of_writes_sub hostOps12_2 _ hostOps12_2_writes h
theorem W82_of (c : Dev nD) (r : Ref sig .tc) (h : r ∉ hostOps12_3_W) : W82 m ρ c (Proc.devRef .tc r) = W81 m ρ c (Proc.devRef .tc r) :=
  StableHlo.after_of_writes_sub hostOps12_3 _ hostOps12_3_writes h
/-- Region 12 changes its output array only: an input window's array is left as entered, and so is every buffer that is no window's array. -/
theorem W83_of (c : Dev nD) (r : Ref sig .tc) (h : r ∉ ([main_v490] : List (Ref sig .tc))) : W83 m ρ c (Proc.devRef .tc r) = W82 m ρ c (Proc.devRef .tc r) := by
  by_cases hr : ∃ w, Pipeline.arrRef spec12 w = r
  · obtain ⟨w, rfl⟩ := hr
    have hin : (cfg12.win w).isOut = false :=
      (by decide : ∀ w : Fin cfg12.W, Pipeline.arrRef spec12 w ∉ ([main_v490] : List (Ref sig .tc)) → (cfg12.win w).isOut = false) w h
    exact (W83_arr m ρ c w).trans (((dat12 (V82 m ρ) c).arrAt_in w hin _).trans (A_eq12 (V82 m ρ) c w))
  · exact W83_of_ne m ρ c r fun w e => hr ⟨w, e⟩
theorem W84_of (c : Dev nD) (r : Ref sig .tc) (h : r ∉ hostOps13_W) : W84 m ρ c (Proc.devRef .tc r) = W83 m ρ c (Proc.devRef .tc r) :=
  StableHlo.after_of_writes_sub hostOps13 _ hostOps13_writes h

end Cert.Kernel.Gen

end
-- ==== Proof.K.Segs.lean ====
import proofs.«417513_j58866821759238_4_alg».proof.Proof.K.Fold
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 13) → (pcfgs (F := F) p).Adm := fun p => (cfgs p).toPCfg_adm
/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V22 m ρ) c
  | ⟨3, _⟩ => fun c => dat3 (V29 m ρ) c
  | ⟨4, _⟩ => fun c => dat4 (V31 m ρ) c
  | ⟨5, _⟩ => fun c => dat5 (V38 m ρ) c
  | ⟨6, _⟩ => fun c => dat6 (V40 m ρ) c
  | ⟨7, _⟩ => fun c => dat7 (V59 m ρ) c
  | ⟨8, _⟩ => fun c => dat8 (V66 m ρ) c
  | ⟨9, _⟩ => fun c => dat9 (V68 m ρ) c
  | ⟨10, _⟩ => fun c => dat10 (V75 m ρ) c
  | ⟨11, _⟩ => fun c => dat11 (V77 m ρ) c
  | ⟨12, _⟩ => fun c => dat12 (V82 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator register at some state. -/
abbrev Tₙ (c : Dev nD) : sProp 𝕄 := iprop(StableHlo.held (c : Thread nD τ) (Pipeline.ucRefs τ sig) (W84 m ρ c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the kernel's invariant and out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the kernel's invariant and out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W22`, left at `W23`. Its arrays are split out of the
    unscoped buffers and put back at the exit contents; the generator register goes into the kernel's invariant and out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V22 m ρ) c).loose
  hwaits := Pipeline.hwaits_of_owed_zero _ _ _ _ L lv 2 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec2 c (V22 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V22 m ρ c) (V23 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W29`, left at `W30`. Its arrays are split out of the
    unscoped buffers and put back at the exit contents; the generator register goes into the kernel's invariant and out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V29 m ρ) c).loose
  hwaits := Pipeline.hwaits_of_owed_zero _ _ _ _ L lv 3 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec3 c (V29 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V29 m ρ c) (V30 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W31`, left at `W32`. Its arrays are split out of the
    unscoped buffers and put back at the exit contents; the generator register goes into the kernel's invariant and out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V31 m ρ) c).loose
  hwaits := Pipeline.hwaits_of_owed_zero _ _ _ _ L lv 4 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec4 c (V31 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V31 m ρ c) (V32 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W38`, left at `W39`. Its arrays are split out of the
    unscoped buffers and put back at the exit contents; the generator register goes into the kernel's invariant and out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V38 m ρ) c).loose
  hwaits := Pipeline.hwaits_of_owed_zero _ _ _ _ L lv 5 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X c := iprop(∃ r, prngReg c r)
  Y c := iprop(∃ r, prngReg c r)
  Z c := Pipeline.unscopedRest (Ix := Unit) (Name := ℕ) (U := UR sig nD τ) (Lvl := ℕ) spec5 c (V38 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V38 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V38 m ρ c) (V39 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W40`, left at `W41`. Its arrays are split out of the
    unscoped buffers and put back at the exit contents; the generator register goes into the kernel's invariant and out; nothing is owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V40 m ρ) c).loose
  hwaits := Pipeline.hwaits_of_owed_zero _ _ _ _ L lv 6 fun _ _ => rfl
  pre c := iprop(StableHlo.held (c : Thread nD τ) (Pipeline.ucRefs τ sig) (W40 m ρ c) ∗ R c)
  post c := iprop(StableHlo.held (c : Thread nD τ) (Pipeline.ucRefs τ sig) (W41 m ρ c) ∗ R c)
  X c := iprop(∃ r, prngReg c r)
  Y c := iprop(∃ r, prngReg c r)
  Z c := Pipeline.unscopedRest (Ix := Unit) (Name := ℕ) (U := UR sig nD τ) (Lvl := ℕ) spec6 c (V40 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V40 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V40 m ρ c) (V41 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W59`, left at `W60`. Its arrays are split out of the
    unscoped buffers and put back at the exit contents; the generator register goes into the kernel's invariant and out; nothing is owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V59 m ρ) c).loose
  hwaits := Pipeline.hwaits_of_owed_zero _ _ _ _ L lv 7 fun _ _ => rfl
  pre c := iprop(StableHlo.held (c : Thread nD τ) (Pipeline.ucRefs τ sig) (W59 m ρ c) ∗ R c)
  post c := iprop(StableHlo.held (c : Thread nD τ) (Pipeline.ucRefs τ sig) (W60 m ρ c) ∗ R c)
  X c := iprop(∃ r, prngReg c r)
  Y c := iprop(∃ r, prngReg c r)
  Z c := Pipeline.unscopedRest (Ix := Unit) (Name := ℕ) (U := UR sig nD τ) (Lvl := ℕ) spec7 c (V59 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V59 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V59 m ρ c) (V60 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W66`, left at `W67`. Its arrays are split out of the
    unscoped buffers and put back at the exit contents; the generator register goes into the kernel's invariant and out; nothing is owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V66 m ρ) c).loose
  hwaits := Pipeline.hwaits_of_owed_zero _ _ _ _ L lv 8 fun _ _ => rfl
  pre c := iprop(StableHlo.held (c : Thread nD τ) (Pipeline.ucRefs τ sig) (W66 m ρ c) ∗ R c)
  post c := iprop(StableHlo.held (c : Thread nD τ) (Pipeline.ucRefs τ sig) (W67 m ρ c) ∗ R c)
  X c := iprop(∃ r, prngReg c r)
  Y c := iprop(∃ r, prngReg c r)
  Z c := Pipeline.unscopedRest (Ix := Unit) (Name := ℕ) (U := UR sig nD τ) (Lvl := ℕ) spec8 c (V66 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V66 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V66 m ρ c) (V67 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W68`, left at `W69`. Its arrays are split out of the
    unscoped buffers and put back at the exit contents; the generator register goes into the kernel's invariant and out; nothing is owed. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V68 m ρ) c).loose
  hwaits := Pipeline.hwaits_of_owed_zero _ _ _ _ L lv 9 fun _ _ => rfl
  pre c := iprop(StableHlo.held (c : Thread nD τ) (Pipeline.ucRefs τ sig) (W68 m ρ c) ∗ R c)
  post c := iprop(StableHlo.held (c : Thread nD τ) (Pipeline.ucRefs τ sig) (W69 m ρ c) ∗ R c)
  X c := iprop(∃ r, prngReg c r)
  Y c := iprop(∃ r, prngReg c r)
  Z c := Pipeline.unscopedRest (Ix := Unit) (Name := ℕ) (U := UR sig nD τ) (Lvl := ℕ) spec9 c (V68 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V68 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V68 m ρ c) (V69 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W75`, left at `W76`. Its arrays are split out of the
    unscoped buffers and put back at the exit contents; the generator register goes into the kernel's invariant and out; nothing is owed. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V75 m ρ) c).loose
  hwaits := Pipeline.hwaits_of_owed_zero _ _ _ _ L lv 10 fun _ _ => rfl
  pre c := iprop(StableHlo.held (c : Thread nD τ) (Pipeline.ucRefs τ sig) (W75 m ρ c) ∗ R c)
  post c := iprop(StableHlo.held (c : Thread nD τ) (Pipeline.ucRefs τ sig) (W76 m ρ c) ∗ R c)
  X c := iprop(∃ r, prngReg c r)
  Y c := iprop(∃ r, prngReg c r)
  Z c := Pipeline.unscopedRest (Ix := Unit) (Name := ℕ) (U := UR sig nD τ) (Lvl := ℕ) spec10 c (V75 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V75 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V75 m ρ c) (V76 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W77`, left at `W78`. Its arrays are split out of the
    unscoped buffers and put back at the exit contents; the generator register goes into the kernel's invariant and out; nothing is owed. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V77 m ρ) c).loose
  hwaits := Pipeline.hwaits_of_owed_zero _ _ _ _ L lv 11 fun _ _ => rfl
  pre c := iprop(StableHlo.held (c : Thread nD τ) (Pipeline.ucRefs τ sig) (W77 m ρ c) ∗ R c)
  post c := iprop(StableHlo.held (c : Thread nD τ) (Pipeline.ucRefs τ sig) (W78 m ρ c) ∗ R c)
  X c := iprop(∃ r, prngReg c r)
  Y c := iprop(∃ r, prngReg c r)
  Z c := Pipeline.unscopedRest (Ix := Unit) (Name := ℕ) (U := UR sig nD τ) (Lvl := ℕ) spec11 c (V77 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V77 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V77 m ρ c) (V78 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at `W82`, left at `W83`. Its arrays are split out of the
    unscoped buffers and put back at the exit contents; the generator register goes into the kernel's invariant and out; nothing is owed. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V82 m ρ) c).loose
  hwaits := Pipeline.hwaits_of_owed_zero _ _ _ _ L lv 12 fun _ _ => rfl
  pre c := iprop(StableHlo.held (c : Thread nD τ) (Pipeline.ucRefs τ sig) (W82 m ρ c) ∗ R c)
  post c := iprop(StableHlo.held (c : Thread nD τ) (Pipeline.ucRefs τ sig) (W83 m ρ c) ∗ R c)
  X c := iprop(∃ r, prngReg c r)
  Y c := iprop(∃ r, prngReg c r)
  Z c := Pipeline.unscopedRest (Ix := Unit) (Name := ℕ) (U := UR sig nD τ) (Lvl := ℕ) spec12 c (V82 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V82 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V82 m ρ c) (V83 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's 84 items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .host (hseg hostOps2_7 hostOps2_7_sub hostOps2_7_fresh (W11 m ρ)),
    .host (hseg hostOps2_8 hostOps2_8_sub hostOps2_8_fresh (W12 m ρ)),
    .host (hseg hostOps2_9 hostOps2_9_sub hostOps2_9_fresh (W13 m ρ)),
    .host (hseg hostOps2_10 hostOps2_10_sub hostOps2_10_fresh (W14 m ρ)),
    .host (hseg hostOps2_11 hostOps2_11_sub hostOps2_11_fresh (W15 m ρ)),
    .host (hseg hostOps2_12 hostOps2_12_sub hostOps2_12_fresh (W16 m ρ)),
    .host (hseg hostOps2_13 hostOps2_13_sub hostOps2_13_fresh (W17 m ρ)),
    .host (hseg hostOps2_14 hostOps2_14_sub hostOps2_14_fresh (W18 m ρ)),
    .host (hseg hostOps2_15 hostOps2_15_sub hostOps2_15_fresh (W19 m ρ)),
    .host (hseg hostOps2_16 hostOps2_16_sub hostOps2_16_fresh (W20 m ρ)),
    .host (hseg hostOps2_17 hostOps2_17_sub hostOps2_17_fresh (W21 m ρ)),
    .region (reg2 m ρ),
    .host (hseg hostOps3 hostOps3_sub hostOps3_fresh (W23 m ρ)),
    .host (hseg hostOps3_1 hostOps3_1_sub hostOps3_1_fresh (W24 m ρ)),
    .host (hseg hostOps3_2 hostOps3_2_sub hostOps3_2_fresh (W25 m ρ)),
    .host (hseg hostOps3_3 hostOps3_3_sub hostOps3_3_fresh (W26 m ρ)),
    .host (hseg hostOps3_4 hostOps3_4_sub hostOps3_4_fresh (W27 m ρ)),
    .host (hseg hostOps3_5 hostOps3_5_sub hostOps3_5_fresh (W28 m ρ)),
    .region (reg3 m ρ),
    .host (hseg hostOps4 hostOps4_sub hostOps4_fresh (W30 m ρ)),
    .region (reg4 m ρ),
    .host (hseg hostOps5 hostOps5_sub hostOps5_fresh (W32 m ρ)),
    .host (hseg hostOps5_1 hostOps5_1_sub hostOps5_1_fresh (W33 m ρ)),
    .host (hseg hostOps5_2 hostOps5_2_sub hostOps5_2_fresh (W34 m ρ)),
    .host (hseg hostOps5_3 hostOps5_3_sub hostOps5_3_fresh (W35 m ρ)),
    .host (hseg hostOps5_4 hostOps5_4_sub hostOps5_4_fresh (W36 m ρ)),
    .host (hseg hostOps5_5 hostOps5_5_sub hostOps5_5_fresh (W37 m ρ)),
    .region (reg5 m ρ),
    .host (hseg hostOps6 hostOps6_sub hostOps6_fresh (W39 m ρ)),
    .region (reg6 m ρ),
    .host (hseg hostOps7 hostOps7_sub hostOps7_fresh (W41 m ρ)),
    .host (hseg hostOps7_1 hostOps7_1_sub hostOps7_1_fresh (W42 m ρ)),
    .host (hseg hostOps7_2 hostOps7_2_sub hostOps7_2_fresh (W43 m ρ)),
    .host (hseg hostOps7_3 hostOps7_3_sub hostOps7_3_fresh (W44 m ρ)),
    .host (hseg hostOps7_4 hostOps7_4_sub hostOps7_4_fresh (W45 m ρ)),
    .host (hseg hostOps7_5 hostOps7_5_sub hostOps7_5_fresh (W46 m ρ)),
    .host (hseg hostOps7_6 hostOps7_6_sub hostOps7_6_fresh (W47 m ρ)),
    .host (hseg hostOps7_7 hostOps7_7_sub hostOps7_7_fresh (W48 m ρ)),
    .host (hseg hostOps7_8 hostOps7_8_sub hostOps7_8_fresh (W49 m ρ)),
    .host (hseg hostOps7_9 hostOps7_9_sub hostOps7_9_fresh (W50 m ρ)),
    .host (hseg hostOps7_10 hostOps7_10_sub hostOps7_10_fresh (W51 m ρ)),
    .host (hseg hostOps7_11 hostOps7_11_sub hostOps7_11_fresh (W52 m ρ)),
    .host (hseg hostOps7_12 hostOps7_12_sub hostOps7_12_fresh (W53 m ρ)),
    .host (hseg hostOps7_13 hostOps7_13_sub hostOps7_13_fresh (W54 m ρ)),
    .host (hseg hostOps7_14 hostOps7_14_sub hostOps7_14_fresh (W55 m ρ)),
    .host (hseg hostOps7_15 hostOps7_15_sub hostOps7_15_fresh (W56 m ρ)),
    .host (hseg hostOps7_16 hostOps7_16_sub hostOps7_16_fresh (W57 m ρ)),
    .host (hseg hostOps7_17 hostOps7_17_sub hostOps7_17_fresh (W58 m ρ)),
    .region (reg7 m ρ),
    .host (hseg hostOps8 hostOps8_sub hostOps8_fresh (W60 m ρ)),
    .host (hseg hostOps8_1 hostOps8_1_sub hostOps8_1_fresh (W61 m ρ)),
    .host (hseg hostOps8_2 hostOps8_2_sub hostOps8_2_fresh (W62 m ρ)),
    .host (hseg hostOps8_3 hostOps8_3_sub hostOps8_3_fresh (W63 m ρ)),
    .host (hseg hostOps8_4 hostOps8_4_sub hostOps8_4_fresh (W64 m ρ)),
    .host (hseg hostOps8_5 hostOps8_5_sub hostOps8_5_fresh (W65 m ρ)),
    .region (reg8 m ρ),
    .host (hseg hostOps9 hostOps9_sub hostOps9_fresh (W67 m ρ)),
    .region (reg9 m ρ),
    .host (hseg hostOps10 hostOps10_sub hostOps10_fresh (W69 m ρ)),
    .host (hseg hostOps10_1 hostOps10_1_sub hostOps10_1_fresh (W70 m ρ)),
    .host (hseg hostOps10_2 hostOps10_2_sub hostOps10_2_fresh (W71 m ρ)),
    .host (hseg hostOps10_3 hostOps10_3_sub hostOps10_3_fresh (W72 m ρ)),
    .host (hseg hostOps10_4 hostOps10_4_sub hostOps10_4_fresh (W73 m ρ)),
    .host (hseg hostOps10_5 hostOps10_5_sub hostOps10_5_fresh (W74 m ρ)),
    .region (reg10 m ρ),
    .host (hseg hostOps11 hostOps11_sub hostOps11_fresh (W76 m ρ)),
    .region (reg11 m ρ),
    .host (hseg hostOps12 hostOps12_sub hostOps12_fresh (W78 m ρ)),
    .host (hseg hostOps12_1 hostOps12_1_sub hostOps12_1_fresh (W79 m ρ)),
    .host (hseg hostOps12_2 hostOps12_2_sub hostOps12_2_fresh (W80 m ρ)),
    .host (hseg hostOps12_3 hostOps12_3_sub hostOps12_3_fresh (W81 m ρ)),
    .region (reg12 m ρ),
    .host (hseg hostOps13 hostOps13_sub hostOps13_fresh (W83 m ρ)) ]
/-- @main IS the run of the segments. -/
theorem main_run (c : Dev nD) : main (F := F) c = Pipeline.Seg.run (segs m ρ) := (main_chain c).trans (by chain_rfl)

end Cert.Kernel.Gen

end
-- ==== Proof.K.Args.lean ====
import proofs.«417513_j58866821759238_4_alg».proof.Proof.K.Fold
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item of @main writes an argument: each argument's buffer at the end holds its launch contents -/

theorem W84_main_arg0 (c : Dev nD) : W84 m ρ c (Proc.devRef .tc main_arg0) = m ((c : Thread nD τ).loc main_arg0) :=
  (W84_of m ρ c main_arg0 (by decide)).trans <| (W83_of m ρ c main_arg0 (by decide)).trans <| (W82_of m ρ c main_arg0 (by decide)).trans <| (W81_of m ρ c main_arg0 (by decide)).trans <| (W80_of m ρ c main_arg0 (by decide)).trans <| (W79_of m ρ c main_arg0 (by decide)).trans <| (W78_of m ρ c main_arg0 (by decide)).trans <| (W77_of m ρ c main_arg0 (by decide)).trans <| (W76_of m ρ c main_arg0 (by decide)).trans <| (W75_of m ρ c main_arg0 (by decide)).trans <| (W74_of m ρ c main_arg0 (by decide)).trans <| (W73_of m ρ c main_arg0 (by decide)).trans <| (W72_of m ρ c main_arg0 (by decide)).trans <| (W71_of m ρ c main_arg0 (by decide)).trans <| (W70_of m ρ c main_arg0 (by decide)).trans <| (W69_of m ρ c main_arg0 (by decide)).trans <| (W68_of m ρ c main_arg0 (by decide)).trans <| (W67_of m ρ c main_arg0 (by decide)).trans <| (W66_of m ρ c main_arg0 (by decide)).trans <| (W65_of m ρ c main_arg0 (by decide)).trans <| (W64_of m ρ c main_arg0 (by decide)).trans <| (W63_of m ρ c main_arg0 (by decide)).trans <| (W62_of m ρ c main_arg0 (by decide)).trans <| (W61_of m ρ c main_arg0 (by decide)).trans <| (W60_of m ρ c main_arg0 (by decide)).trans <| (W59_of m ρ c main_arg0 (by decide)).trans <| (W58_of m ρ c main_arg0 (by decide)).trans <| (W57_of m ρ c main_arg0 (by decide)).trans <| (W56_of m ρ c main_arg0 (by decide)).trans <| (W55_of m ρ c main_arg0 (by decide)).trans <| (W54_of m ρ c main_arg0 (by decide)).trans <| (W53_of m ρ c main_arg0 (by decide)).trans <| (W52_of m ρ c main_arg0 (by decide)).trans <| (W51_of m ρ c main_arg0 (by decide)).trans <| (W50_of m ρ c main_arg0 (by decide)).trans <| (W49_of m ρ c main_arg0 (by decide)).trans <| (W48_of m ρ c main_arg0 (by decide)).trans <| (W47_of m ρ c main_arg0 (by decide)).trans <| (W46_of m ρ c main_arg0 (by decide)).trans <| (W45_of m ρ c main_arg0 (by decide)).trans <| (W44_of m ρ c main_arg0 (by decide)).trans <| (W43_of m ρ c main_arg0 (by decide)).trans <| (W42_of m ρ c main_arg0 (by decide)).trans <| (W41_of m ρ c main_arg0 (by decide)).trans <| (W40_of m ρ c main_arg0 (by decide)).trans <| (W39_of m ρ c main_arg0 (by decide)).trans <| (W38_of m ρ c main_arg0 (by decide)).trans <| (W37_of m ρ c main_arg0 (by decide)).trans <| (W36_of m ρ c main_arg0 (by decide)).trans <| (W35_of m ρ c main_arg0 (by decide)).trans <| (W34_of m ρ c main_arg0 (by decide)).trans <| (W33_of m ρ c main_arg0 (by decide)).trans <| (W32_of m ρ c main_arg0 (by decide)).trans <| (W31_of m ρ c main_arg0 (by decide)).trans <| (W30_of m ρ c main_arg0 (by decide)).trans <| (W29_of m ρ c main_arg0 (by decide)).trans <| (W28_of m ρ c main_arg0 (by decide)).trans <| (W27_of m ρ c main_arg0 (by decide)).trans <| (W26_of m ρ c main_arg0 (by decide)).trans <| (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans rfl
theorem W84_main_arg1 (c : Dev nD) : W84 m ρ c (Proc.devRef .tc main_arg1) = m ((c : Thread nD τ).loc main_arg1) :=
  (W84_of m ρ c main_arg1 (by decide)).trans <| (W83_of m ρ c main_arg1 (by decide)).trans <| (W82_of m ρ c main_arg1 (by decide)).trans <| (W81_of m ρ c main_arg1 (by decide)).trans <| (W80_of m ρ c main_arg1 (by decide)).trans <| (W79_of m ρ c main_arg1 (by decide)).trans <| (W78_of m ρ c main_arg1 (by decide)).trans <| (W77_of m ρ c main_arg1 (by decide)).trans <| (W76_of m ρ c main_arg1 (by decide)).trans <| (W75_of m ρ c main_arg1 (by decide)).trans <| (W74_of m ρ c main_arg1 (by decide)).trans <| (W73_of m ρ c main_arg1 (by decide)).trans <| (W72_of m ρ c main_arg1 (by decide)).trans <| (W71_of m ρ c main_arg1 (by decide)).trans <| (W70_of m ρ c main_arg1 (by decide)).trans <| (W69_of m ρ c main_arg1 (by decide)).trans <| (W68_of m ρ c main_arg1 (by decide)).trans <| (W67_of m ρ c main_arg1 (by decide)).trans <| (W66_of m ρ c main_arg1 (by decide)).trans <| (W65_of m ρ c main_arg1 (by decide)).trans <| (W64_of m ρ c main_arg1 (by decide)).trans <| (W63_of m ρ c main_arg1 (by decide)).trans <| (W62_of m ρ c main_arg1 (by decide)).trans <| (W61_of m ρ c main_arg1 (by decide)).trans <| (W60_of m ρ c main_arg1 (by decide)).trans <| (W59_of m ρ c main_arg1 (by decide)).trans <| (W58_of m ρ c main_arg1 (by decide)).trans <| (W57_of m ρ c main_arg1 (by decide)).trans <| (W56_of m ρ c main_arg1 (by decide)).trans <| (W55_of m ρ c main_arg1 (by decide)).trans <| (W54_of m ρ c main_arg1 (by decide)).trans <| (W53_of m ρ c main_arg1 (by decide)).trans <| (W52_of m ρ c main_arg1 (by decide)).trans <| (W51_of m ρ c main_arg1 (by decide)).trans <| (W50_of m ρ c main_arg1 (by decide)).trans <| (W49_of m ρ c main_arg1 (by decide)).trans <| (W48_of m ρ c main_arg1 (by decide)).trans <| (W47_of m ρ c main_arg1 (by decide)).trans <| (W46_of m ρ c main_arg1 (by decide)).trans <| (W45_of m ρ c main_arg1 (by decide)).trans <| (W44_of m ρ c main_arg1 (by decide)).trans <| (W43_of m ρ c main_arg1 (by decide)).trans <| (W42_of m ρ c main_arg1 (by decide)).trans <| (W41_of m ρ c main_arg1 (by decide)).trans <| (W40_of m ρ c main_arg1 (by decide)).trans <| (W39_of m ρ c main_arg1 (by decide)).trans <| (W38_of m ρ c main_arg1 (by decide)).trans <| (W37_of m ρ c main_arg1 (by decide)).trans <| (W36_of m ρ c main_arg1 (by decide)).trans <| (W35_of m ρ c main_arg1 (by decide)).trans <| (W34_of m ρ c main_arg1 (by decide)).trans <| (W33_of m ρ c main_arg1 (by decide)).trans <| (W32_of m ρ c main_arg1 (by decide)).trans <| (W31_of m ρ c main_arg1 (by decide)).trans <| (W30_of m ρ c main_arg1 (by decide)).trans <| (W29_of m ρ c main_arg1 (by decide)).trans <| (W28_of m ρ c main_arg1 (by decide)).trans <| (W27_of m ρ c main_arg1 (by decide)).trans <| (W26_of m ρ c main_arg1 (by decide)).trans <| (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl
theorem W84_main_arg2 (c : Dev nD) : W84 m ρ c (Proc.devRef .tc main_arg2) = m ((c : Thread nD τ).loc main_arg2) :=
  (W84_of m ρ c main_arg2 (by decide)).trans <| (W83_of m ρ c main_arg2 (by decide)).trans <| (W82_of m ρ c main_arg2 (by decide)).trans <| (W81_of m ρ c main_arg2 (by decide)).trans <| (W80_of m ρ c main_arg2 (by decide)).trans <| (W79_of m ρ c main_arg2 (by decide)).trans <| (W78_of m ρ c main_arg2 (by decide)).trans <| (W77_of m ρ c main_arg2 (by decide)).trans <| (W76_of m ρ c main_arg2 (by decide)).trans <| (W75_of m ρ c main_arg2 (by decide)).trans <| (W74_of m ρ c main_arg2 (by decide)).trans <| (W73_of m ρ c main_arg2 (by decide)).trans <| (W72_of m ρ c main_arg2 (by decide)).trans <| (W71_of m ρ c main_arg2 (by decide)).trans <| (W70_of m ρ c main_arg2 (by decide)).trans <| (W69_of m ρ c main_arg2 (by decide)).trans <| (W68_of m ρ c main_arg2 (by decide)).trans <| (W67_of m ρ c main_arg2 (by decide)).trans <| (W66_of m ρ c main_arg2 (by decide)).trans <| (W65_of m ρ c main_arg2 (by decide)).trans <| (W64_of m ρ c main_arg2 (by decide)).trans <| (W63_of m ρ c main_arg2 (by decide)).trans <| (W62_of m ρ c main_arg2 (by decide)).trans <| (W61_of m ρ c main_arg2 (by decide)).trans <| (W60_of m ρ c main_arg2 (by decide)).trans <| (W59_of m ρ c main_arg2 (by decide)).trans <| (W58_of m ρ c main_arg2 (by decide)).trans <| (W57_of m ρ c main_arg2 (by decide)).trans <| (W56_of m ρ c main_arg2 (by decide)).trans <| (W55_of m ρ c main_arg2 (by decide)).trans <| (W54_of m ρ c main_arg2 (by decide)).trans <| (W53_of m ρ c main_arg2 (by decide)).trans <| (W52_of m ρ c main_arg2 (by decide)).trans <| (W51_of m ρ c main_arg2 (by decide)).trans <| (W50_of m ρ c main_arg2 (by decide)).trans <| (W49_of m ρ c main_arg2 (by decide)).trans <| (W48_of m ρ c main_arg2 (by decide)).trans <| (W47_of m ρ c main_arg2 (by decide)).trans <| (W46_of m ρ c main_arg2 (by decide)).trans <| (W45_of m ρ c main_arg2 (by decide)).trans <| (W44_of m ρ c main_arg2 (by decide)).trans <| (W43_of m ρ c main_arg2 (by decide)).trans <| (W42_of m ρ c main_arg2 (by decide)).trans <| (W41_of m ρ c main_arg2 (by decide)).trans <| (W40_of m ρ c main_arg2 (by decide)).trans <| (W39_of m ρ c main_arg2 (by decide)).trans <| (W38_of m ρ c main_arg2 (by decide)).trans <| (W37_of m ρ c main_arg2 (by decide)).trans <| (W36_of m ρ c main_arg2 (by decide)).trans <| (W35_of m ρ c main_arg2 (by decide)).trans <| (W34_of m ρ c main_arg2 (by decide)).trans <| (W33_of m ρ c main_arg2 (by decide)).trans <| (W32_of m ρ c main_arg2 (by decide)).trans <| (W31_of m ρ c main_arg2 (by decide)).trans <| (W30_of m ρ c main_arg2 (by decide)).trans <| (W29_of m ρ c main_arg2 (by decide)).trans <| (W28_of m ρ c main_arg2 (by decide)).trans <| (W27_of m ρ c main_arg2 (by decide)).trans <| (W26_of m ρ c main_arg2 (by decide)).trans <| (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W84_main_arg3 (c : Dev nD) : W84 m ρ c (Proc.devRef .tc main_arg3) = m ((c : Thread nD τ).loc main_arg3) :=
  (W84_of m ρ c main_arg3 (by decide)).trans <| (W83_of m ρ c main_arg3 (by decide)).trans <| (W82_of m ρ c main_arg3 (by decide)).trans <| (W81_of m ρ c main_arg3 (by decide)).trans <| (W80_of m ρ c main_arg3 (by decide)).trans <| (W79_of m ρ c main_arg3 (by decide)).trans <| (W78_of m ρ c main_arg3 (by decide)).trans <| (W77_of m ρ c main_arg3 (by decide)).trans <| (W76_of m ρ c main_arg3 (by decide)).trans <| (W75_of m ρ c main_arg3 (by decide)).trans <| (W74_of m ρ c main_arg3 (by decide)).trans <| (W73_of m ρ c main_arg3 (by decide)).trans <| (W72_of m ρ c main_arg3 (by decide)).trans <| (W71_of m ρ c main_arg3 (by decide)).trans <| (W70_of m ρ c main_arg3 (by decide)).trans <| (W69_of m ρ c main_arg3 (by decide)).trans <| (W68_of m ρ c main_arg3 (by decide)).trans <| (W67_of m ρ c main_arg3 (by decide)).trans <| (W66_of m ρ c main_arg3 (by decide)).trans <| (W65_of m ρ c main_arg3 (by decide)).trans <| (W64_of m ρ c main_arg3 (by decide)).trans <| (W63_of m ρ c main_arg3 (by decide)).trans <| (W62_of m ρ c main_arg3 (by decide)).trans <| (W61_of m ρ c main_arg3 (by decide)).trans <| (W60_of m ρ c main_arg3 (by decide)).trans <| (W59_of m ρ c main_arg3 (by decide)).trans <| (W58_of m ρ c main_arg3 (by decide)).trans <| (W57_of m ρ c main_arg3 (by decide)).trans <| (W56_of m ρ c main_arg3 (by decide)).trans <| (W55_of m ρ c main_arg3 (by decide)).trans <| (W54_of m ρ c main_arg3 (by decide)).trans <| (W53_of m ρ c main_arg3 (by decide)).trans <| (W52_of m ρ c main_arg3 (by decide)).trans <| (W51_of m ρ c main_arg3 (by decide)).trans <| (W50_of m ρ c main_arg3 (by decide)).trans <| (W49_of m ρ c main_arg3 (by decide)).trans <| (W48_of m ρ c main_arg3 (by decide)).trans <| (W47_of m ρ c main_arg3 (by decide)).trans <| (W46_of m ρ c main_arg3 (by decide)).trans <| (W45_of m ρ c main_arg3 (by decide)).trans <| (W44_of m ρ c main_arg3 (by decide)).trans <| (W43_of m ρ c main_arg3 (by decide)).trans <| (W42_of m ρ c main_arg3 (by decide)).trans <| (W41_of m ρ c main_arg3 (by decide)).trans <| (W40_of m ρ c main_arg3 (by decide)).trans <| (W39_of m ρ c main_arg3 (by decide)).trans <| (W38_of m ρ c main_arg3 (by decide)).trans <| (W37_of m ρ c main_arg3 (by decide)).trans <| (W36_of m ρ c main_arg3 (by decide)).trans <| (W35_of m ρ c main_arg3 (by decide)).trans <| (W34_of m ρ c main_arg3 (by decide)).trans <| (W33_of m ρ c main_arg3 (by decide)).trans <| (W32_of m ρ c main_arg3 (by decide)).trans <| (W31_of m ρ c main_arg3 (by decide)).trans <| (W30_of m ρ c main_arg3 (by decide)).trans <| (W29_of m ρ c main_arg3 (by decide)).trans <| (W28_of m ρ c main_arg3 (by decide)).trans <| (W27_of m ρ c main_arg3 (by decide)).trans <| (W26_of m ρ c main_arg3 (by decide)).trans <| (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem W84_main_arg4 (c : Dev nD) : W84 m ρ c (Proc.devRef .tc main_arg4) = m ((c : Thread nD τ).loc main_arg4) :=
  (W84_of m ρ c main_arg4 (by decide)).trans <| (W83_of m ρ c main_arg4 (by decide)).trans <| (W82_of m ρ c main_arg4 (by decide)).trans <| (W81_of m ρ c main_arg4 (by decide)).trans <| (W80_of m ρ c main_arg4 (by decide)).trans <| (W79_of m ρ c main_arg4 (by decide)).trans <| (W78_of m ρ c main_arg4 (by decide)).trans <| (W77_of m ρ c main_arg4 (by decide)).trans <| (W76_of m ρ c main_arg4 (by decide)).trans <| (W75_of m ρ c main_arg4 (by decide)).trans <| (W74_of m ρ c main_arg4 (by decide)).trans <| (W73_of m ρ c main_arg4 (by decide)).trans <| (W72_of m ρ c main_arg4 (by decide)).trans <| (W71_of m ρ c main_arg4 (by decide)).trans <| (W70_of m ρ c main_arg4 (by decide)).trans <| (W69_of m ρ c main_arg4 (by decide)).trans <| (W68_of m ρ c main_arg4 (by decide)).trans <| (W67_of m ρ c main_arg4 (by decide)).trans <| (W66_of m ρ c main_arg4 (by decide)).trans <| (W65_of m ρ c main_arg4 (by decide)).trans <| (W64_of m ρ c main_arg4 (by decide)).trans <| (W63_of m ρ c main_arg4 (by decide)).trans <| (W62_of m ρ c main_arg4 (by decide)).trans <| (W61_of m ρ c main_arg4 (by decide)).trans <| (W60_of m ρ c main_arg4 (by decide)).trans <| (W59_of m ρ c main_arg4 (by decide)).trans <| (W58_of m ρ c main_arg4 (by decide)).trans <| (W57_of m ρ c main_arg4 (by decide)).trans <| (W56_of m ρ c main_arg4 (by decide)).trans <| (W55_of m ρ c main_arg4 (by decide)).trans <| (W54_of m ρ c main_arg4 (by decide)).trans <| (W53_of m ρ c main_arg4 (by decide)).trans <| (W52_of m ρ c main_arg4 (by decide)).trans <| (W51_of m ρ c main_arg4 (by decide)).trans <| (W50_of m ρ c main_arg4 (by decide)).trans <| (W49_of m ρ c main_arg4 (by decide)).trans <| (W48_of m ρ c main_arg4 (by decide)).trans <| (W47_of m ρ c main_arg4 (by decide)).trans <| (W46_of m ρ c main_arg4 (by decide)).trans <| (W45_of m ρ c main_arg4 (by decide)).trans <| (W44_of m ρ c main_arg4 (by decide)).trans <| (W43_of m ρ c main_arg4 (by decide)).trans <| (W42_of m ρ c main_arg4 (by decide)).trans <| (W41_of m ρ c main_arg4 (by decide)).trans <| (W40_of m ρ c main_arg4 (by decide)).trans <| (W39_of m ρ c main_arg4 (by decide)).trans <| (W38_of m ρ c main_arg4 (by decide)).trans <| (W37_of m ρ c main_arg4 (by decide)).trans <| (W36_of m ρ c main_arg4 (by decide)).trans <| (W35_of m ρ c main_arg4 (by decide)).trans <| (W34_of m ρ c main_arg4 (by decide)).trans <| (W33_of m ρ c main_arg4 (by decide)).trans <| (W32_of m ρ c main_arg4 (by decide)).trans <| (W31_of m ρ c main_arg4 (by decide)).trans <| (W30_of m ρ c main_arg4 (by decide)).trans <| (W29_of m ρ c main_arg4 (by decide)).trans <| (W28_of m ρ c main_arg4 (by decide)).trans <| (W27_of m ρ c main_arg4 (by decide)).trans <| (W26_of m ρ c main_arg4 (by decide)).trans <| (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W84_main_arg5 (c : Dev nD) : W84 m ρ c (Proc.devRef .tc main_arg5) = m ((c : Thread nD τ).loc main_arg5) :=
  (W84_of m ρ c main_arg5 (by decide)).trans <| (W83_of m ρ c main_arg5 (by decide)).trans <| (W82_of m ρ c main_arg5 (by decide)).trans <| (W81_of m ρ c main_arg5 (by decide)).trans <| (W80_of m ρ c main_arg5 (by decide)).trans <| (W79_of m ρ c main_arg5 (by decide)).trans <| (W78_of m ρ c main_arg5 (by decide)).trans <| (W77_of m ρ c main_arg5 (by decide)).trans <| (W76_of m ρ c main_arg5 (by decide)).trans <| (W75_of m ρ c main_arg5 (by decide)).trans <| (W74_of m ρ c main_arg5 (by decide)).trans <| (W73_of m ρ c main_arg5 (by decide)).trans <| (W72_of m ρ c main_arg5 (by decide)).trans <| (W71_of m ρ c main_arg5 (by decide)).trans <| (W70_of m ρ c main_arg5 (by decide)).trans <| (W69_of m ρ c main_arg5 (by decide)).trans <| (W68_of m ρ c main_arg5 (by decide)).trans <| (W67_of m ρ c main_arg5 (by decide)).trans <| (W66_of m ρ c main_arg5 (by decide)).trans <| (W65_of m ρ c main_arg5 (by decide)).trans <| (W64_of m ρ c main_arg5 (by decide)).trans <| (W63_of m ρ c main_arg5 (by decide)).trans <| (W62_of m ρ c main_arg5 (by decide)).trans <| (W61_of m ρ c main_arg5 (by decide)).trans <| (W60_of m ρ c main_arg5 (by decide)).trans <| (W59_of m ρ c main_arg5 (by decide)).trans <| (W58_of m ρ c main_arg5 (by decide)).trans <| (W57_of m ρ c main_arg5 (by decide)).trans <| (W56_of m ρ c main_arg5 (by decide)).trans <| (W55_of m ρ c main_arg5 (by decide)).trans <| (W54_of m ρ c main_arg5 (by decide)).trans <| (W53_of m ρ c main_arg5 (by decide)).trans <| (W52_of m ρ c main_arg5 (by decide)).trans <| (W51_of m ρ c main_arg5 (by decide)).trans <| (W50_of m ρ c main_arg5 (by decide)).trans <| (W49_of m ρ c main_arg5 (by decide)).trans <| (W48_of m ρ c main_arg5 (by decide)).trans <| (W47_of m ρ c main_arg5 (by decide)).trans <| (W46_of m ρ c main_arg5 (by decide)).trans <| (W45_of m ρ c main_arg5 (by decide)).trans <| (W44_of m ρ c main_arg5 (by decide)).trans <| (W43_of m ρ c main_arg5 (by decide)).trans <| (W42_of m ρ c main_arg5 (by decide)).trans <| (W41_of m ρ c main_arg5 (by decide)).trans <| (W40_of m ρ c main_arg5 (by decide)).trans <| (W39_of m ρ c main_arg5 (by decide)).trans <| (W38_of m ρ c main_arg5 (by decide)).trans <| (W37_of m ρ c main_arg5 (by decide)).trans <| (W36_of m ρ c main_arg5 (by decide)).trans <| (W35_of m ρ c main_arg5 (by decide)).trans <| (W34_of m ρ c main_arg5 (by decide)).trans <| (W33_of m ρ c main_arg5 (by decide)).trans <| (W32_of m ρ c main_arg5 (by decide)).trans <| (W31_of m ρ c main_arg5 (by decide)).trans <| (W30_of m ρ c main_arg5 (by decide)).trans <| (W29_of m ρ c main_arg5 (by decide)).trans <| (W28_of m ρ c main_arg5 (by decide)).trans <| (W27_of m ρ c main_arg5 (by decide)).trans <| (W26_of m ρ c main_arg5 (by decide)).trans <| (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans rfl
theorem W84_main_arg6 (c : Dev nD) : W84 m ρ c (Proc.devRef .tc main_arg6) = m ((c : Thread nD τ).loc main_arg6) :=
  (W84_of m ρ c main_arg6 (by decide)).trans <| (W83_of m ρ c main_arg6 (by decide)).trans <| (W82_of m ρ c main_arg6 (by decide)).trans <| (W81_of m ρ c main_arg6 (by decide)).trans <| (W80_of m ρ c main_arg6 (by decide)).trans <| (W79_of m ρ c main_arg6 (by decide)).trans <| (W78_of m ρ c main_arg6 (by decide)).trans <| (W77_of m ρ c main_arg6 (by decide)).trans <| (W76_of m ρ c main_arg6 (by decide)).trans <| (W75_of m ρ c main_arg6 (by decide)).trans <| (W74_of m ρ c main_arg6 (by decide)).trans <| (W73_of m ρ c main_arg6 (by decide)).trans <| (W72_of m ρ c main_arg6 (by decide)).trans <| (W71_of m ρ c main_arg6 (by decide)).trans <| (W70_of m ρ c main_arg6 (by decide)).trans <| (W69_of m ρ c main_arg6 (by decide)).trans <| (W68_of m ρ c main_arg6 (by decide)).trans <| (W67_of m ρ c main_arg6 (by decide)).trans <| (W66_of m ρ c main_arg6 (by decide)).trans <| (W65_of m ρ c main_arg6 (by decide)).trans <| (W64_of m ρ c main_arg6 (by decide)).trans <| (W63_of m ρ c main_arg6 (by decide)).trans <| (W62_of m ρ c main_arg6 (by decide)).trans <| (W61_of m ρ c main_arg6 (by decide)).trans <| (W60_of m ρ c main_arg6 (by decide)).trans <| (W59_of m ρ c main_arg6 (by decide)).trans <| (W58_of m ρ c main_arg6 (by decide)).trans <| (W57_of m ρ c main_arg6 (by decide)).trans <| (W56_of m ρ c main_arg6 (by decide)).trans <| (W55_of m ρ c main_arg6 (by decide)).trans <| (W54_of m ρ c main_arg6 (by decide)).trans <| (W53_of m ρ c main_arg6 (by decide)).trans <| (W52_of m ρ c main_arg6 (by decide)).trans <| (W51_of m ρ c main_arg6 (by decide)).trans <| (W50_of m ρ c main_arg6 (by decide)).trans <| (W49_of m ρ c main_arg6 (by decide)).trans <| (W48_of m ρ c main_arg6 (by decide)).trans <| (W47_of m ρ c main_arg6 (by decide)).trans <| (W46_of m ρ c main_arg6 (by decide)).trans <| (W45_of m ρ c main_arg6 (by decide)).trans <| (W44_of m ρ c main_arg6 (by decide)).trans <| (W43_of m ρ c main_arg6 (by decide)).trans <| (W42_of m ρ c main_arg6 (by decide)).trans <| (W41_of m ρ c main_arg6 (by decide)).trans <| (W40_of m ρ c main_arg6 (by decide)).trans <| (W39_of m ρ c main_arg6 (by decide)).trans <| (W38_of m ρ c main_arg6 (by decide)).trans <| (W37_of m ρ c main_arg6 (by decide)).trans <| (W36_of m ρ c main_arg6 (by decide)).trans <| (W35_of m ρ c main_arg6 (by decide)).trans <| (W34_of m ρ c main_arg6 (by decide)).trans <| (W33_of m ρ c main_arg6 (by decide)).trans <| (W32_of m ρ c main_arg6 (by decide)).trans <| (W31_of m ρ c main_arg6 (by decide)).trans <| (W30_of m ρ c main_arg6 (by decide)).trans <| (W29_of m ρ c main_arg6 (by decide)).trans <| (W28_of m ρ c main_arg6 (by decide)).trans <| (W27_of m ρ c main_arg6 (by decide)).trans <| (W26_of m ρ c main_arg6 (by decide)).trans <| (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans rfl
theorem W84_main_arg7 (c : Dev nD) : W84 m ρ c (Proc.devRef .tc main_arg7) = m ((c : Thread nD τ).loc main_arg7) :=
  (W84_of m ρ c main_arg7 (by decide)).trans <| (W83_of m ρ c main_arg7 (by decide)).trans <| (W82_of m ρ c main_arg7 (by decide)).trans <| (W81_of m ρ c main_arg7 (by decide)).trans <| (W80_of m ρ c main_arg7 (by decide)).trans <| (W79_of m ρ c main_arg7 (by decide)).trans <| (W78_of m ρ c main_arg7 (by decide)).trans <| (W77_of m ρ c main_arg7 (by decide)).trans <| (W76_of m ρ c main_arg7 (by decide)).trans <| (W75_of m ρ c main_arg7 (by decide)).trans <| (W74_of m ρ c main_arg7 (by decide)).trans <| (W73_of m ρ c main_arg7 (by decide)).trans <| (W72_of m ρ c main_arg7 (by decide)).trans <| (W71_of m ρ c main_arg7 (by decide)).trans <| (W70_of m ρ c main_arg7 (by decide)).trans <| (W69_of m ρ c main_arg7 (by decide)).trans <| (W68_of m ρ c main_arg7 (by decide)).trans <| (W67_of m ρ c main_arg7 (by decide)).trans <| (W66_of m ρ c main_arg7 (by decide)).trans <| (W65_of m ρ c main_arg7 (by decide)).trans <| (W64_of m ρ c main_arg7 (by decide)).trans <| (W63_of m ρ c main_arg7 (by decide)).trans <| (W62_of m ρ c main_arg7 (by decide)).trans <| (W61_of m ρ c main_arg7 (by decide)).trans <| (W60_of m ρ c main_arg7 (by decide)).trans <| (W59_of m ρ c main_arg7 (by decide)).trans <| (W58_of m ρ c main_arg7 (by decide)).trans <| (W57_of m ρ c main_arg7 (by decide)).trans <| (W56_of m ρ c main_arg7 (by decide)).trans <| (W55_of m ρ c main_arg7 (by decide)).trans <| (W54_of m ρ c main_arg7 (by decide)).trans <| (W53_of m ρ c main_arg7 (by decide)).trans <| (W52_of m ρ c main_arg7 (by decide)).trans <| (W51_of m ρ c main_arg7 (by decide)).trans <| (W50_of m ρ c main_arg7 (by decide)).trans <| (W49_of m ρ c main_arg7 (by decide)).trans <| (W48_of m ρ c main_arg7 (by decide)).trans <| (W47_of m ρ c main_arg7 (by decide)).trans <| (W46_of m ρ c main_arg7 (by decide)).trans <| (W45_of m ρ c main_arg7 (by decide)).trans <| (W44_of m ρ c main_arg7 (by decide)).trans <| (W43_of m ρ c main_arg7 (by decide)).trans <| (W42_of m ρ c main_arg7 (by decide)).trans <| (W41_of m ρ c main_arg7 (by decide)).trans <| (W40_of m ρ c main_arg7 (by decide)).trans <| (W39_of m ρ c main_arg7 (by decide)).trans <| (W38_of m ρ c main_arg7 (by decide)).trans <| (W37_of m ρ c main_arg7 (by decide)).trans <| (W36_of m ρ c main_arg7 (by decide)).trans <| (W35_of m ρ c main_arg7 (by decide)).trans <| (W34_of m ρ c main_arg7 (by decide)).trans <| (W33_of m ρ c main_arg7 (by decide)).trans <| (W32_of m ρ c main_arg7 (by decide)).trans <| (W31_of m ρ c main_arg7 (by decide)).trans <| (W30_of m ρ c main_arg7 (by decide)).trans <| (W29_of m ρ c main_arg7 (by decide)).trans <| (W28_of m ρ c main_arg7 (by decide)).trans <| (W27_of m ρ c main_arg7 (by decide)).trans <| (W26_of m ρ c main_arg7 (by decide)).trans <| (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans rfl
theorem W84_main_arg8 (c : Dev nD) : W84 m ρ c (Proc.devRef .tc main_arg8) = m ((c : Thread nD τ).loc main_arg8) :=
  (W84_of m ρ c main_arg8 (by decide)).trans <| (W83_of m ρ c main_arg8 (by decide)).trans <| (W82_of m ρ c main_arg8 (by decide)).trans <| (W81_of m ρ c main_arg8 (by decide)).trans <| (W80_of m ρ c main_arg8 (by decide)).trans <| (W79_of m ρ c main_arg8 (by decide)).trans <| (W78_of m ρ c main_arg8 (by decide)).trans <| (W77_of m ρ c main_arg8 (by decide)).trans <| (W76_of m ρ c main_arg8 (by decide)).trans <| (W75_of m ρ c main_arg8 (by decide)).trans <| (W74_of m ρ c main_arg8 (by decide)).trans <| (W73_of m ρ c main_arg8 (by decide)).trans <| (W72_of m ρ c main_arg8 (by decide)).trans <| (W71_of m ρ c main_arg8 (by decide)).trans <| (W70_of m ρ c main_arg8 (by decide)).trans <| (W69_of m ρ c main_arg8 (by decide)).trans <| (W68_of m ρ c main_arg8 (by decide)).trans <| (W67_of m ρ c main_arg8 (by decide)).trans <| (W66_of m ρ c main_arg8 (by decide)).trans <| (W65_of m ρ c main_arg8 (by decide)).trans <| (W64_of m ρ c main_arg8 (by decide)).trans <| (W63_of m ρ c main_arg8 (by decide)).trans <| (W62_of m ρ c main_arg8 (by decide)).trans <| (W61_of m ρ c main_arg8 (by decide)).trans <| (W60_of m ρ c main_arg8 (by decide)).trans <| (W59_of m ρ c main_arg8 (by decide)).trans <| (W58_of m ρ c main_arg8 (by decide)).trans <| (W57_of m ρ c main_arg8 (by decide)).trans <| (W56_of m ρ c main_arg8 (by decide)).trans <| (W55_of m ρ c main_arg8 (by decide)).trans <| (W54_of m ρ c main_arg8 (by decide)).trans <| (W53_of m ρ c main_arg8 (by decide)).trans <| (W52_of m ρ c main_arg8 (by decide)).trans <| (W51_of m ρ c main_arg8 (by decide)).trans <| (W50_of m ρ c main_arg8 (by decide)).trans <| (W49_of m ρ c main_arg8 (by decide)).trans <| (W48_of m ρ c main_arg8 (by decide)).trans <| (W47_of m ρ c main_arg8 (by decide)).trans <| (W46_of m ρ c main_arg8 (by decide)).trans <| (W45_of m ρ c main_arg8 (by decide)).trans <| (W44_of m ρ c main_arg8 (by decide)).trans <| (W43_of m ρ c main_arg8 (by decide)).trans <| (W42_of m ρ c main_arg8 (by decide)).trans <| (W41_of m ρ c main_arg8 (by decide)).trans <| (W40_of m ρ c main_arg8 (by decide)).trans <| (W39_of m ρ c main_arg8 (by decide)).trans <| (W38_of m ρ c main_arg8 (by decide)).trans <| (W37_of m ρ c main_arg8 (by decide)).trans <| (W36_of m ρ c main_arg8 (by decide)).trans <| (W35_of m ρ c main_arg8 (by decide)).trans <| (W34_of m ρ c main_arg8 (by decide)).trans <| (W33_of m ρ c main_arg8 (by decide)).trans <| (W32_of m ρ c main_arg8 (by decide)).trans <| (W31_of m ρ c main_arg8 (by decide)).trans <| (W30_of m ρ c main_arg8 (by decide)).trans <| (W29_of m ρ c main_arg8 (by decide)).trans <| (W28_of m ρ c main_arg8 (by decide)).trans <| (W27_of m ρ c main_arg8 (by decide)).trans <| (W26_of m ρ c main_arg8 (by decide)).trans <| (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans rfl
theorem W84_main_arg9 (c : Dev nD) : W84 m ρ c (Proc.devRef .tc main_arg9) = m ((c : Thread nD τ).loc main_arg9) :=
  (W84_of m ρ c main_arg9 (by decide)).trans <| (W83_of m ρ c main_arg9 (by decide)).trans <| (W82_of m ρ c main_arg9 (by decide)).trans <| (W81_of m ρ c main_arg9 (by decide)).trans <| (W80_of m ρ c main_arg9 (by decide)).trans <| (W79_of m ρ c main_arg9 (by decide)).trans <| (W78_of m ρ c main_arg9 (by decide)).trans <| (W77_of m ρ c main_arg9 (by decide)).trans <| (W76_of m ρ c main_arg9 (by decide)).trans <| (W75_of m ρ c main_arg9 (by decide)).trans <| (W74_of m ρ c main_arg9 (by decide)).trans <| (W73_of m ρ c main_arg9 (by decide)).trans <| (W72_of m ρ c main_arg9 (by decide)).trans <| (W71_of m ρ c main_arg9 (by decide)).trans <| (W70_of m ρ c main_arg9 (by decide)).trans <| (W69_of m ρ c main_arg9 (by decide)).trans <| (W68_of m ρ c main_arg9 (by decide)).trans <| (W67_of m ρ c main_arg9 (by decide)).trans <| (W66_of m ρ c main_arg9 (by decide)).trans <| (W65_of m ρ c main_arg9 (by decide)).trans <| (W64_of m ρ c main_arg9 (by decide)).trans <| (W63_of m ρ c main_arg9 (by decide)).trans <| (W62_of m ρ c main_arg9 (by decide)).trans <| (W61_of m ρ c main_arg9 (by decide)).trans <| (W60_of m ρ c main_arg9 (by decide)).trans <| (W59_of m ρ c main_arg9 (by decide)).trans <| (W58_of m ρ c main_arg9 (by decide)).trans <| (W57_of m ρ c main_arg9 (by decide)).trans <| (W56_of m ρ c main_arg9 (by decide)).trans <| (W55_of m ρ c main_arg9 (by decide)).trans <| (W54_of m ρ c main_arg9 (by decide)).trans <| (W53_of m ρ c main_arg9 (by decide)).trans <| (W52_of m ρ c main_arg9 (by decide)).trans <| (W51_of m ρ c main_arg9 (by decide)).trans <| (W50_of m ρ c main_arg9 (by decide)).trans <| (W49_of m ρ c main_arg9 (by decide)).trans <| (W48_of m ρ c main_arg9 (by decide)).trans <| (W47_of m ρ c main_arg9 (by decide)).trans <| (W46_of m ρ c main_arg9 (by decide)).trans <| (W45_of m ρ c main_arg9 (by decide)).trans <| (W44_of m ρ c main_arg9 (by decide)).trans <| (W43_of m ρ c main_arg9 (by decide)).trans <| (W42_of m ρ c main_arg9 (by decide)).trans <| (W41_of m ρ c main_arg9 (by decide)).trans <| (W40_of m ρ c main_arg9 (by decide)).trans <| (W39_of m ρ c main_arg9 (by decide)).trans <| (W38_of m ρ c main_arg9 (by decide)).trans <| (W37_of m ρ c main_arg9 (by decide)).trans <| (W36_of m ρ c main_arg9 (by decide)).trans <| (W35_of m ρ c main_arg9 (by decide)).trans <| (W34_of m ρ c main_arg9 (by decide)).trans <| (W33_of m ρ c main_arg9 (by decide)).trans <| (W32_of m ρ c main_arg9 (by decide)).trans <| (W31_of m ρ c main_arg9 (by decide)).trans <| (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem W84_main_arg10 (c : Dev nD) : W84 m ρ c (Proc.devRef .tc main_arg10) = m ((c : Thread nD τ).loc main_arg10) :=
  (W84_of m ρ c main_arg10 (by decide)).trans <| (W83_of m ρ c main_arg10 (by decide)).trans <| (W82_of m ρ c main_arg10 (by decide)).trans <| (W81_of m ρ c main_arg10 (by decide)).trans <| (W80_of m ρ c main_arg10 (by decide)).trans <| (W79_of m ρ c main_arg10 (by decide)).trans <| (W78_of m ρ c main_arg10 (by decide)).trans <| (W77_of m ρ c main_arg10 (by decide)).trans <| (W76_of m ρ c main_arg10 (by decide)).trans <| (W75_of m ρ c main_arg10 (by decide)).trans <| (W74_of m ρ c main_arg10 (by decide)).trans <| (W73_of m ρ c main_arg10 (by decide)).trans <| (W72_of m ρ c main_arg10 (by decide)).trans <| (W71_of m ρ c main_arg10 (by decide)).trans <| (W70_of m ρ c main_arg10 (by decide)).trans <| (W69_of m ρ c main_arg10 (by decide)).trans <| (W68_of m ρ c main_arg10 (by decide)).trans <| (W67_of m ρ c main_arg10 (by decide)).trans <| (W66_of m ρ c main_arg10 (by decide)).trans <| (W65_of m ρ c main_arg10 (by decide)).trans <| (W64_of m ρ c main_arg10 (by decide)).trans <| (W63_of m ρ c main_arg10 (by decide)).trans <| (W62_of m ρ c main_arg10 (by decide)).trans <| (W61_of m ρ c main_arg10 (by decide)).trans <| (W60_of m ρ c main_arg10 (by decide)).trans <| (W59_of m ρ c main_arg10 (by decide)).trans <| (W58_of m ρ c main_arg10 (by decide)).trans <| (W57_of m ρ c main_arg10 (by decide)).trans <| (W56_of m ρ c main_arg10 (by decide)).trans <| (W55_of m ρ c main_arg10 (by decide)).trans <| (W54_of m ρ c main_arg10 (by decide)).trans <| (W53_of m ρ c main_arg10 (by decide)).trans <| (W52_of m ρ c main_arg10 (by decide)).trans <| (W51_of m ρ c main_arg10 (by decide)).trans <| (W50_of m ρ c main_arg10 (by decide)).trans <| (W49_of m ρ c main_arg10 (by decide)).trans <| (W48_of m ρ c main_arg10 (by decide)).trans <| (W47_of m ρ c main_arg10 (by decide)).trans <| (W46_of m ρ c main_arg10 (by decide)).trans <| (W45_of m ρ c main_arg10 (by decide)).trans <| (W44_of m ρ c main_arg10 (by decide)).trans <| (W43_of m ρ c main_arg10 (by decide)).trans <| (W42_of m ρ c main_arg10 (by decide)).trans <| (W41_of m ρ c main_arg10 (by decide)).trans <| (W40_of m ρ c main_arg10 (by decide)).trans <| (W39_of m ρ c main_arg10 (by decide)).trans <| (W38_of m ρ c main_arg10 (by decide)).trans <| (W37_of m ρ c main_arg10 (by decide)).trans <| (W36_of m ρ c main_arg10 (by decide)).trans <| (W35_of m ρ c main_arg10 (by decide)).trans <| (W34_of m ρ c main_arg10 (by decide)).trans <| (W33_of m ρ c main_arg10 (by decide)).trans <| (W32_of m ρ c main_arg10 (by decide)).trans <| (W31_of m ρ c main_arg10 (by decide)).trans <| (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem W84_main_arg11 (c : Dev nD) : W84 m ρ c (Proc.devRef .tc main_arg11) = m ((c : Thread nD τ).loc main_arg11) :=
  (W84_of m ρ c main_arg11 (by decide)).trans <| (W83_of m ρ c main_arg11 (by decide)).trans <| (W82_of m ρ c main_arg11 (by decide)).trans <| (W81_of m ρ c main_arg11 (by decide)).trans <| (W80_of m ρ c main_arg11 (by decide)).trans <| (W79_of m ρ c main_arg11 (by decide)).trans <| (W78_of m ρ c main_arg11 (by decide)).trans <| (W77_of m ρ c main_arg11 (by decide)).trans <| (W76_of m ρ c main_arg11 (by decide)).trans <| (W75_of m ρ c main_arg11 (by decide)).trans <| (W74_of m ρ c main_arg11 (by decide)).trans <| (W73_of m ρ c main_arg11 (by decide)).trans <| (W72_of m ρ c main_arg11 (by decide)).trans <| (W71_of m ρ c main_arg11 (by decide)).trans <| (W70_of m ρ c main_arg11 (by decide)).trans <| (W69_of m ρ c main_arg11 (by decide)).trans <| (W68_of m ρ c main_arg11 (by decide)).trans <| (W67_of m ρ c main_arg11 (by decide)).trans <| (W66_of m ρ c main_arg11 (by decide)).trans <| (W65_of m ρ c main_arg11 (by decide)).trans <| (W64_of m ρ c main_arg11 (by decide)).trans <| (W63_of m ρ c main_arg11 (by decide)).trans <| (W62_of m ρ c main_arg11 (by decide)).trans <| (W61_of m ρ c main_arg11 (by decide)).trans <| (W60_of m ρ c main_arg11 (by decide)).trans <| (W59_of m ρ c main_arg11 (by decide)).trans <| (W58_of m ρ c main_arg11 (by decide)).trans <| (W57_of m ρ c main_arg11 (by decide)).trans <| (W56_of m ρ c main_arg11 (by decide)).trans <| (W55_of m ρ c main_arg11 (by decide)).trans <| (W54_of m ρ c main_arg11 (by decide)).trans <| (W53_of m ρ c main_arg11 (by decide)).trans <| (W52_of m ρ c main_arg11 (by decide)).trans <| (W51_of m ρ c main_arg11 (by decide)).trans <| (W50_of m ρ c main_arg11 (by decide)).trans <| (W49_of m ρ c main_arg11 (by decide)).trans <| (W48_of m ρ c main_arg11 (by decide)).trans <| (W47_of m ρ c main_arg11 (by decide)).trans <| (W46_of m ρ c main_arg11 (by decide)).trans <| (W45_of m ρ c main_arg11 (by decide)).trans <| (W44_of m ρ c main_arg11 (by decide)).trans <| (W43_of m ρ c main_arg11 (by decide)).trans <| (W42_of m ρ c main_arg11 (by decide)).trans <| (W41_of m ρ c main_arg11 (by decide)).trans <| (W40_of m ρ c main_arg11 (by decide)).trans <| (W39_of m ρ c main_arg11 (by decide)).trans <| (W38_of m ρ c main_arg11 (by decide)).trans <| (W37_of m ρ c main_arg11 (by decide)).trans <| (W36_of m ρ c main_arg11 (by decide)).trans <| (W35_of m ρ c main_arg11 (by decide)).trans <| (W34_of m ρ c main_arg11 (by decide)).trans <| (W33_of m ρ c main_arg11 (by decide)).trans <| (W32_of m ρ c main_arg11 (by decide)).trans <| (W31_of m ρ c main_arg11 (by decide)).trans <| (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem W84_main_arg12 (c : Dev nD) : W84 m ρ c (Proc.devRef .tc main_arg12) = m ((c : Thread nD τ).loc main_arg12) :=
  (W84_of m ρ c main_arg12 (by decide)).trans <| (W83_of m ρ c main_arg12 (by decide)).trans <| (W82_of m ρ c main_arg12 (by decide)).trans <| (W81_of m ρ c main_arg12 (by decide)).trans <| (W80_of m ρ c main_arg12 (by decide)).trans <| (W79_of m ρ c main_arg12 (by decide)).trans <| (W78_of m ρ c main_arg12 (by decide)).trans <| (W77_of m ρ c main_arg12 (by decide)).trans <| (W76_of m ρ c main_arg12 (by decide)).trans <| (W75_of m ρ c main_arg12 (by decide)).trans <| (W74_of m ρ c main_arg12 (by decide)).trans <| (W73_of m ρ c main_arg12 (by decide)).trans <| (W72_of m ρ c main_arg12 (by decide)).trans <| (W71_of m ρ c main_arg12 (by decide)).trans <| (W70_of m ρ c main_arg12 (by decide)).trans <| (W69_of m ρ c main_arg12 (by decide)).trans <| (W68_of m ρ c main_arg12 (by decide)).trans <| (W67_of m ρ c main_arg12 (by decide)).trans <| (W66_of m ρ c main_arg12 (by decide)).trans <| (W65_of m ρ c main_arg12 (by decide)).trans <| (W64_of m ρ c main_arg12 (by decide)).trans <| (W63_of m ρ c main_arg12 (by decide)).trans <| (W62_of m ρ c main_arg12 (by decide)).trans <| (W61_of m ρ c main_arg12 (by decide)).trans <| (W60_of m ρ c main_arg12 (by decide)).trans <| (W59_of m ρ c main_arg12 (by decide)).trans <| (W58_of m ρ c main_arg12 (by decide)).trans <| (W57_of m ρ c main_arg12 (by decide)).trans <| (W56_of m ρ c main_arg12 (by decide)).trans <| (W55_of m ρ c main_arg12 (by decide)).trans <| (W54_of m ρ c main_arg12 (by decide)).trans <| (W53_of m ρ c main_arg12 (by decide)).trans <| (W52_of m ρ c main_arg12 (by decide)).trans <| (W51_of m ρ c main_arg12 (by decide)).trans <| (W50_of m ρ c main_arg12 (by decide)).trans <| (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem W84_main_arg13 (c : Dev nD) : W84 m ρ c (Proc.devRef .tc main_arg13) = m ((c : Thread nD τ).loc main_arg13) :=
  (W84_of m ρ c main_arg13 (by decide)).trans <| (W83_of m ρ c main_arg13 (by decide)).trans <| (W82_of m ρ c main_arg13 (by decide)).trans <| (W81_of m ρ c main_arg13 (by decide)).trans <| (W80_of m ρ c main_arg13 (by decide)).trans <| (W79_of m ρ c main_arg13 (by decide)).trans <| (W78_of m ρ c main_arg13 (by decide)).trans <| (W77_of m ρ c main_arg13 (by decide)).trans <| (W76_of m ρ c main_arg13 (by decide)).trans <| (W75_of m ρ c main_arg13 (by decide)).trans <| (W74_of m ρ c main_arg13 (by decide)).trans <| (W73_of m ρ c main_arg13 (by decide)).trans <| (W72_of m ρ c main_arg13 (by decide)).trans <| (W71_of m ρ c main_arg13 (by decide)).trans <| (W70_of m ρ c main_arg13 (by decide)).trans <| (W69_of m ρ c main_arg13 (by decide)).trans <| (W68_of m ρ c main_arg13 (by decide)).trans <| (W67_of m ρ c main_arg13 (by decide)).trans <| (W66_of m ρ c main_arg13 (by decide)).trans <| (W65_of m ρ c main_arg13 (by decide)).trans <| (W64_of m ρ c main_arg13 (by decide)).trans <| (W63_of m ρ c main_arg13 (by decide)).trans <| (W62_of m ρ c main_arg13 (by decide)).trans <| (W61_of m ρ c main_arg13 (by decide)).trans <| (W60_of m ρ c main_arg13 (by decide)).trans <| (W59_of m ρ c main_arg13 (by decide)).trans <| (W58_of m ρ c main_arg13 (by decide)).trans <| (W57_of m ρ c main_arg13 (by decide)).trans <| (W56_of m ρ c main_arg13 (by decide)).trans <| (W55_of m ρ c main_arg13 (by decide)).trans <| (W54_of m ρ c main_arg13 (by decide)).trans <| (W53_of m ρ c main_arg13 (by decide)).trans <| (W52_of m ρ c main_arg13 (by decide)).trans <| (W51_of m ρ c main_arg13 (by decide)).trans <| (W50_of m ρ c main_arg13 (by decide)).trans <| (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem W84_main_arg14 (c : Dev nD) : W84 m ρ c (Proc.devRef .tc main_arg14) = m ((c : Thread nD τ).loc main_arg14) :=
  (W84_of m ρ c main_arg14 (by decide)).trans <| (W83_of m ρ c main_arg14 (by decide)).trans <| (W82_of m ρ c main_arg14 (by decide)).trans <| (W81_of m ρ c main_arg14 (by decide)).trans <| (W80_of m ρ c main_arg14 (by decide)).trans <| (W79_of m ρ c main_arg14 (by decide)).trans <| (W78_of m ρ c main_arg14 (by decide)).trans <| (W77_of m ρ c main_arg14 (by decide)).trans <| (W76_of m ρ c main_arg14 (by decide)).trans <| (W75_of m ρ c main_arg14 (by decide)).trans <| (W74_of m ρ c main_arg14 (by decide)).trans <| (W73_of m ρ c main_arg14 (by decide)).trans <| (W72_of m ρ c main_arg14 (by decide)).trans <| (W71_of m ρ c main_arg14 (by decide)).trans <| (W70_of m ρ c main_arg14 (by decide)).trans <| (W69_of m ρ c main_arg14 (by decide)).trans <| (W68_of m ρ c main_arg14 (by decide)).trans <| (W67_of m ρ c main_arg14 (by decide)).trans <| (W66_of m ρ c main_arg14 (by decide)).trans <| (W65_of m ρ c main_arg14 (by decide)).trans <| (W64_of m ρ c main_arg14 (by decide)).trans <| (W63_of m ρ c main_arg14 (by decide)).trans <| (W62_of m ρ c main_arg14 (by decide)).trans <| (W61_of m ρ c main_arg14 (by decide)).trans <| (W60_of m ρ c main_arg14 (by decide)).trans <| (W59_of m ρ c main_arg14 (by decide)).trans <| (W58_of m ρ c main_arg14 (by decide)).trans <| (W57_of m ρ c main_arg14 (by decide)).trans <| (W56_of m ρ c main_arg14 (by decide)).trans <| (W55_of m ρ c main_arg14 (by decide)).trans <| (W54_of m ρ c main_arg14 (by decide)).trans <| (W53_of m ρ c main_arg14 (by decide)).trans <| (W52_of m ρ c main_arg14 (by decide)).trans <| (W51_of m ρ c main_arg14 (by decide)).trans <| (W50_of m ρ c main_arg14 (by decide)).trans <| (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem W84_main_arg15 (c : Dev nD) : W84 m ρ c (Proc.devRef .tc main_arg15) = m ((c : Thread nD τ).loc main_arg15) :=
  (W84_of m ρ c main_arg15 (by decide)).trans <| (W83_of m ρ c main_arg15 (by decide)).trans <| (W82_of m ρ c main_arg15 (by decide)).trans <| (W81_of m ρ c main_arg15 (by decide)).trans <| (W80_of m ρ c main_arg15 (by decide)).trans <| (W79_of m ρ c main_arg15 (by decide)).trans <| (W78_of m ρ c main_arg15 (by decide)).trans <| (W77_of m ρ c main_arg15 (by decide)).trans <| (W76_of m ρ c main_arg15 (by decide)).trans <| (W75_of m ρ c main_arg15 (by decide)).trans <| (W74_of m ρ c main_arg15 (by decide)).trans <| (W73_of m ρ c main_arg15 (by decide)).trans <| (W72_of m ρ c main_arg15 (by decide)).trans <| (W71_of m ρ c main_arg15 (by decide)).trans <| (W70_of m ρ c main_arg15 (by decide)).trans <| (W69_of m ρ c main_arg15 (by decide)).trans <| (W68_of m ρ c main_arg15 (by decide)).trans <| (W67_of m ρ c main_arg15 (by decide)).trans <| (W66_of m ρ c main_arg15 (by decide)).trans <| (W65_of m ρ c main_arg15 (by decide)).trans <| (W64_of m ρ c main_arg15 (by decide)).trans <| (W63_of m ρ c main_arg15 (by decide)).trans <| (W62_of m ρ c main_arg15 (by decide)).trans <| (W61_of m ρ c main_arg15 (by decide)).trans <| (W60_of m ρ c main_arg15 (by decide)).trans <| (W59_of m ρ c main_arg15 (by decide)).trans <| (W58_of m ρ c main_arg15 (by decide)).trans <| (W57_of m ρ c main_arg15 (by decide)).trans <| (W56_of m ρ c main_arg15 (by decide)).trans <| (W55_of m ρ c main_arg15 (by decide)).trans <| (W54_of m ρ c main_arg15 (by decide)).trans <| (W53_of m ρ c main_arg15 (by decide)).trans <| (W52_of m ρ c main_arg15 (by decide)).trans <| (W51_of m ρ c main_arg15 (by decide)).trans <| (W50_of m ρ c main_arg15 (by decide)).trans <| (W49_of m ρ c main_arg15 (by decide)).trans <| (W48_of m ρ c main_arg15 (by decide)).trans <| (W47_of m ρ c main_arg15 (by decide)).trans <| (W46_of m ρ c main_arg15 (by decide)).trans <| (W45_of m ρ c main_arg15 (by decide)).trans <| (W44_of m ρ c main_arg15 (by decide)).trans <| (W43_of m ρ c main_arg15 (by decide)).trans <| (W42_of m ρ c main_arg15 (by decide)).trans <| (W41_of m ρ c main_arg15 (by decide)).trans <| (W40_of m ρ c main_arg15 (by decide)).trans <| (W39_of m ρ c main_arg15 (by decide)).trans <| (W38_of m ρ c main_arg15 (by decide)).trans <| (W37_of m ρ c main_arg15 (by decide)).trans <| (W36_of m ρ c main_arg15 (by decide)).trans <| (W35_of m ρ c main_arg15 (by decide)).trans <| (W34_of m ρ c main_arg15 (by decide)).trans <| (W33_of m ρ c main_arg15 (by decide)).trans <| (W32_of m ρ c main_arg15 (by decide)).trans <| (W31_of m ρ c main_arg15 (by decide)).trans <| (W30_of m ρ c main_arg15 (by decide)).trans <| (W29_of m ρ c main_arg15 (by decide)).trans <| (W28_of m ρ c main_arg15 (by decide)).trans <| (W27_of m ρ c main_arg15 (by decide)).trans <| (W26_of m ρ c main_arg15 (by decide)).trans <| (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans rfl
theorem W84_main_arg16 (c : Dev nD) : W84 m ρ c (Proc.devRef .tc main_arg16) = m ((c : Thread nD τ).loc main_arg16) :=
  (W84_of m ρ c main_arg16 (by decide)).trans <| (W83_of m ρ c main_arg16 (by decide)).trans <| (W82_of m ρ c main_arg16 (by decide)).trans <| (W81_of m ρ c main_arg16 (by decide)).trans <| (W80_of m ρ c main_arg16 (by decide)).trans <| (W79_of m ρ c main_arg16 (by decide)).trans <| (W78_of m ρ c main_arg16 (by decide)).trans <| (W77_of m ρ c main_arg16 (by decide)).trans <| (W76_of m ρ c main_arg16 (by decide)).trans <| (W75_of m ρ c main_arg16 (by decide)).trans <| (W74_of m ρ c main_arg16 (by decide)).trans <| (W73_of m ρ c main_arg16 (by decide)).trans <| (W72_of m ρ c main_arg16 (by decide)).trans <| (W71_of m ρ c main_arg16 (by decide)).trans <| (W70_of m ρ c main_arg16 (by decide)).trans <| (W69_of m ρ c main_arg16 (by decide)).trans <| (W68_of m ρ c main_arg16 (by decide)).trans <| (W67_of m ρ c main_arg16 (by decide)).trans <| (W66_of m ρ c main_arg16 (by decide)).trans <| (W65_of m ρ c main_arg16 (by decide)).trans <| (W64_of m ρ c main_arg16 (by decide)).trans <| (W63_of m ρ c main_arg16 (by decide)).trans <| (W62_of m ρ c main_arg16 (by decide)).trans <| (W61_of m ρ c main_arg16 (by decide)).trans <| (W60_of m ρ c main_arg16 (by decide)).trans <| (W59_of m ρ c main_arg16 (by decide)).trans <| (W58_of m ρ c main_arg16 (by decide)).trans <| (W57_of m ρ c main_arg16 (by decide)).trans <| (W56_of m ρ c main_arg16 (by decide)).trans <| (W55_of m ρ c main_arg16 (by decide)).trans <| (W54_of m ρ c main_arg16 (by decide)).trans <| (W53_of m ρ c main_arg16 (by decide)).trans <| (W52_of m ρ c main_arg16 (by decide)).trans <| (W51_of m ρ c main_arg16 (by decide)).trans <| (W50_of m ρ c main_arg16 (by decide)).trans <| (W49_of m ρ c main_arg16 (by decide)).trans <| (W48_of m ρ c main_arg16 (by decide)).trans <| (W47_of m ρ c main_arg16 (by decide)).trans <| (W46_of m ρ c main_arg16 (by decide)).trans <| (W45_of m ρ c main_arg16 (by decide)).trans <| (W44_of m ρ c main_arg16 (by decide)).trans <| (W43_of m ρ c main_arg16 (by decide)).trans <| (W42_of m ρ c main_arg16 (by decide)).trans <| (W41_of m ρ c main_arg16 (by decide)).trans <| (W40_of m ρ c main_arg16 (by decide)).trans <| (W39_of m ρ c main_arg16 (by decide)).trans <| (W38_of m ρ c main_arg16 (by decide)).trans <| (W37_of m ρ c main_arg16 (by decide)).trans <| (W36_of m ρ c main_arg16 (by decide)).trans <| (W35_of m ρ c main_arg16 (by decide)).trans <| (W34_of m ρ c main_arg16 (by decide)).trans <| (W33_of m ρ c main_arg16 (by decide)).trans <| (W32_of m ρ c main_arg16 (by decide)).trans <| (W31_of m ρ c main_arg16 (by decide)).trans <| (W30_of m ρ c main_arg16 (by decide)).trans <| (W29_of m ρ c main_arg16 (by decide)).trans <| (W28_of m ρ c main_arg16 (by decide)).trans <| (W27_of m ρ c main_arg16 (by decide)).trans <| (W26_of m ρ c main_arg16 (by decide)).trans <| (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans rfl
theorem W84_main_arg17 (c : Dev nD) : W84 m ρ c (Proc.devRef .tc main_arg17) = m ((c : Thread nD τ).loc main_arg17) :=
  (W84_of m ρ c main_arg17 (by decide)).trans <| (W83_of m ρ c main_arg17 (by decide)).trans <| (W82_of m ρ c main_arg17 (by decide)).trans <| (W81_of m ρ c main_arg17 (by decide)).trans <| (W80_of m ρ c main_arg17 (by decide)).trans <| (W79_of m ρ c main_arg17 (by decide)).trans <| (W78_of m ρ c main_arg17 (by decide)).trans <| (W77_of m ρ c main_arg17 (by decide)).trans <| (W76_of m ρ c main_arg17 (by decide)).trans <| (W75_of m ρ c main_arg17 (by decide)).trans <| (W74_of m ρ c main_arg17 (by decide)).trans <| (W73_of m ρ c main_arg17 (by decide)).trans <| (W72_of m ρ c main_arg17 (by decide)).trans <| (W71_of m ρ c main_arg17 (by decide)).trans <| (W70_of m ρ c main_arg17 (by decide)).trans <| (W69_of m ρ c main_arg17 (by decide)).trans <| (W68_of m ρ c main_arg17 (by decide)).trans <| (W67_of m ρ c main_arg17 (by decide)).trans <| (W66_of m ρ c main_arg17 (by decide)).trans <| (W65_of m ρ c main_arg17 (by decide)).trans <| (W64_of m ρ c main_arg17 (by decide)).trans <| (W63_of m ρ c main_arg17 (by decide)).trans <| (W62_of m ρ c main_arg17 (by decide)).trans <| (W61_of m ρ c main_arg17 (by decide)).trans <| (W60_of m ρ c main_arg17 (by decide)).trans <| (W59_of m ρ c main_arg17 (by decide)).trans <| (W58_of m ρ c main_arg17 (by decide)).trans <| (W57_of m ρ c main_arg17 (by decide)).trans <| (W56_of m ρ c main_arg17 (by decide)).trans <| (W55_of m ρ c main_arg17 (by decide)).trans <| (W54_of m ρ c main_arg17 (by decide)).trans <| (W53_of m ρ c main_arg17 (by decide)).trans <| (W52_of m ρ c main_arg17 (by decide)).trans <| (W51_of m ρ c main_arg17 (by decide)).trans <| (W50_of m ρ c main_arg17 (by decide)).trans <| (W49_of m ρ c main_arg17 (by decide)).trans <| (W48_of m ρ c main_arg17 (by decide)).trans <| (W47_of m ρ c main_arg17 (by decide)).trans <| (W46_of m ρ c main_arg17 (by decide)).trans <| (W45_of m ρ c main_arg17 (by decide)).trans <| (W44_of m ρ c main_arg17 (by decide)).trans <| (W43_of m ρ c main_arg17 (by decide)).trans <| (W42_of m ρ c main_arg17 (by decide)).trans <| (W41_of m ρ c main_arg17 (by decide)).trans <| (W40_of m ρ c main_arg17 (by decide)).trans <| (W39_of m ρ c main_arg17 (by decide)).trans <| (W38_of m ρ c main_arg17 (by decide)).trans <| (W37_of m ρ c main_arg17 (by decide)).trans <| (W36_of m ρ c main_arg17 (by decide)).trans <| (W35_of m ρ c main_arg17 (by decide)).trans <| (W34_of m ρ c main_arg17 (by decide)).trans <| (W33_of m ρ c main_arg17 (by decide)).trans <| (W32_of m ρ c main_arg17 (by decide)).trans <| (W31_of m ρ c main_arg17 (by decide)).trans <| (W30_of m ρ c main_arg17 (by decide)).trans <| (W29_of m ρ c main_arg17 (by decide)).trans <| (W28_of m ρ c main_arg17 (by decide)).trans <| (W27_of m ρ c main_arg17 (by decide)).trans <| (W26_of m ρ c main_arg17 (by decide)).trans <| (W25_of m ρ c main_arg17 (by decide)).trans <| (W24_of m ρ c main_arg17 (by decide)).trans <| (W23_of m ρ c main_arg17 (by decide)).trans <| (W22_of m ρ c main_arg17 (by decide)).trans <| (W21_of m ρ c main_arg17 (by decide)).trans <| (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans rfl
theorem W84_main_arg18 (c : Dev nD) : W84 m ρ c (Proc.devRef .tc main_arg18) = m ((c : Thread nD τ).loc main_arg18) :=
  (W84_of m ρ c main_arg18 (by decide)).trans <| (W83_of m ρ c main_arg18 (by decide)).trans <| (W82_of m ρ c main_arg18 (by decide)).trans <| (W81_of m ρ c main_arg18 (by decide)).trans <| (W80_of m ρ c main_arg18 (by decide)).trans <| (W79_of m ρ c main_arg18 (by decide)).trans <| (W78_of m ρ c main_arg18 (by decide)).trans <| (W77_of m ρ c main_arg18 (by decide)).trans <| (W76_of m ρ c main_arg18 (by decide)).trans <| (W75_of m ρ c main_arg18 (by decide)).trans <| (W74_of m ρ c main_arg18 (by decide)).trans <| (W73_of m ρ c main_arg18 (by decide)).trans <| (W72_of m ρ c main_arg18 (by decide)).trans <| (W71_of m ρ c main_arg18 (by decide)).trans <| (W70_of m ρ c main_arg18 (by decide)).trans <| (W69_of m ρ c main_arg18 (by decide)).trans <| (W68_of m ρ c main_arg18 (by decide)).trans <| (W67_of m ρ c main_arg18 (by decide)).trans <| (W66_of m ρ c main_arg18 (by decide)).trans <| (W65_of m ρ c main_arg18 (by decide)).trans <| (W64_of m ρ c main_arg18 (by decide)).trans <| (W63_of m ρ c main_arg18 (by decide)).trans <| (W62_of m ρ c main_arg18 (by decide)).trans <| (W61_of m ρ c main_arg18 (by decide)).trans <| (W60_of m ρ c main_arg18 (by decide)).trans <| (W59_of m ρ c main_arg18 (by decide)).trans <| (W58_of m ρ c main_arg18 (by decide)).trans <| (W57_of m ρ c main_arg18 (by decide)).trans <| (W56_of m ρ c main_arg18 (by decide)).trans <| (W55_of m ρ c main_arg18 (by decide)).trans <| (W54_of m ρ c main_arg18 (by decide)).trans <| (W53_of m ρ c main_arg18 (by decide)).trans <| (W52_of m ρ c main_arg18 (by decide)).trans <| (W51_of m ρ c main_arg18 (by decide)).trans <| (W50_of m ρ c main_arg18 (by decide)).trans <| (W49_of m ρ c main_arg18 (by decide)).trans <| (W48_of m ρ c main_arg18 (by decide)).trans <| (W47_of m ρ c main_arg18 (by decide)).trans <| (W46_of m ρ c main_arg18 (by decide)).trans <| (W45_of m ρ c main_arg18 (by decide)).trans <| (W44_of m ρ c main_arg18 (by decide)).trans <| (W43_of m ρ c main_arg18 (by decide)).trans <| (W42_of m ρ c main_arg18 (by decide)).trans <| (W41_of m ρ c main_arg18 (by decide)).trans <| (W40_of m ρ c main_arg18 (by decide)).trans <| (W39_of m ρ c main_arg18 (by decide)).trans <| (W38_of m ρ c main_arg18 (by decide)).trans <| (W37_of m ρ c main_arg18 (by decide)).trans <| (W36_of m ρ c main_arg18 (by decide)).trans <| (W35_of m ρ c main_arg18 (by decide)).trans <| (W34_of m ρ c main_arg18 (by decide)).trans <| (W33_of m ρ c main_arg18 (by decide)).trans <| (W32_of m ρ c main_arg18 (by decide)).trans <| (W31_of m ρ c main_arg18 (by decide)).trans <| (W30_of m ρ c main_arg18 (by decide)).trans <| (W29_of m ρ c main_arg18 (by decide)).trans <| (W28_of m ρ c main_arg18 (by decide)).trans <| (W27_of m ρ c main_arg18 (by decide)).trans <| (W26_of m ρ c main_arg18 (by decide)).trans <| (W25_of m ρ c main_arg18 (by decide)).trans <| (W24_of m ρ c main_arg18 (by decide)).trans <| (W23_of m ρ c main_arg18 (by decide)).trans <| (W22_of m ρ c main_arg18 (by decide)).trans <| (W21_of m ρ c main_arg18 (by decide)).trans <| (W20_of m ρ c main_arg18 (by decide)).trans <| (W19_of m ρ c main_arg18 (by decide)).trans <| (W18_of m ρ c main_arg18 (by decide)).trans <| (W17_of m ρ c main_arg18 (by decide)).trans <| (W16_of m ρ c main_arg18 (by decide)).trans <| (W15_of m ρ c main_arg18 (by decide)).trans <| (W14_of m ρ c main_arg18 (by decide)).trans <| (W13_of m ρ c main_arg18 (by decide)).trans <| (W12_of m ρ c main_arg18 (by decide)).trans <| (W11_of m ρ c main_arg18 (by decide)).trans <| (W10_of m ρ c main_arg18 (by decide)).trans <| (W9_of m ρ c main_arg18 (by decide)).trans <| (W8_of m ρ c main_arg18 (by decide)).trans <| (W7_of m ρ c main_arg18 (by decide)).trans <| (W6_of m ρ c main_arg18 (by decide)).trans <| (W5_of m ρ c main_arg18 (by decide)).trans <| (W4_of m ρ c main_arg18 (by decide)).trans <| (W3_of m ρ c main_arg18 (by decide)).trans <| (W2_of m ρ c main_arg18 (by decide)).trans <| (W1_of m ρ c main_arg18 (by decide)).trans rfl
theorem W84_main_arg19 (c : Dev nD) : W84 m ρ c (Proc.devRef .tc main_arg19) = m ((c : Thread nD τ).loc main_arg19) :=
  (W84_of m ρ c main_arg19 (by decide)).trans <| (W83_of m ρ c main_arg19 (by decide)).trans <| (W82_of m ρ c main_arg19 (by decide)).trans <| (W81_of m ρ c main_arg19 (by decide)).trans <| (W80_of m ρ c main_arg19 (by decide)).trans <| (W79_of m ρ c main_arg19 (by decide)).trans <| (W78_of m ρ c main_arg19 (by decide)).trans <| (W77_of m ρ c main_arg19 (by decide)).trans <| (W76_of m ρ c main_arg19 (by decide)).trans <| (W75_of m ρ c main_arg19 (by decide)).trans <| (W74_of m ρ c main_arg19 (by decide)).trans <| (W73_of m ρ c main_arg19 (by decide)).trans <| (W72_of m ρ c main_arg19 (by decide)).trans <| (W71_of m ρ c main_arg19 (by decide)).trans <| (W70_of m ρ c main_arg19 (by decide)).trans <| (W69_of m ρ c main_arg19 (by decide)).trans <| (W68_of m ρ c main_arg19 (by decide)).trans <| (W67_of m ρ c main_arg19 (by decide)).trans <| (W66_of m ρ c main_arg19 (by decide)).trans <| (W65_of m ρ c main_arg19 (by decide)).trans <| (W64_of m ρ c main_arg19 (by decide)).trans <| (W63_of m ρ c main_arg19 (by decide)).trans <| (W62_of m ρ c main_arg19 (by decide)).trans <| (W61_of m ρ c main_arg19 (by decide)).trans <| (W60_of m ρ c main_arg19 (by decide)).trans <| (W59_of m ρ c main_arg19 (by decide)).trans <| (W58_of m ρ c main_arg19 (by decide)).trans <| (W57_of m ρ c main_arg19 (by decide)).trans <| (W56_of m ρ c main_arg19 (by decide)).trans <| (W55_of m ρ c main_arg19 (by decide)).trans <| (W54_of m ρ c main_arg19 (by decide)).trans <| (W53_of m ρ c main_arg19 (by decide)).trans <| (W52_of m ρ c main_arg19 (by decide)).trans <| (W51_of m ρ c main_arg19 (by decide)).trans <| (W50_of m ρ c main_arg19 (by decide)).trans <| (W49_of m ρ c main_arg19 (by decide)).trans <| (W48_of m ρ c main_arg19 (by decide)).trans <| (W47_of m ρ c main_arg19 (by decide)).trans <| (W46_of m ρ c main_arg19 (by decide)).trans <| (W45_of m ρ c main_arg19 (by decide)).trans <| (W44_of m ρ c main_arg19 (by decide)).trans <| (W43_of m ρ c main_arg19 (by decide)).trans <| (W42_of m ρ c main_arg19 (by decide)).trans <| (W41_of m ρ c main_arg19 (by decide)).trans <| (W40_of m ρ c main_arg19 (by decide)).trans <| (W39_of m ρ c main_arg19 (by decide)).trans <| (W38_of m ρ c main_arg19 (by decide)).trans <| (W37_of m ρ c main_arg19 (by decide)).trans <| (W36_of m ρ c main_arg19 (by decide)).trans <| (W35_of m ρ c main_arg19 (by decide)).trans <| (W34_of m ρ c main_arg19 (by decide)).trans <| (W33_of m ρ c main_arg19 (by decide)).trans <| (W32_of m ρ c main_arg19 (by decide)).trans <| (W31_of m ρ c main_arg19 (by decide)).trans <| (W30_of m ρ c main_arg19 (by decide)).trans <| (W29_of m ρ c main_arg19 (by decide)).trans <| (W28_of m ρ c main_arg19 (by decide)).trans <| (W27_of m ρ c main_arg19 (by decide)).trans <| (W26_of m ρ c main_arg19 (by decide)).trans <| (W25_of m ρ c main_arg19 (by decide)).trans <| (W24_of m ρ c main_arg19 (by decide)).trans <| (W23_of m ρ c main_arg19 (by decide)).trans <| (W22_of m ρ c main_arg19 (by decide)).trans <| (W21_of m ρ c main_arg19 (by decide)).trans <| (W20_of m ρ c main_arg19 (by decide)).trans <| (W19_of m ρ c main_arg19 (by decide)).trans <| (W18_of m ρ c main_arg19 (by decide)).trans <| (W17_of m ρ c main_arg19 (by decide)).trans <| (W16_of m ρ c main_arg19 (by decide)).trans <| (W15_of m ρ c main_arg19 (by decide)).trans <| (W14_of m ρ c main_arg19 (by decide)).trans <| (W13_of m ρ c main_arg19 (by decide)).trans <| (W12_of m ρ c main_arg19 (by decide)).trans <| (W11_of m ρ c main_arg19 (by decide)).trans <| (W10_of m ρ c main_arg19 (by decide)).trans <| (W9_of m ρ c main_arg19 (by decide)).trans <| (W8_of m ρ c main_arg19 (by decide)).trans <| (W7_of m ρ c main_arg19 (by decide)).trans <| (W6_of m ρ c main_arg19 (by decide)).trans <| (W5_of m ρ c main_arg19 (by decide)).trans <| (W4_of m ρ c main_arg19 (by decide)).trans <| (W3_of m ρ c main_arg19 (by decide)).trans <| (W2_of m ρ c main_arg19 (by decide)).trans <| (W1_of m ρ c main_arg19 (by decide)).trans rfl

end Cert.Kernel.Gen

end
-- ==== Proof.K.Frame.lean ====
import proofs.«417513_j58866821759238_4_alg».proof.Proof.K.Segs
import proofs.«417513_j58866821759238_4_alg».proof.Proof.K.Args
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: from any memory with zero counters every weakly fair execution of @main on the TensorCores terminates, nothing faulting, and in every
    final memory each unscoped buffer of each core holds the last boundary's contents `W84`: the launch over the segments, the last thread state
    read against the final state. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W84 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W84 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W84 m ρ c b)
    (hfin := fun c s' => by
      iintro ⟨⟨Hh, -⟩, HSI⟩
      unfold StableHlo.held
      imodintro
      iapply (pointsTo_read_all (Pipeline.ucRefs τ sig) (fun b => (((c : Thread nD τ)).1, b)) (W84 m ρ c) s')
      isplitl [Hh] <;> iassumption)
    (hQ := hQ)

/-- THE FRAME: every weakly fair execution of @main terminates, nothing faulting, and every final state has each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  run_all m ρ fun s h c => ⟨(h c _ (mem_uc main_arg0 (by decide))).trans (W84_main_arg0 m ρ c), (h c _ (mem_uc main_arg1 (by decide))).trans (W84_main_arg1 m ρ c), (h c _ (mem_uc main_arg2 (by decide))).trans (W84_main_arg2 m ρ c), (h c _ (mem_uc main_arg3 (by decide))).trans (W84_main_arg3 m ρ c), (h c _ (mem_uc main_arg4 (by decide))).trans (W84_main_arg4 m ρ c), (h c _ (mem_uc main_arg5 (by decide))).trans (W84_main_arg5 m ρ c), (h c _ (mem_uc main_arg6 (by decide))).trans (W84_main_arg6 m ρ c), (h c _ (mem_uc main_arg7 (by decide))).trans (W84_main_arg7 m ρ c), (h c _ (mem_uc main_arg8 (by decide))).trans (W84_main_arg8 m ρ c), (h c _ (mem_uc main_arg9 (by decide))).trans (W84_main_arg9 m ρ c), (h c _ (mem_uc main_arg10 (by decide))).trans (W84_main_arg10 m ρ c), (h c _ (mem_uc main_arg11 (by decide))).trans (W84_main_arg11 m ρ c), (h c _ (mem_uc main_arg12 (by decide))).trans (W84_main_arg12 m ρ c), (h c _ (mem_uc main_arg13 (by decide))).trans (W84_main_arg13 m ρ c), (h c _ (mem_uc main_arg14 (by decide))).trans (W84_main_arg14 m ρ c), (h c _ (mem_uc main_arg15 (by decide))).trans (W84_main_arg15 m ρ c), (h c _ (mem_uc main_arg16 (by decide))).trans (W84_main_arg16 m ρ c), (h c _ (mem_uc main_arg17 (by decide))).trans (W84_main_arg17 m ρ c), (h c _ (mem_uc main_arg18 (by decide))).trans (W84_main_arg18 m ρ c), (h c _ (mem_uc main_arg19 (by decide))).trans (W84_main_arg19 m ρ c)⟩

end Cert.Kernel.Gen

end
-- ==== Proof.KI.R0.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection `x · W + b` over 10 row blocks of 10000 rows, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`): its current staging buffer holds its block at every point, for any proof data
    whose array is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight `W`, one block, the same at every point): its staging buffer holds that block at every
    point, fetched there or not — where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias `b`, one block, the same at every point): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output's written, through its whole rectangle -/

abbrev r0_0 : Rect S10000x384 := Rect.unit (s := S10000x384) ![0, 0] S10000x384.size inb_S10000x384_S10000x384_0_0
abbrev r0_1 : Rect S384x64 := Rect.unit (s := S384x64) ![0, 0] S384x64.size inb_S384x64_S384x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output window's buffer -/

/-- Window 3's staging buffer after the body, from the input windows' blocks: its one store, of
    `x · W + b` (the bias row broadcast down the rows), over the whole buffer. -/
def out0_3 (x0 : Vec F S10000x384 .f32) (x1 : Vec F S384x64 .f32) (x2 : Vec F S1x64 .f32) : Vec F S10000x64 .f32 :=
  View.canon [⟨r0_3, k0_pay1 (View.ld x0 r0_0) (View.ld x1 r0_1) (View.ld x2 r0_2)⟩]

/-- The one store tiles the buffer, so it covers it. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out0_3` of the inputs'. The body
    also loads the output's buffer before the store; that value is not used. -/
theorem sound_kernel0 (c : Dev nD) (E : Set ℕ) (i : grid0.Coords) (arg1 : Memref sig .tc .vmem S10000x384 .f32) (harg1 : arg1.IsWhole) (arg2 : Memref sig .tc .vmem S384x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x384 .f32) (x1 : Vec F S384x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.R1.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the projection `x · W + b` over 5 row blocks of 10000 rows, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows of `x`): its current staging buffer holds its block at every point, for any proof data
    whose array is `V`'s (`hA`) and whose body leaves the block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight `W`, one block, the same at every point): its staging buffer holds that block at every
    point, fetched there or not — where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias `b`, one block, the same at every point): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output's written, through its whole rectangle -/

abbrev r1_0 : Rect S10000x384 := Rect.unit (s := S10000x384) ![0, 0] S10000x384.size inb_S10000x384_S10000x384_0_0
abbrev r1_1 : Rect S384x64 := Rect.unit (s := S384x64) ![0, 0] S384x64.size inb_S384x64_S384x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in the output window's buffer -/

/-- Window 3's staging buffer after the body, from the input windows' blocks: its one store, of
    `x · W + b` (the bias row broadcast down the rows), over the whole buffer. -/
def out1_3 (x0 : Vec F S10000x384 .f32) (x1 : Vec F S384x64 .f32) (x2 : Vec F S1x64 .f32) : Vec F S10000x64 .f32 :=
  View.canon [⟨r1_3, k1_pay1 (View.ld x0 r1_0) (View.ld x1 r1_1) (View.ld x2 r1_2)⟩]

/-- The one store tiles the buffer, so it covers it. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out1_3` of the inputs'. The body
    also loads the output's buffer before the store; that value is not used. -/
theorem sound_kernel1 (c : Dev nD) (E : Set ℕ) (i : grid1.Coords) (arg1 : Memref sig .tc .vmem S10000x384 .f32) (harg1 : arg1.IsWhole) (arg2 : Memref sig .tc .vmem S384x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x384 .f32) (x1 : Vec F S384x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.R2.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2_kernel` (pipeline 2), at the entry contents `V`

On blocks of 2456 rows the body stores max(0, x8 · x14 + x13 + Σ_{k<4} (x_{2k} / max(x_{2k+1}, 1)) · x_{9+k}) into window 15:
windows 0..7 are four (row block, column of divisors) pairs, 8 a row block, 9..12 and 14 square 64x64 matrices and 13 a
1x64 row, these six at a block index constant over the grid. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the block index of an
    unfetched input has not moved, the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The same for input window 3. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The same for input window 4. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The same for input window 5. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- The same for input window 6. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- The same for input window 7. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- The same for input window 8. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- The same for input window 9, whose block index is constant over the grid (it is fetched at the first point only). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- The same for input window 10 (constant block index). -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- The same for input window 11 (constant block index). -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- The same for input window 12 (constant block index). -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- The same for input window 13 (constant block index). -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- The same for input window 14 (constant block index). -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2456x64 := Rect.unit (s := S2456x64) ![0, 0] S2456x64.size inb_S2456x64_S2456x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S2456x1 := Rect.unit (s := S2456x1) ![0, 0] S2456x1.size inb_S2456x1_S2456x1_0_0

/-! ## What the body leaves in the output window's buffer -/

/-- Window 15's staging buffer after the body, from the input windows' blocks: its one store as a piece over the
    whole buffer, the payload the body's second half's applied to its first half's.
    First half: x8 · x14 + x13 + (x0 / max(x1, 1)) · x9 + (x2 / max(x3, 1)) · x10.
    Second half: that + (x4 / max(x5, 1)) · x11 + (x6 / max(x7, 1)) · x12, then the maximum with 0. -/
def out2_15 (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) : Vec F S2456x64 .f32 :=
  View.canon [⟨r2_0, k2_pay1
    (k2_pay2 (View.ld x8 r2_0) (View.ld x14 r2_1) (View.ld x13 r2_2) (View.ld x0 r2_0) (View.ld x1 r2_3) (View.ld x9 r2_1)
      (View.ld x2 r2_0) (View.ld x3 r2_3) (View.ld x10 r2_1))
    (View.ld x4 r2_0) (View.ld x5 r2_3) (View.ld x11 r2_1) (View.ld x6 r2_0) (View.ld x7 r2_3) (View.ld x12 r2_1)⟩]

/-- Its store tiles the buffer (one block of the buffer's own size), so it covers it. -/
theorem cover2_15 (p0 : Vec F S2456x64 .f32) (y : S2456x64.Idx) :
    ∃ pc ∈ ([⟨r2_0, p0⟩] : List (View.Piece (Elt F) S2456x64 .f32)), y ∈ pc.1.set :=
  View.cover_of_tiled [⟨r2_0, p0⟩] S2456x64.size (by rfl) y

/-! ## The body's triple -/

set_option maxHeartbeats 1000000 in
/-- The kernel body on whole staging memrefs, the inputs' at read contents `xW` and the output's at anything, runs to
    the continuation holding the inputs' as they were and the output's at `out2_15` of the inputs': the printed
    functions are their skeletons, run operation by operation through the part call; the output's load is dead. -/
theorem sound_kernel2 (c : Dev nD) (E : Set ℕ) (i : grid2.Coords)
    (arg1 : Memref sig .tc .vmem S2456x64 .f32) (harg1 : arg1.IsWhole) (arg2 : Memref sig .tc .vmem S2456x1 .f32) (harg2 : arg2.IsWhole)
    (arg3 : Memref sig .tc .vmem S2456x64 .f32) (harg3 : arg3.IsWhole) (arg4 : Memref sig .tc .vmem S2456x1 .f32) (harg4 : arg4.IsWhole)
    (arg5 : Memref sig .tc .vmem S2456x64 .f32) (harg5 : arg5.IsWhole) (arg6 : Memref sig .tc .vmem S2456x1 .f32) (harg6 : arg6.IsWhole)
    (arg7 : Memref sig .tc .vmem S2456x64 .f32) (harg7 : arg7.IsWhole) (arg8 : Memref sig .tc .vmem S2456x1 .f32) (harg8 : arg8.IsWhole)
    (arg9 : Memref sig .tc .vmem S2456x64 .f32) (harg9 : arg9.IsWhole) (arg10 : Memref sig .tc .vmem S64x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x64 .f32) (harg13 : arg13.IsWhole) (arg14 : Memref sig .tc .vmem S1x64 .f32) (harg14 : arg14.IsWhole)
    (arg15 : Memref sig .tc .vmem S64x64 .f32) (harg15 : arg15.IsWhole) (arg16 : Memref sig .tc .vmem S2456x64 .f32) (harg16 : arg16.IsWhole)
    (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out2_15 x0 x1 x2 x3 x4 x5 x6 x7 x8 x9 x10 x11 x12 x13 x14)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover2_15 _)

/-! ## The pipeline's proof data -/

/-- The proof data of pipeline 2 on core `c`: the arrays as the region finds them (`V`); after the body at
    point `t` each input's buffer at its block and the output's at `out2_15` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (iblk2 V c 13 t) (iblk2 V c 14 t)
    | ⟨_ + 16, h⟩ => absurd h (Nat.not_lt.2 (Nat.le_add_left _ _))
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t =
    out2_15 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t)
      (iblk2 V c 13 t) (iblk2 V c 14 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11,
    after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.R3.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3: the one-edge-type SAGE epilogue at 6144 rows, 17 grid points, at the entry contents `V`

Windows: 0 the neighbour sums (6144x64), 1 the neighbour counts (6144x1), 2 the destination features (6144x64), 3 the
left weight (64x64), 4 the bias (1x64), 5 the right weight (64x64); 6 the result (6144x64):
`max (xdst · wr + bias + (agg / max cnt 1) · wl) 0`. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same of input window 3. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- The same of input window 4. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- The same of input window 5. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S6144x64 := Rect.unit (s := S6144x64) ![0, 0] S6144x64.size inb_S6144x64_S6144x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S6144x1 := Rect.unit (s := S6144x1) ![0, 0] S6144x1.size inb_S6144x1_S6144x1_0_0

/-! ## What the body leaves in the output window's buffer -/

/-- Window 6's staging buffer after the body, from the input windows' blocks: its one store as a piece, the payload
    the skeleton's over the whole-buffer loads of the destination features, the right weight, the bias, the sums,
    the counts and the left weight. -/
def out3_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r3_0, k3_pay1 (View.ld x2 r3_0) (View.ld x5 r3_1) (View.ld x4 r3_2) (View.ld x0 r3_0) (View.ld x1 r3_3) (View.ld x3 r3_1)⟩]

/-- Its one store is over the whole buffer, so it covers it. -/
theorem cover3_6 (p0 : Vec F S6144x64 .f32) (y : S6144x64.Idx) :
    ∃ pc ∈ ([⟨r3_0, p0⟩] : List (View.Piece (Elt F) S6144x64 .f32)), y ∈ pc.1.set :=
  View.cover_of_tiled [⟨r3_0, p0⟩] S6144x64.size (by rfl) y

/-! ## The body's triple -/

set_option maxHeartbeats 1000000 in
/-- The kernel body on whole staging memrefs, the inputs' at read contents `xW` and the output's at anything, runs to
    the continuation holding the inputs' as they were and the output's at `out3_6` of the inputs'. -/
theorem sound_kernel3 (c : Dev nD) (E : Set ℕ) (i : grid3.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at point
    `t` each input's buffer at its block and the output's at `out3_6` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.R4.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4: the one-edge-type SAGE epilogue at 50 rows, one grid point, at the entry contents `V`

Windows: 0 the neighbour sums (50x64), 1 the neighbour counts (50x1), 2 the destination features (50x64), 3 the
left weight (64x64), 4 the bias (1x64), 5 the right weight (64x64); 6 the result (50x64):
`max (xdst · wr + bias + (agg / max cnt 1) · wl) 0`. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- The same of input window 3. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- The same of input window 4. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- The same of input window 5. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S50x64 := Rect.unit (s := S50x64) ![0, 0] S50x64.size inb_S50x64_S50x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S50x1 := Rect.unit (s := S50x1) ![0, 0] S50x1.size inb_S50x1_S50x1_0_0

/-! ## What the body leaves in the output window's buffer -/

/-- Window 6's staging buffer after the body, from the input windows' blocks: its one store as a piece, the payload
    the skeleton's over the whole-buffer loads of the destination features, the right weight, the bias, the sums,
    the counts and the left weight. -/
def out4_6 (x0 : Vec F S50x64 .f32) (x1 : Vec F S50x1 .f32) (x2 : Vec F S50x64 .f32) (x3 : Vec F S64x64 .f32) (x4 : Vec F S1x64 .f32) (x5 : Vec F S64x64 .f32) : Vec F S50x64 .f32 :=
  View.canon [⟨r4_0, k4_pay1 (View.ld x2 r4_0) (View.ld x5 r4_1) (View.ld x4 r4_2) (View.ld x0 r4_0) (View.ld x1 r4_3) (View.ld x3 r4_1)⟩]

/-- Its one store is over the whole buffer, so it covers it. -/
theorem cover4_6 (p0 : Vec F S50x64 .f32) (y : S50x64.Idx) :
    ∃ pc ∈ ([⟨r4_0, p0⟩] : List (View.Piece (Elt F) S50x64 .f32)), y ∈ pc.1.set :=
  View.cover_of_tiled [⟨r4_0, p0⟩] S50x64.size (by rfl) y

/-! ## The body's triple -/

set_option maxHeartbeats 1000000 in
/-- The kernel body on whole staging memrefs, the inputs' at read contents `xW` and the output's at anything, runs to
    the continuation holding the inputs' as they were and the output's at `out4_6` of the inputs'. -/
theorem sound_kernel4 (c : Dev nD) (E : Set ℕ) (i : grid4.Coords) (arg1 : Memref sig .tc .vmem S50x64 .f32) (harg1 : arg1.IsWhole) (arg2 : Memref sig .tc .vmem S50x1 .f32) (harg2 : arg2.IsWhole) (arg3 : Memref sig .tc .vmem S50x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S50x64 .f32) (harg7 : arg7.IsWhole)
    (x0 : Vec F S50x64 .f32) (x1 : Vec F S50x1 .f32) (x2 : Vec F S50x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them (`V`); after the body at point
    `t` each input's buffer at its block and the output's at `out4_6` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.R5.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 5: the one-edge-type SAGE epilogue at 6144 rows, 4 grid points, at the entry contents `V`

Windows: 0 the neighbour sums (6144x64), 1 the neighbour counts (6144x1), 2 the destination features (6144x64), 3 the
left weight (64x64), 4 the bias (1x64), 5 the right weight (64x64); 6 the result (6144x64):
`max (xdst · wr + bias + (agg / max cnt 1) · wl) 0`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The same of input window 3. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- The same of input window 4. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- The same of input window 5. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S6144x64 := Rect.unit (s := S6144x64) ![0, 0] S6144x64.size inb_S6144x64_S6144x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S6144x1 := Rect.unit (s := S6144x1) ![0, 0] S6144x1.size inb_S6144x1_S6144x1_0_0

/-! ## What the body leaves in the output window's buffer -/

/-- Window 6's staging buffer after the body, from the input windows' blocks: its one store as a piece, the payload
    the skeleton's over the whole-buffer loads of the destination features, the right weight, the bias, the sums,
    the counts and the left weight. -/
def out5_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r5_0, k5_pay1 (View.ld x2 r5_0) (View.ld x5 r5_1) (View.ld x4 r5_2) (View.ld x0 r5_0) (View.ld x1 r5_3) (View.ld x3 r5_1)⟩]

/-- Its one store is over the whole buffer, so it covers it. -/
theorem cover5_6 (p0 : Vec F S6144x64 .f32) (y : S6144x64.Idx) :
    ∃ pc ∈ ([⟨r5_0, p0⟩] : List (View.Piece (Elt F) S6144x64 .f32)), y ∈ pc.1.set :=
  View.cover_of_tiled [⟨r5_0, p0⟩] S6144x64.size (by rfl) y

/-! ## The body's triple -/

set_option maxHeartbeats 1000000 in
/-- The kernel body on whole staging memrefs, the inputs' at read contents `xW` and the output's at anything, runs to
    the continuation holding the inputs' as they were and the output's at `out5_6` of the inputs'. -/
theorem sound_kernel5 (c : Dev nD) (E : Set ℕ) (i : grid5.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at point
    `t` each input's buffer at its block and the output's at `out5_6` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.R6.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6: the one-edge-type SAGE epilogue at 10 rows, one grid point, at the entry contents `V`

Windows: 0 the neighbour sums (10x64), 1 the neighbour counts (10x1), 2 the destination features (10x64), 3 the
left weight (64x64), 4 the bias (1x64), 5 the right weight (64x64); 6 the result (10x64):
`max (xdst · wr + bias + (agg / max cnt 1) · wl) 0`. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same of input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same of input window 2. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- The same of input window 3. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- The same of input window 4. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- The same of input window 5. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S10x64 := Rect.unit (s := S10x64) ![0, 0] S10x64.size inb_S10x64_S10x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S10x1 := Rect.unit (s := S10x1) ![0, 0] S10x1.size inb_S10x1_S10x1_0_0

/-! ## What the body leaves in the output window's buffer -/

/-- Window 6's staging buffer after the body, from the input windows' blocks: its one store as a piece, the payload
    the skeleton's over the whole-buffer loads of the destination features, the right weight, the bias, the sums,
    the counts and the left weight. -/
def out6_6 (x0 : Vec F S10x64 .f32) (x1 : Vec F S10x1 .f32) (x2 : Vec F S10x64 .f32) (x3 : Vec F S64x64 .f32) (x4 : Vec F S1x64 .f32) (x5 : Vec F S64x64 .f32) : Vec F S10x64 .f32 :=
  View.canon [⟨r6_0, k6_pay1 (View.ld x2 r6_0) (View.ld x5 r6_1) (View.ld x4 r6_2) (View.ld x0 r6_0) (View.ld x1 r6_3) (View.ld x3 r6_1)⟩]

/-- Its one store is over the whole buffer, so it covers it. -/
theorem cover6_6 (p0 : Vec F S10x64 .f32) (y : S10x64.Idx) :
    ∃ pc ∈ ([⟨r6_0, p0⟩] : List (View.Piece (Elt F) S10x64 .f32)), y ∈ pc.1.set :=
  View.cover_of_tiled [⟨r6_0, p0⟩] S10x64.size (by rfl) y

/-! ## The body's triple -/

set_option maxHeartbeats 1000000 in
/-- The kernel body on whole staging memrefs, the inputs' at read contents `xW` and the output's at anything, runs to
    the continuation holding the inputs' as they were and the output's at `out6_6` of the inputs'. -/
theorem sound_kernel6 (c : Dev nD) (E : Set ℕ) (i : grid6.Coords) (arg1 : Memref sig .tc .vmem S10x64 .f32) (harg1 : arg1.IsWhole) (arg2 : Memref sig .tc .vmem S10x1 .f32) (harg2 : arg2.IsWhole) (arg3 : Memref sig .tc .vmem S10x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10x64 .f32) (harg7 : arg7.IsWhole)
    (x0 : Vec F S10x64 .f32) (x1 : Vec F S10x1 .f32) (x2 : Vec F S10x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them (`V`); after the body at point
    `t` each input's buffer at its block and the output's at `out6_6` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.R7.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 7 of @main: custom_call 7, `cc7_kernel` (pipeline 7), at the entry contents `V`

On blocks of 2456 rows the body stores x8 · x14 + x13 + Σ_{k<4} (x_{2k} / max(x_{2k+1}, 1)) · x_{9+k} into window 15:
windows 0..7 are four (row block, column of divisors) pairs, 8 a row block, 9..12 and 14 square 64x64 matrices and 13 a
1x64 row, these six at a block index constant over the grid. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): the block index of an
    unfetched input has not moved, the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same for input window 2. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- The same for input window 3. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- The same for input window 4. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- The same for input window 5. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- The same for input window 6. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- The same for input window 7. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
/-- The same for input window 8. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
/-- The same for input window 9, whose block index is constant over the grid (it is fetched at the first point only). -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)
/-- The same for input window 10 (constant block index). -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)
/-- The same for input window 11 (constant block index). -/
theorem before7_11_of {c : Dev nD} (dat : Dat τ (Elt F) Unit ℕ (UR sig nD τ) ℕ cfg7 c) (hA : dat.A 11 = V c (Pipeline.arrRef spec7 11))
    (hafter : ∀ t, dat.after 11 t = iblk7 V c 11 t) (t : Fin cfg7.N) (d) : dat.before 11 t d = iblk7 V c 11 t :=
  (dat.before_in_eq_fetched 11 rfl (fun _ => rfl) (fun _ _ _ => rfl) (fun t => by rw [hafter]; unfold Dat.blockOf iblk7; rw [hA]; try rfl) t d).trans
    (by unfold Dat.fetched Dat.blockOf iblk7; rw [hA]; try rfl)
/-- The same for input window 12 (constant block index). -/
theorem before7_12_of {c : Dev nD} (dat : Dat τ (Elt F) Unit ℕ (UR sig nD τ) ℕ cfg7 c) (hA : dat.A 12 = V c (Pipeline.arrRef spec7 12))
    (hafter : ∀ t, dat.after 12 t = iblk7 V c 12 t) (t : Fin cfg7.N) (d) : dat.before 12 t d = iblk7 V c 12 t :=
  (dat.before_in_eq_fetched 12 rfl (fun _ => rfl) (fun _ _ _ => rfl) (fun t => by rw [hafter]; unfold Dat.blockOf iblk7; rw [hA]; try rfl) t d).trans
    (by unfold Dat.fetched Dat.blockOf iblk7; rw [hA]; try rfl)
/-- The same for input window 13 (constant block index). -/
theorem before7_13_of {c : Dev nD} (dat : Dat τ (Elt F) Unit ℕ (UR sig nD τ) ℕ cfg7 c) (hA : dat.A 13 = V c (Pipeline.arrRef spec7 13))
    (hafter : ∀ t, dat.after 13 t = iblk7 V c 13 t) (t : Fin cfg7.N) (d) : dat.before 13 t d = iblk7 V c 13 t :=
  (dat.before_in_eq_fetched 13 rfl (fun _ => rfl) (fun _ _ _ => rfl) (fun t => by rw [hafter]; unfold Dat.blockOf iblk7; rw [hA]; try rfl) t d).trans
    (by unfold Dat.fetched Dat.blockOf iblk7; rw [hA]; try rfl)
/-- The same for input window 14 (constant block index). -/
theorem before7_14_of {c : Dev nD} (dat : Dat τ (Elt F) Unit ℕ (UR sig nD τ) ℕ cfg7 c) (hA : dat.A 14 = V c (Pipeline.arrRef spec7 14))
    (hafter : ∀ t, dat.after 14 t = iblk7 V c 14 t) (t : Fin cfg7.N) (d) : dat.before 14 t d = iblk7 V c 14 t :=
  (dat.before_in_eq_fetched 14 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S2456x64 := Rect.unit (s := S2456x64) ![0, 0] S2456x64.size inb_S2456x64_S2456x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0
abbrev r7_3 : Rect S2456x1 := Rect.unit (s := S2456x1) ![0, 0] S2456x1.size inb_S2456x1_S2456x1_0_0

/-! ## What the body leaves in the output window's buffer -/

/-- Window 15's staging buffer after the body, from the input windows' blocks: its one store as a piece over the
    whole buffer, the payload the body's second half's applied to its first half's.
    First half: x8 · x14 + x13 + (x0 / max(x1, 1)) · x9 + (x2 / max(x3, 1)) · x10.
    Second half: that + (x4 / max(x5, 1)) · x11 + (x6 / max(x7, 1)) · x12. -/
def out7_15 (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) : Vec F S2456x64 .f32 :=
  View.canon [⟨r7_0, k7_pay1
    (k7_pay2 (View.ld x8 r7_0) (View.ld x14 r7_1) (View.ld x13 r7_2) (View.ld x0 r7_0) (View.ld x1 r7_3) (View.ld x9 r7_1)
      (View.ld x2 r7_0) (View.ld x3 r7_3) (View.ld x10 r7_1))
    (View.ld x4 r7_0) (View.ld x5 r7_3) (View.ld x11 r7_1) (View.ld x6 r7_0) (View.ld x7 r7_3) (View.ld x12 r7_1)⟩]

/-- Its store tiles the buffer (one block of the buffer's own size), so it covers it. -/
theorem cover7_15 (p0 : Vec F S2456x64 .f32) (y : S2456x64.Idx) :
    ∃ pc ∈ ([⟨r7_0, p0⟩] : List (View.Piece (Elt F) S2456x64 .f32)), y ∈ pc.1.set :=
  View.cover_of_tiled [⟨r7_0, p0⟩] S2456x64.size (by rfl) y

/-! ## The body's triple -/

set_option maxHeartbeats 1000000 in
/-- The kernel body on whole staging memrefs, the inputs' at read contents `xW` and the output's at anything, runs to
    the continuation holding the inputs' as they were and the output's at `out7_15` of the inputs': the printed
    functions are their skeletons, run operation by operation through the part call; the output's load is dead. -/
theorem sound_kernel7 (c : Dev nD) (E : Set ℕ) (i : grid7.Coords)
    (arg1 : Memref sig .tc .vmem S2456x64 .f32) (harg1 : arg1.IsWhole) (arg2 : Memref sig .tc .vmem S2456x1 .f32) (harg2 : arg2.IsWhole)
    (arg3 : Memref sig .tc .vmem S2456x64 .f32) (harg3 : arg3.IsWhole) (arg4 : Memref sig .tc .vmem S2456x1 .f32) (harg4 : arg4.IsWhole)
    (arg5 : Memref sig .tc .vmem S2456x64 .f32) (harg5 : arg5.IsWhole) (arg6 : Memref sig .tc .vmem S2456x1 .f32) (harg6 : arg6.IsWhole)
    (arg7 : Memref sig .tc .vmem S2456x64 .f32) (harg7 : arg7.IsWhole) (arg8 : Memref sig .tc .vmem S2456x1 .f32) (harg8 : arg8.IsWhole)
    (arg9 : Memref sig .tc .vmem S2456x64 .f32) (harg9 : arg9.IsWhole) (arg10 : Memref sig .tc .vmem S64x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x64 .f32) (harg13 : arg13.IsWhole) (arg14 : Memref sig .tc .vmem S1x64 .f32) (harg14 : arg14.IsWhole)
    (arg15 : Memref sig .tc .vmem S64x64 .f32) (harg15 : arg15.IsWhole) (arg16 : Memref sig .tc .vmem S2456x64 .f32) (harg16 : arg16.IsWhole)
    (x0 : Vec F S2456x64 .f32) (x1 : Vec F S2456x1 .f32) (x2 : Vec F S2456x64 .f32) (x3 : Vec F S2456x1 .f32)
    (x4 : Vec F S2456x64 .f32) (x5 : Vec F S2456x1 .f32) (x6 : Vec F S2456x64 .f32) (x7 : Vec F S2456x1 .f32)
    (x8 : Vec F S2456x64 .f32) (x9 : Vec F S64x64 .f32) (x10 : Vec F S64x64 .f32) (x11 : Vec F S64x64 .f32)
    (x12 : Vec F S64x64 .f32) (x13 : Vec F S1x64 .f32) (x14 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out7_15 x0 x1 x2 x3 x4 x5 x6 x7 x8 x9 x10 x11 x12 x13 x14)) -∗ K ⟨⟩))
      ⊢ wp frame (wpE (defs₀ (F := F)) Variants.none c none) E
          (cc7_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover7_15 _)

/-! ## The pipeline's proof data -/

/-- The proof data of pipeline 7 on core `c`: the arrays as the region finds them (`V`); after the body at
    point `t` each input's buffer at its block and the output's at `out7_15` of the input blocks; the invariant the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => out7_15 (iblk7 V c 0 t) (iblk7 V c 1 t) (iblk7 V c 2 t) (iblk7 V c 3 t) (iblk7 V c 4 t) (iblk7 V c 5 t)
        (iblk7 V c 6 t) (iblk7 V c 7 t) (iblk7 V c 8 t) (iblk7 V c 9 t) (iblk7 V c 10 t) (iblk7 V c 11 t) (iblk7 V c 12 t)
        (iblk7 V c 13 t) (iblk7 V c 14 t)
    | ⟨_ + 16, h⟩ => absurd h (Nat.not_lt.2 (Nat.le_add_left _ _))
  Φ _ := Pipeline.ΦA spec7 c
  q _ := fullShare
  owed _ := 0

/-- The proof data's arrays are the region-entry contents (the proof data's definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = iblk7 V c 14 t := by dsimp only [dat7]
theorem after7_15 (c : Dev nD) (t : Fin cfg7.N) : (dat7 V c).after 15 t =
    out7_15 (iblk7 V c 0 t) (iblk7 V c 1 t) (iblk7 V c 2 t) (iblk7 V c 3 t) (iblk7 V c 4 t) (iblk7 V c 5 t)
      (iblk7 V c 6 t) (iblk7 V c 7 t) (iblk7 V c 8 t) (iblk7 V c 9 t) (iblk7 V c 10 t) (iblk7 V c 11 t) (iblk7 V c 12 t)
      (iblk7 V c 13 t) (iblk7 V c 14 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d
theorem before7_11 (c : Dev nD) (t : Fin cfg7.N) (d) : (dat7 V c).before 11 t d = iblk7 V c 11 t :=
  before7_11_of V (dat7 V c) (A_eq7 V c 11) (after7_11 V c) t d
theorem before7_12 (c : Dev nD) (t : Fin cfg7.N) (d) : (dat7 V c).before 12 t d = iblk7 V c 12 t :=
  before7_12_of V (dat7 V c) (A_eq7 V c 12) (after7_12 V c) t d
theorem before7_13 (c : Dev nD) (t : Fin cfg7.N) (d) : (dat7 V c).before 13 t d = iblk7 V c 13 t :=
  before7_13_of V (dat7 V c) (A_eq7 V c 13) (after7_13 V c) t d
theorem before7_14 (c : Dev nD) (t : Fin cfg7.N) (d) : (dat7 V c).before 14 t d = iblk7 V c 14 t :=
  before7_14_of V (dat7 V c) (A_eq7 V c 14) (after7_14 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d))
    ∗ (∃ d, owns (c : Thread nD τ) (st7_15 t) fullShare ((dat7 V c).before 15 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t)
    ∗ owns (c : Thread nD τ) (st7_15 t) fullShare ((dat7 V c).after 15 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9,
    before7_10, before7_11, before7_12, before7_13, before7_14]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11,
    after7_12, after7_13, after7_14, after7_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩⟩
  iapply (sound_kernel7 c Set.univ (grid7.coords t) _ _ _ _ _ _ _ _ _ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t)
    (iblk7 V c 7 t) (iblk7 V c 8 t) (iblk7 V c 9 t) (iblk7 V c 10 t) (iblk7 V c 11 t) (iblk7 V c 12 t) (iblk7 V c 13 t)
    (iblk7 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.KI.R8.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 8 of @main: custom_call 8, `cc8_kernel` (pipeline 8), at the entry contents `V`

Seven windows: 0 the neighbour sum (6144x64), 1 the neighbour count (6144x1), 2 the destination rows (6144x64),
3 the neighbour weight (64x64), 4 the bias (1x64), 5 the self weight (64x64); 6 the result (6144x64). -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block
    index has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same of input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same of input window 2. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- The same of input window 3 (one block for the whole grid: fetched once, found at every point). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- The same of input window 4 (one block for the whole grid). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- The same of input window 5 (one block for the whole grid). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S6144x64 := Rect.unit (s := S6144x64) ![0, 0] S6144x64.size inb_S6144x64_S6144x64_0_0
abbrev r8_1 : Rect S64x64 := Rect.unit (s := S64x64) ![0, 0] S64x64.size inb_S64x64_S64x64_0_0
abbrev r8_2 : Rect S1x64 := Rect.unit (s := S1x64) ![0, 0] S1x64.size inb_S1x64_S1x64_0_0
abbrev r8_3 : Rect S6144x1 := Rect.unit (s := S6144x1) ![0, 0] S6144x1.size inb_S6144x1_S6144x1_0_0

/-! ## What the body leaves in the output window's buffer -/

/-- Window 6's staging buffer after the body, from the input windows' blocks: its one store as a piece over the
    whole buffer, the payload `(xdst · wr + bias) + (agg / max(cnt, 1)) · wl` of the whole blocks. -/
def out8_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r8_0, k8_pay1 (View.ld x2 r8_0) (View.ld x5 r8_1) (View.ld x4 r8_2) (View.ld x0 r8_0) (View.ld x1 r8_3) (View.ld x3 r8_1)⟩]

/-- Its store tiles the buffer, so it covers it. -/
theorem cover8_6 (p0 : Vec F S6144x64 .f32) (y : S6144x64.Idx) :
    ∃ pc ∈ ([⟨r8_0, p0⟩] : List (View.Piece (Elt F) S6144x64 .f32)), y ∈ pc.1.set :=
  View.cover_of_tiled [⟨r8_0, p0⟩] S6144x64.size (by rfl) y

/-! ## The body's triple -/

set_option maxHeartbeats 1000000 in
/-- The kernel body on whole staging memrefs, the inputs' at read contents `xW` and the output's at anything, runs to
    the continuation holding the inputs' as they were and the output's at `out8_6` of the inputs': the six loads read
    the whole blocks, the load of the output's buffer reads a value nothing uses, the store overwrites that buffer whole. -/
theorem sound_kernel8 (c : Dev nD) (E : Set ℕ) (i : grid8.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8_kernel i arg1 harg1 arg2 harg2 arg3 harg3 arg4 harg4 arg5 harg5 arg6 harg6 arg7 harg7) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them (`V`); after the body at
    point `t` each input's buffer at its block and the output's at `out8_6` of the input blocks; the invariant the
    class's (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Gen

end
-- ==== Proof.KI.R9.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 9 of @main: custom_call 9, `cc9_kernel` (pipeline 9), at the entry contents `V`

Seven windows: 0 the neighbour sum (50x64), 1 the neighbour count (50x1), 2 the destination rows (50x64),
3 the neighbour weight (64x64), 4 the bias (1x64), 5 the self weight (64x64); 6 the result (50x64). -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same of input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same of input window 2. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same of input window 3 (one block for the whole grid: fetched once, found at every point). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- The same of input window 4 (one block for the whole grid). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- The same of input window 5 (one block for the whole grid). -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S50x64 := Rect.unit (s := S50x64) ![0, 0] S50x64.size inb_S50x64_S50x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S50x1 := Rect.unit (s := S50x1) ![0, 0] S50x1.size inb_S50x1_S50x1_0_0

/-! ## What the body leaves in the output window's buffer -/

/-- Window 6's staging buffer after the body, from the input windows' blocks: its one store as a piece over the
    whole buffer, the payload `(xdst · wr + bias) + (agg / max(cnt, 1)) · wl` of the whole blocks. -/
def out9_6 (x0 : Vec F S50x64 .f32) (x1 : Vec F S50x1 .f32) (x2 : Vec F S50x64 .f32) (x3 : Vec F S64x64 .f32) (x4 : Vec F S1x64 .f32) (x5 : Vec F S64x64 .f32) : Vec F S50x64 .f32 :=
  View.canon [⟨r9_0, k9_pay1 (View.ld x2 r9_0) (View.ld x5 r9_1) (View.ld x4 r9_2) (View.ld x0 r9_0) (View.ld x1 r9_3) (View.ld x3 r9_1)⟩]

/-- Its store tiles the buffer, so it covers it. -/
theorem cover9_6 (p0 : Vec F S50x64 .f32) (y : S50x64.Idx) :
    ∃ pc ∈ ([⟨r9_0, p0⟩] : List (View.Piece (Elt F) S50x64 .f32)), y ∈ pc.1.set :=
  View.cover_of_tiled [⟨r9_0, p0⟩] S50x64.size (by rfl) y

/-! ## The body's triple -/

set_option maxHeartbeats 1000000 in
/-- The kernel body on whole staging memrefs, the inputs' at read contents `xW` and the output's at anything, runs to
    the continuation holding the inputs' as they were and the output's at `out9_6` of the inputs': the six loads read
    the whole blocks, the load of the output's buffer reads a value nothing uses, the store overwrites that buffer whole. -/
theorem sound_kernel9 (c : Dev nD) (E : Set ℕ) (i : grid9.Coords) (arg1 : Memref sig .tc .vmem S50x64 .f32) (harg1 : arg1.IsWhole) (arg2 : Memref sig .tc .vmem S50x1 .f32) (harg2 : arg2.IsWhole) (arg3 : Memref sig .tc .vmem S50x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S50x64 .f32) (harg7 : arg7.IsWhole)
    (x0 : Vec F S50x64 .f32) (x1 : Vec F S50x1 .f32) (x2 : Vec F S50x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9_kernel i arg1 harg1 arg2 harg2 arg3 harg3 arg4 harg4 arg5 harg5 arg6 harg6 arg7 harg7) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core `c`: the arrays as the region finds them (`V`); after the body at
    point `t` each input's buffer at its block and the output's at `out9_6` of the input blocks; the invariant the
    class's (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Gen

end
-- ==== Proof.KI.R10.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 10 of @main: custom_call 10, `cc10_kernel` (pipeline 10), at the entry contents `V`

Seven windows: 0 the neighbour sum (6144x64), 1 the neighbour count (6144x1), 2 the destination rows (6144x64),
3 the neighbour weight (64x64), 4 the bias (1x64), 5 the self weight (64x64); 6 the result (6144x64). -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block
    index has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same of input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same of input window 2. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- The same of input window 3 (one block for the whole grid: fetched once, found at every point). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- The same of input window 4 (one block for the whole grid). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- The same of input window 5 (one block for the whole grid). -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S6144x64 := Rect.unit (s := S6144x64) ![0, 0] S6144x64.size inb_S6144x64_S6144x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0
abbrev r10_3 : Rect S6144x1 := Rect.unit (s := S6144x1) ![0, 0] S6144x1.size inb_S6144x1_S6144x1_0_0

/-! ## What the body leaves in the output window's buffer -/

/-- Window 6's staging buffer after the body, from the input windows' blocks: its one store as a piece over the
    whole buffer, the payload `(xdst · wr + bias) + (agg / max(cnt, 1)) · wl` of the whole blocks. -/
def out10_6 (x0 : Vec F S6144x64 .f32) (x1 : Vec F S6144x1 .f32) (x2 : Vec F S6144x64 .f32) (x3 : Vec F S64x64 .f32) (x4 : Vec F S1x64 .f32) (x5 : Vec F S64x64 .f32) : Vec F S6144x64 .f32 :=
  View.canon [⟨r10_0, k10_pay1 (View.ld x2 r10_0) (View.ld x5 r10_1) (View.ld x4 r10_2) (View.ld x0 r10_0) (View.ld x1 r10_3) (View.ld x3 r10_1)⟩]

/-- Its store tiles the buffer, so it covers it. -/
theorem cover10_6 (p0 : Vec F S6144x64 .f32) (y : S6144x64.Idx) :
    ∃ pc ∈ ([⟨r10_0, p0⟩] : List (View.Piece (Elt F) S6144x64 .f32)), y ∈ pc.1.set :=
  View.cover_of_tiled [⟨r10_0, p0⟩] S6144x64.size (by rfl) y

/-! ## The body's triple -/

set_option maxHeartbeats 1000000 in
/-- The kernel body on whole staging memrefs, the inputs' at read contents `xW` and the output's at anything, runs to
    the continuation holding the inputs' as they were and the output's at `out10_6` of the inputs': the six loads read
    the whole blocks, the load of the output's buffer reads a value nothing uses, the store overwrites that buffer whole. -/
theorem sound_kernel10 (c : Dev nD) (E : Set ℕ) (i : grid10.Coords) (arg1 : Memref sig .tc .vmem S6144x64 .f32) (harg1 : arg1.IsWhole) (arg2 : Memref sig .tc .vmem S6144x1 .f32) (harg2 : arg2.IsWhole) (arg3 : Memref sig .tc .vmem S6144x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S6144x64 .f32) (harg7 : arg7.IsWhole)
    (x0 : Vec F S6144x64 .f32) (x1 : Vec F S6144x1 .f32) (x2 : Vec F S6144x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10_kernel i arg1 harg1 arg2 harg2 arg3 harg3 arg4 harg4 arg5 harg5 arg6 harg6 arg7 harg7) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-! ## The pipeline's proof data -/

/-- The proof data of pipeline 10 on core `c`: the arrays as the region finds them (`V`); after the body at
    point `t` each input's buffer at its block and the output's at `out10_6` of the input blocks; the invariant the
    class's (the scoped rest and the generator register, untouched); nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Gen

end
-- ==== Proof.KI.R11.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 11 of @main: custom_call 11, `cc11_kernel` (pipeline 11), at the entry contents `V`

Seven windows: 0 the neighbour sum (10x64), 1 the neighbour count (10x1), 2 the destination rows (10x64),
3 the neighbour weight (64x64), 4 the bias (1x64), 5 the self weight (64x64); 6 the result (10x64). -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same of input window 1. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The same of input window 2. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- The same of input window 3 (one block for the whole grid: fetched once, found at every point). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- The same of input window 4 (one block for the whole grid). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- The same of input window 5 (one block for the whole grid). -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S10x64 := Rect.unit (s := S10x64) ![0, 0] S10x64.size inb_S10x64_S10x64_0_0
abbrev r11_1 : Rect S64x64 := Rect.unit (s := S64x64) ![0, 0] S64x64.size inb_S64x64_S64x64_0_0
abbrev r11_2 : Rect S1x64 := Rect.unit (s := S1x64) ![0, 0] S1x64.size inb_S1x64_S1x64_0_0
abbrev r11_3 : Rect S10x1 := Rect.unit (s := S10x1) ![0, 0] S10x1.size inb_S10x1_S10x1_0_0

/-! ## What the body leaves in the output window's buffer -/

/-- Window 6's staging buffer after the body, from the input windows' blocks: its one store as a piece over the
    whole buffer, the payload `(xdst · wr + bias) + (agg / max(cnt, 1)) · wl` of the whole blocks. -/
def out11_6 (x0 : Vec F S10x64 .f32) (x1 : Vec F S10x1 .f32) (x2 : Vec F S10x64 .f32) (x3 : Vec F S64x64 .f32) (x4 : Vec F S1x64 .f32) (x5 : Vec F S64x64 .f32) : Vec F S10x64 .f32 :=
  View.canon [⟨r11_0, k11_pay1 (View.ld x2 r11_0) (View.ld x5 r11_1) (View.ld x4 r11_2) (View.ld x0 r11_0) (View.ld x1 r11_3) (View.ld x3 r11_1)⟩]

/-- Its store tiles the buffer, so it covers it. -/
theorem cover11_6 (p0 : Vec F S10x64 .f32) (y : S10x64.Idx) :
    ∃ pc ∈ ([⟨r11_0, p0⟩] : List (View.Piece (Elt F) S10x64 .f32)), y ∈ pc.1.set :=
  View.cover_of_tiled [⟨r11_0, p0⟩] S10x64.size (by rfl) y

/-! ## The body's triple -/

set_option maxHeartbeats 1000000 in
/-- The kernel body on whole staging memrefs, the inputs' at read contents `xW` and the output's at anything, runs to
    the continuation holding the inputs' as they were and the output's at `out11_6` of the inputs': the six loads read
    the whole blocks, the load of the output's buffer reads a value nothing uses, the store overwrites that buffer whole. -/
theorem sound_kernel11 (c : Dev nD) (E : Set ℕ) (i : grid11.Coords) (arg1 : Memref sig .tc .vmem S10x64 .f32) (harg1 : arg1.IsWhole) (arg2 : Memref sig .tc .vmem S10x1 .f32) (harg2 : arg2.IsWhole) (arg3 : Memref sig .tc .vmem S10x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10x64 .f32) (harg7 : arg7.IsWhole)
    (x0 : Vec F S10x64 .f32) (x1 : Vec F S10x1 .f32) (x2 : Vec F S10x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11_kernel i arg1 harg1 arg2 harg2 arg3 harg3 arg4 harg4 arg5 harg5 arg6 harg6 arg7 harg7) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant the
    class's (the scoped rest and the generator register, untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Gen

end
-- ==== Proof.KI.R12.lean ====
import proofs.«417513_j58866821759238_4_alg».proof.Proof.Gen.KernelIdeal.Launch
import proofs.«417513_j58866821759238_4_alg».proof.Proof.Gen.KernelIdeal.Skeleton
import proofs.«417513_j58866821759238_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 12 of @main: the edge score, the sum over the 64 lanes of the product of two 4096x64 blocks, at the
    entry contents `V` -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): the window is uncut and
    never idle, and where it is not fetched its index has not moved. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, under the same
    two hypotheses at window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S4096x64 := Rect.unit (s := S4096x64) ![0, 0] S4096x64.size inb_S4096x64_S4096x64_0_0
abbrev r12_1 : Rect S4096 := Rect.unit (s := S4096) ![0] S4096.size inb_S4096_S4096_0

/-! ## What the body leaves in each output window's buffer -/

/-- Window 2's staging buffer after the body, from the input windows' blocks: its 1 store as a piece, the whole
    buffer at the lane sums of the product of the two blocks read whole. -/
def out12_2 (x0 : Vec F S4096x64 .f32) (x1 : Vec F S4096x64 .f32) : Vec F S4096 .f32 :=
  View.canon [⟨r12_1, k12_pay1 (View.ld x0 r12_0) (View.ld x1 r12_0)⟩]

/-- Its store is the whole buffer, so it covers it. -/
theorem cover12_2 (p0 : Vec F S4096 .f32) (y : S4096.Idx) :
    ∃ pc ∈ ([⟨r12_1, p0⟩] : List (View.Piece (Elt F) S4096 .f32)), y ∈ pc.1.set :=
  View.cover_of_tiled [⟨r12_1, p0⟩] S4096.size (by rfl) y

/-! ## The body's triple -/

set_option maxHeartbeats 1000000 in
/-- The kernel body on whole staging memrefs, the inputs' at read contents `xW` and the output's at anything, runs to
    the continuation holding the inputs' as they were and the output's at `out12_2` of the inputs': the body reads
    both inputs whole, reads the output (a value it never uses) and stores the lane sums over the whole output. -/
theorem sound_kernel12 (c : Dev nD) (E : Set ℕ) (i : grid12.Coords) (arg1 : Memref sig .tc .vmem S4096x64 .f32) (harg1 : arg1.IsWhole) (arg2 : Memref sig .tc .vmem S4096x64 .f32) (harg2 : arg2.IsWhole) (arg3 : Memref sig .tc .vmem S4096 .f32) (harg3 : arg3.IsWhole)
    (x0 : Vec F S4096x64 .f32) (x1 : Vec F S4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12_kernel i arg1 harg1 arg2 harg2 arg3 harg3) K := by
  simp only [cc12_kernel_eq_skeleton]; unfold cc12_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays as the region finds them (`V`); after the body at
    point `t` each input's buffer at its block and the output's at `out12_2` of the input blocks; the invariant
    the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks (`before12_W`), so `sound_kernel12` applies; the
    invariant and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Gen

end
-- ==== Proof.KI.Fold.lean ====
import proofs.«417513_j58866821759238_4_alg».proof.Proof.KI.R0
import proofs.«417513_j58866821759238_4_alg».proof.Proof.KI.R1
import proofs.«417513_j58866821759238_4_alg».proof.Proof.KI.R2
import proofs.«417513_j58866821759238_4_alg».proof.Proof.KI.R3
import proofs.«417513_j58866821759238_4_alg».proof.Proof.KI.R4
import proofs.«417513_j58866821759238_4_alg».proof.Proof.KI.R5
import proofs.«417513_j58866821759238_4_alg».proof.Proof.KI.R6
import proofs.«417513_j58866821759238_4_alg».proof.Proof.KI.R7
import proofs.«417513_j58866821759238_4_alg».proof.Proof.KI.R8
import proofs.«417513_j58866821759238_4_alg».proof.Proof.KI.R9
import proofs.«417513_j58866821759238_4_alg».proof.Proof.KI.R10
import proofs.«417513_j58866821759238_4_alg».proof.Proof.KI.R11
import proofs.«417513_j58866821759238_4_alg».proof.Proof.KI.R12
import Idealize.ShloMosaic.Lib.StableHlo.Run
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of @main: a fold from the launch memory -/

/-- Core `c`'s buffers at launch. -/
abbrev W0 : Dev nD → Valuation τ sig (Elt F) := fun c b => (s₀ m ρ).mem ((c : Dev nD), b)
/-- After item 0, the host operations `hostOps0`. -/
abbrev W1 : Dev nD → Valuation τ sig (Elt F) := fun c => StableHlo.after hostOps0 (W0 m ρ c)
/-- The contents region 0 (item 1) is entered from, read at the TensorCore's references. -/
abbrev V1 : (c : Dev nD) → (b : Ref sig .tc) → Buf (Elt F) ((c : Thread nD τ).loc b) := fun c b => W1 m ρ c b
/-- After item 1, region 0: its windows' arrays at what the pipeline leaves (an input as entered, the output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, the host operations `hostOps1`. -/
abbrev W3 : Dev nD → Valuation τ sig (Elt F) := fun c => StableHlo.after hostOps1 (W2 m ρ c)
/-- The contents region 1 (item 3) is entered from, read at the TensorCore's references. -/
abbrev V3 : (c : Dev nD) → (b : Ref sig .tc) → Buf (Elt F) ((c : Thread nD τ).loc b) := fun c b => W3 m ρ c b
/-- After item 3, region 1: its windows' arrays at what the pipeline leaves (an input as entered, the output's write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After item 4, the host operations `hostOps2`. -/
abbrev W5 : Dev nD → Valuation τ sig (Elt F) := fun c => StableHlo.after hostOps2 (W4 m ρ c)
/-- After item 5, the host operations `hostOps2_1`. -/
abbrev W6 : Dev nD → Valuation τ sig (Elt F) := fun c => StableHlo.after hostOps2_1 (W5 m ρ c)
/-- After item 6, the host operations `hostOps2_2`. -/
abbrev W7 : Dev nD → Valuation τ sig (Elt F) := fun c => StableHlo.after hostOps2_2 (W6 m ρ c)
/-- After item 7, the host operations `hostOps2_3`. -/
abbrev W8 : Dev nD → Valuation τ sig (Elt F) := fun c => StableHlo.after hostOps2_3 (W7 m ρ c)
/-- After item 8, the host operations `hostOps2_4`. -/
abbrev W9 : Dev nD → Valuation τ sig (Elt F) := fun c => StableHlo.after hostOps2_4 (W8 m ρ c)
/-- After item 9, the host operations `hostOps2_5`. -/
abbrev W10 : Dev nD → Valuation τ sig (Elt F) := fun c => StableHlo.after hostOps2_5 (W9 m ρ c)
/-- After item 10, the host operations `hostOps2_6`. -/
abbrev W11 : Dev nD → Valuation τ sig (Elt F) := fun c => StableHlo.after hostOps2_6 (W10 m ρ c)
/-- After item 11, the host operations `hostOps2_7`. -/
abbrev W12 : Dev nD → Valuation τ sig (Elt F) := fun c => StableHlo.after hostOps2_7 (W11 m ρ c)
/-- After item 12, the host operations `hostOps2_8`. -/
abbrev W13 : Dev nD → Valuation τ sig (Elt F) := fun c => StableHlo.after hostOps2_8 (W12 m ρ c)
/-- After item 13, the host operations `hostOps2_9`. -/
abbrev W14 : Dev nD → Valuation τ sig (Elt F) := fun c => StableHlo.after hostOps2_9 (W13 m ρ c)
/-- After item 14, the host operations `hostOps2_10`. -/
abbrev W15 : Dev nD → Valuation τ sig (Elt F) := fun c => StableHlo.after hostOps2_10 (W14 m ρ c)
/-- After item 15, the host operations `hostOps2_11`. -/
abbrev W16 : Dev nD → Valuation τ sig (Elt F) := fun c => StableHlo.after hostOps2_11 (W15 m ρ c)
/-- After item 16, the host operations `hostOps2_12`. -/
abbrev W17 : Dev nD → Valuation τ sig (Elt F) := fun c => StableHlo.after hostOps2_12 (W16 m ρ c)
/-- After item 17, the host operations `hostOps2_13`. -/
abbrev W18 : Dev nD → Valuation τ sig (Elt F) := fun c => StableHlo.after hostOps2_13 (W17 m ρ c)
/-- After item 18, the host operations `hostOps2_14`. -/
abbrev W19 : Dev nD → Valuation τ sig (Elt F) := fun c => StableHlo.after hostOps2_14 (W18 m ρ c)
/-- After item 19, the host operations `hostOps2_15`. -/
abbrev W20 : Dev nD → Valuation τ sig (Elt F) := fun c => StableHlo.after hostOps2_15 (W19 m ρ c)
/-- After item 20, the host operations `hostOps2_16`. -/
abbrev W21 : Dev nD → Valuation τ sig (Elt F) := fun c => StableHlo.after hostOps2_16 (W20 m ρ c)
/-- After item 21, the host operations `hostOps2_17`. -/
abbrev W22 : Dev nD → Valuation τ sig (Elt F) := fun c => StableHlo.after hostOps2_17 (W21 m ρ c)
/-- The contents region 2 (item 22) is entered from, read at the TensorCore's references. -/
abbrev V22 : (c : Dev nD) → (b : Ref sig .tc) → Buf (Elt F) ((c : Thread nD τ).loc b) := fun c b => W22 m ρ c b
/-- After item 22, region 2: its windows' arrays at what the pipeline leaves (an input as entered, the output's write-backs folded), every other buffer as entered. -/
def W23 (c : Dev nD) : Valuation τ sig (Elt F) :=
  Pipeline.withArrays spec2 c (W22 m ρ c) fun w => (dat2 (V22 m ρ) c).arrAt w cfg2.N
theorem W23_arr (c : Dev nD) (w : Fin cfg2.W) :
    W23 m ρ c (Proc.devRef .tc (Pipeline.arrRef spec2 w)) = (dat2 (V22 m ρ) c).arrAt w cfg2.N := by
  unfold W23; exact Pipeline.withArrays_arr spec2 launch2.win.arr_inj c _ _ w
theorem W23_of_ne (c : Dev nD) (b : Ref sig .tc) (hb : ∀ w, Pipeline.arrRef spec2 w ≠ b) :
    W23 m ρ c (Proc.devRef .tc b) = W22 m ρ c (Proc.devRef .tc b) := by
  unfold W23; exact Pipeline.withArrays_of_ne spec2 c _ _ b hb
abbrev V23 : (c : Dev nD) → (b : Ref sig .tc) → Buf (Elt F) ((c : Thread nD τ).loc b) := fun c b => W23 m ρ c b
theorem hF2 (c : Dev nD) (w : Fin cfg2.W) : (dat2 (V22 m ρ) c).arrAt w cfg2.N = V23 m ρ c (Pipeline.arrRef spec2 w) :=
  (W23_arr m ρ c w).symm
theorem hrest2 (c : Dev nD) : ∀ b, b ∉ Finset.univ.image (Pipeline.arrRef spec2) → V23 m ρ c b = V22 m ρ c b :=
  fun b hb => W23_of_ne m ρ c b fun w e => hb (Finset.mem_image.mpr ⟨w, Finset.mem_univ _, e⟩)
/-- After item 23, the host operations `hostOps3`. -/
abbrev W24 : Dev nD → Valuation τ sig (Elt F) := fun c => StableHlo.after hostOps3 (W23 m ρ c)
/-- After item 24, the host operations `hostOps3_1`. -/
abbrev W25 : Dev nD → Valuation τ sig (Elt F) := fun c => StableHlo.after hostOps3_1 (W24 m ρ c)
/-- After item 25, the host operations `hostOps3_2`. -/
abbrev W26 : Dev nD → Valuation τ sig (Elt F) := fun c => StableHlo.after hostOps3_2 (W25 m ρ c)
/-- After item 26, the host operations `hostOps3_3`. -/
abbrev W27 : Dev nD → Valuation τ sig (Elt F) := fun c => StableHlo.after hostOps3_3 (W26 m ρ c)
/-- After item 27, the host operations `hostOps3_4`. -/
abbrev W28 : Dev nD → Valuation τ sig (Elt F) := fun c => StableHlo.after hostOps3_4 (W27 m ρ c)
/-- After item 28, the host operations `hostOps3_5`. -/
abbrev W29 : Dev nD → Valuation τ sig (Elt F) := fun c => StableHlo.after hostOps3_5 (W28 m ρ c)
/-- The contents region 3 (item 29) is entered from, read at the TensorCore's references. -/
abbrev V29 : (c : Dev nD) → (b : Ref sig .tc) → Buf (Elt F) ((c : Thread nD τ).loc b) := fun c b => W29 m ρ c b
/-- After item 29, region 3: its windows' arrays at what the pipeline leaves (an input as entered, the output's write-backs folded), every other buffer as entered. -/
def W30 (c : Dev nD) : Valuation τ sig (Elt F) :=
  Pipeline.withArrays spec3 c (W29 m ρ c) fun w => (dat3 (V29 m ρ) c).arrAt w cfg3.N
theorem W30_arr (c : Dev nD) (w : Fin cfg3.W) :
    W30 m ρ c (Proc.devRef .tc (Pipeline.arrRef spec3 w)) = (dat3 (V29 m ρ) c).arrAt w cfg3.N := by
  unfold W30; exact Pipeline.withArrays_arr spec3 launch3.win.arr_inj c _ _ w
theorem W30_of_ne (c : Dev nD) (b : Ref sig .tc) (hb : ∀ w, Pipeline.arrRef spec3 w ≠ b) :
    W30 m ρ c (Proc.devRef .tc b) = W29 m ρ c (Proc.devRef .tc b) := by
  unfold W30; exact Pipeline.withArrays_of_ne spec3 c _ _ b hb
abbrev V30 : (c : Dev nD) → (b : Ref sig .tc) → Buf (Elt F) ((c : Thread nD τ).loc b) := fun c b => W30 m ρ c b
theorem hF3 (c : Dev nD) (w : Fin cfg3.W) : (dat3 (V29 m ρ) c).arrAt w cfg3.N = V30 m ρ c (Pipeline.arrRef spec3 w) :=
  (W30_arr m ρ c w).symm
theorem hrest3 (c : Dev nD) : ∀ b, b ∉ Finset.univ.image (Pipeline.arrRef spec3) → V30 m ρ c b = V29 m ρ c b :=
  fun b hb => W30_of_ne m ρ c b fun w e => hb (Finset.mem_image.mpr ⟨w, Finset.mem_univ _, e⟩)
/-- After item 30, the host operations `hostOps4`. -/
abbrev W31 : Dev nD → Valuation τ sig (Elt F) := fun c => StableHlo.after hostOps4 (W30 m ρ c)
/-- The contents region 4 (item 31) is entered from, read at the TensorCore's references. -/
abbrev V31 : (c : Dev nD) → (b : Ref sig .tc) → Buf (Elt F) ((c : Thread nD τ).loc b) := fun c b => W31 m ρ c b
/-- After item 31, region 4: its windows' arrays at what the pipeline leaves (an input as entered, the output's write-backs folded), every other buffer as entered. -/
def W32 (c : Dev nD) : Valuation τ sig (Elt F) :=
  Pipeline.withArrays spec4 c (W31 m ρ c) fun w => (dat4 (V31 m ρ) c).arrAt w cfg4.N
theorem W32_arr (c : Dev nD) (w : Fin cfg4.W) :
    W32 m ρ c (Proc.devRef .tc (Pipeline.arrRef spec4 w)) = (dat4 (V31 m ρ) c).arrAt w cfg4.N := by
  unfold W32; exact Pipeline.withArrays_arr spec4 launch4.win.arr_inj c _ _ w
theorem W32_of_ne (c : Dev nD) (b : Ref sig .tc) (hb : ∀ w, Pipeline.arrRef spec4 w ≠ b) :
    W32 m ρ c (Proc.devRef .tc b) = W31 m ρ c (Proc.devRef .tc b) := by
  unfold W32; exact Pipeline.withArrays_of_ne spec4 c _ _ b hb
abbrev V32 : (c : Dev nD) → (b : Ref sig .tc) → Buf (Elt F) ((c : Thread nD τ).loc b) := fun c b => W32 m ρ c b
theorem hF4 (c : Dev nD) (w : Fin cfg4.W) : (dat4 (V31 m ρ) c).arrAt w cfg4.N = V32 m ρ c (Pipeline.arrRef spec4 w) :=
  (W32_arr m ρ c w).symm
theorem hrest4 (c : Dev nD) : ∀ b, b ∉ Finset.univ.image (Pipeline.arrRef spec4) → V32 m ρ c b = V31 m ρ c b :=
  fun b hb => W32_of_ne m ρ c b fun w e => hb (Finset.mem_image.mpr ⟨w, Finset.mem_univ _, e⟩)
/-- After item 32, the host operations `hostOps5`. -/
abbrev W33 : Dev nD → Valuation τ sig (Elt F) := fun c => StableHlo.after hostOps5 (W32 m ρ c)
/-- After item 33, the host operations `hostOps5_1`. -/
abbrev W34 : Dev nD → Valuation τ sig (Elt F) := fun c => StableHlo.after hostOps5_1 (W33 m ρ c)
/-- After item 34, the host operations `hostOps5_2`. -/
abbrev W35 : Dev nD → Valuation τ sig (Elt F) := fun c => StableHlo.after hostOps5_2 (W34 m ρ c)
/-- After item 35, the host operations `hostOps5_3`. -/
abbrev W36 : Dev nD → Valuation τ sig (Elt F) := fun c => StableHlo.after hostOps5_3 (W35 m ρ c)
/-- After item 36, the host operations `hostOps5_4`. -/
abbrev W37 : Dev nD → Valuation τ sig (Elt F) := fun c => StableHlo.after hostOps5_4 (W36 m ρ c)
/-- After item 37, the host operations `hostOps5_5`. -/
abbrev W38 : Dev nD → Valuation τ sig (Elt F) := fun c => StableHlo.after hostOps5_5 (W37 m ρ c)
/-- The contents region 5 (item 38) is entered from, read at the TensorCore's references. -/
abbrev V38 : (c : Dev nD) → (b : Ref sig .tc) → Buf (Elt F) ((c : Thread nD τ).loc b) := fun c b => W38 m ρ c b
/-- After item 38, region 5: its windows' arrays at what the pipeline leaves (an input as entered, the output's write-backs folded), every other buffer as entered. -/
def W39 (c : Dev nD) : Valuation τ sig (Elt F) :=
  Pipeline.withArrays spec5 c (W38 m ρ c) fun w => (dat5 (V38 m ρ) c).arrAt w cfg5.N
theorem W39_arr (c : Dev nD) (w : Fin cfg5.W) :
    W39 m ρ c (Proc.devRef .tc (Pipeline.arrRef spec5 w)) = (dat5 (V38 m ρ) c).arrAt w cfg5.N := by
  unfold W39; exact Pipeline.withArrays_arr spec5 launch5.win.arr_inj c _ _ w
theorem W39_of_ne (c : Dev nD) (b : Ref sig .tc) (hb : ∀ w, Pipeline.arrRef spec5 w ≠ b) :
    W39 m ρ c (Proc.devRef .tc b) = W38 m ρ c (Proc.devRef .tc b) := by
  unfold W39; exact Pipeline.withArrays_of_ne spec5 c _ _ b hb
abbrev V39 : (c : Dev nD) → (b : Ref sig .tc) → Buf (Elt F) ((c : Thread nD τ).loc b) := fun c b => W39 m ρ c b
theorem hF5 (c : Dev nD) (w : Fin cfg5.W) : (dat5 (V38 m ρ) c).arrAt w cfg5.N = V39 m ρ c (Pipeline.arrRef spec5 w) :=
  (W39_arr m ρ c w).symm
theorem hrest5 (c : Dev nD) : ∀ b, b ∉ Finset.univ.image (Pipeline.arrRef spec5) → V39 m ρ c b = V38 m ρ c b :=
  fun b hb => W39_of_ne m ρ c b fun w e => hb (Finset.mem_image.mpr ⟨w, Finset.mem_univ _, e⟩)
/-- After item 39, the host operations `hostOps6`. -/
abbrev W40 : Dev nD → Valuation τ sig (Elt F) := fun c => StableHlo.after hostOps6 (W39 m ρ c)
/-- The contents region 6 (item 40) is entered from, read at the TensorCore's references. -/
abbrev V40 : (c : Dev nD) → (b : Ref sig .tc) → Buf (Elt F) ((c : Thread nD τ).loc b) := fun c b => W40 m ρ c b
/-- After item 40, region 6: its windows' arrays at what the pipeline leaves (an input as entered, the output's write-backs folded), every other buffer as entered. -/
def W41 (c : Dev nD) : Valuation τ sig (Elt F) :=
  Pipeline.withArrays spec6 c (W40 m ρ c) fun w => (dat6 (V40 m ρ) c).arrAt w cfg6.N
theorem W41_arr (c : Dev nD) (w : Fin cfg6.W) :
    W41 m ρ c (Proc.devRef .tc (Pipeline.arrRef spec6 w)) = (dat6 (V40 m ρ) c).arrAt w cfg6.N := by
  unfold W41; exact Pipeline.withArrays_arr spec6 launch6.win.arr_inj c _ _ w
theorem W41_of_ne (c : Dev nD) (b : Ref sig .tc) (hb : ∀ w, Pipeline.arrRef spec6 w ≠ b) :
    W41 m ρ c (Proc.devRef .tc b) = W40 m ρ c (Proc.devRef .tc b) := by
  unfold W41; exact Pipeline.withArrays_of_ne spec6 c _ _ b hb
abbrev V41 : (c : Dev nD) → (b : Ref sig .tc) → Buf (Elt F) ((c : Thread nD τ).loc b) := fun c b => W41 m ρ c b
theorem hF6 (c : Dev nD) (w : Fin cfg6.W) : (dat6 (V40 m ρ) c).arrAt w cfg6.N = V41 m ρ c (Pipeline.arrRef spec6 w) :=
  (W41_arr m ρ c w).symm
theorem hrest6 (c : Dev nD) : ∀ b, b ∉ Finset.univ.image (Pipeline.arrRef spec6) → V41 m ρ c b = V40 m ρ c b :=
  fun b hb => W41_of_ne m ρ c b fun w e => hb (Finset.mem_image.mpr ⟨w, Finset.mem_univ _, e⟩)
/-- After item 41, the host operations `hostOps7`. -/
abbrev W42 : Dev nD → Valuation τ sig (Elt F) := fun c => StableHlo.after hostOps7 (W41 m ρ c)
/-- After item 42, the host operations `hostOps7_1`. -/
abbrev W43 : Dev nD → Valuation τ sig (Elt F) := fun c => StableHlo.after hostOps7_1 (W42 m ρ c)
/-- After item 43, the host operations `hostOps7_2`. -/
abbrev W44 : Dev nD → Valuation τ sig (Elt F) := fun c => StableHlo.after hostOps7_2 (W43 m ρ c)
/-- After item 44, the host operations `hostOps7_3`. -/
abbrev W45 : Dev nD → Valuation τ sig (Elt F) := fun c => StableHlo.after hostOps7_3 (W44 m ρ c)
/-- After item 45, the host operations `hostOps7_4`. -/
abbrev W46 : Dev nD → Valuation τ sig (Elt F) := fun c => StableHlo.after hostOps7_4 (W45 m ρ c)
/-- After item 46, the host operations `hostOps7_5`. -/
abbrev W47 : Dev nD → Valuation τ sig (Elt F) := fun c => StableHlo.after hostOps7_5 (W46 m ρ c)
/-- After item 47, the host operations `hostOps7_6`. -/
abbrev W48 : Dev nD → Valuation τ sig (Elt F) := fun c => StableHlo.after hostOps7_6 (W47 m ρ c)
/-- After item 48, the host operations `hostOps7_7`. -/
abbrev W49 : Dev nD → Valuation τ sig (Elt F) := fun c => StableHlo.after hostOps7_7 (W48 m ρ c)
/-- After item 49, the host operations `hostOps7_8`. -/
abbrev W50 : Dev nD → Valuation τ sig (Elt F) := fun c => StableHlo.after hostOps7_8 (W49 m ρ c)
/-- After item 50, the host operations `hostOps7_9`. -/
abbrev W51 : Dev nD → Valuation τ sig (Elt F) := fun c => StableHlo.after hostOps7_9 (W50 m ρ c)
/-- After item 51, the host operations `hostOps7_10`. -/
abbrev W52 : Dev nD → Valuation τ sig (Elt F) := fun c => StableHlo.after hostOps7_10 (W51 m ρ c)
/-- After item 52, the host operations `hostOps7_11`. -/
abbrev W53 : Dev nD → Valuation τ sig (Elt F) := fun c => StableHlo.after hostOps7_11 (W52 m ρ c)
/-- After item 53, the host operations `hostOps7_12`. -/
abbrev W54 : Dev nD → Valuation τ sig (Elt F) := fun c => StableHlo.after hostOps7_12 (W53 m ρ c)
/-- After item 54, the host operations `hostOps7_13`. -/
abbrev W55 : Dev nD → Valuation τ sig (Elt F) := fun c => StableHlo.after hostOps7_13 (W54 m ρ c)
/-- After item 55, the host operations `hostOps7_14`. -/
abbrev W56 : Dev nD → Valuation τ sig (Elt F) := fun c => StableHlo.after hostOps7_14 (W55 m ρ c)
/-- After item 56, the host operations `hostOps7_15`. -/
abbrev W57 : Dev nD → Valuation τ sig (Elt F) := fun c => StableHlo.after hostOps7_15 (W56 m ρ c)
/-- After item 57, the host operations `hostOps7_16`. -/
abbrev W58 : Dev nD → Valuation τ sig (Elt F) := fun c => StableHlo.after hostOps7_16 (W57 m ρ c)
/-- After item 58, the host operations `hostOps7_17`. -/
abbrev W59 : Dev nD → Valuation τ sig (Elt F) := fun c => StableHlo.after hostOps7_17 (W58 m ρ c)
/-- The contents region 7 (item 59) is entered from, read at the TensorCore's references. -/
abbrev V59 : (c : Dev nD) → (b : Ref sig .tc) → Buf (Elt F) ((c : Thread nD τ).loc b) := fun c b => W59 m ρ c b
/-- After item 59, region 7: its windows' arrays at what the pipeline leaves (an input as entered, the output's write-backs folded), every other buffer as entered. -/
def W60 (c : Dev nD) : Valuation τ sig (Elt F) :=
  Pipeline.withArrays spec7 c (W59 m ρ c) fun w => (dat7 (V59 m ρ) c).arrAt w cfg7.N
theorem W60_arr (c : Dev nD) (w : Fin cfg7.W) :
    W60 m ρ c (Proc.devRef .tc (Pipeline.arrRef spec7 w)) = (dat7 (V59 m ρ) c).arrAt w cfg7.N := by
  unfold W60; exact Pipeline.withArrays_arr spec7 launch7.win.arr_inj c _ _ w
theorem W60_of_ne (c : Dev nD) (b : Ref sig .tc) (hb : ∀ w, Pipeline.arrRef spec7 w ≠ b) :
    W60 m ρ c (Proc.devRef .tc b) = W59 m ρ c (Proc.devRef .tc b) := by
  unfold W60; exact Pipeline.withArrays_of_ne spec7 c _ _ b hb
abbrev V60 : (c : Dev nD) → (b : Ref sig .tc) → Buf (Elt F) ((c : Thread nD τ).loc b) := fun c b => W60 m ρ c b
theorem hF7 (c : Dev nD) (w : Fin cfg7.W) : (dat7 (V59 m ρ) c).arrAt w cfg7.N = V60 m ρ c (Pipeline.arrRef spec7 w) :=
  (W60_arr m ρ c w).symm
theorem hrest7 (c : Dev nD) : ∀ b, b ∉ Finset.univ.image (Pipeline.arrRef spec7) → V60 m ρ c b = V59 m ρ c b :=
  fun b hb => W60_of_ne m ρ c b fun w e => hb (Finset.mem_image.mpr ⟨w, Finset.mem_univ _, e⟩)
/-- After item 60, the host operations `hostOps8`. -/
abbrev W61 : Dev nD → Valuation τ sig (Elt F) := fun c => StableHlo.after hostOps8 (W60 m ρ c)
/-- After item 61, the host operations `hostOps8_1`. -/
abbrev W62 : Dev nD → Valuation τ sig (Elt F) := fun c => StableHlo.after hostOps8_1 (W61 m ρ c)
/-- After item 62, the host operations `hostOps8_2`. -/
abbrev W63 : Dev nD → Valuation τ sig (Elt F) := fun c => StableHlo.after hostOps8_2 (W62 m ρ c)
/-- After item 63, the host operations `hostOps8_3`. -/
abbrev W64 : Dev nD → Valuation τ sig (Elt F) := fun c => StableHlo.after hostOps8_3 (W63 m ρ c)
/-- After item 64, the host operations `hostOps8_4`. -/
abbrev W65 : Dev nD → Valuation τ sig (Elt F) := fun c => StableHlo.after hostOps8_4 (W64 m ρ c)
/-- After item 65, the host operations `hostOps8_5`. -/
abbrev W66 : Dev nD → Valuation τ sig (Elt F) := fun c => StableHlo.after hostOps8_5 (W65 m ρ c)
/-- The contents region 8 (item 66) is entered from, read at the TensorCore's references. -/
abbrev V66 : (c : Dev nD) → (b : Ref sig .tc) → Buf (Elt F) ((c : Thread nD τ).loc b) := fun c b => W66 m ρ c b
/-- After item 66, region 8: its windows' arrays at what the pipeline leaves (an input as entered, the output's write-backs folded), every other buffer as entered. -/
def W67 (c : Dev nD) : Valuation τ sig (Elt F) :=
  Pipeline.withArrays spec8 c (W66 m ρ c) fun w => (dat8 (V66 m ρ) c).arrAt w cfg8.N
theorem W67_arr (c : Dev nD) (w : Fin cfg8.W) :
    W67 m ρ c (Proc.devRef .tc (Pipeline.arrRef spec8 w)) = (dat8 (V66 m ρ) c).arrAt w cfg8.N := by
  unfold W67; exact Pipeline.withArrays_arr spec8 launch8.win.arr_inj c _ _ w
theorem W67_of_ne (c : Dev nD) (b : Ref sig .tc) (hb : ∀ w, Pipeline.arrRef spec8 w ≠ b) :
    W67 m ρ c (Proc.devRef .tc b) = W66 m ρ c (Proc.devRef .tc b) := by
  unfold W67; exact Pipeline.withArrays_of_ne spec8 c _ _ b hb
abbrev V67 : (c : Dev nD) → (b : Ref sig .tc) → Buf (Elt F) ((c : Thread nD τ).loc b) := fun c b => W67 m ρ c b
theorem hF8 (c : Dev nD) (w : Fin cfg8.W) : (dat8 (V66 m ρ) c).arrAt w cfg8.N = V67 m ρ c (Pipeline.arrRef spec8 w) :=
  (W67_arr m ρ c w).symm
theorem hrest8 (c : Dev nD) : ∀ b, b ∉ Finset.univ.image (Pipeline.arrRef spec8) → V67 m ρ c b = V66 m ρ c b :=
  fun b hb => W67_of_ne m ρ c b fun w e => hb (Finset.mem_image.mpr ⟨w, Finset.mem_univ _, e⟩)
/-- After item 67, the host operations `hostOps9`. -/
abbrev W68 : Dev nD → Valuation τ sig (Elt F) := fun c => StableHlo.after hostOps9 (W67 m ρ c)
/-- The contents region 9 (item 68) is entered from, read at the TensorCore's references. -/
abbrev V68 : (c : Dev nD) → (b : Ref sig .tc) → Buf (Elt F) ((c : Thread nD τ).loc b) := fun c b => W68 m ρ c b
/-- After item 68, region 9: its windows' arrays at what the pipeline leaves (an input as entered, the output's write-backs folded), every other buffer as entered. -/
def W69 (c : Dev nD) : Valuation τ sig (Elt F) :=
  Pipeline.withArrays spec9 c (W68 m ρ c) fun w => (dat9 (V68 m ρ) c).arrAt w cfg9.N
theorem W69_arr (c : Dev nD) (w : Fin cfg9.W) :
    W69 m ρ c (Proc.devRef .tc (Pipeline.arrRef spec9 w)) = (dat9 (V68 m ρ) c).arrAt w cfg9.N := by
  unfold W69; exact Pipeline.withArrays_arr spec9 launch9.win.arr_inj c _ _ w
theorem W69_of_ne (c : Dev nD) (b : Ref sig .tc) (hb : ∀ w, Pipeline.arrRef spec9 w ≠ b) :
    W69 m ρ c (Proc.devRef .tc b) = W68 m ρ c (Proc.devRef .tc b) := by
  unfold W69; exact Pipeline.withArrays_of_ne spec9 c _ _ b hb
abbrev V69 : (c : Dev nD) → (b : Ref sig .tc) → Buf (Elt F) ((c : Thread nD τ).loc b) := fun c b => W69 m ρ c b
theorem hF9 (c : Dev nD) (w : Fin cfg9.W) : (dat9 (V68 m ρ) c).arrAt w cfg9.N = V69 m ρ c (Pipeline.arrRef spec9 w) :=
  (W69_arr m ρ c w).symm
theorem hrest9 (c : Dev nD) : ∀ b, b ∉ Finset.univ.image (Pipeline.arrRef spec9) → V69 m ρ c b = V68 m ρ c b :=
  fun b hb => W69_of_ne m ρ c b fun w e => hb (Finset.mem_image.mpr ⟨w, Finset.mem_univ _, e⟩)
/-- After item 69, the host operations `hostOps10`. -/
abbrev W70 : Dev nD → Valuation τ sig (Elt F) := fun c => StableHlo.after hostOps10 (W69 m ρ c)
/-- After item 70, the host operations `hostOps10_1`. -/
abbrev W71 : Dev nD → Valuation τ sig (Elt F) := fun c => StableHlo.after hostOps10_1 (W70 m ρ c)
/-- After item 71, the host operations `hostOps10_2`. -/
abbrev W72 : Dev nD → Valuation τ sig (Elt F) := fun c => StableHlo.after hostOps10_2 (W71 m ρ c)
/-- After item 72, the host operations `hostOps10_3`. -/
abbrev W73 : Dev nD → Valuation τ sig (Elt F) := fun c => StableHlo.after hostOps10_3 (W72 m ρ c)
/-- After item 73, the host operations `hostOps10_4`. -/
abbrev W74 : Dev nD → Valuation τ sig (Elt F) := fun c => StableHlo.after hostOps10_4 (W73 m ρ c)
/-- After item 74, the host operations `hostOps10_5`. -/
abbrev W75 : Dev nD → Valuation τ sig (Elt F) := fun c => StableHlo.after hostOps10_5 (W74 m ρ c)
/-- The contents region 10 (item 75) is entered from, read at the TensorCore's references. -/
abbrev V75 : (c : Dev nD) → (b : Ref sig .tc) → Buf (Elt F) ((c : Thread nD τ).loc b) := fun c b => W75 m ρ c b
/-- After item 75, region 10: its windows' arrays at what the pipeline leaves (an input as entered, the output's write-backs folded), every other buffer as entered. -/
def W76 (c : Dev nD) : Valuation τ sig (Elt F) :=
  Pipeline.withArrays spec10 c (W75 m ρ c) fun w => (dat10 (V75 m ρ) c).arrAt w cfg10.N
theorem W76_arr (c : Dev nD) (w : Fin cfg10.W) :
    W76 m ρ c (Proc.devRef .tc (Pipeline.arrRef spec10 w)) = (dat10 (V75 m ρ) c).arrAt w cfg10.N := by
  unfold W76; exact Pipeline.withArrays_arr spec10 launch10.win.arr_inj c _ _ w
theorem W76_of_ne (c : Dev nD) (b : Ref sig .tc) (hb : ∀ w, Pipeline.arrRef spec10 w ≠ b) :
    W76 m ρ c (Proc.devRef .tc b) = W75 m ρ c (Proc.devRef .tc b) := by
  unfold W76; exact Pipeline.withArrays_of_ne spec10 c _ _ b hb
abbrev V76 : (c : Dev nD) → (b : Ref sig .tc) → Buf (Elt F) ((c : Thread nD τ).loc b) := fun c b => W76 m ρ c b
theorem hF10 (c : Dev nD) (w : Fin cfg10.W) : (dat10 (V75 m ρ) c).arrAt w cfg10.N = V76 m ρ c (Pipeline.arrRef spec10 w) :=
  (W76_arr m ρ c w).symm
theorem hrest10 (c : Dev nD) : ∀ b, b ∉ Finset.univ.image (Pipeline.arrRef spec10) → V76 m ρ c b = V75 m ρ c b :=
  fun b hb => W76_of_ne m ρ c b fun w e => hb (Finset.mem_image.mpr ⟨w, Finset.mem_univ _, e⟩)
/-- After item 76, the host operations `hostOps11`. -/
abbrev W77 : Dev nD → Valuation τ sig (Elt F) := fun c => StableHlo.after hostOps11 (W76 m ρ c)
/-- The contents region 11 (item 77) is entered from, read at the TensorCore's references. -/
abbrev V77 : (c : Dev nD) → (b : Ref sig .tc) → Buf (Elt F) ((c : Thread nD τ).loc b) := fun c b => W77 m ρ c b
/-- After item 77, region 11: its windows' arrays at what the pipeline leaves (an input as entered, the output's write-backs folded), every other buffer as entered. -/
def W78 (c : Dev nD) : Valuation τ sig (Elt F) :=
  Pipeline.withArrays spec11 c (W77 m ρ c) fun w => (dat11 (V77 m ρ) c).arrAt w cfg11.N
theorem W78_arr (c : Dev nD) (w : Fin cfg11.W) :
    W78 m ρ c (Proc.devRef .tc (Pipeline.arrRef spec11 w)) = (dat11 (V77 m ρ) c).arrAt w cfg11.N := by
  unfold W78; exact Pipeline.withArrays_arr spec11 launch11.win.arr_inj c _ _ w
theorem W78_of_ne (c : Dev nD) (b : Ref sig .tc) (hb : ∀ w, Pipeline.arrRef spec11 w ≠ b) :
    W78 m ρ c (Proc.devRef .tc b) = W77 m ρ c (Proc.devRef .tc b) := by
  unfold W78; exact Pipeline.withArrays_of_ne spec11 c _ _ b hb
abbrev V78 : (c : Dev nD) → (b : Ref sig .tc) → Buf (Elt F) ((c : Thread nD τ).loc b) := fun c b => W78 m ρ c b
theorem hF11 (c : Dev nD) (w : Fin cfg11.W) : (dat11 (V77 m ρ) c).arrAt w cfg11.N = V78 m ρ c (Pipeline.arrRef spec11 w) :=
  (W78_arr m ρ c w).symm
theorem hrest11 (c : Dev nD) : ∀ b, b ∉ Finset.univ.image (Pipeline.arrRef spec11) → V78 m ρ c b = V77 m ρ c b :=
  fun b hb => W78_of_ne m ρ c b fun w e => hb (Finset.mem_image.mpr ⟨w, Finset.mem_univ _, e⟩)
/-- After item 78, the host operations `hostOps12`. -/
abbrev W79 : Dev nD → Valuation τ sig (Elt F) := fun c => StableHlo.after hostOps12 (W78 m ρ c)
/-- After item 79, the host operations `hostOps12_1`. -/
abbrev W80 : Dev nD → Valuation τ sig (Elt F) := fun c => StableHlo.after hostOps12_1 (W79 m ρ c)
/-- After item 80, the host operations `hostOps12_2`. -/
abbrev W81 : Dev nD → Valuation τ sig (Elt F) := fun c => StableHlo.after hostOps12_2 (W80 m ρ c)
/-- After item 81, the host operations `hostOps12_3`. -/
abbrev W82 : Dev nD → Valuation τ sig (Elt F) := fun c => StableHlo.after hostOps12_3 (W81 m ρ c)
/-- The contents region 12 (item 82) is entered from, read at the TensorCore's references. -/
abbrev V82 : (c : Dev nD) → (b : Ref sig .tc) → Buf (Elt F) ((c : Thread nD τ).loc b) := fun c b => W82 m ρ c b
/-- After item 82, region 12: its windows' arrays at what the pipeline leaves (an input as entered, the output's write-backs folded), every other buffer as entered. -/
def W83 (c : Dev nD) : Valuation τ sig (Elt F) :=
  Pipeline.withArrays spec12 c (W82 m ρ c) fun w => (dat12 (V82 m ρ) c).arrAt w cfg12.N
theorem W83_arr (c : Dev nD) (w : Fin cfg12.W) :
    W83 m ρ c (Proc.devRef .tc (Pipeline.arrRef spec12 w)) = (dat12 (V82 m ρ) c).arrAt w cfg12.N := by
  unfold W83; exact Pipeline.withArrays_arr spec12 launch12.win.arr_inj c _ _ w
theorem W83_of_ne (c : Dev nD) (b : Ref sig .tc) (hb : ∀ w, Pipeline.arrRef spec12 w ≠ b) :
    W83 m ρ c (Proc.devRef .tc b) = W82 m ρ c (Proc.devRef .tc b) := by
  unfold W83; exact Pipeline.withArrays_of_ne spec12 c _ _ b hb
abbrev V83 : (c : Dev nD) → (b : Ref sig .tc) → Buf (Elt F) ((c : Thread nD τ).loc b) := fun c b => W83 m ρ c b
theorem hF12 (c : Dev nD) (w : Fin cfg12.W) : (dat12 (V82 m ρ) c).arrAt w cfg12.N = V83 m ρ c (Pipeline.arrRef spec12 w) :=
  (W83_arr m ρ c w).symm
theorem hrest12 (c : Dev nD) : ∀ b, b ∉ Finset.univ.image (Pipeline.arrRef spec12) → V83 m ρ c b = V82 m ρ c b :=
  fun b hb => W83_of_ne m ρ c b fun w e => hb (Finset.mem_image.mpr ⟨w, Finset.mem_univ _, e⟩)
/-- After item 83, the host operations `hostOps13`. -/
abbrev W84 : Dev nD → Valuation τ sig (Elt F) := fun c => StableHlo.after hostOps13 (W83 m ρ c)

/-! ## What the host operations write, and that none allocates -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_cst, main_v38, main_cst_0, main_v39, main_v40, main_v41, main_cst_1, main_v42, main_cst_2, main_v43, main_v44, main_v45, main_cst_3, main_v46, main_cst_4, main_v47, main_v48, main_v49, main_cst_5, main_v50, main_cst_6, main_v51, main_v52, main_v53, main_cst_7, main_v54, main_cst_8, main_v55, main_v56, main_v57, main_cst_9, main_v58, main_cst_10, main_v59, main_v60, main_v61, main_cst_11, main_v62, main_cst_12, main_v63, main_v64, main_v65, main_cst_13, main_v66, main_cst_14, main_v67, main_v68, main_v69, main_c, main_v70, main_v71, main_c_15, main_v72, main_v73, main_v74, main_v75, main_v76, main_cst_16, main_v77, main_v78, main_v79, main_v80, main_v81, main_v82, main_v83, main_v84, main_v85, main_v86, main_v87, main_c_17, main_v88, main_v89, main_c_18, main_v90, main_v91, main_v92, main_v93, main_v94, main_cst_19, main_v95, main_v96, main_v97, main_v98, main_v99, main_v100, main_v101, main_v102, main_v103, main_v104, main_v105, main_c_20, main_v106, main_v107, main_c_21, main_v108, main_v109, main_v110, main_v111, main_v112, main_cst_22, main_v113, main_v114, main_v115, main_v116, main_v117, main_v118, main_v119, main_v120, main_v121, main_v122, main_v123, main_c_23, main_v124, main_v125, main_c_24, main_v126, main_v127, main_v128, main_v129, main_v130, main_cst_25, main_v131, main_v132, main_v133, main_v134, main_v135, main_v136, main_v137, main_v138, main_v139, main_v140, main_v141, main_v142, main_v143, main_v144, main_v145, main_v146, main_cst_26, main_v147, main_v148, main_v149, main_v150, main_v151, main_v152, main_v153, main_cst_27, main_v154, main_cst_28]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_1_fresh : (hostOps2_1 : List (HloOp τ sig (Elt F))).Forall fun op => op.fresh = ∅ := by
  simp only [List.Forall]; repeat' constructor
/-- The references `hostOps2_1`'s operations write. -/
abbrev hostOps2_1_W : List (Ref sig .tc) := [main_call0_v0, main_v155]
theorem hostOps2_1_writes : (hostOps2_1 : List (HloOp τ sig (Elt F))).Forall fun op => op.writes ⊆ (hostOps2_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_2_fresh : (hostOps2_2 : List (HloOp τ sig (Elt F))).Forall fun op => op.fresh = ∅ := by
  simp only [List.Forall]; repeat' constructor
/-- The references `hostOps2_2`'s operations write. -/
abbrev hostOps2_2_W : List (Ref sig .tc) := [main_cst_29]
theorem hostOps2_2_writes : (hostOps2_2 : List (HloOp τ sig (Elt F))).Forall fun op => op.writes ⊆ (hostOps2_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_3_fresh : (hostOps2_3 : List (HloOp τ sig (Elt F))).Forall fun op => op.fresh = ∅ := by
  simp only [List.Forall]; repeat' constructor
/-- The references `hostOps2_3`'s operations write. -/
abbrev hostOps2_3_W : List (Ref sig .tc) := [main_call1_v0, main_v156]
theorem hostOps2_3_writes : (hostOps2_3 : List (HloOp τ sig (Elt F))).Forall fun op => op.writes ⊆ (hostOps2_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_4_fresh : (hostOps2_4 : List (HloOp τ sig (Elt F))).Forall fun op => op.fresh = ∅ := by
  simp only [List.Forall]; repeat' constructor
/-- The references `hostOps2_4`'s operations write. -/
abbrev hostOps2_4_W : List (Ref sig .tc) := [main_cst_30]
theorem hostOps2_4_writes : (hostOps2_4 : List (HloOp τ sig (Elt F))).Forall fun op => op.writes ⊆ (hostOps2_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_5_fresh : (hostOps2_5 : List (HloOp τ sig (Elt F))).Forall fun op => op.fresh = ∅ := by
  simp only [List.Forall]; repeat' constructor
/-- The references `hostOps2_5`'s operations write. -/
abbrev hostOps2_5_W : List (Ref sig .tc) := [main_call2_v0, main_v157]
theorem hostOps2_5_writes : (hostOps2_5 : List (HloOp τ sig (Elt F))).Forall fun op => op.writes ⊆ (hostOps2_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_6_fresh : (hostOps2_6 : List (HloOp τ sig (Elt F))).Forall fun op => op.fresh = ∅ := by
  simp only [List.Forall]; repeat' constructor
/-- The references `hostOps2_6`'s operations write. -/
abbrev hostOps2_6_W : List (Ref sig .tc) := [main_cst_31]
theorem hostOps2_6_writes : (hostOps2_6 : List (HloOp τ sig (Elt F))).Forall fun op => op.writes ⊆ (hostOps2_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_7_fresh : (hostOps2_7 : List (HloOp τ sig (Elt F))).Forall fun op => op.fresh = ∅ := by
  simp only [List.Forall]; repeat' constructor
/-- The references `hostOps2_7`'s operations write. -/
abbrev hostOps2_7_W : List (Ref sig .tc) := [main_call3_v0, main_v158]
theorem hostOps2_7_writes : (hostOps2_7 : List (HloOp τ sig (Elt F))).Forall fun op => op.writes ⊆ (hostOps2_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_8_fresh : (hostOps2_8 : List (HloOp τ sig (Elt F))).Forall fun op => op.fresh = ∅ := by
  simp only [List.Forall]; repeat' constructor
/-- The references `hostOps2_8`'s operations write. -/
abbrev hostOps2_8_W : List (Ref sig .tc) := [main_cst_32]
theorem hostOps2_8_writes : (hostOps2_8 : List (HloOp τ sig (Elt F))).Forall fun op => op.writes ⊆ (hostOps2_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_9_fresh : (hostOps2_9 : List (HloOp τ sig (Elt F))).Forall fun op => op.fresh = ∅ := by
  simp only [List.Forall]; repeat' constructor
/-- The references `hostOps2_9`'s operations write. -/
abbrev hostOps2_9_W : List (Ref sig .tc) := [main_call4_v0, main_v159]
theorem hostOps2_9_writes : (hostOps2_9 : List (HloOp τ sig (Elt F))).Forall fun op => op.writes ⊆ (hostOps2_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_10_fresh : (hostOps2_10 : List (HloOp τ sig (Elt F))).Forall fun op => op.fresh = ∅ := by
  simp only [List.Forall]; repeat' constructor
/-- The references `hostOps2_10`'s operations write. -/
abbrev hostOps2_10_W : List (Ref sig .tc) := [main_cst_33]
theorem hostOps2_10_writes : (hostOps2_10 : List (HloOp τ sig (Elt F))).Forall fun op => op.writes ⊆ (hostOps2_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_11_fresh : (hostOps2_11 : List (HloOp τ sig (Elt F))).Forall fun op => op.fresh = ∅ := by
  simp only [List.Forall]; repeat' constructor
/-- The references `hostOps2_11`'s operations write. -/
abbrev hostOps2_11_W : List (Ref sig .tc) := [main_call5_v0, main_v160]
theorem hostOps2_11_writes : (hostOps2_11 : List (HloOp τ sig (Elt F))).Forall fun op => op.writes ⊆ (hostOps2_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_12_fresh : (hostOps2_12 : List (HloOp τ sig (Elt F))).Forall fun op => op.fresh = ∅ := by
  simp only [List.Forall]; repeat' constructor
/-- The references `hostOps2_12`'s operations write. -/
abbrev hostOps2_12_W : List (Ref sig .tc) := [main_cst_34]
theorem hostOps2_12_writes : (hostOps2_12 : List (HloOp τ sig (Elt F))).Forall fun op => op.writes ⊆ (hostOps2_12_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_13_fresh : (hostOps2_13 : List (HloOp τ sig (Elt F))).Forall fun op => op.fresh = ∅ := by
  simp only [List.Forall]; repeat' constructor
/-- The references `hostOps2_13`'s operations write. -/
abbrev hostOps2_13_W : List (Ref sig .tc) := [main_call6_v0, main_v161]
theorem hostOps2_13_writes : (hostOps2_13 : List (HloOp τ sig (Elt F))).Forall fun op => op.writes ⊆ (hostOps2_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_14_fresh : (hostOps2_14 : List (HloOp τ sig (Elt F))).Forall fun op => op.fresh = ∅ := by
  simp only [List.Forall]; repeat' constructor
/-- The references `hostOps2_14`'s operations write. -/
abbrev hostOps2_14_W : List (Ref sig .tc) := [main_cst_35]
theorem hostOps2_14_writes : (hostOps2_14 : List (HloOp τ sig (Elt F))).Forall fun op => op.writes ⊆ (hostOps2_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_15_fresh : (hostOps2_15 : List (HloOp τ sig (Elt F))).Forall fun op => op.fresh = ∅ := by
  simp only [List.Forall]; repeat' constructor
/-- The references `hostOps2_15`'s operations write. -/
abbrev hostOps2_15_W : List (Ref sig .tc) := [main_call7_v0, main_v162]
theorem hostOps2_15_writes : (hostOps2_15 : List (HloOp τ sig (Elt F))).Forall fun op => op.writes ⊆ (hostOps2_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_16_fresh : (hostOps2_16 : List (HloOp τ sig (Elt F))).Forall fun op => op.fresh = ∅ := by
  simp only [List.Forall]; repeat' constructor
/-- The references `hostOps2_16`'s operations write. -/
abbrev hostOps2_16_W : List (Ref sig .tc) := [main_cst_36]
theorem hostOps2_16_writes : (hostOps2_16 : List (HloOp τ sig (Elt F))).Forall fun op => op.writes ⊆ (hostOps2_16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_17_fresh : (hostOps2_17 : List (HloOp τ sig (Elt F))).Forall fun op => op.fresh = ∅ := by
  simp only [List.Forall]; repeat' constructor
/-- The references `hostOps2_17`'s operations write. -/
abbrev hostOps2_17_W : List (Ref sig .tc) := [main_call8_v0, main_v163]
theorem hostOps2_17_writes : (hostOps2_17 : List (HloOp τ sig (Elt F))).Forall fun op => op.writes ⊆ (hostOps2_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v165, main_c_37, main_v166, main_v167, main_c_38, main_v168, main_v169, main_v170, main_v171, main_v172, main_cst_39, main_v173, main_v174, main_v175, main_v176, main_v177, main_v178, main_v179, main_v180, main_v181, main_v182, main_v183, main_v184, main_cst_40, main_v185, main_v186, main_v187, main_cst_41, main_v188, main_cst_42]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_1_fresh : (hostOps3_1 : List (HloOp τ sig (Elt F))).Forall fun op => op.fresh = ∅ := by
  simp only [List.Forall]; repeat' constructor
/-- The references `hostOps3_1`'s operations write. -/
abbrev hostOps3_1_W : List (Ref sig .tc) := [main_call9_v0, main_v189]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_2_fresh : (hostOps3_2 : List (HloOp τ sig (Elt F))).Forall fun op => op.fresh = ∅ := by
  simp only [List.Forall]; repeat' constructor
/-- The references `hostOps3_2`'s operations write. -/
abbrev hostOps3_2_W : List (Ref sig .tc) := [main_cst_43]
theorem hostOps3_2_writes : (hostOps3_2 : List (HloOp τ sig (Elt F))).Forall fun op => op.writes ⊆ (hostOps3_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor
/-- The references `hostOps3_3`'s operations write. -/
abbrev hostOps3_3_W : List (Ref sig .tc) := [main_call10_v0, main_v190]
theorem hostOps3_3_writes : (hostOps3_3 : List (HloOp τ sig (Elt F))).Forall fun op => op.writes ⊆ (hostOps3_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_4_fresh : (hostOps3_4 : List (HloOp τ sig (Elt F))).Forall fun op => op.fresh = ∅ := by
  simp only [List.Forall]; repeat' constructor
/-- The references `hostOps3_4`'s operations write. -/
abbrev hostOps3_4_W : List (Ref sig .tc) := [main_cst_44]
theorem hostOps3_4_writes : (hostOps3_4 : List (HloOp τ sig (Elt F))).Forall fun op => op.writes ⊆ (hostOps3_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_5_fresh : (hostOps3_5 : List (HloOp τ sig (Elt F))).Forall fun op => op.fresh = ∅ := by
  simp only [List.Forall]; repeat' constructor
/-- The references `hostOps3_5`'s operations write. -/
abbrev hostOps3_5_W : List (Ref sig .tc) := [main_call11_v0, main_v191]
theorem hostOps3_5_writes : (hostOps3_5 : List (HloOp τ sig (Elt F))).Forall fun op => op.writes ⊆ (hostOps3_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v193, main_c_45, main_v194, main_v195, main_c_46, main_v196, main_v197, main_v198, main_v199, main_v200, main_cst_47, main_v201, main_v202, main_v203, main_v204, main_v205, main_v206, main_v207, main_v208, main_v209, main_v210, main_v211, main_v212, main_cst_48, main_v213, main_v214, main_v215, main_cst_49, main_v216]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_c_50, main_v218, main_v219, main_c_51, main_v220, main_v221, main_v222, main_v223, main_v224, main_cst_52, main_v225, main_v226, main_v227, main_v228, main_v229, main_v230, main_v231, main_v232, main_v233, main_v234, main_v235, main_v236, main_cst_53, main_v237, main_v238, main_v239, main_cst_54, main_v240, main_cst_55]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_1_fresh : (hostOps5_1 : List (HloOp τ sig (Elt F))).Forall fun op => op.fresh = ∅ := by
  simp only [List.Forall]; repeat' constructor
/-- The references `hostOps5_1`'s operations write. -/
abbrev hostOps5_1_W : List (Ref sig .tc) := [main_call12_v0, main_v241]
theorem hostOps5_1_writes : (hostOps5_1 : List (HloOp τ sig (Elt F))).Forall fun op => op.writes ⊆ (hostOps5_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_2_fresh : (hostOps5_2 : List (HloOp τ sig (Elt F))).Forall fun op => op.fresh = ∅ := by
  simp only [List.Forall]; repeat' constructor
/-- The references `hostOps5_2`'s operations write. -/
abbrev hostOps5_2_W : List (Ref sig .tc) := [main_cst_56]
theorem hostOps5_2_writes : (hostOps5_2 : List (HloOp τ sig (Elt F))).Forall fun op => op.writes ⊆ (hostOps5_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_3_fresh : (hostOps5_3 : List (HloOp τ sig (Elt F))).Forall fun op => op.fresh = ∅ := by
  simp only [List.Forall]; repeat' constructor
/-- The references `hostOps5_3`'s operations write. -/
abbrev hostOps5_3_W : List (Ref sig .tc) := [main_call13_v0, main_v242]
theorem hostOps5_3_writes : (hostOps5_3 : List (HloOp τ sig (Elt F))).Forall fun op => op.writes ⊆ (hostOps5_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_4_fresh : (hostOps5_4 : List (HloOp τ sig (Elt F))).Forall fun op => op.fresh = ∅ := by
  simp only [List.Forall]; repeat' constructor
/-- The references `hostOps5_4`'s operations write. -/
abbrev hostOps5_4_W : List (Ref sig .tc) := [main_cst_57]
theorem hostOps5_4_writes : (hostOps5_4 : List (HloOp τ sig (Elt F))).Forall fun op => op.writes ⊆ (hostOps5_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_5_fresh : (hostOps5_5 : List (HloOp τ sig (Elt F))).Forall fun op => op.fresh = ∅ := by
  simp only [List.Forall]; repeat' constructor
/-- The references `hostOps5_5`'s operations write. -/
abbrev hostOps5_5_W : List (Ref sig .tc) := [main_call14_v0, main_v243]
theorem hostOps5_5_writes : (hostOps5_5 : List (HloOp τ sig (Elt F))).Forall fun op => op.writes ⊆ (hostOps5_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v245, main_c_58, main_v246, main_v247, main_c_59, main_v248, main_v249, main_v250, main_v251, main_v252, main_cst_60, main_v253, main_v254, main_v255, main_v256, main_v257, main_v258, main_v259, main_v260, main_v261, main_v262, main_v263, main_v264, main_cst_61, main_v265, main_v266, main_v267, main_cst_62, main_v268]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_c_63, main_v270, main_v271, main_c_64, main_v272, main_v273, main_v274, main_v275, main_v276, main_cst_65, main_v277, main_v278, main_v279, main_v280, main_v281, main_v282, main_v283, main_v284, main_v285, main_v286, main_v287, main_c_66, main_v288, main_v289, main_c_67, main_v290, main_v291, main_v292, main_v293, main_v294, main_cst_68, main_v295, main_v296, main_v297, main_v298, main_v299, main_v300, main_v301, main_v302, main_v303, main_v304, main_v305, main_c_69, main_v306, main_v307, main_c_70, main_v308, main_v309, main_v310, main_v311, main_v312, main_cst_71, main_v313, main_v314, main_v315, main_v316, main_v317, main_v318, main_v319, main_v320, main_v321, main_v322, main_v323, main_c_72, main_v324, main_v325, main_c_73, main_v326, main_v327, main_v328, main_v329, main_v330, main_cst_74, main_v331, main_v332, main_v333, main_v334, main_v335, main_v336, main_v337, main_v338, main_v339, main_v340, main_v341, main_v342, main_v343, main_v344, main_v345, main_v346, main_cst_75, main_v347, main_v348, main_v349, main_v350, main_v351, main_v352, main_v353, main_cst_76, main_v354, main_cst_77]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_1_fresh : (hostOps7_1 : List (HloOp τ sig (Elt F))).Forall fun op => op.fresh = ∅ := by
  simp only [List.Forall]; repeat' constructor
/-- The references `hostOps7_1`'s operations write. -/
abbrev hostOps7_1_W : List (Ref sig .tc) := [main_call15_v0, main_v355]
theorem hostOps7_1_writes : (hostOps7_1 : List (HloOp τ sig (Elt F))).Forall fun op => op.writes ⊆ (hostOps7_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_2_fresh : (hostOps7_2 : List (HloOp τ sig (Elt F))).Forall fun op => op.fresh = ∅ := by
  simp only [List.Forall]; repeat' constructor
/-- The references `hostOps7_2`'s operations write. -/
abbrev hostOps7_2_W : List (Ref sig .tc) := [main_cst_78]
theorem hostOps7_2_writes : (hostOps7_2 : List (HloOp τ sig (Elt F))).Forall fun op => op.writes ⊆ (hostOps7_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_3_fresh : (hostOps7_3 : List (HloOp τ sig (Elt F))).Forall fun op => op.fresh = ∅ := by
  simp only [List.Forall]; repeat' constructor
/-- The references `hostOps7_3`'s operations write. -/
abbrev hostOps7_3_W : List (Ref sig .tc) := [main_call16_v0, main_v356]
theorem hostOps7_3_writes : (hostOps7_3 : List (HloOp τ sig (Elt F))).Forall fun op => op.writes ⊆ (hostOps7_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_4_fresh : (hostOps7_4 : List (HloOp τ sig (Elt F))).Forall fun op => op.fresh = ∅ := by
  simp only [List.Forall]; repeat' constructor
/-- The references `hostOps7_4`'s operations write. -/
abbrev hostOps7_4_W : List (Ref sig .tc) := [main_cst_79]
theorem hostOps7_4_writes : (hostOps7_4 : List (HloOp τ sig (Elt F))).Forall fun op => op.writes ⊆ (hostOps7_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_5_fresh : (hostOps7_5 : List (HloOp τ sig (Elt F))).Forall fun op => op.fresh = ∅ := by
  simp only [List.Forall]; repeat' constructor
/-- The references `hostOps7_5`'s operations write. -/
abbrev hostOps7_5_W : List (Ref sig .tc) := [main_call17_v0, main_v357]
theorem hostOps7_5_writes : (hostOps7_5 : List (HloOp τ sig (Elt F))).Forall fun op => op.writes ⊆ (hostOps7_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_6_fresh : (hostOps7_6 : List (HloOp τ sig (Elt F))).Forall fun op => op.fresh = ∅ := by
  simp only [List.Forall]; repeat' constructor
/-- The references `hostOps7_6`'s operations write. -/
abbrev hostOps7_6_W : List (Ref sig .tc) := [main_cst_80]
theorem hostOps7_6_writes : (hostOps7_6 : List (HloOp τ sig (Elt F))).Forall fun op => op.writes ⊆ (hostOps7_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_7_fresh : (hostOps7_7 : List (HloOp τ sig (Elt F))).Forall fun op => op.fresh = ∅ := by
  simp only [List.Forall]; repeat' constructor
/-- The references `hostOps7_7`'s operations write. -/
abbrev hostOps7_7_W : List (Ref sig .tc) := [main_call18_v0, main_v358]
theorem hostOps7_7_writes : (hostOps7_7 : List (HloOp τ sig (Elt F))).Forall fun op => op.writes ⊆ (hostOps7_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_8_fresh : (hostOps7_8 : List (HloOp τ sig (Elt F))).Forall fun op => op.fresh = ∅ := by
  simp only [List.Forall]; repeat' constructor
/-- The references `hostOps7_8`'s operations write. -/
abbrev hostOps7_8_W : List (Ref sig .tc) := [main_cst_81]
theorem hostOps7_8_writes : (hostOps7_8 : List (HloOp τ sig (Elt F))).Forall fun op => op.writes ⊆ (hostOps7_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_9_fresh : (hostOps7_9 : List (HloOp τ sig (Elt F))).Forall fun op => op.fresh = ∅ := by
  simp only [List.Forall]; repeat' constructor
/-- The references `hostOps7_9`'s operations write. -/
abbrev hostOps7_9_W : List (Ref sig .tc) := [main_call19_v0, main_v359]
theorem hostOps7_9_writes : (hostOps7_9 : List (HloOp τ sig (Elt F))).Forall fun op => op.writes ⊆ (hostOps7_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_10_fresh : (hostOps7_10 : List (HloOp τ sig (Elt F))).Forall fun op => op.fresh = ∅ := by
  simp only [List.Forall]; repeat' constructor
/-- The references `hostOps7_10`'s operations write. -/
abbrev hostOps7_10_W : List (Ref sig .tc) := [main_cst_82]
theorem hostOps7_10_writes : (hostOps7_10 : List (HloOp τ sig (Elt F))).Forall fun op => op.writes ⊆ (hostOps7_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_11_fresh : (hostOps7_11 : List (HloOp τ sig (Elt F))).Forall fun op => op.fresh = ∅ := by
  simp only [List.Forall]; repeat' constructor
/-- The references `hostOps7_11`'s operations write. -/
abbrev hostOps7_11_W : List (Ref sig .tc) := [main_call20_v0, main_v360]
theorem hostOps7_11_writes : (hostOps7_11 : List (HloOp τ sig (Elt F))).Forall fun op => op.writes ⊆ (hostOps7_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_12_fresh : (hostOps7_12 : List (HloOp τ sig (Elt F))).Forall fun op => op.fresh = ∅ := by
  simp only [List.Forall]; repeat' constructor
/-- The references `hostOps7_12`'s operations write. -/
abbrev hostOps7_12_W : List (Ref sig .tc) := [main_cst_83]
theorem hostOps7_12_writes : (hostOps7_12 : List (HloOp τ sig (Elt F))).Forall fun op => op.writes ⊆ (hostOps7_12_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_13_fresh : (hostOps7_13 : List (HloOp τ sig (Elt F))).Forall fun op => op.fresh = ∅ := by
  simp only [List.Forall]; repeat' constructor
/-- The references `hostOps7_13`'s operations write. -/
abbrev hostOps7_13_W : List (Ref sig .tc) := [main_call21_v0, main_v361]
theorem hostOps7_13_writes : (hostOps7_13 : List (HloOp τ sig (Elt F))).Forall fun op => op.writes ⊆ (hostOps7_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_14_fresh : (hostOps7_14 : List (HloOp τ sig (Elt F))).Forall fun op => op.fresh = ∅ := by
  simp only [List.Forall]; repeat' constructor
/-- The references `hostOps7_14`'s operations write. -/
abbrev hostOps7_14_W : List (Ref sig .tc) := [main_cst_84]
theorem hostOps7_14_writes : (hostOps7_14 : List (HloOp τ sig (Elt F))).Forall fun op => op.writes ⊆ (hostOps7_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_15_fresh : (hostOps7_15 : List (HloOp τ sig (Elt F))).Forall fun op => op.fresh = ∅ := by
  simp only [List.Forall]; repeat' constructor
/-- The references `hostOps7_15`'s operations write. -/
abbrev hostOps7_15_W : List (Ref sig .tc) := [main_call22_v0, main_v362]
theorem hostOps7_15_writes : (hostOps7_15 : List (HloOp τ sig (Elt F))).Forall fun op => op.writes ⊆ (hostOps7_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps7_16_fresh : (hostOps7_16 : List (HloOp τ sig (Elt F))).Forall fun op => op.fresh = ∅ := by
  simp only [List.Forall]; repeat' constructor
/-- The references `hostOps7_16`'s operations write. -/
abbrev hostOps7_16_W : List (Ref sig .tc) := [main_cst_85]
theorem hostOps7_16_writes : (hostOps7_16 : List (HloOp τ sig (Elt F))).Forall fun op => op.writes ⊆ (hostOps7_16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_17_fresh : (hostOps7_17 : List (HloOp τ sig (Elt F))).Forall fun op => op.fresh = ∅ := by
  simp only [List.Forall]; repeat' constructor
/-- The references `hostOps7_17`'s operations write. -/
abbrev hostOps7_17_W : List (Ref sig .tc) := [main_call23_v0, main_v363]
theorem hostOps7_17_writes : (hostOps7_17 : List (HloOp τ sig (Elt F))).Forall fun op => op.writes ⊆ (hostOps7_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_v365, main_c_86, main_v366, main_v367, main_c_87, main_v368, main_v369, main_v370, main_v371, main_v372, main_cst_88, main_v373, main_v374, main_v375, main_v376, main_v377, main_v378, main_v379, main_v380, main_v381, main_v382, main_v383, main_v384, main_cst_89, main_v385, main_v386, main_v387, main_cst_90, main_v388, main_cst_91]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_1_fresh : (hostOps8_1 : List (HloOp τ sig (Elt F))).Forall fun op => op.fresh = ∅ := by
  simp only [List.Forall]; repeat' constructor
/-- The references `hostOps8_1`'s operations write. -/
abbrev hostOps8_1_W : List (Ref sig .tc) := [main_call24_v0, main_v389]
theorem hostOps8_1_writes : (hostOps8_1 : List (HloOp τ sig (Elt F))).Forall fun op => op.writes ⊆ (hostOps8_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_2_fresh : (hostOps8_2 : List (HloOp τ sig (Elt F))).Forall fun op => op.fresh = ∅ := by
  simp only [List.Forall]; repeat' constructor
/-- The references `hostOps8_2`'s operations write. -/
abbrev hostOps8_2_W : List (Ref sig .tc) := [main_cst_92]
theorem hostOps8_2_writes : (hostOps8_2 : List (HloOp τ sig (Elt F))).Forall fun op => op.writes ⊆ (hostOps8_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_3_fresh : (hostOps8_3 : List (HloOp τ sig (Elt F))).Forall fun op => op.fresh = ∅ := by
  simp only [List.Forall]; repeat' constructor
/-- The references `hostOps8_3`'s operations write. -/
abbrev hostOps8_3_W : List (Ref sig .tc) := [main_call25_v0, main_v390]
theorem hostOps8_3_writes : (hostOps8_3 : List (HloOp τ sig (Elt F))).Forall fun op => op.writes ⊆ (hostOps8_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps8_4_fresh : (hostOps8_4 : List (HloOp τ sig (Elt F))).Forall fun op => op.fresh = ∅ := by
  simp only [List.Forall]; repeat' constructor
/-- The references `hostOps8_4`'s operations write. -/
abbrev hostOps8_4_W : List (Ref sig .tc) := [main_cst_93]
theorem hostOps8_4_writes : (hostOps8_4 : List (HloOp τ sig (Elt F))).Forall fun op => op.writes ⊆ (hostOps8_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_5_fresh : (hostOps8_5 : List (HloOp τ sig (Elt F))).Forall fun op => op.fresh = ∅ := by
  simp only [List.Forall]; repeat' constructor
/-- The references `hostOps8_5`'s operations write. -/
abbrev hostOps8_5_W : List (Ref sig .tc) := [main_call26_v0, main_v391]
theorem hostOps8_5_writes : (hostOps8_5 : List (HloOp τ sig (Elt F))).Forall fun op => op.writes ⊆ (hostOps8_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v393, main_c_94, main_v394, main_v395, main_c_95, main_v396, main_v397, main_v398, main_v399, main_v400, main_cst_96, main_v401, main_v402, main_v403, main_v404, main_v405, main_v406, main_v407, main_v408, main_v409, main_v410, main_v411, main_v412, main_cst_97, main_v413, main_v414, main_v415, main_cst_98, main_v416]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_fresh : (hostOps10 : List (HloOp τ sig (Elt F))).Forall fun op => op.fresh = ∅ := by
  simp only [List.Forall]; repeat' constructor
/-- The references `hostOps10`'s operations write. -/
abbrev hostOps10_W : List (Ref sig .tc) := [main_c_99, main_v418, main_v419, main_c_100, main_v420, main_v421, main_v422, main_v423, main_v424, main_cst_101, main_v425, main_v426, main_v427, main_v428, main_v429, main_v430, main_v431, main_v432, main_v433, main_v434, main_v435, main_v436, main_cst_102, main_v437, main_v438, main_v439, main_cst_103, main_v440, main_cst_104]
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_1_fresh : (hostOps10_1 : List (HloOp τ sig (Elt F))).Forall fun op => op.fresh = ∅ := by
  simp only [List.Forall]; repeat' constructor
/-- The references `hostOps10_1`'s operations write. -/
abbrev hostOps10_1_W : List (Ref sig .tc) := [main_call27_v0, main_v441]
theorem hostOps10_1_writes : (hostOps10_1 : List (HloOp τ sig (Elt F))).Forall fun op => op.writes ⊆ (hostOps10_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_2_fresh : (hostOps10_2 : List (HloOp τ sig (Elt F))).Forall fun op => op.fresh = ∅ := by
  simp only [List.Forall]; repeat' constructor
/-- The references `hostOps10_2`'s operations write. -/
abbrev hostOps10_2_W : List (Ref sig .tc) := [main_cst_105]
theorem hostOps10_2_writes : (hostOps10_2 : List (HloOp τ sig (Elt F))).Forall fun op => op.writes ⊆ (hostOps10_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_3_fresh : (hostOps10_3 : List (HloOp τ sig (Elt F))).Forall fun op => op.fresh = ∅ := by
  simp only [List.Forall]; repeat' constructor
/-- The references `hostOps10_3`'s operations write. -/
abbrev hostOps10_3_W : List (Ref sig .tc) := [main_call28_v0, main_v442]
theorem hostOps10_3_writes : (hostOps10_3 : List (HloOp τ sig (Elt F))).Forall fun op => op.writes ⊆ (hostOps10_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps10_4_fresh : (hostOps10_4 : List (HloOp τ sig (Elt F))).Forall fun op => op.fresh = ∅ := by
  simp only [List.Forall]; repeat' constructor
/-- The references `hostOps10_4`'s operations write. -/
abbrev hostOps10_4_W : List (Ref sig .tc) := [main_cst_106]
theorem hostOps10_4_writes : (hostOps10_4 : List (HloOp τ sig (Elt F))).Forall fun op => op.writes ⊆ (hostOps10_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_5_fresh : (hostOps10_5 : List (HloOp τ sig (Elt F))).Forall fun op => op.fresh = ∅ := by
  simp only [List.Forall]; repeat' constructor
/-- The references `hostOps10_5`'s operations write. -/
abbrev hostOps10_5_W : List (Ref sig .tc) := [main_call29_v0, main_v443]
theorem hostOps10_5_writes : (hostOps10_5 : List (HloOp τ sig (Elt F))).Forall fun op => op.writes ⊆ (hostOps10_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps11_fresh : (hostOps11 : List (HloOp τ sig (Elt F))).Forall fun op => op.fresh = ∅ := by
  simp only [List.Forall]; repeat' constructor
/-- The references `hostOps11`'s operations write. -/
abbrev hostOps11_W : List (Ref sig .tc) := [main_v445, main_c_107, main_v446, main_v447, main_c_108, main_v448, main_v449, main_v450, main_v451, main_v452, main_cst_109, main_v453, main_v454, main_v455, main_v456, main_v457, main_v458, main_v459, main_v460, main_v461, main_v462, main_v463, main_v464, main_cst_110, main_v465, main_v466, main_v467, main_cst_111, main_v468]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps12_fresh : (hostOps12 : List (HloOp τ sig (Elt F))).Forall fun op => op.fresh = ∅ := by
  simp only [List.Forall]; repeat' constructor
/-- The references `hostOps12`'s operations write. -/
abbrev hostOps12_W : List (Ref sig .tc) := [main_v470, main_v471, main_c_112, main_v472, main_v473, main_c_113, main_v474, main_v475, main_v476, main_v477, main_v478, main_v479, main_v480, main_c_114, main_v481, main_v482, main_c_115, main_v483, main_v484, main_v485, main_v486, main_v487, main_cst_116]
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps12_1_fresh : (hostOps12_1 : List (HloOp τ sig (Elt F))).Forall fun op => op.fresh = ∅ := by
  simp only [List.Forall]; repeat' constructor
/-- The references `hostOps12_1`'s operations write. -/
abbrev hostOps12_1_W : List (Ref sig .tc) := [main_call30_v0, main_v488]
theorem hostOps12_1_writes : (hostOps12_1 : List (HloOp τ sig (Elt F))).Forall fun op => op.writes ⊆ (hostOps12_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps12_2_fresh : (hostOps12_2 : List (HloOp τ sig (Elt F))).Forall fun op => op.fresh = ∅ := by
  simp only [List.Forall]; repeat' constructor
/-- The references `hostOps12_2`'s operations write. -/
abbrev hostOps12_2_W : List (Ref sig .tc) := [main_cst_117]
theorem hostOps12_2_writes : (hostOps12_2 : List (HloOp τ sig (Elt F))).Forall fun op => op.writes ⊆ (hostOps12_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_3_fresh : (hostOps12_3 : List (HloOp τ sig (Elt F))).Forall fun op => op.fresh = ∅ := by
  simp only [List.Forall]; repeat' constructor
/-- The references `hostOps12_3`'s operations write. -/
abbrev hostOps12_3_W : List (Ref sig .tc) := [main_call31_v0, main_v489]
theorem hostOps12_3_writes : (hostOps12_3 : List (HloOp τ sig (Elt F))).Forall fun op => op.writes ⊆ (hostOps12_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps13_fresh : (hostOps13 : List (HloOp τ sig (Elt F))).Forall fun op => op.fresh = ∅ := by
  simp only [List.Forall]; repeat' constructor
/-- The references `hostOps13`'s operations write. -/
abbrev hostOps13_W : List (Ref sig .tc) := [main_v491]
theorem hostOps13_writes : (hostOps13 : List (HloOp τ sig (Elt F))).Forall fun op => op.writes ⊆ (hostOps13_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each item leaves unchanged: a reference it does not write keeps its contents -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Region 0 changes its output array only: an input window's array is left as entered, and so is every buffer that is no window's array. -/
theorem W2_of (c : Dev nD) (r : Ref sig .tc) (h : r ∉ ([main_v2] : List (Ref sig .tc))) : W2 m ρ c (Proc.devRef .tc r) = W1 m ρ c (Proc.devRef .tc r) := by
  by_cases hr : ∃ w, Pipeline.arrRef spec0 w = r
  · obtain ⟨w, rfl⟩ := hr
    have hin : (cfg0.win w).isOut = false :=
      (by decide : ∀ w : Fin cfg0.W, Pipeline.arrRef spec0 w ∉ ([main_v2] : List (Ref sig .tc)) → (cfg0.win w).isOut = false) w h
    exact (W2_arr m ρ c w).trans (((dat0 (V1 m ρ) c).arrAt_in w hin _).trans (A_eq0 (V1 m ρ) c w))
  · exact W2_of_ne m ρ c r fun w e => hr ⟨w, e⟩
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Region 1 changes its output array only: an input window's array is left as entered, and so is every buffer that is no window's array. -/
theorem W4_of (c : Dev nD) (r : Ref sig .tc) (h : r ∉ ([main_v5] : List (Ref sig .tc))) : W4 m ρ c (Proc.devRef .tc r) = W3 m ρ c (Proc.devRef .tc r) := by
  by_cases hr : ∃ w, Pipeline.arrRef spec1 w = r
  · obtain ⟨w, rfl⟩ := hr
    have hin : (cfg1.win w).isOut = false :=
      (by decide : ∀ w : Fin cfg1.W, Pipeline.arrRef spec1 w ∉ ([main_v5] : List (Ref sig .tc)) → (cfg1.win w).isOut = false) w h
    exact (W4_arr m ρ c w).trans (((dat1 (V3 m ρ) c).arrAt_in w hin _).trans (A_eq1 (V3 m ρ) c w))
  · exact W4_of_ne m ρ c r fun w e => hr ⟨w, e⟩
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W8_of (c : Dev nD) (r : Ref sig .tc) (h : r ∉ hostOps2_3_W) : W8 m ρ c (Proc.devRef .tc r) = W7 m ρ c (Proc.devRef .tc r) :=
  StableHlo.after_of_writes_sub hostOps2_3 _ hostOps2_3_writes h
theorem W9_of (c : Dev nD) (r : Ref sig .tc) (h : r ∉ hostOps2_4_W) : W9 m ρ c (Proc.devRef .tc r) = W8 m ρ c (Proc.devRef .tc r) :=
  StableHlo.after_of_writes_sub hostOps2_4 _ hostOps2_4_writes h
theorem W10_of (c : Dev nD) (r : Ref sig .tc) (h : r ∉ hostOps2_5_W) : W10 m ρ c (Proc.devRef .tc r) = W9 m ρ c (Proc.devRef .tc r) :=
  StableHlo.after_of_writes_sub hostOps2_5 _ hostOps2_5_writes h
theorem W11_of (c : Dev nD) (r : Ref sig .tc) (h : r ∉ hostOps2_6_W) : W11 m ρ c (Proc.devRef .tc r) = W10 m ρ c (Proc.devRef .tc r) :=
  StableHlo.after_of_writes_sub hostOps2_6 _ hostOps2_6_writes h
theorem W12_of (c : Dev nD) (r : Ref sig .tc) (h : r ∉ hostOps2_7_W) : W12 m ρ c (Proc.devRef .tc r) = W11 m ρ c (Proc.devRef .tc r) :=
  StableHlo.after_of_writes_sub hostOps2_7 _ hostOps2_7_writes h
theorem W13_of (c : Dev nD) (r : Ref sig .tc) (h : r ∉ hostOps2_8_W) : W13 m ρ c (Proc.devRef .tc r) = W12 m ρ c (Proc.devRef .tc r) :=
  StableHlo.after_of_writes_sub hostOps2_8 _ hostOps2_8_writes h
theorem W14_of (c : Dev nD) (r : Ref sig .tc) (h : r ∉ hostOps2_9_W) : W14 m ρ c (Proc.devRef .tc r) = W13 m ρ c (Proc.devRef .tc r) :=
  StableHlo.after_of_writes_sub hostOps2_9 _ hostOps2_9_writes h
theorem W15_of (c : Dev nD) (r : Ref sig .tc) (h : r ∉ hostOps2_10_W) : W15 m ρ c (Proc.devRef .tc r) = W14 m ρ c (Proc.devRef .tc r) :=
  StableHlo.after_of_writes_sub hostOps2_10 _ hostOps2_10_writes h
theorem W16_of (c : Dev nD) (r : Ref sig .tc) (h : r ∉ hostOps2_11_W) : W16 m ρ c (Proc.devRef .tc r) = W15 m ρ c (Proc.devRef .tc r) :=
  StableHlo.after_of_writes_sub hostOps2_11 _ hostOps2_11_writes h
theorem W17_of (c : Dev nD) (r : Ref sig .tc) (h : r ∉ hostOps2_12_W) : W17 m ρ c (Proc.devRef .tc r) = W16 m ρ c (Proc.devRef .tc r) :=
  StableHlo.after_of_writes_sub hostOps2_12 _ hostOps2_12_writes h
theorem W18_of (c : Dev nD) (r : Ref sig .tc) (h : r ∉ hostOps2_13_W) : W18 m ρ c (Proc.devRef .tc r) = W17 m ρ c (Proc.devRef .tc r) :=
  StableHlo.after_of_writes_sub hostOps2_13 _ hostOps2_13_writes h
theorem W19_of (c : Dev nD) (r : Ref sig .tc) (h : r ∉ hostOps2_14_W) : W19 m ρ c (Proc.devRef .tc r) = W18 m ρ c (Proc.devRef .tc r) :=
  StableHlo.after_of_writes_sub hostOps2_14 _ hostOps2_14_writes h
theorem W20_of (c : Dev nD) (r : Ref sig .tc) (h : r ∉ hostOps2_15_W) : W20 m ρ c (Proc.devRef .tc r) = W19 m ρ c (Proc.devRef .tc r) :=
  StableHlo.after_of_writes_sub hostOps2_15 _ hostOps2_15_writes h
theorem W21_of (c : Dev nD) (r : Ref sig .tc) (h : r ∉ hostOps2_16_W) : W21 m ρ c (Proc.devRef .tc r) = W20 m ρ c (Proc.devRef .tc r) :=
  StableHlo.after_of_writes_sub hostOps2_16 _ hostOps2_16_writes h
theorem W22_of (c : Dev nD) (r : Ref sig .tc) (h : r ∉ hostOps2_17_W) : W22 m ρ c (Proc.devRef .tc r) = W21 m ρ c (Proc.devRef .tc r) :=
  StableHlo.after_of_writes_sub hostOps2_17 _ hostOps2_17_writes h
/-- Region 2 changes its output array only: an input window's array is left as entered, and so is every buffer that is no window's array. -/
theorem W23_of (c : Dev nD) (r : Ref sig .tc) (h : r ∉ ([main_v164] : List (Ref sig .tc))) : W23 m ρ c (Proc.devRef .tc r) = W22 m ρ c (Proc.devRef .tc r) := by
  by_cases hr : ∃ w, Pipeline.arrRef spec2 w = r
  · obtain ⟨w, rfl⟩ := hr
    have hin : (cfg2.win w).isOut = false :=
      (by decide : ∀ w : Fin cfg2.W, Pipeline.arrRef spec2 w ∉ ([main_v164] : List (Ref sig .tc)) → (cfg2.win w).isOut = false) w h
    exact (W23_arr m ρ c w).trans (((dat2 (V22 m ρ) c).arrAt_in w hin _).trans (A_eq2 (V22 m ρ) c w))
  · exact W23_of_ne m ρ c r fun w e => hr ⟨w, e⟩
theorem W24_of (c : Dev nD) (r : Ref sig .tc) (h : r ∉ hostOps3_W) : W24 m ρ c (Proc.devRef .tc r) = W23 m ρ c (Proc.devRef .tc r) :=
  StableHlo.after_of_writes_sub hostOps3 _ hostOps3_writes h
theorem W25_of (c : Dev nD) (r : Ref sig .tc) (h : r ∉ hostOps3_1_W) : W25 m ρ c (Proc.devRef .tc r) = W24 m ρ c (Proc.devRef .tc r) :=
  StableHlo.after_of_writes_sub hostOps3_1 _ hostOps3_1_writes h
theorem W26_of (c : Dev nD) (r : Ref sig .tc) (h : r ∉ hostOps3_2_W) : W26 m ρ c (Proc.devRef .tc r) = W25 m ρ c (Proc.devRef .tc r) :=
  StableHlo.after_of_writes_sub hostOps3_2 _ hostOps3_2_writes h
theorem W27_of (c : Dev nD) (r : Ref sig .tc) (h : r ∉ hostOps3_3_W) : W27 m ρ c (Proc.devRef .tc r) = W26 m ρ c (Proc.devRef .tc r) :=
  StableHlo.after_of_writes_sub hostOps3_3 _ hostOps3_3_writes h
theorem W28_of (c : Dev nD) (r : Ref sig .tc) (h : r ∉ hostOps3_4_W) : W28 m ρ c (Proc.devRef .tc r) = W27 m ρ c (Proc.devRef .tc r) :=
  StableHlo.after_of_writes_sub hostOps3_4 _ hostOps3_4_writes h
theorem W29_of (c : Dev nD) (r : Ref sig .tc) (h : r ∉ hostOps3_5_W) : W29 m ρ c (Proc.devRef .tc r) = W28 m ρ c (Proc.devRef .tc r) :=
  StableHlo.after_of_writes_sub hostOps3_5 _ hostOps3_5_writes h
/-- Region 3 changes its output array only: an input window's array is left as entered, and so is every buffer that is no window's array. -/
theorem W30_of (c : Dev nD) (r : Ref sig .tc) (h : r ∉ ([main_v192] : List (Ref sig .tc))) : W30 m ρ c (Proc.devRef .tc r) = W29 m ρ c (Proc.devRef .tc r) := by
  by_cases hr : ∃ w, Pipeline.arrRef spec3 w = r
  · obtain ⟨w, rfl⟩ := hr
    have hin : (cfg3.win w).isOut = false :=
      (by decide : ∀ w : Fin cfg3.W, Pipeline.arrRef spec3 w ∉ ([main_v192] : List (Ref sig .tc)) → (cfg3.win w).isOut = false) w h
    exact (W30_arr m ρ c w).trans (((dat3 (V29 m ρ) c).arrAt_in w hin _).trans (A_eq3 (V29 m ρ) c w))
  · exact W30_of_ne m ρ c r fun w e => hr ⟨w, e⟩
theorem W31_of (c : Dev nD) (r : Ref sig .tc) (h : r ∉ hostOps4_W) : W31 m ρ c (Proc.devRef .tc r) = W30 m ρ c (Proc.devRef .tc r) :=
  StableHlo.after_of_writes_sub hostOps4 _ hostOps4_writes h
/-- Region 4 changes its output array only: an input window's array is left as entered, and so is every buffer that is no window's array. -/
theorem W32_of (c : Dev nD) (r : Ref sig .tc) (h : r ∉ ([main_v217] : List (Ref sig .tc))) : W32 m ρ c (Proc.devRef .tc r) = W31 m ρ c (Proc.devRef .tc r) := by
  by_cases hr : ∃ w, Pipeline.arrRef spec4 w = r
  · obtain ⟨w, rfl⟩ := hr
    have hin : (cfg4.win w).isOut = false :=
      (by decide : ∀ w : Fin cfg4.W, Pipeline.arrRef spec4 w ∉ ([main_v217] : List (Ref sig .tc)) → (cfg4.win w).isOut = false) w h
    exact (W32_arr m ρ c w).trans (((dat4 (V31 m ρ) c).arrAt_in w hin _).trans (A_eq4 (V31 m ρ) c w))
  · exact W32_of_ne m ρ c r fun w e => hr ⟨w, e⟩
theorem W33_of (c : Dev nD) (r : Ref sig .tc) (h : r ∉ hostOps5_W) : W33 m ρ c (Proc.devRef .tc r) = W32 m ρ c (Proc.devRef .tc r) :=
  StableHlo.after_of_writes_sub hostOps5 _ hostOps5_writes h
theorem W34_of (c : Dev nD) (r : Ref sig .tc) (h : r ∉ hostOps5_1_W) : W34 m ρ c (Proc.devRef .tc r) = W33 m ρ c (Proc.devRef .tc r) :=
  StableHlo.after_of_writes_sub hostOps5_1 _ hostOps5_1_writes h
theorem W35_of (c : Dev nD) (r : Ref sig .tc) (h : r ∉ hostOps5_2_W) : W35 m ρ c (Proc.devRef .tc r) = W34 m ρ c (Proc.devRef .tc r) :=
  StableHlo.after_of_writes_sub hostOps5_2 _ hostOps5_2_writes h
theorem W36_of (c : Dev nD) (r : Ref sig .tc) (h : r ∉ hostOps5_3_W) : W36 m ρ c (Proc.devRef .tc r) = W35 m ρ c (Proc.devRef .tc r) :=
  StableHlo.after_of_writes_sub hostOps5_3 _ hostOps5_3_writes h
theorem W37_of (c : Dev nD) (r : Ref sig .tc) (h : r ∉ hostOps5_4_W) : W37 m ρ c (Proc.devRef .tc r) = W36 m ρ c (Proc.devRef .tc r) :=
  StableHlo.after_of_writes_sub hostOps5_4 _ hostOps5_4_writes h
theorem W38_of (c : Dev nD) (r : Ref sig .tc) (h : r ∉ hostOps5_5_W) : W38 m ρ c (Proc.devRef .tc r) = W37 m ρ c (Proc.devRef .tc r) :=
  StableHlo.after_of_writes_sub hostOps5_5 _ hostOps5_5_writes h
/-- Region 5 changes its output array only: an input window's array is left as entered, and so is every buffer that is no window's array. -/
theorem W39_of (c : Dev nD) (r : Ref sig .tc) (h : r ∉ ([main_v244] : List (Ref sig .tc))) : W39 m ρ c (Proc.devRef .tc r) = W38 m ρ c (Proc.devRef .tc r) := by
  by_cases hr : ∃ w, Pipeline.arrRef spec5 w = r
  · obtain ⟨w, rfl⟩ := hr
    have hin : (cfg5.win w).isOut = false :=
      (by decide : ∀ w : Fin cfg5.W, Pipeline.arrRef spec5 w ∉ ([main_v244] : List (Ref sig .tc)) → (cfg5.win w).isOut = false) w h
    exact (W39_arr m ρ c w).trans (((dat5 (V38 m ρ) c).arrAt_in w hin _).trans (A_eq5 (V38 m ρ) c w))
  · exact W39_of_ne m ρ c r fun w e => hr ⟨w, e⟩
theorem W40_of (c : Dev nD) (r : Ref sig .tc) (h : r ∉ hostOps6_W) : W40 m ρ c (Proc.devRef .tc r) = W39 m ρ c (Proc.devRef .tc r) :=
  StableHlo.after_of_writes_sub hostOps6 _ hostOps6_writes h
/-- Region 6 changes its output array only: an input window's array is left as entered, and so is every buffer that is no window's array. -/
theorem W41_of (c : Dev nD) (r : Ref sig .tc) (h : r ∉ ([main_v269] : List (Ref sig .tc))) : W41 m ρ c (Proc.devRef .tc r) = W40 m ρ c (Proc.devRef .tc r) := by
  by_cases hr : ∃ w, Pipeline.arrRef spec6 w = r
  · obtain ⟨w, rfl⟩ := hr
    have hin : (cfg6.win w).isOut = false :=
      (by decide : ∀ w : Fin cfg6.W, Pipeline.arrRef spec6 w ∉ ([main_v269] : List (Ref sig .tc)) → (cfg6.win w).isOut = false) w h
    exact (W41_arr m ρ c w).trans (((dat6 (V40 m ρ) c).arrAt_in w hin _).trans (A_eq6 (V40 m ρ) c w))
  · exact W41_of_ne m ρ c r fun w e => hr ⟨w, e⟩
theorem W42_of (c : Dev nD) (r : Ref sig .tc) (h : r ∉ hostOps7_W) : W42 m ρ c (Proc.devRef .tc r) = W41 m ρ c (Proc.devRef .tc r) :=
  StableHlo.after_of_writes_sub hostOps7 _ hostOps7_writes h
theorem W43_of (c : Dev nD) (r : Ref sig .tc) (h : r ∉ hostOps7_1_W) : W43 m ρ c (Proc.devRef .tc r) = W42 m ρ c (Proc.devRef .tc r) :=
  StableHlo.after_of_writes_sub hostOps7_1 _ hostOps7_1_writes h
theorem W44_of (c : Dev nD) (r : Ref sig .tc) (h : r ∉ hostOps7_2_W) : W44 m ρ c (Proc.devRef .tc r) = W43 m ρ c (Proc.devRef .tc r) :=
  StableHlo.after_of_writes_sub hostOps7_2 _ hostOps7_2_writes h
theorem W45_of (c : Dev nD) (r : Ref sig .tc) (h : r ∉ hostOps7_3_W) : W45 m ρ c (Proc.devRef .tc r) = W44 m ρ c (Proc.devRef .tc r) :=
  StableHlo.after_of_writes_sub hostOps7_3 _ hostOps7_3_writes h
theorem W46_of (c : Dev nD) (r : Ref sig .tc) (h : r ∉ hostOps7_4_W) : W46 m ρ c (Proc.devRef .tc r) = W45 m ρ c (Proc.devRef .tc r) :=
  StableHlo.after_of_writes_sub hostOps7_4 _ hostOps7_4_writes h
theorem W47_of (c : Dev nD) (r : Ref sig .tc) (h : r ∉ hostOps7_5_W) : W47 m ρ c (Proc.devRef .tc r) = W46 m ρ c (Proc.devRef .tc r) :=
  StableHlo.after_of_writes_sub hostOps7_5 _ hostOps7_5_writes h
theorem W48_of (c : Dev nD) (r : Ref sig .tc) (h : r ∉ hostOps7_6_W) : W48 m ρ c (Proc.devRef .tc r) = W47 m ρ c (Proc.devRef .tc r) :=
  StableHlo.after_of_writes_sub hostOps7_6 _ hostOps7_6_writes h
theorem W49_of (c : Dev nD) (r : Ref sig .tc) (h : r ∉ hostOps7_7_W) : W49 m ρ c (Proc.devRef .tc r) = W48 m ρ c (Proc.devRef .tc r) :=
  StableHlo.after_of_writes_sub hostOps7_7 _ hostOps7_7_writes h
theorem W50_of (c : Dev nD) (r : Ref sig .tc) (h : r ∉ hostOps7_8_W) : W50 m ρ c (Proc.devRef .tc r) = W49 m ρ c (Proc.devRef .tc r) :=
  StableHlo.after_of_writes_sub hostOps7_8 _ hostOps7_8_writes h
theorem W51_of (c : Dev nD) (r : Ref sig .tc) (h : r ∉ hostOps7_9_W) : W51 m ρ c (Proc.devRef .tc r) = W50 m ρ c (Proc.devRef .tc r) :=
  StableHlo.after_of_writes_sub hostOps7_9 _ hostOps7_9_writes h
theorem W52_of (c : Dev nD) (r : Ref sig .tc) (h : r ∉ hostOps7_10_W) : W52 m ρ c (Proc.devRef .tc r) = W51 m ρ c (Proc.devRef .tc r) :=
  StableHlo.after_of_writes_sub hostOps7_10 _ hostOps7_10_writes h
theorem W53_of (c : Dev nD) (r : Ref sig .tc) (h : r ∉ hostOps7_11_W) : W53 m ρ c (Proc.devRef .tc r) = W52 m ρ c (Proc.devRef .tc r) :=
  StableHlo.after_of_writes_sub hostOps7_11 _ hostOps7_11_writes h
theorem W54_of (c : Dev nD) (r : Ref sig .tc) (h : r ∉ hostOps7_12_W) : W54 m ρ c (Proc.devRef .tc r) = W53 m ρ c (Proc.devRef .tc r) :=
  StableHlo.after_of_writes_sub hostOps7_12 _ hostOps7_12_writes h
theorem W55_of (c : Dev nD) (r : Ref sig .tc) (h : r ∉ hostOps7_13_W) : W55 m ρ c (Proc.devRef .tc r) = W54 m ρ c (Proc.devRef .tc r) :=
  StableHlo.after_of_writes_sub hostOps7_13 _ hostOps7_13_writes h
theorem W56_of (c : Dev nD) (r : Ref sig .tc) (h : r ∉ hostOps7_14_W) : W56 m ρ c (Proc.devRef .tc r) = W55 m ρ c (Proc.devRef .tc r) :=
  StableHlo.after_of_writes_sub hostOps7_14 _ hostOps7_14_writes h
theorem W57_of (c : Dev nD) (r : Ref sig .tc) (h : r ∉ hostOps7_15_W) : W57 m ρ c (Proc.devRef .tc r) = W56 m ρ c (Proc.devRef .tc r) :=
  StableHlo.after_of_writes_sub hostOps7_15 _ hostOps7_15_writes h
theorem W58_of (c : Dev nD) (r : Ref sig .tc) (h : r ∉ hostOps7_16_W) : W58 m ρ c (Proc.devRef .tc r) = W57 m ρ c (Proc.devRef .tc r) :=
  StableHlo.after_of_writes_sub hostOps7_16 _ hostOps7_16_writes h
theorem W59_of (c : Dev nD) (r : Ref sig .tc) (h : r ∉ hostOps7_17_W) : W59 m ρ c (Proc.devRef .tc r) = W58 m ρ c (Proc.devRef .tc r) :=
  StableHlo.after_of_writes_sub hostOps7_17 _ hostOps7_17_writes h
/-- Region 7 changes its output array only: an input window's array is left as entered, and so is every buffer that is no window's array. -/
theorem W60_of (c : Dev nD) (r : Ref sig .tc) (h : r ∉ ([main_v364] : List (Ref sig .tc))) : W60 m ρ c (Proc.devRef .tc r) = W59 m ρ c (Proc.devRef .tc r) := by
  by_cases hr : ∃ w, Pipeline.arrRef spec7 w = r
  · obtain ⟨w, rfl⟩ := hr
    have hin : (cfg7.win w).isOut = false :=
      (by decide : ∀ w : Fin cfg7.W, Pipeline.arrRef spec7 w ∉ ([main_v364] : List (Ref sig .tc)) → (cfg7.win w).isOut = false) w h
    exact (W60_arr m ρ c w).trans (((dat7 (V59 m ρ) c).arrAt_in w hin _).trans (A_eq7 (V59 m ρ) c w))
  · exact W60_of_ne m ρ c r fun w e => hr ⟨w, e⟩
theorem W61_of (c : Dev nD) (r : Ref sig .tc) (h : r ∉ hostOps8_W) : W61 m ρ c (Proc.devRef .tc r) = W60 m ρ c (Proc.devRef .tc r) :=
  StableHlo.after_of_writes_sub hostOps8 _ hostOps8_writes h
theorem W62_of (c : Dev nD) (r : Ref sig .tc) (h : r ∉ hostOps8_1_W) : W62 m ρ c (Proc.devRef .tc r) = W61 m ρ c (Proc.devRef .tc r) :=
  StableHlo.after_of_writes_sub hostOps8_1 _ hostOps8_1_writes h
theorem W63_of (c : Dev nD) (r : Ref sig .tc) (h : r ∉ hostOps8_2_W) : W63 m ρ c (Proc.devRef .tc r) = W62 m ρ c (Proc.devRef .tc r) :=
  StableHlo.after_of_writes_sub hostOps8_2 _ hostOps8_2_writes h
theorem W64_of (c : Dev nD) (r : Ref sig .tc) (h : r ∉ hostOps8_3_W) : W64 m ρ c (Proc.devRef .tc r) = W63 m ρ c (Proc.devRef .tc r) :=
  StableHlo.after_of_writes_sub hostOps8_3 _ hostOps8_3_writes h
theorem W65_of (c : Dev nD) (r : Ref sig .tc) (h : r ∉ hostOps8_4_W) : W65 m ρ c (Proc.devRef .tc r) = W64 m ρ c (Proc.devRef .tc r) :=
  StableHlo.after_of_writes_sub hostOps8_4 _ hostOps8_4_writes h
theorem W66_of (c : Dev nD) (r : Ref sig .tc) (h : r ∉ hostOps8_5_W) : W66 m ρ c (Proc.devRef .tc r) = W65 m ρ c (Proc.devRef .tc r) :=
  StableHlo.after_of_writes_sub hostOps8_5 _ hostOps8_5_writes h
/-- Region 8 changes its output array only: an input window's array is left as entered, and so is every buffer that is no window's array. -/
theorem W67_of (c : Dev nD) (r : Ref sig .tc) (h : r ∉ ([main_v392] : List (Ref sig .tc))) : W67 m ρ c (Proc.devRef .tc r) = W66 m ρ c (Proc.devRef .tc r) := by
  by_cases hr : ∃ w, Pipeline.arrRef spec8 w = r
  · obtain ⟨w, rfl⟩ := hr
    have hin : (cfg8.win w).isOut = false :=
      (by decide : ∀ w : Fin cfg8.W, Pipeline.arrRef spec8 w ∉ ([main_v392] : List (Ref sig .tc)) → (cfg8.win w).isOut = false) w h
    exact (W67_arr m ρ c w).trans (((dat8 (V66 m ρ) c).arrAt_in w hin _).trans (A_eq8 (V66 m ρ) c w))
  · exact W67_of_ne m ρ c r fun w e => hr ⟨w, e⟩
theorem W68_of (c : Dev nD) (r : Ref sig .tc) (h : r ∉ hostOps9_W) : W68 m ρ c (Proc.devRef .tc r) = W67 m ρ c (Proc.devRef .tc r) :=
  StableHlo.after_of_writes_sub hostOps9 _ hostOps9_writes h
/-- Region 9 changes its output array only: an input window's array is left as entered, and so is every buffer that is no window's array. -/
theorem W69_of (c : Dev nD) (r : Ref sig .tc) (h : r ∉ ([main_v417] : List (Ref sig .tc))) : W69 m ρ c (Proc.devRef .tc r) = W68 m ρ c (Proc.devRef .tc r) := by
  by_cases hr : ∃ w, Pipeline.arrRef spec9 w = r
  · obtain ⟨w, rfl⟩ := hr
    have hin : (cfg9.win w).isOut = false :=
      (by decide : ∀ w : Fin cfg9.W, Pipeline.arrRef spec9 w ∉ ([main_v417] : List (Ref sig .tc)) → (cfg9.win w).isOut = false) w h
    exact (W69_arr m ρ c w).trans (((dat9 (V68 m ρ) c).arrAt_in w hin _).trans (A_eq9 (V68 m ρ) c w))
  · exact W69_of_ne m ρ c r fun w e => hr ⟨w, e⟩
theorem W70_of (c : Dev nD) (r : Ref sig .tc) (h : r ∉ hostOps10_W) : W70 m ρ c (Proc.devRef .tc r) = W69 m ρ c (Proc.devRef .tc r) :=
  StableHlo.after_of_writes_sub hostOps10 _ hostOps10_writes h
theorem W71_of (c : Dev nD) (r : Ref sig .tc) (h : r ∉ hostOps10_1_W) : W71 m ρ c (Proc.devRef .tc r) = W70 m ρ c (Proc.devRef .tc r) :=
  StableHlo.after_of_writes_sub hostOps10_1 _ hostOps10_1_writes h
theorem W72_of (c : Dev nD) (r : Ref sig .tc) (h : r ∉ hostOps10_2_W) : W72 m ρ c (Proc.devRef .tc r) = W71 m ρ c (Proc.devRef .tc r) :=
  StableHlo.after_of_writes_sub hostOps10_2 _ hostOps10_2_writes h
theorem W73_of (c : Dev nD) (r : Ref sig .tc) (h : r ∉ hostOps10_3_W) : W73 m ρ c (Proc.devRef .tc r) = W72 m ρ c (Proc.devRef .tc r) :=
  StableHlo.after_of_writes_sub hostOps10_3 _ hostOps10_3_writes h
theorem W74_of (c : Dev nD) (r : Ref sig .tc) (h : r ∉ hostOps10_4_W) : W74 m ρ c (Proc.devRef .tc r) = W73 m ρ c (Proc.devRef .tc r) :=
  StableHlo.after_of_writes_sub hostOps10_4 _ hostOps10_4_writes h
theorem W75_of (c : Dev nD) (r : Ref sig .tc) (h : r ∉ hostOps10_5_W) : W75 m ρ c (Proc.devRef .tc r) = W74 m ρ c (Proc.devRef .tc r) :=
  StableHlo.after_of_writes_sub hostOps10_5 _ hostOps10_5_writes h
/-- Region 10 changes its output array only: an input window's array is left as entered, and so is every buffer that is no window's array. -/
theorem W76_of (c : Dev nD) (r : Ref sig .tc) (h : r ∉ ([main_v444] : List (Ref sig .tc))) : W76 m ρ c (Proc.devRef .tc r) = W75 m ρ c (Proc.devRef .tc r) := by
  by_cases hr : ∃ w, Pipeline.arrRef spec10 w = r
  · obtain ⟨w, rfl⟩ := hr
    have hin : (cfg10.win w).isOut = false :=
      (by decide : ∀ w : Fin cfg10.W, Pipeline.arrRef spec10 w ∉ ([main_v444] : List (Ref sig .tc)) → (cfg10.win w).isOut = false) w h
    exact (W76_arr m ρ c w).trans (((dat10 (V75 m ρ) c).arrAt_in w hin _).trans (A_eq10 (V75 m ρ) c w))
  · exact W76_of_ne m ρ c r fun w e => hr ⟨w, e⟩
theorem W77_of (c : Dev nD) (r : Ref sig .tc) (h : r ∉ hostOps11_W) : W77 m ρ c (Proc.devRef .tc r) = W76 m ρ c (Proc.devRef .tc r) :=
  StableHlo.after_of_writes_sub hostOps11 _ hostOps11_writes h
/-- Region 11 changes its output array only: an input window's array is left as entered, and so is every buffer that is no window's array. -/
theorem W78_of (c : Dev nD) (r : Ref sig .tc) (h : r ∉ ([main_v469] : List (Ref sig .tc))) : W78 m ρ c (Proc.devRef .tc r) = W77 m ρ c (Proc.devRef .tc r) := by
  by_cases hr : ∃ w, Pipeline.arrRef spec11 w = r
  · obtain ⟨w, rfl⟩ := hr
    have hin : (cfg11.win w).isOut = false :=
      (by decide : ∀ w : Fin cfg11.W, Pipeline.arrRef spec11 w ∉ ([main_v469] : List (Ref sig .tc)) → (cfg11.win w).isOut = false) w h
    exact (W78_arr m ρ c w).trans (((dat11 (V77 m ρ) c).arrAt_in w hin _).trans (A_eq11 (V77 m ρ) c w))
  · exact W78_of_ne m ρ c r fun w e => hr ⟨w, e⟩
theorem W79_of (c : Dev nD) (r : Ref sig .tc) (h : r ∉ hostOps12_W) : W79 m ρ c (Proc.devRef .tc r) = W78 m ρ c (Proc.devRef .tc r) :=
  StableHlo.after_of_writes_sub hostOps12 _ hostOps12_writes h
theorem W80_of (c : Dev nD) (r : Ref sig .tc) (h : r ∉ hostOps12_1_W) : W80 m ρ c (Proc.devRef .tc r) = W79 m ρ c (Proc.devRef .tc r) :=
  StableHlo.after_of_writes_sub hostOps12_1 _ hostOps12_1_writes h
theorem W81_of (c : Dev nD) (r : Ref sig .tc) (h : r ∉ hostOps12_2_W) : W81 m ρ c (Proc.devRef .tc r) = W80 m ρ c (Proc.devRef .tc r) :=
  StableHlo.after_of_writes_sub hostOps12_2 _ hostOps12_2_writes h
theorem W82_of (c : Dev nD) (r : Ref sig .tc) (h : r ∉ hostOps12_3_W) : W82 m ρ c (Proc.devRef .tc r) = W81 m ρ c (Proc.devRef .tc r) :=
  StableHlo.after_of_writes_sub hostOps12_3 _ hostOps12_3_writes h
/-- Region 12 changes its output array only: an input window's array is left as entered, and so is every buffer that is no window's array. -/
theorem W83_of (c : Dev nD) (r : Ref sig .tc) (h : r ∉ ([main_v490] : List (Ref sig .tc))) : W83 m ρ c (Proc.devRef .tc r) = W82 m ρ c (Proc.devRef .tc r) := by
  by_cases hr : ∃ w, Pipeline.arrRef spec12 w = r
  · obtain ⟨w, rfl⟩ := hr
    have hin : (cfg12.win w).isOut = false :=
      (by decide : ∀ w : Fin cfg12.W, Pipeline.arrRef spec12 w ∉ ([main_v490] : List (Ref sig .tc)) → (cfg12.win w).isOut = false) w h
    exact (W83_arr m ρ c w).trans (((dat12 (V82 m ρ) c).arrAt_in w hin _).trans (A_eq12 (V82 m ρ) c w))
  · exact W83_of_ne m ρ c r fun w e => hr ⟨w, e⟩
theorem W84_of (c : Dev nD) (r : Ref sig .tc) (h : r ∉ hostOps13_W) : W84 m ρ c (Proc.devRef .tc r) = W83 m ρ c (Proc.devRef .tc r) :=
  StableHlo.after_of_writes_sub hostOps13 _ hostOps13_writes h

end Cert.KernelIdeal.Gen

end
-- ==== Proof.KI.Segs.lean ====
import proofs.«417513_j58866821759238_4_alg».proof.Proof.KI.Fold
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 13) → (pcfgs (F := F) p).Adm := fun p => (cfgs p).toPCfg_adm
/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V22 m ρ) c
  | ⟨3, _⟩ => fun c => dat3 (V29 m ρ) c
  | ⟨4, _⟩ => fun c => dat4 (V31 m ρ) c
  | ⟨5, _⟩ => fun c => dat5 (V38 m ρ) c
  | ⟨6, _⟩ => fun c => dat6 (V40 m ρ) c
  | ⟨7, _⟩ => fun c => dat7 (V59 m ρ) c
  | ⟨8, _⟩ => fun c => dat8 (V66 m ρ) c
  | ⟨9, _⟩ => fun c => dat9 (V68 m ρ) c
  | ⟨10, _⟩ => fun c => dat10 (V75 m ρ) c
  | ⟨11, _⟩ => fun c => dat11 (V77 m ρ) c
  | ⟨12, _⟩ => fun c => dat12 (V82 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator register at some state. -/
abbrev Tₙ (c : Dev nD) : sProp 𝕄 := iprop(StableHlo.held (c : Thread nD τ) (Pipeline.ucRefs τ sig) (W84 m ρ c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the kernel's invariant and out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the kernel's invariant and out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W22`, left at `W23`. Its arrays are split out of the
    unscoped buffers and put back at the exit contents; the generator register goes into the kernel's invariant and out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V22 m ρ) c).loose
  hwaits := Pipeline.hwaits_of_owed_zero _ _ _ _ L lv 2 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec2 c (V22 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V22 m ρ c) (V23 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W29`, left at `W30`. Its arrays are split out of the
    unscoped buffers and put back at the exit contents; the generator register goes into the kernel's invariant and out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V29 m ρ) c).loose
  hwaits := Pipeline.hwaits_of_owed_zero _ _ _ _ L lv 3 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec3 c (V29 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V29 m ρ c) (V30 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W31`, left at `W32`. Its arrays are split out of the
    unscoped buffers and put back at the exit contents; the generator register goes into the kernel's invariant and out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V31 m ρ) c).loose
  hwaits := Pipeline.hwaits_of_owed_zero _ _ _ _ L lv 4 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec4 c (V31 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V31 m ρ c) (V32 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W38`, left at `W39`. Its arrays are split out of the
    unscoped buffers and put back at the exit contents; the generator register goes into the kernel's invariant and out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V38 m ρ) c).loose
  hwaits := Pipeline.hwaits_of_owed_zero _ _ _ _ L lv 5 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X c := iprop(∃ r, prngReg c r)
  Y c := iprop(∃ r, prngReg c r)
  Z c := Pipeline.unscopedRest (Ix := Unit) (Name := ℕ) (U := UR sig nD τ) (Lvl := ℕ) spec5 c (V38 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V38 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V38 m ρ c) (V39 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W40`, left at `W41`. Its arrays are split out of the
    unscoped buffers and put back at the exit contents; the generator register goes into the kernel's invariant and out; nothing is owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V40 m ρ) c).loose
  hwaits := Pipeline.hwaits_of_owed_zero _ _ _ _ L lv 6 fun _ _ => rfl
  pre c := iprop(StableHlo.held (c : Thread nD τ) (Pipeline.ucRefs τ sig) (W40 m ρ c) ∗ R c)
  post c := iprop(StableHlo.held (c : Thread nD τ) (Pipeline.ucRefs τ sig) (W41 m ρ c) ∗ R c)
  X c := iprop(∃ r, prngReg c r)
  Y c := iprop(∃ r, prngReg c r)
  Z c := Pipeline.unscopedRest (Ix := Unit) (Name := ℕ) (U := UR sig nD τ) (Lvl := ℕ) spec6 c (V40 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V40 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V40 m ρ c) (V41 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W59`, left at `W60`. Its arrays are split out of the
    unscoped buffers and put back at the exit contents; the generator register goes into the kernel's invariant and out; nothing is owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V59 m ρ) c).loose
  hwaits := Pipeline.hwaits_of_owed_zero _ _ _ _ L lv 7 fun _ _ => rfl
  pre c := iprop(StableHlo.held (c : Thread nD τ) (Pipeline.ucRefs τ sig) (W59 m ρ c) ∗ R c)
  post c := iprop(StableHlo.held (c : Thread nD τ) (Pipeline.ucRefs τ sig) (W60 m ρ c) ∗ R c)
  X c := iprop(∃ r, prngReg c r)
  Y c := iprop(∃ r, prngReg c r)
  Z c := Pipeline.unscopedRest (Ix := Unit) (Name := ℕ) (U := UR sig nD τ) (Lvl := ℕ) spec7 c (V59 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V59 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V59 m ρ c) (V60 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W66`, left at `W67`. Its arrays are split out of the
    unscoped buffers and put back at the exit contents; the generator register goes into the kernel's invariant and out; nothing is owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V66 m ρ) c).loose
  hwaits := Pipeline.hwaits_of_owed_zero _ _ _ _ L lv 8 fun _ _ => rfl
  pre c := iprop(StableHlo.held (c : Thread nD τ) (Pipeline.ucRefs τ sig) (W66 m ρ c) ∗ R c)
  post c := iprop(StableHlo.held (c : Thread nD τ) (Pipeline.ucRefs τ sig) (W67 m ρ c) ∗ R c)
  X c := iprop(∃ r, prngReg c r)
  Y c := iprop(∃ r, prngReg c r)
  Z c := Pipeline.unscopedRest (Ix := Unit) (Name := ℕ) (U := UR sig nD τ) (Lvl := ℕ) spec8 c (V66 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V66 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V66 m ρ c) (V67 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W68`, left at `W69`. Its arrays are split out of the
    unscoped buffers and put back at the exit contents; the generator register goes into the kernel's invariant and out; nothing is owed. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V68 m ρ) c).loose
  hwaits := Pipeline.hwaits_of_owed_zero _ _ _ _ L lv 9 fun _ _ => rfl
  pre c := iprop(StableHlo.held (c : Thread nD τ) (Pipeline.ucRefs τ sig) (W68 m ρ c) ∗ R c)
  post c := iprop(StableHlo.held (c : Thread nD τ) (Pipeline.ucRefs τ sig) (W69 m ρ c) ∗ R c)
  X c := iprop(∃ r, prngReg c r)
  Y c := iprop(∃ r, prngReg c r)
  Z c := Pipeline.unscopedRest (Ix := Unit) (Name := ℕ) (U := UR sig nD τ) (Lvl := ℕ) spec9 c (V68 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V68 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V68 m ρ c) (V69 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W75`, left at `W76`. Its arrays are split out of the
    unscoped buffers and put back at the exit contents; the generator register goes into the kernel's invariant and out; nothing is owed. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V75 m ρ) c).loose
  hwaits := Pipeline.hwaits_of_owed_zero _ _ _ _ L lv 10 fun _ _ => rfl
  pre c := iprop(StableHlo.held (c : Thread nD τ) (Pipeline.ucRefs τ sig) (W75 m ρ c) ∗ R c)
  post c := iprop(StableHlo.held (c : Thread nD τ) (Pipeline.ucRefs τ sig) (W76 m ρ c) ∗ R c)
  X c := iprop(∃ r, prngReg c r)
  Y c := iprop(∃ r, prngReg c r)
  Z c := Pipeline.unscopedRest (Ix := Unit) (Name := ℕ) (U := UR sig nD τ) (Lvl := ℕ) spec10 c (V75 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V75 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V75 m ρ c) (V76 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W77`, left at `W78`. Its arrays are split out of the
    unscoped buffers and put back at the exit contents; the generator register goes into the kernel's invariant and out; nothing is owed. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V77 m ρ) c).loose
  hwaits := Pipeline.hwaits_of_owed_zero _ _ _ _ L lv 11 fun _ _ => rfl
  pre c := iprop(StableHlo.held (c : Thread nD τ) (Pipeline.ucRefs τ sig) (W77 m ρ c) ∗ R c)
  post c := iprop(StableHlo.held (c : Thread nD τ) (Pipeline.ucRefs τ sig) (W78 m ρ c) ∗ R c)
  X c := iprop(∃ r, prngReg c r)
  Y c := iprop(∃ r, prngReg c r)
  Z c := Pipeline.unscopedRest (Ix := Unit) (Name := ℕ) (U := UR sig nD τ) (Lvl := ℕ) spec11 c (V77 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V77 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V77 m ρ c) (V78 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at `W82`, left at `W83`. Its arrays are split out of the
    unscoped buffers and put back at the exit contents; the generator register goes into the kernel's invariant and out; nothing is owed. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V82 m ρ) c).loose
  hwaits := Pipeline.hwaits_of_owed_zero _ _ _ _ L lv 12 fun _ _ => rfl
  pre c := iprop(StableHlo.held (c : Thread nD τ) (Pipeline.ucRefs τ sig) (W82 m ρ c) ∗ R c)
  post c := iprop(StableHlo.held (c : Thread nD τ) (Pipeline.ucRefs τ sig) (W83 m ρ c) ∗ R c)
  X c := iprop(∃ r, prngReg c r)
  Y c := iprop(∃ r, prngReg c r)
  Z c := Pipeline.unscopedRest (Ix := Unit) (Name := ℕ) (U := UR sig nD τ) (Lvl := ℕ) spec12 c (V82 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V82 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V82 m ρ c) (V83 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's 84 items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .host (hseg hostOps2_7 hostOps2_7_sub hostOps2_7_fresh (W11 m ρ)),
    .host (hseg hostOps2_8 hostOps2_8_sub hostOps2_8_fresh (W12 m ρ)),
    .host (hseg hostOps2_9 hostOps2_9_sub hostOps2_9_fresh (W13 m ρ)),
    .host (hseg hostOps2_10 hostOps2_10_sub hostOps2_10_fresh (W14 m ρ)),
    .host (hseg hostOps2_11 hostOps2_11_sub hostOps2_11_fresh (W15 m ρ)),
    .host (hseg hostOps2_12 hostOps2_12_sub hostOps2_12_fresh (W16 m ρ)),
    .host (hseg hostOps2_13 hostOps2_13_sub hostOps2_13_fresh (W17 m ρ)),
    .host (hseg hostOps2_14 hostOps2_14_sub hostOps2_14_fresh (W18 m ρ)),
    .host (hseg hostOps2_15 hostOps2_15_sub hostOps2_15_fresh (W19 m ρ)),
    .host (hseg hostOps2_16 hostOps2_16_sub hostOps2_16_fresh (W20 m ρ)),
    .host (hseg hostOps2_17 hostOps2_17_sub hostOps2_17_fresh (W21 m ρ)),
    .region (reg2 m ρ),
    .host (hseg hostOps3 hostOps3_sub hostOps3_fresh (W23 m ρ)),
    .host (hseg hostOps3_1 hostOps3_1_sub hostOps3_1_fresh (W24 m ρ)),
    .host (hseg hostOps3_2 hostOps3_2_sub hostOps3_2_fresh (W25 m ρ)),
    .host (hseg hostOps3_3 hostOps3_3_sub hostOps3_3_fresh (W26 m ρ)),
    .host (hseg hostOps3_4 hostOps3_4_sub hostOps3_4_fresh (W27 m ρ)),
    .host (hseg hostOps3_5 hostOps3_5_sub hostOps3_5_fresh (W28 m ρ)),
    .region (reg3 m ρ),
    .host (hseg hostOps4 hostOps4_sub hostOps4_fresh (W30 m ρ)),
    .region (reg4 m ρ),
    .host (hseg hostOps5 hostOps5_sub hostOps5_fresh (W32 m ρ)),
    .host (hseg hostOps5_1 hostOps5_1_sub hostOps5_1_fresh (W33 m ρ)),
    .host (hseg hostOps5_2 hostOps5_2_sub hostOps5_2_fresh (W34 m ρ)),
    .host (hseg hostOps5_3 hostOps5_3_sub hostOps5_3_fresh (W35 m ρ)),
    .host (hseg hostOps5_4 hostOps5_4_sub hostOps5_4_fresh (W36 m ρ)),
    .host (hseg hostOps5_5 hostOps5_5_sub hostOps5_5_fresh (W37 m ρ)),
    .region (reg5 m ρ),
    .host (hseg hostOps6 hostOps6_sub hostOps6_fresh (W39 m ρ)),
    .region (reg6 m ρ),
    .host (hseg hostOps7 hostOps7_sub hostOps7_fresh (W41 m ρ)),
    .host (hseg hostOps7_1 hostOps7_1_sub hostOps7_1_fresh (W42 m ρ)),
    .host (hseg hostOps7_2 hostOps7_2_sub hostOps7_2_fresh (W43 m ρ)),
    .host (hseg hostOps7_3 hostOps7_3_sub hostOps7_3_fresh (W44 m ρ)),
    .host (hseg hostOps7_4 hostOps7_4_sub hostOps7_4_fresh (W45 m ρ)),
    .host (hseg hostOps7_5 hostOps7_5_sub hostOps7_5_fresh (W46 m ρ)),
    .host (hseg hostOps7_6 hostOps7_6_sub hostOps7_6_fresh (W47 m ρ)),
    .host (hseg hostOps7_7 hostOps7_7_sub hostOps7_7_fresh (W48 m ρ)),
    .host (hseg hostOps7_8 hostOps7_8_sub hostOps7_8_fresh (W49 m ρ)),
    .host (hseg hostOps7_9 hostOps7_9_sub hostOps7_9_fresh (W50 m ρ)),
    .host (hseg hostOps7_10 hostOps7_10_sub hostOps7_10_fresh (W51 m ρ)),
    .host (hseg hostOps7_11 hostOps7_11_sub hostOps7_11_fresh (W52 m ρ)),
    .host (hseg hostOps7_12 hostOps7_12_sub hostOps7_12_fresh (W53 m ρ)),
    .host (hseg hostOps7_13 hostOps7_13_sub hostOps7_13_fresh (W54 m ρ)),
    .host (hseg hostOps7_14 hostOps7_14_sub hostOps7_14_fresh (W55 m ρ)),
    .host (hseg hostOps7_15 hostOps7_15_sub hostOps7_15_fresh (W56 m ρ)),
    .host (hseg hostOps7_16 hostOps7_16_sub hostOps7_16_fresh (W57 m ρ)),
    .host (hseg hostOps7_17 hostOps7_17_sub hostOps7_17_fresh (W58 m ρ)),
    .region (reg7 m ρ),
    .host (hseg hostOps8 hostOps8_sub hostOps8_fresh (W60 m ρ)),
    .host (hseg hostOps8_1 hostOps8_1_sub hostOps8_1_fresh (W61 m ρ)),
    .host (hseg hostOps8_2 hostOps8_2_sub hostOps8_2_fresh (W62 m ρ)),
    .host (hseg hostOps8_3 hostOps8_3_sub hostOps8_3_fresh (W63 m ρ)),
    .host (hseg hostOps8_4 hostOps8_4_sub hostOps8_4_fresh (W64 m ρ)),
    .host (hseg hostOps8_5 hostOps8_5_sub hostOps8_5_fresh (W65 m ρ)),
    .region (reg8 m ρ),
    .host (hseg hostOps9 hostOps9_sub hostOps9_fresh (W67 m ρ)),
    .region (reg9 m ρ),
    .host (hseg hostOps10 hostOps10_sub hostOps10_fresh (W69 m ρ)),
    .host (hseg hostOps10_1 hostOps10_1_sub hostOps10_1_fresh (W70 m ρ)),
    .host (hseg hostOps10_2 hostOps10_2_sub hostOps10_2_fresh (W71 m ρ)),
    .host (hseg hostOps10_3 hostOps10_3_sub hostOps10_3_fresh (W72 m ρ)),
    .host (hseg hostOps10_4 hostOps10_4_sub hostOps10_4_fresh (W73 m ρ)),
    .host (hseg hostOps10_5 hostOps10_5_sub hostOps10_5_fresh (W74 m ρ)),
    .region (reg10 m ρ),
    .host (hseg hostOps11 hostOps11_sub hostOps11_fresh (W76 m ρ)),
    .region (reg11 m ρ),
    .host (hseg hostOps12 hostOps12_sub hostOps12_fresh (W78 m ρ)),
    .host (hseg hostOps12_1 hostOps12_1_sub hostOps12_1_fresh (W79 m ρ)),
    .host (hseg hostOps12_2 hostOps12_2_sub hostOps12_2_fresh (W80 m ρ)),
    .host (hseg hostOps12_3 hostOps12_3_sub hostOps12_3_fresh (W81 m ρ)),
    .region (reg12 m ρ),
    .host (hseg hostOps13 hostOps13_sub hostOps13_fresh (W83 m ρ)) ]
/-- @main IS the run of the segments. -/
theorem main_run (c : Dev nD) : main (F := F) c = Pipeline.Seg.run (segs m ρ) := (main_chain c).trans (by chain_rfl)

end Cert.KernelIdeal.Gen

end
-- ==== Proof.KI.Args.lean ====
import proofs.«417513_j58866821759238_4_alg».proof.Proof.KI.Fold
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item of @main writes an argument: each argument's buffer at the end holds its launch contents -/

theorem W84_main_arg0 (c : Dev nD) : W84 m ρ c (Proc.devRef .tc main_arg0) = m ((c : Thread nD τ).loc main_arg0) :=
  (W84_of m ρ c main_arg0 (by decide)).trans <| (W83_of m ρ c main_arg0 (by decide)).trans <| (W82_of m ρ c main_arg0 (by decide)).trans <| (W81_of m ρ c main_arg0 (by decide)).trans <| (W80_of m ρ c main_arg0 (by decide)).trans <| (W79_of m ρ c main_arg0 (by decide)).trans <| (W78_of m ρ c main_arg0 (by decide)).trans <| (W77_of m ρ c main_arg0 (by decide)).trans <| (W76_of m ρ c main_arg0 (by decide)).trans <| (W75_of m ρ c main_arg0 (by decide)).trans <| (W74_of m ρ c main_arg0 (by decide)).trans <| (W73_of m ρ c main_arg0 (by decide)).trans <| (W72_of m ρ c main_arg0 (by decide)).trans <| (W71_of m ρ c main_arg0 (by decide)).trans <| (W70_of m ρ c main_arg0 (by decide)).trans <| (W69_of m ρ c main_arg0 (by decide)).trans <| (W68_of m ρ c main_arg0 (by decide)).trans <| (W67_of m ρ c main_arg0 (by decide)).trans <| (W66_of m ρ c main_arg0 (by decide)).trans <| (W65_of m ρ c main_arg0 (by decide)).trans <| (W64_of m ρ c main_arg0 (by decide)).trans <| (W63_of m ρ c main_arg0 (by decide)).trans <| (W62_of m ρ c main_arg0 (by decide)).trans <| (W61_of m ρ c main_arg0 (by decide)).trans <| (W60_of m ρ c main_arg0 (by decide)).trans <| (W59_of m ρ c main_arg0 (by decide)).trans <| (W58_of m ρ c main_arg0 (by decide)).trans <| (W57_of m ρ c main_arg0 (by decide)).trans <| (W56_of m ρ c main_arg0 (by decide)).trans <| (W55_of m ρ c main_arg0 (by decide)).trans <| (W54_of m ρ c main_arg0 (by decide)).trans <| (W53_of m ρ c main_arg0 (by decide)).trans <| (W52_of m ρ c main_arg0 (by decide)).trans <| (W51_of m ρ c main_arg0 (by decide)).trans <| (W50_of m ρ c main_arg0 (by decide)).trans <| (W49_of m ρ c main_arg0 (by decide)).trans <| (W48_of m ρ c main_arg0 (by decide)).trans <| (W47_of m ρ c main_arg0 (by decide)).trans <| (W46_of m ρ c main_arg0 (by decide)).trans <| (W45_of m ρ c main_arg0 (by decide)).trans <| (W44_of m ρ c main_arg0 (by decide)).trans <| (W43_of m ρ c main_arg0 (by decide)).trans <| (W42_of m ρ c main_arg0 (by decide)).trans <| (W41_of m ρ c main_arg0 (by decide)).trans <| (W40_of m ρ c main_arg0 (by decide)).trans <| (W39_of m ρ c main_arg0 (by decide)).trans <| (W38_of m ρ c main_arg0 (by decide)).trans <| (W37_of m ρ c main_arg0 (by decide)).trans <| (W36_of m ρ c main_arg0 (by decide)).trans <| (W35_of m ρ c main_arg0 (by decide)).trans <| (W34_of m ρ c main_arg0 (by decide)).trans <| (W33_of m ρ c main_arg0 (by decide)).trans <| (W32_of m ρ c main_arg0 (by decide)).trans <| (W31_of m ρ c main_arg0 (by decide)).trans <| (W30_of m ρ c main_arg0 (by decide)).trans <| (W29_of m ρ c main_arg0 (by decide)).trans <| (W28_of m ρ c main_arg0 (by decide)).trans <| (W27_of m ρ c main_arg0 (by decide)).trans <| (W26_of m ρ c main_arg0 (by decide)).trans <| (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans rfl
theorem W84_main_arg1 (c : Dev nD) : W84 m ρ c (Proc.devRef .tc main_arg1) = m ((c : Thread nD τ).loc main_arg1) :=
  (W84_of m ρ c main_arg1 (by decide)).trans <| (W83_of m ρ c main_arg1 (by decide)).trans <| (W82_of m ρ c main_arg1 (by decide)).trans <| (W81_of m ρ c main_arg1 (by decide)).trans <| (W80_of m ρ c main_arg1 (by decide)).trans <| (W79_of m ρ c main_arg1 (by decide)).trans <| (W78_of m ρ c main_arg1 (by decide)).trans <| (W77_of m ρ c main_arg1 (by decide)).trans <| (W76_of m ρ c main_arg1 (by decide)).trans <| (W75_of m ρ c main_arg1 (by decide)).trans <| (W74_of m ρ c main_arg1 (by decide)).trans <| (W73_of m ρ c main_arg1 (by decide)).trans <| (W72_of m ρ c main_arg1 (by decide)).trans <| (W71_of m ρ c main_arg1 (by decide)).trans <| (W70_of m ρ c main_arg1 (by decide)).trans <| (W69_of m ρ c main_arg1 (by decide)).trans <| (W68_of m ρ c main_arg1 (by decide)).trans <| (W67_of m ρ c main_arg1 (by decide)).trans <| (W66_of m ρ c main_arg1 (by decide)).trans <| (W65_of m ρ c main_arg1 (by decide)).trans <| (W64_of m ρ c main_arg1 (by decide)).trans <| (W63_of m ρ c main_arg1 (by decide)).trans <| (W62_of m ρ c main_arg1 (by decide)).trans <| (W61_of m ρ c main_arg1 (by decide)).trans <| (W60_of m ρ c main_arg1 (by decide)).trans <| (W59_of m ρ c main_arg1 (by decide)).trans <| (W58_of m ρ c main_arg1 (by decide)).trans <| (W57_of m ρ c main_arg1 (by decide)).trans <| (W56_of m ρ c main_arg1 (by decide)).trans <| (W55_of m ρ c main_arg1 (by decide)).trans <| (W54_of m ρ c main_arg1 (by decide)).trans <| (W53_of m ρ c main_arg1 (by decide)).trans <| (W52_of m ρ c main_arg1 (by decide)).trans <| (W51_of m ρ c main_arg1 (by decide)).trans <| (W50_of m ρ c main_arg1 (by decide)).trans <| (W49_of m ρ c main_arg1 (by decide)).trans <| (W48_of m ρ c main_arg1 (by decide)).trans <| (W47_of m ρ c main_arg1 (by decide)).trans <| (W46_of m ρ c main_arg1 (by decide)).trans <| (W45_of m ρ c main_arg1 (by decide)).trans <| (W44_of m ρ c main_arg1 (by decide)).trans <| (W43_of m ρ c main_arg1 (by decide)).trans <| (W42_of m ρ c main_arg1 (by decide)).trans <| (W41_of m ρ c main_arg1 (by decide)).trans <| (W40_of m ρ c main_arg1 (by decide)).trans <| (W39_of m ρ c main_arg1 (by decide)).trans <| (W38_of m ρ c main_arg1 (by decide)).trans <| (W37_of m ρ c main_arg1 (by decide)).trans <| (W36_of m ρ c main_arg1 (by decide)).trans <| (W35_of m ρ c main_arg1 (by decide)).trans <| (W34_of m ρ c main_arg1 (by decide)).trans <| (W33_of m ρ c main_arg1 (by decide)).trans <| (W32_of m ρ c main_arg1 (by decide)).trans <| (W31_of m ρ c main_arg1 (by decide)).trans <| (W30_of m ρ c main_arg1 (by decide)).trans <| (W29_of m ρ c main_arg1 (by decide)).trans <| (W28_of m ρ c main_arg1 (by decide)).trans <| (W27_of m ρ c main_arg1 (by decide)).trans <| (W26_of m ρ c main_arg1 (by decide)).trans <| (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl
theorem W84_main_arg2 (c : Dev nD) : W84 m ρ c (Proc.devRef .tc main_arg2) = m ((c : Thread nD τ).loc main_arg2) :=
  (W84_of m ρ c main_arg2 (by decide)).trans <| (W83_of m ρ c main_arg2 (by decide)).trans <| (W82_of m ρ c main_arg2 (by decide)).trans <| (W81_of m ρ c main_arg2 (by decide)).trans <| (W80_of m ρ c main_arg2 (by decide)).trans <| (W79_of m ρ c main_arg2 (by decide)).trans <| (W78_of m ρ c main_arg2 (by decide)).trans <| (W77_of m ρ c main_arg2 (by decide)).trans <| (W76_of m ρ c main_arg2 (by decide)).trans <| (W75_of m ρ c main_arg2 (by decide)).trans <| (W74_of m ρ c main_arg2 (by decide)).trans <| (W73_of m ρ c main_arg2 (by decide)).trans <| (W72_of m ρ c main_arg2 (by decide)).trans <| (W71_of m ρ c main_arg2 (by decide)).trans <| (W70_of m ρ c main_arg2 (by decide)).trans <| (W69_of m ρ c main_arg2 (by decide)).trans <| (W68_of m ρ c main_arg2 (by decide)).trans <| (W67_of m ρ c main_arg2 (by decide)).trans <| (W66_of m ρ c main_arg2 (by decide)).trans <| (W65_of m ρ c main_arg2 (by decide)).trans <| (W64_of m ρ c main_arg2 (by decide)).trans <| (W63_of m ρ c main_arg2 (by decide)).trans <| (W62_of m ρ c main_arg2 (by decide)).trans <| (W61_of m ρ c main_arg2 (by decide)).trans <| (W60_of m ρ c main_arg2 (by decide)).trans <| (W59_of m ρ c main_arg2 (by decide)).trans <| (W58_of m ρ c main_arg2 (by decide)).trans <| (W57_of m ρ c main_arg2 (by decide)).trans <| (W56_of m ρ c main_arg2 (by decide)).trans <| (W55_of m ρ c main_arg2 (by decide)).trans <| (W54_of m ρ c main_arg2 (by decide)).trans <| (W53_of m ρ c main_arg2 (by decide)).trans <| (W52_of m ρ c main_arg2 (by decide)).trans <| (W51_of m ρ c main_arg2 (by decide)).trans <| (W50_of m ρ c main_arg2 (by decide)).trans <| (W49_of m ρ c main_arg2 (by decide)).trans <| (W48_of m ρ c main_arg2 (by decide)).trans <| (W47_of m ρ c main_arg2 (by decide)).trans <| (W46_of m ρ c main_arg2 (by decide)).trans <| (W45_of m ρ c main_arg2 (by decide)).trans <| (W44_of m ρ c main_arg2 (by decide)).trans <| (W43_of m ρ c main_arg2 (by decide)).trans <| (W42_of m ρ c main_arg2 (by decide)).trans <| (W41_of m ρ c main_arg2 (by decide)).trans <| (W40_of m ρ c main_arg2 (by decide)).trans <| (W39_of m ρ c main_arg2 (by decide)).trans <| (W38_of m ρ c main_arg2 (by decide)).trans <| (W37_of m ρ c main_arg2 (by decide)).trans <| (W36_of m ρ c main_arg2 (by decide)).trans <| (W35_of m ρ c main_arg2 (by decide)).trans <| (W34_of m ρ c main_arg2 (by decide)).trans <| (W33_of m ρ c main_arg2 (by decide)).trans <| (W32_of m ρ c main_arg2 (by decide)).trans <| (W31_of m ρ c main_arg2 (by decide)).trans <| (W30_of m ρ c main_arg2 (by decide)).trans <| (W29_of m ρ c main_arg2 (by decide)).trans <| (W28_of m ρ c main_arg2 (by decide)).trans <| (W27_of m ρ c main_arg2 (by decide)).trans <| (W26_of m ρ c main_arg2 (by decide)).trans <| (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W84_main_arg3 (c : Dev nD) : W84 m ρ c (Proc.devRef .tc main_arg3) = m ((c : Thread nD τ).loc main_arg3) :=
  (W84_of m ρ c main_arg3 (by decide)).trans <| (W83_of m ρ c main_arg3 (by decide)).trans <| (W82_of m ρ c main_arg3 (by decide)).trans <| (W81_of m ρ c main_arg3 (by decide)).trans <| (W80_of m ρ c main_arg3 (by decide)).trans <| (W79_of m ρ c main_arg3 (by decide)).trans <| (W78_of m ρ c main_arg3 (by decide)).trans <| (W77_of m ρ c main_arg3 (by decide)).trans <| (W76_of m ρ c main_arg3 (by decide)).trans <| (W75_of m ρ c main_arg3 (by decide)).trans <| (W74_of m ρ c main_arg3 (by decide)).trans <| (W73_of m ρ c main_arg3 (by decide)).trans <| (W72_of m ρ c main_arg3 (by decide)).trans <| (W71_of m ρ c main_arg3 (by decide)).trans <| (W70_of m ρ c main_arg3 (by decide)).trans <| (W69_of m ρ c main_arg3 (by decide)).trans <| (W68_of m ρ c main_arg3 (by decide)).trans <| (W67_of m ρ c main_arg3 (by decide)).trans <| (W66_of m ρ c main_arg3 (by decide)).trans <| (W65_of m ρ c main_arg3 (by decide)).trans <| (W64_of m ρ c main_arg3 (by decide)).trans <| (W63_of m ρ c main_arg3 (by decide)).trans <| (W62_of m ρ c main_arg3 (by decide)).trans <| (W61_of m ρ c main_arg3 (by decide)).trans <| (W60_of m ρ c main_arg3 (by decide)).trans <| (W59_of m ρ c main_arg3 (by decide)).trans <| (W58_of m ρ c main_arg3 (by decide)).trans <| (W57_of m ρ c main_arg3 (by decide)).trans <| (W56_of m ρ c main_arg3 (by decide)).trans <| (W55_of m ρ c main_arg3 (by decide)).trans <| (W54_of m ρ c main_arg3 (by decide)).trans <| (W53_of m ρ c main_arg3 (by decide)).trans <| (W52_of m ρ c main_arg3 (by decide)).trans <| (W51_of m ρ c main_arg3 (by decide)).trans <| (W50_of m ρ c main_arg3 (by decide)).trans <| (W49_of m ρ c main_arg3 (by decide)).trans <| (W48_of m ρ c main_arg3 (by decide)).trans <| (W47_of m ρ c main_arg3 (by decide)).trans <| (W46_of m ρ c main_arg3 (by decide)).trans <| (W45_of m ρ c main_arg3 (by decide)).trans <| (W44_of m ρ c main_arg3 (by decide)).trans <| (W43_of m ρ c main_arg3 (by decide)).trans <| (W42_of m ρ c main_arg3 (by decide)).trans <| (W41_of m ρ c main_arg3 (by decide)).trans <| (W40_of m ρ c main_arg3 (by decide)).trans <| (W39_of m ρ c main_arg3 (by decide)).trans <| (W38_of m ρ c main_arg3 (by decide)).trans <| (W37_of m ρ c main_arg3 (by decide)).trans <| (W36_of m ρ c main_arg3 (by decide)).trans <| (W35_of m ρ c main_arg3 (by decide)).trans <| (W34_of m ρ c main_arg3 (by decide)).trans <| (W33_of m ρ c main_arg3 (by decide)).trans <| (W32_of m ρ c main_arg3 (by decide)).trans <| (W31_of m ρ c main_arg3 (by decide)).trans <| (W30_of m ρ c main_arg3 (by decide)).trans <| (W29_of m ρ c main_arg3 (by decide)).trans <| (W28_of m ρ c main_arg3 (by decide)).trans <| (W27_of m ρ c main_arg3 (by decide)).trans <| (W26_of m ρ c main_arg3 (by decide)).trans <| (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem W84_main_arg4 (c : Dev nD) : W84 m ρ c (Proc.devRef .tc main_arg4) = m ((c : Thread nD τ).loc main_arg4) :=
  (W84_of m ρ c main_arg4 (by decide)).trans <| (W83_of m ρ c main_arg4 (by decide)).trans <| (W82_of m ρ c main_arg4 (by decide)).trans <| (W81_of m ρ c main_arg4 (by decide)).trans <| (W80_of m ρ c main_arg4 (by decide)).trans <| (W79_of m ρ c main_arg4 (by decide)).trans <| (W78_of m ρ c main_arg4 (by decide)).trans <| (W77_of m ρ c main_arg4 (by decide)).trans <| (W76_of m ρ c main_arg4 (by decide)).trans <| (W75_of m ρ c main_arg4 (by decide)).trans <| (W74_of m ρ c main_arg4 (by decide)).trans <| (W73_of m ρ c main_arg4 (by decide)).trans <| (W72_of m ρ c main_arg4 (by decide)).trans <| (W71_of m ρ c main_arg4 (by decide)).trans <| (W70_of m ρ c main_arg4 (by decide)).trans <| (W69_of m ρ c main_arg4 (by decide)).trans <| (W68_of m ρ c main_arg4 (by decide)).trans <| (W67_of m ρ c main_arg4 (by decide)).trans <| (W66_of m ρ c main_arg4 (by decide)).trans <| (W65_of m ρ c main_arg4 (by decide)).trans <| (W64_of m ρ c main_arg4 (by decide)).trans <| (W63_of m ρ c main_arg4 (by decide)).trans <| (W62_of m ρ c main_arg4 (by decide)).trans <| (W61_of m ρ c main_arg4 (by decide)).trans <| (W60_of m ρ c main_arg4 (by decide)).trans <| (W59_of m ρ c main_arg4 (by decide)).trans <| (W58_of m ρ c main_arg4 (by decide)).trans <| (W57_of m ρ c main_arg4 (by decide)).trans <| (W56_of m ρ c main_arg4 (by decide)).trans <| (W55_of m ρ c main_arg4 (by decide)).trans <| (W54_of m ρ c main_arg4 (by decide)).trans <| (W53_of m ρ c main_arg4 (by decide)).trans <| (W52_of m ρ c main_arg4 (by decide)).trans <| (W51_of m ρ c main_arg4 (by decide)).trans <| (W50_of m ρ c main_arg4 (by decide)).trans <| (W49_of m ρ c main_arg4 (by decide)).trans <| (W48_of m ρ c main_arg4 (by decide)).trans <| (W47_of m ρ c main_arg4 (by decide)).trans <| (W46_of m ρ c main_arg4 (by decide)).trans <| (W45_of m ρ c main_arg4 (by decide)).trans <| (W44_of m ρ c main_arg4 (by decide)).trans <| (W43_of m ρ c main_arg4 (by decide)).trans <| (W42_of m ρ c main_arg4 (by decide)).trans <| (W41_of m ρ c main_arg4 (by decide)).trans <| (W40_of m ρ c main_arg4 (by decide)).trans <| (W39_of m ρ c main_arg4 (by decide)).trans <| (W38_of m ρ c main_arg4 (by decide)).trans <| (W37_of m ρ c main_arg4 (by decide)).trans <| (W36_of m ρ c main_arg4 (by decide)).trans <| (W35_of m ρ c main_arg4 (by decide)).trans <| (W34_of m ρ c main_arg4 (by decide)).trans <| (W33_of m ρ c main_arg4 (by decide)).trans <| (W32_of m ρ c main_arg4 (by decide)).trans <| (W31_of m ρ c main_arg4 (by decide)).trans <| (W30_of m ρ c main_arg4 (by decide)).trans <| (W29_of m ρ c main_arg4 (by decide)).trans <| (W28_of m ρ c main_arg4 (by decide)).trans <| (W27_of m ρ c main_arg4 (by decide)).trans <| (W26_of m ρ c main_arg4 (by decide)).trans <| (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W84_main_arg5 (c : Dev nD) : W84 m ρ c (Proc.devRef .tc main_arg5) = m ((c : Thread nD τ).loc main_arg5) :=
  (W84_of m ρ c main_arg5 (by decide)).trans <| (W83_of m ρ c main_arg5 (by decide)).trans <| (W82_of m ρ c main_arg5 (by decide)).trans <| (W81_of m ρ c main_arg5 (by decide)).trans <| (W80_of m ρ c main_arg5 (by decide)).trans <| (W79_of m ρ c main_arg5 (by decide)).trans <| (W78_of m ρ c main_arg5 (by decide)).trans <| (W77_of m ρ c main_arg5 (by decide)).trans <| (W76_of m ρ c main_arg5 (by decide)).trans <| (W75_of m ρ c main_arg5 (by decide)).trans <| (W74_of m ρ c main_arg5 (by decide)).trans <| (W73_of m ρ c main_arg5 (by decide)).trans <| (W72_of m ρ c main_arg5 (by decide)).trans <| (W71_of m ρ c main_arg5 (by decide)).trans <| (W70_of m ρ c main_arg5 (by decide)).trans <| (W69_of m ρ c main_arg5 (by decide)).trans <| (W68_of m ρ c main_arg5 (by decide)).trans <| (W67_of m ρ c main_arg5 (by decide)).trans <| (W66_of m ρ c main_arg5 (by decide)).trans <| (W65_of m ρ c main_arg5 (by decide)).trans <| (W64_of m ρ c main_arg5 (by decide)).trans <| (W63_of m ρ c main_arg5 (by decide)).trans <| (W62_of m ρ c main_arg5 (by decide)).trans <| (W61_of m ρ c main_arg5 (by decide)).trans <| (W60_of m ρ c main_arg5 (by decide)).trans <| (W59_of m ρ c main_arg5 (by decide)).trans <| (W58_of m ρ c main_arg5 (by decide)).trans <| (W57_of m ρ c main_arg5 (by decide)).trans <| (W56_of m ρ c main_arg5 (by decide)).trans <| (W55_of m ρ c main_arg5 (by decide)).trans <| (W54_of m ρ c main_arg5 (by decide)).trans <| (W53_of m ρ c main_arg5 (by decide)).trans <| (W52_of m ρ c main_arg5 (by decide)).trans <| (W51_of m ρ c main_arg5 (by decide)).trans <| (W50_of m ρ c main_arg5 (by decide)).trans <| (W49_of m ρ c main_arg5 (by decide)).trans <| (W48_of m ρ c main_arg5 (by decide)).trans <| (W47_of m ρ c main_arg5 (by decide)).trans <| (W46_of m ρ c main_arg5 (by decide)).trans <| (W45_of m ρ c main_arg5 (by decide)).trans <| (W44_of m ρ c main_arg5 (by decide)).trans <| (W43_of m ρ c main_arg5 (by decide)).trans <| (W42_of m ρ c main_arg5 (by decide)).trans <| (W41_of m ρ c main_arg5 (by decide)).trans <| (W40_of m ρ c main_arg5 (by decide)).trans <| (W39_of m ρ c main_arg5 (by decide)).trans <| (W38_of m ρ c main_arg5 (by decide)).trans <| (W37_of m ρ c main_arg5 (by decide)).trans <| (W36_of m ρ c main_arg5 (by decide)).trans <| (W35_of m ρ c main_arg5 (by decide)).trans <| (W34_of m ρ c main_arg5 (by decide)).trans <| (W33_of m ρ c main_arg5 (by decide)).trans <| (W32_of m ρ c main_arg5 (by decide)).trans <| (W31_of m ρ c main_arg5 (by decide)).trans <| (W30_of m ρ c main_arg5 (by decide)).trans <| (W29_of m ρ c main_arg5 (by decide)).trans <| (W28_of m ρ c main_arg5 (by decide)).trans <| (W27_of m ρ c main_arg5 (by decide)).trans <| (W26_of m ρ c main_arg5 (by decide)).trans <| (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans rfl
theorem W84_main_arg6 (c : Dev nD) : W84 m ρ c (Proc.devRef .tc main_arg6) = m ((c : Thread nD τ).loc main_arg6) :=
  (W84_of m ρ c main_arg6 (by decide)).trans <| (W83_of m ρ c main_arg6 (by decide)).trans <| (W82_of m ρ c main_arg6 (by decide)).trans <| (W81_of m ρ c main_arg6 (by decide)).trans <| (W80_of m ρ c main_arg6 (by decide)).trans <| (W79_of m ρ c main_arg6 (by decide)).trans <| (W78_of m ρ c main_arg6 (by decide)).trans <| (W77_of m ρ c main_arg6 (by decide)).trans <| (W76_of m ρ c main_arg6 (by decide)).trans <| (W75_of m ρ c main_arg6 (by decide)).trans <| (W74_of m ρ c main_arg6 (by decide)).trans <| (W73_of m ρ c main_arg6 (by decide)).trans <| (W72_of m ρ c main_arg6 (by decide)).trans <| (W71_of m ρ c main_arg6 (by decide)).trans <| (W70_of m ρ c main_arg6 (by decide)).trans <| (W69_of m ρ c main_arg6 (by decide)).trans <| (W68_of m ρ c main_arg6 (by decide)).trans <| (W67_of m ρ c main_arg6 (by decide)).trans <| (W66_of m ρ c main_arg6 (by decide)).trans <| (W65_of m ρ c main_arg6 (by decide)).trans <| (W64_of m ρ c main_arg6 (by decide)).trans <| (W63_of m ρ c main_arg6 (by decide)).trans <| (W62_of m ρ c main_arg6 (by decide)).trans <| (W61_of m ρ c main_arg6 (by decide)).trans <| (W60_of m ρ c main_arg6 (by decide)).trans <| (W59_of m ρ c main_arg6 (by decide)).trans <| (W58_of m ρ c main_arg6 (by decide)).trans <| (W57_of m ρ c main_arg6 (by decide)).trans <| (W56_of m ρ c main_arg6 (by decide)).trans <| (W55_of m ρ c main_arg6 (by decide)).trans <| (W54_of m ρ c main_arg6 (by decide)).trans <| (W53_of m ρ c main_arg6 (by decide)).trans <| (W52_of m ρ c main_arg6 (by decide)).trans <| (W51_of m ρ c main_arg6 (by decide)).trans <| (W50_of m ρ c main_arg6 (by decide)).trans <| (W49_of m ρ c main_arg6 (by decide)).trans <| (W48_of m ρ c main_arg6 (by decide)).trans <| (W47_of m ρ c main_arg6 (by decide)).trans <| (W46_of m ρ c main_arg6 (by decide)).trans <| (W45_of m ρ c main_arg6 (by decide)).trans <| (W44_of m ρ c main_arg6 (by decide)).trans <| (W43_of m ρ c main_arg6 (by decide)).trans <| (W42_of m ρ c main_arg6 (by decide)).trans <| (W41_of m ρ c main_arg6 (by decide)).trans <| (W40_of m ρ c main_arg6 (by decide)).trans <| (W39_of m ρ c main_arg6 (by decide)).trans <| (W38_of m ρ c main_arg6 (by decide)).trans <| (W37_of m ρ c main_arg6 (by decide)).trans <| (W36_of m ρ c main_arg6 (by decide)).trans <| (W35_of m ρ c main_arg6 (by decide)).trans <| (W34_of m ρ c main_arg6 (by decide)).trans <| (W33_of m ρ c main_arg6 (by decide)).trans <| (W32_of m ρ c main_arg6 (by decide)).trans <| (W31_of m ρ c main_arg6 (by decide)).trans <| (W30_of m ρ c main_arg6 (by decide)).trans <| (W29_of m ρ c main_arg6 (by decide)).trans <| (W28_of m ρ c main_arg6 (by decide)).trans <| (W27_of m ρ c main_arg6 (by decide)).trans <| (W26_of m ρ c main_arg6 (by decide)).trans <| (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans rfl
theorem W84_main_arg7 (c : Dev nD) : W84 m ρ c (Proc.devRef .tc main_arg7) = m ((c : Thread nD τ).loc main_arg7) :=
  (W84_of m ρ c main_arg7 (by decide)).trans <| (W83_of m ρ c main_arg7 (by decide)).trans <| (W82_of m ρ c main_arg7 (by decide)).trans <| (W81_of m ρ c main_arg7 (by decide)).trans <| (W80_of m ρ c main_arg7 (by decide)).trans <| (W79_of m ρ c main_arg7 (by decide)).trans <| (W78_of m ρ c main_arg7 (by decide)).trans <| (W77_of m ρ c main_arg7 (by decide)).trans <| (W76_of m ρ c main_arg7 (by decide)).trans <| (W75_of m ρ c main_arg7 (by decide)).trans <| (W74_of m ρ c main_arg7 (by decide)).trans <| (W73_of m ρ c main_arg7 (by decide)).trans <| (W72_of m ρ c main_arg7 (by decide)).trans <| (W71_of m ρ c main_arg7 (by decide)).trans <| (W70_of m ρ c main_arg7 (by decide)).trans <| (W69_of m ρ c main_arg7 (by decide)).trans <| (W68_of m ρ c main_arg7 (by decide)).trans <| (W67_of m ρ c main_arg7 (by decide)).trans <| (W66_of m ρ c main_arg7 (by decide)).trans <| (W65_of m ρ c main_arg7 (by decide)).trans <| (W64_of m ρ c main_arg7 (by decide)).trans <| (W63_of m ρ c main_arg7 (by decide)).trans <| (W62_of m ρ c main_arg7 (by decide)).trans <| (W61_of m ρ c main_arg7 (by decide)).trans <| (W60_of m ρ c main_arg7 (by decide)).trans <| (W59_of m ρ c main_arg7 (by decide)).trans <| (W58_of m ρ c main_arg7 (by decide)).trans <| (W57_of m ρ c main_arg7 (by decide)).trans <| (W56_of m ρ c main_arg7 (by decide)).trans <| (W55_of m ρ c main_arg7 (by decide)).trans <| (W54_of m ρ c main_arg7 (by decide)).trans <| (W53_of m ρ c main_arg7 (by decide)).trans <| (W52_of m ρ c main_arg7 (by decide)).trans <| (W51_of m ρ c main_arg7 (by decide)).trans <| (W50_of m ρ c main_arg7 (by decide)).trans <| (W49_of m ρ c main_arg7 (by decide)).trans <| (W48_of m ρ c main_arg7 (by decide)).trans <| (W47_of m ρ c main_arg7 (by decide)).trans <| (W46_of m ρ c main_arg7 (by decide)).trans <| (W45_of m ρ c main_arg7 (by decide)).trans <| (W44_of m ρ c main_arg7 (by decide)).trans <| (W43_of m ρ c main_arg7 (by decide)).trans <| (W42_of m ρ c main_arg7 (by decide)).trans <| (W41_of m ρ c main_arg7 (by decide)).trans <| (W40_of m ρ c main_arg7 (by decide)).trans <| (W39_of m ρ c main_arg7 (by decide)).trans <| (W38_of m ρ c main_arg7 (by decide)).trans <| (W37_of m ρ c main_arg7 (by decide)).trans <| (W36_of m ρ c main_arg7 (by decide)).trans <| (W35_of m ρ c main_arg7 (by decide)).trans <| (W34_of m ρ c main_arg7 (by decide)).trans <| (W33_of m ρ c main_arg7 (by decide)).trans <| (W32_of m ρ c main_arg7 (by decide)).trans <| (W31_of m ρ c main_arg7 (by decide)).trans <| (W30_of m ρ c main_arg7 (by decide)).trans <| (W29_of m ρ c main_arg7 (by decide)).trans <| (W28_of m ρ c main_arg7 (by decide)).trans <| (W27_of m ρ c main_arg7 (by decide)).trans <| (W26_of m ρ c main_arg7 (by decide)).trans <| (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans rfl
theorem W84_main_arg8 (c : Dev nD) : W84 m ρ c (Proc.devRef .tc main_arg8) = m ((c : Thread nD τ).loc main_arg8) :=
  (W84_of m ρ c main_arg8 (by decide)).trans <| (W83_of m ρ c main_arg8 (by decide)).trans <| (W82_of m ρ c main_arg8 (by decide)).trans <| (W81_of m ρ c main_arg8 (by decide)).trans <| (W80_of m ρ c main_arg8 (by decide)).trans <| (W79_of m ρ c main_arg8 (by decide)).trans <| (W78_of m ρ c main_arg8 (by decide)).trans <| (W77_of m ρ c main_arg8 (by decide)).trans <| (W76_of m ρ c main_arg8 (by decide)).trans <| (W75_of m ρ c main_arg8 (by decide)).trans <| (W74_of m ρ c main_arg8 (by decide)).trans <| (W73_of m ρ c main_arg8 (by decide)).trans <| (W72_of m ρ c main_arg8 (by decide)).trans <| (W71_of m ρ c main_arg8 (by decide)).trans <| (W70_of m ρ c main_arg8 (by decide)).trans <| (W69_of m ρ c main_arg8 (by decide)).trans <| (W68_of m ρ c main_arg8 (by decide)).trans <| (W67_of m ρ c main_arg8 (by decide)).trans <| (W66_of m ρ c main_arg8 (by decide)).trans <| (W65_of m ρ c main_arg8 (by decide)).trans <| (W64_of m ρ c main_arg8 (by decide)).trans <| (W63_of m ρ c main_arg8 (by decide)).trans <| (W62_of m ρ c main_arg8 (by decide)).trans <| (W61_of m ρ c main_arg8 (by decide)).trans <| (W60_of m ρ c main_arg8 (by decide)).trans <| (W59_of m ρ c main_arg8 (by decide)).trans <| (W58_of m ρ c main_arg8 (by decide)).trans <| (W57_of m ρ c main_arg8 (by decide)).trans <| (W56_of m ρ c main_arg8 (by decide)).trans <| (W55_of m ρ c main_arg8 (by decide)).trans <| (W54_of m ρ c main_arg8 (by decide)).trans <| (W53_of m ρ c main_arg8 (by decide)).trans <| (W52_of m ρ c main_arg8 (by decide)).trans <| (W51_of m ρ c main_arg8 (by decide)).trans <| (W50_of m ρ c main_arg8 (by decide)).trans <| (W49_of m ρ c main_arg8 (by decide)).trans <| (W48_of m ρ c main_arg8 (by decide)).trans <| (W47_of m ρ c main_arg8 (by decide)).trans <| (W46_of m ρ c main_arg8 (by decide)).trans <| (W45_of m ρ c main_arg8 (by decide)).trans <| (W44_of m ρ c main_arg8 (by decide)).trans <| (W43_of m ρ c main_arg8 (by decide)).trans <| (W42_of m ρ c main_arg8 (by decide)).trans <| (W41_of m ρ c main_arg8 (by decide)).trans <| (W40_of m ρ c main_arg8 (by decide)).trans <| (W39_of m ρ c main_arg8 (by decide)).trans <| (W38_of m ρ c main_arg8 (by decide)).trans <| (W37_of m ρ c main_arg8 (by decide)).trans <| (W36_of m ρ c main_arg8 (by decide)).trans <| (W35_of m ρ c main_arg8 (by decide)).trans <| (W34_of m ρ c main_arg8 (by decide)).trans <| (W33_of m ρ c main_arg8 (by decide)).trans <| (W32_of m ρ c main_arg8 (by decide)).trans <| (W31_of m ρ c main_arg8 (by decide)).trans <| (W30_of m ρ c main_arg8 (by decide)).trans <| (W29_of m ρ c main_arg8 (by decide)).trans <| (W28_of m ρ c main_arg8 (by decide)).trans <| (W27_of m ρ c main_arg8 (by decide)).trans <| (W26_of m ρ c main_arg8 (by decide)).trans <| (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans rfl
theorem W84_main_arg9 (c : Dev nD) : W84 m ρ c (Proc.devRef .tc main_arg9) = m ((c : Thread nD τ).loc main_arg9) :=
  (W84_of m ρ c main_arg9 (by decide)).trans <| (W83_of m ρ c main_arg9 (by decide)).trans <| (W82_of m ρ c main_arg9 (by decide)).trans <| (W81_of m ρ c main_arg9 (by decide)).trans <| (W80_of m ρ c main_arg9 (by decide)).trans <| (W79_of m ρ c main_arg9 (by decide)).trans <| (W78_of m ρ c main_arg9 (by decide)).trans <| (W77_of m ρ c main_arg9 (by decide)).trans <| (W76_of m ρ c main_arg9 (by decide)).trans <| (W75_of m ρ c main_arg9 (by decide)).trans <| (W74_of m ρ c main_arg9 (by decide)).trans <| (W73_of m ρ c main_arg9 (by decide)).trans <| (W72_of m ρ c main_arg9 (by decide)).trans <| (W71_of m ρ c main_arg9 (by decide)).trans <| (W70_of m ρ c main_arg9 (by decide)).trans <| (W69_of m ρ c main_arg9 (by decide)).trans <| (W68_of m ρ c main_arg9 (by decide)).trans <| (W67_of m ρ c main_arg9 (by decide)).trans <| (W66_of m ρ c main_arg9 (by decide)).trans <| (W65_of m ρ c main_arg9 (by decide)).trans <| (W64_of m ρ c main_arg9 (by decide)).trans <| (W63_of m ρ c main_arg9 (by decide)).trans <| (W62_of m ρ c main_arg9 (by decide)).trans <| (W61_of m ρ c main_arg9 (by decide)).trans <| (W60_of m ρ c main_arg9 (by decide)).trans <| (W59_of m ρ c main_arg9 (by decide)).trans <| (W58_of m ρ c main_arg9 (by decide)).trans <| (W57_of m ρ c main_arg9 (by decide)).trans <| (W56_of m ρ c main_arg9 (by decide)).trans <| (W55_of m ρ c main_arg9 (by decide)).trans <| (W54_of m ρ c main_arg9 (by decide)).trans <| (W53_of m ρ c main_arg9 (by decide)).trans <| (W52_of m ρ c main_arg9 (by decide)).trans <| (W51_of m ρ c main_arg9 (by decide)).trans <| (W50_of m ρ c main_arg9 (by decide)).trans <| (W49_of m ρ c main_arg9 (by decide)).trans <| (W48_of m ρ c main_arg9 (by decide)).trans <| (W47_of m ρ c main_arg9 (by decide)).trans <| (W46_of m ρ c main_arg9 (by decide)).trans <| (W45_of m ρ c main_arg9 (by decide)).trans <| (W44_of m ρ c main_arg9 (by decide)).trans <| (W43_of m ρ c main_arg9 (by decide)).trans <| (W42_of m ρ c main_arg9 (by decide)).trans <| (W41_of m ρ c main_arg9 (by decide)).trans <| (W40_of m ρ c main_arg9 (by decide)).trans <| (W39_of m ρ c main_arg9 (by decide)).trans <| (W38_of m ρ c main_arg9 (by decide)).trans <| (W37_of m ρ c main_arg9 (by decide)).trans <| (W36_of m ρ c main_arg9 (by decide)).trans <| (W35_of m ρ c main_arg9 (by decide)).trans <| (W34_of m ρ c main_arg9 (by decide)).trans <| (W33_of m ρ c main_arg9 (by decide)).trans <| (W32_of m ρ c main_arg9 (by decide)).trans <| (W31_of m ρ c main_arg9 (by decide)).trans <| (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem W84_main_arg10 (c : Dev nD) : W84 m ρ c (Proc.devRef .tc main_arg10) = m ((c : Thread nD τ).loc main_arg10) :=
  (W84_of m ρ c main_arg10 (by decide)).trans <| (W83_of m ρ c main_arg10 (by decide)).trans <| (W82_of m ρ c main_arg10 (by decide)).trans <| (W81_of m ρ c main_arg10 (by decide)).trans <| (W80_of m ρ c main_arg10 (by decide)).trans <| (W79_of m ρ c main_arg10 (by decide)).trans <| (W78_of m ρ c main_arg10 (by decide)).trans <| (W77_of m ρ c main_arg10 (by decide)).trans <| (W76_of m ρ c main_arg10 (by decide)).trans <| (W75_of m ρ c main_arg10 (by decide)).trans <| (W74_of m ρ c main_arg10 (by decide)).trans <| (W73_of m ρ c main_arg10 (by decide)).trans <| (W72_of m ρ c main_arg10 (by decide)).trans <| (W71_of m ρ c main_arg10 (by decide)).trans <| (W70_of m ρ c main_arg10 (by decide)).trans <| (W69_of m ρ c main_arg10 (by decide)).trans <| (W68_of m ρ c main_arg10 (by decide)).trans <| (W67_of m ρ c main_arg10 (by decide)).trans <| (W66_of m ρ c main_arg10 (by decide)).trans <| (W65_of m ρ c main_arg10 (by decide)).trans <| (W64_of m ρ c main_arg10 (by decide)).trans <| (W63_of m ρ c main_arg10 (by decide)).trans <| (W62_of m ρ c main_arg10 (by decide)).trans <| (W61_of m ρ c main_arg10 (by decide)).trans <| (W60_of m ρ c main_arg10 (by decide)).trans <| (W59_of m ρ c main_arg10 (by decide)).trans <| (W58_of m ρ c main_arg10 (by decide)).trans <| (W57_of m ρ c main_arg10 (by decide)).trans <| (W56_of m ρ c main_arg10 (by decide)).trans <| (W55_of m ρ c main_arg10 (by decide)).trans <| (W54_of m ρ c main_arg10 (by decide)).trans <| (W53_of m ρ c main_arg10 (by decide)).trans <| (W52_of m ρ c main_arg10 (by decide)).trans <| (W51_of m ρ c main_arg10 (by decide)).trans <| (W50_of m ρ c main_arg10 (by decide)).trans <| (W49_of m ρ c main_arg10 (by decide)).trans <| (W48_of m ρ c main_arg10 (by decide)).trans <| (W47_of m ρ c main_arg10 (by decide)).trans <| (W46_of m ρ c main_arg10 (by decide)).trans <| (W45_of m ρ c main_arg10 (by decide)).trans <| (W44_of m ρ c main_arg10 (by decide)).trans <| (W43_of m ρ c main_arg10 (by decide)).trans <| (W42_of m ρ c main_arg10 (by decide)).trans <| (W41_of m ρ c main_arg10 (by decide)).trans <| (W40_of m ρ c main_arg10 (by decide)).trans <| (W39_of m ρ c main_arg10 (by decide)).trans <| (W38_of m ρ c main_arg10 (by decide)).trans <| (W37_of m ρ c main_arg10 (by decide)).trans <| (W36_of m ρ c main_arg10 (by decide)).trans <| (W35_of m ρ c main_arg10 (by decide)).trans <| (W34_of m ρ c main_arg10 (by decide)).trans <| (W33_of m ρ c main_arg10 (by decide)).trans <| (W32_of m ρ c main_arg10 (by decide)).trans <| (W31_of m ρ c main_arg10 (by decide)).trans <| (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem W84_main_arg11 (c : Dev nD) : W84 m ρ c (Proc.devRef .tc main_arg11) = m ((c : Thread nD τ).loc main_arg11) :=
  (W84_of m ρ c main_arg11 (by decide)).trans <| (W83_of m ρ c main_arg11 (by decide)).trans <| (W82_of m ρ c main_arg11 (by decide)).trans <| (W81_of m ρ c main_arg11 (by decide)).trans <| (W80_of m ρ c main_arg11 (by decide)).trans <| (W79_of m ρ c main_arg11 (by decide)).trans <| (W78_of m ρ c main_arg11 (by decide)).trans <| (W77_of m ρ c main_arg11 (by decide)).trans <| (W76_of m ρ c main_arg11 (by decide)).trans <| (W75_of m ρ c main_arg11 (by decide)).trans <| (W74_of m ρ c main_arg11 (by decide)).trans <| (W73_of m ρ c main_arg11 (by decide)).trans <| (W72_of m ρ c main_arg11 (by decide)).trans <| (W71_of m ρ c main_arg11 (by decide)).trans <| (W70_of m ρ c main_arg11 (by decide)).trans <| (W69_of m ρ c main_arg11 (by decide)).trans <| (W68_of m ρ c main_arg11 (by decide)).trans <| (W67_of m ρ c main_arg11 (by decide)).trans <| (W66_of m ρ c main_arg11 (by decide)).trans <| (W65_of m ρ c main_arg11 (by decide)).trans <| (W64_of m ρ c main_arg11 (by decide)).trans <| (W63_of m ρ c main_arg11 (by decide)).trans <| (W62_of m ρ c main_arg11 (by decide)).trans <| (W61_of m ρ c main_arg11 (by decide)).trans <| (W60_of m ρ c main_arg11 (by decide)).trans <| (W59_of m ρ c main_arg11 (by decide)).trans <| (W58_of m ρ c main_arg11 (by decide)).trans <| (W57_of m ρ c main_arg11 (by decide)).trans <| (W56_of m ρ c main_arg11 (by decide)).trans <| (W55_of m ρ c main_arg11 (by decide)).trans <| (W54_of m ρ c main_arg11 (by decide)).trans <| (W53_of m ρ c main_arg11 (by decide)).trans <| (W52_of m ρ c main_arg11 (by decide)).trans <| (W51_of m ρ c main_arg11 (by decide)).trans <| (W50_of m ρ c main_arg11 (by decide)).trans <| (W49_of m ρ c main_arg11 (by decide)).trans <| (W48_of m ρ c main_arg11 (by decide)).trans <| (W47_of m ρ c main_arg11 (by decide)).trans <| (W46_of m ρ c main_arg11 (by decide)).trans <| (W45_of m ρ c main_arg11 (by decide)).trans <| (W44_of m ρ c main_arg11 (by decide)).trans <| (W43_of m ρ c main_arg11 (by decide)).trans <| (W42_of m ρ c main_arg11 (by decide)).trans <| (W41_of m ρ c main_arg11 (by decide)).trans <| (W40_of m ρ c main_arg11 (by decide)).trans <| (W39_of m ρ c main_arg11 (by decide)).trans <| (W38_of m ρ c main_arg11 (by decide)).trans <| (W37_of m ρ c main_arg11 (by decide)).trans <| (W36_of m ρ c main_arg11 (by decide)).trans <| (W35_of m ρ c main_arg11 (by decide)).trans <| (W34_of m ρ c main_arg11 (by decide)).trans <| (W33_of m ρ c main_arg11 (by decide)).trans <| (W32_of m ρ c main_arg11 (by decide)).trans <| (W31_of m ρ c main_arg11 (by decide)).trans <| (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem W84_main_arg12 (c : Dev nD) : W84 m ρ c (Proc.devRef .tc main_arg12) = m ((c : Thread nD τ).loc main_arg12) :=
  (W84_of m ρ c main_arg12 (by decide)).trans <| (W83_of m ρ c main_arg12 (by decide)).trans <| (W82_of m ρ c main_arg12 (by decide)).trans <| (W81_of m ρ c main_arg12 (by decide)).trans <| (W80_of m ρ c main_arg12 (by decide)).trans <| (W79_of m ρ c main_arg12 (by decide)).trans <| (W78_of m ρ c main_arg12 (by decide)).trans <| (W77_of m ρ c main_arg12 (by decide)).trans <| (W76_of m ρ c main_arg12 (by decide)).trans <| (W75_of m ρ c main_arg12 (by decide)).trans <| (W74_of m ρ c main_arg12 (by decide)).trans <| (W73_of m ρ c main_arg12 (by decide)).trans <| (W72_of m ρ c main_arg12 (by decide)).trans <| (W71_of m ρ c main_arg12 (by decide)).trans <| (W70_of m ρ c main_arg12 (by decide)).trans <| (W69_of m ρ c main_arg12 (by decide)).trans <| (W68_of m ρ c main_arg12 (by decide)).trans <| (W67_of m ρ c main_arg12 (by decide)).trans <| (W66_of m ρ c main_arg12 (by decide)).trans <| (W65_of m ρ c main_arg12 (by decide)).trans <| (W64_of m ρ c main_arg12 (by decide)).trans <| (W63_of m ρ c main_arg12 (by decide)).trans <| (W62_of m ρ c main_arg12 (by decide)).trans <| (W61_of m ρ c main_arg12 (by decide)).trans <| (W60_of m ρ c main_arg12 (by decide)).trans <| (W59_of m ρ c main_arg12 (by decide)).trans <| (W58_of m ρ c main_arg12 (by decide)).trans <| (W57_of m ρ c main_arg12 (by decide)).trans <| (W56_of m ρ c main_arg12 (by decide)).trans <| (W55_of m ρ c main_arg12 (by decide)).trans <| (W54_of m ρ c main_arg12 (by decide)).trans <| (W53_of m ρ c main_arg12 (by decide)).trans <| (W52_of m ρ c main_arg12 (by decide)).trans <| (W51_of m ρ c main_arg12 (by decide)).trans <| (W50_of m ρ c main_arg12 (by decide)).trans <| (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem W84_main_arg13 (c : Dev nD) : W84 m ρ c (Proc.devRef .tc main_arg13) = m ((c : Thread nD τ).loc main_arg13) :=
  (W84_of m ρ c main_arg13 (by decide)).trans <| (W83_of m ρ c main_arg13 (by decide)).trans <| (W82_of m ρ c main_arg13 (by decide)).trans <| (W81_of m ρ c main_arg13 (by decide)).trans <| (W80_of m ρ c main_arg13 (by decide)).trans <| (W79_of m ρ c main_arg13 (by decide)).trans <| (W78_of m ρ c main_arg13 (by decide)).trans <| (W77_of m ρ c main_arg13 (by decide)).trans <| (W76_of m ρ c main_arg13 (by decide)).trans <| (W75_of m ρ c main_arg13 (by decide)).trans <| (W74_of m ρ c main_arg13 (by decide)).trans <| (W73_of m ρ c main_arg13 (by decide)).trans <| (W72_of m ρ c main_arg13 (by decide)).trans <| (W71_of m ρ c main_arg13 (by decide)).trans <| (W70_of m ρ c main_arg13 (by decide)).trans <| (W69_of m ρ c main_arg13 (by decide)).trans <| (W68_of m ρ c main_arg13 (by decide)).trans <| (W67_of m ρ c main_arg13 (by decide)).trans <| (W66_of m ρ c main_arg13 (by decide)).trans <| (W65_of m ρ c main_arg13 (by decide)).trans <| (W64_of m ρ c main_arg13 (by decide)).trans <| (W63_of m ρ c main_arg13 (by decide)).trans <| (W62_of m ρ c main_arg13 (by decide)).trans <| (W61_of m ρ c main_arg13 (by decide)).trans <| (W60_of m ρ c main_arg13 (by decide)).trans <| (W59_of m ρ c main_arg13 (by decide)).trans <| (W58_of m ρ c main_arg13 (by decide)).trans <| (W57_of m ρ c main_arg13 (by decide)).trans <| (W56_of m ρ c main_arg13 (by decide)).trans <| (W55_of m ρ c main_arg13 (by decide)).trans <| (W54_of m ρ c main_arg13 (by decide)).trans <| (W53_of m ρ c main_arg13 (by decide)).trans <| (W52_of m ρ c main_arg13 (by decide)).trans <| (W51_of m ρ c main_arg13 (by decide)).trans <| (W50_of m ρ c main_arg13 (by decide)).trans <| (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem W84_main_arg14 (c : Dev nD) : W84 m ρ c (Proc.devRef .tc main_arg14) = m ((c : Thread nD τ).loc main_arg14) :=
  (W84_of m ρ c main_arg14 (by decide)).trans <| (W83_of m ρ c main_arg14 (by decide)).trans <| (W82_of m ρ c main_arg14 (by decide)).trans <| (W81_of m ρ c main_arg14 (by decide)).trans <| (W80_of m ρ c main_arg14 (by decide)).trans <| (W79_of m ρ c main_arg14 (by decide)).trans <| (W78_of m ρ c main_arg14 (by decide)).trans <| (W77_of m ρ c main_arg14 (by decide)).trans <| (W76_of m ρ c main_arg14 (by decide)).trans <| (W75_of m ρ c main_arg14 (by decide)).trans <| (W74_of m ρ c main_arg14 (by decide)).trans <| (W73_of m ρ c main_arg14 (by decide)).trans <| (W72_of m ρ c main_arg14 (by decide)).trans <| (W71_of m ρ c main_arg14 (by decide)).trans <| (W70_of m ρ c main_arg14 (by decide)).trans <| (W69_of m ρ c main_arg14 (by decide)).trans <| (W68_of m ρ c main_arg14 (by decide)).trans <| (W67_of m ρ c main_arg14 (by decide)).trans <| (W66_of m ρ c main_arg14 (by decide)).trans <| (W65_of m ρ c main_arg14 (by decide)).trans <| (W64_of m ρ c main_arg14 (by decide)).trans <| (W63_of m ρ c main_arg14 (by decide)).trans <| (W62_of m ρ c main_arg14 (by decide)).trans <| (W61_of m ρ c main_arg14 (by decide)).trans <| (W60_of m ρ c main_arg14 (by decide)).trans <| (W59_of m ρ c main_arg14 (by decide)).trans <| (W58_of m ρ c main_arg14 (by decide)).trans <| (W57_of m ρ c main_arg14 (by decide)).trans <| (W56_of m ρ c main_arg14 (by decide)).trans <| (W55_of m ρ c main_arg14 (by decide)).trans <| (W54_of m ρ c main_arg14 (by decide)).trans <| (W53_of m ρ c main_arg14 (by decide)).trans <| (W52_of m ρ c main_arg14 (by decide)).trans <| (W51_of m ρ c main_arg14 (by decide)).trans <| (W50_of m ρ c main_arg14 (by decide)).trans <| (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem W84_main_arg15 (c : Dev nD) : W84 m ρ c (Proc.devRef .tc main_arg15) = m ((c : Thread nD τ).loc main_arg15) :=
  (W84_of m ρ c main_arg15 (by decide)).trans <| (W83_of m ρ c main_arg15 (by decide)).trans <| (W82_of m ρ c main_arg15 (by decide)).trans <| (W81_of m ρ c main_arg15 (by decide)).trans <| (W80_of m ρ c main_arg15 (by decide)).trans <| (W79_of m ρ c main_arg15 (by decide)).trans <| (W78_of m ρ c main_arg15 (by decide)).trans <| (W77_of m ρ c main_arg15 (by decide)).trans <| (W76_of m ρ c main_arg15 (by decide)).trans <| (W75_of m ρ c main_arg15 (by decide)).trans <| (W74_of m ρ c main_arg15 (by decide)).trans <| (W73_of m ρ c main_arg15 (by decide)).trans <| (W72_of m ρ c main_arg15 (by decide)).trans <| (W71_of m ρ c main_arg15 (by decide)).trans <| (W70_of m ρ c main_arg15 (by decide)).trans <| (W69_of m ρ c main_arg15 (by decide)).trans <| (W68_of m ρ c main_arg15 (by decide)).trans <| (W67_of m ρ c main_arg15 (by decide)).trans <| (W66_of m ρ c main_arg15 (by decide)).trans <| (W65_of m ρ c main_arg15 (by decide)).trans <| (W64_of m ρ c main_arg15 (by decide)).trans <| (W63_of m ρ c main_arg15 (by decide)).trans <| (W62_of m ρ c main_arg15 (by decide)).trans <| (W61_of m ρ c main_arg15 (by decide)).trans <| (W60_of m ρ c main_arg15 (by decide)).trans <| (W59_of m ρ c main_arg15 (by decide)).trans <| (W58_of m ρ c main_arg15 (by decide)).trans <| (W57_of m ρ c main_arg15 (by decide)).trans <| (W56_of m ρ c main_arg15 (by decide)).trans <| (W55_of m ρ c main_arg15 (by decide)).trans <| (W54_of m ρ c main_arg15 (by decide)).trans <| (W53_of m ρ c main_arg15 (by decide)).trans <| (W52_of m ρ c main_arg15 (by decide)).trans <| (W51_of m ρ c main_arg15 (by decide)).trans <| (W50_of m ρ c main_arg15 (by decide)).trans <| (W49_of m ρ c main_arg15 (by decide)).trans <| (W48_of m ρ c main_arg15 (by decide)).trans <| (W47_of m ρ c main_arg15 (by decide)).trans <| (W46_of m ρ c main_arg15 (by decide)).trans <| (W45_of m ρ c main_arg15 (by decide)).trans <| (W44_of m ρ c main_arg15 (by decide)).trans <| (W43_of m ρ c main_arg15 (by decide)).trans <| (W42_of m ρ c main_arg15 (by decide)).trans <| (W41_of m ρ c main_arg15 (by decide)).trans <| (W40_of m ρ c main_arg15 (by decide)).trans <| (W39_of m ρ c main_arg15 (by decide)).trans <| (W38_of m ρ c main_arg15 (by decide)).trans <| (W37_of m ρ c main_arg15 (by decide)).trans <| (W36_of m ρ c main_arg15 (by decide)).trans <| (W35_of m ρ c main_arg15 (by decide)).trans <| (W34_of m ρ c main_arg15 (by decide)).trans <| (W33_of m ρ c main_arg15 (by decide)).trans <| (W32_of m ρ c main_arg15 (by decide)).trans <| (W31_of m ρ c main_arg15 (by decide)).trans <| (W30_of m ρ c main_arg15 (by decide)).trans <| (W29_of m ρ c main_arg15 (by decide)).trans <| (W28_of m ρ c main_arg15 (by decide)).trans <| (W27_of m ρ c main_arg15 (by decide)).trans <| (W26_of m ρ c main_arg15 (by decide)).trans <| (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans rfl
theorem W84_main_arg16 (c : Dev nD) : W84 m ρ c (Proc.devRef .tc main_arg16) = m ((c : Thread nD τ).loc main_arg16) :=
  (W84_of m ρ c main_arg16 (by decide)).trans <| (W83_of m ρ c main_arg16 (by decide)).trans <| (W82_of m ρ c main_arg16 (by decide)).trans <| (W81_of m ρ c main_arg16 (by decide)).trans <| (W80_of m ρ c main_arg16 (by decide)).trans <| (W79_of m ρ c main_arg16 (by decide)).trans <| (W78_of m ρ c main_arg16 (by decide)).trans <| (W77_of m ρ c main_arg16 (by decide)).trans <| (W76_of m ρ c main_arg16 (by decide)).trans <| (W75_of m ρ c main_arg16 (by decide)).trans <| (W74_of m ρ c main_arg16 (by decide)).trans <| (W73_of m ρ c main_arg16 (by decide)).trans <| (W72_of m ρ c main_arg16 (by decide)).trans <| (W71_of m ρ c main_arg16 (by decide)).trans <| (W70_of m ρ c main_arg16 (by decide)).trans <| (W69_of m ρ c main_arg16 (by decide)).trans <| (W68_of m ρ c main_arg16 (by decide)).trans <| (W67_of m ρ c main_arg16 (by decide)).trans <| (W66_of m ρ c main_arg16 (by decide)).trans <| (W65_of m ρ c main_arg16 (by decide)).trans <| (W64_of m ρ c main_arg16 (by decide)).trans <| (W63_of m ρ c main_arg16 (by decide)).trans <| (W62_of m ρ c main_arg16 (by decide)).trans <| (W61_of m ρ c main_arg16 (by decide)).trans <| (W60_of m ρ c main_arg16 (by decide)).trans <| (W59_of m ρ c main_arg16 (by decide)).trans <| (W58_of m ρ c main_arg16 (by decide)).trans <| (W57_of m ρ c main_arg16 (by decide)).trans <| (W56_of m ρ c main_arg16 (by decide)).trans <| (W55_of m ρ c main_arg16 (by decide)).trans <| (W54_of m ρ c main_arg16 (by decide)).trans <| (W53_of m ρ c main_arg16 (by decide)).trans <| (W52_of m ρ c main_arg16 (by decide)).trans <| (W51_of m ρ c main_arg16 (by decide)).trans <| (W50_of m ρ c main_arg16 (by decide)).trans <| (W49_of m ρ c main_arg16 (by decide)).trans <| (W48_of m ρ c main_arg16 (by decide)).trans <| (W47_of m ρ c main_arg16 (by decide)).trans <| (W46_of m ρ c main_arg16 (by decide)).trans <| (W45_of m ρ c main_arg16 (by decide)).trans <| (W44_of m ρ c main_arg16 (by decide)).trans <| (W43_of m ρ c main_arg16 (by decide)).trans <| (W42_of m ρ c main_arg16 (by decide)).trans <| (W41_of m ρ c main_arg16 (by decide)).trans <| (W40_of m ρ c main_arg16 (by decide)).trans <| (W39_of m ρ c main_arg16 (by decide)).trans <| (W38_of m ρ c main_arg16 (by decide)).trans <| (W37_of m ρ c main_arg16 (by decide)).trans <| (W36_of m ρ c main_arg16 (by decide)).trans <| (W35_of m ρ c main_arg16 (by decide)).trans <| (W34_of m ρ c main_arg16 (by decide)).trans <| (W33_of m ρ c main_arg16 (by decide)).trans <| (W32_of m ρ c main_arg16 (by decide)).trans <| (W31_of m ρ c main_arg16 (by decide)).trans <| (W30_of m ρ c main_arg16 (by decide)).trans <| (W29_of m ρ c main_arg16 (by decide)).trans <| (W28_of m ρ c main_arg16 (by decide)).trans <| (W27_of m ρ c main_arg16 (by decide)).trans <| (W26_of m ρ c main_arg16 (by decide)).trans <| (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans rfl
theorem W84_main_arg17 (c : Dev nD) : W84 m ρ c (Proc.devRef .tc main_arg17) = m ((c : Thread nD τ).loc main_arg17) :=
  (W84_of m ρ c main_arg17 (by decide)).trans <| (W83_of m ρ c main_arg17 (by decide)).trans <| (W82_of m ρ c main_arg17 (by decide)).trans <| (W81_of m ρ c main_arg17 (by decide)).trans <| (W80_of m ρ c main_arg17 (by decide)).trans <| (W79_of m ρ c main_arg17 (by decide)).trans <| (W78_of m ρ c main_arg17 (by decide)).trans <| (W77_of m ρ c main_arg17 (by decide)).trans <| (W76_of m ρ c main_arg17 (by decide)).trans <| (W75_of m ρ c main_arg17 (by decide)).trans <| (W74_of m ρ c main_arg17 (by decide)).trans <| (W73_of m ρ c main_arg17 (by decide)).trans <| (W72_of m ρ c main_arg17 (by decide)).trans <| (W71_of m ρ c main_arg17 (by decide)).trans <| (W70_of m ρ c main_arg17 (by decide)).trans <| (W69_of m ρ c main_arg17 (by decide)).trans <| (W68_of m ρ c main_arg17 (by decide)).trans <| (W67_of m ρ c main_arg17 (by decide)).trans <| (W66_of m ρ c main_arg17 (by decide)).trans <| (W65_of m ρ c main_arg17 (by decide)).trans <| (W64_of m ρ c main_arg17 (by decide)).trans <| (W63_of m ρ c main_arg17 (by decide)).trans <| (W62_of m ρ c main_arg17 (by decide)).trans <| (W61_of m ρ c main_arg17 (by decide)).trans <| (W60_of m ρ c main_arg17 (by decide)).trans <| (W59_of m ρ c main_arg17 (by decide)).trans <| (W58_of m ρ c main_arg17 (by decide)).trans <| (W57_of m ρ c main_arg17 (by decide)).trans <| (W56_of m ρ c main_arg17 (by decide)).trans <| (W55_of m ρ c main_arg17 (by decide)).trans <| (W54_of m ρ c main_arg17 (by decide)).trans <| (W53_of m ρ c main_arg17 (by decide)).trans <| (W52_of m ρ c main_arg17 (by decide)).trans <| (W51_of m ρ c main_arg17 (by decide)).trans <| (W50_of m ρ c main_arg17 (by decide)).trans <| (W49_of m ρ c main_arg17 (by decide)).trans <| (W48_of m ρ c main_arg17 (by decide)).trans <| (W47_of m ρ c main_arg17 (by decide)).trans <| (W46_of m ρ c main_arg17 (by decide)).trans <| (W45_of m ρ c main_arg17 (by decide)).trans <| (W44_of m ρ c main_arg17 (by decide)).trans <| (W43_of m ρ c main_arg17 (by decide)).trans <| (W42_of m ρ c main_arg17 (by decide)).trans <| (W41_of m ρ c main_arg17 (by decide)).trans <| (W40_of m ρ c main_arg17 (by decide)).trans <| (W39_of m ρ c main_arg17 (by decide)).trans <| (W38_of m ρ c main_arg17 (by decide)).trans <| (W37_of m ρ c main_arg17 (by decide)).trans <| (W36_of m ρ c main_arg17 (by decide)).trans <| (W35_of m ρ c main_arg17 (by decide)).trans <| (W34_of m ρ c main_arg17 (by decide)).trans <| (W33_of m ρ c main_arg17 (by decide)).trans <| (W32_of m ρ c main_arg17 (by decide)).trans <| (W31_of m ρ c main_arg17 (by decide)).trans <| (W30_of m ρ c main_arg17 (by decide)).trans <| (W29_of m ρ c main_arg17 (by decide)).trans <| (W28_of m ρ c main_arg17 (by decide)).trans <| (W27_of m ρ c main_arg17 (by decide)).trans <| (W26_of m ρ c main_arg17 (by decide)).trans <| (W25_of m ρ c main_arg17 (by decide)).trans <| (W24_of m ρ c main_arg17 (by decide)).trans <| (W23_of m ρ c main_arg17 (by decide)).trans <| (W22_of m ρ c main_arg17 (by decide)).trans <| (W21_of m ρ c main_arg17 (by decide)).trans <| (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans rfl
theorem W84_main_arg18 (c : Dev nD) : W84 m ρ c (Proc.devRef .tc main_arg18) = m ((c : Thread nD τ).loc main_arg18) :=
  (W84_of m ρ c main_arg18 (by decide)).trans <| (W83_of m ρ c main_arg18 (by decide)).trans <| (W82_of m ρ c main_arg18 (by decide)).trans <| (W81_of m ρ c main_arg18 (by decide)).trans <| (W80_of m ρ c main_arg18 (by decide)).trans <| (W79_of m ρ c main_arg18 (by decide)).trans <| (W78_of m ρ c main_arg18 (by decide)).trans <| (W77_of m ρ c main_arg18 (by decide)).trans <| (W76_of m ρ c main_arg18 (by decide)).trans <| (W75_of m ρ c main_arg18 (by decide)).trans <| (W74_of m ρ c main_arg18 (by decide)).trans <| (W73_of m ρ c main_arg18 (by decide)).trans <| (W72_of m ρ c main_arg18 (by decide)).trans <| (W71_of m ρ c main_arg18 (by decide)).trans <| (W70_of m ρ c main_arg18 (by decide)).trans <| (W69_of m ρ c main_arg18 (by decide)).trans <| (W68_of m ρ c main_arg18 (by decide)).trans <| (W67_of m ρ c main_arg18 (by decide)).trans <| (W66_of m ρ c main_arg18 (by decide)).trans <| (W65_of m ρ c main_arg18 (by decide)).trans <| (W64_of m ρ c main_arg18 (by decide)).trans <| (W63_of m ρ c main_arg18 (by decide)).trans <| (W62_of m ρ c main_arg18 (by decide)).trans <| (W61_of m ρ c main_arg18 (by decide)).trans <| (W60_of m ρ c main_arg18 (by decide)).trans <| (W59_of m ρ c main_arg18 (by decide)).trans <| (W58_of m ρ c main_arg18 (by decide)).trans <| (W57_of m ρ c main_arg18 (by decide)).trans <| (W56_of m ρ c main_arg18 (by decide)).trans <| (W55_of m ρ c main_arg18 (by decide)).trans <| (W54_of m ρ c main_arg18 (by decide)).trans <| (W53_of m ρ c main_arg18 (by decide)).trans <| (W52_of m ρ c main_arg18 (by decide)).trans <| (W51_of m ρ c main_arg18 (by decide)).trans <| (W50_of m ρ c main_arg18 (by decide)).trans <| (W49_of m ρ c main_arg18 (by decide)).trans <| (W48_of m ρ c main_arg18 (by decide)).trans <| (W47_of m ρ c main_arg18 (by decide)).trans <| (W46_of m ρ c main_arg18 (by decide)).trans <| (W45_of m ρ c main_arg18 (by decide)).trans <| (W44_of m ρ c main_arg18 (by decide)).trans <| (W43_of m ρ c main_arg18 (by decide)).trans <| (W42_of m ρ c main_arg18 (by decide)).trans <| (W41_of m ρ c main_arg18 (by decide)).trans <| (W40_of m ρ c main_arg18 (by decide)).trans <| (W39_of m ρ c main_arg18 (by decide)).trans <| (W38_of m ρ c main_arg18 (by decide)).trans <| (W37_of m ρ c main_arg18 (by decide)).trans <| (W36_of m ρ c main_arg18 (by decide)).trans <| (W35_of m ρ c main_arg18 (by decide)).trans <| (W34_of m ρ c main_arg18 (by decide)).trans <| (W33_of m ρ c main_arg18 (by decide)).trans <| (W32_of m ρ c main_arg18 (by decide)).trans <| (W31_of m ρ c main_arg18 (by decide)).trans <| (W30_of m ρ c main_arg18 (by decide)).trans <| (W29_of m ρ c main_arg18 (by decide)).trans <| (W28_of m ρ c main_arg18 (by decide)).trans <| (W27_of m ρ c main_arg18 (by decide)).trans <| (W26_of m ρ c main_arg18 (by decide)).trans <| (W25_of m ρ c main_arg18 (by decide)).trans <| (W24_of m ρ c main_arg18 (by decide)).trans <| (W23_of m ρ c main_arg18 (by decide)).trans <| (W22_of m ρ c main_arg18 (by decide)).trans <| (W21_of m ρ c main_arg18 (by decide)).trans <| (W20_of m ρ c main_arg18 (by decide)).trans <| (W19_of m ρ c main_arg18 (by decide)).trans <| (W18_of m ρ c main_arg18 (by decide)).trans <| (W17_of m ρ c main_arg18 (by decide)).trans <| (W16_of m ρ c main_arg18 (by decide)).trans <| (W15_of m ρ c main_arg18 (by decide)).trans <| (W14_of m ρ c main_arg18 (by decide)).trans <| (W13_of m ρ c main_arg18 (by decide)).trans <| (W12_of m ρ c main_arg18 (by decide)).trans <| (W11_of m ρ c main_arg18 (by decide)).trans <| (W10_of m ρ c main_arg18 (by decide)).trans <| (W9_of m ρ c main_arg18 (by decide)).trans <| (W8_of m ρ c main_arg18 (by decide)).trans <| (W7_of m ρ c main_arg18 (by decide)).trans <| (W6_of m ρ c main_arg18 (by decide)).trans <| (W5_of m ρ c main_arg18 (by decide)).trans <| (W4_of m ρ c main_arg18 (by decide)).trans <| (W3_of m ρ c main_arg18 (by decide)).trans <| (W2_of m ρ c main_arg18 (by decide)).trans <| (W1_of m ρ c main_arg18 (by decide)).trans rfl
theorem W84_main_arg19 (c : Dev nD) : W84 m ρ c (Proc.devRef .tc main_arg19) = m ((c : Thread nD τ).loc main_arg19) :=
  (W84_of m ρ c main_arg19 (by decide)).trans <| (W83_of m ρ c main_arg19 (by decide)).trans <| (W82_of m ρ c main_arg19 (by decide)).trans <| (W81_of m ρ c main_arg19 (by decide)).trans <| (W80_of m ρ c main_arg19 (by decide)).trans <| (W79_of m ρ c main_arg19 (by decide)).trans <| (W78_of m ρ c main_arg19 (by decide)).trans <| (W77_of m ρ c main_arg19 (by decide)).trans <| (W76_of m ρ c main_arg19 (by decide)).trans <| (W75_of m ρ c main_arg19 (by decide)).trans <| (W74_of m ρ c main_arg19 (by decide)).trans <| (W73_of m ρ c main_arg19 (by decide)).trans <| (W72_of m ρ c main_arg19 (by decide)).trans <| (W71_of m ρ c main_arg19 (by decide)).trans <| (W70_of m ρ c main_arg19 (by decide)).trans <| (W69_of m ρ c main_arg19 (by decide)).trans <| (W68_of m ρ c main_arg19 (by decide)).trans <| (W67_of m ρ c main_arg19 (by decide)).trans <| (W66_of m ρ c main_arg19 (by decide)).trans <| (W65_of m ρ c main_arg19 (by decide)).trans <| (W64_of m ρ c main_arg19 (by decide)).trans <| (W63_of m ρ c main_arg19 (by decide)).trans <| (W62_of m ρ c main_arg19 (by decide)).trans <| (W61_of m ρ c main_arg19 (by decide)).trans <| (W60_of m ρ c main_arg19 (by decide)).trans <| (W59_of m ρ c main_arg19 (by decide)).trans <| (W58_of m ρ c main_arg19 (by decide)).trans <| (W57_of m ρ c main_arg19 (by decide)).trans <| (W56_of m ρ c main_arg19 (by decide)).trans <| (W55_of m ρ c main_arg19 (by decide)).trans <| (W54_of m ρ c main_arg19 (by decide)).trans <| (W53_of m ρ c main_arg19 (by decide)).trans <| (W52_of m ρ c main_arg19 (by decide)).trans <| (W51_of m ρ c main_arg19 (by decide)).trans <| (W50_of m ρ c main_arg19 (by decide)).trans <| (W49_of m ρ c main_arg19 (by decide)).trans <| (W48_of m ρ c main_arg19 (by decide)).trans <| (W47_of m ρ c main_arg19 (by decide)).trans <| (W46_of m ρ c main_arg19 (by decide)).trans <| (W45_of m ρ c main_arg19 (by decide)).trans <| (W44_of m ρ c main_arg19 (by decide)).trans <| (W43_of m ρ c main_arg19 (by decide)).trans <| (W42_of m ρ c main_arg19 (by decide)).trans <| (W41_of m ρ c main_arg19 (by decide)).trans <| (W40_of m ρ c main_arg19 (by decide)).trans <| (W39_of m ρ c main_arg19 (by decide)).trans <| (W38_of m ρ c main_arg19 (by decide)).trans <| (W37_of m ρ c main_arg19 (by decide)).trans <| (W36_of m ρ c main_arg19 (by decide)).trans <| (W35_of m ρ c main_arg19 (by decide)).trans <| (W34_of m ρ c main_arg19 (by decide)).trans <| (W33_of m ρ c main_arg19 (by decide)).trans <| (W32_of m ρ c main_arg19 (by decide)).trans <| (W31_of m ρ c main_arg19 (by decide)).trans <| (W30_of m ρ c main_arg19 (by decide)).trans <| (W29_of m ρ c main_arg19 (by decide)).trans <| (W28_of m ρ c main_arg19 (by decide)).trans <| (W27_of m ρ c main_arg19 (by decide)).trans <| (W26_of m ρ c main_arg19 (by decide)).trans <| (W25_of m ρ c main_arg19 (by decide)).trans <| (W24_of m ρ c main_arg19 (by decide)).trans <| (W23_of m ρ c main_arg19 (by decide)).trans <| (W22_of m ρ c main_arg19 (by decide)).trans <| (W21_of m ρ c main_arg19 (by decide)).trans <| (W20_of m ρ c main_arg19 (by decide)).trans <| (W19_of m ρ c main_arg19 (by decide)).trans <| (W18_of m ρ c main_arg19 (by decide)).trans <| (W17_of m ρ c main_arg19 (by decide)).trans <| (W16_of m ρ c main_arg19 (by decide)).trans <| (W15_of m ρ c main_arg19 (by decide)).trans <| (W14_of m ρ c main_arg19 (by decide)).trans <| (W13_of m ρ c main_arg19 (by decide)).trans <| (W12_of m ρ c main_arg19 (by decide)).trans <| (W11_of m ρ c main_arg19 (by decide)).trans <| (W10_of m ρ c main_arg19 (by decide)).trans <| (W9_of m ρ c main_arg19 (by decide)).trans <| (W8_of m ρ c main_arg19 (by decide)).trans <| (W7_of m ρ c main_arg19 (by decide)).trans <| (W6_of m ρ c main_arg19 (by decide)).trans <| (W5_of m ρ c main_arg19 (by decide)).trans <| (W4_of m ρ c main_arg19 (by decide)).trans <| (W3_of m ρ c main_arg19 (by decide)).trans <| (W2_of m ρ c main_arg19 (by decide)).trans <| (W1_of m ρ c main_arg19 (by decide)).trans rfl

end Cert.KernelIdeal.Gen

end
-- ==== Proof.KI.Frame.lean ====
import proofs.«417513_j58866821759238_4_alg».proof.Proof.KI.Segs
import proofs.«417513_j58866821759238_4_alg».proof.Proof.KI.Args
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: from any memory with zero counters every weakly fair execution of @main on the TensorCores terminates, nothing faulting, and in every
    final memory each unscoped buffer of each core holds the last boundary's contents `W84`: the launch over the segments, the last thread state
    read against the final state. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W84 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W84 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W84 m ρ c b)
    (hfin := fun c s' => by
      iintro ⟨⟨Hh, -⟩, HSI⟩
      unfold StableHlo.held
      imodintro
      iapply (pointsTo_read_all (Pipeline.ucRefs τ sig) (fun b => (((c : Thread nD τ)).1, b)) (W84 m ρ c) s')
      isplitl [Hh] <;> iassumption)
    (hQ := hQ)

/-- THE FRAME: every weakly fair execution of @main terminates, nothing faulting, and every final state has each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  run_all m ρ fun s h c => ⟨(h c _ (mem_uc main_arg0 (by decide))).trans (W84_main_arg0 m ρ c), (h c _ (mem_uc main_arg1 (by decide))).trans (W84_main_arg1 m ρ c), (h c _ (mem_uc main_arg2 (by decide))).trans (W84_main_arg2 m ρ c), (h c _ (mem_uc main_arg3 (by decide))).trans (W84_main_arg3 m ρ c), (h c _ (mem_uc main_arg4 (by decide))).trans (W84_main_arg4 m ρ c), (h c _ (mem_uc main_arg5 (by decide))).trans (W84_main_arg5 m ρ c), (h c _ (mem_uc main_arg6 (by decide))).trans (W84_main_arg6 m ρ c), (h c _ (mem_uc main_arg7 (by decide))).trans (W84_main_arg7 m ρ c), (h c _ (mem_uc main_arg8 (by decide))).trans (W84_main_arg8 m ρ c), (h c _ (mem_uc main_arg9 (by decide))).trans (W84_main_arg9 m ρ c), (h c _ (mem_uc main_arg10 (by decide))).trans (W84_main_arg10 m ρ c), (h c _ (mem_uc main_arg11 (by decide))).trans (W84_main_arg11 m ρ c), (h c _ (mem_uc main_arg12 (by decide))).trans (W84_main_arg12 m ρ c), (h c _ (mem_uc main_arg13 (by decide))).trans (W84_main_arg13 m ρ c), (h c _ (mem_uc main_arg14 (by decide))).trans (W84_main_arg14 m ρ c), (h c _ (mem_uc main_arg15 (by decide))).trans (W84_main_arg15 m ρ c), (h c _ (mem_uc main_arg16 (by decide))).trans (W84_main_arg16 m ρ c), (h c _ (mem_uc main_arg17 (by decide))).trans (W84_main_arg17 m ρ c), (h c _ (mem_uc main_arg18 (by decide))).trans (W84_main_arg18 m ρ c), (h c _ (mem_uc main_arg19 (by decide))).trans (W84_main_arg19 m ρ c)⟩

end Cert.KernelIdeal.Gen

end
-- ==== Proof.KI.Keep.lean ====
import proofs.«417513_j58866821759238_4_alg».proof.Proof.KI.Fold
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each value an item of @main reads is still what the item that made it left: no item in between writes its buffer -/

theorem keep_arg0_1 (c : Dev nD) : W1 m ρ c (Proc.devRef .tc main_arg0) = W0 m ρ c (Proc.devRef .tc main_arg0) :=
  (W1_of m ρ c main_arg0 (by decide)).trans rfl
theorem keep_arg7_2 (c : Dev nD) : W2 m ρ c (Proc.devRef .tc main_arg7) = W0 m ρ c (Proc.devRef .tc main_arg7) :=
  (W2_of m ρ c main_arg7 (by decide)).trans <| (W1_of m ρ c main_arg7 (by decide)).trans rfl
theorem keep_arg8_2 (c : Dev nD) : W2 m ρ c (Proc.devRef .tc main_arg8) = W0 m ρ c (Proc.devRef .tc main_arg8) :=
  (W2_of m ρ c main_arg8 (by decide)).trans <| (W1_of m ρ c main_arg8 (by decide)).trans rfl
theorem keep_arg1_3 (c : Dev nD) : W3 m ρ c (Proc.devRef .tc main_arg1) = W0 m ρ c (Proc.devRef .tc main_arg1) :=
  (W3_of m ρ c main_arg1 (by decide)).trans <| (W2_of m ρ c main_arg1 (by decide)).trans <| (W1_of m ρ c main_arg1 (by decide)).trans rfl
theorem keep_arg15_4 (c : Dev nD) : W4 m ρ c (Proc.devRef .tc main_arg15) = W0 m ρ c (Proc.devRef .tc main_arg15) :=
  (W4_of m ρ c main_arg15 (by decide)).trans <| (W3_of m ρ c main_arg15 (by decide)).trans <| (W2_of m ρ c main_arg15 (by decide)).trans <| (W1_of m ρ c main_arg15 (by decide)).trans rfl
theorem keep_arg16_4 (c : Dev nD) : W4 m ρ c (Proc.devRef .tc main_arg16) = W0 m ρ c (Proc.devRef .tc main_arg16) :=
  (W4_of m ρ c main_arg16 (by decide)).trans <| (W3_of m ρ c main_arg16 (by decide)).trans <| (W2_of m ρ c main_arg16 (by decide)).trans <| (W1_of m ρ c main_arg16 (by decide)).trans rfl
theorem keep_arg17_4 (c : Dev nD) : W4 m ρ c (Proc.devRef .tc main_arg17) = W0 m ρ c (Proc.devRef .tc main_arg17) :=
  (W4_of m ρ c main_arg17 (by decide)).trans <| (W3_of m ρ c main_arg17 (by decide)).trans <| (W2_of m ρ c main_arg17 (by decide)).trans <| (W1_of m ρ c main_arg17 (by decide)).trans rfl
theorem keep_arg18_4 (c : Dev nD) : W4 m ρ c (Proc.devRef .tc main_arg18) = W0 m ρ c (Proc.devRef .tc main_arg18) :=
  (W4_of m ρ c main_arg18 (by decide)).trans <| (W3_of m ρ c main_arg18 (by decide)).trans <| (W2_of m ρ c main_arg18 (by decide)).trans <| (W1_of m ρ c main_arg18 (by decide)).trans rfl
theorem keep_v2_4 (c : Dev nD) : W4 m ρ c (Proc.devRef .tc main_v2) = W2 m ρ c (Proc.devRef .tc main_v2) :=
  (W4_of m ρ c main_v2 (by decide)).trans <| (W3_of m ρ c main_v2 (by decide)).trans rfl
theorem keep_arg9_4 (c : Dev nD) : W4 m ρ c (Proc.devRef .tc main_arg9) = W0 m ρ c (Proc.devRef .tc main_arg9) :=
  (W4_of m ρ c main_arg9 (by decide)).trans <| (W3_of m ρ c main_arg9 (by decide)).trans <| (W2_of m ρ c main_arg9 (by decide)).trans <| (W1_of m ρ c main_arg9 (by decide)).trans rfl
theorem keep_arg10_4 (c : Dev nD) : W4 m ρ c (Proc.devRef .tc main_arg10) = W0 m ρ c (Proc.devRef .tc main_arg10) :=
  (W4_of m ρ c main_arg10 (by decide)).trans <| (W3_of m ρ c main_arg10 (by decide)).trans <| (W2_of m ρ c main_arg10 (by decide)).trans <| (W1_of m ρ c main_arg10 (by decide)).trans rfl
theorem keep_arg11_4 (c : Dev nD) : W4 m ρ c (Proc.devRef .tc main_arg11) = W0 m ρ c (Proc.devRef .tc main_arg11) :=
  (W4_of m ρ c main_arg11 (by decide)).trans <| (W3_of m ρ c main_arg11 (by decide)).trans <| (W2_of m ρ c main_arg11 (by decide)).trans <| (W1_of m ρ c main_arg11 (by decide)).trans rfl
theorem keep_arg2_4 (c : Dev nD) : W4 m ρ c (Proc.devRef .tc main_arg2) = W0 m ρ c (Proc.devRef .tc main_arg2) :=
  (W4_of m ρ c main_arg2 (by decide)).trans <| (W3_of m ρ c main_arg2 (by decide)).trans <| (W2_of m ρ c main_arg2 (by decide)).trans <| (W1_of m ρ c main_arg2 (by decide)).trans rfl
theorem keep_arg3_4 (c : Dev nD) : W4 m ρ c (Proc.devRef .tc main_arg3) = W0 m ρ c (Proc.devRef .tc main_arg3) :=
  (W4_of m ρ c main_arg3 (by decide)).trans <| (W3_of m ρ c main_arg3 (by decide)).trans <| (W2_of m ρ c main_arg3 (by decide)).trans <| (W1_of m ρ c main_arg3 (by decide)).trans rfl
theorem keep_arg4_4 (c : Dev nD) : W4 m ρ c (Proc.devRef .tc main_arg4) = W0 m ρ c (Proc.devRef .tc main_arg4) :=
  (W4_of m ρ c main_arg4 (by decide)).trans <| (W3_of m ρ c main_arg4 (by decide)).trans <| (W2_of m ρ c main_arg4 (by decide)).trans <| (W1_of m ρ c main_arg4 (by decide)).trans rfl
theorem keep_v97_7 (c : Dev nD) : W7 m ρ c (Proc.devRef .tc main_v97) = W5 m ρ c (Proc.devRef .tc main_v97) :=
  (W7_of m ρ c main_v97 (by decide)).trans <| (W6_of m ρ c main_v97 (by decide)).trans rfl
theorem keep_v115_9 (c : Dev nD) : W9 m ρ c (Proc.devRef .tc main_v115) = W5 m ρ c (Proc.devRef .tc main_v115) :=
  (W9_of m ρ c main_v115 (by decide)).trans <| (W8_of m ρ c main_v115 (by decide)).trans <| (W7_of m ρ c main_v115 (by decide)).trans <| (W6_of m ρ c main_v115 (by decide)).trans rfl
theorem keep_v133_11 (c : Dev nD) : W11 m ρ c (Proc.devRef .tc main_v133) = W5 m ρ c (Proc.devRef .tc main_v133) :=
  (W11_of m ρ c main_v133 (by decide)).trans <| (W10_of m ρ c main_v133 (by decide)).trans <| (W9_of m ρ c main_v133 (by decide)).trans <| (W8_of m ρ c main_v133 (by decide)).trans <| (W7_of m ρ c main_v133 (by decide)).trans <| (W6_of m ρ c main_v133 (by decide)).trans rfl
theorem keep_v41_13 (c : Dev nD) : W13 m ρ c (Proc.devRef .tc main_v41) = W5 m ρ c (Proc.devRef .tc main_v41) :=
  (W13_of m ρ c main_v41 (by decide)).trans <| (W12_of m ρ c main_v41 (by decide)).trans <| (W11_of m ρ c main_v41 (by decide)).trans <| (W10_of m ρ c main_v41 (by decide)).trans <| (W9_of m ρ c main_v41 (by decide)).trans <| (W8_of m ρ c main_v41 (by decide)).trans <| (W7_of m ρ c main_v41 (by decide)).trans <| (W6_of m ρ c main_v41 (by decide)).trans rfl
theorem keep_v49_15 (c : Dev nD) : W15 m ρ c (Proc.devRef .tc main_v49) = W5 m ρ c (Proc.devRef .tc main_v49) :=
  (W15_of m ρ c main_v49 (by decide)).trans <| (W14_of m ρ c main_v49 (by decide)).trans <| (W13_of m ρ c main_v49 (by decide)).trans <| (W12_of m ρ c main_v49 (by decide)).trans <| (W11_of m ρ c main_v49 (by decide)).trans <| (W10_of m ρ c main_v49 (by decide)).trans <| (W9_of m ρ c main_v49 (by decide)).trans <| (W8_of m ρ c main_v49 (by decide)).trans <| (W7_of m ρ c main_v49 (by decide)).trans <| (W6_of m ρ c main_v49 (by decide)).trans rfl
theorem keep_v57_17 (c : Dev nD) : W17 m ρ c (Proc.devRef .tc main_v57) = W5 m ρ c (Proc.devRef .tc main_v57) :=
  (W17_of m ρ c main_v57 (by decide)).trans <| (W16_of m ρ c main_v57 (by decide)).trans <| (W15_of m ρ c main_v57 (by decide)).trans <| (W14_of m ρ c main_v57 (by decide)).trans <| (W13_of m ρ c main_v57 (by decide)).trans <| (W12_of m ρ c main_v57 (by decide)).trans <| (W11_of m ρ c main_v57 (by decide)).trans <| (W10_of m ρ c main_v57 (by decide)).trans <| (W9_of m ρ c main_v57 (by decide)).trans <| (W8_of m ρ c main_v57 (by decide)).trans <| (W7_of m ρ c main_v57 (by decide)).trans <| (W6_of m ρ c main_v57 (by decide)).trans rfl
theorem keep_v65_19 (c : Dev nD) : W19 m ρ c (Proc.devRef .tc main_v65) = W5 m ρ c (Proc.devRef .tc main_v65) :=
  (W19_of m ρ c main_v65 (by decide)).trans <| (W18_of m ρ c main_v65 (by decide)).trans <| (W17_of m ρ c main_v65 (by decide)).trans <| (W16_of m ρ c main_v65 (by decide)).trans <| (W15_of m ρ c main_v65 (by decide)).trans <| (W14_of m ρ c main_v65 (by decide)).trans <| (W13_of m ρ c main_v65 (by decide)).trans <| (W12_of m ρ c main_v65 (by decide)).trans <| (W11_of m ρ c main_v65 (by decide)).trans <| (W10_of m ρ c main_v65 (by decide)).trans <| (W9_of m ρ c main_v65 (by decide)).trans <| (W8_of m ρ c main_v65 (by decide)).trans <| (W7_of m ρ c main_v65 (by decide)).trans <| (W6_of m ρ c main_v65 (by decide)).trans rfl
theorem keep_v5_21 (c : Dev nD) : W21 m ρ c (Proc.devRef .tc main_v5) = W4 m ρ c (Proc.devRef .tc main_v5) :=
  (W21_of m ρ c main_v5 (by decide)).trans <| (W20_of m ρ c main_v5 (by decide)).trans <| (W19_of m ρ c main_v5 (by decide)).trans <| (W18_of m ρ c main_v5 (by decide)).trans <| (W17_of m ρ c main_v5 (by decide)).trans <| (W16_of m ρ c main_v5 (by decide)).trans <| (W15_of m ρ c main_v5 (by decide)).trans <| (W14_of m ρ c main_v5 (by decide)).trans <| (W13_of m ρ c main_v5 (by decide)).trans <| (W12_of m ρ c main_v5 (by decide)).trans <| (W11_of m ρ c main_v5 (by decide)).trans <| (W10_of m ρ c main_v5 (by decide)).trans <| (W9_of m ρ c main_v5 (by decide)).trans <| (W8_of m ρ c main_v5 (by decide)).trans <| (W7_of m ρ c main_v5 (by decide)).trans <| (W6_of m ρ c main_v5 (by decide)).trans <| (W5_of m ρ c main_v5 (by decide)).trans rfl
theorem keep_v155_22 (c : Dev nD) : W22 m ρ c (Proc.devRef .tc main_v155) = W6 m ρ c (Proc.devRef .tc main_v155) :=
  (W22_of m ρ c main_v155 (by decide)).trans <| (W21_of m ρ c main_v155 (by decide)).trans <| (W20_of m ρ c main_v155 (by decide)).trans <| (W19_of m ρ c main_v155 (by decide)).trans <| (W18_of m ρ c main_v155 (by decide)).trans <| (W17_of m ρ c main_v155 (by decide)).trans <| (W16_of m ρ c main_v155 (by decide)).trans <| (W15_of m ρ c main_v155 (by decide)).trans <| (W14_of m ρ c main_v155 (by decide)).trans <| (W13_of m ρ c main_v155 (by decide)).trans <| (W12_of m ρ c main_v155 (by decide)).trans <| (W11_of m ρ c main_v155 (by decide)).trans <| (W10_of m ρ c main_v155 (by decide)).trans <| (W9_of m ρ c main_v155 (by decide)).trans <| (W8_of m ρ c main_v155 (by decide)).trans <| (W7_of m ρ c main_v155 (by decide)).trans rfl
theorem keep_v159_22 (c : Dev nD) : W22 m ρ c (Proc.devRef .tc main_v159) = W14 m ρ c (Proc.devRef .tc main_v159) :=
  (W22_of m ρ c main_v159 (by decide)).trans <| (W21_of m ρ c main_v159 (by decide)).trans <| (W20_of m ρ c main_v159 (by decide)).trans <| (W19_of m ρ c main_v159 (by decide)).trans <| (W18_of m ρ c main_v159 (by decide)).trans <| (W17_of m ρ c main_v159 (by decide)).trans <| (W16_of m ρ c main_v159 (by decide)).trans <| (W15_of m ρ c main_v159 (by decide)).trans rfl
theorem keep_v156_22 (c : Dev nD) : W22 m ρ c (Proc.devRef .tc main_v156) = W8 m ρ c (Proc.devRef .tc main_v156) :=
  (W22_of m ρ c main_v156 (by decide)).trans <| (W21_of m ρ c main_v156 (by decide)).trans <| (W20_of m ρ c main_v156 (by decide)).trans <| (W19_of m ρ c main_v156 (by decide)).trans <| (W18_of m ρ c main_v156 (by decide)).trans <| (W17_of m ρ c main_v156 (by decide)).trans <| (W16_of m ρ c main_v156 (by decide)).trans <| (W15_of m ρ c main_v156 (by decide)).trans <| (W14_of m ρ c main_v156 (by decide)).trans <| (W13_of m ρ c main_v156 (by decide)).trans <| (W12_of m ρ c main_v156 (by decide)).trans <| (W11_of m ρ c main_v156 (by decide)).trans <| (W10_of m ρ c main_v156 (by decide)).trans <| (W9_of m ρ c main_v156 (by decide)).trans rfl
theorem keep_v160_22 (c : Dev nD) : W22 m ρ c (Proc.devRef .tc main_v160) = W16 m ρ c (Proc.devRef .tc main_v160) :=
  (W22_of m ρ c main_v160 (by decide)).trans <| (W21_of m ρ c main_v160 (by decide)).trans <| (W20_of m ρ c main_v160 (by decide)).trans <| (W19_of m ρ c main_v160 (by decide)).trans <| (W18_of m ρ c main_v160 (by decide)).trans <| (W17_of m ρ c main_v160 (by decide)).trans rfl
theorem keep_v157_22 (c : Dev nD) : W22 m ρ c (Proc.devRef .tc main_v157) = W10 m ρ c (Proc.devRef .tc main_v157) :=
  (W22_of m ρ c main_v157 (by decide)).trans <| (W21_of m ρ c main_v157 (by decide)).trans <| (W20_of m ρ c main_v157 (by decide)).trans <| (W19_of m ρ c main_v157 (by decide)).trans <| (W18_of m ρ c main_v157 (by decide)).trans <| (W17_of m ρ c main_v157 (by decide)).trans <| (W16_of m ρ c main_v157 (by decide)).trans <| (W15_of m ρ c main_v157 (by decide)).trans <| (W14_of m ρ c main_v157 (by decide)).trans <| (W13_of m ρ c main_v157 (by decide)).trans <| (W12_of m ρ c main_v157 (by decide)).trans <| (W11_of m ρ c main_v157 (by decide)).trans rfl
theorem keep_v161_22 (c : Dev nD) : W22 m ρ c (Proc.devRef .tc main_v161) = W18 m ρ c (Proc.devRef .tc main_v161) :=
  (W22_of m ρ c main_v161 (by decide)).trans <| (W21_of m ρ c main_v161 (by decide)).trans <| (W20_of m ρ c main_v161 (by decide)).trans <| (W19_of m ρ c main_v161 (by decide)).trans rfl
theorem keep_v158_22 (c : Dev nD) : W22 m ρ c (Proc.devRef .tc main_v158) = W12 m ρ c (Proc.devRef .tc main_v158) :=
  (W22_of m ρ c main_v158 (by decide)).trans <| (W21_of m ρ c main_v158 (by decide)).trans <| (W20_of m ρ c main_v158 (by decide)).trans <| (W19_of m ρ c main_v158 (by decide)).trans <| (W18_of m ρ c main_v158 (by decide)).trans <| (W17_of m ρ c main_v158 (by decide)).trans <| (W16_of m ρ c main_v158 (by decide)).trans <| (W15_of m ρ c main_v158 (by decide)).trans <| (W14_of m ρ c main_v158 (by decide)).trans <| (W13_of m ρ c main_v158 (by decide)).trans rfl
theorem keep_v162_22 (c : Dev nD) : W22 m ρ c (Proc.devRef .tc main_v162) = W20 m ρ c (Proc.devRef .tc main_v162) :=
  (W22_of m ρ c main_v162 (by decide)).trans <| (W21_of m ρ c main_v162 (by decide)).trans rfl
theorem keep_v82_22 (c : Dev nD) : W22 m ρ c (Proc.devRef .tc main_v82) = W5 m ρ c (Proc.devRef .tc main_v82) :=
  (W22_of m ρ c main_v82 (by decide)).trans <| (W21_of m ρ c main_v82 (by decide)).trans <| (W20_of m ρ c main_v82 (by decide)).trans <| (W19_of m ρ c main_v82 (by decide)).trans <| (W18_of m ρ c main_v82 (by decide)).trans <| (W17_of m ρ c main_v82 (by decide)).trans <| (W16_of m ρ c main_v82 (by decide)).trans <| (W15_of m ρ c main_v82 (by decide)).trans <| (W14_of m ρ c main_v82 (by decide)).trans <| (W13_of m ρ c main_v82 (by decide)).trans <| (W12_of m ρ c main_v82 (by decide)).trans <| (W11_of m ρ c main_v82 (by decide)).trans <| (W10_of m ρ c main_v82 (by decide)).trans <| (W9_of m ρ c main_v82 (by decide)).trans <| (W8_of m ρ c main_v82 (by decide)).trans <| (W7_of m ρ c main_v82 (by decide)).trans <| (W6_of m ρ c main_v82 (by decide)).trans rfl
theorem keep_v100_22 (c : Dev nD) : W22 m ρ c (Proc.devRef .tc main_v100) = W5 m ρ c (Proc.devRef .tc main_v100) :=
  (W22_of m ρ c main_v100 (by decide)).trans <| (W21_of m ρ c main_v100 (by decide)).trans <| (W20_of m ρ c main_v100 (by decide)).trans <| (W19_of m ρ c main_v100 (by decide)).trans <| (W18_of m ρ c main_v100 (by decide)).trans <| (W17_of m ρ c main_v100 (by decide)).trans <| (W16_of m ρ c main_v100 (by decide)).trans <| (W15_of m ρ c main_v100 (by decide)).trans <| (W14_of m ρ c main_v100 (by decide)).trans <| (W13_of m ρ c main_v100 (by decide)).trans <| (W12_of m ρ c main_v100 (by decide)).trans <| (W11_of m ρ c main_v100 (by decide)).trans <| (W10_of m ρ c main_v100 (by decide)).trans <| (W9_of m ρ c main_v100 (by decide)).trans <| (W8_of m ρ c main_v100 (by decide)).trans <| (W7_of m ρ c main_v100 (by decide)).trans <| (W6_of m ρ c main_v100 (by decide)).trans rfl
theorem keep_v118_22 (c : Dev nD) : W22 m ρ c (Proc.devRef .tc main_v118) = W5 m ρ c (Proc.devRef .tc main_v118) :=
  (W22_of m ρ c main_v118 (by decide)).trans <| (W21_of m ρ c main_v118 (by decide)).trans <| (W20_of m ρ c main_v118 (by decide)).trans <| (W19_of m ρ c main_v118 (by decide)).trans <| (W18_of m ρ c main_v118 (by decide)).trans <| (W17_of m ρ c main_v118 (by decide)).trans <| (W16_of m ρ c main_v118 (by decide)).trans <| (W15_of m ρ c main_v118 (by decide)).trans <| (W14_of m ρ c main_v118 (by decide)).trans <| (W13_of m ρ c main_v118 (by decide)).trans <| (W12_of m ρ c main_v118 (by decide)).trans <| (W11_of m ρ c main_v118 (by decide)).trans <| (W10_of m ρ c main_v118 (by decide)).trans <| (W9_of m ρ c main_v118 (by decide)).trans <| (W8_of m ρ c main_v118 (by decide)).trans <| (W7_of m ρ c main_v118 (by decide)).trans <| (W6_of m ρ c main_v118 (by decide)).trans rfl
theorem keep_v136_22 (c : Dev nD) : W22 m ρ c (Proc.devRef .tc main_v136) = W5 m ρ c (Proc.devRef .tc main_v136) :=
  (W22_of m ρ c main_v136 (by decide)).trans <| (W21_of m ρ c main_v136 (by decide)).trans <| (W20_of m ρ c main_v136 (by decide)).trans <| (W19_of m ρ c main_v136 (by decide)).trans <| (W18_of m ρ c main_v136 (by decide)).trans <| (W17_of m ρ c main_v136 (by decide)).trans <| (W16_of m ρ c main_v136 (by decide)).trans <| (W15_of m ρ c main_v136 (by decide)).trans <| (W14_of m ρ c main_v136 (by decide)).trans <| (W13_of m ρ c main_v136 (by decide)).trans <| (W12_of m ρ c main_v136 (by decide)).trans <| (W11_of m ρ c main_v136 (by decide)).trans <| (W10_of m ρ c main_v136 (by decide)).trans <| (W9_of m ρ c main_v136 (by decide)).trans <| (W8_of m ρ c main_v136 (by decide)).trans <| (W7_of m ρ c main_v136 (by decide)).trans <| (W6_of m ρ c main_v136 (by decide)).trans rfl
theorem keep_v148_22 (c : Dev nD) : W22 m ρ c (Proc.devRef .tc main_v148) = W5 m ρ c (Proc.devRef .tc main_v148) :=
  (W22_of m ρ c main_v148 (by decide)).trans <| (W21_of m ρ c main_v148 (by decide)).trans <| (W20_of m ρ c main_v148 (by decide)).trans <| (W19_of m ρ c main_v148 (by decide)).trans <| (W18_of m ρ c main_v148 (by decide)).trans <| (W17_of m ρ c main_v148 (by decide)).trans <| (W16_of m ρ c main_v148 (by decide)).trans <| (W15_of m ρ c main_v148 (by decide)).trans <| (W14_of m ρ c main_v148 (by decide)).trans <| (W13_of m ρ c main_v148 (by decide)).trans <| (W12_of m ρ c main_v148 (by decide)).trans <| (W11_of m ρ c main_v148 (by decide)).trans <| (W10_of m ρ c main_v148 (by decide)).trans <| (W9_of m ρ c main_v148 (by decide)).trans <| (W8_of m ρ c main_v148 (by decide)).trans <| (W7_of m ρ c main_v148 (by decide)).trans <| (W6_of m ρ c main_v148 (by decide)).trans rfl
theorem keep_v154_22 (c : Dev nD) : W22 m ρ c (Proc.devRef .tc main_v154) = W5 m ρ c (Proc.devRef .tc main_v154) :=
  (W22_of m ρ c main_v154 (by decide)).trans <| (W21_of m ρ c main_v154 (by decide)).trans <| (W20_of m ρ c main_v154 (by decide)).trans <| (W19_of m ρ c main_v154 (by decide)).trans <| (W18_of m ρ c main_v154 (by decide)).trans <| (W17_of m ρ c main_v154 (by decide)).trans <| (W16_of m ρ c main_v154 (by decide)).trans <| (W15_of m ρ c main_v154 (by decide)).trans <| (W14_of m ρ c main_v154 (by decide)).trans <| (W13_of m ρ c main_v154 (by decide)).trans <| (W12_of m ρ c main_v154 (by decide)).trans <| (W11_of m ρ c main_v154 (by decide)).trans <| (W10_of m ρ c main_v154 (by decide)).trans <| (W9_of m ρ c main_v154 (by decide)).trans <| (W8_of m ρ c main_v154 (by decide)).trans <| (W7_of m ρ c main_v154 (by decide)).trans <| (W6_of m ρ c main_v154 (by decide)).trans rfl
theorem keep_v11_23 (c : Dev nD) : W23 m ρ c (Proc.devRef .tc main_v11) = W5 m ρ c (Proc.devRef .tc main_v11) :=
  (W23_of m ρ c main_v11 (by decide)).trans <| (W22_of m ρ c main_v11 (by decide)).trans <| (W21_of m ρ c main_v11 (by decide)).trans <| (W20_of m ρ c main_v11 (by decide)).trans <| (W19_of m ρ c main_v11 (by decide)).trans <| (W18_of m ρ c main_v11 (by decide)).trans <| (W17_of m ρ c main_v11 (by decide)).trans <| (W16_of m ρ c main_v11 (by decide)).trans <| (W15_of m ρ c main_v11 (by decide)).trans <| (W14_of m ρ c main_v11 (by decide)).trans <| (W13_of m ρ c main_v11 (by decide)).trans <| (W12_of m ρ c main_v11 (by decide)).trans <| (W11_of m ρ c main_v11 (by decide)).trans <| (W10_of m ρ c main_v11 (by decide)).trans <| (W9_of m ρ c main_v11 (by decide)).trans <| (W8_of m ρ c main_v11 (by decide)).trans <| (W7_of m ρ c main_v11 (by decide)).trans <| (W6_of m ρ c main_v11 (by decide)).trans rfl
theorem keep_v5_23 (c : Dev nD) : W23 m ρ c (Proc.devRef .tc main_v5) = W4 m ρ c (Proc.devRef .tc main_v5) :=
  (W23_of m ρ c main_v5 (by decide)).trans <| (W22_of m ρ c main_v5 (by decide)).trans <| (W21_of m ρ c main_v5 (by decide)).trans <| (W20_of m ρ c main_v5 (by decide)).trans <| (W19_of m ρ c main_v5 (by decide)).trans <| (W18_of m ρ c main_v5 (by decide)).trans <| (W17_of m ρ c main_v5 (by decide)).trans <| (W16_of m ρ c main_v5 (by decide)).trans <| (W15_of m ρ c main_v5 (by decide)).trans <| (W14_of m ρ c main_v5 (by decide)).trans <| (W13_of m ρ c main_v5 (by decide)).trans <| (W12_of m ρ c main_v5 (by decide)).trans <| (W11_of m ρ c main_v5 (by decide)).trans <| (W10_of m ρ c main_v5 (by decide)).trans <| (W9_of m ρ c main_v5 (by decide)).trans <| (W8_of m ρ c main_v5 (by decide)).trans <| (W7_of m ρ c main_v5 (by decide)).trans <| (W6_of m ρ c main_v5 (by decide)).trans <| (W5_of m ρ c main_v5 (by decide)).trans rfl
theorem keep_v13_23 (c : Dev nD) : W23 m ρ c (Proc.devRef .tc main_v13) = W5 m ρ c (Proc.devRef .tc main_v13) :=
  (W23_of m ρ c main_v13 (by decide)).trans <| (W22_of m ρ c main_v13 (by decide)).trans <| (W21_of m ρ c main_v13 (by decide)).trans <| (W20_of m ρ c main_v13 (by decide)).trans <| (W19_of m ρ c main_v13 (by decide)).trans <| (W18_of m ρ c main_v13 (by decide)).trans <| (W17_of m ρ c main_v13 (by decide)).trans <| (W16_of m ρ c main_v13 (by decide)).trans <| (W15_of m ρ c main_v13 (by decide)).trans <| (W14_of m ρ c main_v13 (by decide)).trans <| (W13_of m ρ c main_v13 (by decide)).trans <| (W12_of m ρ c main_v13 (by decide)).trans <| (W11_of m ρ c main_v13 (by decide)).trans <| (W10_of m ρ c main_v13 (by decide)).trans <| (W9_of m ρ c main_v13 (by decide)).trans <| (W8_of m ρ c main_v13 (by decide)).trans <| (W7_of m ρ c main_v13 (by decide)).trans <| (W6_of m ρ c main_v13 (by decide)).trans rfl
theorem keep_arg9_23 (c : Dev nD) : W23 m ρ c (Proc.devRef .tc main_arg9) = W0 m ρ c (Proc.devRef .tc main_arg9) :=
  (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem keep_arg10_23 (c : Dev nD) : W23 m ρ c (Proc.devRef .tc main_arg10) = W0 m ρ c (Proc.devRef .tc main_arg10) :=
  (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem keep_arg11_23 (c : Dev nD) : W23 m ρ c (Proc.devRef .tc main_arg11) = W0 m ρ c (Proc.devRef .tc main_arg11) :=
  (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem keep_v45_26 (c : Dev nD) : W26 m ρ c (Proc.devRef .tc main_v45) = W5 m ρ c (Proc.devRef .tc main_v45) :=
  (W26_of m ρ c main_v45 (by decide)).trans <| (W25_of m ρ c main_v45 (by decide)).trans <| (W24_of m ρ c main_v45 (by decide)).trans <| (W23_of m ρ c main_v45 (by decide)).trans <| (W22_of m ρ c main_v45 (by decide)).trans <| (W21_of m ρ c main_v45 (by decide)).trans <| (W20_of m ρ c main_v45 (by decide)).trans <| (W19_of m ρ c main_v45 (by decide)).trans <| (W18_of m ρ c main_v45 (by decide)).trans <| (W17_of m ρ c main_v45 (by decide)).trans <| (W16_of m ρ c main_v45 (by decide)).trans <| (W15_of m ρ c main_v45 (by decide)).trans <| (W14_of m ρ c main_v45 (by decide)).trans <| (W13_of m ρ c main_v45 (by decide)).trans <| (W12_of m ρ c main_v45 (by decide)).trans <| (W11_of m ρ c main_v45 (by decide)).trans <| (W10_of m ρ c main_v45 (by decide)).trans <| (W9_of m ρ c main_v45 (by decide)).trans <| (W8_of m ρ c main_v45 (by decide)).trans <| (W7_of m ρ c main_v45 (by decide)).trans <| (W6_of m ρ c main_v45 (by decide)).trans rfl
theorem keep_v2_28 (c : Dev nD) : W28 m ρ c (Proc.devRef .tc main_v2) = W2 m ρ c (Proc.devRef .tc main_v2) :=
  (W28_of m ρ c main_v2 (by decide)).trans <| (W27_of m ρ c main_v2 (by decide)).trans <| (W26_of m ρ c main_v2 (by decide)).trans <| (W25_of m ρ c main_v2 (by decide)).trans <| (W24_of m ρ c main_v2 (by decide)).trans <| (W23_of m ρ c main_v2 (by decide)).trans <| (W22_of m ρ c main_v2 (by decide)).trans <| (W21_of m ρ c main_v2 (by decide)).trans <| (W20_of m ρ c main_v2 (by decide)).trans <| (W19_of m ρ c main_v2 (by decide)).trans <| (W18_of m ρ c main_v2 (by decide)).trans <| (W17_of m ρ c main_v2 (by decide)).trans <| (W16_of m ρ c main_v2 (by decide)).trans <| (W15_of m ρ c main_v2 (by decide)).trans <| (W14_of m ρ c main_v2 (by decide)).trans <| (W13_of m ρ c main_v2 (by decide)).trans <| (W12_of m ρ c main_v2 (by decide)).trans <| (W11_of m ρ c main_v2 (by decide)).trans <| (W10_of m ρ c main_v2 (by decide)).trans <| (W9_of m ρ c main_v2 (by decide)).trans <| (W8_of m ρ c main_v2 (by decide)).trans <| (W7_of m ρ c main_v2 (by decide)).trans <| (W6_of m ρ c main_v2 (by decide)).trans <| (W5_of m ρ c main_v2 (by decide)).trans <| (W4_of m ρ c main_v2 (by decide)).trans <| (W3_of m ρ c main_v2 (by decide)).trans rfl
theorem keep_v189_29 (c : Dev nD) : W29 m ρ c (Proc.devRef .tc main_v189) = W25 m ρ c (Proc.devRef .tc main_v189) :=
  (W29_of m ρ c main_v189 (by decide)).trans <| (W28_of m ρ c main_v189 (by decide)).trans <| (W27_of m ρ c main_v189 (by decide)).trans <| (W26_of m ρ c main_v189 (by decide)).trans rfl
theorem keep_v190_29 (c : Dev nD) : W29 m ρ c (Proc.devRef .tc main_v190) = W27 m ρ c (Proc.devRef .tc main_v190) :=
  (W29_of m ρ c main_v190 (by decide)).trans <| (W28_of m ρ c main_v190 (by decide)).trans rfl
theorem keep_v178_29 (c : Dev nD) : W29 m ρ c (Proc.devRef .tc main_v178) = W24 m ρ c (Proc.devRef .tc main_v178) :=
  (W29_of m ρ c main_v178 (by decide)).trans <| (W28_of m ρ c main_v178 (by decide)).trans <| (W27_of m ρ c main_v178 (by decide)).trans <| (W26_of m ρ c main_v178 (by decide)).trans <| (W25_of m ρ c main_v178 (by decide)).trans rfl
theorem keep_v186_29 (c : Dev nD) : W29 m ρ c (Proc.devRef .tc main_v186) = W24 m ρ c (Proc.devRef .tc main_v186) :=
  (W29_of m ρ c main_v186 (by decide)).trans <| (W28_of m ρ c main_v186 (by decide)).trans <| (W27_of m ρ c main_v186 (by decide)).trans <| (W26_of m ρ c main_v186 (by decide)).trans <| (W25_of m ρ c main_v186 (by decide)).trans rfl
theorem keep_v188_29 (c : Dev nD) : W29 m ρ c (Proc.devRef .tc main_v188) = W24 m ρ c (Proc.devRef .tc main_v188) :=
  (W29_of m ρ c main_v188 (by decide)).trans <| (W28_of m ρ c main_v188 (by decide)).trans <| (W27_of m ρ c main_v188 (by decide)).trans <| (W26_of m ρ c main_v188 (by decide)).trans <| (W25_of m ρ c main_v188 (by decide)).trans rfl
theorem keep_v19_30 (c : Dev nD) : W30 m ρ c (Proc.devRef .tc main_v19) = W5 m ρ c (Proc.devRef .tc main_v19) :=
  (W30_of m ρ c main_v19 (by decide)).trans <| (W29_of m ρ c main_v19 (by decide)).trans <| (W28_of m ρ c main_v19 (by decide)).trans <| (W27_of m ρ c main_v19 (by decide)).trans <| (W26_of m ρ c main_v19 (by decide)).trans <| (W25_of m ρ c main_v19 (by decide)).trans <| (W24_of m ρ c main_v19 (by decide)).trans <| (W23_of m ρ c main_v19 (by decide)).trans <| (W22_of m ρ c main_v19 (by decide)).trans <| (W21_of m ρ c main_v19 (by decide)).trans <| (W20_of m ρ c main_v19 (by decide)).trans <| (W19_of m ρ c main_v19 (by decide)).trans <| (W18_of m ρ c main_v19 (by decide)).trans <| (W17_of m ρ c main_v19 (by decide)).trans <| (W16_of m ρ c main_v19 (by decide)).trans <| (W15_of m ρ c main_v19 (by decide)).trans <| (W14_of m ρ c main_v19 (by decide)).trans <| (W13_of m ρ c main_v19 (by decide)).trans <| (W12_of m ρ c main_v19 (by decide)).trans <| (W11_of m ρ c main_v19 (by decide)).trans <| (W10_of m ρ c main_v19 (by decide)).trans <| (W9_of m ρ c main_v19 (by decide)).trans <| (W8_of m ρ c main_v19 (by decide)).trans <| (W7_of m ρ c main_v19 (by decide)).trans <| (W6_of m ρ c main_v19 (by decide)).trans rfl
theorem keep_v5_30 (c : Dev nD) : W30 m ρ c (Proc.devRef .tc main_v5) = W4 m ρ c (Proc.devRef .tc main_v5) :=
  (W30_of m ρ c main_v5 (by decide)).trans <| (W29_of m ρ c main_v5 (by decide)).trans <| (W28_of m ρ c main_v5 (by decide)).trans <| (W27_of m ρ c main_v5 (by decide)).trans <| (W26_of m ρ c main_v5 (by decide)).trans <| (W25_of m ρ c main_v5 (by decide)).trans <| (W24_of m ρ c main_v5 (by decide)).trans <| (W23_of m ρ c main_v5 (by decide)).trans <| (W22_of m ρ c main_v5 (by decide)).trans <| (W21_of m ρ c main_v5 (by decide)).trans <| (W20_of m ρ c main_v5 (by decide)).trans <| (W19_of m ρ c main_v5 (by decide)).trans <| (W18_of m ρ c main_v5 (by decide)).trans <| (W17_of m ρ c main_v5 (by decide)).trans <| (W16_of m ρ c main_v5 (by decide)).trans <| (W15_of m ρ c main_v5 (by decide)).trans <| (W14_of m ρ c main_v5 (by decide)).trans <| (W13_of m ρ c main_v5 (by decide)).trans <| (W12_of m ρ c main_v5 (by decide)).trans <| (W11_of m ρ c main_v5 (by decide)).trans <| (W10_of m ρ c main_v5 (by decide)).trans <| (W9_of m ρ c main_v5 (by decide)).trans <| (W8_of m ρ c main_v5 (by decide)).trans <| (W7_of m ρ c main_v5 (by decide)).trans <| (W6_of m ρ c main_v5 (by decide)).trans <| (W5_of m ρ c main_v5 (by decide)).trans rfl
theorem keep_v21_30 (c : Dev nD) : W30 m ρ c (Proc.devRef .tc main_v21) = W5 m ρ c (Proc.devRef .tc main_v21) :=
  (W30_of m ρ c main_v21 (by decide)).trans <| (W29_of m ρ c main_v21 (by decide)).trans <| (W28_of m ρ c main_v21 (by decide)).trans <| (W27_of m ρ c main_v21 (by decide)).trans <| (W26_of m ρ c main_v21 (by decide)).trans <| (W25_of m ρ c main_v21 (by decide)).trans <| (W24_of m ρ c main_v21 (by decide)).trans <| (W23_of m ρ c main_v21 (by decide)).trans <| (W22_of m ρ c main_v21 (by decide)).trans <| (W21_of m ρ c main_v21 (by decide)).trans <| (W20_of m ρ c main_v21 (by decide)).trans <| (W19_of m ρ c main_v21 (by decide)).trans <| (W18_of m ρ c main_v21 (by decide)).trans <| (W17_of m ρ c main_v21 (by decide)).trans <| (W16_of m ρ c main_v21 (by decide)).trans <| (W15_of m ρ c main_v21 (by decide)).trans <| (W14_of m ρ c main_v21 (by decide)).trans <| (W13_of m ρ c main_v21 (by decide)).trans <| (W12_of m ρ c main_v21 (by decide)).trans <| (W11_of m ρ c main_v21 (by decide)).trans <| (W10_of m ρ c main_v21 (by decide)).trans <| (W9_of m ρ c main_v21 (by decide)).trans <| (W8_of m ρ c main_v21 (by decide)).trans <| (W7_of m ρ c main_v21 (by decide)).trans <| (W6_of m ρ c main_v21 (by decide)).trans rfl
theorem keep_arg9_30 (c : Dev nD) : W30 m ρ c (Proc.devRef .tc main_arg9) = W0 m ρ c (Proc.devRef .tc main_arg9) :=
  (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem keep_arg10_30 (c : Dev nD) : W30 m ρ c (Proc.devRef .tc main_arg10) = W0 m ρ c (Proc.devRef .tc main_arg10) :=
  (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem keep_arg11_30 (c : Dev nD) : W30 m ρ c (Proc.devRef .tc main_arg11) = W0 m ρ c (Proc.devRef .tc main_arg11) :=
  (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem keep_v53_31 (c : Dev nD) : W31 m ρ c (Proc.devRef .tc main_v53) = W5 m ρ c (Proc.devRef .tc main_v53) :=
  (W31_of m ρ c main_v53 (by decide)).trans <| (W30_of m ρ c main_v53 (by decide)).trans <| (W29_of m ρ c main_v53 (by decide)).trans <| (W28_of m ρ c main_v53 (by decide)).trans <| (W27_of m ρ c main_v53 (by decide)).trans <| (W26_of m ρ c main_v53 (by decide)).trans <| (W25_of m ρ c main_v53 (by decide)).trans <| (W24_of m ρ c main_v53 (by decide)).trans <| (W23_of m ρ c main_v53 (by decide)).trans <| (W22_of m ρ c main_v53 (by decide)).trans <| (W21_of m ρ c main_v53 (by decide)).trans <| (W20_of m ρ c main_v53 (by decide)).trans <| (W19_of m ρ c main_v53 (by decide)).trans <| (W18_of m ρ c main_v53 (by decide)).trans <| (W17_of m ρ c main_v53 (by decide)).trans <| (W16_of m ρ c main_v53 (by decide)).trans <| (W15_of m ρ c main_v53 (by decide)).trans <| (W14_of m ρ c main_v53 (by decide)).trans <| (W13_of m ρ c main_v53 (by decide)).trans <| (W12_of m ρ c main_v53 (by decide)).trans <| (W11_of m ρ c main_v53 (by decide)).trans <| (W10_of m ρ c main_v53 (by decide)).trans <| (W9_of m ρ c main_v53 (by decide)).trans <| (W8_of m ρ c main_v53 (by decide)).trans <| (W7_of m ρ c main_v53 (by decide)).trans <| (W6_of m ρ c main_v53 (by decide)).trans rfl
theorem keep_arg2_31 (c : Dev nD) : W31 m ρ c (Proc.devRef .tc main_arg2) = W0 m ρ c (Proc.devRef .tc main_arg2) :=
  (W31_of m ρ c main_arg2 (by decide)).trans <| (W30_of m ρ c main_arg2 (by decide)).trans <| (W29_of m ρ c main_arg2 (by decide)).trans <| (W28_of m ρ c main_arg2 (by decide)).trans <| (W27_of m ρ c main_arg2 (by decide)).trans <| (W26_of m ρ c main_arg2 (by decide)).trans <| (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem keep_v27_32 (c : Dev nD) : W32 m ρ c (Proc.devRef .tc main_v27) = W5 m ρ c (Proc.devRef .tc main_v27) :=
  (W32_of m ρ c main_v27 (by decide)).trans <| (W31_of m ρ c main_v27 (by decide)).trans <| (W30_of m ρ c main_v27 (by decide)).trans <| (W29_of m ρ c main_v27 (by decide)).trans <| (W28_of m ρ c main_v27 (by decide)).trans <| (W27_of m ρ c main_v27 (by decide)).trans <| (W26_of m ρ c main_v27 (by decide)).trans <| (W25_of m ρ c main_v27 (by decide)).trans <| (W24_of m ρ c main_v27 (by decide)).trans <| (W23_of m ρ c main_v27 (by decide)).trans <| (W22_of m ρ c main_v27 (by decide)).trans <| (W21_of m ρ c main_v27 (by decide)).trans <| (W20_of m ρ c main_v27 (by decide)).trans <| (W19_of m ρ c main_v27 (by decide)).trans <| (W18_of m ρ c main_v27 (by decide)).trans <| (W17_of m ρ c main_v27 (by decide)).trans <| (W16_of m ρ c main_v27 (by decide)).trans <| (W15_of m ρ c main_v27 (by decide)).trans <| (W14_of m ρ c main_v27 (by decide)).trans <| (W13_of m ρ c main_v27 (by decide)).trans <| (W12_of m ρ c main_v27 (by decide)).trans <| (W11_of m ρ c main_v27 (by decide)).trans <| (W10_of m ρ c main_v27 (by decide)).trans <| (W9_of m ρ c main_v27 (by decide)).trans <| (W8_of m ρ c main_v27 (by decide)).trans <| (W7_of m ρ c main_v27 (by decide)).trans <| (W6_of m ρ c main_v27 (by decide)).trans rfl
theorem keep_v5_32 (c : Dev nD) : W32 m ρ c (Proc.devRef .tc main_v5) = W4 m ρ c (Proc.devRef .tc main_v5) :=
  (W32_of m ρ c main_v5 (by decide)).trans <| (W31_of m ρ c main_v5 (by decide)).trans <| (W30_of m ρ c main_v5 (by decide)).trans <| (W29_of m ρ c main_v5 (by decide)).trans <| (W28_of m ρ c main_v5 (by decide)).trans <| (W27_of m ρ c main_v5 (by decide)).trans <| (W26_of m ρ c main_v5 (by decide)).trans <| (W25_of m ρ c main_v5 (by decide)).trans <| (W24_of m ρ c main_v5 (by decide)).trans <| (W23_of m ρ c main_v5 (by decide)).trans <| (W22_of m ρ c main_v5 (by decide)).trans <| (W21_of m ρ c main_v5 (by decide)).trans <| (W20_of m ρ c main_v5 (by decide)).trans <| (W19_of m ρ c main_v5 (by decide)).trans <| (W18_of m ρ c main_v5 (by decide)).trans <| (W17_of m ρ c main_v5 (by decide)).trans <| (W16_of m ρ c main_v5 (by decide)).trans <| (W15_of m ρ c main_v5 (by decide)).trans <| (W14_of m ρ c main_v5 (by decide)).trans <| (W13_of m ρ c main_v5 (by decide)).trans <| (W12_of m ρ c main_v5 (by decide)).trans <| (W11_of m ρ c main_v5 (by decide)).trans <| (W10_of m ρ c main_v5 (by decide)).trans <| (W9_of m ρ c main_v5 (by decide)).trans <| (W8_of m ρ c main_v5 (by decide)).trans <| (W7_of m ρ c main_v5 (by decide)).trans <| (W6_of m ρ c main_v5 (by decide)).trans <| (W5_of m ρ c main_v5 (by decide)).trans rfl
theorem keep_v29_32 (c : Dev nD) : W32 m ρ c (Proc.devRef .tc main_v29) = W5 m ρ c (Proc.devRef .tc main_v29) :=
  (W32_of m ρ c main_v29 (by decide)).trans <| (W31_of m ρ c main_v29 (by decide)).trans <| (W30_of m ρ c main_v29 (by decide)).trans <| (W29_of m ρ c main_v29 (by decide)).trans <| (W28_of m ρ c main_v29 (by decide)).trans <| (W27_of m ρ c main_v29 (by decide)).trans <| (W26_of m ρ c main_v29 (by decide)).trans <| (W25_of m ρ c main_v29 (by decide)).trans <| (W24_of m ρ c main_v29 (by decide)).trans <| (W23_of m ρ c main_v29 (by decide)).trans <| (W22_of m ρ c main_v29 (by decide)).trans <| (W21_of m ρ c main_v29 (by decide)).trans <| (W20_of m ρ c main_v29 (by decide)).trans <| (W19_of m ρ c main_v29 (by decide)).trans <| (W18_of m ρ c main_v29 (by decide)).trans <| (W17_of m ρ c main_v29 (by decide)).trans <| (W16_of m ρ c main_v29 (by decide)).trans <| (W15_of m ρ c main_v29 (by decide)).trans <| (W14_of m ρ c main_v29 (by decide)).trans <| (W13_of m ρ c main_v29 (by decide)).trans <| (W12_of m ρ c main_v29 (by decide)).trans <| (W11_of m ρ c main_v29 (by decide)).trans <| (W10_of m ρ c main_v29 (by decide)).trans <| (W9_of m ρ c main_v29 (by decide)).trans <| (W8_of m ρ c main_v29 (by decide)).trans <| (W7_of m ρ c main_v29 (by decide)).trans <| (W6_of m ρ c main_v29 (by decide)).trans rfl
theorem keep_arg9_32 (c : Dev nD) : W32 m ρ c (Proc.devRef .tc main_arg9) = W0 m ρ c (Proc.devRef .tc main_arg9) :=
  (W32_of m ρ c main_arg9 (by decide)).trans <| (W31_of m ρ c main_arg9 (by decide)).trans <| (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem keep_arg10_32 (c : Dev nD) : W32 m ρ c (Proc.devRef .tc main_arg10) = W0 m ρ c (Proc.devRef .tc main_arg10) :=
  (W32_of m ρ c main_arg10 (by decide)).trans <| (W31_of m ρ c main_arg10 (by decide)).trans <| (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem keep_arg11_32 (c : Dev nD) : W32 m ρ c (Proc.devRef .tc main_arg11) = W0 m ρ c (Proc.devRef .tc main_arg11) :=
  (W32_of m ρ c main_arg11 (by decide)).trans <| (W31_of m ρ c main_arg11 (by decide)).trans <| (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem keep_v61_35 (c : Dev nD) : W35 m ρ c (Proc.devRef .tc main_v61) = W5 m ρ c (Proc.devRef .tc main_v61) :=
  (W35_of m ρ c main_v61 (by decide)).trans <| (W34_of m ρ c main_v61 (by decide)).trans <| (W33_of m ρ c main_v61 (by decide)).trans <| (W32_of m ρ c main_v61 (by decide)).trans <| (W31_of m ρ c main_v61 (by decide)).trans <| (W30_of m ρ c main_v61 (by decide)).trans <| (W29_of m ρ c main_v61 (by decide)).trans <| (W28_of m ρ c main_v61 (by decide)).trans <| (W27_of m ρ c main_v61 (by decide)).trans <| (W26_of m ρ c main_v61 (by decide)).trans <| (W25_of m ρ c main_v61 (by decide)).trans <| (W24_of m ρ c main_v61 (by decide)).trans <| (W23_of m ρ c main_v61 (by decide)).trans <| (W22_of m ρ c main_v61 (by decide)).trans <| (W21_of m ρ c main_v61 (by decide)).trans <| (W20_of m ρ c main_v61 (by decide)).trans <| (W19_of m ρ c main_v61 (by decide)).trans <| (W18_of m ρ c main_v61 (by decide)).trans <| (W17_of m ρ c main_v61 (by decide)).trans <| (W16_of m ρ c main_v61 (by decide)).trans <| (W15_of m ρ c main_v61 (by decide)).trans <| (W14_of m ρ c main_v61 (by decide)).trans <| (W13_of m ρ c main_v61 (by decide)).trans <| (W12_of m ρ c main_v61 (by decide)).trans <| (W11_of m ρ c main_v61 (by decide)).trans <| (W10_of m ρ c main_v61 (by decide)).trans <| (W9_of m ρ c main_v61 (by decide)).trans <| (W8_of m ρ c main_v61 (by decide)).trans <| (W7_of m ρ c main_v61 (by decide)).trans <| (W6_of m ρ c main_v61 (by decide)).trans rfl
theorem keep_arg3_37 (c : Dev nD) : W37 m ρ c (Proc.devRef .tc main_arg3) = W0 m ρ c (Proc.devRef .tc main_arg3) :=
  (W37_of m ρ c main_arg3 (by decide)).trans <| (W36_of m ρ c main_arg3 (by decide)).trans <| (W35_of m ρ c main_arg3 (by decide)).trans <| (W34_of m ρ c main_arg3 (by decide)).trans <| (W33_of m ρ c main_arg3 (by decide)).trans <| (W32_of m ρ c main_arg3 (by decide)).trans <| (W31_of m ρ c main_arg3 (by decide)).trans <| (W30_of m ρ c main_arg3 (by decide)).trans <| (W29_of m ρ c main_arg3 (by decide)).trans <| (W28_of m ρ c main_arg3 (by decide)).trans <| (W27_of m ρ c main_arg3 (by decide)).trans <| (W26_of m ρ c main_arg3 (by decide)).trans <| (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem keep_v241_38 (c : Dev nD) : W38 m ρ c (Proc.devRef .tc main_v241) = W34 m ρ c (Proc.devRef .tc main_v241) :=
  (W38_of m ρ c main_v241 (by decide)).trans <| (W37_of m ρ c main_v241 (by decide)).trans <| (W36_of m ρ c main_v241 (by decide)).trans <| (W35_of m ρ c main_v241 (by decide)).trans rfl
theorem keep_v242_38 (c : Dev nD) : W38 m ρ c (Proc.devRef .tc main_v242) = W36 m ρ c (Proc.devRef .tc main_v242) :=
  (W38_of m ρ c main_v242 (by decide)).trans <| (W37_of m ρ c main_v242 (by decide)).trans rfl
theorem keep_v230_38 (c : Dev nD) : W38 m ρ c (Proc.devRef .tc main_v230) = W33 m ρ c (Proc.devRef .tc main_v230) :=
  (W38_of m ρ c main_v230 (by decide)).trans <| (W37_of m ρ c main_v230 (by decide)).trans <| (W36_of m ρ c main_v230 (by decide)).trans <| (W35_of m ρ c main_v230 (by decide)).trans <| (W34_of m ρ c main_v230 (by decide)).trans rfl
theorem keep_v238_38 (c : Dev nD) : W38 m ρ c (Proc.devRef .tc main_v238) = W33 m ρ c (Proc.devRef .tc main_v238) :=
  (W38_of m ρ c main_v238 (by decide)).trans <| (W37_of m ρ c main_v238 (by decide)).trans <| (W36_of m ρ c main_v238 (by decide)).trans <| (W35_of m ρ c main_v238 (by decide)).trans <| (W34_of m ρ c main_v238 (by decide)).trans rfl
theorem keep_v240_38 (c : Dev nD) : W38 m ρ c (Proc.devRef .tc main_v240) = W33 m ρ c (Proc.devRef .tc main_v240) :=
  (W38_of m ρ c main_v240 (by decide)).trans <| (W37_of m ρ c main_v240 (by decide)).trans <| (W36_of m ρ c main_v240 (by decide)).trans <| (W35_of m ρ c main_v240 (by decide)).trans <| (W34_of m ρ c main_v240 (by decide)).trans rfl
theorem keep_v35_39 (c : Dev nD) : W39 m ρ c (Proc.devRef .tc main_v35) = W5 m ρ c (Proc.devRef .tc main_v35) :=
  (W39_of m ρ c main_v35 (by decide)).trans <| (W38_of m ρ c main_v35 (by decide)).trans <| (W37_of m ρ c main_v35 (by decide)).trans <| (W36_of m ρ c main_v35 (by decide)).trans <| (W35_of m ρ c main_v35 (by decide)).trans <| (W34_of m ρ c main_v35 (by decide)).trans <| (W33_of m ρ c main_v35 (by decide)).trans <| (W32_of m ρ c main_v35 (by decide)).trans <| (W31_of m ρ c main_v35 (by decide)).trans <| (W30_of m ρ c main_v35 (by decide)).trans <| (W29_of m ρ c main_v35 (by decide)).trans <| (W28_of m ρ c main_v35 (by decide)).trans <| (W27_of m ρ c main_v35 (by decide)).trans <| (W26_of m ρ c main_v35 (by decide)).trans <| (W25_of m ρ c main_v35 (by decide)).trans <| (W24_of m ρ c main_v35 (by decide)).trans <| (W23_of m ρ c main_v35 (by decide)).trans <| (W22_of m ρ c main_v35 (by decide)).trans <| (W21_of m ρ c main_v35 (by decide)).trans <| (W20_of m ρ c main_v35 (by decide)).trans <| (W19_of m ρ c main_v35 (by decide)).trans <| (W18_of m ρ c main_v35 (by decide)).trans <| (W17_of m ρ c main_v35 (by decide)).trans <| (W16_of m ρ c main_v35 (by decide)).trans <| (W15_of m ρ c main_v35 (by decide)).trans <| (W14_of m ρ c main_v35 (by decide)).trans <| (W13_of m ρ c main_v35 (by decide)).trans <| (W12_of m ρ c main_v35 (by decide)).trans <| (W11_of m ρ c main_v35 (by decide)).trans <| (W10_of m ρ c main_v35 (by decide)).trans <| (W9_of m ρ c main_v35 (by decide)).trans <| (W8_of m ρ c main_v35 (by decide)).trans <| (W7_of m ρ c main_v35 (by decide)).trans <| (W6_of m ρ c main_v35 (by decide)).trans rfl
theorem keep_v5_39 (c : Dev nD) : W39 m ρ c (Proc.devRef .tc main_v5) = W4 m ρ c (Proc.devRef .tc main_v5) :=
  (W39_of m ρ c main_v5 (by decide)).trans <| (W38_of m ρ c main_v5 (by decide)).trans <| (W37_of m ρ c main_v5 (by decide)).trans <| (W36_of m ρ c main_v5 (by decide)).trans <| (W35_of m ρ c main_v5 (by decide)).trans <| (W34_of m ρ c main_v5 (by decide)).trans <| (W33_of m ρ c main_v5 (by decide)).trans <| (W32_of m ρ c main_v5 (by decide)).trans <| (W31_of m ρ c main_v5 (by decide)).trans <| (W30_of m ρ c main_v5 (by decide)).trans <| (W29_of m ρ c main_v5 (by decide)).trans <| (W28_of m ρ c main_v5 (by decide)).trans <| (W27_of m ρ c main_v5 (by decide)).trans <| (W26_of m ρ c main_v5 (by decide)).trans <| (W25_of m ρ c main_v5 (by decide)).trans <| (W24_of m ρ c main_v5 (by decide)).trans <| (W23_of m ρ c main_v5 (by decide)).trans <| (W22_of m ρ c main_v5 (by decide)).trans <| (W21_of m ρ c main_v5 (by decide)).trans <| (W20_of m ρ c main_v5 (by decide)).trans <| (W19_of m ρ c main_v5 (by decide)).trans <| (W18_of m ρ c main_v5 (by decide)).trans <| (W17_of m ρ c main_v5 (by decide)).trans <| (W16_of m ρ c main_v5 (by decide)).trans <| (W15_of m ρ c main_v5 (by decide)).trans <| (W14_of m ρ c main_v5 (by decide)).trans <| (W13_of m ρ c main_v5 (by decide)).trans <| (W12_of m ρ c main_v5 (by decide)).trans <| (W11_of m ρ c main_v5 (by decide)).trans <| (W10_of m ρ c main_v5 (by decide)).trans <| (W9_of m ρ c main_v5 (by decide)).trans <| (W8_of m ρ c main_v5 (by decide)).trans <| (W7_of m ρ c main_v5 (by decide)).trans <| (W6_of m ρ c main_v5 (by decide)).trans <| (W5_of m ρ c main_v5 (by decide)).trans rfl
theorem keep_v37_39 (c : Dev nD) : W39 m ρ c (Proc.devRef .tc main_v37) = W5 m ρ c (Proc.devRef .tc main_v37) :=
  (W39_of m ρ c main_v37 (by decide)).trans <| (W38_of m ρ c main_v37 (by decide)).trans <| (W37_of m ρ c main_v37 (by decide)).trans <| (W36_of m ρ c main_v37 (by decide)).trans <| (W35_of m ρ c main_v37 (by decide)).trans <| (W34_of m ρ c main_v37 (by decide)).trans <| (W33_of m ρ c main_v37 (by decide)).trans <| (W32_of m ρ c main_v37 (by decide)).trans <| (W31_of m ρ c main_v37 (by decide)).trans <| (W30_of m ρ c main_v37 (by decide)).trans <| (W29_of m ρ c main_v37 (by decide)).trans <| (W28_of m ρ c main_v37 (by decide)).trans <| (W27_of m ρ c main_v37 (by decide)).trans <| (W26_of m ρ c main_v37 (by decide)).trans <| (W25_of m ρ c main_v37 (by decide)).trans <| (W24_of m ρ c main_v37 (by decide)).trans <| (W23_of m ρ c main_v37 (by decide)).trans <| (W22_of m ρ c main_v37 (by decide)).trans <| (W21_of m ρ c main_v37 (by decide)).trans <| (W20_of m ρ c main_v37 (by decide)).trans <| (W19_of m ρ c main_v37 (by decide)).trans <| (W18_of m ρ c main_v37 (by decide)).trans <| (W17_of m ρ c main_v37 (by decide)).trans <| (W16_of m ρ c main_v37 (by decide)).trans <| (W15_of m ρ c main_v37 (by decide)).trans <| (W14_of m ρ c main_v37 (by decide)).trans <| (W13_of m ρ c main_v37 (by decide)).trans <| (W12_of m ρ c main_v37 (by decide)).trans <| (W11_of m ρ c main_v37 (by decide)).trans <| (W10_of m ρ c main_v37 (by decide)).trans <| (W9_of m ρ c main_v37 (by decide)).trans <| (W8_of m ρ c main_v37 (by decide)).trans <| (W7_of m ρ c main_v37 (by decide)).trans <| (W6_of m ρ c main_v37 (by decide)).trans rfl
theorem keep_arg9_39 (c : Dev nD) : W39 m ρ c (Proc.devRef .tc main_arg9) = W0 m ρ c (Proc.devRef .tc main_arg9) :=
  (W39_of m ρ c main_arg9 (by decide)).trans <| (W38_of m ρ c main_arg9 (by decide)).trans <| (W37_of m ρ c main_arg9 (by decide)).trans <| (W36_of m ρ c main_arg9 (by decide)).trans <| (W35_of m ρ c main_arg9 (by decide)).trans <| (W34_of m ρ c main_arg9 (by decide)).trans <| (W33_of m ρ c main_arg9 (by decide)).trans <| (W32_of m ρ c main_arg9 (by decide)).trans <| (W31_of m ρ c main_arg9 (by decide)).trans <| (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem keep_arg10_39 (c : Dev nD) : W39 m ρ c (Proc.devRef .tc main_arg10) = W0 m ρ c (Proc.devRef .tc main_arg10) :=
  (W39_of m ρ c main_arg10 (by decide)).trans <| (W38_of m ρ c main_arg10 (by decide)).trans <| (W37_of m ρ c main_arg10 (by decide)).trans <| (W36_of m ρ c main_arg10 (by decide)).trans <| (W35_of m ρ c main_arg10 (by decide)).trans <| (W34_of m ρ c main_arg10 (by decide)).trans <| (W33_of m ρ c main_arg10 (by decide)).trans <| (W32_of m ρ c main_arg10 (by decide)).trans <| (W31_of m ρ c main_arg10 (by decide)).trans <| (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem keep_arg11_39 (c : Dev nD) : W39 m ρ c (Proc.devRef .tc main_arg11) = W0 m ρ c (Proc.devRef .tc main_arg11) :=
  (W39_of m ρ c main_arg11 (by decide)).trans <| (W38_of m ρ c main_arg11 (by decide)).trans <| (W37_of m ρ c main_arg11 (by decide)).trans <| (W36_of m ρ c main_arg11 (by decide)).trans <| (W35_of m ρ c main_arg11 (by decide)).trans <| (W34_of m ρ c main_arg11 (by decide)).trans <| (W33_of m ρ c main_arg11 (by decide)).trans <| (W32_of m ρ c main_arg11 (by decide)).trans <| (W31_of m ρ c main_arg11 (by decide)).trans <| (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem keep_v69_40 (c : Dev nD) : W40 m ρ c (Proc.devRef .tc main_v69) = W5 m ρ c (Proc.devRef .tc main_v69) :=
  (W40_of m ρ c main_v69 (by decide)).trans <| (W39_of m ρ c main_v69 (by decide)).trans <| (W38_of m ρ c main_v69 (by decide)).trans <| (W37_of m ρ c main_v69 (by decide)).trans <| (W36_of m ρ c main_v69 (by decide)).trans <| (W35_of m ρ c main_v69 (by decide)).trans <| (W34_of m ρ c main_v69 (by decide)).trans <| (W33_of m ρ c main_v69 (by decide)).trans <| (W32_of m ρ c main_v69 (by decide)).trans <| (W31_of m ρ c main_v69 (by decide)).trans <| (W30_of m ρ c main_v69 (by decide)).trans <| (W29_of m ρ c main_v69 (by decide)).trans <| (W28_of m ρ c main_v69 (by decide)).trans <| (W27_of m ρ c main_v69 (by decide)).trans <| (W26_of m ρ c main_v69 (by decide)).trans <| (W25_of m ρ c main_v69 (by decide)).trans <| (W24_of m ρ c main_v69 (by decide)).trans <| (W23_of m ρ c main_v69 (by decide)).trans <| (W22_of m ρ c main_v69 (by decide)).trans <| (W21_of m ρ c main_v69 (by decide)).trans <| (W20_of m ρ c main_v69 (by decide)).trans <| (W19_of m ρ c main_v69 (by decide)).trans <| (W18_of m ρ c main_v69 (by decide)).trans <| (W17_of m ρ c main_v69 (by decide)).trans <| (W16_of m ρ c main_v69 (by decide)).trans <| (W15_of m ρ c main_v69 (by decide)).trans <| (W14_of m ρ c main_v69 (by decide)).trans <| (W13_of m ρ c main_v69 (by decide)).trans <| (W12_of m ρ c main_v69 (by decide)).trans <| (W11_of m ρ c main_v69 (by decide)).trans <| (W10_of m ρ c main_v69 (by decide)).trans <| (W9_of m ρ c main_v69 (by decide)).trans <| (W8_of m ρ c main_v69 (by decide)).trans <| (W7_of m ρ c main_v69 (by decide)).trans <| (W6_of m ρ c main_v69 (by decide)).trans rfl
theorem keep_arg4_40 (c : Dev nD) : W40 m ρ c (Proc.devRef .tc main_arg4) = W0 m ρ c (Proc.devRef .tc main_arg4) :=
  (W40_of m ρ c main_arg4 (by decide)).trans <| (W39_of m ρ c main_arg4 (by decide)).trans <| (W38_of m ρ c main_arg4 (by decide)).trans <| (W37_of m ρ c main_arg4 (by decide)).trans <| (W36_of m ρ c main_arg4 (by decide)).trans <| (W35_of m ρ c main_arg4 (by decide)).trans <| (W34_of m ρ c main_arg4 (by decide)).trans <| (W33_of m ρ c main_arg4 (by decide)).trans <| (W32_of m ρ c main_arg4 (by decide)).trans <| (W31_of m ρ c main_arg4 (by decide)).trans <| (W30_of m ρ c main_arg4 (by decide)).trans <| (W29_of m ρ c main_arg4 (by decide)).trans <| (W28_of m ρ c main_arg4 (by decide)).trans <| (W27_of m ρ c main_arg4 (by decide)).trans <| (W26_of m ρ c main_arg4 (by decide)).trans <| (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem keep_v7_41 (c : Dev nD) : W41 m ρ c (Proc.devRef .tc main_v7) = W5 m ρ c (Proc.devRef .tc main_v7) :=
  (W41_of m ρ c main_v7 (by decide)).trans <| (W40_of m ρ c main_v7 (by decide)).trans <| (W39_of m ρ c main_v7 (by decide)).trans <| (W38_of m ρ c main_v7 (by decide)).trans <| (W37_of m ρ c main_v7 (by decide)).trans <| (W36_of m ρ c main_v7 (by decide)).trans <| (W35_of m ρ c main_v7 (by decide)).trans <| (W34_of m ρ c main_v7 (by decide)).trans <| (W33_of m ρ c main_v7 (by decide)).trans <| (W32_of m ρ c main_v7 (by decide)).trans <| (W31_of m ρ c main_v7 (by decide)).trans <| (W30_of m ρ c main_v7 (by decide)).trans <| (W29_of m ρ c main_v7 (by decide)).trans <| (W28_of m ρ c main_v7 (by decide)).trans <| (W27_of m ρ c main_v7 (by decide)).trans <| (W26_of m ρ c main_v7 (by decide)).trans <| (W25_of m ρ c main_v7 (by decide)).trans <| (W24_of m ρ c main_v7 (by decide)).trans <| (W23_of m ρ c main_v7 (by decide)).trans <| (W22_of m ρ c main_v7 (by decide)).trans <| (W21_of m ρ c main_v7 (by decide)).trans <| (W20_of m ρ c main_v7 (by decide)).trans <| (W19_of m ρ c main_v7 (by decide)).trans <| (W18_of m ρ c main_v7 (by decide)).trans <| (W17_of m ρ c main_v7 (by decide)).trans <| (W16_of m ρ c main_v7 (by decide)).trans <| (W15_of m ρ c main_v7 (by decide)).trans <| (W14_of m ρ c main_v7 (by decide)).trans <| (W13_of m ρ c main_v7 (by decide)).trans <| (W12_of m ρ c main_v7 (by decide)).trans <| (W11_of m ρ c main_v7 (by decide)).trans <| (W10_of m ρ c main_v7 (by decide)).trans <| (W9_of m ρ c main_v7 (by decide)).trans <| (W8_of m ρ c main_v7 (by decide)).trans <| (W7_of m ρ c main_v7 (by decide)).trans <| (W6_of m ρ c main_v7 (by decide)).trans rfl
theorem keep_v193_41 (c : Dev nD) : W41 m ρ c (Proc.devRef .tc main_v193) = W31 m ρ c (Proc.devRef .tc main_v193) :=
  (W41_of m ρ c main_v193 (by decide)).trans <| (W40_of m ρ c main_v193 (by decide)).trans <| (W39_of m ρ c main_v193 (by decide)).trans <| (W38_of m ρ c main_v193 (by decide)).trans <| (W37_of m ρ c main_v193 (by decide)).trans <| (W36_of m ρ c main_v193 (by decide)).trans <| (W35_of m ρ c main_v193 (by decide)).trans <| (W34_of m ρ c main_v193 (by decide)).trans <| (W33_of m ρ c main_v193 (by decide)).trans <| (W32_of m ρ c main_v193 (by decide)).trans rfl
theorem keep_v9_41 (c : Dev nD) : W41 m ρ c (Proc.devRef .tc main_v9) = W5 m ρ c (Proc.devRef .tc main_v9) :=
  (W41_of m ρ c main_v9 (by decide)).trans <| (W40_of m ρ c main_v9 (by decide)).trans <| (W39_of m ρ c main_v9 (by decide)).trans <| (W38_of m ρ c main_v9 (by decide)).trans <| (W37_of m ρ c main_v9 (by decide)).trans <| (W36_of m ρ c main_v9 (by decide)).trans <| (W35_of m ρ c main_v9 (by decide)).trans <| (W34_of m ρ c main_v9 (by decide)).trans <| (W33_of m ρ c main_v9 (by decide)).trans <| (W32_of m ρ c main_v9 (by decide)).trans <| (W31_of m ρ c main_v9 (by decide)).trans <| (W30_of m ρ c main_v9 (by decide)).trans <| (W29_of m ρ c main_v9 (by decide)).trans <| (W28_of m ρ c main_v9 (by decide)).trans <| (W27_of m ρ c main_v9 (by decide)).trans <| (W26_of m ρ c main_v9 (by decide)).trans <| (W25_of m ρ c main_v9 (by decide)).trans <| (W24_of m ρ c main_v9 (by decide)).trans <| (W23_of m ρ c main_v9 (by decide)).trans <| (W22_of m ρ c main_v9 (by decide)).trans <| (W21_of m ρ c main_v9 (by decide)).trans <| (W20_of m ρ c main_v9 (by decide)).trans <| (W19_of m ρ c main_v9 (by decide)).trans <| (W18_of m ρ c main_v9 (by decide)).trans <| (W17_of m ρ c main_v9 (by decide)).trans <| (W16_of m ρ c main_v9 (by decide)).trans <| (W15_of m ρ c main_v9 (by decide)).trans <| (W14_of m ρ c main_v9 (by decide)).trans <| (W13_of m ρ c main_v9 (by decide)).trans <| (W12_of m ρ c main_v9 (by decide)).trans <| (W11_of m ρ c main_v9 (by decide)).trans <| (W10_of m ρ c main_v9 (by decide)).trans <| (W9_of m ρ c main_v9 (by decide)).trans <| (W8_of m ρ c main_v9 (by decide)).trans <| (W7_of m ρ c main_v9 (by decide)).trans <| (W6_of m ρ c main_v9 (by decide)).trans rfl
theorem keep_arg12_41 (c : Dev nD) : W41 m ρ c (Proc.devRef .tc main_arg12) = W0 m ρ c (Proc.devRef .tc main_arg12) :=
  (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem keep_arg13_41 (c : Dev nD) : W41 m ρ c (Proc.devRef .tc main_arg13) = W0 m ρ c (Proc.devRef .tc main_arg13) :=
  (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem keep_arg14_41 (c : Dev nD) : W41 m ρ c (Proc.devRef .tc main_arg14) = W0 m ρ c (Proc.devRef .tc main_arg14) :=
  (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem keep_v15_41 (c : Dev nD) : W41 m ρ c (Proc.devRef .tc main_v15) = W5 m ρ c (Proc.devRef .tc main_v15) :=
  (W41_of m ρ c main_v15 (by decide)).trans <| (W40_of m ρ c main_v15 (by decide)).trans <| (W39_of m ρ c main_v15 (by decide)).trans <| (W38_of m ρ c main_v15 (by decide)).trans <| (W37_of m ρ c main_v15 (by decide)).trans <| (W36_of m ρ c main_v15 (by decide)).trans <| (W35_of m ρ c main_v15 (by decide)).trans <| (W34_of m ρ c main_v15 (by decide)).trans <| (W33_of m ρ c main_v15 (by decide)).trans <| (W32_of m ρ c main_v15 (by decide)).trans <| (W31_of m ρ c main_v15 (by decide)).trans <| (W30_of m ρ c main_v15 (by decide)).trans <| (W29_of m ρ c main_v15 (by decide)).trans <| (W28_of m ρ c main_v15 (by decide)).trans <| (W27_of m ρ c main_v15 (by decide)).trans <| (W26_of m ρ c main_v15 (by decide)).trans <| (W25_of m ρ c main_v15 (by decide)).trans <| (W24_of m ρ c main_v15 (by decide)).trans <| (W23_of m ρ c main_v15 (by decide)).trans <| (W22_of m ρ c main_v15 (by decide)).trans <| (W21_of m ρ c main_v15 (by decide)).trans <| (W20_of m ρ c main_v15 (by decide)).trans <| (W19_of m ρ c main_v15 (by decide)).trans <| (W18_of m ρ c main_v15 (by decide)).trans <| (W17_of m ρ c main_v15 (by decide)).trans <| (W16_of m ρ c main_v15 (by decide)).trans <| (W15_of m ρ c main_v15 (by decide)).trans <| (W14_of m ρ c main_v15 (by decide)).trans <| (W13_of m ρ c main_v15 (by decide)).trans <| (W12_of m ρ c main_v15 (by decide)).trans <| (W11_of m ρ c main_v15 (by decide)).trans <| (W10_of m ρ c main_v15 (by decide)).trans <| (W9_of m ρ c main_v15 (by decide)).trans <| (W8_of m ρ c main_v15 (by decide)).trans <| (W7_of m ρ c main_v15 (by decide)).trans <| (W6_of m ρ c main_v15 (by decide)).trans rfl
theorem keep_v217_41 (c : Dev nD) : W41 m ρ c (Proc.devRef .tc main_v217) = W32 m ρ c (Proc.devRef .tc main_v217) :=
  (W41_of m ρ c main_v217 (by decide)).trans <| (W40_of m ρ c main_v217 (by decide)).trans <| (W39_of m ρ c main_v217 (by decide)).trans <| (W38_of m ρ c main_v217 (by decide)).trans <| (W37_of m ρ c main_v217 (by decide)).trans <| (W36_of m ρ c main_v217 (by decide)).trans <| (W35_of m ρ c main_v217 (by decide)).trans <| (W34_of m ρ c main_v217 (by decide)).trans <| (W33_of m ρ c main_v217 (by decide)).trans rfl
theorem keep_v17_41 (c : Dev nD) : W41 m ρ c (Proc.devRef .tc main_v17) = W5 m ρ c (Proc.devRef .tc main_v17) :=
  (W41_of m ρ c main_v17 (by decide)).trans <| (W40_of m ρ c main_v17 (by decide)).trans <| (W39_of m ρ c main_v17 (by decide)).trans <| (W38_of m ρ c main_v17 (by decide)).trans <| (W37_of m ρ c main_v17 (by decide)).trans <| (W36_of m ρ c main_v17 (by decide)).trans <| (W35_of m ρ c main_v17 (by decide)).trans <| (W34_of m ρ c main_v17 (by decide)).trans <| (W33_of m ρ c main_v17 (by decide)).trans <| (W32_of m ρ c main_v17 (by decide)).trans <| (W31_of m ρ c main_v17 (by decide)).trans <| (W30_of m ρ c main_v17 (by decide)).trans <| (W29_of m ρ c main_v17 (by decide)).trans <| (W28_of m ρ c main_v17 (by decide)).trans <| (W27_of m ρ c main_v17 (by decide)).trans <| (W26_of m ρ c main_v17 (by decide)).trans <| (W25_of m ρ c main_v17 (by decide)).trans <| (W24_of m ρ c main_v17 (by decide)).trans <| (W23_of m ρ c main_v17 (by decide)).trans <| (W22_of m ρ c main_v17 (by decide)).trans <| (W21_of m ρ c main_v17 (by decide)).trans <| (W20_of m ρ c main_v17 (by decide)).trans <| (W19_of m ρ c main_v17 (by decide)).trans <| (W18_of m ρ c main_v17 (by decide)).trans <| (W17_of m ρ c main_v17 (by decide)).trans <| (W16_of m ρ c main_v17 (by decide)).trans <| (W15_of m ρ c main_v17 (by decide)).trans <| (W14_of m ρ c main_v17 (by decide)).trans <| (W13_of m ρ c main_v17 (by decide)).trans <| (W12_of m ρ c main_v17 (by decide)).trans <| (W11_of m ρ c main_v17 (by decide)).trans <| (W10_of m ρ c main_v17 (by decide)).trans <| (W9_of m ρ c main_v17 (by decide)).trans <| (W8_of m ρ c main_v17 (by decide)).trans <| (W7_of m ρ c main_v17 (by decide)).trans <| (W6_of m ρ c main_v17 (by decide)).trans rfl
theorem keep_v23_41 (c : Dev nD) : W41 m ρ c (Proc.devRef .tc main_v23) = W5 m ρ c (Proc.devRef .tc main_v23) :=
  (W41_of m ρ c main_v23 (by decide)).trans <| (W40_of m ρ c main_v23 (by decide)).trans <| (W39_of m ρ c main_v23 (by decide)).trans <| (W38_of m ρ c main_v23 (by decide)).trans <| (W37_of m ρ c main_v23 (by decide)).trans <| (W36_of m ρ c main_v23 (by decide)).trans <| (W35_of m ρ c main_v23 (by decide)).trans <| (W34_of m ρ c main_v23 (by decide)).trans <| (W33_of m ρ c main_v23 (by decide)).trans <| (W32_of m ρ c main_v23 (by decide)).trans <| (W31_of m ρ c main_v23 (by decide)).trans <| (W30_of m ρ c main_v23 (by decide)).trans <| (W29_of m ρ c main_v23 (by decide)).trans <| (W28_of m ρ c main_v23 (by decide)).trans <| (W27_of m ρ c main_v23 (by decide)).trans <| (W26_of m ρ c main_v23 (by decide)).trans <| (W25_of m ρ c main_v23 (by decide)).trans <| (W24_of m ρ c main_v23 (by decide)).trans <| (W23_of m ρ c main_v23 (by decide)).trans <| (W22_of m ρ c main_v23 (by decide)).trans <| (W21_of m ρ c main_v23 (by decide)).trans <| (W20_of m ρ c main_v23 (by decide)).trans <| (W19_of m ρ c main_v23 (by decide)).trans <| (W18_of m ρ c main_v23 (by decide)).trans <| (W17_of m ρ c main_v23 (by decide)).trans <| (W16_of m ρ c main_v23 (by decide)).trans <| (W15_of m ρ c main_v23 (by decide)).trans <| (W14_of m ρ c main_v23 (by decide)).trans <| (W13_of m ρ c main_v23 (by decide)).trans <| (W12_of m ρ c main_v23 (by decide)).trans <| (W11_of m ρ c main_v23 (by decide)).trans <| (W10_of m ρ c main_v23 (by decide)).trans <| (W9_of m ρ c main_v23 (by decide)).trans <| (W8_of m ρ c main_v23 (by decide)).trans <| (W7_of m ρ c main_v23 (by decide)).trans <| (W6_of m ρ c main_v23 (by decide)).trans rfl
theorem keep_v245_41 (c : Dev nD) : W41 m ρ c (Proc.devRef .tc main_v245) = W40 m ρ c (Proc.devRef .tc main_v245) :=
  (W41_of m ρ c main_v245 (by decide)).trans rfl
theorem keep_v25_41 (c : Dev nD) : W41 m ρ c (Proc.devRef .tc main_v25) = W5 m ρ c (Proc.devRef .tc main_v25) :=
  (W41_of m ρ c main_v25 (by decide)).trans <| (W40_of m ρ c main_v25 (by decide)).trans <| (W39_of m ρ c main_v25 (by decide)).trans <| (W38_of m ρ c main_v25 (by decide)).trans <| (W37_of m ρ c main_v25 (by decide)).trans <| (W36_of m ρ c main_v25 (by decide)).trans <| (W35_of m ρ c main_v25 (by decide)).trans <| (W34_of m ρ c main_v25 (by decide)).trans <| (W33_of m ρ c main_v25 (by decide)).trans <| (W32_of m ρ c main_v25 (by decide)).trans <| (W31_of m ρ c main_v25 (by decide)).trans <| (W30_of m ρ c main_v25 (by decide)).trans <| (W29_of m ρ c main_v25 (by decide)).trans <| (W28_of m ρ c main_v25 (by decide)).trans <| (W27_of m ρ c main_v25 (by decide)).trans <| (W26_of m ρ c main_v25 (by decide)).trans <| (W25_of m ρ c main_v25 (by decide)).trans <| (W24_of m ρ c main_v25 (by decide)).trans <| (W23_of m ρ c main_v25 (by decide)).trans <| (W22_of m ρ c main_v25 (by decide)).trans <| (W21_of m ρ c main_v25 (by decide)).trans <| (W20_of m ρ c main_v25 (by decide)).trans <| (W19_of m ρ c main_v25 (by decide)).trans <| (W18_of m ρ c main_v25 (by decide)).trans <| (W17_of m ρ c main_v25 (by decide)).trans <| (W16_of m ρ c main_v25 (by decide)).trans <| (W15_of m ρ c main_v25 (by decide)).trans <| (W14_of m ρ c main_v25 (by decide)).trans <| (W13_of m ρ c main_v25 (by decide)).trans <| (W12_of m ρ c main_v25 (by decide)).trans <| (W11_of m ρ c main_v25 (by decide)).trans <| (W10_of m ρ c main_v25 (by decide)).trans <| (W9_of m ρ c main_v25 (by decide)).trans <| (W8_of m ρ c main_v25 (by decide)).trans <| (W7_of m ρ c main_v25 (by decide)).trans <| (W6_of m ρ c main_v25 (by decide)).trans rfl
theorem keep_v31_41 (c : Dev nD) : W41 m ρ c (Proc.devRef .tc main_v31) = W5 m ρ c (Proc.devRef .tc main_v31) :=
  (W41_of m ρ c main_v31 (by decide)).trans <| (W40_of m ρ c main_v31 (by decide)).trans <| (W39_of m ρ c main_v31 (by decide)).trans <| (W38_of m ρ c main_v31 (by decide)).trans <| (W37_of m ρ c main_v31 (by decide)).trans <| (W36_of m ρ c main_v31 (by decide)).trans <| (W35_of m ρ c main_v31 (by decide)).trans <| (W34_of m ρ c main_v31 (by decide)).trans <| (W33_of m ρ c main_v31 (by decide)).trans <| (W32_of m ρ c main_v31 (by decide)).trans <| (W31_of m ρ c main_v31 (by decide)).trans <| (W30_of m ρ c main_v31 (by decide)).trans <| (W29_of m ρ c main_v31 (by decide)).trans <| (W28_of m ρ c main_v31 (by decide)).trans <| (W27_of m ρ c main_v31 (by decide)).trans <| (W26_of m ρ c main_v31 (by decide)).trans <| (W25_of m ρ c main_v31 (by decide)).trans <| (W24_of m ρ c main_v31 (by decide)).trans <| (W23_of m ρ c main_v31 (by decide)).trans <| (W22_of m ρ c main_v31 (by decide)).trans <| (W21_of m ρ c main_v31 (by decide)).trans <| (W20_of m ρ c main_v31 (by decide)).trans <| (W19_of m ρ c main_v31 (by decide)).trans <| (W18_of m ρ c main_v31 (by decide)).trans <| (W17_of m ρ c main_v31 (by decide)).trans <| (W16_of m ρ c main_v31 (by decide)).trans <| (W15_of m ρ c main_v31 (by decide)).trans <| (W14_of m ρ c main_v31 (by decide)).trans <| (W13_of m ρ c main_v31 (by decide)).trans <| (W12_of m ρ c main_v31 (by decide)).trans <| (W11_of m ρ c main_v31 (by decide)).trans <| (W10_of m ρ c main_v31 (by decide)).trans <| (W9_of m ρ c main_v31 (by decide)).trans <| (W8_of m ρ c main_v31 (by decide)).trans <| (W7_of m ρ c main_v31 (by decide)).trans <| (W6_of m ρ c main_v31 (by decide)).trans rfl
theorem keep_v33_41 (c : Dev nD) : W41 m ρ c (Proc.devRef .tc main_v33) = W5 m ρ c (Proc.devRef .tc main_v33) :=
  (W41_of m ρ c main_v33 (by decide)).trans <| (W40_of m ρ c main_v33 (by decide)).trans <| (W39_of m ρ c main_v33 (by decide)).trans <| (W38_of m ρ c main_v33 (by decide)).trans <| (W37_of m ρ c main_v33 (by decide)).trans <| (W36_of m ρ c main_v33 (by decide)).trans <| (W35_of m ρ c main_v33 (by decide)).trans <| (W34_of m ρ c main_v33 (by decide)).trans <| (W33_of m ρ c main_v33 (by decide)).trans <| (W32_of m ρ c main_v33 (by decide)).trans <| (W31_of m ρ c main_v33 (by decide)).trans <| (W30_of m ρ c main_v33 (by decide)).trans <| (W29_of m ρ c main_v33 (by decide)).trans <| (W28_of m ρ c main_v33 (by decide)).trans <| (W27_of m ρ c main_v33 (by decide)).trans <| (W26_of m ρ c main_v33 (by decide)).trans <| (W25_of m ρ c main_v33 (by decide)).trans <| (W24_of m ρ c main_v33 (by decide)).trans <| (W23_of m ρ c main_v33 (by decide)).trans <| (W22_of m ρ c main_v33 (by decide)).trans <| (W21_of m ρ c main_v33 (by decide)).trans <| (W20_of m ρ c main_v33 (by decide)).trans <| (W19_of m ρ c main_v33 (by decide)).trans <| (W18_of m ρ c main_v33 (by decide)).trans <| (W17_of m ρ c main_v33 (by decide)).trans <| (W16_of m ρ c main_v33 (by decide)).trans <| (W15_of m ρ c main_v33 (by decide)).trans <| (W14_of m ρ c main_v33 (by decide)).trans <| (W13_of m ρ c main_v33 (by decide)).trans <| (W12_of m ρ c main_v33 (by decide)).trans <| (W11_of m ρ c main_v33 (by decide)).trans <| (W10_of m ρ c main_v33 (by decide)).trans <| (W9_of m ρ c main_v33 (by decide)).trans <| (W8_of m ρ c main_v33 (by decide)).trans <| (W7_of m ρ c main_v33 (by decide)).trans <| (W6_of m ρ c main_v33 (by decide)).trans rfl
theorem keep_v297_44 (c : Dev nD) : W44 m ρ c (Proc.devRef .tc main_v297) = W42 m ρ c (Proc.devRef .tc main_v297) :=
  (W44_of m ρ c main_v297 (by decide)).trans <| (W43_of m ρ c main_v297 (by decide)).trans rfl
theorem keep_v315_46 (c : Dev nD) : W46 m ρ c (Proc.devRef .tc main_v315) = W42 m ρ c (Proc.devRef .tc main_v315) :=
  (W46_of m ρ c main_v315 (by decide)).trans <| (W45_of m ρ c main_v315 (by decide)).trans <| (W44_of m ρ c main_v315 (by decide)).trans <| (W43_of m ρ c main_v315 (by decide)).trans rfl
theorem keep_v333_48 (c : Dev nD) : W48 m ρ c (Proc.devRef .tc main_v333) = W42 m ρ c (Proc.devRef .tc main_v333) :=
  (W48_of m ρ c main_v333 (by decide)).trans <| (W47_of m ρ c main_v333 (by decide)).trans <| (W46_of m ρ c main_v333 (by decide)).trans <| (W45_of m ρ c main_v333 (by decide)).trans <| (W44_of m ρ c main_v333 (by decide)).trans <| (W43_of m ρ c main_v333 (by decide)).trans rfl
theorem keep_v41_50 (c : Dev nD) : W50 m ρ c (Proc.devRef .tc main_v41) = W5 m ρ c (Proc.devRef .tc main_v41) :=
  (W50_of m ρ c main_v41 (by decide)).trans <| (W49_of m ρ c main_v41 (by decide)).trans <| (W48_of m ρ c main_v41 (by decide)).trans <| (W47_of m ρ c main_v41 (by decide)).trans <| (W46_of m ρ c main_v41 (by decide)).trans <| (W45_of m ρ c main_v41 (by decide)).trans <| (W44_of m ρ c main_v41 (by decide)).trans <| (W43_of m ρ c main_v41 (by decide)).trans <| (W42_of m ρ c main_v41 (by decide)).trans <| (W41_of m ρ c main_v41 (by decide)).trans <| (W40_of m ρ c main_v41 (by decide)).trans <| (W39_of m ρ c main_v41 (by decide)).trans <| (W38_of m ρ c main_v41 (by decide)).trans <| (W37_of m ρ c main_v41 (by decide)).trans <| (W36_of m ρ c main_v41 (by decide)).trans <| (W35_of m ρ c main_v41 (by decide)).trans <| (W34_of m ρ c main_v41 (by decide)).trans <| (W33_of m ρ c main_v41 (by decide)).trans <| (W32_of m ρ c main_v41 (by decide)).trans <| (W31_of m ρ c main_v41 (by decide)).trans <| (W30_of m ρ c main_v41 (by decide)).trans <| (W29_of m ρ c main_v41 (by decide)).trans <| (W28_of m ρ c main_v41 (by decide)).trans <| (W27_of m ρ c main_v41 (by decide)).trans <| (W26_of m ρ c main_v41 (by decide)).trans <| (W25_of m ρ c main_v41 (by decide)).trans <| (W24_of m ρ c main_v41 (by decide)).trans <| (W23_of m ρ c main_v41 (by decide)).trans <| (W22_of m ρ c main_v41 (by decide)).trans <| (W21_of m ρ c main_v41 (by decide)).trans <| (W20_of m ρ c main_v41 (by decide)).trans <| (W19_of m ρ c main_v41 (by decide)).trans <| (W18_of m ρ c main_v41 (by decide)).trans <| (W17_of m ρ c main_v41 (by decide)).trans <| (W16_of m ρ c main_v41 (by decide)).trans <| (W15_of m ρ c main_v41 (by decide)).trans <| (W14_of m ρ c main_v41 (by decide)).trans <| (W13_of m ρ c main_v41 (by decide)).trans <| (W12_of m ρ c main_v41 (by decide)).trans <| (W11_of m ρ c main_v41 (by decide)).trans <| (W10_of m ρ c main_v41 (by decide)).trans <| (W9_of m ρ c main_v41 (by decide)).trans <| (W8_of m ρ c main_v41 (by decide)).trans <| (W7_of m ρ c main_v41 (by decide)).trans <| (W6_of m ρ c main_v41 (by decide)).trans rfl
theorem keep_v49_52 (c : Dev nD) : W52 m ρ c (Proc.devRef .tc main_v49) = W5 m ρ c (Proc.devRef .tc main_v49) :=
  (W52_of m ρ c main_v49 (by decide)).trans <| (W51_of m ρ c main_v49 (by decide)).trans <| (W50_of m ρ c main_v49 (by decide)).trans <| (W49_of m ρ c main_v49 (by decide)).trans <| (W48_of m ρ c main_v49 (by decide)).trans <| (W47_of m ρ c main_v49 (by decide)).trans <| (W46_of m ρ c main_v49 (by decide)).trans <| (W45_of m ρ c main_v49 (by decide)).trans <| (W44_of m ρ c main_v49 (by decide)).trans <| (W43_of m ρ c main_v49 (by decide)).trans <| (W42_of m ρ c main_v49 (by decide)).trans <| (W41_of m ρ c main_v49 (by decide)).trans <| (W40_of m ρ c main_v49 (by decide)).trans <| (W39_of m ρ c main_v49 (by decide)).trans <| (W38_of m ρ c main_v49 (by decide)).trans <| (W37_of m ρ c main_v49 (by decide)).trans <| (W36_of m ρ c main_v49 (by decide)).trans <| (W35_of m ρ c main_v49 (by decide)).trans <| (W34_of m ρ c main_v49 (by decide)).trans <| (W33_of m ρ c main_v49 (by decide)).trans <| (W32_of m ρ c main_v49 (by decide)).trans <| (W31_of m ρ c main_v49 (by decide)).trans <| (W30_of m ρ c main_v49 (by decide)).trans <| (W29_of m ρ c main_v49 (by decide)).trans <| (W28_of m ρ c main_v49 (by decide)).trans <| (W27_of m ρ c main_v49 (by decide)).trans <| (W26_of m ρ c main_v49 (by decide)).trans <| (W25_of m ρ c main_v49 (by decide)).trans <| (W24_of m ρ c main_v49 (by decide)).trans <| (W23_of m ρ c main_v49 (by decide)).trans <| (W22_of m ρ c main_v49 (by decide)).trans <| (W21_of m ρ c main_v49 (by decide)).trans <| (W20_of m ρ c main_v49 (by decide)).trans <| (W19_of m ρ c main_v49 (by decide)).trans <| (W18_of m ρ c main_v49 (by decide)).trans <| (W17_of m ρ c main_v49 (by decide)).trans <| (W16_of m ρ c main_v49 (by decide)).trans <| (W15_of m ρ c main_v49 (by decide)).trans <| (W14_of m ρ c main_v49 (by decide)).trans <| (W13_of m ρ c main_v49 (by decide)).trans <| (W12_of m ρ c main_v49 (by decide)).trans <| (W11_of m ρ c main_v49 (by decide)).trans <| (W10_of m ρ c main_v49 (by decide)).trans <| (W9_of m ρ c main_v49 (by decide)).trans <| (W8_of m ρ c main_v49 (by decide)).trans <| (W7_of m ρ c main_v49 (by decide)).trans <| (W6_of m ρ c main_v49 (by decide)).trans rfl
theorem keep_v57_54 (c : Dev nD) : W54 m ρ c (Proc.devRef .tc main_v57) = W5 m ρ c (Proc.devRef .tc main_v57) :=
  (W54_of m ρ c main_v57 (by decide)).trans <| (W53_of m ρ c main_v57 (by decide)).trans <| (W52_of m ρ c main_v57 (by decide)).trans <| (W51_of m ρ c main_v57 (by decide)).trans <| (W50_of m ρ c main_v57 (by decide)).trans <| (W49_of m ρ c main_v57 (by decide)).trans <| (W48_of m ρ c main_v57 (by decide)).trans <| (W47_of m ρ c main_v57 (by decide)).trans <| (W46_of m ρ c main_v57 (by decide)).trans <| (W45_of m ρ c main_v57 (by decide)).trans <| (W44_of m ρ c main_v57 (by decide)).trans <| (W43_of m ρ c main_v57 (by decide)).trans <| (W42_of m ρ c main_v57 (by decide)).trans <| (W41_of m ρ c main_v57 (by decide)).trans <| (W40_of m ρ c main_v57 (by decide)).trans <| (W39_of m ρ c main_v57 (by decide)).trans <| (W38_of m ρ c main_v57 (by decide)).trans <| (W37_of m ρ c main_v57 (by decide)).trans <| (W36_of m ρ c main_v57 (by decide)).trans <| (W35_of m ρ c main_v57 (by decide)).trans <| (W34_of m ρ c main_v57 (by decide)).trans <| (W33_of m ρ c main_v57 (by decide)).trans <| (W32_of m ρ c main_v57 (by decide)).trans <| (W31_of m ρ c main_v57 (by decide)).trans <| (W30_of m ρ c main_v57 (by decide)).trans <| (W29_of m ρ c main_v57 (by decide)).trans <| (W28_of m ρ c main_v57 (by decide)).trans <| (W27_of m ρ c main_v57 (by decide)).trans <| (W26_of m ρ c main_v57 (by decide)).trans <| (W25_of m ρ c main_v57 (by decide)).trans <| (W24_of m ρ c main_v57 (by decide)).trans <| (W23_of m ρ c main_v57 (by decide)).trans <| (W22_of m ρ c main_v57 (by decide)).trans <| (W21_of m ρ c main_v57 (by decide)).trans <| (W20_of m ρ c main_v57 (by decide)).trans <| (W19_of m ρ c main_v57 (by decide)).trans <| (W18_of m ρ c main_v57 (by decide)).trans <| (W17_of m ρ c main_v57 (by decide)).trans <| (W16_of m ρ c main_v57 (by decide)).trans <| (W15_of m ρ c main_v57 (by decide)).trans <| (W14_of m ρ c main_v57 (by decide)).trans <| (W13_of m ρ c main_v57 (by decide)).trans <| (W12_of m ρ c main_v57 (by decide)).trans <| (W11_of m ρ c main_v57 (by decide)).trans <| (W10_of m ρ c main_v57 (by decide)).trans <| (W9_of m ρ c main_v57 (by decide)).trans <| (W8_of m ρ c main_v57 (by decide)).trans <| (W7_of m ρ c main_v57 (by decide)).trans <| (W6_of m ρ c main_v57 (by decide)).trans rfl
theorem keep_v65_56 (c : Dev nD) : W56 m ρ c (Proc.devRef .tc main_v65) = W5 m ρ c (Proc.devRef .tc main_v65) :=
  (W56_of m ρ c main_v65 (by decide)).trans <| (W55_of m ρ c main_v65 (by decide)).trans <| (W54_of m ρ c main_v65 (by decide)).trans <| (W53_of m ρ c main_v65 (by decide)).trans <| (W52_of m ρ c main_v65 (by decide)).trans <| (W51_of m ρ c main_v65 (by decide)).trans <| (W50_of m ρ c main_v65 (by decide)).trans <| (W49_of m ρ c main_v65 (by decide)).trans <| (W48_of m ρ c main_v65 (by decide)).trans <| (W47_of m ρ c main_v65 (by decide)).trans <| (W46_of m ρ c main_v65 (by decide)).trans <| (W45_of m ρ c main_v65 (by decide)).trans <| (W44_of m ρ c main_v65 (by decide)).trans <| (W43_of m ρ c main_v65 (by decide)).trans <| (W42_of m ρ c main_v65 (by decide)).trans <| (W41_of m ρ c main_v65 (by decide)).trans <| (W40_of m ρ c main_v65 (by decide)).trans <| (W39_of m ρ c main_v65 (by decide)).trans <| (W38_of m ρ c main_v65 (by decide)).trans <| (W37_of m ρ c main_v65 (by decide)).trans <| (W36_of m ρ c main_v65 (by decide)).trans <| (W35_of m ρ c main_v65 (by decide)).trans <| (W34_of m ρ c main_v65 (by decide)).trans <| (W33_of m ρ c main_v65 (by decide)).trans <| (W32_of m ρ c main_v65 (by decide)).trans <| (W31_of m ρ c main_v65 (by decide)).trans <| (W30_of m ρ c main_v65 (by decide)).trans <| (W29_of m ρ c main_v65 (by decide)).trans <| (W28_of m ρ c main_v65 (by decide)).trans <| (W27_of m ρ c main_v65 (by decide)).trans <| (W26_of m ρ c main_v65 (by decide)).trans <| (W25_of m ρ c main_v65 (by decide)).trans <| (W24_of m ρ c main_v65 (by decide)).trans <| (W23_of m ρ c main_v65 (by decide)).trans <| (W22_of m ρ c main_v65 (by decide)).trans <| (W21_of m ρ c main_v65 (by decide)).trans <| (W20_of m ρ c main_v65 (by decide)).trans <| (W19_of m ρ c main_v65 (by decide)).trans <| (W18_of m ρ c main_v65 (by decide)).trans <| (W17_of m ρ c main_v65 (by decide)).trans <| (W16_of m ρ c main_v65 (by decide)).trans <| (W15_of m ρ c main_v65 (by decide)).trans <| (W14_of m ρ c main_v65 (by decide)).trans <| (W13_of m ρ c main_v65 (by decide)).trans <| (W12_of m ρ c main_v65 (by decide)).trans <| (W11_of m ρ c main_v65 (by decide)).trans <| (W10_of m ρ c main_v65 (by decide)).trans <| (W9_of m ρ c main_v65 (by decide)).trans <| (W8_of m ρ c main_v65 (by decide)).trans <| (W7_of m ρ c main_v65 (by decide)).trans <| (W6_of m ρ c main_v65 (by decide)).trans rfl
theorem keep_v165_58 (c : Dev nD) : W58 m ρ c (Proc.devRef .tc main_v165) = W24 m ρ c (Proc.devRef .tc main_v165) :=
  (W58_of m ρ c main_v165 (by decide)).trans <| (W57_of m ρ c main_v165 (by decide)).trans <| (W56_of m ρ c main_v165 (by decide)).trans <| (W55_of m ρ c main_v165 (by decide)).trans <| (W54_of m ρ c main_v165 (by decide)).trans <| (W53_of m ρ c main_v165 (by decide)).trans <| (W52_of m ρ c main_v165 (by decide)).trans <| (W51_of m ρ c main_v165 (by decide)).trans <| (W50_of m ρ c main_v165 (by decide)).trans <| (W49_of m ρ c main_v165 (by decide)).trans <| (W48_of m ρ c main_v165 (by decide)).trans <| (W47_of m ρ c main_v165 (by decide)).trans <| (W46_of m ρ c main_v165 (by decide)).trans <| (W45_of m ρ c main_v165 (by decide)).trans <| (W44_of m ρ c main_v165 (by decide)).trans <| (W43_of m ρ c main_v165 (by decide)).trans <| (W42_of m ρ c main_v165 (by decide)).trans <| (W41_of m ρ c main_v165 (by decide)).trans <| (W40_of m ρ c main_v165 (by decide)).trans <| (W39_of m ρ c main_v165 (by decide)).trans <| (W38_of m ρ c main_v165 (by decide)).trans <| (W37_of m ρ c main_v165 (by decide)).trans <| (W36_of m ρ c main_v165 (by decide)).trans <| (W35_of m ρ c main_v165 (by decide)).trans <| (W34_of m ρ c main_v165 (by decide)).trans <| (W33_of m ρ c main_v165 (by decide)).trans <| (W32_of m ρ c main_v165 (by decide)).trans <| (W31_of m ρ c main_v165 (by decide)).trans <| (W30_of m ρ c main_v165 (by decide)).trans <| (W29_of m ρ c main_v165 (by decide)).trans <| (W28_of m ρ c main_v165 (by decide)).trans <| (W27_of m ρ c main_v165 (by decide)).trans <| (W26_of m ρ c main_v165 (by decide)).trans <| (W25_of m ρ c main_v165 (by decide)).trans rfl
theorem keep_v355_59 (c : Dev nD) : W59 m ρ c (Proc.devRef .tc main_v355) = W43 m ρ c (Proc.devRef .tc main_v355) :=
  (W59_of m ρ c main_v355 (by decide)).trans <| (W58_of m ρ c main_v355 (by decide)).trans <| (W57_of m ρ c main_v355 (by decide)).trans <| (W56_of m ρ c main_v355 (by decide)).trans <| (W55_of m ρ c main_v355 (by decide)).trans <| (W54_of m ρ c main_v355 (by decide)).trans <| (W53_of m ρ c main_v355 (by decide)).trans <| (W52_of m ρ c main_v355 (by decide)).trans <| (W51_of m ρ c main_v355 (by decide)).trans <| (W50_of m ρ c main_v355 (by decide)).trans <| (W49_of m ρ c main_v355 (by decide)).trans <| (W48_of m ρ c main_v355 (by decide)).trans <| (W47_of m ρ c main_v355 (by decide)).trans <| (W46_of m ρ c main_v355 (by decide)).trans <| (W45_of m ρ c main_v355 (by decide)).trans <| (W44_of m ρ c main_v355 (by decide)).trans rfl
theorem keep_v359_59 (c : Dev nD) : W59 m ρ c (Proc.devRef .tc main_v359) = W51 m ρ c (Proc.devRef .tc main_v359) :=
  (W59_of m ρ c main_v359 (by decide)).trans <| (W58_of m ρ c main_v359 (by decide)).trans <| (W57_of m ρ c main_v359 (by decide)).trans <| (W56_of m ρ c main_v359 (by decide)).trans <| (W55_of m ρ c main_v359 (by decide)).trans <| (W54_of m ρ c main_v359 (by decide)).trans <| (W53_of m ρ c main_v359 (by decide)).trans <| (W52_of m ρ c main_v359 (by decide)).trans rfl
theorem keep_v356_59 (c : Dev nD) : W59 m ρ c (Proc.devRef .tc main_v356) = W45 m ρ c (Proc.devRef .tc main_v356) :=
  (W59_of m ρ c main_v356 (by decide)).trans <| (W58_of m ρ c main_v356 (by decide)).trans <| (W57_of m ρ c main_v356 (by decide)).trans <| (W56_of m ρ c main_v356 (by decide)).trans <| (W55_of m ρ c main_v356 (by decide)).trans <| (W54_of m ρ c main_v356 (by decide)).trans <| (W53_of m ρ c main_v356 (by decide)).trans <| (W52_of m ρ c main_v356 (by decide)).trans <| (W51_of m ρ c main_v356 (by decide)).trans <| (W50_of m ρ c main_v356 (by decide)).trans <| (W49_of m ρ c main_v356 (by decide)).trans <| (W48_of m ρ c main_v356 (by decide)).trans <| (W47_of m ρ c main_v356 (by decide)).trans <| (W46_of m ρ c main_v356 (by decide)).trans rfl
theorem keep_v360_59 (c : Dev nD) : W59 m ρ c (Proc.devRef .tc main_v360) = W53 m ρ c (Proc.devRef .tc main_v360) :=
  (W59_of m ρ c main_v360 (by decide)).trans <| (W58_of m ρ c main_v360 (by decide)).trans <| (W57_of m ρ c main_v360 (by decide)).trans <| (W56_of m ρ c main_v360 (by decide)).trans <| (W55_of m ρ c main_v360 (by decide)).trans <| (W54_of m ρ c main_v360 (by decide)).trans rfl
theorem keep_v357_59 (c : Dev nD) : W59 m ρ c (Proc.devRef .tc main_v357) = W47 m ρ c (Proc.devRef .tc main_v357) :=
  (W59_of m ρ c main_v357 (by decide)).trans <| (W58_of m ρ c main_v357 (by decide)).trans <| (W57_of m ρ c main_v357 (by decide)).trans <| (W56_of m ρ c main_v357 (by decide)).trans <| (W55_of m ρ c main_v357 (by decide)).trans <| (W54_of m ρ c main_v357 (by decide)).trans <| (W53_of m ρ c main_v357 (by decide)).trans <| (W52_of m ρ c main_v357 (by decide)).trans <| (W51_of m ρ c main_v357 (by decide)).trans <| (W50_of m ρ c main_v357 (by decide)).trans <| (W49_of m ρ c main_v357 (by decide)).trans <| (W48_of m ρ c main_v357 (by decide)).trans rfl
theorem keep_v361_59 (c : Dev nD) : W59 m ρ c (Proc.devRef .tc main_v361) = W55 m ρ c (Proc.devRef .tc main_v361) :=
  (W59_of m ρ c main_v361 (by decide)).trans <| (W58_of m ρ c main_v361 (by decide)).trans <| (W57_of m ρ c main_v361 (by decide)).trans <| (W56_of m ρ c main_v361 (by decide)).trans rfl
theorem keep_v358_59 (c : Dev nD) : W59 m ρ c (Proc.devRef .tc main_v358) = W49 m ρ c (Proc.devRef .tc main_v358) :=
  (W59_of m ρ c main_v358 (by decide)).trans <| (W58_of m ρ c main_v358 (by decide)).trans <| (W57_of m ρ c main_v358 (by decide)).trans <| (W56_of m ρ c main_v358 (by decide)).trans <| (W55_of m ρ c main_v358 (by decide)).trans <| (W54_of m ρ c main_v358 (by decide)).trans <| (W53_of m ρ c main_v358 (by decide)).trans <| (W52_of m ρ c main_v358 (by decide)).trans <| (W51_of m ρ c main_v358 (by decide)).trans <| (W50_of m ρ c main_v358 (by decide)).trans rfl
theorem keep_v362_59 (c : Dev nD) : W59 m ρ c (Proc.devRef .tc main_v362) = W57 m ρ c (Proc.devRef .tc main_v362) :=
  (W59_of m ρ c main_v362 (by decide)).trans <| (W58_of m ρ c main_v362 (by decide)).trans rfl
theorem keep_v282_59 (c : Dev nD) : W59 m ρ c (Proc.devRef .tc main_v282) = W42 m ρ c (Proc.devRef .tc main_v282) :=
  (W59_of m ρ c main_v282 (by decide)).trans <| (W58_of m ρ c main_v282 (by decide)).trans <| (W57_of m ρ c main_v282 (by decide)).trans <| (W56_of m ρ c main_v282 (by decide)).trans <| (W55_of m ρ c main_v282 (by decide)).trans <| (W54_of m ρ c main_v282 (by decide)).trans <| (W53_of m ρ c main_v282 (by decide)).trans <| (W52_of m ρ c main_v282 (by decide)).trans <| (W51_of m ρ c main_v282 (by decide)).trans <| (W50_of m ρ c main_v282 (by decide)).trans <| (W49_of m ρ c main_v282 (by decide)).trans <| (W48_of m ρ c main_v282 (by decide)).trans <| (W47_of m ρ c main_v282 (by decide)).trans <| (W46_of m ρ c main_v282 (by decide)).trans <| (W45_of m ρ c main_v282 (by decide)).trans <| (W44_of m ρ c main_v282 (by decide)).trans <| (W43_of m ρ c main_v282 (by decide)).trans rfl
theorem keep_v300_59 (c : Dev nD) : W59 m ρ c (Proc.devRef .tc main_v300) = W42 m ρ c (Proc.devRef .tc main_v300) :=
  (W59_of m ρ c main_v300 (by decide)).trans <| (W58_of m ρ c main_v300 (by decide)).trans <| (W57_of m ρ c main_v300 (by decide)).trans <| (W56_of m ρ c main_v300 (by decide)).trans <| (W55_of m ρ c main_v300 (by decide)).trans <| (W54_of m ρ c main_v300 (by decide)).trans <| (W53_of m ρ c main_v300 (by decide)).trans <| (W52_of m ρ c main_v300 (by decide)).trans <| (W51_of m ρ c main_v300 (by decide)).trans <| (W50_of m ρ c main_v300 (by decide)).trans <| (W49_of m ρ c main_v300 (by decide)).trans <| (W48_of m ρ c main_v300 (by decide)).trans <| (W47_of m ρ c main_v300 (by decide)).trans <| (W46_of m ρ c main_v300 (by decide)).trans <| (W45_of m ρ c main_v300 (by decide)).trans <| (W44_of m ρ c main_v300 (by decide)).trans <| (W43_of m ρ c main_v300 (by decide)).trans rfl
theorem keep_v318_59 (c : Dev nD) : W59 m ρ c (Proc.devRef .tc main_v318) = W42 m ρ c (Proc.devRef .tc main_v318) :=
  (W59_of m ρ c main_v318 (by decide)).trans <| (W58_of m ρ c main_v318 (by decide)).trans <| (W57_of m ρ c main_v318 (by decide)).trans <| (W56_of m ρ c main_v318 (by decide)).trans <| (W55_of m ρ c main_v318 (by decide)).trans <| (W54_of m ρ c main_v318 (by decide)).trans <| (W53_of m ρ c main_v318 (by decide)).trans <| (W52_of m ρ c main_v318 (by decide)).trans <| (W51_of m ρ c main_v318 (by decide)).trans <| (W50_of m ρ c main_v318 (by decide)).trans <| (W49_of m ρ c main_v318 (by decide)).trans <| (W48_of m ρ c main_v318 (by decide)).trans <| (W47_of m ρ c main_v318 (by decide)).trans <| (W46_of m ρ c main_v318 (by decide)).trans <| (W45_of m ρ c main_v318 (by decide)).trans <| (W44_of m ρ c main_v318 (by decide)).trans <| (W43_of m ρ c main_v318 (by decide)).trans rfl
theorem keep_v336_59 (c : Dev nD) : W59 m ρ c (Proc.devRef .tc main_v336) = W42 m ρ c (Proc.devRef .tc main_v336) :=
  (W59_of m ρ c main_v336 (by decide)).trans <| (W58_of m ρ c main_v336 (by decide)).trans <| (W57_of m ρ c main_v336 (by decide)).trans <| (W56_of m ρ c main_v336 (by decide)).trans <| (W55_of m ρ c main_v336 (by decide)).trans <| (W54_of m ρ c main_v336 (by decide)).trans <| (W53_of m ρ c main_v336 (by decide)).trans <| (W52_of m ρ c main_v336 (by decide)).trans <| (W51_of m ρ c main_v336 (by decide)).trans <| (W50_of m ρ c main_v336 (by decide)).trans <| (W49_of m ρ c main_v336 (by decide)).trans <| (W48_of m ρ c main_v336 (by decide)).trans <| (W47_of m ρ c main_v336 (by decide)).trans <| (W46_of m ρ c main_v336 (by decide)).trans <| (W45_of m ρ c main_v336 (by decide)).trans <| (W44_of m ρ c main_v336 (by decide)).trans <| (W43_of m ρ c main_v336 (by decide)).trans rfl
theorem keep_v348_59 (c : Dev nD) : W59 m ρ c (Proc.devRef .tc main_v348) = W42 m ρ c (Proc.devRef .tc main_v348) :=
  (W59_of m ρ c main_v348 (by decide)).trans <| (W58_of m ρ c main_v348 (by decide)).trans <| (W57_of m ρ c main_v348 (by decide)).trans <| (W56_of m ρ c main_v348 (by decide)).trans <| (W55_of m ρ c main_v348 (by decide)).trans <| (W54_of m ρ c main_v348 (by decide)).trans <| (W53_of m ρ c main_v348 (by decide)).trans <| (W52_of m ρ c main_v348 (by decide)).trans <| (W51_of m ρ c main_v348 (by decide)).trans <| (W50_of m ρ c main_v348 (by decide)).trans <| (W49_of m ρ c main_v348 (by decide)).trans <| (W48_of m ρ c main_v348 (by decide)).trans <| (W47_of m ρ c main_v348 (by decide)).trans <| (W46_of m ρ c main_v348 (by decide)).trans <| (W45_of m ρ c main_v348 (by decide)).trans <| (W44_of m ρ c main_v348 (by decide)).trans <| (W43_of m ρ c main_v348 (by decide)).trans rfl
theorem keep_v354_59 (c : Dev nD) : W59 m ρ c (Proc.devRef .tc main_v354) = W42 m ρ c (Proc.devRef .tc main_v354) :=
  (W59_of m ρ c main_v354 (by decide)).trans <| (W58_of m ρ c main_v354 (by decide)).trans <| (W57_of m ρ c main_v354 (by decide)).trans <| (W56_of m ρ c main_v354 (by decide)).trans <| (W55_of m ρ c main_v354 (by decide)).trans <| (W54_of m ρ c main_v354 (by decide)).trans <| (W53_of m ρ c main_v354 (by decide)).trans <| (W52_of m ρ c main_v354 (by decide)).trans <| (W51_of m ρ c main_v354 (by decide)).trans <| (W50_of m ρ c main_v354 (by decide)).trans <| (W49_of m ρ c main_v354 (by decide)).trans <| (W48_of m ρ c main_v354 (by decide)).trans <| (W47_of m ρ c main_v354 (by decide)).trans <| (W46_of m ρ c main_v354 (by decide)).trans <| (W45_of m ρ c main_v354 (by decide)).trans <| (W44_of m ρ c main_v354 (by decide)).trans <| (W43_of m ρ c main_v354 (by decide)).trans rfl
theorem keep_v11_60 (c : Dev nD) : W60 m ρ c (Proc.devRef .tc main_v11) = W5 m ρ c (Proc.devRef .tc main_v11) :=
  (W60_of m ρ c main_v11 (by decide)).trans <| (W59_of m ρ c main_v11 (by decide)).trans <| (W58_of m ρ c main_v11 (by decide)).trans <| (W57_of m ρ c main_v11 (by decide)).trans <| (W56_of m ρ c main_v11 (by decide)).trans <| (W55_of m ρ c main_v11 (by decide)).trans <| (W54_of m ρ c main_v11 (by decide)).trans <| (W53_of m ρ c main_v11 (by decide)).trans <| (W52_of m ρ c main_v11 (by decide)).trans <| (W51_of m ρ c main_v11 (by decide)).trans <| (W50_of m ρ c main_v11 (by decide)).trans <| (W49_of m ρ c main_v11 (by decide)).trans <| (W48_of m ρ c main_v11 (by decide)).trans <| (W47_of m ρ c main_v11 (by decide)).trans <| (W46_of m ρ c main_v11 (by decide)).trans <| (W45_of m ρ c main_v11 (by decide)).trans <| (W44_of m ρ c main_v11 (by decide)).trans <| (W43_of m ρ c main_v11 (by decide)).trans <| (W42_of m ρ c main_v11 (by decide)).trans <| (W41_of m ρ c main_v11 (by decide)).trans <| (W40_of m ρ c main_v11 (by decide)).trans <| (W39_of m ρ c main_v11 (by decide)).trans <| (W38_of m ρ c main_v11 (by decide)).trans <| (W37_of m ρ c main_v11 (by decide)).trans <| (W36_of m ρ c main_v11 (by decide)).trans <| (W35_of m ρ c main_v11 (by decide)).trans <| (W34_of m ρ c main_v11 (by decide)).trans <| (W33_of m ρ c main_v11 (by decide)).trans <| (W32_of m ρ c main_v11 (by decide)).trans <| (W31_of m ρ c main_v11 (by decide)).trans <| (W30_of m ρ c main_v11 (by decide)).trans <| (W29_of m ρ c main_v11 (by decide)).trans <| (W28_of m ρ c main_v11 (by decide)).trans <| (W27_of m ρ c main_v11 (by decide)).trans <| (W26_of m ρ c main_v11 (by decide)).trans <| (W25_of m ρ c main_v11 (by decide)).trans <| (W24_of m ρ c main_v11 (by decide)).trans <| (W23_of m ρ c main_v11 (by decide)).trans <| (W22_of m ρ c main_v11 (by decide)).trans <| (W21_of m ρ c main_v11 (by decide)).trans <| (W20_of m ρ c main_v11 (by decide)).trans <| (W19_of m ρ c main_v11 (by decide)).trans <| (W18_of m ρ c main_v11 (by decide)).trans <| (W17_of m ρ c main_v11 (by decide)).trans <| (W16_of m ρ c main_v11 (by decide)).trans <| (W15_of m ρ c main_v11 (by decide)).trans <| (W14_of m ρ c main_v11 (by decide)).trans <| (W13_of m ρ c main_v11 (by decide)).trans <| (W12_of m ρ c main_v11 (by decide)).trans <| (W11_of m ρ c main_v11 (by decide)).trans <| (W10_of m ρ c main_v11 (by decide)).trans <| (W9_of m ρ c main_v11 (by decide)).trans <| (W8_of m ρ c main_v11 (by decide)).trans <| (W7_of m ρ c main_v11 (by decide)).trans <| (W6_of m ρ c main_v11 (by decide)).trans rfl
theorem keep_v165_60 (c : Dev nD) : W60 m ρ c (Proc.devRef .tc main_v165) = W24 m ρ c (Proc.devRef .tc main_v165) :=
  (W60_of m ρ c main_v165 (by decide)).trans <| (W59_of m ρ c main_v165 (by decide)).trans <| (W58_of m ρ c main_v165 (by decide)).trans <| (W57_of m ρ c main_v165 (by decide)).trans <| (W56_of m ρ c main_v165 (by decide)).trans <| (W55_of m ρ c main_v165 (by decide)).trans <| (W54_of m ρ c main_v165 (by decide)).trans <| (W53_of m ρ c main_v165 (by decide)).trans <| (W52_of m ρ c main_v165 (by decide)).trans <| (W51_of m ρ c main_v165 (by decide)).trans <| (W50_of m ρ c main_v165 (by decide)).trans <| (W49_of m ρ c main_v165 (by decide)).trans <| (W48_of m ρ c main_v165 (by decide)).trans <| (W47_of m ρ c main_v165 (by decide)).trans <| (W46_of m ρ c main_v165 (by decide)).trans <| (W45_of m ρ c main_v165 (by decide)).trans <| (W44_of m ρ c main_v165 (by decide)).trans <| (W43_of m ρ c main_v165 (by decide)).trans <| (W42_of m ρ c main_v165 (by decide)).trans <| (W41_of m ρ c main_v165 (by decide)).trans <| (W40_of m ρ c main_v165 (by decide)).trans <| (W39_of m ρ c main_v165 (by decide)).trans <| (W38_of m ρ c main_v165 (by decide)).trans <| (W37_of m ρ c main_v165 (by decide)).trans <| (W36_of m ρ c main_v165 (by decide)).trans <| (W35_of m ρ c main_v165 (by decide)).trans <| (W34_of m ρ c main_v165 (by decide)).trans <| (W33_of m ρ c main_v165 (by decide)).trans <| (W32_of m ρ c main_v165 (by decide)).trans <| (W31_of m ρ c main_v165 (by decide)).trans <| (W30_of m ρ c main_v165 (by decide)).trans <| (W29_of m ρ c main_v165 (by decide)).trans <| (W28_of m ρ c main_v165 (by decide)).trans <| (W27_of m ρ c main_v165 (by decide)).trans <| (W26_of m ρ c main_v165 (by decide)).trans <| (W25_of m ρ c main_v165 (by decide)).trans rfl
theorem keep_v13_60 (c : Dev nD) : W60 m ρ c (Proc.devRef .tc main_v13) = W5 m ρ c (Proc.devRef .tc main_v13) :=
  (W60_of m ρ c main_v13 (by decide)).trans <| (W59_of m ρ c main_v13 (by decide)).trans <| (W58_of m ρ c main_v13 (by decide)).trans <| (W57_of m ρ c main_v13 (by decide)).trans <| (W56_of m ρ c main_v13 (by decide)).trans <| (W55_of m ρ c main_v13 (by decide)).trans <| (W54_of m ρ c main_v13 (by decide)).trans <| (W53_of m ρ c main_v13 (by decide)).trans <| (W52_of m ρ c main_v13 (by decide)).trans <| (W51_of m ρ c main_v13 (by decide)).trans <| (W50_of m ρ c main_v13 (by decide)).trans <| (W49_of m ρ c main_v13 (by decide)).trans <| (W48_of m ρ c main_v13 (by decide)).trans <| (W47_of m ρ c main_v13 (by decide)).trans <| (W46_of m ρ c main_v13 (by decide)).trans <| (W45_of m ρ c main_v13 (by decide)).trans <| (W44_of m ρ c main_v13 (by decide)).trans <| (W43_of m ρ c main_v13 (by decide)).trans <| (W42_of m ρ c main_v13 (by decide)).trans <| (W41_of m ρ c main_v13 (by decide)).trans <| (W40_of m ρ c main_v13 (by decide)).trans <| (W39_of m ρ c main_v13 (by decide)).trans <| (W38_of m ρ c main_v13 (by decide)).trans <| (W37_of m ρ c main_v13 (by decide)).trans <| (W36_of m ρ c main_v13 (by decide)).trans <| (W35_of m ρ c main_v13 (by decide)).trans <| (W34_of m ρ c main_v13 (by decide)).trans <| (W33_of m ρ c main_v13 (by decide)).trans <| (W32_of m ρ c main_v13 (by decide)).trans <| (W31_of m ρ c main_v13 (by decide)).trans <| (W30_of m ρ c main_v13 (by decide)).trans <| (W29_of m ρ c main_v13 (by decide)).trans <| (W28_of m ρ c main_v13 (by decide)).trans <| (W27_of m ρ c main_v13 (by decide)).trans <| (W26_of m ρ c main_v13 (by decide)).trans <| (W25_of m ρ c main_v13 (by decide)).trans <| (W24_of m ρ c main_v13 (by decide)).trans <| (W23_of m ρ c main_v13 (by decide)).trans <| (W22_of m ρ c main_v13 (by decide)).trans <| (W21_of m ρ c main_v13 (by decide)).trans <| (W20_of m ρ c main_v13 (by decide)).trans <| (W19_of m ρ c main_v13 (by decide)).trans <| (W18_of m ρ c main_v13 (by decide)).trans <| (W17_of m ρ c main_v13 (by decide)).trans <| (W16_of m ρ c main_v13 (by decide)).trans <| (W15_of m ρ c main_v13 (by decide)).trans <| (W14_of m ρ c main_v13 (by decide)).trans <| (W13_of m ρ c main_v13 (by decide)).trans <| (W12_of m ρ c main_v13 (by decide)).trans <| (W11_of m ρ c main_v13 (by decide)).trans <| (W10_of m ρ c main_v13 (by decide)).trans <| (W9_of m ρ c main_v13 (by decide)).trans <| (W8_of m ρ c main_v13 (by decide)).trans <| (W7_of m ρ c main_v13 (by decide)).trans <| (W6_of m ρ c main_v13 (by decide)).trans rfl
theorem keep_arg12_60 (c : Dev nD) : W60 m ρ c (Proc.devRef .tc main_arg12) = W0 m ρ c (Proc.devRef .tc main_arg12) :=
  (W60_of m ρ c main_arg12 (by decide)).trans <| (W59_of m ρ c main_arg12 (by decide)).trans <| (W58_of m ρ c main_arg12 (by decide)).trans <| (W57_of m ρ c main_arg12 (by decide)).trans <| (W56_of m ρ c main_arg12 (by decide)).trans <| (W55_of m ρ c main_arg12 (by decide)).trans <| (W54_of m ρ c main_arg12 (by decide)).trans <| (W53_of m ρ c main_arg12 (by decide)).trans <| (W52_of m ρ c main_arg12 (by decide)).trans <| (W51_of m ρ c main_arg12 (by decide)).trans <| (W50_of m ρ c main_arg12 (by decide)).trans <| (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem keep_arg13_60 (c : Dev nD) : W60 m ρ c (Proc.devRef .tc main_arg13) = W0 m ρ c (Proc.devRef .tc main_arg13) :=
  (W60_of m ρ c main_arg13 (by decide)).trans <| (W59_of m ρ c main_arg13 (by decide)).trans <| (W58_of m ρ c main_arg13 (by decide)).trans <| (W57_of m ρ c main_arg13 (by decide)).trans <| (W56_of m ρ c main_arg13 (by decide)).trans <| (W55_of m ρ c main_arg13 (by decide)).trans <| (W54_of m ρ c main_arg13 (by decide)).trans <| (W53_of m ρ c main_arg13 (by decide)).trans <| (W52_of m ρ c main_arg13 (by decide)).trans <| (W51_of m ρ c main_arg13 (by decide)).trans <| (W50_of m ρ c main_arg13 (by decide)).trans <| (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem keep_arg14_60 (c : Dev nD) : W60 m ρ c (Proc.devRef .tc main_arg14) = W0 m ρ c (Proc.devRef .tc main_arg14) :=
  (W60_of m ρ c main_arg14 (by decide)).trans <| (W59_of m ρ c main_arg14 (by decide)).trans <| (W58_of m ρ c main_arg14 (by decide)).trans <| (W57_of m ρ c main_arg14 (by decide)).trans <| (W56_of m ρ c main_arg14 (by decide)).trans <| (W55_of m ρ c main_arg14 (by decide)).trans <| (W54_of m ρ c main_arg14 (by decide)).trans <| (W53_of m ρ c main_arg14 (by decide)).trans <| (W52_of m ρ c main_arg14 (by decide)).trans <| (W51_of m ρ c main_arg14 (by decide)).trans <| (W50_of m ρ c main_arg14 (by decide)).trans <| (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem keep_v45_63 (c : Dev nD) : W63 m ρ c (Proc.devRef .tc main_v45) = W5 m ρ c (Proc.devRef .tc main_v45) :=
  (W63_of m ρ c main_v45 (by decide)).trans <| (W62_of m ρ c main_v45 (by decide)).trans <| (W61_of m ρ c main_v45 (by decide)).trans <| (W60_of m ρ c main_v45 (by decide)).trans <| (W59_of m ρ c main_v45 (by decide)).trans <| (W58_of m ρ c main_v45 (by decide)).trans <| (W57_of m ρ c main_v45 (by decide)).trans <| (W56_of m ρ c main_v45 (by decide)).trans <| (W55_of m ρ c main_v45 (by decide)).trans <| (W54_of m ρ c main_v45 (by decide)).trans <| (W53_of m ρ c main_v45 (by decide)).trans <| (W52_of m ρ c main_v45 (by decide)).trans <| (W51_of m ρ c main_v45 (by decide)).trans <| (W50_of m ρ c main_v45 (by decide)).trans <| (W49_of m ρ c main_v45 (by decide)).trans <| (W48_of m ρ c main_v45 (by decide)).trans <| (W47_of m ρ c main_v45 (by decide)).trans <| (W46_of m ρ c main_v45 (by decide)).trans <| (W45_of m ρ c main_v45 (by decide)).trans <| (W44_of m ρ c main_v45 (by decide)).trans <| (W43_of m ρ c main_v45 (by decide)).trans <| (W42_of m ρ c main_v45 (by decide)).trans <| (W41_of m ρ c main_v45 (by decide)).trans <| (W40_of m ρ c main_v45 (by decide)).trans <| (W39_of m ρ c main_v45 (by decide)).trans <| (W38_of m ρ c main_v45 (by decide)).trans <| (W37_of m ρ c main_v45 (by decide)).trans <| (W36_of m ρ c main_v45 (by decide)).trans <| (W35_of m ρ c main_v45 (by decide)).trans <| (W34_of m ρ c main_v45 (by decide)).trans <| (W33_of m ρ c main_v45 (by decide)).trans <| (W32_of m ρ c main_v45 (by decide)).trans <| (W31_of m ρ c main_v45 (by decide)).trans <| (W30_of m ρ c main_v45 (by decide)).trans <| (W29_of m ρ c main_v45 (by decide)).trans <| (W28_of m ρ c main_v45 (by decide)).trans <| (W27_of m ρ c main_v45 (by decide)).trans <| (W26_of m ρ c main_v45 (by decide)).trans <| (W25_of m ρ c main_v45 (by decide)).trans <| (W24_of m ρ c main_v45 (by decide)).trans <| (W23_of m ρ c main_v45 (by decide)).trans <| (W22_of m ρ c main_v45 (by decide)).trans <| (W21_of m ρ c main_v45 (by decide)).trans <| (W20_of m ρ c main_v45 (by decide)).trans <| (W19_of m ρ c main_v45 (by decide)).trans <| (W18_of m ρ c main_v45 (by decide)).trans <| (W17_of m ρ c main_v45 (by decide)).trans <| (W16_of m ρ c main_v45 (by decide)).trans <| (W15_of m ρ c main_v45 (by decide)).trans <| (W14_of m ρ c main_v45 (by decide)).trans <| (W13_of m ρ c main_v45 (by decide)).trans <| (W12_of m ρ c main_v45 (by decide)).trans <| (W11_of m ρ c main_v45 (by decide)).trans <| (W10_of m ρ c main_v45 (by decide)).trans <| (W9_of m ρ c main_v45 (by decide)).trans <| (W8_of m ρ c main_v45 (by decide)).trans <| (W7_of m ρ c main_v45 (by decide)).trans <| (W6_of m ρ c main_v45 (by decide)).trans rfl
theorem keep_v193_65 (c : Dev nD) : W65 m ρ c (Proc.devRef .tc main_v193) = W31 m ρ c (Proc.devRef .tc main_v193) :=
  (W65_of m ρ c main_v193 (by decide)).trans <| (W64_of m ρ c main_v193 (by decide)).trans <| (W63_of m ρ c main_v193 (by decide)).trans <| (W62_of m ρ c main_v193 (by decide)).trans <| (W61_of m ρ c main_v193 (by decide)).trans <| (W60_of m ρ c main_v193 (by decide)).trans <| (W59_of m ρ c main_v193 (by decide)).trans <| (W58_of m ρ c main_v193 (by decide)).trans <| (W57_of m ρ c main_v193 (by decide)).trans <| (W56_of m ρ c main_v193 (by decide)).trans <| (W55_of m ρ c main_v193 (by decide)).trans <| (W54_of m ρ c main_v193 (by decide)).trans <| (W53_of m ρ c main_v193 (by decide)).trans <| (W52_of m ρ c main_v193 (by decide)).trans <| (W51_of m ρ c main_v193 (by decide)).trans <| (W50_of m ρ c main_v193 (by decide)).trans <| (W49_of m ρ c main_v193 (by decide)).trans <| (W48_of m ρ c main_v193 (by decide)).trans <| (W47_of m ρ c main_v193 (by decide)).trans <| (W46_of m ρ c main_v193 (by decide)).trans <| (W45_of m ρ c main_v193 (by decide)).trans <| (W44_of m ρ c main_v193 (by decide)).trans <| (W43_of m ρ c main_v193 (by decide)).trans <| (W42_of m ρ c main_v193 (by decide)).trans <| (W41_of m ρ c main_v193 (by decide)).trans <| (W40_of m ρ c main_v193 (by decide)).trans <| (W39_of m ρ c main_v193 (by decide)).trans <| (W38_of m ρ c main_v193 (by decide)).trans <| (W37_of m ρ c main_v193 (by decide)).trans <| (W36_of m ρ c main_v193 (by decide)).trans <| (W35_of m ρ c main_v193 (by decide)).trans <| (W34_of m ρ c main_v193 (by decide)).trans <| (W33_of m ρ c main_v193 (by decide)).trans <| (W32_of m ρ c main_v193 (by decide)).trans rfl
theorem keep_v389_66 (c : Dev nD) : W66 m ρ c (Proc.devRef .tc main_v389) = W62 m ρ c (Proc.devRef .tc main_v389) :=
  (W66_of m ρ c main_v389 (by decide)).trans <| (W65_of m ρ c main_v389 (by decide)).trans <| (W64_of m ρ c main_v389 (by decide)).trans <| (W63_of m ρ c main_v389 (by decide)).trans rfl
theorem keep_v390_66 (c : Dev nD) : W66 m ρ c (Proc.devRef .tc main_v390) = W64 m ρ c (Proc.devRef .tc main_v390) :=
  (W66_of m ρ c main_v390 (by decide)).trans <| (W65_of m ρ c main_v390 (by decide)).trans rfl
theorem keep_v378_66 (c : Dev nD) : W66 m ρ c (Proc.devRef .tc main_v378) = W61 m ρ c (Proc.devRef .tc main_v378) :=
  (W66_of m ρ c main_v378 (by decide)).trans <| (W65_of m ρ c main_v378 (by decide)).trans <| (W64_of m ρ c main_v378 (by decide)).trans <| (W63_of m ρ c main_v378 (by decide)).trans <| (W62_of m ρ c main_v378 (by decide)).trans rfl
theorem keep_v386_66 (c : Dev nD) : W66 m ρ c (Proc.devRef .tc main_v386) = W61 m ρ c (Proc.devRef .tc main_v386) :=
  (W66_of m ρ c main_v386 (by decide)).trans <| (W65_of m ρ c main_v386 (by decide)).trans <| (W64_of m ρ c main_v386 (by decide)).trans <| (W63_of m ρ c main_v386 (by decide)).trans <| (W62_of m ρ c main_v386 (by decide)).trans rfl
theorem keep_v388_66 (c : Dev nD) : W66 m ρ c (Proc.devRef .tc main_v388) = W61 m ρ c (Proc.devRef .tc main_v388) :=
  (W66_of m ρ c main_v388 (by decide)).trans <| (W65_of m ρ c main_v388 (by decide)).trans <| (W64_of m ρ c main_v388 (by decide)).trans <| (W63_of m ρ c main_v388 (by decide)).trans <| (W62_of m ρ c main_v388 (by decide)).trans rfl
theorem keep_v19_67 (c : Dev nD) : W67 m ρ c (Proc.devRef .tc main_v19) = W5 m ρ c (Proc.devRef .tc main_v19) :=
  (W67_of m ρ c main_v19 (by decide)).trans <| (W66_of m ρ c main_v19 (by decide)).trans <| (W65_of m ρ c main_v19 (by decide)).trans <| (W64_of m ρ c main_v19 (by decide)).trans <| (W63_of m ρ c main_v19 (by decide)).trans <| (W62_of m ρ c main_v19 (by decide)).trans <| (W61_of m ρ c main_v19 (by decide)).trans <| (W60_of m ρ c main_v19 (by decide)).trans <| (W59_of m ρ c main_v19 (by decide)).trans <| (W58_of m ρ c main_v19 (by decide)).trans <| (W57_of m ρ c main_v19 (by decide)).trans <| (W56_of m ρ c main_v19 (by decide)).trans <| (W55_of m ρ c main_v19 (by decide)).trans <| (W54_of m ρ c main_v19 (by decide)).trans <| (W53_of m ρ c main_v19 (by decide)).trans <| (W52_of m ρ c main_v19 (by decide)).trans <| (W51_of m ρ c main_v19 (by decide)).trans <| (W50_of m ρ c main_v19 (by decide)).trans <| (W49_of m ρ c main_v19 (by decide)).trans <| (W48_of m ρ c main_v19 (by decide)).trans <| (W47_of m ρ c main_v19 (by decide)).trans <| (W46_of m ρ c main_v19 (by decide)).trans <| (W45_of m ρ c main_v19 (by decide)).trans <| (W44_of m ρ c main_v19 (by decide)).trans <| (W43_of m ρ c main_v19 (by decide)).trans <| (W42_of m ρ c main_v19 (by decide)).trans <| (W41_of m ρ c main_v19 (by decide)).trans <| (W40_of m ρ c main_v19 (by decide)).trans <| (W39_of m ρ c main_v19 (by decide)).trans <| (W38_of m ρ c main_v19 (by decide)).trans <| (W37_of m ρ c main_v19 (by decide)).trans <| (W36_of m ρ c main_v19 (by decide)).trans <| (W35_of m ρ c main_v19 (by decide)).trans <| (W34_of m ρ c main_v19 (by decide)).trans <| (W33_of m ρ c main_v19 (by decide)).trans <| (W32_of m ρ c main_v19 (by decide)).trans <| (W31_of m ρ c main_v19 (by decide)).trans <| (W30_of m ρ c main_v19 (by decide)).trans <| (W29_of m ρ c main_v19 (by decide)).trans <| (W28_of m ρ c main_v19 (by decide)).trans <| (W27_of m ρ c main_v19 (by decide)).trans <| (W26_of m ρ c main_v19 (by decide)).trans <| (W25_of m ρ c main_v19 (by decide)).trans <| (W24_of m ρ c main_v19 (by decide)).trans <| (W23_of m ρ c main_v19 (by decide)).trans <| (W22_of m ρ c main_v19 (by decide)).trans <| (W21_of m ρ c main_v19 (by decide)).trans <| (W20_of m ρ c main_v19 (by decide)).trans <| (W19_of m ρ c main_v19 (by decide)).trans <| (W18_of m ρ c main_v19 (by decide)).trans <| (W17_of m ρ c main_v19 (by decide)).trans <| (W16_of m ρ c main_v19 (by decide)).trans <| (W15_of m ρ c main_v19 (by decide)).trans <| (W14_of m ρ c main_v19 (by decide)).trans <| (W13_of m ρ c main_v19 (by decide)).trans <| (W12_of m ρ c main_v19 (by decide)).trans <| (W11_of m ρ c main_v19 (by decide)).trans <| (W10_of m ρ c main_v19 (by decide)).trans <| (W9_of m ρ c main_v19 (by decide)).trans <| (W8_of m ρ c main_v19 (by decide)).trans <| (W7_of m ρ c main_v19 (by decide)).trans <| (W6_of m ρ c main_v19 (by decide)).trans rfl
theorem keep_v165_67 (c : Dev nD) : W67 m ρ c (Proc.devRef .tc main_v165) = W24 m ρ c (Proc.devRef .tc main_v165) :=
  (W67_of m ρ c main_v165 (by decide)).trans <| (W66_of m ρ c main_v165 (by decide)).trans <| (W65_of m ρ c main_v165 (by decide)).trans <| (W64_of m ρ c main_v165 (by decide)).trans <| (W63_of m ρ c main_v165 (by decide)).trans <| (W62_of m ρ c main_v165 (by decide)).trans <| (W61_of m ρ c main_v165 (by decide)).trans <| (W60_of m ρ c main_v165 (by decide)).trans <| (W59_of m ρ c main_v165 (by decide)).trans <| (W58_of m ρ c main_v165 (by decide)).trans <| (W57_of m ρ c main_v165 (by decide)).trans <| (W56_of m ρ c main_v165 (by decide)).trans <| (W55_of m ρ c main_v165 (by decide)).trans <| (W54_of m ρ c main_v165 (by decide)).trans <| (W53_of m ρ c main_v165 (by decide)).trans <| (W52_of m ρ c main_v165 (by decide)).trans <| (W51_of m ρ c main_v165 (by decide)).trans <| (W50_of m ρ c main_v165 (by decide)).trans <| (W49_of m ρ c main_v165 (by decide)).trans <| (W48_of m ρ c main_v165 (by decide)).trans <| (W47_of m ρ c main_v165 (by decide)).trans <| (W46_of m ρ c main_v165 (by decide)).trans <| (W45_of m ρ c main_v165 (by decide)).trans <| (W44_of m ρ c main_v165 (by decide)).trans <| (W43_of m ρ c main_v165 (by decide)).trans <| (W42_of m ρ c main_v165 (by decide)).trans <| (W41_of m ρ c main_v165 (by decide)).trans <| (W40_of m ρ c main_v165 (by decide)).trans <| (W39_of m ρ c main_v165 (by decide)).trans <| (W38_of m ρ c main_v165 (by decide)).trans <| (W37_of m ρ c main_v165 (by decide)).trans <| (W36_of m ρ c main_v165 (by decide)).trans <| (W35_of m ρ c main_v165 (by decide)).trans <| (W34_of m ρ c main_v165 (by decide)).trans <| (W33_of m ρ c main_v165 (by decide)).trans <| (W32_of m ρ c main_v165 (by decide)).trans <| (W31_of m ρ c main_v165 (by decide)).trans <| (W30_of m ρ c main_v165 (by decide)).trans <| (W29_of m ρ c main_v165 (by decide)).trans <| (W28_of m ρ c main_v165 (by decide)).trans <| (W27_of m ρ c main_v165 (by decide)).trans <| (W26_of m ρ c main_v165 (by decide)).trans <| (W25_of m ρ c main_v165 (by decide)).trans rfl
theorem keep_v21_67 (c : Dev nD) : W67 m ρ c (Proc.devRef .tc main_v21) = W5 m ρ c (Proc.devRef .tc main_v21) :=
  (W67_of m ρ c main_v21 (by decide)).trans <| (W66_of m ρ c main_v21 (by decide)).trans <| (W65_of m ρ c main_v21 (by decide)).trans <| (W64_of m ρ c main_v21 (by decide)).trans <| (W63_of m ρ c main_v21 (by decide)).trans <| (W62_of m ρ c main_v21 (by decide)).trans <| (W61_of m ρ c main_v21 (by decide)).trans <| (W60_of m ρ c main_v21 (by decide)).trans <| (W59_of m ρ c main_v21 (by decide)).trans <| (W58_of m ρ c main_v21 (by decide)).trans <| (W57_of m ρ c main_v21 (by decide)).trans <| (W56_of m ρ c main_v21 (by decide)).trans <| (W55_of m ρ c main_v21 (by decide)).trans <| (W54_of m ρ c main_v21 (by decide)).trans <| (W53_of m ρ c main_v21 (by decide)).trans <| (W52_of m ρ c main_v21 (by decide)).trans <| (W51_of m ρ c main_v21 (by decide)).trans <| (W50_of m ρ c main_v21 (by decide)).trans <| (W49_of m ρ c main_v21 (by decide)).trans <| (W48_of m ρ c main_v21 (by decide)).trans <| (W47_of m ρ c main_v21 (by decide)).trans <| (W46_of m ρ c main_v21 (by decide)).trans <| (W45_of m ρ c main_v21 (by decide)).trans <| (W44_of m ρ c main_v21 (by decide)).trans <| (W43_of m ρ c main_v21 (by decide)).trans <| (W42_of m ρ c main_v21 (by decide)).trans <| (W41_of m ρ c main_v21 (by decide)).trans <| (W40_of m ρ c main_v21 (by decide)).trans <| (W39_of m ρ c main_v21 (by decide)).trans <| (W38_of m ρ c main_v21 (by decide)).trans <| (W37_of m ρ c main_v21 (by decide)).trans <| (W36_of m ρ c main_v21 (by decide)).trans <| (W35_of m ρ c main_v21 (by decide)).trans <| (W34_of m ρ c main_v21 (by decide)).trans <| (W33_of m ρ c main_v21 (by decide)).trans <| (W32_of m ρ c main_v21 (by decide)).trans <| (W31_of m ρ c main_v21 (by decide)).trans <| (W30_of m ρ c main_v21 (by decide)).trans <| (W29_of m ρ c main_v21 (by decide)).trans <| (W28_of m ρ c main_v21 (by decide)).trans <| (W27_of m ρ c main_v21 (by decide)).trans <| (W26_of m ρ c main_v21 (by decide)).trans <| (W25_of m ρ c main_v21 (by decide)).trans <| (W24_of m ρ c main_v21 (by decide)).trans <| (W23_of m ρ c main_v21 (by decide)).trans <| (W22_of m ρ c main_v21 (by decide)).trans <| (W21_of m ρ c main_v21 (by decide)).trans <| (W20_of m ρ c main_v21 (by decide)).trans <| (W19_of m ρ c main_v21 (by decide)).trans <| (W18_of m ρ c main_v21 (by decide)).trans <| (W17_of m ρ c main_v21 (by decide)).trans <| (W16_of m ρ c main_v21 (by decide)).trans <| (W15_of m ρ c main_v21 (by decide)).trans <| (W14_of m ρ c main_v21 (by decide)).trans <| (W13_of m ρ c main_v21 (by decide)).trans <| (W12_of m ρ c main_v21 (by decide)).trans <| (W11_of m ρ c main_v21 (by decide)).trans <| (W10_of m ρ c main_v21 (by decide)).trans <| (W9_of m ρ c main_v21 (by decide)).trans <| (W8_of m ρ c main_v21 (by decide)).trans <| (W7_of m ρ c main_v21 (by decide)).trans <| (W6_of m ρ c main_v21 (by decide)).trans rfl
theorem keep_arg12_67 (c : Dev nD) : W67 m ρ c (Proc.devRef .tc main_arg12) = W0 m ρ c (Proc.devRef .tc main_arg12) :=
  (W67_of m ρ c main_arg12 (by decide)).trans <| (W66_of m ρ c main_arg12 (by decide)).trans <| (W65_of m ρ c main_arg12 (by decide)).trans <| (W64_of m ρ c main_arg12 (by decide)).trans <| (W63_of m ρ c main_arg12 (by decide)).trans <| (W62_of m ρ c main_arg12 (by decide)).trans <| (W61_of m ρ c main_arg12 (by decide)).trans <| (W60_of m ρ c main_arg12 (by decide)).trans <| (W59_of m ρ c main_arg12 (by decide)).trans <| (W58_of m ρ c main_arg12 (by decide)).trans <| (W57_of m ρ c main_arg12 (by decide)).trans <| (W56_of m ρ c main_arg12 (by decide)).trans <| (W55_of m ρ c main_arg12 (by decide)).trans <| (W54_of m ρ c main_arg12 (by decide)).trans <| (W53_of m ρ c main_arg12 (by decide)).trans <| (W52_of m ρ c main_arg12 (by decide)).trans <| (W51_of m ρ c main_arg12 (by decide)).trans <| (W50_of m ρ c main_arg12 (by decide)).trans <| (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem keep_arg13_67 (c : Dev nD) : W67 m ρ c (Proc.devRef .tc main_arg13) = W0 m ρ c (Proc.devRef .tc main_arg13) :=
  (W67_of m ρ c main_arg13 (by decide)).trans <| (W66_of m ρ c main_arg13 (by decide)).trans <| (W65_of m ρ c main_arg13 (by decide)).trans <| (W64_of m ρ c main_arg13 (by decide)).trans <| (W63_of m ρ c main_arg13 (by decide)).trans <| (W62_of m ρ c main_arg13 (by decide)).trans <| (W61_of m ρ c main_arg13 (by decide)).trans <| (W60_of m ρ c main_arg13 (by decide)).trans <| (W59_of m ρ c main_arg13 (by decide)).trans <| (W58_of m ρ c main_arg13 (by decide)).trans <| (W57_of m ρ c main_arg13 (by decide)).trans <| (W56_of m ρ c main_arg13 (by decide)).trans <| (W55_of m ρ c main_arg13 (by decide)).trans <| (W54_of m ρ c main_arg13 (by decide)).trans <| (W53_of m ρ c main_arg13 (by decide)).trans <| (W52_of m ρ c main_arg13 (by decide)).trans <| (W51_of m ρ c main_arg13 (by decide)).trans <| (W50_of m ρ c main_arg13 (by decide)).trans <| (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem keep_arg14_67 (c : Dev nD) : W67 m ρ c (Proc.devRef .tc main_arg14) = W0 m ρ c (Proc.devRef .tc main_arg14) :=
  (W67_of m ρ c main_arg14 (by decide)).trans <| (W66_of m ρ c main_arg14 (by decide)).trans <| (W65_of m ρ c main_arg14 (by decide)).trans <| (W64_of m ρ c main_arg14 (by decide)).trans <| (W63_of m ρ c main_arg14 (by decide)).trans <| (W62_of m ρ c main_arg14 (by decide)).trans <| (W61_of m ρ c main_arg14 (by decide)).trans <| (W60_of m ρ c main_arg14 (by decide)).trans <| (W59_of m ρ c main_arg14 (by decide)).trans <| (W58_of m ρ c main_arg14 (by decide)).trans <| (W57_of m ρ c main_arg14 (by decide)).trans <| (W56_of m ρ c main_arg14 (by decide)).trans <| (W55_of m ρ c main_arg14 (by decide)).trans <| (W54_of m ρ c main_arg14 (by decide)).trans <| (W53_of m ρ c main_arg14 (by decide)).trans <| (W52_of m ρ c main_arg14 (by decide)).trans <| (W51_of m ρ c main_arg14 (by decide)).trans <| (W50_of m ρ c main_arg14 (by decide)).trans <| (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem keep_v53_68 (c : Dev nD) : W68 m ρ c (Proc.devRef .tc main_v53) = W5 m ρ c (Proc.devRef .tc main_v53) :=
  (W68_of m ρ c main_v53 (by decide)).trans <| (W67_of m ρ c main_v53 (by decide)).trans <| (W66_of m ρ c main_v53 (by decide)).trans <| (W65_of m ρ c main_v53 (by decide)).trans <| (W64_of m ρ c main_v53 (by decide)).trans <| (W63_of m ρ c main_v53 (by decide)).trans <| (W62_of m ρ c main_v53 (by decide)).trans <| (W61_of m ρ c main_v53 (by decide)).trans <| (W60_of m ρ c main_v53 (by decide)).trans <| (W59_of m ρ c main_v53 (by decide)).trans <| (W58_of m ρ c main_v53 (by decide)).trans <| (W57_of m ρ c main_v53 (by decide)).trans <| (W56_of m ρ c main_v53 (by decide)).trans <| (W55_of m ρ c main_v53 (by decide)).trans <| (W54_of m ρ c main_v53 (by decide)).trans <| (W53_of m ρ c main_v53 (by decide)).trans <| (W52_of m ρ c main_v53 (by decide)).trans <| (W51_of m ρ c main_v53 (by decide)).trans <| (W50_of m ρ c main_v53 (by decide)).trans <| (W49_of m ρ c main_v53 (by decide)).trans <| (W48_of m ρ c main_v53 (by decide)).trans <| (W47_of m ρ c main_v53 (by decide)).trans <| (W46_of m ρ c main_v53 (by decide)).trans <| (W45_of m ρ c main_v53 (by decide)).trans <| (W44_of m ρ c main_v53 (by decide)).trans <| (W43_of m ρ c main_v53 (by decide)).trans <| (W42_of m ρ c main_v53 (by decide)).trans <| (W41_of m ρ c main_v53 (by decide)).trans <| (W40_of m ρ c main_v53 (by decide)).trans <| (W39_of m ρ c main_v53 (by decide)).trans <| (W38_of m ρ c main_v53 (by decide)).trans <| (W37_of m ρ c main_v53 (by decide)).trans <| (W36_of m ρ c main_v53 (by decide)).trans <| (W35_of m ρ c main_v53 (by decide)).trans <| (W34_of m ρ c main_v53 (by decide)).trans <| (W33_of m ρ c main_v53 (by decide)).trans <| (W32_of m ρ c main_v53 (by decide)).trans <| (W31_of m ρ c main_v53 (by decide)).trans <| (W30_of m ρ c main_v53 (by decide)).trans <| (W29_of m ρ c main_v53 (by decide)).trans <| (W28_of m ρ c main_v53 (by decide)).trans <| (W27_of m ρ c main_v53 (by decide)).trans <| (W26_of m ρ c main_v53 (by decide)).trans <| (W25_of m ρ c main_v53 (by decide)).trans <| (W24_of m ρ c main_v53 (by decide)).trans <| (W23_of m ρ c main_v53 (by decide)).trans <| (W22_of m ρ c main_v53 (by decide)).trans <| (W21_of m ρ c main_v53 (by decide)).trans <| (W20_of m ρ c main_v53 (by decide)).trans <| (W19_of m ρ c main_v53 (by decide)).trans <| (W18_of m ρ c main_v53 (by decide)).trans <| (W17_of m ρ c main_v53 (by decide)).trans <| (W16_of m ρ c main_v53 (by decide)).trans <| (W15_of m ρ c main_v53 (by decide)).trans <| (W14_of m ρ c main_v53 (by decide)).trans <| (W13_of m ρ c main_v53 (by decide)).trans <| (W12_of m ρ c main_v53 (by decide)).trans <| (W11_of m ρ c main_v53 (by decide)).trans <| (W10_of m ρ c main_v53 (by decide)).trans <| (W9_of m ρ c main_v53 (by decide)).trans <| (W8_of m ρ c main_v53 (by decide)).trans <| (W7_of m ρ c main_v53 (by decide)).trans <| (W6_of m ρ c main_v53 (by decide)).trans rfl
theorem keep_v217_68 (c : Dev nD) : W68 m ρ c (Proc.devRef .tc main_v217) = W32 m ρ c (Proc.devRef .tc main_v217) :=
  (W68_of m ρ c main_v217 (by decide)).trans <| (W67_of m ρ c main_v217 (by decide)).trans <| (W66_of m ρ c main_v217 (by decide)).trans <| (W65_of m ρ c main_v217 (by decide)).trans <| (W64_of m ρ c main_v217 (by decide)).trans <| (W63_of m ρ c main_v217 (by decide)).trans <| (W62_of m ρ c main_v217 (by decide)).trans <| (W61_of m ρ c main_v217 (by decide)).trans <| (W60_of m ρ c main_v217 (by decide)).trans <| (W59_of m ρ c main_v217 (by decide)).trans <| (W58_of m ρ c main_v217 (by decide)).trans <| (W57_of m ρ c main_v217 (by decide)).trans <| (W56_of m ρ c main_v217 (by decide)).trans <| (W55_of m ρ c main_v217 (by decide)).trans <| (W54_of m ρ c main_v217 (by decide)).trans <| (W53_of m ρ c main_v217 (by decide)).trans <| (W52_of m ρ c main_v217 (by decide)).trans <| (W51_of m ρ c main_v217 (by decide)).trans <| (W50_of m ρ c main_v217 (by decide)).trans <| (W49_of m ρ c main_v217 (by decide)).trans <| (W48_of m ρ c main_v217 (by decide)).trans <| (W47_of m ρ c main_v217 (by decide)).trans <| (W46_of m ρ c main_v217 (by decide)).trans <| (W45_of m ρ c main_v217 (by decide)).trans <| (W44_of m ρ c main_v217 (by decide)).trans <| (W43_of m ρ c main_v217 (by decide)).trans <| (W42_of m ρ c main_v217 (by decide)).trans <| (W41_of m ρ c main_v217 (by decide)).trans <| (W40_of m ρ c main_v217 (by decide)).trans <| (W39_of m ρ c main_v217 (by decide)).trans <| (W38_of m ρ c main_v217 (by decide)).trans <| (W37_of m ρ c main_v217 (by decide)).trans <| (W36_of m ρ c main_v217 (by decide)).trans <| (W35_of m ρ c main_v217 (by decide)).trans <| (W34_of m ρ c main_v217 (by decide)).trans <| (W33_of m ρ c main_v217 (by decide)).trans rfl
theorem keep_v27_69 (c : Dev nD) : W69 m ρ c (Proc.devRef .tc main_v27) = W5 m ρ c (Proc.devRef .tc main_v27) :=
  (W69_of m ρ c main_v27 (by decide)).trans <| (W68_of m ρ c main_v27 (by decide)).trans <| (W67_of m ρ c main_v27 (by decide)).trans <| (W66_of m ρ c main_v27 (by decide)).trans <| (W65_of m ρ c main_v27 (by decide)).trans <| (W64_of m ρ c main_v27 (by decide)).trans <| (W63_of m ρ c main_v27 (by decide)).trans <| (W62_of m ρ c main_v27 (by decide)).trans <| (W61_of m ρ c main_v27 (by decide)).trans <| (W60_of m ρ c main_v27 (by decide)).trans <| (W59_of m ρ c main_v27 (by decide)).trans <| (W58_of m ρ c main_v27 (by decide)).trans <| (W57_of m ρ c main_v27 (by decide)).trans <| (W56_of m ρ c main_v27 (by decide)).trans <| (W55_of m ρ c main_v27 (by decide)).trans <| (W54_of m ρ c main_v27 (by decide)).trans <| (W53_of m ρ c main_v27 (by decide)).trans <| (W52_of m ρ c main_v27 (by decide)).trans <| (W51_of m ρ c main_v27 (by decide)).trans <| (W50_of m ρ c main_v27 (by decide)).trans <| (W49_of m ρ c main_v27 (by decide)).trans <| (W48_of m ρ c main_v27 (by decide)).trans <| (W47_of m ρ c main_v27 (by decide)).trans <| (W46_of m ρ c main_v27 (by decide)).trans <| (W45_of m ρ c main_v27 (by decide)).trans <| (W44_of m ρ c main_v27 (by decide)).trans <| (W43_of m ρ c main_v27 (by decide)).trans <| (W42_of m ρ c main_v27 (by decide)).trans <| (W41_of m ρ c main_v27 (by decide)).trans <| (W40_of m ρ c main_v27 (by decide)).trans <| (W39_of m ρ c main_v27 (by decide)).trans <| (W38_of m ρ c main_v27 (by decide)).trans <| (W37_of m ρ c main_v27 (by decide)).trans <| (W36_of m ρ c main_v27 (by decide)).trans <| (W35_of m ρ c main_v27 (by decide)).trans <| (W34_of m ρ c main_v27 (by decide)).trans <| (W33_of m ρ c main_v27 (by decide)).trans <| (W32_of m ρ c main_v27 (by decide)).trans <| (W31_of m ρ c main_v27 (by decide)).trans <| (W30_of m ρ c main_v27 (by decide)).trans <| (W29_of m ρ c main_v27 (by decide)).trans <| (W28_of m ρ c main_v27 (by decide)).trans <| (W27_of m ρ c main_v27 (by decide)).trans <| (W26_of m ρ c main_v27 (by decide)).trans <| (W25_of m ρ c main_v27 (by decide)).trans <| (W24_of m ρ c main_v27 (by decide)).trans <| (W23_of m ρ c main_v27 (by decide)).trans <| (W22_of m ρ c main_v27 (by decide)).trans <| (W21_of m ρ c main_v27 (by decide)).trans <| (W20_of m ρ c main_v27 (by decide)).trans <| (W19_of m ρ c main_v27 (by decide)).trans <| (W18_of m ρ c main_v27 (by decide)).trans <| (W17_of m ρ c main_v27 (by decide)).trans <| (W16_of m ρ c main_v27 (by decide)).trans <| (W15_of m ρ c main_v27 (by decide)).trans <| (W14_of m ρ c main_v27 (by decide)).trans <| (W13_of m ρ c main_v27 (by decide)).trans <| (W12_of m ρ c main_v27 (by decide)).trans <| (W11_of m ρ c main_v27 (by decide)).trans <| (W10_of m ρ c main_v27 (by decide)).trans <| (W9_of m ρ c main_v27 (by decide)).trans <| (W8_of m ρ c main_v27 (by decide)).trans <| (W7_of m ρ c main_v27 (by decide)).trans <| (W6_of m ρ c main_v27 (by decide)).trans rfl
theorem keep_v165_69 (c : Dev nD) : W69 m ρ c (Proc.devRef .tc main_v165) = W24 m ρ c (Proc.devRef .tc main_v165) :=
  (W69_of m ρ c main_v165 (by decide)).trans <| (W68_of m ρ c main_v165 (by decide)).trans <| (W67_of m ρ c main_v165 (by decide)).trans <| (W66_of m ρ c main_v165 (by decide)).trans <| (W65_of m ρ c main_v165 (by decide)).trans <| (W64_of m ρ c main_v165 (by decide)).trans <| (W63_of m ρ c main_v165 (by decide)).trans <| (W62_of m ρ c main_v165 (by decide)).trans <| (W61_of m ρ c main_v165 (by decide)).trans <| (W60_of m ρ c main_v165 (by decide)).trans <| (W59_of m ρ c main_v165 (by decide)).trans <| (W58_of m ρ c main_v165 (by decide)).trans <| (W57_of m ρ c main_v165 (by decide)).trans <| (W56_of m ρ c main_v165 (by decide)).trans <| (W55_of m ρ c main_v165 (by decide)).trans <| (W54_of m ρ c main_v165 (by decide)).trans <| (W53_of m ρ c main_v165 (by decide)).trans <| (W52_of m ρ c main_v165 (by decide)).trans <| (W51_of m ρ c main_v165 (by decide)).trans <| (W50_of m ρ c main_v165 (by decide)).trans <| (W49_of m ρ c main_v165 (by decide)).trans <| (W48_of m ρ c main_v165 (by decide)).trans <| (W47_of m ρ c main_v165 (by decide)).trans <| (W46_of m ρ c main_v165 (by decide)).trans <| (W45_of m ρ c main_v165 (by decide)).trans <| (W44_of m ρ c main_v165 (by decide)).trans <| (W43_of m ρ c main_v165 (by decide)).trans <| (W42_of m ρ c main_v165 (by decide)).trans <| (W41_of m ρ c main_v165 (by decide)).trans <| (W40_of m ρ c main_v165 (by decide)).trans <| (W39_of m ρ c main_v165 (by decide)).trans <| (W38_of m ρ c main_v165 (by decide)).trans <| (W37_of m ρ c main_v165 (by decide)).trans <| (W36_of m ρ c main_v165 (by decide)).trans <| (W35_of m ρ c main_v165 (by decide)).trans <| (W34_of m ρ c main_v165 (by decide)).trans <| (W33_of m ρ c main_v165 (by decide)).trans <| (W32_of m ρ c main_v165 (by decide)).trans <| (W31_of m ρ c main_v165 (by decide)).trans <| (W30_of m ρ c main_v165 (by decide)).trans <| (W29_of m ρ c main_v165 (by decide)).trans <| (W28_of m ρ c main_v165 (by decide)).trans <| (W27_of m ρ c main_v165 (by decide)).trans <| (W26_of m ρ c main_v165 (by decide)).trans <| (W25_of m ρ c main_v165 (by decide)).trans rfl
theorem keep_v29_69 (c : Dev nD) : W69 m ρ c (Proc.devRef .tc main_v29) = W5 m ρ c (Proc.devRef .tc main_v29) :=
  (W69_of m ρ c main_v29 (by decide)).trans <| (W68_of m ρ c main_v29 (by decide)).trans <| (W67_of m ρ c main_v29 (by decide)).trans <| (W66_of m ρ c main_v29 (by decide)).trans <| (W65_of m ρ c main_v29 (by decide)).trans <| (W64_of m ρ c main_v29 (by decide)).trans <| (W63_of m ρ c main_v29 (by decide)).trans <| (W62_of m ρ c main_v29 (by decide)).trans <| (W61_of m ρ c main_v29 (by decide)).trans <| (W60_of m ρ c main_v29 (by decide)).trans <| (W59_of m ρ c main_v29 (by decide)).trans <| (W58_of m ρ c main_v29 (by decide)).trans <| (W57_of m ρ c main_v29 (by decide)).trans <| (W56_of m ρ c main_v29 (by decide)).trans <| (W55_of m ρ c main_v29 (by decide)).trans <| (W54_of m ρ c main_v29 (by decide)).trans <| (W53_of m ρ c main_v29 (by decide)).trans <| (W52_of m ρ c main_v29 (by decide)).trans <| (W51_of m ρ c main_v29 (by decide)).trans <| (W50_of m ρ c main_v29 (by decide)).trans <| (W49_of m ρ c main_v29 (by decide)).trans <| (W48_of m ρ c main_v29 (by decide)).trans <| (W47_of m ρ c main_v29 (by decide)).trans <| (W46_of m ρ c main_v29 (by decide)).trans <| (W45_of m ρ c main_v29 (by decide)).trans <| (W44_of m ρ c main_v29 (by decide)).trans <| (W43_of m ρ c main_v29 (by decide)).trans <| (W42_of m ρ c main_v29 (by decide)).trans <| (W41_of m ρ c main_v29 (by decide)).trans <| (W40_of m ρ c main_v29 (by decide)).trans <| (W39_of m ρ c main_v29 (by decide)).trans <| (W38_of m ρ c main_v29 (by decide)).trans <| (W37_of m ρ c main_v29 (by decide)).trans <| (W36_of m ρ c main_v29 (by decide)).trans <| (W35_of m ρ c main_v29 (by decide)).trans <| (W34_of m ρ c main_v29 (by decide)).trans <| (W33_of m ρ c main_v29 (by decide)).trans <| (W32_of m ρ c main_v29 (by decide)).trans <| (W31_of m ρ c main_v29 (by decide)).trans <| (W30_of m ρ c main_v29 (by decide)).trans <| (W29_of m ρ c main_v29 (by decide)).trans <| (W28_of m ρ c main_v29 (by decide)).trans <| (W27_of m ρ c main_v29 (by decide)).trans <| (W26_of m ρ c main_v29 (by decide)).trans <| (W25_of m ρ c main_v29 (by decide)).trans <| (W24_of m ρ c main_v29 (by decide)).trans <| (W23_of m ρ c main_v29 (by decide)).trans <| (W22_of m ρ c main_v29 (by decide)).trans <| (W21_of m ρ c main_v29 (by decide)).trans <| (W20_of m ρ c main_v29 (by decide)).trans <| (W19_of m ρ c main_v29 (by decide)).trans <| (W18_of m ρ c main_v29 (by decide)).trans <| (W17_of m ρ c main_v29 (by decide)).trans <| (W16_of m ρ c main_v29 (by decide)).trans <| (W15_of m ρ c main_v29 (by decide)).trans <| (W14_of m ρ c main_v29 (by decide)).trans <| (W13_of m ρ c main_v29 (by decide)).trans <| (W12_of m ρ c main_v29 (by decide)).trans <| (W11_of m ρ c main_v29 (by decide)).trans <| (W10_of m ρ c main_v29 (by decide)).trans <| (W9_of m ρ c main_v29 (by decide)).trans <| (W8_of m ρ c main_v29 (by decide)).trans <| (W7_of m ρ c main_v29 (by decide)).trans <| (W6_of m ρ c main_v29 (by decide)).trans rfl
theorem keep_arg12_69 (c : Dev nD) : W69 m ρ c (Proc.devRef .tc main_arg12) = W0 m ρ c (Proc.devRef .tc main_arg12) :=
  (W69_of m ρ c main_arg12 (by decide)).trans <| (W68_of m ρ c main_arg12 (by decide)).trans <| (W67_of m ρ c main_arg12 (by decide)).trans <| (W66_of m ρ c main_arg12 (by decide)).trans <| (W65_of m ρ c main_arg12 (by decide)).trans <| (W64_of m ρ c main_arg12 (by decide)).trans <| (W63_of m ρ c main_arg12 (by decide)).trans <| (W62_of m ρ c main_arg12 (by decide)).trans <| (W61_of m ρ c main_arg12 (by decide)).trans <| (W60_of m ρ c main_arg12 (by decide)).trans <| (W59_of m ρ c main_arg12 (by decide)).trans <| (W58_of m ρ c main_arg12 (by decide)).trans <| (W57_of m ρ c main_arg12 (by decide)).trans <| (W56_of m ρ c main_arg12 (by decide)).trans <| (W55_of m ρ c main_arg12 (by decide)).trans <| (W54_of m ρ c main_arg12 (by decide)).trans <| (W53_of m ρ c main_arg12 (by decide)).trans <| (W52_of m ρ c main_arg12 (by decide)).trans <| (W51_of m ρ c main_arg12 (by decide)).trans <| (W50_of m ρ c main_arg12 (by decide)).trans <| (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem keep_arg13_69 (c : Dev nD) : W69 m ρ c (Proc.devRef .tc main_arg13) = W0 m ρ c (Proc.devRef .tc main_arg13) :=
  (W69_of m ρ c main_arg13 (by decide)).trans <| (W68_of m ρ c main_arg13 (by decide)).trans <| (W67_of m ρ c main_arg13 (by decide)).trans <| (W66_of m ρ c main_arg13 (by decide)).trans <| (W65_of m ρ c main_arg13 (by decide)).trans <| (W64_of m ρ c main_arg13 (by decide)).trans <| (W63_of m ρ c main_arg13 (by decide)).trans <| (W62_of m ρ c main_arg13 (by decide)).trans <| (W61_of m ρ c main_arg13 (by decide)).trans <| (W60_of m ρ c main_arg13 (by decide)).trans <| (W59_of m ρ c main_arg13 (by decide)).trans <| (W58_of m ρ c main_arg13 (by decide)).trans <| (W57_of m ρ c main_arg13 (by decide)).trans <| (W56_of m ρ c main_arg13 (by decide)).trans <| (W55_of m ρ c main_arg13 (by decide)).trans <| (W54_of m ρ c main_arg13 (by decide)).trans <| (W53_of m ρ c main_arg13 (by decide)).trans <| (W52_of m ρ c main_arg13 (by decide)).trans <| (W51_of m ρ c main_arg13 (by decide)).trans <| (W50_of m ρ c main_arg13 (by decide)).trans <| (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem keep_arg14_69 (c : Dev nD) : W69 m ρ c (Proc.devRef .tc main_arg14) = W0 m ρ c (Proc.devRef .tc main_arg14) :=
  (W69_of m ρ c main_arg14 (by decide)).trans <| (W68_of m ρ c main_arg14 (by decide)).trans <| (W67_of m ρ c main_arg14 (by decide)).trans <| (W66_of m ρ c main_arg14 (by decide)).trans <| (W65_of m ρ c main_arg14 (by decide)).trans <| (W64_of m ρ c main_arg14 (by decide)).trans <| (W63_of m ρ c main_arg14 (by decide)).trans <| (W62_of m ρ c main_arg14 (by decide)).trans <| (W61_of m ρ c main_arg14 (by decide)).trans <| (W60_of m ρ c main_arg14 (by decide)).trans <| (W59_of m ρ c main_arg14 (by decide)).trans <| (W58_of m ρ c main_arg14 (by decide)).trans <| (W57_of m ρ c main_arg14 (by decide)).trans <| (W56_of m ρ c main_arg14 (by decide)).trans <| (W55_of m ρ c main_arg14 (by decide)).trans <| (W54_of m ρ c main_arg14 (by decide)).trans <| (W53_of m ρ c main_arg14 (by decide)).trans <| (W52_of m ρ c main_arg14 (by decide)).trans <| (W51_of m ρ c main_arg14 (by decide)).trans <| (W50_of m ρ c main_arg14 (by decide)).trans <| (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem keep_v61_72 (c : Dev nD) : W72 m ρ c (Proc.devRef .tc main_v61) = W5 m ρ c (Proc.devRef .tc main_v61) :=
  (W72_of m ρ c main_v61 (by decide)).trans <| (W71_of m ρ c main_v61 (by decide)).trans <| (W70_of m ρ c main_v61 (by decide)).trans <| (W69_of m ρ c main_v61 (by decide)).trans <| (W68_of m ρ c main_v61 (by decide)).trans <| (W67_of m ρ c main_v61 (by decide)).trans <| (W66_of m ρ c main_v61 (by decide)).trans <| (W65_of m ρ c main_v61 (by decide)).trans <| (W64_of m ρ c main_v61 (by decide)).trans <| (W63_of m ρ c main_v61 (by decide)).trans <| (W62_of m ρ c main_v61 (by decide)).trans <| (W61_of m ρ c main_v61 (by decide)).trans <| (W60_of m ρ c main_v61 (by decide)).trans <| (W59_of m ρ c main_v61 (by decide)).trans <| (W58_of m ρ c main_v61 (by decide)).trans <| (W57_of m ρ c main_v61 (by decide)).trans <| (W56_of m ρ c main_v61 (by decide)).trans <| (W55_of m ρ c main_v61 (by decide)).trans <| (W54_of m ρ c main_v61 (by decide)).trans <| (W53_of m ρ c main_v61 (by decide)).trans <| (W52_of m ρ c main_v61 (by decide)).trans <| (W51_of m ρ c main_v61 (by decide)).trans <| (W50_of m ρ c main_v61 (by decide)).trans <| (W49_of m ρ c main_v61 (by decide)).trans <| (W48_of m ρ c main_v61 (by decide)).trans <| (W47_of m ρ c main_v61 (by decide)).trans <| (W46_of m ρ c main_v61 (by decide)).trans <| (W45_of m ρ c main_v61 (by decide)).trans <| (W44_of m ρ c main_v61 (by decide)).trans <| (W43_of m ρ c main_v61 (by decide)).trans <| (W42_of m ρ c main_v61 (by decide)).trans <| (W41_of m ρ c main_v61 (by decide)).trans <| (W40_of m ρ c main_v61 (by decide)).trans <| (W39_of m ρ c main_v61 (by decide)).trans <| (W38_of m ρ c main_v61 (by decide)).trans <| (W37_of m ρ c main_v61 (by decide)).trans <| (W36_of m ρ c main_v61 (by decide)).trans <| (W35_of m ρ c main_v61 (by decide)).trans <| (W34_of m ρ c main_v61 (by decide)).trans <| (W33_of m ρ c main_v61 (by decide)).trans <| (W32_of m ρ c main_v61 (by decide)).trans <| (W31_of m ρ c main_v61 (by decide)).trans <| (W30_of m ρ c main_v61 (by decide)).trans <| (W29_of m ρ c main_v61 (by decide)).trans <| (W28_of m ρ c main_v61 (by decide)).trans <| (W27_of m ρ c main_v61 (by decide)).trans <| (W26_of m ρ c main_v61 (by decide)).trans <| (W25_of m ρ c main_v61 (by decide)).trans <| (W24_of m ρ c main_v61 (by decide)).trans <| (W23_of m ρ c main_v61 (by decide)).trans <| (W22_of m ρ c main_v61 (by decide)).trans <| (W21_of m ρ c main_v61 (by decide)).trans <| (W20_of m ρ c main_v61 (by decide)).trans <| (W19_of m ρ c main_v61 (by decide)).trans <| (W18_of m ρ c main_v61 (by decide)).trans <| (W17_of m ρ c main_v61 (by decide)).trans <| (W16_of m ρ c main_v61 (by decide)).trans <| (W15_of m ρ c main_v61 (by decide)).trans <| (W14_of m ρ c main_v61 (by decide)).trans <| (W13_of m ρ c main_v61 (by decide)).trans <| (W12_of m ρ c main_v61 (by decide)).trans <| (W11_of m ρ c main_v61 (by decide)).trans <| (W10_of m ρ c main_v61 (by decide)).trans <| (W9_of m ρ c main_v61 (by decide)).trans <| (W8_of m ρ c main_v61 (by decide)).trans <| (W7_of m ρ c main_v61 (by decide)).trans <| (W6_of m ρ c main_v61 (by decide)).trans rfl
theorem keep_v245_74 (c : Dev nD) : W74 m ρ c (Proc.devRef .tc main_v245) = W40 m ρ c (Proc.devRef .tc main_v245) :=
  (W74_of m ρ c main_v245 (by decide)).trans <| (W73_of m ρ c main_v245 (by decide)).trans <| (W72_of m ρ c main_v245 (by decide)).trans <| (W71_of m ρ c main_v245 (by decide)).trans <| (W70_of m ρ c main_v245 (by decide)).trans <| (W69_of m ρ c main_v245 (by decide)).trans <| (W68_of m ρ c main_v245 (by decide)).trans <| (W67_of m ρ c main_v245 (by decide)).trans <| (W66_of m ρ c main_v245 (by decide)).trans <| (W65_of m ρ c main_v245 (by decide)).trans <| (W64_of m ρ c main_v245 (by decide)).trans <| (W63_of m ρ c main_v245 (by decide)).trans <| (W62_of m ρ c main_v245 (by decide)).trans <| (W61_of m ρ c main_v245 (by decide)).trans <| (W60_of m ρ c main_v245 (by decide)).trans <| (W59_of m ρ c main_v245 (by decide)).trans <| (W58_of m ρ c main_v245 (by decide)).trans <| (W57_of m ρ c main_v245 (by decide)).trans <| (W56_of m ρ c main_v245 (by decide)).trans <| (W55_of m ρ c main_v245 (by decide)).trans <| (W54_of m ρ c main_v245 (by decide)).trans <| (W53_of m ρ c main_v245 (by decide)).trans <| (W52_of m ρ c main_v245 (by decide)).trans <| (W51_of m ρ c main_v245 (by decide)).trans <| (W50_of m ρ c main_v245 (by decide)).trans <| (W49_of m ρ c main_v245 (by decide)).trans <| (W48_of m ρ c main_v245 (by decide)).trans <| (W47_of m ρ c main_v245 (by decide)).trans <| (W46_of m ρ c main_v245 (by decide)).trans <| (W45_of m ρ c main_v245 (by decide)).trans <| (W44_of m ρ c main_v245 (by decide)).trans <| (W43_of m ρ c main_v245 (by decide)).trans <| (W42_of m ρ c main_v245 (by decide)).trans <| (W41_of m ρ c main_v245 (by decide)).trans rfl
theorem keep_v441_75 (c : Dev nD) : W75 m ρ c (Proc.devRef .tc main_v441) = W71 m ρ c (Proc.devRef .tc main_v441) :=
  (W75_of m ρ c main_v441 (by decide)).trans <| (W74_of m ρ c main_v441 (by decide)).trans <| (W73_of m ρ c main_v441 (by decide)).trans <| (W72_of m ρ c main_v441 (by decide)).trans rfl
theorem keep_v442_75 (c : Dev nD) : W75 m ρ c (Proc.devRef .tc main_v442) = W73 m ρ c (Proc.devRef .tc main_v442) :=
  (W75_of m ρ c main_v442 (by decide)).trans <| (W74_of m ρ c main_v442 (by decide)).trans rfl
theorem keep_v430_75 (c : Dev nD) : W75 m ρ c (Proc.devRef .tc main_v430) = W70 m ρ c (Proc.devRef .tc main_v430) :=
  (W75_of m ρ c main_v430 (by decide)).trans <| (W74_of m ρ c main_v430 (by decide)).trans <| (W73_of m ρ c main_v430 (by decide)).trans <| (W72_of m ρ c main_v430 (by decide)).trans <| (W71_of m ρ c main_v430 (by decide)).trans rfl
theorem keep_v438_75 (c : Dev nD) : W75 m ρ c (Proc.devRef .tc main_v438) = W70 m ρ c (Proc.devRef .tc main_v438) :=
  (W75_of m ρ c main_v438 (by decide)).trans <| (W74_of m ρ c main_v438 (by decide)).trans <| (W73_of m ρ c main_v438 (by decide)).trans <| (W72_of m ρ c main_v438 (by decide)).trans <| (W71_of m ρ c main_v438 (by decide)).trans rfl
theorem keep_v440_75 (c : Dev nD) : W75 m ρ c (Proc.devRef .tc main_v440) = W70 m ρ c (Proc.devRef .tc main_v440) :=
  (W75_of m ρ c main_v440 (by decide)).trans <| (W74_of m ρ c main_v440 (by decide)).trans <| (W73_of m ρ c main_v440 (by decide)).trans <| (W72_of m ρ c main_v440 (by decide)).trans <| (W71_of m ρ c main_v440 (by decide)).trans rfl
theorem keep_v35_76 (c : Dev nD) : W76 m ρ c (Proc.devRef .tc main_v35) = W5 m ρ c (Proc.devRef .tc main_v35) :=
  (W76_of m ρ c main_v35 (by decide)).trans <| (W75_of m ρ c main_v35 (by decide)).trans <| (W74_of m ρ c main_v35 (by decide)).trans <| (W73_of m ρ c main_v35 (by decide)).trans <| (W72_of m ρ c main_v35 (by decide)).trans <| (W71_of m ρ c main_v35 (by decide)).trans <| (W70_of m ρ c main_v35 (by decide)).trans <| (W69_of m ρ c main_v35 (by decide)).trans <| (W68_of m ρ c main_v35 (by decide)).trans <| (W67_of m ρ c main_v35 (by decide)).trans <| (W66_of m ρ c main_v35 (by decide)).trans <| (W65_of m ρ c main_v35 (by decide)).trans <| (W64_of m ρ c main_v35 (by decide)).trans <| (W63_of m ρ c main_v35 (by decide)).trans <| (W62_of m ρ c main_v35 (by decide)).trans <| (W61_of m ρ c main_v35 (by decide)).trans <| (W60_of m ρ c main_v35 (by decide)).trans <| (W59_of m ρ c main_v35 (by decide)).trans <| (W58_of m ρ c main_v35 (by decide)).trans <| (W57_of m ρ c main_v35 (by decide)).trans <| (W56_of m ρ c main_v35 (by decide)).trans <| (W55_of m ρ c main_v35 (by decide)).trans <| (W54_of m ρ c main_v35 (by decide)).trans <| (W53_of m ρ c main_v35 (by decide)).trans <| (W52_of m ρ c main_v35 (by decide)).trans <| (W51_of m ρ c main_v35 (by decide)).trans <| (W50_of m ρ c main_v35 (by decide)).trans <| (W49_of m ρ c main_v35 (by decide)).trans <| (W48_of m ρ c main_v35 (by decide)).trans <| (W47_of m ρ c main_v35 (by decide)).trans <| (W46_of m ρ c main_v35 (by decide)).trans <| (W45_of m ρ c main_v35 (by decide)).trans <| (W44_of m ρ c main_v35 (by decide)).trans <| (W43_of m ρ c main_v35 (by decide)).trans <| (W42_of m ρ c main_v35 (by decide)).trans <| (W41_of m ρ c main_v35 (by decide)).trans <| (W40_of m ρ c main_v35 (by decide)).trans <| (W39_of m ρ c main_v35 (by decide)).trans <| (W38_of m ρ c main_v35 (by decide)).trans <| (W37_of m ρ c main_v35 (by decide)).trans <| (W36_of m ρ c main_v35 (by decide)).trans <| (W35_of m ρ c main_v35 (by decide)).trans <| (W34_of m ρ c main_v35 (by decide)).trans <| (W33_of m ρ c main_v35 (by decide)).trans <| (W32_of m ρ c main_v35 (by decide)).trans <| (W31_of m ρ c main_v35 (by decide)).trans <| (W30_of m ρ c main_v35 (by decide)).trans <| (W29_of m ρ c main_v35 (by decide)).trans <| (W28_of m ρ c main_v35 (by decide)).trans <| (W27_of m ρ c main_v35 (by decide)).trans <| (W26_of m ρ c main_v35 (by decide)).trans <| (W25_of m ρ c main_v35 (by decide)).trans <| (W24_of m ρ c main_v35 (by decide)).trans <| (W23_of m ρ c main_v35 (by decide)).trans <| (W22_of m ρ c main_v35 (by decide)).trans <| (W21_of m ρ c main_v35 (by decide)).trans <| (W20_of m ρ c main_v35 (by decide)).trans <| (W19_of m ρ c main_v35 (by decide)).trans <| (W18_of m ρ c main_v35 (by decide)).trans <| (W17_of m ρ c main_v35 (by decide)).trans <| (W16_of m ρ c main_v35 (by decide)).trans <| (W15_of m ρ c main_v35 (by decide)).trans <| (W14_of m ρ c main_v35 (by decide)).trans <| (W13_of m ρ c main_v35 (by decide)).trans <| (W12_of m ρ c main_v35 (by decide)).trans <| (W11_of m ρ c main_v35 (by decide)).trans <| (W10_of m ρ c main_v35 (by decide)).trans <| (W9_of m ρ c main_v35 (by decide)).trans <| (W8_of m ρ c main_v35 (by decide)).trans <| (W7_of m ρ c main_v35 (by decide)).trans <| (W6_of m ρ c main_v35 (by decide)).trans rfl
theorem keep_v165_76 (c : Dev nD) : W76 m ρ c (Proc.devRef .tc main_v165) = W24 m ρ c (Proc.devRef .tc main_v165) :=
  (W76_of m ρ c main_v165 (by decide)).trans <| (W75_of m ρ c main_v165 (by decide)).trans <| (W74_of m ρ c main_v165 (by decide)).trans <| (W73_of m ρ c main_v165 (by decide)).trans <| (W72_of m ρ c main_v165 (by decide)).trans <| (W71_of m ρ c main_v165 (by decide)).trans <| (W70_of m ρ c main_v165 (by decide)).trans <| (W69_of m ρ c main_v165 (by decide)).trans <| (W68_of m ρ c main_v165 (by decide)).trans <| (W67_of m ρ c main_v165 (by decide)).trans <| (W66_of m ρ c main_v165 (by decide)).trans <| (W65_of m ρ c main_v165 (by decide)).trans <| (W64_of m ρ c main_v165 (by decide)).trans <| (W63_of m ρ c main_v165 (by decide)).trans <| (W62_of m ρ c main_v165 (by decide)).trans <| (W61_of m ρ c main_v165 (by decide)).trans <| (W60_of m ρ c main_v165 (by decide)).trans <| (W59_of m ρ c main_v165 (by decide)).trans <| (W58_of m ρ c main_v165 (by decide)).trans <| (W57_of m ρ c main_v165 (by decide)).trans <| (W56_of m ρ c main_v165 (by decide)).trans <| (W55_of m ρ c main_v165 (by decide)).trans <| (W54_of m ρ c main_v165 (by decide)).trans <| (W53_of m ρ c main_v165 (by decide)).trans <| (W52_of m ρ c main_v165 (by decide)).trans <| (W51_of m ρ c main_v165 (by decide)).trans <| (W50_of m ρ c main_v165 (by decide)).trans <| (W49_of m ρ c main_v165 (by decide)).trans <| (W48_of m ρ c main_v165 (by decide)).trans <| (W47_of m ρ c main_v165 (by decide)).trans <| (W46_of m ρ c main_v165 (by decide)).trans <| (W45_of m ρ c main_v165 (by decide)).trans <| (W44_of m ρ c main_v165 (by decide)).trans <| (W43_of m ρ c main_v165 (by decide)).trans <| (W42_of m ρ c main_v165 (by decide)).trans <| (W41_of m ρ c main_v165 (by decide)).trans <| (W40_of m ρ c main_v165 (by decide)).trans <| (W39_of m ρ c main_v165 (by decide)).trans <| (W38_of m ρ c main_v165 (by decide)).trans <| (W37_of m ρ c main_v165 (by decide)).trans <| (W36_of m ρ c main_v165 (by decide)).trans <| (W35_of m ρ c main_v165 (by decide)).trans <| (W34_of m ρ c main_v165 (by decide)).trans <| (W33_of m ρ c main_v165 (by decide)).trans <| (W32_of m ρ c main_v165 (by decide)).trans <| (W31_of m ρ c main_v165 (by decide)).trans <| (W30_of m ρ c main_v165 (by decide)).trans <| (W29_of m ρ c main_v165 (by decide)).trans <| (W28_of m ρ c main_v165 (by decide)).trans <| (W27_of m ρ c main_v165 (by decide)).trans <| (W26_of m ρ c main_v165 (by decide)).trans <| (W25_of m ρ c main_v165 (by decide)).trans rfl
theorem keep_v37_76 (c : Dev nD) : W76 m ρ c (Proc.devRef .tc main_v37) = W5 m ρ c (Proc.devRef .tc main_v37) :=
  (W76_of m ρ c main_v37 (by decide)).trans <| (W75_of m ρ c main_v37 (by decide)).trans <| (W74_of m ρ c main_v37 (by decide)).trans <| (W73_of m ρ c main_v37 (by decide)).trans <| (W72_of m ρ c main_v37 (by decide)).trans <| (W71_of m ρ c main_v37 (by decide)).trans <| (W70_of m ρ c main_v37 (by decide)).trans <| (W69_of m ρ c main_v37 (by decide)).trans <| (W68_of m ρ c main_v37 (by decide)).trans <| (W67_of m ρ c main_v37 (by decide)).trans <| (W66_of m ρ c main_v37 (by decide)).trans <| (W65_of m ρ c main_v37 (by decide)).trans <| (W64_of m ρ c main_v37 (by decide)).trans <| (W63_of m ρ c main_v37 (by decide)).trans <| (W62_of m ρ c main_v37 (by decide)).trans <| (W61_of m ρ c main_v37 (by decide)).trans <| (W60_of m ρ c main_v37 (by decide)).trans <| (W59_of m ρ c main_v37 (by decide)).trans <| (W58_of m ρ c main_v37 (by decide)).trans <| (W57_of m ρ c main_v37 (by decide)).trans <| (W56_of m ρ c main_v37 (by decide)).trans <| (W55_of m ρ c main_v37 (by decide)).trans <| (W54_of m ρ c main_v37 (by decide)).trans <| (W53_of m ρ c main_v37 (by decide)).trans <| (W52_of m ρ c main_v37 (by decide)).trans <| (W51_of m ρ c main_v37 (by decide)).trans <| (W50_of m ρ c main_v37 (by decide)).trans <| (W49_of m ρ c main_v37 (by decide)).trans <| (W48_of m ρ c main_v37 (by decide)).trans <| (W47_of m ρ c main_v37 (by decide)).trans <| (W46_of m ρ c main_v37 (by decide)).trans <| (W45_of m ρ c main_v37 (by decide)).trans <| (W44_of m ρ c main_v37 (by decide)).trans <| (W43_of m ρ c main_v37 (by decide)).trans <| (W42_of m ρ c main_v37 (by decide)).trans <| (W41_of m ρ c main_v37 (by decide)).trans <| (W40_of m ρ c main_v37 (by decide)).trans <| (W39_of m ρ c main_v37 (by decide)).trans <| (W38_of m ρ c main_v37 (by decide)).trans <| (W37_of m ρ c main_v37 (by decide)).trans <| (W36_of m ρ c main_v37 (by decide)).trans <| (W35_of m ρ c main_v37 (by decide)).trans <| (W34_of m ρ c main_v37 (by decide)).trans <| (W33_of m ρ c main_v37 (by decide)).trans <| (W32_of m ρ c main_v37 (by decide)).trans <| (W31_of m ρ c main_v37 (by decide)).trans <| (W30_of m ρ c main_v37 (by decide)).trans <| (W29_of m ρ c main_v37 (by decide)).trans <| (W28_of m ρ c main_v37 (by decide)).trans <| (W27_of m ρ c main_v37 (by decide)).trans <| (W26_of m ρ c main_v37 (by decide)).trans <| (W25_of m ρ c main_v37 (by decide)).trans <| (W24_of m ρ c main_v37 (by decide)).trans <| (W23_of m ρ c main_v37 (by decide)).trans <| (W22_of m ρ c main_v37 (by decide)).trans <| (W21_of m ρ c main_v37 (by decide)).trans <| (W20_of m ρ c main_v37 (by decide)).trans <| (W19_of m ρ c main_v37 (by decide)).trans <| (W18_of m ρ c main_v37 (by decide)).trans <| (W17_of m ρ c main_v37 (by decide)).trans <| (W16_of m ρ c main_v37 (by decide)).trans <| (W15_of m ρ c main_v37 (by decide)).trans <| (W14_of m ρ c main_v37 (by decide)).trans <| (W13_of m ρ c main_v37 (by decide)).trans <| (W12_of m ρ c main_v37 (by decide)).trans <| (W11_of m ρ c main_v37 (by decide)).trans <| (W10_of m ρ c main_v37 (by decide)).trans <| (W9_of m ρ c main_v37 (by decide)).trans <| (W8_of m ρ c main_v37 (by decide)).trans <| (W7_of m ρ c main_v37 (by decide)).trans <| (W6_of m ρ c main_v37 (by decide)).trans rfl
theorem keep_arg12_76 (c : Dev nD) : W76 m ρ c (Proc.devRef .tc main_arg12) = W0 m ρ c (Proc.devRef .tc main_arg12) :=
  (W76_of m ρ c main_arg12 (by decide)).trans <| (W75_of m ρ c main_arg12 (by decide)).trans <| (W74_of m ρ c main_arg12 (by decide)).trans <| (W73_of m ρ c main_arg12 (by decide)).trans <| (W72_of m ρ c main_arg12 (by decide)).trans <| (W71_of m ρ c main_arg12 (by decide)).trans <| (W70_of m ρ c main_arg12 (by decide)).trans <| (W69_of m ρ c main_arg12 (by decide)).trans <| (W68_of m ρ c main_arg12 (by decide)).trans <| (W67_of m ρ c main_arg12 (by decide)).trans <| (W66_of m ρ c main_arg12 (by decide)).trans <| (W65_of m ρ c main_arg12 (by decide)).trans <| (W64_of m ρ c main_arg12 (by decide)).trans <| (W63_of m ρ c main_arg12 (by decide)).trans <| (W62_of m ρ c main_arg12 (by decide)).trans <| (W61_of m ρ c main_arg12 (by decide)).trans <| (W60_of m ρ c main_arg12 (by decide)).trans <| (W59_of m ρ c main_arg12 (by decide)).trans <| (W58_of m ρ c main_arg12 (by decide)).trans <| (W57_of m ρ c main_arg12 (by decide)).trans <| (W56_of m ρ c main_arg12 (by decide)).trans <| (W55_of m ρ c main_arg12 (by decide)).trans <| (W54_of m ρ c main_arg12 (by decide)).trans <| (W53_of m ρ c main_arg12 (by decide)).trans <| (W52_of m ρ c main_arg12 (by decide)).trans <| (W51_of m ρ c main_arg12 (by decide)).trans <| (W50_of m ρ c main_arg12 (by decide)).trans <| (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem keep_arg13_76 (c : Dev nD) : W76 m ρ c (Proc.devRef .tc main_arg13) = W0 m ρ c (Proc.devRef .tc main_arg13) :=
  (W76_of m ρ c main_arg13 (by decide)).trans <| (W75_of m ρ c main_arg13 (by decide)).trans <| (W74_of m ρ c main_arg13 (by decide)).trans <| (W73_of m ρ c main_arg13 (by decide)).trans <| (W72_of m ρ c main_arg13 (by decide)).trans <| (W71_of m ρ c main_arg13 (by decide)).trans <| (W70_of m ρ c main_arg13 (by decide)).trans <| (W69_of m ρ c main_arg13 (by decide)).trans <| (W68_of m ρ c main_arg13 (by decide)).trans <| (W67_of m ρ c main_arg13 (by decide)).trans <| (W66_of m ρ c main_arg13 (by decide)).trans <| (W65_of m ρ c main_arg13 (by decide)).trans <| (W64_of m ρ c main_arg13 (by decide)).trans <| (W63_of m ρ c main_arg13 (by decide)).trans <| (W62_of m ρ c main_arg13 (by decide)).trans <| (W61_of m ρ c main_arg13 (by decide)).trans <| (W60_of m ρ c main_arg13 (by decide)).trans <| (W59_of m ρ c main_arg13 (by decide)).trans <| (W58_of m ρ c main_arg13 (by decide)).trans <| (W57_of m ρ c main_arg13 (by decide)).trans <| (W56_of m ρ c main_arg13 (by decide)).trans <| (W55_of m ρ c main_arg13 (by decide)).trans <| (W54_of m ρ c main_arg13 (by decide)).trans <| (W53_of m ρ c main_arg13 (by decide)).trans <| (W52_of m ρ c main_arg13 (by decide)).trans <| (W51_of m ρ c main_arg13 (by decide)).trans <| (W50_of m ρ c main_arg13 (by decide)).trans <| (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem keep_arg14_76 (c : Dev nD) : W76 m ρ c (Proc.devRef .tc main_arg14) = W0 m ρ c (Proc.devRef .tc main_arg14) :=
  (W76_of m ρ c main_arg14 (by decide)).trans <| (W75_of m ρ c main_arg14 (by decide)).trans <| (W74_of m ρ c main_arg14 (by decide)).trans <| (W73_of m ρ c main_arg14 (by decide)).trans <| (W72_of m ρ c main_arg14 (by decide)).trans <| (W71_of m ρ c main_arg14 (by decide)).trans <| (W70_of m ρ c main_arg14 (by decide)).trans <| (W69_of m ρ c main_arg14 (by decide)).trans <| (W68_of m ρ c main_arg14 (by decide)).trans <| (W67_of m ρ c main_arg14 (by decide)).trans <| (W66_of m ρ c main_arg14 (by decide)).trans <| (W65_of m ρ c main_arg14 (by decide)).trans <| (W64_of m ρ c main_arg14 (by decide)).trans <| (W63_of m ρ c main_arg14 (by decide)).trans <| (W62_of m ρ c main_arg14 (by decide)).trans <| (W61_of m ρ c main_arg14 (by decide)).trans <| (W60_of m ρ c main_arg14 (by decide)).trans <| (W59_of m ρ c main_arg14 (by decide)).trans <| (W58_of m ρ c main_arg14 (by decide)).trans <| (W57_of m ρ c main_arg14 (by decide)).trans <| (W56_of m ρ c main_arg14 (by decide)).trans <| (W55_of m ρ c main_arg14 (by decide)).trans <| (W54_of m ρ c main_arg14 (by decide)).trans <| (W53_of m ρ c main_arg14 (by decide)).trans <| (W52_of m ρ c main_arg14 (by decide)).trans <| (W51_of m ρ c main_arg14 (by decide)).trans <| (W50_of m ρ c main_arg14 (by decide)).trans <| (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem keep_v69_77 (c : Dev nD) : W77 m ρ c (Proc.devRef .tc main_v69) = W5 m ρ c (Proc.devRef .tc main_v69) :=
  (W77_of m ρ c main_v69 (by decide)).trans <| (W76_of m ρ c main_v69 (by decide)).trans <| (W75_of m ρ c main_v69 (by decide)).trans <| (W74_of m ρ c main_v69 (by decide)).trans <| (W73_of m ρ c main_v69 (by decide)).trans <| (W72_of m ρ c main_v69 (by decide)).trans <| (W71_of m ρ c main_v69 (by decide)).trans <| (W70_of m ρ c main_v69 (by decide)).trans <| (W69_of m ρ c main_v69 (by decide)).trans <| (W68_of m ρ c main_v69 (by decide)).trans <| (W67_of m ρ c main_v69 (by decide)).trans <| (W66_of m ρ c main_v69 (by decide)).trans <| (W65_of m ρ c main_v69 (by decide)).trans <| (W64_of m ρ c main_v69 (by decide)).trans <| (W63_of m ρ c main_v69 (by decide)).trans <| (W62_of m ρ c main_v69 (by decide)).trans <| (W61_of m ρ c main_v69 (by decide)).trans <| (W60_of m ρ c main_v69 (by decide)).trans <| (W59_of m ρ c main_v69 (by decide)).trans <| (W58_of m ρ c main_v69 (by decide)).trans <| (W57_of m ρ c main_v69 (by decide)).trans <| (W56_of m ρ c main_v69 (by decide)).trans <| (W55_of m ρ c main_v69 (by decide)).trans <| (W54_of m ρ c main_v69 (by decide)).trans <| (W53_of m ρ c main_v69 (by decide)).trans <| (W52_of m ρ c main_v69 (by decide)).trans <| (W51_of m ρ c main_v69 (by decide)).trans <| (W50_of m ρ c main_v69 (by decide)).trans <| (W49_of m ρ c main_v69 (by decide)).trans <| (W48_of m ρ c main_v69 (by decide)).trans <| (W47_of m ρ c main_v69 (by decide)).trans <| (W46_of m ρ c main_v69 (by decide)).trans <| (W45_of m ρ c main_v69 (by decide)).trans <| (W44_of m ρ c main_v69 (by decide)).trans <| (W43_of m ρ c main_v69 (by decide)).trans <| (W42_of m ρ c main_v69 (by decide)).trans <| (W41_of m ρ c main_v69 (by decide)).trans <| (W40_of m ρ c main_v69 (by decide)).trans <| (W39_of m ρ c main_v69 (by decide)).trans <| (W38_of m ρ c main_v69 (by decide)).trans <| (W37_of m ρ c main_v69 (by decide)).trans <| (W36_of m ρ c main_v69 (by decide)).trans <| (W35_of m ρ c main_v69 (by decide)).trans <| (W34_of m ρ c main_v69 (by decide)).trans <| (W33_of m ρ c main_v69 (by decide)).trans <| (W32_of m ρ c main_v69 (by decide)).trans <| (W31_of m ρ c main_v69 (by decide)).trans <| (W30_of m ρ c main_v69 (by decide)).trans <| (W29_of m ρ c main_v69 (by decide)).trans <| (W28_of m ρ c main_v69 (by decide)).trans <| (W27_of m ρ c main_v69 (by decide)).trans <| (W26_of m ρ c main_v69 (by decide)).trans <| (W25_of m ρ c main_v69 (by decide)).trans <| (W24_of m ρ c main_v69 (by decide)).trans <| (W23_of m ρ c main_v69 (by decide)).trans <| (W22_of m ρ c main_v69 (by decide)).trans <| (W21_of m ρ c main_v69 (by decide)).trans <| (W20_of m ρ c main_v69 (by decide)).trans <| (W19_of m ρ c main_v69 (by decide)).trans <| (W18_of m ρ c main_v69 (by decide)).trans <| (W17_of m ρ c main_v69 (by decide)).trans <| (W16_of m ρ c main_v69 (by decide)).trans <| (W15_of m ρ c main_v69 (by decide)).trans <| (W14_of m ρ c main_v69 (by decide)).trans <| (W13_of m ρ c main_v69 (by decide)).trans <| (W12_of m ρ c main_v69 (by decide)).trans <| (W11_of m ρ c main_v69 (by decide)).trans <| (W10_of m ρ c main_v69 (by decide)).trans <| (W9_of m ρ c main_v69 (by decide)).trans <| (W8_of m ρ c main_v69 (by decide)).trans <| (W7_of m ρ c main_v69 (by decide)).trans <| (W6_of m ρ c main_v69 (by decide)).trans rfl
theorem keep_v269_77 (c : Dev nD) : W77 m ρ c (Proc.devRef .tc main_v269) = W41 m ρ c (Proc.devRef .tc main_v269) :=
  (W77_of m ρ c main_v269 (by decide)).trans <| (W76_of m ρ c main_v269 (by decide)).trans <| (W75_of m ρ c main_v269 (by decide)).trans <| (W74_of m ρ c main_v269 (by decide)).trans <| (W73_of m ρ c main_v269 (by decide)).trans <| (W72_of m ρ c main_v269 (by decide)).trans <| (W71_of m ρ c main_v269 (by decide)).trans <| (W70_of m ρ c main_v269 (by decide)).trans <| (W69_of m ρ c main_v269 (by decide)).trans <| (W68_of m ρ c main_v269 (by decide)).trans <| (W67_of m ρ c main_v269 (by decide)).trans <| (W66_of m ρ c main_v269 (by decide)).trans <| (W65_of m ρ c main_v269 (by decide)).trans <| (W64_of m ρ c main_v269 (by decide)).trans <| (W63_of m ρ c main_v269 (by decide)).trans <| (W62_of m ρ c main_v269 (by decide)).trans <| (W61_of m ρ c main_v269 (by decide)).trans <| (W60_of m ρ c main_v269 (by decide)).trans <| (W59_of m ρ c main_v269 (by decide)).trans <| (W58_of m ρ c main_v269 (by decide)).trans <| (W57_of m ρ c main_v269 (by decide)).trans <| (W56_of m ρ c main_v269 (by decide)).trans <| (W55_of m ρ c main_v269 (by decide)).trans <| (W54_of m ρ c main_v269 (by decide)).trans <| (W53_of m ρ c main_v269 (by decide)).trans <| (W52_of m ρ c main_v269 (by decide)).trans <| (W51_of m ρ c main_v269 (by decide)).trans <| (W50_of m ρ c main_v269 (by decide)).trans <| (W49_of m ρ c main_v269 (by decide)).trans <| (W48_of m ρ c main_v269 (by decide)).trans <| (W47_of m ρ c main_v269 (by decide)).trans <| (W46_of m ρ c main_v269 (by decide)).trans <| (W45_of m ρ c main_v269 (by decide)).trans <| (W44_of m ρ c main_v269 (by decide)).trans <| (W43_of m ρ c main_v269 (by decide)).trans <| (W42_of m ρ c main_v269 (by decide)).trans rfl
theorem keep_arg19_78 (c : Dev nD) : W78 m ρ c (Proc.devRef .tc main_arg19) = W0 m ρ c (Proc.devRef .tc main_arg19) :=
  (W78_of m ρ c main_arg19 (by decide)).trans <| (W77_of m ρ c main_arg19 (by decide)).trans <| (W76_of m ρ c main_arg19 (by decide)).trans <| (W75_of m ρ c main_arg19 (by decide)).trans <| (W74_of m ρ c main_arg19 (by decide)).trans <| (W73_of m ρ c main_arg19 (by decide)).trans <| (W72_of m ρ c main_arg19 (by decide)).trans <| (W71_of m ρ c main_arg19 (by decide)).trans <| (W70_of m ρ c main_arg19 (by decide)).trans <| (W69_of m ρ c main_arg19 (by decide)).trans <| (W68_of m ρ c main_arg19 (by decide)).trans <| (W67_of m ρ c main_arg19 (by decide)).trans <| (W66_of m ρ c main_arg19 (by decide)).trans <| (W65_of m ρ c main_arg19 (by decide)).trans <| (W64_of m ρ c main_arg19 (by decide)).trans <| (W63_of m ρ c main_arg19 (by decide)).trans <| (W62_of m ρ c main_arg19 (by decide)).trans <| (W61_of m ρ c main_arg19 (by decide)).trans <| (W60_of m ρ c main_arg19 (by decide)).trans <| (W59_of m ρ c main_arg19 (by decide)).trans <| (W58_of m ρ c main_arg19 (by decide)).trans <| (W57_of m ρ c main_arg19 (by decide)).trans <| (W56_of m ρ c main_arg19 (by decide)).trans <| (W55_of m ρ c main_arg19 (by decide)).trans <| (W54_of m ρ c main_arg19 (by decide)).trans <| (W53_of m ρ c main_arg19 (by decide)).trans <| (W52_of m ρ c main_arg19 (by decide)).trans <| (W51_of m ρ c main_arg19 (by decide)).trans <| (W50_of m ρ c main_arg19 (by decide)).trans <| (W49_of m ρ c main_arg19 (by decide)).trans <| (W48_of m ρ c main_arg19 (by decide)).trans <| (W47_of m ρ c main_arg19 (by decide)).trans <| (W46_of m ρ c main_arg19 (by decide)).trans <| (W45_of m ρ c main_arg19 (by decide)).trans <| (W44_of m ρ c main_arg19 (by decide)).trans <| (W43_of m ρ c main_arg19 (by decide)).trans <| (W42_of m ρ c main_arg19 (by decide)).trans <| (W41_of m ρ c main_arg19 (by decide)).trans <| (W40_of m ρ c main_arg19 (by decide)).trans <| (W39_of m ρ c main_arg19 (by decide)).trans <| (W38_of m ρ c main_arg19 (by decide)).trans <| (W37_of m ρ c main_arg19 (by decide)).trans <| (W36_of m ρ c main_arg19 (by decide)).trans <| (W35_of m ρ c main_arg19 (by decide)).trans <| (W34_of m ρ c main_arg19 (by decide)).trans <| (W33_of m ρ c main_arg19 (by decide)).trans <| (W32_of m ρ c main_arg19 (by decide)).trans <| (W31_of m ρ c main_arg19 (by decide)).trans <| (W30_of m ρ c main_arg19 (by decide)).trans <| (W29_of m ρ c main_arg19 (by decide)).trans <| (W28_of m ρ c main_arg19 (by decide)).trans <| (W27_of m ρ c main_arg19 (by decide)).trans <| (W26_of m ρ c main_arg19 (by decide)).trans <| (W25_of m ρ c main_arg19 (by decide)).trans <| (W24_of m ρ c main_arg19 (by decide)).trans <| (W23_of m ρ c main_arg19 (by decide)).trans <| (W22_of m ρ c main_arg19 (by decide)).trans <| (W21_of m ρ c main_arg19 (by decide)).trans <| (W20_of m ρ c main_arg19 (by decide)).trans <| (W19_of m ρ c main_arg19 (by decide)).trans <| (W18_of m ρ c main_arg19 (by decide)).trans <| (W17_of m ρ c main_arg19 (by decide)).trans <| (W16_of m ρ c main_arg19 (by decide)).trans <| (W15_of m ρ c main_arg19 (by decide)).trans <| (W14_of m ρ c main_arg19 (by decide)).trans <| (W13_of m ρ c main_arg19 (by decide)).trans <| (W12_of m ρ c main_arg19 (by decide)).trans <| (W11_of m ρ c main_arg19 (by decide)).trans <| (W10_of m ρ c main_arg19 (by decide)).trans <| (W9_of m ρ c main_arg19 (by decide)).trans <| (W8_of m ρ c main_arg19 (by decide)).trans <| (W7_of m ρ c main_arg19 (by decide)).trans <| (W6_of m ρ c main_arg19 (by decide)).trans <| (W5_of m ρ c main_arg19 (by decide)).trans <| (W4_of m ρ c main_arg19 (by decide)).trans <| (W3_of m ρ c main_arg19 (by decide)).trans <| (W2_of m ρ c main_arg19 (by decide)).trans <| (W1_of m ρ c main_arg19 (by decide)).trans rfl
theorem keep_v393_78 (c : Dev nD) : W78 m ρ c (Proc.devRef .tc main_v393) = W68 m ρ c (Proc.devRef .tc main_v393) :=
  (W78_of m ρ c main_v393 (by decide)).trans <| (W77_of m ρ c main_v393 (by decide)).trans <| (W76_of m ρ c main_v393 (by decide)).trans <| (W75_of m ρ c main_v393 (by decide)).trans <| (W74_of m ρ c main_v393 (by decide)).trans <| (W73_of m ρ c main_v393 (by decide)).trans <| (W72_of m ρ c main_v393 (by decide)).trans <| (W71_of m ρ c main_v393 (by decide)).trans <| (W70_of m ρ c main_v393 (by decide)).trans <| (W69_of m ρ c main_v393 (by decide)).trans rfl
theorem keep_v365_78 (c : Dev nD) : W78 m ρ c (Proc.devRef .tc main_v365) = W61 m ρ c (Proc.devRef .tc main_v365) :=
  (W78_of m ρ c main_v365 (by decide)).trans <| (W77_of m ρ c main_v365 (by decide)).trans <| (W76_of m ρ c main_v365 (by decide)).trans <| (W75_of m ρ c main_v365 (by decide)).trans <| (W74_of m ρ c main_v365 (by decide)).trans <| (W73_of m ρ c main_v365 (by decide)).trans <| (W72_of m ρ c main_v365 (by decide)).trans <| (W71_of m ρ c main_v365 (by decide)).trans <| (W70_of m ρ c main_v365 (by decide)).trans <| (W69_of m ρ c main_v365 (by decide)).trans <| (W68_of m ρ c main_v365 (by decide)).trans <| (W67_of m ρ c main_v365 (by decide)).trans <| (W66_of m ρ c main_v365 (by decide)).trans <| (W65_of m ρ c main_v365 (by decide)).trans <| (W64_of m ρ c main_v365 (by decide)).trans <| (W63_of m ρ c main_v365 (by decide)).trans <| (W62_of m ρ c main_v365 (by decide)).trans rfl
theorem keep_v487_81 (c : Dev nD) : W81 m ρ c (Proc.devRef .tc main_v487) = W79 m ρ c (Proc.devRef .tc main_v487) :=
  (W81_of m ρ c main_v487 (by decide)).trans <| (W80_of m ρ c main_v487 (by decide)).trans rfl
theorem keep_v488_82 (c : Dev nD) : W82 m ρ c (Proc.devRef .tc main_v488) = W80 m ρ c (Proc.devRef .tc main_v488) :=
  (W82_of m ρ c main_v488 (by decide)).trans <| (W81_of m ρ c main_v488 (by decide)).trans rfl

end Cert.KernelIdeal.Gen

end
-- ==== Proof.KI.Fin0.lean ====
import proofs.«417513_j58866821759238_4_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! ## The block product's dimension numbers: which operand elements meet at an output element -/

theorem lhs_R0_0 (i : S10000x64.Idx) (q : dot_S10000x384_S384x64_S10000x64_1_0_0_1_n_n.contr.Idx) :
    (dot_S10000x384_S384x64_S10000x64_1_0_0_1_n_n.lhsIdx i q 0).val = (i 0).val := by
  unfold DotDims.lhsIdx
  rw [dif_neg (show ¬(0 : Fin S10000x384.rank) ∈ dot_S10000x384_S384x64_S10000x64_1_0_0_1_n_n.lhsBatch by decide), dif_pos (show (0 : Fin S10000x384.rank) ∈ dot_S10000x384_S384x64_S10000x64_1_0_0_1_n_n.lhsNonContracting by decide)]
  rfl
theorem lhs_R0_1 (i : S10000x64.Idx) (q : dot_S10000x384_S384x64_S10000x64_1_0_0_1_n_n.contr.Idx) :
    (dot_S10000x384_S384x64_S10000x64_1_0_0_1_n_n.lhsIdx i q 1).val = (q ⟨0, by decide⟩).val :=
  dot_S10000x384_S384x64_S10000x64_1_0_0_1_n_n.lhsIdx_val_of_single rfl i q
theorem rhs_R0_0 (i : S10000x64.Idx) (q : dot_S10000x384_S384x64_S10000x64_1_0_0_1_n_n.contr.Idx) :
    (dot_S10000x384_S384x64_S10000x64_1_0_0_1_n_n.rhsIdx i q 0).val = (q ⟨0, by decide⟩).val :=
  dot_S10000x384_S384x64_S10000x64_1_0_0_1_n_n.rhsIdx_val_of_single rfl i q
theorem rhs_R0_1 (i : S10000x64.Idx) (q : dot_S10000x384_S384x64_S10000x64_1_0_0_1_n_n.contr.Idx) :
    (dot_S10000x384_S384x64_S10000x64_1_0_0_1_n_n.rhsIdx i q 1).val = (i 1).val := by
  unfold DotDims.rhsIdx
  rw [dif_neg (show ¬(1 : Fin S384x64.rank) ∈ dot_S10000x384_S384x64_S10000x64_1_0_0_1_n_n.rhsBatch by decide), dif_pos (show (1 : Fin S384x64.rank) ∈ dot_S10000x384_S384x64_S10000x64_1_0_0_1_n_n.rhsNonContracting by decide)]
  rfl

/-- The block product into a zero accumulator, at row `p` and column `q`: the sum over the 384 inner positions of
    the products of row `p` of the left block and column `q` of the right one. -/
theorem matmul_R0_apply (x : FVec Ideal S10000x384 .f32) (y : FVec Ideal S384x64 .f32) (p : Fin 10000) (q : Fin 64) :
    matmul dot_S10000x384_S384x64_S10000x64_1_0_0_1_n_n none x y (constant (F := Ideal) S10000x64 .f32 0x00000000#32) (ix2 p q) = ∑ k : Fin 384, x (ix2 p k) * y (ix2 k q) := by
  simp only [matmul]
  rw [Ideal.matmul_constant_zero_apply, ← Equiv.sum_comp (contrEquiv1 dot_S10000x384_S384x64_S10000x64_1_0_0_1_n_n 384 rfl rfl).symm]
  refine Finset.sum_congr rfl fun k _ => ?_
  have hk := contrEquiv1_symm_val dot_S10000x384_S384x64_S10000x64_1_0_0_1_n_n 384 rfl rfl k
  have el : dot_S10000x384_S384x64_S10000x64_1_0_0_1_n_n.lhsIdx (ix2 p q) ((contrEquiv1 dot_S10000x384_S384x64_S10000x64_1_0_0_1_n_n 384 rfl rfl).symm k) = ix2 p k := funext fun a => Fin.ext (by
    match a with
    | ⟨0, _⟩ => exact lhs_R0_0 _ _
    | ⟨1, _⟩ => exact (lhs_R0_1 _ _).trans hk)
  have er : dot_S10000x384_S384x64_S10000x64_1_0_0_1_n_n.rhsIdx (ix2 p q) ((contrEquiv1 dot_S10000x384_S384x64_S10000x64_1_0_0_1_n_n 384 rfl rfl).symm k) = ix2 k q := funext fun a => Fin.ext (by
    match a with
    | ⟨0, _⟩ => exact (rhs_R0_0 _ _).trans hk
    | ⟨1, _⟩ => exact rhs_R0_1 _ _)
  rw [el, er]

/-- The body's payload at row `p` and column `q` of the block: the product sum plus the bias row's entry at `q`. -/
theorem pay0_apply (x0 : Vec Ideal S10000x384 .f32) (x1 : Vec Ideal S384x64 .f32) (x2 : Vec Ideal S1x64 .f32) (p : Fin 10000) (q : Fin 64) :
    k0_pay1 (F := Ideal) x0 x1 x2 (ix2 p q) = (∑ k : Fin 384, x0 (ix2 p k) * x1 (ix2 k q)) + x2 (ix2 (0 : Fin 1) q) := by
  unfold k0_pay1
  simp only [shapeCast_self]
  rw [addf_apply, matmul_R0_apply, broadcastTo_1b_ab_apply]

/-! ## The region's result, index by index -/

/-- What the output array holds after the region, as one function of the three input arrays: at row `r` and column
    `j` the sum over the 384 inner positions of `x[r, k] · W[k, j]`, plus the bias `b[0, j]`. -/
def G0 (a0 : S100000x384.Idx → EReal) (a1 : S384x64.Idx → EReal) (a2 : S1x64.Idx → EReal) : S100000x64.Idx → EReal :=
  fun i => (∑ k : Fin 384, a0 (ix2 (i 0) k) * a1 (ix2 k (i 1))) + a2 (ix2 (0 : Fin 1) (i 1))

theorem hz0 : (![0, 0] : Fin 2 → Nat) = fun _ => 0 := funext fun a => by fin_cases a <;> rfl

/-- The block index maps over the grid: the rows' window and the output's are at block `t` of the rows at point `t`;
    the weight's and the bias's one block is block 0 at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point `t` is rows `10000 t … 10000 t + 9999` of the array. -/
theorem iblk0_0_apply (c : Dev nD) (t : Fin cfg0.N) (x : S10000x384.Idx) (k : S100000x384.Idx)
    (hk0 : (k 0).val = 10000 * t.val + (x 0).val) (hk1 : (k 1).val = (x 1).val) :
    (iblk0 V c 0 t : Vec Ideal S10000x384 .f32) x = (V c (Pipeline.arrRef spec0 0) : S100000x384.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 384 + 1 * (x 1).val = (k 1).val; rw [e1, hk1]; omega

/-- The weight's block at every point is the whole array. -/
theorem iblk0_1_eq (c : Dev nD) (t : Fin cfg0.N) :
    (iblk0 V c 1 t : Vec Ideal S384x64 .f32) = (V c (Pipeline.arrRef spec0 1) : S384x64.Idx → EReal) := by
  obtain ⟨-, -, e2, e3, -⟩ := idx_facts0 t
  funext x
  unfold iblk0
  rw [View.read_apply]
  show V c main_v0 _ = V c main_v0 _
  congr 1
  funext a
  apply Fin.ext
  match a with
  | ⟨0, _⟩ => show win0_1.index t (0 : Fin 2) * 384 + 1 * (x 0).val = (x 0).val; rw [e2]; omega
  | ⟨1, _⟩ => show win0_1.index t (1 : Fin 2) * 64 + 1 * (x 1).val = (x 1).val; rw [e3]; omega

/-- The bias's block at every point is the whole array. -/
theorem iblk0_2_eq (c : Dev nD) (t : Fin cfg0.N) :
    (iblk0 V c 2 t : Vec Ideal S1x64 .f32) = (V c (Pipeline.arrRef spec0 2) : S1x64.Idx → EReal) := by
  obtain ⟨-, -, -, -, e4, e5, -⟩ := idx_facts0 t
  funext x
  unfold iblk0
  rw [View.read_apply]
  show V c main_v1 _ = V c main_v1 _
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 64 + 1 * (x 1).val = (x 1).val; rw [e5]; omega

/-- The payload of blocks that are rows `r₀ …` of `A0`, all of `A1` and all of `A2`, at row `p` and column `q` of the
    block, is `G0` of the arrays at row `r` (the block's row `p`) and column `q`. -/
theorem block0_apply (A0 : S100000x384.Idx → EReal) (A1 : S384x64.Idx → EReal) (A2 : S1x64.Idx → EReal)
    (x0 : Vec Ideal S10000x384 .f32) (x1 : Vec Ideal S384x64 .f32) (x2 : Vec Ideal S1x64 .f32)
    (r : Fin 100000) (p : Fin 10000) (q : Fin 64)
    (h0 : ∀ k : Fin 384, x0 (ix2 p k) = A0 (ix2 r k)) (h1 : x1 = A1) (h2 : x2 = A2) :
    k0_pay1 (F := Ideal) x0 x1 x2 (ix2 p q) = G0 A0 A1 A2 (ix2 r q) := by
  rw [pay0_apply, h1, h2]
  unfold G0
  exact congrArg (· + A2 (ix2 (0 : Fin 1) q)) (Finset.sum_congr rfl fun k _ => by rw [h0 k])

/-- What point `t` writes back is block `t` of `G0` of the input arrays as the region finds them. -/
theorem flushed0_eq (c : Dev nD) (t : Fin cfg0.N) :
    (dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz0]
  simp only [View.ld_unit_zero (S := S10000x384) hz0, View.ld_unit_zero (S := S384x64) hz0, View.ld_unit_zero (S := S1x64) hz0]
  have hN : cfg0.N = 10 := N_0
  have ht : t.val < cfg0.N := t.isLt
  obtain ⟨-, -, -, -, -, -, e6, e7⟩ := idx_facts0 t
  funext j
  obtain ⟨p, q, rfl⟩ : ∃ (p : Fin 10000) (q : Fin 64), j = ix2 p q := ⟨j 0, j 1, eq_ix2 j⟩
  rw [View.read_apply]
  have hemb : ((cfg0.win 3).blk t).view.emb (ix2 p q) = (ix2 (⟨10000 * t.val + p.val, by have := p.isLt; omega⟩ : Fin 100000) q : S100000x64.Idx) := by
    funext a
    apply Fin.ext
    match a with
    | ⟨0, _⟩ => show win0_3.index t (0 : Fin 2) * 10000 + 1 * p.val = 10000 * t.val + p.val; rw [e6]; omega
    | ⟨1, _⟩ => show win0_3.index t (1 : Fin 2) * 64 + 1 * q.val = q.val; rw [e7]; omega
  rw [hemb]
  exact block0_apply _ _ _ _ _ _ _ p q
    (fun k => iblk0_0_apply V c t (ix2 p k) (ix2 _ k) rfl rfl) (iblk0_1_eq V c t) (iblk0_2_eq V c t)

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v2).slice (win0_3.rect t)).set ↔ _
  rw [View.set_slice_whole, Rect.mem_set_unit]
  exact Iff.rfl

/-- Every index of the output array is in some point's block: row `r` is in the block of point `r / 10000`. -/
theorem cover0 (i : S100000x64.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  have hlt : (i 0).val / 10000 < cfg0.N := by omega
  refine ⟨⟨(i 0).val / 10000, hlt⟩, flush0_3 _, ?_⟩
  rw [mem_blk0]
  obtain ⟨-, -, -, -, -, -, e6, e7⟩ := idx_facts0 ⟨(i 0).val / 10000, hlt⟩
  have e6' : win0_3.index ⟨(i 0).val / 10000, hlt⟩ (0 : Fin 2) = (i 0).val / 10000 := e6
  intro a
  match a with
  | ⟨0, _⟩ => show win0_3.index ⟨(i 0).val / 10000, hlt⟩ (0 : Fin 2) * 10000 ≤ (i 0).val ∧ (i 0).val < win0_3.index ⟨(i 0).val / 10000, hlt⟩ (0 : Fin 2) * 10000 + 10000; rw [e6']; omega
  | ⟨1, _⟩ => show win0_3.index ⟨(i 0).val / 10000, hlt⟩ (1 : Fin 2) * 64 ≤ (i 1).val ∧ (i 1).val < win0_3.index ⟨(i 0).val / 10000, hlt⟩ (1 : Fin 2) * 64 + 64; rw [e7]; omega

/-- The output array after the region is `G0` of the input arrays as the region finds them. -/
theorem final0 (c : Dev nD) : (dat0 (F := Ideal) V c).arrAt 3 cfg0.N = G0 (V c (Pipeline.arrRef spec0 0)) (V c (Pipeline.arrRef spec0 1)) (V c (Pipeline.arrRef spec0 2)) :=
  (dat0 (F := Ideal) V c).arrAt_eq_of_cover 3 (G0 (V c (Pipeline.arrRef spec0 0)) (V c (Pipeline.arrRef spec0 1)) (V c (Pipeline.arrRef spec0 2)))
    (fun t _ => flushed0_eq V c t) (cover0)

end Cert.KernelIdeal.Gen

end
-- ==== Proof.KI.Fin1.lean ====
import proofs.«417513_j58866821759238_4_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! ## The block product's dimension numbers: which operand elements meet at an output element -/

theorem lhs_R1_0 (i : S10000x64.Idx) (q : dot_S10000x384_S384x64_S10000x64_1_0_0_1_n_n.contr.Idx) :
    (dot_S10000x384_S384x64_S10000x64_1_0_0_1_n_n.lhsIdx i q 0).val = (i 0).val := by
  unfold DotDims.lhsIdx
  rw [dif_neg (show ¬(0 : Fin S10000x384.rank) ∈ dot_S10000x384_S384x64_S10000x64_1_0_0_1_n_n.lhsBatch by decide), dif_pos (show (0 : Fin S10000x384.rank) ∈ dot_S10000x384_S384x64_S10000x64_1_0_0_1_n_n.lhsNonContracting by decide)]
  rfl
theorem lhs_R1_1 (i : S10000x64.Idx) (q : dot_S10000x384_S384x64_S10000x64_1_0_0_1_n_n.contr.Idx) :
    (dot_S10000x384_S384x64_S10000x64_1_0_0_1_n_n.lhsIdx i q 1).val = (q ⟨0, by decide⟩).val :=
  dot_S10000x384_S384x64_S10000x64_1_0_0_1_n_n.lhsIdx_val_of_single rfl i q
theorem rhs_R1_0 (i : S10000x64.Idx) (q : dot_S10000x384_S384x64_S10000x64_1_0_0_1_n_n.contr.Idx) :
    (dot_S10000x384_S384x64_S10000x64_1_0_0_1_n_n.rhsIdx i q 0).val = (q ⟨0, by decide⟩).val :=
  dot_S10000x384_S384x64_S10000x64_1_0_0_1_n_n.rhsIdx_val_of_single rfl i q
theorem rhs_R1_1 (i : S10000x64.Idx) (q : dot_S10000x384_S384x64_S10000x64_1_0_0_1_n_n.contr.Idx) :
    (dot_S10000x384_S384x64_S10000x64_1_0_0_1_n_n.rhsIdx i q 1).val = (i 1).val := by
  unfold DotDims.rhsIdx
  rw [dif_neg (show ¬(1 : Fin S384x64.rank) ∈ dot_S10000x384_S384x64_S10000x64_1_0_0_1_n_n.rhsBatch by decide), dif_pos (show (1 : Fin S384x64.rank) ∈ dot_S10000x384_S384x64_S10000x64_1_0_0_1_n_n.rhsNonContracting by decide)]
  rfl

/-- The block product into a zero accumulator, at row `p` and column `q`: the sum over the 384 inner positions of
    the products of row `p` of the left block and column `q` of the right one. -/
theorem matmul_R1_apply (x : FVec Ideal S10000x384 .f32) (y : FVec Ideal S384x64 .f32) (p : Fin 10000) (q : Fin 64) :
    matmul dot_S10000x384_S384x64_S10000x64_1_0_0_1_n_n none x y (constant (F := Ideal) S10000x64 .f32 0x00000000#32) (ix2 p q) = ∑ k : Fin 384, x (ix2 p k) * y (ix2 k q) := by
  simp only [matmul]
  rw [Ideal.matmul_constant_zero_apply, ← Equiv.sum_comp (contrEquiv1 dot_S10000x384_S384x64_S10000x64_1_0_0_1_n_n 384 rfl rfl).symm]
  refine Finset.sum_congr rfl fun k _ => ?_
  have hk := contrEquiv1_symm_val dot_S10000x384_S384x64_S10000x64_1_0_0_1_n_n 384 rfl rfl k
  have el : dot_S10000x384_S384x64_S10000x64_1_0_0_1_n_n.lhsIdx (ix2 p q) ((contrEquiv1 dot_S10000x384_S384x64_S10000x64_1_0_0_1_n_n 384 rfl rfl).symm k) = ix2 p k := funext fun a => Fin.ext (by
    match a with
    | ⟨0, _⟩ => exact lhs_R1_0 _ _
    | ⟨1, _⟩ => exact (lhs_R1_1 _ _).trans hk)
  have er : dot_S10000x384_S384x64_S10000x64_1_0_0_1_n_n.rhsIdx (ix2 p q) ((contrEquiv1 dot_S10000x384_S384x64_S10000x64_1_0_0_1_n_n 384 rfl rfl).symm k) = ix2 k q := funext fun a => Fin.ext (by
    match a with
    | ⟨0, _⟩ => exact (rhs_R1_0 _ _).trans hk
    | ⟨1, _⟩ => exact rhs_R1_1 _ _)
  rw [el, er]

/-- The body's payload at row `p` and column `q` of the block: the product sum plus the bias row's entry at `q`. -/
theorem pay1_apply (x0 : Vec Ideal S10000x384 .f32) (x1 : Vec Ideal S384x64 .f32) (x2 : Vec Ideal S1x64 .f32) (p : Fin 10000) (q : Fin 64) :
    k1_pay1 (F := Ideal) x0 x1 x2 (ix2 p q) = (∑ k : Fin 384, x0 (ix2 p k) * x1 (ix2 k q)) + x2 (ix2 (0 : Fin 1) q) := by
  unfold k1_pay1
  simp only [shapeCast_self]
  rw [addf_apply, matmul_R1_apply, broadcastTo_1b_ab_apply]

/-! ## The region's result, index by index -/

/-- What the output array holds after the region, as one function of the three input arrays: at row `r` and column
    `j` the sum over the 384 inner positions of `x[r, k] · W[k, j]`, plus the bias `b[0, j]`. -/
def G1 (a0 : S50000x384.Idx → EReal) (a1 : S384x64.Idx → EReal) (a2 : S1x64.Idx → EReal) : S50000x64.Idx → EReal :=
  fun i => (∑ k : Fin 384, a0 (ix2 (i 0) k) * a1 (ix2 k (i 1))) + a2 (ix2 (0 : Fin 1) (i 1))

theorem hz1 : (![0, 0] : Fin 2 → Nat) = fun _ => 0 := funext fun a => by fin_cases a <;> rfl

/-- The block index maps over the grid: the rows' window and the output's are at block `t` of the rows at point `t`;
    the weight's and the bias's one block is block 0 at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The rows' block at point `t` is rows `10000 t … 10000 t + 9999` of the array. -/
theorem iblk1_0_apply (c : Dev nD) (t : Fin cfg1.N) (x : S10000x384.Idx) (k : S50000x384.Idx)
    (hk0 : (k 0).val = 10000 * t.val + (x 0).val) (hk1 : (k 1).val = (x 1).val) :
    (iblk1 V c 0 t : Vec Ideal S10000x384 .f32) x = (V c (Pipeline.arrRef spec1 0) : S50000x384.Idx → EReal) k := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 384 + 1 * (x 1).val = (k 1).val; rw [e1, hk1]; omega

/-- The weight's block at every point is the whole array. -/
theorem iblk1_1_eq (c : Dev nD) (t : Fin cfg1.N) :
    (iblk1 V c 1 t : Vec Ideal S384x64 .f32) = (V c (Pipeline.arrRef spec1 1) : S384x64.Idx → EReal) := by
  obtain ⟨-, -, e2, e3, -⟩ := idx_facts1 t
  funext x
  unfold iblk1
  rw [View.read_apply]
  show V c main_v3 _ = V c main_v3 _
  congr 1
  funext a
  apply Fin.ext
  match a with
  | ⟨0, _⟩ => show win1_1.index t (0 : Fin 2) * 384 + 1 * (x 0).val = (x 0).val; rw [e2]; omega
  | ⟨1, _⟩ => show win1_1.index t (1 : Fin 2) * 64 + 1 * (x 1).val = (x 1).val; rw [e3]; omega

/-- The bias's block at every point is the whole array. -/
theorem iblk1_2_eq (c : Dev nD) (t : Fin cfg1.N) :
    (iblk1 V c 2 t : Vec Ideal S1x64 .f32) = (V c (Pipeline.arrRef spec1 2) : S1x64.Idx → EReal) := by
  obtain ⟨-, -, -, -, e4, e5, -⟩ := idx_facts1 t
  funext x
  unfold iblk1
  rw [View.read_apply]
  show V c main_v4 _ = V c main_v4 _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 64 + 1 * (x 1).val = (x 1).val; rw [e5]; omega

/-- The payload of blocks that are rows `r₀ …` of `A0`, all of `A1` and all of `A2`, at row `p` and column `q` of the
    block, is `G1` of the arrays at row `r` (the block's row `p`) and column `q`. -/
theorem block1_apply (A0 : S50000x384.Idx → EReal) (A1 : S384x64.Idx → EReal) (A2 : S1x64.Idx → EReal)
    (x0 : Vec Ideal S10000x384 .f32) (x1 : Vec Ideal S384x64 .f32) (x2 : Vec Ideal S1x64 .f32)
    (r : Fin 50000) (p : Fin 10000) (q : Fin 64)
    (h0 : ∀ k : Fin 384, x0 (ix2 p k) = A0 (ix2 r k)) (h1 : x1 = A1) (h2 : x2 = A2) :
    k1_pay1 (F := Ideal) x0 x1 x2 (ix2 p q) = G1 A0 A1 A2 (ix2 r q) := by
  rw [pay1_apply, h1, h2]
  unfold G1
  exact congrArg (· + A2 (ix2 (0 : Fin 1) q)) (Finset.sum_congr rfl fun k _ => by rw [h0 k])

/-- What point `t` writes back is block `t` of `G1` of the input arrays as the region finds them. -/
theorem flushed1_eq (c : Dev nD) (t : Fin cfg1.N) :
    (dat1 (F := Ideal) V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz1]
  simp only [View.ld_unit_zero (S := S10000x384) hz1, View.ld_unit_zero (S := S384x64) hz1, View.ld_unit_zero (S := S1x64) hz1]
  have hN : cfg1.N = 5 := N_1
  have ht : t.val < cfg1.N := t.isLt
  obtain ⟨-, -, -, -, -, -, e6, e7⟩ := idx_facts1 t
  funext j
  obtain ⟨p, q, rfl⟩ : ∃ (p : Fin 10000) (q : Fin 64), j = ix2 p q := ⟨j 0, j 1, eq_ix2 j⟩
  rw [View.read_apply]
  have hemb : ((cfg1.win 3).blk t).view.emb (ix2 p q) = (ix2 (⟨10000 * t.val + p.val, by have := p.isLt; omega⟩ : Fin 50000) q : S50000x64.Idx) := by
    funext a
    apply Fin.ext
    match a with
    | ⟨0, _⟩ => show win1_3.index t (0 : Fin 2) * 10000 + 1 * p.val = 10000 * t.val + p.val; rw [e6]; omega
    | ⟨1, _⟩ => show win1_3.index t (1 : Fin 2) * 64 + 1 * q.val = q.val; rw [e7]; omega
  rw [hemb]
  exact block1_apply _ _ _ _ _ _ _ p q
    (fun k => iblk1_0_apply V c t (ix2 p k) (ix2 _ k) rfl rfl) (iblk1_1_eq V c t) (iblk1_2_eq V c t)

/-- An index of the array is in point `t`'s block iff each coordinate is in the block's range on its axis. -/
theorem mem_blk1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v5).slice (win1_3.rect t)).set ↔ _
  rw [View.set_slice_whole, Rect.mem_set_unit]
  exact Iff.rfl

/-- Every index of the output array is in some point's block: row `r` is in the block of point `r / 10000`. -/
theorem cover1 (i : S50000x64.Idx) :
    ∃ t : Fin cfg1.N, (cfg1.win 3).flush t = true ∧ i ∈ ((cfg1.win 3).blk t).view.set := by
  have hN : cfg1.N = 5 := N_1
  have hi0 : (i 0).val < 50000 := (i 0).isLt
  have hi1 : (i 1).val < 64 := (i 1).isLt
  have hlt : (i 0).val / 10000 < cfg1.N := by omega
  refine ⟨⟨(i 0).val / 10000, hlt⟩, flush1_3 _, ?_⟩
  rw [mem_blk1]
  obtain ⟨-, -, -, -, -, -, e6, e7⟩ := idx_facts1 ⟨(i 0).val / 10000, hlt⟩
  have e6' : win1_3.index ⟨(i 0).val / 10000, hlt⟩ (0 : Fin 2) = (i 0).val / 10000 := e6
  intro a
  match a with
  | ⟨0, _⟩ => show win1_3.index ⟨(i 0).val / 10000, hlt⟩ (0 : Fin 2) * 10000 ≤ (i 0).val ∧ (i 0).val < win1_3.index ⟨(i 0).val / 10000, hlt⟩ (0 : Fin 2) * 10000 + 10000; rw [e6']; omega
  | ⟨1, _⟩ => show win1_3.index ⟨(i 0).val / 10000, hlt⟩ (1 : Fin 2) * 64 ≤ (i 1).val ∧ (i 1).val < win1_3.index ⟨(i 0).val / 10000, hlt⟩ (1 : Fin 2) * 64 + 64; rw [e7]; omega

/-- The output array after the region is `G1` of the input arrays as the region finds them. -/
theorem final1 (c : Dev nD) : (dat1 (F := Ideal) V c).arrAt 3 cfg1.N = G1 (V c (Pipeline.arrRef spec1 0)) (V c (Pipeline.arrRef spec1 1)) (V c (Pipeline.arrRef spec1 2)) :=
  (dat1 (F := Ideal) V c).arrAt_eq_of_cover 3 (G1 (V c (Pipeline.arrRef spec1 0)) (V c (Pipeline.arrRef spec1 1)) (V c (Pipeline.arrRef spec1 2)))
    (fun t _ => flushed1_eq V c t) (cover1)

end Cert.KernelIdeal.Gen

end
-- ==== Proof.Sim.X0.lean ====
import proofs.«417513_j58866821759238_4_alg».proof.Proof.KI.Keep
import proofs.«417513_j58866821759238_4_alg».proof.Proof.Ref.Run
import proofs.«417513_j58866821759238_4_alg».proof.Proof.KI.Fin0
import proofs.«417513_j58866821759238_4_alg».proof.Proof.KI.Fin1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Sim

open Idealize.ShloMosaic Idealize.ShloMosaic.TcCoe Idealize.SL.Sem
open Idealize.ShloMosaic.ValueIdx
open scoped BigOperators

/-! ## The reference's projection of 100000 rows, read at an index -/

theorem lhs_refu_0 (i : Cert.ReferenceIdeal.S100000x64.Idx) (q : Cert.ReferenceIdeal.dot_S100000x384_S384x64_S100000x64_1_0_0_1_n_n.contr.Idx) :
    (Cert.ReferenceIdeal.dot_S100000x384_S384x64_S100000x64_1_0_0_1_n_n.lhsIdx i q 0).val = (i 0).val := by
  unfold DotDims.lhsIdx
  rw [dif_neg (show ¬(0 : Fin Cert.ReferenceIdeal.S100000x384.rank) ∈ Cert.ReferenceIdeal.dot_S100000x384_S384x64_S100000x64_1_0_0_1_n_n.lhsBatch by decide), dif_pos (show (0 : Fin Cert.ReferenceIdeal.S100000x384.rank) ∈ Cert.ReferenceIdeal.dot_S100000x384_S384x64_S100000x64_1_0_0_1_n_n.lhsNonContracting by decide)]
  rfl
theorem lhs_refu_1 (i : Cert.ReferenceIdeal.S100000x64.Idx) (q : Cert.ReferenceIdeal.dot_S100000x384_S384x64_S100000x64_1_0_0_1_n_n.contr.Idx) :
    (Cert.ReferenceIdeal.dot_S100000x384_S384x64_S100000x64_1_0_0_1_n_n.lhsIdx i q 1).val = (q ⟨0, by decide⟩).val :=
  Cert.ReferenceIdeal.dot_S100000x384_S384x64_S100000x64_1_0_0_1_n_n.lhsIdx_val_of_single rfl i q
theorem rhs_refu_0 (i : Cert.ReferenceIdeal.S100000x64.Idx) (q : Cert.ReferenceIdeal.dot_S100000x384_S384x64_S100000x64_1_0_0_1_n_n.contr.Idx) :
    (Cert.ReferenceIdeal.dot_S100000x384_S384x64_S100000x64_1_0_0_1_n_n.rhsIdx i q 0).val = (q ⟨0, by decide⟩).val :=
  Cert.ReferenceIdeal.dot_S100000x384_S384x64_S100000x64_1_0_0_1_n_n.rhsIdx_val_of_single rfl i q
theorem rhs_refu_1 (i : Cert.ReferenceIdeal.S100000x64.Idx) (q : Cert.ReferenceIdeal.dot_S100000x384_S384x64_S100000x64_1_0_0_1_n_n.contr.Idx) :
    (Cert.ReferenceIdeal.dot_S100000x384_S384x64_S100000x64_1_0_0_1_n_n.rhsIdx i q 1).val = (i 1).val := by
  unfold DotDims.rhsIdx
  rw [dif_neg (show ¬(1 : Fin Cert.ReferenceIdeal.S384x64.rank) ∈ Cert.ReferenceIdeal.dot_S100000x384_S384x64_S100000x64_1_0_0_1_n_n.rhsBatch by decide), dif_pos (show (1 : Fin Cert.ReferenceIdeal.S384x64.rank) ∈ Cert.ReferenceIdeal.dot_S100000x384_S384x64_S100000x64_1_0_0_1_n_n.rhsNonContracting by decide)]
  rfl

/-- The reference's product plus bias at row `r` and column `j`: the sum over the 384 inner positions of the products, plus
    the bias vector's entry `j` (broadcast first to one row, then down the rows). -/
theorem ref_proju_apply (a0 : FVec Ideal Cert.ReferenceIdeal.S100000x384 .f32) (a1 : FVec Ideal Cert.ReferenceIdeal.S384x64 .f32) (a6 : FVec Ideal Cert.ReferenceIdeal.S64 .f32)
    (r : Fin 100000) (j : Fin 64) :
    addf (Host.dotGeneral Cert.ReferenceIdeal.dot_S100000x384_S384x64_S100000x64_1_0_0_1_n_n none a0 a1)
        (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 a6)) (ix2 r j)
      = (∑ k : Fin 384, a0 (ix2 r k) * a1 (ix2 k j)) + a6 (ix1 j) := by
  rw [addf_apply]
  congr 1
  · simp only [Host.dotGeneral]
    rw [Ideal.dotGeneral_apply, ← Equiv.sum_comp (contrEquiv1 Cert.ReferenceIdeal.dot_S100000x384_S384x64_S100000x64_1_0_0_1_n_n 384 rfl rfl).symm]
    refine Finset.sum_congr rfl fun k _ => ?_
    have hk := contrEquiv1_symm_val Cert.ReferenceIdeal.dot_S100000x384_S384x64_S100000x64_1_0_0_1_n_n 384 rfl rfl k
    have el : Cert.ReferenceIdeal.dot_S100000x384_S384x64_S100000x64_1_0_0_1_n_n.lhsIdx (ix2 r j) ((contrEquiv1 Cert.ReferenceIdeal.dot_S100000x384_S384x64_S100000x64_1_0_0_1_n_n 384 rfl rfl).symm k) = ix2 r k := funext fun a => Fin.ext (by
      match a with
      | ⟨0, _⟩ => exact lhs_refu_0 _ _
      | ⟨1, _⟩ => exact (lhs_refu_1 _ _).trans hk)
    have er : Cert.ReferenceIdeal.dot_S100000x384_S384x64_S100000x64_1_0_0_1_n_n.rhsIdx (ix2 r j) ((contrEquiv1 Cert.ReferenceIdeal.dot_S100000x384_S384x64_S100000x64_1_0_0_1_n_n 384 rfl rfl).symm k) = ix2 k j := funext fun a => Fin.ext (by
      match a with
      | ⟨0, _⟩ => exact (rhs_refu_0 _ _).trans hk
      | ⟨1, _⟩ => exact rhs_refu_1 _ _)
    rw [el, er]
  · refine (broadcastInDim_apply _ Cert.ReferenceIdeal.Gen.bcast_S1x64_S100000x64_0_1 _ (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])).trans ?_
    exact broadcastInDim_apply _ Cert.ReferenceIdeal.Gen.bcast_S64_S1x64_1 a6 (ix2 (0 : Fin 1) j) (ix1 j) (fun a => match a with
      | ⟨0, _⟩ => by show j.val = if (64 : Nat) = 1 then 0 else j.val; rw [if_neg (by decide)])

/-! ## The kernel program's projection of 100000 rows -/

/-- The kernel program's result function with the bias vector cast to one row, at row `r` and column `j`. -/
theorem ker_proju_apply (a0 : Cert.KernelIdeal.S100000x384.Idx → EReal) (a1 : Cert.KernelIdeal.S384x64.Idx → EReal) (a6 : Cert.KernelIdeal.S64.Idx → EReal)
    (r : Fin 100000) (j : Fin 64) :
    Cert.KernelIdeal.Gen.G0 a0 a1 (shapeCast Cert.KernelIdeal.S1x64 a6 Cert.KernelIdeal.Gen.shapeCasts_S64_S1x64) (ix2 r j)
      = (∑ k : Fin 384, a0 (ix2 r k) * a1 (ix2 k j)) + a6 (ix1 j) := by
  unfold Cert.KernelIdeal.Gen.G0
  show (∑ k : Fin 384, a0 (ix2 r k) * a1 (ix2 k j)) + shapeCast Cert.KernelIdeal.S1x64 a6 Cert.KernelIdeal.Gen.shapeCasts_S64_S1x64 (ix2 (0 : Fin 1) j) = _
  rw [shapeCast_a_1a_apply]

/-- Region 0's output array after the region, over the launch memory: its result function of the rows argument, the
    transposed weight argument and the bias argument cast to one row. -/
theorem x0u_ker (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W2 m ρ c (Proc.devRef .tc Cert.KernelIdeal.main_v2)
      = Cert.KernelIdeal.Gen.G0 (m ((c.tc : Thread Cert.KernelIdeal.nD Cert.KernelIdeal.τ).loc Cert.KernelIdeal.main_arg0))
          (transpose Cert.KernelIdeal.S384x64 [1, 0] (m ((c.tc : Thread Cert.KernelIdeal.nD Cert.KernelIdeal.τ).loc Cert.KernelIdeal.main_arg5)) Cert.KernelIdeal.Gen.transposes_S64x384_S384x64_1_0)
          (shapeCast Cert.KernelIdeal.S1x64 (m ((c.tc : Thread Cert.KernelIdeal.nD Cert.KernelIdeal.τ).loc Cert.KernelIdeal.main_arg6)) Cert.KernelIdeal.Gen.shapeCasts_S64_S1x64) := by
  refine (Cert.KernelIdeal.Gen.W2_arr m ρ c 3).trans ((Cert.KernelIdeal.Gen.final0 (Cert.KernelIdeal.Gen.V1 m ρ) c).trans ?_)
  have h0 : Cert.KernelIdeal.Gen.V1 m ρ c (Pipeline.arrRef Cert.KernelIdeal.spec0 0) = m ((c.tc : Thread Cert.KernelIdeal.nD Cert.KernelIdeal.τ).loc Cert.KernelIdeal.main_arg0) :=
    (Cert.KernelIdeal.Gen.keep_arg0_1 m ρ c).trans rfl
  have h1 : Cert.KernelIdeal.Gen.V1 m ρ c (Pipeline.arrRef Cert.KernelIdeal.spec0 1)
      = transpose Cert.KernelIdeal.S384x64 [1, 0] (m ((c.tc : Thread Cert.KernelIdeal.nD Cert.KernelIdeal.τ).loc Cert.KernelIdeal.main_arg5)) Cert.KernelIdeal.Gen.transposes_S64x384_S384x64_1_0 := by
    show StableHlo.after Cert.KernelIdeal.Gen.hostOps0 (Cert.KernelIdeal.Gen.W0 m ρ c) (Proc.devRef .tc Cert.KernelIdeal.main_v0) = _
    after_results_simp
    first | done | rfl
  have h2 : Cert.KernelIdeal.Gen.V1 m ρ c (Pipeline.arrRef Cert.KernelIdeal.spec0 2)
      = shapeCast Cert.KernelIdeal.S1x64 (m ((c.tc : Thread Cert.KernelIdeal.nD Cert.KernelIdeal.τ).loc Cert.KernelIdeal.main_arg6)) Cert.KernelIdeal.Gen.shapeCasts_S64_S1x64 := by
    show StableHlo.after Cert.KernelIdeal.Gen.hostOps0 (Cert.KernelIdeal.Gen.W0 m ρ c) (Proc.devRef .tc Cert.KernelIdeal.main_v1) = _
    after_results_simp
    first | done | rfl
  rw [h0, h1, h2]

/-! ## The two sides of the projection of 100000 rows -/

/-- The reference's array after its first window, over its launch memory. -/
theorem x0u_ref (m' : (ℓ : Loc Cert.ReferenceIdeal.nD Cert.ReferenceIdeal.τ Cert.ReferenceIdeal.sig) → Buf (Elt Ideal) ℓ) (c : Dev Cert.KernelIdeal.nD) :
    Cert.ReferenceIdeal.Value.U1 m' c (Proc.devRef .tc Cert.ReferenceIdeal.main_v4)
      = addf (F := Ideal) (Host.dotGeneral (F := Ideal) (φ₁ := .f32) (φ₂ := .f32) Cert.ReferenceIdeal.dot_S100000x384_S384x64_S100000x64_1_0_0_1_n_n none (m' ((c.tc : Thread Cert.ReferenceIdeal.nD Cert.ReferenceIdeal.τ).loc Cert.ReferenceIdeal.main_arg0))
            (transpose Cert.ReferenceIdeal.S384x64 [1, 0] (m' ((c.tc : Thread Cert.ReferenceIdeal.nD Cert.ReferenceIdeal.τ).loc Cert.ReferenceIdeal.main_arg5) : FVec Ideal Cert.ReferenceIdeal.S64x384 .f32) Cert.ReferenceIdeal.Gen.transposes_S64x384_S384x64_1_0))
          (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 (m' ((c.tc : Thread Cert.ReferenceIdeal.nD Cert.ReferenceIdeal.τ).loc Cert.ReferenceIdeal.main_arg6) : FVec Ideal Cert.ReferenceIdeal.S64 .f32))) := by
  show StableHlo.after (Cert.ReferenceIdeal.Value.ops0 (F := Ideal)) (Cert.ReferenceIdeal.Value.U0 m' c) (Proc.devRef .tc Cert.ReferenceIdeal.main_v4) = _
  after_results_simp
  first | done | rfl

/-- The kernel program's projection of the 100000 rows is the reference's: both are the rows times the transposed weight plus
    the bias, entry by entry the same sum of 384 products plus the same bias entry. -/
theorem S_x0u (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h0 : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : ∀ c : Dev Cert.KernelIdeal.nD, m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : ∀ c : Dev Cert.KernelIdeal.nD, m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.KernelIdeal.Gen.W2 m ρ c (Proc.devRef .tc Cert.KernelIdeal.main_v2) = Cert.ReferenceIdeal.Value.U1 m' c (Proc.devRef .tc Cert.ReferenceIdeal.main_v4) := by
  rw [x0u_ker m ρ c, x0u_ref m' c, h0 c, h5 c, h6 c]
  funext i
  obtain ⟨r, j, rfl⟩ : ∃ (r : Fin 100000) (j : Fin 64), i = ix2 r j := ⟨i 0, i 1, eq_ix2 i⟩
  exact (ker_proju_apply _ _ _ r j).trans (ref_proju_apply _ _ _ r j).symm

/-! ## The reference's projection of 50000 rows, read at an index -/

theorem lhs_refs_0 (i : Cert.ReferenceIdeal.S50000x64.Idx) (q : Cert.ReferenceIdeal.dot_S50000x384_S384x64_S50000x64_1_0_0_1_n_n.contr.Idx) :
    (Cert.ReferenceIdeal.dot_S50000x384_S384x64_S50000x64_1_0_0_1_n_n.lhsIdx i q 0).val = (i 0).val := by
  unfold DotDims.lhsIdx
  rw [dif_neg (show ¬(0 : Fin Cert.ReferenceIdeal.S50000x384.rank) ∈ Cert.ReferenceIdeal.dot_S50000x384_S384x64_S50000x64_1_0_0_1_n_n.lhsBatch by decide), dif_pos (show (0 : Fin Cert.ReferenceIdeal.S50000x384.rank) ∈ Cert.ReferenceIdeal.dot_S50000x384_S384x64_S50000x64_1_0_0_1_n_n.lhsNonContracting by decide)]
  rfl
theorem lhs_refs_1 (i : Cert.ReferenceIdeal.S50000x64.Idx) (q : Cert.ReferenceIdeal.dot_S50000x384_S384x64_S50000x64_1_0_0_1_n_n.contr.Idx) :
    (Cert.ReferenceIdeal.dot_S50000x384_S384x64_S50000x64_1_0_0_1_n_n.lhsIdx i q 1).val = (q ⟨0, by decide⟩).val :=
  Cert.ReferenceIdeal.dot_S50000x384_S384x64_S50000x64_1_0_0_1_n_n.lhsIdx_val_of_single rfl i q
theorem rhs_refs_0 (i : Cert.ReferenceIdeal.S50000x64.Idx) (q : Cert.ReferenceIdeal.dot_S50000x384_S384x64_S50000x64_1_0_0_1_n_n.contr.Idx) :
    (Cert.ReferenceIdeal.dot_S50000x384_S384x64_S50000x64_1_0_0_1_n_n.rhsIdx i q 0).val = (q ⟨0, by decide⟩).val :=
  Cert.ReferenceIdeal.dot_S50000x384_S384x64_S50000x64_1_0_0_1_n_n.rhsIdx_val_of_single rfl i q
theorem rhs_refs_1 (i : Cert.ReferenceIdeal.S50000x64.Idx) (q : Cert.ReferenceIdeal.dot_S50000x384_S384x64_S50000x64_1_0_0_1_n_n.contr.Idx) :
    (Cert.ReferenceIdeal.dot_S50000x384_S384x64_S50000x64_1_0_0_1_n_n.rhsIdx i q 1).val = (i 1).val := by
  unfold DotDims.rhsIdx
  rw [dif_neg (show ¬(1 : Fin Cert.ReferenceIdeal.S384x64.rank) ∈ Cert.ReferenceIdeal.dot_S50000x384_S384x64_S50000x64_1_0_0_1_n_n.rhsBatch by decide), dif_pos (show (1 : Fin Cert.ReferenceIdeal.S384x64.rank) ∈ Cert.ReferenceIdeal.dot_S50000x384_S384x64_S50000x64_1_0_0_1_n_n.rhsNonContracting by decide)]
  rfl

/-- The reference's product plus bias at row `r` and column `j`: the sum over the 384 inner positions of the products, plus
    the bias vector's entry `j` (broadcast first to one row, then down the rows). -/
theorem ref_projs_apply (a0 : FVec Ideal Cert.ReferenceIdeal.S50000x384 .f32) (a1 : FVec Ideal Cert.ReferenceIdeal.S384x64 .f32) (a6 : FVec Ideal Cert.ReferenceIdeal.S64 .f32)
    (r : Fin 50000) (j : Fin 64) :
    addf (Host.dotGeneral Cert.ReferenceIdeal.dot_S50000x384_S384x64_S50000x64_1_0_0_1_n_n none a0 a1)
        (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 a6)) (ix2 r j)
      = (∑ k : Fin 384, a0 (ix2 r k) * a1 (ix2 k j)) + a6 (ix1 j) := by
  rw [addf_apply]
  congr 1
  · simp only [Host.dotGeneral]
    rw [Ideal.dotGeneral_apply, ← Equiv.sum_comp (contrEquiv1 Cert.ReferenceIdeal.dot_S50000x384_S384x64_S50000x64_1_0_0_1_n_n 384 rfl rfl).symm]
    refine Finset.sum_congr rfl fun k _ => ?_
    have hk := contrEquiv1_symm_val Cert.ReferenceIdeal.dot_S50000x384_S384x64_S50000x64_1_0_0_1_n_n 384 rfl rfl k
    have el : Cert.ReferenceIdeal.dot_S50000x384_S384x64_S50000x64_1_0_0_1_n_n.lhsIdx (ix2 r j) ((contrEquiv1 Cert.ReferenceIdeal.dot_S50000x384_S384x64_S50000x64_1_0_0_1_n_n 384 rfl rfl).symm k) = ix2 r k := funext fun a => Fin.ext (by
      match a with
      | ⟨0, _⟩ => exact lhs_refs_0 _ _
      | ⟨1, _⟩ => exact (lhs_refs_1 _ _).trans hk)
    have er : Cert.ReferenceIdeal.dot_S50000x384_S384x64_S50000x64_1_0_0_1_n_n.rhsIdx (ix2 r j) ((contrEquiv1 Cert.ReferenceIdeal.dot_S50000x384_S384x64_S50000x64_1_0_0_1_n_n 384 rfl rfl).symm k) = ix2 k j := funext fun a => Fin.ext (by
      match a with
      | ⟨0, _⟩ => exact (rhs_refs_0 _ _).trans hk
      | ⟨1, _⟩ => exact rhs_refs_1 _ _)
    rw [el, er]
  · refine (broadcastInDim_apply _ Cert.ReferenceIdeal.Gen.bcast_S1x64_S50000x64_0_1 _ (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])).trans ?_
    exact broadcastInDim_apply _ Cert.ReferenceIdeal.Gen.bcast_S64_S1x64_1 a6 (ix2 (0 : Fin 1) j) (ix1 j) (fun a => match a with
      | ⟨0, _⟩ => by show j.val = if (64 : Nat) = 1 then 0 else j.val; rw [if_neg (by decide)])

/-! ## The kernel program's projection of 50000 rows -/

/-- The kernel program's result function with the bias vector cast to one row, at row `r` and column `j`. -/
theorem ker_projs_apply (a0 : Cert.KernelIdeal.S50000x384.Idx → EReal) (a1 : Cert.KernelIdeal.S384x64.Idx → EReal) (a6 : Cert.KernelIdeal.S64.Idx → EReal)
    (r : Fin 50000) (j : Fin 64) :
    Cert.KernelIdeal.Gen.G1 a0 a1 (shapeCast Cert.KernelIdeal.S1x64 a6 Cert.KernelIdeal.Gen.shapeCasts_S64_S1x64) (ix2 r j)
      = (∑ k : Fin 384, a0 (ix2 r k) * a1 (ix2 k j)) + a6 (ix1 j) := by
  unfold Cert.KernelIdeal.Gen.G1
  show (∑ k : Fin 384, a0 (ix2 r k) * a1 (ix2 k j)) + shapeCast Cert.KernelIdeal.S1x64 a6 Cert.KernelIdeal.Gen.shapeCasts_S64_S1x64 (ix2 (0 : Fin 1) j) = _
  rw [shapeCast_a_1a_apply]

/-- Region 1's output array after the region, over the launch memory: its result function of the rows argument, the
    transposed weight argument and the bias argument cast to one row. -/
theorem x0s_ker (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W4 m ρ c (Proc.devRef .tc Cert.KernelIdeal.main_v5)
      = Cert.KernelIdeal.Gen.G1 (m ((c.tc : Thread Cert.KernelIdeal.nD Cert.KernelIdeal.τ).loc Cert.KernelIdeal.main_arg1))
          (transpose Cert.KernelIdeal.S384x64 [1, 0] (m ((c.tc : Thread Cert.KernelIdeal.nD Cert.KernelIdeal.τ).loc Cert.KernelIdeal.main_arg7)) Cert.KernelIdeal.Gen.transposes_S64x384_S384x64_1_0)
          (shapeCast Cert.KernelIdeal.S1x64 (m ((c.tc : Thread Cert.KernelIdeal.nD Cert.KernelIdeal.τ).loc Cert.KernelIdeal.main_arg8)) Cert.KernelIdeal.Gen.shapeCasts_S64_S1x64) := by
  refine (Cert.KernelIdeal.Gen.W4_arr m ρ c 3).trans ((Cert.KernelIdeal.Gen.final1 (Cert.KernelIdeal.Gen.V3 m ρ) c).trans ?_)
  have h0 : Cert.KernelIdeal.Gen.V3 m ρ c (Pipeline.arrRef Cert.KernelIdeal.spec1 0) = m ((c.tc : Thread Cert.KernelIdeal.nD Cert.KernelIdeal.τ).loc Cert.KernelIdeal.main_arg1) :=
    (Cert.KernelIdeal.Gen.keep_arg1_3 m ρ c).trans rfl
  have h1 : Cert.KernelIdeal.Gen.V3 m ρ c (Pipeline.arrRef Cert.KernelIdeal.spec1 1)
      = transpose Cert.KernelIdeal.S384x64 [1, 0] (m ((c.tc : Thread Cert.KernelIdeal.nD Cert.KernelIdeal.τ).loc Cert.KernelIdeal.main_arg7)) Cert.KernelIdeal.Gen.transposes_S64x384_S384x64_1_0 := by
    show StableHlo.after Cert.KernelIdeal.Gen.hostOps1 (Cert.KernelIdeal.Gen.W2 m ρ c) (Proc.devRef .tc Cert.KernelIdeal.main_v3) = _
    after_results_simp
    rw [Cert.KernelIdeal.Gen.keep_arg7_2 m ρ c]
    first | done | rfl
  have h2 : Cert.KernelIdeal.Gen.V3 m ρ c (Pipeline.arrRef Cert.KernelIdeal.spec1 2)
      = shapeCast Cert.KernelIdeal.S1x64 (m ((c.tc : Thread Cert.KernelIdeal.nD Cert.KernelIdeal.τ).loc Cert.KernelIdeal.main_arg8)) Cert.KernelIdeal.Gen.shapeCasts_S64_S1x64 := by
    show StableHlo.after Cert.KernelIdeal.Gen.hostOps1 (Cert.KernelIdeal.Gen.W2 m ρ c) (Proc.devRef .tc Cert.KernelIdeal.main_v4) = _
    after_results_simp
    rw [Cert.KernelIdeal.Gen.keep_arg8_2 m ρ c]
    first | done | rfl
  rw [h0, h1, h2]

/-! ## The two sides of the projection of 50000 rows -/

/-- The reference's array after its first window, over its launch memory. -/
theorem x0s_ref (m' : (ℓ : Loc Cert.ReferenceIdeal.nD Cert.ReferenceIdeal.τ Cert.ReferenceIdeal.sig) → Buf (Elt Ideal) ℓ) (c : Dev Cert.KernelIdeal.nD) :
    Cert.ReferenceIdeal.Value.U1 m' c (Proc.devRef .tc Cert.ReferenceIdeal.main_v9)
      = addf (F := Ideal) (Host.dotGeneral (F := Ideal) (φ₁ := .f32) (φ₂ := .f32) Cert.ReferenceIdeal.dot_S50000x384_S384x64_S50000x64_1_0_0_1_n_n none (m' ((c.tc : Thread Cert.ReferenceIdeal.nD Cert.ReferenceIdeal.τ).loc Cert.ReferenceIdeal.main_arg1))
            (transpose Cert.ReferenceIdeal.S384x64 [1, 0] (m' ((c.tc : Thread Cert.ReferenceIdeal.nD Cert.ReferenceIdeal.τ).loc Cert.ReferenceIdeal.main_arg7) : FVec Ideal Cert.ReferenceIdeal.S64x384 .f32) Cert.ReferenceIdeal.Gen.transposes_S64x384_S384x64_1_0))
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 (m' ((c.tc : Thread Cert.ReferenceIdeal.nD Cert.ReferenceIdeal.τ).loc Cert.ReferenceIdeal.main_arg8) : FVec Ideal Cert.ReferenceIdeal.S64 .f32))) := by
  show StableHlo.after (Cert.ReferenceIdeal.Value.ops0 (F := Ideal)) (Cert.ReferenceIdeal.Value.U0 m' c) (Proc.devRef .tc Cert.ReferenceIdeal.main_v9) = _
  after_results_simp
  first | done | rfl

/-- The kernel program's projection of the 50000 rows is the reference's: both are the rows times the transposed weight plus
    the bias, entry by entry the same sum of 384 products plus the same bias entry. -/
theorem S_x0s (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h7 : ∀ c : Dev Cert.KernelIdeal.nD, m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : ∀ c : Dev Cert.KernelIdeal.nD, m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.KernelIdeal.Gen.W4 m ρ c (Proc.devRef .tc Cert.KernelIdeal.main_v5) = Cert.ReferenceIdeal.Value.U1 m' c (Proc.devRef .tc Cert.ReferenceIdeal.main_v9) := by
  rw [x0s_ker m ρ c, x0s_ref m' c, h1 c, h7 c, h8 c]
  funext i
  obtain ⟨r, j, rfl⟩ : ∃ (r : Fin 50000) (j : Fin 64), i = ix2 r j := ⟨i 0, i 1, eq_ix2 i⟩
  exact (ker_projs_apply _ _ _ r j).trans (ref_projs_apply _ _ _ r j).symm

end Cert.Sim

end
-- ==== Proof.Sim.Idx.lean ====
import proofs.«417513_j58866821759238_4_alg».proof.Proof.KI.Keep
import proofs.«417513_j58866821759238_4_alg».proof.Proof.Ref.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Sim

open Idealize.ShloMosaic Idealize.ShloMosaic.TcCoe Idealize.SL.Sem
open Idealize.ShloMosaic.ValueIdx
open scoped BigOperators

/-! # The in-degree counts: the same host operations on both sides

An index vector is one row of an edge-index argument (a `[2, n]` array of node numbers), sliced out and cast to a vector;
each of the eight counts scatters ones along one of those vectors into a column of zeros. The kernel program and the
reference compute each count by the same operations from the same argument, so the buffers are equal. -/

/-! ## In-degree count along row 1 of argument arg15, into 50000 nodes -/

theorem cnt_ker_v41 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v41)
      = Host.scatterAdd Cert.KernelIdeal.scatter_S50000x1_S1000000x1_S1000000x1_1_0_0_1
        (broadcastInDim Cert.KernelIdeal.S50000x1 ![] Cert.KernelIdeal.Gen.bcast_S_S50000x1 (constant (F := Ideal) Cert.KernelIdeal.S_ .f32 0x00000000#32))
        (broadcastInDim Cert.KernelIdeal.S1000000x1 ![0] Cert.KernelIdeal.Gen.bcast_S1000000_S1000000x1_0 (fun i => shapeCast Cert.KernelIdeal.S1000000 (extractStridedSlice Cert.KernelIdeal.S1x1000000 ![1, 0] (m ((c.tc : Thread Cert.KernelIdeal.nD Cert.KernelIdeal.τ).loc Cert.KernelIdeal.main_arg15)) Cert.KernelIdeal.Gen.slices_S2x1000000_S1x1000000_1_0) Cert.KernelIdeal.Gen.shapeCasts_S1x1000000_S1000000 i))
        (broadcastInDim Cert.KernelIdeal.S1000000x1 ![] Cert.KernelIdeal.Gen.bcast_S_S1000000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v41) = _
  after_results_simp
  rw [Cert.KernelIdeal.Gen.keep_arg15_4 m ρ c]
  first | done | rfl

theorem cnt_ref_v61 (m' : (ℓ : Loc Cert.ReferenceIdeal.nD Cert.ReferenceIdeal.τ Cert.ReferenceIdeal.sig) → Buf (Elt Ideal) ℓ) (c : Dev Cert.KernelIdeal.nD) :
    Cert.ReferenceIdeal.Value.U2 m' c (Proc.devRef .tc Cert.ReferenceIdeal.main_v61)
      = Host.scatterAdd Cert.ReferenceIdeal.scatter_S50000x1_S1000000x1_S1000000x1_1_0_0_1
        (broadcastInDim Cert.ReferenceIdeal.S50000x1 ![] Cert.ReferenceIdeal.Gen.bcast_S_S50000x1 (constant (F := Ideal) Cert.ReferenceIdeal.S_ .f32 0x00000000#32))
        (broadcastInDim Cert.ReferenceIdeal.S1000000x1 ![0] Cert.ReferenceIdeal.Gen.bcast_S1000000_S1000000x1_0 (fun i => shapeCast Cert.ReferenceIdeal.S1000000 (extractStridedSlice Cert.ReferenceIdeal.S1x1000000 ![1, 0] (m' ((c.tc : Thread Cert.ReferenceIdeal.nD Cert.ReferenceIdeal.τ).loc Cert.ReferenceIdeal.main_arg15)) Cert.ReferenceIdeal.Gen.slices_S2x1000000_S1x1000000_1_0) Cert.ReferenceIdeal.Gen.shapeCasts_S1x1000000_S1000000 i))
        (broadcastInDim Cert.ReferenceIdeal.S1000000x1 ![] Cert.ReferenceIdeal.Gen.bcast_S_S1000000x1 (constant (F := Ideal) Cert.ReferenceIdeal.S_ .f32 0x3F800000#32)) := by
  show StableHlo.after (Cert.ReferenceIdeal.Value.ops1 (F := Ideal)) (Cert.ReferenceIdeal.Value.U1 m' c) (Proc.devRef .tc Cert.ReferenceIdeal.main_v61) = _
  after_results_simp
  first | done | rfl

/-- The kernel program's count `v41` is the reference's `v61`. -/
theorem S_cnt_v41 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v41) = Cert.ReferenceIdeal.Value.U2 m' c (Proc.devRef .tc Cert.ReferenceIdeal.main_v61) := by
  rw [cnt_ker_v41 m ρ c, cnt_ref_v61 m' c, h15 c]
  first | done | rfl

/-! ## In-degree count along row 0 of argument arg15, into 100000 nodes -/

theorem cnt_ker_v45 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v45)
      = Host.scatterAdd Cert.KernelIdeal.scatter_S100000x1_S1000000x1_S1000000x1_1_0_0_1
        (broadcastInDim Cert.KernelIdeal.S100000x1 ![] Cert.KernelIdeal.Gen.bcast_S_S100000x1 (constant (F := Ideal) Cert.KernelIdeal.S_ .f32 0x00000000#32))
        (broadcastInDim Cert.KernelIdeal.S1000000x1 ![0] Cert.KernelIdeal.Gen.bcast_S1000000_S1000000x1_0 (fun i => shapeCast Cert.KernelIdeal.S1000000 (extractStridedSlice Cert.KernelIdeal.S1x1000000 ![0, 0] (m ((c.tc : Thread Cert.KernelIdeal.nD Cert.KernelIdeal.τ).loc Cert.KernelIdeal.main_arg15)) Cert.KernelIdeal.Gen.slices_S2x1000000_S1x1000000_0_0) Cert.KernelIdeal.Gen.shapeCasts_S1x1000000_S1000000 i))
        (broadcastInDim Cert.KernelIdeal.S1000000x1 ![] Cert.KernelIdeal.Gen.bcast_S_S1000000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v45) = _
  after_results_simp
  rw [Cert.KernelIdeal.Gen.keep_arg15_4 m ρ c]
  first | done | rfl

theorem cnt_ref_v93 (m' : (ℓ : Loc Cert.ReferenceIdeal.nD Cert.ReferenceIdeal.τ Cert.ReferenceIdeal.sig) → Buf (Elt Ideal) ℓ) (c : Dev Cert.KernelIdeal.nD) :
    Cert.ReferenceIdeal.Value.U2 m' c (Proc.devRef .tc Cert.ReferenceIdeal.main_v93)
      = Host.scatterAdd Cert.ReferenceIdeal.scatter_S100000x1_S1000000x1_S1000000x1_1_0_0_1
        (broadcastInDim Cert.ReferenceIdeal.S100000x1 ![] Cert.ReferenceIdeal.Gen.bcast_S_S100000x1 (constant (F := Ideal) Cert.ReferenceIdeal.S_ .f32 0x00000000#32))
        (broadcastInDim Cert.ReferenceIdeal.S1000000x1 ![0] Cert.ReferenceIdeal.Gen.bcast_S1000000_S1000000x1_0 (fun i => shapeCast Cert.ReferenceIdeal.S1000000 (extractStridedSlice Cert.ReferenceIdeal.S1x1000000 ![0, 0] (m' ((c.tc : Thread Cert.ReferenceIdeal.nD Cert.ReferenceIdeal.τ).loc Cert.ReferenceIdeal.main_arg15)) Cert.ReferenceIdeal.Gen.slices_S2x1000000_S1x1000000_0_0) Cert.ReferenceIdeal.Gen.shapeCasts_S1x1000000_S1000000 i))
        (broadcastInDim Cert.ReferenceIdeal.S1000000x1 ![] Cert.ReferenceIdeal.Gen.bcast_S_S1000000x1 (constant (F := Ideal) Cert.ReferenceIdeal.S_ .f32 0x3F800000#32)) := by
  show StableHlo.after (Cert.ReferenceIdeal.Value.ops1 (F := Ideal)) (Cert.ReferenceIdeal.Value.U1 m' c) (Proc.devRef .tc Cert.ReferenceIdeal.main_v93) = _
  after_results_simp
  first | done | rfl

/-- The kernel program's count `v45` is the reference's `v93`. -/
theorem S_cnt_v45 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v45) = Cert.ReferenceIdeal.Value.U2 m' c (Proc.devRef .tc Cert.ReferenceIdeal.main_v93) := by
  rw [cnt_ker_v45 m ρ c, cnt_ref_v93 m' c, h15 c]
  first | done | rfl

/-! ## In-degree count along row 1 of argument arg16, into 50000 nodes -/

theorem cnt_ker_v49 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v49)
      = Host.scatterAdd Cert.KernelIdeal.scatter_S50000x1_S150000x1_S150000x1_1_0_0_1
        (broadcastInDim Cert.KernelIdeal.S50000x1 ![] Cert.KernelIdeal.Gen.bcast_S_S50000x1 (constant (F := Ideal) Cert.KernelIdeal.S_ .f32 0x00000000#32))
        (broadcastInDim Cert.KernelIdeal.S150000x1 ![0] Cert.KernelIdeal.Gen.bcast_S150000_S150000x1_0 (fun i => shapeCast Cert.KernelIdeal.S150000 (extractStridedSlice Cert.KernelIdeal.S1x150000 ![1, 0] (m ((c.tc : Thread Cert.KernelIdeal.nD Cert.KernelIdeal.τ).loc Cert.KernelIdeal.main_arg16)) Cert.KernelIdeal.Gen.slices_S2x150000_S1x150000_1_0) Cert.KernelIdeal.Gen.shapeCasts_S1x150000_S150000 i))
        (broadcastInDim Cert.KernelIdeal.S150000x1 ![] Cert.KernelIdeal.Gen.bcast_S_S150000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v49) = _
  after_results_simp
  rw [Cert.KernelIdeal.Gen.keep_arg16_4 m ρ c]
  first | done | rfl

theorem cnt_ref_v125 (m' : (ℓ : Loc Cert.ReferenceIdeal.nD Cert.ReferenceIdeal.τ Cert.ReferenceIdeal.sig) → Buf (Elt Ideal) ℓ) (c : Dev Cert.KernelIdeal.nD) :
    Cert.ReferenceIdeal.Value.U3 m' c (Proc.devRef .tc Cert.ReferenceIdeal.main_v125)
      = Host.scatterAdd Cert.ReferenceIdeal.scatter_S50000x1_S150000x1_S150000x1_1_0_0_1
        (broadcastInDim Cert.ReferenceIdeal.S50000x1 ![] Cert.ReferenceIdeal.Gen.bcast_S_S50000x1 (constant (F := Ideal) Cert.ReferenceIdeal.S_ .f32 0x00000000#32))
        (broadcastInDim Cert.ReferenceIdeal.S150000x1 ![0] Cert.ReferenceIdeal.Gen.bcast_S150000_S150000x1_0 (fun i => shapeCast Cert.ReferenceIdeal.S150000 (extractStridedSlice Cert.ReferenceIdeal.S1x150000 ![1, 0] (m' ((c.tc : Thread Cert.ReferenceIdeal.nD Cert.ReferenceIdeal.τ).loc Cert.ReferenceIdeal.main_arg16)) Cert.ReferenceIdeal.Gen.slices_S2x150000_S1x150000_1_0) Cert.ReferenceIdeal.Gen.shapeCasts_S1x150000_S150000 i))
        (broadcastInDim Cert.ReferenceIdeal.S150000x1 ![] Cert.ReferenceIdeal.Gen.bcast_S_S150000x1 (constant (F := Ideal) Cert.ReferenceIdeal.S_ .f32 0x3F800000#32)) := by
  show StableHlo.after (Cert.ReferenceIdeal.Value.ops2 (F := Ideal)) (Cert.ReferenceIdeal.Value.U2 m' c) (Proc.devRef .tc Cert.ReferenceIdeal.main_v125) = _
  after_results_simp
  first | done | rfl

/-- The kernel program's count `v49` is the reference's `v125`. -/
theorem S_cnt_v49 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) :
    Cert.KernelIdeal.Gen.W5 m ρ c (Proc.devRef .tc Cert.KernelIdeal.main_v49) = Cert.ReferenceIdeal.Value.U3 m' c (Proc.devRef .tc Cert.ReferenceIdeal.main_v125) := by
  rw [cnt_ker_v49 m ρ c, cnt_ref_v125 m' c, h16 c]
  first | done | rfl

/-! ## In-degree count along row 0 of argument arg16, into 50 nodes -/

theorem cnt_ker_v53 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v53)
      = Host.scatterAdd Cert.KernelIdeal.scatter_S50x1_S150000x1_S150000x1_1_0_0_1
        (broadcastInDim Cert.KernelIdeal.S50x1 ![] Cert.KernelIdeal.Gen.bcast_S_S50x1 (constant (F := Ideal) Cert.KernelIdeal.S_ .f32 0x00000000#32))
        (broadcastInDim Cert.KernelIdeal.S150000x1 ![0] Cert.KernelIdeal.Gen.bcast_S150000_S150000x1_0 (fun i => shapeCast Cert.KernelIdeal.S150000 (extractStridedSlice Cert.KernelIdeal.S1x150000 ![0, 0] (m ((c.tc : Thread Cert.KernelIdeal.nD Cert.KernelIdeal.τ).loc Cert.KernelIdeal.main_arg16)) Cert.KernelIdeal.Gen.slices_S2x150000_S1x150000_0_0) Cert.KernelIdeal.Gen.shapeCasts_S1x150000_S150000 i))
        (broadcastInDim Cert.KernelIdeal.S150000x1 ![] Cert.KernelIdeal.Gen.bcast_S_S150000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v53) = _
  after_results_simp
  rw [Cert.KernelIdeal.Gen.keep_arg16_4 m ρ c]
  first | done | rfl

theorem cnt_ref_v158 (m' : (ℓ : Loc Cert.ReferenceIdeal.nD Cert.ReferenceIdeal.τ Cert.ReferenceIdeal.sig) → Buf (Elt Ideal) ℓ) (c : Dev Cert.KernelIdeal.nD) :
    Cert.ReferenceIdeal.Value.U4 m' c (Proc.devRef .tc Cert.ReferenceIdeal.main_v158)
      = Host.scatterAdd Cert.ReferenceIdeal.scatter_S50x1_S150000x1_S150000x1_1_0_0_1
        (broadcastInDim Cert.ReferenceIdeal.S50x1 ![] Cert.ReferenceIdeal.Gen.bcast_S_S50x1 (constant (F := Ideal) Cert.ReferenceIdeal.S_ .f32 0x00000000#32))
        (broadcastInDim Cert.ReferenceIdeal.S150000x1 ![0] Cert.ReferenceIdeal.Gen.bcast_S150000_S150000x1_0 (fun i => shapeCast Cert.ReferenceIdeal.S150000 (extractStridedSlice Cert.ReferenceIdeal.S1x150000 ![0, 0] (m' ((c.tc : Thread Cert.ReferenceIdeal.nD Cert.ReferenceIdeal.τ).loc Cert.ReferenceIdeal.main_arg16)) Cert.ReferenceIdeal.Gen.slices_S2x150000_S1x150000_0_0) Cert.ReferenceIdeal.Gen.shapeCasts_S1x150000_S150000 i))
        (broadcastInDim Cert.ReferenceIdeal.S150000x1 ![] Cert.ReferenceIdeal.Gen.bcast_S_S150000x1 (constant (F := Ideal) Cert.ReferenceIdeal.S_ .f32 0x3F800000#32)) := by
  show StableHlo.after (Cert.ReferenceIdeal.Value.ops3 (F := Ideal)) (Cert.ReferenceIdeal.Value.U3 m' c) (Proc.devRef .tc Cert.ReferenceIdeal.main_v158) = _
  after_results_simp
  first | done | rfl

/-- The kernel program's count `v53` is the reference's `v158`. -/
theorem S_cnt_v53 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) :
    Cert.KernelIdeal.Gen.W5 m ρ c (Proc.devRef .tc Cert.KernelIdeal.main_v53) = Cert.ReferenceIdeal.Value.U4 m' c (Proc.devRef .tc Cert.ReferenceIdeal.main_v158) := by
  rw [cnt_ker_v53 m ρ c, cnt_ref_v158 m' c, h16 c]
  first | done | rfl

/-! ## In-degree count along row 1 of argument arg17, into 50000 nodes -/

theorem cnt_ker_v57 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v57)
      = Host.scatterAdd Cert.KernelIdeal.scatter_S50000x1_S50000x1_S50000x1_1_0_0_1
        (broadcastInDim Cert.KernelIdeal.S50000x1 ![] Cert.KernelIdeal.Gen.bcast_S_S50000x1 (constant (F := Ideal) Cert.KernelIdeal.S_ .f32 0x00000000#32))
        (broadcastInDim Cert.KernelIdeal.S50000x1 ![0] Cert.KernelIdeal.Gen.bcast_S50000_S50000x1_0 (fun i => shapeCast Cert.KernelIdeal.S50000 (extractStridedSlice Cert.KernelIdeal.S1x50000 ![1, 0] (m ((c.tc : Thread Cert.KernelIdeal.nD Cert.KernelIdeal.τ).loc Cert.KernelIdeal.main_arg17)) Cert.KernelIdeal.Gen.slices_S2x50000_S1x50000_1_0) Cert.KernelIdeal.Gen.shapeCasts_S1x50000_S50000 i))
        (broadcastInDim Cert.KernelIdeal.S50000x1 ![] Cert.KernelIdeal.Gen.bcast_S_S50000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v57) = _
  after_results_simp
  rw [Cert.KernelIdeal.Gen.keep_arg17_4 m ρ c]
  first | done | rfl

theorem cnt_ref_v190 (m' : (ℓ : Loc Cert.ReferenceIdeal.nD Cert.ReferenceIdeal.τ Cert.ReferenceIdeal.sig) → Buf (Elt Ideal) ℓ) (c : Dev Cert.KernelIdeal.nD) :
    Cert.ReferenceIdeal.Value.U4 m' c (Proc.devRef .tc Cert.ReferenceIdeal.main_v190)
      = Host.scatterAdd Cert.ReferenceIdeal.scatter_S50000x1_S50000x1_S50000x1_1_0_0_1
        (broadcastInDim Cert.ReferenceIdeal.S50000x1 ![] Cert.ReferenceIdeal.Gen.bcast_S_S50000x1 (constant (F := Ideal) Cert.ReferenceIdeal.S_ .f32 0x00000000#32))
        (broadcastInDim Cert.ReferenceIdeal.S50000x1 ![0] Cert.ReferenceIdeal.Gen.bcast_S50000_S50000x1_0 (fun i => shapeCast Cert.ReferenceIdeal.S50000 (extractStridedSlice Cert.ReferenceIdeal.S1x50000 ![1, 0] (m' ((c.tc : Thread Cert.ReferenceIdeal.nD Cert.ReferenceIdeal.τ).loc Cert.ReferenceIdeal.main_arg17)) Cert.ReferenceIdeal.Gen.slices_S2x50000_S1x50000_1_0) Cert.ReferenceIdeal.Gen.shapeCasts_S1x50000_S50000 i))
        (broadcastInDim Cert.ReferenceIdeal.S50000x1 ![] Cert.ReferenceIdeal.Gen.bcast_S_S50000x1 (constant (F := Ideal) Cert.ReferenceIdeal.S_ .f32 0x3F800000#32)) := by
  show StableHlo.after (Cert.ReferenceIdeal.Value.ops3 (F := Ideal)) (Cert.ReferenceIdeal.Value.U3 m' c) (Proc.devRef .tc Cert.ReferenceIdeal.main_v190) = _
  after_results_simp
  first | done | rfl

/-- The kernel program's count `v57` is the reference's `v190`. -/
theorem S_cnt_v57 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.KernelIdeal.nD) :
    Cert.KernelIdeal.Gen.W5 m ρ c (Proc.devRef .tc Cert.KernelIdeal.main_v57) = Cert.ReferenceIdeal.Value.U4 m' c (Proc.devRef .tc Cert.ReferenceIdeal.main_v190) := by
  rw [cnt_ker_v57 m ρ c, cnt_ref_v190 m' c, h17 c]
  first | done | rfl

/-! ## In-degree count along row 0 of argument arg17, into 20000 nodes -/

theorem cnt_ker_v61 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v61)
      = Host.scatterAdd Cert.KernelIdeal.scatter_S20000x1_S50000x1_S50000x1_1_0_0_1
        (broadcastInDim Cert.KernelIdeal.S20000x1 ![] Cert.KernelIdeal.Gen.bcast_S_S20000x1 (constant (F := Ideal) Cert.KernelIdeal.S_ .f32 0x00000000#32))
        (broadcastInDim Cert.KernelIdeal.S50000x1 ![0] Cert.KernelIdeal.Gen.bcast_S50000_S50000x1_0 (fun i => shapeCast Cert.KernelIdeal.S50000 (extractStridedSlice Cert.KernelIdeal.S1x50000 ![0, 0] (m ((c.tc : Thread Cert.KernelIdeal.nD Cert.KernelIdeal.τ).loc Cert.KernelIdeal.main_arg17)) Cert.KernelIdeal.Gen.slices_S2x50000_S1x50000_0_0) Cert.KernelIdeal.Gen.shapeCasts_S1x50000_S50000 i))
        (broadcastInDim Cert.KernelIdeal.S50000x1 ![] Cert.KernelIdeal.Gen.bcast_S_S50000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v61) = _
  after_results_simp
  rw [Cert.KernelIdeal.Gen.keep_arg17_4 m ρ c]
  first | done | rfl

theorem cnt_ref_v223 (m' : (ℓ : Loc Cert.ReferenceIdeal.nD Cert.ReferenceIdeal.τ Cert.ReferenceIdeal.sig) → Buf (Elt Ideal) ℓ) (c : Dev Cert.KernelIdeal.nD) :
    Cert.ReferenceIdeal.Value.U5 m' c (Proc.devRef .tc Cert.ReferenceIdeal.main_v223)
      = Host.scatterAdd Cert.ReferenceIdeal.scatter_S20000x1_S50000x1_S50000x1_1_0_0_1
        (broadcastInDim Cert.ReferenceIdeal.S20000x1 ![] Cert.ReferenceIdeal.Gen.bcast_S_S20000x1 (constant (F := Ideal) Cert.ReferenceIdeal.S_ .f32 0x00000000#32))
        (broadcastInDim Cert.ReferenceIdeal.S50000x1 ![0] Cert.ReferenceIdeal.Gen.bcast_S50000_S50000x1_0 (fun i => shapeCast Cert.ReferenceIdeal.S50000 (extractStridedSlice Cert.ReferenceIdeal.S1x50000 ![0, 0] (m' ((c.tc : Thread Cert.ReferenceIdeal.nD Cert.ReferenceIdeal.τ).loc Cert.ReferenceIdeal.main_arg17)) Cert.ReferenceIdeal.Gen.slices_S2x50000_S1x50000_0_0) Cert.ReferenceIdeal.Gen.shapeCasts_S1x50000_S50000 i))
        (broadcastInDim Cert.ReferenceIdeal.S50000x1 ![] Cert.ReferenceIdeal.Gen.bcast_S_S50000x1 (constant (F := Ideal) Cert.ReferenceIdeal.S_ .f32 0x3F800000#32)) := by
  show StableHlo.after (Cert.ReferenceIdeal.Value.ops4 (F := Ideal)) (Cert.ReferenceIdeal.Value.U4 m' c) (Proc.devRef .tc Cert.ReferenceIdeal.main_v223) = _
  after_results_simp
  first | done | rfl

/-- The kernel program's count `v61` is the reference's `v223`. -/
theorem S_cnt_v61 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.KernelIdeal.nD) :
    Cert.KernelIdeal.Gen.W5 m ρ c (Proc.devRef .tc Cert.KernelIdeal.main_v61) = Cert.ReferenceIdeal.Value.U5 m' c (Proc.devRef .tc Cert.ReferenceIdeal.main_v223) := by
  rw [cnt_ker_v61 m ρ c, cnt_ref_v223 m' c, h17 c]
  first | done | rfl

/-! ## In-degree count along row 1 of argument arg18, into 50000 nodes -/

theorem cnt_ker_v65 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v65)
      = Host.scatterAdd Cert.KernelIdeal.scatter_S50000x1_S50000x1_S50000x1_1_0_0_1
        (broadcastInDim Cert.KernelIdeal.S50000x1 ![] Cert.KernelIdeal.Gen.bcast_S_S50000x1 (constant (F := Ideal) Cert.KernelIdeal.S_ .f32 0x00000000#32))
        (broadcastInDim Cert.KernelIdeal.S50000x1 ![0] Cert.KernelIdeal.Gen.bcast_S50000_S50000x1_0 (fun i => shapeCast Cert.KernelIdeal.S50000 (extractStridedSlice Cert.KernelIdeal.S1x50000 ![1, 0] (m ((c.tc : Thread Cert.KernelIdeal.nD Cert.KernelIdeal.τ).loc Cert.KernelIdeal.main_arg18)) Cert.KernelIdeal.Gen.slices_S2x50000_S1x50000_1_0) Cert.KernelIdeal.Gen.shapeCasts_S1x50000_S50000 i))
        (broadcastInDim Cert.KernelIdeal.S50000x1 ![] Cert.KernelIdeal.Gen.bcast_S_S50000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v65) = _
  after_results_simp
  rw [Cert.KernelIdeal.Gen.keep_arg18_4 m ρ c]
  first | done | rfl

theorem cnt_ref_v255 (m' : (ℓ : Loc Cert.ReferenceIdeal.nD Cert.ReferenceIdeal.τ Cert.ReferenceIdeal.sig) → Buf (Elt Ideal) ℓ) (c : Dev Cert.KernelIdeal.nD) :
    Cert.ReferenceIdeal.Value.U5 m' c (Proc.devRef .tc Cert.ReferenceIdeal.main_v255)
      = Host.scatterAdd Cert.ReferenceIdeal.scatter_S50000x1_S50000x1_S50000x1_1_0_0_1
        (broadcastInDim Cert.ReferenceIdeal.S50000x1 ![] Cert.ReferenceIdeal.Gen.bcast_S_S50000x1 (constant (F := Ideal) Cert.ReferenceIdeal.S_ .f32 0x00000000#32))
        (broadcastInDim Cert.ReferenceIdeal.S50000x1 ![0] Cert.ReferenceIdeal.Gen.bcast_S50000_S50000x1_0 (fun i => shapeCast Cert.ReferenceIdeal.S50000 (extractStridedSlice Cert.ReferenceIdeal.S1x50000 ![1, 0] (m' ((c.tc : Thread Cert.ReferenceIdeal.nD Cert.ReferenceIdeal.τ).loc Cert.ReferenceIdeal.main_arg18)) Cert.ReferenceIdeal.Gen.slices_S2x50000_S1x50000_1_0) Cert.ReferenceIdeal.Gen.shapeCasts_S1x50000_S50000 i))
        (broadcastInDim Cert.ReferenceIdeal.S50000x1 ![] Cert.ReferenceIdeal.Gen.bcast_S_S50000x1 (constant (F := Ideal) Cert.ReferenceIdeal.S_ .f32 0x3F800000#32)) := by
  show StableHlo.after (Cert.ReferenceIdeal.Value.ops4 (F := Ideal)) (Cert.ReferenceIdeal.Value.U4 m' c) (Proc.devRef .tc Cert.ReferenceIdeal.main_v255) = _
  after_results_simp
  first | done | rfl

/-- The kernel program's count `v65` is the reference's `v255`. -/
theorem S_cnt_v65 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.KernelIdeal.Gen.W5 m ρ c (Proc.devRef .tc Cert.KernelIdeal.main_v65) = Cert.ReferenceIdeal.Value.U5 m' c (Proc.devRef .tc Cert.ReferenceIdeal.main_v255) := by
  rw [cnt_ker_v65 m ρ c, cnt_ref_v255 m' c, h18 c]
  first | done | rfl

/-! ## In-degree count along row 0 of argument arg18, into 10 nodes -/

theorem cnt_ker_v69 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v69)
      = Host.scatterAdd Cert.KernelIdeal.scatter_S10x1_S50000x1_S50000x1_1_0_0_1
        (broadcastInDim Cert.KernelIdeal.S10x1 ![] Cert.KernelIdeal.Gen.bcast_S_S10x1 (constant (F := Ideal) Cert.KernelIdeal.S_ .f32 0x00000000#32))
        (broadcastInDim Cert.KernelIdeal.S50000x1 ![0] Cert.KernelIdeal.Gen.bcast_S50000_S50000x1_0 (fun i => shapeCast Cert.KernelIdeal.S50000 (extractStridedSlice Cert.KernelIdeal.S1x50000 ![0, 0] (m ((c.tc : Thread Cert.KernelIdeal.nD Cert.KernelIdeal.τ).loc Cert.KernelIdeal.main_arg18)) Cert.KernelIdeal.Gen.slices_S2x50000_S1x50000_0_0) Cert.KernelIdeal.Gen.shapeCasts_S1x50000_S50000 i))
        (broadcastInDim Cert.KernelIdeal.S50000x1 ![] Cert.KernelIdeal.Gen.bcast_S_S50000x1 (constant (F := Ideal) Cert.KernelIdeal.S_ .f32 0x3F800000#32)) := by
  show StableHlo.after Cert.KernelIdeal.Gen.hostOps2 (Cert.KernelIdeal.Gen.W4 m ρ c) (Proc.devRef .tc Cert.KernelIdeal.main_v69) = _
  after_results_simp
  rw [Cert.KernelIdeal.Gen.keep_arg18_4 m ρ c]
  first | done | rfl

theorem cnt_ref_v288 (m' : (ℓ : Loc Cert.ReferenceIdeal.nD Cert.ReferenceIdeal.τ Cert.ReferenceIdeal.sig) → Buf (Elt Ideal) ℓ) (c : Dev Cert.KernelIdeal.nD) :
    Cert.ReferenceIdeal.Value.U6 m' c (Proc.devRef .tc Cert.ReferenceIdeal.main_v288)
      = Host.scatterAdd Cert.ReferenceIdeal.scatter_S10x1_S50000x1_S50000x1_1_0_0_1
        (broadcastInDim Cert.ReferenceIdeal.S10x1 ![] Cert.ReferenceIdeal.Gen.bcast_S_S10x1 (constant (F := Ideal) Cert.ReferenceIdeal.S_ .f32 0x00000000#32))
        (broadcastInDim Cert.ReferenceIdeal.S50000x1 ![0] Cert.ReferenceIdeal.Gen.bcast_S50000_S50000x1_0 (fun i => shapeCast Cert.ReferenceIdeal.S50000 (extractStridedSlice Cert.ReferenceIdeal.S1x50000 ![0, 0] (m' ((c.tc : Thread Cert.ReferenceIdeal.nD Cert.ReferenceIdeal.τ).loc Cert.ReferenceIdeal.main_arg18)) Cert.ReferenceIdeal.Gen.slices_S2x50000_S1x50000_0_0) Cert.ReferenceIdeal.Gen.shapeCasts_S1x50000_S50000 i))
        (broadcastInDim Cert.ReferenceIdeal.S50000x1 ![] Cert.ReferenceIdeal.Gen.bcast_S_S50000x1 (constant (F := Ideal) Cert.ReferenceIdeal.S_ .f32 0x3F800000#32)) := by
  show StableHlo.after (Cert.ReferenceIdeal.Value.ops5 (F := Ideal)) (Cert.ReferenceIdeal.Value.U5 m' c) (Proc.devRef .tc Cert.ReferenceIdeal.main_v288) = _
  after_results_simp
  first | done | rfl

/-- The kernel program's count `v69` is the reference's `v288`. -/
theorem S_cnt_v69 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.KernelIdeal.Gen.W5 m ρ c (Proc.devRef .tc Cert.KernelIdeal.main_v69) = Cert.ReferenceIdeal.Value.U6 m' c (Proc.devRef .tc Cert.ReferenceIdeal.main_v288) := by
  rw [cnt_ker_v69 m ρ c, cnt_ref_v288 m' c, h18 c]
  first | done | rfl

end Cert.Sim

end
-- ==== Proof.Sim.Agg.lean ====
/-
  THE LAYER-1 MESSAGE SUMS, OPERATION BY OPERATION. For each of the eight edge types the kernel program and the reference
  compute the same sum of gathered source rows into the destination rows: a gather of rows of the source array at the
  edge's source indices (a negative index wrapped by the number of rows), then a scatter with addition into an array of
  zeros at the edge's destination indices. On both sides the index vectors are the same slices of the same edge-index
  argument and the operations carry the same dimension records, so once the source array is known to agree (an argument
  of both programs, or the projection taken as a hypothesis) the two arrays are the same term. Each theorem reads the
  kernel program's buffer after the host stretch that writes it and the reference's buffer after the window that writes
  it, down to the arguments and the source, and compares.
-/
import proofs.«417513_j58866821759238_4_alg».proof.Proof.KI.Keep
import proofs.«417513_j58866821759238_4_alg».proof.Proof.Ref.Run
import Idealize.ShloMosaic.PureOps.Ideal

set_option maxRecDepth 16384

noncomputable section

namespace Cert.Sim

open Idealize.ShloMosaic Idealize.ShloMosaic.TcCoe Idealize.SL.Sem

set_option maxHeartbeats 1000000 in
theorem S_agg_v79 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hx : ∀ c : Dev Cert.KernelIdeal.nD, Cert.KernelIdeal.Gen.W2 m ρ c (Proc.devRef .tc Cert.KernelIdeal.main_v2) = Cert.ReferenceIdeal.Value.U1 m' c (Proc.devRef .tc Cert.ReferenceIdeal.main_v4))
    (c : Dev Cert.KernelIdeal.nD) :
    Cert.KernelIdeal.Gen.W5 m ρ c (Proc.devRef .tc Cert.KernelIdeal.main_v79) = Cert.ReferenceIdeal.Value.U2 m' c (Proc.devRef .tc Cert.ReferenceIdeal.main_v57) := by
  have ka_15 : Cert.KernelIdeal.Gen.W4 m ρ c (Proc.devRef .tc Cert.KernelIdeal.main_arg15) = m ((c.tc : Thread Cert.KernelIdeal.nD Cert.KernelIdeal.τ).loc Cert.KernelIdeal.main_arg15) := (Cert.KernelIdeal.Gen.keep_arg15_4 m ρ c).trans rfl
  have rb_15 : Cert.ReferenceIdeal.Value.U0 m' c (Proc.devRef .tc Cert.ReferenceIdeal.main_arg15) = m' ((c.tc : Thread Cert.ReferenceIdeal.nD Cert.ReferenceIdeal.τ).loc Cert.ReferenceIdeal.main_arg15) := rfl
  have h15' := h15 c
  have hx' := hx c
  have hsrc := (Cert.KernelIdeal.Gen.keep_v2_4 m ρ c).trans hx'
  dsimp only [Cert.KernelIdeal.Gen.W5, Cert.ReferenceIdeal.Value.U2]
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ka_15, rb_15, h15', hsrc]
  rfl

set_option maxHeartbeats 1000000 in
theorem S_agg_v97 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h2 : ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (c : Dev Cert.KernelIdeal.nD) :
    Cert.KernelIdeal.Gen.W5 m ρ c (Proc.devRef .tc Cert.KernelIdeal.main_v97) = Cert.ReferenceIdeal.Value.U3 m' c (Proc.devRef .tc Cert.ReferenceIdeal.main_v121) := by
  have ka_2 : Cert.KernelIdeal.Gen.W4 m ρ c (Proc.devRef .tc Cert.KernelIdeal.main_arg2) = m ((c.tc : Thread Cert.KernelIdeal.nD Cert.KernelIdeal.τ).loc Cert.KernelIdeal.main_arg2) := (Cert.KernelIdeal.Gen.keep_arg2_4 m ρ c).trans rfl
  have rb_2 : Cert.ReferenceIdeal.Value.U0 m' c (Proc.devRef .tc Cert.ReferenceIdeal.main_arg2) = m' ((c.tc : Thread Cert.ReferenceIdeal.nD Cert.ReferenceIdeal.τ).loc Cert.ReferenceIdeal.main_arg2) := rfl
  have h2' := h2 c
  have ka_16 : Cert.KernelIdeal.Gen.W4 m ρ c (Proc.devRef .tc Cert.KernelIdeal.main_arg16) = m ((c.tc : Thread Cert.KernelIdeal.nD Cert.KernelIdeal.τ).loc Cert.KernelIdeal.main_arg16) := (Cert.KernelIdeal.Gen.keep_arg16_4 m ρ c).trans rfl
  have rb_16 : Cert.ReferenceIdeal.Value.U0 m' c (Proc.devRef .tc Cert.ReferenceIdeal.main_arg16) = m' ((c.tc : Thread Cert.ReferenceIdeal.nD Cert.ReferenceIdeal.τ).loc Cert.ReferenceIdeal.main_arg16) := rfl
  have h16' := h16 c
  have hl_v21 : Cert.ReferenceIdeal.Value.U2 m' c (Proc.devRef .tc Cert.ReferenceIdeal.main_v21) = Cert.ReferenceIdeal.Value.U1 m' c (Proc.devRef .tc Cert.ReferenceIdeal.main_v21) := ((Cert.ReferenceIdeal.Value.U2_of m' c Cert.ReferenceIdeal.main_v21 (by decide)))
  have hl_arg2 : Cert.ReferenceIdeal.Value.U2 m' c (Proc.devRef .tc Cert.ReferenceIdeal.main_arg2) = m' ((c.tc : Thread Cert.ReferenceIdeal.nD Cert.ReferenceIdeal.τ).loc Cert.ReferenceIdeal.main_arg2) := ((Cert.ReferenceIdeal.Value.U2_of m' c Cert.ReferenceIdeal.main_arg2 (by decide)).trans <| (Cert.ReferenceIdeal.Value.U1_of m' c Cert.ReferenceIdeal.main_arg2 (by decide))).trans rfl
  have hl_v19 : Cert.ReferenceIdeal.Value.U2 m' c (Proc.devRef .tc Cert.ReferenceIdeal.main_v19) = Cert.ReferenceIdeal.Value.U1 m' c (Proc.devRef .tc Cert.ReferenceIdeal.main_v19) := ((Cert.ReferenceIdeal.Value.U2_of m' c Cert.ReferenceIdeal.main_v19 (by decide)))
  dsimp only [Cert.KernelIdeal.Gen.W5, Cert.ReferenceIdeal.Value.U3]
  generalize Cert.ReferenceIdeal.Value.U2 m' c = V at hl_v21 hl_arg2 hl_v19 ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ka_2, rb_2, h2', ka_16, rb_16, h16', hl_v21, hl_arg2, hl_v19]
  rfl

set_option maxHeartbeats 1000000 in
theorem S_agg_v115 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h3 : ∀ c : Dev Cert.KernelIdeal.nD, m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (c : Dev Cert.KernelIdeal.nD) :
    Cert.KernelIdeal.Gen.W5 m ρ c (Proc.devRef .tc Cert.KernelIdeal.main_v115) = Cert.ReferenceIdeal.Value.U4 m' c (Proc.devRef .tc Cert.ReferenceIdeal.main_v186) := by
  have ka_3 : Cert.KernelIdeal.Gen.W4 m ρ c (Proc.devRef .tc Cert.KernelIdeal.main_arg3) = m ((c.tc : Thread Cert.KernelIdeal.nD Cert.KernelIdeal.τ).loc Cert.KernelIdeal.main_arg3) := (Cert.KernelIdeal.Gen.keep_arg3_4 m ρ c).trans rfl
  have rb_3 : Cert.ReferenceIdeal.Value.U0 m' c (Proc.devRef .tc Cert.ReferenceIdeal.main_arg3) = m' ((c.tc : Thread Cert.ReferenceIdeal.nD Cert.ReferenceIdeal.τ).loc Cert.ReferenceIdeal.main_arg3) := rfl
  have h3' := h3 c
  have ka_17 : Cert.KernelIdeal.Gen.W4 m ρ c (Proc.devRef .tc Cert.KernelIdeal.main_arg17) = m ((c.tc : Thread Cert.KernelIdeal.nD Cert.KernelIdeal.τ).loc Cert.KernelIdeal.main_arg17) := (Cert.KernelIdeal.Gen.keep_arg17_4 m ρ c).trans rfl
  have rb_17 : Cert.ReferenceIdeal.Value.U0 m' c (Proc.devRef .tc Cert.ReferenceIdeal.main_arg17) = m' ((c.tc : Thread Cert.ReferenceIdeal.nD Cert.ReferenceIdeal.τ).loc Cert.ReferenceIdeal.main_arg17) := rfl
  have h17' := h17 c
  have hl_v29 : Cert.ReferenceIdeal.Value.U3 m' c (Proc.devRef .tc Cert.ReferenceIdeal.main_v29) = Cert.ReferenceIdeal.Value.U1 m' c (Proc.devRef .tc Cert.ReferenceIdeal.main_v29) := ((Cert.ReferenceIdeal.Value.U3_of m' c Cert.ReferenceIdeal.main_v29 (by decide)).trans <| (Cert.ReferenceIdeal.Value.U2_of m' c Cert.ReferenceIdeal.main_v29 (by decide)))
  have hl_arg3 : Cert.ReferenceIdeal.Value.U3 m' c (Proc.devRef .tc Cert.ReferenceIdeal.main_arg3) = m' ((c.tc : Thread Cert.ReferenceIdeal.nD Cert.ReferenceIdeal.τ).loc Cert.ReferenceIdeal.main_arg3) := ((Cert.ReferenceIdeal.Value.U3_of m' c Cert.ReferenceIdeal.main_arg3 (by decide)).trans <| (Cert.ReferenceIdeal.Value.U2_of m' c Cert.ReferenceIdeal.main_arg3 (by decide)).trans <| (Cert.ReferenceIdeal.Value.U1_of m' c Cert.ReferenceIdeal.main_arg3 (by decide))).trans rfl
  have hl_v27 : Cert.ReferenceIdeal.Value.U3 m' c (Proc.devRef .tc Cert.ReferenceIdeal.main_v27) = Cert.ReferenceIdeal.Value.U1 m' c (Proc.devRef .tc Cert.ReferenceIdeal.main_v27) := ((Cert.ReferenceIdeal.Value.U3_of m' c Cert.ReferenceIdeal.main_v27 (by decide)).trans <| (Cert.ReferenceIdeal.Value.U2_of m' c Cert.ReferenceIdeal.main_v27 (by decide)))
  dsimp only [Cert.KernelIdeal.Gen.W5, Cert.ReferenceIdeal.Value.U4]
  generalize Cert.ReferenceIdeal.Value.U3 m' c = V at hl_v29 hl_arg3 hl_v27 ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ka_3, rb_3, h3', ka_17, rb_17, h17', hl_v29, hl_arg3, hl_v27]
  rfl

set_option maxHeartbeats 1000000 in
theorem S_agg_v133 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h4 : ∀ c : Dev Cert.KernelIdeal.nD, m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    Cert.KernelIdeal.Gen.W5 m ρ c (Proc.devRef .tc Cert.KernelIdeal.main_v133) = Cert.ReferenceIdeal.Value.U5 m' c (Proc.devRef .tc Cert.ReferenceIdeal.main_v251) := by
  have ka_4 : Cert.KernelIdeal.Gen.W4 m ρ c (Proc.devRef .tc Cert.KernelIdeal.main_arg4) = m ((c.tc : Thread Cert.KernelIdeal.nD Cert.KernelIdeal.τ).loc Cert.KernelIdeal.main_arg4) := (Cert.KernelIdeal.Gen.keep_arg4_4 m ρ c).trans rfl
  have rb_4 : Cert.ReferenceIdeal.Value.U0 m' c (Proc.devRef .tc Cert.ReferenceIdeal.main_arg4) = m' ((c.tc : Thread Cert.ReferenceIdeal.nD Cert.ReferenceIdeal.τ).loc Cert.ReferenceIdeal.main_arg4) := rfl
  have h4' := h4 c
  have ka_18 : Cert.KernelIdeal.Gen.W4 m ρ c (Proc.devRef .tc Cert.KernelIdeal.main_arg18) = m ((c.tc : Thread Cert.KernelIdeal.nD Cert.KernelIdeal.τ).loc Cert.KernelIdeal.main_arg18) := (Cert.KernelIdeal.Gen.keep_arg18_4 m ρ c).trans rfl
  have rb_18 : Cert.ReferenceIdeal.Value.U0 m' c (Proc.devRef .tc Cert.ReferenceIdeal.main_arg18) = m' ((c.tc : Thread Cert.ReferenceIdeal.nD Cert.ReferenceIdeal.τ).loc Cert.ReferenceIdeal.main_arg18) := rfl
  have h18' := h18 c
  have hl_v37 : Cert.ReferenceIdeal.Value.U4 m' c (Proc.devRef .tc Cert.ReferenceIdeal.main_v37) = Cert.ReferenceIdeal.Value.U1 m' c (Proc.devRef .tc Cert.ReferenceIdeal.main_v37) := ((Cert.ReferenceIdeal.Value.U4_of m' c Cert.ReferenceIdeal.main_v37 (by decide)).trans <| (Cert.ReferenceIdeal.Value.U3_of m' c Cert.ReferenceIdeal.main_v37 (by decide)).trans <| (Cert.ReferenceIdeal.Value.U2_of m' c Cert.ReferenceIdeal.main_v37 (by decide)))
  have hl_arg4 : Cert.ReferenceIdeal.Value.U4 m' c (Proc.devRef .tc Cert.ReferenceIdeal.main_arg4) = m' ((c.tc : Thread Cert.ReferenceIdeal.nD Cert.ReferenceIdeal.τ).loc Cert.ReferenceIdeal.main_arg4) := ((Cert.ReferenceIdeal.Value.U4_of m' c Cert.ReferenceIdeal.main_arg4 (by decide)).trans <| (Cert.ReferenceIdeal.Value.U3_of m' c Cert.ReferenceIdeal.main_arg4 (by decide)).trans <| (Cert.ReferenceIdeal.Value.U2_of m' c Cert.ReferenceIdeal.main_arg4 (by decide)).trans <| (Cert.ReferenceIdeal.Value.U1_of m' c Cert.ReferenceIdeal.main_arg4 (by decide))).trans rfl
  have hl_v35 : Cert.ReferenceIdeal.Value.U4 m' c (Proc.devRef .tc Cert.ReferenceIdeal.main_v35) = Cert.ReferenceIdeal.Value.U1 m' c (Proc.devRef .tc Cert.ReferenceIdeal.main_v35) := ((Cert.ReferenceIdeal.Value.U4_of m' c Cert.ReferenceIdeal.main_v35 (by decide)).trans <| (Cert.ReferenceIdeal.Value.U3_of m' c Cert.ReferenceIdeal.main_v35 (by decide)).trans <| (Cert.ReferenceIdeal.Value.U2_of m' c Cert.ReferenceIdeal.main_v35 (by decide)))
  dsimp only [Cert.KernelIdeal.Gen.W5, Cert.ReferenceIdeal.Value.U5]
  generalize Cert.ReferenceIdeal.Value.U4 m' c = V at hl_v37 hl_arg4 hl_v35 ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ka_4, rb_4, h4', ka_18, rb_18, h18', hl_v37, hl_arg4, hl_v35]
  rfl

set_option maxHeartbeats 1000000 in
theorem S_agg_v175 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hx : ∀ c : Dev Cert.KernelIdeal.nD, Cert.KernelIdeal.Gen.W4 m ρ c (Proc.devRef .tc Cert.KernelIdeal.main_v5) = Cert.ReferenceIdeal.Value.U1 m' c (Proc.devRef .tc Cert.ReferenceIdeal.main_v9))
    (c : Dev Cert.KernelIdeal.nD) :
    Cert.KernelIdeal.Gen.W24 m ρ c (Proc.devRef .tc Cert.KernelIdeal.main_v175) = Cert.ReferenceIdeal.Value.U2 m' c (Proc.devRef .tc Cert.ReferenceIdeal.main_v89) := by
  have ek_v11 := Cert.KernelIdeal.Gen.keep_v11_23 m ρ c
  have ek_v13 := Cert.KernelIdeal.Gen.keep_v13_23 m ρ c
  have ka_15 : Cert.KernelIdeal.Gen.W4 m ρ c (Proc.devRef .tc Cert.KernelIdeal.main_arg15) = m ((c.tc : Thread Cert.KernelIdeal.nD Cert.KernelIdeal.τ).loc Cert.KernelIdeal.main_arg15) := (Cert.KernelIdeal.Gen.keep_arg15_4 m ρ c).trans rfl
  have rb_15 : Cert.ReferenceIdeal.Value.U0 m' c (Proc.devRef .tc Cert.ReferenceIdeal.main_arg15) = m' ((c.tc : Thread Cert.ReferenceIdeal.nD Cert.ReferenceIdeal.τ).loc Cert.ReferenceIdeal.main_arg15) := rfl
  have h15' := h15 c
  have hx' := hx c
  have hsrc := (Cert.KernelIdeal.Gen.keep_v5_23 m ρ c).trans hx'
  dsimp only [Cert.KernelIdeal.Gen.W24, Cert.ReferenceIdeal.Value.U2]
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ek_v11, ek_v13, ka_15, rb_15, h15', hsrc]
  rfl

set_option maxHeartbeats 1000000 in
theorem S_agg_v203 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (hx : ∀ c : Dev Cert.KernelIdeal.nD, Cert.KernelIdeal.Gen.W4 m ρ c (Proc.devRef .tc Cert.KernelIdeal.main_v5) = Cert.ReferenceIdeal.Value.U1 m' c (Proc.devRef .tc Cert.ReferenceIdeal.main_v9))
    (c : Dev Cert.KernelIdeal.nD) :
    Cert.KernelIdeal.Gen.W31 m ρ c (Proc.devRef .tc Cert.KernelIdeal.main_v203) = Cert.ReferenceIdeal.Value.U3 m' c (Proc.devRef .tc Cert.ReferenceIdeal.main_v154) := by
  have ek_v19 := Cert.KernelIdeal.Gen.keep_v19_30 m ρ c
  have ek_v21 := Cert.KernelIdeal.Gen.keep_v21_30 m ρ c
  have ka_16 : Cert.KernelIdeal.Gen.W4 m ρ c (Proc.devRef .tc Cert.KernelIdeal.main_arg16) = m ((c.tc : Thread Cert.KernelIdeal.nD Cert.KernelIdeal.τ).loc Cert.KernelIdeal.main_arg16) := (Cert.KernelIdeal.Gen.keep_arg16_4 m ρ c).trans rfl
  have rb_16 : Cert.ReferenceIdeal.Value.U0 m' c (Proc.devRef .tc Cert.ReferenceIdeal.main_arg16) = m' ((c.tc : Thread Cert.ReferenceIdeal.nD Cert.ReferenceIdeal.τ).loc Cert.ReferenceIdeal.main_arg16) := rfl
  have h16' := h16 c
  have hl_v25 : Cert.ReferenceIdeal.Value.U2 m' c (Proc.devRef .tc Cert.ReferenceIdeal.main_v25) = Cert.ReferenceIdeal.Value.U1 m' c (Proc.devRef .tc Cert.ReferenceIdeal.main_v25) := ((Cert.ReferenceIdeal.Value.U2_of m' c Cert.ReferenceIdeal.main_v25 (by decide)))
  have hx' := hx c
  have hsrc := (Cert.KernelIdeal.Gen.keep_v5_30 m ρ c).trans hx'
  have hc : Cert.ReferenceIdeal.Value.U2 m' c (Proc.devRef .tc Cert.ReferenceIdeal.main_v9) = Cert.ReferenceIdeal.Value.U1 m' c (Proc.devRef .tc Cert.ReferenceIdeal.main_v9) := ((Cert.ReferenceIdeal.Value.U2_of m' c Cert.ReferenceIdeal.main_v9 (by decide)))
  have hl_v23 : Cert.ReferenceIdeal.Value.U2 m' c (Proc.devRef .tc Cert.ReferenceIdeal.main_v23) = Cert.ReferenceIdeal.Value.U1 m' c (Proc.devRef .tc Cert.ReferenceIdeal.main_v23) := ((Cert.ReferenceIdeal.Value.U2_of m' c Cert.ReferenceIdeal.main_v23 (by decide)))
  generalize Cert.ReferenceIdeal.Value.U1 m' c (Proc.devRef .tc Cert.ReferenceIdeal.main_v9) = S at hsrc hc
  dsimp only [Cert.KernelIdeal.Gen.W31, Cert.ReferenceIdeal.Value.U3]
  generalize Cert.ReferenceIdeal.Value.U2 m' c = V at hl_v25 hc hl_v23 ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ek_v19, ek_v21, ka_16, rb_16, h16', hl_v25, hsrc, hc, hl_v23]
  rfl

set_option maxHeartbeats 1000000 in
theorem S_agg_v227 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hx : ∀ c : Dev Cert.KernelIdeal.nD, Cert.KernelIdeal.Gen.W4 m ρ c (Proc.devRef .tc Cert.KernelIdeal.main_v5) = Cert.ReferenceIdeal.Value.U1 m' c (Proc.devRef .tc Cert.ReferenceIdeal.main_v9))
    (c : Dev Cert.KernelIdeal.nD) :
    Cert.KernelIdeal.Gen.W33 m ρ c (Proc.devRef .tc Cert.KernelIdeal.main_v227) = Cert.ReferenceIdeal.Value.U5 m' c (Proc.devRef .tc Cert.ReferenceIdeal.main_v219) := by
  have ek_v27 := Cert.KernelIdeal.Gen.keep_v27_32 m ρ c
  have ek_v29 := Cert.KernelIdeal.Gen.keep_v29_32 m ρ c
  have ka_17 : Cert.KernelIdeal.Gen.W4 m ρ c (Proc.devRef .tc Cert.KernelIdeal.main_arg17) = m ((c.tc : Thread Cert.KernelIdeal.nD Cert.KernelIdeal.τ).loc Cert.KernelIdeal.main_arg17) := (Cert.KernelIdeal.Gen.keep_arg17_4 m ρ c).trans rfl
  have rb_17 : Cert.ReferenceIdeal.Value.U0 m' c (Proc.devRef .tc Cert.ReferenceIdeal.main_arg17) = m' ((c.tc : Thread Cert.ReferenceIdeal.nD Cert.ReferenceIdeal.τ).loc Cert.ReferenceIdeal.main_arg17) := rfl
  have h17' := h17 c
  have hl_v33 : Cert.ReferenceIdeal.Value.U4 m' c (Proc.devRef .tc Cert.ReferenceIdeal.main_v33) = Cert.ReferenceIdeal.Value.U1 m' c (Proc.devRef .tc Cert.ReferenceIdeal.main_v33) := ((Cert.ReferenceIdeal.Value.U4_of m' c Cert.ReferenceIdeal.main_v33 (by decide)).trans <| (Cert.ReferenceIdeal.Value.U3_of m' c Cert.ReferenceIdeal.main_v33 (by decide)).trans <| (Cert.ReferenceIdeal.Value.U2_of m' c Cert.ReferenceIdeal.main_v33 (by decide)))
  have hx' := hx c
  have hsrc := (Cert.KernelIdeal.Gen.keep_v5_32 m ρ c).trans hx'
  have hc : Cert.ReferenceIdeal.Value.U4 m' c (Proc.devRef .tc Cert.ReferenceIdeal.main_v9) = Cert.ReferenceIdeal.Value.U1 m' c (Proc.devRef .tc Cert.ReferenceIdeal.main_v9) := ((Cert.ReferenceIdeal.Value.U4_of m' c Cert.ReferenceIdeal.main_v9 (by decide)).trans <| (Cert.ReferenceIdeal.Value.U3_of m' c Cert.ReferenceIdeal.main_v9 (by decide)).trans <| (Cert.ReferenceIdeal.Value.U2_of m' c Cert.ReferenceIdeal.main_v9 (by decide)))
  have hl_v31 : Cert.ReferenceIdeal.Value.U4 m' c (Proc.devRef .tc Cert.ReferenceIdeal.main_v31) = Cert.ReferenceIdeal.Value.U1 m' c (Proc.devRef .tc Cert.ReferenceIdeal.main_v31) := ((Cert.ReferenceIdeal.Value.U4_of m' c Cert.ReferenceIdeal.main_v31 (by decide)).trans <| (Cert.ReferenceIdeal.Value.U3_of m' c Cert.ReferenceIdeal.main_v31 (by decide)).trans <| (Cert.ReferenceIdeal.Value.U2_of m' c Cert.ReferenceIdeal.main_v31 (by decide)))
  generalize Cert.ReferenceIdeal.Value.U1 m' c (Proc.devRef .tc Cert.ReferenceIdeal.main_v9) = S at hsrc hc
  dsimp only [Cert.KernelIdeal.Gen.W33, Cert.ReferenceIdeal.Value.U5]
  generalize Cert.ReferenceIdeal.Value.U4 m' c = V at hl_v33 hc hl_v31 ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ek_v27, ek_v29, ka_17, rb_17, h17', hl_v33, hsrc, hc, hl_v31]
  rfl

set_option maxHeartbeats 1000000 in
theorem S_agg_v255 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (hx : ∀ c : Dev Cert.KernelIdeal.nD, Cert.KernelIdeal.Gen.W4 m ρ c (Proc.devRef .tc Cert.KernelIdeal.main_v5) = Cert.ReferenceIdeal.Value.U1 m' c (Proc.devRef .tc Cert.ReferenceIdeal.main_v9))
    (c : Dev Cert.KernelIdeal.nD) :
    Cert.KernelIdeal.Gen.W40 m ρ c (Proc.devRef .tc Cert.KernelIdeal.main_v255) = Cert.ReferenceIdeal.Value.U6 m' c (Proc.devRef .tc Cert.ReferenceIdeal.main_v284) := by
  have ek_v35 := Cert.KernelIdeal.Gen.keep_v35_39 m ρ c
  have ek_v37 := Cert.KernelIdeal.Gen.keep_v37_39 m ρ c
  have ka_18 : Cert.KernelIdeal.Gen.W4 m ρ c (Proc.devRef .tc Cert.KernelIdeal.main_arg18) = m ((c.tc : Thread Cert.KernelIdeal.nD Cert.KernelIdeal.τ).loc Cert.KernelIdeal.main_arg18) := (Cert.KernelIdeal.Gen.keep_arg18_4 m ρ c).trans rfl
  have rb_18 : Cert.ReferenceIdeal.Value.U0 m' c (Proc.devRef .tc Cert.ReferenceIdeal.main_arg18) = m' ((c.tc : Thread Cert.ReferenceIdeal.nD Cert.ReferenceIdeal.τ).loc Cert.ReferenceIdeal.main_arg18) := rfl
  have h18' := h18 c
  have hl_v41 : Cert.ReferenceIdeal.Value.U5 m' c (Proc.devRef .tc Cert.ReferenceIdeal.main_v41) = Cert.ReferenceIdeal.Value.U1 m' c (Proc.devRef .tc Cert.ReferenceIdeal.main_v41) := ((Cert.ReferenceIdeal.Value.U5_of m' c Cert.ReferenceIdeal.main_v41 (by decide)).trans <| (Cert.ReferenceIdeal.Value.U4_of m' c Cert.ReferenceIdeal.main_v41 (by decide)).trans <| (Cert.ReferenceIdeal.Value.U3_of m' c Cert.ReferenceIdeal.main_v41 (by decide)).trans <| (Cert.ReferenceIdeal.Value.U2_of m' c Cert.ReferenceIdeal.main_v41 (by decide)))
  have hx' := hx c
  have hsrc := (Cert.KernelIdeal.Gen.keep_v5_39 m ρ c).trans hx'
  have hc : Cert.ReferenceIdeal.Value.U5 m' c (Proc.devRef .tc Cert.ReferenceIdeal.main_v9) = Cert.ReferenceIdeal.Value.U1 m' c (Proc.devRef .tc Cert.ReferenceIdeal.main_v9) := ((Cert.ReferenceIdeal.Value.U5_of m' c Cert.ReferenceIdeal.main_v9 (by decide)).trans <| (Cert.ReferenceIdeal.Value.U4_of m' c Cert.ReferenceIdeal.main_v9 (by decide)).trans <| (Cert.ReferenceIdeal.Value.U3_of m' c Cert.ReferenceIdeal.main_v9 (by decide)).trans <| (Cert.ReferenceIdeal.Value.U2_of m' c Cert.ReferenceIdeal.main_v9 (by decide)))
  have hl_v39 : Cert.ReferenceIdeal.Value.U5 m' c (Proc.devRef .tc Cert.ReferenceIdeal.main_v39) = Cert.ReferenceIdeal.Value.U1 m' c (Proc.devRef .tc Cert.ReferenceIdeal.main_v39) := ((Cert.ReferenceIdeal.Value.U5_of m' c Cert.ReferenceIdeal.main_v39 (by decide)).trans <| (Cert.ReferenceIdeal.Value.U4_of m' c Cert.ReferenceIdeal.main_v39 (by decide)).trans <| (Cert.ReferenceIdeal.Value.U3_of m' c Cert.ReferenceIdeal.main_v39 (by decide)).trans <| (Cert.ReferenceIdeal.Value.U2_of m' c Cert.ReferenceIdeal.main_v39 (by decide)))
  generalize Cert.ReferenceIdeal.Value.U1 m' c (Proc.devRef .tc Cert.ReferenceIdeal.main_v9) = S at hsrc hc
  dsimp only [Cert.KernelIdeal.Gen.W40, Cert.ReferenceIdeal.Value.U6]
  generalize Cert.ReferenceIdeal.Value.U5 m' c = V at hl_v41 hc hl_v39 ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      ek_v35, ek_v37, ka_18, rb_18, h18', hl_v41, hsrc, hc, hl_v39]
  rfl

end Cert.Sim

end
-- ==== Proof.Sim.Agg2.lean ====
import proofs.«417513_j58866821759238_4_alg».proof.Proof.KI.Keep
import proofs.«417513_j58866821759238_4_alg».proof.Proof.Ref.Run
import Idealize.ShloMosaic.PureOps.Ideal

set_option maxRecDepth 16384

noncomputable section

namespace Cert.Sim

open Idealize.ShloMosaic Idealize.ShloMosaic.TcCoe Idealize.SL.Sem Idealize.ShloMosaic.StableHlo

/-! # The layer-2 message sums: the same host operations on both sides

Each sum gathers rows of a source array — a layer-1 result — at an edge type's source indices (a negative index wrapped by
the number of rows) and scatters them with addition into an array of zeros at the edge type's destination indices. The
index vectors are rows of the same edge-index argument on both sides and the operations carry the same dimension records,
so once the source arrays agree the two sums are the same term. Each fact is first stated over ARBITRARY buffer contents
on the two sides that agree on the operations' inputs, then read at the contents the two programs have there. -/

section Abstract
variable {F : FTy → Type} [FloatOps F]

/-! ## An index vector: one row of an edge-index argument, cast to a vector -/

/-- Row 0 of edge-index argument 15: the slice and the cast are the same two operations on both sides. -/
theorem idx_v7_v11 (VK : Valuation Cert.KernelIdeal.τ Cert.KernelIdeal.sig (Elt F)) (VR : Valuation Cert.ReferenceIdeal.τ Cert.ReferenceIdeal.sig (Elt F))
    (h : VK (Proc.devRef .tc Cert.KernelIdeal.main_arg15) = VR (Proc.devRef .tc Cert.ReferenceIdeal.main_arg15)) :
    StableHlo.after Cert.KernelIdeal.Gen.hostOps2 VK (Proc.devRef .tc Cert.KernelIdeal.main_v7)
      = StableHlo.after Cert.ReferenceIdeal.Value.ops0 VR (Proc.devRef .tc Cert.ReferenceIdeal.main_v11) := by
  after_results_simp
  rw [h]
  rfl

/-- Row 1 of edge-index argument 15: the slice and the cast are the same two operations on both sides. -/
theorem idx_v9_v13 (VK : Valuation Cert.KernelIdeal.τ Cert.KernelIdeal.sig (Elt F)) (VR : Valuation Cert.ReferenceIdeal.τ Cert.ReferenceIdeal.sig (Elt F))
    (h : VK (Proc.devRef .tc Cert.KernelIdeal.main_arg15) = VR (Proc.devRef .tc Cert.ReferenceIdeal.main_arg15)) :
    StableHlo.after Cert.KernelIdeal.Gen.hostOps2 VK (Proc.devRef .tc Cert.KernelIdeal.main_v9)
      = StableHlo.after Cert.ReferenceIdeal.Value.ops0 VR (Proc.devRef .tc Cert.ReferenceIdeal.main_v13) := by
  after_results_simp
  rw [h]
  rfl

/-- Row 1 of edge-index argument 15: the slice and the cast are the same two operations on both sides. -/
theorem idx_v11_v15 (VK : Valuation Cert.KernelIdeal.τ Cert.KernelIdeal.sig (Elt F)) (VR : Valuation Cert.ReferenceIdeal.τ Cert.ReferenceIdeal.sig (Elt F))
    (h : VK (Proc.devRef .tc Cert.KernelIdeal.main_arg15) = VR (Proc.devRef .tc Cert.ReferenceIdeal.main_arg15)) :
    StableHlo.after Cert.KernelIdeal.Gen.hostOps2 VK (Proc.devRef .tc Cert.KernelIdeal.main_v11)
      = StableHlo.after Cert.ReferenceIdeal.Value.ops0 VR (Proc.devRef .tc Cert.ReferenceIdeal.main_v15) := by
  after_results_simp
  rw [h]
  rfl

/-- Row 0 of edge-index argument 15: the slice and the cast are the same two operations on both sides. -/
theorem idx_v13_v17 (VK : Valuation Cert.KernelIdeal.τ Cert.KernelIdeal.sig (Elt F)) (VR : Valuation Cert.ReferenceIdeal.τ Cert.ReferenceIdeal.sig (Elt F))
    (h : VK (Proc.devRef .tc Cert.KernelIdeal.main_arg15) = VR (Proc.devRef .tc Cert.ReferenceIdeal.main_arg15)) :
    StableHlo.after Cert.KernelIdeal.Gen.hostOps2 VK (Proc.devRef .tc Cert.KernelIdeal.main_v13)
      = StableHlo.after Cert.ReferenceIdeal.Value.ops0 VR (Proc.devRef .tc Cert.ReferenceIdeal.main_v17) := by
  after_results_simp
  rw [h]
  rfl

/-- Row 0 of edge-index argument 16: the slice and the cast are the same two operations on both sides. -/
theorem idx_v15_v19 (VK : Valuation Cert.KernelIdeal.τ Cert.KernelIdeal.sig (Elt F)) (VR : Valuation Cert.ReferenceIdeal.τ Cert.ReferenceIdeal.sig (Elt F))
    (h : VK (Proc.devRef .tc Cert.KernelIdeal.main_arg16) = VR (Proc.devRef .tc Cert.ReferenceIdeal.main_arg16)) :
    StableHlo.after Cert.KernelIdeal.Gen.hostOps2 VK (Proc.devRef .tc Cert.KernelIdeal.main_v15)
      = StableHlo.after Cert.ReferenceIdeal.Value.ops0 VR (Proc.devRef .tc Cert.ReferenceIdeal.main_v19) := by
  after_results_simp
  rw [h]
  rfl

/-- Row 1 of edge-index argument 16: the slice and the cast are the same two operations on both sides. -/
theorem idx_v17_v21 (VK : Valuation Cert.KernelIdeal.τ Cert.KernelIdeal.sig (Elt F)) (VR : Valuation Cert.ReferenceIdeal.τ Cert.ReferenceIdeal.sig (Elt F))
    (h : VK (Proc.devRef .tc Cert.KernelIdeal.main_arg16) = VR (Proc.devRef .tc Cert.ReferenceIdeal.main_arg16)) :
    StableHlo.after Cert.KernelIdeal.Gen.hostOps2 VK (Proc.devRef .tc Cert.KernelIdeal.main_v17)
      = StableHlo.after Cert.ReferenceIdeal.Value.ops0 VR (Proc.devRef .tc Cert.ReferenceIdeal.main_v21) := by
  after_results_simp
  rw [h]
  rfl

/-- Row 0 of edge-index argument 17: the slice and the cast are the same two operations on both sides. -/
theorem idx_v23_v27 (VK : Valuation Cert.KernelIdeal.τ Cert.KernelIdeal.sig (Elt F)) (VR : Valuation Cert.ReferenceIdeal.τ Cert.ReferenceIdeal.sig (Elt F))
    (h : VK (Proc.devRef .tc Cert.KernelIdeal.main_arg17) = VR (Proc.devRef .tc Cert.ReferenceIdeal.main_arg17)) :
    StableHlo.after Cert.KernelIdeal.Gen.hostOps2 VK (Proc.devRef .tc Cert.KernelIdeal.main_v23)
      = StableHlo.after Cert.ReferenceIdeal.Value.ops0 VR (Proc.devRef .tc Cert.ReferenceIdeal.main_v27) := by
  after_results_simp
  rw [h]
  rfl

/-- Row 1 of edge-index argument 17: the slice and the cast are the same two operations on both sides. -/
theorem idx_v25_v29 (VK : Valuation Cert.KernelIdeal.τ Cert.KernelIdeal.sig (Elt F)) (VR : Valuation Cert.ReferenceIdeal.τ Cert.ReferenceIdeal.sig (Elt F))
    (h : VK (Proc.devRef .tc Cert.KernelIdeal.main_arg17) = VR (Proc.devRef .tc Cert.ReferenceIdeal.main_arg17)) :
    StableHlo.after Cert.KernelIdeal.Gen.hostOps2 VK (Proc.devRef .tc Cert.KernelIdeal.main_v25)
      = StableHlo.after Cert.ReferenceIdeal.Value.ops0 VR (Proc.devRef .tc Cert.ReferenceIdeal.main_v29) := by
  after_results_simp
  rw [h]
  rfl

/-- Row 0 of edge-index argument 18: the slice and the cast are the same two operations on both sides. -/
theorem idx_v31_v35 (VK : Valuation Cert.KernelIdeal.τ Cert.KernelIdeal.sig (Elt F)) (VR : Valuation Cert.ReferenceIdeal.τ Cert.ReferenceIdeal.sig (Elt F))
    (h : VK (Proc.devRef .tc Cert.KernelIdeal.main_arg18) = VR (Proc.devRef .tc Cert.ReferenceIdeal.main_arg18)) :
    StableHlo.after Cert.KernelIdeal.Gen.hostOps2 VK (Proc.devRef .tc Cert.KernelIdeal.main_v31)
      = StableHlo.after Cert.ReferenceIdeal.Value.ops0 VR (Proc.devRef .tc Cert.ReferenceIdeal.main_v35) := by
  after_results_simp
  rw [h]
  rfl

/-- Row 1 of edge-index argument 18: the slice and the cast are the same two operations on both sides. -/
theorem idx_v33_v37 (VK : Valuation Cert.KernelIdeal.τ Cert.KernelIdeal.sig (Elt F)) (VR : Valuation Cert.ReferenceIdeal.τ Cert.ReferenceIdeal.sig (Elt F))
    (h : VK (Proc.devRef .tc Cert.KernelIdeal.main_arg18) = VR (Proc.devRef .tc Cert.ReferenceIdeal.main_arg18)) :
    StableHlo.after Cert.KernelIdeal.Gen.hostOps2 VK (Proc.devRef .tc Cert.KernelIdeal.main_v33)
      = StableHlo.after Cert.ReferenceIdeal.Value.ops0 VR (Proc.devRef .tc Cert.ReferenceIdeal.main_v37) := by
  after_results_simp
  rw [h]
  rfl

/-! ## A message sum: gather at the wrapped source indices, scatter-add into zeros at the destination indices -/

set_option maxHeartbeats 1000000 in
/-- The sum of the users' layer-1 rows, gathered at row 0 and scattered at row 1 of edge-index argument 15, into the series: the same thirteen operations on both sides. -/
theorem chain_v279 (VK : Valuation Cert.KernelIdeal.τ Cert.KernelIdeal.sig (Elt F)) (VR : Valuation Cert.ReferenceIdeal.τ Cert.ReferenceIdeal.sig (Elt F))
    (hs : VK (Proc.devRef .tc Cert.KernelIdeal.main_v193) = VR (Proc.devRef .tc Cert.ReferenceIdeal.main_v301))
    (hi : VK (Proc.devRef .tc Cert.KernelIdeal.main_v7) = VR (Proc.devRef .tc Cert.ReferenceIdeal.main_v11))
    (hj : VK (Proc.devRef .tc Cert.KernelIdeal.main_v9) = VR (Proc.devRef .tc Cert.ReferenceIdeal.main_v13)) :
    StableHlo.after Cert.KernelIdeal.Gen.hostOps7 VK (Proc.devRef .tc Cert.KernelIdeal.main_v279)
      = StableHlo.after Cert.ReferenceIdeal.Value.ops6 VR (Proc.devRef .tc Cert.ReferenceIdeal.main_v321) := by
  after_results_simp
  rw [hs, hi, hj]
  rfl

set_option maxHeartbeats 1000000 in
/-- The sum of the genres' layer-1 rows, gathered at row 0 and scattered at row 1 of edge-index argument 16, into the series: the same thirteen operations on both sides. -/
theorem chain_v297 (VK : Valuation Cert.KernelIdeal.τ Cert.KernelIdeal.sig (Elt F)) (VR : Valuation Cert.ReferenceIdeal.τ Cert.ReferenceIdeal.sig (Elt F))
    (hs : VK (Proc.devRef .tc Cert.KernelIdeal.main_v217) = VR (Proc.devRef .tc Cert.ReferenceIdeal.main_v303))
    (hi : VK (Proc.devRef .tc Cert.KernelIdeal.main_v15) = VR (Proc.devRef .tc Cert.ReferenceIdeal.main_v19))
    (hj : VK (Proc.devRef .tc Cert.KernelIdeal.main_v17) = VR (Proc.devRef .tc Cert.ReferenceIdeal.main_v21)) :
    StableHlo.after Cert.KernelIdeal.Gen.hostOps7 VK (Proc.devRef .tc Cert.KernelIdeal.main_v297)
      = StableHlo.after Cert.ReferenceIdeal.Value.ops7 VR (Proc.devRef .tc Cert.ReferenceIdeal.main_v385) := by
  after_results_simp
  rw [hs, hi, hj]
  rfl

set_option maxHeartbeats 1000000 in
/-- The sum of the writers' layer-1 rows, gathered at row 0 and scattered at row 1 of edge-index argument 17, into the series: the same thirteen operations on both sides. -/
theorem chain_v315 (VK : Valuation Cert.KernelIdeal.τ Cert.KernelIdeal.sig (Elt F)) (VR : Valuation Cert.ReferenceIdeal.τ Cert.ReferenceIdeal.sig (Elt F))
    (hs : VK (Proc.devRef .tc Cert.KernelIdeal.main_v245) = VR (Proc.devRef .tc Cert.ReferenceIdeal.main_v304))
    (hi : VK (Proc.devRef .tc Cert.KernelIdeal.main_v23) = VR (Proc.devRef .tc Cert.ReferenceIdeal.main_v27))
    (hj : VK (Proc.devRef .tc Cert.KernelIdeal.main_v25) = VR (Proc.devRef .tc Cert.ReferenceIdeal.main_v29)) :
    StableHlo.after Cert.KernelIdeal.Gen.hostOps7 VK (Proc.devRef .tc Cert.KernelIdeal.main_v315)
      = StableHlo.after Cert.ReferenceIdeal.Value.ops8 VR (Proc.devRef .tc Cert.ReferenceIdeal.main_v450) := by
  after_results_simp
  rw [hs, hi, hj]
  rfl

set_option maxHeartbeats 1000000 in
/-- The sum of the types' layer-1 rows, gathered at row 0 and scattered at row 1 of edge-index argument 18, into the series: the same thirteen operations on both sides (the reference's gather in one window, its scatter in the next). -/
theorem chain_v333 (VK : Valuation Cert.KernelIdeal.τ Cert.KernelIdeal.sig (Elt F)) (VR : Valuation Cert.ReferenceIdeal.τ Cert.ReferenceIdeal.sig (Elt F))
    (hs : VK (Proc.devRef .tc Cert.KernelIdeal.main_v269) = VR (Proc.devRef .tc Cert.ReferenceIdeal.main_v305))
    (hi : VK (Proc.devRef .tc Cert.KernelIdeal.main_v31) = VR (Proc.devRef .tc Cert.ReferenceIdeal.main_v35))
    (hj : VK (Proc.devRef .tc Cert.KernelIdeal.main_v33) = VR (Proc.devRef .tc Cert.ReferenceIdeal.main_v37)) :
    StableHlo.after Cert.KernelIdeal.Gen.hostOps7 VK (Proc.devRef .tc Cert.KernelIdeal.main_v333)
      = StableHlo.after Cert.ReferenceIdeal.Value.ops10 (StableHlo.after Cert.ReferenceIdeal.Value.ops9 VR) (Proc.devRef .tc Cert.ReferenceIdeal.main_v515) := by
  after_results_simp
  rw [hs, hi, hj]
  rfl

set_option maxHeartbeats 1000000 in
/-- The sum of the series' layer-1 rows, gathered at row 1 and scattered at row 0 of edge-index argument 15 (the same edges, reversed), into the users: the same thirteen operations on both sides. -/
theorem chain_v375 (VK : Valuation Cert.KernelIdeal.τ Cert.KernelIdeal.sig (Elt F)) (VR : Valuation Cert.ReferenceIdeal.τ Cert.ReferenceIdeal.sig (Elt F))
    (hs : VK (Proc.devRef .tc Cert.KernelIdeal.main_v165) = VR (Proc.devRef .tc Cert.ReferenceIdeal.main_v302))
    (hi : VK (Proc.devRef .tc Cert.KernelIdeal.main_v11) = VR (Proc.devRef .tc Cert.ReferenceIdeal.main_v15))
    (hj : VK (Proc.devRef .tc Cert.KernelIdeal.main_v13) = VR (Proc.devRef .tc Cert.ReferenceIdeal.main_v17)) :
    StableHlo.after Cert.KernelIdeal.Gen.hostOps8 VK (Proc.devRef .tc Cert.KernelIdeal.main_v375)
      = StableHlo.after Cert.ReferenceIdeal.Value.ops6 VR (Proc.devRef .tc Cert.ReferenceIdeal.main_v353) := by
  after_results_simp
  rw [hs, hi, hj]
  rfl

end Abstract

/-! ## At the two programs' contents -/

section Reference
variable (m' : (ℓ : Loc Cert.ReferenceIdeal.nD Cert.ReferenceIdeal.τ Cert.ReferenceIdeal.sig) → Buf (Elt Ideal) ℓ) (c : Dev Cert.ReferenceIdeal.nD) (r : Ref Cert.ReferenceIdeal.sig .tc)

/-- A buffer the windows in between do not write is, at a later boundary, what it was after window 0. -/
theorem keepR_6 (h1 : r ∉ Cert.ReferenceIdeal.Value.ops1_W) (h2 : r ∉ Cert.ReferenceIdeal.Value.ops2_W) (h3 : r ∉ Cert.ReferenceIdeal.Value.ops3_W) (h4 : r ∉ Cert.ReferenceIdeal.Value.ops4_W) (h5 : r ∉ Cert.ReferenceIdeal.Value.ops5_W) :
    Cert.ReferenceIdeal.Value.U6 m' c (Proc.devRef .tc r) = Cert.ReferenceIdeal.Value.U1 m' c (Proc.devRef .tc r) :=
  ((Cert.ReferenceIdeal.Value.U6_of m' c r h5).trans ((Cert.ReferenceIdeal.Value.U5_of m' c r h4).trans ((Cert.ReferenceIdeal.Value.U4_of m' c r h3).trans ((Cert.ReferenceIdeal.Value.U3_of m' c r h2).trans (Cert.ReferenceIdeal.Value.U2_of m' c r h1)))))
theorem keepR_7 (h1 : r ∉ Cert.ReferenceIdeal.Value.ops1_W) (h2 : r ∉ Cert.ReferenceIdeal.Value.ops2_W) (h3 : r ∉ Cert.ReferenceIdeal.Value.ops3_W) (h4 : r ∉ Cert.ReferenceIdeal.Value.ops4_W) (h5 : r ∉ Cert.ReferenceIdeal.Value.ops5_W) (h6 : r ∉ Cert.ReferenceIdeal.Value.ops6_W) :
    Cert.ReferenceIdeal.Value.U7 m' c (Proc.devRef .tc r) = Cert.ReferenceIdeal.Value.U1 m' c (Proc.devRef .tc r) :=
  ((Cert.ReferenceIdeal.Value.U7_of m' c r h6).trans ((Cert.ReferenceIdeal.Value.U6_of m' c r h5).trans ((Cert.ReferenceIdeal.Value.U5_of m' c r h4).trans ((Cert.ReferenceIdeal.Value.U4_of m' c r h3).trans ((Cert.ReferenceIdeal.Value.U3_of m' c r h2).trans (Cert.ReferenceIdeal.Value.U2_of m' c r h1))))))
theorem keepR_8 (h1 : r ∉ Cert.ReferenceIdeal.Value.ops1_W) (h2 : r ∉ Cert.ReferenceIdeal.Value.ops2_W) (h3 : r ∉ Cert.ReferenceIdeal.Value.ops3_W) (h4 : r ∉ Cert.ReferenceIdeal.Value.ops4_W) (h5 : r ∉ Cert.ReferenceIdeal.Value.ops5_W) (h6 : r ∉ Cert.ReferenceIdeal.Value.ops6_W) (h7 : r ∉ Cert.ReferenceIdeal.Value.ops7_W) :
    Cert.ReferenceIdeal.Value.U8 m' c (Proc.devRef .tc r) = Cert.ReferenceIdeal.Value.U1 m' c (Proc.devRef .tc r) :=
  ((Cert.ReferenceIdeal.Value.U8_of m' c r h7).trans ((Cert.ReferenceIdeal.Value.U7_of m' c r h6).trans ((Cert.ReferenceIdeal.Value.U6_of m' c r h5).trans ((Cert.ReferenceIdeal.Value.U5_of m' c r h4).trans ((Cert.ReferenceIdeal.Value.U4_of m' c r h3).trans ((Cert.ReferenceIdeal.Value.U3_of m' c r h2).trans (Cert.ReferenceIdeal.Value.U2_of m' c r h1)))))))
theorem keepR_9 (h1 : r ∉ Cert.ReferenceIdeal.Value.ops1_W) (h2 : r ∉ Cert.ReferenceIdeal.Value.ops2_W) (h3 : r ∉ Cert.ReferenceIdeal.Value.ops3_W) (h4 : r ∉ Cert.ReferenceIdeal.Value.ops4_W) (h5 : r ∉ Cert.ReferenceIdeal.Value.ops5_W) (h6 : r ∉ Cert.ReferenceIdeal.Value.ops6_W) (h7 : r ∉ Cert.ReferenceIdeal.Value.ops7_W) (h8 : r ∉ Cert.ReferenceIdeal.Value.ops8_W) :
    Cert.ReferenceIdeal.Value.U9 m' c (Proc.devRef .tc r) = Cert.ReferenceIdeal.Value.U1 m' c (Proc.devRef .tc r) :=
  ((Cert.ReferenceIdeal.Value.U9_of m' c r h8).trans ((Cert.ReferenceIdeal.Value.U8_of m' c r h7).trans ((Cert.ReferenceIdeal.Value.U7_of m' c r h6).trans ((Cert.ReferenceIdeal.Value.U6_of m' c r h5).trans ((Cert.ReferenceIdeal.Value.U5_of m' c r h4).trans ((Cert.ReferenceIdeal.Value.U4_of m' c r h3).trans ((Cert.ReferenceIdeal.Value.U3_of m' c r h2).trans (Cert.ReferenceIdeal.Value.U2_of m' c r h1))))))))
theorem keepR_10 (h1 : r ∉ Cert.ReferenceIdeal.Value.ops1_W) (h2 : r ∉ Cert.ReferenceIdeal.Value.ops2_W) (h3 : r ∉ Cert.ReferenceIdeal.Value.ops3_W) (h4 : r ∉ Cert.ReferenceIdeal.Value.ops4_W) (h5 : r ∉ Cert.ReferenceIdeal.Value.ops5_W) (h6 : r ∉ Cert.ReferenceIdeal.Value.ops6_W) (h7 : r ∉ Cert.ReferenceIdeal.Value.ops7_W) (h8 : r ∉ Cert.ReferenceIdeal.Value.ops8_W) (h9 : r ∉ Cert.ReferenceIdeal.Value.ops9_W) :
    Cert.ReferenceIdeal.Value.U10 m' c (Proc.devRef .tc r) = Cert.ReferenceIdeal.Value.U1 m' c (Proc.devRef .tc r) :=
  ((Cert.ReferenceIdeal.Value.U10_of m' c r h9).trans ((Cert.ReferenceIdeal.Value.U9_of m' c r h8).trans ((Cert.ReferenceIdeal.Value.U8_of m' c r h7).trans ((Cert.ReferenceIdeal.Value.U7_of m' c r h6).trans ((Cert.ReferenceIdeal.Value.U6_of m' c r h5).trans ((Cert.ReferenceIdeal.Value.U5_of m' c r h4).trans ((Cert.ReferenceIdeal.Value.U4_of m' c r h3).trans ((Cert.ReferenceIdeal.Value.U3_of m' c r h2).trans (Cert.ReferenceIdeal.Value.U2_of m' c r h1)))))))))

/-- A layer-1 result, written in window 5, is unchanged at the later boundaries. -/
theorem keepR6_7 (h6 : r ∉ Cert.ReferenceIdeal.Value.ops6_W) :
    Cert.ReferenceIdeal.Value.U7 m' c (Proc.devRef .tc r) = Cert.ReferenceIdeal.Value.U6 m' c (Proc.devRef .tc r) :=
  (Cert.ReferenceIdeal.Value.U7_of m' c r h6)
theorem keepR6_8 (h6 : r ∉ Cert.ReferenceIdeal.Value.ops6_W) (h7 : r ∉ Cert.ReferenceIdeal.Value.ops7_W) :
    Cert.ReferenceIdeal.Value.U8 m' c (Proc.devRef .tc r) = Cert.ReferenceIdeal.Value.U6 m' c (Proc.devRef .tc r) :=
  ((Cert.ReferenceIdeal.Value.U8_of m' c r h7).trans (Cert.ReferenceIdeal.Value.U7_of m' c r h6))
theorem keepR6_9 (h6 : r ∉ Cert.ReferenceIdeal.Value.ops6_W) (h7 : r ∉ Cert.ReferenceIdeal.Value.ops7_W) (h8 : r ∉ Cert.ReferenceIdeal.Value.ops8_W) :
    Cert.ReferenceIdeal.Value.U9 m' c (Proc.devRef .tc r) = Cert.ReferenceIdeal.Value.U6 m' c (Proc.devRef .tc r) :=
  ((Cert.ReferenceIdeal.Value.U9_of m' c r h8).trans ((Cert.ReferenceIdeal.Value.U8_of m' c r h7).trans (Cert.ReferenceIdeal.Value.U7_of m' c r h6)))

end Reference

section Instances
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)

/-- The two programs' copies of row 0 of edge-index argument 15 agree. -/
theorem S_idx_v7 (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v7) = Cert.ReferenceIdeal.Value.U1 m' c (Proc.devRef .tc Cert.ReferenceIdeal.main_v11) :=
  idx_v7_v11 (Cert.KernelIdeal.Gen.W4 m ρ c) (Cert.ReferenceIdeal.Value.U0 m' c) ((Cert.KernelIdeal.Gen.keep_arg15_4 m ρ c).trans (h15 c).symm)

/-- The two programs' copies of row 1 of edge-index argument 15 agree. -/
theorem S_idx_v9 (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v9) = Cert.ReferenceIdeal.Value.U1 m' c (Proc.devRef .tc Cert.ReferenceIdeal.main_v13) :=
  idx_v9_v13 (Cert.KernelIdeal.Gen.W4 m ρ c) (Cert.ReferenceIdeal.Value.U0 m' c) ((Cert.KernelIdeal.Gen.keep_arg15_4 m ρ c).trans (h15 c).symm)

/-- The two programs' copies of row 1 of edge-index argument 15 agree. -/
theorem S_idx_v11 (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v11) = Cert.ReferenceIdeal.Value.U1 m' c (Proc.devRef .tc Cert.ReferenceIdeal.main_v15) :=
  idx_v11_v15 (Cert.KernelIdeal.Gen.W4 m ρ c) (Cert.ReferenceIdeal.Value.U0 m' c) ((Cert.KernelIdeal.Gen.keep_arg15_4 m ρ c).trans (h15 c).symm)

/-- The two programs' copies of row 0 of edge-index argument 15 agree. -/
theorem S_idx_v13 (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v13) = Cert.ReferenceIdeal.Value.U1 m' c (Proc.devRef .tc Cert.ReferenceIdeal.main_v17) :=
  idx_v13_v17 (Cert.KernelIdeal.Gen.W4 m ρ c) (Cert.ReferenceIdeal.Value.U0 m' c) ((Cert.KernelIdeal.Gen.keep_arg15_4 m ρ c).trans (h15 c).symm)

/-- The two programs' copies of row 0 of edge-index argument 16 agree. -/
theorem S_idx_v15 (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) :
    Cert.KernelIdeal.Gen.W5 m ρ c (Proc.devRef .tc Cert.KernelIdeal.main_v15) = Cert.ReferenceIdeal.Value.U1 m' c (Proc.devRef .tc Cert.ReferenceIdeal.main_v19) :=
  idx_v15_v19 (Cert.KernelIdeal.Gen.W4 m ρ c) (Cert.ReferenceIdeal.Value.U0 m' c) ((Cert.KernelIdeal.Gen.keep_arg16_4 m ρ c).trans (h16 c).symm)

/-- The two programs' copies of row 1 of edge-index argument 16 agree. -/
theorem S_idx_v17 (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) :
    Cert.KernelIdeal.Gen.W5 m ρ c (Proc.devRef .tc Cert.KernelIdeal.main_v17) = Cert.ReferenceIdeal.Value.U1 m' c (Proc.devRef .tc Cert.ReferenceIdeal.main_v21) :=
  idx_v17_v21 (Cert.KernelIdeal.Gen.W4 m ρ c) (Cert.ReferenceIdeal.Value.U0 m' c) ((Cert.KernelIdeal.Gen.keep_arg16_4 m ρ c).trans (h16 c).symm)

/-- The two programs' copies of row 0 of edge-index argument 17 agree. -/
theorem S_idx_v23 (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.KernelIdeal.nD) :
    Cert.KernelIdeal.Gen.W5 m ρ c (Proc.devRef .tc Cert.KernelIdeal.main_v23) = Cert.ReferenceIdeal.Value.U1 m' c (Proc.devRef .tc Cert.ReferenceIdeal.main_v27) :=
  idx_v23_v27 (Cert.KernelIdeal.Gen.W4 m ρ c) (Cert.ReferenceIdeal.Value.U0 m' c) ((Cert.KernelIdeal.Gen.keep_arg17_4 m ρ c).trans (h17 c).symm)

/-- The two programs' copies of row 1 of edge-index argument 17 agree. -/
theorem S_idx_v25 (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.KernelIdeal.nD) :
    Cert.KernelIdeal.Gen.W5 m ρ c (Proc.devRef .tc Cert.KernelIdeal.main_v25) = Cert.ReferenceIdeal.Value.U1 m' c (Proc.devRef .tc Cert.ReferenceIdeal.main_v29) :=
  idx_v25_v29 (Cert.KernelIdeal.Gen.W4 m ρ c) (Cert.ReferenceIdeal.Value.U0 m' c) ((Cert.KernelIdeal.Gen.keep_arg17_4 m ρ c).trans (h17 c).symm)

/-- The two programs' copies of row 0 of edge-index argument 18 agree. -/
theorem S_idx_v31 (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.KernelIdeal.Gen.W5 m ρ c (Proc.devRef .tc Cert.KernelIdeal.main_v31) = Cert.ReferenceIdeal.Value.U1 m' c (Proc.devRef .tc Cert.ReferenceIdeal.main_v35) :=
  idx_v31_v35 (Cert.KernelIdeal.Gen.W4 m ρ c) (Cert.ReferenceIdeal.Value.U0 m' c) ((Cert.KernelIdeal.Gen.keep_arg18_4 m ρ c).trans (h18 c).symm)

/-- The two programs' copies of row 1 of edge-index argument 18 agree. -/
theorem S_idx_v33 (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.KernelIdeal.Gen.W5 m ρ c (Proc.devRef .tc Cert.KernelIdeal.main_v33) = Cert.ReferenceIdeal.Value.U1 m' c (Proc.devRef .tc Cert.ReferenceIdeal.main_v37) :=
  idx_v33_v37 (Cert.KernelIdeal.Gen.W4 m ρ c) (Cert.ReferenceIdeal.Value.U0 m' c) ((Cert.KernelIdeal.Gen.keep_arg18_4 m ρ c).trans (h18 c).symm)

/-- LAYER 2: the sum of the users' layer-1 rows, gathered at row 0 and scattered at row 1 of edge-index argument 15, into the series is the same array in the two programs, given that the source arrays agree. -/
theorem S_agg_v279 (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hsrc : ∀ c : Dev Cert.KernelIdeal.nD, Cert.KernelIdeal.Gen.W31 m ρ c (Proc.devRef .tc Cert.KernelIdeal.main_v193) = Cert.ReferenceIdeal.Value.U6 m' c (Proc.devRef .tc Cert.ReferenceIdeal.main_v301))
    (c : Dev Cert.KernelIdeal.nD) :
    Cert.KernelIdeal.Gen.W42 m ρ c (Proc.devRef .tc Cert.KernelIdeal.main_v279) = Cert.ReferenceIdeal.Value.U7 m' c (Proc.devRef .tc Cert.ReferenceIdeal.main_v321) :=
  chain_v279 (Cert.KernelIdeal.Gen.W41 m ρ c) (Cert.ReferenceIdeal.Value.U6 m' c)
    ((Cert.KernelIdeal.Gen.keep_v193_41 m ρ c).trans (hsrc c))
    (((Cert.KernelIdeal.Gen.keep_v7_41 m ρ c).trans (S_idx_v7 m ρ m' h15 c)).trans (keepR_6 m' c Cert.ReferenceIdeal.main_v11 (by decide) (by decide) (by decide) (by decide) (by decide)).symm)
    (((Cert.KernelIdeal.Gen.keep_v9_41 m ρ c).trans (S_idx_v9 m ρ m' h15 c)).trans (keepR_6 m' c Cert.ReferenceIdeal.main_v13 (by decide) (by decide) (by decide) (by decide) (by decide)).symm)

/-- LAYER 2: the sum of the genres' layer-1 rows, gathered at row 0 and scattered at row 1 of edge-index argument 16, into the series is the same array in the two programs, given that the source arrays agree. -/
theorem S_agg_v297 (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (hsrc : ∀ c : Dev Cert.KernelIdeal.nD, Cert.KernelIdeal.Gen.W32 m ρ c (Proc.devRef .tc Cert.KernelIdeal.main_v217) = Cert.ReferenceIdeal.Value.U6 m' c (Proc.devRef .tc Cert.ReferenceIdeal.main_v303))
    (c : Dev Cert.KernelIdeal.nD) :
    Cert.KernelIdeal.Gen.W42 m ρ c (Proc.devRef .tc Cert.KernelIdeal.main_v297) = Cert.ReferenceIdeal.Value.U8 m' c (Proc.devRef .tc Cert.ReferenceIdeal.main_v385) :=
  chain_v297 (Cert.KernelIdeal.Gen.W41 m ρ c) (Cert.ReferenceIdeal.Value.U7 m' c)
    (((Cert.KernelIdeal.Gen.keep_v217_41 m ρ c).trans (hsrc c)).trans (keepR6_7 m' c Cert.ReferenceIdeal.main_v303 (by decide)).symm)
    (((Cert.KernelIdeal.Gen.keep_v15_41 m ρ c).trans (S_idx_v15 m ρ m' h16 c)).trans (keepR_7 m' c Cert.ReferenceIdeal.main_v19 (by decide) (by decide) (by decide) (by decide) (by decide) (by decide)).symm)
    (((Cert.KernelIdeal.Gen.keep_v17_41 m ρ c).trans (S_idx_v17 m ρ m' h16 c)).trans (keepR_7 m' c Cert.ReferenceIdeal.main_v21 (by decide) (by decide) (by decide) (by decide) (by decide) (by decide)).symm)

/-- LAYER 2: the sum of the writers' layer-1 rows, gathered at row 0 and scattered at row 1 of edge-index argument 17, into the series is the same array in the two programs, given that the source arrays agree. -/
theorem S_agg_v315 (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hsrc : ∀ c : Dev Cert.KernelIdeal.nD, Cert.KernelIdeal.Gen.W40 m ρ c (Proc.devRef .tc Cert.KernelIdeal.main_v245) = Cert.ReferenceIdeal.Value.U6 m' c (Proc.devRef .tc Cert.ReferenceIdeal.main_v304))
    (c : Dev Cert.KernelIdeal.nD) :
    Cert.KernelIdeal.Gen.W42 m ρ c (Proc.devRef .tc Cert.KernelIdeal.main_v315) = Cert.ReferenceIdeal.Value.U9 m' c (Proc.devRef .tc Cert.ReferenceIdeal.main_v450) :=
  chain_v315 (Cert.KernelIdeal.Gen.W41 m ρ c) (Cert.ReferenceIdeal.Value.U8 m' c)
    (((Cert.KernelIdeal.Gen.keep_v245_41 m ρ c).trans (hsrc c)).trans (keepR6_8 m' c Cert.ReferenceIdeal.main_v304 (by decide) (by decide)).symm)
    (((Cert.KernelIdeal.Gen.keep_v23_41 m ρ c).trans (S_idx_v23 m ρ m' h17 c)).trans (keepR_8 m' c Cert.ReferenceIdeal.main_v27 (by decide) (by decide) (by decide) (by decide) (by decide) (by decide) (by decide)).symm)
    (((Cert.KernelIdeal.Gen.keep_v25_41 m ρ c).trans (S_idx_v25 m ρ m' h17 c)).trans (keepR_8 m' c Cert.ReferenceIdeal.main_v29 (by decide) (by decide) (by decide) (by decide) (by decide) (by decide) (by decide)).symm)

/-- LAYER 2: the sum of the types' layer-1 rows, gathered at row 0 and scattered at row 1 of edge-index argument 18, into the series is the same array in the two programs, given that the source arrays agree. -/
theorem S_agg_v333 (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (hsrc : ∀ c : Dev Cert.KernelIdeal.nD, Cert.KernelIdeal.Gen.W41 m ρ c (Proc.devRef .tc Cert.KernelIdeal.main_v269) = Cert.ReferenceIdeal.Value.U6 m' c (Proc.devRef .tc Cert.ReferenceIdeal.main_v305))
    (c : Dev Cert.KernelIdeal.nD) :
    Cert.KernelIdeal.Gen.W42 m ρ c (Proc.devRef .tc Cert.KernelIdeal.main_v333) = Cert.ReferenceIdeal.Value.U11 m' c (Proc.devRef .tc Cert.ReferenceIdeal.main_v515) :=
  chain_v333 (Cert.KernelIdeal.Gen.W41 m ρ c) (Cert.ReferenceIdeal.Value.U9 m' c)
    ((hsrc c).trans (keepR6_9 m' c Cert.ReferenceIdeal.main_v305 (by decide) (by decide) (by decide)).symm)
    (((Cert.KernelIdeal.Gen.keep_v31_41 m ρ c).trans (S_idx_v31 m ρ m' h18 c)).trans (keepR_9 m' c Cert.ReferenceIdeal.main_v35 (by decide) (by decide) (by decide) (by decide) (by decide) (by decide) (by decide) (by decide)).symm)
    (((Cert.KernelIdeal.Gen.keep_v33_41 m ρ c).trans (S_idx_v33 m ρ m' h18 c)).trans (keepR_9 m' c Cert.ReferenceIdeal.main_v37 (by decide) (by decide) (by decide) (by decide) (by decide) (by decide) (by decide) (by decide)).symm)

/-- LAYER 2: the sum of the series' layer-1 rows, gathered at row 1 and scattered at row 0 of edge-index argument 15 (the same edges, reversed), into the users is the same array in the two programs, given that the source arrays agree. -/
theorem S_agg_v375 (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hsrc : ∀ c : Dev Cert.KernelIdeal.nD, Cert.KernelIdeal.Gen.W24 m ρ c (Proc.devRef .tc Cert.KernelIdeal.main_v165) = Cert.ReferenceIdeal.Value.U6 m' c (Proc.devRef .tc Cert.ReferenceIdeal.main_v302))
    (c : Dev Cert.KernelIdeal.nD) :
    Cert.KernelIdeal.Gen.W61 m ρ c (Proc.devRef .tc Cert.KernelIdeal.main_v375) = Cert.ReferenceIdeal.Value.U7 m' c (Proc.devRef .tc Cert.ReferenceIdeal.main_v353) :=
  chain_v375 (Cert.KernelIdeal.Gen.W60 m ρ c) (Cert.ReferenceIdeal.Value.U6 m' c)
    ((Cert.KernelIdeal.Gen.keep_v165_60 m ρ c).trans (hsrc c))
    (((Cert.KernelIdeal.Gen.keep_v11_60 m ρ c).trans (S_idx_v11 m ρ m' h15 c)).trans (keepR_6 m' c Cert.ReferenceIdeal.main_v15 (by decide) (by decide) (by decide) (by decide) (by decide)).symm)
    (((Cert.KernelIdeal.Gen.keep_v13_60 m ρ c).trans (S_idx_v13 m ρ m' h15 c)).trans (keepR_6 m' c Cert.ReferenceIdeal.main_v17 (by decide) (by decide) (by decide) (by decide) (by decide)).symm)

end Instances

end Cert.Sim

end
-- ==== Proof.Sim.Cnt2.lean ====
import proofs.«417513_j58866821759238_4_alg».proof.Proof.KI.Keep
import proofs.«417513_j58866821759238_4_alg».proof.Proof.Ref.Run
import Idealize.ShloMosaic.PureOps.Ideal
import proofs.«417513_j58866821759238_4_alg».proof.Proof.Sim.Idx

set_option maxRecDepth 16384

noncomputable section

namespace Cert.Sim

open Idealize.ShloMosaic Idealize.ShloMosaic.TcCoe Idealize.SL.Sem

/-! # The in-degree counts of layer 2

The reference computes each in-degree count twice, once per layer: ones scattered along the same index vector (a row of
an edge-index argument, made once at the start) into a column of zeros. The second computation is therefore the first,
and the first is the kernel program's one count buffer, which both of its layers read. -/

section Ref
variable {F : FTy → Type} [FloatOps F]

/-! ## Into 50000 nodes along `v13` (a row of argument 15): the reference's `v325` is its `v61` -/

/-- Over any contents that agree on the index vector, the two scatters are one term. -/
theorem ref_cnt2_v325_abs (V2 V1 : Valuation Cert.ReferenceIdeal.τ Cert.ReferenceIdeal.sig (Elt F))
    (h : V2 (Proc.devRef .tc Cert.ReferenceIdeal.main_v13) = V1 (Proc.devRef .tc Cert.ReferenceIdeal.main_v13)) :
    StableHlo.after Cert.ReferenceIdeal.Value.ops6 V2 (Proc.devRef .tc Cert.ReferenceIdeal.main_v325) = StableHlo.after Cert.ReferenceIdeal.Value.ops1 V1 (Proc.devRef .tc Cert.ReferenceIdeal.main_v61) := by
  after_results_simp
  rw [h]

/-- No window between the two writes the index vector. -/
theorem ref_cnt2_v325 (m' : (ℓ : Loc Cert.ReferenceIdeal.nD Cert.ReferenceIdeal.τ Cert.ReferenceIdeal.sig) → Buf (Elt F) ℓ) (c : Dev Cert.ReferenceIdeal.nD) :
    Cert.ReferenceIdeal.Value.U7 m' c (Proc.devRef .tc Cert.ReferenceIdeal.main_v325) = Cert.ReferenceIdeal.Value.U2 m' c (Proc.devRef .tc Cert.ReferenceIdeal.main_v61) :=
  ref_cnt2_v325_abs (Cert.ReferenceIdeal.Value.U6 m' c) (Cert.ReferenceIdeal.Value.U1 m' c) ((Cert.ReferenceIdeal.Value.U6_of m' c Cert.ReferenceIdeal.main_v13 (by decide)).trans <| (Cert.ReferenceIdeal.Value.U5_of m' c Cert.ReferenceIdeal.main_v13 (by decide)).trans <| (Cert.ReferenceIdeal.Value.U4_of m' c Cert.ReferenceIdeal.main_v13 (by decide)).trans <| (Cert.ReferenceIdeal.Value.U3_of m' c Cert.ReferenceIdeal.main_v13 (by decide)).trans <| (Cert.ReferenceIdeal.Value.U2_of m' c Cert.ReferenceIdeal.main_v13 (by decide)))

/-! ## Into 100000 nodes along `v17` (a row of argument 15): the reference's `v357` is its `v93` -/

/-- Over any contents that agree on the index vector, the two scatters are one term. -/
theorem ref_cnt2_v357_abs (V2 V1 : Valuation Cert.ReferenceIdeal.τ Cert.ReferenceIdeal.sig (Elt F))
    (h : V2 (Proc.devRef .tc Cert.ReferenceIdeal.main_v17) = V1 (Proc.devRef .tc Cert.ReferenceIdeal.main_v17)) :
    StableHlo.after Cert.ReferenceIdeal.Value.ops6 V2 (Proc.devRef .tc Cert.ReferenceIdeal.main_v357) = StableHlo.after Cert.ReferenceIdeal.Value.ops1 V1 (Proc.devRef .tc Cert.ReferenceIdeal.main_v93) := by
  after_results_simp
  rw [h]

/-- No window between the two writes the index vector. -/
theorem ref_cnt2_v357 (m' : (ℓ : Loc Cert.ReferenceIdeal.nD Cert.ReferenceIdeal.τ Cert.ReferenceIdeal.sig) → Buf (Elt F) ℓ) (c : Dev Cert.ReferenceIdeal.nD) :
    Cert.ReferenceIdeal.Value.U7 m' c (Proc.devRef .tc Cert.ReferenceIdeal.main_v357) = Cert.ReferenceIdeal.Value.U2 m' c (Proc.devRef .tc Cert.ReferenceIdeal.main_v93) :=
  ref_cnt2_v357_abs (Cert.ReferenceIdeal.Value.U6 m' c) (Cert.ReferenceIdeal.Value.U1 m' c) ((Cert.ReferenceIdeal.Value.U6_of m' c Cert.ReferenceIdeal.main_v17 (by decide)).trans <| (Cert.ReferenceIdeal.Value.U5_of m' c Cert.ReferenceIdeal.main_v17 (by decide)).trans <| (Cert.ReferenceIdeal.Value.U4_of m' c Cert.ReferenceIdeal.main_v17 (by decide)).trans <| (Cert.ReferenceIdeal.Value.U3_of m' c Cert.ReferenceIdeal.main_v17 (by decide)).trans <| (Cert.ReferenceIdeal.Value.U2_of m' c Cert.ReferenceIdeal.main_v17 (by decide)))

/-! ## Into 50000 nodes along `v21` (a row of argument 16): the reference's `v389` is its `v125` -/

/-- Over any contents that agree on the index vector, the two scatters are one term. -/
theorem ref_cnt2_v389_abs (V2 V1 : Valuation Cert.ReferenceIdeal.τ Cert.ReferenceIdeal.sig (Elt F))
    (h : V2 (Proc.devRef .tc Cert.ReferenceIdeal.main_v21) = V1 (Proc.devRef .tc Cert.ReferenceIdeal.main_v21)) :
    StableHlo.after Cert.ReferenceIdeal.Value.ops7 V2 (Proc.devRef .tc Cert.ReferenceIdeal.main_v389) = StableHlo.after Cert.ReferenceIdeal.Value.ops2 V1 (Proc.devRef .tc Cert.ReferenceIdeal.main_v125) := by
  after_results_simp
  rw [h]

/-- No window between the two writes the index vector. -/
theorem ref_cnt2_v389 (m' : (ℓ : Loc Cert.ReferenceIdeal.nD Cert.ReferenceIdeal.τ Cert.ReferenceIdeal.sig) → Buf (Elt F) ℓ) (c : Dev Cert.ReferenceIdeal.nD) :
    Cert.ReferenceIdeal.Value.U8 m' c (Proc.devRef .tc Cert.ReferenceIdeal.main_v389) = Cert.ReferenceIdeal.Value.U3 m' c (Proc.devRef .tc Cert.ReferenceIdeal.main_v125) :=
  ref_cnt2_v389_abs (Cert.ReferenceIdeal.Value.U7 m' c) (Cert.ReferenceIdeal.Value.U2 m' c) ((Cert.ReferenceIdeal.Value.U7_of m' c Cert.ReferenceIdeal.main_v21 (by decide)).trans <| (Cert.ReferenceIdeal.Value.U6_of m' c Cert.ReferenceIdeal.main_v21 (by decide)).trans <| (Cert.ReferenceIdeal.Value.U5_of m' c Cert.ReferenceIdeal.main_v21 (by decide)).trans <| (Cert.ReferenceIdeal.Value.U4_of m' c Cert.ReferenceIdeal.main_v21 (by decide)).trans <| (Cert.ReferenceIdeal.Value.U3_of m' c Cert.ReferenceIdeal.main_v21 (by decide)))

/-! ## Into 50 nodes along `v25` (a row of argument 16): the reference's `v422` is its `v158` -/

/-- Over any contents that agree on the index vector, the two scatters are one term (the first one's columns of zeros and of ones are made in the window before it, so its side runs through both). -/
theorem ref_cnt2_v422_abs (V2 V1 : Valuation Cert.ReferenceIdeal.τ Cert.ReferenceIdeal.sig (Elt F))
    (h : V2 (Proc.devRef .tc Cert.ReferenceIdeal.main_v25) = V1 (Proc.devRef .tc Cert.ReferenceIdeal.main_v25)) :
    StableHlo.after Cert.ReferenceIdeal.Value.ops8 V2 (Proc.devRef .tc Cert.ReferenceIdeal.main_v422) = StableHlo.after Cert.ReferenceIdeal.Value.ops3 (StableHlo.after Cert.ReferenceIdeal.Value.ops2 V1) (Proc.devRef .tc Cert.ReferenceIdeal.main_v158) := by
  after_results_simp
  rw [h]

/-- No window between the two writes the index vector. -/
theorem ref_cnt2_v422 (m' : (ℓ : Loc Cert.ReferenceIdeal.nD Cert.ReferenceIdeal.τ Cert.ReferenceIdeal.sig) → Buf (Elt F) ℓ) (c : Dev Cert.ReferenceIdeal.nD) :
    Cert.ReferenceIdeal.Value.U9 m' c (Proc.devRef .tc Cert.ReferenceIdeal.main_v422) = Cert.ReferenceIdeal.Value.U4 m' c (Proc.devRef .tc Cert.ReferenceIdeal.main_v158) :=
  ref_cnt2_v422_abs (Cert.ReferenceIdeal.Value.U8 m' c) (Cert.ReferenceIdeal.Value.U2 m' c) ((Cert.ReferenceIdeal.Value.U8_of m' c Cert.ReferenceIdeal.main_v25 (by decide)).trans <| (Cert.ReferenceIdeal.Value.U7_of m' c Cert.ReferenceIdeal.main_v25 (by decide)).trans <| (Cert.ReferenceIdeal.Value.U6_of m' c Cert.ReferenceIdeal.main_v25 (by decide)).trans <| (Cert.ReferenceIdeal.Value.U5_of m' c Cert.ReferenceIdeal.main_v25 (by decide)).trans <| (Cert.ReferenceIdeal.Value.U4_of m' c Cert.ReferenceIdeal.main_v25 (by decide)).trans <| (Cert.ReferenceIdeal.Value.U3_of m' c Cert.ReferenceIdeal.main_v25 (by decide)))

/-! ## Into 50000 nodes along `v29` (a row of argument 17): the reference's `v454` is its `v190` -/

/-- Over any contents that agree on the index vector, the two scatters are one term. -/
theorem ref_cnt2_v454_abs (V2 V1 : Valuation Cert.ReferenceIdeal.τ Cert.ReferenceIdeal.sig (Elt F))
    (h : V2 (Proc.devRef .tc Cert.ReferenceIdeal.main_v29) = V1 (Proc.devRef .tc Cert.ReferenceIdeal.main_v29)) :
    StableHlo.after Cert.ReferenceIdeal.Value.ops8 V2 (Proc.devRef .tc Cert.ReferenceIdeal.main_v454) = StableHlo.after Cert.ReferenceIdeal.Value.ops3 V1 (Proc.devRef .tc Cert.ReferenceIdeal.main_v190) := by
  after_results_simp
  rw [h]

/-- No window between the two writes the index vector. -/
theorem ref_cnt2_v454 (m' : (ℓ : Loc Cert.ReferenceIdeal.nD Cert.ReferenceIdeal.τ Cert.ReferenceIdeal.sig) → Buf (Elt F) ℓ) (c : Dev Cert.ReferenceIdeal.nD) :
    Cert.ReferenceIdeal.Value.U9 m' c (Proc.devRef .tc Cert.ReferenceIdeal.main_v454) = Cert.ReferenceIdeal.Value.U4 m' c (Proc.devRef .tc Cert.ReferenceIdeal.main_v190) :=
  ref_cnt2_v454_abs (Cert.ReferenceIdeal.Value.U8 m' c) (Cert.ReferenceIdeal.Value.U3 m' c) ((Cert.ReferenceIdeal.Value.U8_of m' c Cert.ReferenceIdeal.main_v29 (by decide)).trans <| (Cert.ReferenceIdeal.Value.U7_of m' c Cert.ReferenceIdeal.main_v29 (by decide)).trans <| (Cert.ReferenceIdeal.Value.U6_of m' c Cert.ReferenceIdeal.main_v29 (by decide)).trans <| (Cert.ReferenceIdeal.Value.U5_of m' c Cert.ReferenceIdeal.main_v29 (by decide)).trans <| (Cert.ReferenceIdeal.Value.U4_of m' c Cert.ReferenceIdeal.main_v29 (by decide)))

/-! ## Into 20000 nodes along `v33` (a row of argument 17): the reference's `v487` is its `v223` -/

/-- Over any contents that agree on the index vector, the two scatters are one term. -/
theorem ref_cnt2_v487_abs (V2 V1 : Valuation Cert.ReferenceIdeal.τ Cert.ReferenceIdeal.sig (Elt F))
    (h : V2 (Proc.devRef .tc Cert.ReferenceIdeal.main_v33) = V1 (Proc.devRef .tc Cert.ReferenceIdeal.main_v33)) :
    StableHlo.after Cert.ReferenceIdeal.Value.ops9 V2 (Proc.devRef .tc Cert.ReferenceIdeal.main_v487) = StableHlo.after Cert.ReferenceIdeal.Value.ops4 V1 (Proc.devRef .tc Cert.ReferenceIdeal.main_v223) := by
  after_results_simp
  rw [h]

/-- No window between the two writes the index vector. -/
theorem ref_cnt2_v487 (m' : (ℓ : Loc Cert.ReferenceIdeal.nD Cert.ReferenceIdeal.τ Cert.ReferenceIdeal.sig) → Buf (Elt F) ℓ) (c : Dev Cert.ReferenceIdeal.nD) :
    Cert.ReferenceIdeal.Value.U10 m' c (Proc.devRef .tc Cert.ReferenceIdeal.main_v487) = Cert.ReferenceIdeal.Value.U5 m' c (Proc.devRef .tc Cert.ReferenceIdeal.main_v223) :=
  ref_cnt2_v487_abs (Cert.ReferenceIdeal.Value.U9 m' c) (Cert.ReferenceIdeal.Value.U4 m' c) ((Cert.ReferenceIdeal.Value.U9_of m' c Cert.ReferenceIdeal.main_v33 (by decide)).trans <| (Cert.ReferenceIdeal.Value.U8_of m' c Cert.ReferenceIdeal.main_v33 (by decide)).trans <| (Cert.ReferenceIdeal.Value.U7_of m' c Cert.ReferenceIdeal.main_v33 (by decide)).trans <| (Cert.ReferenceIdeal.Value.U6_of m' c Cert.ReferenceIdeal.main_v33 (by decide)).trans <| (Cert.ReferenceIdeal.Value.U5_of m' c Cert.ReferenceIdeal.main_v33 (by decide)))

/-! ## Into 50000 nodes along `v37` (a row of argument 18): the reference's `v519` is its `v255` -/

/-- Over any contents that agree on the index vector, the two scatters are one term. -/
theorem ref_cnt2_v519_abs (V2 V1 : Valuation Cert.ReferenceIdeal.τ Cert.ReferenceIdeal.sig (Elt F))
    (h : V2 (Proc.devRef .tc Cert.ReferenceIdeal.main_v37) = V1 (Proc.devRef .tc Cert.ReferenceIdeal.main_v37)) :
    StableHlo.after Cert.ReferenceIdeal.Value.ops10 V2 (Proc.devRef .tc Cert.ReferenceIdeal.main_v519) = StableHlo.after Cert.ReferenceIdeal.Value.ops4 V1 (Proc.devRef .tc Cert.ReferenceIdeal.main_v255) := by
  after_results_simp
  rw [h]

/-- No window between the two writes the index vector. -/
theorem ref_cnt2_v519 (m' : (ℓ : Loc Cert.ReferenceIdeal.nD Cert.ReferenceIdeal.τ Cert.ReferenceIdeal.sig) → Buf (Elt F) ℓ) (c : Dev Cert.ReferenceIdeal.nD) :
    Cert.ReferenceIdeal.Value.U11 m' c (Proc.devRef .tc Cert.ReferenceIdeal.main_v519) = Cert.ReferenceIdeal.Value.U5 m' c (Proc.devRef .tc Cert.ReferenceIdeal.main_v255) :=
  ref_cnt2_v519_abs (Cert.ReferenceIdeal.Value.U10 m' c) (Cert.ReferenceIdeal.Value.U4 m' c) ((Cert.ReferenceIdeal.Value.U10_of m' c Cert.ReferenceIdeal.main_v37 (by decide)).trans <| (Cert.ReferenceIdeal.Value.U9_of m' c Cert.ReferenceIdeal.main_v37 (by decide)).trans <| (Cert.ReferenceIdeal.Value.U8_of m' c Cert.ReferenceIdeal.main_v37 (by decide)).trans <| (Cert.ReferenceIdeal.Value.U7_of m' c Cert.ReferenceIdeal.main_v37 (by decide)).trans <| (Cert.ReferenceIdeal.Value.U6_of m' c Cert.ReferenceIdeal.main_v37 (by decide)).trans <| (Cert.ReferenceIdeal.Value.U5_of m' c Cert.ReferenceIdeal.main_v37 (by decide)))

/-! ## Into 10 nodes along `v41` (a row of argument 18): the reference's `v552` is its `v288` -/

/-- Over any contents that agree on the index vector, the two scatters are one term. -/
theorem ref_cnt2_v552_abs (V2 V1 : Valuation Cert.ReferenceIdeal.τ Cert.ReferenceIdeal.sig (Elt F))
    (h : V2 (Proc.devRef .tc Cert.ReferenceIdeal.main_v41) = V1 (Proc.devRef .tc Cert.ReferenceIdeal.main_v41)) :
    StableHlo.after Cert.ReferenceIdeal.Value.ops10 V2 (Proc.devRef .tc Cert.ReferenceIdeal.main_v552) = StableHlo.after Cert.ReferenceIdeal.Value.ops5 V1 (Proc.devRef .tc Cert.ReferenceIdeal.main_v288) := by
  after_results_simp
  rw [h]

/-- No window between the two writes the index vector. -/
theorem ref_cnt2_v552 (m' : (ℓ : Loc Cert.ReferenceIdeal.nD Cert.ReferenceIdeal.τ Cert.ReferenceIdeal.sig) → Buf (Elt F) ℓ) (c : Dev Cert.ReferenceIdeal.nD) :
    Cert.ReferenceIdeal.Value.U11 m' c (Proc.devRef .tc Cert.ReferenceIdeal.main_v552) = Cert.ReferenceIdeal.Value.U6 m' c (Proc.devRef .tc Cert.ReferenceIdeal.main_v288) :=
  ref_cnt2_v552_abs (Cert.ReferenceIdeal.Value.U10 m' c) (Cert.ReferenceIdeal.Value.U5 m' c) ((Cert.ReferenceIdeal.Value.U10_of m' c Cert.ReferenceIdeal.main_v41 (by decide)).trans <| (Cert.ReferenceIdeal.Value.U9_of m' c Cert.ReferenceIdeal.main_v41 (by decide)).trans <| (Cert.ReferenceIdeal.Value.U8_of m' c Cert.ReferenceIdeal.main_v41 (by decide)).trans <| (Cert.ReferenceIdeal.Value.U7_of m' c Cert.ReferenceIdeal.main_v41 (by decide)).trans <| (Cert.ReferenceIdeal.Value.U6_of m' c Cert.ReferenceIdeal.main_v41 (by decide)))

end Ref

/-! # The kernel program's count against the reference's second computation -/

/-- The kernel program's count `v41` is the reference's layer-2 count `v325`. -/
theorem S_cnt2_v41 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v41) = Cert.ReferenceIdeal.Value.U7 m' c (Proc.devRef .tc Cert.ReferenceIdeal.main_v325) :=
  (S_cnt_v41 m ρ m' h15 c).trans (ref_cnt2_v325 m' c).symm

/-- The kernel program's count `v45` is the reference's layer-2 count `v357`. -/
theorem S_cnt2_v45 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h15 : ∀ c : Dev Cert.KernelIdeal.nD, m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (c : Dev Cert.KernelIdeal.nD) :
    Cert.KernelIdeal.Gen.W5 m ρ c (Proc.devRef .tc Cert.KernelIdeal.main_v45) = Cert.ReferenceIdeal.Value.U7 m' c (Proc.devRef .tc Cert.ReferenceIdeal.main_v357) :=
  (S_cnt_v45 m ρ m' h15 c).trans (ref_cnt2_v357 m' c).symm

/-- The kernel program's count `v49` is the reference's layer-2 count `v389`. -/
theorem S_cnt2_v49 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) :
    Cert.KernelIdeal.Gen.W5 m ρ c (Proc.devRef .tc Cert.KernelIdeal.main_v49) = Cert.ReferenceIdeal.Value.U8 m' c (Proc.devRef .tc Cert.ReferenceIdeal.main_v389) :=
  (S_cnt_v49 m ρ m' h16 c).trans (ref_cnt2_v389 m' c).symm

/-- The kernel program's count `v53` is the reference's layer-2 count `v422`. -/
theorem S_cnt2_v53 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h16 : ∀ c : Dev Cert.KernelIdeal.nD, m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) :
    Cert.KernelIdeal.Gen.W5 m ρ c (Proc.devRef .tc Cert.KernelIdeal.main_v53) = Cert.ReferenceIdeal.Value.U9 m' c (Proc.devRef .tc Cert.ReferenceIdeal.main_v422) :=
  (S_cnt_v53 m ρ m' h16 c).trans (ref_cnt2_v422 m' c).symm

/-- The kernel program's count `v57` is the reference's layer-2 count `v454`. -/
theorem S_cnt2_v57 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.KernelIdeal.nD) :
    Cert.KernelIdeal.Gen.W5 m ρ c (Proc.devRef .tc Cert.KernelIdeal.main_v57) = Cert.ReferenceIdeal.Value.U9 m' c (Proc.devRef .tc Cert.ReferenceIdeal.main_v454) :=
  (S_cnt_v57 m ρ m' h17 c).trans (ref_cnt2_v454 m' c).symm

/-- The kernel program's count `v61` is the reference's layer-2 count `v487`. -/
theorem S_cnt2_v61 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h17 : ∀ c : Dev Cert.KernelIdeal.nD, m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.KernelIdeal.nD) :
    Cert.KernelIdeal.Gen.W5 m ρ c (Proc.devRef .tc Cert.KernelIdeal.main_v61) = Cert.ReferenceIdeal.Value.U10 m' c (Proc.devRef .tc Cert.ReferenceIdeal.main_v487) :=
  (S_cnt_v61 m ρ m' h17 c).trans (ref_cnt2_v487 m' c).symm

/-- The kernel program's count `v65` is the reference's layer-2 count `v519`. -/
theorem S_cnt2_v65 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.KernelIdeal.Gen.W5 m ρ c (Proc.devRef .tc Cert.KernelIdeal.main_v65) = Cert.ReferenceIdeal.Value.U11 m' c (Proc.devRef .tc Cert.ReferenceIdeal.main_v519) :=
  (S_cnt_v65 m ρ m' h18 c).trans (ref_cnt2_v519 m' c).symm

/-- The kernel program's count `v69` is the reference's layer-2 count `v552`. -/
theorem S_cnt2_v69 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h18 : ∀ c : Dev Cert.KernelIdeal.nD, m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.KernelIdeal.Gen.W5 m ρ c (Proc.devRef .tc Cert.KernelIdeal.main_v69) = Cert.ReferenceIdeal.Value.U11 m' c (Proc.devRef .tc Cert.ReferenceIdeal.main_v552) :=
  (S_cnt_v69 m ρ m' h18 c).trans (ref_cnt2_v552 m' c).symm

end Cert.Sim

end
-- ==== Proof.KI.Fin4.lean ====
import proofs.«417513_j58866821759238_4_alg».proof.Proof.KI.R4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! # REGION 4, the value: what the result array holds after the region, index by index

With `agg`, `cnt`, `xdst`, `wl`, `bias`, `wr` the six input arrays as the region finds them, the result at row `r`,
column `j` is `max ((∑ₖ xdst r k · wr k j + bias 0 j) + ∑ₖ (agg r k / max (cnt r 0) 1) · wl k j) 0`, the division the ideal
instance's, the sums over the 64 lanes, in the body's own association order. -/

theorem hz4 : (![0, 0] : Fin 2 → Nat) = fun _ => 0 := funext fun a => by fin_cases a <;> rfl

/-- The result array as one function of the six input arrays. -/
def G4 (agg : S50x64.Idx → EReal) (cnt : S50x1.Idx → EReal) (xdst : S50x64.Idx → EReal) (wl : S64x64.Idx → EReal)
    (bias : S1x64.Idx → EReal) (wr : S64x64.Idx → EReal) : S50x64.Idx → EReal := fun i =>
  max (((∑ k : Fin 64, xdst (ix2 (i 0) k) * wr (ix2 k (i 1))) + bias (ix2 (0 : Fin 1) (i 1)))
      + ∑ k : Fin 64, Ideal.div (agg (ix2 (i 0) k)) (max (cnt (ix2 (i 0) (0 : Fin 1))) (Ideal.ofBits .f32 0x3F800000#32)) * wl (ix2 k (i 1))) 0

/-! ## The payload at an index -/

/-- A column `[a, 1]` broadcast to `[a, b]` reads, at `(p, c)`, the column at row `p`. -/
theorem bcastCol4_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index `i` and contraction index `q`: rows of the left operand follow the
    output's row, its columns the contraction; rows of the right operand the contraction, its columns the output's. -/
theorem lhs4_0 (i : S50x64.Idx) (q : dot_S50x64_S64x64_S50x64_1_0_0_1_n_n.contr.Idx) :
    (dot_S50x64_S64x64_S50x64_1_0_0_1_n_n.lhsIdx i q 0).val = (i 0).val := by
  unfold DotDims.lhsIdx
  rw [dif_neg (show ¬(0 : Fin S50x64.rank) ∈ dot_S50x64_S64x64_S50x64_1_0_0_1_n_n.lhsBatch by decide), dif_pos (show (0 : Fin S50x64.rank) ∈ dot_S50x64_S64x64_S50x64_1_0_0_1_n_n.lhsNonContracting by decide)]
  rfl
theorem lhs4_1 (i : S50x64.Idx) (q : dot_S50x64_S64x64_S50x64_1_0_0_1_n_n.contr.Idx) :
    (dot_S50x64_S64x64_S50x64_1_0_0_1_n_n.lhsIdx i q 1).val = (q ⟨0, by decide⟩).val :=
  dot_S50x64_S64x64_S50x64_1_0_0_1_n_n.lhsIdx_val_of_single rfl i q
theorem rhs4_0 (i : S50x64.Idx) (q : dot_S50x64_S64x64_S50x64_1_0_0_1_n_n.contr.Idx) :
    (dot_S50x64_S64x64_S50x64_1_0_0_1_n_n.rhsIdx i q 0).val = (q ⟨0, by decide⟩).val :=
  dot_S50x64_S64x64_S50x64_1_0_0_1_n_n.rhsIdx_val_of_single rfl i q
theorem rhs4_1 (i : S50x64.Idx) (q : dot_S50x64_S64x64_S50x64_1_0_0_1_n_n.contr.Idx) :
    (dot_S50x64_S64x64_S50x64_1_0_0_1_n_n.rhsIdx i q 1).val = (i 1).val := by
  unfold DotDims.rhsIdx
  rw [dif_neg (show ¬(1 : Fin S64x64.rank) ∈ dot_S50x64_S64x64_S50x64_1_0_0_1_n_n.rhsBatch by decide), dif_pos (show (1 : Fin S64x64.rank) ∈ dot_S50x64_S64x64_S50x64_1_0_0_1_n_n.rhsNonContracting by decide)]
  rfl

/-- The block product into the zero accumulator, at `(p, q)`: the sum over the 64 lanes of the operands' products. -/
theorem mm4_apply (A : FVec Ideal S50x64 .f32) (B : FVec Ideal S64x64 .f32) (p : Fin 50) (q : Fin 64) :
    matmul dot_S50x64_S64x64_S50x64_1_0_0_1_n_n none A B (constant (F := Ideal) S50x64 .f32 0x00000000#32) (ix2 p q)
      = ∑ k : Fin 64, A (ix2 p k) * B (ix2 k q) := by
  simp only [matmul]
  rw [Ideal.matmul_constant_zero_apply, ← Equiv.sum_comp (ValueIdx.contrEquiv1 dot_S50x64_S64x64_S50x64_1_0_0_1_n_n 64 rfl rfl).symm]
  refine Finset.sum_congr rfl fun k _ => ?_
  have hk := ValueIdx.contrEquiv1_symm_val dot_S50x64_S64x64_S50x64_1_0_0_1_n_n 64 rfl rfl k
  have el : dot_S50x64_S64x64_S50x64_1_0_0_1_n_n.lhsIdx (ix2 p q) ((ValueIdx.contrEquiv1 dot_S50x64_S64x64_S50x64_1_0_0_1_n_n 64 rfl rfl).symm k) = ix2 p k := funext fun a => Fin.ext (by
    match a with
    | ⟨0, _⟩ => exact lhs4_0 _ _
    | ⟨1, _⟩ => exact (lhs4_1 _ _).trans hk)
  have er : dot_S50x64_S64x64_S50x64_1_0_0_1_n_n.rhsIdx (ix2 p q) ((ValueIdx.contrEquiv1 dot_S50x64_S64x64_S50x64_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-- The body's payload at `(p, q)`, from the loaded blocks. -/
theorem pay4_apply (xdst : Vec Ideal S50x64 .f32) (wr : Vec Ideal S64x64 .f32) (bias : Vec Ideal S1x64 .f32)
    (agg : Vec Ideal S50x64 .f32) (cnt : Vec Ideal S50x1 .f32) (wl : Vec Ideal S64x64 .f32) (p : Fin 50) (q : Fin 64) :
    k4_pay1 (F := Ideal) xdst wr bias agg cnt wl (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := by
  unfold k4_pay1
  simp only [shapeCast_self]
  rw [maximumf_apply, addf_apply, addf_apply, mm4_apply, mm4_apply, broadcastTo_1b_ab_apply, broadcast_apply]
  simp only [divf_apply, bcastCol4_apply, maximumf_apply, broadcast_apply]
  show max _ (Ideal.ofBits .f32 0x00000000#32) = _
  rw [Ideal.ofBits_zero_f32]
  rfl

/-! ## The windows' block indices, decided over the grid

The three row windows and the result move with the grid point along the rows; the two weights and the bias have one
block. -/

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-! ## Each input block as a part of its array -/

/-- Input window 0's block at point `t`, read at `y`, is its array at the index `i` with row `t · 50 + y₀` and `y`'s column. -/
theorem iblk4_0_apply (c : Dev nD) (t : Fin cfg4.N) (y : S50x64.Idx) (i : S50x64.Idx)
    (h0 : (i 0).val = t.val * 50 + (y 0).val) (h1 : (i 1).val = (y 1).val) :
    (iblk4 V c 0 t : Vec Ideal S50x64 .f32) y = (V c (Pipeline.arrRef spec4 0) : S50x64.Idx → EReal) i := by
  obtain ⟨ea, eb, -, -, -, -, -, -, -, -, -, -, -, -⟩ := idx_facts4 t
  unfold iblk4
  rw [View.read_apply]
  refine congrArg (V c (Pipeline.arrRef spec4 0) : S50x64.Idx → EReal) (funext fun a => Fin.ext ?_)
  match a with
  | ⟨0, _⟩ => show win4_0.index t (0 : Fin 2) * 50 + 1 * (y 0).val = (i 0).val; omega
  | ⟨1, _⟩ => show win4_0.index t (1 : Fin 2) * 64 + 1 * (y 1).val = (i 1).val; omega

/-- Input window 1's block at point `t`, read at `y`, is its array at the index `i` with row `t · 50 + y₀` and `y`'s column. -/
theorem iblk4_1_apply (c : Dev nD) (t : Fin cfg4.N) (y : S50x1.Idx) (i : S50x1.Idx)
    (h0 : (i 0).val = t.val * 50 + (y 0).val) (h1 : (i 1).val = (y 1).val) :
    (iblk4 V c 1 t : Vec Ideal S50x1 .f32) y = (V c (Pipeline.arrRef spec4 1) : S50x1.Idx → EReal) i := by
  obtain ⟨-, -, ea, eb, -, -, -, -, -, -, -, -, -, -⟩ := idx_facts4 t
  unfold iblk4
  rw [View.read_apply]
  refine congrArg (V c (Pipeline.arrRef spec4 1) : S50x1.Idx → EReal) (funext fun a => Fin.ext ?_)
  match a with
  | ⟨0, _⟩ => show win4_1.index t (0 : Fin 2) * 50 + 1 * (y 0).val = (i 0).val; omega
  | ⟨1, _⟩ => show win4_1.index t (1 : Fin 2) * 1 + 1 * (y 1).val = (i 1).val; omega

/-- Input window 2's block at point `t`, read at `y`, is its array at the index `i` with row `t · 50 + y₀` and `y`'s column. -/
theorem iblk4_2_apply (c : Dev nD) (t : Fin cfg4.N) (y : S50x64.Idx) (i : S50x64.Idx)
    (h0 : (i 0).val = t.val * 50 + (y 0).val) (h1 : (i 1).val = (y 1).val) :
    (iblk4 V c 2 t : Vec Ideal S50x64 .f32) y = (V c (Pipeline.arrRef spec4 2) : S50x64.Idx → EReal) i := by
  obtain ⟨-, -, -, -, ea, eb, -, -, -, -, -, -, -, -⟩ := idx_facts4 t
  unfold iblk4
  rw [View.read_apply]
  refine congrArg (V c (Pipeline.arrRef spec4 2) : S50x64.Idx → EReal) (funext fun a => Fin.ext ?_)
  match a with
  | ⟨0, _⟩ => show win4_2.index t (0 : Fin 2) * 50 + 1 * (y 0).val = (i 0).val; omega
  | ⟨1, _⟩ => show win4_2.index t (1 : Fin 2) * 64 + 1 * (y 1).val = (i 1).val; omega

/-- Input window 3's block at point `t`, read at `y`, is its array at the index `i` with \`y\`'s row and `y`'s column. -/
theorem iblk4_3_apply (c : Dev nD) (t : Fin cfg4.N) (y : S64x64.Idx) (i : S64x64.Idx)
    (h0 : (i 0).val = (y 0).val) (h1 : (i 1).val = (y 1).val) :
    (iblk4 V c 3 t : Vec Ideal S64x64 .f32) y = (V c (Pipeline.arrRef spec4 3) : S64x64.Idx → EReal) i := by
  obtain ⟨-, -, -, -, -, -, ea, eb, -, -, -, -, -, -⟩ := idx_facts4 t
  unfold iblk4
  rw [View.read_apply]
  refine congrArg (V c (Pipeline.arrRef spec4 3) : S64x64.Idx → EReal) (funext fun a => Fin.ext ?_)
  match a with
  | ⟨0, _⟩ => show win4_3.index t (0 : Fin 2) * 64 + 1 * (y 0).val = (i 0).val; omega
  | ⟨1, _⟩ => show win4_3.index t (1 : Fin 2) * 64 + 1 * (y 1).val = (i 1).val; omega

/-- Input window 4's block at point `t`, read at `y`, is its array at the index `i` with \`y\`'s row and `y`'s column. -/
theorem iblk4_4_apply (c : Dev nD) (t : Fin cfg4.N) (y : S1x64.Idx) (i : S1x64.Idx)
    (h0 : (i 0).val = (y 0).val) (h1 : (i 1).val = (y 1).val) :
    (iblk4 V c 4 t : Vec Ideal S1x64 .f32) y = (V c (Pipeline.arrRef spec4 4) : S1x64.Idx → EReal) i := by
  obtain ⟨-, -, -, -, -, -, -, -, ea, eb, -, -, -, -⟩ := idx_facts4 t
  unfold iblk4
  rw [View.read_apply]
  refine congrArg (V c (Pipeline.arrRef spec4 4) : S1x64.Idx → EReal) (funext fun a => Fin.ext ?_)
  match a with
  | ⟨0, _⟩ => show win4_4.index t (0 : Fin 2) * 1 + 1 * (y 0).val = (i 0).val; omega
  | ⟨1, _⟩ => show win4_4.index t (1 : Fin 2) * 64 + 1 * (y 1).val = (i 1).val; omega

/-- Input window 5's block at point `t`, read at `y`, is its array at the index `i` with \`y\`'s row and `y`'s column. -/
theorem iblk4_5_apply (c : Dev nD) (t : Fin cfg4.N) (y : S64x64.Idx) (i : S64x64.Idx)
    (h0 : (i 0).val = (y 0).val) (h1 : (i 1).val = (y 1).val) :
    (iblk4 V c 5 t : Vec Ideal S64x64 .f32) y = (V c (Pipeline.arrRef spec4 5) : S64x64.Idx → EReal) i := by
  obtain ⟨-, -, -, -, -, -, -, -, -, -, ea, eb, -, -⟩ := idx_facts4 t
  unfold iblk4
  rw [View.read_apply]
  refine congrArg (V c (Pipeline.arrRef spec4 5) : S64x64.Idx → EReal) (funext fun a => Fin.ext ?_)
  match a with
  | ⟨0, _⟩ => show win4_5.index t (0 : Fin 2) * 64 + 1 * (y 0).val = (i 0).val; omega
  | ⟨1, _⟩ => show win4_5.index t (1 : Fin 2) * 64 + 1 * (y 1).val = (i 1).val; omega

/-! ## What a point writes back, and the array after the region -/

set_option maxHeartbeats 1000000 in
/-- What point `t` writes back is block `t` of `G4` of the input arrays as the region finds them. -/
theorem flushed4_eq (c : Dev nD) (t : Fin cfg4.N) :
    (dat4 V c).flushed 6 t = ((cfg4.win 6).blk t).view.read (Elt Ideal)
      (G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz4]
  simp only [View.ld_unit_zero (S := S50x64) hz4, View.ld_unit_zero (S := S64x64) hz4, View.ld_unit_zero (S := S1x64) hz4, View.ld_unit_zero (S := S50x1) hz4]
  obtain ⟨-, -, -, -, -, -, -, -, -, -, -, -, e60, e61⟩ := idx_facts4 t
  funext j
  obtain ⟨p, q, rfl⟩ : ∃ (p : Fin 50) (q : Fin 64), j = ix2 p q := ⟨j 0, j 1, eq_ix2 j⟩
  refine (pay4_apply _ _ _ _ _ _ p q).trans ?_
  rw [View.read_apply]
  have hE0 : ((((cfg4.win 6).blk t).view.emb (ix2 p q)) 0).val = t.val * 50 + p.val := by
    show win4_6.index t (0 : Fin 2) * 50 + 1 * p.val = _; omega
  have hE1 : ((((cfg4.win 6).blk t).view.emb (ix2 p q)) 1).val = q.val := by
    show win4_6.index t (1 : Fin 2) * 64 + 1 * q.val = _; omega
  unfold G4
  exact congrArg₂ max (congrArg₂ (· + ·) (congrArg₂ (· + ·)
      (Finset.sum_congr rfl fun k _ => congrArg₂ (· * ·) (iblk4_2_apply V c t (ix2 p k) _ hE0 rfl) (iblk4_5_apply V c t (ix2 k q) _ rfl hE1))
      (iblk4_4_apply V c t (ix2 (0 : Fin 1) q) _ rfl hE1))
    (Finset.sum_congr rfl fun k _ => congrArg₂ (· * ·)
      (congrArg₂ Ideal.div (iblk4_0_apply V c t (ix2 p k) _ hE0 rfl)
        (congrArg (fun x => max x (Ideal.ofBits .f32 0x3F800000#32)) (iblk4_1_apply V c t (ix2 p (0 : Fin 1)) _ hE0 rfl)))
      (iblk4_3_apply V c t (ix2 k q) _ rfl hE1))) rfl

/-- An index of the result array is in point `t`'s block iff each coordinate is in the block's range on its axis. -/
theorem mem_blk4 (t : Fin cfg4.N) (i : S50x64.Idx) :
    i ∈ ((cfg4.win 6).blk t).view.set ↔ ∀ a : Fin 2, win4_6.index t a * S50x64.size a ≤ (i a).val ∧ (i a).val < win4_6.index t a * S50x64.size a + S50x64.size a := by
  show i ∈ ((View.whole main_v217).slice (win4_6.rect t)).set ↔ _
  rw [View.set_slice_whole, Rect.mem_set_unit]
  exact Iff.rfl

/-- Every index of the result array is in some point's block: row `r` in that of point `r / 50`. -/
theorem cover4 (i : S50x64.Idx) : ∃ t : Fin cfg4.N, (cfg4.win 6).flush t = true ∧ i ∈ ((cfg4.win 6).blk t).view.set := by
  have hi0 : (i 0).val < 50 := (i 0).isLt
  have hi1 : (i 1).val < 64 := (i 1).isLt
  obtain ⟨t, ht⟩ : ∃ t : Fin cfg4.N, t.val = (i 0).val / 50 :=
    ⟨⟨(i 0).val / 50, by show (i 0).val / 50 < grid4.N; rw [N_4]; omega⟩, rfl⟩
  obtain ⟨-, -, -, -, -, -, -, -, -, -, -, -, e60, e61⟩ := idx_facts4 t
  refine ⟨t, flush4_6 t, ?_⟩
  rw [mem_blk4]
  intro a
  match a with
  | ⟨0, _⟩ => show win4_6.index t (0 : Fin 2) * 50 ≤ (i 0).val ∧ (i 0).val < win4_6.index t (0 : Fin 2) * 50 + 50; omega
  | ⟨1, _⟩ => show win4_6.index t (1 : Fin 2) * 64 ≤ (i 1).val ∧ (i 1).val < win4_6.index t (1 : Fin 2) * 64 + 64; omega

/-- THE RESULT ARRAY after the region: `G4` of the six input arrays as the region finds them. -/
theorem final4 (c : Dev nD) : (dat4 (F := Ideal) V c).arrAt 6 cfg4.N = G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (fun t _ => flushed4_eq V c t) cover4

end Cert.KernelIdeal.Gen

end
-- ==== Proof.KI.Fin5.lean ====
import proofs.«417513_j58866821759238_4_alg».proof.Proof.KI.R5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! # REGION 5, the value: what the result array holds after the region, index by index

With `agg`, `cnt`, `xdst`, `wl`, `bias`, `wr` the six input arrays as the region finds them, the result at row `r`,
column `j` is `max ((∑ₖ xdst r k · wr k j + bias 0 j) + ∑ₖ (agg r k / max (cnt r 0) 1) · wl k j) 0`, the division the ideal
instance's, the sums over the 64 lanes, in the body's own association order. The 4 row tiles of 6144 rows fill the
24576 rows. -/

theorem hz5 : (![0, 0] : Fin 2 → Nat) = fun _ => 0 := funext fun a => by fin_cases a <;> rfl

/-- The result array as one function of the six input arrays. -/
def G5 (agg : S24576x64.Idx → EReal) (cnt : S24576x1.Idx → EReal) (xdst : S24576x64.Idx → EReal) (wl : S64x64.Idx → EReal)
    (bias : S1x64.Idx → EReal) (wr : S64x64.Idx → EReal) : S24576x64.Idx → EReal := fun i =>
  max (((∑ k : Fin 64, xdst (ix2 (i 0) k) * wr (ix2 k (i 1))) + bias (ix2 (0 : Fin 1) (i 1)))
      + ∑ k : Fin 64, Ideal.div (agg (ix2 (i 0) k)) (max (cnt (ix2 (i 0) (0 : Fin 1))) (Ideal.ofBits .f32 0x3F800000#32)) * wl (ix2 k (i 1))) 0

/-! ## The payload at an index -/

/-- A column `[a, 1]` broadcast to `[a, b]` reads, at `(p, c)`, the column at row `p`. -/
theorem bcastCol5_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index `i` and contraction index `q`: rows of the left operand follow the
    output's row, its columns the contraction; rows of the right operand the contraction, its columns the output's. -/
theorem lhs5_0 (i : S6144x64.Idx) (q : dot_S6144x64_S64x64_S6144x64_1_0_0_1_n_n.contr.Idx) :
    (dot_S6144x64_S64x64_S6144x64_1_0_0_1_n_n.lhsIdx i q 0).val = (i 0).val := by
  unfold DotDims.lhsIdx
  rw [dif_neg (show ¬(0 : Fin S6144x64.rank) ∈ dot_S6144x64_S64x64_S6144x64_1_0_0_1_n_n.lhsBatch by decide), dif_pos (show (0 : Fin S6144x64.rank) ∈ dot_S6144x64_S64x64_S6144x64_1_0_0_1_n_n.lhsNonContracting by decide)]
  rfl
theorem lhs5_1 (i : S6144x64.Idx) (q : dot_S6144x64_S64x64_S6144x64_1_0_0_1_n_n.contr.Idx) :
    (dot_S6144x64_S64x64_S6144x64_1_0_0_1_n_n.lhsIdx i q 1).val = (q ⟨0, by decide⟩).val :=
  dot_S6144x64_S64x64_S6144x64_1_0_0_1_n_n.lhsIdx_val_of_single rfl i q
theorem rhs5_0 (i : S6144x64.Idx) (q : dot_S6144x64_S64x64_S6144x64_1_0_0_1_n_n.contr.Idx) :
    (dot_S6144x64_S64x64_S6144x64_1_0_0_1_n_n.rhsIdx i q 0).val = (q ⟨0, by decide⟩).val :=
  dot_S6144x64_S64x64_S6144x64_1_0_0_1_n_n.rhsIdx_val_of_single rfl i q
theorem rhs5_1 (i : S6144x64.Idx) (q : dot_S6144x64_S64x64_S6144x64_1_0_0_1_n_n.contr.Idx) :
    (dot_S6144x64_S64x64_S6144x64_1_0_0_1_n_n.rhsIdx i q 1).val = (i 1).val := by
  unfold DotDims.rhsIdx
  rw [dif_neg (show ¬(1 : Fin S64x64.rank) ∈ dot_S6144x64_S64x64_S6144x64_1_0_0_1_n_n.rhsBatch by decide), dif_pos (show (1 : Fin S64x64.rank) ∈ dot_S6144x64_S64x64_S6144x64_1_0_0_1_n_n.rhsNonContracting by decide)]
  rfl

/-- The block product into the zero accumulator, at `(p, q)`: the sum over the 64 lanes of the operands' products. -/
theorem mm5_apply (A : FVec Ideal S6144x64 .f32) (B : FVec Ideal S64x64 .f32) (p : Fin 6144) (q : Fin 64) :
    matmul dot_S6144x64_S64x64_S6144x64_1_0_0_1_n_n none A B (constant (F := Ideal) S6144x64 .f32 0x00000000#32) (ix2 p q)
      = ∑ k : Fin 64, A (ix2 p k) * B (ix2 k q) := by
  simp only [matmul]
  rw [Ideal.matmul_constant_zero_apply, ← Equiv.sum_comp (ValueIdx.contrEquiv1 dot_S6144x64_S64x64_S6144x64_1_0_0_1_n_n 64 rfl rfl).symm]
  refine Finset.sum_congr rfl fun k _ => ?_
  have hk := ValueIdx.contrEquiv1_symm_val dot_S6144x64_S64x64_S6144x64_1_0_0_1_n_n 64 rfl rfl k
  have el : dot_S6144x64_S64x64_S6144x64_1_0_0_1_n_n.lhsIdx (ix2 p q) ((ValueIdx.contrEquiv1 dot_S6144x64_S64x64_S6144x64_1_0_0_1_n_n 64 rfl rfl).symm k) = ix2 p k := funext fun a => Fin.ext (by
    match a with
    | ⟨0, _⟩ => exact lhs5_0 _ _
    | ⟨1, _⟩ => exact (lhs5_1 _ _).trans hk)
  have er : dot_S6144x64_S64x64_S6144x64_1_0_0_1_n_n.rhsIdx (ix2 p q) ((ValueIdx.contrEquiv1 dot_S6144x64_S64x64_S6144x64_1_0_0_1_n_n 64 rfl rfl).symm k) = ix2 k q := funext fun a => Fin.ext (by
    match a with
    | ⟨0, _⟩ => exact (rhs5_0 _ _).trans hk
    | ⟨1, _⟩ => exact rhs5_1 _ _)
  rw [el, er]

/-- The body's payload at `(p, q)`, from the loaded blocks. -/
theorem pay5_apply (xdst : Vec Ideal S6144x64 .f32) (wr : Vec Ideal S64x64 .f32) (bias : Vec Ideal S1x64 .f32)
    (agg : Vec Ideal S6144x64 .f32) (cnt : Vec Ideal S6144x1 .f32) (wl : Vec Ideal S64x64 .f32) (p : Fin 6144) (q : Fin 64) :
    k5_pay1 (F := Ideal) xdst wr bias agg cnt wl (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := by
  unfold k5_pay1
  simp only [shapeCast_self]
  rw [maximumf_apply, addf_apply, addf_apply, mm5_apply, mm5_apply, broadcastTo_1b_ab_apply, broadcast_apply]
  simp only [divf_apply, bcastCol5_apply, maximumf_apply, broadcast_apply]
  show max _ (Ideal.ofBits .f32 0x00000000#32) = _
  rw [Ideal.ofBits_zero_f32]
  rfl

/-! ## The windows' block indices, decided over the grid

The three row windows and the result move with the grid point along the rows; the two weights and the bias have one
block. -/

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-! ## Each input block as a part of its array -/

/-- Input window 0's block at point `t`, read at `y`, is its array at the index `i` with row `t · 6144 + y₀` and `y`'s column. -/
theorem iblk5_0_apply (c : Dev nD) (t : Fin cfg5.N) (y : S6144x64.Idx) (i : S24576x64.Idx)
    (h0 : (i 0).val = t.val * 6144 + (y 0).val) (h1 : (i 1).val = (y 1).val) :
    (iblk5 V c 0 t : Vec Ideal S6144x64 .f32) y = (V c (Pipeline.arrRef spec5 0) : S24576x64.Idx → EReal) i := by
  obtain ⟨ea, eb, -, -, -, -, -, -, -, -, -, -, -, -⟩ := idx_facts5 t
  unfold iblk5
  rw [View.read_apply]
  refine congrArg (V c (Pipeline.arrRef spec5 0) : S24576x64.Idx → EReal) (funext fun a => Fin.ext ?_)
  match a with
  | ⟨0, _⟩ => show win5_0.index t (0 : Fin 2) * 6144 + 1 * (y 0).val = (i 0).val; omega
  | ⟨1, _⟩ => show win5_0.index t (1 : Fin 2) * 64 + 1 * (y 1).val = (i 1).val; omega

/-- Input window 1's block at point `t`, read at `y`, is its array at the index `i` with row `t · 6144 + y₀` and `y`'s column. -/
theorem iblk5_1_apply (c : Dev nD) (t : Fin cfg5.N) (y : S6144x1.Idx) (i : S24576x1.Idx)
    (h0 : (i 0).val = t.val * 6144 + (y 0).val) (h1 : (i 1).val = (y 1).val) :
    (iblk5 V c 1 t : Vec Ideal S6144x1 .f32) y = (V c (Pipeline.arrRef spec5 1) : S24576x1.Idx → EReal) i := by
  obtain ⟨-, -, ea, eb, -, -, -, -, -, -, -, -, -, -⟩ := idx_facts5 t
  unfold iblk5
  rw [View.read_apply]
  refine congrArg (V c (Pipeline.arrRef spec5 1) : S24576x1.Idx → EReal) (funext fun a => Fin.ext ?_)
  match a with
  | ⟨0, _⟩ => show win5_1.index t (0 : Fin 2) * 6144 + 1 * (y 0).val = (i 0).val; omega
  | ⟨1, _⟩ => show win5_1.index t (1 : Fin 2) * 1 + 1 * (y 1).val = (i 1).val; omega

/-- Input window 2's block at point `t`, read at `y`, is its array at the index `i` with row `t · 6144 + y₀` and `y`'s column. -/
theorem iblk5_2_apply (c : Dev nD) (t : Fin cfg5.N) (y : S6144x64.Idx) (i : S24576x64.Idx)
    (h0 : (i 0).val = t.val * 6144 + (y 0).val) (h1 : (i 1).val = (y 1).val) :
    (iblk5 V c 2 t : Vec Ideal S6144x64 .f32) y = (V c (Pipeline.arrRef spec5 2) : S24576x64.Idx → EReal) i := by
  obtain ⟨-, -, -, -, ea, eb, -, -, -, -, -, -, -, -⟩ := idx_facts5 t
  unfold iblk5
  rw [View.read_apply]
  refine congrArg (V c (Pipeline.arrRef spec5 2) : S24576x64.Idx → EReal) (funext fun a => Fin.ext ?_)
  match a with
  | ⟨0, _⟩ => show win5_2.index t (0 : Fin 2) * 6144 + 1 * (y 0).val = (i 0).val; omega
  | ⟨1, _⟩ => show win5_2.index t (1 : Fin 2) * 64 + 1 * (y 1).val = (i 1).val; omega

/-- Input window 3's block at point `t`, read at `y`, is its array at the index `i` with \`y\`'s row and `y`'s column. -/
theorem iblk5_3_apply (c : Dev nD) (t : Fin cfg5.N) (y : S64x64.Idx) (i : S64x64.Idx)
    (h0 : (i 0).val = (y 0).val) (h1 : (i 1).val = (y 1).val) :
    (iblk5 V c 3 t : Vec Ideal S64x64 .f32) y = (V c (Pipeline.arrRef spec5 3) : S64x64.Idx → EReal) i := by
  obtain ⟨-, -, -, -, -, -, ea, eb, -, -, -, -, -, -⟩ := idx_facts5 t
  unfold iblk5
  rw [View.read_apply]
  refine congrArg (V c (Pipeline.arrRef spec5 3) : S64x64.Idx → EReal) (funext fun a => Fin.ext ?_)
  match a with
  | ⟨0, _⟩ => show win5_3.index t (0 : Fin 2) * 64 + 1 * (y 0).val = (i 0).val; omega
  | ⟨1, _⟩ => show win5_3.index t (1 : Fin 2) * 64 + 1 * (y 1).val = (i 1).val; omega

/-- Input window 4's block at point `t`, read at `y`, is its array at the index `i` with \`y\`'s row and `y`'s column. -/
theorem iblk5_4_apply (c : Dev nD) (t : Fin cfg5.N) (y : S1x64.Idx) (i : S1x64.Idx)
    (h0 : (i 0).val = (y 0).val) (h1 : (i 1).val = (y 1).val) :
    (iblk5 V c 4 t : Vec Ideal S1x64 .f32) y = (V c (Pipeline.arrRef spec5 4) : S1x64.Idx → EReal) i := by
  obtain ⟨-, -, -, -, -, -, -, -, ea, eb, -, -, -, -⟩ := idx_facts5 t
  unfold iblk5
  rw [View.read_apply]
  refine congrArg (V c (Pipeline.arrRef spec5 4) : S1x64.Idx → EReal) (funext fun a => Fin.ext ?_)
  match a with
  | ⟨0, _⟩ => show win5_4.index t (0 : Fin 2) * 1 + 1 * (y 0).val = (i 0).val; omega
  | ⟨1, _⟩ => show win5_4.index t (1 : Fin 2) * 64 + 1 * (y 1).val = (i 1).val; omega

/-- Input window 5's block at point `t`, read at `y`, is its array at the index `i` with \`y\`'s row and `y`'s column. -/
theorem iblk5_5_apply (c : Dev nD) (t : Fin cfg5.N) (y : S64x64.Idx) (i : S64x64.Idx)
    (h0 : (i 0).val = (y 0).val) (h1 : (i 1).val = (y 1).val) :
    (iblk5 V c 5 t : Vec Ideal S64x64 .f32) y = (V c (Pipeline.arrRef spec5 5) : S64x64.Idx → EReal) i := by
  obtain ⟨-, -, -, -, -, -, -, -, -, -, ea, eb, -, -⟩ := idx_facts5 t
  unfold iblk5
  rw [View.read_apply]
  refine congrArg (V c (Pipeline.arrRef spec5 5) : S64x64.Idx → EReal) (funext fun a => Fin.ext ?_)
  match a with
  | ⟨0, _⟩ => show win5_5.index t (0 : Fin 2) * 64 + 1 * (y 0).val = (i 0).val; omega
  | ⟨1, _⟩ => show win5_5.index t (1 : Fin 2) * 64 + 1 * (y 1).val = (i 1).val; omega

/-! ## What a point writes back, and the array after the region -/

set_option maxHeartbeats 1000000 in
/-- What point `t` writes back is block `t` of `G5` of the input arrays as the region finds them. -/
theorem flushed5_eq (c : Dev nD) (t : Fin cfg5.N) :
    (dat5 V c).flushed 6 t = ((cfg5.win 6).blk t).view.read (Elt Ideal)
      (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz5]
  simp only [View.ld_unit_zero (S := S6144x64) hz5, View.ld_unit_zero (S := S64x64) hz5, View.ld_unit_zero (S := S1x64) hz5, View.ld_unit_zero (S := S6144x1) hz5]
  obtain ⟨-, -, -, -, -, -, -, -, -, -, -, -, e60, e61⟩ := idx_facts5 t
  funext j
  obtain ⟨p, q, rfl⟩ : ∃ (p : Fin 6144) (q : Fin 64), j = ix2 p q := ⟨j 0, j 1, eq_ix2 j⟩
  refine (pay5_apply _ _ _ _ _ _ p q).trans ?_
  rw [View.read_apply]
  have hE0 : ((((cfg5.win 6).blk t).view.emb (ix2 p q)) 0).val = t.val * 6144 + p.val := by
    show win5_6.index t (0 : Fin 2) * 6144 + 1 * p.val = _; omega
  have hE1 : ((((cfg5.win 6).blk t).view.emb (ix2 p q)) 1).val = q.val := by
    show win5_6.index t (1 : Fin 2) * 64 + 1 * q.val = _; omega
  unfold G5
  exact congrArg₂ max (congrArg₂ (· + ·) (congrArg₂ (· + ·)
      (Finset.sum_congr rfl fun k _ => congrArg₂ (· * ·) (iblk5_2_apply V c t (ix2 p k) _ hE0 rfl) (iblk5_5_apply V c t (ix2 k q) _ rfl hE1))
      (iblk5_4_apply V c t (ix2 (0 : Fin 1) q) _ rfl hE1))
    (Finset.sum_congr rfl fun k _ => congrArg₂ (· * ·)
      (congrArg₂ Ideal.div (iblk5_0_apply V c t (ix2 p k) _ hE0 rfl)
        (congrArg (fun x => max x (Ideal.ofBits .f32 0x3F800000#32)) (iblk5_1_apply V c t (ix2 p (0 : Fin 1)) _ hE0 rfl)))
      (iblk5_3_apply V c t (ix2 k q) _ rfl hE1))) rfl

/-- An index of the result array is in point `t`'s block iff each coordinate is in the block's range on its axis. -/
theorem mem_blk5 (t : Fin cfg5.N) (i : S24576x64.Idx) :
    i ∈ ((cfg5.win 6).blk t).view.set ↔ ∀ a : Fin 2, win5_6.index t a * S6144x64.size a ≤ (i a).val ∧ (i a).val < win5_6.index t a * S6144x64.size a + S6144x64.size a := by
  show i ∈ ((View.whole main_v244).slice (win5_6.rect t)).set ↔ _
  rw [View.set_slice_whole, Rect.mem_set_unit]
  exact Iff.rfl

/-- Every index of the result array is in some point's block: row `r` in that of point `r / 6144`. -/
theorem cover5 (i : S24576x64.Idx) : ∃ t : Fin cfg5.N, (cfg5.win 6).flush t = true ∧ i ∈ ((cfg5.win 6).blk t).view.set := by
  have hi0 : (i 0).val < 24576 := (i 0).isLt
  have hi1 : (i 1).val < 64 := (i 1).isLt
  obtain ⟨t, ht⟩ : ∃ t : Fin cfg5.N, t.val = (i 0).val / 6144 :=
    ⟨⟨(i 0).val / 6144, by show (i 0).val / 6144 < grid5.N; rw [N_5]; omega⟩, rfl⟩
  obtain ⟨-, -, -, -, -, -, -, -, -, -, -, -, e60, e61⟩ := idx_facts5 t
  refine ⟨t, flush5_6 t, ?_⟩
  rw [mem_blk5]
  intro a
  match a with
  | ⟨0, _⟩ => show win5_6.index t (0 : Fin 2) * 6144 ≤ (i 0).val ∧ (i 0).val < win5_6.index t (0 : Fin 2) * 6144 + 6144; omega
  | ⟨1, _⟩ => show win5_6.index t (1 : Fin 2) * 64 ≤ (i 1).val ∧ (i 1).val < win5_6.index t (1 : Fin 2) * 64 + 64; omega

/-- THE RESULT ARRAY after the region: `G5` of the six input arrays as the region finds them. -/
theorem final5 (c : Dev nD) : (dat5 (F := Ideal) V c).arrAt 6 cfg5.N = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) (fun t _ => flushed5_eq V c t) cover5

end Cert.KernelIdeal.Gen

end
-- ==== Proof.KI.Fin6.lean ====
import proofs.«417513_j58866821759238_4_alg».proof.Proof.KI.R6
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! # REGION 6, the value: what the result array holds after the region, index by index

With `agg`, `cnt`, `xdst`, `wl`, `bias`, `wr` the six input arrays as the region finds them, the result at row `r`,
column `j` is `max ((∑ₖ xdst r k · wr k j + bias 0 j) + ∑ₖ (agg r k / max (cnt r 0) 1) · wl k j) 0`, the division the ideal
instance's, the sums over the 64 lanes, in the body's own association order. -/

theorem hz6 : (![0, 0] : Fin 2 → Nat) = fun _ => 0 := funext fun a => by fin_cases a <;> rfl

/-- The result array as one function of the six input arrays. -/
def G6 (agg : S10x64.Idx → EReal) (cnt : S10x1.Idx → EReal) (xdst : S10x64.Idx → EReal) (wl : S64x64.Idx → EReal)
    (bias : S1x64.Idx → EReal) (wr : S64x64.Idx → EReal) : S10x64.Idx → EReal := fun i =>
  max (((∑ k : Fin 64, xdst (ix2 (i 0) k) * wr (ix2 k (i 1))) + bias (ix2 (0 : Fin 1) (i 1)))
      + ∑ k : Fin 64, Ideal.div (agg (ix2 (i 0) k)) (max (cnt (ix2 (i 0) (0 : Fin 1))) (Ideal.ofBits .f32 0x3F800000#32)) * wl (ix2 k (i 1))) 0

/-! ## The payload at an index -/

/-- A column `[a, 1]` broadcast to `[a, b]` reads, at `(p, c)`, the column at row `p`. -/
theorem bcastCol6_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index `i` and contraction index `q`: rows of the left operand follow the
    output's row, its columns the contraction; rows of the right operand the contraction, its columns the output's. -/
theorem lhs6_0 (i : S10x64.Idx) (q : dot_S10x64_S64x64_S10x64_1_0_0_1_n_n.contr.Idx) :
    (dot_S10x64_S64x64_S10x64_1_0_0_1_n_n.lhsIdx i q 0).val = (i 0).val := by
  unfold DotDims.lhsIdx
  rw [dif_neg (show ¬(0 : Fin S10x64.rank) ∈ dot_S10x64_S64x64_S10x64_1_0_0_1_n_n.lhsBatch by decide), dif_pos (show (0 : Fin S10x64.rank) ∈ dot_S10x64_S64x64_S10x64_1_0_0_1_n_n.lhsNonContracting by decide)]
  rfl
theorem lhs6_1 (i : S10x64.Idx) (q : dot_S10x64_S64x64_S10x64_1_0_0_1_n_n.contr.Idx) :
    (dot_S10x64_S64x64_S10x64_1_0_0_1_n_n.lhsIdx i q 1).val = (q ⟨0, by decide⟩).val :=
  dot_S10x64_S64x64_S10x64_1_0_0_1_n_n.lhsIdx_val_of_single rfl i q
theorem rhs6_0 (i : S10x64.Idx) (q : dot_S10x64_S64x64_S10x64_1_0_0_1_n_n.contr.Idx) :
    (dot_S10x64_S64x64_S10x64_1_0_0_1_n_n.rhsIdx i q 0).val = (q ⟨0, by decide⟩).val :=
  dot_S10x64_S64x64_S10x64_1_0_0_1_n_n.rhsIdx_val_of_single rfl i q
theorem rhs6_1 (i : S10x64.Idx) (q : dot_S10x64_S64x64_S10x64_1_0_0_1_n_n.contr.Idx) :
    (dot_S10x64_S64x64_S10x64_1_0_0_1_n_n.rhsIdx i q 1).val = (i 1).val := by
  unfold DotDims.rhsIdx
  rw [dif_neg (show ¬(1 : Fin S64x64.rank) ∈ dot_S10x64_S64x64_S10x64_1_0_0_1_n_n.rhsBatch by decide), dif_pos (show (1 : Fin S64x64.rank) ∈ dot_S10x64_S64x64_S10x64_1_0_0_1_n_n.rhsNonContracting by decide)]
  rfl

/-- The block product into the zero accumulator, at `(p, q)`: the sum over the 64 lanes of the operands' products. -/
theorem mm6_apply (A : FVec Ideal S10x64 .f32) (B : FVec Ideal S64x64 .f32) (p : Fin 10) (q : Fin 64) :
    matmul dot_S10x64_S64x64_S10x64_1_0_0_1_n_n none A B (constant (F := Ideal) S10x64 .f32 0x00000000#32) (ix2 p q)
      = ∑ k : Fin 64, A (ix2 p k) * B (ix2 k q) := by
  simp only [matmul]
  rw [Ideal.matmul_constant_zero_apply, ← Equiv.sum_comp (ValueIdx.contrEquiv1 dot_S10x64_S64x64_S10x64_1_0_0_1_n_n 64 rfl rfl).symm]
  refine Finset.sum_congr rfl fun k _ => ?_
  have hk := ValueIdx.contrEquiv1_symm_val dot_S10x64_S64x64_S10x64_1_0_0_1_n_n 64 rfl rfl k
  have el : dot_S10x64_S64x64_S10x64_1_0_0_1_n_n.lhsIdx (ix2 p q) ((ValueIdx.contrEquiv1 dot_S10x64_S64x64_S10x64_1_0_0_1_n_n 64 rfl rfl).symm k) = ix2 p k := funext fun a => Fin.ext (by
    match a with
    | ⟨0, _⟩ => exact lhs6_0 _ _
    | ⟨1, _⟩ => exact (lhs6_1 _ _).trans hk)
  have er : dot_S10x64_S64x64_S10x64_1_0_0_1_n_n.rhsIdx (ix2 p q) ((ValueIdx.contrEquiv1 dot_S10x64_S64x64_S10x64_1_0_0_1_n_n 64 rfl rfl).symm k) = ix2 k q := funext fun a => Fin.ext (by
    match a with
    | ⟨0, _⟩ => exact (rhs6_0 _ _).trans hk
    | ⟨1, _⟩ => exact rhs6_1 _ _)
  rw [el, er]

/-- The body's payload at `(p, q)`, from the loaded blocks. -/
theorem pay6_apply (xdst : Vec Ideal S10x64 .f32) (wr : Vec Ideal S64x64 .f32) (bias : Vec Ideal S1x64 .f32)
    (agg : Vec Ideal S10x64 .f32) (cnt : Vec Ideal S10x1 .f32) (wl : Vec Ideal S64x64 .f32) (p : Fin 10) (q : Fin 64) :
    k6_pay1 (F := Ideal) xdst wr bias agg cnt wl (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := by
  unfold k6_pay1
  simp only [shapeCast_self]
  rw [maximumf_apply, addf_apply, addf_apply, mm6_apply, mm6_apply, broadcastTo_1b_ab_apply, broadcast_apply]
  simp only [divf_apply, bcastCol6_apply, maximumf_apply, broadcast_apply]
  show max _ (Ideal.ofBits .f32 0x00000000#32) = _
  rw [Ideal.ofBits_zero_f32]
  rfl

/-! ## The windows' block indices, decided over the grid

The three row windows and the result move with the grid point along the rows; the two weights and the bias have one
block. -/

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-! ## Each input block as a part of its array -/

/-- Input window 0's block at point `t`, read at `y`, is its array at the index `i` with row `t · 10 + y₀` and `y`'s column. -/
theorem iblk6_0_apply (c : Dev nD) (t : Fin cfg6.N) (y : S10x64.Idx) (i : S10x64.Idx)
    (h0 : (i 0).val = t.val * 10 + (y 0).val) (h1 : (i 1).val = (y 1).val) :
    (iblk6 V c 0 t : Vec Ideal S10x64 .f32) y = (V c (Pipeline.arrRef spec6 0) : S10x64.Idx → EReal) i := by
  obtain ⟨ea, eb, -, -, -, -, -, -, -, -, -, -, -, -⟩ := idx_facts6 t
  unfold iblk6
  rw [View.read_apply]
  refine congrArg (V c (Pipeline.arrRef spec6 0) : S10x64.Idx → EReal) (funext fun a => Fin.ext ?_)
  match a with
  | ⟨0, _⟩ => show win6_0.index t (0 : Fin 2) * 10 + 1 * (y 0).val = (i 0).val; omega
  | ⟨1, _⟩ => show win6_0.index t (1 : Fin 2) * 64 + 1 * (y 1).val = (i 1).val; omega

/-- Input window 1's block at point `t`, read at `y`, is its array at the index `i` with row `t · 10 + y₀` and `y`'s column. -/
theorem iblk6_1_apply (c : Dev nD) (t : Fin cfg6.N) (y : S10x1.Idx) (i : S10x1.Idx)
    (h0 : (i 0).val = t.val * 10 + (y 0).val) (h1 : (i 1).val = (y 1).val) :
    (iblk6 V c 1 t : Vec Ideal S10x1 .f32) y = (V c (Pipeline.arrRef spec6 1) : S10x1.Idx → EReal) i := by
  obtain ⟨-, -, ea, eb, -, -, -, -, -, -, -, -, -, -⟩ := idx_facts6 t
  unfold iblk6
  rw [View.read_apply]
  refine congrArg (V c (Pipeline.arrRef spec6 1) : S10x1.Idx → EReal) (funext fun a => Fin.ext ?_)
  match a with
  | ⟨0, _⟩ => show win6_1.index t (0 : Fin 2) * 10 + 1 * (y 0).val = (i 0).val; omega
  | ⟨1, _⟩ => show win6_1.index t (1 : Fin 2) * 1 + 1 * (y 1).val = (i 1).val; omega

/-- Input window 2's block at point `t`, read at `y`, is its array at the index `i` with row `t · 10 + y₀` and `y`'s column. -/
theorem iblk6_2_apply (c : Dev nD) (t : Fin cfg6.N) (y : S10x64.Idx) (i : S10x64.Idx)
    (h0 : (i 0).val = t.val * 10 + (y 0).val) (h1 : (i 1).val = (y 1).val) :
    (iblk6 V c 2 t : Vec Ideal S10x64 .f32) y = (V c (Pipeline.arrRef spec6 2) : S10x64.Idx → EReal) i := by
  obtain ⟨-, -, -, -, ea, eb, -, -, -, -, -, -, -, -⟩ := idx_facts6 t
  unfold iblk6
  rw [View.read_apply]
  refine congrArg (V c (Pipeline.arrRef spec6 2) : S10x64.Idx → EReal) (funext fun a => Fin.ext ?_)
  match a with
  | ⟨0, _⟩ => show win6_2.index t (0 : Fin 2) * 10 + 1 * (y 0).val = (i 0).val; omega
  | ⟨1, _⟩ => show win6_2.index t (1 : Fin 2) * 64 + 1 * (y 1).val = (i 1).val; omega

/-- Input window 3's block at point `t`, read at `y`, is its array at the index `i` with \`y\`'s row and `y`'s column. -/
theorem iblk6_3_apply (c : Dev nD) (t : Fin cfg6.N) (y : S64x64.Idx) (i : S64x64.Idx)
    (h0 : (i 0).val = (y 0).val) (h1 : (i 1).val = (y 1).val) :
    (iblk6 V c 3 t : Vec Ideal S64x64 .f32) y = (V c (Pipeline.arrRef spec6 3) : S64x64.Idx → EReal) i := by
  obtain ⟨-, -, -, -, -, -, ea, eb, -, -, -, -, -, -⟩ := idx_facts6 t
  unfold iblk6
  rw [View.read_apply]
  refine congrArg (V c (Pipeline.arrRef spec6 3) : S64x64.Idx → EReal) (funext fun a => Fin.ext ?_)
  match a with
  | ⟨0, _⟩ => show win6_3.index t (0 : Fin 2) * 64 + 1 * (y 0).val = (i 0).val; omega
  | ⟨1, _⟩ => show win6_3.index t (1 : Fin 2) * 64 + 1 * (y 1).val = (i 1).val; omega

/-- Input window 4's block at point `t`, read at `y`, is its array at the index `i` with \`y\`'s row and `y`'s column. -/
theorem iblk6_4_apply (c : Dev nD) (t : Fin cfg6.N) (y : S1x64.Idx) (i : S1x64.Idx)
    (h0 : (i 0).val = (y 0).val) (h1 : (i 1).val = (y 1).val) :
    (iblk6 V c 4 t : Vec Ideal S1x64 .f32) y = (V c (Pipeline.arrRef spec6 4) : S1x64.Idx → EReal) i := by
  obtain ⟨-, -, -, -, -, -, -, -, ea, eb, -, -, -, -⟩ := idx_facts6 t
  unfold iblk6
  rw [View.read_apply]
  refine congrArg (V c (Pipeline.arrRef spec6 4) : S1x64.Idx → EReal) (funext fun a => Fin.ext ?_)
  match a with
  | ⟨0, _⟩ => show win6_4.index t (0 : Fin 2) * 1 + 1 * (y 0).val = (i 0).val; omega
  | ⟨1, _⟩ => show win6_4.index t (1 : Fin 2) * 64 + 1 * (y 1).val = (i 1).val; omega

/-- Input window 5's block at point `t`, read at `y`, is its array at the index `i` with \`y\`'s row and `y`'s column. -/
theorem iblk6_5_apply (c : Dev nD) (t : Fin cfg6.N) (y : S64x64.Idx) (i : S64x64.Idx)
    (h0 : (i 0).val = (y 0).val) (h1 : (i 1).val = (y 1).val) :
    (iblk6 V c 5 t : Vec Ideal S64x64 .f32) y = (V c (Pipeline.arrRef spec6 5) : S64x64.Idx → EReal) i := by
  obtain ⟨-, -, -, -, -, -, -, -, -, -, ea, eb, -, -⟩ := idx_facts6 t
  unfold iblk6
  rw [View.read_apply]
  refine congrArg (V c (Pipeline.arrRef spec6 5) : S64x64.Idx → EReal) (funext fun a => Fin.ext ?_)
  match a with
  | ⟨0, _⟩ => show win6_5.index t (0 : Fin 2) * 64 + 1 * (y 0).val = (i 0).val; omega
  | ⟨1, _⟩ => show win6_5.index t (1 : Fin 2) * 64 + 1 * (y 1).val = (i 1).val; omega

/-! ## What a point writes back, and the array after the region -/

set_option maxHeartbeats 1000000 in
/-- What point `t` writes back is block `t` of `G6` of the input arrays as the region finds them. -/
theorem flushed6_eq (c : Dev nD) (t : Fin cfg6.N) :
    (dat6 V c).flushed 6 t = ((cfg6.win 6).blk t).view.read (Elt Ideal)
      (G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero hz6]
  simp only [View.ld_unit_zero (S := S10x64) hz6, View.ld_unit_zero (S := S64x64) hz6, View.ld_unit_zero (S := S1x64) hz6, View.ld_unit_zero (S := S10x1) hz6]
  obtain ⟨-, -, -, -, -, -, -, -, -, -, -, -, e60, e61⟩ := idx_facts6 t
  funext j
  obtain ⟨p, q, rfl⟩ : ∃ (p : Fin 10) (q : Fin 64), j = ix2 p q := ⟨j 0, j 1, eq_ix2 j⟩
  refine (pay6_apply _ _ _ _ _ _ p q).trans ?_
  rw [View.read_apply]
  have hE0 : ((((cfg6.win 6).blk t).view.emb (ix2 p q)) 0).val = t.val * 10 + p.val := by
    show win6_6.index t (0 : Fin 2) * 10 + 1 * p.val = _; omega
  have hE1 : ((((cfg6.win 6).blk t).view.emb (ix2 p q)) 1).val = q.val := by
    show win6_6.index t (1 : Fin 2) * 64 + 1 * q.val = _; omega
  unfold G6
  exact congrArg₂ max (congrArg₂ (· + ·) (congrArg₂ (· + ·)
      (Finset.sum_congr rfl fun k _ => congrArg₂ (· * ·) (iblk6_2_apply V c t (ix2 p k) _ hE0 rfl) (iblk6_5_apply V c t (ix2 k q) _ rfl hE1))
      (iblk6_4_apply V c t (ix2 (0 : Fin 1) q) _ rfl hE1))
    (Finset.sum_congr rfl fun k _ => congrArg₂ (· * ·)
      (congrArg₂ Ideal.div (iblk6_0_apply V c t (ix2 p k) _ hE0 rfl)
        (congrArg (fun x => max x (Ideal.ofBits .f32 0x3F800000#32)) (iblk6_1_apply V c t (ix2 p (0 : Fin 1)) _ hE0 rfl)))
      (iblk6_3_apply V c t (ix2 k q) _ rfl hE1))) rfl

/-- An index of the result array is in point `t`'s block iff each coordinate is in the block's range on its axis. -/
theorem mem_blk6 (t : Fin cfg6.N) (i : S10x64.Idx) :
    i ∈ ((cfg6.win 6).blk t).view.set ↔ ∀ a : Fin 2, win6_6.index t a * S10x64.size a ≤ (i a).val ∧ (i a).val < win6_6.index t a * S10x64.size a + S10x64.size a := by
  show i ∈ ((View.whole main_v269).slice (win6_6.rect t)).set ↔ _
  rw [View.set_slice_whole, Rect.mem_set_unit]
  exact Iff.rfl

/-- Every index of the result array is in some point's block: row `r` in that of point `r / 10`. -/
theorem cover6 (i : S10x64.Idx) : ∃ t : Fin cfg6.N, (cfg6.win 6).flush t = true ∧ i ∈ ((cfg6.win 6).blk t).view.set := by
  have hi0 : (i 0).val < 10 := (i 0).isLt
  have hi1 : (i 1).val < 64 := (i 1).isLt
  obtain ⟨t, ht⟩ : ∃ t : Fin cfg6.N, t.val = (i 0).val / 10 :=
    ⟨⟨(i 0).val / 10, by show (i 0).val / 10 < grid6.N; rw [N_6]; omega⟩, rfl⟩
  obtain ⟨-, -, -, -, -, -, -, -, -, -, -, -, e60, e61⟩ := idx_facts6 t
  refine ⟨t, flush6_6 t, ?_⟩
  rw [mem_blk6]
  intro a
  match a with
  | ⟨0, _⟩ => show win6_6.index t (0 : Fin 2) * 10 ≤ (i 0).val ∧ (i 0).val < win6_6.index t (0 : Fin 2) * 10 + 10; omega
  | ⟨1, _⟩ => show win6_6.index t (1 : Fin 2) * 64 ≤ (i 1).val ∧ (i 1).val < win6_6.index t (1 : Fin 2) * 64 + 64; omega

/-- THE RESULT ARRAY after the region: `G6` of the six input arrays as the region finds them. -/
theorem final6 (c : Dev nD) : (dat6 (F := Ideal) V c).arrAt 6 cfg6.N = G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 V c).arrAt_eq_of_cover 6 (G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) (fun t _ => flushed6_eq V c t) cover6

end Cert.KernelIdeal.Gen

end
-- ==== Proof.Math.Sage.lean ====
/-
  THE ALGEBRA OF THE FUSED NEIGHBOUR-MEAN LAYER. At the ideal values a float is an extended real and every operation is
  exact. For one destination node type, one row and one output column, write x for the destination's features, a_i and c_i
  for the summed messages and the in-degree of edge type i, q_i k = (a_i k) / max (c_i) 1 for the neighbour mean, and
  wl_i, wr_i, b_i for the weights. One program sums the right-hand weights and the biases over the edge types first,
        ((((∑ k, x k * (0 + ∑ i, wr_i k)) + (0 + ∑ i, b_i)) + ∑ k, q_0 k * wl_0 k) + ∑ k, q_1 k * wl_1 k) + … ,
  the other adds one term per edge type,
        ((T_0 + T_1) + T_2) + T_3,      T_i = ((∑ k, q_i k * wl_i k) + b_i) + ∑ k, x k * wr_i k .
  With one edge type the two differ by the order of three summands only, and are equal at all extended reals. With several
  edge types they are equal when every quantity is a real: the proof moves each quantity to ℝ, where the identity is
  distributivity of the product over the sum and a rearrangement of finite sums. (Distributivity fails at the infinities:
  (⊤ + ⊥) * x and ⊤ * x + ⊥ * x differ.)

  Contents: finite sums, maxima and quotients of reals inside the extended reals; the neighbour mean of reals is a real;
  the one-edge-type identity sage1; the four-edge-type identity sage4; both under a final max with a constant (the relu).
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Order.Lattice
import Mathlib.Tactic.Ring
import Mathlib.Tactic.Abel
import Mathlib.Tactic.NormNum

noncomputable section

namespace Cert.Math

open Idealize.ShloMosaic
open scoped BigOperators

/-! ## Reals inside the extended reals -/

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read in the extended reals, is the maximum of the readings. -/
theorem coe_max (a b : ℝ) : ((max a b : ℝ) : EReal) = max (a : EReal) (b : EReal) :=
  EReal.coe_strictMono.monotone.map_max

/-- A finite sum of reals is a real. -/
theorem real_sum {ι : Type*} (s : Finset ι) (f : ι → EReal) (hf : ∀ i ∈ s, ∃ r : ℝ, f i = (r : EReal)) :
    ∃ r : ℝ, ∑ i ∈ s, f i = (r : EReal) :=
  Finset.sum_induction f (fun y => ∃ r : ℝ, y = (r : EReal))
    (by rintro _ _ ⟨p, rfl⟩ ⟨q, rfl⟩; exact ⟨p + q, (EReal.coe_add p q).symm⟩) ⟨0, EReal.coe_zero.symm⟩ hf

/-- The quotient of a real by a nonzero real is the real quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-- The f32 pattern of 1.0 denotes the extended real 1. -/
theorem ofBits_one_f32 : Ideal.ofBits .f32 0x3F800000#32 = 1 := by
  simp [Ideal.ofBits, Ideal.ieee, -EReal.coe_mul]; norm_num

/-- The maximum of a real and one is a real, and it is at least one. -/
theorem max_coe_one (c : ℝ) : max (c : EReal) 1 = ((max c 1 : ℝ) : EReal) := by
  rw [coe_max, EReal.coe_one]

theorem max_one_ne_zero (c : ℝ) : max c 1 ≠ 0 :=
  (lt_of_lt_of_le one_pos (le_max_right c 1)).ne'

/-- The neighbour mean of reals: a real divided by the maximum of a real and one is the real quotient. -/
theorem mean_coe (a c : ℝ) : Ideal.div (a : EReal) (max (c : EReal) 1) = ((a / max c 1 : ℝ) : EReal) := by
  rw [max_coe_one, div_coe_coe a (max_one_ne_zero c)]

/-- The neighbour mean of reals is a real. -/
theorem mean_real {a c : EReal} (ha : ∃ r : ℝ, a = (r : EReal)) (hc : ∃ r : ℝ, c = (r : EReal)) :
    ∃ r : ℝ, Ideal.div a (max c 1) = (r : EReal) := by
  obtain ⟨p, rfl⟩ := ha
  obtain ⟨q, rfl⟩ := hc
  exact ⟨p / max q 1, mean_coe p q⟩

/-- A quotient of a real by a real that is at least one is a real. -/
theorem div_real_of_one_le {a d : EReal} (ha : ∃ r : ℝ, a = (r : EReal)) (hd : ∃ r : ℝ, d = (r : EReal))
    (h1 : (1 : EReal) ≤ d) : ∃ r : ℝ, Ideal.div a d = (r : EReal) := by
  obtain ⟨p, rfl⟩ := ha
  obtain ⟨q, rfl⟩ := hd
  have hq : q ≠ 0 := by
    have : (1 : ℝ) ≤ q := by exact_mod_cast h1
    exact (lt_of_lt_of_le one_pos this).ne'
  exact ⟨p / q, div_coe_coe p hq⟩

/-! ## One edge type -/

section One
variable {κ : Type*} [Fintype κ]

/-- One edge type: the two programs differ by the order of three summands (and a sum over one index with initial value
    zero); equal at all extended reals. -/
theorem sage1 (Q : EReal → EReal → EReal) (x a wl wr : κ → EReal) (c b : EReal) :
    ((∑ k, x k * (0 + ∑ _i : Fin 1, wr k)) + (0 + ∑ _i : Fin 1, b)) + ∑ k, Q (a k) c * wl k
      = ((∑ k, Q (a k) c * wl k) + b) + ∑ k, x k * wr k := by
  simp only [Fin.sum_univ_one, zero_add]
  abel

/-- The same with the stacked weights indexed by the one edge type. -/
theorem sage1' (Q : EReal → EReal → EReal) (x a wl : κ → EReal) (wr : Fin 1 → κ → EReal) (c : EReal) (b : Fin 1 → EReal) :
    ((∑ k, x k * (0 + ∑ i : Fin 1, wr i k)) + (0 + ∑ i : Fin 1, b i)) + ∑ k, Q (a k) c * wl k
      = ((∑ k, Q (a k) c * wl k) + b 0) + ∑ k, x k * wr 0 k := by
  simp only [Fin.sum_univ_one, zero_add]
  abel

/-- One edge type, under a final maximum with a constant. -/
theorem sage1_relu (Q : EReal → EReal → EReal) (x a wl wr : κ → EReal) (c b z : EReal) :
    max (((∑ k, x k * (0 + ∑ _i : Fin 1, wr k)) + (0 + ∑ _i : Fin 1, b)) + ∑ k, Q (a k) c * wl k) z
      = max (((∑ k, Q (a k) c * wl k) + b) + ∑ k, x k * wr k) z :=
  congrArg (fun y => max y z) (sage1 Q x a wl wr c b)

end One

/-! ## Four edge types -/

section Four
variable {κ : Type*} [Fintype κ]

/-- Four edge types, every quantity a real: summing the right-hand weights and the biases first, then adding the four
    neighbour-mean products, equals adding the four per-edge-type terms. -/
theorem sage4 (Q : EReal → EReal → EReal) (x : κ → EReal) (a wl wr : Fin 4 → κ → EReal) (c b : Fin 4 → EReal)
    (hx : ∀ k, ∃ r : ℝ, x k = (r : EReal))
    (hwl : ∀ i k, ∃ r : ℝ, wl i k = (r : EReal))
    (hwr : ∀ i k, ∃ r : ℝ, wr i k = (r : EReal))
    (hb : ∀ i, ∃ r : ℝ, b i = (r : EReal))
    (hq : ∀ i k, ∃ r : ℝ, Q (a i k) (c i) = (r : EReal)) :
    (((((∑ k, x k * (0 + ∑ i : Fin 4, wr i k)) + (0 + ∑ i : Fin 4, b i))
          + ∑ k, Q (a 0 k) (c 0) * wl 0 k) + ∑ k, Q (a 1 k) (c 1) * wl 1 k)
          + ∑ k, Q (a 2 k) (c 2) * wl 2 k) + ∑ k, Q (a 3 k) (c 3) * wl 3 k
      = ((((((∑ k, Q (a 0 k) (c 0) * wl 0 k) + b 0) + ∑ k, x k * wr 0 k)
          + (((∑ k, Q (a 1 k) (c 1) * wl 1 k) + b 1) + ∑ k, x k * wr 1 k))
          + (((∑ k, Q (a 2 k) (c 2) * wl 2 k) + b 2) + ∑ k, x k * wr 2 k))
          + (((∑ k, Q (a 3 k) (c 3) * wl 3 k) + b 3) + ∑ k, x k * wr 3 k)) := by
  choose x' hx using hx
  choose wl' hwl using hwl
  choose wr' hwr using hwr
  choose b' hb using hb
  choose q' hq using hq
  simp only [hx, hwl, hwr, hb, hq, zero_add, add_zero, ← EReal.coe_mul, ← EReal.coe_add, ← coe_sum]
  refine congrArg Real.toEReal ?_
  simp only [Fin.sum_univ_four, mul_add, add_mul, Finset.sum_add_distrib]
  ring

/-- Four edge types, under a final maximum with a constant. -/
theorem sage4_relu (Q : EReal → EReal → EReal) (x : κ → EReal) (a wl wr : Fin 4 → κ → EReal) (c b : Fin 4 → EReal) (z : EReal)
    (hx : ∀ k, ∃ r : ℝ, x k = (r : EReal))
    (hwl : ∀ i k, ∃ r : ℝ, wl i k = (r : EReal))
    (hwr : ∀ i k, ∃ r : ℝ, wr i k = (r : EReal))
    (hb : ∀ i, ∃ r : ℝ, b i = (r : EReal))
    (hq : ∀ i k, ∃ r : ℝ, Q (a i k) (c i) = (r : EReal)) :
    max ((((((∑ k, x k * (0 + ∑ i : Fin 4, wr i k)) + (0 + ∑ i : Fin 4, b i))
          + ∑ k, Q (a 0 k) (c 0) * wl 0 k) + ∑ k, Q (a 1 k) (c 1) * wl 1 k)
          + ∑ k, Q (a 2 k) (c 2) * wl 2 k) + ∑ k, Q (a 3 k) (c 3) * wl 3 k) z
      = max (((((((∑ k, Q (a 0 k) (c 0) * wl 0 k) + b 0) + ∑ k, x k * wr 0 k)
          + (((∑ k, Q (a 1 k) (c 1) * wl 1 k) + b 1) + ∑ k, x k * wr 1 k))
          + (((∑ k, Q (a 2 k) (c 2) * wl 2 k) + b 2) + ∑ k, x k * wr 2 k))
          + (((∑ k, Q (a 3 k) (c 3) * wl 3 k) + b 3) + ∑ k, x k * wr 3 k))) z :=
  congrArg (fun y => max y z) (sage4 Q x a wl wr c b hx hwl hwr hb hq)

/-- Four edge types with the neighbour mean spelled out: the summed messages divided by the maximum of the in-degree and
    one. The features, the weights, the biases, the summed messages and the in-degrees are reals. -/
theorem sage4_mean (x : κ → EReal) (a wl wr : Fin 4 → κ → EReal) (c b : Fin 4 → EReal)
    (hx : ∀ k, ∃ r : ℝ, x k = (r : EReal))
    (ha : ∀ i k, ∃ r : ℝ, a i k = (r : EReal))
    (hc : ∀ i, ∃ r : ℝ, c i = (r : EReal))
    (hwl : ∀ i k, ∃ r : ℝ, wl i k = (r : EReal))
    (hwr : ∀ i k, ∃ r : ℝ, wr i k = (r : EReal))
    (hb : ∀ i, ∃ r : ℝ, b i = (r : EReal)) :
    (((((∑ k, x k * (0 + ∑ i : Fin 4, wr i k)) + (0 + ∑ i : Fin 4, b i))
          + ∑ k, Ideal.div (a 0 k) (max (c 0) 1) * wl 0 k) + ∑ k, Ideal.div (a 1 k) (max (c 1) 1) * wl 1 k)
          + ∑ k, Ideal.div (a 2 k) (max (c 2) 1) * wl 2 k) + ∑ k, Ideal.div (a 3 k) (max (c 3) 1) * wl 3 k
      = ((((((∑ k, Ideal.div (a 0 k) (max (c 0) 1) * wl 0 k) + b 0) + ∑ k, x k * wr 0 k)
          + (((∑ k, Ideal.div (a 1 k) (max (c 1) 1) * wl 1 k) + b 1) + ∑ k, x k * wr 1 k))
          + (((∑ k, Ideal.div (a 2 k) (max (c 2) 1) * wl 2 k) + b 2) + ∑ k, x k * wr 2 k))
          + (((∑ k, Ideal.div (a 3 k) (max (c 3) 1) * wl 3 k) + b 3) + ∑ k, x k * wr 3 k)) :=
  sage4 (fun u d => Ideal.div u (max d 1)) x a wl wr c b hx hwl hwr hb (fun i k => mean_real (ha i k) (hc i))

end Four

end Cert.Math

end
-- ==== Proof.Sim.L1small.lean ====
import proofs.«417513_j58866821759238_4_alg».proof.Proof.KI.Keep
import proofs.«417513_j58866821759238_4_alg».proof.Proof.Ref.Run
import proofs.«417513_j58866821759238_4_alg».proof.Proof.KI.Fin4
import proofs.«417513_j58866821759238_4_alg».proof.Proof.KI.Fin5
import proofs.«417513_j58866821759238_4_alg».proof.Proof.KI.Fin6
import Idealize.ShloMosaic.Lib.KernelVsHost
import proofs.«417513_j58866821759238_4_alg».proof.Proof.Math.Sage
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Sim

open Idealize.ShloMosaic Idealize.ShloMosaic.TcCoe Idealize.SL.Sem Idealize.ShloMosaic.StableHlo
open Idealize.ShloMosaic.ValueIdx
open scoped BigOperators

/-! # Genres, layer 1: the region's value against the reference's operations, index by index -/

/-! ## The reference's product at an index -/

theorem rlhs50_0 (i : Cert.ReferenceIdeal.S50x64.Idx) (q : Cert.ReferenceIdeal.dot_S50x64_S64x64_S50x64_1_0_0_1_n_n.contr.Idx) : (Cert.ReferenceIdeal.dot_S50x64_S64x64_S50x64_1_0_0_1_n_n.lhsIdx i q 0).val = (i 0).val := by
  unfold DotDims.lhsIdx
  rw [dif_neg (show ¬(0 : Fin Cert.ReferenceIdeal.S50x64.rank) ∈ Cert.ReferenceIdeal.dot_S50x64_S64x64_S50x64_1_0_0_1_n_n.lhsBatch by decide), dif_pos (show (0 : Fin Cert.ReferenceIdeal.S50x64.rank) ∈ Cert.ReferenceIdeal.dot_S50x64_S64x64_S50x64_1_0_0_1_n_n.lhsNonContracting by decide)]
  rfl
theorem rlhs50_1 (i : Cert.ReferenceIdeal.S50x64.Idx) (q : Cert.ReferenceIdeal.dot_S50x64_S64x64_S50x64_1_0_0_1_n_n.contr.Idx) : (Cert.ReferenceIdeal.dot_S50x64_S64x64_S50x64_1_0_0_1_n_n.lhsIdx i q 1).val = (q ⟨0, by decide⟩).val :=
  Cert.ReferenceIdeal.dot_S50x64_S64x64_S50x64_1_0_0_1_n_n.lhsIdx_val_of_single rfl i q
theorem rrhs50_0 (i : Cert.ReferenceIdeal.S50x64.Idx) (q : Cert.ReferenceIdeal.dot_S50x64_S64x64_S50x64_1_0_0_1_n_n.contr.Idx) : (Cert.ReferenceIdeal.dot_S50x64_S64x64_S50x64_1_0_0_1_n_n.rhsIdx i q 0).val = (q ⟨0, by decide⟩).val :=
  Cert.ReferenceIdeal.dot_S50x64_S64x64_S50x64_1_0_0_1_n_n.rhsIdx_val_of_single rfl i q
theorem rrhs50_1 (i : Cert.ReferenceIdeal.S50x64.Idx) (q : Cert.ReferenceIdeal.dot_S50x64_S64x64_S50x64_1_0_0_1_n_n.contr.Idx) : (Cert.ReferenceIdeal.dot_S50x64_S64x64_S50x64_1_0_0_1_n_n.rhsIdx i q 1).val = (i 1).val := by
  unfold DotDims.rhsIdx
  rw [dif_neg (show ¬(1 : Fin Cert.ReferenceIdeal.S64x64.rank) ∈ Cert.ReferenceIdeal.dot_S50x64_S64x64_S50x64_1_0_0_1_n_n.rhsBatch by decide), dif_pos (show (1 : Fin Cert.ReferenceIdeal.S64x64.rank) ∈ Cert.ReferenceIdeal.dot_S50x64_S64x64_S50x64_1_0_0_1_n_n.rhsNonContracting by decide)]
  rfl

/-- The host's product of a 50x64 by a 64x64 array at `(p, q)`: the sum over the 64 lanes of the operands' products. -/
theorem rdot50_apply (A : FVec Ideal Cert.ReferenceIdeal.S50x64 .f32) (B : FVec Ideal Cert.ReferenceIdeal.S64x64 .f32) (p : Fin 50) (q : Fin 64) :
    Host.dotGeneral Cert.ReferenceIdeal.dot_S50x64_S64x64_S50x64_1_0_0_1_n_n none A B (ix2 p q) = ∑ k : Fin 64, A (ix2 p k) * B (ix2 k q) := by
  simp only [Host.dotGeneral]
  rw [Ideal.dotGeneral_apply, ← Equiv.sum_comp (ValueIdx.contrEquiv1 Cert.ReferenceIdeal.dot_S50x64_S64x64_S50x64_1_0_0_1_n_n 64 rfl rfl).symm]
  refine Finset.sum_congr rfl fun k _ => ?_
  have hk := ValueIdx.contrEquiv1_symm_val Cert.ReferenceIdeal.dot_S50x64_S64x64_S50x64_1_0_0_1_n_n 64 rfl rfl k
  have el : Cert.ReferenceIdeal.dot_S50x64_S64x64_S50x64_1_0_0_1_n_n.lhsIdx (ix2 p q) ((ValueIdx.contrEquiv1 Cert.ReferenceIdeal.dot_S50x64_S64x64_S50x64_1_0_0_1_n_n 64 rfl rfl).symm k) = ix2 p k := funext fun a => Fin.ext (by
    match a with
    | ⟨0, _⟩ => exact rlhs50_0 _ _
    | ⟨1, _⟩ => exact (rlhs50_1 _ _).trans hk)
  have er : Cert.ReferenceIdeal.dot_S50x64_S64x64_S50x64_1_0_0_1_n_n.rhsIdx (ix2 p q) ((ValueIdx.contrEquiv1 Cert.ReferenceIdeal.dot_S50x64_S64x64_S50x64_1_0_0_1_n_n 64 rfl rfl).symm k) = ix2 k q := funext fun a => Fin.ext (by
    match a with
    | ⟨0, _⟩ => exact (rrhs50_0 _ _).trans hk
    | ⟨1, _⟩ => exact rrhs50_1 _ _)
  rw [el, er]

/-! ## The reference's broadcasts at an index -/

/-- The counts' column `[50, 1]` broadcast along the lanes reads, at `(p, k)`, the column at row `p`. -/
theorem rbcol50_apply (y : FVec Ideal Cert.ReferenceIdeal.S50x1 .f32) (p : Fin 50) (k : Fin 64) :
    broadcastInDim Cert.ReferenceIdeal.S50x64 ![0, 1] Cert.ReferenceIdeal.Gen.bcast_S50x1_S50x64_0_1 y (ix2 p k) = y (ix2 p (0 : Fin 1)) :=
  broadcastInDim_apply _ Cert.ReferenceIdeal.Gen.bcast_S50x1_S50x64_0_1 y (ix2 p k) (ix2 p (0 : Fin 1)) (fun a => match a with
    | ⟨0, _⟩ => by show p.val = if (50 : Nat) = 1 then 0 else p.val; rw [if_neg (by decide)]
    | ⟨1, _⟩ => by show 0 = if (1 : Nat) = 1 then 0 else k.val; rw [if_pos rfl])

/-- The bias row `[1, 64]` broadcast along the rows reads, at `(p, q)`, the row at lane `q`. -/
theorem rbrow50_apply (y : FVec Ideal Cert.ReferenceIdeal.S1x64 .f32) (p : Fin 50) (q : Fin 64) :
    broadcastInDim Cert.ReferenceIdeal.S50x64 ![0, 1] Cert.ReferenceIdeal.Gen.bcast_S1x64_S50x64_0_1 y (ix2 p q) = y (ix2 (0 : Fin 1) q) :=
  broadcastInDim_apply _ Cert.ReferenceIdeal.Gen.bcast_S1x64_S50x64_0_1 y (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A vector `[64]` as a row `[1, 64]` reads, at `(0, q)`, the vector at `q`. -/
theorem rvec_row_apply (y : FVec Ideal Cert.ReferenceIdeal.S64 .f32) (q : Fin 64) :
    broadcastInDim Cert.ReferenceIdeal.S1x64 ![1] Cert.ReferenceIdeal.Gen.bcast_S64_S1x64_1 y (ix2 (0 : Fin 1) q) = y (ix1 q) :=
  broadcastInDim_apply _ Cert.ReferenceIdeal.Gen.bcast_S64_S1x64_1 y (ix2 (0 : Fin 1) q) (ix1 q) (fun a => match a with
    | ⟨0, _⟩ => by show q.val = if (64 : Nat) = 1 then 0 else q.val; rw [if_neg (by decide)])

/-! ## The kernel program's one-term sums of the stacked bias and right weight, at an index -/

/-- The right weight summed over the one edge type: the zero initial value plus the one term. -/
theorem ksumW_apply (Y : FVec Ideal Cert.KernelIdeal.S64x64 .f32) (k j : Fin 64) :
    Host.reduceAdd (broadcastInDim Cert.KernelIdeal.S1x64x64 ![1, 2] Cert.KernelIdeal.Gen.bcast_S64x64_S1x64x64_1_2 Y) (constant (F := Ideal) Cert.KernelIdeal.S_ .f32 0x00000000#32)
        Cert.KernelIdeal.Gen.reducesTo_S1x64x64_S64x64_d0 Cert.KernelIdeal.Gen.h_S_ (ix2 k j)
      = 0 + ∑ _i : Fin 1, Y (ix2 k j) := by
  rw [hostReduceAdd_apply, Ideal.hostReduceAdd_single Cert.KernelIdeal.Gen.reducesTo_S1x64x64_S64x64_d0 (by decide)]
  refine congrArg₂ (· + ·) Ideal.ofBits_zero_f32 (Finset.sum_congr rfl fun i _ => ?_)
  exact broadcastInDim_apply _ Cert.KernelIdeal.Gen.bcast_S64x64_S1x64x64_1_2 Y _ (ix2 k j) (fun a => match a with
    | ⟨0, _⟩ => by show k.val = if (64 : Nat) = 1 then 0 else k.val; rw [if_neg (by decide)]
    | ⟨1, _⟩ => by show j.val = if (64 : Nat) = 1 then 0 else j.val; rw [if_neg (by decide)])

/-- The bias summed over the one edge type, as a row: the zero initial value plus the one term. -/
theorem ksumB_apply (y : FVec Ideal Cert.KernelIdeal.S64 .f32) (j : Fin 64) :
    shapeCast Cert.KernelIdeal.S1x64 (Host.reduceAdd (broadcastInDim Cert.KernelIdeal.S1x64 ![1] Cert.KernelIdeal.Gen.bcast_S64_S1x64_1 y) (constant (F := Ideal) Cert.KernelIdeal.S_ .f32 0x00000000#32)
        Cert.KernelIdeal.Gen.reducesTo_S1x64_S64_d0 Cert.KernelIdeal.Gen.h_S_) Cert.KernelIdeal.Gen.shapeCasts_S64_S1x64 (ix2 (0 : Fin 1) j)
      = 0 + ∑ _i : Fin 1, y (ix1 j) := by
  rw [shapeCast_a_1a_apply, hostReduceAdd_apply, Ideal.hostReduceAdd_single Cert.KernelIdeal.Gen.reducesTo_S1x64_S64_d0 (by decide)]
  refine congrArg₂ (· + ·) Ideal.ofBits_zero_f32 (Finset.sum_congr rfl fun i _ => ?_)
  exact broadcastInDim_apply _ Cert.KernelIdeal.Gen.bcast_S64_S1x64_1 y _ (ix1 j) (fun a => match a with
    | ⟨0, _⟩ => by show j.val = if (64 : Nat) = 1 then 0 else j.val; rw [if_neg (by decide)])

/-! ## The core: the region's function of the kernel program's inputs is the reference's expression -/

/-- The region's function at `(p, q)`, spelled out. -/
theorem G4_apply (agg : Cert.KernelIdeal.S50x64.Idx → EReal) (cnt : Cert.KernelIdeal.S50x1.Idx → EReal) (xdst : Cert.KernelIdeal.S50x64.Idx → EReal) (wl : Cert.KernelIdeal.S64x64.Idx → EReal)
    (bias : Cert.KernelIdeal.S1x64.Idx → EReal) (wr : Cert.KernelIdeal.S64x64.Idx → EReal) (p : Fin 50) (q : Fin 64) :
    Cert.KernelIdeal.Gen.G4 agg cnt xdst wl bias wr (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := rfl

/-- With `A` the summed messages, `C` the in-degrees, `X` the destination features, `WLt` / `WRt` the two weights as the
    products take them (transposed) and `bS` the bias: the region's result on the kernel program's inputs — the bias and the
    right weight each a one-term sum from zero — is the reference's expression, neighbour mean first, then bias, then the
    destination term, under the final maximum with zero. One edge type: a reordering of three summands. -/
theorem core_g1 (A : FVec Ideal Cert.ReferenceIdeal.S50x64 .f32) (C : FVec Ideal Cert.ReferenceIdeal.S50x1 .f32) (X : FVec Ideal Cert.ReferenceIdeal.S50x64 .f32)
    (WLt WRt : FVec Ideal Cert.ReferenceIdeal.S64x64 .f32) (bS : FVec Ideal Cert.ReferenceIdeal.S64 .f32) :
    Cert.KernelIdeal.Gen.G4 A C X WLt
        (fun i => shapeCast Cert.KernelIdeal.S1x64 (Host.reduceAdd (broadcastInDim Cert.KernelIdeal.S1x64 ![1] Cert.KernelIdeal.Gen.bcast_S64_S1x64_1 bS) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i)
        (Host.reduceAdd (broadcastInDim Cert.KernelIdeal.S1x64x64 ![1, 2] Cert.KernelIdeal.Gen.bcast_S64x64_S1x64x64_1_2 WRt) (constant (F := Ideal) Cert.KernelIdeal.S_ .f32 0x00000000#32)
          Cert.KernelIdeal.Gen.reducesTo_S1x64x64_S64x64_d0 Cert.KernelIdeal.Gen.h_S_)
      = maximumf
          (addf
            (addf
              (Host.dotGeneral Cert.ReferenceIdeal.dot_S50x64_S64x64_S50x64_1_0_0_1_n_n none
                (Host.divf A (broadcastInDim Cert.ReferenceIdeal.S50x64 ![0, 1] Cert.ReferenceIdeal.Gen.bcast_S50x1_S50x64_0_1
                  (maximumf C (broadcastInDim Cert.ReferenceIdeal.S50x1 ![] Cert.ReferenceIdeal.Gen.bcast_S_S50x1 (constant (F := Ideal) Cert.ReferenceIdeal.S_ .f32 0x3F800000#32)))))
                WLt)
              (broadcastInDim Cert.ReferenceIdeal.S50x64 ![0, 1] Cert.ReferenceIdeal.Gen.bcast_S1x64_S50x64_0_1 (broadcastInDim Cert.ReferenceIdeal.S1x64 ![1] Cert.ReferenceIdeal.Gen.bcast_S64_S1x64_1 bS)))
            (Host.dotGeneral Cert.ReferenceIdeal.dot_S50x64_S64x64_S50x64_1_0_0_1_n_n none X WRt))
          (broadcastInDim Cert.ReferenceIdeal.S50x64 ![] Cert.ReferenceIdeal.Gen.bcast_S_S50x64 (constant (F := Ideal) Cert.ReferenceIdeal.S_ .f32 0x00000000#32)) := by
  funext i
  obtain ⟨p, q, rfl⟩ : ∃ (p : Fin 50) (q : Fin 64), i = ix2 p q := ⟨i 0, i 1, eq_ix2 i⟩
  -- the kernel program's side: the one-term sums opened
  have hL : Cert.KernelIdeal.Gen.G4 A C X WLt
        (fun i => shapeCast Cert.KernelIdeal.S1x64 (Host.reduceAdd (broadcastInDim Cert.KernelIdeal.S1x64 ![1] Cert.KernelIdeal.Gen.bcast_S64_S1x64_1 bS) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i)
        (Host.reduceAdd (broadcastInDim Cert.KernelIdeal.S1x64x64 ![1, 2] Cert.KernelIdeal.Gen.bcast_S64x64_S1x64x64_1_2 WRt) (constant (F := Ideal) Cert.KernelIdeal.S_ .f32 0x00000000#32)
          Cert.KernelIdeal.Gen.reducesTo_S1x64x64_S64x64_d0 Cert.KernelIdeal.Gen.h_S_) (ix2 p q)
      = max (((∑ k : Fin 64, X (ix2 p k) * (0 + ∑ _i : Fin 1, WRt (ix2 k q))) + (0 + ∑ _i : Fin 1, bS (ix1 q)))
          + ∑ k : Fin 64, Ideal.div (A (ix2 p k)) (max (C (ix2 p (0 : Fin 1))) (Ideal.ofBits .f32 0x3F800000#32)) * WLt (ix2 k q)) 0 := by
    rw [G4_apply]
    exact congrArg₂ max (congrArg₂ (· + ·) (congrArg₂ (· + ·)
      (Finset.sum_congr rfl fun k _ => congrArg (X (ix2 p k) * ·) (ksumW_apply WRt k q)) (ksumB_apply bS q)) rfl) rfl
  -- the reference's side: each operation read at the index
  have hdiv : ∀ k : Fin 64, Host.divf A (broadcastInDim Cert.ReferenceIdeal.S50x64 ![0, 1] Cert.ReferenceIdeal.Gen.bcast_S50x1_S50x64_0_1
        (maximumf C (broadcastInDim Cert.ReferenceIdeal.S50x1 ![] Cert.ReferenceIdeal.Gen.bcast_S_S50x1 (constant (F := Ideal) Cert.ReferenceIdeal.S_ .f32 0x3F800000#32)))) (ix2 p k)
      = Ideal.div (A (ix2 p k)) (max (C (ix2 p (0 : Fin 1))) (Ideal.ofBits .f32 0x3F800000#32)) := fun k => by
    rw [hostDivf_apply, rbcol50_apply, maximumf_apply, broadcastInDim_scalar_apply]
    rfl
  have hR : maximumf
          (addf
            (addf
              (Host.dotGeneral Cert.ReferenceIdeal.dot_S50x64_S64x64_S50x64_1_0_0_1_n_n none
                (Host.divf A (broadcastInDim Cert.ReferenceIdeal.S50x64 ![0, 1] Cert.ReferenceIdeal.Gen.bcast_S50x1_S50x64_0_1
                  (maximumf C (broadcastInDim Cert.ReferenceIdeal.S50x1 ![] Cert.ReferenceIdeal.Gen.bcast_S_S50x1 (constant (F := Ideal) Cert.ReferenceIdeal.S_ .f32 0x3F800000#32)))))
                WLt)
              (broadcastInDim Cert.ReferenceIdeal.S50x64 ![0, 1] Cert.ReferenceIdeal.Gen.bcast_S1x64_S50x64_0_1 (broadcastInDim Cert.ReferenceIdeal.S1x64 ![1] Cert.ReferenceIdeal.Gen.bcast_S64_S1x64_1 bS)))
            (Host.dotGeneral Cert.ReferenceIdeal.dot_S50x64_S64x64_S50x64_1_0_0_1_n_n none X WRt))
          (broadcastInDim Cert.ReferenceIdeal.S50x64 ![] Cert.ReferenceIdeal.Gen.bcast_S_S50x64 (constant (F := Ideal) Cert.ReferenceIdeal.S_ .f32 0x00000000#32)) (ix2 p q)
      = max (((∑ k : Fin 64, Ideal.div (A (ix2 p k)) (max (C (ix2 p (0 : Fin 1))) (Ideal.ofBits .f32 0x3F800000#32)) * WLt (ix2 k q)) + bS (ix1 q))
          + ∑ k : Fin 64, X (ix2 p k) * WRt (ix2 k q)) 0 := by
    rw [maximumf_apply, addf_apply, addf_apply, rdot50_apply, rdot50_apply, rbrow50_apply, rvec_row_apply, broadcastInDim_scalar_apply]
    exact congrArg₂ max (congrArg₂ (· + ·) (congrArg₂ (· + ·)
      (Finset.sum_congr rfl fun k _ => congrArg (· * WLt (ix2 k q)) (hdiv k)) rfl) rfl) Ideal.ofBits_zero_f32
  rw [hL, hR]
  exact Cert.Math.sage1_relu (fun u d => Ideal.div u (max d (Ideal.ofBits .f32 0x3F800000#32))) (fun k => X (ix2 p k)) (fun k => A (ix2 p k))
    (fun k => WLt (ix2 k q)) (fun k => WRt (ix2 k q)) (C (ix2 p (0 : Fin 1))) (bS (ix1 q)) 0

/-! ## The reference's buffers, read one window at a time -/

/-- An argument reaches window 3 as launched. -/
theorem rkeep3 (m' : (ℓ : Loc Cert.ReferenceIdeal.nD Cert.ReferenceIdeal.τ Cert.ReferenceIdeal.sig) → Buf (Elt Ideal) ℓ) (c : Dev Cert.KernelIdeal.nD) (r : Ref Cert.ReferenceIdeal.sig .tc) (h0 : r ∉ Cert.ReferenceIdeal.Value.ops0_W) (h1 : r ∉ Cert.ReferenceIdeal.Value.ops1_W) (h2 : r ∉ Cert.ReferenceIdeal.Value.ops2_W) :
    Cert.ReferenceIdeal.Value.U3 m' c (Proc.devRef .tc r) = Cert.ReferenceIdeal.Value.U0 m' c (Proc.devRef .tc r) :=
  (Cert.ReferenceIdeal.Value.U3_of m' c r h2).trans ((Cert.ReferenceIdeal.Value.U2_of m' c r h1).trans (Cert.ReferenceIdeal.Value.U1_of m' c r h0))

set_option maxHeartbeats 2000000 in
/-- Genres after the relu: the maximum with zero of the layer's sum. -/
theorem r303 (m' : (ℓ : Loc Cert.ReferenceIdeal.nD Cert.ReferenceIdeal.τ Cert.ReferenceIdeal.sig) → Buf (Elt Ideal) ℓ) (c : Dev Cert.KernelIdeal.nD) :
    Cert.ReferenceIdeal.Value.U6 m' c (Proc.devRef .tc Cert.ReferenceIdeal.main_v303) = maximumf (Cert.ReferenceIdeal.Value.U5 m' c (Proc.devRef .tc Cert.ReferenceIdeal.main_v170) : FVec Ideal Cert.ReferenceIdeal.S50x64 .f32) (broadcastInDim Cert.ReferenceIdeal.S50x64 ![] Cert.ReferenceIdeal.Gen.bcast_S_S50x64 (constant (F := Ideal) Cert.ReferenceIdeal.S_ .f32 0x00000000#32)) := by
  show StableHlo.after Cert.ReferenceIdeal.Value.ops5 (Cert.ReferenceIdeal.Value.U5 m' c) (Proc.devRef .tc Cert.ReferenceIdeal.main_v303) = _
  generalize Cert.ReferenceIdeal.Value.U5 m' c = V
  after_results_simp
  rfl

set_option maxHeartbeats 2000000 in
/-- The layer's sum for genres, from the summed messages, the in-degrees, the features and the three weight buffers. -/
theorem r170 (m' : (ℓ : Loc Cert.ReferenceIdeal.nD Cert.ReferenceIdeal.τ Cert.ReferenceIdeal.sig) → Buf (Elt Ideal) ℓ) (c : Dev Cert.KernelIdeal.nD) :
    Cert.ReferenceIdeal.Value.U4 m' c (Proc.devRef .tc Cert.ReferenceIdeal.main_v170)
      = addf
        (addf
          (Host.dotGeneral (φ₁ := .f32) (φ₂ := .f32) Cert.ReferenceIdeal.dot_S50x64_S64x64_S50x64_1_0_0_1_n_n none
            (Host.divf (Cert.ReferenceIdeal.Value.U3 m' c (Proc.devRef .tc Cert.ReferenceIdeal.main_v154) : FVec Ideal Cert.ReferenceIdeal.S50x64 .f32) (broadcastInDim Cert.ReferenceIdeal.S50x64 ![0, 1] Cert.ReferenceIdeal.Gen.bcast_S50x1_S50x64_0_1
              (maximumf (StableHlo.after Cert.ReferenceIdeal.Value.ops3 (Cert.ReferenceIdeal.Value.U3 m' c) (Proc.devRef .tc Cert.ReferenceIdeal.main_v158) : FVec Ideal Cert.ReferenceIdeal.S50x1 .f32) (broadcastInDim Cert.ReferenceIdeal.S50x1 ![] Cert.ReferenceIdeal.Gen.bcast_S_S50x1 (constant (F := Ideal) Cert.ReferenceIdeal.S_ .f32 0x3F800000#32)))))
            (transpose (α := Ideal .f32) Cert.ReferenceIdeal.S64x64 [1, 0] (Cert.ReferenceIdeal.Value.U3 m' c (Proc.devRef .tc Cert.ReferenceIdeal.main_v140) : FVec Ideal Cert.ReferenceIdeal.S64x64 .f32) Cert.ReferenceIdeal.Gen.transposes_S64x64_S64x64_1_0))
          (broadcastInDim Cert.ReferenceIdeal.S50x64 ![0, 1] Cert.ReferenceIdeal.Gen.bcast_S1x64_S50x64_0_1 (broadcastInDim Cert.ReferenceIdeal.S1x64 ![1] Cert.ReferenceIdeal.Gen.bcast_S64_S1x64_1 (Cert.ReferenceIdeal.Value.U3 m' c (Proc.devRef .tc Cert.ReferenceIdeal.main_v142) : FVec Ideal Cert.ReferenceIdeal.S64 .f32))))
        (Host.dotGeneral (φ₁ := .f32) (φ₂ := .f32) Cert.ReferenceIdeal.dot_S50x64_S64x64_S50x64_1_0_0_1_n_n none (Cert.ReferenceIdeal.Value.U3 m' c (Proc.devRef .tc Cert.ReferenceIdeal.main_arg2) : FVec Ideal Cert.ReferenceIdeal.S50x64 .f32) (transpose (α := Ideal .f32) Cert.ReferenceIdeal.S64x64 [1, 0] (Cert.ReferenceIdeal.Value.U3 m' c (Proc.devRef .tc Cert.ReferenceIdeal.main_v144) : FVec Ideal Cert.ReferenceIdeal.S64x64 .f32) Cert.ReferenceIdeal.Gen.transposes_S64x64_S64x64_1_0)) := by
  show StableHlo.after Cert.ReferenceIdeal.Value.ops3 (Cert.ReferenceIdeal.Value.U3 m' c) (Proc.devRef .tc Cert.ReferenceIdeal.main_v170) = _
  generalize Cert.ReferenceIdeal.Value.U3 m' c = V
  after_results_simp

/-- The left weight of edge type 3 as window 2 leaves it. -/
theorem r140 (m' : (ℓ : Loc Cert.ReferenceIdeal.nD Cert.ReferenceIdeal.τ Cert.ReferenceIdeal.sig) → Buf (Elt Ideal) ℓ) (c : Dev Cert.KernelIdeal.nD) : Cert.ReferenceIdeal.Value.U3 m' c (Proc.devRef .tc Cert.ReferenceIdeal.main_v140) = (fun i => shapeCast Cert.ReferenceIdeal.S64x64 (extractStridedSlice Cert.ReferenceIdeal.S1x64x64 ![3, 0, 0] (m' ((c.tc : Thread Cert.ReferenceIdeal.nD Cert.ReferenceIdeal.τ).loc Cert.ReferenceIdeal.main_arg9)) Cert.ReferenceIdeal.Gen.slices_S8x64x64_S1x64x64_3_0_0) Cert.ReferenceIdeal.Gen.shapeCasts_S1x64x64_S64x64 i) := by
  have e : Cert.ReferenceIdeal.Value.U2 m' c (Proc.devRef .tc Cert.ReferenceIdeal.main_arg9) = m' ((c.tc : Thread Cert.ReferenceIdeal.nD Cert.ReferenceIdeal.τ).loc Cert.ReferenceIdeal.main_arg9) :=
    (Cert.ReferenceIdeal.Value.U2_of m' c Cert.ReferenceIdeal.main_arg9 (by decide)).trans ((Cert.ReferenceIdeal.Value.U1_of m' c Cert.ReferenceIdeal.main_arg9 (by decide)).trans rfl)
  rw [← e]
  show StableHlo.after Cert.ReferenceIdeal.Value.ops2 (Cert.ReferenceIdeal.Value.U2 m' c) (Proc.devRef .tc Cert.ReferenceIdeal.main_v140) = _
  generalize Cert.ReferenceIdeal.Value.U2 m' c = V
  after_results_simp <;> rfl
/-- The bias of edge type 3. -/
theorem r142 (m' : (ℓ : Loc Cert.ReferenceIdeal.nD Cert.ReferenceIdeal.τ Cert.ReferenceIdeal.sig) → Buf (Elt Ideal) ℓ) (c : Dev Cert.KernelIdeal.nD) : Cert.ReferenceIdeal.Value.U3 m' c (Proc.devRef .tc Cert.ReferenceIdeal.main_v142) = (fun i => shapeCast Cert.ReferenceIdeal.S64 (extractStridedSlice Cert.ReferenceIdeal.S1x64 ![3, 0] (m' ((c.tc : Thread Cert.ReferenceIdeal.nD Cert.ReferenceIdeal.τ).loc Cert.ReferenceIdeal.main_arg10)) Cert.ReferenceIdeal.Gen.slices_S8x64_S1x64_3_0) Cert.ReferenceIdeal.Gen.shapeCasts_S1x64_S64 i) := by
  have e : Cert.ReferenceIdeal.Value.U2 m' c (Proc.devRef .tc Cert.ReferenceIdeal.main_arg10) = m' ((c.tc : Thread Cert.ReferenceIdeal.nD Cert.ReferenceIdeal.τ).loc Cert.ReferenceIdeal.main_arg10) :=
    (Cert.ReferenceIdeal.Value.U2_of m' c Cert.ReferenceIdeal.main_arg10 (by decide)).trans ((Cert.ReferenceIdeal.Value.U1_of m' c Cert.ReferenceIdeal.main_arg10 (by decide)).trans rfl)
  rw [← e]
  show StableHlo.after Cert.ReferenceIdeal.Value.ops2 (Cert.ReferenceIdeal.Value.U2 m' c) (Proc.devRef .tc Cert.ReferenceIdeal.main_v142) = _
  generalize Cert.ReferenceIdeal.Value.U2 m' c = V
  after_results_simp <;> rfl
/-- The right weight of edge type 3. -/
theorem r144 (m' : (ℓ : Loc Cert.ReferenceIdeal.nD Cert.ReferenceIdeal.τ Cert.ReferenceIdeal.sig) → Buf (Elt Ideal) ℓ) (c : Dev Cert.KernelIdeal.nD) : Cert.ReferenceIdeal.Value.U3 m' c (Proc.devRef .tc Cert.ReferenceIdeal.main_v144) = (fun i => shapeCast Cert.ReferenceIdeal.S64x64 (extractStridedSlice Cert.ReferenceIdeal.S1x64x64 ![3, 0, 0] (m' ((c.tc : Thread Cert.ReferenceIdeal.nD Cert.ReferenceIdeal.τ).loc Cert.ReferenceIdeal.main_arg11)) Cert.ReferenceIdeal.Gen.slices_S8x64x64_S1x64x64_3_0_0) Cert.ReferenceIdeal.Gen.shapeCasts_S1x64x64_S64x64 i) := by
  have e : Cert.ReferenceIdeal.Value.U2 m' c (Proc.devRef .tc Cert.ReferenceIdeal.main_arg11) = m' ((c.tc : Thread Cert.ReferenceIdeal.nD Cert.ReferenceIdeal.τ).loc Cert.ReferenceIdeal.main_arg11) :=
    (Cert.ReferenceIdeal.Value.U2_of m' c Cert.ReferenceIdeal.main_arg11 (by decide)).trans ((Cert.ReferenceIdeal.Value.U1_of m' c Cert.ReferenceIdeal.main_arg11 (by decide)).trans rfl)
  rw [← e]
  show StableHlo.after Cert.ReferenceIdeal.Value.ops2 (Cert.ReferenceIdeal.Value.U2 m' c) (Proc.devRef .tc Cert.ReferenceIdeal.main_v144) = _
  generalize Cert.ReferenceIdeal.Value.U2 m' c = V
  after_results_simp <;> rfl
/-- The genres' features reach window 3 as launched. -/
theorem r_arg2 (m' : (ℓ : Loc Cert.ReferenceIdeal.nD Cert.ReferenceIdeal.τ Cert.ReferenceIdeal.sig) → Buf (Elt Ideal) ℓ) (c : Dev Cert.KernelIdeal.nD) : Cert.ReferenceIdeal.Value.U3 m' c (Proc.devRef .tc Cert.ReferenceIdeal.main_arg2) = m' ((c.tc : Thread Cert.ReferenceIdeal.nD Cert.ReferenceIdeal.τ).loc Cert.ReferenceIdeal.main_arg2) :=
  (rkeep3 m' c Cert.ReferenceIdeal.main_arg2 (by decide) (by decide) (by decide)).trans rfl

/-! ## The kernel program's weight buffers before region 4 -/

/-- The left weight as the region takes it. -/
theorem k206 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W31 m ρ c (Proc.devRef .tc Cert.KernelIdeal.main_v206) = (transpose Cert.KernelIdeal.S64x64 [1, 0] (fun i => shapeCast Cert.KernelIdeal.S64x64 (extractStridedSlice Cert.KernelIdeal.S1x64x64 ![3, 0, 0] (m' ((c.tc : Thread Cert.ReferenceIdeal.nD Cert.ReferenceIdeal.τ).loc Cert.ReferenceIdeal.main_arg9)) Cert.KernelIdeal.Gen.slices_S8x64x64_S1x64x64_3_0_0) Cert.KernelIdeal.Gen.shapeCasts_S1x64x64_S64x64 i) Cert.KernelIdeal.Gen.transposes_S64x64_S64x64_1_0) := by
  have e : Cert.KernelIdeal.Gen.W30 m ρ c (Proc.devRef .tc Cert.KernelIdeal.main_arg9) = m' ((c.tc : Thread Cert.ReferenceIdeal.nD Cert.ReferenceIdeal.τ).loc Cert.ReferenceIdeal.main_arg9) := (Cert.KernelIdeal.Gen.keep_arg9_30 m ρ c).trans (h9 c).symm
  rw [← e]
  show StableHlo.after Cert.KernelIdeal.Gen.hostOps4 (Cert.KernelIdeal.Gen.W30 m ρ c) (Proc.devRef .tc Cert.KernelIdeal.main_v206) = _
  after_results_simp <;> rfl
/-- The bias, summed over the one edge type, as a row. -/
theorem k214 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W31 m ρ c (Proc.devRef .tc Cert.KernelIdeal.main_v214) = (fun i => shapeCast Cert.KernelIdeal.S1x64 (Host.reduceAdd (broadcastInDim Cert.KernelIdeal.S1x64 ![1] Cert.KernelIdeal.Gen.bcast_S64_S1x64_1 (fun i => shapeCast Cert.KernelIdeal.S64 (extractStridedSlice Cert.KernelIdeal.S1x64 ![3, 0] (m' ((c.tc : Thread Cert.ReferenceIdeal.nD Cert.ReferenceIdeal.τ).loc Cert.ReferenceIdeal.main_arg10)) Cert.KernelIdeal.Gen.slices_S8x64_S1x64_3_0) Cert.KernelIdeal.Gen.shapeCasts_S1x64_S64 i)) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i) := by
  have e : Cert.KernelIdeal.Gen.W30 m ρ c (Proc.devRef .tc Cert.KernelIdeal.main_arg10) = m' ((c.tc : Thread Cert.ReferenceIdeal.nD Cert.ReferenceIdeal.τ).loc Cert.ReferenceIdeal.main_arg10) := (Cert.KernelIdeal.Gen.keep_arg10_30 m ρ c).trans (h10 c).symm
  rw [← e]
  show StableHlo.after Cert.KernelIdeal.Gen.hostOps4 (Cert.KernelIdeal.Gen.W30 m ρ c) (Proc.devRef .tc Cert.KernelIdeal.main_v214) = _
  after_results_simp <;> rfl
/-- The right weight, summed over the one edge type. -/
theorem k216 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W31 m ρ c (Proc.devRef .tc Cert.KernelIdeal.main_v216) = Host.reduceAdd (broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![3, 0, 0] (m' ((c.tc : Thread Cert.ReferenceIdeal.nD Cert.ReferenceIdeal.τ).loc Cert.ReferenceIdeal.main_arg11)) Cert.KernelIdeal.Gen.slices_S8x64x64_S1x64x64_3_0_0) Cert.KernelIdeal.Gen.shapeCasts_S1x64x64_S64x64 i) Cert.KernelIdeal.Gen.transposes_S64x64_S64x64_1_0)) (constant (F := Ideal) Cert.KernelIdeal.S_ .f32 0x00000000#32)
          Cert.KernelIdeal.Gen.reducesTo_S1x64x64_S64x64_d0 Cert.KernelIdeal.Gen.h_S_ := by
  have e : Cert.KernelIdeal.Gen.W30 m ρ c (Proc.devRef .tc Cert.KernelIdeal.main_arg11) = m' ((c.tc : Thread Cert.ReferenceIdeal.nD Cert.ReferenceIdeal.τ).loc Cert.ReferenceIdeal.main_arg11) := (Cert.KernelIdeal.Gen.keep_arg11_30 m ρ c).trans (h11 c).symm
  rw [← e]
  show StableHlo.after Cert.KernelIdeal.Gen.hostOps4 (Cert.KernelIdeal.Gen.W30 m ρ c) (Proc.devRef .tc Cert.KernelIdeal.main_v216) = _
  after_results_simp <;> rfl

/-! ## Genres, layer 1: the kernel program's buffer is the reference's -/

/-- The result of region 4 (genres, layer 1) is the reference's relu'd layer sum, given the two launch memories agree on
    the arguments, the summed messages agree and the in-degrees agree. -/
theorem S_g1 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h2 : ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hagg : ∀ c : Dev Cert.KernelIdeal.nD, Cert.KernelIdeal.Gen.W31 m ρ c (Proc.devRef .tc Cert.KernelIdeal.main_v203) = Cert.ReferenceIdeal.Value.U3 m' c (Proc.devRef .tc Cert.ReferenceIdeal.main_v154))
    (hcnt : ∀ c : Dev Cert.KernelIdeal.nD, Cert.KernelIdeal.Gen.W5 m ρ c (Proc.devRef .tc Cert.KernelIdeal.main_v53) = Cert.ReferenceIdeal.Value.U4 m' c (Proc.devRef .tc Cert.ReferenceIdeal.main_v158))
    (c : Dev Cert.KernelIdeal.nD) :
    Cert.KernelIdeal.Gen.W32 m ρ c (Proc.devRef .tc Cert.KernelIdeal.main_v217) = Cert.ReferenceIdeal.Value.U6 m' c (Proc.devRef .tc Cert.ReferenceIdeal.main_v303) := by
  have hK : Cert.KernelIdeal.Gen.W32 m ρ c (Proc.devRef .tc Cert.KernelIdeal.main_v217) = Cert.KernelIdeal.Gen.G4 (Cert.KernelIdeal.Gen.W31 m ρ c (Proc.devRef .tc Cert.KernelIdeal.main_v203)) (Cert.KernelIdeal.Gen.W31 m ρ c (Proc.devRef .tc Cert.KernelIdeal.main_v53)) (Cert.KernelIdeal.Gen.W31 m ρ c (Proc.devRef .tc Cert.KernelIdeal.main_arg2)) (Cert.KernelIdeal.Gen.W31 m ρ c (Proc.devRef .tc Cert.KernelIdeal.main_v206)) (Cert.KernelIdeal.Gen.W31 m ρ c (Proc.devRef .tc Cert.KernelIdeal.main_v214)) (Cert.KernelIdeal.Gen.W31 m ρ c (Proc.devRef .tc Cert.KernelIdeal.main_v216)) :=
    (Cert.KernelIdeal.Gen.W32_arr m ρ c 6).trans (Cert.KernelIdeal.Gen.final4 (Cert.KernelIdeal.Gen.V31 m ρ) c)
  have e2 : Cert.KernelIdeal.Gen.W31 m ρ c (Proc.devRef .tc Cert.KernelIdeal.main_arg2) = m' ((c.tc : Thread Cert.ReferenceIdeal.nD Cert.ReferenceIdeal.τ).loc Cert.ReferenceIdeal.main_arg2) := (Cert.KernelIdeal.Gen.keep_arg2_31 m ρ c).trans (h2 c).symm
  have e53 : Cert.KernelIdeal.Gen.W31 m ρ c (Proc.devRef .tc Cert.KernelIdeal.main_v53) = Cert.ReferenceIdeal.Value.U4 m' c (Proc.devRef .tc Cert.ReferenceIdeal.main_v158) := (Cert.KernelIdeal.Gen.keep_v53_31 m ρ c).trans (hcnt c)
  rw [hK, hagg c, e53, e2, k206 m ρ m' h9 c, k214 m ρ m' h10 c, k216 m ρ m' h11 c,
    r303 m' c, Cert.ReferenceIdeal.Value.U5_of m' c Cert.ReferenceIdeal.main_v170 (by decide), r170 m' c, r140 m' c, r142 m' c, r144 m' c, r_arg2 m' c]
  exact core_g1 _ _ _ _ _ _

/-! ## Type, layer 1: the reference's product and broadcasts at an index, 10 rows -/

theorem rlhs10_0 (i : Cert.ReferenceIdeal.S10x64.Idx) (q : Cert.ReferenceIdeal.dot_S10x64_S64x64_S10x64_1_0_0_1_n_n.contr.Idx) : (Cert.ReferenceIdeal.dot_S10x64_S64x64_S10x64_1_0_0_1_n_n.lhsIdx i q 0).val = (i 0).val := by
  unfold DotDims.lhsIdx
  rw [dif_neg (show ¬(0 : Fin Cert.ReferenceIdeal.S10x64.rank) ∈ Cert.ReferenceIdeal.dot_S10x64_S64x64_S10x64_1_0_0_1_n_n.lhsBatch by decide), dif_pos (show (0 : Fin Cert.ReferenceIdeal.S10x64.rank) ∈ Cert.ReferenceIdeal.dot_S10x64_S64x64_S10x64_1_0_0_1_n_n.lhsNonContracting by decide)]
  rfl
theorem rlhs10_1 (i : Cert.ReferenceIdeal.S10x64.Idx) (q : Cert.ReferenceIdeal.dot_S10x64_S64x64_S10x64_1_0_0_1_n_n.contr.Idx) : (Cert.ReferenceIdeal.dot_S10x64_S64x64_S10x64_1_0_0_1_n_n.lhsIdx i q 1).val = (q ⟨0, by decide⟩).val :=
  Cert.ReferenceIdeal.dot_S10x64_S64x64_S10x64_1_0_0_1_n_n.lhsIdx_val_of_single rfl i q
theorem rrhs10_0 (i : Cert.ReferenceIdeal.S10x64.Idx) (q : Cert.ReferenceIdeal.dot_S10x64_S64x64_S10x64_1_0_0_1_n_n.contr.Idx) : (Cert.ReferenceIdeal.dot_S10x64_S64x64_S10x64_1_0_0_1_n_n.rhsIdx i q 0).val = (q ⟨0, by decide⟩).val :=
  Cert.ReferenceIdeal.dot_S10x64_S64x64_S10x64_1_0_0_1_n_n.rhsIdx_val_of_single rfl i q
theorem rrhs10_1 (i : Cert.ReferenceIdeal.S10x64.Idx) (q : Cert.ReferenceIdeal.dot_S10x64_S64x64_S10x64_1_0_0_1_n_n.contr.Idx) : (Cert.ReferenceIdeal.dot_S10x64_S64x64_S10x64_1_0_0_1_n_n.rhsIdx i q 1).val = (i 1).val := by
  unfold DotDims.rhsIdx
  rw [dif_neg (show ¬(1 : Fin Cert.ReferenceIdeal.S64x64.rank) ∈ Cert.ReferenceIdeal.dot_S10x64_S64x64_S10x64_1_0_0_1_n_n.rhsBatch by decide), dif_pos (show (1 : Fin Cert.ReferenceIdeal.S64x64.rank) ∈ Cert.ReferenceIdeal.dot_S10x64_S64x64_S10x64_1_0_0_1_n_n.rhsNonContracting by decide)]
  rfl

/-- The host's product of a 10x64 by a 64x64 array at `(p, q)`: the sum over the 64 lanes of the operands' products. -/
theorem rdot10_apply (A : FVec Ideal Cert.ReferenceIdeal.S10x64 .f32) (B : FVec Ideal Cert.ReferenceIdeal.S64x64 .f32) (p : Fin 10) (q : Fin 64) :
    Host.dotGeneral Cert.ReferenceIdeal.dot_S10x64_S64x64_S10x64_1_0_0_1_n_n none A B (ix2 p q) = ∑ k : Fin 64, A (ix2 p k) * B (ix2 k q) := by
  simp only [Host.dotGeneral]
  rw [Ideal.dotGeneral_apply, ← Equiv.sum_comp (ValueIdx.contrEquiv1 Cert.ReferenceIdeal.dot_S10x64_S64x64_S10x64_1_0_0_1_n_n 64 rfl rfl).symm]
  refine Finset.sum_congr rfl fun k _ => ?_
  have hk := ValueIdx.contrEquiv1_symm_val Cert.ReferenceIdeal.dot_S10x64_S64x64_S10x64_1_0_0_1_n_n 64 rfl rfl k
  have el : Cert.ReferenceIdeal.dot_S10x64_S64x64_S10x64_1_0_0_1_n_n.lhsIdx (ix2 p q) ((ValueIdx.contrEquiv1 Cert.ReferenceIdeal.dot_S10x64_S64x64_S10x64_1_0_0_1_n_n 64 rfl rfl).symm k) = ix2 p k := funext fun a => Fin.ext (by
    match a with
    | ⟨0, _⟩ => exact rlhs10_0 _ _
    | ⟨1, _⟩ => exact (rlhs10_1 _ _).trans hk)
  have er : Cert.ReferenceIdeal.dot_S10x64_S64x64_S10x64_1_0_0_1_n_n.rhsIdx (ix2 p q) ((ValueIdx.contrEquiv1 Cert.ReferenceIdeal.dot_S10x64_S64x64_S10x64_1_0_0_1_n_n 64 rfl rfl).symm k) = ix2 k q := funext fun a => Fin.ext (by
    match a with
    | ⟨0, _⟩ => exact (rrhs10_0 _ _).trans hk
    | ⟨1, _⟩ => exact rrhs10_1 _ _)
  rw [el, er]

/-- The counts' column `[10, 1]` broadcast along the lanes reads, at `(p, k)`, the column at row `p`. -/
theorem rbcol10_apply (y : FVec Ideal Cert.ReferenceIdeal.S10x1 .f32) (p : Fin 10) (k : Fin 64) :
    broadcastInDim Cert.ReferenceIdeal.S10x64 ![0, 1] Cert.ReferenceIdeal.Gen.bcast_S10x1_S10x64_0_1 y (ix2 p k) = y (ix2 p (0 : Fin 1)) :=
  broadcastInDim_apply _ Cert.ReferenceIdeal.Gen.bcast_S10x1_S10x64_0_1 y (ix2 p k) (ix2 p (0 : Fin 1)) (fun a => match a with
    | ⟨0, _⟩ => by show p.val = if (10 : Nat) = 1 then 0 else p.val; rw [if_neg (by decide)]
    | ⟨1, _⟩ => by show 0 = if (1 : Nat) = 1 then 0 else k.val; rw [if_pos rfl])

/-- The bias row `[1, 64]` broadcast along the 10 rows reads, at `(p, q)`, the row at lane `q`. -/
theorem rbrow10_apply (y : FVec Ideal Cert.ReferenceIdeal.S1x64 .f32) (p : Fin 10) (q : Fin 64) :
    broadcastInDim Cert.ReferenceIdeal.S10x64 ![0, 1] Cert.ReferenceIdeal.Gen.bcast_S1x64_S10x64_0_1 y (ix2 p q) = y (ix2 (0 : Fin 1) q) :=
  broadcastInDim_apply _ Cert.ReferenceIdeal.Gen.bcast_S1x64_S10x64_0_1 y (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The region's function at `(p, q)`, spelled out. -/
theorem G6_apply (agg : Cert.KernelIdeal.S10x64.Idx → EReal) (cnt : Cert.KernelIdeal.S10x1.Idx → EReal) (xdst : Cert.KernelIdeal.S10x64.Idx → EReal) (wl : Cert.KernelIdeal.S64x64.Idx → EReal)
    (bias : Cert.KernelIdeal.S1x64.Idx → EReal) (wr : Cert.KernelIdeal.S64x64.Idx → EReal) (p : Fin 10) (q : Fin 64) :
    Cert.KernelIdeal.Gen.G6 agg cnt xdst wl bias wr (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := rfl

/-- 10 rows: the region's result on the kernel program's inputs — the bias and the right weight each a one-term sum from
    zero — is the reference's expression, neighbour mean first, then bias, then the destination term, under the final
    maximum with zero. One edge type: a reordering of three summands. -/
theorem core_t1 (A : FVec Ideal Cert.ReferenceIdeal.S10x64 .f32) (C : FVec Ideal Cert.ReferenceIdeal.S10x1 .f32) (X : FVec Ideal Cert.ReferenceIdeal.S10x64 .f32)
    (WLt WRt : FVec Ideal Cert.ReferenceIdeal.S64x64 .f32) (bS : FVec Ideal Cert.ReferenceIdeal.S64 .f32) :
    Cert.KernelIdeal.Gen.G6 A C X WLt
        (fun i => shapeCast Cert.KernelIdeal.S1x64 (Host.reduceAdd (broadcastInDim Cert.KernelIdeal.S1x64 ![1] Cert.KernelIdeal.Gen.bcast_S64_S1x64_1 bS) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i)
        (Host.reduceAdd (broadcastInDim Cert.KernelIdeal.S1x64x64 ![1, 2] Cert.KernelIdeal.Gen.bcast_S64x64_S1x64x64_1_2 WRt) (constant (F := Ideal) Cert.KernelIdeal.S_ .f32 0x00000000#32)
          Cert.KernelIdeal.Gen.reducesTo_S1x64x64_S64x64_d0 Cert.KernelIdeal.Gen.h_S_)
      = maximumf
      (addf
        (addf
          (Host.dotGeneral Cert.ReferenceIdeal.dot_S10x64_S64x64_S10x64_1_0_0_1_n_n none
            (Host.divf A (broadcastInDim Cert.ReferenceIdeal.S10x64 ![0, 1] Cert.ReferenceIdeal.Gen.bcast_S10x1_S10x64_0_1
              (maximumf C (broadcastInDim Cert.ReferenceIdeal.S10x1 ![] Cert.ReferenceIdeal.Gen.bcast_S_S10x1 (constant (F := Ideal) Cert.ReferenceIdeal.S_ .f32 0x3F800000#32)))))
            WLt)
          (broadcastInDim Cert.ReferenceIdeal.S10x64 ![0, 1] Cert.ReferenceIdeal.Gen.bcast_S1x64_S10x64_0_1 (broadcastInDim Cert.ReferenceIdeal.S1x64 ![1] Cert.ReferenceIdeal.Gen.bcast_S64_S1x64_1 bS)))
        (Host.dotGeneral Cert.ReferenceIdeal.dot_S10x64_S64x64_S10x64_1_0_0_1_n_n none X WRt))
      (broadcastInDim Cert.ReferenceIdeal.S10x64 ![] Cert.ReferenceIdeal.Gen.bcast_S_S10x64 (constant (F := Ideal) Cert.ReferenceIdeal.S_ .f32 0x00000000#32)) := by
  funext i
  obtain ⟨p, q, rfl⟩ : ∃ (p : Fin 10) (q : Fin 64), i = ix2 p q := ⟨i 0, i 1, eq_ix2 i⟩
  have hL : (Cert.KernelIdeal.Gen.G6 A C X WLt
        (fun i => shapeCast Cert.KernelIdeal.S1x64 (Host.reduceAdd (broadcastInDim Cert.KernelIdeal.S1x64 ![1] Cert.KernelIdeal.Gen.bcast_S64_S1x64_1 bS) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i)
        (Host.reduceAdd (broadcastInDim Cert.KernelIdeal.S1x64x64 ![1, 2] Cert.KernelIdeal.Gen.bcast_S64x64_S1x64x64_1_2 WRt) (constant (F := Ideal) Cert.KernelIdeal.S_ .f32 0x00000000#32)
          Cert.KernelIdeal.Gen.reducesTo_S1x64x64_S64x64_d0 Cert.KernelIdeal.Gen.h_S_)) (ix2 p q)
      = max (((∑ k : Fin 64, X (ix2 p k) * (0 + ∑ _i : Fin 1, WRt (ix2 k q))) + (0 + ∑ _i : Fin 1, bS (ix1 q)))
          + ∑ k : Fin 64, Ideal.div (A (ix2 p k)) (max (C (ix2 p (0 : Fin 1))) (Ideal.ofBits .f32 0x3F800000#32)) * WLt (ix2 k q)) 0 := by
    rw [G6_apply]
    exact congrArg₂ max (congrArg₂ (· + ·) (congrArg₂ (· + ·)
      (Finset.sum_congr rfl fun k _ => congrArg (X (ix2 p k) * ·) (ksumW_apply WRt k q)) (ksumB_apply bS q)) rfl) rfl
  have hdiv : ∀ k : Fin 64, Host.divf A (broadcastInDim Cert.ReferenceIdeal.S10x64 ![0, 1] Cert.ReferenceIdeal.Gen.bcast_S10x1_S10x64_0_1
        (maximumf C (broadcastInDim Cert.ReferenceIdeal.S10x1 ![] Cert.ReferenceIdeal.Gen.bcast_S_S10x1 (constant (F := Ideal) Cert.ReferenceIdeal.S_ .f32 0x3F800000#32)))) (ix2 p k)
      = Ideal.div (A (ix2 p k)) (max (C (ix2 p (0 : Fin 1))) (Ideal.ofBits .f32 0x3F800000#32)) := fun k => by
    rw [hostDivf_apply, rbcol10_apply, maximumf_apply, broadcastInDim_scalar_apply]
    rfl
  have hR : (maximumf
      (addf
        (addf
          (Host.dotGeneral Cert.ReferenceIdeal.dot_S10x64_S64x64_S10x64_1_0_0_1_n_n none
            (Host.divf A (broadcastInDim Cert.ReferenceIdeal.S10x64 ![0, 1] Cert.ReferenceIdeal.Gen.bcast_S10x1_S10x64_0_1
              (maximumf C (broadcastInDim Cert.ReferenceIdeal.S10x1 ![] Cert.ReferenceIdeal.Gen.bcast_S_S10x1 (constant (F := Ideal) Cert.ReferenceIdeal.S_ .f32 0x3F800000#32)))))
            WLt)
          (broadcastInDim Cert.ReferenceIdeal.S10x64 ![0, 1] Cert.ReferenceIdeal.Gen.bcast_S1x64_S10x64_0_1 (broadcastInDim Cert.ReferenceIdeal.S1x64 ![1] Cert.ReferenceIdeal.Gen.bcast_S64_S1x64_1 bS)))
        (Host.dotGeneral Cert.ReferenceIdeal.dot_S10x64_S64x64_S10x64_1_0_0_1_n_n none X WRt))
      (broadcastInDim Cert.ReferenceIdeal.S10x64 ![] Cert.ReferenceIdeal.Gen.bcast_S_S10x64 (constant (F := Ideal) Cert.ReferenceIdeal.S_ .f32 0x00000000#32))) (ix2 p q)
      = max (((∑ k : Fin 64, Ideal.div (A (ix2 p k)) (max (C (ix2 p (0 : Fin 1))) (Ideal.ofBits .f32 0x3F800000#32)) * WLt (ix2 k q)) + bS (ix1 q))
          + ∑ k : Fin 64, X (ix2 p k) * WRt (ix2 k q)) 0 := by
    rw [maximumf_apply, addf_apply, addf_apply, rdot10_apply, rdot10_apply, rbrow10_apply, rvec_row_apply, broadcastInDim_scalar_apply]
    exact congrArg₂ max (congrArg₂ (· + ·) (congrArg₂ (· + ·)
      (Finset.sum_congr rfl fun k _ => congrArg (· * WLt (ix2 k q)) (hdiv k)) rfl) rfl) Ideal.ofBits_zero_f32
  rw [hL, hR]
  exact Cert.Math.sage1_relu (fun u d => Ideal.div u (max d (Ideal.ofBits .f32 0x3F800000#32))) (fun k => X (ix2 p k)) (fun k => A (ix2 p k))
    (fun k => WLt (ix2 k q)) (fun k => WRt (ix2 k q)) (C (ix2 p (0 : Fin 1))) (bS (ix1 q)) 0

/-! ## Type, layer 1: the readings -/

set_option maxHeartbeats 4000000 in
/-- Type after the relu, all in the reference's window 5: from the summed messages and the in-degrees that window makes,
    the features, and the weights and bias of edge type 7. -/
theorem r305 (m' : (ℓ : Loc Cert.ReferenceIdeal.nD Cert.ReferenceIdeal.τ Cert.ReferenceIdeal.sig) → Buf (Elt Ideal) ℓ) (c : Dev Cert.KernelIdeal.nD) :
    Cert.ReferenceIdeal.Value.U6 m' c (Proc.devRef .tc Cert.ReferenceIdeal.main_v305)
      = maximumf
      (addf
        (addf
          (Host.dotGeneral (φ₁ := .f32) (φ₂ := .f32) Cert.ReferenceIdeal.dot_S10x64_S64x64_S10x64_1_0_0_1_n_n none
            (Host.divf (StableHlo.after Cert.ReferenceIdeal.Value.ops5 (Cert.ReferenceIdeal.Value.U5 m' c) (Proc.devRef .tc Cert.ReferenceIdeal.main_v284) : FVec Ideal Cert.ReferenceIdeal.S10x64 .f32) (broadcastInDim Cert.ReferenceIdeal.S10x64 ![0, 1] Cert.ReferenceIdeal.Gen.bcast_S10x1_S10x64_0_1
              (maximumf (StableHlo.after Cert.ReferenceIdeal.Value.ops5 (Cert.ReferenceIdeal.Value.U5 m' c) (Proc.devRef .tc Cert.ReferenceIdeal.main_v288) : FVec Ideal Cert.ReferenceIdeal.S10x1 .f32) (broadcastInDim Cert.ReferenceIdeal.S10x1 ![] Cert.ReferenceIdeal.Gen.bcast_S_S10x1 (constant (F := Ideal) Cert.ReferenceIdeal.S_ .f32 0x3F800000#32)))))
            (transpose (α := Ideal .f32) Cert.ReferenceIdeal.S64x64 [1, 0] (fun i => shapeCast Cert.ReferenceIdeal.S64x64 (extractStridedSlice Cert.ReferenceIdeal.S1x64x64 ![7, 0, 0] (m' ((c.tc : Thread Cert.ReferenceIdeal.nD Cert.ReferenceIdeal.τ).loc Cert.ReferenceIdeal.main_arg9)) Cert.ReferenceIdeal.Gen.slices_S8x64x64_S1x64x64_7_0_0) Cert.ReferenceIdeal.Gen.shapeCasts_S1x64x64_S64x64 i) Cert.ReferenceIdeal.Gen.transposes_S64x64_S64x64_1_0))
          (broadcastInDim Cert.ReferenceIdeal.S10x64 ![0, 1] Cert.ReferenceIdeal.Gen.bcast_S1x64_S10x64_0_1 (broadcastInDim Cert.ReferenceIdeal.S1x64 ![1] Cert.ReferenceIdeal.Gen.bcast_S64_S1x64_1 (fun i => shapeCast Cert.ReferenceIdeal.S64 (extractStridedSlice Cert.ReferenceIdeal.S1x64 ![7, 0] (m' ((c.tc : Thread Cert.ReferenceIdeal.nD Cert.ReferenceIdeal.τ).loc Cert.ReferenceIdeal.main_arg10)) Cert.ReferenceIdeal.Gen.slices_S8x64_S1x64_7_0) Cert.ReferenceIdeal.Gen.shapeCasts_S1x64_S64 i))))
        (Host.dotGeneral (φ₁ := .f32) (φ₂ := .f32) Cert.ReferenceIdeal.dot_S10x64_S64x64_S10x64_1_0_0_1_n_n none (m' ((c.tc : Thread Cert.ReferenceIdeal.nD Cert.ReferenceIdeal.τ).loc Cert.ReferenceIdeal.main_arg4) : FVec Ideal Cert.ReferenceIdeal.S10x64 .f32) (transpose (α := Ideal .f32) Cert.ReferenceIdeal.S64x64 [1, 0] (fun i => shapeCast Cert.ReferenceIdeal.S64x64 (extractStridedSlice Cert.ReferenceIdeal.S1x64x64 ![7, 0, 0] (m' ((c.tc : Thread Cert.ReferenceIdeal.nD Cert.ReferenceIdeal.τ).loc Cert.ReferenceIdeal.main_arg11)) Cert.ReferenceIdeal.Gen.slices_S8x64x64_S1x64x64_7_0_0) Cert.ReferenceIdeal.Gen.shapeCasts_S1x64x64_S64x64 i) Cert.ReferenceIdeal.Gen.transposes_S64x64_S64x64_1_0)))
      (broadcastInDim Cert.ReferenceIdeal.S10x64 ![] Cert.ReferenceIdeal.Gen.bcast_S_S10x64 (constant (F := Ideal) Cert.ReferenceIdeal.S_ .f32 0x00000000#32)) := by
  have e4 : Cert.ReferenceIdeal.Value.U5 m' c (Proc.devRef .tc Cert.ReferenceIdeal.main_arg4) = m' ((c.tc : Thread Cert.ReferenceIdeal.nD Cert.ReferenceIdeal.τ).loc Cert.ReferenceIdeal.main_arg4) := (Cert.ReferenceIdeal.Value.U5_of m' c Cert.ReferenceIdeal.main_arg4 (by decide)).trans ((Cert.ReferenceIdeal.Value.U4_of m' c Cert.ReferenceIdeal.main_arg4 (by decide)).trans ((Cert.ReferenceIdeal.Value.U3_of m' c Cert.ReferenceIdeal.main_arg4 (by decide)).trans ((Cert.ReferenceIdeal.Value.U2_of m' c Cert.ReferenceIdeal.main_arg4 (by decide)).trans ((Cert.ReferenceIdeal.Value.U1_of m' c Cert.ReferenceIdeal.main_arg4 (by decide)).trans rfl))))
  have e9 : Cert.ReferenceIdeal.Value.U5 m' c (Proc.devRef .tc Cert.ReferenceIdeal.main_arg9) = m' ((c.tc : Thread Cert.ReferenceIdeal.nD Cert.ReferenceIdeal.τ).loc Cert.ReferenceIdeal.main_arg9) := (Cert.ReferenceIdeal.Value.U5_of m' c Cert.ReferenceIdeal.main_arg9 (by decide)).trans ((Cert.ReferenceIdeal.Value.U4_of m' c Cert.ReferenceIdeal.main_arg9 (by decide)).trans ((Cert.ReferenceIdeal.Value.U3_of m' c Cert.ReferenceIdeal.main_arg9 (by decide)).trans ((Cert.ReferenceIdeal.Value.U2_of m' c Cert.ReferenceIdeal.main_arg9 (by decide)).trans ((Cert.ReferenceIdeal.Value.U1_of m' c Cert.ReferenceIdeal.main_arg9 (by decide)).trans rfl))))
  have e10 : Cert.ReferenceIdeal.Value.U5 m' c (Proc.devRef .tc Cert.ReferenceIdeal.main_arg10) = m' ((c.tc : Thread Cert.ReferenceIdeal.nD Cert.ReferenceIdeal.τ).loc Cert.ReferenceIdeal.main_arg10) := (Cert.ReferenceIdeal.Value.U5_of m' c Cert.ReferenceIdeal.main_arg10 (by decide)).trans ((Cert.ReferenceIdeal.Value.U4_of m' c Cert.ReferenceIdeal.main_arg10 (by decide)).trans ((Cert.ReferenceIdeal.Value.U3_of m' c Cert.ReferenceIdeal.main_arg10 (by decide)).trans ((Cert.ReferenceIdeal.Value.U2_of m' c Cert.ReferenceIdeal.main_arg10 (by decide)).trans ((Cert.ReferenceIdeal.Value.U1_of m' c Cert.ReferenceIdeal.main_arg10 (by decide)).trans rfl))))
  have e11 : Cert.ReferenceIdeal.Value.U5 m' c (Proc.devRef .tc Cert.ReferenceIdeal.main_arg11) = m' ((c.tc : Thread Cert.ReferenceIdeal.nD Cert.ReferenceIdeal.τ).loc Cert.ReferenceIdeal.main_arg11) := (Cert.ReferenceIdeal.Value.U5_of m' c Cert.ReferenceIdeal.main_arg11 (by decide)).trans ((Cert.ReferenceIdeal.Value.U4_of m' c Cert.ReferenceIdeal.main_arg11 (by decide)).trans ((Cert.ReferenceIdeal.Value.U3_of m' c Cert.ReferenceIdeal.main_arg11 (by decide)).trans ((Cert.ReferenceIdeal.Value.U2_of m' c Cert.ReferenceIdeal.main_arg11 (by decide)).trans ((Cert.ReferenceIdeal.Value.U1_of m' c Cert.ReferenceIdeal.main_arg11 (by decide)).trans rfl))))
  rw [← e4, ← e9, ← e10, ← e11]
  show StableHlo.after Cert.ReferenceIdeal.Value.ops5 (Cert.ReferenceIdeal.Value.U5 m' c) (Proc.devRef .tc Cert.ReferenceIdeal.main_v305) = _
  generalize Cert.ReferenceIdeal.Value.U5 m' c = V
  after_results_simp <;> rfl

/-- The left weight as region 6 takes it. -/
theorem k258 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W40 m ρ c (Proc.devRef .tc Cert.KernelIdeal.main_v258) = (transpose Cert.KernelIdeal.S64x64 [1, 0] (fun i => shapeCast Cert.KernelIdeal.S64x64 (extractStridedSlice Cert.KernelIdeal.S1x64x64 ![7, 0, 0] (m' ((c.tc : Thread Cert.ReferenceIdeal.nD Cert.ReferenceIdeal.τ).loc Cert.ReferenceIdeal.main_arg9)) Cert.KernelIdeal.Gen.slices_S8x64x64_S1x64x64_7_0_0) Cert.KernelIdeal.Gen.shapeCasts_S1x64x64_S64x64 i) Cert.KernelIdeal.Gen.transposes_S64x64_S64x64_1_0) := by
  have e : Cert.KernelIdeal.Gen.W39 m ρ c (Proc.devRef .tc Cert.KernelIdeal.main_arg9) = m' ((c.tc : Thread Cert.ReferenceIdeal.nD Cert.ReferenceIdeal.τ).loc Cert.ReferenceIdeal.main_arg9) := (Cert.KernelIdeal.Gen.keep_arg9_39 m ρ c).trans (h9 c).symm
  rw [← e]
  show StableHlo.after Cert.KernelIdeal.Gen.hostOps6 (Cert.KernelIdeal.Gen.W39 m ρ c) (Proc.devRef .tc Cert.KernelIdeal.main_v258) = _
  after_results_simp <;> rfl
/-- The bias, summed over the one edge type, as a row. -/
theorem k266 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W40 m ρ c (Proc.devRef .tc Cert.KernelIdeal.main_v266) = (fun i => shapeCast Cert.KernelIdeal.S1x64 (Host.reduceAdd (broadcastInDim Cert.KernelIdeal.S1x64 ![1] Cert.KernelIdeal.Gen.bcast_S64_S1x64_1 (fun i => shapeCast Cert.KernelIdeal.S64 (extractStridedSlice Cert.KernelIdeal.S1x64 ![7, 0] (m' ((c.tc : Thread Cert.ReferenceIdeal.nD Cert.ReferenceIdeal.τ).loc Cert.ReferenceIdeal.main_arg10)) Cert.KernelIdeal.Gen.slices_S8x64_S1x64_7_0) Cert.KernelIdeal.Gen.shapeCasts_S1x64_S64 i)) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i) := by
  have e : Cert.KernelIdeal.Gen.W39 m ρ c (Proc.devRef .tc Cert.KernelIdeal.main_arg10) = m' ((c.tc : Thread Cert.ReferenceIdeal.nD Cert.ReferenceIdeal.τ).loc Cert.ReferenceIdeal.main_arg10) := (Cert.KernelIdeal.Gen.keep_arg10_39 m ρ c).trans (h10 c).symm
  rw [← e]
  show StableHlo.after Cert.KernelIdeal.Gen.hostOps6 (Cert.KernelIdeal.Gen.W39 m ρ c) (Proc.devRef .tc Cert.KernelIdeal.main_v266) = _
  after_results_simp <;> rfl
/-- The right weight, summed over the one edge type. -/
theorem k268 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W40 m ρ c (Proc.devRef .tc Cert.KernelIdeal.main_v268) = (Host.reduceAdd (broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![7, 0, 0] (m' ((c.tc : Thread Cert.ReferenceIdeal.nD Cert.ReferenceIdeal.τ).loc Cert.ReferenceIdeal.main_arg11)) Cert.KernelIdeal.Gen.slices_S8x64x64_S1x64x64_7_0_0) Cert.KernelIdeal.Gen.shapeCasts_S1x64x64_S64x64 i) Cert.KernelIdeal.Gen.transposes_S64x64_S64x64_1_0)) (constant (F := Ideal) Cert.KernelIdeal.S_ .f32 0x00000000#32)
          Cert.KernelIdeal.Gen.reducesTo_S1x64x64_S64x64_d0 Cert.KernelIdeal.Gen.h_S_) := by
  have e : Cert.KernelIdeal.Gen.W39 m ρ c (Proc.devRef .tc Cert.KernelIdeal.main_arg11) = m' ((c.tc : Thread Cert.ReferenceIdeal.nD Cert.ReferenceIdeal.τ).loc Cert.ReferenceIdeal.main_arg11) := (Cert.KernelIdeal.Gen.keep_arg11_39 m ρ c).trans (h11 c).symm
  rw [← e]
  show StableHlo.after Cert.KernelIdeal.Gen.hostOps6 (Cert.KernelIdeal.Gen.W39 m ρ c) (Proc.devRef .tc Cert.KernelIdeal.main_v268) = _
  after_results_simp <;> rfl

/-! ## Type, layer 1: the kernel program's buffer is the reference's -/

/-- The result of region 6 (type, layer 1) is the reference's relu'd layer sum, given the two launch memories agree on
    the arguments, the summed messages agree and the in-degrees agree. -/
theorem S_t1 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h4 : ∀ c : Dev Cert.KernelIdeal.nD, m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hagg : ∀ c : Dev Cert.KernelIdeal.nD, Cert.KernelIdeal.Gen.W40 m ρ c (Proc.devRef .tc Cert.KernelIdeal.main_v255) = Cert.ReferenceIdeal.Value.U6 m' c (Proc.devRef .tc Cert.ReferenceIdeal.main_v284))
    (hcnt : ∀ c : Dev Cert.KernelIdeal.nD, Cert.KernelIdeal.Gen.W5 m ρ c (Proc.devRef .tc Cert.KernelIdeal.main_v69) = Cert.ReferenceIdeal.Value.U6 m' c (Proc.devRef .tc Cert.ReferenceIdeal.main_v288))
    (c : Dev Cert.KernelIdeal.nD) :
    Cert.KernelIdeal.Gen.W41 m ρ c (Proc.devRef .tc Cert.KernelIdeal.main_v269) = Cert.ReferenceIdeal.Value.U6 m' c (Proc.devRef .tc Cert.ReferenceIdeal.main_v305) := by
  have hK : Cert.KernelIdeal.Gen.W41 m ρ c (Proc.devRef .tc Cert.KernelIdeal.main_v269) = Cert.KernelIdeal.Gen.G6 (Cert.KernelIdeal.Gen.W40 m ρ c (Proc.devRef .tc Cert.KernelIdeal.main_v255)) (Cert.KernelIdeal.Gen.W40 m ρ c (Proc.devRef .tc Cert.KernelIdeal.main_v69)) (Cert.KernelIdeal.Gen.W40 m ρ c (Proc.devRef .tc Cert.KernelIdeal.main_arg4)) (Cert.KernelIdeal.Gen.W40 m ρ c (Proc.devRef .tc Cert.KernelIdeal.main_v258)) (Cert.KernelIdeal.Gen.W40 m ρ c (Proc.devRef .tc Cert.KernelIdeal.main_v266)) (Cert.KernelIdeal.Gen.W40 m ρ c (Proc.devRef .tc Cert.KernelIdeal.main_v268)) :=
    (Cert.KernelIdeal.Gen.W41_arr m ρ c 6).trans (Cert.KernelIdeal.Gen.final6 (Cert.KernelIdeal.Gen.V40 m ρ) c)
  have e4 : Cert.KernelIdeal.Gen.W40 m ρ c (Proc.devRef .tc Cert.KernelIdeal.main_arg4) = m' ((c.tc : Thread Cert.ReferenceIdeal.nD Cert.ReferenceIdeal.τ).loc Cert.ReferenceIdeal.main_arg4) := (Cert.KernelIdeal.Gen.keep_arg4_40 m ρ c).trans (h4 c).symm
  have e69 : Cert.KernelIdeal.Gen.W40 m ρ c (Proc.devRef .tc Cert.KernelIdeal.main_v69) = Cert.ReferenceIdeal.Value.U6 m' c (Proc.devRef .tc Cert.ReferenceIdeal.main_v288) := (Cert.KernelIdeal.Gen.keep_v69_40 m ρ c).trans (hcnt c)
  rw [hK, hagg c, e69, e4, k258 m ρ m' h9 c, k266 m ρ m' h10 c, k268 m ρ m' h11 c, r305 m' c]
  exact core_t1 _ _ _ _ _ _

/-! ## Writer, layer 1: the reference's product and broadcasts at an index, 20000 rows -/

theorem rlhs20000_0 (i : Cert.ReferenceIdeal.S20000x64.Idx) (q : Cert.ReferenceIdeal.dot_S20000x64_S64x64_S20000x64_1_0_0_1_n_n.contr.Idx) : (Cert.ReferenceIdeal.dot_S20000x64_S64x64_S20000x64_1_0_0_1_n_n.lhsIdx i q 0).val = (i 0).val := by
  unfold DotDims.lhsIdx
  rw [dif_neg (show ¬(0 : Fin Cert.ReferenceIdeal.S20000x64.rank) ∈ Cert.ReferenceIdeal.dot_S20000x64_S64x64_S20000x64_1_0_0_1_n_n.lhsBatch by decide), dif_pos (show (0 : Fin Cert.ReferenceIdeal.S20000x64.rank) ∈ Cert.ReferenceIdeal.dot_S20000x64_S64x64_S20000x64_1_0_0_1_n_n.lhsNonContracting by decide)]
  rfl
theorem rlhs20000_1 (i : Cert.ReferenceIdeal.S20000x64.Idx) (q : Cert.ReferenceIdeal.dot_S20000x64_S64x64_S20000x64_1_0_0_1_n_n.contr.Idx) : (Cert.ReferenceIdeal.dot_S20000x64_S64x64_S20000x64_1_0_0_1_n_n.lhsIdx i q 1).val = (q ⟨0, by decide⟩).val :=
  Cert.ReferenceIdeal.dot_S20000x64_S64x64_S20000x64_1_0_0_1_n_n.lhsIdx_val_of_single rfl i q
theorem rrhs20000_0 (i : Cert.ReferenceIdeal.S20000x64.Idx) (q : Cert.ReferenceIdeal.dot_S20000x64_S64x64_S20000x64_1_0_0_1_n_n.contr.Idx) : (Cert.ReferenceIdeal.dot_S20000x64_S64x64_S20000x64_1_0_0_1_n_n.rhsIdx i q 0).val = (q ⟨0, by decide⟩).val :=
  Cert.ReferenceIdeal.dot_S20000x64_S64x64_S20000x64_1_0_0_1_n_n.rhsIdx_val_of_single rfl i q
theorem rrhs20000_1 (i : Cert.ReferenceIdeal.S20000x64.Idx) (q : Cert.ReferenceIdeal.dot_S20000x64_S64x64_S20000x64_1_0_0_1_n_n.contr.Idx) : (Cert.ReferenceIdeal.dot_S20000x64_S64x64_S20000x64_1_0_0_1_n_n.rhsIdx i q 1).val = (i 1).val := by
  unfold DotDims.rhsIdx
  rw [dif_neg (show ¬(1 : Fin Cert.ReferenceIdeal.S64x64.rank) ∈ Cert.ReferenceIdeal.dot_S20000x64_S64x64_S20000x64_1_0_0_1_n_n.rhsBatch by decide), dif_pos (show (1 : Fin Cert.ReferenceIdeal.S64x64.rank) ∈ Cert.ReferenceIdeal.dot_S20000x64_S64x64_S20000x64_1_0_0_1_n_n.rhsNonContracting by decide)]
  rfl

/-- The host's product of a 20000x64 by a 64x64 array at `(p, q)`: the sum over the 64 lanes of the operands' products. -/
theorem rdot20000_apply (A : FVec Ideal Cert.ReferenceIdeal.S20000x64 .f32) (B : FVec Ideal Cert.ReferenceIdeal.S64x64 .f32) (p : Fin 20000) (q : Fin 64) :
    Host.dotGeneral Cert.ReferenceIdeal.dot_S20000x64_S64x64_S20000x64_1_0_0_1_n_n none A B (ix2 p q) = ∑ k : Fin 64, A (ix2 p k) * B (ix2 k q) := by
  simp only [Host.dotGeneral]
  rw [Ideal.dotGeneral_apply, ← Equiv.sum_comp (ValueIdx.contrEquiv1 Cert.ReferenceIdeal.dot_S20000x64_S64x64_S20000x64_1_0_0_1_n_n 64 rfl rfl).symm]
  refine Finset.sum_congr rfl fun k _ => ?_
  have hk := ValueIdx.contrEquiv1_symm_val Cert.ReferenceIdeal.dot_S20000x64_S64x64_S20000x64_1_0_0_1_n_n 64 rfl rfl k
  have el : Cert.ReferenceIdeal.dot_S20000x64_S64x64_S20000x64_1_0_0_1_n_n.lhsIdx (ix2 p q) ((ValueIdx.contrEquiv1 Cert.ReferenceIdeal.dot_S20000x64_S64x64_S20000x64_1_0_0_1_n_n 64 rfl rfl).symm k) = ix2 p k := funext fun a => Fin.ext (by
    match a with
    | ⟨0, _⟩ => exact rlhs20000_0 _ _
    | ⟨1, _⟩ => exact (rlhs20000_1 _ _).trans hk)
  have er : Cert.ReferenceIdeal.dot_S20000x64_S64x64_S20000x64_1_0_0_1_n_n.rhsIdx (ix2 p q) ((ValueIdx.contrEquiv1 Cert.ReferenceIdeal.dot_S20000x64_S64x64_S20000x64_1_0_0_1_n_n 64 rfl rfl).symm k) = ix2 k q := funext fun a => Fin.ext (by
    match a with
    | ⟨0, _⟩ => exact (rrhs20000_0 _ _).trans hk
    | ⟨1, _⟩ => exact rrhs20000_1 _ _)
  rw [el, er]

/-- The counts' column `[20000, 1]` broadcast along the lanes reads, at `(p, k)`, the column at row `p`. -/
theorem rbcol20000_apply (y : FVec Ideal Cert.ReferenceIdeal.S20000x1 .f32) (p : Fin 20000) (k : Fin 64) :
    broadcastInDim Cert.ReferenceIdeal.S20000x64 ![0, 1] Cert.ReferenceIdeal.Gen.bcast_S20000x1_S20000x64_0_1 y (ix2 p k) = y (ix2 p (0 : Fin 1)) :=
  broadcastInDim_apply _ Cert.ReferenceIdeal.Gen.bcast_S20000x1_S20000x64_0_1 y (ix2 p k) (ix2 p (0 : Fin 1)) (fun a => match a with
    | ⟨0, _⟩ => by show p.val = if (20000 : Nat) = 1 then 0 else p.val; rw [if_neg (by decide)]
    | ⟨1, _⟩ => by show 0 = if (1 : Nat) = 1 then 0 else k.val; rw [if_pos rfl])

/-- The bias row `[1, 64]` broadcast along the 20000 rows reads, at `(p, q)`, the row at lane `q`. -/
theorem rbrow20000_apply (y : FVec Ideal Cert.ReferenceIdeal.S1x64 .f32) (p : Fin 20000) (q : Fin 64) :
    broadcastInDim Cert.ReferenceIdeal.S20000x64 ![0, 1] Cert.ReferenceIdeal.Gen.bcast_S1x64_S20000x64_0_1 y (ix2 p q) = y (ix2 (0 : Fin 1) q) :=
  broadcastInDim_apply _ Cert.ReferenceIdeal.Gen.bcast_S1x64_S20000x64_0_1 y (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- Region 5's function at `(p, q)` of its 24576 rows, spelled out. -/
theorem G5_apply (agg : Cert.KernelIdeal.S24576x64.Idx → EReal) (cnt : Cert.KernelIdeal.S24576x1.Idx → EReal) (xdst : Cert.KernelIdeal.S24576x64.Idx → EReal) (wl : Cert.KernelIdeal.S64x64.Idx → EReal)
    (bias : Cert.KernelIdeal.S1x64.Idx → EReal) (wr : Cert.KernelIdeal.S64x64.Idx → EReal) (p : Fin 24576) (q : Fin 64) :
    Cert.KernelIdeal.Gen.G5 agg cnt xdst wl bias wr (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := rfl

/-- 20000 rows padded to 24576 for the region and cut back after it: on the kept rows the padding is never read, so the
    region's result on the padded inputs, cut back, is the reference's expression on the unpadded ones. -/
theorem core_w1 (A : FVec Ideal Cert.ReferenceIdeal.S20000x64 .f32) (C : FVec Ideal Cert.ReferenceIdeal.S20000x1 .f32) (X : FVec Ideal Cert.ReferenceIdeal.S20000x64 .f32)
    (WLt WRt : FVec Ideal Cert.ReferenceIdeal.S64x64 .f32) (bS : FVec Ideal Cert.ReferenceIdeal.S64 .f32) (z0 z1 z2 : FVec Ideal Cert.KernelIdeal.S_ .f32) :
    extractStridedSlice Cert.KernelIdeal.S20000x64 ![0, 0]
        (Cert.KernelIdeal.Gen.G5 (pad (s := Cert.KernelIdeal.S20000x64) (u := Cert.KernelIdeal.S_) (α := Ideal .f32) Cert.KernelIdeal.S24576x64 ![0, 0] ![4576, 0] ![0, 0] A z0 Cert.KernelIdeal.Gen.pads_S20000x64_S24576x64_045760_000 Cert.KernelIdeal.Gen.h_S_) (pad (s := Cert.KernelIdeal.S20000x1) (u := Cert.KernelIdeal.S_) (α := Ideal .f32) Cert.KernelIdeal.S24576x1 ![0, 0] ![4576, 0] ![0, 0] C z1 Cert.KernelIdeal.Gen.pads_S20000x1_S24576x1_045760_000 Cert.KernelIdeal.Gen.h_S_) (pad (s := Cert.KernelIdeal.S20000x64) (u := Cert.KernelIdeal.S_) (α := Ideal .f32) Cert.KernelIdeal.S24576x64 ![0, 0] ![4576, 0] ![0, 0] X z2 Cert.KernelIdeal.Gen.pads_S20000x64_S24576x64_045760_000 Cert.KernelIdeal.Gen.h_S_) WLt
          (fun i => shapeCast Cert.KernelIdeal.S1x64 (Host.reduceAdd (broadcastInDim Cert.KernelIdeal.S1x64 ![1] Cert.KernelIdeal.Gen.bcast_S64_S1x64_1 bS) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i)
          (Host.reduceAdd (broadcastInDim Cert.KernelIdeal.S1x64x64 ![1, 2] Cert.KernelIdeal.Gen.bcast_S64x64_S1x64x64_1_2 WRt) (constant (F := Ideal) Cert.KernelIdeal.S_ .f32 0x00000000#32)
          Cert.KernelIdeal.Gen.reducesTo_S1x64x64_S64x64_d0 Cert.KernelIdeal.Gen.h_S_))
        Cert.KernelIdeal.Gen.slices_S24576x64_S20000x64_0_0
      = maximumf
      (addf
        (addf
          (Host.dotGeneral Cert.ReferenceIdeal.dot_S20000x64_S64x64_S20000x64_1_0_0_1_n_n none
            (Host.divf A (broadcastInDim Cert.ReferenceIdeal.S20000x64 ![0, 1] Cert.ReferenceIdeal.Gen.bcast_S20000x1_S20000x64_0_1
              (maximumf C (broadcastInDim Cert.ReferenceIdeal.S20000x1 ![] Cert.ReferenceIdeal.Gen.bcast_S_S20000x1 (constant (F := Ideal) Cert.ReferenceIdeal.S_ .f32 0x3F800000#32)))))
            WLt)
          (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 bS)))
        (Host.dotGeneral Cert.ReferenceIdeal.dot_S20000x64_S64x64_S20000x64_1_0_0_1_n_n none X WRt))
      (broadcastInDim Cert.ReferenceIdeal.S20000x64 ![] Cert.ReferenceIdeal.Gen.bcast_S_S20000x64 (constant (F := Ideal) Cert.ReferenceIdeal.S_ .f32 0x00000000#32)) := by
  funext i
  obtain ⟨p, q, rfl⟩ : ∃ (p : Fin 20000) (q : Fin 64), i = ix2 p q := ⟨i 0, i 1, eq_ix2 i⟩
  have hp : p.val < 24576 := by have := p.isLt; omega
  have hA : ∀ k : Fin 64, (pad (s := Cert.KernelIdeal.S20000x64) (u := Cert.KernelIdeal.S_) (α := Ideal .f32) Cert.KernelIdeal.S24576x64 ![0, 0] ![4576, 0] ![0, 0] A z0 Cert.KernelIdeal.Gen.pads_S20000x64_S24576x64_045760_000 Cert.KernelIdeal.Gen.h_S_) (ix2 (⟨p.val, hp⟩ : Fin 24576) k) = A (ix2 p k) := fun k =>
    pad_apply_of_inside _ _ _ A z0 _ _ (ix2 (⟨p.val, hp⟩ : Fin 24576) k) (ix2 p k) (fun a => match a with
        | ⟨0, _⟩ => by show p.val = 0 + p.val * (0 + 1); omega
        | ⟨1, _⟩ => by show k.val = 0 + k.val * (0 + 1); omega)
  have hX : ∀ k : Fin 64, (pad (s := Cert.KernelIdeal.S20000x64) (u := Cert.KernelIdeal.S_) (α := Ideal .f32) Cert.KernelIdeal.S24576x64 ![0, 0] ![4576, 0] ![0, 0] X z2 Cert.KernelIdeal.Gen.pads_S20000x64_S24576x64_045760_000 Cert.KernelIdeal.Gen.h_S_) (ix2 (⟨p.val, hp⟩ : Fin 24576) k) = X (ix2 p k) := fun k =>
    pad_apply_of_inside _ _ _ X z2 _ _ (ix2 (⟨p.val, hp⟩ : Fin 24576) k) (ix2 p k) (fun a => match a with
        | ⟨0, _⟩ => by show p.val = 0 + p.val * (0 + 1); omega
        | ⟨1, _⟩ => by show k.val = 0 + k.val * (0 + 1); omega)
  have hC : (pad (s := Cert.KernelIdeal.S20000x1) (u := Cert.KernelIdeal.S_) (α := Ideal .f32) Cert.KernelIdeal.S24576x1 ![0, 0] ![4576, 0] ![0, 0] C z1 Cert.KernelIdeal.Gen.pads_S20000x1_S24576x1_045760_000 Cert.KernelIdeal.Gen.h_S_) (ix2 (⟨p.val, hp⟩ : Fin 24576) (0 : Fin 1)) = C (ix2 p (0 : Fin 1)) :=
    pad_apply_of_inside _ _ _ C z1 _ _ (ix2 (⟨p.val, hp⟩ : Fin 24576) (0 : Fin 1)) (ix2 p (0 : Fin 1)) (fun a => match a with
        | ⟨0, _⟩ => by show p.val = 0 + p.val * (0 + 1); omega
        | ⟨1, _⟩ => by show 0 = 0 + 0 * (0 + 1); omega)
  have hL : (extractStridedSlice Cert.KernelIdeal.S20000x64 ![0, 0]
        (Cert.KernelIdeal.Gen.G5 (pad (s := Cert.KernelIdeal.S20000x64) (u := Cert.KernelIdeal.S_) (α := Ideal .f32) Cert.KernelIdeal.S24576x64 ![0, 0] ![4576, 0] ![0, 0] A z0 Cert.KernelIdeal.Gen.pads_S20000x64_S24576x64_045760_000 Cert.KernelIdeal.Gen.h_S_) (pad (s := Cert.KernelIdeal.S20000x1) (u := Cert.KernelIdeal.S_) (α := Ideal .f32) Cert.KernelIdeal.S24576x1 ![0, 0] ![4576, 0] ![0, 0] C z1 Cert.KernelIdeal.Gen.pads_S20000x1_S24576x1_045760_000 Cert.KernelIdeal.Gen.h_S_) (pad (s := Cert.KernelIdeal.S20000x64) (u := Cert.KernelIdeal.S_) (α := Ideal .f32) Cert.KernelIdeal.S24576x64 ![0, 0] ![4576, 0] ![0, 0] X z2 Cert.KernelIdeal.Gen.pads_S20000x64_S24576x64_045760_000 Cert.KernelIdeal.Gen.h_S_) WLt
          (fun i => shapeCast Cert.KernelIdeal.S1x64 (Host.reduceAdd (broadcastInDim Cert.KernelIdeal.S1x64 ![1] Cert.KernelIdeal.Gen.bcast_S64_S1x64_1 bS) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i)
          (Host.reduceAdd (broadcastInDim Cert.KernelIdeal.S1x64x64 ![1, 2] Cert.KernelIdeal.Gen.bcast_S64x64_S1x64x64_1_2 WRt) (constant (F := Ideal) Cert.KernelIdeal.S_ .f32 0x00000000#32)
          Cert.KernelIdeal.Gen.reducesTo_S1x64x64_S64x64_d0 Cert.KernelIdeal.Gen.h_S_))
        Cert.KernelIdeal.Gen.slices_S24576x64_S20000x64_0_0) (ix2 p q)
      = max (((∑ k : Fin 64, X (ix2 p k) * (0 + ∑ _i : Fin 1, WRt (ix2 k q))) + (0 + ∑ _i : Fin 1, bS (ix1 q)))
          + ∑ k : Fin 64, Ideal.div (A (ix2 p k)) (max (C (ix2 p (0 : Fin 1))) (Ideal.ofBits .f32 0x3F800000#32)) * WLt (ix2 k q)) 0 := by
    refine (slice2_axis0_apply 0 _ Cert.KernelIdeal.Gen.slices_S24576x64_S20000x64_0_0 p q (⟨p.val, hp⟩ : Fin 24576) (Nat.zero_add _).symm).trans ?_
    rw [G5_apply]
    exact congrArg₂ max (congrArg₂ (· + ·) (congrArg₂ (· + ·)
      (Finset.sum_congr rfl fun k _ => congrArg₂ (· * ·) (hX k) (ksumW_apply WRt k q)) (ksumB_apply bS q))
      (Finset.sum_congr rfl fun k _ => congrArg (· * WLt (ix2 k q)) (congrArg₂ Ideal.div (hA k) (congrArg (fun x => max x (Ideal.ofBits .f32 0x3F800000#32)) hC)))) rfl
  have hdiv : ∀ k : Fin 64, Host.divf A (broadcastInDim Cert.ReferenceIdeal.S20000x64 ![0, 1] Cert.ReferenceIdeal.Gen.bcast_S20000x1_S20000x64_0_1
        (maximumf C (broadcastInDim Cert.ReferenceIdeal.S20000x1 ![] Cert.ReferenceIdeal.Gen.bcast_S_S20000x1 (constant (F := Ideal) Cert.ReferenceIdeal.S_ .f32 0x3F800000#32)))) (ix2 p k)
      = Ideal.div (A (ix2 p k)) (max (C (ix2 p (0 : Fin 1))) (Ideal.ofBits .f32 0x3F800000#32)) := fun k => by
    rw [hostDivf_apply, rbcol20000_apply, maximumf_apply, broadcastInDim_scalar_apply]
    rfl
  have hR : (maximumf
      (addf
        (addf
          (Host.dotGeneral Cert.ReferenceIdeal.dot_S20000x64_S64x64_S20000x64_1_0_0_1_n_n none
            (Host.divf A (broadcastInDim Cert.ReferenceIdeal.S20000x64 ![0, 1] Cert.ReferenceIdeal.Gen.bcast_S20000x1_S20000x64_0_1
              (maximumf C (broadcastInDim Cert.ReferenceIdeal.S20000x1 ![] Cert.ReferenceIdeal.Gen.bcast_S_S20000x1 (constant (F := Ideal) Cert.ReferenceIdeal.S_ .f32 0x3F800000#32)))))
            WLt)
          (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 bS)))
        (Host.dotGeneral Cert.ReferenceIdeal.dot_S20000x64_S64x64_S20000x64_1_0_0_1_n_n none X WRt))
      (broadcastInDim Cert.ReferenceIdeal.S20000x64 ![] Cert.ReferenceIdeal.Gen.bcast_S_S20000x64 (constant (F := Ideal) Cert.ReferenceIdeal.S_ .f32 0x00000000#32))) (ix2 p q)
      = max (((∑ k : Fin 64, Ideal.div (A (ix2 p k)) (max (C (ix2 p (0 : Fin 1))) (Ideal.ofBits .f32 0x3F800000#32)) * WLt (ix2 k q)) + bS (ix1 q))
          + ∑ k : Fin 64, X (ix2 p k) * WRt (ix2 k q)) 0 := by
    rw [maximumf_apply, addf_apply, addf_apply, rdot20000_apply, rdot20000_apply, rbrow20000_apply, rvec_row_apply, broadcastInDim_scalar_apply]
    exact congrArg₂ max (congrArg₂ (· + ·) (congrArg₂ (· + ·)
      (Finset.sum_congr rfl fun k _ => congrArg (· * WLt (ix2 k q)) (hdiv k)) rfl) rfl) Ideal.ofBits_zero_f32
  rw [hL, hR]
  exact Cert.Math.sage1_relu (fun u d => Ideal.div u (max d (Ideal.ofBits .f32 0x3F800000#32))) (fun k => X (ix2 p k)) (fun k => A (ix2 p k))
    (fun k => WLt (ix2 k q)) (fun k => WRt (ix2 k q)) (C (ix2 p (0 : Fin 1))) (bS (ix1 q)) 0

/-! ## Writer, layer 1: the readings -/

set_option maxHeartbeats 2000000 in
/-- Writer after the relu: the maximum with zero of the layer's sum. -/
theorem r304 (m' : (ℓ : Loc Cert.ReferenceIdeal.nD Cert.ReferenceIdeal.τ Cert.ReferenceIdeal.sig) → Buf (Elt Ideal) ℓ) (c : Dev Cert.KernelIdeal.nD) :
    Cert.ReferenceIdeal.Value.U6 m' c (Proc.devRef .tc Cert.ReferenceIdeal.main_v304) = maximumf (Cert.ReferenceIdeal.Value.U5 m' c (Proc.devRef .tc Cert.ReferenceIdeal.main_v235) : FVec Ideal Cert.ReferenceIdeal.S20000x64 .f32) (broadcastInDim Cert.ReferenceIdeal.S20000x64 ![] Cert.ReferenceIdeal.Gen.bcast_S_S20000x64 (constant (F := Ideal) Cert.ReferenceIdeal.S_ .f32 0x00000000#32)) := by
  show StableHlo.after Cert.ReferenceIdeal.Value.ops5 (Cert.ReferenceIdeal.Value.U5 m' c) (Proc.devRef .tc Cert.ReferenceIdeal.main_v304) = _
  generalize Cert.ReferenceIdeal.Value.U5 m' c = V
  after_results_simp
  rfl

set_option maxHeartbeats 2000000 in
/-- The layer's sum for writer, from the summed messages and in-degrees window 4 makes, the features and the three weight
    buffers window 3 left. -/
theorem r235 (m' : (ℓ : Loc Cert.ReferenceIdeal.nD Cert.ReferenceIdeal.τ Cert.ReferenceIdeal.sig) → Buf (Elt Ideal) ℓ) (c : Dev Cert.KernelIdeal.nD) :
    Cert.ReferenceIdeal.Value.U5 m' c (Proc.devRef .tc Cert.ReferenceIdeal.main_v235)
      = addf
        (addf
          (Host.dotGeneral (φ₁ := .f32) (φ₂ := .f32) Cert.ReferenceIdeal.dot_S20000x64_S64x64_S20000x64_1_0_0_1_n_n none
            (Host.divf (StableHlo.after Cert.ReferenceIdeal.Value.ops4 (Cert.ReferenceIdeal.Value.U4 m' c) (Proc.devRef .tc Cert.ReferenceIdeal.main_v219) : FVec Ideal Cert.ReferenceIdeal.S20000x64 .f32) (broadcastInDim Cert.ReferenceIdeal.S20000x64 ![0, 1] Cert.ReferenceIdeal.Gen.bcast_S20000x1_S20000x64_0_1
              (maximumf (StableHlo.after Cert.ReferenceIdeal.Value.ops4 (Cert.ReferenceIdeal.Value.U4 m' c) (Proc.devRef .tc Cert.ReferenceIdeal.main_v223) : FVec Ideal Cert.ReferenceIdeal.S20000x1 .f32) (broadcastInDim Cert.ReferenceIdeal.S20000x1 ![] Cert.ReferenceIdeal.Gen.bcast_S_S20000x1 (constant (F := Ideal) Cert.ReferenceIdeal.S_ .f32 0x3F800000#32)))))
            (transpose (α := Ideal .f32) Cert.ReferenceIdeal.S64x64 [1, 0] (Cert.ReferenceIdeal.Value.U4 m' c (Proc.devRef .tc Cert.ReferenceIdeal.main_v205) : FVec Ideal Cert.ReferenceIdeal.S64x64 .f32) Cert.ReferenceIdeal.Gen.transposes_S64x64_S64x64_1_0))
          (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 (Cert.ReferenceIdeal.Value.U4 m' c (Proc.devRef .tc Cert.ReferenceIdeal.main_v207) : FVec Ideal Cert.ReferenceIdeal.S64 .f32))))
        (Host.dotGeneral (φ₁ := .f32) (φ₂ := .f32) Cert.ReferenceIdeal.dot_S20000x64_S64x64_S20000x64_1_0_0_1_n_n none (Cert.ReferenceIdeal.Value.U4 m' c (Proc.devRef .tc Cert.ReferenceIdeal.main_arg3) : FVec Ideal Cert.ReferenceIdeal.S20000x64 .f32) (transpose (α := Ideal .f32) Cert.ReferenceIdeal.S64x64 [1, 0] (Cert.ReferenceIdeal.Value.U4 m' c (Proc.devRef .tc Cert.ReferenceIdeal.main_v209) : FVec Ideal Cert.ReferenceIdeal.S64x64 .f32) Cert.ReferenceIdeal.Gen.transposes_S64x64_S64x64_1_0)) := by
  show StableHlo.after Cert.ReferenceIdeal.Value.ops4 (Cert.ReferenceIdeal.Value.U4 m' c) (Proc.devRef .tc Cert.ReferenceIdeal.main_v235) = _
  generalize Cert.ReferenceIdeal.Value.U4 m' c = V
  after_results_simp

/-- The left weight of edge type 5 as window 3 leaves it. -/
theorem r205 (m' : (ℓ : Loc Cert.ReferenceIdeal.nD Cert.ReferenceIdeal.τ Cert.ReferenceIdeal.sig) → Buf (Elt Ideal) ℓ) (c : Dev Cert.KernelIdeal.nD) : Cert.ReferenceIdeal.Value.U4 m' c (Proc.devRef .tc Cert.ReferenceIdeal.main_v205) = (fun i => shapeCast Cert.ReferenceIdeal.S64x64 (extractStridedSlice Cert.ReferenceIdeal.S1x64x64 ![5, 0, 0] (m' ((c.tc : Thread Cert.ReferenceIdeal.nD Cert.ReferenceIdeal.τ).loc Cert.ReferenceIdeal.main_arg9)) Cert.ReferenceIdeal.Gen.slices_S8x64x64_S1x64x64_5_0_0) Cert.ReferenceIdeal.Gen.shapeCasts_S1x64x64_S64x64 i) := by
  have e : Cert.ReferenceIdeal.Value.U3 m' c (Proc.devRef .tc Cert.ReferenceIdeal.main_arg9) = m' ((c.tc : Thread Cert.ReferenceIdeal.nD Cert.ReferenceIdeal.τ).loc Cert.ReferenceIdeal.main_arg9) := (Cert.ReferenceIdeal.Value.U3_of m' c Cert.ReferenceIdeal.main_arg9 (by decide)).trans ((Cert.ReferenceIdeal.Value.U2_of m' c Cert.ReferenceIdeal.main_arg9 (by decide)).trans ((Cert.ReferenceIdeal.Value.U1_of m' c Cert.ReferenceIdeal.main_arg9 (by decide)).trans (rfl)))
  rw [← e]
  show StableHlo.after Cert.ReferenceIdeal.Value.ops3 (Cert.ReferenceIdeal.Value.U3 m' c) (Proc.devRef .tc Cert.ReferenceIdeal.main_v205) = _
  generalize Cert.ReferenceIdeal.Value.U3 m' c = V
  after_results_simp <;> rfl
/-- The bias of edge type 5. -/
theorem r207 (m' : (ℓ : Loc Cert.ReferenceIdeal.nD Cert.ReferenceIdeal.τ Cert.ReferenceIdeal.sig) → Buf (Elt Ideal) ℓ) (c : Dev Cert.KernelIdeal.nD) : Cert.ReferenceIdeal.Value.U4 m' c (Proc.devRef .tc Cert.ReferenceIdeal.main_v207) = (fun i => shapeCast Cert.ReferenceIdeal.S64 (extractStridedSlice Cert.ReferenceIdeal.S1x64 ![5, 0] (m' ((c.tc : Thread Cert.ReferenceIdeal.nD Cert.ReferenceIdeal.τ).loc Cert.ReferenceIdeal.main_arg10)) Cert.ReferenceIdeal.Gen.slices_S8x64_S1x64_5_0) Cert.ReferenceIdeal.Gen.shapeCasts_S1x64_S64 i) := by
  have e : Cert.ReferenceIdeal.Value.U3 m' c (Proc.devRef .tc Cert.ReferenceIdeal.main_arg10) = m' ((c.tc : Thread Cert.ReferenceIdeal.nD Cert.ReferenceIdeal.τ).loc Cert.ReferenceIdeal.main_arg10) := (Cert.ReferenceIdeal.Value.U3_of m' c Cert.ReferenceIdeal.main_arg10 (by decide)).trans ((Cert.ReferenceIdeal.Value.U2_of m' c Cert.ReferenceIdeal.main_arg10 (by decide)).trans ((Cert.ReferenceIdeal.Value.U1_of m' c Cert.ReferenceIdeal.main_arg10 (by decide)).trans (rfl)))
  rw [← e]
  show StableHlo.after Cert.ReferenceIdeal.Value.ops3 (Cert.ReferenceIdeal.Value.U3 m' c) (Proc.devRef .tc Cert.ReferenceIdeal.main_v207) = _
  generalize Cert.ReferenceIdeal.Value.U3 m' c = V
  after_results_simp <;> rfl
/-- The right weight of edge type 5. -/
theorem r209 (m' : (ℓ : Loc Cert.ReferenceIdeal.nD Cert.ReferenceIdeal.τ Cert.ReferenceIdeal.sig) → Buf (Elt Ideal) ℓ) (c : Dev Cert.KernelIdeal.nD) : Cert.ReferenceIdeal.Value.U4 m' c (Proc.devRef .tc Cert.ReferenceIdeal.main_v209) = (fun i => shapeCast Cert.ReferenceIdeal.S64x64 (extractStridedSlice Cert.ReferenceIdeal.S1x64x64 ![5, 0, 0] (m' ((c.tc : Thread Cert.ReferenceIdeal.nD Cert.ReferenceIdeal.τ).loc Cert.ReferenceIdeal.main_arg11)) Cert.ReferenceIdeal.Gen.slices_S8x64x64_S1x64x64_5_0_0) Cert.ReferenceIdeal.Gen.shapeCasts_S1x64x64_S64x64 i) := by
  have e : Cert.ReferenceIdeal.Value.U3 m' c (Proc.devRef .tc Cert.ReferenceIdeal.main_arg11) = m' ((c.tc : Thread Cert.ReferenceIdeal.nD Cert.ReferenceIdeal.τ).loc Cert.ReferenceIdeal.main_arg11) := (Cert.ReferenceIdeal.Value.U3_of m' c Cert.ReferenceIdeal.main_arg11 (by decide)).trans ((Cert.ReferenceIdeal.Value.U2_of m' c Cert.ReferenceIdeal.main_arg11 (by decide)).trans ((Cert.ReferenceIdeal.Value.U1_of m' c Cert.ReferenceIdeal.main_arg11 (by decide)).trans (rfl)))
  rw [← e]
  show StableHlo.after Cert.ReferenceIdeal.Value.ops3 (Cert.ReferenceIdeal.Value.U3 m' c) (Proc.devRef .tc Cert.ReferenceIdeal.main_v209) = _
  generalize Cert.ReferenceIdeal.Value.U3 m' c = V
  after_results_simp <;> rfl
/-- The writers' features reach window 4 as launched. -/
theorem r_arg3 (m' : (ℓ : Loc Cert.ReferenceIdeal.nD Cert.ReferenceIdeal.τ Cert.ReferenceIdeal.sig) → Buf (Elt Ideal) ℓ) (c : Dev Cert.KernelIdeal.nD) : Cert.ReferenceIdeal.Value.U4 m' c (Proc.devRef .tc Cert.ReferenceIdeal.main_arg3) = m' ((c.tc : Thread Cert.ReferenceIdeal.nD Cert.ReferenceIdeal.τ).loc Cert.ReferenceIdeal.main_arg3) := (Cert.ReferenceIdeal.Value.U4_of m' c Cert.ReferenceIdeal.main_arg3 (by decide)).trans ((Cert.ReferenceIdeal.Value.U3_of m' c Cert.ReferenceIdeal.main_arg3 (by decide)).trans ((Cert.ReferenceIdeal.Value.U2_of m' c Cert.ReferenceIdeal.main_arg3 (by decide)).trans ((Cert.ReferenceIdeal.Value.U1_of m' c Cert.ReferenceIdeal.main_arg3 (by decide)).trans (rfl))))

/-- The slice after region 5: the first 20000 of its 24576 rows. -/
theorem k245 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W40 m ρ c (Proc.devRef .tc Cert.KernelIdeal.main_v245) = extractStridedSlice Cert.KernelIdeal.S20000x64 ![0, 0] (Cert.KernelIdeal.Gen.W39 m ρ c (Proc.devRef .tc Cert.KernelIdeal.main_v244) : FVec Ideal Cert.KernelIdeal.S24576x64 .f32) Cert.KernelIdeal.Gen.slices_S24576x64_S20000x64_0_0 := by
  show StableHlo.after Cert.KernelIdeal.Gen.hostOps6 (Cert.KernelIdeal.Gen.W39 m ρ c) (Proc.devRef .tc Cert.KernelIdeal.main_v245) = _
  after_results_simp <;> rfl
/-- The summed messages padded to 24576 rows. -/
theorem k241 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W34 m ρ c (Proc.devRef .tc Cert.KernelIdeal.main_v241) = (pad (s := Cert.KernelIdeal.S20000x64) (u := Cert.KernelIdeal.S_) (α := Ideal .f32) Cert.KernelIdeal.S24576x64 ![0, 0] ![4576, 0] ![0, 0] (Cert.KernelIdeal.Gen.W33 m ρ c (Proc.devRef .tc Cert.KernelIdeal.main_v227) : FVec Ideal Cert.KernelIdeal.S20000x64 .f32) (Cert.KernelIdeal.Gen.W33 m ρ c (Proc.devRef .tc Cert.KernelIdeal.main_cst_55) : FVec Ideal Cert.KernelIdeal.S_ .f32) Cert.KernelIdeal.Gen.pads_S20000x64_S24576x64_045760_000 Cert.KernelIdeal.Gen.h_S_) := by
  show StableHlo.after Cert.KernelIdeal.Gen.hostOps5_1 (Cert.KernelIdeal.Gen.W33 m ρ c) (Proc.devRef .tc Cert.KernelIdeal.main_v241) = _
  generalize Cert.KernelIdeal.Gen.W33 m ρ c = V
  after_results_simp <;> rfl
/-- The in-degrees padded to 24576 rows. -/
theorem k242 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W36 m ρ c (Proc.devRef .tc Cert.KernelIdeal.main_v242) = (pad (s := Cert.KernelIdeal.S20000x1) (u := Cert.KernelIdeal.S_) (α := Ideal .f32) Cert.KernelIdeal.S24576x1 ![0, 0] ![4576, 0] ![0, 0] (Cert.KernelIdeal.Gen.W35 m ρ c (Proc.devRef .tc Cert.KernelIdeal.main_v61) : FVec Ideal Cert.KernelIdeal.S20000x1 .f32) (Cert.KernelIdeal.Gen.W35 m ρ c (Proc.devRef .tc Cert.KernelIdeal.main_cst_56) : FVec Ideal Cert.KernelIdeal.S_ .f32) Cert.KernelIdeal.Gen.pads_S20000x1_S24576x1_045760_000 Cert.KernelIdeal.Gen.h_S_) := by
  show StableHlo.after Cert.KernelIdeal.Gen.hostOps5_3 (Cert.KernelIdeal.Gen.W35 m ρ c) (Proc.devRef .tc Cert.KernelIdeal.main_v242) = _
  generalize Cert.KernelIdeal.Gen.W35 m ρ c = V
  after_results_simp <;> rfl
/-- The features padded to 24576 rows. -/
theorem k243 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W38 m ρ c (Proc.devRef .tc Cert.KernelIdeal.main_v243) = (pad (s := Cert.KernelIdeal.S20000x64) (u := Cert.KernelIdeal.S_) (α := Ideal .f32) Cert.KernelIdeal.S24576x64 ![0, 0] ![4576, 0] ![0, 0] (Cert.KernelIdeal.Gen.W37 m ρ c (Proc.devRef .tc Cert.KernelIdeal.main_arg3) : FVec Ideal Cert.KernelIdeal.S20000x64 .f32) (Cert.KernelIdeal.Gen.W37 m ρ c (Proc.devRef .tc Cert.KernelIdeal.main_cst_57) : FVec Ideal Cert.KernelIdeal.S_ .f32) Cert.KernelIdeal.Gen.pads_S20000x64_S24576x64_045760_000 Cert.KernelIdeal.Gen.h_S_) := by
  show StableHlo.after Cert.KernelIdeal.Gen.hostOps5_5 (Cert.KernelIdeal.Gen.W37 m ρ c) (Proc.devRef .tc Cert.KernelIdeal.main_v243) = _
  generalize Cert.KernelIdeal.Gen.W37 m ρ c = V
  after_results_simp <;> rfl
/-- The left weight as region 5 takes it. -/
theorem k230 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W33 m ρ c (Proc.devRef .tc Cert.KernelIdeal.main_v230) = (transpose Cert.KernelIdeal.S64x64 [1, 0] (fun i => shapeCast Cert.KernelIdeal.S64x64 (extractStridedSlice Cert.KernelIdeal.S1x64x64 ![5, 0, 0] (m' ((c.tc : Thread Cert.ReferenceIdeal.nD Cert.ReferenceIdeal.τ).loc Cert.ReferenceIdeal.main_arg9)) Cert.KernelIdeal.Gen.slices_S8x64x64_S1x64x64_5_0_0) Cert.KernelIdeal.Gen.shapeCasts_S1x64x64_S64x64 i) Cert.KernelIdeal.Gen.transposes_S64x64_S64x64_1_0) := by
  have e : Cert.KernelIdeal.Gen.W32 m ρ c (Proc.devRef .tc Cert.KernelIdeal.main_arg9) = m' ((c.tc : Thread Cert.ReferenceIdeal.nD Cert.ReferenceIdeal.τ).loc Cert.ReferenceIdeal.main_arg9) := (Cert.KernelIdeal.Gen.keep_arg9_32 m ρ c).trans (h9 c).symm
  rw [← e]
  show StableHlo.after Cert.KernelIdeal.Gen.hostOps5 (Cert.KernelIdeal.Gen.W32 m ρ c) (Proc.devRef .tc Cert.KernelIdeal.main_v230) = _
  after_results_simp <;> rfl
/-- The bias, summed over the one edge type, as a row. -/
theorem k238 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W33 m ρ c (Proc.devRef .tc Cert.KernelIdeal.main_v238) = (fun i => shapeCast Cert.KernelIdeal.S1x64 (Host.reduceAdd (broadcastInDim Cert.KernelIdeal.S1x64 ![1] Cert.KernelIdeal.Gen.bcast_S64_S1x64_1 (fun i => shapeCast Cert.KernelIdeal.S64 (extractStridedSlice Cert.KernelIdeal.S1x64 ![5, 0] (m' ((c.tc : Thread Cert.ReferenceIdeal.nD Cert.ReferenceIdeal.τ).loc Cert.ReferenceIdeal.main_arg10)) Cert.KernelIdeal.Gen.slices_S8x64_S1x64_5_0) Cert.KernelIdeal.Gen.shapeCasts_S1x64_S64 i)) (constant (F := Ideal) Cert.KernelIdeal.S_ .f32 0x00000000#32)
          Cert.KernelIdeal.Gen.reducesTo_S1x64_S64_d0 Cert.KernelIdeal.Gen.h_S_) Cert.KernelIdeal.Gen.shapeCasts_S64_S1x64 i) := by
  have e : Cert.KernelIdeal.Gen.W32 m ρ c (Proc.devRef .tc Cert.KernelIdeal.main_arg10) = m' ((c.tc : Thread Cert.ReferenceIdeal.nD Cert.ReferenceIdeal.τ).loc Cert.ReferenceIdeal.main_arg10) := (Cert.KernelIdeal.Gen.keep_arg10_32 m ρ c).trans (h10 c).symm
  rw [← e]
  show StableHlo.after Cert.KernelIdeal.Gen.hostOps5 (Cert.KernelIdeal.Gen.W32 m ρ c) (Proc.devRef .tc Cert.KernelIdeal.main_v238) = _
  after_results_simp <;> rfl
/-- The right weight, summed over the one edge type. -/
theorem k240 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W33 m ρ c (Proc.devRef .tc Cert.KernelIdeal.main_v240) = (Host.reduceAdd (broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![5, 0, 0] (m' ((c.tc : Thread Cert.ReferenceIdeal.nD Cert.ReferenceIdeal.τ).loc Cert.ReferenceIdeal.main_arg11)) Cert.KernelIdeal.Gen.slices_S8x64x64_S1x64x64_5_0_0) Cert.KernelIdeal.Gen.shapeCasts_S1x64x64_S64x64 i) Cert.KernelIdeal.Gen.transposes_S64x64_S64x64_1_0)) (constant (F := Ideal) Cert.KernelIdeal.S_ .f32 0x00000000#32)
          Cert.KernelIdeal.Gen.reducesTo_S1x64x64_S64x64_d0 Cert.KernelIdeal.Gen.h_S_) := by
  have e : Cert.KernelIdeal.Gen.W32 m ρ c (Proc.devRef .tc Cert.KernelIdeal.main_arg11) = m' ((c.tc : Thread Cert.ReferenceIdeal.nD Cert.ReferenceIdeal.τ).loc Cert.ReferenceIdeal.main_arg11) := (Cert.KernelIdeal.Gen.keep_arg11_32 m ρ c).trans (h11 c).symm
  rw [← e]
  show StableHlo.after Cert.KernelIdeal.Gen.hostOps5 (Cert.KernelIdeal.Gen.W32 m ρ c) (Proc.devRef .tc Cert.KernelIdeal.main_v240) = _
  after_results_simp <;> rfl

/-! ## Writer, layer 1: the kernel program's buffer is the reference's -/

/-- The first 20000 rows of region 5's result (writer, layer 1) are the reference's relu'd layer sum, given the two launch
    memories agree on the arguments, the summed messages agree and the in-degrees agree. -/
theorem S_w1 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h3 : ∀ c : Dev Cert.KernelIdeal.nD, m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hagg : ∀ c : Dev Cert.KernelIdeal.nD, Cert.KernelIdeal.Gen.W33 m ρ c (Proc.devRef .tc Cert.KernelIdeal.main_v227) = Cert.ReferenceIdeal.Value.U5 m' c (Proc.devRef .tc Cert.ReferenceIdeal.main_v219))
    (hcnt : ∀ c : Dev Cert.KernelIdeal.nD, Cert.KernelIdeal.Gen.W5 m ρ c (Proc.devRef .tc Cert.KernelIdeal.main_v61) = Cert.ReferenceIdeal.Value.U5 m' c (Proc.devRef .tc Cert.ReferenceIdeal.main_v223))
    (c : Dev Cert.KernelIdeal.nD) :
    Cert.KernelIdeal.Gen.W40 m ρ c (Proc.devRef .tc Cert.KernelIdeal.main_v245) = Cert.ReferenceIdeal.Value.U6 m' c (Proc.devRef .tc Cert.ReferenceIdeal.main_v304) := by
  have hK : Cert.KernelIdeal.Gen.W39 m ρ c (Proc.devRef .tc Cert.KernelIdeal.main_v244) = Cert.KernelIdeal.Gen.G5 (Cert.KernelIdeal.Gen.W38 m ρ c (Proc.devRef .tc Cert.KernelIdeal.main_v241)) (Cert.KernelIdeal.Gen.W38 m ρ c (Proc.devRef .tc Cert.KernelIdeal.main_v242)) (Cert.KernelIdeal.Gen.W38 m ρ c (Proc.devRef .tc Cert.KernelIdeal.main_v243)) (Cert.KernelIdeal.Gen.W38 m ρ c (Proc.devRef .tc Cert.KernelIdeal.main_v230)) (Cert.KernelIdeal.Gen.W38 m ρ c (Proc.devRef .tc Cert.KernelIdeal.main_v238)) (Cert.KernelIdeal.Gen.W38 m ρ c (Proc.devRef .tc Cert.KernelIdeal.main_v240)) :=
    (Cert.KernelIdeal.Gen.W39_arr m ρ c 6).trans (Cert.KernelIdeal.Gen.final5 (Cert.KernelIdeal.Gen.V38 m ρ) c)
  have e3 : Cert.KernelIdeal.Gen.W37 m ρ c (Proc.devRef .tc Cert.KernelIdeal.main_arg3) = m' ((c.tc : Thread Cert.ReferenceIdeal.nD Cert.ReferenceIdeal.τ).loc Cert.ReferenceIdeal.main_arg3) := (Cert.KernelIdeal.Gen.keep_arg3_37 m ρ c).trans (h3 c).symm
  have e61 : Cert.KernelIdeal.Gen.W35 m ρ c (Proc.devRef .tc Cert.KernelIdeal.main_v61) = Cert.ReferenceIdeal.Value.U5 m' c (Proc.devRef .tc Cert.ReferenceIdeal.main_v223) := (Cert.KernelIdeal.Gen.keep_v61_35 m ρ c).trans (hcnt c)
  rw [k245 m ρ c, hK, Cert.KernelIdeal.Gen.keep_v241_38, k241 m ρ c, hagg c, Cert.KernelIdeal.Gen.keep_v242_38, k242 m ρ c, e61, k243 m ρ c, e3,
    Cert.KernelIdeal.Gen.keep_v230_38, k230 m ρ m' h9 c, Cert.KernelIdeal.Gen.keep_v238_38, k238 m ρ m' h10 c, Cert.KernelIdeal.Gen.keep_v240_38, k240 m ρ m' h11 c,
    r304 m' c, r235 m' c, r205 m' c, r207 m' c, r209 m' c, r_arg3 m' c]
  exact core_w1 _ _ _ _ _ _ _ _ _

end Cert.Sim

end
-- ==== Proof.KI.Fin3.lean ====
import proofs.«417513_j58866821759238_4_alg».proof.Proof.KI.R3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! # REGION 3, the value: what the result array holds after the region, index by index

With `agg`, `cnt`, `xdst`, `wl`, `bias`, `wr` the six input arrays as the region finds them, the result at row `r`,
column `j` is `max ((∑ₖ xdst r k · wr k j + bias 0 j) + ∑ₖ (agg r k / max (cnt r 0) 1) · wl k j) 0`, the division the ideal
instance's, the sums over the 64 lanes, in the body's own association order. The 17 row tiles of 6144 rows fill the
104448 rows. -/

theorem hz3 : (![0, 0] : Fin 2 → Nat) = fun _ => 0 := funext fun a => by fin_cases a <;> rfl

/-- The result array as one function of the six input arrays. -/
def G3 (agg : S104448x64.Idx → EReal) (cnt : S104448x1.Idx → EReal) (xdst : S104448x64.Idx → EReal) (wl : S64x64.Idx → EReal)
    (bias : S1x64.Idx → EReal) (wr : S64x64.Idx → EReal) : S104448x64.Idx → EReal := fun i =>
  max (((∑ k : Fin 64, xdst (ix2 (i 0) k) * wr (ix2 k (i 1))) + bias (ix2 (0 : Fin 1) (i 1)))
      + ∑ k : Fin 64, Ideal.div (agg (ix2 (i 0) k)) (max (cnt (ix2 (i 0) (0 : Fin 1))) (Ideal.ofBits .f32 0x3F800000#32)) * wl (ix2 k (i 1))) 0

/-! ## The payload at an index -/

/-- A column `[a, 1]` broadcast to `[a, b]` reads, at `(p, c)`, the column at row `p`. -/
theorem bcastCol3_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index `i` and contraction index `q`: rows of the left operand follow the
    output's row, its columns the contraction; rows of the right operand the contraction, its columns the output's. -/
theorem lhs3_0 (i : S6144x64.Idx) (q : dot_S6144x64_S64x64_S6144x64_1_0_0_1_n_n.contr.Idx) :
    (dot_S6144x64_S64x64_S6144x64_1_0_0_1_n_n.lhsIdx i q 0).val = (i 0).val := by
  unfold DotDims.lhsIdx
  rw [dif_neg (show ¬(0 : Fin S6144x64.rank) ∈ dot_S6144x64_S64x64_S6144x64_1_0_0_1_n_n.lhsBatch by decide), dif_pos (show (0 : Fin S6144x64.rank) ∈ dot_S6144x64_S64x64_S6144x64_1_0_0_1_n_n.lhsNonContracting by decide)]
  rfl
theorem lhs3_1 (i : S6144x64.Idx) (q : dot_S6144x64_S64x64_S6144x64_1_0_0_1_n_n.contr.Idx) :
    (dot_S6144x64_S64x64_S6144x64_1_0_0_1_n_n.lhsIdx i q 1).val = (q ⟨0, by decide⟩).val :=
  dot_S6144x64_S64x64_S6144x64_1_0_0_1_n_n.lhsIdx_val_of_single rfl i q
theorem rhs3_0 (i : S6144x64.Idx) (q : dot_S6144x64_S64x64_S6144x64_1_0_0_1_n_n.contr.Idx) :
    (dot_S6144x64_S64x64_S6144x64_1_0_0_1_n_n.rhsIdx i q 0).val = (q ⟨0, by decide⟩).val :=
  dot_S6144x64_S64x64_S6144x64_1_0_0_1_n_n.rhsIdx_val_of_single rfl i q
theorem rhs3_1 (i : S6144x64.Idx) (q : dot_S6144x64_S64x64_S6144x64_1_0_0_1_n_n.contr.Idx) :
    (dot_S6144x64_S64x64_S6144x64_1_0_0_1_n_n.rhsIdx i q 1).val = (i 1).val := by
  unfold DotDims.rhsIdx
  rw [dif_neg (show ¬(1 : Fin S64x64.rank) ∈ dot_S6144x64_S64x64_S6144x64_1_0_0_1_n_n.rhsBatch by decide), dif_pos (show (1 : Fin S64x64.rank) ∈ dot_S6144x64_S64x64_S6144x64_1_0_0_1_n_n.rhsNonContracting by decide)]
  rfl

/-- The block product into the zero accumulator, at `(p, q)`: the sum over the 64 lanes of the operands' products. -/
theorem mm3_apply (A : FVec Ideal S6144x64 .f32) (B : FVec Ideal S64x64 .f32) (p : Fin 6144) (q : Fin 64) :
    matmul dot_S6144x64_S64x64_S6144x64_1_0_0_1_n_n none A B (constant (F := Ideal) S6144x64 .f32 0x00000000#32) (ix2 p q)
      = ∑ k : Fin 64, A (ix2 p k) * B (ix2 k q) := by
  simp only [matmul]
  rw [Ideal.matmul_constant_zero_apply, ← Equiv.sum_comp (ValueIdx.contrEquiv1 dot_S6144x64_S64x64_S6144x64_1_0_0_1_n_n 64 rfl rfl).symm]
  refine Finset.sum_congr rfl fun k _ => ?_
  have hk := ValueIdx.contrEquiv1_symm_val dot_S6144x64_S64x64_S6144x64_1_0_0_1_n_n 64 rfl rfl k
  have el : dot_S6144x64_S64x64_S6144x64_1_0_0_1_n_n.lhsIdx (ix2 p q) ((ValueIdx.contrEquiv1 dot_S6144x64_S64x64_S6144x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S6144x64_S64x64_S6144x64_1_0_0_1_n_n.rhsIdx (ix2 p q) ((ValueIdx.contrEquiv1 dot_S6144x64_S64x64_S6144x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-- The body's payload at `(p, q)`, from the loaded blocks. -/
theorem pay3_apply (xdst : Vec Ideal S6144x64 .f32) (wr : Vec Ideal S64x64 .f32) (bias : Vec Ideal S1x64 .f32)
    (agg : Vec Ideal S6144x64 .f32) (cnt : Vec Ideal S6144x1 .f32) (wl : Vec Ideal S64x64 .f32) (p : Fin 6144) (q : Fin 64) :
    k3_pay1 (F := Ideal) xdst wr bias agg cnt wl (ix2 p q)
      = max (((∑ k : Fin 64, xdst (ix2 p k) * wr (ix2 k q)) + bias (ix2 (0 : Fin 1) q))
          + ∑ k : Fin 64, Ideal.div (agg (ix2 p k)) (max (cnt (ix2 p (0 : Fin 1))) (Ideal.ofBits .f32 0x3F800000#32)) * wl (ix2 k q)) 0 := by
  unfold k3_pay1
  simp only [shapeCast_self]
  rw [maximumf_apply, addf_apply, addf_apply, mm3_apply, mm3_apply, broadcastTo_1b_ab_apply, broadcast_apply]
  simp only [divf_apply, bcastCol3_apply, maximumf_apply, broadcast_apply]
  show max _ (Ideal.ofBits .f32 0x00000000#32) = _
  rw [Ideal.ofBits_zero_f32]
  rfl

/-! ## The windows' block indices, decided over the grid

The three row windows and the result move with the grid point along the rows; the two weights and the bias have one
block. -/

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## Each input block as a part of its array -/

/-- Input window 0's block at point `t`, read at `y`, is its array at the index `i` with row `t · 6144 + y₀` and `y`'s column. -/
theorem iblk3_0_apply (c : Dev nD) (t : Fin cfg3.N) (y : S6144x64.Idx) (i : S104448x64.Idx)
    (h0 : (i 0).val = t.val * 6144 + (y 0).val) (h1 : (i 1).val = (y 1).val) :
    (iblk3 V c 0 t : Vec Ideal S6144x64 .f32) y = (V c (Pipeline.arrRef spec3 0) : S104448x64.Idx → EReal) i := by
  obtain ⟨ea, eb, -, -, -, -, -, -, -, -, -, -, -, -⟩ := idx_facts3 t
  unfold iblk3
  rw [View.read_apply]
  refine congrArg (V c (Pipeline.arrRef spec3 0) : S104448x64.Idx → EReal) (funext fun a => Fin.ext ?_)
  match a with
  | ⟨0, _⟩ => show win3_0.index t (0 : Fin 2) * 6144 + 1 * (y 0).val = (i 0).val; omega
  | ⟨1, _⟩ => show win3_0.index t (1 : Fin 2) * 64 + 1 * (y 1).val = (i 1).val; omega

/-- Input window 1's block at point `t`, read at `y`, is its array at the index `i` with row `t · 6144 + y₀` and `y`'s column. -/
theorem iblk3_1_apply (c : Dev nD) (t : Fin cfg3.N) (y : S6144x1.Idx) (i : S104448x1.Idx)
    (h0 : (i 0).val = t.val * 6144 + (y 0).val) (h1 : (i 1).val = (y 1).val) :
    (iblk3 V c 1 t : Vec Ideal S6144x1 .f32) y = (V c (Pipeline.arrRef spec3 1) : S104448x1.Idx → EReal) i := by
  obtain ⟨-, -, ea, eb, -, -, -, -, -, -, -, -, -, -⟩ := idx_facts3 t
  unfold iblk3
  rw [View.read_apply]
  refine congrArg (V c (Pipeline.arrRef spec3 1) : S104448x1.Idx → EReal) (funext fun a => Fin.ext ?_)
  match a with
  | ⟨0, _⟩ => show win3_1.index t (0 : Fin 2) * 6144 + 1 * (y 0).val = (i 0).val; omega
  | ⟨1, _⟩ => show win3_1.index t (1 : Fin 2) * 1 + 1 * (y 1).val = (i 1).val; omega

/-- Input window 2's block at point `t`, read at `y`, is its array at the index `i` with row `t · 6144 + y₀` and `y`'s column. -/
theorem iblk3_2_apply (c : Dev nD) (t : Fin cfg3.N) (y : S6144x64.Idx) (i : S104448x64.Idx)
    (h0 : (i 0).val = t.val * 6144 + (y 0).val) (h1 : (i 1).val = (y 1).val) :
    (iblk3 V c 2 t : Vec Ideal S6144x64 .f32) y = (V c (Pipeline.arrRef spec3 2) : S104448x64.Idx → EReal) i := by
  obtain ⟨-, -, -, -, ea, eb, -, -, -, -, -, -, -, -⟩ := idx_facts3 t
  unfold iblk3
  rw [View.read_apply]
  refine congrArg (V c (Pipeline.arrRef spec3 2) : S104448x64.Idx → EReal) (funext fun a => Fin.ext ?_)
  match a with
  | ⟨0, _⟩ => show win3_2.index t (0 : Fin 2) * 6144 + 1 * (y 0).val = (i 0).val; omega
  | ⟨1, _⟩ => show win3_2.index t (1 : Fin 2) * 64 + 1 * (y 1).val = (i 1).val; omega

/-- Input window 3's block at point `t`, read at `y`, is its array at the index `i` with \`y\`'s row and `y`'s column. -/
theorem iblk3_3_apply (c : Dev nD) (t : Fin cfg3.N) (y : S64x64.Idx) (i : S64x64.Idx)
    (h0 : (i 0).val = (y 0).val) (h1 : (i 1).val = (y 1).val) :
    (iblk3 V c 3 t : Vec Ideal S64x64 .f32) y = (V c (Pipeline.arrRef spec3 3) : S64x64.Idx → EReal) i := by
  obtain ⟨-, -, -, -, -, -, ea, eb, -, -, -, -, -, -⟩ := idx_facts3 t
  unfold iblk3
  rw [View.read_apply]
  refine congrArg (V c (Pipeline.arrRef spec3 3) : S64x64.Idx → EReal) (funext fun a => Fin.ext ?_)
  match a with
  | ⟨0, _⟩ => show win3_3.index t (0 : Fin 2) * 64 + 1 * (y 0).val = (i 0).val; omega
  | ⟨1, _⟩ => show win3_3.index t (1 : Fin 2) * 64 + 1 * (y 1).val = (i 1).val; omega

/-- Input window 4's block at point `t`, read at `y`, is its array at the index `i` with \`y\`'s row and `y`'s column. -/
theorem iblk3_4_apply (c : Dev nD) (t : Fin cfg3.N) (y : S1x64.Idx) (i : S1x64.Idx)
    (h0 : (i 0).val = (y 0).val) (h1 : (i 1).val = (y 1).val) :
    (iblk3 V c 4 t : Vec Ideal S1x64 .f32) y = (V c (Pipeline.arrRef spec3 4) : S1x64.Idx → EReal) i := by
  obtain ⟨-, -, -, -, -, -, -, -, ea, eb, -, -, -, -⟩ := idx_facts3 t
  unfold iblk3
  rw [View.read_apply]
  refine congrArg (V c (Pipeline.arrRef spec3 4) : S1x64.Idx → EReal) (funext fun a => Fin.ext ?_)
  match a with
  | ⟨0, _⟩ => show win3_4.index t (0 : Fin 2) * 1 + 1 * (y 0).val = (i 0).val; omega
  | ⟨1, _⟩ => show win3_4.index t (1 : Fin 2) * 64 + 1 * (y 1).val = (i 1).val; omega

/-- Input window 5's block at point `t`, read at `y`, is its array at the index `i` with \`y\`'s row and `y`'s column. -/
theorem iblk3_5_apply (c : Dev nD) (t : Fin cfg3.N) (y : S64x64.Idx) (i : S64x64.Idx)
    (h0 : (i 0).val = (y 0).val) (h1 : (i 1).val = (y 1).val) :
    (iblk3 V c 5 t : Vec Ideal S64x64 .f32) y = (V c (Pipeline.arrRef spec3 5) : S64x64.Idx → EReal) i := by
  obtain ⟨-, -, -, -, -, -, -, -, -, -, ea, eb, -, -⟩ := idx_facts3 t
  unfold iblk3
  rw [View.read_apply]
  refine congrArg (V c (Pipeline.arrRef spec3 5) : S64x64.Idx → EReal) (funext fun a => Fin.ext ?_)
  match a with
  | ⟨0, _⟩ => show win3_5.index t (0 : Fin 2) * 64 + 1 * (y 0).val = (i 0).val; omega
  | ⟨1, _⟩ => show win3_5.index t (1 : Fin 2) * 64 + 1 * (y 1).val = (i 1).val; omega

/-! ## What a point writes back, and the array after the region -/

set_option maxHeartbeats 1000000 in
/-- What point `t` writes back is block `t` of `G3` of the input arrays as the region finds them. -/
theorem flushed3_eq (c : Dev nD) (t : Fin cfg3.N) :
    (dat3 V c).flushed 6 t = ((cfg3.win 6).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz3]
  simp only [View.ld_unit_zero (S := S6144x64) hz3, View.ld_unit_zero (S := S64x64) hz3, View.ld_unit_zero (S := S1x64) hz3, View.ld_unit_zero (S := S6144x1) hz3]
  obtain ⟨-, -, -, -, -, -, -, -, -, -, -, -, e60, e61⟩ := idx_facts3 t
  funext j
  obtain ⟨p, q, rfl⟩ : ∃ (p : Fin 6144) (q : Fin 64), j = ix2 p q := ⟨j 0, j 1, eq_ix2 j⟩
  refine (pay3_apply _ _ _ _ _ _ p q).trans ?_
  rw [View.read_apply]
  have hE0 : ((((cfg3.win 6).blk t).view.emb (ix2 p q)) 0).val = t.val * 6144 + p.val := by
    show win3_6.index t (0 : Fin 2) * 6144 + 1 * p.val = _; omega
  have hE1 : ((((cfg3.win 6).blk t).view.emb (ix2 p q)) 1).val = q.val := by
    show win3_6.index t (1 : Fin 2) * 64 + 1 * q.val = _; omega
  unfold G3
  exact congrArg₂ max (congrArg₂ (· + ·) (congrArg₂ (· + ·)
      (Finset.sum_congr rfl fun k _ => congrArg₂ (· * ·) (iblk3_2_apply V c t (ix2 p k) _ hE0 rfl) (iblk3_5_apply V c t (ix2 k q) _ rfl hE1))
      (iblk3_4_apply V c t (ix2 (0 : Fin 1) q) _ rfl hE1))
    (Finset.sum_congr rfl fun k _ => congrArg₂ (· * ·)
      (congrArg₂ Ideal.div (iblk3_0_apply V c t (ix2 p k) _ hE0 rfl)
        (congrArg (fun x => max x (Ideal.ofBits .f32 0x3F800000#32)) (iblk3_1_apply V c t (ix2 p (0 : Fin 1)) _ hE0 rfl)))
      (iblk3_3_apply V c t (ix2 k q) _ rfl hE1))) rfl

/-- An index of the result array is in point `t`'s block iff each coordinate is in the block's range on its axis. -/
theorem mem_blk3 (t : Fin cfg3.N) (i : S104448x64.Idx) :
    i ∈ ((cfg3.win 6).blk t).view.set ↔ ∀ a : Fin 2, win3_6.index t a * S6144x64.size a ≤ (i a).val ∧ (i a).val < win3_6.index t a * S6144x64.size a + S6144x64.size a := by
  show i ∈ ((View.whole main_v192).slice (win3_6.rect t)).set ↔ _
  rw [View.set_slice_whole, Rect.mem_set_unit]
  exact Iff.rfl

/-- Every index of the result array is in some point's block: row `r` in that of point `r / 6144`. -/
theorem cover3 (i : S104448x64.Idx) : ∃ t : Fin cfg3.N, (cfg3.win 6).flush t = true ∧ i ∈ ((cfg3.win 6).blk t).view.set := by
  have hi0 : (i 0).val < 104448 := (i 0).isLt
  have hi1 : (i 1).val < 64 := (i 1).isLt
  obtain ⟨t, ht⟩ : ∃ t : Fin cfg3.N, t.val = (i 0).val / 6144 :=
    ⟨⟨(i 0).val / 6144, by show (i 0).val / 6144 < grid3.N; rw [N_3]; omega⟩, rfl⟩
  obtain ⟨-, -, -, -, -, -, -, -, -, -, -, -, e60, e61⟩ := idx_facts3 t
  refine ⟨t, flush3_6 t, ?_⟩
  rw [mem_blk3]
  intro a
  match a with
  | ⟨0, _⟩ => show win3_6.index t (0 : Fin 2) * 6144 ≤ (i 0).val ∧ (i 0).val < win3_6.index t (0 : Fin 2) * 6144 + 6144; omega
  | ⟨1, _⟩ => show win3_6.index t (1 : Fin 2) * 64 ≤ (i 1).val ∧ (i 1).val < win3_6.index t (1 : Fin 2) * 64 + 64; omega

/-- THE RESULT ARRAY after the region: `G3` of the six input arrays as the region finds them. -/
theorem final3 (c : Dev nD) : (dat3 (F := Ideal) V c).arrAt 6 cfg3.N = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (fun t _ => flushed3_eq V c t) cover3

end Cert.KernelIdeal.Gen

end
-- ==== Proof.KI.Fin8.lean ====
import proofs.«417513_j58866821759238_4_alg».proof.Proof.KI.R8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered, at the ideal values
variable (V : (c : Dev nD) → (b : Ref sig .tc) → Buf (Elt Ideal) ((c : Thread nD τ).loc b))

/-! # REGION 8: what its result array holds after it, as one function of the arrays it finds

The region tiles the 104448 rows by 17 tiles of 6144; the two weights and the bias are one block each. -/

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product `[6144, 64] · [64, 64]` at an entry -/

theorem lhs8_0 (i : S6144x64.Idx) (q : dot_S6144x64_S64x64_S6144x64_1_0_0_1_n_n.contr.Idx) :
    (dot_S6144x64_S64x64_S6144x64_1_0_0_1_n_n.lhsIdx i q 0).val = (i 0).val := by
  unfold DotDims.lhsIdx
  rw [dif_neg (show ¬(0 : Fin S6144x64.rank) ∈ dot_S6144x64_S64x64_S6144x64_1_0_0_1_n_n.lhsBatch by decide), dif_pos (show (0 : Fin S6144x64.rank) ∈ dot_S6144x64_S64x64_S6144x64_1_0_0_1_n_n.lhsNonContracting by decide)]
  rfl
theorem lhs8_1 (i : S6144x64.Idx) (q : dot_S6144x64_S64x64_S6144x64_1_0_0_1_n_n.contr.Idx) :
    (dot_S6144x64_S64x64_S6144x64_1_0_0_1_n_n.lhsIdx i q 1).val = (q ⟨0, by decide⟩).val :=
  dot_S6144x64_S64x64_S6144x64_1_0_0_1_n_n.lhsIdx_val_of_single rfl i q
theorem rhs8_0 (i : S6144x64.Idx) (q : dot_S6144x64_S64x64_S6144x64_1_0_0_1_n_n.contr.Idx) :
    (dot_S6144x64_S64x64_S6144x64_1_0_0_1_n_n.rhsIdx i q 0).val = (q ⟨0, by decide⟩).val :=
  dot_S6144x64_S64x64_S6144x64_1_0_0_1_n_n.rhsIdx_val_of_single rfl i q
theorem rhs8_1 (i : S6144x64.Idx) (q : dot_S6144x64_S64x64_S6144x64_1_0_0_1_n_n.contr.Idx) :
    (dot_S6144x64_S64x64_S6144x64_1_0_0_1_n_n.rhsIdx i q 1).val = (i 1).val := by
  unfold DotDims.rhsIdx
  rw [dif_neg (show ¬(1 : Fin S64x64.rank) ∈ dot_S6144x64_S64x64_S6144x64_1_0_0_1_n_n.rhsBatch by decide), dif_pos (show (1 : Fin S64x64.rank) ∈ dot_S6144x64_S64x64_S6144x64_1_0_0_1_n_n.rhsNonContracting by decide)]
  rfl

/-- The block product into the zero accumulator, at entry `(p, q)`: the sum over the 64 lanes of row `p` of the left
    factor times column `q` of the right. -/
theorem matmul8_apply (x : FVec Ideal S6144x64 .f32) (w : FVec Ideal S64x64 .f32) (p : Fin 6144) (q : Fin 64) :
    FloatOps.matmul dot_S6144x64_S64x64_S6144x64_1_0_0_1_n_n none x w (constant S6144x64 .f32 0x00000000#32) (ix2 p q)
      = ∑ k : Fin 64, x (ix2 p k) * w (ix2 k q) := by
  rw [Ideal.matmul_constant_zero_apply, ← Equiv.sum_comp (contrEquiv1 dot_S6144x64_S64x64_S6144x64_1_0_0_1_n_n 64 rfl rfl).symm]
  refine Finset.sum_congr rfl fun k _ => ?_
  have hk := contrEquiv1_symm_val dot_S6144x64_S64x64_S6144x64_1_0_0_1_n_n 64 rfl rfl k
  have el : dot_S6144x64_S64x64_S6144x64_1_0_0_1_n_n.lhsIdx (ix2 p q) ((contrEquiv1 dot_S6144x64_S64x64_S6144x64_1_0_0_1_n_n 64 rfl rfl).symm k) = ix2 p k := funext fun a => Fin.ext (by
    match a with
    | ⟨0, _⟩ => exact lhs8_0 _ _
    | ⟨1, _⟩ => exact (lhs8_1 _ _).trans hk)
  have er : dot_S6144x64_S64x64_S6144x64_1_0_0_1_n_n.rhsIdx (ix2 p q) ((contrEquiv1 dot_S6144x64_S64x64_S6144x64_1_0_0_1_n_n 64 rfl rfl).symm k) = ix2 k q := funext fun a => Fin.ext (by
    match a with
    | ⟨0, _⟩ => exact (rhs8_0 _ _).trans hk
    | ⟨1, _⟩ => exact rhs8_1 _ _)
  rw [el, er]

/-- The body's value at entry `(p, q)` of the tile, from the loaded blocks: the destination rows times the self
    weight plus the bias, plus the neighbour mean (the sum over the count clamped below at one) times the neighbour
    weight, in the body's own association order. -/
theorem pay8_apply (v0 : Vec Ideal S6144x64 .f32) (v2 : Vec Ideal S64x64 .f32) (v5 : Vec Ideal S1x64 .f32) (v9 : Vec Ideal S6144x64 .f32) (v11 : Vec Ideal S6144x1 .f32) (v17 : Vec Ideal S64x64 .f32) (p : Fin 6144) (q : Fin 64) :
    k8_pay1 v0 v2 v5 v9 v11 v17 (ix2 p q)
      = ((∑ k : Fin 64, v0 (ix2 p k) * v2 (ix2 k q)) + v5 (ix2 (0 : Fin 1) q))
        + ∑ k : Fin 64, Ideal.div (v9 (ix2 p k)) (max (v11 (ix2 p (0 : Fin 1))) (Ideal.ofBits .f32 0x3F800000#32)) * v17 (ix2 k q) := by
  unfold k8_pay1
  simp only [matmul, shapeCast_self]
  rw [addf_apply, addf_apply, matmul8_apply, matmul8_apply, broadcastTo_1b_ab_apply]
  simp only [divf_apply, broadcastTo_a1_ab_apply, maximumf_apply, broadcast_apply]
  rfl

/-! ## The specification -/

/-- The layer's result at row `i 0`, lane `i 1`: the destination row times the self weight plus the bias, plus the
    neighbour mean — the neighbour sum over the count clamped below at one — times the neighbour weight, in the
    body's own association order. -/
def G8 (a0 : S104448x64.Idx → EReal) (a1 : S104448x1.Idx → EReal) (a2 : S104448x64.Idx → EReal) (a3 : S64x64.Idx → EReal) (a4 : S1x64.Idx → EReal) (a5 : S64x64.Idx → EReal) : S104448x64.Idx → EReal := fun i =>
  ((∑ k : Fin 64, a2 (ix2 (i 0) k) * a5 (ix2 k (i 1))) + a4 (ix2 (0 : Fin 1) (i 1)))
    + ∑ k : Fin 64, Ideal.div (a0 (ix2 (i 0) k)) (max (a1 (ix2 (i 0) (0 : Fin 1))) (Ideal.ofBits .f32 0x3F800000#32)) * a3 (ix2 k (i 1))

/-- The body's value at entry `(p, q)` of a tile is `G8` of the arrays at `(r, q)` as soon as the tile's row `p` of each
    row-tiled block is the array's row `r` and the weight and bias blocks are their arrays. -/
theorem pay8_eq_G8 (x0 : Vec Ideal S6144x64 .f32) (x1 : Vec Ideal S6144x1 .f32) (x2 : Vec Ideal S6144x64 .f32) (x3 : Vec Ideal S64x64 .f32) (x4 : Vec Ideal S1x64 .f32) (x5 : Vec Ideal S64x64 .f32)
    (a0 : S104448x64.Idx → EReal) (a1 : S104448x1.Idx → EReal) (a2 : S104448x64.Idx → EReal) (a3 : S64x64.Idx → EReal) (a4 : S1x64.Idx → EReal) (a5 : S64x64.Idx → EReal)
    (p : Fin 6144) (q : Fin 64) (r : Fin 104448)
    (h0 : ∀ k : Fin 64, x0 (ix2 p k) = a0 (ix2 r k)) (h1 : x1 (ix2 p (0 : Fin 1)) = a1 (ix2 r (0 : Fin 1)))
    (h2 : ∀ k : Fin 64, x2 (ix2 p k) = a2 (ix2 r k)) (h3 : ∀ k : Fin 64, x3 (ix2 k q) = a3 (ix2 k q))
    (h4 : x4 (ix2 (0 : Fin 1) q) = a4 (ix2 (0 : Fin 1) q)) (h5 : ∀ k : Fin 64, x5 (ix2 k q) = a5 (ix2 k q)) :
    k8_pay1 x2 x5 x4 x0 x1 x3 (ix2 p q) = G8 a0 a1 a2 a3 a4 a5 (ix2 r q) := by
  rw [pay8_apply]
  simp only [h0, h1, h2, h3, h4, h5]
  rfl

/-! ## From the tiles to the array -/

theorem hz8 : (![0, 0] : Fin 2 → Nat) = fun _ => 0 := funext fun a => by fin_cases a <;> rfl

/-- The printed index maps, decided over the 17 points: the row-tiled windows are at tile `t` of the rows, the weights
    and the bias at their one block. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Tile `t` of the neighbour sums is rows `6144 t … 6144 t + 6143` of their array. -/
theorem iblk8_0_apply (c : Dev nD) (t : Fin cfg8.N) (x : S6144x64.Idx) (k : S104448x64.Idx)
    (hk0 : (k 0).val = 6144 * t.val + (x 0).val) (hk1 : (k 1).val = (x 1).val) :
    (iblk8 V c 0 t : Vec Ideal S6144x64 .f32) x = (V c (Pipeline.arrRef spec8 0) : S104448x64.Idx → EReal) k := by
  obtain ⟨e0, e1, -⟩ := idx_facts8 t
  unfold iblk8
  rw [View.read_apply]
  refine congrArg (V c (Pipeline.arrRef spec8 0) : S104448x64.Idx → EReal) (funext fun a => Fin.ext ?_)
  match a with
  | ⟨0, _⟩ => show win8_0.index t (0 : Fin 2) * 6144 + 1 * (x 0).val = (k 0).val; rw [e0, hk0]; omega
  | ⟨1, _⟩ => show win8_0.index t (1 : Fin 2) * 64 + 1 * (x 1).val = (k 1).val; rw [e1, hk1]; omega

/-- Tile `t` of the neighbour counts is the same rows of their one-column array. -/
theorem iblk8_1_apply (c : Dev nD) (t : Fin cfg8.N) (x : S6144x1.Idx) (k : S104448x1.Idx)
    (hk0 : (k 0).val = 6144 * t.val + (x 0).val) (hk1 : (k 1).val = (x 1).val) :
    (iblk8 V c 1 t : Vec Ideal S6144x1 .f32) x = (V c (Pipeline.arrRef spec8 1) : S104448x1.Idx → EReal) k := by
  obtain ⟨-, -, e0, e1, -⟩ := idx_facts8 t
  unfold iblk8
  rw [View.read_apply]
  refine congrArg (V c (Pipeline.arrRef spec8 1) : S104448x1.Idx → EReal) (funext fun a => Fin.ext ?_)
  match a with
  | ⟨0, _⟩ => show win8_1.index t (0 : Fin 2) * 6144 + 1 * (x 0).val = (k 0).val; rw [e0, hk0]; omega
  | ⟨1, _⟩ => show win8_1.index t (1 : Fin 2) * 1 + 1 * (x 1).val = (k 1).val; rw [e1, hk1]; omega

/-- Tile `t` of the destination rows is the same rows of their array. -/
theorem iblk8_2_apply (c : Dev nD) (t : Fin cfg8.N) (x : S6144x64.Idx) (k : S104448x64.Idx)
    (hk0 : (k 0).val = 6144 * t.val + (x 0).val) (hk1 : (k 1).val = (x 1).val) :
    (iblk8 V c 2 t : Vec Ideal S6144x64 .f32) x = (V c (Pipeline.arrRef spec8 2) : S104448x64.Idx → EReal) k := by
  obtain ⟨-, -, -, -, e0, e1, -⟩ := idx_facts8 t
  unfold iblk8
  rw [View.read_apply]
  refine congrArg (V c (Pipeline.arrRef spec8 2) : S104448x64.Idx → EReal) (funext fun a => Fin.ext ?_)
  match a with
  | ⟨0, _⟩ => show win8_2.index t (0 : Fin 2) * 6144 + 1 * (x 0).val = (k 0).val; rw [e0, hk0]; omega
  | ⟨1, _⟩ => show win8_2.index t (1 : Fin 2) * 64 + 1 * (x 1).val = (k 1).val; rw [e1, hk1]; omega

/-- The neighbour weight's one block is its array, at every point. -/
theorem iblk8_3_apply (c : Dev nD) (t : Fin cfg8.N) (x : S64x64.Idx) :
    (iblk8 V c 3 t : Vec Ideal S64x64 .f32) x = (V c (Pipeline.arrRef spec8 3) : S64x64.Idx → EReal) x := by
  obtain ⟨-, -, -, -, -, -, e0, e1, -⟩ := idx_facts8 t
  unfold iblk8
  rw [View.read_apply]
  refine congrArg (V c (Pipeline.arrRef spec8 3) : S64x64.Idx → EReal) (funext fun a => Fin.ext ?_)
  match a with
  | ⟨0, _⟩ => show win8_3.index t (0 : Fin 2) * 64 + 1 * (x 0).val = (x 0).val; rw [e0]; omega
  | ⟨1, _⟩ => show win8_3.index t (1 : Fin 2) * 64 + 1 * (x 1).val = (x 1).val; rw [e1]; omega

/-- The bias's one block is its array, at every point. -/
theorem iblk8_4_apply (c : Dev nD) (t : Fin cfg8.N) (x : S1x64.Idx) :
    (iblk8 V c 4 t : Vec Ideal S1x64 .f32) x = (V c (Pipeline.arrRef spec8 4) : S1x64.Idx → EReal) x := by
  obtain ⟨-, -, -, -, -, -, -, -, e0, e1, -⟩ := idx_facts8 t
  unfold iblk8
  rw [View.read_apply]
  refine congrArg (V c (Pipeline.arrRef spec8 4) : S1x64.Idx → EReal) (funext fun a => Fin.ext ?_)
  match a with
  | ⟨0, _⟩ => show win8_4.index t (0 : Fin 2) * 1 + 1 * (x 0).val = (x 0).val; rw [e0]; omega
  | ⟨1, _⟩ => show win8_4.index t (1 : Fin 2) * 64 + 1 * (x 1).val = (x 1).val; rw [e1]; omega

/-- The self weight's one block is its array, at every point. -/
theorem iblk8_5_apply (c : Dev nD) (t : Fin cfg8.N) (x : S64x64.Idx) :
    (iblk8 V c 5 t : Vec Ideal S64x64 .f32) x = (V c (Pipeline.arrRef spec8 5) : S64x64.Idx → EReal) x := by
  obtain ⟨-, -, -, -, -, -, -, -, -, -, e0, e1, -⟩ := idx_facts8 t
  unfold iblk8
  rw [View.read_apply]
  refine congrArg (V c (Pipeline.arrRef spec8 5) : S64x64.Idx → EReal) (funext fun a => Fin.ext ?_)
  match a with
  | ⟨0, _⟩ => show win8_5.index t (0 : Fin 2) * 64 + 1 * (x 0).val = (x 0).val; rw [e0]; omega
  | ⟨1, _⟩ => show win8_5.index t (1 : Fin 2) * 64 + 1 * (x 1).val = (x 1).val; rw [e1]; omega

/-- What point `t` writes back is tile `t` of `G8` of the arrays as the region finds them. -/
theorem flushed8_eq (c : Dev nD) (t : Fin cfg8.N) :
    (dat8 (F := Ideal) V c).flushed 6 t = ((cfg8.win 6).blk t).view.read (Elt Ideal)
      (G8 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5))) := by
  show (cfg8.win 6).cut (grid8.coords t) ((dat8 (F := Ideal) V c).after 6 t) = _
  rw [after8_6]
  unfold out8_6
  rw [View.canon_unit_zero hz8]
  simp only [View.ld_unit_zero (S := S6144x64) hz8, View.ld_unit_zero (S := S64x64) hz8, View.ld_unit_zero (S := S1x64) hz8, View.ld_unit_zero (S := S6144x1) hz8]
  obtain ⟨-, -, -, -, -, -, -, -, -, -, -, -, e0, e1⟩ := idx_facts8 t
  have ht : t.val < 17 := lt_of_lt_of_eq t.isLt (N_8 : cfg8.N = 17)
  funext j
  have hj0 : (j 0).val < 6144 := (j 0).isLt
  have hr : 6144 * t.val + (j 0).val < 104448 := by omega
  have hj : (j : S6144x64.Idx) = ix2 (j 0) (j 1) := eq_ix2 j
  have he : (((cfg8.win 6).blk t).view.emb j : S104448x64.Idx) = ix2 (⟨6144 * t.val + (j 0).val, hr⟩ : Fin 104448) (j 1) := by
    funext a; apply Fin.ext
    match a with
    | ⟨0, _⟩ => show win8_6.index t (0 : Fin 2) * 6144 + 1 * (j 0).val = 6144 * t.val + (j 0).val; rw [e0]; omega
    | ⟨1, _⟩ => show win8_6.index t (1 : Fin 2) * 64 + 1 * (j 1).val = (j 1).val; rw [e1]; omega
  show k8_pay1 (iblk8 V c 2 t) (iblk8 V c 5 t) (iblk8 V c 4 t) (iblk8 V c 0 t) (iblk8 V c 1 t) (iblk8 V c 3 t) j
    = G8 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (((cfg8.win 6).blk t).view.emb j)
  rw [he]
  refine (congrArg (k8_pay1 (iblk8 V c 2 t) (iblk8 V c 5 t) (iblk8 V c 4 t) (iblk8 V c 0 t) (iblk8 V c 1 t) (iblk8 V c 3 t)) hj).trans ?_
  exact pay8_eq_G8 (iblk8 V c 0 t) (iblk8 V c 1 t) (iblk8 V c 2 t) (iblk8 V c 3 t) (iblk8 V c 4 t) (iblk8 V c 5 t) _ _ _ _ _ _ (j 0) (j 1) ⟨6144 * t.val + (j 0).val, hr⟩
    (fun k => iblk8_0_apply V c t _ _ rfl rfl) (iblk8_1_apply V c t _ _ rfl rfl) (fun k => iblk8_2_apply V c t _ _ rfl rfl)
    (fun k => iblk8_3_apply V c t _) (iblk8_4_apply V c t _) (fun k => iblk8_5_apply V c t _)

/-- An index of the array is in point `t`'s tile iff each coordinate is in the tile's range on its axis. -/
theorem mem_blk8 (t : Fin cfg8.N) (i : S104448x64.Idx) :
    i ∈ ((cfg8.win 6).blk t).view.set ↔ ∀ a : Fin 2, win8_6.index t a * S6144x64.size a ≤ (i a).val ∧ (i a).val < win8_6.index t a * S6144x64.size a + S6144x64.size a := by
  show i ∈ ((View.whole main_v392).slice (win8_6.rect t)).set ↔ _
  rw [View.set_slice_whole, Rect.mem_set_unit]
  exact Iff.rfl

/-- Every index of the array is in some point's tile: row `r` is in tile `r / 6144`. -/
theorem cover8 (i : S104448x64.Idx) : ∃ t : Fin cfg8.N, (cfg8.win 6).flush t = true ∧ i ∈ ((cfg8.win 6).blk t).view.set := by
  have hi0 : (i 0).val < 104448 := (i 0).isLt
  have hi1 : (i 1).val < 64 := (i 1).isLt
  obtain ⟨t, ht⟩ : ∃ t : Fin cfg8.N, t.val = (i 0).val / 6144 := ⟨⟨(i 0).val / 6144, by rw [show cfg8.N = 17 from N_8]; omega⟩, rfl⟩
  obtain ⟨-, -, -, -, -, -, -, -, -, -, -, -, e0, e1⟩ := idx_facts8 t
  refine ⟨t, flush8_6 t, ?_⟩
  rw [mem_blk8]
  intro a
  match a with
  | ⟨0, _⟩ => show win8_6.index t (0 : Fin 2) * 6144 ≤ (i 0).val ∧ (i 0).val < win8_6.index t (0 : Fin 2) * 6144 + 6144; rw [e0, ht]; omega
  | ⟨1, _⟩ => show win8_6.index t (1 : Fin 2) * 64 ≤ (i 1).val ∧ (i 1).val < win8_6.index t (1 : Fin 2) * 64 + 64; rw [e1]; omega

/-- The result array after the region: `G8` of the six arrays the region reads, as it finds them, at every index. -/
theorem final8 (c : Dev nD) : (dat8 (F := Ideal) V c).arrAt 6 cfg8.N
    = G8 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) :=
  (dat8 (F := Ideal) V c).arrAt_eq_of_cover 6 _ (fun t _ => flushed8_eq V c t) cover8

end Cert.KernelIdeal.Gen

end
-- ==== Proof.Sim.Users.lean ====
import proofs.«417513_j58866821759238_4_alg».proof.Proof.KI.Keep
import proofs.«417513_j58866821759238_4_alg».proof.Proof.KI.Fin3
import proofs.«417513_j58866821759238_4_alg».proof.Proof.KI.Fin8
import proofs.«417513_j58866821759238_4_alg».proof.Proof.Ref.Run
import proofs.«417513_j58866821759238_4_alg».proof.Proof.Math.Sage
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.Sim

open Idealize.ShloMosaic Idealize.ShloMosaic.TcCoe Idealize.ShloMosaic.ValueIdx Idealize.SL.Sem
open scoped BigOperators

/-! # The users' two layers: the kernel program's regions 3 and 8 against the reference's operations

One edge type (series → users) feeds the users, so the kernel program's order of summation — the self-weight product
and the bias first, the neighbour-mean product last — and the reference's — the neighbour-mean product and the bias
first — differ by a rearrangement of three summands: equal at all extended reals. -/

/-! ## Layout steps of the users' layers, read at an entry -/

section Layout
variable {α : Type}

/-- Rows padded from 100000 to 104448 at the high end: an entry of a row below 100000 is the operand's. -/
theorem pad_rows_apply {b : ℕ} (x : (⟨2, ![100000, b]⟩ : Shape).Idx → α) {u : Shape} (v : u.Idx → α)
    (h : (⟨2, ![100000, b]⟩ : Shape).Pads ![0, 0] ![4448, 0] ![0, 0] ⟨2, ![104448, b]⟩) (hu : 0 < u.numel)
    (r : Fin 100000) (r' : Fin 104448) (hr : r'.val = r.val) (k : Fin b) :
    pad ⟨2, ![104448, b]⟩ ![0, 0] ![4448, 0] ![0, 0] x v h hu (ix2 r' k) = x (ix2 r k) := by
  refine pad_apply_of_inside _ _ _ x v h hu (ix2 r' k) (ix2 r k) fun a => ?_
  match a with
  | ⟨0, _⟩ => show r'.val = 0 + r.val * (0 + 1); omega
  | ⟨1, _⟩ => show k.val = 0 + k.val * (0 + 1); omega

/-- The first 100000 of 104448 rows: an entry is the operand's at the same row. -/
theorem slice_rows_apply {b : ℕ} (y : (⟨2, ![104448, b]⟩ : Shape).Idx → α)
    (h : (⟨2, ![104448, b]⟩ : Shape).Slices ![0, 0] ⟨2, ![100000, b]⟩)
    (r : Fin 100000) (r' : Fin 104448) (hr : r'.val = r.val) (j : Fin b) :
    extractStridedSlice ⟨2, ![100000, b]⟩ ![0, 0] y h (ix2 r j) = y (ix2 r' j) := by
  refine extractStridedSlice_apply ![0, 0] y h (ix2 r j) (ix2 r' j) fun a => ?_
  match a with
  | ⟨0, _⟩ => show r'.val = 0 + r.val; omega
  | ⟨1, _⟩ => show j.val = 0 + j.val; omega

/-- A column broadcast along the 64 lanes reads the column at the row. -/
theorem bcast_col_apply (C : (⟨2, ![100000, 1]⟩ : Shape).Idx → α)
    (h : (⟨2, ![100000, 1]⟩ : Shape).BroadcastsInDim ⟨2, ![100000, 64]⟩ ![0, 1]) (r : Fin 100000) (j : Fin 64) :
    broadcastInDim ⟨2, ![100000, 64]⟩ ![0, 1] h C (ix2 r j) = C (ix2 r (0 : Fin 1)) := by
  refine broadcastInDim_apply _ h C (ix2 r j) (ix2 r (0 : Fin 1)) fun a => ?_
  match a with
  | ⟨0, _⟩ => show r.val = if (100000 : Nat) = 1 then 0 else r.val; rw [if_neg (by decide)]
  | ⟨1, _⟩ => show 0 = if (1 : Nat) = 1 then 0 else j.val; rw [if_pos rfl]

/-- A vector of 64 made a row, then broadcast along the 100000 rows, reads the vector at the lane. -/
theorem bcast_row_apply (B : (⟨1, ![64]⟩ : Shape).Idx → α)
    (h1 : (⟨1, ![64]⟩ : Shape).BroadcastsInDim ⟨2, ![1, 64]⟩ ![1])
    (h2 : (⟨2, ![1, 64]⟩ : Shape).BroadcastsInDim ⟨2, ![100000, 64]⟩ ![0, 1]) (r : Fin 100000) (j : Fin 64) :
    broadcastInDim ⟨2, ![100000, 64]⟩ ![0, 1] h2 (broadcastInDim ⟨2, ![1, 64]⟩ ![1] h1 B) (ix2 r j) = B (ix1 j) := by
  refine (broadcastInDim_apply _ h2 _ (ix2 r j) (ix2 (0 : Fin 1) j) fun a => ?_).trans
    (broadcastInDim_apply _ h1 B (ix2 (0 : Fin 1) j) (ix1 j) fun a => ?_)
  · match a with
    | ⟨0, _⟩ => show 0 = if (1 : Nat) = 1 then 0 else r.val; rw [if_pos rfl]
    | ⟨1, _⟩ => show j.val = if (64 : Nat) = 1 then 0 else j.val; rw [if_neg (by decide)]
  · match a with
    | ⟨0, _⟩ => show j.val = if (64 : Nat) = 1 then 0 else j.val; rw [if_neg (by decide)]

end Layout

/-- The bias stacked over the one edge type and summed from zero: at a lane, zero plus the one-term sum of the bias. -/
theorem bias_stack_apply (B : (⟨1, ![64]⟩ : Shape).Idx → EReal)
    (hb : (⟨1, ![64]⟩ : Shape).BroadcastsInDim ⟨2, ![1, 64]⟩ ![1])
    (hr : (⟨2, ![1, 64]⟩ : Shape).ReducesTo [0] ⟨1, ![64]⟩) (hS : 0 < (⟨0, ![]⟩ : Shape).numel)
    (hc : (⟨1, ![64]⟩ : Shape).ShapeCasts ⟨2, ![1, 64]⟩) (j : Fin 64) :
    shapeCast ⟨2, ![1, 64]⟩ (Host.reduceAdd (F := Ideal) (φ := .f32) (broadcastInDim ⟨2, ![1, 64]⟩ ![1] hb B)
        (constant ⟨0, ![]⟩ .f32 0x00000000#32) hr hS) hc (ix2 (0 : Fin 1) j)
      = 0 + ∑ _i : Fin 1, B (ix1 j) := by
  rw [shapeCast_a_1a_apply]
  simp only [Host.reduceAdd, Ideal.hostReduceAdd_def]
  rw [Ideal.hostReduceAdd_single hr (by decide)]
  show Ideal.ofBits .f32 0x00000000#32 + _ = _
  rw [Ideal.ofBits_zero_f32]
  refine congrArg (0 + ·) (Finset.sum_congr rfl fun i _ => ?_)
  refine broadcastInDim_apply _ hb B _ (ix1 j) fun a => ?_
  match a with
  | ⟨0, _⟩ => show j.val = if (64 : Nat) = 1 then 0 else j.val; rw [if_neg (by decide)]

/-- The self weight stacked over the one edge type and summed from zero: at an entry, zero plus the one-term sum. -/
theorem wr_stack_apply (W : (⟨2, ![64, 64]⟩ : Shape).Idx → EReal)
    (hb : (⟨2, ![64, 64]⟩ : Shape).BroadcastsInDim ⟨3, ![1, 64, 64]⟩ ![1, 2])
    (hr : (⟨3, ![1, 64, 64]⟩ : Shape).ReducesTo [0] ⟨2, ![64, 64]⟩) (hS : 0 < (⟨0, ![]⟩ : Shape).numel)
    (k j : Fin 64) :
    Host.reduceAdd (F := Ideal) (φ := .f32) (broadcastInDim ⟨3, ![1, 64, 64]⟩ ![1, 2] hb W)
        (constant ⟨0, ![]⟩ .f32 0x00000000#32) hr hS (ix2 k j)
      = 0 + ∑ _i : Fin 1, W (ix2 k j) := by
  simp only [Host.reduceAdd, Ideal.hostReduceAdd_def]
  rw [Ideal.hostReduceAdd_single hr (by decide)]
  show Ideal.ofBits .f32 0x00000000#32 + _ = _
  rw [Ideal.ofBits_zero_f32]
  refine congrArg (0 + ·) (Finset.sum_congr rfl fun i _ => ?_)
  refine broadcastInDim_apply _ hb W _ (ix2 k j) fun a => ?_
  match a with
  | ⟨0, _⟩ => show k.val = if (64 : Nat) = 1 then 0 else k.val; rw [if_neg (by decide)]
  | ⟨1, _⟩ => show j.val = if (64 : Nat) = 1 then 0 else j.val; rw [if_neg (by decide)]

/-! ## Layer 1, the kernel program's side: the users' result at an entry -/

section K1
open Cert.KernelIdeal Cert.KernelIdeal.Gen Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- The layer's formula at a row and a lane (the region's result function unfolded at coordinates). -/
theorem G3_apply (a0 : S104448x64.Idx → EReal) (a1 : S104448x1.Idx → EReal) (a2 : S104448x64.Idx → EReal) (a3 : S64x64.Idx → EReal) (a4 : S1x64.Idx → EReal) (a5 : S64x64.Idx → EReal)
    (r' : Fin 104448) (j : Fin 64) :
    G3 a0 a1 a2 a3 a4 a5 (ix2 r' j)
      = max (((∑ k : Fin 64, a2 (ix2 r' k) * a5 (ix2 k j)) + a4 (ix2 (0 : Fin 1) j))
          + ∑ k : Fin 64, Ideal.div (a0 (ix2 r' k)) (max (a1 (ix2 r' (0 : Fin 1))) (Ideal.ofBits .f32 0x3F800000#32)) * a3 (ix2 k j)) 0 := rfl

/-- The neighbour weight, the bias and the self weight of edge type 1 of layer 1, as the slices, reshapes and
    transposes of the stacked arguments that both programs take. -/
def wl1 (a : S8x64x64.Idx → EReal) : S64x64.Idx → EReal :=
  transpose S64x64 [1, 0] (fun i => shapeCast S64x64 (extractStridedSlice S1x64x64 ![1, 0, 0] a slices_S8x64x64_S1x64x64_1_0_0) shapeCasts_S1x64x64_S64x64 i) transposes_S64x64_S64x64_1_0
def b1 (a : S8x64.Idx → EReal) : S64.Idx → EReal :=
  fun i => shapeCast S64 (extractStridedSlice S1x64 ![1, 0] a slices_S8x64_S1x64_1_0) shapeCasts_S1x64_S64 i

/-- The users' layer-1 result is the first 100000 rows of region 3's result. -/
theorem K_v193 (c : Dev nD) :
    W31 m ρ c (Proc.devRef .tc main_v193) = extractStridedSlice S100000x64 ![0, 0] (W30 m ρ c (Proc.devRef .tc main_v192)) slices_S104448x64_S100000x64_0_0 := by
  show StableHlo.after hostOps4 (W30 m ρ c) (Proc.devRef .tc main_v193) = _
  generalize W30 m ρ c = Y
  after_results_simp

/-- Region 3's result is the layer's formula of the six arrays it finds. -/
theorem K_v192 (c : Dev nD) :
    W30 m ρ c (Proc.devRef .tc main_v192)
      = G3 (W29 m ρ c (Proc.devRef .tc main_v189)) (W29 m ρ c (Proc.devRef .tc main_v190)) (W29 m ρ c (Proc.devRef .tc main_v191))
          (W29 m ρ c (Proc.devRef .tc main_v178)) (W29 m ρ c (Proc.devRef .tc main_v186)) (W29 m ρ c (Proc.devRef .tc main_v188)) :=
  (W30_arr m ρ c 6).trans (final3 (V29 m ρ) c)

/-- The padded neighbour sums at a row below 100000 are the neighbour sums. -/
theorem K_v189_at (c : Dev nD) (r : Fin 100000) (r' : Fin 104448) (hr : r'.val = r.val) (k : Fin 64) :
    (W29 m ρ c (Proc.devRef .tc main_v189) : S104448x64.Idx → EReal) (ix2 r' k)
      = (W24 m ρ c (Proc.devRef .tc main_v175) : S100000x64.Idx → EReal) (ix2 r k) := by
  rw [keep_v189_29]
  show (StableHlo.after hostOps3_1 (W24 m ρ c) (Proc.devRef .tc main_v189) : S104448x64.Idx → EReal) _ = _
  generalize W24 m ρ c = Y
  after_results_simp
  show (pad S104448x64 ![0, 0] ![4448, 0] ![0, 0] (Y (Proc.devRef .tc main_v175) : S100000x64.Idx → EReal) (_ : S_.Idx → EReal) pads_S100000x64_S104448x64_044480_000 h_S_ : S104448x64.Idx → EReal) (ix2 r' k) = _
  exact pad_rows_apply _ _ pads_S100000x64_S104448x64_044480_000 h_S_ r r' hr k

/-- The padded counts at a row below 100000 are the counts. -/
theorem K_v190_at (c : Dev nD) (r : Fin 100000) (r' : Fin 104448) (hr : r'.val = r.val) :
    (W29 m ρ c (Proc.devRef .tc main_v190) : S104448x1.Idx → EReal) (ix2 r' (0 : Fin 1))
      = (W5 m ρ c (Proc.devRef .tc main_v45) : S100000x1.Idx → EReal) (ix2 r (0 : Fin 1)) := by
  rw [keep_v190_29, ← keep_v45_26]
  show (StableHlo.after hostOps3_3 (W26 m ρ c) (Proc.devRef .tc main_v190) : S104448x1.Idx → EReal) _ = _
  generalize W26 m ρ c = Y
  after_results_simp
  show (pad S104448x1 ![0, 0] ![4448, 0] ![0, 0] (Y (Proc.devRef .tc main_v45) : S100000x1.Idx → EReal) (_ : S_.Idx → EReal) pads_S100000x1_S104448x1_044480_000 h_S_ : S104448x1.Idx → EReal) (ix2 r' (0 : Fin 1)) = _
  exact pad_rows_apply _ _ pads_S100000x1_S104448x1_044480_000 h_S_ r r' hr 0

/-- The padded destination rows at a row below 100000 are the users' projected features. -/
theorem K_v191_at (c : Dev nD) (r : Fin 100000) (r' : Fin 104448) (hr : r'.val = r.val) (k : Fin 64) :
    (W29 m ρ c (Proc.devRef .tc main_v191) : S104448x64.Idx → EReal) (ix2 r' k)
      = (W2 m ρ c (Proc.devRef .tc main_v2) : S100000x64.Idx → EReal) (ix2 r k) := by
  rw [← keep_v2_28]
  show (StableHlo.after hostOps3_5 (W28 m ρ c) (Proc.devRef .tc main_v191) : S104448x64.Idx → EReal) _ = _
  generalize W28 m ρ c = Y
  after_results_simp
  show (pad S104448x64 ![0, 0] ![4448, 0] ![0, 0] (Y (Proc.devRef .tc main_v2) : S100000x64.Idx → EReal) (_ : S_.Idx → EReal) pads_S100000x64_S104448x64_044480_000 h_S_ : S104448x64.Idx → EReal) (ix2 r' k) = _
  exact pad_rows_apply _ _ pads_S100000x64_S104448x64_044480_000 h_S_ r r' hr k

/-- The neighbour weight the region finds. -/
theorem K_v178 (c : Dev nD) : W29 m ρ c (Proc.devRef .tc main_v178) = wl1 (m ((c.tc : Thread nD τ).loc main_arg9)) := by
  rw [keep_v178_29]
  show StableHlo.after hostOps3 (W23 m ρ c) (Proc.devRef .tc main_v178) = _
  have e : W23 m ρ c (Proc.devRef .tc main_arg9) = m ((c.tc : Thread nD τ).loc main_arg9) := keep_arg9_23 m ρ c
  rw [← e]
  generalize W23 m ρ c = Y
  after_results_simp
  rfl

/-- The bias the region finds, at a lane: zero plus the one-term sum of edge type 1's bias. -/
theorem K_v186_at (c : Dev nD) (j : Fin 64) :
    (W29 m ρ c (Proc.devRef .tc main_v186) : S1x64.Idx → EReal) (ix2 (0 : Fin 1) j)
      = 0 + ∑ _i : Fin 1, b1 (m ((c.tc : Thread nD τ).loc main_arg10)) (ix1 j) := by
  rw [keep_v186_29]
  show (StableHlo.after hostOps3 (W23 m ρ c) (Proc.devRef .tc main_v186) : S1x64.Idx → EReal) _ = _
  have e : W23 m ρ c (Proc.devRef .tc main_arg10) = m ((c.tc : Thread nD τ).loc main_arg10) := keep_arg10_23 m ρ c
  rw [← e]
  generalize W23 m ρ c = Y
  after_results_simp
  exact bias_stack_apply _ _ _ _ _ j

/-- The self weight the region finds, at an entry: zero plus the one-term sum of edge type 1's self weight. -/
theorem K_v188_at (c : Dev nD) (k j : Fin 64) :
    (W29 m ρ c (Proc.devRef .tc main_v188) : S64x64.Idx → EReal) (ix2 k j)
      = 0 + ∑ _i : Fin 1, wl1 (m ((c.tc : Thread nD τ).loc main_arg11)) (ix2 k j) := by
  rw [keep_v188_29]
  show (StableHlo.after hostOps3 (W23 m ρ c) (Proc.devRef .tc main_v188) : S64x64.Idx → EReal) _ = _
  have e : W23 m ρ c (Proc.devRef .tc main_arg11) = m ((c.tc : Thread nD τ).loc main_arg11) := keep_arg11_23 m ρ c
  rw [← e]
  generalize W23 m ρ c = Y
  after_results_simp
  exact wr_stack_apply _ _ _ _ k j

end K1

/-! ## Layer 1, the reference's side: the users' result at an entry -/

section Scalar
variable {α : Type}
/-- A scalar broadcast to any shape reads the scalar everywhere. -/
theorem bcast_scalar_apply {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0
end Scalar

section R1
open Cert.ReferenceIdeal Cert.ReferenceIdeal.Gen Cert.ReferenceIdeal.Value Idealize.ShloMosaic.StableHlo

variable (m' : (ℓ : Loc Cert.ReferenceIdeal.nD Cert.ReferenceIdeal.τ Cert.ReferenceIdeal.sig) → Buf (Elt Ideal) ℓ)

theorem lhsU_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhsU_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhsU_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhsU_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's product of a 100000-row array by a 64-by-64 weight, at an entry: the sum over the 64 lanes. -/
theorem dotU_apply (L : FVec Ideal S100000x64 .f32) (W : FVec Ideal S64x64 .f32) (r : Fin 100000) (j : Fin 64) :
    Host.dotGeneral dot_S100000x64_S64x64_S100000x64_1_0_0_1_n_n none L W (ix2 r j) = ∑ k : Fin 64, L (ix2 r k) * W (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact lhsU_0 _ _
    | ⟨1, _⟩ => exact (lhsU_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (rhsU_0 _ _).trans hk
    | ⟨1, _⟩ => exact rhsU_1 _ _)
  rw [el, er]

/-- The layer as the reference writes it, over its neighbour sums `A`, counts `C`, destination rows `X` and the three
    weights: (mean · wl + bias) + X · wr. -/
def refLayer (A : FVec Ideal S100000x64 .f32) (C : FVec Ideal S100000x1 .f32) (X : FVec Ideal S100000x64 .f32)
    (WL : FVec Ideal S64x64 .f32) (B : FVec Ideal S64 .f32) (WR : FVec Ideal S64x64 .f32) : FVec Ideal S100000x64 .f32 :=
  addf (F := Ideal) (addf (F := Ideal) (Host.dotGeneral (F := Ideal) dot_S100000x64_S64x64_S100000x64_1_0_0_1_n_n none
        (Host.divf (F := Ideal) (φ := .f32) A (broadcastInDim S100000x64 ![0, 1] bcast_S100000x1_S100000x64_0_1
          (maximumf (F := Ideal) (φ := .f32) C (broadcastInDim S100000x1 ![] bcast_S_S100000x1 (constant (F := Ideal) S_ .f32 0x3F800000#32))))) WL)
      (broadcastInDim S100000x64 ![0, 1] bcast_S1x64_S100000x64_0_1 (broadcastInDim S1x64 ![1] bcast_S64_S1x64_1 B)))
    (Host.dotGeneral (F := Ideal) dot_S100000x64_S64x64_S100000x64_1_0_0_1_n_n none X WR)

/-- The reference's layer at an entry. -/
theorem refLayer_apply (A : FVec Ideal S100000x64 .f32) (C : FVec Ideal S100000x1 .f32) (X : FVec Ideal S100000x64 .f32)
    (WL : FVec Ideal S64x64 .f32) (B : FVec Ideal S64 .f32) (WR : FVec Ideal S64x64 .f32) (r : Fin 100000) (j : Fin 64) :
    refLayer A C X WL B WR (ix2 r j)
      = ((∑ k : Fin 64, Ideal.div (A (ix2 r k)) (max (C (ix2 r (0 : Fin 1))) (Ideal.ofBits .f32 0x3F800000#32)) * WL (ix2 k j)) + B (ix1 j))
          + ∑ k : Fin 64, X (ix2 r k) * WR (ix2 k j) := by
  unfold refLayer
  rw [addf_apply, addf_apply, dotU_apply, dotU_apply, bcast_row_apply]
  refine congrArg (fun s => s + B (ix1 j) + ∑ k : Fin 64, X (ix2 r k) * WR (ix2 k j)) (Finset.sum_congr rfl fun k _ => ?_)
  refine congrArg (fun d => Ideal.div (A (ix2 r k)) d * WL (ix2 k j)) ?_
  rw [bcast_col_apply, maximumf_apply, bcast_scalar_apply]
  rfl

end R1

section R1reads
open Cert.ReferenceIdeal Cert.ReferenceIdeal.Gen Cert.ReferenceIdeal.Value Idealize.ShloMosaic.StableHlo

variable (m' : (ℓ : Loc Cert.ReferenceIdeal.nD Cert.ReferenceIdeal.τ Cert.ReferenceIdeal.sig) → Buf (Elt Ideal) ℓ)

/-- The users' layer-1 pre-activation of the reference is its layer over its own neighbour sums, counts and projected
    features, and edge type 1's weights. -/
theorem R_v105 (c : Dev nD) :
    U2 m' c (Proc.devRef .tc main_v105)
      = refLayer (U2 m' c (Proc.devRef .tc main_v89)) (U2 m' c (Proc.devRef .tc main_v93)) (U1 m' c (Proc.devRef .tc main_v4))
          (wl1 (m' ((c.tc : Thread nD τ).loc main_arg9))) (b1 (m' ((c.tc : Thread nD τ).loc main_arg10))) (wl1 (m' ((c.tc : Thread nD τ).loc main_arg11))) := by
  have e9 : U1 m' c (Proc.devRef .tc main_arg9) = m' ((c.tc : Thread nD τ).loc main_arg9) := (U1_of m' c main_arg9 (by decide)).trans rfl
  have e10 : U1 m' c (Proc.devRef .tc main_arg10) = m' ((c.tc : Thread nD τ).loc main_arg10) := (U1_of m' c main_arg10 (by decide)).trans rfl
  have e11 : U1 m' c (Proc.devRef .tc main_arg11) = m' ((c.tc : Thread nD τ).loc main_arg11) := (U1_of m' c main_arg11 (by decide)).trans rfl
  rw [← e9, ← e10, ← e11]
  show StableHlo.after ops1 (U1 m' c) (Proc.devRef .tc main_v105)
    = refLayer (StableHlo.after ops1 (U1 m' c) (Proc.devRef .tc main_v89)) (StableHlo.after ops1 (U1 m' c) (Proc.devRef .tc main_v93)) _ _ _ _
  unfold refLayer wl1 b1
  generalize U1 m' c = Y
  after_results_simp
  rfl

/-- The users' layer-1 result of the reference: the pre-activation clamped below at zero. -/
theorem R_v301 (c : Dev nD) :
    U6 m' c (Proc.devRef .tc main_v301)
      = maximumf (F := Ideal) (φ := .f32) (U2 m' c (Proc.devRef .tc main_v105))
          (broadcastInDim S100000x64 ![] bcast_S_S100000x64 (constant (F := Ideal) S_ .f32 0x00000000#32)) := by
  have e : U5 m' c (Proc.devRef .tc main_v105) = U2 m' c (Proc.devRef .tc main_v105) :=
    (U5_of m' c main_v105 (by decide)).trans ((U4_of m' c main_v105 (by decide)).trans (U3_of m' c main_v105 (by decide)))
  rw [← e]
  show StableHlo.after ops5 (U5 m' c) (Proc.devRef .tc main_v301) = _
  generalize U5 m' c = Y
  after_results_simp
  rfl

end R1reads

/-! ## Layer 1: the users' results agree -/

section K1entry
open Cert.KernelIdeal Cert.KernelIdeal.Gen
variable (m : (ℓ : Loc Cert.KernelIdeal.nD Cert.KernelIdeal.τ Cert.KernelIdeal.sig) → Buf (Elt Ideal) ℓ) (ρ : Dev Cert.KernelIdeal.nD → PrngReg)

/-- The kernel program's users' layer-1 result at row `r`, lane `j`, over the buffers the layer's host steps start from:
    the neighbour sums `A`, the counts `C`, the projected features `X`. -/
theorem K_u1_at (c : Dev nD) (r : Fin 100000) (j : Fin 64)
    (A : S100000x64.Idx → EReal) (C : S100000x1.Idx → EReal) (X : S100000x64.Idx → EReal)
    (hA : W24 m ρ c (Proc.devRef .tc main_v175) = A) (hC : W5 m ρ c (Proc.devRef .tc main_v45) = C) (hX : W2 m ρ c (Proc.devRef .tc main_v2) = X) :
    (W31 m ρ c (Proc.devRef .tc main_v193) : S100000x64.Idx → EReal) (ix2 r j)
      = max (((∑ k : Fin 64, X (ix2 r k) * (0 + ∑ _i : Fin 1, wl1 (m ((c.tc : Thread nD τ).loc main_arg11)) (ix2 k j)))
            + (0 + ∑ _i : Fin 1, b1 (m ((c.tc : Thread nD τ).loc main_arg10)) (ix1 j)))
          + ∑ k : Fin 64, Ideal.div (A (ix2 r k)) (max (C (ix2 r (0 : Fin 1))) (Ideal.ofBits .f32 0x3F800000#32))
              * wl1 (m ((c.tc : Thread nD τ).loc main_arg9)) (ix2 k j)) 0 := by
  subst hA hC hX
  have hr' : r.val < 104448 := lt_trans r.isLt (by decide)
  rw [K_v193, K_v192, slice_rows_apply _ _ r ⟨r.val, hr'⟩ rfl j, G3_apply, K_v186_at m ρ c j, K_v190_at m ρ c r ⟨r.val, hr'⟩ rfl, K_v178 m ρ c]
  refine congrArg (fun s : EReal => max s 0) ?_
  refine congrArg₂ (· + ·) (congrArg (· + _) (Finset.sum_congr rfl fun k _ => ?_)) (Finset.sum_congr rfl fun k _ => ?_)
  · rw [K_v191_at m ρ c r ⟨r.val, hr'⟩ rfl k, K_v188_at m ρ c k j]
  · rw [K_v189_at m ρ c r ⟨r.val, hr'⟩ rfl k]

end K1entry

section R1entry
open Cert.ReferenceIdeal Cert.ReferenceIdeal.Gen Cert.ReferenceIdeal.Value
variable (m' : (ℓ : Loc Cert.ReferenceIdeal.nD Cert.ReferenceIdeal.τ Cert.ReferenceIdeal.sig) → Buf (Elt Ideal) ℓ)

/-- The reference's users' layer-1 result at row `r`, lane `j`, over its neighbour sums `A`, counts `C` and projected
    features `X`. -/
theorem R_u1_at (c : Dev nD) (r : Fin 100000) (j : Fin 64)
    (A : S100000x64.Idx → EReal) (C : S100000x1.Idx → EReal) (X : S100000x64.Idx → EReal)
    (hA : U2 m' c (Proc.devRef .tc main_v89) = A) (hC : U2 m' c (Proc.devRef .tc main_v93) = C) (hX : U1 m' c (Proc.devRef .tc main_v4) = X) :
    (U6 m' c (Proc.devRef .tc main_v301) : S100000x64.Idx → EReal) (ix2 r j)
      = max (((∑ k : Fin 64, Ideal.div (A (ix2 r k)) (max (C (ix2 r (0 : Fin 1))) (Ideal.ofBits .f32 0x3F800000#32))
              * wl1 (m' ((c.tc : Thread nD τ).loc main_arg9)) (ix2 k j))
            + b1 (m' ((c.tc : Thread nD τ).loc main_arg10)) (ix1 j))
          + ∑ k : Fin 64, X (ix2 r k) * wl1 (m' ((c.tc : Thread nD τ).loc main_arg11)) (ix2 k j)) 0 := by
  subst hA hC hX
  rw [R_v301, R_v105, maximumf_apply, refLayer_apply, bcast_scalar_apply]
  show max _ (Ideal.ofBits .f32 0x00000000#32) = _
  rw [Ideal.ofBits_zero_f32]

end R1entry

section Final1
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 1000000 in
/-- LAYER 1, USERS: the kernel program's result (the first 100000 rows of region 3's result array) is the reference's
    (its layer clamped below at zero), given that the two programs' neighbour sums, counts and projected features agree
    and the launch memories agree on edge type 1's three weight arguments. Entry by entry the two differ by the order of
    three summands. -/
theorem S_u1
    (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hagg : ∀ c : Dev Cert.KernelIdeal.nD, Cert.KernelIdeal.Gen.W24 m ρ c (Proc.devRef .tc Cert.KernelIdeal.main_v175) = Cert.ReferenceIdeal.Value.U2 m' c (Proc.devRef .tc Cert.ReferenceIdeal.main_v89))
    (hcnt : ∀ c : Dev Cert.KernelIdeal.nD, Cert.KernelIdeal.Gen.W5 m ρ c (Proc.devRef .tc Cert.KernelIdeal.main_v45) = Cert.ReferenceIdeal.Value.U2 m' c (Proc.devRef .tc Cert.ReferenceIdeal.main_v93))
    (hx : ∀ c : Dev Cert.KernelIdeal.nD, Cert.KernelIdeal.Gen.W2 m ρ c (Proc.devRef .tc Cert.KernelIdeal.main_v2) = Cert.ReferenceIdeal.Value.U1 m' c (Proc.devRef .tc Cert.ReferenceIdeal.main_v4))
    (c : Dev Cert.KernelIdeal.nD) :
    Cert.KernelIdeal.Gen.W31 m ρ c (Proc.devRef .tc Cert.KernelIdeal.main_v193) = Cert.ReferenceIdeal.Value.U6 m' c (Proc.devRef .tc Cert.ReferenceIdeal.main_v301) := by
  funext i
  obtain ⟨r, j, rfl⟩ : ∃ (r : Fin 100000) (j : Fin 64), i = ix2 r j := ⟨i 0, i 1, eq_ix2 i⟩
  refine (K_u1_at m ρ c r j _ _ _ (hagg c) (hcnt c) (hx c)).trans (Eq.trans ?_ (R_u1_at m' c r j _ _ _ rfl rfl rfl).symm)
  rw [← h9 c, ← h10 c, ← h11 c]
  exact Cert.Math.sage1_relu (fun u d => Ideal.div u (max d (Ideal.ofBits .f32 0x3F800000#32))) _ _ _ _ _ _ 0

end Final1

/-! ## Layer 2, the kernel program's side: the users' result at an entry -/

section K2
open Cert.KernelIdeal Cert.KernelIdeal.Gen Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- The layer's formula at a row and a lane, without the final clamp (the region's result function unfolded at coordinates). -/
theorem G8_apply (a0 : S104448x64.Idx → EReal) (a1 : S104448x1.Idx → EReal) (a2 : S104448x64.Idx → EReal) (a3 : S64x64.Idx → EReal) (a4 : S1x64.Idx → EReal) (a5 : S64x64.Idx → EReal)
    (r' : Fin 104448) (j : Fin 64) :
    G8 a0 a1 a2 a3 a4 a5 (ix2 r' j)
      = ((∑ k : Fin 64, a2 (ix2 r' k) * a5 (ix2 k j)) + a4 (ix2 (0 : Fin 1) j))
          + ∑ k : Fin 64, Ideal.div (a0 (ix2 r' k)) (max (a1 (ix2 r' (0 : Fin 1))) (Ideal.ofBits .f32 0x3F800000#32)) * a3 (ix2 k j) := rfl

/-- The users' layer-2 result is the first 100000 rows of region 8's result. -/
theorem K_v393 (c : Dev nD) :
    W68 m ρ c (Proc.devRef .tc main_v393) = extractStridedSlice S100000x64 ![0, 0] (W67 m ρ c (Proc.devRef .tc main_v392)) slices_S104448x64_S100000x64_0_0 := by
  show StableHlo.after hostOps9 (W67 m ρ c) (Proc.devRef .tc main_v393) = _
  generalize W67 m ρ c = Y
  after_results_simp

/-- Region 8's result is the layer's formula of the six arrays it finds. -/
theorem K_v392 (c : Dev nD) :
    W67 m ρ c (Proc.devRef .tc main_v392)
      = G8 (W66 m ρ c (Proc.devRef .tc main_v389)) (W66 m ρ c (Proc.devRef .tc main_v390)) (W66 m ρ c (Proc.devRef .tc main_v391))
          (W66 m ρ c (Proc.devRef .tc main_v378)) (W66 m ρ c (Proc.devRef .tc main_v386)) (W66 m ρ c (Proc.devRef .tc main_v388)) :=
  (W67_arr m ρ c 6).trans (final8 (V66 m ρ) c)

/-- The padded neighbour sums at a row below 100000 are the layer-2 neighbour sums. -/
theorem K_v389_at (c : Dev nD) (r : Fin 100000) (r' : Fin 104448) (hr : r'.val = r.val) (k : Fin 64) :
    (W66 m ρ c (Proc.devRef .tc main_v389) : S104448x64.Idx → EReal) (ix2 r' k)
      = (W61 m ρ c (Proc.devRef .tc main_v375) : S100000x64.Idx → EReal) (ix2 r k) := by
  rw [keep_v389_66]
  show (StableHlo.after hostOps8_1 (W61 m ρ c) (Proc.devRef .tc main_v389) : S104448x64.Idx → EReal) _ = _
  generalize W61 m ρ c = Y
  after_results_simp
  show (pad S104448x64 ![0, 0] ![4448, 0] ![0, 0] (Y (Proc.devRef .tc main_v375) : S100000x64.Idx → EReal) (_ : S_.Idx → EReal) pads_S100000x64_S104448x64_044480_000 h_S_ : S104448x64.Idx → EReal) (ix2 r' k) = _
  exact pad_rows_apply _ _ pads_S100000x64_S104448x64_044480_000 h_S_ r r' hr k

/-- The padded counts at a row below 100000 are the counts. -/
theorem K_v390_at (c : Dev nD) (r : Fin 100000) (r' : Fin 104448) (hr : r'.val = r.val) :
    (W66 m ρ c (Proc.devRef .tc main_v390) : S104448x1.Idx → EReal) (ix2 r' (0 : Fin 1))
      = (W5 m ρ c (Proc.devRef .tc main_v45) : S100000x1.Idx → EReal) (ix2 r (0 : Fin 1)) := by
  rw [keep_v390_66, ← keep_v45_63]
  show (StableHlo.after hostOps8_3 (W63 m ρ c) (Proc.devRef .tc main_v390) : S104448x1.Idx → EReal) _ = _
  generalize W63 m ρ c = Y
  after_results_simp
  show (pad S104448x1 ![0, 0] ![4448, 0] ![0, 0] (Y (Proc.devRef .tc main_v45) : S100000x1.Idx → EReal) (_ : S_.Idx → EReal) pads_S100000x1_S104448x1_044480_000 h_S_ : S104448x1.Idx → EReal) (ix2 r' (0 : Fin 1)) = _
  exact pad_rows_apply _ _ pads_S100000x1_S104448x1_044480_000 h_S_ r r' hr 0

/-- The padded destination rows at a row below 100000 are the users' layer-1 result. -/
theorem K_v391_at (c : Dev nD) (r : Fin 100000) (r' : Fin 104448) (hr : r'.val = r.val) (k : Fin 64) :
    (W66 m ρ c (Proc.devRef .tc main_v391) : S104448x64.Idx → EReal) (ix2 r' k)
      = (W31 m ρ c (Proc.devRef .tc main_v193) : S100000x64.Idx → EReal) (ix2 r k) := by
  rw [← keep_v193_65]
  show (StableHlo.after hostOps8_5 (W65 m ρ c) (Proc.devRef .tc main_v391) : S104448x64.Idx → EReal) _ = _
  generalize W65 m ρ c = Y
  after_results_simp
  show (pad S104448x64 ![0, 0] ![4448, 0] ![0, 0] (Y (Proc.devRef .tc main_v193) : S100000x64.Idx → EReal) (_ : S_.Idx → EReal) pads_S100000x64_S104448x64_044480_000 h_S_ : S104448x64.Idx → EReal) (ix2 r' k) = _
  exact pad_rows_apply _ _ pads_S100000x64_S104448x64_044480_000 h_S_ r r' hr k

/-- The neighbour weight region 8 finds. -/
theorem K_v378 (c : Dev nD) : W66 m ρ c (Proc.devRef .tc main_v378) = wl1 (m ((c.tc : Thread nD τ).loc main_arg12)) := by
  rw [keep_v378_66]
  show StableHlo.after hostOps8 (W60 m ρ c) (Proc.devRef .tc main_v378) = _
  have e : W60 m ρ c (Proc.devRef .tc main_arg12) = m ((c.tc : Thread nD τ).loc main_arg12) := keep_arg12_60 m ρ c
  rw [← e]
  generalize W60 m ρ c = Y
  after_results_simp
  rfl

/-- The bias region 8 finds, at a lane: zero plus the one-term sum of edge type 1's layer-2 bias. -/
theorem K_v386_at (c : Dev nD) (j : Fin 64) :
    (W66 m ρ c (Proc.devRef .tc main_v386) : S1x64.Idx → EReal) (ix2 (0 : Fin 1) j)
      = 0 + ∑ _i : Fin 1, b1 (m ((c.tc : Thread nD τ).loc main_arg13)) (ix1 j) := by
  rw [keep_v386_66]
  show (StableHlo.after hostOps8 (W60 m ρ c) (Proc.devRef .tc main_v386) : S1x64.Idx → EReal) _ = _
  have e : W60 m ρ c (Proc.devRef .tc main_arg13) = m ((c.tc : Thread nD τ).loc main_arg13) := keep_arg13_60 m ρ c
  rw [← e]
  generalize W60 m ρ c = Y
  after_results_simp
  exact bias_stack_apply _ _ _ _ _ j

/-- The self weight region 8 finds, at an entry: zero plus the one-term sum of edge type 1's layer-2 self weight. -/
theorem K_v388_at (c : Dev nD) (k j : Fin 64) :
    (W66 m ρ c (Proc.devRef .tc main_v388) : S64x64.Idx → EReal) (ix2 k j)
      = 0 + ∑ _i : Fin 1, wl1 (m ((c.tc : Thread nD τ).loc main_arg14)) (ix2 k j) := by
  rw [keep_v388_66]
  show (StableHlo.after hostOps8 (W60 m ρ c) (Proc.devRef .tc main_v388) : S64x64.Idx → EReal) _ = _
  have e : W60 m ρ c (Proc.devRef .tc main_arg14) = m ((c.tc : Thread nD τ).loc main_arg14) := keep_arg14_60 m ρ c
  rw [← e]
  generalize W60 m ρ c = Y
  after_results_simp
  exact wr_stack_apply _ _ _ _ k j

end K2

/-! ## Layer 2, the reference's side -/

section R2reads
open Cert.ReferenceIdeal Cert.ReferenceIdeal.Gen Cert.ReferenceIdeal.Value Idealize.ShloMosaic.StableHlo

variable (m' : (ℓ : Loc Cert.ReferenceIdeal.nD Cert.ReferenceIdeal.τ Cert.ReferenceIdeal.sig) → Buf (Elt Ideal) ℓ)

/-- An argument no window writes is as launched, after five windows. -/
theorem U6_arg (c : Dev nD) (r : Ref sig .tc) (h0 : r ∉ ops0_W) (h1 : r ∉ ops1_W) (h2 : r ∉ ops2_W) (h3 : r ∉ ops3_W) (h4 : r ∉ ops4_W) (h5 : r ∉ ops5_W) :
    U6 m' c (Proc.devRef .tc r) = U0 m' c (Proc.devRef .tc r) :=
  (U6_of m' c r h5).trans ((U5_of m' c r h4).trans ((U4_of m' c r h3).trans ((U3_of m' c r h2).trans ((U2_of m' c r h1).trans (U1_of m' c r h0)))))

/-- The users' layer-2 result of the reference is its layer over its own layer-2 neighbour sums and counts, its layer-1
    users' result, and edge type 1's layer-2 weights. -/
theorem R_v369 (c : Dev nD) :
    U8 m' c (Proc.devRef .tc main_v369)
      = refLayer (U7 m' c (Proc.devRef .tc main_v353)) (U7 m' c (Proc.devRef .tc main_v357)) (U6 m' c (Proc.devRef .tc main_v301))
          (wl1 (m' ((c.tc : Thread nD τ).loc main_arg12))) (b1 (m' ((c.tc : Thread nD τ).loc main_arg13))) (wl1 (m' ((c.tc : Thread nD τ).loc main_arg14))) := by
  have e12 : U6 m' c (Proc.devRef .tc main_arg12) = m' ((c.tc : Thread nD τ).loc main_arg12) :=
    (U6_arg m' c main_arg12 (by decide) (by decide) (by decide) (by decide) (by decide) (by decide)).trans rfl
  have e13 : U6 m' c (Proc.devRef .tc main_arg13) = m' ((c.tc : Thread nD τ).loc main_arg13) :=
    (U6_arg m' c main_arg13 (by decide) (by decide) (by decide) (by decide) (by decide) (by decide)).trans rfl
  have e14 : U6 m' c (Proc.devRef .tc main_arg14) = m' ((c.tc : Thread nD τ).loc main_arg14) :=
    (U6_arg m' c main_arg14 (by decide) (by decide) (by decide) (by decide) (by decide) (by decide)).trans rfl
  rw [← e12, ← e13, ← e14]
  show StableHlo.after ops7 (StableHlo.after ops6 (U6 m' c)) (Proc.devRef .tc main_v369)
    = refLayer (StableHlo.after ops6 (U6 m' c) (Proc.devRef .tc main_v353)) (StableHlo.after ops6 (U6 m' c) (Proc.devRef .tc main_v357)) _ _ _ _
  unfold refLayer wl1 b1
  generalize U6 m' c = Y
  after_results_simp
  rfl

end R2reads

/-! ## Layer 2: the users' results agree -/

section K2entry
open Cert.KernelIdeal Cert.KernelIdeal.Gen
variable (m : (ℓ : Loc Cert.KernelIdeal.nD Cert.KernelIdeal.τ Cert.KernelIdeal.sig) → Buf (Elt Ideal) ℓ) (ρ : Dev Cert.KernelIdeal.nD → PrngReg)

/-- The kernel program's users' layer-2 result at row `r`, lane `j`, over the buffers the layer's host steps start from:
    the layer-2 neighbour sums `A`, the counts `C`, the users' layer-1 result `X`. -/
theorem K_u2_at (c : Dev nD) (r : Fin 100000) (j : Fin 64)
    (A : S100000x64.Idx → EReal) (C : S100000x1.Idx → EReal) (X : S100000x64.Idx → EReal)
    (hA : W61 m ρ c (Proc.devRef .tc main_v375) = A) (hC : W5 m ρ c (Proc.devRef .tc main_v45) = C) (hX : W31 m ρ c (Proc.devRef .tc main_v193) = X) :
    (W68 m ρ c (Proc.devRef .tc main_v393) : S100000x64.Idx → EReal) (ix2 r j)
      = ((∑ k : Fin 64, X (ix2 r k) * (0 + ∑ _i : Fin 1, wl1 (m ((c.tc : Thread nD τ).loc main_arg14)) (ix2 k j)))
            + (0 + ∑ _i : Fin 1, b1 (m ((c.tc : Thread nD τ).loc main_arg13)) (ix1 j)))
          + ∑ k : Fin 64, Ideal.div (A (ix2 r k)) (max (C (ix2 r (0 : Fin 1))) (Ideal.ofBits .f32 0x3F800000#32))
              * wl1 (m ((c.tc : Thread nD τ).loc main_arg12)) (ix2 k j) := by
  subst hA hC hX
  have hr' : r.val < 104448 := lt_trans r.isLt (by decide)
  rw [K_v393, K_v392, slice_rows_apply _ _ r ⟨r.val, hr'⟩ rfl j, G8_apply, K_v386_at m ρ c j, K_v390_at m ρ c r ⟨r.val, hr'⟩ rfl, K_v378 m ρ c]
  refine congrArg₂ (· + ·) (congrArg (· + _) (Finset.sum_congr rfl fun k _ => ?_)) (Finset.sum_congr rfl fun k _ => ?_)
  · rw [K_v391_at m ρ c r ⟨r.val, hr'⟩ rfl k, K_v388_at m ρ c k j]
  · rw [K_v389_at m ρ c r ⟨r.val, hr'⟩ rfl k]

end K2entry

section R2entry
open Cert.ReferenceIdeal Cert.ReferenceIdeal.Gen Cert.ReferenceIdeal.Value
variable (m' : (ℓ : Loc Cert.ReferenceIdeal.nD Cert.ReferenceIdeal.τ Cert.ReferenceIdeal.sig) → Buf (Elt Ideal) ℓ)

/-- The reference's users' layer-2 result at row `r`, lane `j`, over its layer-2 neighbour sums `A`, counts `C` and its
    users' layer-1 result `X`. -/
theorem R_u2_at (c : Dev nD) (r : Fin 100000) (j : Fin 64)
    (A : S100000x64.Idx → EReal) (C : S100000x1.Idx → EReal) (X : S100000x64.Idx → EReal)
    (hA : U7 m' c (Proc.devRef .tc main_v353) = A) (hC : U7 m' c (Proc.devRef .tc main_v357) = C) (hX : U6 m' c (Proc.devRef .tc main_v301) = X) :
    (U8 m' c (Proc.devRef .tc main_v369) : S100000x64.Idx → EReal) (ix2 r j)
      = ((∑ k : Fin 64, Ideal.div (A (ix2 r k)) (max (C (ix2 r (0 : Fin 1))) (Ideal.ofBits .f32 0x3F800000#32))
              * wl1 (m' ((c.tc : Thread nD τ).loc main_arg12)) (ix2 k j))
            + b1 (m' ((c.tc : Thread nD τ).loc main_arg13)) (ix1 j))
          + ∑ k : Fin 64, X (ix2 r k) * wl1 (m' ((c.tc : Thread nD τ).loc main_arg14)) (ix2 k j) := by
  subst hA hC hX
  rw [R_v369, refLayer_apply]

end R2entry

section Final2
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 1000000 in
/-- LAYER 2, USERS: the kernel program's result (the first 100000 rows of region 8's result array) is the reference's
    layer-2 users' array, given that the two programs' layer-2 neighbour sums, counts and layer-1 users' results agree
    and the launch memories agree on edge type 1's three layer-2 weight arguments. No clamp in this layer. -/
theorem S_u2
    (h12 : ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hagg : ∀ c : Dev Cert.KernelIdeal.nD, Cert.KernelIdeal.Gen.W61 m ρ c (Proc.devRef .tc Cert.KernelIdeal.main_v375) = Cert.ReferenceIdeal.Value.U7 m' c (Proc.devRef .tc Cert.ReferenceIdeal.main_v353))
    (hcnt : ∀ c : Dev Cert.KernelIdeal.nD, Cert.KernelIdeal.Gen.W5 m ρ c (Proc.devRef .tc Cert.KernelIdeal.main_v45) = Cert.ReferenceIdeal.Value.U7 m' c (Proc.devRef .tc Cert.ReferenceIdeal.main_v357))
    (hu1 : ∀ c : Dev Cert.KernelIdeal.nD, Cert.KernelIdeal.Gen.W31 m ρ c (Proc.devRef .tc Cert.KernelIdeal.main_v193) = Cert.ReferenceIdeal.Value.U6 m' c (Proc.devRef .tc Cert.ReferenceIdeal.main_v301))
    (c : Dev Cert.KernelIdeal.nD) :
    Cert.KernelIdeal.Gen.W68 m ρ c (Proc.devRef .tc Cert.KernelIdeal.main_v393) = Cert.ReferenceIdeal.Value.U8 m' c (Proc.devRef .tc Cert.ReferenceIdeal.main_v369) := by
  funext i
  obtain ⟨r, j, rfl⟩ : ∃ (r : Fin 100000) (j : Fin 64), i = ix2 r j := ⟨i 0, i 1, eq_ix2 i⟩
  refine (K_u2_at m ρ c r j _ _ _ (hagg c) (hcnt c) (hu1 c)).trans (Eq.trans ?_ (R_u2_at m' c r j _ _ _ rfl rfl rfl).symm)
  rw [← h12 c, ← h13 c, ← h14 c]
  exact Cert.Math.sage1 (fun u d => Ideal.div u (max d (Ideal.ofBits .f32 0x3F800000#32))) _ _ _ _ _ _

end Final2

end Cert.Sim

end
-- ==== Proof.KI.Fin2.lean ====
import proofs.«417513_j58866821759238_4_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # REGION 2 at the ideal values: what its output array holds after the region, as one function of its input arrays -/

/-- The region's output array as one function of its fifteen input arrays, index by index: at row `r` and column `j`,
    max(0, Σ_k a8(r,k)·a14(k,j) + a13(0,j) + Σ_{e<4} Σ_k (a_{2e}(r,k) / max(a_{2e+1}(r,0), 1))·a_{9+e}(k,j)), the sums added in
    the body's order (left to right), the division the ideal one, the literal 1 kept as its word. -/
def G2 (a0 : S51576x64.Idx → EReal) (a1 : S51576x1.Idx → EReal) (a2 : S51576x64.Idx → EReal) (a3 : S51576x1.Idx → EReal)
    (a4 : S51576x64.Idx → EReal) (a5 : S51576x1.Idx → EReal) (a6 : S51576x64.Idx → EReal) (a7 : S51576x1.Idx → EReal)
    (a8 : S51576x64.Idx → EReal) (a9 : S64x64.Idx → EReal) (a10 : S64x64.Idx → EReal) (a11 : S64x64.Idx → EReal)
    (a12 : S64x64.Idx → EReal) (a13 : S1x64.Idx → EReal) (a14 : S64x64.Idx → EReal) : S51576x64.Idx → EReal := fun i =>
  max ((((((∑ k : Fin 64, a8 (ix2 (i 0) k) * a14 (ix2 k (i 1))) + a13 (ix2 (0 : Fin 1) (i 1)))
      + ∑ k : Fin 64, Ideal.div (a0 (ix2 (i 0) k)) (max (a1 (ix2 (i 0) (0 : Fin 1))) (Ideal.ofBits .f32 0x3F800000#32)) * a9 (ix2 k (i 1)))
      + ∑ k : Fin 64, Ideal.div (a2 (ix2 (i 0) k)) (max (a3 (ix2 (i 0) (0 : Fin 1))) (Ideal.ofBits .f32 0x3F800000#32)) * a10 (ix2 k (i 1)))
      + ∑ k : Fin 64, Ideal.div (a4 (ix2 (i 0) k)) (max (a5 (ix2 (i 0) (0 : Fin 1))) (Ideal.ofBits .f32 0x3F800000#32)) * a11 (ix2 k (i 1)))
      + ∑ k : Fin 64, Ideal.div (a6 (ix2 (i 0) k)) (max (a7 (ix2 (i 0) (0 : Fin 1))) (Ideal.ofBits .f32 0x3F800000#32)) * a12 (ix2 k (i 1))) 0

/-! ## The body's payload at an index -/

theorem lhs2_0 (i : S2456x64.Idx) (q : dot_S2456x64_S64x64_S2456x64_1_0_0_1_n_n.contr.Idx) :
    (dot_S2456x64_S64x64_S2456x64_1_0_0_1_n_n.lhsIdx i q 0).val = (i 0).val := by
  unfold DotDims.lhsIdx
  rw [dif_neg (show ¬(0 : Fin S2456x64.rank) ∈ dot_S2456x64_S64x64_S2456x64_1_0_0_1_n_n.lhsBatch by decide), dif_pos (show (0 : Fin S2456x64.rank) ∈ dot_S2456x64_S64x64_S2456x64_1_0_0_1_n_n.lhsNonContracting by decide)]
  rfl
theorem lhs2_1 (i : S2456x64.Idx) (q : dot_S2456x64_S64x64_S2456x64_1_0_0_1_n_n.contr.Idx) :
    (dot_S2456x64_S64x64_S2456x64_1_0_0_1_n_n.lhsIdx i q 1).val = (q ⟨0, by decide⟩).val :=
  dot_S2456x64_S64x64_S2456x64_1_0_0_1_n_n.lhsIdx_val_of_single rfl i q
theorem rhs2_0 (i : S2456x64.Idx) (q : dot_S2456x64_S64x64_S2456x64_1_0_0_1_n_n.contr.Idx) :
    (dot_S2456x64_S64x64_S2456x64_1_0_0_1_n_n.rhsIdx i q 0).val = (q ⟨0, by decide⟩).val :=
  dot_S2456x64_S64x64_S2456x64_1_0_0_1_n_n.rhsIdx_val_of_single rfl i q
theorem rhs2_1 (i : S2456x64.Idx) (q : dot_S2456x64_S64x64_S2456x64_1_0_0_1_n_n.contr.Idx) :
    (dot_S2456x64_S64x64_S2456x64_1_0_0_1_n_n.rhsIdx i q 1).val = (i 1).val := by
  unfold DotDims.rhsIdx
  rw [dif_neg (show ¬(1 : Fin S64x64.rank) ∈ dot_S2456x64_S64x64_S2456x64_1_0_0_1_n_n.rhsBatch by decide), dif_pos (show (1 : Fin S64x64.rank) ∈ dot_S2456x64_S64x64_S2456x64_1_0_0_1_n_n.rhsNonContracting by decide)]
  rfl

/-- The body's matrix product into a zero accumulator, read at (p, q): the sum over the 64 contracted positions of the
    left operand's row p times the right operand's column q. -/
theorem matmul2_apply (A : FVec Ideal S2456x64 .f32) (B : FVec Ideal S64x64 .f32) (p : Fin 2456) (q : Fin 64) :
    matmul dot_S2456x64_S64x64_S2456x64_1_0_0_1_n_n none A B (constant S2456x64 .f32 0x00000000#32) (ix2 p q)
      = ∑ k : Fin 64, A (ix2 p k) * B (ix2 k q) := by
  simp only [matmul]
  rw [Ideal.matmul_constant_zero_apply, ← Equiv.sum_comp (ValueIdx.contrEquiv1 dot_S2456x64_S64x64_S2456x64_1_0_0_1_n_n 64 rfl rfl).symm]
  refine Finset.sum_congr rfl fun k _ => ?_
  have hk := ValueIdx.contrEquiv1_symm_val dot_S2456x64_S64x64_S2456x64_1_0_0_1_n_n 64 rfl rfl k
  have el : dot_S2456x64_S64x64_S2456x64_1_0_0_1_n_n.lhsIdx (ix2 p q) ((ValueIdx.contrEquiv1 dot_S2456x64_S64x64_S2456x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S2456x64_S64x64_S2456x64_1_0_0_1_n_n.rhsIdx (ix2 p q) ((ValueIdx.contrEquiv1 dot_S2456x64_S64x64_S2456x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- A column `[a, 1]` broadcast to `[a, b]` reads, at (p, c), the column's entry of row p. -/
theorem broadcastTo_col2_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The store's payload at (p, q) of the block, over the fifteen loaded blocks. -/
theorem pay2_apply (x0 : Vec Ideal S2456x64 .f32) (x1 : Vec Ideal S2456x1 .f32) (x2 : Vec Ideal S2456x64 .f32) (x3 : Vec Ideal S2456x1 .f32)
    (x4 : Vec Ideal S2456x64 .f32) (x5 : Vec Ideal S2456x1 .f32) (x6 : Vec Ideal S2456x64 .f32) (x7 : Vec Ideal S2456x1 .f32)
    (x8 : Vec Ideal S2456x64 .f32) (x9 : Vec Ideal S64x64 .f32) (x10 : Vec Ideal S64x64 .f32) (x11 : Vec Ideal S64x64 .f32)
    (x12 : Vec Ideal S64x64 .f32) (x13 : Vec Ideal S1x64 .f32) (x14 : Vec Ideal S64x64 .f32) (p : Fin 2456) (q : Fin 64) :
    k2_pay1 (F := Ideal) (k2_pay2 (F := Ideal) x8 x14 x13 x0 x1 x9 x2 x3 x10) x4 x5 x11 x6 x7 x12 (ix2 p q) =
      max ((((((∑ k : Fin 64, x8 (ix2 p k) * x14 (ix2 k q)) + x13 (ix2 (0 : Fin 1) q))
        + ∑ k : Fin 64, Ideal.div (x0 (ix2 p k)) (max (x1 (ix2 p (0 : Fin 1))) (Ideal.ofBits .f32 0x3F800000#32)) * x9 (ix2 k q))
        + ∑ k : Fin 64, Ideal.div (x2 (ix2 p k)) (max (x3 (ix2 p (0 : Fin 1))) (Ideal.ofBits .f32 0x3F800000#32)) * x10 (ix2 k q))
        + ∑ k : Fin 64, Ideal.div (x4 (ix2 p k)) (max (x5 (ix2 p (0 : Fin 1))) (Ideal.ofBits .f32 0x3F800000#32)) * x11 (ix2 k q))
        + ∑ k : Fin 64, Ideal.div (x6 (ix2 p k)) (max (x7 (ix2 p (0 : Fin 1))) (Ideal.ofBits .f32 0x3F800000#32)) * x12 (ix2 k q)) 0 := by
  unfold k2_pay1 k2_pay2
  simp only [shapeCast_self]
  simp only [maximumf_apply, addf_apply, matmul2_apply, divf_apply, broadcastTo_col2_apply, broadcastTo_1b_ab_apply, broadcast_apply]
  rw [show Scalar.ofBits (F := Ideal) .f32 0x00000000#32 = (0 : EReal) from Ideal.ofBits_zero_f32]
  rfl

/-- The payload at (p, q) of the block is `G2` at an index `i` of the array, given that each loaded block reads, at the
    positions the payload touches, the corresponding array at `i`'s row (the row blocks and divisor columns) or at
    `i`'s column (the matrices and the row vector). -/
theorem G2_of_blocks (a0 : S51576x64.Idx → EReal) (a1 : S51576x1.Idx → EReal) (a2 : S51576x64.Idx → EReal) (a3 : S51576x1.Idx → EReal)
    (a4 : S51576x64.Idx → EReal) (a5 : S51576x1.Idx → EReal) (a6 : S51576x64.Idx → EReal) (a7 : S51576x1.Idx → EReal)
    (a8 : S51576x64.Idx → EReal) (a9 : S64x64.Idx → EReal) (a10 : S64x64.Idx → EReal) (a11 : S64x64.Idx → EReal)
    (a12 : S64x64.Idx → EReal) (a13 : S1x64.Idx → EReal) (a14 : S64x64.Idx → EReal)
    (x0 : Vec Ideal S2456x64 .f32) (x1 : Vec Ideal S2456x1 .f32) (x2 : Vec Ideal S2456x64 .f32) (x3 : Vec Ideal S2456x1 .f32)
    (x4 : Vec Ideal S2456x64 .f32) (x5 : Vec Ideal S2456x1 .f32) (x6 : Vec Ideal S2456x64 .f32) (x7 : Vec Ideal S2456x1 .f32)
    (x8 : Vec Ideal S2456x64 .f32) (x9 : Vec Ideal S64x64 .f32) (x10 : Vec Ideal S64x64 .f32) (x11 : Vec Ideal S64x64 .f32)
    (x12 : Vec Ideal S64x64 .f32) (x13 : Vec Ideal S1x64 .f32) (x14 : Vec Ideal S64x64 .f32)
    (i : S51576x64.Idx) (p : Fin 2456) (q : Fin 64)
    (h0 : ∀ k : Fin 64, x0 (ix2 p k) = a0 (ix2 (i 0) k)) (h1 : x1 (ix2 p (0 : Fin 1)) = a1 (ix2 (i 0) (0 : Fin 1)))
    (h2 : ∀ k : Fin 64, x2 (ix2 p k) = a2 (ix2 (i 0) k)) (h3 : x3 (ix2 p (0 : Fin 1)) = a3 (ix2 (i 0) (0 : Fin 1)))
    (h4 : ∀ k : Fin 64, x4 (ix2 p k) = a4 (ix2 (i 0) k)) (h5 : x5 (ix2 p (0 : Fin 1)) = a5 (ix2 (i 0) (0 : Fin 1)))
    (h6 : ∀ k : Fin 64, x6 (ix2 p k) = a6 (ix2 (i 0) k)) (h7 : x7 (ix2 p (0 : Fin 1)) = a7 (ix2 (i 0) (0 : Fin 1)))
    (h8 : ∀ k : Fin 64, x8 (ix2 p k) = a8 (ix2 (i 0) k))
    (h9 : ∀ k : Fin 64, x9 (ix2 k q) = a9 (ix2 k (i 1))) (h10 : ∀ k : Fin 64, x10 (ix2 k q) = a10 (ix2 k (i 1)))
    (h11 : ∀ k : Fin 64, x11 (ix2 k q) = a11 (ix2 k (i 1))) (h12 : ∀ k : Fin 64, x12 (ix2 k q) = a12 (ix2 k (i 1)))
    (h13 : x13 (ix2 (0 : Fin 1) q) = a13 (ix2 (0 : Fin 1) (i 1))) (h14 : ∀ k : Fin 64, x14 (ix2 k q) = a14 (ix2 k (i 1))) :
    k2_pay1 (F := Ideal) (k2_pay2 (F := Ideal) x8 x14 x13 x0 x1 x9 x2 x3 x10) x4 x5 x11 x6 x7 x12 (ix2 p q)
      = G2 a0 a1 a2 a3 a4 a5 a6 a7 a8 a9 a10 a11 a12 a13 a14 i := by
  rw [pay2_apply]
  unfold G2
  simp only [h0, h1, h2, h3, h4, h5, h6, h7, h8, h9, h10, h11, h12, h13, h14]

/-! ## From blocks to the array -/

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: every row-block and divisor-column window moves with the output
    window along the rows and stays at column block 0; the five matrices and the row vector stay at block (0, 0); the
    output's column block is 0. -/
theorem idx_facts2 : ∀ t : Fin cfg2.N,
    (win2_0.index t (0 : Fin 2) = win2_15.index t (0 : Fin 2) ∧ win2_0.index t (1 : Fin 2) = 0)
    ∧ (win2_1.index t (0 : Fin 2) = win2_15.index t (0 : Fin 2) ∧ win2_1.index t (1 : Fin 2) = 0)
    ∧ (win2_2.index t (0 : Fin 2) = win2_15.index t (0 : Fin 2) ∧ win2_2.index t (1 : Fin 2) = 0)
    ∧ (win2_3.index t (0 : Fin 2) = win2_15.index t (0 : Fin 2) ∧ win2_3.index t (1 : Fin 2) = 0)
    ∧ (win2_4.index t (0 : Fin 2) = win2_15.index t (0 : Fin 2) ∧ win2_4.index t (1 : Fin 2) = 0)
    ∧ (win2_5.index t (0 : Fin 2) = win2_15.index t (0 : Fin 2) ∧ win2_5.index t (1 : Fin 2) = 0)
    ∧ (win2_6.index t (0 : Fin 2) = win2_15.index t (0 : Fin 2) ∧ win2_6.index t (1 : Fin 2) = 0)
    ∧ (win2_7.index t (0 : Fin 2) = win2_15.index t (0 : Fin 2) ∧ win2_7.index t (1 : Fin 2) = 0)
    ∧ (win2_8.index t (0 : Fin 2) = win2_15.index t (0 : Fin 2) ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = 0 ∧ win2_12.index t (1 : Fin 2) = 0)
    ∧ (win2_13.index t (0 : Fin 2) = 0 ∧ win2_13.index t (1 : Fin 2) = 0)
    ∧ (win2_14.index t (0 : Fin 2) = 0 ∧ win2_14.index t (1 : Fin 2) = 0)
    ∧ win2_15.index t (1 : Fin 2) = 0 :=
  (by decide +kernel : ∀ t : Fin grid2.N, _)

/-- Every row block of the output array is SOME point's. -/
theorem idx_onto2 : ∀ (q0 : Fin 21) (q1 : Fin 1), ∃ t : Fin cfg2.N, win2_15.index t = ![q0.val + 0, q1.val + 0] :=
  (by decide +kernel : ∀ (q0 : Fin 21) (q1 : Fin 1), ∃ t : Fin grid2.N, win2_15.index t = ![q0.val + 0, q1.val + 0])

set_option maxHeartbeats 4000000 in
/-- WHAT POINT `t` WRITES BACK is block `t` of `G2` of the input arrays as the region finds them. -/
theorem flushed2_eq (c : Dev nD) (t : Fin cfg2.N) :
    (dat2 (F := Ideal) V c).flushed 15 t = ((cfg2.win 15).blk t).view.read (Elt Ideal) (G2 (V c (Pipeline.arrRef spec2 0)) (V c (Pipeline.arrRef spec2 1)) (V c (Pipeline.arrRef spec2 2)) (V c (Pipeline.arrRef spec2 3))
      (V c (Pipeline.arrRef spec2 4)) (V c (Pipeline.arrRef spec2 5)) (V c (Pipeline.arrRef spec2 6)) (V c (Pipeline.arrRef spec2 7))
      (V c (Pipeline.arrRef spec2 8)) (V c (Pipeline.arrRef spec2 9)) (V c (Pipeline.arrRef spec2 10)) (V c (Pipeline.arrRef spec2 11))
      (V c (Pipeline.arrRef spec2 12)) (V c (Pipeline.arrRef spec2 13)) (V c (Pipeline.arrRef spec2 14))) := by
  show (cfg2.win 15).cut (grid2.coords t) ((dat2 (F := Ideal) V c).after 15 t) = _
  rw [after2_15]
  unfold out2_15
  rw [View.canon_unit_zero hz2]
  simp only [View.ld_unit_zero (S := S2456x64) hz2, View.ld_unit_zero (S := S2456x1) hz2, View.ld_unit_zero (S := S64x64) hz2,
    View.ld_unit_zero (S := S1x64) hz2]
  obtain ⟨⟨e0, f0⟩, ⟨e1, f1⟩, ⟨e2, f2⟩, ⟨e3, f3⟩, ⟨e4, f4⟩, ⟨e5, f5⟩, ⟨e6, f6⟩, ⟨e7, f7⟩, ⟨e8, f8⟩, ⟨e9, f9⟩, ⟨e10, f10⟩,
    ⟨e11, f11⟩, ⟨e12, f12⟩, ⟨e13, f13⟩, ⟨e14, f14⟩, f15⟩ := idx_facts2 t
  funext y
  obtain ⟨p, q, rfl⟩ : ∃ (p : Fin 2456) (q : Fin 64), y = ix2 p q := ⟨y 0, y 1, eq_ix2 y⟩
  show k2_pay1 (F := Ideal) (k2_pay2 (F := Ideal) (iblk2 V c 8 t) (iblk2 V c 14 t) (iblk2 V c 13 t) (iblk2 V c 0 t) (iblk2 V c 1 t)
      (iblk2 V c 9 t) (iblk2 V c 2 t) (iblk2 V c 3 t) (iblk2 V c 10 t)) (iblk2 V c 4 t) (iblk2 V c 5 t) (iblk2 V c 11 t)
      (iblk2 V c 6 t) (iblk2 V c 7 t) (iblk2 V c 12 t) (ix2 p q)
    = G2 (V c (Pipeline.arrRef spec2 0)) (V c (Pipeline.arrRef spec2 1)) (V c (Pipeline.arrRef spec2 2)) (V c (Pipeline.arrRef spec2 3))
      (V c (Pipeline.arrRef spec2 4)) (V c (Pipeline.arrRef spec2 5)) (V c (Pipeline.arrRef spec2 6)) (V c (Pipeline.arrRef spec2 7))
      (V c (Pipeline.arrRef spec2 8)) (V c (Pipeline.arrRef spec2 9)) (V c (Pipeline.arrRef spec2 10)) (V c (Pipeline.arrRef spec2 11))
      (V c (Pipeline.arrRef spec2 12)) (V c (Pipeline.arrRef spec2 13)) (V c (Pipeline.arrRef spec2 14)) (((cfg2.win 15).blk t).view.emb (ix2 p q))
  have hp : p.val < 2456 := p.isLt
  have hq : q.val < 64 := q.isLt
  refine G2_of_blocks _ _ _ _ _ _ _ _ _ _ _ _ _ _ _ _ _ _ _ _ _ _ _ _ _ _ _ _ _ _ _ p q ?_ ?_ ?_ ?_ ?_ ?_ ?_ ?_ ?_ ?_ ?_ ?_ ?_ ?_ ?_
  · intro k
    show V c (Pipeline.arrRef spec2 0) (((cfg2.win 0).blk t).view.emb (ix2 p k)) = _
    refine congrArg _ (funext fun a => Fin.ext ?_)
    match a with
    | ⟨0, _⟩ => show win2_0.index t (0 : Fin 2) * 2456 + 1 * p.val = win2_15.index t (0 : Fin 2) * 2456 + 1 * p.val; omega
    | ⟨1, _⟩ => show win2_0.index t (1 : Fin 2) * 64 + 1 * k.val = k.val; omega
  · show V c (Pipeline.arrRef spec2 1) (((cfg2.win 1).blk t).view.emb (ix2 p (0 : Fin 1))) = _
    refine congrArg _ (funext fun a => Fin.ext ?_)
    match a with
    | ⟨0, _⟩ => show win2_1.index t (0 : Fin 2) * 2456 + 1 * p.val = win2_15.index t (0 : Fin 2) * 2456 + 1 * p.val; omega
    | ⟨1, _⟩ => show win2_1.index t (1 : Fin 2) * 1 + 1 * 0 = 0; omega
  · intro k
    show V c (Pipeline.arrRef spec2 2) (((cfg2.win 2).blk t).view.emb (ix2 p k)) = _
    refine congrArg _ (funext fun a => Fin.ext ?_)
    match a with
    | ⟨0, _⟩ => show win2_2.index t (0 : Fin 2) * 2456 + 1 * p.val = win2_15.index t (0 : Fin 2) * 2456 + 1 * p.val; omega
    | ⟨1, _⟩ => show win2_2.index t (1 : Fin 2) * 64 + 1 * k.val = k.val; omega
  · show V c (Pipeline.arrRef spec2 3) (((cfg2.win 3).blk t).view.emb (ix2 p (0 : Fin 1))) = _
    refine congrArg _ (funext fun a => Fin.ext ?_)
    match a with
    | ⟨0, _⟩ => show win2_3.index t (0 : Fin 2) * 2456 + 1 * p.val = win2_15.index t (0 : Fin 2) * 2456 + 1 * p.val; omega
    | ⟨1, _⟩ => show win2_3.index t (1 : Fin 2) * 1 + 1 * 0 = 0; omega
  · intro k
    show V c (Pipeline.arrRef spec2 4) (((cfg2.win 4).blk t).view.emb (ix2 p k)) = _
    refine congrArg _ (funext fun a => Fin.ext ?_)
    match a with
    | ⟨0, _⟩ => show win2_4.index t (0 : Fin 2) * 2456 + 1 * p.val = win2_15.index t (0 : Fin 2) * 2456 + 1 * p.val; omega
    | ⟨1, _⟩ => show win2_4.index t (1 : Fin 2) * 64 + 1 * k.val = k.val; omega
  · show V c (Pipeline.arrRef spec2 5) (((cfg2.win 5).blk t).view.emb (ix2 p (0 : Fin 1))) = _
    refine congrArg _ (funext fun a => Fin.ext ?_)
    match a with
    | ⟨0, _⟩ => show win2_5.index t (0 : Fin 2) * 2456 + 1 * p.val = win2_15.index t (0 : Fin 2) * 2456 + 1 * p.val; omega
    | ⟨1, _⟩ => show win2_5.index t (1 : Fin 2) * 1 + 1 * 0 = 0; omega
  · intro k
    show V c (Pipeline.arrRef spec2 6) (((cfg2.win 6).blk t).view.emb (ix2 p k)) = _
    refine congrArg _ (funext fun a => Fin.ext ?_)
    match a with
    | ⟨0, _⟩ => show win2_6.index t (0 : Fin 2) * 2456 + 1 * p.val = win2_15.index t (0 : Fin 2) * 2456 + 1 * p.val; omega
    | ⟨1, _⟩ => show win2_6.index t (1 : Fin 2) * 64 + 1 * k.val = k.val; omega
  · show V c (Pipeline.arrRef spec2 7) (((cfg2.win 7).blk t).view.emb (ix2 p (0 : Fin 1))) = _
    refine congrArg _ (funext fun a => Fin.ext ?_)
    match a with
    | ⟨0, _⟩ => show win2_7.index t (0 : Fin 2) * 2456 + 1 * p.val = win2_15.index t (0 : Fin 2) * 2456 + 1 * p.val; omega
    | ⟨1, _⟩ => show win2_7.index t (1 : Fin 2) * 1 + 1 * 0 = 0; omega
  · intro k
    show V c (Pipeline.arrRef spec2 8) (((cfg2.win 8).blk t).view.emb (ix2 p k)) = _
    refine congrArg _ (funext fun a => Fin.ext ?_)
    match a with
    | ⟨0, _⟩ => show win2_8.index t (0 : Fin 2) * 2456 + 1 * p.val = win2_15.index t (0 : Fin 2) * 2456 + 1 * p.val; omega
    | ⟨1, _⟩ => show win2_8.index t (1 : Fin 2) * 64 + 1 * k.val = k.val; omega
  · intro k
    show V c (Pipeline.arrRef spec2 9) (((cfg2.win 9).blk t).view.emb (ix2 k q)) = _
    refine congrArg _ (funext fun a => Fin.ext ?_)
    match a with
    | ⟨0, _⟩ => show win2_9.index t (0 : Fin 2) * 64 + 1 * k.val = k.val; omega
    | ⟨1, _⟩ => show win2_9.index t (1 : Fin 2) * 64 + 1 * q.val = win2_15.index t (1 : Fin 2) * 64 + 1 * q.val; omega
  · intro k
    show V c (Pipeline.arrRef spec2 10) (((cfg2.win 10).blk t).view.emb (ix2 k q)) = _
    refine congrArg _ (funext fun a => Fin.ext ?_)
    match a with
    | ⟨0, _⟩ => show win2_10.index t (0 : Fin 2) * 64 + 1 * k.val = k.val; omega
    | ⟨1, _⟩ => show win2_10.index t (1 : Fin 2) * 64 + 1 * q.val = win2_15.index t (1 : Fin 2) * 64 + 1 * q.val; omega
  · intro k
    show V c (Pipeline.arrRef spec2 11) (((cfg2.win 11).blk t).view.emb (ix2 k q)) = _
    refine congrArg _ (funext fun a => Fin.ext ?_)
    match a with
    | ⟨0, _⟩ => show win2_11.index t (0 : Fin 2) * 64 + 1 * k.val = k.val; omega
    | ⟨1, _⟩ => show win2_11.index t (1 : Fin 2) * 64 + 1 * q.val = win2_15.index t (1 : Fin 2) * 64 + 1 * q.val; omega
  · intro k
    show V c (Pipeline.arrRef spec2 12) (((cfg2.win 12).blk t).view.emb (ix2 k q)) = _
    refine congrArg _ (funext fun a => Fin.ext ?_)
    match a with
    | ⟨0, _⟩ => show win2_12.index t (0 : Fin 2) * 64 + 1 * k.val = k.val; omega
    | ⟨1, _⟩ => show win2_12.index t (1 : Fin 2) * 64 + 1 * q.val = win2_15.index t (1 : Fin 2) * 64 + 1 * q.val; omega
  · show V c (Pipeline.arrRef spec2 13) (((cfg2.win 13).blk t).view.emb (ix2 (0 : Fin 1) q)) = _
    refine congrArg _ (funext fun a => Fin.ext ?_)
    match a with
    | ⟨0, _⟩ => show win2_13.index t (0 : Fin 2) * 1 + 1 * 0 = 0; omega
    | ⟨1, _⟩ => show win2_13.index t (1 : Fin 2) * 64 + 1 * q.val = win2_15.index t (1 : Fin 2) * 64 + 1 * q.val; omega
  · intro k
    show V c (Pipeline.arrRef spec2 14) (((cfg2.win 14).blk t).view.emb (ix2 k q)) = _
    refine congrArg _ (funext fun a => Fin.ext ?_)
    match a with
    | ⟨0, _⟩ => show win2_14.index t (0 : Fin 2) * 64 + 1 * k.val = k.val; omega
    | ⟨1, _⟩ => show win2_14.index t (1 : Fin 2) * 64 + 1 * q.val = win2_15.index t (1 : Fin 2) * 64 + 1 * q.val; omega

/-- An index of the output array is in point `t`'s block iff each coordinate is in the block's range on its axis. -/
theorem mem_blk2 (t : Fin cfg2.N) (i : S51576x64.Idx) :
    i ∈ ((cfg2.win 15).blk t).view.set ↔ ∀ a : Fin 2, win2_15.index t a * S2456x64.size a ≤ (i a).val ∧ (i a).val < win2_15.index t a * S2456x64.size a + S2456x64.size a := by
  show i ∈ ((View.whole main_v164).slice (win2_15.rect t)).set ↔ _
  rw [View.set_slice_whole, Rect.mem_set_unit]
  exact Iff.rfl

/-- Every index of the output array is in some point's block: row `r` in the block of point `r / 2456`. -/
theorem cover2 (i : S51576x64.Idx) : ∃ t : Fin cfg2.N, (cfg2.win 15).flush t = true ∧ i ∈ ((cfg2.win 15).blk t).view.set := by
  have hi0 : (i 0).val < 51576 := (i 0).isLt
  have hi1 : (i 1).val < 64 := (i 1).isLt
  obtain ⟨t, ht⟩ := idx_onto2 ⟨(i 0).val / 2456 - 0, by omega⟩ ⟨(i 1).val / 64 - 0, by omega⟩
  have q0 : win2_15.index t (0 : Fin 2) = (i 0).val / 2456 - 0 + 0 := congrFun ht 0
  have q1 : win2_15.index t (1 : Fin 2) = (i 1).val / 64 - 0 + 0 := congrFun ht 1
  refine ⟨t, flush2_15 t, ?_⟩
  rw [mem_blk2]
  intro a
  match a with
  | ⟨0, _⟩ => show win2_15.index t (0 : Fin 2) * 2456 ≤ (i 0).val ∧ (i 0).val < win2_15.index t (0 : Fin 2) * 2456 + 2456; omega
  | ⟨1, _⟩ => show win2_15.index t (1 : Fin 2) * 64 ≤ (i 1).val ∧ (i 1).val < win2_15.index t (1 : Fin 2) * 64 + 64; omega

set_option maxHeartbeats 1000000 in
/-- THE OUTPUT ARRAY after the region: `G2` of the fifteen input arrays as the region finds them. -/
theorem final2 (c : Dev nD) : (dat2 (F := Ideal) V c).arrAt 15 cfg2.N =
    G2 (V c (Pipeline.arrRef spec2 0)) (V c (Pipeline.arrRef spec2 1)) (V c (Pipeline.arrRef spec2 2)) (V c (Pipeline.arrRef spec2 3))
      (V c (Pipeline.arrRef spec2 4)) (V c (Pipeline.arrRef spec2 5)) (V c (Pipeline.arrRef spec2 6)) (V c (Pipeline.arrRef spec2 7))
      (V c (Pipeline.arrRef spec2 8)) (V c (Pipeline.arrRef spec2 9)) (V c (Pipeline.arrRef spec2 10)) (V c (Pipeline.arrRef spec2 11))
      (V c (Pipeline.arrRef spec2 12)) (V c (Pipeline.arrRef spec2 13)) (V c (Pipeline.arrRef spec2 14)) :=
  (dat2 (F := Ideal) V c).arrAt_eq_of_cover 15 _ (fun t _ => flushed2_eq V c t) cover2

end Cert.KernelIdeal.Gen

end
-- ==== Proof.LibAllReal.lean ====
/-
  ARRAYS OF REALS. At the ideal values a float is an extended real; an array is "all real" when no entry is an infinity or
  the junk value. This file states that notion and its closure under the host operations read at the ideal values, for any
  shapes and any dimension records: an operation that only READS its operand somewhere (a gather, a broadcast, a reshape, a
  select) keeps it; sums, differences, products and maxima of reals are reals; a finite sum of reals is a real (a scatter
  with addition, a dot product); a quotient by a nonzero real and the reciprocal square root of a positive real are reals;
  a constant whose f32 pattern has an exponent field that is not all ones is a real.
-/
import Idealize.ShloMosaic.PureOps.Ideal
import Idealize.ShloMosaic.PureOps.Ideal.Laws
import Idealize.ShloMosaic.PureOps.ShapeOps
import Idealize.ShloMosaic.PureOps.Contract
import Mathlib.Data.EReal.Basic
import Mathlib.Data.EReal.Operations
import Mathlib.Data.EReal.Inv
import Mathlib.Algebra.BigOperators.Group.Finset.Defs

noncomputable section

namespace Cert.LibAllReal

open Idealize.ShloMosaic
open scoped BigOperators

/-- Every entry is a real number. -/
def AllReal {S : Shape} (v : S.Idx → EReal) : Prop := ∀ y, ∃ r : ℝ, v y = (r : EReal)

/-! ## Reals among the extended reals -/

/-- A finite sum of reals is a real. -/
theorem real_sum {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal))
    (by rintro _ _ ⟨a, rfl⟩ ⟨b, rfl⟩; exact ⟨a + b, (EReal.coe_add a b).symm⟩) ⟨0, EReal.coe_zero.symm⟩ hf

/-- An f32 pattern whose exponent field is not all ones denotes a real (a zero, a subnormal or a normal number). -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split <;> exact ⟨_, rfl⟩

/-- A quotient of a real by a nonzero real is a real. -/
theorem real_div {x y : EReal} (hx : ∃ r : ℝ, x = (r : EReal)) (hy : ∃ r : ℝ, y = (r : EReal)) (h0 : y ≠ 0) :
    ∃ r : ℝ, Ideal.div x y = (r : EReal) := by
  obtain ⟨p, rfl⟩ := hx
  obtain ⟨q, rfl⟩ := hy
  have hq : q ≠ 0 := fun e => h0 (by rw [e]; rfl)
  exact ⟨p * (1 / q), by rw [Ideal.div_coe hq, EReal.coe_mul]⟩

/-- The reciprocal square root of a positive real is a real. -/
theorem real_rsqrt {x : EReal} (hx : ∃ r : ℝ, x = (r : EReal)) (h0 : 0 < x) : ∃ r : ℝ, Ideal.rsqrt x = (r : EReal) := by
  obtain ⟨p, rfl⟩ := hx
  have hp : 0 < p := EReal.coe_pos.1 h0
  refine ⟨(Real.sqrt p)⁻¹, ?_⟩
  rw [Ideal.rsqrt_coe, if_neg (not_lt.2 hp.le), if_neg hp.ne']

/-! ## Operations that read their operand -/

section Reads
variable {s si t : Shape} {w : Nat}

/-- A gather reads the operand at some index for each result index. -/
theorem AllReal.gather {x : s.Idx → EReal} (hx : AllReal x) (d : GatherDims s si t) (idx : IVec si w) :
    AllReal (Host.gather d x idx) := fun j => hx _

/-- A broadcast reads the operand at the index the result index keeps. -/
theorem AllReal.broadcastInDim {x : s.Idx → EReal} (hx : AllReal x) (dims : Fin s.rank → Fin t.rank)
    (h : s.BroadcastsInDim t dims) : AllReal (broadcastInDim t dims h x) := fun j => hx _

/-- A reshape reads the operand at the index of the same row-major position. -/
theorem AllReal.shapeCast {x : s.Idx → EReal} (hx : AllReal x) (h : s.ShapeCasts t) :
    AllReal (shapeCast t x h) := fun j => hx _

/-- A select takes, entry by entry, one of two reals. -/
theorem AllReal.select {a b : s.Idx → EReal} (ha : AllReal a) (hb : AllReal b) (c : IVec s 1) :
    AllReal (select c a b) := fun j => by
  show ∃ r : ℝ, Scalar.select (c j) (a j) (b j) = (r : EReal)
  unfold Scalar.select
  split
  · exact ha j
  · exact hb j

end Reads

/-! ## Arithmetic, entry by entry -/

section Arith
variable {s : Shape} {φ : FTy}

theorem AllReal.mulf {a b : FVec Ideal s φ} (ha : AllReal a) (hb : AllReal b) : AllReal (mulf a b) := fun j => by
  obtain ⟨p, hp⟩ := ha j
  obtain ⟨q, hq⟩ := hb j
  exact ⟨p * q, by show a j * b j = _; rw [hp, hq, EReal.coe_mul]⟩

theorem AllReal.addf {a b : FVec Ideal s φ} (ha : AllReal a) (hb : AllReal b) : AllReal (addf a b) := fun j => by
  obtain ⟨p, hp⟩ := ha j
  obtain ⟨q, hq⟩ := hb j
  exact ⟨p + q, by show a j + b j = _; rw [hp, hq, EReal.coe_add]⟩

theorem AllReal.subf {a b : FVec Ideal s φ} (ha : AllReal a) (hb : AllReal b) : AllReal (subf a b) := fun j => by
  obtain ⟨p, hp⟩ := ha j
  obtain ⟨q, hq⟩ := hb j
  exact ⟨p - q, by show a j - b j = _; rw [hp, hq, EReal.coe_sub]⟩

theorem AllReal.maximumf {a b : FVec Ideal s φ} (ha : AllReal a) (hb : AllReal b) : AllReal (maximumf a b) := fun j => by
  show ∃ r : ℝ, max (a j) (b j) = (r : EReal)
  rcases max_choice (a j) (b j) with e | e <;> rw [e]
  · exact ha j
  · exact hb j

/-- A quotient by an array of nonzero reals. -/
theorem AllReal.divf_of_ne_zero {a b : FVec Ideal s φ} (ha : AllReal a) (hb : AllReal b) (h0 : ∀ y, b y ≠ 0) :
    AllReal (Host.divf a b) := fun j => real_div (ha j) (hb j) (h0 j)

/-- A quotient by an array of reals that are at least 1. -/
theorem AllReal.divf {a b : FVec Ideal s φ} (ha : AllReal a) (hb : AllReal b) (h1 : ∀ y, (1 : EReal) ≤ b y) :
    AllReal (Host.divf a b) :=
  AllReal.divf_of_ne_zero ha hb fun y e => by
    have h := h1 y
    rw [e] at h
    exact absurd h (by norm_num)

/-- The reciprocal square root of an array of positive reals. -/
theorem AllReal.rsqrt {a : FVec Ideal s φ} (ha : AllReal a) (hpos : ∀ y, (0 : EReal) < a y) :
    AllReal (Host.rsqrt a) := fun j => real_rsqrt (ha j) (hpos j)

end Arith

/-! ## Constants -/

section Constants
variable (S : Shape)

/-- A splat of an f32 pattern whose exponent field is not all ones. -/
theorem AllReal.constant_of_finite (w : BitVec 32) (h : (w.extractLsb' 23 8).toNat ≠ 2 ^ 8 - 1) :
    AllReal (constant (F := Ideal) S .f32 w) := fun _ => ofBits_f32_real w h

/-- 0.0 -/
theorem AllReal.constant_zero : AllReal (constant (F := Ideal) S .f32 0x00000000#32) :=
  AllReal.constant_of_finite S _ (by decide)
/-- 1.0 -/
theorem AllReal.constant_one : AllReal (constant (F := Ideal) S .f32 0x3F800000#32) :=
  AllReal.constant_of_finite S _ (by decide)
/-- 2.0 -/
theorem AllReal.constant_two : AllReal (constant (F := Ideal) S .f32 0x40000000#32) :=
  AllReal.constant_of_finite S _ (by decide)
/-- the small positive number 0x3727C5AC (about 1e-5) -/
theorem AllReal.constant_eps : AllReal (constant (F := Ideal) S .f32 0x3727C5AC#32) :=
  AllReal.constant_of_finite S _ (by decide)

end Constants

/-! ## Finite sums: a scatter with addition, a dot product -/

section Sums

/-- A scatter with addition gives, at each entry, the operand's entry plus a finite sum of update entries. -/
theorem AllReal.scatterAdd {s si u : Shape} {w : Nat} {φ : FTy} {x : FVec Ideal s φ} {upd : FVec Ideal u φ}
    (hx : AllReal x) (hu : AllReal upd) (d : ScatterDims s si u) (idx : IVec si w) :
    AllReal (Host.scatterAdd d x idx upd) := fun i => by
  show ∃ r : ℝ, x i + ∑ j ∈ Finset.univ.filter (fun j => d.resultIdx? j idx = some i), upd j = (r : EReal)
  obtain ⟨p, hp⟩ := hx i
  obtain ⟨q, hq⟩ := real_sum _ upd (fun j _ => hu j)
  exact ⟨p + q, by rw [hp, hq, EReal.coe_add]⟩

/-- A dot product gives, at each entry, a finite sum of products of the operands' entries. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) := fun j => by
  show ∃ q : ℝ, FloatOps.dotGeneral d prec .single l r j = (q : EReal)
  rw [Ideal.dotGeneral_apply]
  refine real_sum _ _ (fun k _ => ?_)
  obtain ⟨p, hp⟩ := hl (d.lhsIdx j k)
  obtain ⟨q, hq⟩ := hr (d.rhsIdx j k)
  exact ⟨p * q, by rw [hp, hq, EReal.coe_mul]⟩

end Sums

/-! ## Further operations: a transpose, a concatenation, an integer conversion, a sum-reduction, and more arithmetic -/

section More
variable {s t : Shape} {φ : FTy}

/-- A transpose reads the operand at the permuted index. -/
theorem AllReal.transpose {x : s.Idx → EReal} (hx : AllReal x) (perm : List (Fin s.rank)) (h : s.Transposes perm t) :
    AllReal (transpose t perm x h) := fun j => hx _

/-- A concatenation reads, at each index, one of the listed arrays. -/
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := fun j => by
  unfold Idealize.ShloMosaic.concatenate
  dsimp only
  exact hxs _ (List.getElem_mem _) _

/-- A signed integer converted to a float is a real. -/
theorem AllReal.sitofp {w : Nat} (x : IVec s w) : AllReal (sitofp (F := Ideal) φ x) :=
  fun j => ⟨((x j).toInt : ℝ), rfl⟩

theorem AllReal.negf {a : FVec Ideal s φ} (ha : AllReal a) : AllReal (negf a) := fun j => by
  obtain ⟨p, hp⟩ := ha j
  exact ⟨-p, by show -(a j) = _; rw [hp, EReal.coe_neg]⟩

theorem AllReal.hostNegf {a : FVec Ideal s φ} (ha : AllReal a) : AllReal (Host.negf a) := fun j => by
  obtain ⟨p, hp⟩ := ha j
  exact ⟨-p, by show -(a j) = _; rw [hp, EReal.coe_neg]⟩

theorem AllReal.minimumf {a b : FVec Ideal s φ} (ha : AllReal a) (hb : AllReal b) : AllReal (minimumf a b) := fun j => by
  show ∃ r : ℝ, min (a j) (b j) = (r : EReal)
  rcases min_choice (a j) (b j) with e | e <;> rw [e]
  · exact ha j
  · exact hb j

/-- The exponential of a real is a real. -/
theorem AllReal.exp {a : FVec Ideal s φ} (ha : AllReal a) : AllReal (Host.exp a) := fun j => by
  obtain ⟨p, hp⟩ := ha j
  exact ⟨Real.exp p, by show Ideal.exp (a j) = _; rw [hp]; rfl⟩

/-- A sum-reduction gives, at each entry, the initial value plus a finite sum of operand entries. -/
theorem AllReal.reduceAdd {axes : List (Fin s.rank)} {u : Shape} {x : FVec Ideal s φ} {init : u.Idx → Ideal φ}
    (hx : AllReal x) (hi : AllReal init) (h : s.ReducesTo axes t) (hu : 0 < u.numel) :
    AllReal (Host.reduceAdd x init h hu) := fun j => by
  show ∃ r : ℝ, init (Shape.Idx.first hu) + ∑ i ∈ Finset.univ.filter (fun i => h.drop i = j), x i = (r : EReal)
  obtain ⟨p, hp⟩ := hi (Shape.Idx.first hu)
  obtain ⟨q, hq⟩ := real_sum _ x (fun i _ => hx i)
  exact ⟨p + q, by rw [hp, hq, EReal.coe_add]⟩

end More

end Cert.LibAllReal

end
-- ==== Proof.Sim.S1.lean ====
import proofs.«417513_j58866821759238_4_alg».proof.Proof.KI.Keep
import proofs.«417513_j58866821759238_4_alg».proof.Proof.Ref.Run
import proofs.«417513_j58866821759238_4_alg».proof.Proof.KI.Fin2
import proofs.«417513_j58866821759238_4_alg».proof.Proof.Math.Sage
import proofs.«417513_j58866821759238_4_alg».proof.Proof.LibAllReal
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.Sim

open Idealize.ShloMosaic Idealize.ShloMosaic.TcCoe Idealize.SL.Sem Idealize.ShloMosaic.StableHlo
open Idealize.ShloMosaic.ValueIdx
open Cert.LibAllReal
open scoped BigOperators

/-! # Series, layer 1 (four edge types): region 2's value against the reference's operations -/

/-! ## The kernel program's host steps around region 2, read off the valuation -/

/-- Running a line of host operations in two stretches. -/
theorem after_append_s1 {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => exact ih _

/-! ## Choosing among four -/

/-- The `i`-th of four. -/
def sel4 {α : Sort _} (a b c d : α) : Fin 4 → α
  | ⟨0, _⟩ => a
  | ⟨1, _⟩ => b
  | ⟨2, _⟩ => c
  | ⟨3, _⟩ => d

/-! ## The kernel program's host steps at an index -/

/-- A row block of 50000 rows padded to 51576 rows reads, at a row below 50000, the block's row. -/
theorem kpad64_apply (x : Cert.KernelIdeal.S50000x64.Idx → EReal) (v : Cert.KernelIdeal.S_.Idx → EReal) (r' : Fin 51576) (k : Fin 64) (hr : r'.val < 50000) :
    pad Cert.KernelIdeal.S51576x64 ![0, 0] ![1576, 0] ![0, 0] x v Cert.KernelIdeal.Gen.pads_S50000x64_S51576x64_015760_000 Cert.KernelIdeal.Gen.h_S_ (ix2 r' k)
      = x (ix2 (⟨r'.val, hr⟩ : Fin 50000) k) :=
  pad_apply_of_inside _ _ _ x v Cert.KernelIdeal.Gen.pads_S50000x64_S51576x64_015760_000 Cert.KernelIdeal.Gen.h_S_ (ix2 r' k) (ix2 (⟨r'.val, hr⟩ : Fin 50000) k) (fun a => match a with
    | ⟨0, _⟩ => by show r'.val = 0 + r'.val * (0 + 1); omega
    | ⟨1, _⟩ => by show k.val = 0 + k.val * (0 + 1); omega)

/-- A column of 50000 entries padded to 51576 reads, at a row below 50000, the column's entry. -/
theorem kpad1_apply (x : Cert.KernelIdeal.S50000x1.Idx → EReal) (v : Cert.KernelIdeal.S_.Idx → EReal) (r' : Fin 51576) (hr : r'.val < 50000) :
    pad Cert.KernelIdeal.S51576x1 ![0, 0] ![1576, 0] ![0, 0] x v Cert.KernelIdeal.Gen.pads_S50000x1_S51576x1_015760_000 Cert.KernelIdeal.Gen.h_S_ (ix2 r' (0 : Fin 1))
      = x (ix2 (⟨r'.val, hr⟩ : Fin 50000) (0 : Fin 1)) :=
  pad_apply_of_inside _ _ _ x v Cert.KernelIdeal.Gen.pads_S50000x1_S51576x1_015760_000 Cert.KernelIdeal.Gen.h_S_ (ix2 r' (0 : Fin 1)) (ix2 (⟨r'.val, hr⟩ : Fin 50000) (0 : Fin 1)) (fun a => match a with
    | ⟨0, _⟩ => by show r'.val = 0 + r'.val * (0 + 1); omega
    | ⟨1, _⟩ => by show 0 = 0 + 0 * (0 + 1); omega)

/-- The first 50000 rows of a 51576-row array, at `(r, j)`: the array at the same row and column. -/
theorem kslice_apply (y : Cert.KernelIdeal.S51576x64.Idx → EReal) (r : Fin 50000) (j : Fin 64) :
    extractStridedSlice Cert.KernelIdeal.S50000x64 ![0, 0] y Cert.KernelIdeal.Gen.slices_S51576x64_S50000x64_0_0 (ix2 r j)
      = y (ix2 (⟨r.val, by omega⟩ : Fin 51576) j) :=
  extractStridedSlice_apply _ y Cert.KernelIdeal.Gen.slices_S51576x64_S50000x64_0_0 (ix2 r j) (ix2 (⟨r.val, by omega⟩ : Fin 51576) j) (fun a => match a with
    | ⟨0, _⟩ => by show r.val = 0 + r.val; omega
    | ⟨1, _⟩ => by show j.val = 0 + j.val; omega)

/-- A 64x64 matrix as a one-matrix stack reads, at `(0, k, j)`, the matrix at `(k, j)`. -/
theorem kstackW_apply (Y : FVec Ideal Cert.KernelIdeal.S64x64 .f32) (k j : Fin 64) :
    broadcastInDim Cert.KernelIdeal.S1x64x64 ![1, 2] Cert.KernelIdeal.Gen.bcast_S64x64_S1x64x64_1_2 Y (ix3 (0 : Fin 1) k j) = Y (ix2 k j) :=
  broadcastInDim_apply _ Cert.KernelIdeal.Gen.bcast_S64x64_S1x64x64_1_2 Y _ (ix2 k j) (fun a => match a with
    | ⟨0, _⟩ => by show k.val = if (64 : Nat) = 1 then 0 else k.val; rw [if_neg (by decide)]
    | ⟨1, _⟩ => by show j.val = if (64 : Nat) = 1 then 0 else j.val; rw [if_neg (by decide)])

/-- A 64-vector as a one-row stack reads, at `(0, j)`, the vector at `j`. -/
theorem kstackB_apply (y : FVec Ideal Cert.KernelIdeal.S64 .f32) (j : Fin 64) :
    broadcastInDim Cert.KernelIdeal.S1x64 ![1] Cert.KernelIdeal.Gen.bcast_S64_S1x64_1 y (ix2 (0 : Fin 1) j) = y (ix1 j) :=
  broadcastInDim_apply _ Cert.KernelIdeal.Gen.bcast_S64_S1x64_1 y _ (ix1 j) (fun a => match a with
    | ⟨0, _⟩ => by show j.val = if (64 : Nat) = 1 then 0 else j.val; rw [if_neg (by decide)])

/-- The four right weights stacked and summed from zero over the stack's axis, at `(k, j)`: zero plus the sum of the four
    matrices' entries there. -/
theorem ksum4W_apply (Y0 Y1 Y2 Y3 : FVec Ideal Cert.KernelIdeal.S64x64 .f32) (k j : Fin 64) :
    Host.reduceAdd
        (concatenate Cert.KernelIdeal.S4x64x64 0 [⟨Cert.KernelIdeal.S1x64x64, broadcastInDim Cert.KernelIdeal.S1x64x64 ![1, 2] Cert.KernelIdeal.Gen.bcast_S64x64_S1x64x64_1_2 Y0⟩,
          ⟨Cert.KernelIdeal.S1x64x64, broadcastInDim Cert.KernelIdeal.S1x64x64 ![1, 2] Cert.KernelIdeal.Gen.bcast_S64x64_S1x64x64_1_2 Y1⟩,
          ⟨Cert.KernelIdeal.S1x64x64, broadcastInDim Cert.KernelIdeal.S1x64x64 ![1, 2] Cert.KernelIdeal.Gen.bcast_S64x64_S1x64x64_1_2 Y2⟩,
          ⟨Cert.KernelIdeal.S1x64x64, broadcastInDim Cert.KernelIdeal.S1x64x64 ![1, 2] Cert.KernelIdeal.Gen.bcast_S64x64_S1x64x64_1_2 Y3⟩]
          Cert.KernelIdeal.Gen.concatenates_S1x64x64_S1x64x64_S1x64x64_S1x64x64_S4x64x64_d0)
        (constant (F := Ideal) Cert.KernelIdeal.S_ .f32 0x00000000#32) Cert.KernelIdeal.Gen.reducesTo_S4x64x64_S64x64_d0 Cert.KernelIdeal.Gen.h_S_ (ix2 k j)
      = 0 + ∑ i : Fin 4, sel4 Y0 Y1 Y2 Y3 i (ix2 k j) := by
  rw [hostReduceAdd_apply, Ideal.hostReduceAdd_single Cert.KernelIdeal.Gen.reducesTo_S4x64x64_S64x64_d0 (by decide)]
  refine congrArg₂ (· + ·) Ideal.ofBits_zero_f32 (Finset.sum_congr rfl fun i _ => ?_)
  match i with
  | ⟨0, _⟩ =>
    refine Eq.trans ?_ (kstackW_apply Y0 k j)
    refine concatenate_apply_piece (t := Cert.KernelIdeal.S4x64x64) _ _ _ _ 0 ?_ Cert.KernelIdeal.S1x64x64 _ ?_ rfl 0 ?_ (ix3 (0 : Fin 1) k j) ?_ ?_
    · show (0 : ℕ) < 4; decide
    · rfl
    · rfl
    · intro b hb
      match b with
      | ⟨0, _⟩ => exact absurd rfl hb
      | ⟨1, _⟩ => rfl
      | ⟨2, _⟩ => rfl
    · rfl
  | ⟨1, _⟩ =>
    refine Eq.trans ?_ (kstackW_apply Y1 k j)
    refine concatenate_apply_piece (t := Cert.KernelIdeal.S4x64x64) _ _ _ _ 1 ?_ Cert.KernelIdeal.S1x64x64 _ ?_ rfl 1 ?_ (ix3 (0 : Fin 1) k j) ?_ ?_
    · show (1 : ℕ) < 4; decide
    · rfl
    · rfl
    · intro b hb
      match b with
      | ⟨0, _⟩ => exact absurd rfl hb
      | ⟨1, _⟩ => rfl
      | ⟨2, _⟩ => rfl
    · rfl
  | ⟨2, _⟩ =>
    refine Eq.trans ?_ (kstackW_apply Y2 k j)
    refine concatenate_apply_piece (t := Cert.KernelIdeal.S4x64x64) _ _ _ _ 2 ?_ Cert.KernelIdeal.S1x64x64 _ ?_ rfl 2 ?_ (ix3 (0 : Fin 1) k j) ?_ ?_
    · show (2 : ℕ) < 4; decide
    · rfl
    · rfl
    · intro b hb
      match b with
      | ⟨0, _⟩ => exact absurd rfl hb
      | ⟨1, _⟩ => rfl
      | ⟨2, _⟩ => rfl
    · rfl
  | ⟨3, _⟩ =>
    refine Eq.trans ?_ (kstackW_apply Y3 k j)
    refine concatenate_apply_piece (t := Cert.KernelIdeal.S4x64x64) _ _ _ _ 3 ?_ Cert.KernelIdeal.S1x64x64 _ ?_ rfl 3 ?_ (ix3 (0 : Fin 1) k j) ?_ ?_
    · show (3 : ℕ) < 4; decide
    · rfl
    · rfl
    · intro b hb
      match b with
      | ⟨0, _⟩ => exact absurd rfl hb
      | ⟨1, _⟩ => rfl
      | ⟨2, _⟩ => rfl
    · rfl

/-- The four biases stacked and summed from zero over the stack's axis, as a row, at `(0, j)`: zero plus the sum of the
    four vectors' entries at `j`. -/
theorem ksum4B_apply (y0 y1 y2 y3 : FVec Ideal Cert.KernelIdeal.S64 .f32) (j : Fin 64) :
    shapeCast Cert.KernelIdeal.S1x64 (Host.reduceAdd
        (concatenate Cert.KernelIdeal.S4x64 0 [⟨Cert.KernelIdeal.S1x64, broadcastInDim Cert.KernelIdeal.S1x64 ![1] Cert.KernelIdeal.Gen.bcast_S64_S1x64_1 y0⟩,
          ⟨Cert.KernelIdeal.S1x64, broadcastInDim Cert.KernelIdeal.S1x64 ![1] Cert.KernelIdeal.Gen.bcast_S64_S1x64_1 y1⟩,
          ⟨Cert.KernelIdeal.S1x64, broadcastInDim Cert.KernelIdeal.S1x64 ![1] Cert.KernelIdeal.Gen.bcast_S64_S1x64_1 y2⟩,
          ⟨Cert.KernelIdeal.S1x64, broadcastInDim Cert.KernelIdeal.S1x64 ![1] Cert.KernelIdeal.Gen.bcast_S64_S1x64_1 y3⟩]
          Cert.KernelIdeal.Gen.concatenates_S1x64_S1x64_S1x64_S1x64_S4x64_d0)
        (constant (F := Ideal) Cert.KernelIdeal.S_ .f32 0x00000000#32) Cert.KernelIdeal.Gen.reducesTo_S4x64_S64_d0 Cert.KernelIdeal.Gen.h_S_) Cert.KernelIdeal.Gen.shapeCasts_S64_S1x64 (ix2 (0 : Fin 1) j)
      = 0 + ∑ i : Fin 4, sel4 y0 y1 y2 y3 i (ix1 j) := by
  rw [shapeCast_a_1a_apply, hostReduceAdd_apply, Ideal.hostReduceAdd_single Cert.KernelIdeal.Gen.reducesTo_S4x64_S64_d0 (by decide)]
  refine congrArg₂ (· + ·) Ideal.ofBits_zero_f32 (Finset.sum_congr rfl fun i _ => ?_)
  match i with
  | ⟨0, _⟩ =>
    refine Eq.trans ?_ (kstackB_apply y0 j)
    refine concatenate_apply_piece (t := Cert.KernelIdeal.S4x64) _ _ _ _ 0 ?_ Cert.KernelIdeal.S1x64 _ ?_ rfl 0 ?_ (ix2 (0 : Fin 1) j) ?_ ?_
    · show (0 : ℕ) < 4; decide
    · rfl
    · rfl
    · intro b hb
      match b with
      | ⟨0, _⟩ => exact absurd rfl hb
      | ⟨1, _⟩ => rfl
    · rfl
  | ⟨1, _⟩ =>
    refine Eq.trans ?_ (kstackB_apply y1 j)
    refine concatenate_apply_piece (t := Cert.KernelIdeal.S4x64) _ _ _ _ 1 ?_ Cert.KernelIdeal.S1x64 _ ?_ rfl 1 ?_ (ix2 (0 : Fin 1) j) ?_ ?_
    · show (1 : ℕ) < 4; decide
    · rfl
    · rfl
    · intro b hb
      match b with
      | ⟨0, _⟩ => exact absurd rfl hb
      | ⟨1, _⟩ => rfl
    · rfl
  | ⟨2, _⟩ =>
    refine Eq.trans ?_ (kstackB_apply y2 j)
    refine concatenate_apply_piece (t := Cert.KernelIdeal.S4x64) _ _ _ _ 2 ?_ Cert.KernelIdeal.S1x64 _ ?_ rfl 2 ?_ (ix2 (0 : Fin 1) j) ?_ ?_
    · show (2 : ℕ) < 4; decide
    · rfl
    · rfl
    · intro b hb
      match b with
      | ⟨0, _⟩ => exact absurd rfl hb
      | ⟨1, _⟩ => rfl
    · rfl
  | ⟨3, _⟩ =>
    refine Eq.trans ?_ (kstackB_apply y3 j)
    refine concatenate_apply_piece (t := Cert.KernelIdeal.S4x64) _ _ _ _ 3 ?_ Cert.KernelIdeal.S1x64 _ ?_ rfl 3 ?_ (ix2 (0 : Fin 1) j) ?_ ?_
    · show (3 : ℕ) < 4; decide
    · rfl
    · rfl
    · intro b hb
      match b with
      | ⟨0, _⟩ => exact absurd rfl hb
      | ⟨1, _⟩ => rfl
    · rfl

/-! ## The reference's operations at an index -/

theorem rlhs5_0 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem rlhs5_1 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem rrhs5_0 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rrhs5_1 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- The host's product of a 50000x64 by a 64x64 array at `(p, q)`: the sum over the 64 lanes of the operands' products. -/
theorem rdot5_apply (A : FVec Ideal Cert.ReferenceIdeal.S50000x64 .f32) (B : FVec Ideal Cert.ReferenceIdeal.S64x64 .f32) (p : Fin 50000) (q : Fin 64) :
    Host.dotGeneral Cert.ReferenceIdeal.dot_S50000x64_S64x64_S50000x64_1_0_0_1_n_n none A B (ix2 p q) = ∑ k : Fin 64, A (ix2 p k) * B (ix2 k q) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 p q) ((ValueIdx.contrEquiv1 Cert.ReferenceIdeal.dot_S50000x64_S64x64_S50000x64_1_0_0_1_n_n 64 rfl rfl).symm k) = ix2 p k := funext fun a => Fin.ext (by
    match a with
    | ⟨0, _⟩ => exact rlhs5_0 _ _
    | ⟨1, _⟩ => exact (rlhs5_1 _ _).trans hk)
  have er : Cert.ReferenceIdeal.dot_S50000x64_S64x64_S50000x64_1_0_0_1_n_n.rhsIdx (ix2 p q) ((ValueIdx.contrEquiv1 Cert.ReferenceIdeal.dot_S50000x64_S64x64_S50000x64_1_0_0_1_n_n 64 rfl rfl).symm k) = ix2 k q := funext fun a => Fin.ext (by
    match a with
    | ⟨0, _⟩ => exact (rrhs5_0 _ _).trans hk
    | ⟨1, _⟩ => exact rrhs5_1 _ _)
  rw [el, er]

/-- The counts' column `[50000, 1]` broadcast along the lanes reads, at `(p, k)`, the column at row `p`. -/
theorem rbcol5_apply (y : FVec Ideal Cert.ReferenceIdeal.S50000x1 .f32) (p : Fin 50000) (k : Fin 64) :
    broadcastInDim Cert.ReferenceIdeal.S50000x64 ![0, 1] Cert.ReferenceIdeal.Gen.bcast_S50000x1_S50000x64_0_1 y (ix2 p k) = y (ix2 p (0 : Fin 1)) :=
  broadcastInDim_apply _ Cert.ReferenceIdeal.Gen.bcast_S50000x1_S50000x64_0_1 y (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])

/-- The bias row `[1, 64]` broadcast along the rows reads, at `(p, q)`, the row at lane `q`. -/
theorem rbrow5_apply (y : FVec Ideal Cert.ReferenceIdeal.S1x64 .f32) (p : Fin 50000) (q : Fin 64) :
    broadcastInDim Cert.ReferenceIdeal.S50000x64 ![0, 1] Cert.ReferenceIdeal.Gen.bcast_S1x64_S50000x64_0_1 y (ix2 p q) = y (ix2 (0 : Fin 1) q) :=
  broadcastInDim_apply _ Cert.ReferenceIdeal.Gen.bcast_S1x64_S50000x64_0_1 y (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A vector `[64]` as a row `[1, 64]` reads, at `(0, q)`, the vector at `q`. -/
theorem rvec_row5_apply (y : FVec Ideal Cert.ReferenceIdeal.S64 .f32) (q : Fin 64) :
    broadcastInDim Cert.ReferenceIdeal.S1x64 ![1] Cert.ReferenceIdeal.Gen.bcast_S64_S1x64_1 y (ix2 (0 : Fin 1) q) = y (ix1 q) :=
  broadcastInDim_apply _ Cert.ReferenceIdeal.Gen.bcast_S64_S1x64_1 y (ix2 (0 : Fin 1) q) (ix1 q) (fun a => match a with
    | ⟨0, _⟩ => by show q.val = if (64 : Nat) = 1 then 0 else q.val; rw [if_neg (by decide)])

/-- One edge type's term of the reference's layer for the 50000-row node type: the summed messages `A` over the divisor
    column `Cm`, times the left weight, plus the bias, plus the features `X` times the right weight; `WLt`, `WRt` the weights as
    the products take them. -/
def refTermC (A : FVec Ideal Cert.ReferenceIdeal.S50000x64 .f32) (Cm : FVec Ideal Cert.ReferenceIdeal.S50000x1 .f32) (X : FVec Ideal Cert.ReferenceIdeal.S50000x64 .f32)
    (WLt : FVec Ideal Cert.ReferenceIdeal.S64x64 .f32) (bS : FVec Ideal Cert.ReferenceIdeal.S64 .f32) (WRt : FVec Ideal Cert.ReferenceIdeal.S64x64 .f32) : FVec Ideal Cert.ReferenceIdeal.S50000x64 .f32 :=
  addf
    (addf
      (Host.dotGeneral Cert.ReferenceIdeal.dot_S50000x64_S64x64_S50000x64_1_0_0_1_n_n none
        (Host.divf A (broadcastInDim Cert.ReferenceIdeal.S50000x64 ![0, 1] Cert.ReferenceIdeal.Gen.bcast_S50000x1_S50000x64_0_1 Cm))
        WLt)
      (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 bS)))
    (Host.dotGeneral Cert.ReferenceIdeal.dot_S50000x64_S64x64_S50000x64_1_0_0_1_n_n none X WRt)

/-- The same from the in-degree `C` itself: the divisor is its maximum with one. -/
def refTerm (A : FVec Ideal Cert.ReferenceIdeal.S50000x64 .f32) (C : FVec Ideal Cert.ReferenceIdeal.S50000x1 .f32) (X : FVec Ideal Cert.ReferenceIdeal.S50000x64 .f32)
    (WLt : FVec Ideal Cert.ReferenceIdeal.S64x64 .f32) (bS : FVec Ideal Cert.ReferenceIdeal.S64 .f32) (WRt : FVec Ideal Cert.ReferenceIdeal.S64x64 .f32) : FVec Ideal Cert.ReferenceIdeal.S50000x64 .f32 :=
  refTermC A (maximumf C (broadcastInDim Cert.ReferenceIdeal.S50000x1 ![] Cert.ReferenceIdeal.Gen.bcast_S_S50000x1 (constant (F := Ideal) Cert.ReferenceIdeal.S_ .f32 0x3F800000#32))) X WLt bS WRt

/-- The term at `(p, q)`. -/
theorem refTerm_apply (A : FVec Ideal Cert.ReferenceIdeal.S50000x64 .f32) (C : FVec Ideal Cert.ReferenceIdeal.S50000x1 .f32) (X : FVec Ideal Cert.ReferenceIdeal.S50000x64 .f32)
    (WLt : FVec Ideal Cert.ReferenceIdeal.S64x64 .f32) (bS : FVec Ideal Cert.ReferenceIdeal.S64 .f32) (WRt : FVec Ideal Cert.ReferenceIdeal.S64x64 .f32) (p : Fin 50000) (q : Fin 64) :
    refTerm A C X WLt bS WRt (ix2 p q)
      = ((∑ k : Fin 64, Ideal.div (A (ix2 p k)) (max (C (ix2 p (0 : Fin 1))) (Ideal.ofBits .f32 0x3F800000#32)) * WLt (ix2 k q)) + bS (ix1 q))
          + ∑ k : Fin 64, X (ix2 p k) * WRt (ix2 k q) := by
  have hdiv : ∀ k : Fin 64, Host.divf A (broadcastInDim Cert.ReferenceIdeal.S50000x64 ![0, 1] Cert.ReferenceIdeal.Gen.bcast_S50000x1_S50000x64_0_1
        (maximumf C (broadcastInDim Cert.ReferenceIdeal.S50000x1 ![] Cert.ReferenceIdeal.Gen.bcast_S_S50000x1 (constant (F := Ideal) Cert.ReferenceIdeal.S_ .f32 0x3F800000#32)))) (ix2 p k)
      = Ideal.div (A (ix2 p k)) (max (C (ix2 p (0 : Fin 1))) (Ideal.ofBits .f32 0x3F800000#32)) := fun k => by
    rw [hostDivf_apply, rbcol5_apply, maximumf_apply, broadcastInDim_scalar_apply]
    rfl
  unfold refTerm refTermC
  rw [addf_apply, addf_apply, rdot5_apply, rdot5_apply, rbrow5_apply, rvec_row5_apply]
  exact congrArg₂ (· + ·) (congrArg₂ (· + ·) (Finset.sum_congr rfl fun k _ => congrArg (· * WLt (ix2 k q)) (hdiv k)) rfl) rfl

/-! ## The core: region 2's function of the kernel program's inputs is the reference's expression -/

/-- Region 2's function at `(r', q)`, spelled out. -/
theorem G2_apply (a0 : Cert.KernelIdeal.S51576x64.Idx → EReal) (a1 : Cert.KernelIdeal.S51576x1.Idx → EReal) (a2 : Cert.KernelIdeal.S51576x64.Idx → EReal) (a3 : Cert.KernelIdeal.S51576x1.Idx → EReal)
    (a4 : Cert.KernelIdeal.S51576x64.Idx → EReal) (a5 : Cert.KernelIdeal.S51576x1.Idx → EReal) (a6 : Cert.KernelIdeal.S51576x64.Idx → EReal) (a7 : Cert.KernelIdeal.S51576x1.Idx → EReal)
    (a8 : Cert.KernelIdeal.S51576x64.Idx → EReal) (a9 : Cert.KernelIdeal.S64x64.Idx → EReal) (a10 : Cert.KernelIdeal.S64x64.Idx → EReal) (a11 : Cert.KernelIdeal.S64x64.Idx → EReal)
    (a12 : Cert.KernelIdeal.S64x64.Idx → EReal) (a13 : Cert.KernelIdeal.S1x64.Idx → EReal) (a14 : Cert.KernelIdeal.S64x64.Idx → EReal) (r' : Fin 51576) (q : Fin 64) :
    Cert.KernelIdeal.Gen.G2 a0 a1 a2 a3 a4 a5 a6 a7 a8 a9 a10 a11 a12 a13 a14 (ix2 r' q)
      = max ((((((∑ k : Fin 64, a8 (ix2 r' k) * a14 (ix2 k q)) + a13 (ix2 (0 : Fin 1) q))
          + ∑ k : Fin 64, Ideal.div (a0 (ix2 r' k)) (max (a1 (ix2 r' (0 : Fin 1))) (Ideal.ofBits .f32 0x3F800000#32)) * a9 (ix2 k q))
          + ∑ k : Fin 64, Ideal.div (a2 (ix2 r' k)) (max (a3 (ix2 r' (0 : Fin 1))) (Ideal.ofBits .f32 0x3F800000#32)) * a10 (ix2 k q))
          + ∑ k : Fin 64, Ideal.div (a4 (ix2 r' k)) (max (a5 (ix2 r' (0 : Fin 1))) (Ideal.ofBits .f32 0x3F800000#32)) * a11 (ix2 k q))
          + ∑ k : Fin 64, Ideal.div (a6 (ix2 r' k)) (max (a7 (ix2 r' (0 : Fin 1))) (Ideal.ofBits .f32 0x3F800000#32)) * a12 (ix2 k q)) 0 := rfl

/-- The neighbour mean of reals, with the one written as its f32 word, is a real. -/
theorem mean_real_word {a c : EReal} (ha : ∃ r : ℝ, a = (r : EReal)) (hc : ∃ r : ℝ, c = (r : EReal)) :
    ∃ r : ℝ, Ideal.div a (max c (Ideal.ofBits .f32 0x3F800000#32)) = (r : EReal) := by
  rw [Cert.Math.ofBits_one_f32]
  exact Cert.Math.mean_real ha hc

set_option maxHeartbeats 2000000 in
/-- With `A_e` the summed messages, `C_e` the in-degrees of the four edge types, `X` the destination features, `WLt_e` /
    `WRt_e` the weights as the products take them and `b_e` the biases, all real: region 2's result on the kernel program's
    inputs (rows padded to 51576, the right weights and the biases summed over the four edge types from zero), cut back to the
    50000 rows, is the reference's expression (the four per-edge-type terms added left to right, under the maximum with zero).
    Distributivity of the product over the sum of the four right weights, at real values. -/
theorem core_s1 (A0 A1 A2 A3 : FVec Ideal Cert.ReferenceIdeal.S50000x64 .f32) (C0 C1 C2 C3 : FVec Ideal Cert.ReferenceIdeal.S50000x1 .f32) (X : FVec Ideal Cert.ReferenceIdeal.S50000x64 .f32)
    (WLt0 WLt1 WLt2 WLt3 WRt0 WRt1 WRt2 WRt3 : FVec Ideal Cert.ReferenceIdeal.S64x64 .f32) (b0 b1 b2 b3 : FVec Ideal Cert.ReferenceIdeal.S64 .f32)
    (v0 v1 v2 v3 v4 v5 v6 v7 v8 : Cert.KernelIdeal.S_.Idx → EReal)
    (hA0 : AllReal A0) (hA1 : AllReal A1) (hA2 : AllReal A2) (hA3 : AllReal A3)
    (hC0 : AllReal C0) (hC1 : AllReal C1) (hC2 : AllReal C2) (hC3 : AllReal C3) (hX : AllReal X)
    (hWL0 : AllReal WLt0) (hWL1 : AllReal WLt1) (hWL2 : AllReal WLt2) (hWL3 : AllReal WLt3)
    (hWR0 : AllReal WRt0) (hWR1 : AllReal WRt1) (hWR2 : AllReal WRt2) (hWR3 : AllReal WRt3)
    (hb0 : AllReal b0) (hb1 : AllReal b1) (hb2 : AllReal b2) (hb3 : AllReal b3) :
    extractStridedSlice Cert.KernelIdeal.S50000x64 ![0, 0]
        (Cert.KernelIdeal.Gen.G2 (pad Cert.KernelIdeal.S51576x64 ![0, 0] ![1576, 0] ![0, 0] A0 v0 Cert.KernelIdeal.Gen.pads_S50000x64_S51576x64_015760_000 Cert.KernelIdeal.Gen.h_S_) (pad Cert.KernelIdeal.S51576x1 ![0, 0] ![1576, 0] ![0, 0] C0 v1 Cert.KernelIdeal.Gen.pads_S50000x1_S51576x1_015760_000 Cert.KernelIdeal.Gen.h_S_)
          (pad Cert.KernelIdeal.S51576x64 ![0, 0] ![1576, 0] ![0, 0] A1 v2 Cert.KernelIdeal.Gen.pads_S50000x64_S51576x64_015760_000 Cert.KernelIdeal.Gen.h_S_) (pad Cert.KernelIdeal.S51576x1 ![0, 0] ![1576, 0] ![0, 0] C1 v3 Cert.KernelIdeal.Gen.pads_S50000x1_S51576x1_015760_000 Cert.KernelIdeal.Gen.h_S_)
          (pad Cert.KernelIdeal.S51576x64 ![0, 0] ![1576, 0] ![0, 0] A2 v4 Cert.KernelIdeal.Gen.pads_S50000x64_S51576x64_015760_000 Cert.KernelIdeal.Gen.h_S_) (pad Cert.KernelIdeal.S51576x1 ![0, 0] ![1576, 0] ![0, 0] C2 v5 Cert.KernelIdeal.Gen.pads_S50000x1_S51576x1_015760_000 Cert.KernelIdeal.Gen.h_S_)
          (pad Cert.KernelIdeal.S51576x64 ![0, 0] ![1576, 0] ![0, 0] A3 v6 Cert.KernelIdeal.Gen.pads_S50000x64_S51576x64_015760_000 Cert.KernelIdeal.Gen.h_S_) (pad Cert.KernelIdeal.S51576x1 ![0, 0] ![1576, 0] ![0, 0] C3 v7 Cert.KernelIdeal.Gen.pads_S50000x1_S51576x1_015760_000 Cert.KernelIdeal.Gen.h_S_)
          (pad Cert.KernelIdeal.S51576x64 ![0, 0] ![1576, 0] ![0, 0] X v8 Cert.KernelIdeal.Gen.pads_S50000x64_S51576x64_015760_000 Cert.KernelIdeal.Gen.h_S_)
          WLt0 WLt1 WLt2 WLt3
          (fun i => shapeCast Cert.KernelIdeal.S1x64 (Host.reduceAdd
          (concatenate Cert.KernelIdeal.S4x64 0 [⟨Cert.KernelIdeal.S1x64, broadcastInDim Cert.KernelIdeal.S1x64 ![1] Cert.KernelIdeal.Gen.bcast_S64_S1x64_1 b0⟩,
            ⟨Cert.KernelIdeal.S1x64, broadcastInDim Cert.KernelIdeal.S1x64 ![1] Cert.KernelIdeal.Gen.bcast_S64_S1x64_1 b1⟩,
            ⟨Cert.KernelIdeal.S1x64, broadcastInDim Cert.KernelIdeal.S1x64 ![1] Cert.KernelIdeal.Gen.bcast_S64_S1x64_1 b2⟩,
            ⟨Cert.KernelIdeal.S1x64, broadcastInDim Cert.KernelIdeal.S1x64 ![1] Cert.KernelIdeal.Gen.bcast_S64_S1x64_1 b3⟩]
            Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i)
          (Host.reduceAdd
          (concatenate Cert.KernelIdeal.S4x64x64 0 [⟨Cert.KernelIdeal.S1x64x64, broadcastInDim Cert.KernelIdeal.S1x64x64 ![1, 2] Cert.KernelIdeal.Gen.bcast_S64x64_S1x64x64_1_2 WRt0⟩,
            ⟨Cert.KernelIdeal.S1x64x64, broadcastInDim Cert.KernelIdeal.S1x64x64 ![1, 2] Cert.KernelIdeal.Gen.bcast_S64x64_S1x64x64_1_2 WRt1⟩,
            ⟨Cert.KernelIdeal.S1x64x64, broadcastInDim Cert.KernelIdeal.S1x64x64 ![1, 2] Cert.KernelIdeal.Gen.bcast_S64x64_S1x64x64_1_2 WRt2⟩,
            ⟨Cert.KernelIdeal.S1x64x64, broadcastInDim Cert.KernelIdeal.S1x64x64 ![1, 2] Cert.KernelIdeal.Gen.bcast_S64x64_S1x64x64_1_2 WRt3⟩]
            Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_))
        Cert.KernelIdeal.Gen.slices_S51576x64_S50000x64_0_0
      = maximumf
          (addf (addf (addf (refTerm A0 C0 X WLt0 b0 WRt0) (refTerm A1 C1 X WLt1 b1 WRt1)) (refTerm A2 C2 X WLt2 b2 WRt2)) (refTerm A3 C3 X WLt3 b3 WRt3))
          (broadcastInDim Cert.ReferenceIdeal.S50000x64 ![] Cert.ReferenceIdeal.Gen.bcast_S_S50000x64 (constant (F := Ideal) Cert.ReferenceIdeal.S_ .f32 0x00000000#32)) := by
  funext i
  obtain ⟨r, j, rfl⟩ : ∃ (r : Fin 50000) (j : Fin 64), i = ix2 r j := ⟨i 0, i 1, eq_ix2 i⟩
  have hr' : ((⟨r.val, by omega⟩ : Fin 51576)).val < 50000 := r.isLt
  have hL : extractStridedSlice Cert.KernelIdeal.S50000x64 ![0, 0]
        (Cert.KernelIdeal.Gen.G2 (pad Cert.KernelIdeal.S51576x64 ![0, 0] ![1576, 0] ![0, 0] A0 v0 Cert.KernelIdeal.Gen.pads_S50000x64_S51576x64_015760_000 Cert.KernelIdeal.Gen.h_S_) (pad Cert.KernelIdeal.S51576x1 ![0, 0] ![1576, 0] ![0, 0] C0 v1 Cert.KernelIdeal.Gen.pads_S50000x1_S51576x1_015760_000 Cert.KernelIdeal.Gen.h_S_)
          (pad Cert.KernelIdeal.S51576x64 ![0, 0] ![1576, 0] ![0, 0] A1 v2 Cert.KernelIdeal.Gen.pads_S50000x64_S51576x64_015760_000 Cert.KernelIdeal.Gen.h_S_) (pad Cert.KernelIdeal.S51576x1 ![0, 0] ![1576, 0] ![0, 0] C1 v3 Cert.KernelIdeal.Gen.pads_S50000x1_S51576x1_015760_000 Cert.KernelIdeal.Gen.h_S_)
          (pad Cert.KernelIdeal.S51576x64 ![0, 0] ![1576, 0] ![0, 0] A2 v4 Cert.KernelIdeal.Gen.pads_S50000x64_S51576x64_015760_000 Cert.KernelIdeal.Gen.h_S_) (pad Cert.KernelIdeal.S51576x1 ![0, 0] ![1576, 0] ![0, 0] C2 v5 Cert.KernelIdeal.Gen.pads_S50000x1_S51576x1_015760_000 Cert.KernelIdeal.Gen.h_S_)
          (pad Cert.KernelIdeal.S51576x64 ![0, 0] ![1576, 0] ![0, 0] A3 v6 Cert.KernelIdeal.Gen.pads_S50000x64_S51576x64_015760_000 Cert.KernelIdeal.Gen.h_S_) (pad Cert.KernelIdeal.S51576x1 ![0, 0] ![1576, 0] ![0, 0] C3 v7 Cert.KernelIdeal.Gen.pads_S50000x1_S51576x1_015760_000 Cert.KernelIdeal.Gen.h_S_)
          (pad Cert.KernelIdeal.S51576x64 ![0, 0] ![1576, 0] ![0, 0] X v8 Cert.KernelIdeal.Gen.pads_S50000x64_S51576x64_015760_000 Cert.KernelIdeal.Gen.h_S_)
          WLt0 WLt1 WLt2 WLt3
          (fun i => shapeCast Cert.KernelIdeal.S1x64 (Host.reduceAdd
          (concatenate Cert.KernelIdeal.S4x64 0 [⟨Cert.KernelIdeal.S1x64, broadcastInDim Cert.KernelIdeal.S1x64 ![1] Cert.KernelIdeal.Gen.bcast_S64_S1x64_1 b0⟩,
            ⟨Cert.KernelIdeal.S1x64, broadcastInDim Cert.KernelIdeal.S1x64 ![1] Cert.KernelIdeal.Gen.bcast_S64_S1x64_1 b1⟩,
            ⟨Cert.KernelIdeal.S1x64, broadcastInDim Cert.KernelIdeal.S1x64 ![1] Cert.KernelIdeal.Gen.bcast_S64_S1x64_1 b2⟩,
            ⟨Cert.KernelIdeal.S1x64, broadcastInDim Cert.KernelIdeal.S1x64 ![1] Cert.KernelIdeal.Gen.bcast_S64_S1x64_1 b3⟩]
            Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i)
          (Host.reduceAdd
          (concatenate Cert.KernelIdeal.S4x64x64 0 [⟨Cert.KernelIdeal.S1x64x64, broadcastInDim Cert.KernelIdeal.S1x64x64 ![1, 2] Cert.KernelIdeal.Gen.bcast_S64x64_S1x64x64_1_2 WRt0⟩,
            ⟨Cert.KernelIdeal.S1x64x64, broadcastInDim Cert.KernelIdeal.S1x64x64 ![1, 2] Cert.KernelIdeal.Gen.bcast_S64x64_S1x64x64_1_2 WRt1⟩,
            ⟨Cert.KernelIdeal.S1x64x64, broadcastInDim Cert.KernelIdeal.S1x64x64 ![1, 2] Cert.KernelIdeal.Gen.bcast_S64x64_S1x64x64_1_2 WRt2⟩,
            ⟨Cert.KernelIdeal.S1x64x64, broadcastInDim Cert.KernelIdeal.S1x64x64 ![1, 2] Cert.KernelIdeal.Gen.bcast_S64x64_S1x64x64_1_2 WRt3⟩]
            Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_))
        Cert.KernelIdeal.Gen.slices_S51576x64_S50000x64_0_0 (ix2 r j)
      = max ((((((∑ k : Fin 64, X (ix2 r k) * (0 + ∑ e : Fin 4, sel4 WRt0 WRt1 WRt2 WRt3 e (ix2 k j))) + (0 + ∑ e : Fin 4, sel4 b0 b1 b2 b3 e (ix1 j)))
          + ∑ k : Fin 64, Ideal.div (A0 (ix2 r k)) (max (C0 (ix2 r (0 : Fin 1))) (Ideal.ofBits .f32 0x3F800000#32)) * WLt0 (ix2 k j))
          + ∑ k : Fin 64, Ideal.div (A1 (ix2 r k)) (max (C1 (ix2 r (0 : Fin 1))) (Ideal.ofBits .f32 0x3F800000#32)) * WLt1 (ix2 k j))
          + ∑ k : Fin 64, Ideal.div (A2 (ix2 r k)) (max (C2 (ix2 r (0 : Fin 1))) (Ideal.ofBits .f32 0x3F800000#32)) * WLt2 (ix2 k j))
          + ∑ k : Fin 64, Ideal.div (A3 (ix2 r k)) (max (C3 (ix2 r (0 : Fin 1))) (Ideal.ofBits .f32 0x3F800000#32)) * WLt3 (ix2 k j)) 0 := by
    rw [kslice_apply, G2_apply]
    simp only [kpad64_apply _ _ _ _ hr', kpad1_apply _ _ _ hr']
    exact congrArg₂ max (congrArg₂ (· + ·) (congrArg₂ (· + ·) (congrArg₂ (· + ·) (congrArg₂ (· + ·) (congrArg₂ (· + ·)
      (Finset.sum_congr rfl fun k _ => congrArg (X (ix2 r k) * ·) (ksum4W_apply WRt0 WRt1 WRt2 WRt3 k j)) (ksum4B_apply b0 b1 b2 b3 j)) rfl) rfl) rfl) rfl) rfl
  have hR : maximumf
          (addf (addf (addf (refTerm A0 C0 X WLt0 b0 WRt0) (refTerm A1 C1 X WLt1 b1 WRt1)) (refTerm A2 C2 X WLt2 b2 WRt2)) (refTerm A3 C3 X WLt3 b3 WRt3))
          (broadcastInDim Cert.ReferenceIdeal.S50000x64 ![] Cert.ReferenceIdeal.Gen.bcast_S_S50000x64 (constant (F := Ideal) Cert.ReferenceIdeal.S_ .f32 0x00000000#32)) (ix2 r j)
      = max (((((((∑ k : Fin 64, Ideal.div (A0 (ix2 r k)) (max (C0 (ix2 r (0 : Fin 1))) (Ideal.ofBits .f32 0x3F800000#32)) * WLt0 (ix2 k j)) + b0 (ix1 j)) + ∑ k : Fin 64, X (ix2 r k) * WRt0 (ix2 k j))
          + (((∑ k : Fin 64, Ideal.div (A1 (ix2 r k)) (max (C1 (ix2 r (0 : Fin 1))) (Ideal.ofBits .f32 0x3F800000#32)) * WLt1 (ix2 k j)) + b1 (ix1 j)) + ∑ k : Fin 64, X (ix2 r k) * WRt1 (ix2 k j)))
          + (((∑ k : Fin 64, Ideal.div (A2 (ix2 r k)) (max (C2 (ix2 r (0 : Fin 1))) (Ideal.ofBits .f32 0x3F800000#32)) * WLt2 (ix2 k j)) + b2 (ix1 j)) + ∑ k : Fin 64, X (ix2 r k) * WRt2 (ix2 k j)))
          + (((∑ k : Fin 64, Ideal.div (A3 (ix2 r k)) (max (C3 (ix2 r (0 : Fin 1))) (Ideal.ofBits .f32 0x3F800000#32)) * WLt3 (ix2 k j)) + b3 (ix1 j)) + ∑ k : Fin 64, X (ix2 r k) * WRt3 (ix2 k j)))) 0 := by
    rw [maximumf_apply, addf_apply, addf_apply, addf_apply, refTerm_apply, refTerm_apply, refTerm_apply, refTerm_apply, broadcastInDim_scalar_apply]
    exact congrArg (max _) Ideal.ofBits_zero_f32
  rw [hL, hR]
  exact Cert.Math.sage4_relu (fun u d => Ideal.div u (max d (Ideal.ofBits .f32 0x3F800000#32))) (fun k => X (ix2 r k))
    (fun e k => sel4 A0 A1 A2 A3 e (ix2 r k)) (fun e k => sel4 WLt0 WLt1 WLt2 WLt3 e (ix2 k j)) (fun e k => sel4 WRt0 WRt1 WRt2 WRt3 e (ix2 k j))
    (fun e => sel4 C0 C1 C2 C3 e (ix2 r (0 : Fin 1))) (fun e => sel4 b0 b1 b2 b3 e (ix1 j)) 0
    (fun k => hX _)
    (fun e k => match e with | ⟨0, _⟩ => hWL0 _ | ⟨1, _⟩ => hWL1 _ | ⟨2, _⟩ => hWL2 _ | ⟨3, _⟩ => hWL3 _)
    (fun e k => match e with | ⟨0, _⟩ => hWR0 _ | ⟨1, _⟩ => hWR1 _ | ⟨2, _⟩ => hWR2 _ | ⟨3, _⟩ => hWR3 _)
    (fun e => match e with | ⟨0, _⟩ => hb0 _ | ⟨1, _⟩ => hb1 _ | ⟨2, _⟩ => hb2 _ | ⟨3, _⟩ => hb3 _)
    (fun e k => match e with
      | ⟨0, _⟩ => mean_real_word (hA0 _) (hC0 _) | ⟨1, _⟩ => mean_real_word (hA1 _) (hC1 _)
      | ⟨2, _⟩ => mean_real_word (hA2 _) (hC2 _) | ⟨3, _⟩ => mean_real_word (hA3 _) (hC3 _))

/-! ## The kernel program's buffers around region 2 -/

/-- The layer's result is the first 50000 rows of region 2's output. -/
theorem k165 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W24 m ρ c (Proc.devRef .tc Cert.KernelIdeal.main_v165) = extractStridedSlice Cert.KernelIdeal.S50000x64 ![0, 0] (Cert.KernelIdeal.Gen.W23 m ρ c (Proc.devRef .tc Cert.KernelIdeal.main_v164) : Cert.KernelIdeal.S51576x64.Idx → EReal) Cert.KernelIdeal.Gen.slices_S51576x64_S50000x64_0_0 := by
  show StableHlo.after Cert.KernelIdeal.Gen.hostOps3 (Cert.KernelIdeal.Gen.W23 m ρ c) (Proc.devRef .tc Cert.KernelIdeal.main_v165) = _
  generalize Cert.KernelIdeal.Gen.W23 m ρ c = V
  after_results_simp

set_option maxHeartbeats 2000000 in
/-- Region 2's output array after the region: its function of the fifteen input arrays as the region finds them. -/
theorem k164 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W23 m ρ c (Proc.devRef .tc Cert.KernelIdeal.main_v164) = Cert.KernelIdeal.Gen.G2 (Cert.KernelIdeal.Gen.W22 m ρ c (Proc.devRef .tc Cert.KernelIdeal.main_v155)) (Cert.KernelIdeal.Gen.W22 m ρ c (Proc.devRef .tc Cert.KernelIdeal.main_v159)) (Cert.KernelIdeal.Gen.W22 m ρ c (Proc.devRef .tc Cert.KernelIdeal.main_v156)) (Cert.KernelIdeal.Gen.W22 m ρ c (Proc.devRef .tc Cert.KernelIdeal.main_v160))
      (Cert.KernelIdeal.Gen.W22 m ρ c (Proc.devRef .tc Cert.KernelIdeal.main_v157)) (Cert.KernelIdeal.Gen.W22 m ρ c (Proc.devRef .tc Cert.KernelIdeal.main_v161)) (Cert.KernelIdeal.Gen.W22 m ρ c (Proc.devRef .tc Cert.KernelIdeal.main_v158)) (Cert.KernelIdeal.Gen.W22 m ρ c (Proc.devRef .tc Cert.KernelIdeal.main_v162))
      (Cert.KernelIdeal.Gen.W22 m ρ c (Proc.devRef .tc Cert.KernelIdeal.main_v163)) (Cert.KernelIdeal.Gen.W22 m ρ c (Proc.devRef .tc Cert.KernelIdeal.main_v82)) (Cert.KernelIdeal.Gen.W22 m ρ c (Proc.devRef .tc Cert.KernelIdeal.main_v100)) (Cert.KernelIdeal.Gen.W22 m ρ c (Proc.devRef .tc Cert.KernelIdeal.main_v118))
      (Cert.KernelIdeal.Gen.W22 m ρ c (Proc.devRef .tc Cert.KernelIdeal.main_v136)) (Cert.KernelIdeal.Gen.W22 m ρ c (Proc.devRef .tc Cert.KernelIdeal.main_v148)) (Cert.KernelIdeal.Gen.W22 m ρ c (Proc.devRef .tc Cert.KernelIdeal.main_v154)) :=
  (Cert.KernelIdeal.Gen.W23_arr m ρ c 15).trans (Cert.KernelIdeal.Gen.final2 (Cert.KernelIdeal.Gen.V22 m ρ) c)

set_option maxHeartbeats 1000000 in
/-- The padded copy `v155` as region 2 finds it: the pad of `v79` as the long host stretch left it. -/
theorem k155 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v155) = (pad Cert.KernelIdeal.S51576x64 ![0, 0] ![1576, 0] ![0, 0] (Cert.KernelIdeal.Gen.W5 m ρ c (Proc.devRef .tc Cert.KernelIdeal.main_v79) : Cert.KernelIdeal.S50000x64.Idx → EReal) (Cert.KernelIdeal.Gen.W5 m ρ c (Proc.devRef .tc Cert.KernelIdeal.main_cst_28) : Cert.KernelIdeal.S_.Idx → EReal) Cert.KernelIdeal.Gen.pads_S50000x64_S51576x64_015760_000 Cert.KernelIdeal.Gen.h_S_) := by
  rw [Cert.KernelIdeal.Gen.keep_v155_22 m ρ c]
  show StableHlo.after Cert.KernelIdeal.Gen.hostOps2_1 (Cert.KernelIdeal.Gen.W5 m ρ c) (Proc.devRef .tc Cert.KernelIdeal.main_v155) = _
  generalize Cert.KernelIdeal.Gen.W5 m ρ c = V
  after_results_simp
  rfl

set_option maxHeartbeats 1000000 in
/-- The padded copy `v156` as region 2 finds it: the pad of `v97` as the long host stretch left it. -/
theorem k156 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v156) = (pad Cert.KernelIdeal.S51576x64 ![0, 0] ![1576, 0] ![0, 0] (Cert.KernelIdeal.Gen.W5 m ρ c (Proc.devRef .tc Cert.KernelIdeal.main_v97) : Cert.KernelIdeal.S50000x64.Idx → EReal) (Cert.KernelIdeal.Gen.W7 m ρ c (Proc.devRef .tc Cert.KernelIdeal.main_cst_29) : Cert.KernelIdeal.S_.Idx → EReal) Cert.KernelIdeal.Gen.pads_S50000x64_S51576x64_015760_000 Cert.KernelIdeal.Gen.h_S_) := by
  rw [Cert.KernelIdeal.Gen.keep_v156_22 m ρ c, ← Cert.KernelIdeal.Gen.keep_v97_7 m ρ c]
  show StableHlo.after Cert.KernelIdeal.Gen.hostOps2_3 (Cert.KernelIdeal.Gen.W7 m ρ c) (Proc.devRef .tc Cert.KernelIdeal.main_v156) = _
  generalize Cert.KernelIdeal.Gen.W7 m ρ c = V
  after_results_simp
  rfl

set_option maxHeartbeats 1000000 in
/-- The padded copy `v157` as region 2 finds it: the pad of `v115` as the long host stretch left it. -/
theorem k157 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v157) = (pad Cert.KernelIdeal.S51576x64 ![0, 0] ![1576, 0] ![0, 0] (Cert.KernelIdeal.Gen.W5 m ρ c (Proc.devRef .tc Cert.KernelIdeal.main_v115) : Cert.KernelIdeal.S50000x64.Idx → EReal) (Cert.KernelIdeal.Gen.W9 m ρ c (Proc.devRef .tc Cert.KernelIdeal.main_cst_30) : Cert.KernelIdeal.S_.Idx → EReal) Cert.KernelIdeal.Gen.pads_S50000x64_S51576x64_015760_000 Cert.KernelIdeal.Gen.h_S_) := by
  rw [Cert.KernelIdeal.Gen.keep_v157_22 m ρ c, ← Cert.KernelIdeal.Gen.keep_v115_9 m ρ c]
  show StableHlo.after Cert.KernelIdeal.Gen.hostOps2_5 (Cert.KernelIdeal.Gen.W9 m ρ c) (Proc.devRef .tc Cert.KernelIdeal.main_v157) = _
  generalize Cert.KernelIdeal.Gen.W9 m ρ c = V
  after_results_simp
  rfl

set_option maxHeartbeats 1000000 in
/-- The padded copy `v158` as region 2 finds it: the pad of `v133` as the long host stretch left it. -/
theorem k158 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v158) = (pad Cert.KernelIdeal.S51576x64 ![0, 0] ![1576, 0] ![0, 0] (Cert.KernelIdeal.Gen.W5 m ρ c (Proc.devRef .tc Cert.KernelIdeal.main_v133) : Cert.KernelIdeal.S50000x64.Idx → EReal) (Cert.KernelIdeal.Gen.W11 m ρ c (Proc.devRef .tc Cert.KernelIdeal.main_cst_31) : Cert.KernelIdeal.S_.Idx → EReal) Cert.KernelIdeal.Gen.pads_S50000x64_S51576x64_015760_000 Cert.KernelIdeal.Gen.h_S_) := by
  rw [Cert.KernelIdeal.Gen.keep_v158_22 m ρ c, ← Cert.KernelIdeal.Gen.keep_v133_11 m ρ c]
  show StableHlo.after Cert.KernelIdeal.Gen.hostOps2_7 (Cert.KernelIdeal.Gen.W11 m ρ c) (Proc.devRef .tc Cert.KernelIdeal.main_v158) = _
  generalize Cert.KernelIdeal.Gen.W11 m ρ c = V
  after_results_simp
  rfl

set_option maxHeartbeats 1000000 in
/-- The padded copy `v159` as region 2 finds it: the pad of `v41` as the long host stretch left it. -/
theorem k159 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v159) = (pad Cert.KernelIdeal.S51576x1 ![0, 0] ![1576, 0] ![0, 0] (Cert.KernelIdeal.Gen.W5 m ρ c (Proc.devRef .tc Cert.KernelIdeal.main_v41) : Cert.KernelIdeal.S50000x1.Idx → EReal) (Cert.KernelIdeal.Gen.W13 m ρ c (Proc.devRef .tc Cert.KernelIdeal.main_cst_32) : Cert.KernelIdeal.S_.Idx → EReal) Cert.KernelIdeal.Gen.pads_S50000x1_S51576x1_015760_000 Cert.KernelIdeal.Gen.h_S_) := by
  rw [Cert.KernelIdeal.Gen.keep_v159_22 m ρ c, ← Cert.KernelIdeal.Gen.keep_v41_13 m ρ c]
  show StableHlo.after Cert.KernelIdeal.Gen.hostOps2_9 (Cert.KernelIdeal.Gen.W13 m ρ c) (Proc.devRef .tc Cert.KernelIdeal.main_v159) = _
  generalize Cert.KernelIdeal.Gen.W13 m ρ c = V
  after_results_simp
  rfl

set_option maxHeartbeats 1000000 in
/-- The padded copy `v160` as region 2 finds it: the pad of `v49` as the long host stretch left it. -/
theorem k160 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v160) = (pad Cert.KernelIdeal.S51576x1 ![0, 0] ![1576, 0] ![0, 0] (Cert.KernelIdeal.Gen.W5 m ρ c (Proc.devRef .tc Cert.KernelIdeal.main_v49) : Cert.KernelIdeal.S50000x1.Idx → EReal) (Cert.KernelIdeal.Gen.W15 m ρ c (Proc.devRef .tc Cert.KernelIdeal.main_cst_33) : Cert.KernelIdeal.S_.Idx → EReal) Cert.KernelIdeal.Gen.pads_S50000x1_S51576x1_015760_000 Cert.KernelIdeal.Gen.h_S_) := by
  rw [Cert.KernelIdeal.Gen.keep_v160_22 m ρ c, ← Cert.KernelIdeal.Gen.keep_v49_15 m ρ c]
  show StableHlo.after Cert.KernelIdeal.Gen.hostOps2_11 (Cert.KernelIdeal.Gen.W15 m ρ c) (Proc.devRef .tc Cert.KernelIdeal.main_v160) = _
  generalize Cert.KernelIdeal.Gen.W15 m ρ c = V
  after_results_simp
  rfl

set_option maxHeartbeats 1000000 in
/-- The padded copy `v161` as region 2 finds it: the pad of `v57` as the long host stretch left it. -/
theorem k161 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v161) = (pad Cert.KernelIdeal.S51576x1 ![0, 0] ![1576, 0] ![0, 0] (Cert.KernelIdeal.Gen.W5 m ρ c (Proc.devRef .tc Cert.KernelIdeal.main_v57) : Cert.KernelIdeal.S50000x1.Idx → EReal) (Cert.KernelIdeal.Gen.W17 m ρ c (Proc.devRef .tc Cert.KernelIdeal.main_cst_34) : Cert.KernelIdeal.S_.Idx → EReal) Cert.KernelIdeal.Gen.pads_S50000x1_S51576x1_015760_000 Cert.KernelIdeal.Gen.h_S_) := by
  rw [Cert.KernelIdeal.Gen.keep_v161_22 m ρ c, ← Cert.KernelIdeal.Gen.keep_v57_17 m ρ c]
  show StableHlo.after Cert.KernelIdeal.Gen.hostOps2_13 (Cert.KernelIdeal.Gen.W17 m ρ c) (Proc.devRef .tc Cert.KernelIdeal.main_v161) = _
  generalize Cert.KernelIdeal.Gen.W17 m ρ c = V
  after_results_simp
  rfl

set_option maxHeartbeats 1000000 in
/-- The padded copy `v162` as region 2 finds it: the pad of `v65` as the long host stretch left it. -/
theorem k162 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v162) = (pad Cert.KernelIdeal.S51576x1 ![0, 0] ![1576, 0] ![0, 0] (Cert.KernelIdeal.Gen.W5 m ρ c (Proc.devRef .tc Cert.KernelIdeal.main_v65) : Cert.KernelIdeal.S50000x1.Idx → EReal) (Cert.KernelIdeal.Gen.W19 m ρ c (Proc.devRef .tc Cert.KernelIdeal.main_cst_35) : Cert.KernelIdeal.S_.Idx → EReal) Cert.KernelIdeal.Gen.pads_S50000x1_S51576x1_015760_000 Cert.KernelIdeal.Gen.h_S_) := by
  rw [Cert.KernelIdeal.Gen.keep_v162_22 m ρ c, ← Cert.KernelIdeal.Gen.keep_v65_19 m ρ c]
  show StableHlo.after Cert.KernelIdeal.Gen.hostOps2_15 (Cert.KernelIdeal.Gen.W19 m ρ c) (Proc.devRef .tc Cert.KernelIdeal.main_v162) = _
  generalize Cert.KernelIdeal.Gen.W19 m ρ c = V
  after_results_simp
  rfl

set_option maxHeartbeats 1000000 in
/-- The padded copy `v163` as region 2 finds it: the pad of `v5` as the long host stretch left it. -/
theorem k163 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v163) = (pad Cert.KernelIdeal.S51576x64 ![0, 0] ![1576, 0] ![0, 0] (Cert.KernelIdeal.Gen.W4 m ρ c (Proc.devRef .tc Cert.KernelIdeal.main_v5) : Cert.KernelIdeal.S50000x64.Idx → EReal) (Cert.KernelIdeal.Gen.W21 m ρ c (Proc.devRef .tc Cert.KernelIdeal.main_cst_36) : Cert.KernelIdeal.S_.Idx → EReal) Cert.KernelIdeal.Gen.pads_S50000x64_S51576x64_015760_000 Cert.KernelIdeal.Gen.h_S_) := by
  rw [← Cert.KernelIdeal.Gen.keep_v5_21 m ρ c]
  show StableHlo.after Cert.KernelIdeal.Gen.hostOps2_17 (Cert.KernelIdeal.Gen.W21 m ρ c) (Proc.devRef .tc Cert.KernelIdeal.main_v163) = _
  generalize Cert.KernelIdeal.Gen.W21 m ρ c = V
  after_results_simp
  rfl

set_option maxHeartbeats 4000000 in
/-- The stacked bias row after the long host stretch: the four bias rows concatenated, summed from zero over the stack's
    axis, cast to one row; each operand as the stretch leaves it. -/
theorem k148_of (V : Valuation Cert.KernelIdeal.τ Cert.KernelIdeal.sig (Elt Ideal)) :
    StableHlo.after (Cert.KernelIdeal.Gen.hostOps2 (F := Ideal)) V (Proc.devRef .tc Cert.KernelIdeal.main_v148)
      = (fun i => shapeCast Cert.KernelIdeal.S1x64 (Host.reduceAdd
          (concatenate Cert.KernelIdeal.S4x64 0 [⟨Cert.KernelIdeal.S1x64, StableHlo.after (Cert.KernelIdeal.Gen.hostOps2 (F := Ideal)) V (Proc.devRef .tc Cert.KernelIdeal.main_v142)⟩,
            ⟨Cert.KernelIdeal.S1x64, StableHlo.after (Cert.KernelIdeal.Gen.hostOps2 (F := Ideal)) V (Proc.devRef .tc Cert.KernelIdeal.main_v143)⟩,
            ⟨Cert.KernelIdeal.S1x64, StableHlo.after (Cert.KernelIdeal.Gen.hostOps2 (F := Ideal)) V (Proc.devRef .tc Cert.KernelIdeal.main_v144)⟩,
            ⟨Cert.KernelIdeal.S1x64, StableHlo.after (Cert.KernelIdeal.Gen.hostOps2 (F := Ideal)) V (Proc.devRef .tc Cert.KernelIdeal.main_v145)⟩] Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i) := by
  have hs : StableHlo.after (Cert.KernelIdeal.Gen.hostOps2 (F := Ideal)) V
      = StableHlo.after ((Cert.KernelIdeal.Gen.hostOps2 (F := Ideal)).drop 168) (StableHlo.after ((Cert.KernelIdeal.Gen.hostOps2 (F := Ideal)).take 168) V) := by
    rw [← after_append_s1, List.take_append_drop]
  rw [hs]
  generalize StableHlo.after ((Cert.KernelIdeal.Gen.hostOps2 (F := Ideal)).take 168) V = V1
  simp only [Cert.KernelIdeal.Gen.hostOps2, List.drop_succ_cons, List.drop_zero]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The stacked right weight after the long host stretch: the four one-matrix stacks concatenated and summed from zero over
    the stack's axis; each operand as the stretch leaves it. -/
theorem k154_of (V : Valuation Cert.KernelIdeal.τ Cert.KernelIdeal.sig (Elt Ideal)) :
    StableHlo.after (Cert.KernelIdeal.Gen.hostOps2 (F := Ideal)) V (Proc.devRef .tc Cert.KernelIdeal.main_v154)
      = Host.reduceAdd
          (concatenate Cert.KernelIdeal.S4x64x64 0 [⟨Cert.KernelIdeal.S1x64x64, StableHlo.after (Cert.KernelIdeal.Gen.hostOps2 (F := Ideal)) V (Proc.devRef .tc Cert.KernelIdeal.main_v149)⟩,
            ⟨Cert.KernelIdeal.S1x64x64, StableHlo.after (Cert.KernelIdeal.Gen.hostOps2 (F := Ideal)) V (Proc.devRef .tc Cert.KernelIdeal.main_v150)⟩,
            ⟨Cert.KernelIdeal.S1x64x64, StableHlo.after (Cert.KernelIdeal.Gen.hostOps2 (F := Ideal)) V (Proc.devRef .tc Cert.KernelIdeal.main_v151)⟩,
            ⟨Cert.KernelIdeal.S1x64x64, StableHlo.after (Cert.KernelIdeal.Gen.hostOps2 (F := Ideal)) V (Proc.devRef .tc Cert.KernelIdeal.main_v152)⟩] Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_ := by
  have hs : StableHlo.after (Cert.KernelIdeal.Gen.hostOps2 (F := Ideal)) V
      = StableHlo.after ((Cert.KernelIdeal.Gen.hostOps2 (F := Ideal)).drop 176) (StableHlo.after ((Cert.KernelIdeal.Gen.hostOps2 (F := Ideal)).take 176) V) := by
    rw [← after_append_s1, List.take_append_drop]
  rw [hs]
  generalize StableHlo.after ((Cert.KernelIdeal.Gen.hostOps2 (F := Ideal)).take 176) V = V1
  simp only [Cert.KernelIdeal.Gen.hostOps2, List.drop_succ_cons, List.drop_zero]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 2000000 in
/-- The left weight of edge type 0 as region 2 takes it: the stacked argument's slice 0, transposed. -/
theorem k82 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W22 m ρ c (Proc.devRef .tc Cert.KernelIdeal.main_v82) = (transpose Cert.KernelIdeal.S64x64 [1, 0] (fun i => shapeCast Cert.KernelIdeal.S64x64 (extractStridedSlice Cert.KernelIdeal.S1x64x64 ![0, 0, 0] (m' ((c.tc : Thread Cert.ReferenceIdeal.nD Cert.ReferenceIdeal.τ).loc Cert.ReferenceIdeal.main_arg9)) Cert.KernelIdeal.Gen.slices_S8x64x64_S1x64x64_0_0_0) Cert.KernelIdeal.Gen.shapeCasts_S1x64x64_S64x64 i) Cert.KernelIdeal.Gen.transposes_S64x64_S64x64_1_0) := by
  rw [Cert.KernelIdeal.Gen.keep_v82_22 m ρ c]
  have e : Cert.KernelIdeal.Gen.W4 m ρ c (Proc.devRef .tc Cert.KernelIdeal.main_arg9) = (m' ((c.tc : Thread Cert.ReferenceIdeal.nD Cert.ReferenceIdeal.τ).loc Cert.ReferenceIdeal.main_arg9)) := (Cert.KernelIdeal.Gen.keep_arg9_4 m ρ c).trans (h9 c).symm
  rw [← e]
  show StableHlo.after Cert.KernelIdeal.Gen.hostOps2 (Cert.KernelIdeal.Gen.W4 m ρ c) (Proc.devRef .tc Cert.KernelIdeal.main_v82) = _
  generalize Cert.KernelIdeal.Gen.W4 m ρ c = V
  after_results_simp <;> rfl

set_option maxHeartbeats 2000000 in
/-- The left weight of edge type 2 as region 2 takes it: the stacked argument's slice 2, transposed. -/
theorem k100 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W22 m ρ c (Proc.devRef .tc Cert.KernelIdeal.main_v100) = (transpose Cert.KernelIdeal.S64x64 [1, 0] (fun i => shapeCast Cert.KernelIdeal.S64x64 (extractStridedSlice Cert.KernelIdeal.S1x64x64 ![2, 0, 0] (m' ((c.tc : Thread Cert.ReferenceIdeal.nD Cert.ReferenceIdeal.τ).loc Cert.ReferenceIdeal.main_arg9)) Cert.KernelIdeal.Gen.slices_S8x64x64_S1x64x64_2_0_0) Cert.KernelIdeal.Gen.shapeCasts_S1x64x64_S64x64 i) Cert.KernelIdeal.Gen.transposes_S64x64_S64x64_1_0) := by
  rw [Cert.KernelIdeal.Gen.keep_v100_22 m ρ c]
  have e : Cert.KernelIdeal.Gen.W4 m ρ c (Proc.devRef .tc Cert.KernelIdeal.main_arg9) = (m' ((c.tc : Thread Cert.ReferenceIdeal.nD Cert.ReferenceIdeal.τ).loc Cert.ReferenceIdeal.main_arg9)) := (Cert.KernelIdeal.Gen.keep_arg9_4 m ρ c).trans (h9 c).symm
  rw [← e]
  show StableHlo.after Cert.KernelIdeal.Gen.hostOps2 (Cert.KernelIdeal.Gen.W4 m ρ c) (Proc.devRef .tc Cert.KernelIdeal.main_v100) = _
  generalize Cert.KernelIdeal.Gen.W4 m ρ c = V
  after_results_simp <;> rfl

set_option maxHeartbeats 2000000 in
/-- The left weight of edge type 4 as region 2 takes it: the stacked argument's slice 4, transposed. -/
theorem k118 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W22 m ρ c (Proc.devRef .tc Cert.KernelIdeal.main_v118) = (transpose Cert.KernelIdeal.S64x64 [1, 0] (fun i => shapeCast Cert.KernelIdeal.S64x64 (extractStridedSlice Cert.KernelIdeal.S1x64x64 ![4, 0, 0] (m' ((c.tc : Thread Cert.ReferenceIdeal.nD Cert.ReferenceIdeal.τ).loc Cert.ReferenceIdeal.main_arg9)) Cert.KernelIdeal.Gen.slices_S8x64x64_S1x64x64_4_0_0) Cert.KernelIdeal.Gen.shapeCasts_S1x64x64_S64x64 i) Cert.KernelIdeal.Gen.transposes_S64x64_S64x64_1_0) := by
  rw [Cert.KernelIdeal.Gen.keep_v118_22 m ρ c]
  have e : Cert.KernelIdeal.Gen.W4 m ρ c (Proc.devRef .tc Cert.KernelIdeal.main_arg9) = (m' ((c.tc : Thread Cert.ReferenceIdeal.nD Cert.ReferenceIdeal.τ).loc Cert.ReferenceIdeal.main_arg9)) := (Cert.KernelIdeal.Gen.keep_arg9_4 m ρ c).trans (h9 c).symm
  rw [← e]
  show StableHlo.after Cert.KernelIdeal.Gen.hostOps2 (Cert.KernelIdeal.Gen.W4 m ρ c) (Proc.devRef .tc Cert.KernelIdeal.main_v118) = _
  generalize Cert.KernelIdeal.Gen.W4 m ρ c = V
  after_results_simp <;> rfl

set_option maxHeartbeats 2000000 in
/-- The left weight of edge type 6 as region 2 takes it: the stacked argument's slice 6, transposed. -/
theorem k136 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (c : Dev Cert.KernelIdeal.nD) :
    Cert.KernelIdeal.Gen.W22 m ρ c (Proc.devRef .tc Cert.KernelIdeal.main_v136) = (transpose Cert.KernelIdeal.S64x64 [1, 0] (fun i => shapeCast Cert.KernelIdeal.S64x64 (extractStridedSlice Cert.KernelIdeal.S1x64x64 ![6, 0, 0] (m' ((c.tc : Thread Cert.ReferenceIdeal.nD Cert.ReferenceIdeal.τ).loc Cert.ReferenceIdeal.main_arg9)) Cert.KernelIdeal.Gen.slices_S8x64x64_S1x64x64_6_0_0) Cert.KernelIdeal.Gen.shapeCasts_S1x64x64_S64x64 i) Cert.KernelIdeal.Gen.transposes_S64x64_S64x64_1_0) := by
  rw [Cert.KernelIdeal.Gen.keep_v136_22 m ρ c]
  have e : Cert.KernelIdeal.Gen.W4 m ρ c (Proc.devRef .tc Cert.KernelIdeal.main_arg9) = (m' ((c.tc : Thread Cert.ReferenceIdeal.nD Cert.ReferenceIdeal.τ).loc Cert.ReferenceIdeal.main_arg9)) := (Cert.KernelIdeal.Gen.keep_arg9_4 m ρ c).trans (h9 c).symm
  rw [← e]
  show StableHlo.after Cert.KernelIdeal.Gen.hostOps2 (Cert.KernelIdeal.Gen.W4 m ρ c) (Proc.devRef .tc Cert.KernelIdeal.main_v136) = _
  generalize Cert.KernelIdeal.Gen.W4 m ρ c = V
  after_results_simp <;> rfl

set_option maxHeartbeats 2000000 in
/-- The bias of edge type 0 as a one-row stack. -/
theorem k142 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W5 m ρ c (Proc.devRef .tc Cert.KernelIdeal.main_v142) = broadcastInDim Cert.KernelIdeal.S1x64 ![1] Cert.KernelIdeal.Gen.bcast_S64_S1x64_1 (fun i => shapeCast Cert.KernelIdeal.S64 (extractStridedSlice Cert.KernelIdeal.S1x64 ![0, 0] (m' ((c.tc : Thread Cert.ReferenceIdeal.nD Cert.ReferenceIdeal.τ).loc Cert.ReferenceIdeal.main_arg10)) Cert.KernelIdeal.Gen.slices_S8x64_S1x64_0_0) Cert.KernelIdeal.Gen.shapeCasts_S1x64_S64 i) := by
  have e : Cert.KernelIdeal.Gen.W4 m ρ c (Proc.devRef .tc Cert.KernelIdeal.main_arg10) = (m' ((c.tc : Thread Cert.ReferenceIdeal.nD Cert.ReferenceIdeal.τ).loc Cert.ReferenceIdeal.main_arg10)) := (Cert.KernelIdeal.Gen.keep_arg10_4 m ρ c).trans (h10 c).symm
  rw [← e]
  show StableHlo.after Cert.KernelIdeal.Gen.hostOps2 (Cert.KernelIdeal.Gen.W4 m ρ c) (Proc.devRef .tc Cert.KernelIdeal.main_v142) = _
  generalize Cert.KernelIdeal.Gen.W4 m ρ c = V
  after_results_simp <;> rfl

set_option maxHeartbeats 2000000 in
/-- The bias of edge type 2 as a one-row stack. -/
theorem k143 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W5 m ρ c (Proc.devRef .tc Cert.KernelIdeal.main_v143) = broadcastInDim Cert.KernelIdeal.S1x64 ![1] Cert.KernelIdeal.Gen.bcast_S64_S1x64_1 (fun i => shapeCast Cert.KernelIdeal.S64 (extractStridedSlice Cert.KernelIdeal.S1x64 ![2, 0] (m' ((c.tc : Thread Cert.ReferenceIdeal.nD Cert.ReferenceIdeal.τ).loc Cert.ReferenceIdeal.main_arg10)) Cert.KernelIdeal.Gen.slices_S8x64_S1x64_2_0) Cert.KernelIdeal.Gen.shapeCasts_S1x64_S64 i) := by
  have e : Cert.KernelIdeal.Gen.W4 m ρ c (Proc.devRef .tc Cert.KernelIdeal.main_arg10) = (m' ((c.tc : Thread Cert.ReferenceIdeal.nD Cert.ReferenceIdeal.τ).loc Cert.ReferenceIdeal.main_arg10)) := (Cert.KernelIdeal.Gen.keep_arg10_4 m ρ c).trans (h10 c).symm
  rw [← e]
  show StableHlo.after Cert.KernelIdeal.Gen.hostOps2 (Cert.KernelIdeal.Gen.W4 m ρ c) (Proc.devRef .tc Cert.KernelIdeal.main_v143) = _
  generalize Cert.KernelIdeal.Gen.W4 m ρ c = V
  after_results_simp <;> rfl

set_option maxHeartbeats 2000000 in
/-- The bias of edge type 4 as a one-row stack. -/
theorem k144 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W5 m ρ c (Proc.devRef .tc Cert.KernelIdeal.main_v144) = broadcastInDim Cert.KernelIdeal.S1x64 ![1] Cert.KernelIdeal.Gen.bcast_S64_S1x64_1 (fun i => shapeCast Cert.KernelIdeal.S64 (extractStridedSlice Cert.KernelIdeal.S1x64 ![4, 0] (m' ((c.tc : Thread Cert.ReferenceIdeal.nD Cert.ReferenceIdeal.τ).loc Cert.ReferenceIdeal.main_arg10)) Cert.KernelIdeal.Gen.slices_S8x64_S1x64_4_0) Cert.KernelIdeal.Gen.shapeCasts_S1x64_S64 i) := by
  have e : Cert.KernelIdeal.Gen.W4 m ρ c (Proc.devRef .tc Cert.KernelIdeal.main_arg10) = (m' ((c.tc : Thread Cert.ReferenceIdeal.nD Cert.ReferenceIdeal.τ).loc Cert.ReferenceIdeal.main_arg10)) := (Cert.KernelIdeal.Gen.keep_arg10_4 m ρ c).trans (h10 c).symm
  rw [← e]
  show StableHlo.after Cert.KernelIdeal.Gen.hostOps2 (Cert.KernelIdeal.Gen.W4 m ρ c) (Proc.devRef .tc Cert.KernelIdeal.main_v144) = _
  generalize Cert.KernelIdeal.Gen.W4 m ρ c = V
  after_results_simp <;> rfl

set_option maxHeartbeats 2000000 in
/-- The bias of edge type 6 as a one-row stack. -/
theorem k145 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W5 m ρ c (Proc.devRef .tc Cert.KernelIdeal.main_v145) = broadcastInDim Cert.KernelIdeal.S1x64 ![1] Cert.KernelIdeal.Gen.bcast_S64_S1x64_1 (fun i => shapeCast Cert.KernelIdeal.S64 (extractStridedSlice Cert.KernelIdeal.S1x64 ![6, 0] (m' ((c.tc : Thread Cert.ReferenceIdeal.nD Cert.ReferenceIdeal.τ).loc Cert.ReferenceIdeal.main_arg10)) Cert.KernelIdeal.Gen.slices_S8x64_S1x64_6_0) Cert.KernelIdeal.Gen.shapeCasts_S1x64_S64 i) := by
  have e : Cert.KernelIdeal.Gen.W4 m ρ c (Proc.devRef .tc Cert.KernelIdeal.main_arg10) = (m' ((c.tc : Thread Cert.ReferenceIdeal.nD Cert.ReferenceIdeal.τ).loc Cert.ReferenceIdeal.main_arg10)) := (Cert.KernelIdeal.Gen.keep_arg10_4 m ρ c).trans (h10 c).symm
  rw [← e]
  show StableHlo.after Cert.KernelIdeal.Gen.hostOps2 (Cert.KernelIdeal.Gen.W4 m ρ c) (Proc.devRef .tc Cert.KernelIdeal.main_v145) = _
  generalize Cert.KernelIdeal.Gen.W4 m ρ c = V
  after_results_simp <;> rfl

set_option maxHeartbeats 2000000 in
/-- The right weight of edge type 0, transposed, as a one-matrix stack. -/
theorem k149 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W5 m ρ c (Proc.devRef .tc Cert.KernelIdeal.main_v149) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![0, 0, 0] (m' ((c.tc : Thread Cert.ReferenceIdeal.nD Cert.ReferenceIdeal.τ).loc Cert.ReferenceIdeal.main_arg11)) Cert.KernelIdeal.Gen.slices_S8x64x64_S1x64x64_0_0_0) Cert.KernelIdeal.Gen.shapeCasts_S1x64x64_S64x64 i) Cert.KernelIdeal.Gen.transposes_S64x64_S64x64_1_0) := by
  have e : Cert.KernelIdeal.Gen.W4 m ρ c (Proc.devRef .tc Cert.KernelIdeal.main_arg11) = (m' ((c.tc : Thread Cert.ReferenceIdeal.nD Cert.ReferenceIdeal.τ).loc Cert.ReferenceIdeal.main_arg11)) := (Cert.KernelIdeal.Gen.keep_arg11_4 m ρ c).trans (h11 c).symm
  rw [← e]
  show StableHlo.after Cert.KernelIdeal.Gen.hostOps2 (Cert.KernelIdeal.Gen.W4 m ρ c) (Proc.devRef .tc Cert.KernelIdeal.main_v149) = _
  generalize Cert.KernelIdeal.Gen.W4 m ρ c = V
  after_results_simp <;> rfl

set_option maxHeartbeats 2000000 in
/-- The right weight of edge type 2, transposed, as a one-matrix stack. -/
theorem k150 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W5 m ρ c (Proc.devRef .tc Cert.KernelIdeal.main_v150) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![2, 0, 0] (m' ((c.tc : Thread Cert.ReferenceIdeal.nD Cert.ReferenceIdeal.τ).loc Cert.ReferenceIdeal.main_arg11)) Cert.KernelIdeal.Gen.slices_S8x64x64_S1x64x64_2_0_0) Cert.KernelIdeal.Gen.shapeCasts_S1x64x64_S64x64 i) Cert.KernelIdeal.Gen.transposes_S64x64_S64x64_1_0) := by
  have e : Cert.KernelIdeal.Gen.W4 m ρ c (Proc.devRef .tc Cert.KernelIdeal.main_arg11) = (m' ((c.tc : Thread Cert.ReferenceIdeal.nD Cert.ReferenceIdeal.τ).loc Cert.ReferenceIdeal.main_arg11)) := (Cert.KernelIdeal.Gen.keep_arg11_4 m ρ c).trans (h11 c).symm
  rw [← e]
  show StableHlo.after Cert.KernelIdeal.Gen.hostOps2 (Cert.KernelIdeal.Gen.W4 m ρ c) (Proc.devRef .tc Cert.KernelIdeal.main_v150) = _
  generalize Cert.KernelIdeal.Gen.W4 m ρ c = V
  after_results_simp <;> rfl

set_option maxHeartbeats 2000000 in
/-- The right weight of edge type 4, transposed, as a one-matrix stack. -/
theorem k151 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W5 m ρ c (Proc.devRef .tc Cert.KernelIdeal.main_v151) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![4, 0, 0] (m' ((c.tc : Thread Cert.ReferenceIdeal.nD Cert.ReferenceIdeal.τ).loc Cert.ReferenceIdeal.main_arg11)) Cert.KernelIdeal.Gen.slices_S8x64x64_S1x64x64_4_0_0) Cert.KernelIdeal.Gen.shapeCasts_S1x64x64_S64x64 i) Cert.KernelIdeal.Gen.transposes_S64x64_S64x64_1_0) := by
  have e : Cert.KernelIdeal.Gen.W4 m ρ c (Proc.devRef .tc Cert.KernelIdeal.main_arg11) = (m' ((c.tc : Thread Cert.ReferenceIdeal.nD Cert.ReferenceIdeal.τ).loc Cert.ReferenceIdeal.main_arg11)) := (Cert.KernelIdeal.Gen.keep_arg11_4 m ρ c).trans (h11 c).symm
  rw [← e]
  show StableHlo.after Cert.KernelIdeal.Gen.hostOps2 (Cert.KernelIdeal.Gen.W4 m ρ c) (Proc.devRef .tc Cert.KernelIdeal.main_v151) = _
  generalize Cert.KernelIdeal.Gen.W4 m ρ c = V
  after_results_simp <;> rfl

set_option maxHeartbeats 2000000 in
/-- The right weight of edge type 6, transposed, as a one-matrix stack. -/
theorem k152 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W5 m ρ c (Proc.devRef .tc Cert.KernelIdeal.main_v152) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![6, 0, 0] (m' ((c.tc : Thread Cert.ReferenceIdeal.nD Cert.ReferenceIdeal.τ).loc Cert.ReferenceIdeal.main_arg11)) Cert.KernelIdeal.Gen.slices_S8x64x64_S1x64x64_6_0_0) Cert.KernelIdeal.Gen.shapeCasts_S1x64x64_S64x64 i) Cert.KernelIdeal.Gen.transposes_S64x64_S64x64_1_0) := by
  have e : Cert.KernelIdeal.Gen.W4 m ρ c (Proc.devRef .tc Cert.KernelIdeal.main_arg11) = (m' ((c.tc : Thread Cert.ReferenceIdeal.nD Cert.ReferenceIdeal.τ).loc Cert.ReferenceIdeal.main_arg11)) := (Cert.KernelIdeal.Gen.keep_arg11_4 m ρ c).trans (h11 c).symm
  rw [← e]
  show StableHlo.after Cert.KernelIdeal.Gen.hostOps2 (Cert.KernelIdeal.Gen.W4 m ρ c) (Proc.devRef .tc Cert.KernelIdeal.main_v152) = _
  generalize Cert.KernelIdeal.Gen.W4 m ρ c = V
  after_results_simp <;> rfl

/-- The stacked bias row as region 2 takes it, over the reference's bias argument. -/
theorem k148 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.KernelIdeal.nD) :
    Cert.KernelIdeal.Gen.W22 m ρ c (Proc.devRef .tc Cert.KernelIdeal.main_v148) = (fun i => shapeCast Cert.KernelIdeal.S1x64 (Host.reduceAdd
          (concatenate Cert.KernelIdeal.S4x64 0 [⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![0, 0] (m' ((c.tc : Thread Cert.ReferenceIdeal.nD Cert.ReferenceIdeal.τ).loc Cert.ReferenceIdeal.main_arg10)) Cert.KernelIdeal.Gen.slices_S8x64_S1x64_0_0) Cert.KernelIdeal.Gen.shapeCasts_S1x64_S64 i)⟩,
            ⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![2, 0] (m' ((c.tc : Thread Cert.ReferenceIdeal.nD Cert.ReferenceIdeal.τ).loc Cert.ReferenceIdeal.main_arg10)) Cert.KernelIdeal.Gen.slices_S8x64_S1x64_2_0) Cert.KernelIdeal.Gen.shapeCasts_S1x64_S64 i)⟩,
            ⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![4, 0] (m' ((c.tc : Thread Cert.ReferenceIdeal.nD Cert.ReferenceIdeal.τ).loc Cert.ReferenceIdeal.main_arg10)) Cert.KernelIdeal.Gen.slices_S8x64_S1x64_4_0) Cert.KernelIdeal.Gen.shapeCasts_S1x64_S64 i)⟩,
            ⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![6, 0] (m' ((c.tc : Thread Cert.ReferenceIdeal.nD Cert.ReferenceIdeal.τ).loc Cert.ReferenceIdeal.main_arg10)) Cert.KernelIdeal.Gen.slices_S8x64_S1x64_6_0) Cert.KernelIdeal.Gen.shapeCasts_S1x64_S64 i)⟩]
            Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i) := by
  rw [Cert.KernelIdeal.Gen.keep_v148_22 m ρ c]
  show StableHlo.after Cert.KernelIdeal.Gen.hostOps2 (Cert.KernelIdeal.Gen.W4 m ρ c) (Proc.devRef .tc Cert.KernelIdeal.main_v148) = _
  rw [k148_of]
  show (fun i => shapeCast Cert.KernelIdeal.S1x64 (Host.reduceAdd
          (concatenate Cert.KernelIdeal.S4x64 0 [⟨Cert.KernelIdeal.S1x64, Cert.KernelIdeal.Gen.W5 m ρ c (Proc.devRef .tc Cert.KernelIdeal.main_v142)⟩, ⟨Cert.KernelIdeal.S1x64, Cert.KernelIdeal.Gen.W5 m ρ c (Proc.devRef .tc Cert.KernelIdeal.main_v143)⟩,
            ⟨Cert.KernelIdeal.S1x64, Cert.KernelIdeal.Gen.W5 m ρ c (Proc.devRef .tc Cert.KernelIdeal.main_v144)⟩, ⟨Cert.KernelIdeal.S1x64, Cert.KernelIdeal.Gen.W5 m ρ c (Proc.devRef .tc Cert.KernelIdeal.main_v145)⟩] Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i) = _
  rw [k142 m ρ m' h10 c, k143 m ρ m' h10 c, k144 m ρ m' h10 c, k145 m ρ m' h10 c]

/-- The stacked right weight as region 2 takes it, over the reference's right-weight argument. -/
theorem k154 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.KernelIdeal.Gen.W22 m ρ c (Proc.devRef .tc Cert.KernelIdeal.main_v154) = (Host.reduceAdd
          (concatenate Cert.KernelIdeal.S4x64x64 0 [⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![0, 0, 0] (m' ((c.tc : Thread Cert.ReferenceIdeal.nD Cert.ReferenceIdeal.τ).loc Cert.ReferenceIdeal.main_arg11)) Cert.KernelIdeal.Gen.slices_S8x64x64_S1x64x64_0_0_0) Cert.KernelIdeal.Gen.shapeCasts_S1x64x64_S64x64 i) Cert.KernelIdeal.Gen.transposes_S64x64_S64x64_1_0)⟩,
            ⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![2, 0, 0] (m' ((c.tc : Thread Cert.ReferenceIdeal.nD Cert.ReferenceIdeal.τ).loc Cert.ReferenceIdeal.main_arg11)) Cert.KernelIdeal.Gen.slices_S8x64x64_S1x64x64_2_0_0) Cert.KernelIdeal.Gen.shapeCasts_S1x64x64_S64x64 i) Cert.KernelIdeal.Gen.transposes_S64x64_S64x64_1_0)⟩,
            ⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![4, 0, 0] (m' ((c.tc : Thread Cert.ReferenceIdeal.nD Cert.ReferenceIdeal.τ).loc Cert.ReferenceIdeal.main_arg11)) Cert.KernelIdeal.Gen.slices_S8x64x64_S1x64x64_4_0_0) Cert.KernelIdeal.Gen.shapeCasts_S1x64x64_S64x64 i) Cert.KernelIdeal.Gen.transposes_S64x64_S64x64_1_0)⟩,
            ⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![6, 0, 0] (m' ((c.tc : Thread Cert.ReferenceIdeal.nD Cert.ReferenceIdeal.τ).loc Cert.ReferenceIdeal.main_arg11)) Cert.KernelIdeal.Gen.slices_S8x64x64_S1x64x64_6_0_0) Cert.KernelIdeal.Gen.shapeCasts_S1x64x64_S64x64 i) Cert.KernelIdeal.Gen.transposes_S64x64_S64x64_1_0)⟩]
            Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_) := by
  rw [Cert.KernelIdeal.Gen.keep_v154_22 m ρ c]
  show StableHlo.after Cert.KernelIdeal.Gen.hostOps2 (Cert.KernelIdeal.Gen.W4 m ρ c) (Proc.devRef .tc Cert.KernelIdeal.main_v154) = _
  rw [k154_of]
  show Host.reduceAdd
          (concatenate Cert.KernelIdeal.S4x64x64 0 [⟨Cert.KernelIdeal.S1x64x64, Cert.KernelIdeal.Gen.W5 m ρ c (Proc.devRef .tc Cert.KernelIdeal.main_v149)⟩, ⟨Cert.KernelIdeal.S1x64x64, Cert.KernelIdeal.Gen.W5 m ρ c (Proc.devRef .tc Cert.KernelIdeal.main_v150)⟩,
            ⟨Cert.KernelIdeal.S1x64x64, Cert.KernelIdeal.Gen.W5 m ρ c (Proc.devRef .tc Cert.KernelIdeal.main_v151)⟩, ⟨Cert.KernelIdeal.S1x64x64, Cert.KernelIdeal.Gen.W5 m ρ c (Proc.devRef .tc Cert.KernelIdeal.main_v152)⟩] Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_ = _
  rw [k149 m ρ m' h11 c, k150 m ρ m' h11 c, k151 m ρ m' h11 c, k152 m ρ m' h11 c]

/-! ## The reference's buffers, read one window at a time -/

/-! ### The weights and biases of the four edge types into the 50000-row node type, as slices of the stacked arguments -/

set_option maxHeartbeats 2000000 in
theorem r43 (m' : (ℓ : Loc Cert.ReferenceIdeal.nD Cert.ReferenceIdeal.τ Cert.ReferenceIdeal.sig) → Buf (Elt Ideal) ℓ) (c : Dev Cert.ReferenceIdeal.nD) : Cert.ReferenceIdeal.Value.U1 m' c (Proc.devRef .tc Cert.ReferenceIdeal.main_v43) = (fun i => shapeCast Cert.ReferenceIdeal.S64x64 (extractStridedSlice Cert.ReferenceIdeal.S1x64x64 ![0, 0, 0] (m' ((c.tc : Thread Cert.ReferenceIdeal.nD Cert.ReferenceIdeal.τ).loc Cert.ReferenceIdeal.main_arg9)) Cert.ReferenceIdeal.Gen.slices_S8x64x64_S1x64x64_0_0_0) Cert.ReferenceIdeal.Gen.shapeCasts_S1x64x64_S64x64 i) := by
  have e : Cert.ReferenceIdeal.Value.U0 m' c (Proc.devRef .tc Cert.ReferenceIdeal.main_arg9) = (m' ((c.tc : Thread Cert.ReferenceIdeal.nD Cert.ReferenceIdeal.τ).loc Cert.ReferenceIdeal.main_arg9)) := rfl
  rw [← e]
  show StableHlo.after Cert.ReferenceIdeal.Value.ops0 (Cert.ReferenceIdeal.Value.U0 m' c) (Proc.devRef .tc Cert.ReferenceIdeal.main_v43) = _
  generalize Cert.ReferenceIdeal.Value.U0 m' c = V
  after_results_simp <;> rfl

set_option maxHeartbeats 2000000 in
theorem r45 (m' : (ℓ : Loc Cert.ReferenceIdeal.nD Cert.ReferenceIdeal.τ Cert.ReferenceIdeal.sig) → Buf (Elt Ideal) ℓ) (c : Dev Cert.ReferenceIdeal.nD) : Cert.ReferenceIdeal.Value.U1 m' c (Proc.devRef .tc Cert.ReferenceIdeal.main_v45) = (fun i => shapeCast Cert.ReferenceIdeal.S64 (extractStridedSlice Cert.ReferenceIdeal.S1x64 ![0, 0] (m' ((c.tc : Thread Cert.ReferenceIdeal.nD Cert.ReferenceIdeal.τ).loc Cert.ReferenceIdeal.main_arg10)) Cert.ReferenceIdeal.Gen.slices_S8x64_S1x64_0_0) Cert.ReferenceIdeal.Gen.shapeCasts_S1x64_S64 i) := by
  have e : Cert.ReferenceIdeal.Value.U0 m' c (Proc.devRef .tc Cert.ReferenceIdeal.main_arg10) = (m' ((c.tc : Thread Cert.ReferenceIdeal.nD Cert.ReferenceIdeal.τ).loc Cert.ReferenceIdeal.main_arg10)) := rfl
  rw [← e]
  show StableHlo.after Cert.ReferenceIdeal.Value.ops0 (Cert.ReferenceIdeal.Value.U0 m' c) (Proc.devRef .tc Cert.ReferenceIdeal.main_v45) = _
  generalize Cert.ReferenceIdeal.Value.U0 m' c = V
  after_results_simp <;> rfl

set_option maxHeartbeats 2000000 in
theorem r47 (m' : (ℓ : Loc Cert.ReferenceIdeal.nD Cert.ReferenceIdeal.τ Cert.ReferenceIdeal.sig) → Buf (Elt Ideal) ℓ) (c : Dev Cert.ReferenceIdeal.nD) : Cert.ReferenceIdeal.Value.U1 m' c (Proc.devRef .tc Cert.ReferenceIdeal.main_v47) = (fun i => shapeCast Cert.ReferenceIdeal.S64x64 (extractStridedSlice Cert.ReferenceIdeal.S1x64x64 ![0, 0, 0] (m' ((c.tc : Thread Cert.ReferenceIdeal.nD Cert.ReferenceIdeal.τ).loc Cert.ReferenceIdeal.main_arg11)) Cert.ReferenceIdeal.Gen.slices_S8x64x64_S1x64x64_0_0_0) Cert.ReferenceIdeal.Gen.shapeCasts_S1x64x64_S64x64 i) := by
  have e : Cert.ReferenceIdeal.Value.U0 m' c (Proc.devRef .tc Cert.ReferenceIdeal.main_arg11) = (m' ((c.tc : Thread Cert.ReferenceIdeal.nD Cert.ReferenceIdeal.τ).loc Cert.ReferenceIdeal.main_arg11)) := rfl
  rw [← e]
  show StableHlo.after Cert.ReferenceIdeal.Value.ops0 (Cert.ReferenceIdeal.Value.U0 m' c) (Proc.devRef .tc Cert.ReferenceIdeal.main_v47) = _
  generalize Cert.ReferenceIdeal.Value.U0 m' c = V
  after_results_simp <;> rfl

set_option maxHeartbeats 2000000 in
theorem r107 (m' : (ℓ : Loc Cert.ReferenceIdeal.nD Cert.ReferenceIdeal.τ Cert.ReferenceIdeal.sig) → Buf (Elt Ideal) ℓ) (c : Dev Cert.ReferenceIdeal.nD) : Cert.ReferenceIdeal.Value.U2 m' c (Proc.devRef .tc Cert.ReferenceIdeal.main_v107) = (fun i => shapeCast Cert.ReferenceIdeal.S64x64 (extractStridedSlice Cert.ReferenceIdeal.S1x64x64 ![2, 0, 0] (m' ((c.tc : Thread Cert.ReferenceIdeal.nD Cert.ReferenceIdeal.τ).loc Cert.ReferenceIdeal.main_arg9)) Cert.ReferenceIdeal.Gen.slices_S8x64x64_S1x64x64_2_0_0) Cert.ReferenceIdeal.Gen.shapeCasts_S1x64x64_S64x64 i) := by
  have e : Cert.ReferenceIdeal.Value.U1 m' c (Proc.devRef .tc Cert.ReferenceIdeal.main_arg9) = (m' ((c.tc : Thread Cert.ReferenceIdeal.nD Cert.ReferenceIdeal.τ).loc Cert.ReferenceIdeal.main_arg9)) := (Cert.ReferenceIdeal.Value.U1_of m' c Cert.ReferenceIdeal.main_arg9 (by decide)).trans <| rfl
  rw [← e]
  show StableHlo.after Cert.ReferenceIdeal.Value.ops1 (Cert.ReferenceIdeal.Value.U1 m' c) (Proc.devRef .tc Cert.ReferenceIdeal.main_v107) = _
  generalize Cert.ReferenceIdeal.Value.U1 m' c = V
  after_results_simp <;> rfl

set_option maxHeartbeats 2000000 in
theorem r109 (m' : (ℓ : Loc Cert.ReferenceIdeal.nD Cert.ReferenceIdeal.τ Cert.ReferenceIdeal.sig) → Buf (Elt Ideal) ℓ) (c : Dev Cert.ReferenceIdeal.nD) : Cert.ReferenceIdeal.Value.U3 m' c (Proc.devRef .tc Cert.ReferenceIdeal.main_v109) = (fun i => shapeCast Cert.ReferenceIdeal.S64 (extractStridedSlice Cert.ReferenceIdeal.S1x64 ![2, 0] (m' ((c.tc : Thread Cert.ReferenceIdeal.nD Cert.ReferenceIdeal.τ).loc Cert.ReferenceIdeal.main_arg10)) Cert.ReferenceIdeal.Gen.slices_S8x64_S1x64_2_0) Cert.ReferenceIdeal.Gen.shapeCasts_S1x64_S64 i) := by
  have e : Cert.ReferenceIdeal.Value.U2 m' c (Proc.devRef .tc Cert.ReferenceIdeal.main_arg10) = (m' ((c.tc : Thread Cert.ReferenceIdeal.nD Cert.ReferenceIdeal.τ).loc Cert.ReferenceIdeal.main_arg10)) := (Cert.ReferenceIdeal.Value.U2_of m' c Cert.ReferenceIdeal.main_arg10 (by decide)).trans <| (Cert.ReferenceIdeal.Value.U1_of m' c Cert.ReferenceIdeal.main_arg10 (by decide)).trans <| rfl
  rw [← e]
  show StableHlo.after Cert.ReferenceIdeal.Value.ops2 (Cert.ReferenceIdeal.Value.U2 m' c) (Proc.devRef .tc Cert.ReferenceIdeal.main_v109) = _
  generalize Cert.ReferenceIdeal.Value.U2 m' c = V
  after_results_simp <;> rfl

set_option maxHeartbeats 2000000 in
theorem r111 (m' : (ℓ : Loc Cert.ReferenceIdeal.nD Cert.ReferenceIdeal.τ Cert.ReferenceIdeal.sig) → Buf (Elt Ideal) ℓ) (c : Dev Cert.ReferenceIdeal.nD) : Cert.ReferenceIdeal.Value.U3 m' c (Proc.devRef .tc Cert.ReferenceIdeal.main_v111) = (fun i => shapeCast Cert.ReferenceIdeal.S64x64 (extractStridedSlice Cert.ReferenceIdeal.S1x64x64 ![2, 0, 0] (m' ((c.tc : Thread Cert.ReferenceIdeal.nD Cert.ReferenceIdeal.τ).loc Cert.ReferenceIdeal.main_arg11)) Cert.ReferenceIdeal.Gen.slices_S8x64x64_S1x64x64_2_0_0) Cert.ReferenceIdeal.Gen.shapeCasts_S1x64x64_S64x64 i) := by
  have e : Cert.ReferenceIdeal.Value.U2 m' c (Proc.devRef .tc Cert.ReferenceIdeal.main_arg11) = (m' ((c.tc : Thread Cert.ReferenceIdeal.nD Cert.ReferenceIdeal.τ).loc Cert.ReferenceIdeal.main_arg11)) := (Cert.ReferenceIdeal.Value.U2_of m' c Cert.ReferenceIdeal.main_arg11 (by decide)).trans <| (Cert.ReferenceIdeal.Value.U1_of m' c Cert.ReferenceIdeal.main_arg11 (by decide)).trans <| rfl
  rw [← e]
  show StableHlo.after Cert.ReferenceIdeal.Value.ops2 (Cert.ReferenceIdeal.Value.U2 m' c) (Proc.devRef .tc Cert.ReferenceIdeal.main_v111) = _
  generalize Cert.ReferenceIdeal.Value.U2 m' c = V
  after_results_simp <;> rfl

set_option maxHeartbeats 2000000 in
theorem r172 (m' : (ℓ : Loc Cert.ReferenceIdeal.nD Cert.ReferenceIdeal.τ Cert.ReferenceIdeal.sig) → Buf (Elt Ideal) ℓ) (c : Dev Cert.ReferenceIdeal.nD) : Cert.ReferenceIdeal.Value.U4 m' c (Proc.devRef .tc Cert.ReferenceIdeal.main_v172) = (fun i => shapeCast Cert.ReferenceIdeal.S64x64 (extractStridedSlice Cert.ReferenceIdeal.S1x64x64 ![4, 0, 0] (m' ((c.tc : Thread Cert.ReferenceIdeal.nD Cert.ReferenceIdeal.τ).loc Cert.ReferenceIdeal.main_arg9)) Cert.ReferenceIdeal.Gen.slices_S8x64x64_S1x64x64_4_0_0) Cert.ReferenceIdeal.Gen.shapeCasts_S1x64x64_S64x64 i) := by
  have e : Cert.ReferenceIdeal.Value.U3 m' c (Proc.devRef .tc Cert.ReferenceIdeal.main_arg9) = (m' ((c.tc : Thread Cert.ReferenceIdeal.nD Cert.ReferenceIdeal.τ).loc Cert.ReferenceIdeal.main_arg9)) := (Cert.ReferenceIdeal.Value.U3_of m' c Cert.ReferenceIdeal.main_arg9 (by decide)).trans <| (Cert.ReferenceIdeal.Value.U2_of m' c Cert.ReferenceIdeal.main_arg9 (by decide)).trans <| (Cert.ReferenceIdeal.Value.U1_of m' c Cert.ReferenceIdeal.main_arg9 (by decide)).trans <| rfl
  rw [← e]
  show StableHlo.after Cert.ReferenceIdeal.Value.ops3 (Cert.ReferenceIdeal.Value.U3 m' c) (Proc.devRef .tc Cert.ReferenceIdeal.main_v172) = _
  generalize Cert.ReferenceIdeal.Value.U3 m' c = V
  after_results_simp <;> rfl

set_option maxHeartbeats 2000000 in
theorem r174 (m' : (ℓ : Loc Cert.ReferenceIdeal.nD Cert.ReferenceIdeal.τ Cert.ReferenceIdeal.sig) → Buf (Elt Ideal) ℓ) (c : Dev Cert.ReferenceIdeal.nD) : Cert.ReferenceIdeal.Value.U4 m' c (Proc.devRef .tc Cert.ReferenceIdeal.main_v174) = (fun i => shapeCast Cert.ReferenceIdeal.S64 (extractStridedSlice Cert.ReferenceIdeal.S1x64 ![4, 0] (m' ((c.tc : Thread Cert.ReferenceIdeal.nD Cert.ReferenceIdeal.τ).loc Cert.ReferenceIdeal.main_arg10)) Cert.ReferenceIdeal.Gen.slices_S8x64_S1x64_4_0) Cert.ReferenceIdeal.Gen.shapeCasts_S1x64_S64 i) := by
  have e : Cert.ReferenceIdeal.Value.U3 m' c (Proc.devRef .tc Cert.ReferenceIdeal.main_arg10) = (m' ((c.tc : Thread Cert.ReferenceIdeal.nD Cert.ReferenceIdeal.τ).loc Cert.ReferenceIdeal.main_arg10)) := (Cert.ReferenceIdeal.Value.U3_of m' c Cert.ReferenceIdeal.main_arg10 (by decide)).trans <| (Cert.ReferenceIdeal.Value.U2_of m' c Cert.ReferenceIdeal.main_arg10 (by decide)).trans <| (Cert.ReferenceIdeal.Value.U1_of m' c Cert.ReferenceIdeal.main_arg10 (by decide)).trans <| rfl
  rw [← e]
  show StableHlo.after Cert.ReferenceIdeal.Value.ops3 (Cert.ReferenceIdeal.Value.U3 m' c) (Proc.devRef .tc Cert.ReferenceIdeal.main_v174) = _
  generalize Cert.ReferenceIdeal.Value.U3 m' c = V
  after_results_simp <;> rfl

set_option maxHeartbeats 2000000 in
theorem r176 (m' : (ℓ : Loc Cert.ReferenceIdeal.nD Cert.ReferenceIdeal.τ Cert.ReferenceIdeal.sig) → Buf (Elt Ideal) ℓ) (c : Dev Cert.ReferenceIdeal.nD) : Cert.ReferenceIdeal.Value.U4 m' c (Proc.devRef .tc Cert.ReferenceIdeal.main_v176) = (fun i => shapeCast Cert.ReferenceIdeal.S64x64 (extractStridedSlice Cert.ReferenceIdeal.S1x64x64 ![4, 0, 0] (m' ((c.tc : Thread Cert.ReferenceIdeal.nD Cert.ReferenceIdeal.τ).loc Cert.ReferenceIdeal.main_arg11)) Cert.ReferenceIdeal.Gen.slices_S8x64x64_S1x64x64_4_0_0) Cert.ReferenceIdeal.Gen.shapeCasts_S1x64x64_S64x64 i) := by
  have e : Cert.ReferenceIdeal.Value.U3 m' c (Proc.devRef .tc Cert.ReferenceIdeal.main_arg11) = (m' ((c.tc : Thread Cert.ReferenceIdeal.nD Cert.ReferenceIdeal.τ).loc Cert.ReferenceIdeal.main_arg11)) := (Cert.ReferenceIdeal.Value.U3_of m' c Cert.ReferenceIdeal.main_arg11 (by decide)).trans <| (Cert.ReferenceIdeal.Value.U2_of m' c Cert.ReferenceIdeal.main_arg11 (by decide)).trans <| (Cert.ReferenceIdeal.Value.U1_of m' c Cert.ReferenceIdeal.main_arg11 (by decide)).trans <| rfl
  rw [← e]
  show StableHlo.after Cert.ReferenceIdeal.Value.ops3 (Cert.ReferenceIdeal.Value.U3 m' c) (Proc.devRef .tc Cert.ReferenceIdeal.main_v176) = _
  generalize Cert.ReferenceIdeal.Value.U3 m' c = V
  after_results_simp <;> rfl

set_option maxHeartbeats 2000000 in
theorem r237 (m' : (ℓ : Loc Cert.ReferenceIdeal.nD Cert.ReferenceIdeal.τ Cert.ReferenceIdeal.sig) → Buf (Elt Ideal) ℓ) (c : Dev Cert.ReferenceIdeal.nD) : Cert.ReferenceIdeal.Value.U5 m' c (Proc.devRef .tc Cert.ReferenceIdeal.main_v237) = (fun i => shapeCast Cert.ReferenceIdeal.S64x64 (extractStridedSlice Cert.ReferenceIdeal.S1x64x64 ![6, 0, 0] (m' ((c.tc : Thread Cert.ReferenceIdeal.nD Cert.ReferenceIdeal.τ).loc Cert.ReferenceIdeal.main_arg9)) Cert.ReferenceIdeal.Gen.slices_S8x64x64_S1x64x64_6_0_0) Cert.ReferenceIdeal.Gen.shapeCasts_S1x64x64_S64x64 i) := by
  have e : Cert.ReferenceIdeal.Value.U4 m' c (Proc.devRef .tc Cert.ReferenceIdeal.main_arg9) = (m' ((c.tc : Thread Cert.ReferenceIdeal.nD Cert.ReferenceIdeal.τ).loc Cert.ReferenceIdeal.main_arg9)) := (Cert.ReferenceIdeal.Value.U4_of m' c Cert.ReferenceIdeal.main_arg9 (by decide)).trans <| (Cert.ReferenceIdeal.Value.U3_of m' c Cert.ReferenceIdeal.main_arg9 (by decide)).trans <| (Cert.ReferenceIdeal.Value.U2_of m' c Cert.ReferenceIdeal.main_arg9 (by decide)).trans <| (Cert.ReferenceIdeal.Value.U1_of m' c Cert.ReferenceIdeal.main_arg9 (by decide)).trans <| rfl
  rw [← e]
  show StableHlo.after Cert.ReferenceIdeal.Value.ops4 (Cert.ReferenceIdeal.Value.U4 m' c) (Proc.devRef .tc Cert.ReferenceIdeal.main_v237) = _
  generalize Cert.ReferenceIdeal.Value.U4 m' c = V
  after_results_simp <;> rfl

set_option maxHeartbeats 2000000 in
theorem r239 (m' : (ℓ : Loc Cert.ReferenceIdeal.nD Cert.ReferenceIdeal.τ Cert.ReferenceIdeal.sig) → Buf (Elt Ideal) ℓ) (c : Dev Cert.ReferenceIdeal.nD) : Cert.ReferenceIdeal.Value.U5 m' c (Proc.devRef .tc Cert.ReferenceIdeal.main_v239) = (fun i => shapeCast Cert.ReferenceIdeal.S64 (extractStridedSlice Cert.ReferenceIdeal.S1x64 ![6, 0] (m' ((c.tc : Thread Cert.ReferenceIdeal.nD Cert.ReferenceIdeal.τ).loc Cert.ReferenceIdeal.main_arg10)) Cert.ReferenceIdeal.Gen.slices_S8x64_S1x64_6_0) Cert.ReferenceIdeal.Gen.shapeCasts_S1x64_S64 i) := by
  have e : Cert.ReferenceIdeal.Value.U4 m' c (Proc.devRef .tc Cert.ReferenceIdeal.main_arg10) = (m' ((c.tc : Thread Cert.ReferenceIdeal.nD Cert.ReferenceIdeal.τ).loc Cert.ReferenceIdeal.main_arg10)) := (Cert.ReferenceIdeal.Value.U4_of m' c Cert.ReferenceIdeal.main_arg10 (by decide)).trans <| (Cert.ReferenceIdeal.Value.U3_of m' c Cert.ReferenceIdeal.main_arg10 (by decide)).trans <| (Cert.ReferenceIdeal.Value.U2_of m' c Cert.ReferenceIdeal.main_arg10 (by decide)).trans <| (Cert.ReferenceIdeal.Value.U1_of m' c Cert.ReferenceIdeal.main_arg10 (by decide)).trans <| rfl
  rw [← e]
  show StableHlo.after Cert.ReferenceIdeal.Value.ops4 (Cert.ReferenceIdeal.Value.U4 m' c) (Proc.devRef .tc Cert.ReferenceIdeal.main_v239) = _
  generalize Cert.ReferenceIdeal.Value.U4 m' c = V
  after_results_simp <;> rfl

set_option maxHeartbeats 2000000 in
theorem r241 (m' : (ℓ : Loc Cert.ReferenceIdeal.nD Cert.ReferenceIdeal.τ Cert.ReferenceIdeal.sig) → Buf (Elt Ideal) ℓ) (c : Dev Cert.ReferenceIdeal.nD) : Cert.ReferenceIdeal.Value.U5 m' c (Proc.devRef .tc Cert.ReferenceIdeal.main_v241) = (fun i => shapeCast Cert.ReferenceIdeal.S64x64 (extractStridedSlice Cert.ReferenceIdeal.S1x64x64 ![6, 0, 0] (m' ((c.tc : Thread Cert.ReferenceIdeal.nD Cert.ReferenceIdeal.τ).loc Cert.ReferenceIdeal.main_arg11)) Cert.ReferenceIdeal.Gen.slices_S8x64x64_S1x64x64_6_0_0) Cert.ReferenceIdeal.Gen.shapeCasts_S1x64x64_S64x64 i) := by
  have e : Cert.ReferenceIdeal.Value.U4 m' c (Proc.devRef .tc Cert.ReferenceIdeal.main_arg11) = (m' ((c.tc : Thread Cert.ReferenceIdeal.nD Cert.ReferenceIdeal.τ).loc Cert.ReferenceIdeal.main_arg11)) := (Cert.ReferenceIdeal.Value.U4_of m' c Cert.ReferenceIdeal.main_arg11 (by decide)).trans <| (Cert.ReferenceIdeal.Value.U3_of m' c Cert.ReferenceIdeal.main_arg11 (by decide)).trans <| (Cert.ReferenceIdeal.Value.U2_of m' c Cert.ReferenceIdeal.main_arg11 (by decide)).trans <| (Cert.ReferenceIdeal.Value.U1_of m' c Cert.ReferenceIdeal.main_arg11 (by decide)).trans <| rfl
  rw [← e]
  show StableHlo.after Cert.ReferenceIdeal.Value.ops4 (Cert.ReferenceIdeal.Value.U4 m' c) (Proc.devRef .tc Cert.ReferenceIdeal.main_v241) = _
  generalize Cert.ReferenceIdeal.Value.U4 m' c = V
  after_results_simp <;> rfl

/-! ### The layer's sum, edge type by edge type -/

set_option maxHeartbeats 4000000 in
/-- The first edge type's term. -/
theorem r73 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U2 m' c (Proc.devRef .tc Cert.ReferenceIdeal.main_v73) = refTerm (Cert.ReferenceIdeal.Value.U2 m' c (Proc.devRef .tc Cert.ReferenceIdeal.main_v57) : FVec Ideal Cert.ReferenceIdeal.S50000x64 .f32) (Cert.ReferenceIdeal.Value.U2 m' c (Proc.devRef .tc Cert.ReferenceIdeal.main_v61) : FVec Ideal Cert.ReferenceIdeal.S50000x1 .f32) (Cert.ReferenceIdeal.Value.U1 m' c (Proc.devRef .tc Cert.ReferenceIdeal.main_v9) : FVec Ideal Cert.ReferenceIdeal.S50000x64 .f32)
      (transpose (α := Ideal .f32) Cert.ReferenceIdeal.S64x64 [1, 0] (Cert.ReferenceIdeal.Value.U1 m' c (Proc.devRef .tc Cert.ReferenceIdeal.main_v43) : FVec Ideal Cert.ReferenceIdeal.S64x64 .f32) Cert.ReferenceIdeal.Gen.transposes_S64x64_S64x64_1_0) (Cert.ReferenceIdeal.Value.U1 m' c (Proc.devRef .tc Cert.ReferenceIdeal.main_v45) : FVec Ideal Cert.ReferenceIdeal.S64 .f32) (transpose (α := Ideal .f32) Cert.ReferenceIdeal.S64x64 [1, 0] (Cert.ReferenceIdeal.Value.U1 m' c (Proc.devRef .tc Cert.ReferenceIdeal.main_v47) : FVec Ideal Cert.ReferenceIdeal.S64x64 .f32) Cert.ReferenceIdeal.Gen.transposes_S64x64_S64x64_1_0) := by
  unfold refTerm refTermC
  dsimp only [Cert.ReferenceIdeal.Value.U2]
  generalize Cert.ReferenceIdeal.Value.U1 m' c = V
  after_results_simp

set_option maxHeartbeats 4000000 in
/-- The first two edge types' terms added. -/
theorem r138 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U3 m' c (Proc.devRef .tc Cert.ReferenceIdeal.main_v138) = addf (Cert.ReferenceIdeal.Value.U2 m' c (Proc.devRef .tc Cert.ReferenceIdeal.main_v73) : FVec Ideal Cert.ReferenceIdeal.S50000x64 .f32) (refTerm (Cert.ReferenceIdeal.Value.U3 m' c (Proc.devRef .tc Cert.ReferenceIdeal.main_v121) : FVec Ideal Cert.ReferenceIdeal.S50000x64 .f32) (Cert.ReferenceIdeal.Value.U3 m' c (Proc.devRef .tc Cert.ReferenceIdeal.main_v125) : FVec Ideal Cert.ReferenceIdeal.S50000x1 .f32) (Cert.ReferenceIdeal.Value.U2 m' c (Proc.devRef .tc Cert.ReferenceIdeal.main_v9) : FVec Ideal Cert.ReferenceIdeal.S50000x64 .f32)
      (transpose (α := Ideal .f32) Cert.ReferenceIdeal.S64x64 [1, 0] (Cert.ReferenceIdeal.Value.U2 m' c (Proc.devRef .tc Cert.ReferenceIdeal.main_v107) : FVec Ideal Cert.ReferenceIdeal.S64x64 .f32) Cert.ReferenceIdeal.Gen.transposes_S64x64_S64x64_1_0) (Cert.ReferenceIdeal.Value.U3 m' c (Proc.devRef .tc Cert.ReferenceIdeal.main_v109) : FVec Ideal Cert.ReferenceIdeal.S64 .f32) (transpose (α := Ideal .f32) Cert.ReferenceIdeal.S64x64 [1, 0] (Cert.ReferenceIdeal.Value.U3 m' c (Proc.devRef .tc Cert.ReferenceIdeal.main_v111) : FVec Ideal Cert.ReferenceIdeal.S64x64 .f32) Cert.ReferenceIdeal.Gen.transposes_S64x64_S64x64_1_0)) := by
  unfold refTerm refTermC
  dsimp only [Cert.ReferenceIdeal.Value.U3]
  generalize Cert.ReferenceIdeal.Value.U2 m' c = V
  after_results_simp

set_option maxHeartbeats 4000000 in
/-- The first three edge types' terms added. -/
theorem r203 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U4 m' c (Proc.devRef .tc Cert.ReferenceIdeal.main_v203) = addf (Cert.ReferenceIdeal.Value.U3 m' c (Proc.devRef .tc Cert.ReferenceIdeal.main_v138) : FVec Ideal Cert.ReferenceIdeal.S50000x64 .f32) (refTerm (Cert.ReferenceIdeal.Value.U4 m' c (Proc.devRef .tc Cert.ReferenceIdeal.main_v186) : FVec Ideal Cert.ReferenceIdeal.S50000x64 .f32) (Cert.ReferenceIdeal.Value.U4 m' c (Proc.devRef .tc Cert.ReferenceIdeal.main_v190) : FVec Ideal Cert.ReferenceIdeal.S50000x1 .f32) (Cert.ReferenceIdeal.Value.U3 m' c (Proc.devRef .tc Cert.ReferenceIdeal.main_v9) : FVec Ideal Cert.ReferenceIdeal.S50000x64 .f32)
      (transpose (α := Ideal .f32) Cert.ReferenceIdeal.S64x64 [1, 0] (Cert.ReferenceIdeal.Value.U4 m' c (Proc.devRef .tc Cert.ReferenceIdeal.main_v172) : FVec Ideal Cert.ReferenceIdeal.S64x64 .f32) Cert.ReferenceIdeal.Gen.transposes_S64x64_S64x64_1_0) (Cert.ReferenceIdeal.Value.U4 m' c (Proc.devRef .tc Cert.ReferenceIdeal.main_v174) : FVec Ideal Cert.ReferenceIdeal.S64 .f32) (transpose (α := Ideal .f32) Cert.ReferenceIdeal.S64x64 [1, 0] (Cert.ReferenceIdeal.Value.U4 m' c (Proc.devRef .tc Cert.ReferenceIdeal.main_v176) : FVec Ideal Cert.ReferenceIdeal.S64x64 .f32) Cert.ReferenceIdeal.Gen.transposes_S64x64_S64x64_1_0)) := by
  unfold refTerm refTermC
  dsimp only [Cert.ReferenceIdeal.Value.U4]
  generalize Cert.ReferenceIdeal.Value.U3 m' c = V
  after_results_simp

set_option maxHeartbeats 2000000 in
/-- The fourth edge type's in-degree clamped below by one. -/
theorem r257 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U5 m' c (Proc.devRef .tc Cert.ReferenceIdeal.main_v257) = maximumf (Cert.ReferenceIdeal.Value.U5 m' c (Proc.devRef .tc Cert.ReferenceIdeal.main_v255) : FVec Ideal Cert.ReferenceIdeal.S50000x1 .f32) (broadcastInDim Cert.ReferenceIdeal.S50000x1 ![] Cert.ReferenceIdeal.Gen.bcast_S_S50000x1 (constant (F := Ideal) Cert.ReferenceIdeal.S_ .f32 0x3F800000#32)) := by
  dsimp only [Cert.ReferenceIdeal.Value.U5]
  generalize Cert.ReferenceIdeal.Value.U4 m' c = V
  after_results_simp <;> rfl

set_option maxHeartbeats 2000000 in
/-- The last edge type's term added to the first three, before the final maximum: the first eleven operations of the
    window. -/
theorem r268_head (V : Valuation Cert.ReferenceIdeal.τ Cert.ReferenceIdeal.sig (Elt Ideal)) :
    StableHlo.after ((Cert.ReferenceIdeal.Value.ops5 (F := Ideal)).take 11) V (Proc.devRef .tc Cert.ReferenceIdeal.main_v268)
      = addf (V (Proc.devRef .tc Cert.ReferenceIdeal.main_v203) : FVec Ideal Cert.ReferenceIdeal.S50000x64 .f32) (refTermC (V (Proc.devRef .tc Cert.ReferenceIdeal.main_v251) : FVec Ideal Cert.ReferenceIdeal.S50000x64 .f32) (V (Proc.devRef .tc Cert.ReferenceIdeal.main_v257) : FVec Ideal Cert.ReferenceIdeal.S50000x1 .f32) (V (Proc.devRef .tc Cert.ReferenceIdeal.main_v9) : FVec Ideal Cert.ReferenceIdeal.S50000x64 .f32)
          (transpose (α := Ideal .f32) Cert.ReferenceIdeal.S64x64 [1, 0] (V (Proc.devRef .tc Cert.ReferenceIdeal.main_v237) : FVec Ideal Cert.ReferenceIdeal.S64x64 .f32) Cert.ReferenceIdeal.Gen.transposes_S64x64_S64x64_1_0) (V (Proc.devRef .tc Cert.ReferenceIdeal.main_v239) : FVec Ideal Cert.ReferenceIdeal.S64 .f32) (transpose (α := Ideal .f32) Cert.ReferenceIdeal.S64x64 [1, 0] (V (Proc.devRef .tc Cert.ReferenceIdeal.main_v241) : FVec Ideal Cert.ReferenceIdeal.S64x64 .f32) Cert.ReferenceIdeal.Gen.transposes_S64x64_S64x64_1_0)) := by
  unfold refTermC
  simp only [Cert.ReferenceIdeal.Value.ops5, List.take_succ_cons, List.take_zero]
  after_results_simp

set_option maxHeartbeats 2000000 in
/-- The final maximum with zero, over the rest of the window. -/
theorem r302_tail (V1 : Valuation Cert.ReferenceIdeal.τ Cert.ReferenceIdeal.sig (Elt Ideal)) :
    StableHlo.after ((Cert.ReferenceIdeal.Value.ops5 (F := Ideal)).drop 11) V1 (Proc.devRef .tc Cert.ReferenceIdeal.main_v302)
      = maximumf (V1 (Proc.devRef .tc Cert.ReferenceIdeal.main_v268) : FVec Ideal Cert.ReferenceIdeal.S50000x64 .f32) (broadcastInDim Cert.ReferenceIdeal.S50000x64 ![] Cert.ReferenceIdeal.Gen.bcast_S_S50000x64 (constant (F := Ideal) Cert.ReferenceIdeal.S_ .f32 0x00000000#32)) := by
  simp only [Cert.ReferenceIdeal.Value.ops5, List.drop_succ_cons, List.drop_zero]
  after_results_simp
  rfl

/-- The layer's result for the 50000-row node type: the four terms added, under the maximum with zero. -/
theorem r302 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U6 m' c (Proc.devRef .tc Cert.ReferenceIdeal.main_v302) = maximumf (addf (Cert.ReferenceIdeal.Value.U5 m' c (Proc.devRef .tc Cert.ReferenceIdeal.main_v203) : FVec Ideal Cert.ReferenceIdeal.S50000x64 .f32) (refTermC (Cert.ReferenceIdeal.Value.U5 m' c (Proc.devRef .tc Cert.ReferenceIdeal.main_v251) : FVec Ideal Cert.ReferenceIdeal.S50000x64 .f32) (Cert.ReferenceIdeal.Value.U5 m' c (Proc.devRef .tc Cert.ReferenceIdeal.main_v257) : FVec Ideal Cert.ReferenceIdeal.S50000x1 .f32) (Cert.ReferenceIdeal.Value.U5 m' c (Proc.devRef .tc Cert.ReferenceIdeal.main_v9) : FVec Ideal Cert.ReferenceIdeal.S50000x64 .f32)
      (transpose (α := Ideal .f32) Cert.ReferenceIdeal.S64x64 [1, 0] (Cert.ReferenceIdeal.Value.U5 m' c (Proc.devRef .tc Cert.ReferenceIdeal.main_v237) : FVec Ideal Cert.ReferenceIdeal.S64x64 .f32) Cert.ReferenceIdeal.Gen.transposes_S64x64_S64x64_1_0) (Cert.ReferenceIdeal.Value.U5 m' c (Proc.devRef .tc Cert.ReferenceIdeal.main_v239) : FVec Ideal Cert.ReferenceIdeal.S64 .f32) (transpose (α := Ideal .f32) Cert.ReferenceIdeal.S64x64 [1, 0] (Cert.ReferenceIdeal.Value.U5 m' c (Proc.devRef .tc Cert.ReferenceIdeal.main_v241) : FVec Ideal Cert.ReferenceIdeal.S64x64 .f32) Cert.ReferenceIdeal.Gen.transposes_S64x64_S64x64_1_0))) (broadcastInDim Cert.ReferenceIdeal.S50000x64 ![] Cert.ReferenceIdeal.Gen.bcast_S_S50000x64 (constant (F := Ideal) Cert.ReferenceIdeal.S_ .f32 0x00000000#32)) := by
  have hs : StableHlo.after (Cert.ReferenceIdeal.Value.ops5 (F := Ideal)) (Cert.ReferenceIdeal.Value.U5 m' c)
      = StableHlo.after ((Cert.ReferenceIdeal.Value.ops5 (F := Ideal)).drop 11) (StableHlo.after ((Cert.ReferenceIdeal.Value.ops5 (F := Ideal)).take 11) (Cert.ReferenceIdeal.Value.U5 m' c)) := by
    have h := after_append_s1 ((Cert.ReferenceIdeal.Value.ops5 (F := Ideal)).take 11) ((Cert.ReferenceIdeal.Value.ops5 (F := Ideal)).drop 11) (Cert.ReferenceIdeal.Value.U5 m' c)
    rwa [List.take_append_drop] at h
  show StableHlo.after (Cert.ReferenceIdeal.Value.ops5 (F := Ideal)) (Cert.ReferenceIdeal.Value.U5 m' c) (Proc.devRef .tc Cert.ReferenceIdeal.main_v302) = _
  rw [hs, r302_tail, r268_head]

/-! ## Reals stay reals under a slice -/

/-- A slice of an all-real array is all real. -/
theorem allReal_slice {s t : Shape} {x : s.Idx → EReal} (hx : AllReal x) (off : Fin s.rank → Nat) (h : s.Slices off t) :
    AllReal (extractStridedSlice t off x h) := fun j => by
  unfold extractStridedSlice
  exact hx _

/-- A stacked 64x64 weight argument's slice, as a matrix, transposed: all real when the argument is. -/
theorem allReal_wt {x : Cert.ReferenceIdeal.S8x64x64.Idx → EReal} (hx : AllReal x) (off : Fin Cert.ReferenceIdeal.S8x64x64.rank → Nat) (h : Cert.ReferenceIdeal.S8x64x64.Slices off Cert.ReferenceIdeal.S1x64x64)
    (hc : Cert.ReferenceIdeal.S1x64x64.ShapeCasts Cert.ReferenceIdeal.S64x64) (ht : Cert.ReferenceIdeal.S64x64.Transposes [1, 0] Cert.ReferenceIdeal.S64x64) :
    AllReal (transpose Cert.ReferenceIdeal.S64x64 [1, 0] (fun i => shapeCast Cert.ReferenceIdeal.S64x64 (extractStridedSlice Cert.ReferenceIdeal.S1x64x64 off x h) hc i) ht) :=
  AllReal.transpose (AllReal.shapeCast (allReal_slice hx off h) hc) [1, 0] ht

/-- A stacked bias argument's slice, as a vector: all real when the argument is. -/
theorem allReal_bs {x : Cert.ReferenceIdeal.S8x64.Idx → EReal} (hx : AllReal x) (off : Fin Cert.ReferenceIdeal.S8x64.rank → Nat) (h : Cert.ReferenceIdeal.S8x64.Slices off Cert.ReferenceIdeal.S1x64)
    (hc : Cert.ReferenceIdeal.S1x64.ShapeCasts Cert.ReferenceIdeal.S64) :
    AllReal (fun i => shapeCast Cert.ReferenceIdeal.S64 (extractStridedSlice Cert.ReferenceIdeal.S1x64 off x h) hc i) :=
  AllReal.shapeCast (allReal_slice hx off h) hc

/-! ## The features of the 50000-row node type reach every later window as the first window left them -/

theorem rkeep9_2 (m' : (ℓ : Loc Cert.ReferenceIdeal.nD Cert.ReferenceIdeal.τ Cert.ReferenceIdeal.sig) → Buf (Elt Ideal) ℓ) (c : Dev Cert.ReferenceIdeal.nD) : Cert.ReferenceIdeal.Value.U2 m' c (Proc.devRef .tc Cert.ReferenceIdeal.main_v9) = Cert.ReferenceIdeal.Value.U1 m' c (Proc.devRef .tc Cert.ReferenceIdeal.main_v9) := Cert.ReferenceIdeal.Value.U2_of m' c Cert.ReferenceIdeal.main_v9 (by decide)
theorem rkeep9_3 (m' : (ℓ : Loc Cert.ReferenceIdeal.nD Cert.ReferenceIdeal.τ Cert.ReferenceIdeal.sig) → Buf (Elt Ideal) ℓ) (c : Dev Cert.ReferenceIdeal.nD) : Cert.ReferenceIdeal.Value.U3 m' c (Proc.devRef .tc Cert.ReferenceIdeal.main_v9) = Cert.ReferenceIdeal.Value.U1 m' c (Proc.devRef .tc Cert.ReferenceIdeal.main_v9) := (Cert.ReferenceIdeal.Value.U3_of m' c Cert.ReferenceIdeal.main_v9 (by decide)).trans (rkeep9_2 m' c)
theorem rkeep9_5 (m' : (ℓ : Loc Cert.ReferenceIdeal.nD Cert.ReferenceIdeal.τ Cert.ReferenceIdeal.sig) → Buf (Elt Ideal) ℓ) (c : Dev Cert.ReferenceIdeal.nD) : Cert.ReferenceIdeal.Value.U5 m' c (Proc.devRef .tc Cert.ReferenceIdeal.main_v9) = Cert.ReferenceIdeal.Value.U1 m' c (Proc.devRef .tc Cert.ReferenceIdeal.main_v9) :=
  (Cert.ReferenceIdeal.Value.U5_of m' c Cert.ReferenceIdeal.main_v9 (by decide)).trans ((Cert.ReferenceIdeal.Value.U4_of m' c Cert.ReferenceIdeal.main_v9 (by decide)).trans (rkeep9_3 m' c))
theorem rkeep203_5 (m' : (ℓ : Loc Cert.ReferenceIdeal.nD Cert.ReferenceIdeal.τ Cert.ReferenceIdeal.sig) → Buf (Elt Ideal) ℓ) (c : Dev Cert.ReferenceIdeal.nD) : Cert.ReferenceIdeal.Value.U5 m' c (Proc.devRef .tc Cert.ReferenceIdeal.main_v203) = Cert.ReferenceIdeal.Value.U4 m' c (Proc.devRef .tc Cert.ReferenceIdeal.main_v203) := Cert.ReferenceIdeal.Value.U5_of m' c Cert.ReferenceIdeal.main_v203 (by decide)

/-! ## Series, layer 1 -/

set_option maxHeartbeats 8000000 in
/-- Series, layer 1: the kernel program's result (the first 50000 rows of region 2's output) is the reference's relu'd layer
    sum, given that the two launch memories agree on the three stacked weight arguments, that the projected features, the four
    summed messages and the four in-degrees agree, and that all of these and the three weight arguments are real. -/
theorem S_s1 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h9 : ∀ c : Dev Cert.KernelIdeal.nD, m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : ∀ c : Dev Cert.KernelIdeal.nD, m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : ∀ c : Dev Cert.KernelIdeal.nD, m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hx : ∀ c : Dev Cert.KernelIdeal.nD, Cert.KernelIdeal.Gen.W4 m ρ c (Proc.devRef .tc Cert.KernelIdeal.main_v5) = Cert.ReferenceIdeal.Value.U1 m' c (Proc.devRef .tc Cert.ReferenceIdeal.main_v9))
    (hagg0 : ∀ c : Dev Cert.KernelIdeal.nD, Cert.KernelIdeal.Gen.W5 m ρ c (Proc.devRef .tc Cert.KernelIdeal.main_v79) = Cert.ReferenceIdeal.Value.U2 m' c (Proc.devRef .tc Cert.ReferenceIdeal.main_v57))
    (hagg1 : ∀ c : Dev Cert.KernelIdeal.nD, Cert.KernelIdeal.Gen.W5 m ρ c (Proc.devRef .tc Cert.KernelIdeal.main_v97) = Cert.ReferenceIdeal.Value.U3 m' c (Proc.devRef .tc Cert.ReferenceIdeal.main_v121))
    (hagg2 : ∀ c : Dev Cert.KernelIdeal.nD, Cert.KernelIdeal.Gen.W5 m ρ c (Proc.devRef .tc Cert.KernelIdeal.main_v115) = Cert.ReferenceIdeal.Value.U4 m' c (Proc.devRef .tc Cert.ReferenceIdeal.main_v186))
    (hagg3 : ∀ c : Dev Cert.KernelIdeal.nD, Cert.KernelIdeal.Gen.W5 m ρ c (Proc.devRef .tc Cert.KernelIdeal.main_v133) = Cert.ReferenceIdeal.Value.U5 m' c (Proc.devRef .tc Cert.ReferenceIdeal.main_v251))
    (hcnt0 : ∀ c : Dev Cert.KernelIdeal.nD, Cert.KernelIdeal.Gen.W5 m ρ c (Proc.devRef .tc Cert.KernelIdeal.main_v41) = Cert.ReferenceIdeal.Value.U2 m' c (Proc.devRef .tc Cert.ReferenceIdeal.main_v61))
    (hcnt1 : ∀ c : Dev Cert.KernelIdeal.nD, Cert.KernelIdeal.Gen.W5 m ρ c (Proc.devRef .tc Cert.KernelIdeal.main_v49) = Cert.ReferenceIdeal.Value.U3 m' c (Proc.devRef .tc Cert.ReferenceIdeal.main_v125))
    (hcnt2 : ∀ c : Dev Cert.KernelIdeal.nD, Cert.KernelIdeal.Gen.W5 m ρ c (Proc.devRef .tc Cert.KernelIdeal.main_v57) = Cert.ReferenceIdeal.Value.U4 m' c (Proc.devRef .tc Cert.ReferenceIdeal.main_v190))
    (hcnt3 : ∀ c : Dev Cert.KernelIdeal.nD, Cert.KernelIdeal.Gen.W5 m ρ c (Proc.devRef .tc Cert.KernelIdeal.main_v65) = Cert.ReferenceIdeal.Value.U5 m' c (Proc.devRef .tc Cert.ReferenceIdeal.main_v255))
    (rx : ∀ c : Dev Cert.KernelIdeal.nD, AllReal (S := Cert.ReferenceIdeal.S50000x64) (Cert.ReferenceIdeal.Value.U1 m' c (Proc.devRef .tc Cert.ReferenceIdeal.main_v9)))
    (ragg0 : ∀ c : Dev Cert.KernelIdeal.nD, AllReal (S := Cert.ReferenceIdeal.S50000x64) (Cert.ReferenceIdeal.Value.U2 m' c (Proc.devRef .tc Cert.ReferenceIdeal.main_v57)))
    (ragg1 : ∀ c : Dev Cert.KernelIdeal.nD, AllReal (S := Cert.ReferenceIdeal.S50000x64) (Cert.ReferenceIdeal.Value.U3 m' c (Proc.devRef .tc Cert.ReferenceIdeal.main_v121)))
    (ragg2 : ∀ c : Dev Cert.KernelIdeal.nD, AllReal (S := Cert.ReferenceIdeal.S50000x64) (Cert.ReferenceIdeal.Value.U4 m' c (Proc.devRef .tc Cert.ReferenceIdeal.main_v186)))
    (ragg3 : ∀ c : Dev Cert.KernelIdeal.nD, AllReal (S := Cert.ReferenceIdeal.S50000x64) (Cert.ReferenceIdeal.Value.U5 m' c (Proc.devRef .tc Cert.ReferenceIdeal.main_v251)))
    (rcnt0 : ∀ c : Dev Cert.KernelIdeal.nD, AllReal (S := Cert.ReferenceIdeal.S50000x1) (Cert.ReferenceIdeal.Value.U2 m' c (Proc.devRef .tc Cert.ReferenceIdeal.main_v61)))
    (rcnt1 : ∀ c : Dev Cert.KernelIdeal.nD, AllReal (S := Cert.ReferenceIdeal.S50000x1) (Cert.ReferenceIdeal.Value.U3 m' c (Proc.devRef .tc Cert.ReferenceIdeal.main_v125)))
    (rcnt2 : ∀ c : Dev Cert.KernelIdeal.nD, AllReal (S := Cert.ReferenceIdeal.S50000x1) (Cert.ReferenceIdeal.Value.U4 m' c (Proc.devRef .tc Cert.ReferenceIdeal.main_v190)))
    (rcnt3 : ∀ c : Dev Cert.KernelIdeal.nD, AllReal (S := Cert.ReferenceIdeal.S50000x1) (Cert.ReferenceIdeal.Value.U5 m' c (Proc.devRef .tc Cert.ReferenceIdeal.main_v255)))
    (r9 : ∀ c : Dev Cert.KernelIdeal.nD, AllReal (S := Cert.ReferenceIdeal.S8x64x64) (m' ((c.tc : Thread Cert.ReferenceIdeal.nD Cert.ReferenceIdeal.τ).loc Cert.ReferenceIdeal.main_arg9)))
    (r10 : ∀ c : Dev Cert.KernelIdeal.nD, AllReal (S := Cert.ReferenceIdeal.S8x64) (m' ((c.tc : Thread Cert.ReferenceIdeal.nD Cert.ReferenceIdeal.τ).loc Cert.ReferenceIdeal.main_arg10)))
    (r11 : ∀ c : Dev Cert.KernelIdeal.nD, AllReal (S := Cert.ReferenceIdeal.S8x64x64) (m' ((c.tc : Thread Cert.ReferenceIdeal.nD Cert.ReferenceIdeal.τ).loc Cert.ReferenceIdeal.main_arg11)))
    (c : Dev Cert.KernelIdeal.nD) :
    Cert.KernelIdeal.Gen.W24 m ρ c (Proc.devRef .tc Cert.KernelIdeal.main_v165) = Cert.ReferenceIdeal.Value.U6 m' c (Proc.devRef .tc Cert.ReferenceIdeal.main_v302) := by
  rw [k165 m ρ c, k164 m ρ c, k155 m ρ c, k159 m ρ c, k156 m ρ c, k160 m ρ c, k157 m ρ c, k161 m ρ c, k158 m ρ c, k162 m ρ c, k163 m ρ c,
    k82 m ρ m' h9 c, k100 m ρ m' h9 c, k118 m ρ m' h9 c, k136 m ρ m' h9 c, k148 m ρ m' h10 c, k154 m ρ m' h11 c,
    hagg0 c, hcnt0 c, hagg1 c, hcnt1 c, hagg2 c, hcnt2 c, hagg3 c, hcnt3 c, hx c]
  rw [r302 m' c, rkeep203_5 m' c, r203 m' c, r138 m' c, r73 m' c, r257 m' c, rkeep9_5 m' c, rkeep9_3 m' c, rkeep9_2 m' c,
    r43 m' c, r45 m' c, r47 m' c, r107 m' c, r109 m' c, r111 m' c, r172 m' c, r174 m' c, r176 m' c, r237 m' c, r239 m' c, r241 m' c]
  exact core_s1 _ _ _ _ _ _ _ _ _ _ _ _ _ _ _ _ _ _ _ _ _ _ _ _ _ _ _ _ _ _
    (ragg0 c) (ragg1 c) (ragg2 c) (ragg3 c) (rcnt0 c) (rcnt1 c) (rcnt2 c) (rcnt3 c) (rx c)
    (allReal_wt (r9 c) _ _ _ _) (allReal_wt (r9 c) _ _ _ _) (allReal_wt (r9 c) _ _ _ _) (allReal_wt (r9 c) _ _ _ _)
    (allReal_wt (r11 c) _ _ _ _) (allReal_wt (r11 c) _ _ _ _) (allReal_wt (r11 c) _ _ _ _) (allReal_wt (r11 c) _ _ _ _)
    (allReal_bs (r10 c) _ _ _) (allReal_bs (r10 c) _ _ _) (allReal_bs (r10 c) _ _ _) (allReal_bs (r10 c) _ _ _)

end Cert.Sim

end
-- ==== Proof.KI.Fin7.lean ====
import proofs.«417513_j58866821759238_4_alg».proof.Proof.KI.R7
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # REGION 7 at the ideal values: what its output array holds after the region, as one function of its input arrays -/

/-- The region's output array as one function of its fifteen input arrays, index by index: at row `r` and column `j`,
    Σ_k a8(r,k)·a14(k,j) + a13(0,j) + Σ_{e<4} Σ_k (a_{2e}(r,k) / max(a_{2e+1}(r,0), 1))·a_{9+e}(k,j), the sums added in
    the body's order (left to right), the division the ideal one, the literal 1 kept as its word. -/
def G7 (a0 : S51576x64.Idx → EReal) (a1 : S51576x1.Idx → EReal) (a2 : S51576x64.Idx → EReal) (a3 : S51576x1.Idx → EReal)
    (a4 : S51576x64.Idx → EReal) (a5 : S51576x1.Idx → EReal) (a6 : S51576x64.Idx → EReal) (a7 : S51576x1.Idx → EReal)
    (a8 : S51576x64.Idx → EReal) (a9 : S64x64.Idx → EReal) (a10 : S64x64.Idx → EReal) (a11 : S64x64.Idx → EReal)
    (a12 : S64x64.Idx → EReal) (a13 : S1x64.Idx → EReal) (a14 : S64x64.Idx → EReal) : S51576x64.Idx → EReal := fun i =>
  ((((((∑ k : Fin 64, a8 (ix2 (i 0) k) * a14 (ix2 k (i 1))) + a13 (ix2 (0 : Fin 1) (i 1)))
      + ∑ k : Fin 64, Ideal.div (a0 (ix2 (i 0) k)) (max (a1 (ix2 (i 0) (0 : Fin 1))) (Ideal.ofBits .f32 0x3F800000#32)) * a9 (ix2 k (i 1)))
      + ∑ k : Fin 64, Ideal.div (a2 (ix2 (i 0) k)) (max (a3 (ix2 (i 0) (0 : Fin 1))) (Ideal.ofBits .f32 0x3F800000#32)) * a10 (ix2 k (i 1)))
      + ∑ k : Fin 64, Ideal.div (a4 (ix2 (i 0) k)) (max (a5 (ix2 (i 0) (0 : Fin 1))) (Ideal.ofBits .f32 0x3F800000#32)) * a11 (ix2 k (i 1)))
      + ∑ k : Fin 64, Ideal.div (a6 (ix2 (i 0) k)) (max (a7 (ix2 (i 0) (0 : Fin 1))) (Ideal.ofBits .f32 0x3F800000#32)) * a12 (ix2 k (i 1)))

/-! ## The body's payload at an index -/

theorem lhs7_0 (i : S2456x64.Idx) (q : dot_S2456x64_S64x64_S2456x64_1_0_0_1_n_n.contr.Idx) :
    (dot_S2456x64_S64x64_S2456x64_1_0_0_1_n_n.lhsIdx i q 0).val = (i 0).val := by
  unfold DotDims.lhsIdx
  rw [dif_neg (show ¬(0 : Fin S2456x64.rank) ∈ dot_S2456x64_S64x64_S2456x64_1_0_0_1_n_n.lhsBatch by decide), dif_pos (show (0 : Fin S2456x64.rank) ∈ dot_S2456x64_S64x64_S2456x64_1_0_0_1_n_n.lhsNonContracting by decide)]
  rfl
theorem lhs7_1 (i : S2456x64.Idx) (q : dot_S2456x64_S64x64_S2456x64_1_0_0_1_n_n.contr.Idx) :
    (dot_S2456x64_S64x64_S2456x64_1_0_0_1_n_n.lhsIdx i q 1).val = (q ⟨0, by decide⟩).val :=
  dot_S2456x64_S64x64_S2456x64_1_0_0_1_n_n.lhsIdx_val_of_single rfl i q
theorem rhs7_0 (i : S2456x64.Idx) (q : dot_S2456x64_S64x64_S2456x64_1_0_0_1_n_n.contr.Idx) :
    (dot_S2456x64_S64x64_S2456x64_1_0_0_1_n_n.rhsIdx i q 0).val = (q ⟨0, by decide⟩).val :=
  dot_S2456x64_S64x64_S2456x64_1_0_0_1_n_n.rhsIdx_val_of_single rfl i q
theorem rhs7_1 (i : S2456x64.Idx) (q : dot_S2456x64_S64x64_S2456x64_1_0_0_1_n_n.contr.Idx) :
    (dot_S2456x64_S64x64_S2456x64_1_0_0_1_n_n.rhsIdx i q 1).val = (i 1).val := by
  unfold DotDims.rhsIdx
  rw [dif_neg (show ¬(1 : Fin S64x64.rank) ∈ dot_S2456x64_S64x64_S2456x64_1_0_0_1_n_n.rhsBatch by decide), dif_pos (show (1 : Fin S64x64.rank) ∈ dot_S2456x64_S64x64_S2456x64_1_0_0_1_n_n.rhsNonContracting by decide)]
  rfl

/-- The body's matrix product into a zero accumulator, read at (p, q): the sum over the 64 contracted positions of the
    left operand's row p times the right operand's column q. -/
theorem matmul7_apply (A : FVec Ideal S2456x64 .f32) (B : FVec Ideal S64x64 .f32) (p : Fin 2456) (q : Fin 64) :
    matmul dot_S2456x64_S64x64_S2456x64_1_0_0_1_n_n none A B (constant S2456x64 .f32 0x00000000#32) (ix2 p q)
      = ∑ k : Fin 64, A (ix2 p k) * B (ix2 k q) := by
  simp only [matmul]
  rw [Ideal.matmul_constant_zero_apply, ← Equiv.sum_comp (ValueIdx.contrEquiv1 dot_S2456x64_S64x64_S2456x64_1_0_0_1_n_n 64 rfl rfl).symm]
  refine Finset.sum_congr rfl fun k _ => ?_
  have hk := ValueIdx.contrEquiv1_symm_val dot_S2456x64_S64x64_S2456x64_1_0_0_1_n_n 64 rfl rfl k
  have el : dot_S2456x64_S64x64_S2456x64_1_0_0_1_n_n.lhsIdx (ix2 p q) ((ValueIdx.contrEquiv1 dot_S2456x64_S64x64_S2456x64_1_0_0_1_n_n 64 rfl rfl).symm k) = ix2 p k := funext fun a => Fin.ext (by
    match a with
    | ⟨0, _⟩ => exact lhs7_0 _ _
    | ⟨1, _⟩ => exact (lhs7_1 _ _).trans hk)
  have er : dot_S2456x64_S64x64_S2456x64_1_0_0_1_n_n.rhsIdx (ix2 p q) ((ValueIdx.contrEquiv1 dot_S2456x64_S64x64_S2456x64_1_0_0_1_n_n 64 rfl rfl).symm k) = ix2 k q := funext fun a => Fin.ext (by
    match a with
    | ⟨0, _⟩ => exact (rhs7_0 _ _).trans hk
    | ⟨1, _⟩ => exact rhs7_1 _ _)
  rw [el, er]

/-- A column `[a, 1]` broadcast to `[a, b]` reads, at (p, c), the column's entry of row p. -/
theorem broadcastTo_col7_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The store's payload at (p, q) of the block, over the fifteen loaded blocks. -/
theorem pay7_apply (x0 : Vec Ideal S2456x64 .f32) (x1 : Vec Ideal S2456x1 .f32) (x2 : Vec Ideal S2456x64 .f32) (x3 : Vec Ideal S2456x1 .f32)
    (x4 : Vec Ideal S2456x64 .f32) (x5 : Vec Ideal S2456x1 .f32) (x6 : Vec Ideal S2456x64 .f32) (x7 : Vec Ideal S2456x1 .f32)
    (x8 : Vec Ideal S2456x64 .f32) (x9 : Vec Ideal S64x64 .f32) (x10 : Vec Ideal S64x64 .f32) (x11 : Vec Ideal S64x64 .f32)
    (x12 : Vec Ideal S64x64 .f32) (x13 : Vec Ideal S1x64 .f32) (x14 : Vec Ideal S64x64 .f32) (p : Fin 2456) (q : Fin 64) :
    k7_pay1 (F := Ideal) (k7_pay2 (F := Ideal) x8 x14 x13 x0 x1 x9 x2 x3 x10) x4 x5 x11 x6 x7 x12 (ix2 p q) =
      ((((((∑ k : Fin 64, x8 (ix2 p k) * x14 (ix2 k q)) + x13 (ix2 (0 : Fin 1) q))
        + ∑ k : Fin 64, Ideal.div (x0 (ix2 p k)) (max (x1 (ix2 p (0 : Fin 1))) (Ideal.ofBits .f32 0x3F800000#32)) * x9 (ix2 k q))
        + ∑ k : Fin 64, Ideal.div (x2 (ix2 p k)) (max (x3 (ix2 p (0 : Fin 1))) (Ideal.ofBits .f32 0x3F800000#32)) * x10 (ix2 k q))
        + ∑ k : Fin 64, Ideal.div (x4 (ix2 p k)) (max (x5 (ix2 p (0 : Fin 1))) (Ideal.ofBits .f32 0x3F800000#32)) * x11 (ix2 k q))
        + ∑ k : Fin 64, Ideal.div (x6 (ix2 p k)) (max (x7 (ix2 p (0 : Fin 1))) (Ideal.ofBits .f32 0x3F800000#32)) * x12 (ix2 k q)) := by
  unfold k7_pay1 k7_pay2
  simp only [shapeCast_self]
  simp only [maximumf_apply, addf_apply, matmul7_apply, divf_apply, broadcastTo_col7_apply, broadcastTo_1b_ab_apply, broadcast_apply]
  rfl

/-- The payload at (p, q) of the block is `G7` at an index `i` of the array, given that each loaded block reads, at the
    positions the payload touches, the corresponding array at `i`'s row (the row blocks and divisor columns) or at
    `i`'s column (the matrices and the row vector). -/
theorem G7_of_blocks (a0 : S51576x64.Idx → EReal) (a1 : S51576x1.Idx → EReal) (a2 : S51576x64.Idx → EReal) (a3 : S51576x1.Idx → EReal)
    (a4 : S51576x64.Idx → EReal) (a5 : S51576x1.Idx → EReal) (a6 : S51576x64.Idx → EReal) (a7 : S51576x1.Idx → EReal)
    (a8 : S51576x64.Idx → EReal) (a9 : S64x64.Idx → EReal) (a10 : S64x64.Idx → EReal) (a11 : S64x64.Idx → EReal)
    (a12 : S64x64.Idx → EReal) (a13 : S1x64.Idx → EReal) (a14 : S64x64.Idx → EReal)
    (x0 : Vec Ideal S2456x64 .f32) (x1 : Vec Ideal S2456x1 .f32) (x2 : Vec Ideal S2456x64 .f32) (x3 : Vec Ideal S2456x1 .f32)
    (x4 : Vec Ideal S2456x64 .f32) (x5 : Vec Ideal S2456x1 .f32) (x6 : Vec Ideal S2456x64 .f32) (x7 : Vec Ideal S2456x1 .f32)
    (x8 : Vec Ideal S2456x64 .f32) (x9 : Vec Ideal S64x64 .f32) (x10 : Vec Ideal S64x64 .f32) (x11 : Vec Ideal S64x64 .f32)
    (x12 : Vec Ideal S64x64 .f32) (x13 : Vec Ideal S1x64 .f32) (x14 : Vec Ideal S64x64 .f32)
    (i : S51576x64.Idx) (p : Fin 2456) (q : Fin 64)
    (h0 : ∀ k : Fin 64, x0 (ix2 p k) = a0 (ix2 (i 0) k)) (h1 : x1 (ix2 p (0 : Fin 1)) = a1 (ix2 (i 0) (0 : Fin 1)))
    (h2 : ∀ k : Fin 64, x2 (ix2 p k) = a2 (ix2 (i 0) k)) (h3 : x3 (ix2 p (0 : Fin 1)) = a3 (ix2 (i 0) (0 : Fin 1)))
    (h4 : ∀ k : Fin 64, x4 (ix2 p k) = a4 (ix2 (i 0) k)) (h5 : x5 (ix2 p (0 : Fin 1)) = a5 (ix2 (i 0) (0 : Fin 1)))
    (h6 : ∀ k : Fin 64, x6 (ix2 p k) = a6 (ix2 (i 0) k)) (h7 : x7 (ix2 p (0 : Fin 1)) = a7 (ix2 (i 0) (0 : Fin 1)))
    (h8 : ∀ k : Fin 64, x8 (ix2 p k) = a8 (ix2 (i 0) k))
    (h9 : ∀ k : Fin 64, x9 (ix2 k q) = a9 (ix2 k (i 1))) (h10 : ∀ k : Fin 64, x10 (ix2 k q) = a10 (ix2 k (i 1)))
    (h11 : ∀ k : Fin 64, x11 (ix2 k q) = a11 (ix2 k (i 1))) (h12 : ∀ k : Fin 64, x12 (ix2 k q) = a12 (ix2 k (i 1)))
    (h13 : x13 (ix2 (0 : Fin 1) q) = a13 (ix2 (0 : Fin 1) (i 1))) (h14 : ∀ k : Fin 64, x14 (ix2 k q) = a14 (ix2 k (i 1))) :
    k7_pay1 (F := Ideal) (k7_pay2 (F := Ideal) x8 x14 x13 x0 x1 x9 x2 x3 x10) x4 x5 x11 x6 x7 x12 (ix2 p q)
      = G7 a0 a1 a2 a3 a4 a5 a6 a7 a8 a9 a10 a11 a12 a13 a14 i := by
  rw [pay7_apply]
  unfold G7
  simp only [h0, h1, h2, h3, h4, h5, h6, h7, h8, h9, h10, h11, h12, h13, h14]

/-! ## From blocks to the array -/

-- the TensorCore's buffer contents when the region is entered
variable (V : (c : Dev nD) → (b : Ref sig .tc) → Buf (Elt Ideal) ((c : Thread nD τ).loc b))

theorem hz7 : (![0, 0] : Fin 2 → Nat) = fun _ => 0 := funext fun a => by fin_cases a <;> rfl

/-- The printed index maps, decided over the grid: every row-block and divisor-column window moves with the output
    window along the rows and stays at column block 0; the five matrices and the row vector stay at block (0, 0); the
    output's column block is 0. -/
theorem idx_facts7 : ∀ t : Fin cfg7.N,
    (win7_0.index t (0 : Fin 2) = win7_15.index t (0 : Fin 2) ∧ win7_0.index t (1 : Fin 2) = 0)
    ∧ (win7_1.index t (0 : Fin 2) = win7_15.index t (0 : Fin 2) ∧ win7_1.index t (1 : Fin 2) = 0)
    ∧ (win7_2.index t (0 : Fin 2) = win7_15.index t (0 : Fin 2) ∧ win7_2.index t (1 : Fin 2) = 0)
    ∧ (win7_3.index t (0 : Fin 2) = win7_15.index t (0 : Fin 2) ∧ win7_3.index t (1 : Fin 2) = 0)
    ∧ (win7_4.index t (0 : Fin 2) = win7_15.index t (0 : Fin 2) ∧ win7_4.index t (1 : Fin 2) = 0)
    ∧ (win7_5.index t (0 : Fin 2) = win7_15.index t (0 : Fin 2) ∧ win7_5.index t (1 : Fin 2) = 0)
    ∧ (win7_6.index t (0 : Fin 2) = win7_15.index t (0 : Fin 2) ∧ win7_6.index t (1 : Fin 2) = 0)
    ∧ (win7_7.index t (0 : Fin 2) = win7_15.index t (0 : Fin 2) ∧ win7_7.index t (1 : Fin 2) = 0)
    ∧ (win7_8.index t (0 : Fin 2) = win7_15.index t (0 : Fin 2) ∧ win7_8.index t (1 : Fin 2) = 0)
    ∧ (win7_9.index t (0 : Fin 2) = 0 ∧ win7_9.index t (1 : Fin 2) = 0)
    ∧ (win7_10.index t (0 : Fin 2) = 0 ∧ win7_10.index t (1 : Fin 2) = 0)
    ∧ (win7_11.index t (0 : Fin 2) = 0 ∧ win7_11.index t (1 : Fin 2) = 0)
    ∧ (win7_12.index t (0 : Fin 2) = 0 ∧ win7_12.index t (1 : Fin 2) = 0)
    ∧ (win7_13.index t (0 : Fin 2) = 0 ∧ win7_13.index t (1 : Fin 2) = 0)
    ∧ (win7_14.index t (0 : Fin 2) = 0 ∧ win7_14.index t (1 : Fin 2) = 0)
    ∧ win7_15.index t (1 : Fin 2) = 0 :=
  (by decide +kernel : ∀ t : Fin grid7.N, _)

/-- Every row block of the output array is SOME point's. -/
theorem idx_onto7 : ∀ (q0 : Fin 21) (q1 : Fin 1), ∃ t : Fin cfg7.N, win7_15.index t = ![q0.val + 0, q1.val + 0] :=
  (by decide +kernel : ∀ (q0 : Fin 21) (q1 : Fin 1), ∃ t : Fin grid7.N, win7_15.index t = ![q0.val + 0, q1.val + 0])

set_option maxHeartbeats 4000000 in
/-- WHAT POINT `t` WRITES BACK is block `t` of `G7` of the input arrays as the region finds them. -/
theorem flushed7_eq (c : Dev nD) (t : Fin cfg7.N) :
    (dat7 (F := Ideal) V c).flushed 15 t = ((cfg7.win 15).blk t).view.read (Elt Ideal) (G7 (V c (Pipeline.arrRef spec7 0)) (V c (Pipeline.arrRef spec7 1)) (V c (Pipeline.arrRef spec7 2)) (V c (Pipeline.arrRef spec7 3))
      (V c (Pipeline.arrRef spec7 4)) (V c (Pipeline.arrRef spec7 5)) (V c (Pipeline.arrRef spec7 6)) (V c (Pipeline.arrRef spec7 7))
      (V c (Pipeline.arrRef spec7 8)) (V c (Pipeline.arrRef spec7 9)) (V c (Pipeline.arrRef spec7 10)) (V c (Pipeline.arrRef spec7 11))
      (V c (Pipeline.arrRef spec7 12)) (V c (Pipeline.arrRef spec7 13)) (V c (Pipeline.arrRef spec7 14))) := by
  show (cfg7.win 15).cut (grid7.coords t) ((dat7 (F := Ideal) V c).after 15 t) = _
  rw [after7_15]
  unfold out7_15
  rw [View.canon_unit_zero hz7]
  simp only [View.ld_unit_zero (S := S2456x64) hz7, View.ld_unit_zero (S := S2456x1) hz7, View.ld_unit_zero (S := S64x64) hz7,
    View.ld_unit_zero (S := S1x64) hz7]
  obtain ⟨⟨e0, f0⟩, ⟨e1, f1⟩, ⟨e2, f2⟩, ⟨e3, f3⟩, ⟨e4, f4⟩, ⟨e5, f5⟩, ⟨e6, f6⟩, ⟨e7, f7⟩, ⟨e8, f8⟩, ⟨e9, f9⟩, ⟨e10, f10⟩,
    ⟨e11, f11⟩, ⟨e12, f12⟩, ⟨e13, f13⟩, ⟨e14, f14⟩, f15⟩ := idx_facts7 t
  funext y
  obtain ⟨p, q, rfl⟩ : ∃ (p : Fin 2456) (q : Fin 64), y = ix2 p q := ⟨y 0, y 1, eq_ix2 y⟩
  show k7_pay1 (F := Ideal) (k7_pay2 (F := Ideal) (iblk7 V c 8 t) (iblk7 V c 14 t) (iblk7 V c 13 t) (iblk7 V c 0 t) (iblk7 V c 1 t)
      (iblk7 V c 9 t) (iblk7 V c 2 t) (iblk7 V c 3 t) (iblk7 V c 10 t)) (iblk7 V c 4 t) (iblk7 V c 5 t) (iblk7 V c 11 t)
      (iblk7 V c 6 t) (iblk7 V c 7 t) (iblk7 V c 12 t) (ix2 p q)
    = G7 (V c (Pipeline.arrRef spec7 0)) (V c (Pipeline.arrRef spec7 1)) (V c (Pipeline.arrRef spec7 2)) (V c (Pipeline.arrRef spec7 3))
      (V c (Pipeline.arrRef spec7 4)) (V c (Pipeline.arrRef spec7 5)) (V c (Pipeline.arrRef spec7 6)) (V c (Pipeline.arrRef spec7 7))
      (V c (Pipeline.arrRef spec7 8)) (V c (Pipeline.arrRef spec7 9)) (V c (Pipeline.arrRef spec7 10)) (V c (Pipeline.arrRef spec7 11))
      (V c (Pipeline.arrRef spec7 12)) (V c (Pipeline.arrRef spec7 13)) (V c (Pipeline.arrRef spec7 14)) (((cfg7.win 15).blk t).view.emb (ix2 p q))
  have hp : p.val < 2456 := p.isLt
  have hq : q.val < 64 := q.isLt
  refine G7_of_blocks _ _ _ _ _ _ _ _ _ _ _ _ _ _ _ _ _ _ _ _ _ _ _ _ _ _ _ _ _ _ _ p q ?_ ?_ ?_ ?_ ?_ ?_ ?_ ?_ ?_ ?_ ?_ ?_ ?_ ?_ ?_
  · intro k
    show V c (Pipeline.arrRef spec7 0) (((cfg7.win 0).blk t).view.emb (ix2 p k)) = _
    refine congrArg _ (funext fun a => Fin.ext ?_)
    match a with
    | ⟨0, _⟩ => show win7_0.index t (0 : Fin 2) * 2456 + 1 * p.val = win7_15.index t (0 : Fin 2) * 2456 + 1 * p.val; omega
    | ⟨1, _⟩ => show win7_0.index t (1 : Fin 2) * 64 + 1 * k.val = k.val; omega
  · show V c (Pipeline.arrRef spec7 1) (((cfg7.win 1).blk t).view.emb (ix2 p (0 : Fin 1))) = _
    refine congrArg _ (funext fun a => Fin.ext ?_)
    match a with
    | ⟨0, _⟩ => show win7_1.index t (0 : Fin 2) * 2456 + 1 * p.val = win7_15.index t (0 : Fin 2) * 2456 + 1 * p.val; omega
    | ⟨1, _⟩ => show win7_1.index t (1 : Fin 2) * 1 + 1 * 0 = 0; omega
  · intro k
    show V c (Pipeline.arrRef spec7 2) (((cfg7.win 2).blk t).view.emb (ix2 p k)) = _
    refine congrArg _ (funext fun a => Fin.ext ?_)
    match a with
    | ⟨0, _⟩ => show win7_2.index t (0 : Fin 2) * 2456 + 1 * p.val = win7_15.index t (0 : Fin 2) * 2456 + 1 * p.val; omega
    | ⟨1, _⟩ => show win7_2.index t (1 : Fin 2) * 64 + 1 * k.val = k.val; omega
  · show V c (Pipeline.arrRef spec7 3) (((cfg7.win 3).blk t).view.emb (ix2 p (0 : Fin 1))) = _
    refine congrArg _ (funext fun a => Fin.ext ?_)
    match a with
    | ⟨0, _⟩ => show win7_3.index t (0 : Fin 2) * 2456 + 1 * p.val = win7_15.index t (0 : Fin 2) * 2456 + 1 * p.val; omega
    | ⟨1, _⟩ => show win7_3.index t (1 : Fin 2) * 1 + 1 * 0 = 0; omega
  · intro k
    show V c (Pipeline.arrRef spec7 4) (((cfg7.win 4).blk t).view.emb (ix2 p k)) = _
    refine congrArg _ (funext fun a => Fin.ext ?_)
    match a with
    | ⟨0, _⟩ => show win7_4.index t (0 : Fin 2) * 2456 + 1 * p.val = win7_15.index t (0 : Fin 2) * 2456 + 1 * p.val; omega
    | ⟨1, _⟩ => show win7_4.index t (1 : Fin 2) * 64 + 1 * k.val = k.val; omega
  · show V c (Pipeline.arrRef spec7 5) (((cfg7.win 5).blk t).view.emb (ix2 p (0 : Fin 1))) = _
    refine congrArg _ (funext fun a => Fin.ext ?_)
    match a with
    | ⟨0, _⟩ => show win7_5.index t (0 : Fin 2) * 2456 + 1 * p.val = win7_15.index t (0 : Fin 2) * 2456 + 1 * p.val; omega
    | ⟨1, _⟩ => show win7_5.index t (1 : Fin 2) * 1 + 1 * 0 = 0; omega
  · intro k
    show V c (Pipeline.arrRef spec7 6) (((cfg7.win 6).blk t).view.emb (ix2 p k)) = _
    refine congrArg _ (funext fun a => Fin.ext ?_)
    match a with
    | ⟨0, _⟩ => show win7_6.index t (0 : Fin 2) * 2456 + 1 * p.val = win7_15.index t (0 : Fin 2) * 2456 + 1 * p.val; omega
    | ⟨1, _⟩ => show win7_6.index t (1 : Fin 2) * 64 + 1 * k.val = k.val; omega
  · show V c (Pipeline.arrRef spec7 7) (((cfg7.win 7).blk t).view.emb (ix2 p (0 : Fin 1))) = _
    refine congrArg _ (funext fun a => Fin.ext ?_)
    match a with
    | ⟨0, _⟩ => show win7_7.index t (0 : Fin 2) * 2456 + 1 * p.val = win7_15.index t (0 : Fin 2) * 2456 + 1 * p.val; omega
    | ⟨1, _⟩ => show win7_7.index t (1 : Fin 2) * 1 + 1 * 0 = 0; omega
  · intro k
    show V c (Pipeline.arrRef spec7 8) (((cfg7.win 8).blk t).view.emb (ix2 p k)) = _
    refine congrArg _ (funext fun a => Fin.ext ?_)
    match a with
    | ⟨0, _⟩ => show win7_8.index t (0 : Fin 2) * 2456 + 1 * p.val = win7_15.index t (0 : Fin 2) * 2456 + 1 * p.val; omega
    | ⟨1, _⟩ => show win7_8.index t (1 : Fin 2) * 64 + 1 * k.val = k.val; omega
  · intro k
    show V c (Pipeline.arrRef spec7 9) (((cfg7.win 9).blk t).view.emb (ix2 k q)) = _
    refine congrArg _ (funext fun a => Fin.ext ?_)
    match a with
    | ⟨0, _⟩ => show win7_9.index t (0 : Fin 2) * 64 + 1 * k.val = k.val; omega
    | ⟨1, _⟩ => show win7_9.index t (1 : Fin 2) * 64 + 1 * q.val = win7_15.index t (1 : Fin 2) * 64 + 1 * q.val; omega
  · intro k
    show V c (Pipeline.arrRef spec7 10) (((cfg7.win 10).blk t).view.emb (ix2 k q)) = _
    refine congrArg _ (funext fun a => Fin.ext ?_)
    match a with
    | ⟨0, _⟩ => show win7_10.index t (0 : Fin 2) * 64 + 1 * k.val = k.val; omega
    | ⟨1, _⟩ => show win7_10.index t (1 : Fin 2) * 64 + 1 * q.val = win7_15.index t (1 : Fin 2) * 64 + 1 * q.val; omega
  · intro k
    show V c (Pipeline.arrRef spec7 11) (((cfg7.win 11).blk t).view.emb (ix2 k q)) = _
    refine congrArg _ (funext fun a => Fin.ext ?_)
    match a with
    | ⟨0, _⟩ => show win7_11.index t (0 : Fin 2) * 64 + 1 * k.val = k.val; omega
    | ⟨1, _⟩ => show win7_11.index t (1 : Fin 2) * 64 + 1 * q.val = win7_15.index t (1 : Fin 2) * 64 + 1 * q.val; omega
  · intro k
    show V c (Pipeline.arrRef spec7 12) (((cfg7.win 12).blk t).view.emb (ix2 k q)) = _
    refine congrArg _ (funext fun a => Fin.ext ?_)
    match a with
    | ⟨0, _⟩ => show win7_12.index t (0 : Fin 2) * 64 + 1 * k.val = k.val; omega
    | ⟨1, _⟩ => show win7_12.index t (1 : Fin 2) * 64 + 1 * q.val = win7_15.index t (1 : Fin 2) * 64 + 1 * q.val; omega
  · show V c (Pipeline.arrRef spec7 13) (((cfg7.win 13).blk t).view.emb (ix2 (0 : Fin 1) q)) = _
    refine congrArg _ (funext fun a => Fin.ext ?_)
    match a with
    | ⟨0, _⟩ => show win7_13.index t (0 : Fin 2) * 1 + 1 * 0 = 0; omega
    | ⟨1, _⟩ => show win7_13.index t (1 : Fin 2) * 64 + 1 * q.val = win7_15.index t (1 : Fin 2) * 64 + 1 * q.val; omega
  · intro k
    show V c (Pipeline.arrRef spec7 14) (((cfg7.win 14).blk t).view.emb (ix2 k q)) = _
    refine congrArg _ (funext fun a => Fin.ext ?_)
    match a with
    | ⟨0, _⟩ => show win7_14.index t (0 : Fin 2) * 64 + 1 * k.val = k.val; omega
    | ⟨1, _⟩ => show win7_14.index t (1 : Fin 2) * 64 + 1 * q.val = win7_15.index t (1 : Fin 2) * 64 + 1 * q.val; omega

/-- An index of the output array is in point `t`'s block iff each coordinate is in the block's range on its axis. -/
theorem mem_blk7 (t : Fin cfg7.N) (i : S51576x64.Idx) :
    i ∈ ((cfg7.win 15).blk t).view.set ↔ ∀ a : Fin 2, win7_15.index t a * S2456x64.size a ≤ (i a).val ∧ (i a).val < win7_15.index t a * S2456x64.size a + S2456x64.size a := by
  show i ∈ ((View.whole main_v364).slice (win7_15.rect t)).set ↔ _
  rw [View.set_slice_whole, Rect.mem_set_unit]
  exact Iff.rfl

/-- Every index of the output array is in some point's block: row `r` in the block of point `r / 2456`. -/
theorem cover7 (i : S51576x64.Idx) : ∃ t : Fin cfg7.N, (cfg7.win 15).flush t = true ∧ i ∈ ((cfg7.win 15).blk t).view.set := by
  have hi0 : (i 0).val < 51576 := (i 0).isLt
  have hi1 : (i 1).val < 64 := (i 1).isLt
  obtain ⟨t, ht⟩ := idx_onto7 ⟨(i 0).val / 2456 - 0, by omega⟩ ⟨(i 1).val / 64 - 0, by omega⟩
  have q0 : win7_15.index t (0 : Fin 2) = (i 0).val / 2456 - 0 + 0 := congrFun ht 0
  have q1 : win7_15.index t (1 : Fin 2) = (i 1).val / 64 - 0 + 0 := congrFun ht 1
  refine ⟨t, flush7_15 t, ?_⟩
  rw [mem_blk7]
  intro a
  match a with
  | ⟨0, _⟩ => show win7_15.index t (0 : Fin 2) * 2456 ≤ (i 0).val ∧ (i 0).val < win7_15.index t (0 : Fin 2) * 2456 + 2456; omega
  | ⟨1, _⟩ => show win7_15.index t (1 : Fin 2) * 64 ≤ (i 1).val ∧ (i 1).val < win7_15.index t (1 : Fin 2) * 64 + 64; omega

set_option maxHeartbeats 1000000 in
/-- THE OUTPUT ARRAY after the region: `G7` of the fifteen input arrays as the region finds them. -/
theorem final7 (c : Dev nD) : (dat7 (F := Ideal) V c).arrAt 15 cfg7.N =
    G7 (V c (Pipeline.arrRef spec7 0)) (V c (Pipeline.arrRef spec7 1)) (V c (Pipeline.arrRef spec7 2)) (V c (Pipeline.arrRef spec7 3))
      (V c (Pipeline.arrRef spec7 4)) (V c (Pipeline.arrRef spec7 5)) (V c (Pipeline.arrRef spec7 6)) (V c (Pipeline.arrRef spec7 7))
      (V c (Pipeline.arrRef spec7 8)) (V c (Pipeline.arrRef spec7 9)) (V c (Pipeline.arrRef spec7 10)) (V c (Pipeline.arrRef spec7 11))
      (V c (Pipeline.arrRef spec7 12)) (V c (Pipeline.arrRef spec7 13)) (V c (Pipeline.arrRef spec7 14)) :=
  (dat7 (F := Ideal) V c).arrAt_eq_of_cover 15 _ (fun t _ => flushed7_eq V c t) cover7

end Cert.KernelIdeal.Gen

end
-- ==== Proof.Sim.S2.lean ====
import proofs.«417513_j58866821759238_4_alg».proof.Proof.Sim.S1
import proofs.«417513_j58866821759238_4_alg».proof.Proof.KI.Fin7

set_option maxRecDepth 16384

noncomputable section

namespace Cert.Sim

open Idealize.ShloMosaic Idealize.ShloMosaic.TcCoe Idealize.SL.Sem Idealize.ShloMosaic.StableHlo
open Idealize.ShloMosaic.ValueIdx
open Cert.LibAllReal
open scoped BigOperators

/-! # Series, layer 2 (four edge types, no final maximum): region 7's value against the reference's operations -/

/-! ## The core: region 7's function of the kernel program's inputs is the reference's expression -/

/-- Region 7's function at `(r', q)`, spelled out. -/
theorem G7_apply (a0 : Cert.KernelIdeal.S51576x64.Idx → EReal) (a1 : Cert.KernelIdeal.S51576x1.Idx → EReal) (a2 : Cert.KernelIdeal.S51576x64.Idx → EReal) (a3 : Cert.KernelIdeal.S51576x1.Idx → EReal)
    (a4 : Cert.KernelIdeal.S51576x64.Idx → EReal) (a5 : Cert.KernelIdeal.S51576x1.Idx → EReal) (a6 : Cert.KernelIdeal.S51576x64.Idx → EReal) (a7 : Cert.KernelIdeal.S51576x1.Idx → EReal)
    (a8 : Cert.KernelIdeal.S51576x64.Idx → EReal) (a9 : Cert.KernelIdeal.S64x64.Idx → EReal) (a10 : Cert.KernelIdeal.S64x64.Idx → EReal) (a11 : Cert.KernelIdeal.S64x64.Idx → EReal)
    (a12 : Cert.KernelIdeal.S64x64.Idx → EReal) (a13 : Cert.KernelIdeal.S1x64.Idx → EReal) (a14 : Cert.KernelIdeal.S64x64.Idx → EReal) (r' : Fin 51576) (q : Fin 64) :
    Cert.KernelIdeal.Gen.G7 a0 a1 a2 a3 a4 a5 a6 a7 a8 a9 a10 a11 a12 a13 a14 (ix2 r' q)
      = (((((∑ k : Fin 64, a8 (ix2 r' k) * a14 (ix2 k q)) + a13 (ix2 (0 : Fin 1) q))
          + ∑ k : Fin 64, Ideal.div (a0 (ix2 r' k)) (max (a1 (ix2 r' (0 : Fin 1))) (Ideal.ofBits .f32 0x3F800000#32)) * a9 (ix2 k q))
          + ∑ k : Fin 64, Ideal.div (a2 (ix2 r' k)) (max (a3 (ix2 r' (0 : Fin 1))) (Ideal.ofBits .f32 0x3F800000#32)) * a10 (ix2 k q))
          + ∑ k : Fin 64, Ideal.div (a4 (ix2 r' k)) (max (a5 (ix2 r' (0 : Fin 1))) (Ideal.ofBits .f32 0x3F800000#32)) * a11 (ix2 k q))
          + ∑ k : Fin 64, Ideal.div (a6 (ix2 r' k)) (max (a7 (ix2 r' (0 : Fin 1))) (Ideal.ofBits .f32 0x3F800000#32)) * a12 (ix2 k q) := rfl

set_option maxHeartbeats 2000000 in
/-- As for layer 1, without the final maximum: region 7's result on the kernel program's inputs, cut back to the 50000 rows,
    is the reference's four per-edge-type terms added left to right, all quantities real. -/
theorem core_s2 (A0 A1 A2 A3 : FVec Ideal Cert.ReferenceIdeal.S50000x64 .f32) (C0 C1 C2 C3 : FVec Ideal Cert.ReferenceIdeal.S50000x1 .f32) (X : FVec Ideal Cert.ReferenceIdeal.S50000x64 .f32)
    (WLt0 WLt1 WLt2 WLt3 WRt0 WRt1 WRt2 WRt3 : FVec Ideal Cert.ReferenceIdeal.S64x64 .f32) (b0 b1 b2 b3 : FVec Ideal Cert.ReferenceIdeal.S64 .f32)
    (v0 v1 v2 v3 v4 v5 v6 v7 v8 : Cert.KernelIdeal.S_.Idx → EReal)
    (hA0 : AllReal A0) (hA1 : AllReal A1) (hA2 : AllReal A2) (hA3 : AllReal A3)
    (hC0 : AllReal C0) (hC1 : AllReal C1) (hC2 : AllReal C2) (hC3 : AllReal C3) (hX : AllReal X)
    (hWL0 : AllReal WLt0) (hWL1 : AllReal WLt1) (hWL2 : AllReal WLt2) (hWL3 : AllReal WLt3)
    (hWR0 : AllReal WRt0) (hWR1 : AllReal WRt1) (hWR2 : AllReal WRt2) (hWR3 : AllReal WRt3)
    (hb0 : AllReal b0) (hb1 : AllReal b1) (hb2 : AllReal b2) (hb3 : AllReal b3) :
    extractStridedSlice Cert.KernelIdeal.S50000x64 ![0, 0]
        (Cert.KernelIdeal.Gen.G7 (pad Cert.KernelIdeal.S51576x64 ![0, 0] ![1576, 0] ![0, 0] A0 v0 Cert.KernelIdeal.Gen.pads_S50000x64_S51576x64_015760_000 Cert.KernelIdeal.Gen.h_S_) (pad Cert.KernelIdeal.S51576x1 ![0, 0] ![1576, 0] ![0, 0] C0 v1 Cert.KernelIdeal.Gen.pads_S50000x1_S51576x1_015760_000 Cert.KernelIdeal.Gen.h_S_)
          (pad Cert.KernelIdeal.S51576x64 ![0, 0] ![1576, 0] ![0, 0] A1 v2 Cert.KernelIdeal.Gen.pads_S50000x64_S51576x64_015760_000 Cert.KernelIdeal.Gen.h_S_) (pad Cert.KernelIdeal.S51576x1 ![0, 0] ![1576, 0] ![0, 0] C1 v3 Cert.KernelIdeal.Gen.pads_S50000x1_S51576x1_015760_000 Cert.KernelIdeal.Gen.h_S_)
          (pad Cert.KernelIdeal.S51576x64 ![0, 0] ![1576, 0] ![0, 0] A2 v4 Cert.KernelIdeal.Gen.pads_S50000x64_S51576x64_015760_000 Cert.KernelIdeal.Gen.h_S_) (pad Cert.KernelIdeal.S51576x1 ![0, 0] ![1576, 0] ![0, 0] C2 v5 Cert.KernelIdeal.Gen.pads_S50000x1_S51576x1_015760_000 Cert.KernelIdeal.Gen.h_S_)
          (pad Cert.KernelIdeal.S51576x64 ![0, 0] ![1576, 0] ![0, 0] A3 v6 Cert.KernelIdeal.Gen.pads_S50000x64_S51576x64_015760_000 Cert.KernelIdeal.Gen.h_S_) (pad Cert.KernelIdeal.S51576x1 ![0, 0] ![1576, 0] ![0, 0] C3 v7 Cert.KernelIdeal.Gen.pads_S50000x1_S51576x1_015760_000 Cert.KernelIdeal.Gen.h_S_)
          (pad Cert.KernelIdeal.S51576x64 ![0, 0] ![1576, 0] ![0, 0] X v8 Cert.KernelIdeal.Gen.pads_S50000x64_S51576x64_015760_000 Cert.KernelIdeal.Gen.h_S_)
          WLt0 WLt1 WLt2 WLt3
          (fun i => shapeCast Cert.KernelIdeal.S1x64 (Host.reduceAdd
          (concatenate Cert.KernelIdeal.S4x64 0 [⟨Cert.KernelIdeal.S1x64, broadcastInDim Cert.KernelIdeal.S1x64 ![1] Cert.KernelIdeal.Gen.bcast_S64_S1x64_1 b0⟩,
            ⟨Cert.KernelIdeal.S1x64, broadcastInDim Cert.KernelIdeal.S1x64 ![1] Cert.KernelIdeal.Gen.bcast_S64_S1x64_1 b1⟩,
            ⟨Cert.KernelIdeal.S1x64, broadcastInDim Cert.KernelIdeal.S1x64 ![1] Cert.KernelIdeal.Gen.bcast_S64_S1x64_1 b2⟩,
            ⟨Cert.KernelIdeal.S1x64, broadcastInDim Cert.KernelIdeal.S1x64 ![1] Cert.KernelIdeal.Gen.bcast_S64_S1x64_1 b3⟩]
            Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i)
          (Host.reduceAdd
          (concatenate Cert.KernelIdeal.S4x64x64 0 [⟨Cert.KernelIdeal.S1x64x64, broadcastInDim Cert.KernelIdeal.S1x64x64 ![1, 2] Cert.KernelIdeal.Gen.bcast_S64x64_S1x64x64_1_2 WRt0⟩,
            ⟨Cert.KernelIdeal.S1x64x64, broadcastInDim Cert.KernelIdeal.S1x64x64 ![1, 2] Cert.KernelIdeal.Gen.bcast_S64x64_S1x64x64_1_2 WRt1⟩,
            ⟨Cert.KernelIdeal.S1x64x64, broadcastInDim Cert.KernelIdeal.S1x64x64 ![1, 2] Cert.KernelIdeal.Gen.bcast_S64x64_S1x64x64_1_2 WRt2⟩,
            ⟨Cert.KernelIdeal.S1x64x64, broadcastInDim Cert.KernelIdeal.S1x64x64 ![1, 2] Cert.KernelIdeal.Gen.bcast_S64x64_S1x64x64_1_2 WRt3⟩]
            Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_))
        Cert.KernelIdeal.Gen.slices_S51576x64_S50000x64_0_0
      = addf (addf (addf (refTerm A0 C0 X WLt0 b0 WRt0) (refTerm A1 C1 X WLt1 b1 WRt1)) (refTerm A2 C2 X WLt2 b2 WRt2)) (refTerm A3 C3 X WLt3 b3 WRt3) := by
  funext i
  obtain ⟨r, j, rfl⟩ : ∃ (r : Fin 50000) (j : Fin 64), i = ix2 r j := ⟨i 0, i 1, eq_ix2 i⟩
  have hr' : ((⟨r.val, by omega⟩ : Fin 51576)).val < 50000 := r.isLt
  have hL : extractStridedSlice Cert.KernelIdeal.S50000x64 ![0, 0]
        (Cert.KernelIdeal.Gen.G7 (pad Cert.KernelIdeal.S51576x64 ![0, 0] ![1576, 0] ![0, 0] A0 v0 Cert.KernelIdeal.Gen.pads_S50000x64_S51576x64_015760_000 Cert.KernelIdeal.Gen.h_S_) (pad Cert.KernelIdeal.S51576x1 ![0, 0] ![1576, 0] ![0, 0] C0 v1 Cert.KernelIdeal.Gen.pads_S50000x1_S51576x1_015760_000 Cert.KernelIdeal.Gen.h_S_)
          (pad Cert.KernelIdeal.S51576x64 ![0, 0] ![1576, 0] ![0, 0] A1 v2 Cert.KernelIdeal.Gen.pads_S50000x64_S51576x64_015760_000 Cert.KernelIdeal.Gen.h_S_) (pad Cert.KernelIdeal.S51576x1 ![0, 0] ![1576, 0] ![0, 0] C1 v3 Cert.KernelIdeal.Gen.pads_S50000x1_S51576x1_015760_000 Cert.KernelIdeal.Gen.h_S_)
          (pad Cert.KernelIdeal.S51576x64 ![0, 0] ![1576, 0] ![0, 0] A2 v4 Cert.KernelIdeal.Gen.pads_S50000x64_S51576x64_015760_000 Cert.KernelIdeal.Gen.h_S_) (pad Cert.KernelIdeal.S51576x1 ![0, 0] ![1576, 0] ![0, 0] C2 v5 Cert.KernelIdeal.Gen.pads_S50000x1_S51576x1_015760_000 Cert.KernelIdeal.Gen.h_S_)
          (pad Cert.KernelIdeal.S51576x64 ![0, 0] ![1576, 0] ![0, 0] A3 v6 Cert.KernelIdeal.Gen.pads_S50000x64_S51576x64_015760_000 Cert.KernelIdeal.Gen.h_S_) (pad Cert.KernelIdeal.S51576x1 ![0, 0] ![1576, 0] ![0, 0] C3 v7 Cert.KernelIdeal.Gen.pads_S50000x1_S51576x1_015760_000 Cert.KernelIdeal.Gen.h_S_)
          (pad Cert.KernelIdeal.S51576x64 ![0, 0] ![1576, 0] ![0, 0] X v8 Cert.KernelIdeal.Gen.pads_S50000x64_S51576x64_015760_000 Cert.KernelIdeal.Gen.h_S_)
          WLt0 WLt1 WLt2 WLt3
          (fun i => shapeCast Cert.KernelIdeal.S1x64 (Host.reduceAdd
          (concatenate Cert.KernelIdeal.S4x64 0 [⟨Cert.KernelIdeal.S1x64, broadcastInDim Cert.KernelIdeal.S1x64 ![1] Cert.KernelIdeal.Gen.bcast_S64_S1x64_1 b0⟩,
            ⟨Cert.KernelIdeal.S1x64, broadcastInDim Cert.KernelIdeal.S1x64 ![1] Cert.KernelIdeal.Gen.bcast_S64_S1x64_1 b1⟩,
            ⟨Cert.KernelIdeal.S1x64, broadcastInDim Cert.KernelIdeal.S1x64 ![1] Cert.KernelIdeal.Gen.bcast_S64_S1x64_1 b2⟩,
            ⟨Cert.KernelIdeal.S1x64, broadcastInDim Cert.KernelIdeal.S1x64 ![1] Cert.KernelIdeal.Gen.bcast_S64_S1x64_1 b3⟩]
            Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i)
          (Host.reduceAdd
          (concatenate Cert.KernelIdeal.S4x64x64 0 [⟨Cert.KernelIdeal.S1x64x64, broadcastInDim Cert.KernelIdeal.S1x64x64 ![1, 2] Cert.KernelIdeal.Gen.bcast_S64x64_S1x64x64_1_2 WRt0⟩,
            ⟨Cert.KernelIdeal.S1x64x64, broadcastInDim Cert.KernelIdeal.S1x64x64 ![1, 2] Cert.KernelIdeal.Gen.bcast_S64x64_S1x64x64_1_2 WRt1⟩,
            ⟨Cert.KernelIdeal.S1x64x64, broadcastInDim Cert.KernelIdeal.S1x64x64 ![1, 2] Cert.KernelIdeal.Gen.bcast_S64x64_S1x64x64_1_2 WRt2⟩,
            ⟨Cert.KernelIdeal.S1x64x64, broadcastInDim Cert.KernelIdeal.S1x64x64 ![1, 2] Cert.KernelIdeal.Gen.bcast_S64x64_S1x64x64_1_2 WRt3⟩]
            Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_))
        Cert.KernelIdeal.Gen.slices_S51576x64_S50000x64_0_0 (ix2 r j)
      = (((((∑ k : Fin 64, X (ix2 r k) * (0 + ∑ e : Fin 4, sel4 WRt0 WRt1 WRt2 WRt3 e (ix2 k j))) + (0 + ∑ e : Fin 4, sel4 b0 b1 b2 b3 e (ix1 j)))
          + ∑ k : Fin 64, Ideal.div (A0 (ix2 r k)) (max (C0 (ix2 r (0 : Fin 1))) (Ideal.ofBits .f32 0x3F800000#32)) * WLt0 (ix2 k j))
          + ∑ k : Fin 64, Ideal.div (A1 (ix2 r k)) (max (C1 (ix2 r (0 : Fin 1))) (Ideal.ofBits .f32 0x3F800000#32)) * WLt1 (ix2 k j))
          + ∑ k : Fin 64, Ideal.div (A2 (ix2 r k)) (max (C2 (ix2 r (0 : Fin 1))) (Ideal.ofBits .f32 0x3F800000#32)) * WLt2 (ix2 k j))
          + ∑ k : Fin 64, Ideal.div (A3 (ix2 r k)) (max (C3 (ix2 r (0 : Fin 1))) (Ideal.ofBits .f32 0x3F800000#32)) * WLt3 (ix2 k j) := by
    rw [kslice_apply, G7_apply]
    simp only [kpad64_apply _ _ _ _ hr', kpad1_apply _ _ _ hr']
    exact congrArg₂ (· + ·) (congrArg₂ (· + ·) (congrArg₂ (· + ·) (congrArg₂ (· + ·) (congrArg₂ (· + ·)
      (Finset.sum_congr rfl fun k _ => congrArg (X (ix2 r k) * ·) (ksum4W_apply WRt0 WRt1 WRt2 WRt3 k j)) (ksum4B_apply b0 b1 b2 b3 j)) rfl) rfl) rfl) rfl
  have hR : (addf (addf (addf (refTerm A0 C0 X WLt0 b0 WRt0) (refTerm A1 C1 X WLt1 b1 WRt1)) (refTerm A2 C2 X WLt2 b2 WRt2)) (refTerm A3 C3 X WLt3 b3 WRt3)) (ix2 r j)
      = (((((∑ k : Fin 64, Ideal.div (A0 (ix2 r k)) (max (C0 (ix2 r (0 : Fin 1))) (Ideal.ofBits .f32 0x3F800000#32)) * WLt0 (ix2 k j)) + b0 (ix1 j)) + ∑ k : Fin 64, X (ix2 r k) * WRt0 (ix2 k j))
          + (((∑ k : Fin 64, Ideal.div (A1 (ix2 r k)) (max (C1 (ix2 r (0 : Fin 1))) (Ideal.ofBits .f32 0x3F800000#32)) * WLt1 (ix2 k j)) + b1 (ix1 j)) + ∑ k : Fin 64, X (ix2 r k) * WRt1 (ix2 k j)))
          + (((∑ k : Fin 64, Ideal.div (A2 (ix2 r k)) (max (C2 (ix2 r (0 : Fin 1))) (Ideal.ofBits .f32 0x3F800000#32)) * WLt2 (ix2 k j)) + b2 (ix1 j)) + ∑ k : Fin 64, X (ix2 r k) * WRt2 (ix2 k j)))
          + (((∑ k : Fin 64, Ideal.div (A3 (ix2 r k)) (max (C3 (ix2 r (0 : Fin 1))) (Ideal.ofBits .f32 0x3F800000#32)) * WLt3 (ix2 k j)) + b3 (ix1 j)) + ∑ k : Fin 64, X (ix2 r k) * WRt3 (ix2 k j)) := by
    rw [addf_apply, addf_apply, addf_apply, refTerm_apply, refTerm_apply, refTerm_apply, refTerm_apply]
  rw [hL, hR]
  exact Cert.Math.sage4 (fun u d => Ideal.div u (max d (Ideal.ofBits .f32 0x3F800000#32))) (fun k => X (ix2 r k))
    (fun e k => sel4 A0 A1 A2 A3 e (ix2 r k)) (fun e k => sel4 WLt0 WLt1 WLt2 WLt3 e (ix2 k j)) (fun e k => sel4 WRt0 WRt1 WRt2 WRt3 e (ix2 k j))
    (fun e => sel4 C0 C1 C2 C3 e (ix2 r (0 : Fin 1))) (fun e => sel4 b0 b1 b2 b3 e (ix1 j))
    (fun k => hX _)
    (fun e k => match e with | ⟨0, _⟩ => hWL0 _ | ⟨1, _⟩ => hWL1 _ | ⟨2, _⟩ => hWL2 _ | ⟨3, _⟩ => hWL3 _)
    (fun e k => match e with | ⟨0, _⟩ => hWR0 _ | ⟨1, _⟩ => hWR1 _ | ⟨2, _⟩ => hWR2 _ | ⟨3, _⟩ => hWR3 _)
    (fun e => match e with | ⟨0, _⟩ => hb0 _ | ⟨1, _⟩ => hb1 _ | ⟨2, _⟩ => hb2 _ | ⟨3, _⟩ => hb3 _)
    (fun e k => match e with
      | ⟨0, _⟩ => mean_real_word (hA0 _) (hC0 _) | ⟨1, _⟩ => mean_real_word (hA1 _) (hC1 _)
      | ⟨2, _⟩ => mean_real_word (hA2 _) (hC2 _) | ⟨3, _⟩ => mean_real_word (hA3 _) (hC3 _))

/-! ## The kernel program's buffers around region 7 -/

/-- The layer's result is the first 50000 rows of region 7's output. -/
theorem k365 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W61 m ρ c (Proc.devRef .tc Cert.KernelIdeal.main_v365) = extractStridedSlice Cert.KernelIdeal.S50000x64 ![0, 0] (Cert.KernelIdeal.Gen.W60 m ρ c (Proc.devRef .tc Cert.KernelIdeal.main_v364) : Cert.KernelIdeal.S51576x64.Idx → EReal) Cert.KernelIdeal.Gen.slices_S51576x64_S50000x64_0_0 := by
  show StableHlo.after Cert.KernelIdeal.Gen.hostOps8 (Cert.KernelIdeal.Gen.W60 m ρ c) (Proc.devRef .tc Cert.KernelIdeal.main_v365) = _
  generalize Cert.KernelIdeal.Gen.W60 m ρ c = V
  after_results_simp

set_option maxHeartbeats 2000000 in
/-- Region 7's output array after the region: its function of the fifteen input arrays as the region finds them. -/
theorem k364 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W60 m ρ c (Proc.devRef .tc Cert.KernelIdeal.main_v364) = Cert.KernelIdeal.Gen.G7 (Cert.KernelIdeal.Gen.W59 m ρ c (Proc.devRef .tc Cert.KernelIdeal.main_v355)) (Cert.KernelIdeal.Gen.W59 m ρ c (Proc.devRef .tc Cert.KernelIdeal.main_v359)) (Cert.KernelIdeal.Gen.W59 m ρ c (Proc.devRef .tc Cert.KernelIdeal.main_v356)) (Cert.KernelIdeal.Gen.W59 m ρ c (Proc.devRef .tc Cert.KernelIdeal.main_v360))
      (Cert.KernelIdeal.Gen.W59 m ρ c (Proc.devRef .tc Cert.KernelIdeal.main_v357)) (Cert.KernelIdeal.Gen.W59 m ρ c (Proc.devRef .tc Cert.KernelIdeal.main_v361)) (Cert.KernelIdeal.Gen.W59 m ρ c (Proc.devRef .tc Cert.KernelIdeal.main_v358)) (Cert.KernelIdeal.Gen.W59 m ρ c (Proc.devRef .tc Cert.KernelIdeal.main_v362))
      (Cert.KernelIdeal.Gen.W59 m ρ c (Proc.devRef .tc Cert.KernelIdeal.main_v363)) (Cert.KernelIdeal.Gen.W59 m ρ c (Proc.devRef .tc Cert.KernelIdeal.main_v282)) (Cert.KernelIdeal.Gen.W59 m ρ c (Proc.devRef .tc Cert.KernelIdeal.main_v300)) (Cert.KernelIdeal.Gen.W59 m ρ c (Proc.devRef .tc Cert.KernelIdeal.main_v318))
      (Cert.KernelIdeal.Gen.W59 m ρ c (Proc.devRef .tc Cert.KernelIdeal.main_v336)) (Cert.KernelIdeal.Gen.W59 m ρ c (Proc.devRef .tc Cert.KernelIdeal.main_v348)) (Cert.KernelIdeal.Gen.W59 m ρ c (Proc.devRef .tc Cert.KernelIdeal.main_v354)) :=
  (Cert.KernelIdeal.Gen.W60_arr m ρ c 15).trans (Cert.KernelIdeal.Gen.final7 (Cert.KernelIdeal.Gen.V59 m ρ) c)

set_option maxHeartbeats 1000000 in
/-- The padded copy `v355` as region 7 finds it: the pad of `v279` as its host stretch left it. -/
theorem k355 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v355) = (pad Cert.KernelIdeal.S51576x64 ![0, 0] ![1576, 0] ![0, 0] (Cert.KernelIdeal.Gen.W42 m ρ c (Proc.devRef .tc Cert.KernelIdeal.main_v279) : Cert.KernelIdeal.S50000x64.Idx → EReal) (Cert.KernelIdeal.Gen.W42 m ρ c (Proc.devRef .tc Cert.KernelIdeal.main_cst_77) : Cert.KernelIdeal.S_.Idx → EReal) Cert.KernelIdeal.Gen.pads_S50000x64_S51576x64_015760_000 Cert.KernelIdeal.Gen.h_S_) := by
  rw [Cert.KernelIdeal.Gen.keep_v355_59 m ρ c]
  show StableHlo.after Cert.KernelIdeal.Gen.hostOps7_1 (Cert.KernelIdeal.Gen.W42 m ρ c) (Proc.devRef .tc Cert.KernelIdeal.main_v355) = _
  generalize Cert.KernelIdeal.Gen.W42 m ρ c = V
  after_results_simp
  rfl

set_option maxHeartbeats 1000000 in
/-- The padded copy `v356` as region 7 finds it: the pad of `v297` as its host stretch left it. -/
theorem k356 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v356) = (pad Cert.KernelIdeal.S51576x64 ![0, 0] ![1576, 0] ![0, 0] (Cert.KernelIdeal.Gen.W42 m ρ c (Proc.devRef .tc Cert.KernelIdeal.main_v297) : Cert.KernelIdeal.S50000x64.Idx → EReal) (Cert.KernelIdeal.Gen.W44 m ρ c (Proc.devRef .tc Cert.KernelIdeal.main_cst_78) : Cert.KernelIdeal.S_.Idx → EReal) Cert.KernelIdeal.Gen.pads_S50000x64_S51576x64_015760_000 Cert.KernelIdeal.Gen.h_S_) := by
  rw [Cert.KernelIdeal.Gen.keep_v356_59 m ρ c, ← Cert.KernelIdeal.Gen.keep_v297_44 m ρ c]
  show StableHlo.after Cert.KernelIdeal.Gen.hostOps7_3 (Cert.KernelIdeal.Gen.W44 m ρ c) (Proc.devRef .tc Cert.KernelIdeal.main_v356) = _
  generalize Cert.KernelIdeal.Gen.W44 m ρ c = V
  after_results_simp
  rfl

set_option maxHeartbeats 1000000 in
/-- The padded copy `v357` as region 7 finds it: the pad of `v315` as its host stretch left it. -/
theorem k357 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v357) = (pad Cert.KernelIdeal.S51576x64 ![0, 0] ![1576, 0] ![0, 0] (Cert.KernelIdeal.Gen.W42 m ρ c (Proc.devRef .tc Cert.KernelIdeal.main_v315) : Cert.KernelIdeal.S50000x64.Idx → EReal) (Cert.KernelIdeal.Gen.W46 m ρ c (Proc.devRef .tc Cert.KernelIdeal.main_cst_79) : Cert.KernelIdeal.S_.Idx → EReal) Cert.KernelIdeal.Gen.pads_S50000x64_S51576x64_015760_000 Cert.KernelIdeal.Gen.h_S_) := by
  rw [Cert.KernelIdeal.Gen.keep_v357_59 m ρ c, ← Cert.KernelIdeal.Gen.keep_v315_46 m ρ c]
  show StableHlo.after Cert.KernelIdeal.Gen.hostOps7_5 (Cert.KernelIdeal.Gen.W46 m ρ c) (Proc.devRef .tc Cert.KernelIdeal.main_v357) = _
  generalize Cert.KernelIdeal.Gen.W46 m ρ c = V
  after_results_simp
  rfl

set_option maxHeartbeats 1000000 in
/-- The padded copy `v358` as region 7 finds it: the pad of `v333` as its host stretch left it. -/
theorem k358 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v358) = (pad Cert.KernelIdeal.S51576x64 ![0, 0] ![1576, 0] ![0, 0] (Cert.KernelIdeal.Gen.W42 m ρ c (Proc.devRef .tc Cert.KernelIdeal.main_v333) : Cert.KernelIdeal.S50000x64.Idx → EReal) (Cert.KernelIdeal.Gen.W48 m ρ c (Proc.devRef .tc Cert.KernelIdeal.main_cst_80) : Cert.KernelIdeal.S_.Idx → EReal) Cert.KernelIdeal.Gen.pads_S50000x64_S51576x64_015760_000 Cert.KernelIdeal.Gen.h_S_) := by
  rw [Cert.KernelIdeal.Gen.keep_v358_59 m ρ c, ← Cert.KernelIdeal.Gen.keep_v333_48 m ρ c]
  show StableHlo.after Cert.KernelIdeal.Gen.hostOps7_7 (Cert.KernelIdeal.Gen.W48 m ρ c) (Proc.devRef .tc Cert.KernelIdeal.main_v358) = _
  generalize Cert.KernelIdeal.Gen.W48 m ρ c = V
  after_results_simp
  rfl

set_option maxHeartbeats 1000000 in
/-- The padded copy `v359` as region 7 finds it: the pad of `v41` as its host stretch left it. -/
theorem k359 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v359) = (pad Cert.KernelIdeal.S51576x1 ![0, 0] ![1576, 0] ![0, 0] (Cert.KernelIdeal.Gen.W5 m ρ c (Proc.devRef .tc Cert.KernelIdeal.main_v41) : Cert.KernelIdeal.S50000x1.Idx → EReal) (Cert.KernelIdeal.Gen.W50 m ρ c (Proc.devRef .tc Cert.KernelIdeal.main_cst_81) : Cert.KernelIdeal.S_.Idx → EReal) Cert.KernelIdeal.Gen.pads_S50000x1_S51576x1_015760_000 Cert.KernelIdeal.Gen.h_S_) := by
  rw [Cert.KernelIdeal.Gen.keep_v359_59 m ρ c, ← Cert.KernelIdeal.Gen.keep_v41_50 m ρ c]
  show StableHlo.after Cert.KernelIdeal.Gen.hostOps7_9 (Cert.KernelIdeal.Gen.W50 m ρ c) (Proc.devRef .tc Cert.KernelIdeal.main_v359) = _
  generalize Cert.KernelIdeal.Gen.W50 m ρ c = V
  after_results_simp
  rfl

set_option maxHeartbeats 1000000 in
/-- The padded copy `v360` as region 7 finds it: the pad of `v49` as its host stretch left it. -/
theorem k360 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v360) = (pad Cert.KernelIdeal.S51576x1 ![0, 0] ![1576, 0] ![0, 0] (Cert.KernelIdeal.Gen.W5 m ρ c (Proc.devRef .tc Cert.KernelIdeal.main_v49) : Cert.KernelIdeal.S50000x1.Idx → EReal) (Cert.KernelIdeal.Gen.W52 m ρ c (Proc.devRef .tc Cert.KernelIdeal.main_cst_82) : Cert.KernelIdeal.S_.Idx → EReal) Cert.KernelIdeal.Gen.pads_S50000x1_S51576x1_015760_000 Cert.KernelIdeal.Gen.h_S_) := by
  rw [Cert.KernelIdeal.Gen.keep_v360_59 m ρ c, ← Cert.KernelIdeal.Gen.keep_v49_52 m ρ c]
  show StableHlo.after Cert.KernelIdeal.Gen.hostOps7_11 (Cert.KernelIdeal.Gen.W52 m ρ c) (Proc.devRef .tc Cert.KernelIdeal.main_v360) = _
  generalize Cert.KernelIdeal.Gen.W52 m ρ c = V
  after_results_simp
  rfl

set_option maxHeartbeats 1000000 in
/-- The padded copy `v361` as region 7 finds it: the pad of `v57` as its host stretch left it. -/
theorem k361 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v361) = (pad Cert.KernelIdeal.S51576x1 ![0, 0] ![1576, 0] ![0, 0] (Cert.KernelIdeal.Gen.W5 m ρ c (Proc.devRef .tc Cert.KernelIdeal.main_v57) : Cert.KernelIdeal.S50000x1.Idx → EReal) (Cert.KernelIdeal.Gen.W54 m ρ c (Proc.devRef .tc Cert.KernelIdeal.main_cst_83) : Cert.KernelIdeal.S_.Idx → EReal) Cert.KernelIdeal.Gen.pads_S50000x1_S51576x1_015760_000 Cert.KernelIdeal.Gen.h_S_) := by
  rw [Cert.KernelIdeal.Gen.keep_v361_59 m ρ c, ← Cert.KernelIdeal.Gen.keep_v57_54 m ρ c]
  show StableHlo.after Cert.KernelIdeal.Gen.hostOps7_13 (Cert.KernelIdeal.Gen.W54 m ρ c) (Proc.devRef .tc Cert.KernelIdeal.main_v361) = _
  generalize Cert.KernelIdeal.Gen.W54 m ρ c = V
  after_results_simp
  rfl

set_option maxHeartbeats 1000000 in
/-- The padded copy `v362` as region 7 finds it: the pad of `v65` as its host stretch left it. -/
theorem k362 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v362) = (pad Cert.KernelIdeal.S51576x1 ![0, 0] ![1576, 0] ![0, 0] (Cert.KernelIdeal.Gen.W5 m ρ c (Proc.devRef .tc Cert.KernelIdeal.main_v65) : Cert.KernelIdeal.S50000x1.Idx → EReal) (Cert.KernelIdeal.Gen.W56 m ρ c (Proc.devRef .tc Cert.KernelIdeal.main_cst_84) : Cert.KernelIdeal.S_.Idx → EReal) Cert.KernelIdeal.Gen.pads_S50000x1_S51576x1_015760_000 Cert.KernelIdeal.Gen.h_S_) := by
  rw [Cert.KernelIdeal.Gen.keep_v362_59 m ρ c, ← Cert.KernelIdeal.Gen.keep_v65_56 m ρ c]
  show StableHlo.after Cert.KernelIdeal.Gen.hostOps7_15 (Cert.KernelIdeal.Gen.W56 m ρ c) (Proc.devRef .tc Cert.KernelIdeal.main_v362) = _
  generalize Cert.KernelIdeal.Gen.W56 m ρ c = V
  after_results_simp
  rfl

set_option maxHeartbeats 1000000 in
/-- The padded copy `v363` as region 7 finds it: the pad of `v165` as its host stretch left it. -/
theorem k363 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W59 m ρ c (Proc.devRef .tc Cert.KernelIdeal.main_v363) = (pad Cert.KernelIdeal.S51576x64 ![0, 0] ![1576, 0] ![0, 0] (Cert.KernelIdeal.Gen.W24 m ρ c (Proc.devRef .tc Cert.KernelIdeal.main_v165) : Cert.KernelIdeal.S50000x64.Idx → EReal) (Cert.KernelIdeal.Gen.W58 m ρ c (Proc.devRef .tc Cert.KernelIdeal.main_cst_85) : Cert.KernelIdeal.S_.Idx → EReal) Cert.KernelIdeal.Gen.pads_S50000x64_S51576x64_015760_000 Cert.KernelIdeal.Gen.h_S_) := by
  rw [← Cert.KernelIdeal.Gen.keep_v165_58 m ρ c]
  show StableHlo.after Cert.KernelIdeal.Gen.hostOps7_17 (Cert.KernelIdeal.Gen.W58 m ρ c) (Proc.devRef .tc Cert.KernelIdeal.main_v363) = _
  generalize Cert.KernelIdeal.Gen.W58 m ρ c = V
  after_results_simp
  rfl

set_option maxHeartbeats 4000000 in
/-- The layer-2 stacked bias row after its host stretch: the four bias rows concatenated, summed from zero over the stack's
    axis, cast to one row; each operand as the stretch leaves it. -/
theorem k348_of (V : Valuation Cert.KernelIdeal.τ Cert.KernelIdeal.sig (Elt Ideal)) :
    StableHlo.after (Cert.KernelIdeal.Gen.hostOps7 (F := Ideal)) V (Proc.devRef .tc Cert.KernelIdeal.main_v348)
      = (fun i => shapeCast Cert.KernelIdeal.S1x64 (Host.reduceAdd
          (concatenate Cert.KernelIdeal.S4x64 0 [⟨Cert.KernelIdeal.S1x64, StableHlo.after (Cert.KernelIdeal.Gen.hostOps7 (F := Ideal)) V (Proc.devRef .tc Cert.KernelIdeal.main_v342)⟩,
            ⟨Cert.KernelIdeal.S1x64, StableHlo.after (Cert.KernelIdeal.Gen.hostOps7 (F := Ideal)) V (Proc.devRef .tc Cert.KernelIdeal.main_v343)⟩,
            ⟨Cert.KernelIdeal.S1x64, StableHlo.after (Cert.KernelIdeal.Gen.hostOps7 (F := Ideal)) V (Proc.devRef .tc Cert.KernelIdeal.main_v344)⟩,
            ⟨Cert.KernelIdeal.S1x64, StableHlo.after (Cert.KernelIdeal.Gen.hostOps7 (F := Ideal)) V (Proc.devRef .tc Cert.KernelIdeal.main_v345)⟩] Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i) := by
  have hs : StableHlo.after (Cert.KernelIdeal.Gen.hostOps7 (F := Ideal)) V
      = StableHlo.after ((Cert.KernelIdeal.Gen.hostOps7 (F := Ideal)).drop 88) (StableHlo.after ((Cert.KernelIdeal.Gen.hostOps7 (F := Ideal)).take 88) V) := by
    rw [← after_append_s1, List.take_append_drop]
  rw [hs]
  generalize StableHlo.after ((Cert.KernelIdeal.Gen.hostOps7 (F := Ideal)).take 88) V = V1
  simp only [Cert.KernelIdeal.Gen.hostOps7, List.drop_succ_cons, List.drop_zero]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The layer-2 stacked right weight after its host stretch: the four one-matrix stacks concatenated and summed from zero
    over the stack's axis; each operand as the stretch leaves it. -/
theorem k354_of (V : Valuation Cert.KernelIdeal.τ Cert.KernelIdeal.sig (Elt Ideal)) :
    StableHlo.after (Cert.KernelIdeal.Gen.hostOps7 (F := Ideal)) V (Proc.devRef .tc Cert.KernelIdeal.main_v354)
      = Host.reduceAdd
          (concatenate Cert.KernelIdeal.S4x64x64 0 [⟨Cert.KernelIdeal.S1x64x64, StableHlo.after (Cert.KernelIdeal.Gen.hostOps7 (F := Ideal)) V (Proc.devRef .tc Cert.KernelIdeal.main_v349)⟩,
            ⟨Cert.KernelIdeal.S1x64x64, StableHlo.after (Cert.KernelIdeal.Gen.hostOps7 (F := Ideal)) V (Proc.devRef .tc Cert.KernelIdeal.main_v350)⟩,
            ⟨Cert.KernelIdeal.S1x64x64, StableHlo.after (Cert.KernelIdeal.Gen.hostOps7 (F := Ideal)) V (Proc.devRef .tc Cert.KernelIdeal.main_v351)⟩,
            ⟨Cert.KernelIdeal.S1x64x64, StableHlo.after (Cert.KernelIdeal.Gen.hostOps7 (F := Ideal)) V (Proc.devRef .tc Cert.KernelIdeal.main_v352)⟩] Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_ := by
  have hs : StableHlo.after (Cert.KernelIdeal.Gen.hostOps7 (F := Ideal)) V
      = StableHlo.after ((Cert.KernelIdeal.Gen.hostOps7 (F := Ideal)).drop 96) (StableHlo.after ((Cert.KernelIdeal.Gen.hostOps7 (F := Ideal)).take 96) V) := by
    rw [← after_append_s1, List.take_append_drop]
  rw [hs]
  generalize StableHlo.after ((Cert.KernelIdeal.Gen.hostOps7 (F := Ideal)).take 96) V = V1
  simp only [Cert.KernelIdeal.Gen.hostOps7, List.drop_succ_cons, List.drop_zero]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 2000000 in
/-- The layer-2 left weight of edge type 0 as region 7 takes it: the stacked argument's slice 0, transposed. -/
theorem k282 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h12 : ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (c : Dev Cert.KernelIdeal.nD) :
    Cert.KernelIdeal.Gen.W59 m ρ c (Proc.devRef .tc Cert.KernelIdeal.main_v282) = (transpose Cert.KernelIdeal.S64x64 [1, 0] (fun i => shapeCast Cert.KernelIdeal.S64x64 (extractStridedSlice Cert.KernelIdeal.S1x64x64 ![0, 0, 0] (m' ((c.tc : Thread Cert.ReferenceIdeal.nD Cert.ReferenceIdeal.τ).loc Cert.ReferenceIdeal.main_arg12)) Cert.KernelIdeal.Gen.slices_S8x64x64_S1x64x64_0_0_0) Cert.KernelIdeal.Gen.shapeCasts_S1x64x64_S64x64 i) Cert.KernelIdeal.Gen.transposes_S64x64_S64x64_1_0) := by
  rw [Cert.KernelIdeal.Gen.keep_v282_59 m ρ c]
  have e : Cert.KernelIdeal.Gen.W41 m ρ c (Proc.devRef .tc Cert.KernelIdeal.main_arg12) = (m' ((c.tc : Thread Cert.ReferenceIdeal.nD Cert.ReferenceIdeal.τ).loc Cert.ReferenceIdeal.main_arg12)) := (Cert.KernelIdeal.Gen.keep_arg12_41 m ρ c).trans (h12 c).symm
  rw [← e]
  show StableHlo.after Cert.KernelIdeal.Gen.hostOps7 (Cert.KernelIdeal.Gen.W41 m ρ c) (Proc.devRef .tc Cert.KernelIdeal.main_v282) = _
  generalize Cert.KernelIdeal.Gen.W41 m ρ c = V
  after_results_simp <;> rfl

set_option maxHeartbeats 2000000 in
/-- The layer-2 left weight of edge type 2 as region 7 takes it: the stacked argument's slice 2, transposed. -/
theorem k300 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h12 : ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (c : Dev Cert.KernelIdeal.nD) :
    Cert.KernelIdeal.Gen.W59 m ρ c (Proc.devRef .tc Cert.KernelIdeal.main_v300) = (transpose Cert.KernelIdeal.S64x64 [1, 0] (fun i => shapeCast Cert.KernelIdeal.S64x64 (extractStridedSlice Cert.KernelIdeal.S1x64x64 ![2, 0, 0] (m' ((c.tc : Thread Cert.ReferenceIdeal.nD Cert.ReferenceIdeal.τ).loc Cert.ReferenceIdeal.main_arg12)) Cert.KernelIdeal.Gen.slices_S8x64x64_S1x64x64_2_0_0) Cert.KernelIdeal.Gen.shapeCasts_S1x64x64_S64x64 i) Cert.KernelIdeal.Gen.transposes_S64x64_S64x64_1_0) := by
  rw [Cert.KernelIdeal.Gen.keep_v300_59 m ρ c]
  have e : Cert.KernelIdeal.Gen.W41 m ρ c (Proc.devRef .tc Cert.KernelIdeal.main_arg12) = (m' ((c.tc : Thread Cert.ReferenceIdeal.nD Cert.ReferenceIdeal.τ).loc Cert.ReferenceIdeal.main_arg12)) := (Cert.KernelIdeal.Gen.keep_arg12_41 m ρ c).trans (h12 c).symm
  rw [← e]
  show StableHlo.after Cert.KernelIdeal.Gen.hostOps7 (Cert.KernelIdeal.Gen.W41 m ρ c) (Proc.devRef .tc Cert.KernelIdeal.main_v300) = _
  generalize Cert.KernelIdeal.Gen.W41 m ρ c = V
  after_results_simp <;> rfl

set_option maxHeartbeats 2000000 in
/-- The layer-2 left weight of edge type 4 as region 7 takes it: the stacked argument's slice 4, transposed. -/
theorem k318 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h12 : ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (c : Dev Cert.KernelIdeal.nD) :
    Cert.KernelIdeal.Gen.W59 m ρ c (Proc.devRef .tc Cert.KernelIdeal.main_v318) = (transpose Cert.KernelIdeal.S64x64 [1, 0] (fun i => shapeCast Cert.KernelIdeal.S64x64 (extractStridedSlice Cert.KernelIdeal.S1x64x64 ![4, 0, 0] (m' ((c.tc : Thread Cert.ReferenceIdeal.nD Cert.ReferenceIdeal.τ).loc Cert.ReferenceIdeal.main_arg12)) Cert.KernelIdeal.Gen.slices_S8x64x64_S1x64x64_4_0_0) Cert.KernelIdeal.Gen.shapeCasts_S1x64x64_S64x64 i) Cert.KernelIdeal.Gen.transposes_S64x64_S64x64_1_0) := by
  rw [Cert.KernelIdeal.Gen.keep_v318_59 m ρ c]
  have e : Cert.KernelIdeal.Gen.W41 m ρ c (Proc.devRef .tc Cert.KernelIdeal.main_arg12) = (m' ((c.tc : Thread Cert.ReferenceIdeal.nD Cert.ReferenceIdeal.τ).loc Cert.ReferenceIdeal.main_arg12)) := (Cert.KernelIdeal.Gen.keep_arg12_41 m ρ c).trans (h12 c).symm
  rw [← e]
  show StableHlo.after Cert.KernelIdeal.Gen.hostOps7 (Cert.KernelIdeal.Gen.W41 m ρ c) (Proc.devRef .tc Cert.KernelIdeal.main_v318) = _
  generalize Cert.KernelIdeal.Gen.W41 m ρ c = V
  after_results_simp <;> rfl

set_option maxHeartbeats 2000000 in
/-- The layer-2 left weight of edge type 6 as region 7 takes it: the stacked argument's slice 6, transposed. -/
theorem k336 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h12 : ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (c : Dev Cert.KernelIdeal.nD) :
    Cert.KernelIdeal.Gen.W59 m ρ c (Proc.devRef .tc Cert.KernelIdeal.main_v336) = (transpose Cert.KernelIdeal.S64x64 [1, 0] (fun i => shapeCast Cert.KernelIdeal.S64x64 (extractStridedSlice Cert.KernelIdeal.S1x64x64 ![6, 0, 0] (m' ((c.tc : Thread Cert.ReferenceIdeal.nD Cert.ReferenceIdeal.τ).loc Cert.ReferenceIdeal.main_arg12)) Cert.KernelIdeal.Gen.slices_S8x64x64_S1x64x64_6_0_0) Cert.KernelIdeal.Gen.shapeCasts_S1x64x64_S64x64 i) Cert.KernelIdeal.Gen.transposes_S64x64_S64x64_1_0) := by
  rw [Cert.KernelIdeal.Gen.keep_v336_59 m ρ c]
  have e : Cert.KernelIdeal.Gen.W41 m ρ c (Proc.devRef .tc Cert.KernelIdeal.main_arg12) = (m' ((c.tc : Thread Cert.ReferenceIdeal.nD Cert.ReferenceIdeal.τ).loc Cert.ReferenceIdeal.main_arg12)) := (Cert.KernelIdeal.Gen.keep_arg12_41 m ρ c).trans (h12 c).symm
  rw [← e]
  show StableHlo.after Cert.KernelIdeal.Gen.hostOps7 (Cert.KernelIdeal.Gen.W41 m ρ c) (Proc.devRef .tc Cert.KernelIdeal.main_v336) = _
  generalize Cert.KernelIdeal.Gen.W41 m ρ c = V
  after_results_simp <;> rfl

set_option maxHeartbeats 2000000 in
/-- The layer-2 bias of edge type 0 as a one-row stack. -/
theorem k342 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (c : Dev Cert.KernelIdeal.nD) :
    Cert.KernelIdeal.Gen.W42 m ρ c (Proc.devRef .tc Cert.KernelIdeal.main_v342) = broadcastInDim Cert.KernelIdeal.S1x64 ![1] Cert.KernelIdeal.Gen.bcast_S64_S1x64_1 (fun i => shapeCast Cert.KernelIdeal.S64 (extractStridedSlice Cert.KernelIdeal.S1x64 ![0, 0] (m' ((c.tc : Thread Cert.ReferenceIdeal.nD Cert.ReferenceIdeal.τ).loc Cert.ReferenceIdeal.main_arg13)) Cert.KernelIdeal.Gen.slices_S8x64_S1x64_0_0) Cert.KernelIdeal.Gen.shapeCasts_S1x64_S64 i) := by
  have e : Cert.KernelIdeal.Gen.W41 m ρ c (Proc.devRef .tc Cert.KernelIdeal.main_arg13) = (m' ((c.tc : Thread Cert.ReferenceIdeal.nD Cert.ReferenceIdeal.τ).loc Cert.ReferenceIdeal.main_arg13)) := (Cert.KernelIdeal.Gen.keep_arg13_41 m ρ c).trans (h13 c).symm
  rw [← e]
  show StableHlo.after Cert.KernelIdeal.Gen.hostOps7 (Cert.KernelIdeal.Gen.W41 m ρ c) (Proc.devRef .tc Cert.KernelIdeal.main_v342) = _
  generalize Cert.KernelIdeal.Gen.W41 m ρ c = V
  after_results_simp <;> rfl

set_option maxHeartbeats 2000000 in
/-- The layer-2 bias of edge type 2 as a one-row stack. -/
theorem k343 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (c : Dev Cert.KernelIdeal.nD) :
    Cert.KernelIdeal.Gen.W42 m ρ c (Proc.devRef .tc Cert.KernelIdeal.main_v343) = broadcastInDim Cert.KernelIdeal.S1x64 ![1] Cert.KernelIdeal.Gen.bcast_S64_S1x64_1 (fun i => shapeCast Cert.KernelIdeal.S64 (extractStridedSlice Cert.KernelIdeal.S1x64 ![2, 0] (m' ((c.tc : Thread Cert.ReferenceIdeal.nD Cert.ReferenceIdeal.τ).loc Cert.ReferenceIdeal.main_arg13)) Cert.KernelIdeal.Gen.slices_S8x64_S1x64_2_0) Cert.KernelIdeal.Gen.shapeCasts_S1x64_S64 i) := by
  have e : Cert.KernelIdeal.Gen.W41 m ρ c (Proc.devRef .tc Cert.KernelIdeal.main_arg13) = (m' ((c.tc : Thread Cert.ReferenceIdeal.nD Cert.ReferenceIdeal.τ).loc Cert.ReferenceIdeal.main_arg13)) := (Cert.KernelIdeal.Gen.keep_arg13_41 m ρ c).trans (h13 c).symm
  rw [← e]
  show StableHlo.after Cert.KernelIdeal.Gen.hostOps7 (Cert.KernelIdeal.Gen.W41 m ρ c) (Proc.devRef .tc Cert.KernelIdeal.main_v343) = _
  generalize Cert.KernelIdeal.Gen.W41 m ρ c = V
  after_results_simp <;> rfl

set_option maxHeartbeats 2000000 in
/-- The layer-2 bias of edge type 4 as a one-row stack. -/
theorem k344 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (c : Dev Cert.KernelIdeal.nD) :
    Cert.KernelIdeal.Gen.W42 m ρ c (Proc.devRef .tc Cert.KernelIdeal.main_v344) = broadcastInDim Cert.KernelIdeal.S1x64 ![1] Cert.KernelIdeal.Gen.bcast_S64_S1x64_1 (fun i => shapeCast Cert.KernelIdeal.S64 (extractStridedSlice Cert.KernelIdeal.S1x64 ![4, 0] (m' ((c.tc : Thread Cert.ReferenceIdeal.nD Cert.ReferenceIdeal.τ).loc Cert.ReferenceIdeal.main_arg13)) Cert.KernelIdeal.Gen.slices_S8x64_S1x64_4_0) Cert.KernelIdeal.Gen.shapeCasts_S1x64_S64 i) := by
  have e : Cert.KernelIdeal.Gen.W41 m ρ c (Proc.devRef .tc Cert.KernelIdeal.main_arg13) = (m' ((c.tc : Thread Cert.ReferenceIdeal.nD Cert.ReferenceIdeal.τ).loc Cert.ReferenceIdeal.main_arg13)) := (Cert.KernelIdeal.Gen.keep_arg13_41 m ρ c).trans (h13 c).symm
  rw [← e]
  show StableHlo.after Cert.KernelIdeal.Gen.hostOps7 (Cert.KernelIdeal.Gen.W41 m ρ c) (Proc.devRef .tc Cert.KernelIdeal.main_v344) = _
  generalize Cert.KernelIdeal.Gen.W41 m ρ c = V
  after_results_simp <;> rfl

set_option maxHeartbeats 2000000 in
/-- The layer-2 bias of edge type 6 as a one-row stack. -/
theorem k345 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (c : Dev Cert.KernelIdeal.nD) :
    Cert.KernelIdeal.Gen.W42 m ρ c (Proc.devRef .tc Cert.KernelIdeal.main_v345) = broadcastInDim Cert.KernelIdeal.S1x64 ![1] Cert.KernelIdeal.Gen.bcast_S64_S1x64_1 (fun i => shapeCast Cert.KernelIdeal.S64 (extractStridedSlice Cert.KernelIdeal.S1x64 ![6, 0] (m' ((c.tc : Thread Cert.ReferenceIdeal.nD Cert.ReferenceIdeal.τ).loc Cert.ReferenceIdeal.main_arg13)) Cert.KernelIdeal.Gen.slices_S8x64_S1x64_6_0) Cert.KernelIdeal.Gen.shapeCasts_S1x64_S64 i) := by
  have e : Cert.KernelIdeal.Gen.W41 m ρ c (Proc.devRef .tc Cert.KernelIdeal.main_arg13) = (m' ((c.tc : Thread Cert.ReferenceIdeal.nD Cert.ReferenceIdeal.τ).loc Cert.ReferenceIdeal.main_arg13)) := (Cert.KernelIdeal.Gen.keep_arg13_41 m ρ c).trans (h13 c).symm
  rw [← e]
  show StableHlo.after Cert.KernelIdeal.Gen.hostOps7 (Cert.KernelIdeal.Gen.W41 m ρ c) (Proc.devRef .tc Cert.KernelIdeal.main_v345) = _
  generalize Cert.KernelIdeal.Gen.W41 m ρ c = V
  after_results_simp <;> rfl

set_option maxHeartbeats 2000000 in
/-- The layer-2 right weight of edge type 0, transposed, as a one-matrix stack. -/
theorem k349 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (c : Dev Cert.KernelIdeal.nD) :
    Cert.KernelIdeal.Gen.W42 m ρ c (Proc.devRef .tc Cert.KernelIdeal.main_v349) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![0, 0, 0] (m' ((c.tc : Thread Cert.ReferenceIdeal.nD Cert.ReferenceIdeal.τ).loc Cert.ReferenceIdeal.main_arg14)) Cert.KernelIdeal.Gen.slices_S8x64x64_S1x64x64_0_0_0) Cert.KernelIdeal.Gen.shapeCasts_S1x64x64_S64x64 i) Cert.KernelIdeal.Gen.transposes_S64x64_S64x64_1_0) := by
  have e : Cert.KernelIdeal.Gen.W41 m ρ c (Proc.devRef .tc Cert.KernelIdeal.main_arg14) = (m' ((c.tc : Thread Cert.ReferenceIdeal.nD Cert.ReferenceIdeal.τ).loc Cert.ReferenceIdeal.main_arg14)) := (Cert.KernelIdeal.Gen.keep_arg14_41 m ρ c).trans (h14 c).symm
  rw [← e]
  show StableHlo.after Cert.KernelIdeal.Gen.hostOps7 (Cert.KernelIdeal.Gen.W41 m ρ c) (Proc.devRef .tc Cert.KernelIdeal.main_v349) = _
  generalize Cert.KernelIdeal.Gen.W41 m ρ c = V
  after_results_simp <;> rfl

set_option maxHeartbeats 2000000 in
/-- The layer-2 right weight of edge type 2, transposed, as a one-matrix stack. -/
theorem k350 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (c : Dev Cert.KernelIdeal.nD) :
    Cert.KernelIdeal.Gen.W42 m ρ c (Proc.devRef .tc Cert.KernelIdeal.main_v350) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![2, 0, 0] (m' ((c.tc : Thread Cert.ReferenceIdeal.nD Cert.ReferenceIdeal.τ).loc Cert.ReferenceIdeal.main_arg14)) Cert.KernelIdeal.Gen.slices_S8x64x64_S1x64x64_2_0_0) Cert.KernelIdeal.Gen.shapeCasts_S1x64x64_S64x64 i) Cert.KernelIdeal.Gen.transposes_S64x64_S64x64_1_0) := by
  have e : Cert.KernelIdeal.Gen.W41 m ρ c (Proc.devRef .tc Cert.KernelIdeal.main_arg14) = (m' ((c.tc : Thread Cert.ReferenceIdeal.nD Cert.ReferenceIdeal.τ).loc Cert.ReferenceIdeal.main_arg14)) := (Cert.KernelIdeal.Gen.keep_arg14_41 m ρ c).trans (h14 c).symm
  rw [← e]
  show StableHlo.after Cert.KernelIdeal.Gen.hostOps7 (Cert.KernelIdeal.Gen.W41 m ρ c) (Proc.devRef .tc Cert.KernelIdeal.main_v350) = _
  generalize Cert.KernelIdeal.Gen.W41 m ρ c = V
  after_results_simp <;> rfl

set_option maxHeartbeats 2000000 in
/-- The layer-2 right weight of edge type 4, transposed, as a one-matrix stack. -/
theorem k351 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (c : Dev Cert.KernelIdeal.nD) :
    Cert.KernelIdeal.Gen.W42 m ρ c (Proc.devRef .tc Cert.KernelIdeal.main_v351) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![4, 0, 0] (m' ((c.tc : Thread Cert.ReferenceIdeal.nD Cert.ReferenceIdeal.τ).loc Cert.ReferenceIdeal.main_arg14)) Cert.KernelIdeal.Gen.slices_S8x64x64_S1x64x64_4_0_0) Cert.KernelIdeal.Gen.shapeCasts_S1x64x64_S64x64 i) Cert.KernelIdeal.Gen.transposes_S64x64_S64x64_1_0) := by
  have e : Cert.KernelIdeal.Gen.W41 m ρ c (Proc.devRef .tc Cert.KernelIdeal.main_arg14) = (m' ((c.tc : Thread Cert.ReferenceIdeal.nD Cert.ReferenceIdeal.τ).loc Cert.ReferenceIdeal.main_arg14)) := (Cert.KernelIdeal.Gen.keep_arg14_41 m ρ c).trans (h14 c).symm
  rw [← e]
  show StableHlo.after Cert.KernelIdeal.Gen.hostOps7 (Cert.KernelIdeal.Gen.W41 m ρ c) (Proc.devRef .tc Cert.KernelIdeal.main_v351) = _
  generalize Cert.KernelIdeal.Gen.W41 m ρ c = V
  after_results_simp <;> rfl

set_option maxHeartbeats 2000000 in
/-- The layer-2 right weight of edge type 6, transposed, as a one-matrix stack. -/
theorem k352 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (c : Dev Cert.KernelIdeal.nD) :
    Cert.KernelIdeal.Gen.W42 m ρ c (Proc.devRef .tc Cert.KernelIdeal.main_v352) = broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![6, 0, 0] (m' ((c.tc : Thread Cert.ReferenceIdeal.nD Cert.ReferenceIdeal.τ).loc Cert.ReferenceIdeal.main_arg14)) Cert.KernelIdeal.Gen.slices_S8x64x64_S1x64x64_6_0_0) Cert.KernelIdeal.Gen.shapeCasts_S1x64x64_S64x64 i) Cert.KernelIdeal.Gen.transposes_S64x64_S64x64_1_0) := by
  have e : Cert.KernelIdeal.Gen.W41 m ρ c (Proc.devRef .tc Cert.KernelIdeal.main_arg14) = (m' ((c.tc : Thread Cert.ReferenceIdeal.nD Cert.ReferenceIdeal.τ).loc Cert.ReferenceIdeal.main_arg14)) := (Cert.KernelIdeal.Gen.keep_arg14_41 m ρ c).trans (h14 c).symm
  rw [← e]
  show StableHlo.after Cert.KernelIdeal.Gen.hostOps7 (Cert.KernelIdeal.Gen.W41 m ρ c) (Proc.devRef .tc Cert.KernelIdeal.main_v352) = _
  generalize Cert.KernelIdeal.Gen.W41 m ρ c = V
  after_results_simp <;> rfl

/-- The layer-2 stacked bias row as region 7 takes it, over the reference's bias argument. -/
theorem k348 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (c : Dev Cert.KernelIdeal.nD) :
    Cert.KernelIdeal.Gen.W59 m ρ c (Proc.devRef .tc Cert.KernelIdeal.main_v348) = (fun i => shapeCast Cert.KernelIdeal.S1x64 (Host.reduceAdd
          (concatenate Cert.KernelIdeal.S4x64 0 [⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![0, 0] (m' ((c.tc : Thread Cert.ReferenceIdeal.nD Cert.ReferenceIdeal.τ).loc Cert.ReferenceIdeal.main_arg13)) Cert.KernelIdeal.Gen.slices_S8x64_S1x64_0_0) Cert.KernelIdeal.Gen.shapeCasts_S1x64_S64 i)⟩,
            ⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![2, 0] (m' ((c.tc : Thread Cert.ReferenceIdeal.nD Cert.ReferenceIdeal.τ).loc Cert.ReferenceIdeal.main_arg13)) Cert.KernelIdeal.Gen.slices_S8x64_S1x64_2_0) Cert.KernelIdeal.Gen.shapeCasts_S1x64_S64 i)⟩,
            ⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![4, 0] (m' ((c.tc : Thread Cert.ReferenceIdeal.nD Cert.ReferenceIdeal.τ).loc Cert.ReferenceIdeal.main_arg13)) Cert.KernelIdeal.Gen.slices_S8x64_S1x64_4_0) Cert.KernelIdeal.Gen.shapeCasts_S1x64_S64 i)⟩,
            ⟨Cert.KernelIdeal.S1x64, broadcastInDim Cert.KernelIdeal.S1x64 ![1] Cert.KernelIdeal.Gen.bcast_S64_S1x64_1 (fun i => shapeCast Cert.KernelIdeal.S64 (extractStridedSlice Cert.KernelIdeal.S1x64 ![6, 0] (m' ((c.tc : Thread Cert.ReferenceIdeal.nD Cert.ReferenceIdeal.τ).loc Cert.ReferenceIdeal.main_arg13)) Cert.KernelIdeal.Gen.slices_S8x64_S1x64_6_0) Cert.KernelIdeal.Gen.shapeCasts_S1x64_S64 i)⟩]
            Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i) := by
  rw [Cert.KernelIdeal.Gen.keep_v348_59 m ρ c]
  show StableHlo.after Cert.KernelIdeal.Gen.hostOps7 (Cert.KernelIdeal.Gen.W41 m ρ c) (Proc.devRef .tc Cert.KernelIdeal.main_v348) = _
  rw [k348_of]
  show (fun i => shapeCast Cert.KernelIdeal.S1x64 (Host.reduceAdd
          (concatenate Cert.KernelIdeal.S4x64 0 [⟨Cert.KernelIdeal.S1x64, Cert.KernelIdeal.Gen.W42 m ρ c (Proc.devRef .tc Cert.KernelIdeal.main_v342)⟩, ⟨Cert.KernelIdeal.S1x64, Cert.KernelIdeal.Gen.W42 m ρ c (Proc.devRef .tc Cert.KernelIdeal.main_v343)⟩,
            ⟨Cert.KernelIdeal.S1x64, Cert.KernelIdeal.Gen.W42 m ρ c (Proc.devRef .tc Cert.KernelIdeal.main_v344)⟩, ⟨Cert.KernelIdeal.S1x64, Cert.KernelIdeal.Gen.W42 m ρ c (Proc.devRef .tc Cert.KernelIdeal.main_v345)⟩] Cert.KernelIdeal.Gen.concatenates_S1x64_S1x64_S1x64_S1x64_S4x64_d0)
          (constant (F := Ideal) Cert.KernelIdeal.S_ .f32 0x00000000#32) Cert.KernelIdeal.Gen.reducesTo_S4x64_S64_d0 Cert.KernelIdeal.Gen.h_S_) Cert.KernelIdeal.Gen.shapeCasts_S64_S1x64 i) = _
  rw [k342 m ρ m' h13 c, k343 m ρ m' h13 c, k344 m ρ m' h13 c, k345 m ρ m' h13 c]

/-- The layer-2 stacked right weight as region 7 takes it, over the reference's right-weight argument. -/
theorem k354 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (c : Dev Cert.KernelIdeal.nD) :
    Cert.KernelIdeal.Gen.W59 m ρ c (Proc.devRef .tc Cert.KernelIdeal.main_v354) = (Host.reduceAdd
          (concatenate Cert.KernelIdeal.S4x64x64 0 [⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![0, 0, 0] (m' ((c.tc : Thread Cert.ReferenceIdeal.nD Cert.ReferenceIdeal.τ).loc Cert.ReferenceIdeal.main_arg14)) Cert.KernelIdeal.Gen.slices_S8x64x64_S1x64x64_0_0_0) Cert.KernelIdeal.Gen.shapeCasts_S1x64x64_S64x64 i) Cert.KernelIdeal.Gen.transposes_S64x64_S64x64_1_0)⟩,
            ⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![2, 0, 0] (m' ((c.tc : Thread Cert.ReferenceIdeal.nD Cert.ReferenceIdeal.τ).loc Cert.ReferenceIdeal.main_arg14)) Cert.KernelIdeal.Gen.slices_S8x64x64_S1x64x64_2_0_0) Cert.KernelIdeal.Gen.shapeCasts_S1x64x64_S64x64 i) Cert.KernelIdeal.Gen.transposes_S64x64_S64x64_1_0)⟩,
            ⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![4, 0, 0] (m' ((c.tc : Thread Cert.ReferenceIdeal.nD Cert.ReferenceIdeal.τ).loc Cert.ReferenceIdeal.main_arg14)) Cert.KernelIdeal.Gen.slices_S8x64x64_S1x64x64_4_0_0) Cert.KernelIdeal.Gen.shapeCasts_S1x64x64_S64x64 i) Cert.KernelIdeal.Gen.transposes_S64x64_S64x64_1_0)⟩,
            ⟨Cert.KernelIdeal.S1x64x64, broadcastInDim Cert.KernelIdeal.S1x64x64 ![1, 2] Cert.KernelIdeal.Gen.bcast_S64x64_S1x64x64_1_2 (transpose Cert.KernelIdeal.S64x64 [1, 0] (fun i => shapeCast Cert.KernelIdeal.S64x64 (extractStridedSlice Cert.KernelIdeal.S1x64x64 ![6, 0, 0] (m' ((c.tc : Thread Cert.ReferenceIdeal.nD Cert.ReferenceIdeal.τ).loc Cert.ReferenceIdeal.main_arg14)) Cert.KernelIdeal.Gen.slices_S8x64x64_S1x64x64_6_0_0) Cert.KernelIdeal.Gen.shapeCasts_S1x64x64_S64x64 i) Cert.KernelIdeal.Gen.transposes_S64x64_S64x64_1_0)⟩]
            Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_) := by
  rw [Cert.KernelIdeal.Gen.keep_v354_59 m ρ c]
  show StableHlo.after Cert.KernelIdeal.Gen.hostOps7 (Cert.KernelIdeal.Gen.W41 m ρ c) (Proc.devRef .tc Cert.KernelIdeal.main_v354) = _
  rw [k354_of]
  show Host.reduceAdd
          (concatenate Cert.KernelIdeal.S4x64x64 0 [⟨Cert.KernelIdeal.S1x64x64, Cert.KernelIdeal.Gen.W42 m ρ c (Proc.devRef .tc Cert.KernelIdeal.main_v349)⟩, ⟨Cert.KernelIdeal.S1x64x64, Cert.KernelIdeal.Gen.W42 m ρ c (Proc.devRef .tc Cert.KernelIdeal.main_v350)⟩,
            ⟨Cert.KernelIdeal.S1x64x64, Cert.KernelIdeal.Gen.W42 m ρ c (Proc.devRef .tc Cert.KernelIdeal.main_v351)⟩, ⟨Cert.KernelIdeal.S1x64x64, Cert.KernelIdeal.Gen.W42 m ρ c (Proc.devRef .tc Cert.KernelIdeal.main_v352)⟩] Cert.KernelIdeal.Gen.concatenates_S1x64x64_S1x64x64_S1x64x64_S1x64x64_S4x64x64_d0)
          (constant (F := Ideal) Cert.KernelIdeal.S_ .f32 0x00000000#32) Cert.KernelIdeal.Gen.reducesTo_S4x64x64_S64x64_d0 Cert.KernelIdeal.Gen.h_S_ = _
  rw [k349 m ρ m' h14 c, k350 m ρ m' h14 c, k351 m ρ m' h14 c, k352 m ρ m' h14 c]

/-! ## The reference's buffers, read one window at a time -/

/-! ### The layer-2 weights and biases of the four edge types into the 50000-row node type -/

set_option maxHeartbeats 2000000 in
theorem r307 (m' : (ℓ : Loc Cert.ReferenceIdeal.nD Cert.ReferenceIdeal.τ Cert.ReferenceIdeal.sig) → Buf (Elt Ideal) ℓ) (c : Dev Cert.ReferenceIdeal.nD) : Cert.ReferenceIdeal.Value.U6 m' c (Proc.devRef .tc Cert.ReferenceIdeal.main_v307) = (fun i => shapeCast Cert.ReferenceIdeal.S64x64 (extractStridedSlice Cert.ReferenceIdeal.S1x64x64 ![0, 0, 0] (m' ((c.tc : Thread Cert.ReferenceIdeal.nD Cert.ReferenceIdeal.τ).loc Cert.ReferenceIdeal.main_arg12)) Cert.ReferenceIdeal.Gen.slices_S8x64x64_S1x64x64_0_0_0) Cert.ReferenceIdeal.Gen.shapeCasts_S1x64x64_S64x64 i) := by
  have e : Cert.ReferenceIdeal.Value.U5 m' c (Proc.devRef .tc Cert.ReferenceIdeal.main_arg12) = (m' ((c.tc : Thread Cert.ReferenceIdeal.nD Cert.ReferenceIdeal.τ).loc Cert.ReferenceIdeal.main_arg12)) := (Cert.ReferenceIdeal.Value.U5_of m' c Cert.ReferenceIdeal.main_arg12 (by decide)).trans <| (Cert.ReferenceIdeal.Value.U4_of m' c Cert.ReferenceIdeal.main_arg12 (by decide)).trans <| (Cert.ReferenceIdeal.Value.U3_of m' c Cert.ReferenceIdeal.main_arg12 (by decide)).trans <| (Cert.ReferenceIdeal.Value.U2_of m' c Cert.ReferenceIdeal.main_arg12 (by decide)).trans <| (Cert.ReferenceIdeal.Value.U1_of m' c Cert.ReferenceIdeal.main_arg12 (by decide)).trans <| rfl
  rw [← e]
  show StableHlo.after Cert.ReferenceIdeal.Value.ops5 (Cert.ReferenceIdeal.Value.U5 m' c) (Proc.devRef .tc Cert.ReferenceIdeal.main_v307) = _
  generalize Cert.ReferenceIdeal.Value.U5 m' c = V
  after_results_simp <;> rfl

set_option maxHeartbeats 2000000 in
theorem r309 (m' : (ℓ : Loc Cert.ReferenceIdeal.nD Cert.ReferenceIdeal.τ Cert.ReferenceIdeal.sig) → Buf (Elt Ideal) ℓ) (c : Dev Cert.ReferenceIdeal.nD) : Cert.ReferenceIdeal.Value.U6 m' c (Proc.devRef .tc Cert.ReferenceIdeal.main_v309) = (fun i => shapeCast Cert.ReferenceIdeal.S64 (extractStridedSlice Cert.ReferenceIdeal.S1x64 ![0, 0] (m' ((c.tc : Thread Cert.ReferenceIdeal.nD Cert.ReferenceIdeal.τ).loc Cert.ReferenceIdeal.main_arg13)) Cert.ReferenceIdeal.Gen.slices_S8x64_S1x64_0_0) Cert.ReferenceIdeal.Gen.shapeCasts_S1x64_S64 i) := by
  have e : Cert.ReferenceIdeal.Value.U5 m' c (Proc.devRef .tc Cert.ReferenceIdeal.main_arg13) = (m' ((c.tc : Thread Cert.ReferenceIdeal.nD Cert.ReferenceIdeal.τ).loc Cert.ReferenceIdeal.main_arg13)) := (Cert.ReferenceIdeal.Value.U5_of m' c Cert.ReferenceIdeal.main_arg13 (by decide)).trans <| (Cert.ReferenceIdeal.Value.U4_of m' c Cert.ReferenceIdeal.main_arg13 (by decide)).trans <| (Cert.ReferenceIdeal.Value.U3_of m' c Cert.ReferenceIdeal.main_arg13 (by decide)).trans <| (Cert.ReferenceIdeal.Value.U2_of m' c Cert.ReferenceIdeal.main_arg13 (by decide)).trans <| (Cert.ReferenceIdeal.Value.U1_of m' c Cert.ReferenceIdeal.main_arg13 (by decide)).trans <| rfl
  rw [← e]
  show StableHlo.after Cert.ReferenceIdeal.Value.ops5 (Cert.ReferenceIdeal.Value.U5 m' c) (Proc.devRef .tc Cert.ReferenceIdeal.main_v309) = _
  generalize Cert.ReferenceIdeal.Value.U5 m' c = V
  after_results_simp <;> rfl

set_option maxHeartbeats 2000000 in
theorem r311 (m' : (ℓ : Loc Cert.ReferenceIdeal.nD Cert.ReferenceIdeal.τ Cert.ReferenceIdeal.sig) → Buf (Elt Ideal) ℓ) (c : Dev Cert.ReferenceIdeal.nD) : Cert.ReferenceIdeal.Value.U6 m' c (Proc.devRef .tc Cert.ReferenceIdeal.main_v311) = (fun i => shapeCast Cert.ReferenceIdeal.S64x64 (extractStridedSlice Cert.ReferenceIdeal.S1x64x64 ![0, 0, 0] (m' ((c.tc : Thread Cert.ReferenceIdeal.nD Cert.ReferenceIdeal.τ).loc Cert.ReferenceIdeal.main_arg14)) Cert.ReferenceIdeal.Gen.slices_S8x64x64_S1x64x64_0_0_0) Cert.ReferenceIdeal.Gen.shapeCasts_S1x64x64_S64x64 i) := by
  have e : Cert.ReferenceIdeal.Value.U5 m' c (Proc.devRef .tc Cert.ReferenceIdeal.main_arg14) = (m' ((c.tc : Thread Cert.ReferenceIdeal.nD Cert.ReferenceIdeal.τ).loc Cert.ReferenceIdeal.main_arg14)) := (Cert.ReferenceIdeal.Value.U5_of m' c Cert.ReferenceIdeal.main_arg14 (by decide)).trans <| (Cert.ReferenceIdeal.Value.U4_of m' c Cert.ReferenceIdeal.main_arg14 (by decide)).trans <| (Cert.ReferenceIdeal.Value.U3_of m' c Cert.ReferenceIdeal.main_arg14 (by decide)).trans <| (Cert.ReferenceIdeal.Value.U2_of m' c Cert.ReferenceIdeal.main_arg14 (by decide)).trans <| (Cert.ReferenceIdeal.Value.U1_of m' c Cert.ReferenceIdeal.main_arg14 (by decide)).trans <| rfl
  rw [← e]
  show StableHlo.after Cert.ReferenceIdeal.Value.ops5 (Cert.ReferenceIdeal.Value.U5 m' c) (Proc.devRef .tc Cert.ReferenceIdeal.main_v311) = _
  generalize Cert.ReferenceIdeal.Value.U5 m' c = V
  after_results_simp <;> rfl

set_option maxHeartbeats 2000000 in
theorem r371 (m' : (ℓ : Loc Cert.ReferenceIdeal.nD Cert.ReferenceIdeal.τ Cert.ReferenceIdeal.sig) → Buf (Elt Ideal) ℓ) (c : Dev Cert.ReferenceIdeal.nD) : Cert.ReferenceIdeal.Value.U8 m' c (Proc.devRef .tc Cert.ReferenceIdeal.main_v371) = (fun i => shapeCast Cert.ReferenceIdeal.S64x64 (extractStridedSlice Cert.ReferenceIdeal.S1x64x64 ![2, 0, 0] (m' ((c.tc : Thread Cert.ReferenceIdeal.nD Cert.ReferenceIdeal.τ).loc Cert.ReferenceIdeal.main_arg12)) Cert.ReferenceIdeal.Gen.slices_S8x64x64_S1x64x64_2_0_0) Cert.ReferenceIdeal.Gen.shapeCasts_S1x64x64_S64x64 i) := by
  have e : Cert.ReferenceIdeal.Value.U7 m' c (Proc.devRef .tc Cert.ReferenceIdeal.main_arg12) = (m' ((c.tc : Thread Cert.ReferenceIdeal.nD Cert.ReferenceIdeal.τ).loc Cert.ReferenceIdeal.main_arg12)) := (Cert.ReferenceIdeal.Value.U7_of m' c Cert.ReferenceIdeal.main_arg12 (by decide)).trans <| (Cert.ReferenceIdeal.Value.U6_of m' c Cert.ReferenceIdeal.main_arg12 (by decide)).trans <| (Cert.ReferenceIdeal.Value.U5_of m' c Cert.ReferenceIdeal.main_arg12 (by decide)).trans <| (Cert.ReferenceIdeal.Value.U4_of m' c Cert.ReferenceIdeal.main_arg12 (by decide)).trans <| (Cert.ReferenceIdeal.Value.U3_of m' c Cert.ReferenceIdeal.main_arg12 (by decide)).trans <| (Cert.ReferenceIdeal.Value.U2_of m' c Cert.ReferenceIdeal.main_arg12 (by decide)).trans <| (Cert.ReferenceIdeal.Value.U1_of m' c Cert.ReferenceIdeal.main_arg12 (by decide)).trans <| rfl
  rw [← e]
  show StableHlo.after Cert.ReferenceIdeal.Value.ops7 (Cert.ReferenceIdeal.Value.U7 m' c) (Proc.devRef .tc Cert.ReferenceIdeal.main_v371) = _
  generalize Cert.ReferenceIdeal.Value.U7 m' c = V
  after_results_simp <;> rfl

set_option maxHeartbeats 2000000 in
theorem r373 (m' : (ℓ : Loc Cert.ReferenceIdeal.nD Cert.ReferenceIdeal.τ Cert.ReferenceIdeal.sig) → Buf (Elt Ideal) ℓ) (c : Dev Cert.ReferenceIdeal.nD) : Cert.ReferenceIdeal.Value.U8 m' c (Proc.devRef .tc Cert.ReferenceIdeal.main_v373) = (fun i => shapeCast Cert.ReferenceIdeal.S64 (extractStridedSlice Cert.ReferenceIdeal.S1x64 ![2, 0] (m' ((c.tc : Thread Cert.ReferenceIdeal.nD Cert.ReferenceIdeal.τ).loc Cert.ReferenceIdeal.main_arg13)) Cert.ReferenceIdeal.Gen.slices_S8x64_S1x64_2_0) Cert.ReferenceIdeal.Gen.shapeCasts_S1x64_S64 i) := by
  have e : Cert.ReferenceIdeal.Value.U7 m' c (Proc.devRef .tc Cert.ReferenceIdeal.main_arg13) = (m' ((c.tc : Thread Cert.ReferenceIdeal.nD Cert.ReferenceIdeal.τ).loc Cert.ReferenceIdeal.main_arg13)) := (Cert.ReferenceIdeal.Value.U7_of m' c Cert.ReferenceIdeal.main_arg13 (by decide)).trans <| (Cert.ReferenceIdeal.Value.U6_of m' c Cert.ReferenceIdeal.main_arg13 (by decide)).trans <| (Cert.ReferenceIdeal.Value.U5_of m' c Cert.ReferenceIdeal.main_arg13 (by decide)).trans <| (Cert.ReferenceIdeal.Value.U4_of m' c Cert.ReferenceIdeal.main_arg13 (by decide)).trans <| (Cert.ReferenceIdeal.Value.U3_of m' c Cert.ReferenceIdeal.main_arg13 (by decide)).trans <| (Cert.ReferenceIdeal.Value.U2_of m' c Cert.ReferenceIdeal.main_arg13 (by decide)).trans <| (Cert.ReferenceIdeal.Value.U1_of m' c Cert.ReferenceIdeal.main_arg13 (by decide)).trans <| rfl
  rw [← e]
  show StableHlo.after Cert.ReferenceIdeal.Value.ops7 (Cert.ReferenceIdeal.Value.U7 m' c) (Proc.devRef .tc Cert.ReferenceIdeal.main_v373) = _
  generalize Cert.ReferenceIdeal.Value.U7 m' c = V
  after_results_simp <;> rfl

set_option maxHeartbeats 2000000 in
theorem r375 (m' : (ℓ : Loc Cert.ReferenceIdeal.nD Cert.ReferenceIdeal.τ Cert.ReferenceIdeal.sig) → Buf (Elt Ideal) ℓ) (c : Dev Cert.ReferenceIdeal.nD) : Cert.ReferenceIdeal.Value.U8 m' c (Proc.devRef .tc Cert.ReferenceIdeal.main_v375) = (fun i => shapeCast Cert.ReferenceIdeal.S64x64 (extractStridedSlice Cert.ReferenceIdeal.S1x64x64 ![2, 0, 0] (m' ((c.tc : Thread Cert.ReferenceIdeal.nD Cert.ReferenceIdeal.τ).loc Cert.ReferenceIdeal.main_arg14)) Cert.ReferenceIdeal.Gen.slices_S8x64x64_S1x64x64_2_0_0) Cert.ReferenceIdeal.Gen.shapeCasts_S1x64x64_S64x64 i) := by
  have e : Cert.ReferenceIdeal.Value.U7 m' c (Proc.devRef .tc Cert.ReferenceIdeal.main_arg14) = (m' ((c.tc : Thread Cert.ReferenceIdeal.nD Cert.ReferenceIdeal.τ).loc Cert.ReferenceIdeal.main_arg14)) := (Cert.ReferenceIdeal.Value.U7_of m' c Cert.ReferenceIdeal.main_arg14 (by decide)).trans <| (Cert.ReferenceIdeal.Value.U6_of m' c Cert.ReferenceIdeal.main_arg14 (by decide)).trans <| (Cert.ReferenceIdeal.Value.U5_of m' c Cert.ReferenceIdeal.main_arg14 (by decide)).trans <| (Cert.ReferenceIdeal.Value.U4_of m' c Cert.ReferenceIdeal.main_arg14 (by decide)).trans <| (Cert.ReferenceIdeal.Value.U3_of m' c Cert.ReferenceIdeal.main_arg14 (by decide)).trans <| (Cert.ReferenceIdeal.Value.U2_of m' c Cert.ReferenceIdeal.main_arg14 (by decide)).trans <| (Cert.ReferenceIdeal.Value.U1_of m' c Cert.ReferenceIdeal.main_arg14 (by decide)).trans <| rfl
  rw [← e]
  show StableHlo.after Cert.ReferenceIdeal.Value.ops7 (Cert.ReferenceIdeal.Value.U7 m' c) (Proc.devRef .tc Cert.ReferenceIdeal.main_v375) = _
  generalize Cert.ReferenceIdeal.Value.U7 m' c = V
  after_results_simp <;> rfl

set_option maxHeartbeats 2000000 in
theorem r436 (m' : (ℓ : Loc Cert.ReferenceIdeal.nD Cert.ReferenceIdeal.τ Cert.ReferenceIdeal.sig) → Buf (Elt Ideal) ℓ) (c : Dev Cert.ReferenceIdeal.nD) : Cert.ReferenceIdeal.Value.U9 m' c (Proc.devRef .tc Cert.ReferenceIdeal.main_v436) = (fun i => shapeCast Cert.ReferenceIdeal.S64x64 (extractStridedSlice Cert.ReferenceIdeal.S1x64x64 ![4, 0, 0] (m' ((c.tc : Thread Cert.ReferenceIdeal.nD Cert.ReferenceIdeal.τ).loc Cert.ReferenceIdeal.main_arg12)) Cert.ReferenceIdeal.Gen.slices_S8x64x64_S1x64x64_4_0_0) Cert.ReferenceIdeal.Gen.shapeCasts_S1x64x64_S64x64 i) := by
  have e : Cert.ReferenceIdeal.Value.U8 m' c (Proc.devRef .tc Cert.ReferenceIdeal.main_arg12) = (m' ((c.tc : Thread Cert.ReferenceIdeal.nD Cert.ReferenceIdeal.τ).loc Cert.ReferenceIdeal.main_arg12)) := (Cert.ReferenceIdeal.Value.U8_of m' c Cert.ReferenceIdeal.main_arg12 (by decide)).trans <| (Cert.ReferenceIdeal.Value.U7_of m' c Cert.ReferenceIdeal.main_arg12 (by decide)).trans <| (Cert.ReferenceIdeal.Value.U6_of m' c Cert.ReferenceIdeal.main_arg12 (by decide)).trans <| (Cert.ReferenceIdeal.Value.U5_of m' c Cert.ReferenceIdeal.main_arg12 (by decide)).trans <| (Cert.ReferenceIdeal.Value.U4_of m' c Cert.ReferenceIdeal.main_arg12 (by decide)).trans <| (Cert.ReferenceIdeal.Value.U3_of m' c Cert.ReferenceIdeal.main_arg12 (by decide)).trans <| (Cert.ReferenceIdeal.Value.U2_of m' c Cert.ReferenceIdeal.main_arg12 (by decide)).trans <| (Cert.ReferenceIdeal.Value.U1_of m' c Cert.ReferenceIdeal.main_arg12 (by decide)).trans <| rfl
  rw [← e]
  show StableHlo.after Cert.ReferenceIdeal.Value.ops8 (Cert.ReferenceIdeal.Value.U8 m' c) (Proc.devRef .tc Cert.ReferenceIdeal.main_v436) = _
  generalize Cert.ReferenceIdeal.Value.U8 m' c = V
  after_results_simp <;> rfl

set_option maxHeartbeats 2000000 in
theorem r438 (m' : (ℓ : Loc Cert.ReferenceIdeal.nD Cert.ReferenceIdeal.τ Cert.ReferenceIdeal.sig) → Buf (Elt Ideal) ℓ) (c : Dev Cert.ReferenceIdeal.nD) : Cert.ReferenceIdeal.Value.U9 m' c (Proc.devRef .tc Cert.ReferenceIdeal.main_v438) = (fun i => shapeCast Cert.ReferenceIdeal.S64 (extractStridedSlice Cert.ReferenceIdeal.S1x64 ![4, 0] (m' ((c.tc : Thread Cert.ReferenceIdeal.nD Cert.ReferenceIdeal.τ).loc Cert.ReferenceIdeal.main_arg13)) Cert.ReferenceIdeal.Gen.slices_S8x64_S1x64_4_0) Cert.ReferenceIdeal.Gen.shapeCasts_S1x64_S64 i) := by
  have e : Cert.ReferenceIdeal.Value.U8 m' c (Proc.devRef .tc Cert.ReferenceIdeal.main_arg13) = (m' ((c.tc : Thread Cert.ReferenceIdeal.nD Cert.ReferenceIdeal.τ).loc Cert.ReferenceIdeal.main_arg13)) := (Cert.ReferenceIdeal.Value.U8_of m' c Cert.ReferenceIdeal.main_arg13 (by decide)).trans <| (Cert.ReferenceIdeal.Value.U7_of m' c Cert.ReferenceIdeal.main_arg13 (by decide)).trans <| (Cert.ReferenceIdeal.Value.U6_of m' c Cert.ReferenceIdeal.main_arg13 (by decide)).trans <| (Cert.ReferenceIdeal.Value.U5_of m' c Cert.ReferenceIdeal.main_arg13 (by decide)).trans <| (Cert.ReferenceIdeal.Value.U4_of m' c Cert.ReferenceIdeal.main_arg13 (by decide)).trans <| (Cert.ReferenceIdeal.Value.U3_of m' c Cert.ReferenceIdeal.main_arg13 (by decide)).trans <| (Cert.ReferenceIdeal.Value.U2_of m' c Cert.ReferenceIdeal.main_arg13 (by decide)).trans <| (Cert.ReferenceIdeal.Value.U1_of m' c Cert.ReferenceIdeal.main_arg13 (by decide)).trans <| rfl
  rw [← e]
  show StableHlo.after Cert.ReferenceIdeal.Value.ops8 (Cert.ReferenceIdeal.Value.U8 m' c) (Proc.devRef .tc Cert.ReferenceIdeal.main_v438) = _
  generalize Cert.ReferenceIdeal.Value.U8 m' c = V
  after_results_simp <;> rfl

set_option maxHeartbeats 2000000 in
theorem r440 (m' : (ℓ : Loc Cert.ReferenceIdeal.nD Cert.ReferenceIdeal.τ Cert.ReferenceIdeal.sig) → Buf (Elt Ideal) ℓ) (c : Dev Cert.ReferenceIdeal.nD) : Cert.ReferenceIdeal.Value.U9 m' c (Proc.devRef .tc Cert.ReferenceIdeal.main_v440) = (fun i => shapeCast Cert.ReferenceIdeal.S64x64 (extractStridedSlice Cert.ReferenceIdeal.S1x64x64 ![4, 0, 0] (m' ((c.tc : Thread Cert.ReferenceIdeal.nD Cert.ReferenceIdeal.τ).loc Cert.ReferenceIdeal.main_arg14)) Cert.ReferenceIdeal.Gen.slices_S8x64x64_S1x64x64_4_0_0) Cert.ReferenceIdeal.Gen.shapeCasts_S1x64x64_S64x64 i) := by
  have e : Cert.ReferenceIdeal.Value.U8 m' c (Proc.devRef .tc Cert.ReferenceIdeal.main_arg14) = (m' ((c.tc : Thread Cert.ReferenceIdeal.nD Cert.ReferenceIdeal.τ).loc Cert.ReferenceIdeal.main_arg14)) := (Cert.ReferenceIdeal.Value.U8_of m' c Cert.ReferenceIdeal.main_arg14 (by decide)).trans <| (Cert.ReferenceIdeal.Value.U7_of m' c Cert.ReferenceIdeal.main_arg14 (by decide)).trans <| (Cert.ReferenceIdeal.Value.U6_of m' c Cert.ReferenceIdeal.main_arg14 (by decide)).trans <| (Cert.ReferenceIdeal.Value.U5_of m' c Cert.ReferenceIdeal.main_arg14 (by decide)).trans <| (Cert.ReferenceIdeal.Value.U4_of m' c Cert.ReferenceIdeal.main_arg14 (by decide)).trans <| (Cert.ReferenceIdeal.Value.U3_of m' c Cert.ReferenceIdeal.main_arg14 (by decide)).trans <| (Cert.ReferenceIdeal.Value.U2_of m' c Cert.ReferenceIdeal.main_arg14 (by decide)).trans <| (Cert.ReferenceIdeal.Value.U1_of m' c Cert.ReferenceIdeal.main_arg14 (by decide)).trans <| rfl
  rw [← e]
  show StableHlo.after Cert.ReferenceIdeal.Value.ops8 (Cert.ReferenceIdeal.Value.U8 m' c) (Proc.devRef .tc Cert.ReferenceIdeal.main_v440) = _
  generalize Cert.ReferenceIdeal.Value.U8 m' c = V
  after_results_simp <;> rfl

set_option maxHeartbeats 2000000 in
theorem r501 (m' : (ℓ : Loc Cert.ReferenceIdeal.nD Cert.ReferenceIdeal.τ Cert.ReferenceIdeal.sig) → Buf (Elt Ideal) ℓ) (c : Dev Cert.ReferenceIdeal.nD) : Cert.ReferenceIdeal.Value.U10 m' c (Proc.devRef .tc Cert.ReferenceIdeal.main_v501) = (fun i => shapeCast Cert.ReferenceIdeal.S64x64 (extractStridedSlice Cert.ReferenceIdeal.S1x64x64 ![6, 0, 0] (m' ((c.tc : Thread Cert.ReferenceIdeal.nD Cert.ReferenceIdeal.τ).loc Cert.ReferenceIdeal.main_arg12)) Cert.ReferenceIdeal.Gen.slices_S8x64x64_S1x64x64_6_0_0) Cert.ReferenceIdeal.Gen.shapeCasts_S1x64x64_S64x64 i) := by
  have e : Cert.ReferenceIdeal.Value.U9 m' c (Proc.devRef .tc Cert.ReferenceIdeal.main_arg12) = (m' ((c.tc : Thread Cert.ReferenceIdeal.nD Cert.ReferenceIdeal.τ).loc Cert.ReferenceIdeal.main_arg12)) := (Cert.ReferenceIdeal.Value.U9_of m' c Cert.ReferenceIdeal.main_arg12 (by decide)).trans <| (Cert.ReferenceIdeal.Value.U8_of m' c Cert.ReferenceIdeal.main_arg12 (by decide)).trans <| (Cert.ReferenceIdeal.Value.U7_of m' c Cert.ReferenceIdeal.main_arg12 (by decide)).trans <| (Cert.ReferenceIdeal.Value.U6_of m' c Cert.ReferenceIdeal.main_arg12 (by decide)).trans <| (Cert.ReferenceIdeal.Value.U5_of m' c Cert.ReferenceIdeal.main_arg12 (by decide)).trans <| (Cert.ReferenceIdeal.Value.U4_of m' c Cert.ReferenceIdeal.main_arg12 (by decide)).trans <| (Cert.ReferenceIdeal.Value.U3_of m' c Cert.ReferenceIdeal.main_arg12 (by decide)).trans <| (Cert.ReferenceIdeal.Value.U2_of m' c Cert.ReferenceIdeal.main_arg12 (by decide)).trans <| (Cert.ReferenceIdeal.Value.U1_of m' c Cert.ReferenceIdeal.main_arg12 (by decide)).trans <| rfl
  rw [← e]
  show StableHlo.after Cert.ReferenceIdeal.Value.ops9 (Cert.ReferenceIdeal.Value.U9 m' c) (Proc.devRef .tc Cert.ReferenceIdeal.main_v501) = _
  generalize Cert.ReferenceIdeal.Value.U9 m' c = V
  after_results_simp <;> rfl

set_option maxHeartbeats 2000000 in
theorem r503 (m' : (ℓ : Loc Cert.ReferenceIdeal.nD Cert.ReferenceIdeal.τ Cert.ReferenceIdeal.sig) → Buf (Elt Ideal) ℓ) (c : Dev Cert.ReferenceIdeal.nD) : Cert.ReferenceIdeal.Value.U10 m' c (Proc.devRef .tc Cert.ReferenceIdeal.main_v503) = (fun i => shapeCast Cert.ReferenceIdeal.S64 (extractStridedSlice Cert.ReferenceIdeal.S1x64 ![6, 0] (m' ((c.tc : Thread Cert.ReferenceIdeal.nD Cert.ReferenceIdeal.τ).loc Cert.ReferenceIdeal.main_arg13)) Cert.ReferenceIdeal.Gen.slices_S8x64_S1x64_6_0) Cert.ReferenceIdeal.Gen.shapeCasts_S1x64_S64 i) := by
  have e : Cert.ReferenceIdeal.Value.U9 m' c (Proc.devRef .tc Cert.ReferenceIdeal.main_arg13) = (m' ((c.tc : Thread Cert.ReferenceIdeal.nD Cert.ReferenceIdeal.τ).loc Cert.ReferenceIdeal.main_arg13)) := (Cert.ReferenceIdeal.Value.U9_of m' c Cert.ReferenceIdeal.main_arg13 (by decide)).trans <| (Cert.ReferenceIdeal.Value.U8_of m' c Cert.ReferenceIdeal.main_arg13 (by decide)).trans <| (Cert.ReferenceIdeal.Value.U7_of m' c Cert.ReferenceIdeal.main_arg13 (by decide)).trans <| (Cert.ReferenceIdeal.Value.U6_of m' c Cert.ReferenceIdeal.main_arg13 (by decide)).trans <| (Cert.ReferenceIdeal.Value.U5_of m' c Cert.ReferenceIdeal.main_arg13 (by decide)).trans <| (Cert.ReferenceIdeal.Value.U4_of m' c Cert.ReferenceIdeal.main_arg13 (by decide)).trans <| (Cert.ReferenceIdeal.Value.U3_of m' c Cert.ReferenceIdeal.main_arg13 (by decide)).trans <| (Cert.ReferenceIdeal.Value.U2_of m' c Cert.ReferenceIdeal.main_arg13 (by decide)).trans <| (Cert.ReferenceIdeal.Value.U1_of m' c Cert.ReferenceIdeal.main_arg13 (by decide)).trans <| rfl
  rw [← e]
  show StableHlo.after Cert.ReferenceIdeal.Value.ops9 (Cert.ReferenceIdeal.Value.U9 m' c) (Proc.devRef .tc Cert.ReferenceIdeal.main_v503) = _
  generalize Cert.ReferenceIdeal.Value.U9 m' c = V
  after_results_simp <;> rfl

set_option maxHeartbeats 2000000 in
theorem r505 (m' : (ℓ : Loc Cert.ReferenceIdeal.nD Cert.ReferenceIdeal.τ Cert.ReferenceIdeal.sig) → Buf (Elt Ideal) ℓ) (c : Dev Cert.ReferenceIdeal.nD) : Cert.ReferenceIdeal.Value.U10 m' c (Proc.devRef .tc Cert.ReferenceIdeal.main_v505) = (fun i => shapeCast Cert.ReferenceIdeal.S64x64 (extractStridedSlice Cert.ReferenceIdeal.S1x64x64 ![6, 0, 0] (m' ((c.tc : Thread Cert.ReferenceIdeal.nD Cert.ReferenceIdeal.τ).loc Cert.ReferenceIdeal.main_arg14)) Cert.ReferenceIdeal.Gen.slices_S8x64x64_S1x64x64_6_0_0) Cert.ReferenceIdeal.Gen.shapeCasts_S1x64x64_S64x64 i) := by
  have e : Cert.ReferenceIdeal.Value.U9 m' c (Proc.devRef .tc Cert.ReferenceIdeal.main_arg14) = (m' ((c.tc : Thread Cert.ReferenceIdeal.nD Cert.ReferenceIdeal.τ).loc Cert.ReferenceIdeal.main_arg14)) := (Cert.ReferenceIdeal.Value.U9_of m' c Cert.ReferenceIdeal.main_arg14 (by decide)).trans <| (Cert.ReferenceIdeal.Value.U8_of m' c Cert.ReferenceIdeal.main_arg14 (by decide)).trans <| (Cert.ReferenceIdeal.Value.U7_of m' c Cert.ReferenceIdeal.main_arg14 (by decide)).trans <| (Cert.ReferenceIdeal.Value.U6_of m' c Cert.ReferenceIdeal.main_arg14 (by decide)).trans <| (Cert.ReferenceIdeal.Value.U5_of m' c Cert.ReferenceIdeal.main_arg14 (by decide)).trans <| (Cert.ReferenceIdeal.Value.U4_of m' c Cert.ReferenceIdeal.main_arg14 (by decide)).trans <| (Cert.ReferenceIdeal.Value.U3_of m' c Cert.ReferenceIdeal.main_arg14 (by decide)).trans <| (Cert.ReferenceIdeal.Value.U2_of m' c Cert.ReferenceIdeal.main_arg14 (by decide)).trans <| (Cert.ReferenceIdeal.Value.U1_of m' c Cert.ReferenceIdeal.main_arg14 (by decide)).trans <| rfl
  rw [← e]
  show StableHlo.after Cert.ReferenceIdeal.Value.ops9 (Cert.ReferenceIdeal.Value.U9 m' c) (Proc.devRef .tc Cert.ReferenceIdeal.main_v505) = _
  generalize Cert.ReferenceIdeal.Value.U9 m' c = V
  after_results_simp <;> rfl

/-! ### The layer's sum, edge type by edge type -/

set_option maxHeartbeats 4000000 in
/-- The first edge type's term. -/
theorem r337 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U7 m' c (Proc.devRef .tc Cert.ReferenceIdeal.main_v337) = refTerm (Cert.ReferenceIdeal.Value.U7 m' c (Proc.devRef .tc Cert.ReferenceIdeal.main_v321) : FVec Ideal Cert.ReferenceIdeal.S50000x64 .f32) (Cert.ReferenceIdeal.Value.U7 m' c (Proc.devRef .tc Cert.ReferenceIdeal.main_v325) : FVec Ideal Cert.ReferenceIdeal.S50000x1 .f32) (Cert.ReferenceIdeal.Value.U6 m' c (Proc.devRef .tc Cert.ReferenceIdeal.main_v302) : FVec Ideal Cert.ReferenceIdeal.S50000x64 .f32)
      (transpose (α := Ideal .f32) Cert.ReferenceIdeal.S64x64 [1, 0] (Cert.ReferenceIdeal.Value.U6 m' c (Proc.devRef .tc Cert.ReferenceIdeal.main_v307) : FVec Ideal Cert.ReferenceIdeal.S64x64 .f32) Cert.ReferenceIdeal.Gen.transposes_S64x64_S64x64_1_0) (Cert.ReferenceIdeal.Value.U6 m' c (Proc.devRef .tc Cert.ReferenceIdeal.main_v309) : FVec Ideal Cert.ReferenceIdeal.S64 .f32) (transpose (α := Ideal .f32) Cert.ReferenceIdeal.S64x64 [1, 0] (Cert.ReferenceIdeal.Value.U6 m' c (Proc.devRef .tc Cert.ReferenceIdeal.main_v311) : FVec Ideal Cert.ReferenceIdeal.S64x64 .f32) Cert.ReferenceIdeal.Gen.transposes_S64x64_S64x64_1_0) := by
  unfold refTerm refTermC
  dsimp only [Cert.ReferenceIdeal.Value.U7]
  generalize Cert.ReferenceIdeal.Value.U6 m' c = V
  after_results_simp

set_option maxHeartbeats 4000000 in
/-- The first two edge types' terms added. -/
theorem r402 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U8 m' c (Proc.devRef .tc Cert.ReferenceIdeal.main_v402) = addf (Cert.ReferenceIdeal.Value.U7 m' c (Proc.devRef .tc Cert.ReferenceIdeal.main_v337) : FVec Ideal Cert.ReferenceIdeal.S50000x64 .f32) (refTerm (Cert.ReferenceIdeal.Value.U8 m' c (Proc.devRef .tc Cert.ReferenceIdeal.main_v385) : FVec Ideal Cert.ReferenceIdeal.S50000x64 .f32) (Cert.ReferenceIdeal.Value.U8 m' c (Proc.devRef .tc Cert.ReferenceIdeal.main_v389) : FVec Ideal Cert.ReferenceIdeal.S50000x1 .f32) (Cert.ReferenceIdeal.Value.U7 m' c (Proc.devRef .tc Cert.ReferenceIdeal.main_v302) : FVec Ideal Cert.ReferenceIdeal.S50000x64 .f32)
      (transpose (α := Ideal .f32) Cert.ReferenceIdeal.S64x64 [1, 0] (Cert.ReferenceIdeal.Value.U8 m' c (Proc.devRef .tc Cert.ReferenceIdeal.main_v371) : FVec Ideal Cert.ReferenceIdeal.S64x64 .f32) Cert.ReferenceIdeal.Gen.transposes_S64x64_S64x64_1_0) (Cert.ReferenceIdeal.Value.U8 m' c (Proc.devRef .tc Cert.ReferenceIdeal.main_v373) : FVec Ideal Cert.ReferenceIdeal.S64 .f32) (transpose (α := Ideal .f32) Cert.ReferenceIdeal.S64x64 [1, 0] (Cert.ReferenceIdeal.Value.U8 m' c (Proc.devRef .tc Cert.ReferenceIdeal.main_v375) : FVec Ideal Cert.ReferenceIdeal.S64x64 .f32) Cert.ReferenceIdeal.Gen.transposes_S64x64_S64x64_1_0)) := by
  unfold refTerm refTermC
  dsimp only [Cert.ReferenceIdeal.Value.U8]
  generalize Cert.ReferenceIdeal.Value.U7 m' c = V
  after_results_simp

set_option maxHeartbeats 4000000 in
/-- The third edge type's neighbour-mean product, computed in the window before the one that adds it. -/
theorem r460 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U9 m' c (Proc.devRef .tc Cert.ReferenceIdeal.main_v460) = Host.dotGeneral (φ₁ := .f32) (φ₂ := .f32) Cert.ReferenceIdeal.dot_S50000x64_S64x64_S50000x64_1_0_0_1_n_n none
        (Host.divf (Cert.ReferenceIdeal.Value.U9 m' c (Proc.devRef .tc Cert.ReferenceIdeal.main_v450) : FVec Ideal Cert.ReferenceIdeal.S50000x64 .f32) (broadcastInDim Cert.ReferenceIdeal.S50000x64 ![0, 1] Cert.ReferenceIdeal.Gen.bcast_S50000x1_S50000x64_0_1
          (maximumf (Cert.ReferenceIdeal.Value.U9 m' c (Proc.devRef .tc Cert.ReferenceIdeal.main_v454) : FVec Ideal Cert.ReferenceIdeal.S50000x1 .f32) (broadcastInDim Cert.ReferenceIdeal.S50000x1 ![] Cert.ReferenceIdeal.Gen.bcast_S_S50000x1 (constant (F := Ideal) Cert.ReferenceIdeal.S_ .f32 0x3F800000#32)))))
        (transpose (α := Ideal .f32) Cert.ReferenceIdeal.S64x64 [1, 0] (Cert.ReferenceIdeal.Value.U9 m' c (Proc.devRef .tc Cert.ReferenceIdeal.main_v436) : FVec Ideal Cert.ReferenceIdeal.S64x64 .f32) Cert.ReferenceIdeal.Gen.transposes_S64x64_S64x64_1_0) := by
  dsimp only [Cert.ReferenceIdeal.Value.U9]
  generalize Cert.ReferenceIdeal.Value.U8 m' c = V
  after_results_simp

set_option maxHeartbeats 2000000 in
/-- The third edge type's bias as a row, from the same window. -/
theorem r461 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U9 m' c (Proc.devRef .tc Cert.ReferenceIdeal.main_v461) = broadcastInDim Cert.ReferenceIdeal.S1x64 ![1] Cert.ReferenceIdeal.Gen.bcast_S64_S1x64_1 (Cert.ReferenceIdeal.Value.U9 m' c (Proc.devRef .tc Cert.ReferenceIdeal.main_v438) : FVec Ideal Cert.ReferenceIdeal.S64 .f32) := by
  dsimp only [Cert.ReferenceIdeal.Value.U9]
  generalize Cert.ReferenceIdeal.Value.U8 m' c = V
  after_results_simp

set_option maxHeartbeats 4000000 in
/-- The first three edge types' terms added: the third's product and bias row come from the window before. -/
theorem r467 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U10 m' c (Proc.devRef .tc Cert.ReferenceIdeal.main_v467) = addf (Cert.ReferenceIdeal.Value.U9 m' c (Proc.devRef .tc Cert.ReferenceIdeal.main_v402) : FVec Ideal Cert.ReferenceIdeal.S50000x64 .f32) (addf (addf (Cert.ReferenceIdeal.Value.U9 m' c (Proc.devRef .tc Cert.ReferenceIdeal.main_v460) : FVec Ideal Cert.ReferenceIdeal.S50000x64 .f32)
        (broadcastInDim Cert.ReferenceIdeal.S50000x64 ![0, 1] Cert.ReferenceIdeal.Gen.bcast_S1x64_S50000x64_0_1 (Cert.ReferenceIdeal.Value.U9 m' c (Proc.devRef .tc Cert.ReferenceIdeal.main_v461) : FVec Ideal Cert.ReferenceIdeal.S1x64 .f32)))
        (Host.dotGeneral (φ₁ := .f32) (φ₂ := .f32) Cert.ReferenceIdeal.dot_S50000x64_S64x64_S50000x64_1_0_0_1_n_n none (Cert.ReferenceIdeal.Value.U9 m' c (Proc.devRef .tc Cert.ReferenceIdeal.main_v302) : FVec Ideal Cert.ReferenceIdeal.S50000x64 .f32) (transpose (α := Ideal .f32) Cert.ReferenceIdeal.S64x64 [1, 0] (Cert.ReferenceIdeal.Value.U9 m' c (Proc.devRef .tc Cert.ReferenceIdeal.main_v440) : FVec Ideal Cert.ReferenceIdeal.S64x64 .f32) Cert.ReferenceIdeal.Gen.transposes_S64x64_S64x64_1_0))) := by
  dsimp only [Cert.ReferenceIdeal.Value.U10]
  generalize Cert.ReferenceIdeal.Value.U9 m' c = V
  after_results_simp

/-- The first three edge types' terms added, the third as one term. -/
theorem r467' (m' : (ℓ : Loc Cert.ReferenceIdeal.nD Cert.ReferenceIdeal.τ Cert.ReferenceIdeal.sig) → Buf (Elt Ideal) ℓ) (c : Dev Cert.ReferenceIdeal.nD) :
    Cert.ReferenceIdeal.Value.U10 m' c (Proc.devRef .tc Cert.ReferenceIdeal.main_v467) = addf (Cert.ReferenceIdeal.Value.U9 m' c (Proc.devRef .tc Cert.ReferenceIdeal.main_v402) : FVec Ideal Cert.ReferenceIdeal.S50000x64 .f32) (refTerm (Cert.ReferenceIdeal.Value.U9 m' c (Proc.devRef .tc Cert.ReferenceIdeal.main_v450) : FVec Ideal Cert.ReferenceIdeal.S50000x64 .f32) (Cert.ReferenceIdeal.Value.U9 m' c (Proc.devRef .tc Cert.ReferenceIdeal.main_v454) : FVec Ideal Cert.ReferenceIdeal.S50000x1 .f32) (Cert.ReferenceIdeal.Value.U9 m' c (Proc.devRef .tc Cert.ReferenceIdeal.main_v302) : FVec Ideal Cert.ReferenceIdeal.S50000x64 .f32)
      (transpose (α := Ideal .f32) Cert.ReferenceIdeal.S64x64 [1, 0] (Cert.ReferenceIdeal.Value.U9 m' c (Proc.devRef .tc Cert.ReferenceIdeal.main_v436) : FVec Ideal Cert.ReferenceIdeal.S64x64 .f32) Cert.ReferenceIdeal.Gen.transposes_S64x64_S64x64_1_0) (Cert.ReferenceIdeal.Value.U9 m' c (Proc.devRef .tc Cert.ReferenceIdeal.main_v438) : FVec Ideal Cert.ReferenceIdeal.S64 .f32) (transpose (α := Ideal .f32) Cert.ReferenceIdeal.S64x64 [1, 0] (Cert.ReferenceIdeal.Value.U9 m' c (Proc.devRef .tc Cert.ReferenceIdeal.main_v440) : FVec Ideal Cert.ReferenceIdeal.S64x64 .f32) Cert.ReferenceIdeal.Gen.transposes_S64x64_S64x64_1_0)) := by
  unfold refTerm refTermC
  rw [r467 m' c, r460 m' c, r461 m' c]

set_option maxHeartbeats 4000000 in
/-- The layer's result for the 50000-row node type: the four terms added. -/
theorem r532 (m' : (ℓ : Loc Cert.ReferenceIdeal.nD Cert.ReferenceIdeal.τ Cert.ReferenceIdeal.sig) → Buf (Elt Ideal) ℓ) (c : Dev Cert.ReferenceIdeal.nD) :
    Cert.ReferenceIdeal.Value.U11 m' c (Proc.devRef .tc Cert.ReferenceIdeal.main_v532) = addf (Cert.ReferenceIdeal.Value.U10 m' c (Proc.devRef .tc Cert.ReferenceIdeal.main_v467) : FVec Ideal Cert.ReferenceIdeal.S50000x64 .f32) (refTerm (Cert.ReferenceIdeal.Value.U11 m' c (Proc.devRef .tc Cert.ReferenceIdeal.main_v515) : FVec Ideal Cert.ReferenceIdeal.S50000x64 .f32) (Cert.ReferenceIdeal.Value.U11 m' c (Proc.devRef .tc Cert.ReferenceIdeal.main_v519) : FVec Ideal Cert.ReferenceIdeal.S50000x1 .f32) (Cert.ReferenceIdeal.Value.U10 m' c (Proc.devRef .tc Cert.ReferenceIdeal.main_v302) : FVec Ideal Cert.ReferenceIdeal.S50000x64 .f32)
      (transpose (α := Ideal .f32) Cert.ReferenceIdeal.S64x64 [1, 0] (Cert.ReferenceIdeal.Value.U10 m' c (Proc.devRef .tc Cert.ReferenceIdeal.main_v501) : FVec Ideal Cert.ReferenceIdeal.S64x64 .f32) Cert.ReferenceIdeal.Gen.transposes_S64x64_S64x64_1_0) (Cert.ReferenceIdeal.Value.U10 m' c (Proc.devRef .tc Cert.ReferenceIdeal.main_v503) : FVec Ideal Cert.ReferenceIdeal.S64 .f32) (transpose (α := Ideal .f32) Cert.ReferenceIdeal.S64x64 [1, 0] (Cert.ReferenceIdeal.Value.U10 m' c (Proc.devRef .tc Cert.ReferenceIdeal.main_v505) : FVec Ideal Cert.ReferenceIdeal.S64x64 .f32) Cert.ReferenceIdeal.Gen.transposes_S64x64_S64x64_1_0)) := by
  unfold refTerm refTermC
  dsimp only [Cert.ReferenceIdeal.Value.U11]
  generalize Cert.ReferenceIdeal.Value.U10 m' c = V
  after_results_simp

/-! ### Layer 1's result and the partial sum reach the later windows as their own windows left them -/

theorem rkeep302_7 (m' : (ℓ : Loc Cert.ReferenceIdeal.nD Cert.ReferenceIdeal.τ Cert.ReferenceIdeal.sig) → Buf (Elt Ideal) ℓ) (c : Dev Cert.ReferenceIdeal.nD) : Cert.ReferenceIdeal.Value.U7 m' c (Proc.devRef .tc Cert.ReferenceIdeal.main_v302) = Cert.ReferenceIdeal.Value.U6 m' c (Proc.devRef .tc Cert.ReferenceIdeal.main_v302) := Cert.ReferenceIdeal.Value.U7_of m' c Cert.ReferenceIdeal.main_v302 (by decide)
theorem rkeep302_9 (m' : (ℓ : Loc Cert.ReferenceIdeal.nD Cert.ReferenceIdeal.τ Cert.ReferenceIdeal.sig) → Buf (Elt Ideal) ℓ) (c : Dev Cert.ReferenceIdeal.nD) : Cert.ReferenceIdeal.Value.U9 m' c (Proc.devRef .tc Cert.ReferenceIdeal.main_v302) = Cert.ReferenceIdeal.Value.U6 m' c (Proc.devRef .tc Cert.ReferenceIdeal.main_v302) :=
  (Cert.ReferenceIdeal.Value.U9_of m' c Cert.ReferenceIdeal.main_v302 (by decide)).trans ((Cert.ReferenceIdeal.Value.U8_of m' c Cert.ReferenceIdeal.main_v302 (by decide)).trans (rkeep302_7 m' c))
theorem rkeep302_10 (m' : (ℓ : Loc Cert.ReferenceIdeal.nD Cert.ReferenceIdeal.τ Cert.ReferenceIdeal.sig) → Buf (Elt Ideal) ℓ) (c : Dev Cert.ReferenceIdeal.nD) : Cert.ReferenceIdeal.Value.U10 m' c (Proc.devRef .tc Cert.ReferenceIdeal.main_v302) = Cert.ReferenceIdeal.Value.U6 m' c (Proc.devRef .tc Cert.ReferenceIdeal.main_v302) :=
  (Cert.ReferenceIdeal.Value.U10_of m' c Cert.ReferenceIdeal.main_v302 (by decide)).trans (rkeep302_9 m' c)
theorem rkeep402_9 (m' : (ℓ : Loc Cert.ReferenceIdeal.nD Cert.ReferenceIdeal.τ Cert.ReferenceIdeal.sig) → Buf (Elt Ideal) ℓ) (c : Dev Cert.ReferenceIdeal.nD) : Cert.ReferenceIdeal.Value.U9 m' c (Proc.devRef .tc Cert.ReferenceIdeal.main_v402) = Cert.ReferenceIdeal.Value.U8 m' c (Proc.devRef .tc Cert.ReferenceIdeal.main_v402) := Cert.ReferenceIdeal.Value.U9_of m' c Cert.ReferenceIdeal.main_v402 (by decide)

/-! ## Series, layer 2 -/

set_option maxHeartbeats 8000000 in
/-- Series, layer 2: the kernel program's result (the first 50000 rows of region 7's output) is the reference's layer sum,
    given that the two launch memories agree on the three stacked layer-2 weight arguments, that layer 1's result, the four
    summed messages and the four in-degrees agree, and that all of these and the three weight arguments are real. -/
theorem S_s2 (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (h12 : ∀ c : Dev Cert.KernelIdeal.nD, m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : ∀ c : Dev Cert.KernelIdeal.nD, m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : ∀ c : Dev Cert.KernelIdeal.nD, m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hx : ∀ c : Dev Cert.KernelIdeal.nD, Cert.KernelIdeal.Gen.W24 m ρ c (Proc.devRef .tc Cert.KernelIdeal.main_v165) = Cert.ReferenceIdeal.Value.U6 m' c (Proc.devRef .tc Cert.ReferenceIdeal.main_v302))
    (hagg0 : ∀ c : Dev Cert.KernelIdeal.nD, Cert.KernelIdeal.Gen.W42 m ρ c (Proc.devRef .tc Cert.KernelIdeal.main_v279) = Cert.ReferenceIdeal.Value.U7 m' c (Proc.devRef .tc Cert.ReferenceIdeal.main_v321))
    (hagg1 : ∀ c : Dev Cert.KernelIdeal.nD, Cert.KernelIdeal.Gen.W42 m ρ c (Proc.devRef .tc Cert.KernelIdeal.main_v297) = Cert.ReferenceIdeal.Value.U8 m' c (Proc.devRef .tc Cert.ReferenceIdeal.main_v385))
    (hagg2 : ∀ c : Dev Cert.KernelIdeal.nD, Cert.KernelIdeal.Gen.W42 m ρ c (Proc.devRef .tc Cert.KernelIdeal.main_v315) = Cert.ReferenceIdeal.Value.U9 m' c (Proc.devRef .tc Cert.ReferenceIdeal.main_v450))
    (hagg3 : ∀ c : Dev Cert.KernelIdeal.nD, Cert.KernelIdeal.Gen.W42 m ρ c (Proc.devRef .tc Cert.KernelIdeal.main_v333) = Cert.ReferenceIdeal.Value.U11 m' c (Proc.devRef .tc Cert.ReferenceIdeal.main_v515))
    (hcnt0 : ∀ c : Dev Cert.KernelIdeal.nD, Cert.KernelIdeal.Gen.W5 m ρ c (Proc.devRef .tc Cert.KernelIdeal.main_v41) = Cert.ReferenceIdeal.Value.U7 m' c (Proc.devRef .tc Cert.ReferenceIdeal.main_v325))
    (hcnt1 : ∀ c : Dev Cert.KernelIdeal.nD, Cert.KernelIdeal.Gen.W5 m ρ c (Proc.devRef .tc Cert.KernelIdeal.main_v49) = Cert.ReferenceIdeal.Value.U8 m' c (Proc.devRef .tc Cert.ReferenceIdeal.main_v389))
    (hcnt2 : ∀ c : Dev Cert.KernelIdeal.nD, Cert.KernelIdeal.Gen.W5 m ρ c (Proc.devRef .tc Cert.KernelIdeal.main_v57) = Cert.ReferenceIdeal.Value.U9 m' c (Proc.devRef .tc Cert.ReferenceIdeal.main_v454))
    (hcnt3 : ∀ c : Dev Cert.KernelIdeal.nD, Cert.KernelIdeal.Gen.W5 m ρ c (Proc.devRef .tc Cert.KernelIdeal.main_v65) = Cert.ReferenceIdeal.Value.U11 m' c (Proc.devRef .tc Cert.ReferenceIdeal.main_v519))
    (rx : ∀ c : Dev Cert.KernelIdeal.nD, AllReal (S := Cert.ReferenceIdeal.S50000x64) (Cert.ReferenceIdeal.Value.U6 m' c (Proc.devRef .tc Cert.ReferenceIdeal.main_v302)))
    (ragg0 : ∀ c : Dev Cert.KernelIdeal.nD, AllReal (S := Cert.ReferenceIdeal.S50000x64) (Cert.ReferenceIdeal.Value.U7 m' c (Proc.devRef .tc Cert.ReferenceIdeal.main_v321)))
    (ragg1 : ∀ c : Dev Cert.KernelIdeal.nD, AllReal (S := Cert.ReferenceIdeal.S50000x64) (Cert.ReferenceIdeal.Value.U8 m' c (Proc.devRef .tc Cert.ReferenceIdeal.main_v385)))
    (ragg2 : ∀ c : Dev Cert.KernelIdeal.nD, AllReal (S := Cert.ReferenceIdeal.S50000x64) (Cert.ReferenceIdeal.Value.U9 m' c (Proc.devRef .tc Cert.ReferenceIdeal.main_v450)))
    (ragg3 : ∀ c : Dev Cert.KernelIdeal.nD, AllReal (S := Cert.ReferenceIdeal.S50000x64) (Cert.ReferenceIdeal.Value.U11 m' c (Proc.devRef .tc Cert.ReferenceIdeal.main_v515)))
    (rcnt0 : ∀ c : Dev Cert.KernelIdeal.nD, AllReal (S := Cert.ReferenceIdeal.S50000x1) (Cert.ReferenceIdeal.Value.U7 m' c (Proc.devRef .tc Cert.ReferenceIdeal.main_v325)))
    (rcnt1 : ∀ c : Dev Cert.KernelIdeal.nD, AllReal (S := Cert.ReferenceIdeal.S50000x1) (Cert.ReferenceIdeal.Value.U8 m' c (Proc.devRef .tc Cert.ReferenceIdeal.main_v389)))
    (rcnt2 : ∀ c : Dev Cert.KernelIdeal.nD, AllReal (S := Cert.ReferenceIdeal.S50000x1) (Cert.ReferenceIdeal.Value.U9 m' c (Proc.devRef .tc Cert.ReferenceIdeal.main_v454)))
    (rcnt3 : ∀ c : Dev Cert.KernelIdeal.nD, AllReal (S := Cert.ReferenceIdeal.S50000x1) (Cert.ReferenceIdeal.Value.U11 m' c (Proc.devRef .tc Cert.ReferenceIdeal.main_v519)))
    (r12 : ∀ c : Dev Cert.KernelIdeal.nD, AllReal (S := Cert.ReferenceIdeal.S8x64x64) (m' ((c.tc : Thread Cert.ReferenceIdeal.nD Cert.ReferenceIdeal.τ).loc Cert.ReferenceIdeal.main_arg12)))
    (r13 : ∀ c : Dev Cert.KernelIdeal.nD, AllReal (S := Cert.ReferenceIdeal.S8x64) (m' ((c.tc : Thread Cert.ReferenceIdeal.nD Cert.ReferenceIdeal.τ).loc Cert.ReferenceIdeal.main_arg13)))
    (r14 : ∀ c : Dev Cert.KernelIdeal.nD, AllReal (S := Cert.ReferenceIdeal.S8x64x64) (m' ((c.tc : Thread Cert.ReferenceIdeal.nD Cert.ReferenceIdeal.τ).loc Cert.ReferenceIdeal.main_arg14)))
    (c : Dev Cert.KernelIdeal.nD) :
    Cert.KernelIdeal.Gen.W61 m ρ c (Proc.devRef .tc Cert.KernelIdeal.main_v365) = Cert.ReferenceIdeal.Value.U11 m' c (Proc.devRef .tc Cert.ReferenceIdeal.main_v532) := by
  rw [k365 m ρ c, k364 m ρ c, k355 m ρ c, k359 m ρ c, k356 m ρ c, k360 m ρ c, k357 m ρ c, k361 m ρ c, k358 m ρ c, k362 m ρ c, k363 m ρ c,
    k282 m ρ m' h12 c, k300 m ρ m' h12 c, k318 m ρ m' h12 c, k336 m ρ m' h12 c, k348 m ρ m' h13 c, k354 m ρ m' h14 c,
    hagg0 c, hcnt0 c, hagg1 c, hcnt1 c, hagg2 c, hcnt2 c, hagg3 c, hcnt3 c, hx c]
  rw [r532 m' c, r467' m' c, rkeep402_9 m' c, r402 m' c, r337 m' c, rkeep302_10 m' c, rkeep302_9 m' c, rkeep302_7 m' c,
    r307 m' c, r309 m' c, r311 m' c, r371 m' c, r373 m' c, r375 m' c, r436 m' c, r438 m' c, r440 m' c, r501 m' c, r503 m' c, r505 m' c]
  exact core_s2 _ _ _ _ _ _ _ _ _ _ _ _ _ _ _ _ _ _ _ _ _ _ _ _ _ _ _ _ _ _
    (ragg0 c) (ragg1 c) (ragg2 c) (ragg3 c) (rcnt0 c) (rcnt1 c) (rcnt2 c) (rcnt3 c) (rx c)
    (allReal_wt (r12 c) _ _ _ _) (allReal_wt (r12 c) _ _ _ _) (allReal_wt (r12 c) _ _ _ _) (allReal_wt (r12 c) _ _ _ _)
    (allReal_wt (r14 c) _ _ _ _) (allReal_wt (r14 c) _ _ _ _) (allReal_wt (r14 c) _ _ _ _) (allReal_wt (r14 c) _ _ _ _)
    (allReal_bs (r13 c) _ _ _) (allReal_bs (r13 c) _ _ _) (allReal_bs (r13 c) _ _ _) (allReal_bs (r13 c) _ _ _)

end Cert.Sim

end
-- ==== Proof.KI.Fin12.lean ====
import proofs.«417513_j58866821759238_4_alg».proof.Proof.KI.R12
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the ideal values
variable (V : (c : Dev nD) → (b : Ref sig .tc) → Buf (Elt Ideal) ((c : Thread nD τ).loc b))

open Idealize.ShloMosaic.ValueIdx
open scoped BigOperators

/-! # REGION 12: what the score array holds after the region

The output array has 200704 entries; point `t` of the 49 writes back entries `4096 t … 4096 t + 4095`, and the
tiles fill the array. Entry `i` is the sum over the 64 lanes of the product of row `i` of the two input arrays. -/

/-- The score array as one function of the two input arrays as the region finds them: entry `i` is
    `∑ k < 64, u[i, k] · s[i, k]`. -/
def G12 (u : S200704x64.Idx → EReal) (s : S200704x64.Idx → EReal) : S200704.Idx → EReal :=
  fun i => ∑ k : Fin 64, u (ix2 (i 0) k) * s (ix2 (i 0) k)

theorem hz12_1 : (![0] : Fin 1 → Nat) = fun _ => 0 := funext fun a => by fin_cases a; rfl
theorem hz12_2 : (![0, 0] : Fin 2 → Nat) = fun _ => 0 := funext fun a => by fin_cases a <;> rfl

/-- The reduced index `r` with lane `k` put back on axis 1 is `(r, k)`. -/
theorem lift12 (r : Fin 4096) (k : Fin 64) :
    (reduces_S4096x64_S4096.lift (ix1 r) k : S4096x64.Idx) = ix2 r k := by
  funext a; apply Fin.ext
  match a with
  | ⟨0, _⟩ => rfl
  | ⟨1, _⟩ => rfl

/-- The body's payload at row `r` of a tile: the sum over the 64 lanes of the product of the two blocks there. -/
theorem pay12_apply (x0 x1 : Vec Ideal S4096x64 .f32) (r : Fin 4096) :
    k12_pay1 x0 x1 (ix1 r) = ∑ k : Fin 64, x0 (ix2 r k) * x1 (ix2 r k) := by
  unfold k12_pay1
  dsimp only
  rw [shapeCast_self, shapeCast_self]
  refine (Ideal.multiReduction_add_single _ 0x00000000#32 reduces_S4096x64_S4096 (.inl rfl) rfl (ix1 r)).trans ?_
  exact Finset.sum_congr rfl fun k _ => congrArg (fun z => x0 z * x1 z) (lift12 r k)

/-- If the two blocks are rows `4096 q … 4096 q + 4095` of `u` and of `s`, the payload at row `y` of the tile is
    `G12 u s` at row `4096 q + y`. -/
theorem pay12_eq_G (u s : S200704x64.Idx → EReal) (x0 x1 : Vec Ideal S4096x64 .f32) (q : Nat)
    (h0 : ∀ (r : Fin 4096) (k : Fin 64) (i : S200704x64.Idx), (i 0).val = q * 4096 + r.val → (i 1).val = k.val → x0 (ix2 r k) = u i)
    (h1 : ∀ (r : Fin 4096) (k : Fin 64) (i : S200704x64.Idx), (i 0).val = q * 4096 + r.val → (i 1).val = k.val → x1 (ix2 r k) = s i)
    (y : S4096.Idx) (i : S200704.Idx) (hi : (i 0).val = q * 4096 + (y 0).val) :
    k12_pay1 x0 x1 y = G12 u s i := by
  obtain ⟨r, rfl⟩ : ∃ r : Fin 4096, y = ix1 r := ⟨y 0, eq_ix1 y⟩
  rw [pay12_apply]
  unfold G12
  refine Finset.sum_congr rfl fun k _ => ?_
  rw [h0 r k (ix2 (i 0) k) hi rfl, h1 r k (ix2 (i 0) k) hi rfl]

/-- The printed index maps, decided over the 49 points: the three windows' row-tile index is the point's number, and
    the inputs' lane-tile index is 0. -/
theorem idx_facts12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 1) = t.val :=
  (by decide +kernel : ∀ t : Fin grid12.N, _)

/-- What point `t` writes back is tile `t` of `G12` of the two input arrays as the region finds them. -/
theorem flushed12_eq (c : Dev nD) (t : Fin cfg12.N) :
    (dat12 (F := Ideal) V c).flushed 2 t
      = ((cfg12.win 2).blk t).view.read (Elt Ideal) (G12 (V c (Pipeline.arrRef spec12 0)) (V c (Pipeline.arrRef spec12 1))) := by
  show (cfg12.win 2).cut (grid12.coords t) ((dat12 V c).after 2 t) = _
  rw [after12_2]
  unfold out12_2
  rw [View.canon_unit_zero hz12_1]
  simp only [View.ld_unit_zero (S := S4096x64) hz12_2]
  obtain ⟨e0, e1, e2, e3, e4⟩ := idx_facts12 t
  funext j
  show k12_pay1 (iblk12 V c 0 t) (iblk12 V c 1 t) j
    = G12 (V c (Pipeline.arrRef spec12 0)) (V c (Pipeline.arrRef spec12 1)) (((cfg12.win 2).blk t).view.emb j)
  refine pay12_eq_G _ _ _ _ t.val ?_ ?_ j _ ?_
  · intro r k i hi0 hi1
    show V c (Pipeline.arrRef spec12 0) (((cfg12.win 0).blk t).view.emb (ix2 r k)) = V c (Pipeline.arrRef spec12 0) i
    refine congrArg _ (funext fun a => Fin.ext ?_)
    match a with
    | ⟨0, _⟩ => show win12_0.index t (0 : Fin 2) * 4096 + 1 * r.val = (i 0).val; omega
    | ⟨1, _⟩ => show win12_0.index t (1 : Fin 2) * 64 + 1 * k.val = (i 1).val; omega
  · intro r k i hi0 hi1
    show V c (Pipeline.arrRef spec12 1) (((cfg12.win 1).blk t).view.emb (ix2 r k)) = V c (Pipeline.arrRef spec12 1) i
    refine congrArg _ (funext fun a => Fin.ext ?_)
    match a with
    | ⟨0, _⟩ => show win12_1.index t (0 : Fin 2) * 4096 + 1 * r.val = (i 0).val; omega
    | ⟨1, _⟩ => show win12_1.index t (1 : Fin 2) * 64 + 1 * k.val = (i 1).val; omega
  · show win12_2.index t (0 : Fin 1) * 4096 + 1 * (j 0).val = t.val * 4096 + (j 0).val
    omega

/-- An entry of the array is in point `t`'s tile iff its index is in the tile's range. -/
theorem mem_blk12 (t : Fin cfg12.N) (i : S200704.Idx) :
    i ∈ ((cfg12.win 2).blk t).view.set ↔ ∀ a : Fin 1, win12_2.index t a * S4096.size a ≤ (i a).val ∧ (i a).val < win12_2.index t a * S4096.size a + S4096.size a := by
  show i ∈ ((View.whole main_v490).slice (win12_2.rect t)).set ↔ _
  rw [View.set_slice_whole, Rect.mem_set_unit]
  exact Iff.rfl

/-- Every entry is in the tile of point `i / 4096`: the 49 tiles of 4096 fill the 200704 entries. -/
theorem cover_arr12 (i : S200704.Idx) :
    ∃ t : Fin cfg12.N, (cfg12.win 2).flush t = true ∧ i ∈ ((cfg12.win 2).blk t).view.set := by
  have hi0 : (i 0).val < 200704 := (i 0).isLt
  have hN : cfg12.N = 49 := N_12
  refine ⟨⟨(i 0).val / 4096, by rw [hN]; omega⟩, flush12_2 _, ?_⟩
  rw [mem_blk12]
  obtain ⟨-, -, -, -, e4⟩ := idx_facts12 ⟨(i 0).val / 4096, by rw [hN]; omega⟩
  intro a
  match a with
  | ⟨0, _⟩ =>
    show win12_2.index _ (0 : Fin 1) * 4096 ≤ (i 0).val ∧ (i 0).val < win12_2.index _ (0 : Fin 1) * 4096 + 4096
    rw [e4]
    show (i 0).val / 4096 * 4096 ≤ (i 0).val ∧ (i 0).val < (i 0).val / 4096 * 4096 + 4096
    omega

/-- THE ARRAY after the region: `G12` of the two input arrays as the region finds them. -/
theorem final12 (c : Dev nD) :
    (dat12 (F := Ideal) V c).arrAt 2 cfg12.N = G12 (V c (Pipeline.arrRef spec12 0)) (V c (Pipeline.arrRef spec12 1)) :=
  (dat12 V c).arrAt_eq_of_cover 2 (G12 (V c (Pipeline.arrRef spec12 0)) (V c (Pipeline.arrRef spec12 1)))
    (fun t _ => flushed12_eq V c t) cover_arr12

end Cert.KernelIdeal.Gen

end
-- ==== Proof.Sim.Score.lean ====
/-
  The edge score: the kernel program's result array against the reference's, entry by entry.
  Entry `e` (of 200000) is, on both sides, the sum over the 64 lanes of the product of row `iu[e]` of the users'
  layer-2 features and row `is[e]` of the series' layer-2 features, `iu`, `is` the two rows of the edge-label index
  (argument 19), negative entries wrapped. The kernel program gathers the rows, pads the two gathered arrays to
  200704 rows, runs region 12 (lane sums of products, row by row) and keeps the first 200000 entries; the reference
  gathers the same rows, multiplies, and reduces over the lanes from the initial value 0.
-/
import proofs.«417513_j58866821759238_4_alg».proof.Proof.KI.Keep
import proofs.«417513_j58866821759238_4_alg».proof.Proof.Ref.Run
import proofs.«417513_j58866821759238_4_alg».proof.Proof.KI.Fin12
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

set_option maxRecDepth 16384

noncomputable section

namespace Cert.Sim

open Idealize.ShloMosaic Idealize.ShloMosaic.TcCoe Idealize.SL.Sem Idealize.ShloMosaic.ValueIdx
open scoped BigOperators

/-! ## The two gathers: the same host chain on both sides

Over ANY buffer contents on the two sides that agree on the gathered array and on the index argument, the kernel
program's gathered array and the reference's are one term: the same slice of the index argument, the same wrap of its
negative entries, the same gather. -/

section Chains
variable {F : FTy → Type} [FloatOps F]

/-- The users' rows: the kernel program's `%478` is the reference's `%573`. -/
theorem gather_users_eq (VK : Valuation Cert.KernelIdeal.τ Cert.KernelIdeal.sig (Elt F)) (VR : Valuation Cert.ReferenceIdeal.τ Cert.ReferenceIdeal.sig (Elt F))
    (hx : VK (Proc.devRef .tc Cert.KernelIdeal.main_v393) = VR (Proc.devRef .tc Cert.ReferenceIdeal.main_v369))
    (hi : VK (Proc.devRef .tc Cert.KernelIdeal.main_arg19) = VR (Proc.devRef .tc Cert.ReferenceIdeal.main_arg19)) :
    StableHlo.after Cert.KernelIdeal.Gen.hostOps12 VK (Proc.devRef .tc Cert.KernelIdeal.main_v478)
      = StableHlo.after Cert.ReferenceIdeal.Value.ops11 VR (Proc.devRef .tc Cert.ReferenceIdeal.main_v573) := by
  after_results_simp
  rw [hx, hi]
  rfl

/-- The series' rows: the kernel program's `%487` is the reference's `%582`. -/
theorem gather_series_eq (VK : Valuation Cert.KernelIdeal.τ Cert.KernelIdeal.sig (Elt F)) (VR : Valuation Cert.ReferenceIdeal.τ Cert.ReferenceIdeal.sig (Elt F))
    (hx : VK (Proc.devRef .tc Cert.KernelIdeal.main_v365) = VR (Proc.devRef .tc Cert.ReferenceIdeal.main_v532))
    (hi : VK (Proc.devRef .tc Cert.KernelIdeal.main_arg19) = VR (Proc.devRef .tc Cert.ReferenceIdeal.main_arg19)) :
    StableHlo.after Cert.KernelIdeal.Gen.hostOps12 VK (Proc.devRef .tc Cert.KernelIdeal.main_v487)
      = StableHlo.after Cert.ReferenceIdeal.Value.ops11 VR (Proc.devRef .tc Cert.ReferenceIdeal.main_v582) := by
  after_results_simp
  rw [hx, hi]
  rfl

/-! ## The kernel program's own host steps, read at an entry

The pad to 200704 rows read at a row below 200000 is the gathered array there; the closing slice reads the region's
output at the same entry. -/

/-- Row `e < 200000` of the padded users' rows `%488` is row `e` of `%478`. -/
theorem pad_users_apply (V : Valuation Cert.KernelIdeal.τ Cert.KernelIdeal.sig (Elt F)) (e : Fin 200000) (e' : Fin 200704) (he : e'.val = e.val) (k : Fin 64) :
    (StableHlo.after Cert.KernelIdeal.Gen.hostOps12_1 V (Proc.devRef .tc Cert.KernelIdeal.main_v488) : Cert.KernelIdeal.S200704x64.Idx → Elt F .f32) (ix2 e' k)
      = (V (Proc.devRef .tc Cert.KernelIdeal.main_v478) : Cert.KernelIdeal.S200000x64.Idx → Elt F .f32) (ix2 e k) := by
  after_results_simp
  refine pad_apply_of_inside _ ![704, 0] _ _ _ Cert.KernelIdeal.Gen.pads_S200000x64_S200704x64_07040_000 _ (ix2 e' k) (ix2 e k) fun a => ?_
  match a with
  | ⟨0, _⟩ => show e'.val = 0 + e.val * (0 + 1); omega
  | ⟨1, _⟩ => show k.val = 0 + k.val * (0 + 1); omega

/-- Row `e < 200000` of the padded series' rows `%489` is row `e` of `%487`. -/
theorem pad_series_apply (V : Valuation Cert.KernelIdeal.τ Cert.KernelIdeal.sig (Elt F)) (e : Fin 200000) (e' : Fin 200704) (he : e'.val = e.val) (k : Fin 64) :
    (StableHlo.after Cert.KernelIdeal.Gen.hostOps12_3 V (Proc.devRef .tc Cert.KernelIdeal.main_v489) : Cert.KernelIdeal.S200704x64.Idx → Elt F .f32) (ix2 e' k)
      = (V (Proc.devRef .tc Cert.KernelIdeal.main_v487) : Cert.KernelIdeal.S200000x64.Idx → Elt F .f32) (ix2 e k) := by
  after_results_simp
  refine pad_apply_of_inside _ ![704, 0] _ _ _ Cert.KernelIdeal.Gen.pads_S200000x64_S200704x64_07040_000 _ (ix2 e' k) (ix2 e k) fun a => ?_
  match a with
  | ⟨0, _⟩ => show e'.val = 0 + e.val * (0 + 1); omega
  | ⟨1, _⟩ => show k.val = 0 + k.val * (0 + 1); omega

/-- Entry `e` of the result `%491` is entry `e` of region 12's output `%490`. -/
theorem slice_out_apply (V : Valuation Cert.KernelIdeal.τ Cert.KernelIdeal.sig (Elt F)) (e : Fin 200000) (e' : Fin 200704) (he : e'.val = e.val) :
    (StableHlo.after Cert.KernelIdeal.Gen.hostOps13 V (Proc.devRef .tc Cert.KernelIdeal.main_v491) : Cert.KernelIdeal.S200000.Idx → Elt F .f32) (ix1 e)
      = (V (Proc.devRef .tc Cert.KernelIdeal.main_v490) : Cert.KernelIdeal.S200704.Idx → Elt F .f32) (ix1 e') := by
  after_results_simp
  refine extractStridedSlice_apply _ _ _ (ix1 e) (ix1 e') fun a => ?_
  match a with
  | ⟨0, _⟩ => show e'.val = 0 + e.val; omega

end Chains

/-! ## The reference's reduction, read at an entry -/

/-- Entry `e` of the reference's result `%584` (`O`): the sum over the lanes of the product of the two gathered
    arrays `%573` (`A`) and `%582` (`B`); the initial value is zero. -/
theorem ref_out_apply (VR : Valuation Cert.ReferenceIdeal.τ Cert.ReferenceIdeal.sig (Elt Ideal))
    (A B : Cert.ReferenceIdeal.S200000x64.Idx → EReal) (O : Cert.ReferenceIdeal.S200000.Idx → EReal)
    (hA : A = StableHlo.after Cert.ReferenceIdeal.Value.ops11 VR (Proc.devRef .tc Cert.ReferenceIdeal.main_v573))
    (hB : B = StableHlo.after Cert.ReferenceIdeal.Value.ops11 VR (Proc.devRef .tc Cert.ReferenceIdeal.main_v582))
    (hO : O = StableHlo.after Cert.ReferenceIdeal.Value.ops11 VR (Proc.devRef .tc Cert.ReferenceIdeal.main_v584)) (e : Fin 200000) :
    O (ix1 e) = ∑ k : Fin 64, A (ix2 e k) * B (ix2 e k) := by
  subst hA hB hO
  after_results_simp
  have hred : Cert.ReferenceIdeal.S200000x64.Reduces [1] Cert.ReferenceIdeal.S200000 := by decide
  refine (hostReduceAdd_apply _ _ _ _ (ix1 e)).trans ?_
  refine (Ideal.hostReduceAdd_single _ hred _ _ (ix1 e)).trans ?_
  rw [constant_apply, Ideal.ofBits_zero_f32, zero_add]
  refine Finset.sum_congr rfl fun k _ => ?_
  have hl : (hred.lift (ix1 e) k : Cert.ReferenceIdeal.S200000x64.Idx) = ix2 e k := by
    funext a; apply Fin.ext
    match a with
    | ⟨0, _⟩ => rfl
    | ⟨1, _⟩ => rfl
  exact (congrArg _ hl).trans rfl

/-! ## The kernel program's result, read at an entry -/

/-- Entry `e` of the kernel program's result `%491` (`O`): the sum over the lanes of the product of its two gathered
    arrays `%478` (`A`) and `%487` (`B`): the closing slice reads region 12's output at entry `e`, which is the lane sum of
    row `e` of the two padded arrays, and below row 200000 a padded array is the gathered one. -/
theorem ker_out_apply (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (A B : Cert.KernelIdeal.S200000x64.Idx → EReal) (O : Cert.KernelIdeal.S200000.Idx → EReal)
    (hA : A = Cert.KernelIdeal.Gen.W79 m ρ c (Proc.devRef .tc Cert.KernelIdeal.main_v478))
    (hB : B = Cert.KernelIdeal.Gen.W79 m ρ c (Proc.devRef .tc Cert.KernelIdeal.main_v487))
    (hO : O = Cert.KernelIdeal.Gen.W84 m ρ c (Proc.devRef .tc Cert.KernelIdeal.main_v491)) (e : Fin 200000) :
    O (ix1 e) = ∑ k : Fin 64, A (ix2 e k) * B (ix2 e k) := by
  subst hA hB hO
  have he' : e.val < 200704 := by have := e.isLt; omega
  refine Eq.trans (α := EReal) (slice_out_apply (Cert.KernelIdeal.Gen.W83 m ρ c) e ⟨e.val, he'⟩ rfl) ?_
  rw [show Cert.KernelIdeal.Gen.W83 m ρ c (Proc.devRef .tc Cert.KernelIdeal.main_v490)
      = Cert.KernelIdeal.Gen.G12 (Cert.KernelIdeal.Gen.W82 m ρ c (Proc.devRef .tc Cert.KernelIdeal.main_v488)) (Cert.KernelIdeal.Gen.W82 m ρ c (Proc.devRef .tc Cert.KernelIdeal.main_v489))
    from (Cert.KernelIdeal.Gen.W83_arr m ρ c 2).trans (Cert.KernelIdeal.Gen.final12 (Cert.KernelIdeal.Gen.V82 m ρ) c)]
  simp only [Cert.KernelIdeal.Gen.G12]
  refine Finset.sum_congr rfl fun k _ => ?_
  exact congrArg₂ (fun (x y : EReal) => x * y)
    ((congrFun (Cert.KernelIdeal.Gen.keep_v488_82 m ρ c) _).trans (pad_users_apply (Cert.KernelIdeal.Gen.W79 m ρ c) e ⟨e.val, he'⟩ rfl k))
    ((pad_series_apply (Cert.KernelIdeal.Gen.W81 m ρ c) e ⟨e.val, he'⟩ rfl k).trans (congrFun (Cert.KernelIdeal.Gen.keep_v487_81 m ρ c) _))

/-! ## The statement -/

/-- S_out: the kernel program's result array after its last item is the reference's after its last window, given that
    the users' and the series' layer-2 features agree (S_u2, S_s2). -/
theorem S_out (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (h19 : ∀ c : Dev Cert.KernelIdeal.nD, m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (hu2 : ∀ c : Dev Cert.KernelIdeal.nD, Cert.KernelIdeal.Gen.W68 m ρ c (Proc.devRef .tc Cert.KernelIdeal.main_v393) = Cert.ReferenceIdeal.Value.U8 m' c (Proc.devRef .tc Cert.ReferenceIdeal.main_v369))
    (hs2 : ∀ c : Dev Cert.KernelIdeal.nD, Cert.KernelIdeal.Gen.W61 m ρ c (Proc.devRef .tc Cert.KernelIdeal.main_v365) = Cert.ReferenceIdeal.Value.U11 m' c (Proc.devRef .tc Cert.ReferenceIdeal.main_v532))
    (c : Dev Cert.KernelIdeal.nD) :
    Cert.KernelIdeal.Gen.W84 m ρ c (Proc.devRef .tc Cert.KernelIdeal.main_v491) = Cert.ReferenceIdeal.Value.U12 m' c (Proc.devRef .tc Cert.ReferenceIdeal.main_v584) := by
  -- the live-ins of the kernel program's item 78 against the reference's contents before window 11
  have h393 : Cert.KernelIdeal.Gen.W78 m ρ c (Proc.devRef .tc Cert.KernelIdeal.main_v393) = Cert.ReferenceIdeal.Value.U11 m' c (Proc.devRef .tc Cert.ReferenceIdeal.main_v369) :=
    (Cert.KernelIdeal.Gen.keep_v393_78 m ρ c).trans <| (hu2 c).trans <|
      ((Cert.ReferenceIdeal.Value.U11_of m' c Cert.ReferenceIdeal.main_v369 (by decide)).trans <| (Cert.ReferenceIdeal.Value.U10_of m' c Cert.ReferenceIdeal.main_v369 (by decide)).trans <|
        (Cert.ReferenceIdeal.Value.U9_of m' c Cert.ReferenceIdeal.main_v369 (by decide))).symm
  have h365 : Cert.KernelIdeal.Gen.W78 m ρ c (Proc.devRef .tc Cert.KernelIdeal.main_v365) = Cert.ReferenceIdeal.Value.U11 m' c (Proc.devRef .tc Cert.ReferenceIdeal.main_v532) :=
    (Cert.KernelIdeal.Gen.keep_v365_78 m ρ c).trans (hs2 c)
  have h19R : Cert.ReferenceIdeal.Value.U11 m' c (Proc.devRef .tc Cert.ReferenceIdeal.main_arg19) = m' ((c.tc : Thread Cert.ReferenceIdeal.nD Cert.ReferenceIdeal.τ).loc Cert.ReferenceIdeal.main_arg19) :=
    (Cert.ReferenceIdeal.Value.U12_of m' c Cert.ReferenceIdeal.main_arg19 (by decide)).symm.trans (Cert.ReferenceIdeal.Value.U12_main_arg19 m' c)
  have e19 : Cert.KernelIdeal.Gen.W78 m ρ c (Proc.devRef .tc Cert.KernelIdeal.main_arg19) = Cert.ReferenceIdeal.Value.U11 m' c (Proc.devRef .tc Cert.ReferenceIdeal.main_arg19) :=
    (Cert.KernelIdeal.Gen.keep_arg19_78 m ρ c).trans <| (h19 c).symm.trans h19R.symm
  -- the two gathered arrays are the reference's
  have e478 : Cert.KernelIdeal.Gen.W79 m ρ c (Proc.devRef .tc Cert.KernelIdeal.main_v478) = Cert.ReferenceIdeal.Value.U12 m' c (Proc.devRef .tc Cert.ReferenceIdeal.main_v573) :=
    gather_users_eq (Cert.KernelIdeal.Gen.W78 m ρ c) (Cert.ReferenceIdeal.Value.U11 m' c) h393 e19
  have e487 : Cert.KernelIdeal.Gen.W79 m ρ c (Proc.devRef .tc Cert.KernelIdeal.main_v487) = Cert.ReferenceIdeal.Value.U12 m' c (Proc.devRef .tc Cert.ReferenceIdeal.main_v582) :=
    gather_series_eq (Cert.KernelIdeal.Gen.W78 m ρ c) (Cert.ReferenceIdeal.Value.U11 m' c) h365 e19
  -- entry by entry: the kernel program's reading, the reference's reading, and the two gathered arrays identified
  funext i
  obtain ⟨e, rfl⟩ : ∃ e : Fin 200000, i = ix1 e := ⟨i 0, eq_ix1 i⟩
  refine (ker_out_apply m ρ c _ _ _ rfl rfl rfl e).trans (Eq.trans ?_ (ref_out_apply (Cert.ReferenceIdeal.Value.U11 m' c) _ _ _ rfl rfl rfl e).symm)
  exact Finset.sum_congr rfl fun k _ =>
    congrArg₂ (fun (x y : EReal) => x * y) (congrFun e478 (ix2 e k)) (congrFun e487 (ix2 e k))

end Cert.Sim

end
-- ==== Proof.Sim.RealRef.lean ====
/-
  THE REFERENCE STAYS AMONG THE REALS. At the ideal values a float is an extended real. If every entry of each of the
  fifteen float arguments is a real, then so is every entry of the buffers the reference computes from them on its way to
  the second layer: the two projections (a dot product plus a bias), and, per edge type and layer, the summed messages (rows
  gathered from a real array, scatter-added onto zeros), the in-degree counts (ones scatter-added onto zeros), the
  neighbour means (a real divided by the maximum of a count and one, which is at least one), the per-edge-type terms (dot
  products and sums of reals), their sums over the edge types, and the maximum of those with zero. Each operation either
  reads its operand somewhere, or adds, multiplies or takes maxima of reals, or sums finitely many reals, or divides a real
  by a real that is at least one; none of these leaves the reals. One lemma per buffer that a later window of the reference
  reads, each citing the lemmas of the buffers its own window reads.
-/
import proofs.«417513_j58866821759238_4_alg».proof.Proof.Ref.Run
import proofs.«417513_j58866821759238_4_alg».proof.Proof.LibAllReal
import proofs.«417513_j58866821759238_4_alg».proof.Proof.Math.Sage

noncomputable section

namespace Cert.Sim

open Idealize.ShloMosaic Idealize.ShloMosaic.TcCoe Idealize.SL.Sem Idealize.ShloMosaic.StableHlo
open Cert.LibAllReal
open Cert.ReferenceIdeal Cert.ReferenceIdeal.Gen Cert.ReferenceIdeal.Value

/-! ## Three more closure facts -/

/-- Equal arrays are all real together. -/
theorem allReal_of_eq {S : Shape} {x y : S.Idx → EReal} (h : x = y) (hy : AllReal y) : AllReal x := h ▸ hy

/-- A slice reads the operand at the shifted index. -/
theorem allReal_slice {s t : Shape} {x : s.Idx → EReal} (hx : AllReal x) (off : Fin s.rank → Nat) (h : s.Slices off t) :
    AllReal (extractStridedSlice t off x h) := fun j => hx _

/-- A broadcast of an array whose entries are at least one has entries at least one. -/
theorem ge1_bcast {s t : Shape} {x : s.Idx → EReal} (dims : Fin s.rank → Fin t.rank) (h : s.BroadcastsInDim t dims)
    (hx : ∀ y, (1 : EReal) ≤ x y) : ∀ y, (1 : EReal) ≤ broadcastInDim t dims h x y := fun y => hx _

/-- The maximum of an array and the splat of 1.0 has entries at least one. -/
theorem ge1_max_one {s s0 : Shape} (cnt : FVec Ideal s .f32) (dims : Fin s0.rank → Fin s.rank) (h : s0.BroadcastsInDim s dims) :
    ∀ y, (1 : EReal) ≤ maximumf cnt (broadcastInDim s dims h (constant (F := Ideal) s0 .f32 0x3F800000#32)) y := fun y => by
  show (1 : EReal) ≤ max (cnt y) (Ideal.ofBits .f32 0x3F800000#32)
  rw [Cert.Math.ofBits_one_f32]
  exact le_max_right _ _

/-- Closes "every entry is a real" for an array built by host operations from arrays known to be all real. -/
macro "allreal" : tactic => `(tactic| repeat' (first
  | with_reducible assumption
  | with_reducible exact AllReal.constant_zero _
  | with_reducible exact AllReal.constant_one _
  | with_reducible apply AllReal.addf
  | with_reducible apply AllReal.maximumf
  | with_reducible apply AllReal.broadcastInDim
  | with_reducible apply AllReal.transpose
  | with_reducible apply allReal_slice
  | with_reducible apply AllReal.gather
  | with_reducible apply AllReal.scatterAdd
  | with_reducible apply AllReal.dotGeneral
  | with_reducible apply AllReal.divf
  | with_reducible apply ge1_bcast
  | with_reducible apply ge1_max_one
  | apply AllReal.shapeCast
  | apply allReal_slice))

/-! ## The hypothesis: the fifteen float arguments are all real -/

/-- On every core, every entry of each of the fifteen float arguments of the launch memory is a real. -/
abbrev RefArgsReal (m' : (ℓ : Loc nD τ sig) → Buf (Elt Ideal) ℓ) : Prop :=
  ∀ c : Dev nD,
    AllReal (m' ((c.tc : Thread nD τ).loc main_arg0))
      ∧ AllReal (m' ((c.tc : Thread nD τ).loc main_arg1))
      ∧ AllReal (m' ((c.tc : Thread nD τ).loc main_arg2))
      ∧ AllReal (m' ((c.tc : Thread nD τ).loc main_arg3))
      ∧ AllReal (m' ((c.tc : Thread nD τ).loc main_arg4))
      ∧ AllReal (m' ((c.tc : Thread nD τ).loc main_arg5))
      ∧ AllReal (m' ((c.tc : Thread nD τ).loc main_arg6))
      ∧ AllReal (m' ((c.tc : Thread nD τ).loc main_arg7))
      ∧ AllReal (m' ((c.tc : Thread nD τ).loc main_arg8))
      ∧ AllReal (m' ((c.tc : Thread nD τ).loc main_arg9))
      ∧ AllReal (m' ((c.tc : Thread nD τ).loc main_arg10))
      ∧ AllReal (m' ((c.tc : Thread nD τ).loc main_arg11))
      ∧ AllReal (m' ((c.tc : Thread nD τ).loc main_arg12))
      ∧ AllReal (m' ((c.tc : Thread nD τ).loc main_arg13))
      ∧ AllReal (m' ((c.tc : Thread nD τ).loc main_arg14))

/-! ## The buffers, in the order the reference computes them -/

/-- v4: the sum of v1, v3. -/
theorem refReal_v4 (m' : (ℓ : Loc nD τ sig) → Buf (Elt Ideal) ℓ) (hR : RefArgsReal m') (c : Dev nD) :
    AllReal (U1 m' c (Proc.devRef .tc main_v4)) := by
  have h0 : AllReal (S := S100000x384) (U0 m' c (Proc.devRef .tc main_arg0)) := (hR c).1
  have h1 : AllReal (S := S64x384) (U0 m' c (Proc.devRef .tc main_arg5)) := (hR c).2.2.2.2.2.1
  have h2 : AllReal (S := S64) (U0 m' c (Proc.devRef .tc main_arg6)) := (hR c).2.2.2.2.2.2.1
  show AllReal (S := S100000x64) (after ops0 (U0 m' c) (Proc.devRef .tc main_v4))
  generalize U0 m' c = V at h0 h1 h2 ⊢
  after_results_simp
  allreal

/-- v9: the sum of v6, v8. -/
theorem refReal_v9 (m' : (ℓ : Loc nD τ sig) → Buf (Elt Ideal) ℓ) (hR : RefArgsReal m') (c : Dev nD) :
    AllReal (U1 m' c (Proc.devRef .tc main_v9)) := by
  have h0 : AllReal (S := S50000x384) (U0 m' c (Proc.devRef .tc main_arg1)) := (hR c).2.1
  have h1 : AllReal (S := S64x384) (U0 m' c (Proc.devRef .tc main_arg7)) := (hR c).2.2.2.2.2.2.2.1
  have h2 : AllReal (S := S64) (U0 m' c (Proc.devRef .tc main_arg8)) := (hR c).2.2.2.2.2.2.2.2.1
  show AllReal (S := S50000x64) (after ops0 (U0 m' c) (Proc.devRef .tc main_v9))
  generalize U0 m' c = V at h0 h1 h2 ⊢
  after_results_simp
  allreal

/-- v43: a reshape of v42. -/
theorem refReal_v43 (m' : (ℓ : Loc nD τ sig) → Buf (Elt Ideal) ℓ) (hR : RefArgsReal m') (c : Dev nD) :
    AllReal (U1 m' c (Proc.devRef .tc main_v43)) := by
  have h0 : AllReal (S := S8x64x64) (U0 m' c (Proc.devRef .tc main_arg9)) := (hR c).2.2.2.2.2.2.2.2.2.1
  show AllReal (S := S64x64) (after ops0 (U0 m' c) (Proc.devRef .tc main_v43))
  generalize U0 m' c = V at h0 ⊢
  after_results_simp
  allreal

/-- v45: a reshape of v44. -/
theorem refReal_v45 (m' : (ℓ : Loc nD τ sig) → Buf (Elt Ideal) ℓ) (hR : RefArgsReal m') (c : Dev nD) :
    AllReal (U1 m' c (Proc.devRef .tc main_v45)) := by
  have h0 : AllReal (S := S8x64) (U0 m' c (Proc.devRef .tc main_arg10)) := (hR c).2.2.2.2.2.2.2.2.2.2.1
  show AllReal (S := S64) (after ops0 (U0 m' c) (Proc.devRef .tc main_v45))
  generalize U0 m' c = V at h0 ⊢
  after_results_simp
  allreal

/-- v47: a reshape of v46. -/
theorem refReal_v47 (m' : (ℓ : Loc nD τ sig) → Buf (Elt Ideal) ℓ) (hR : RefArgsReal m') (c : Dev nD) :
    AllReal (U1 m' c (Proc.devRef .tc main_v47)) := by
  have h0 : AllReal (S := S8x64x64) (U0 m' c (Proc.devRef .tc main_arg11)) := (hR c).2.2.2.2.2.2.2.2.2.2.2.1
  show AllReal (S := S64x64) (after ops0 (U0 m' c) (Proc.devRef .tc main_v47))
  generalize U0 m' c = V at h0 ⊢
  after_results_simp
  allreal

/-- v54: rows gathered from v4. -/
theorem refReal_v54 (m' : (ℓ : Loc nD τ sig) → Buf (Elt Ideal) ℓ) (hR : RefArgsReal m') (c : Dev nD) :
    AllReal (U1 m' c (Proc.devRef .tc main_v54)) := by
  have h0 : AllReal (S := S100000x384) (U0 m' c (Proc.devRef .tc main_arg0)) := (hR c).1
  have h1 : AllReal (S := S64x384) (U0 m' c (Proc.devRef .tc main_arg5)) := (hR c).2.2.2.2.2.1
  have h2 : AllReal (S := S64) (U0 m' c (Proc.devRef .tc main_arg6)) := (hR c).2.2.2.2.2.2.1
  show AllReal (S := S1000000x64) (after ops0 (U0 m' c) (Proc.devRef .tc main_v54))
  generalize U0 m' c = V at h0 h1 h2 ⊢
  after_results_simp
  allreal

/-- v55: a broadcast of cst. -/
theorem refReal_v55 (m' : (ℓ : Loc nD τ sig) → Buf (Elt Ideal) ℓ) (hR : RefArgsReal m') (c : Dev nD) :
    AllReal (U1 m' c (Proc.devRef .tc main_v55)) := by
  show AllReal (S := S50000x64) (after ops0 (U0 m' c) (Proc.devRef .tc main_v55))
  generalize U0 m' c = V
  after_results_simp
  allreal

/-- v57: a scatter-add of v54 onto v55. -/
theorem refReal_v57 (m' : (ℓ : Loc nD τ sig) → Buf (Elt Ideal) ℓ) (hR : RefArgsReal m') (c : Dev nD) :
    AllReal (U2 m' c (Proc.devRef .tc main_v57)) := by
  have h0 : AllReal (S := S50000x64) (U1 m' c (Proc.devRef .tc main_v55)) := refReal_v55 m' hR c
  have h1 : AllReal (S := S1000000x64) (U1 m' c (Proc.devRef .tc main_v54)) := refReal_v54 m' hR c
  show AllReal (S := S50000x64) (after ops1 (U1 m' c) (Proc.devRef .tc main_v57))
  generalize U1 m' c = V at h0 h1 ⊢
  after_results_simp
  allreal

/-- v61: a scatter-add of v58 onto v59. -/
theorem refReal_v61 (m' : (ℓ : Loc nD τ sig) → Buf (Elt Ideal) ℓ) (hR : RefArgsReal m') (c : Dev nD) :
    AllReal (U2 m' c (Proc.devRef .tc main_v61)) := by
  show AllReal (S := S50000x1) (after ops1 (U1 m' c) (Proc.devRef .tc main_v61))
  generalize U1 m' c = V
  after_results_simp
  allreal

/-- v73: the sum of v70, v72. -/
theorem refReal_v73 (m' : (ℓ : Loc nD τ sig) → Buf (Elt Ideal) ℓ) (hR : RefArgsReal m') (c : Dev nD) :
    AllReal (U2 m' c (Proc.devRef .tc main_v73)) := by
  have h0 : AllReal (S := S50000x64) (U1 m' c (Proc.devRef .tc main_v55)) := refReal_v55 m' hR c
  have h1 : AllReal (S := S1000000x64) (U1 m' c (Proc.devRef .tc main_v54)) := refReal_v54 m' hR c
  have h2 : AllReal (S := S64x64) (U1 m' c (Proc.devRef .tc main_v43)) := refReal_v43 m' hR c
  have h3 : AllReal (S := S64) (U1 m' c (Proc.devRef .tc main_v45)) := refReal_v45 m' hR c
  have h4 : AllReal (S := S50000x64) (U1 m' c (Proc.devRef .tc main_v9)) := refReal_v9 m' hR c
  have h5 : AllReal (S := S64x64) (U1 m' c (Proc.devRef .tc main_v47)) := refReal_v47 m' hR c
  show AllReal (S := S50000x64) (after ops1 (U1 m' c) (Proc.devRef .tc main_v73))
  generalize U1 m' c = V at h0 h1 h2 h3 h4 h5 ⊢
  after_results_simp
  allreal

/-- v89: a scatter-add of v86 onto v87. -/
theorem refReal_v89 (m' : (ℓ : Loc nD τ sig) → Buf (Elt Ideal) ℓ) (hR : RefArgsReal m') (c : Dev nD) :
    AllReal (U2 m' c (Proc.devRef .tc main_v89)) := by
  have h0 : AllReal (S := S50000x64) (U1 m' c (Proc.devRef .tc main_v9)) := refReal_v9 m' hR c
  show AllReal (S := S100000x64) (after ops1 (U1 m' c) (Proc.devRef .tc main_v89))
  generalize U1 m' c = V at h0 ⊢
  after_results_simp
  allreal

/-- v93: a scatter-add of v90 onto v91. -/
theorem refReal_v93 (m' : (ℓ : Loc nD τ sig) → Buf (Elt Ideal) ℓ) (hR : RefArgsReal m') (c : Dev nD) :
    AllReal (U2 m' c (Proc.devRef .tc main_v93)) := by
  show AllReal (S := S100000x1) (after ops1 (U1 m' c) (Proc.devRef .tc main_v93))
  generalize U1 m' c = V
  after_results_simp
  allreal

/-- v105: the sum of v102, v104. -/
theorem refReal_v105 (m' : (ℓ : Loc nD τ sig) → Buf (Elt Ideal) ℓ) (hR : RefArgsReal m') (c : Dev nD) :
    AllReal (U2 m' c (Proc.devRef .tc main_v105)) := by
  have h0 : AllReal (S := S50000x64) (U1 m' c (Proc.devRef .tc main_v9)) := refReal_v9 m' hR c
  have h1 : AllReal (S := S8x64x64) (U1 m' c (Proc.devRef .tc main_arg9)) := allReal_of_eq (U1_of m' c main_arg9 (by decide)) ((hR c).2.2.2.2.2.2.2.2.2.1)
  have h2 : AllReal (S := S8x64) (U1 m' c (Proc.devRef .tc main_arg10)) := allReal_of_eq (U1_of m' c main_arg10 (by decide)) ((hR c).2.2.2.2.2.2.2.2.2.2.1)
  have h3 : AllReal (S := S100000x64) (U1 m' c (Proc.devRef .tc main_v4)) := refReal_v4 m' hR c
  have h4 : AllReal (S := S8x64x64) (U1 m' c (Proc.devRef .tc main_arg11)) := allReal_of_eq (U1_of m' c main_arg11 (by decide)) ((hR c).2.2.2.2.2.2.2.2.2.2.2.1)
  show AllReal (S := S100000x64) (after ops1 (U1 m' c) (Proc.devRef .tc main_v105))
  generalize U1 m' c = V at h0 h1 h2 h3 h4 ⊢
  after_results_simp
  allreal

/-- v107: a reshape of v106. -/
theorem refReal_v107 (m' : (ℓ : Loc nD τ sig) → Buf (Elt Ideal) ℓ) (hR : RefArgsReal m') (c : Dev nD) :
    AllReal (U2 m' c (Proc.devRef .tc main_v107)) := by
  have h0 : AllReal (S := S8x64x64) (U1 m' c (Proc.devRef .tc main_arg9)) := allReal_of_eq (U1_of m' c main_arg9 (by decide)) ((hR c).2.2.2.2.2.2.2.2.2.1)
  show AllReal (S := S64x64) (after ops1 (U1 m' c) (Proc.devRef .tc main_v107))
  generalize U1 m' c = V at h0 ⊢
  after_results_simp
  allreal

/-- v121: a scatter-add of v118 onto v119. -/
theorem refReal_v121 (m' : (ℓ : Loc nD τ sig) → Buf (Elt Ideal) ℓ) (hR : RefArgsReal m') (c : Dev nD) :
    AllReal (U3 m' c (Proc.devRef .tc main_v121)) := by
  have h0 : AllReal (S := S50x64) (U2 m' c (Proc.devRef .tc main_arg2)) := allReal_of_eq ((U2_of m' c main_arg2 (by decide)).trans (U1_of m' c main_arg2 (by decide))) ((hR c).2.2.1)
  show AllReal (S := S50000x64) (after ops2 (U2 m' c) (Proc.devRef .tc main_v121))
  generalize U2 m' c = V at h0 ⊢
  after_results_simp
  allreal

/-- v125: a scatter-add of v122 onto v123. -/
theorem refReal_v125 (m' : (ℓ : Loc nD τ sig) → Buf (Elt Ideal) ℓ) (hR : RefArgsReal m') (c : Dev nD) :
    AllReal (U3 m' c (Proc.devRef .tc main_v125)) := by
  show AllReal (S := S50000x1) (after ops2 (U2 m' c) (Proc.devRef .tc main_v125))
  generalize U2 m' c = V
  after_results_simp
  allreal

/-- v138: the sum of v73, v137. -/
theorem refReal_v138 (m' : (ℓ : Loc nD τ sig) → Buf (Elt Ideal) ℓ) (hR : RefArgsReal m') (c : Dev nD) :
    AllReal (U3 m' c (Proc.devRef .tc main_v138)) := by
  have h0 : AllReal (S := S50000x64) (U2 m' c (Proc.devRef .tc main_v73)) := refReal_v73 m' hR c
  have h1 : AllReal (S := S50x64) (U2 m' c (Proc.devRef .tc main_arg2)) := allReal_of_eq ((U2_of m' c main_arg2 (by decide)).trans (U1_of m' c main_arg2 (by decide))) ((hR c).2.2.1)
  have h2 : AllReal (S := S64x64) (U2 m' c (Proc.devRef .tc main_v107)) := refReal_v107 m' hR c
  have h3 : AllReal (S := S8x64) (U2 m' c (Proc.devRef .tc main_arg10)) := allReal_of_eq ((U2_of m' c main_arg10 (by decide)).trans (U1_of m' c main_arg10 (by decide))) ((hR c).2.2.2.2.2.2.2.2.2.2.1)
  have h4 : AllReal (S := S50000x64) (U2 m' c (Proc.devRef .tc main_v9)) := allReal_of_eq (U2_of m' c main_v9 (by decide)) (refReal_v9 m' hR c)
  have h5 : AllReal (S := S8x64x64) (U2 m' c (Proc.devRef .tc main_arg11)) := allReal_of_eq ((U2_of m' c main_arg11 (by decide)).trans (U1_of m' c main_arg11 (by decide))) ((hR c).2.2.2.2.2.2.2.2.2.2.2.1)
  show AllReal (S := S50000x64) (after ops2 (U2 m' c) (Proc.devRef .tc main_v138))
  generalize U2 m' c = V at h0 h1 h2 h3 h4 h5 ⊢
  after_results_simp
  allreal

/-- v140: a reshape of v139. -/
theorem refReal_v140 (m' : (ℓ : Loc nD τ sig) → Buf (Elt Ideal) ℓ) (hR : RefArgsReal m') (c : Dev nD) :
    AllReal (U3 m' c (Proc.devRef .tc main_v140)) := by
  have h0 : AllReal (S := S8x64x64) (U2 m' c (Proc.devRef .tc main_arg9)) := allReal_of_eq ((U2_of m' c main_arg9 (by decide)).trans (U1_of m' c main_arg9 (by decide))) ((hR c).2.2.2.2.2.2.2.2.2.1)
  show AllReal (S := S64x64) (after ops2 (U2 m' c) (Proc.devRef .tc main_v140))
  generalize U2 m' c = V at h0 ⊢
  after_results_simp
  allreal

/-- v142: a reshape of v141. -/
theorem refReal_v142 (m' : (ℓ : Loc nD τ sig) → Buf (Elt Ideal) ℓ) (hR : RefArgsReal m') (c : Dev nD) :
    AllReal (U3 m' c (Proc.devRef .tc main_v142)) := by
  have h0 : AllReal (S := S8x64) (U2 m' c (Proc.devRef .tc main_arg10)) := allReal_of_eq ((U2_of m' c main_arg10 (by decide)).trans (U1_of m' c main_arg10 (by decide))) ((hR c).2.2.2.2.2.2.2.2.2.2.1)
  show AllReal (S := S64) (after ops2 (U2 m' c) (Proc.devRef .tc main_v142))
  generalize U2 m' c = V at h0 ⊢
  after_results_simp
  allreal

/-- v144: a reshape of v143. -/
theorem refReal_v144 (m' : (ℓ : Loc nD τ sig) → Buf (Elt Ideal) ℓ) (hR : RefArgsReal m') (c : Dev nD) :
    AllReal (U3 m' c (Proc.devRef .tc main_v144)) := by
  have h0 : AllReal (S := S8x64x64) (U2 m' c (Proc.devRef .tc main_arg11)) := allReal_of_eq ((U2_of m' c main_arg11 (by decide)).trans (U1_of m' c main_arg11 (by decide))) ((hR c).2.2.2.2.2.2.2.2.2.2.2.1)
  show AllReal (S := S64x64) (after ops2 (U2 m' c) (Proc.devRef .tc main_v144))
  generalize U2 m' c = V at h0 ⊢
  after_results_simp
  allreal

/-- v154: a scatter-add of v151 onto v152. -/
theorem refReal_v154 (m' : (ℓ : Loc nD τ sig) → Buf (Elt Ideal) ℓ) (hR : RefArgsReal m') (c : Dev nD) :
    AllReal (U3 m' c (Proc.devRef .tc main_v154)) := by
  have h0 : AllReal (S := S50000x64) (U2 m' c (Proc.devRef .tc main_v9)) := allReal_of_eq (U2_of m' c main_v9 (by decide)) (refReal_v9 m' hR c)
  show AllReal (S := S50x64) (after ops2 (U2 m' c) (Proc.devRef .tc main_v154))
  generalize U2 m' c = V at h0 ⊢
  after_results_simp
  allreal

/-- v155: a broadcast of cst_19. -/
theorem refReal_v155 (m' : (ℓ : Loc nD τ sig) → Buf (Elt Ideal) ℓ) (hR : RefArgsReal m') (c : Dev nD) :
    AllReal (U3 m' c (Proc.devRef .tc main_v155)) := by
  show AllReal (S := S150000x1) (after ops2 (U2 m' c) (Proc.devRef .tc main_v155))
  generalize U2 m' c = V
  after_results_simp
  allreal

/-- v156: a broadcast of cst_20. -/
theorem refReal_v156 (m' : (ℓ : Loc nD τ sig) → Buf (Elt Ideal) ℓ) (hR : RefArgsReal m') (c : Dev nD) :
    AllReal (U3 m' c (Proc.devRef .tc main_v156)) := by
  show AllReal (S := S50x1) (after ops2 (U2 m' c) (Proc.devRef .tc main_v156))
  generalize U2 m' c = V
  after_results_simp
  allreal

/-- v158: a scatter-add of v155 onto v156. -/
theorem refReal_v158 (m' : (ℓ : Loc nD τ sig) → Buf (Elt Ideal) ℓ) (hR : RefArgsReal m') (c : Dev nD) :
    AllReal (U4 m' c (Proc.devRef .tc main_v158)) := by
  have h0 : AllReal (S := S50x1) (U3 m' c (Proc.devRef .tc main_v156)) := refReal_v156 m' hR c
  have h1 : AllReal (S := S150000x1) (U3 m' c (Proc.devRef .tc main_v155)) := refReal_v155 m' hR c
  show AllReal (S := S50x1) (after ops3 (U3 m' c) (Proc.devRef .tc main_v158))
  generalize U3 m' c = V at h0 h1 ⊢
  after_results_simp
  allreal

/-- v170: the sum of v167, v169. -/
theorem refReal_v170 (m' : (ℓ : Loc nD τ sig) → Buf (Elt Ideal) ℓ) (hR : RefArgsReal m') (c : Dev nD) :
    AllReal (U4 m' c (Proc.devRef .tc main_v170)) := by
  have h0 : AllReal (S := S50x64) (U3 m' c (Proc.devRef .tc main_v154)) := refReal_v154 m' hR c
  have h1 : AllReal (S := S50x1) (U3 m' c (Proc.devRef .tc main_v156)) := refReal_v156 m' hR c
  have h2 : AllReal (S := S150000x1) (U3 m' c (Proc.devRef .tc main_v155)) := refReal_v155 m' hR c
  have h3 : AllReal (S := S64x64) (U3 m' c (Proc.devRef .tc main_v140)) := refReal_v140 m' hR c
  have h4 : AllReal (S := S64) (U3 m' c (Proc.devRef .tc main_v142)) := refReal_v142 m' hR c
  have h5 : AllReal (S := S50x64) (U3 m' c (Proc.devRef .tc main_arg2)) := allReal_of_eq ((U3_of m' c main_arg2 (by decide)).trans ((U2_of m' c main_arg2 (by decide)).trans (U1_of m' c main_arg2 (by decide)))) ((hR c).2.2.1)
  have h6 : AllReal (S := S64x64) (U3 m' c (Proc.devRef .tc main_v144)) := refReal_v144 m' hR c
  show AllReal (S := S50x64) (after ops3 (U3 m' c) (Proc.devRef .tc main_v170))
  generalize U3 m' c = V at h0 h1 h2 h3 h4 h5 h6 ⊢
  after_results_simp
  allreal

/-- v186: a scatter-add of v183 onto v184. -/
theorem refReal_v186 (m' : (ℓ : Loc nD τ sig) → Buf (Elt Ideal) ℓ) (hR : RefArgsReal m') (c : Dev nD) :
    AllReal (U4 m' c (Proc.devRef .tc main_v186)) := by
  have h0 : AllReal (S := S20000x64) (U3 m' c (Proc.devRef .tc main_arg3)) := allReal_of_eq ((U3_of m' c main_arg3 (by decide)).trans ((U2_of m' c main_arg3 (by decide)).trans (U1_of m' c main_arg3 (by decide)))) ((hR c).2.2.2.1)
  show AllReal (S := S50000x64) (after ops3 (U3 m' c) (Proc.devRef .tc main_v186))
  generalize U3 m' c = V at h0 ⊢
  after_results_simp
  allreal

/-- v190: a scatter-add of v187 onto v188. -/
theorem refReal_v190 (m' : (ℓ : Loc nD τ sig) → Buf (Elt Ideal) ℓ) (hR : RefArgsReal m') (c : Dev nD) :
    AllReal (U4 m' c (Proc.devRef .tc main_v190)) := by
  show AllReal (S := S50000x1) (after ops3 (U3 m' c) (Proc.devRef .tc main_v190))
  generalize U3 m' c = V
  after_results_simp
  allreal

/-- v203: the sum of v138, v202. -/
theorem refReal_v203 (m' : (ℓ : Loc nD τ sig) → Buf (Elt Ideal) ℓ) (hR : RefArgsReal m') (c : Dev nD) :
    AllReal (U4 m' c (Proc.devRef .tc main_v203)) := by
  have h0 : AllReal (S := S50000x64) (U3 m' c (Proc.devRef .tc main_v138)) := refReal_v138 m' hR c
  have h1 : AllReal (S := S20000x64) (U3 m' c (Proc.devRef .tc main_arg3)) := allReal_of_eq ((U3_of m' c main_arg3 (by decide)).trans ((U2_of m' c main_arg3 (by decide)).trans (U1_of m' c main_arg3 (by decide)))) ((hR c).2.2.2.1)
  have h2 : AllReal (S := S8x64x64) (U3 m' c (Proc.devRef .tc main_arg9)) := allReal_of_eq ((U3_of m' c main_arg9 (by decide)).trans ((U2_of m' c main_arg9 (by decide)).trans (U1_of m' c main_arg9 (by decide)))) ((hR c).2.2.2.2.2.2.2.2.2.1)
  have h3 : AllReal (S := S8x64) (U3 m' c (Proc.devRef .tc main_arg10)) := allReal_of_eq ((U3_of m' c main_arg10 (by decide)).trans ((U2_of m' c main_arg10 (by decide)).trans (U1_of m' c main_arg10 (by decide)))) ((hR c).2.2.2.2.2.2.2.2.2.2.1)
  have h4 : AllReal (S := S50000x64) (U3 m' c (Proc.devRef .tc main_v9)) := allReal_of_eq ((U3_of m' c main_v9 (by decide)).trans (U2_of m' c main_v9 (by decide))) (refReal_v9 m' hR c)
  have h5 : AllReal (S := S8x64x64) (U3 m' c (Proc.devRef .tc main_arg11)) := allReal_of_eq ((U3_of m' c main_arg11 (by decide)).trans ((U2_of m' c main_arg11 (by decide)).trans (U1_of m' c main_arg11 (by decide)))) ((hR c).2.2.2.2.2.2.2.2.2.2.2.1)
  show AllReal (S := S50000x64) (after ops3 (U3 m' c) (Proc.devRef .tc main_v203))
  generalize U3 m' c = V at h0 h1 h2 h3 h4 h5 ⊢
  after_results_simp
  allreal

/-- v205: a reshape of v204. -/
theorem refReal_v205 (m' : (ℓ : Loc nD τ sig) → Buf (Elt Ideal) ℓ) (hR : RefArgsReal m') (c : Dev nD) :
    AllReal (U4 m' c (Proc.devRef .tc main_v205)) := by
  have h0 : AllReal (S := S8x64x64) (U3 m' c (Proc.devRef .tc main_arg9)) := allReal_of_eq ((U3_of m' c main_arg9 (by decide)).trans ((U2_of m' c main_arg9 (by decide)).trans (U1_of m' c main_arg9 (by decide)))) ((hR c).2.2.2.2.2.2.2.2.2.1)
  show AllReal (S := S64x64) (after ops3 (U3 m' c) (Proc.devRef .tc main_v205))
  generalize U3 m' c = V at h0 ⊢
  after_results_simp
  allreal

/-- v207: a reshape of v206. -/
theorem refReal_v207 (m' : (ℓ : Loc nD τ sig) → Buf (Elt Ideal) ℓ) (hR : RefArgsReal m') (c : Dev nD) :
    AllReal (U4 m' c (Proc.devRef .tc main_v207)) := by
  have h0 : AllReal (S := S8x64) (U3 m' c (Proc.devRef .tc main_arg10)) := allReal_of_eq ((U3_of m' c main_arg10 (by decide)).trans ((U2_of m' c main_arg10 (by decide)).trans (U1_of m' c main_arg10 (by decide)))) ((hR c).2.2.2.2.2.2.2.2.2.2.1)
  show AllReal (S := S64) (after ops3 (U3 m' c) (Proc.devRef .tc main_v207))
  generalize U3 m' c = V at h0 ⊢
  after_results_simp
  allreal

/-- v209: a reshape of v208. -/
theorem refReal_v209 (m' : (ℓ : Loc nD τ sig) → Buf (Elt Ideal) ℓ) (hR : RefArgsReal m') (c : Dev nD) :
    AllReal (U4 m' c (Proc.devRef .tc main_v209)) := by
  have h0 : AllReal (S := S8x64x64) (U3 m' c (Proc.devRef .tc main_arg11)) := allReal_of_eq ((U3_of m' c main_arg11 (by decide)).trans ((U2_of m' c main_arg11 (by decide)).trans (U1_of m' c main_arg11 (by decide)))) ((hR c).2.2.2.2.2.2.2.2.2.2.2.1)
  show AllReal (S := S64x64) (after ops3 (U3 m' c) (Proc.devRef .tc main_v209))
  generalize U3 m' c = V at h0 ⊢
  after_results_simp
  allreal

/-- v219: a scatter-add of v216 onto v217. -/
theorem refReal_v219 (m' : (ℓ : Loc nD τ sig) → Buf (Elt Ideal) ℓ) (hR : RefArgsReal m') (c : Dev nD) :
    AllReal (U5 m' c (Proc.devRef .tc main_v219)) := by
  have h0 : AllReal (S := S50000x64) (U4 m' c (Proc.devRef .tc main_v9)) := allReal_of_eq ((U4_of m' c main_v9 (by decide)).trans ((U3_of m' c main_v9 (by decide)).trans (U2_of m' c main_v9 (by decide)))) (refReal_v9 m' hR c)
  show AllReal (S := S20000x64) (after ops4 (U4 m' c) (Proc.devRef .tc main_v219))
  generalize U4 m' c = V at h0 ⊢
  after_results_simp
  allreal

/-- v223: a scatter-add of v220 onto v221. -/
theorem refReal_v223 (m' : (ℓ : Loc nD τ sig) → Buf (Elt Ideal) ℓ) (hR : RefArgsReal m') (c : Dev nD) :
    AllReal (U5 m' c (Proc.devRef .tc main_v223)) := by
  show AllReal (S := S20000x1) (after ops4 (U4 m' c) (Proc.devRef .tc main_v223))
  generalize U4 m' c = V
  after_results_simp
  allreal

/-- v235: the sum of v232, v234. -/
theorem refReal_v235 (m' : (ℓ : Loc nD τ sig) → Buf (Elt Ideal) ℓ) (hR : RefArgsReal m') (c : Dev nD) :
    AllReal (U5 m' c (Proc.devRef .tc main_v235)) := by
  have h0 : AllReal (S := S50000x64) (U4 m' c (Proc.devRef .tc main_v9)) := allReal_of_eq ((U4_of m' c main_v9 (by decide)).trans ((U3_of m' c main_v9 (by decide)).trans (U2_of m' c main_v9 (by decide)))) (refReal_v9 m' hR c)
  have h1 : AllReal (S := S64x64) (U4 m' c (Proc.devRef .tc main_v205)) := refReal_v205 m' hR c
  have h2 : AllReal (S := S64) (U4 m' c (Proc.devRef .tc main_v207)) := refReal_v207 m' hR c
  have h3 : AllReal (S := S20000x64) (U4 m' c (Proc.devRef .tc main_arg3)) := allReal_of_eq ((U4_of m' c main_arg3 (by decide)).trans ((U3_of m' c main_arg3 (by decide)).trans ((U2_of m' c main_arg3 (by decide)).trans (U1_of m' c main_arg3 (by decide))))) ((hR c).2.2.2.1)
  have h4 : AllReal (S := S64x64) (U4 m' c (Proc.devRef .tc main_v209)) := refReal_v209 m' hR c
  show AllReal (S := S20000x64) (after ops4 (U4 m' c) (Proc.devRef .tc main_v235))
  generalize U4 m' c = V at h0 h1 h2 h3 h4 ⊢
  after_results_simp
  allreal

/-- v237: a reshape of v236. -/
theorem refReal_v237 (m' : (ℓ : Loc nD τ sig) → Buf (Elt Ideal) ℓ) (hR : RefArgsReal m') (c : Dev nD) :
    AllReal (U5 m' c (Proc.devRef .tc main_v237)) := by
  have h0 : AllReal (S := S8x64x64) (U4 m' c (Proc.devRef .tc main_arg9)) := allReal_of_eq ((U4_of m' c main_arg9 (by decide)).trans ((U3_of m' c main_arg9 (by decide)).trans ((U2_of m' c main_arg9 (by decide)).trans (U1_of m' c main_arg9 (by decide))))) ((hR c).2.2.2.2.2.2.2.2.2.1)
  show AllReal (S := S64x64) (after ops4 (U4 m' c) (Proc.devRef .tc main_v237))
  generalize U4 m' c = V at h0 ⊢
  after_results_simp
  allreal

/-- v239: a reshape of v238. -/
theorem refReal_v239 (m' : (ℓ : Loc nD τ sig) → Buf (Elt Ideal) ℓ) (hR : RefArgsReal m') (c : Dev nD) :
    AllReal (U5 m' c (Proc.devRef .tc main_v239)) := by
  have h0 : AllReal (S := S8x64) (U4 m' c (Proc.devRef .tc main_arg10)) := allReal_of_eq ((U4_of m' c main_arg10 (by decide)).trans ((U3_of m' c main_arg10 (by decide)).trans ((U2_of m' c main_arg10 (by decide)).trans (U1_of m' c main_arg10 (by decide))))) ((hR c).2.2.2.2.2.2.2.2.2.2.1)
  show AllReal (S := S64) (after ops4 (U4 m' c) (Proc.devRef .tc main_v239))
  generalize U4 m' c = V at h0 ⊢
  after_results_simp
  allreal

/-- v241: a reshape of v240. -/
theorem refReal_v241 (m' : (ℓ : Loc nD τ sig) → Buf (Elt Ideal) ℓ) (hR : RefArgsReal m') (c : Dev nD) :
    AllReal (U5 m' c (Proc.devRef .tc main_v241)) := by
  have h0 : AllReal (S := S8x64x64) (U4 m' c (Proc.devRef .tc main_arg11)) := allReal_of_eq ((U4_of m' c main_arg11 (by decide)).trans ((U3_of m' c main_arg11 (by decide)).trans ((U2_of m' c main_arg11 (by decide)).trans (U1_of m' c main_arg11 (by decide))))) ((hR c).2.2.2.2.2.2.2.2.2.2.2.1)
  show AllReal (S := S64x64) (after ops4 (U4 m' c) (Proc.devRef .tc main_v241))
  generalize U4 m' c = V at h0 ⊢
  after_results_simp
  allreal

/-- v251: a scatter-add of v248 onto v249. -/
theorem refReal_v251 (m' : (ℓ : Loc nD τ sig) → Buf (Elt Ideal) ℓ) (hR : RefArgsReal m') (c : Dev nD) :
    AllReal (U5 m' c (Proc.devRef .tc main_v251)) := by
  have h0 : AllReal (S := S10x64) (U4 m' c (Proc.devRef .tc main_arg4)) := allReal_of_eq ((U4_of m' c main_arg4 (by decide)).trans ((U3_of m' c main_arg4 (by decide)).trans ((U2_of m' c main_arg4 (by decide)).trans (U1_of m' c main_arg4 (by decide))))) ((hR c).2.2.2.2.1)
  show AllReal (S := S50000x64) (after ops4 (U4 m' c) (Proc.devRef .tc main_v251))
  generalize U4 m' c = V at h0 ⊢
  after_results_simp
  allreal

/-- v255: a scatter-add of v252 onto v253. -/
theorem refReal_v255 (m' : (ℓ : Loc nD τ sig) → Buf (Elt Ideal) ℓ) (hR : RefArgsReal m') (c : Dev nD) :
    AllReal (U5 m' c (Proc.devRef .tc main_v255)) := by
  show AllReal (S := S50000x1) (after ops4 (U4 m' c) (Proc.devRef .tc main_v255))
  generalize U4 m' c = V
  after_results_simp
  allreal

/-- v257: the maximum of v255, v256. -/
theorem refReal_v257 (m' : (ℓ : Loc nD τ sig) → Buf (Elt Ideal) ℓ) (hR : RefArgsReal m') (c : Dev nD) :
    AllReal (U5 m' c (Proc.devRef .tc main_v257)) := by
  show AllReal (S := S50000x1) (after ops4 (U4 m' c) (Proc.devRef .tc main_v257))
  generalize U4 m' c = V
  after_results_simp
  allreal

/-- v284: a scatter-add of v281 onto v282. -/
theorem refReal_v284 (m' : (ℓ : Loc nD τ sig) → Buf (Elt Ideal) ℓ) (hR : RefArgsReal m') (c : Dev nD) :
    AllReal (U6 m' c (Proc.devRef .tc main_v284)) := by
  have h0 : AllReal (S := S50000x64) (U5 m' c (Proc.devRef .tc main_v9)) := allReal_of_eq ((U5_of m' c main_v9 (by decide)).trans ((U4_of m' c main_v9 (by decide)).trans ((U3_of m' c main_v9 (by decide)).trans (U2_of m' c main_v9 (by decide))))) (refReal_v9 m' hR c)
  show AllReal (S := S10x64) (after ops5 (U5 m' c) (Proc.devRef .tc main_v284))
  generalize U5 m' c = V at h0 ⊢
  after_results_simp
  allreal

/-- v288: a scatter-add of v285 onto v286. -/
theorem refReal_v288 (m' : (ℓ : Loc nD τ sig) → Buf (Elt Ideal) ℓ) (hR : RefArgsReal m') (c : Dev nD) :
    AllReal (U6 m' c (Proc.devRef .tc main_v288)) := by
  show AllReal (S := S10x1) (after ops5 (U5 m' c) (Proc.devRef .tc main_v288))
  generalize U5 m' c = V
  after_results_simp
  allreal

/-- v301: the maximum of v105, call0_v0. -/
theorem refReal_v301 (m' : (ℓ : Loc nD τ sig) → Buf (Elt Ideal) ℓ) (hR : RefArgsReal m') (c : Dev nD) :
    AllReal (U6 m' c (Proc.devRef .tc main_v301)) := by
  have h0 : AllReal (S := S100000x64) (U5 m' c (Proc.devRef .tc main_v105)) := allReal_of_eq ((U5_of m' c main_v105 (by decide)).trans ((U4_of m' c main_v105 (by decide)).trans (U3_of m' c main_v105 (by decide)))) (refReal_v105 m' hR c)
  show AllReal (S := S100000x64) (after ops5 (U5 m' c) (Proc.devRef .tc main_v301))
  generalize U5 m' c = V at h0 ⊢
  after_results_simp
  show AllReal (S := S100000x64) (maximumf (F := Ideal) (φ := .f32) _ _)
  apply AllReal.maximumf
  · exact h0
  · show AllReal (S := S100000x64) (broadcastInDim S100000x64 ![] bcast_S_S100000x64 (constant (F := Ideal) S_ .f32 0x00000000#32))
    exact AllReal.broadcastInDim (AllReal.constant_zero _) _ _

/-- v257: the maximum of the count v255 and the splat of one has entries at least one. -/
theorem refGe1_v257 (m' : (ℓ : Loc nD τ sig) → Buf (Elt Ideal) ℓ) (c : Dev nD) :
    ∀ y : S50000x1.Idx, (1 : EReal) ≤ U5 m' c (Proc.devRef .tc main_v257) y := by
  show ∀ y : S50000x1.Idx, (1 : EReal) ≤ after ops4 (U4 m' c) (Proc.devRef .tc main_v257) y
  generalize U4 m' c = V
  after_results_simp
  exact ge1_max_one _ _ _

/-- v302: the maximum of v268, call1_v0. -/
theorem refReal_v302 (m' : (ℓ : Loc nD τ sig) → Buf (Elt Ideal) ℓ) (hR : RefArgsReal m') (c : Dev nD) :
    AllReal (U6 m' c (Proc.devRef .tc main_v302)) := by
  have h0 : AllReal (S := S50000x64) (U5 m' c (Proc.devRef .tc main_v203)) := allReal_of_eq (U5_of m' c main_v203 (by decide)) (refReal_v203 m' hR c)
  have h1 : AllReal (S := S50000x64) (U5 m' c (Proc.devRef .tc main_v251)) := refReal_v251 m' hR c
  have h2 : AllReal (S := S50000x1) (U5 m' c (Proc.devRef .tc main_v257)) := refReal_v257 m' hR c
  have h3 : AllReal (S := S64x64) (U5 m' c (Proc.devRef .tc main_v237)) := refReal_v237 m' hR c
  have h4 : AllReal (S := S64) (U5 m' c (Proc.devRef .tc main_v239)) := refReal_v239 m' hR c
  have h5 : AllReal (S := S50000x64) (U5 m' c (Proc.devRef .tc main_v9)) := allReal_of_eq ((U5_of m' c main_v9 (by decide)).trans ((U4_of m' c main_v9 (by decide)).trans ((U3_of m' c main_v9 (by decide)).trans (U2_of m' c main_v9 (by decide))))) (refReal_v9 m' hR c)
  have h6 : AllReal (S := S64x64) (U5 m' c (Proc.devRef .tc main_v241)) := refReal_v241 m' hR c
  have hge : ∀ y : S50000x1.Idx, (1 : EReal) ≤ U5 m' c (Proc.devRef .tc main_v257) y := refGe1_v257 m' c
  show AllReal (S := S50000x64) (after ops5 (U5 m' c) (Proc.devRef .tc main_v302))
  generalize U5 m' c = V at h0 h1 h2 h3 h4 h5 h6 hge ⊢
  after_results_simp
  show AllReal (S := S50000x64) (maximumf (F := Ideal) (φ := .f32) _ _)
  apply AllReal.maximumf
  · show AllReal (S := S50000x64) (addf (F := Ideal) (φ := .f32) _ _)
    allreal
  · show AllReal (S := S50000x64) (broadcastInDim S50000x64 ![] bcast_S_S50000x64 (constant (F := Ideal) S_ .f32 0x00000000#32))
    exact AllReal.broadcastInDim (AllReal.constant_zero _) _ _

/-- v303: the maximum of v170, call2_v0. -/
theorem refReal_v303 (m' : (ℓ : Loc nD τ sig) → Buf (Elt Ideal) ℓ) (hR : RefArgsReal m') (c : Dev nD) :
    AllReal (U6 m' c (Proc.devRef .tc main_v303)) := by
  have h0 : AllReal (S := S50x64) (U5 m' c (Proc.devRef .tc main_v170)) := allReal_of_eq (U5_of m' c main_v170 (by decide)) (refReal_v170 m' hR c)
  show AllReal (S := S50x64) (after ops5 (U5 m' c) (Proc.devRef .tc main_v303))
  generalize U5 m' c = V at h0 ⊢
  after_results_simp
  show AllReal (S := S50x64) (maximumf (F := Ideal) (φ := .f32) _ _)
  apply AllReal.maximumf
  · exact h0
  · show AllReal (S := S50x64) (broadcastInDim S50x64 ![] bcast_S_S50x64 (constant (F := Ideal) S_ .f32 0x00000000#32))
    exact AllReal.broadcastInDim (AllReal.constant_zero _) _ _

/-- v304: the maximum of v235, call3_v0. -/
theorem refReal_v304 (m' : (ℓ : Loc nD τ sig) → Buf (Elt Ideal) ℓ) (hR : RefArgsReal m') (c : Dev nD) :
    AllReal (U6 m' c (Proc.devRef .tc main_v304)) := by
  have h0 : AllReal (S := S20000x64) (U5 m' c (Proc.devRef .tc main_v235)) := refReal_v235 m' hR c
  show AllReal (S := S20000x64) (after ops5 (U5 m' c) (Proc.devRef .tc main_v304))
  generalize U5 m' c = V at h0 ⊢
  after_results_simp
  show AllReal (S := S20000x64) (maximumf (F := Ideal) (φ := .f32) _ _)
  apply AllReal.maximumf
  · exact h0
  · show AllReal (S := S20000x64) (broadcastInDim S20000x64 ![] bcast_S_S20000x64 (constant (F := Ideal) S_ .f32 0x00000000#32))
    exact AllReal.broadcastInDim (AllReal.constant_zero _) _ _

/-- v305: the maximum of v300, call4_v0. -/
theorem refReal_v305 (m' : (ℓ : Loc nD τ sig) → Buf (Elt Ideal) ℓ) (hR : RefArgsReal m') (c : Dev nD) :
    AllReal (U6 m' c (Proc.devRef .tc main_v305)) := by
  have h0 : AllReal (S := S50000x64) (U5 m' c (Proc.devRef .tc main_v9)) := allReal_of_eq ((U5_of m' c main_v9 (by decide)).trans ((U4_of m' c main_v9 (by decide)).trans ((U3_of m' c main_v9 (by decide)).trans (U2_of m' c main_v9 (by decide))))) (refReal_v9 m' hR c)
  have h1 : AllReal (S := S8x64x64) (U5 m' c (Proc.devRef .tc main_arg9)) := allReal_of_eq ((U5_of m' c main_arg9 (by decide)).trans ((U4_of m' c main_arg9 (by decide)).trans ((U3_of m' c main_arg9 (by decide)).trans ((U2_of m' c main_arg9 (by decide)).trans (U1_of m' c main_arg9 (by decide)))))) ((hR c).2.2.2.2.2.2.2.2.2.1)
  have h2 : AllReal (S := S8x64) (U5 m' c (Proc.devRef .tc main_arg10)) := allReal_of_eq ((U5_of m' c main_arg10 (by decide)).trans ((U4_of m' c main_arg10 (by decide)).trans ((U3_of m' c main_arg10 (by decide)).trans ((U2_of m' c main_arg10 (by decide)).trans (U1_of m' c main_arg10 (by decide)))))) ((hR c).2.2.2.2.2.2.2.2.2.2.1)
  have h3 : AllReal (S := S10x64) (U5 m' c (Proc.devRef .tc main_arg4)) := allReal_of_eq ((U5_of m' c main_arg4 (by decide)).trans ((U4_of m' c main_arg4 (by decide)).trans ((U3_of m' c main_arg4 (by decide)).trans ((U2_of m' c main_arg4 (by decide)).trans (U1_of m' c main_arg4 (by decide)))))) ((hR c).2.2.2.2.1)
  have h4 : AllReal (S := S8x64x64) (U5 m' c (Proc.devRef .tc main_arg11)) := allReal_of_eq ((U5_of m' c main_arg11 (by decide)).trans ((U4_of m' c main_arg11 (by decide)).trans ((U3_of m' c main_arg11 (by decide)).trans ((U2_of m' c main_arg11 (by decide)).trans (U1_of m' c main_arg11 (by decide)))))) ((hR c).2.2.2.2.2.2.2.2.2.2.2.1)
  show AllReal (S := S10x64) (after ops5 (U5 m' c) (Proc.devRef .tc main_v305))
  generalize U5 m' c = V at h0 h1 h2 h3 h4 ⊢
  after_results_simp
  show AllReal (S := S10x64) (maximumf (F := Ideal) (φ := .f32) _ _)
  apply AllReal.maximumf
  · show AllReal (S := S10x64) (addf (F := Ideal) (φ := .f32) _ _)
    allreal
  · show AllReal (S := S10x64) (broadcastInDim S10x64 ![] bcast_S_S10x64 (constant (F := Ideal) S_ .f32 0x00000000#32))
    exact AllReal.broadcastInDim (AllReal.constant_zero _) _ _

/-- v321: a scatter-add of v318 onto v319. -/
theorem refReal_v321 (m' : (ℓ : Loc nD τ sig) → Buf (Elt Ideal) ℓ) (hR : RefArgsReal m') (c : Dev nD) :
    AllReal (U7 m' c (Proc.devRef .tc main_v321)) := by
  have h0 : AllReal (S := S100000x64) (U6 m' c (Proc.devRef .tc main_v301)) := refReal_v301 m' hR c
  show AllReal (S := S50000x64) (after ops6 (U6 m' c) (Proc.devRef .tc main_v321))
  generalize U6 m' c = V at h0 ⊢
  after_results_simp
  allreal

/-- v325: a scatter-add of v322 onto v323. -/
theorem refReal_v325 (m' : (ℓ : Loc nD τ sig) → Buf (Elt Ideal) ℓ) (hR : RefArgsReal m') (c : Dev nD) :
    AllReal (U7 m' c (Proc.devRef .tc main_v325)) := by
  show AllReal (S := S50000x1) (after ops6 (U6 m' c) (Proc.devRef .tc main_v325))
  generalize U6 m' c = V
  after_results_simp
  allreal

/-- v385: a scatter-add of v382 onto v383. -/
theorem refReal_v385 (m' : (ℓ : Loc nD τ sig) → Buf (Elt Ideal) ℓ) (hR : RefArgsReal m') (c : Dev nD) :
    AllReal (U8 m' c (Proc.devRef .tc main_v385)) := by
  have h0 : AllReal (S := S50x64) (U7 m' c (Proc.devRef .tc main_v303)) := allReal_of_eq (U7_of m' c main_v303 (by decide)) (refReal_v303 m' hR c)
  show AllReal (S := S50000x64) (after ops7 (U7 m' c) (Proc.devRef .tc main_v385))
  generalize U7 m' c = V at h0 ⊢
  after_results_simp
  allreal

/-- v389: a scatter-add of v386 onto v387. -/
theorem refReal_v389 (m' : (ℓ : Loc nD τ sig) → Buf (Elt Ideal) ℓ) (hR : RefArgsReal m') (c : Dev nD) :
    AllReal (U8 m' c (Proc.devRef .tc main_v389)) := by
  show AllReal (S := S50000x1) (after ops7 (U7 m' c) (Proc.devRef .tc main_v389))
  generalize U7 m' c = V
  after_results_simp
  allreal

/-- v450: a scatter-add of v447 onto v448. -/
theorem refReal_v450 (m' : (ℓ : Loc nD τ sig) → Buf (Elt Ideal) ℓ) (hR : RefArgsReal m') (c : Dev nD) :
    AllReal (U9 m' c (Proc.devRef .tc main_v450)) := by
  have h0 : AllReal (S := S20000x64) (U8 m' c (Proc.devRef .tc main_v304)) := allReal_of_eq ((U8_of m' c main_v304 (by decide)).trans (U7_of m' c main_v304 (by decide))) (refReal_v304 m' hR c)
  show AllReal (S := S50000x64) (after ops8 (U8 m' c) (Proc.devRef .tc main_v450))
  generalize U8 m' c = V at h0 ⊢
  after_results_simp
  allreal

/-- v454: a scatter-add of v451 onto v452. -/
theorem refReal_v454 (m' : (ℓ : Loc nD τ sig) → Buf (Elt Ideal) ℓ) (hR : RefArgsReal m') (c : Dev nD) :
    AllReal (U9 m' c (Proc.devRef .tc main_v454)) := by
  show AllReal (S := S50000x1) (after ops8 (U8 m' c) (Proc.devRef .tc main_v454))
  generalize U8 m' c = V
  after_results_simp
  allreal

/-- v512: rows gathered from v305. -/
theorem refReal_v512 (m' : (ℓ : Loc nD τ sig) → Buf (Elt Ideal) ℓ) (hR : RefArgsReal m') (c : Dev nD) :
    AllReal (U10 m' c (Proc.devRef .tc main_v512)) := by
  have h0 : AllReal (S := S10x64) (U9 m' c (Proc.devRef .tc main_v305)) := allReal_of_eq ((U9_of m' c main_v305 (by decide)).trans ((U8_of m' c main_v305 (by decide)).trans (U7_of m' c main_v305 (by decide)))) (refReal_v305 m' hR c)
  show AllReal (S := S50000x64) (after ops9 (U9 m' c) (Proc.devRef .tc main_v512))
  generalize U9 m' c = V at h0 ⊢
  after_results_simp
  allreal

/-- cst_84: a constant. -/
theorem refReal_cst_84 (m' : (ℓ : Loc nD τ sig) → Buf (Elt Ideal) ℓ) (hR : RefArgsReal m') (c : Dev nD) :
    AllReal (U10 m' c (Proc.devRef .tc main_cst_84)) := by
  show AllReal (S := S_) (after ops9 (U9 m' c) (Proc.devRef .tc main_cst_84))
  generalize U9 m' c = V
  after_results_simp
  allreal

/-- v515: a scatter-add of v512 onto v513. -/
theorem refReal_v515 (m' : (ℓ : Loc nD τ sig) → Buf (Elt Ideal) ℓ) (hR : RefArgsReal m') (c : Dev nD) :
    AllReal (U11 m' c (Proc.devRef .tc main_v515)) := by
  have h0 : AllReal (S := S_) (U10 m' c (Proc.devRef .tc main_cst_84)) := refReal_cst_84 m' hR c
  have h1 : AllReal (S := S50000x64) (U10 m' c (Proc.devRef .tc main_v512)) := refReal_v512 m' hR c
  show AllReal (S := S50000x64) (after ops10 (U10 m' c) (Proc.devRef .tc main_v515))
  generalize U10 m' c = V at h0 h1 ⊢
  after_results_simp
  allreal

/-- v519: a scatter-add of v516 onto v517. -/
theorem refReal_v519 (m' : (ℓ : Loc nD τ sig) → Buf (Elt Ideal) ℓ) (hR : RefArgsReal m') (c : Dev nD) :
    AllReal (U11 m' c (Proc.devRef .tc main_v519)) := by
  show AllReal (S := S50000x1) (after ops10 (U10 m' c) (Proc.devRef .tc main_v519))
  generalize U10 m' c = V
  after_results_simp
  allreal

end Cert.Sim

end
-- ==== Proof.Sim.Finite.lean ====
/-
  FINITE INPUTS ARE REAL INPUTS. The precondition says, of each of the fifteen float arguments, that every entry x has
  |x| < +inf, all these facts conjoined into one bit that is 1. At the ideal values a float is an extended real, |x| is
  max x (-x), the pattern 0x7F800000 is the top element, and both infinities (the bottom element also stands for the junk
  value) have |x| equal to the top element; so |x| < +inf leaves exactly the reals. One lemma over an arbitrary shape reads
  "the conjunction over all entries of |x| < +inf is 1" as "every entry of x is a real"; the precondition, split at its
  fourteen binary conjunctions, gives that hypothesis for each argument in turn.
-/
import proofs.«417513_j58866821759238_4_alg».proof.Defs
import proofs.«417513_j58866821759238_4_alg».proof.Proof.LibAllReal
import Idealize.ShloMosaic.Lib.ReduceAll
import Idealize.ShloMosaic.Lib.ValueIdx

noncomputable section

namespace Cert.Sim

open Idealize.ShloMosaic
open Cert.LibAllReal

/-- The rank-0 shape has one index. -/
instance : Subsingleton Cert.Pre_finite_inputs.S_.Idx := ⟨fun a b => funext fun d => d.elim0⟩

/-- The f32 pattern 0x7F800000 denotes +inf, the top element. -/
theorem inf_eq_top : Ideal.ofBits .f32 0x7F800000#32 = (⊤ : EReal) := by simp [Ideal.ofBits, Ideal.ieee]

/-- An extended real x with |x| < +inf is a real: at either infinity |x| is the top element. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | top => simp [Ideal.cmp] at h
  | coe r => exact ⟨r, rfl⟩

/-- Over any shape: if |x| < (the splat of +inf) holds at every entry, every entry of x is a real. -/
theorem allReal_of_cmp {S S0 : Shape} (dims : Fin S0.rank → Fin S.rank) (hb : S0.BroadcastsInDim S dims)
    (x : FVec Ideal S .f32)
    (h : ∀ y, cmpf .olt (Host.absf x) (broadcastInDim S dims hb (constant (F := Ideal) S0 .f32 0x7F800000#32)) y = 1#1) :
    AllReal x := fun y => real_of_abs_lt_inf (x y) (h y)

/-- Over any shape: if the conjunction over ALL entries of |x| < +inf (a reduction by `and` into a result of one index)
    is 1, every entry of x is a real. -/
theorem allReal_of_all {S T U0 S0 : Shape} [Subsingleton T.Idx] {axes : List (Fin S.rank)}
    (dims : Fin S0.rank → Fin S.rank) (hb : S0.BroadcastsInDim S dims)
    (hr : S.ReducesTo axes T) (hu : 0 < U0.numel) (x : FVec Ideal S .f32) (init : IVec U0 1) (j : T.Idx)
    (e : Host.reduce IntOp.andi
          (cmpf .olt (Host.absf x) (broadcastInDim S dims hb (constant (F := Ideal) S0 .f32 0x7F800000#32))) init hr hu j = 1#1) :
    AllReal x :=
  allReal_of_cmp dims hb x (Host.reduce_andi_all _ init hr hu j e)

/-- THE PRECONDITION DECODED: on every device, every entry of each of the fifteen float arguments is a real. -/
theorem args_real [hF : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.LibAllReal.AllReal (m ((c.tc : Thread Cert.KernelIdeal.nD Cert.KernelIdeal.τ).loc Cert.KernelIdeal.main_arg0))
      ∧ Cert.LibAllReal.AllReal (m ((c.tc : Thread Cert.KernelIdeal.nD Cert.KernelIdeal.τ).loc Cert.KernelIdeal.main_arg1))
      ∧ Cert.LibAllReal.AllReal (m ((c.tc : Thread Cert.KernelIdeal.nD Cert.KernelIdeal.τ).loc Cert.KernelIdeal.main_arg2))
      ∧ Cert.LibAllReal.AllReal (m ((c.tc : Thread Cert.KernelIdeal.nD Cert.KernelIdeal.τ).loc Cert.KernelIdeal.main_arg3))
      ∧ Cert.LibAllReal.AllReal (m ((c.tc : Thread Cert.KernelIdeal.nD Cert.KernelIdeal.τ).loc Cert.KernelIdeal.main_arg4))
      ∧ Cert.LibAllReal.AllReal (m ((c.tc : Thread Cert.KernelIdeal.nD Cert.KernelIdeal.τ).loc Cert.KernelIdeal.main_arg5))
      ∧ Cert.LibAllReal.AllReal (m ((c.tc : Thread Cert.KernelIdeal.nD Cert.KernelIdeal.τ).loc Cert.KernelIdeal.main_arg6))
      ∧ Cert.LibAllReal.AllReal (m ((c.tc : Thread Cert.KernelIdeal.nD Cert.KernelIdeal.τ).loc Cert.KernelIdeal.main_arg7))
      ∧ Cert.LibAllReal.AllReal (m ((c.tc : Thread Cert.KernelIdeal.nD Cert.KernelIdeal.τ).loc Cert.KernelIdeal.main_arg8))
      ∧ Cert.LibAllReal.AllReal (m ((c.tc : Thread Cert.KernelIdeal.nD Cert.KernelIdeal.τ).loc Cert.KernelIdeal.main_arg9))
      ∧ Cert.LibAllReal.AllReal (m ((c.tc : Thread Cert.KernelIdeal.nD Cert.KernelIdeal.τ).loc Cert.KernelIdeal.main_arg10))
      ∧ Cert.LibAllReal.AllReal (m ((c.tc : Thread Cert.KernelIdeal.nD Cert.KernelIdeal.τ).loc Cert.KernelIdeal.main_arg11))
      ∧ Cert.LibAllReal.AllReal (m ((c.tc : Thread Cert.KernelIdeal.nD Cert.KernelIdeal.τ).loc Cert.KernelIdeal.main_arg12))
      ∧ Cert.LibAllReal.AllReal (m ((c.tc : Thread Cert.KernelIdeal.nD Cert.KernelIdeal.τ).loc Cert.KernelIdeal.main_arg13))
      ∧ Cert.LibAllReal.AllReal (m ((c.tc : Thread Cert.KernelIdeal.nD Cert.KernelIdeal.τ).loc Cert.KernelIdeal.main_arg14)) := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := e
  exact ⟨allReal_of_all _ _ _ _ _ _ _ h0,
    allReal_of_all _ _ _ _ _ _ _ h1,
    allReal_of_all _ _ _ _ _ _ _ h2,
    allReal_of_all _ _ _ _ _ _ _ h3,
    allReal_of_all _ _ _ _ _ _ _ h4,
    allReal_of_all _ _ _ _ _ _ _ h5,
    allReal_of_all _ _ _ _ _ _ _ h6,
    allReal_of_all _ _ _ _ _ _ _ h7,
    allReal_of_all _ _ _ _ _ _ _ h8,
    allReal_of_all _ _ _ _ _ _ _ h9,
    allReal_of_all _ _ _ _ _ _ _ h10,
    allReal_of_all _ _ _ _ _ _ _ h11,
    allReal_of_all _ _ _ _ _ _ _ h12,
    allReal_of_all _ _ _ _ _ _ _ h13,
    allReal_of_all _ _ _ _ _ _ _ h14⟩

end Cert.Sim

end
-- ==== Proof.Sim.Final.lean ====
/-
  The value leg assembled: from launch memories that agree on the twenty arguments, the kernel program's score array at the
  end of its run is the reference's. Stage by stage — the two projections, the in-degree counts and the message sums (the same
  host operations on both sides), the five layer-1 results, the two layer-2 results the score reads, the score — each stage's
  equality feeds the next; finiteness of the float arguments (the precondition) is carried along the reference's values to
  the two four-edge-type epilogues, where distributivity is used.
-/
import proofs.«417513_j58866821759238_4_alg».proof.Proof.Sim.X0
import proofs.«417513_j58866821759238_4_alg».proof.Proof.Sim.Idx
import proofs.«417513_j58866821759238_4_alg».proof.Proof.Sim.Agg
import proofs.«417513_j58866821759238_4_alg».proof.Proof.Sim.Agg2
import proofs.«417513_j58866821759238_4_alg».proof.Proof.Sim.Cnt2
import proofs.«417513_j58866821759238_4_alg».proof.Proof.Sim.L1small
import proofs.«417513_j58866821759238_4_alg».proof.Proof.Sim.Users
import proofs.«417513_j58866821759238_4_alg».proof.Proof.Sim.S1
import proofs.«417513_j58866821759238_4_alg».proof.Proof.Sim.S2
import proofs.«417513_j58866821759238_4_alg».proof.Proof.Sim.Score
import proofs.«417513_j58866821759238_4_alg».proof.Proof.Sim.RealRef
import proofs.«417513_j58866821759238_4_alg».proof.Proof.Sim.Finite

set_option maxHeartbeats 4000000

noncomputable section

namespace Cert.Sim

open Idealize.ShloMosaic Idealize.ShloMosaic.TcCoe Idealize.SL.Sem Cert.LibAllReal

/-- The kernel program's score array at the end of its run is the reference's. -/
theorem S_final [hF : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (hpre : Cert.Pre_KernelIdeal m) (c : Dev Cert.KernelIdeal.nD) :
    Cert.KernelIdeal.Gen.W84 m ρ c (Proc.devRef .tc Cert.KernelIdeal.main_v491) = Cert.ReferenceIdeal.Value.U12 m' c (Proc.devRef .tc Cert.ReferenceIdeal.main_v584) := by
  -- the argument agreements, one by one
  have h0 := fun c => (hagree c).1
  have h1 := fun c => (hagree c).2.1
  have h2 := fun c => (hagree c).2.2.1
  have h3 := fun c => (hagree c).2.2.2.1
  have h4 := fun c => (hagree c).2.2.2.2.1
  have h5 := fun c => (hagree c).2.2.2.2.2.1
  have h6 := fun c => (hagree c).2.2.2.2.2.2.1
  have h7 := fun c => (hagree c).2.2.2.2.2.2.2.1
  have h8 := fun c => (hagree c).2.2.2.2.2.2.2.2.1
  have h9 := fun c => (hagree c).2.2.2.2.2.2.2.2.2.1
  have h10 := fun c => (hagree c).2.2.2.2.2.2.2.2.2.2.1
  have h11 := fun c => (hagree c).2.2.2.2.2.2.2.2.2.2.2.1
  have h12 := fun c => (hagree c).2.2.2.2.2.2.2.2.2.2.2.2.1
  have h13 := fun c => (hagree c).2.2.2.2.2.2.2.2.2.2.2.2.2.1
  have h14 := fun c => (hagree c).2.2.2.2.2.2.2.2.2.2.2.2.2.2.1
  have h15 := fun c => (hagree c).2.2.2.2.2.2.2.2.2.2.2.2.2.2.2.1
  have h16 := fun c => (hagree c).2.2.2.2.2.2.2.2.2.2.2.2.2.2.2.2.1
  have h17 := fun c => (hagree c).2.2.2.2.2.2.2.2.2.2.2.2.2.2.2.2.2.1
  have h18 := fun c => (hagree c).2.2.2.2.2.2.2.2.2.2.2.2.2.2.2.2.2.2.1
  have h19 := fun c => (hagree c).2.2.2.2.2.2.2.2.2.2.2.2.2.2.2.2.2.2.2
  -- every float argument of the reference's memory is all real
  have hK := Cert.Sim.args_real m hpre
  have hR : RefArgsReal m' := fun c =>
    ⟨allReal_of_eq (h0 c) (hK c).1,
     allReal_of_eq (h1 c) (hK c).2.1,
     allReal_of_eq (h2 c) (hK c).2.2.1,
     allReal_of_eq (h3 c) (hK c).2.2.2.1,
     allReal_of_eq (h4 c) (hK c).2.2.2.2.1,
     allReal_of_eq (h5 c) (hK c).2.2.2.2.2.1,
     allReal_of_eq (h6 c) (hK c).2.2.2.2.2.2.1,
     allReal_of_eq (h7 c) (hK c).2.2.2.2.2.2.2.1,
     allReal_of_eq (h8 c) (hK c).2.2.2.2.2.2.2.2.1,
     allReal_of_eq (h9 c) (hK c).2.2.2.2.2.2.2.2.2.1,
     allReal_of_eq (h10 c) (hK c).2.2.2.2.2.2.2.2.2.2.1,
     allReal_of_eq (h11 c) (hK c).2.2.2.2.2.2.2.2.2.2.2.1,
     allReal_of_eq (h12 c) (hK c).2.2.2.2.2.2.2.2.2.2.2.2.1,
     allReal_of_eq (h13 c) (hK c).2.2.2.2.2.2.2.2.2.2.2.2.2.1,
     allReal_of_eq (h14 c) (hK c).2.2.2.2.2.2.2.2.2.2.2.2.2.2⟩
  -- the projections
  have x0u := S_x0u m ρ m' h0 h5 h6
  have x0s := S_x0s m ρ m' h1 h7 h8
  -- the in-degree counts
  have c41 := S_cnt_v41 m ρ m' h15
  have c45 := S_cnt_v45 m ρ m' h15
  have c49 := S_cnt_v49 m ρ m' h16
  have c53 := S_cnt_v53 m ρ m' h16
  have c57 := S_cnt_v57 m ρ m' h17
  have c61 := S_cnt_v61 m ρ m' h17
  have c65 := S_cnt_v65 m ρ m' h18
  have c69 := S_cnt_v69 m ρ m' h18
  -- layer 1: the message sums
  have a79 := S_agg_v79 m ρ m' h15 x0u
  have a97 := S_agg_v97 m ρ m' h2 h16
  have a115 := S_agg_v115 m ρ m' h3 h17
  have a133 := S_agg_v133 m ρ m' h4 h18
  have a175 := S_agg_v175 m ρ m' h15 x0s
  have a203 := S_agg_v203 m ρ m' h16 x0s
  have a227 := S_agg_v227 m ρ m' h17 x0s
  have a255 := S_agg_v255 m ρ m' h18 x0s
  -- layer 1: the five results
  have u1 := S_u1 (m := m) (ρ := ρ) (m' := m') h9 h10 h11 a175 c45 x0u
  have g1 := S_g1 m ρ m' h2 h9 h10 h11 a203 c53
  have w1 := S_w1 m ρ m' h3 h9 h10 h11 a227 c61
  have t1 := S_t1 m ρ m' h4 h9 h10 h11 a255 c69
  have s1 := S_s1 m ρ m' h9 h10 h11 x0s a79 a97 a115 a133 c41 c49 c57 c65
    (refReal_v9 m' hR) (refReal_v57 m' hR) (refReal_v121 m' hR) (refReal_v186 m' hR) (refReal_v251 m' hR)
    (refReal_v61 m' hR) (refReal_v125 m' hR) (refReal_v190 m' hR) (refReal_v255 m' hR)
    (fun c => (hR c).2.2.2.2.2.2.2.2.2.1) (fun c => (hR c).2.2.2.2.2.2.2.2.2.2.1) (fun c => (hR c).2.2.2.2.2.2.2.2.2.2.2.1)
  -- layer 2: counts as the reference recomputes them, message sums, the two results the score reads
  have d41 := S_cnt2_v41 m ρ m' h15
  have d45 := S_cnt2_v45 m ρ m' h15
  have d49 := S_cnt2_v49 m ρ m' h16
  have d57 := S_cnt2_v57 m ρ m' h17
  have d65 := S_cnt2_v65 m ρ m' h18
  have b279 := S_agg_v279 m ρ m' h15 u1
  have b297 := S_agg_v297 m ρ m' h16 g1
  have b315 := S_agg_v315 m ρ m' h17 w1
  have b333 := S_agg_v333 m ρ m' h18 t1
  have b375 := S_agg_v375 m ρ m' h15 s1
  have u2 := S_u2 (m := m) (ρ := ρ) (m' := m') h12 h13 h14 b375 d45 u1
  have s2 := S_s2 m ρ m' h12 h13 h14 s1 b279 b297 b315 b333 d41 d49 d57 d65
    (refReal_v302 m' hR) (refReal_v321 m' hR) (refReal_v385 m' hR) (refReal_v450 m' hR) (refReal_v515 m' hR)
    (refReal_v325 m' hR) (refReal_v389 m' hR) (refReal_v454 m' hR) (refReal_v519 m' hR)
    (fun c => (hR c).2.2.2.2.2.2.2.2.2.2.2.2.1) (fun c => (hR c).2.2.2.2.2.2.2.2.2.2.2.2.2.1) (fun c => (hR c).2.2.2.2.2.2.2.2.2.2.2.2.2.2)
  -- the score
  exact S_out m ρ m' h19 u2 s2 c

end Cert.Sim

end
-- ==== Proof.lean ====
/-
  The certificate: the kernel program (two dense projections, ten fused GraphSAGE epilogues and the edge scoring as thirteen
  pallas_calls among host operations) against the plain jnp reference.
  * Each program runs to its end, faults nowhere and leaves its twenty arguments unchanged: for the kernel program, at the word level
    and at the ideal values alike, @main is run item by item — a host stretch rewrites the buffers it names, a kernel region
    rewrites its output array block by block — and no item writes an argument; the reference is host operations only.
  * At the ideal values the two programs end with the same scores: the projections, the message sums and the in-degree counts are the
    same operations on both sides; a fused epilogue computes x·(Σ_i Wr_i) + Σ_i b_i + Σ_i mean_i·Wl_i where the reference
    computes Σ_i (mean_i·Wl_i + b_i + x·Wr_i), equal on finite reals by distributivity — which is where the precondition
    (every float input finite) is used, carried through both layers; rows a region pads to its tile are dropped by the slice
    after it; the score is the same lane sum of products.
-/
import proofs.«417513_j58866821759238_4_alg».proof.Defs
import proofs.«417513_j58866821759238_4_alg».proof.Proof.Gen.Kernel
import proofs.«417513_j58866821759238_4_alg».proof.Proof.Gen.KernelIdeal
import proofs.«417513_j58866821759238_4_alg».proof.Proof.Gen.ReferenceIdeal
import proofs.«417513_j58866821759238_4_alg».proof.Proof.Gen.Pre_finite_inputs
import proofs.«417513_j58866821759238_4_alg».proof.Proof.K.Frame
import proofs.«417513_j58866821759238_4_alg».proof.Proof.KI.Frame
import proofs.«417513_j58866821759238_4_alg».proof.Proof.Ref.Run
import proofs.«417513_j58866821759238_4_alg».proof.Proof.Sim.Final
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono
    (fun r h c => ⟨(h c Cert.ReferenceIdeal.main_arg0).trans (Cert.ReferenceIdeal.Value.U12_main_arg0 m c),
      (h c Cert.ReferenceIdeal.main_arg1).trans (Cert.ReferenceIdeal.Value.U12_main_arg1 m c),
      (h c Cert.ReferenceIdeal.main_arg2).trans (Cert.ReferenceIdeal.Value.U12_main_arg2 m c),
      (h c Cert.ReferenceIdeal.main_arg3).trans (Cert.ReferenceIdeal.Value.U12_main_arg3 m c),
      (h c Cert.ReferenceIdeal.main_arg4).trans (Cert.ReferenceIdeal.Value.U12_main_arg4 m c),
      (h c Cert.ReferenceIdeal.main_arg5).trans (Cert.ReferenceIdeal.Value.U12_main_arg5 m c),
      (h c Cert.ReferenceIdeal.main_arg6).trans (Cert.ReferenceIdeal.Value.U12_main_arg6 m c),
      (h c Cert.ReferenceIdeal.main_arg7).trans (Cert.ReferenceIdeal.Value.U12_main_arg7 m c),
      (h c Cert.ReferenceIdeal.main_arg8).trans (Cert.ReferenceIdeal.Value.U12_main_arg8 m c),
      (h c Cert.ReferenceIdeal.main_arg9).trans (Cert.ReferenceIdeal.Value.U12_main_arg9 m c),
      (h c Cert.ReferenceIdeal.main_arg10).trans (Cert.ReferenceIdeal.Value.U12_main_arg10 m c),
      (h c Cert.ReferenceIdeal.main_arg11).trans (Cert.ReferenceIdeal.Value.U12_main_arg11 m c),
      (h c Cert.ReferenceIdeal.main_arg12).trans (Cert.ReferenceIdeal.Value.U12_main_arg12 m c),
      (h c Cert.ReferenceIdeal.main_arg13).trans (Cert.ReferenceIdeal.Value.U12_main_arg13 m c),
      (h c Cert.ReferenceIdeal.main_arg14).trans (Cert.ReferenceIdeal.Value.U12_main_arg14 m c),
      (h c Cert.ReferenceIdeal.main_arg15).trans (Cert.ReferenceIdeal.Value.U12_main_arg15 m c),
      (h c Cert.ReferenceIdeal.main_arg16).trans (Cert.ReferenceIdeal.Value.U12_main_arg16 m c),
      (h c Cert.ReferenceIdeal.main_arg17).trans (Cert.ReferenceIdeal.Value.U12_main_arg17 m c),
      (h c Cert.ReferenceIdeal.main_arg18).trans (Cert.ReferenceIdeal.Value.U12_main_arg18 m c),
      (h c Cert.ReferenceIdeal.main_arg19).trans (Cert.ReferenceIdeal.Value.U12_main_arg19 m c)⟩)
    (Cert.ReferenceIdeal.Value.run (F := Ideal) m ρ)

/-- From memories that agree on the arguments, both programs end, the kernel program's score array equal to the reference's. -/
theorem algebraic : Cert.algebraic_KernelIdeal_ReferenceIdeal := by
  intro m ρ m' ρ' hpre hagree
  refine ⟨fun c => Cert.KernelIdeal.Gen.W84 m ρ c (Proc.devRef .tc Cert.KernelIdeal.main_v491), ?_, ?_⟩
  · exact Cert.KernelIdeal.Gen.run_all m ρ fun s h c =>
      ⟨h c _ (Cert.KernelIdeal.Gen.mem_uc Cert.KernelIdeal.main_v491 (by decide)),
       (h c _ (Cert.KernelIdeal.Gen.mem_uc Cert.KernelIdeal.main_arg0 (by decide))).trans (Cert.KernelIdeal.Gen.W84_main_arg0 m ρ c),
       (h c _ (Cert.KernelIdeal.Gen.mem_uc Cert.KernelIdeal.main_arg1 (by decide))).trans (Cert.KernelIdeal.Gen.W84_main_arg1 m ρ c),
       (h c _ (Cert.KernelIdeal.Gen.mem_uc Cert.KernelIdeal.main_arg2 (by decide))).trans (Cert.KernelIdeal.Gen.W84_main_arg2 m ρ c),
       (h c _ (Cert.KernelIdeal.Gen.mem_uc Cert.KernelIdeal.main_arg3 (by decide))).trans (Cert.KernelIdeal.Gen.W84_main_arg3 m ρ c),
       (h c _ (Cert.KernelIdeal.Gen.mem_uc Cert.KernelIdeal.main_arg4 (by decide))).trans (Cert.KernelIdeal.Gen.W84_main_arg4 m ρ c),
       (h c _ (Cert.KernelIdeal.Gen.mem_uc Cert.KernelIdeal.main_arg5 (by decide))).trans (Cert.KernelIdeal.Gen.W84_main_arg5 m ρ c),
       (h c _ (Cert.KernelIdeal.Gen.mem_uc Cert.KernelIdeal.main_arg6 (by decide))).trans (Cert.KernelIdeal.Gen.W84_main_arg6 m ρ c),
       (h c _ (Cert.KernelIdeal.Gen.mem_uc Cert.KernelIdeal.main_arg7 (by decide))).trans (Cert.KernelIdeal.Gen.W84_main_arg7 m ρ c),
       (h c _ (Cert.KernelIdeal.Gen.mem_uc Cert.KernelIdeal.main_arg8 (by decide))).trans (Cert.KernelIdeal.Gen.W84_main_arg8 m ρ c),
       (h c _ (Cert.KernelIdeal.Gen.mem_uc Cert.KernelIdeal.main_arg9 (by decide))).trans (Cert.KernelIdeal.Gen.W84_main_arg9 m ρ c),
       (h c _ (Cert.KernelIdeal.Gen.mem_uc Cert.KernelIdeal.main_arg10 (by decide))).trans (Cert.KernelIdeal.Gen.W84_main_arg10 m ρ c),
       (h c _ (Cert.KernelIdeal.Gen.mem_uc Cert.KernelIdeal.main_arg11 (by decide))).trans (Cert.KernelIdeal.Gen.W84_main_arg11 m ρ c),
       (h c _ (Cert.KernelIdeal.Gen.mem_uc Cert.KernelIdeal.main_arg12 (by decide))).trans (Cert.KernelIdeal.Gen.W84_main_arg12 m ρ c),
       (h c _ (Cert.KernelIdeal.Gen.mem_uc Cert.KernelIdeal.main_arg13 (by decide))).trans (Cert.KernelIdeal.Gen.W84_main_arg13 m ρ c),
       (h c _ (Cert.KernelIdeal.Gen.mem_uc Cert.KernelIdeal.main_arg14 (by decide))).trans (Cert.KernelIdeal.Gen.W84_main_arg14 m ρ c),
       (h c _ (Cert.KernelIdeal.Gen.mem_uc Cert.KernelIdeal.main_arg15 (by decide))).trans (Cert.KernelIdeal.Gen.W84_main_arg15 m ρ c),
       (h c _ (Cert.KernelIdeal.Gen.mem_uc Cert.KernelIdeal.main_arg16 (by decide))).trans (Cert.KernelIdeal.Gen.W84_main_arg16 m ρ c),
       (h c _ (Cert.KernelIdeal.Gen.mem_uc Cert.KernelIdeal.main_arg17 (by decide))).trans (Cert.KernelIdeal.Gen.W84_main_arg17 m ρ c),
       (h c _ (Cert.KernelIdeal.Gen.mem_uc Cert.KernelIdeal.main_arg18 (by decide))).trans (Cert.KernelIdeal.Gen.W84_main_arg18 m ρ c),
       (h c _ (Cert.KernelIdeal.Gen.mem_uc Cert.KernelIdeal.main_arg19 (by decide))).trans (Cert.KernelIdeal.Gen.W84_main_arg19 m ρ c)⟩
  · refine (θ_run Cert.ReferenceIdeal.defs _ _).mono (fun r h c => ⟨?_, (h c Cert.ReferenceIdeal.main_arg0).trans (Cert.ReferenceIdeal.Value.U12_main_arg0 m' c),
      (h c Cert.ReferenceIdeal.main_arg1).trans (Cert.ReferenceIdeal.Value.U12_main_arg1 m' c),
      (h c Cert.ReferenceIdeal.main_arg2).trans (Cert.ReferenceIdeal.Value.U12_main_arg2 m' c),
      (h c Cert.ReferenceIdeal.main_arg3).trans (Cert.ReferenceIdeal.Value.U12_main_arg3 m' c),
      (h c Cert.ReferenceIdeal.main_arg4).trans (Cert.ReferenceIdeal.Value.U12_main_arg4 m' c),
      (h c Cert.ReferenceIdeal.main_arg5).trans (Cert.ReferenceIdeal.Value.U12_main_arg5 m' c),
      (h c Cert.ReferenceIdeal.main_arg6).trans (Cert.ReferenceIdeal.Value.U12_main_arg6 m' c),
      (h c Cert.ReferenceIdeal.main_arg7).trans (Cert.ReferenceIdeal.Value.U12_main_arg7 m' c),
      (h c Cert.ReferenceIdeal.main_arg8).trans (Cert.ReferenceIdeal.Value.U12_main_arg8 m' c),
      (h c Cert.ReferenceIdeal.main_arg9).trans (Cert.ReferenceIdeal.Value.U12_main_arg9 m' c),
      (h c Cert.ReferenceIdeal.main_arg10).trans (Cert.ReferenceIdeal.Value.U12_main_arg10 m' c),
      (h c Cert.ReferenceIdeal.main_arg11).trans (Cert.ReferenceIdeal.Value.U12_main_arg11 m' c),
      (h c Cert.ReferenceIdeal.main_arg12).trans (Cert.ReferenceIdeal.Value.U12_main_arg12 m' c),
      (h c Cert.ReferenceIdeal.main_arg13).trans (Cert.ReferenceIdeal.Value.U12_main_arg13 m' c),
      (h c Cert.ReferenceIdeal.main_arg14).trans (Cert.ReferenceIdeal.Value.U12_main_arg14 m' c),
      (h c Cert.ReferenceIdeal.main_arg15).trans (Cert.ReferenceIdeal.Value.U12_main_arg15 m' c),
      (h c Cert.ReferenceIdeal.main_arg16).trans (Cert.ReferenceIdeal.Value.U12_main_arg16 m' c),
      (h c Cert.ReferenceIdeal.main_arg17).trans (Cert.ReferenceIdeal.Value.U12_main_arg17 m' c),
      (h c Cert.ReferenceIdeal.main_arg18).trans (Cert.ReferenceIdeal.Value.U12_main_arg18 m' c),
      (h c Cert.ReferenceIdeal.main_arg19).trans (Cert.ReferenceIdeal.Value.U12_main_arg19 m' c)⟩)
      (Cert.ReferenceIdeal.Value.run (F := Ideal) m' ρ')
    exact (h c Cert.ReferenceIdeal.main_v584).trans (Cert.Sim.S_final m ρ m' hagree hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
